-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S65x128x128 : Shape := ⟨3, ![65, 128, 128]⟩
abbrev S65x128 : Shape := ⟨2, ![65, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S65x128x128 : S_.BroadcastsInDim S65x128x128 (![] : Fin 0 → Fin S65x128x128.rank)
  reducesTo_S65x128x128_S_d0_1_2 : S65x128x128.ReducesTo [0, 1, 2] S_
  bcast_S_S65x128 : S_.BroadcastsInDim S65x128 (![] : Fin 0 → Fin S65x128.rank)
  reducesTo_S65x128_S_d0_1 : S65x128.ReducesTo [0, 1] S_

variable [Facts]

def fn {F : FTy → Type} [FloatOps F] (main_arg0 : FVec F S4096x128 .f32) (main_arg1 : FVec F S65x128x128 .f32) (main_arg2 : FVec F S65x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S65x128x128 .f32 := Host.absf main_arg1
  let main_cst_0 : FVec F S_ .f32 := constant S_ .f32 0x7F800000#32
  let main_v5 : FVec F S65x128x128 .f32 := broadcastInDim S65x128x128 ![] bcast_S_S65x128x128 main_cst_0
  let main_v6 : IVec S65x128x128 1 := cmpf .olt main_v4 main_v5
  let main_c_1 : IVec S_ 1 := constantI S_ 1 1#1
  let main_v7 : IVec S_ 1 := (fun x v => Host.reduce IntOp.andi x v reducesTo_S65x128x128_S_d0_1_2 h_S_) main_v6 main_c_1
  let main_v8 : IVec S_ 1 := andi main_v3 main_v7
  let main_v9 : FVec F S65x128 .f32 := Host.absf main_arg2
  let main_cst_2 : FVec F S_ .f32 := constant S_ .f32 0x7F800000#32
  let main_v10 : FVec F S65x128 .f32 := broadcastInDim S65x128 ![] bcast_S_S65x128 main_cst_2
  let main_v11 : IVec S65x128 1 := cmpf .olt main_v9 main_v10
  let main_c_3 : IVec S_ 1 := constantI S_ 1 1#1
  let main_v12 : IVec S_ 1 := (fun x v => Host.reduce IntOp.andi x v reducesTo_S65x128_S_d0_1 h_S_) main_v11 main_c_3
  let main_v13 : IVec S_ 1 := andi main_v8 main_v12
  main_v13
-- ==== Kernel.lean ====
abbrev S4096x128 : Shape := ⟨2, ![4096, 128]⟩
abbrev S65x128x128 : Shape := ⟨3, ![65, 128, 128]⟩
abbrev S65x128 : Shape := ⟨2, ![65, 128]⟩
abbrev S1x128x128 : Shape := ⟨3, ![1, 128, 128]⟩
abbrev S1x128 : Shape := ⟨2, ![1, 128]⟩
abbrev S1x4096x128 : Shape := ⟨3, ![1, 4096, 128]⟩
abbrev S512x128 : Shape := ⟨2, ![512, 128]⟩
abbrev S1x512x128 : Shape := ⟨3, ![1, 512, 128]⟩
abbrev S128x128 : Shape := ⟨2, ![128, 128]⟩
abbrev S128 : Shape := ⟨1, ![128]⟩
abbrev S8x128x128 : Shape := ⟨3, ![8, 128, 128]⟩
abbrev S8x128 : Shape := ⟨2, ![8, 128]⟩
abbrev S8x4096x128 : Shape := ⟨3, ![8, 4096, 128]⟩
abbrev S8x512x128 : Shape := ⟨3, ![8, 512, 128]⟩
abbrev S_ : Shape := ⟨0, ![]⟩

abbrev nBuf : Space → Nat
  | .hbm => 165
  | .vmem => 550
  | .smem => 0
  | _ => 0

abbrev hbmTy0_0 (i : Nat) : BufTy := match i % 128 with
  | 0 => ⟨S4096x128, .f32⟩
  | 1 => ⟨S65x128x128, .f32⟩
  | 2 => ⟨S65x128, .f32⟩
  | 3 => ⟨S65x128x128, .f32⟩
  | 4 => ⟨S1x128x128, .f32⟩
  | 5 => ⟨S1x128, .f32⟩
  | 6 => ⟨S1x4096x128, .f32⟩
  | 7 => ⟨S4096x128, .f32⟩
  | 8 => ⟨S8x128x128, .f32⟩
  | 9 => ⟨S8x128, .f32⟩
  | 10 => ⟨S8x4096x128, .f32⟩
  | 11 => ⟨S1x4096x128, .f32⟩
  | 12 => ⟨S4096x128, .f32⟩
  | 13 => ⟨S1x4096x128, .f32⟩
  | 14 => ⟨S4096x128, .f32⟩
  | 15 => ⟨S1x4096x128, .f32⟩
  | 16 => ⟨S4096x128, .f32⟩
  | 17 => ⟨S1x4096x128, .f32⟩
  | 18 => ⟨S4096x128, .f32⟩
  | 19 => ⟨S1x4096x128, .f32⟩
  | 20 => ⟨S4096x128, .f32⟩
  | 21 => ⟨S1x4096x128, .f32⟩
  | 22 => ⟨S4096x128, .f32⟩
  | 23 => ⟨S1x4096x128, .f32⟩
  | 24 => ⟨S4096x128, .f32⟩
  | 25 => ⟨S1x4096x128, .f32⟩
  | 26 => ⟨S4096x128, .f32⟩
  | 27 => ⟨S8x128x128, .f32⟩
  | 28 => ⟨S8x128, .f32⟩
  | 29 => ⟨S8x4096x128, .f32⟩
  | 30 => ⟨S1x4096x128, .f32⟩
  | 31 => ⟨S4096x128, .f32⟩
  | 32 => ⟨S1x4096x128, .f32⟩
  | 33 => ⟨S4096x128, .f32⟩
  | 34 => ⟨S1x4096x128, .f32⟩
  | 35 => ⟨S4096x128, .f32⟩
  | 36 => ⟨S1x4096x128, .f32⟩
  | 37 => ⟨S4096x128, .f32⟩
  | 38 => ⟨S1x4096x128, .f32⟩
  | 39 => ⟨S4096x128, .f32⟩
  | 40 => ⟨S1x4096x128, .f32⟩
  | 41 => ⟨S4096x128, .f32⟩
  | 42 => ⟨S1x4096x128, .f32⟩
  | 43 => ⟨S4096x128, .f32⟩
  | 44 => ⟨S1x4096x128, .f32⟩
  | 45 => ⟨S4096x128, .f32⟩
  | 46 => ⟨S8x128x128, .f32⟩
  | 47 => ⟨S8x128, .f32⟩
  | 48 => ⟨S8x4096x128, .f32⟩
  | 49 => ⟨S1x4096x128, .f32⟩
  | 50 => ⟨S4096x128, .f32⟩
  | 51 => ⟨S1x4096x128, .f32⟩
  | 52 => ⟨S4096x128, .f32⟩
  | 53 => ⟨S1x4096x128, .f32⟩
  | 54 => ⟨S4096x128, .f32⟩
  | 55 => ⟨S1x4096x128, .f32⟩
  | 56 => ⟨S4096x128, .f32⟩
  | 57 => ⟨S1x4096x128, .f32⟩
  | 58 => ⟨S4096x128, .f32⟩
  | 59 => ⟨S1x4096x128, .f32⟩
  | 60 => ⟨S4096x128, .f32⟩
  | 61 => ⟨S1x4096x128, .f32⟩
  | 62 => ⟨S4096x128, .f32⟩
  | 63 => ⟨S1x4096x128, .f32⟩
  | 64 => ⟨S4096x128, .f32⟩
  | 65 => ⟨S8x128x128, .f32⟩
  | 66 => ⟨S8x128, .f32⟩
  | 67 => ⟨S8x4096x128, .f32⟩
  | 68 => ⟨S1x4096x128, .f32⟩
  | 69 => ⟨S4096x128, .f32⟩
  | 70 => ⟨S1x4096x128, .f32⟩
  | 71 => ⟨S4096x128, .f32⟩
  | 72 => ⟨S1x4096x128, .f32⟩
  | 73 => ⟨S4096x128, .f32⟩
  | 74 => ⟨S1x4096x128, .f32⟩
  | 75 => ⟨S4096x128, .f32⟩
  | 76 => ⟨S1x4096x128, .f32⟩
  | 77 => ⟨S4096x128, .f32⟩
  | 78 => ⟨S1x4096x128, .f32⟩
  | 79 => ⟨S4096x128, .f32⟩
  | 80 => ⟨S1x4096x128, .f32⟩
  | 81 => ⟨S4096x128, .f32⟩
  | 82 => ⟨S1x4096x128, .f32⟩
  | 83 => ⟨S4096x128, .f32⟩
  | 84 => ⟨S8x128x128, .f32⟩
  | 85 => ⟨S8x128, .f32⟩
  | 86 => ⟨S8x4096x128, .f32⟩
  | 87 => ⟨S1x4096x128, .f32⟩
  | 88 => ⟨S4096x128, .f32⟩
  | 89 => ⟨S1x4096x128, .f32⟩
  | 90 => ⟨S4096x128, .f32⟩
  | 91 => ⟨S1x4096x128, .f32⟩
  | 92 => ⟨S4096x128, .f32⟩
  | 93 => ⟨S1x4096x128, .f32⟩
  | 94 => ⟨S4096x128, .f32⟩
  | 95 => ⟨S1x4096x128, .f32⟩
  | 96 => ⟨S4096x128, .f32⟩
  | 97 => ⟨S1x4096x128, .f32⟩
  | 98 => ⟨S4096x128, .f32⟩
  | 99 => ⟨S1x4096x128, .f32⟩
  | 100 => ⟨S4096x128, .f32⟩
  | 101 => ⟨S1x4096x128, .f32⟩
  | 102 => ⟨S4096x128, .f32⟩
  | 103 => ⟨S8x128x128, .f32⟩
  | 104 => ⟨S8x128, .f32⟩
  | 105 => ⟨S8x4096x128, .f32⟩
  | 106 => ⟨S1x4096x128, .f32⟩
  | 107 => ⟨S4096x128, .f32⟩
  | 108 => ⟨S1x4096x128, .f32⟩
  | 109 => ⟨S4096x128, .f32⟩
  | 110 => ⟨S1x4096x128, .f32⟩
  | 111 => ⟨S4096x128, .f32⟩
  | 112 => ⟨S1x4096x128, .f32⟩
  | 113 => ⟨S4096x128, .f32⟩
  | 114 => ⟨S1x4096x128, .f32⟩
  | 115 => ⟨S4096x128, .f32⟩
  | 116 => ⟨S1x4096x128, .f32⟩
  | 117 => ⟨S4096x128, .f32⟩
  | 118 => ⟨S1x4096x128, .f32⟩
  | 119 => ⟨S4096x128, .f32⟩
  | 120 => ⟨S1x4096x128, .f32⟩
  | 121 => ⟨S4096x128, .f32⟩
  | 122 => ⟨S8x128x128, .f32⟩
  | 123 => ⟨S8x128, .f32⟩
  | 124 => ⟨S8x4096x128, .f32⟩
  | 125 => ⟨S1x4096x128, .f32⟩
  | 126 => ⟨S4096x128, .f32⟩
  | 127 => ⟨S1x4096x128, .f32⟩
  | _ => ⟨S4096x128, .f32⟩

abbrev hbmTy0_1 (i : Nat) : BufTy := match i % 128 with
  | 0 => ⟨S4096x128, .f32⟩
  | 1 => ⟨S1x4096x128, .f32⟩
  | 2 => ⟨S4096x128, .f32⟩
  | 3 => ⟨S1x4096x128, .f32⟩
  | 4 => ⟨S4096x128, .f32⟩
  | 5 => ⟨S1x4096x128, .f32⟩
  | 6 => ⟨S4096x128, .f32⟩
  | 7 => ⟨S1x4096x128, .f32⟩
  | 8 => ⟨S4096x128, .f32⟩
  | 9 => ⟨S1x4096x128, .f32⟩
  | 10 => ⟨S4096x128, .f32⟩
  | 11 => ⟨S1x4096x128, .f32⟩
  | 12 => ⟨S4096x128, .f32⟩
  | 13 => ⟨S8x128x128, .f32⟩
  | 14 => ⟨S8x128, .f32⟩
  | 15 => ⟨S8x4096x128, .f32⟩
  | 16 => ⟨S1x4096x128, .f32⟩
  | 17 => ⟨S4096x128, .f32⟩
  | 18 => ⟨S1x4096x128, .f32⟩
  | 19 => ⟨S4096x128, .f32⟩
  | 20 => ⟨S1x4096x128, .f32⟩
  | 21 => ⟨S4096x128, .f32⟩
  | 22 => ⟨S1x4096x128, .f32⟩
  | 23 => ⟨S4096x128, .f32⟩
  | 24 => ⟨S1x4096x128, .f32⟩
  | 25 => ⟨S4096x128, .f32⟩
  | 26 => ⟨S1x4096x128, .f32⟩
  | 27 => ⟨S4096x128, .f32⟩
  | 28 => ⟨S1x4096x128, .f32⟩
  | 29 => ⟨S4096x128, .f32⟩
  | 30 => ⟨S1x4096x128, .f32⟩
  | 31 => ⟨S4096x128, .f32⟩
  | 32 => ⟨S_, .f32⟩
  | 33 => ⟨S4096x128, .f32⟩
  | 34 => ⟨S_, .f32⟩
  | 35 => ⟨S4096x128, .f32⟩
  | 36 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev vmemTy0_0 (i : Nat) : BufTy := match i % 128 with
  | 0 => ⟨S512x128, .f32⟩
  | 1 => ⟨S512x128, .f32⟩
  | 2 => ⟨S1x128x128, .f32⟩
  | 3 => ⟨S1x128, .f32⟩
  | 4 => ⟨S1x512x128, .f32⟩
  | 5 => ⟨S1x512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S512x128, .f32⟩
  | 12 => ⟨S512x128, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S8x128x128, .f32⟩
  | 71 => ⟨S8x128, .f32⟩
  | 72 => ⟨S8x512x128, .f32⟩
  | 73 => ⟨S8x512x128, .f32⟩
  | 74 => ⟨S512x128, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S512x128, .f32⟩
  | 81 => ⟨S512x128, .f32⟩
  | 82 => ⟨S512x128, .f32⟩
  | 83 => ⟨S512x128, .f32⟩
  | 84 => ⟨S512x128, .f32⟩
  | 85 => ⟨S512x128, .f32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S512x128, .f32⟩
  | 117 => ⟨S512x128, .f32⟩
  | 118 => ⟨S512x128, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S4096x128, .f32⟩

abbrev vmemTy0_1 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S8x128x128, .f32⟩
  | 11 => ⟨S8x128, .f32⟩
  | 12 => ⟨S8x512x128, .f32⟩
  | 13 => ⟨S8x512x128, .f32⟩
  | 14 => ⟨S512x128, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S512x128, .f32⟩
  | 72 => ⟨S512x128, .f32⟩
  | 73 => ⟨S512x128, .f32⟩
  | 74 => ⟨S512x128, .f32⟩
  | 75 => ⟨S512x128, .f32⟩
  | 76 => ⟨S512x128, .f32⟩
  | 77 => ⟨S512x128, .f32⟩
  | 78 => ⟨S8x128x128, .f32⟩
  | 79 => ⟨S8x128, .f32⟩
  | 80 => ⟨S8x512x128, .f32⟩
  | 81 => ⟨S8x512x128, .f32⟩
  | 82 => ⟨S512x128, .f32⟩
  | 83 => ⟨S512x128, .f32⟩
  | 84 => ⟨S512x128, .f32⟩
  | 85 => ⟨S512x128, .f32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S512x128, .f32⟩
  | 117 => ⟨S512x128, .f32⟩
  | 118 => ⟨S512x128, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S4096x128, .f32⟩

abbrev vmemTy0_2 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S512x128, .f32⟩
  | 12 => ⟨S512x128, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S8x128x128, .f32⟩
  | 19 => ⟨S8x128, .f32⟩
  | 20 => ⟨S8x512x128, .f32⟩
  | 21 => ⟨S8x512x128, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S512x128, .f32⟩
  | 72 => ⟨S512x128, .f32⟩
  | 73 => ⟨S512x128, .f32⟩
  | 74 => ⟨S512x128, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S512x128, .f32⟩
  | 81 => ⟨S512x128, .f32⟩
  | 82 => ⟨S512x128, .f32⟩
  | 83 => ⟨S512x128, .f32⟩
  | 84 => ⟨S512x128, .f32⟩
  | 85 => ⟨S512x128, .f32⟩
  | 86 => ⟨S8x128x128, .f32⟩
  | 87 => ⟨S8x128, .f32⟩
  | 88 => ⟨S8x512x128, .f32⟩
  | 89 => ⟨S8x512x128, .f32⟩
  | 90 => ⟨S512x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S512x128, .f32⟩
  | 117 => ⟨S512x128, .f32⟩
  | 118 => ⟨S512x128, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S4096x128, .f32⟩

abbrev vmemTy0_3 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S512x128, .f32⟩
  | 12 => ⟨S512x128, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S512x128, .f32⟩
  | 24 => ⟨S512x128, .f32⟩
  | 25 => ⟨S512x128, .f32⟩
  | 26 => ⟨S8x128x128, .f32⟩
  | 27 => ⟨S8x128, .f32⟩
  | 28 => ⟨S8x512x128, .f32⟩
  | 29 => ⟨S8x512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S512x128, .f32⟩
  | 36 => ⟨S512x128, .f32⟩
  | 37 => ⟨S512x128, .f32⟩
  | 38 => ⟨S512x128, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S512x128, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S512x128, .f32⟩
  | 72 => ⟨S512x128, .f32⟩
  | 73 => ⟨S512x128, .f32⟩
  | 74 => ⟨S512x128, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S512x128, .f32⟩
  | 81 => ⟨S512x128, .f32⟩
  | 82 => ⟨S512x128, .f32⟩
  | 83 => ⟨S512x128, .f32⟩
  | 84 => ⟨S512x128, .f32⟩
  | 85 => ⟨S512x128, .f32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S512x128, .f32⟩
  | 92 => ⟨S512x128, .f32⟩
  | 93 => ⟨S512x128, .f32⟩
  | 94 => ⟨S8x128x128, .f32⟩
  | 95 => ⟨S8x128, .f32⟩
  | 96 => ⟨S8x512x128, .f32⟩
  | 97 => ⟨S8x512x128, .f32⟩
  | 98 => ⟨S512x128, .f32⟩
  | 99 => ⟨S512x128, .f32⟩
  | 100 => ⟨S512x128, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S512x128, .f32⟩
  | 117 => ⟨S512x128, .f32⟩
  | 118 => ⟨S512x128, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S4096x128, .f32⟩

abbrev vmemTy0_4 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S512x128, .f32⟩
  | 12 => ⟨S512x128, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S8x128x128, .f32⟩
  | 35 => ⟨S8x128, .f32⟩
  | 36 => ⟨S8x512x128, .f32⟩
  | 37 => ⟨S8x512x128, .f32⟩
  | _ => ⟨S4096x128, .f32⟩

abbrev vmemTy (i : Nat) : BufTy := match i / 128 with
  | 0 => vmemTy0_0 i
  | 1 => vmemTy0_1 i
  | 2 => vmemTy0_2 i
  | 3 => vmemTy0_3 i
  | 4 => vmemTy0_4 i
  | _ => ⟨S4096x128, .f32⟩

abbrev bufTy : (tb : Table) → Fin (tcTables nBuf tb) → BufTy
  | .hbm, ⟨i, _⟩ => hbmTy i
  | .local _ .vmem, ⟨i, _⟩ => vmemTy i
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | 2 => vmemScopedAt0_2 i
  | 3 => vmemScopedAt0_3 i
  | 4 => vmemScopedAt0_4 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 550 → Bool
  | ⟨i, _⟩ => dmaSemScopedAt i

abbrev sig : RefSig :=
  ofTc nBuf bufTy 0 550 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_cst : Ref sig .tc := ⟨.hbm, 160, rfl⟩
abbrev main_v157 : Ref sig .tc := ⟨.hbm, 161, rfl⟩
abbrev main_cst_0 : Ref sig .tc := ⟨.hbm, 162, rfl⟩
abbrev main_v158 : Ref sig .tc := ⟨.hbm, 163, rfl⟩
abbrev main_v159 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg13_1 : Ref sig .tc := ⟨.vmem, 33, rfl⟩
abbrev cc1_stg14_0 : Ref sig .tc := ⟨.vmem, 34, rfl⟩
abbrev cc1_stg14_1 : Ref sig .tc := ⟨.vmem, 35, rfl⟩
abbrev cc1_stg15_0 : Ref sig .tc := ⟨.vmem, 36, rfl⟩
abbrev cc1_stg15_1 : Ref sig .tc := ⟨.vmem, 37, rfl⟩
abbrev cc1_stg16_0 : Ref sig .tc := ⟨.vmem, 38, rfl⟩
abbrev cc1_stg16_1 : Ref sig .tc := ⟨.vmem, 39, rfl⟩
abbrev cc1_stg17_0 : Ref sig .tc := ⟨.vmem, 40, rfl⟩
abbrev cc1_stg17_1 : Ref sig .tc := ⟨.vmem, 41, rfl⟩
abbrev cc1_stg18_0 : Ref sig .tc := ⟨.vmem, 42, rfl⟩
abbrev cc1_stg18_1 : Ref sig .tc := ⟨.vmem, 43, rfl⟩
abbrev cc1_stg19_0 : Ref sig .tc := ⟨.vmem, 44, rfl⟩
abbrev cc1_stg19_1 : Ref sig .tc := ⟨.vmem, 45, rfl⟩
abbrev cc1_stg20_0 : Ref sig .tc := ⟨.vmem, 46, rfl⟩
abbrev cc1_stg20_1 : Ref sig .tc := ⟨.vmem, 47, rfl⟩
abbrev cc1_stg21_0 : Ref sig .tc := ⟨.vmem, 48, rfl⟩
abbrev cc1_stg21_1 : Ref sig .tc := ⟨.vmem, 49, rfl⟩
abbrev cc1_stg22_0 : Ref sig .tc := ⟨.vmem, 50, rfl⟩
abbrev cc1_stg22_1 : Ref sig .tc := ⟨.vmem, 51, rfl⟩
abbrev cc1_stg23_0 : Ref sig .tc := ⟨.vmem, 52, rfl⟩
abbrev cc1_stg23_1 : Ref sig .tc := ⟨.vmem, 53, rfl⟩
abbrev cc1_stg24_0 : Ref sig .tc := ⟨.vmem, 54, rfl⟩
abbrev cc1_stg24_1 : Ref sig .tc := ⟨.vmem, 55, rfl⟩
abbrev cc1_stg25_0 : Ref sig .tc := ⟨.vmem, 56, rfl⟩
abbrev cc1_stg25_1 : Ref sig .tc := ⟨.vmem, 57, rfl⟩
abbrev cc1_stg26_0 : Ref sig .tc := ⟨.vmem, 58, rfl⟩
abbrev cc1_stg26_1 : Ref sig .tc := ⟨.vmem, 59, rfl⟩
abbrev cc1_stg27_0 : Ref sig .tc := ⟨.vmem, 60, rfl⟩
abbrev cc1_stg27_1 : Ref sig .tc := ⟨.vmem, 61, rfl⟩
abbrev cc1_stg28_0 : Ref sig .tc := ⟨.vmem, 62, rfl⟩
abbrev cc1_stg28_1 : Ref sig .tc := ⟨.vmem, 63, rfl⟩
abbrev cc1_stg29_0 : Ref sig .tc := ⟨.vmem, 64, rfl⟩
abbrev cc1_stg29_1 : Ref sig .tc := ⟨.vmem, 65, rfl⟩
abbrev cc1_stg30_0 : Ref sig .tc := ⟨.vmem, 66, rfl⟩
abbrev cc1_stg30_1 : Ref sig .tc := ⟨.vmem, 67, rfl⟩
abbrev cc1_stg31_0 : Ref sig .tc := ⟨.vmem, 68, rfl⟩
abbrev cc1_stg31_1 : Ref sig .tc := ⟨.vmem, 69, rfl⟩
abbrev cc1_stg32_0 : Ref sig .tc := ⟨.vmem, 70, rfl⟩
abbrev cc1_stg33_0 : Ref sig .tc := ⟨.vmem, 71, rfl⟩
abbrev cc1_stg34_0 : Ref sig .tc := ⟨.vmem, 72, rfl⟩
abbrev cc1_stg34_1 : Ref sig .tc := ⟨.vmem, 73, rfl⟩
abbrev cc2_stg0_0 : Ref sig .tc := ⟨.vmem, 74, rfl⟩
abbrev cc2_stg0_1 : Ref sig .tc := ⟨.vmem, 75, rfl⟩
abbrev cc2_stg1_0 : Ref sig .tc := ⟨.vmem, 76, rfl⟩
abbrev cc2_stg1_1 : Ref sig .tc := ⟨.vmem, 77, rfl⟩
abbrev cc2_stg2_0 : Ref sig .tc := ⟨.vmem, 78, rfl⟩
abbrev cc2_stg2_1 : Ref sig .tc := ⟨.vmem, 79, rfl⟩
abbrev cc2_stg3_0 : Ref sig .tc := ⟨.vmem, 80, rfl⟩
abbrev cc2_stg3_1 : Ref sig .tc := ⟨.vmem, 81, rfl⟩
abbrev cc2_stg4_0 : Ref sig .tc := ⟨.vmem, 82, rfl⟩
abbrev cc2_stg4_1 : Ref sig .tc := ⟨.vmem, 83, rfl⟩
abbrev cc2_stg5_0 : Ref sig .tc := ⟨.vmem, 84, rfl⟩
abbrev cc2_stg5_1 : Ref sig .tc := ⟨.vmem, 85, rfl⟩
abbrev cc2_stg6_0 : Ref sig .tc := ⟨.vmem, 86, rfl⟩
abbrev cc2_stg6_1 : Ref sig .tc := ⟨.vmem, 87, rfl⟩
abbrev cc2_stg7_0 : Ref sig .tc := ⟨.vmem, 88, rfl⟩
abbrev cc2_stg7_1 : Ref sig .tc := ⟨.vmem, 89, rfl⟩
abbrev cc2_stg8_0 : Ref sig .tc := ⟨.vmem, 90, rfl⟩
abbrev cc2_stg8_1 : Ref sig .tc := ⟨.vmem, 91, rfl⟩
abbrev cc2_stg9_0 : Ref sig .tc := ⟨.vmem, 92, rfl⟩
abbrev cc2_stg9_1 : Ref sig .tc := ⟨.vmem, 93, rfl⟩
abbrev cc2_stg10_0 : Ref sig .tc := ⟨.vmem, 94, rfl⟩
abbrev cc2_stg10_1 : Ref sig .tc := ⟨.vmem, 95, rfl⟩
abbrev cc2_stg11_0 : Ref sig .tc := ⟨.vmem, 96, rfl⟩
abbrev cc2_stg11_1 : Ref sig .tc := ⟨.vmem, 97, rfl⟩
abbrev cc2_stg12_0 : Ref sig .tc := ⟨.vmem, 98, rfl⟩
abbrev cc2_stg12_1 : Ref sig .tc := ⟨.vmem, 99, rfl⟩
abbrev cc2_stg13_0 : Ref sig .tc := ⟨.vmem, 100, rfl⟩
abbrev cc2_stg13_1 : Ref sig .tc := ⟨.vmem, 101, rfl⟩
abbrev cc2_stg14_0 : Ref sig .tc := ⟨.vmem, 102, rfl⟩
abbrev cc2_stg14_1 : Ref sig .tc := ⟨.vmem, 103, rfl⟩
abbrev cc2_stg15_0 : Ref sig .tc := ⟨.vmem, 104, rfl⟩
abbrev cc2_stg15_1 : Ref sig .tc := ⟨.vmem, 105, rfl⟩
abbrev cc2_stg16_0 : Ref sig .tc := ⟨.vmem, 106, rfl⟩
abbrev cc2_stg16_1 : Ref sig .tc := ⟨.vmem, 107, rfl⟩
abbrev cc2_stg17_0 : Ref sig .tc := ⟨.vmem, 108, rfl⟩
abbrev cc2_stg17_1 : Ref sig .tc := ⟨.vmem, 109, rfl⟩
abbrev cc2_stg18_0 : Ref sig .tc := ⟨.vmem, 110, rfl⟩
abbrev cc2_stg18_1 : Ref sig .tc := ⟨.vmem, 111, rfl⟩
abbrev cc2_stg19_0 : Ref sig .tc := ⟨.vmem, 112, rfl⟩
abbrev cc2_stg19_1 : Ref sig .tc := ⟨.vmem, 113, rfl⟩
abbrev cc2_stg20_0 : Ref sig .tc := ⟨.vmem, 114, rfl⟩
abbrev cc2_stg20_1 : Ref sig .tc := ⟨.vmem, 115, rfl⟩
abbrev cc2_stg21_0 : Ref sig .tc := ⟨.vmem, 116, rfl⟩
abbrev cc2_stg21_1 : Ref sig .tc := ⟨.vmem, 117, rfl⟩
abbrev cc2_stg22_0 : Ref sig .tc := ⟨.vmem, 118, rfl⟩
abbrev cc2_stg22_1 : Ref sig .tc := ⟨.vmem, 119, rfl⟩
abbrev cc2_stg23_0 : Ref sig .tc := ⟨.vmem, 120, rfl⟩
abbrev cc2_stg23_1 : Ref sig .tc := ⟨.vmem, 121, rfl⟩
abbrev cc2_stg24_0 : Ref sig .tc := ⟨.vmem, 122, rfl⟩
abbrev cc2_stg24_1 : Ref sig .tc := ⟨.vmem, 123, rfl⟩
abbrev cc2_stg25_0 : Ref sig .tc := ⟨.vmem, 124, rfl⟩
abbrev cc2_stg25_1 : Ref sig .tc := ⟨.vmem, 125, rfl⟩
abbrev cc2_stg26_0 : Ref sig .tc := ⟨.vmem, 126, rfl⟩
abbrev cc2_stg26_1 : Ref sig .tc := ⟨.vmem, 127, rfl⟩
abbrev cc2_stg27_0 : Ref sig .tc := ⟨.vmem, 128, rfl⟩
abbrev cc2_stg27_1 : Ref sig .tc := ⟨.vmem, 129, rfl⟩
abbrev cc2_stg28_0 : Ref sig .tc := ⟨.vmem, 130, rfl⟩
abbrev cc2_stg28_1 : Ref sig .tc := ⟨.vmem, 131, rfl⟩
abbrev cc2_stg29_0 : Ref sig .tc := ⟨.vmem, 132, rfl⟩
abbrev cc2_stg29_1 : Ref sig .tc := ⟨.vmem, 133, rfl⟩
abbrev cc2_stg30_0 : Ref sig .tc := ⟨.vmem, 134, rfl⟩
abbrev cc2_stg30_1 : Ref sig .tc := ⟨.vmem, 135, rfl⟩
abbrev cc2_stg31_0 : Ref sig .tc := ⟨.vmem, 136, rfl⟩
abbrev cc2_stg31_1 : Ref sig .tc := ⟨.vmem, 137, rfl⟩
abbrev cc2_stg32_0 : Ref sig .tc := ⟨.vmem, 138, rfl⟩
abbrev cc2_stg33_0 : Ref sig .tc := ⟨.vmem, 139, rfl⟩
abbrev cc2_stg34_0 : Ref sig .tc := ⟨.vmem, 140, rfl⟩
abbrev cc2_stg34_1 : Ref sig .tc := ⟨.vmem, 141, rfl⟩
abbrev cc3_stg0_0 : Ref sig .tc := ⟨.vmem, 142, rfl⟩
abbrev cc3_stg0_1 : Ref sig .tc := ⟨.vmem, 143, rfl⟩
abbrev cc3_stg1_0 : Ref sig .tc := ⟨.vmem, 144, rfl⟩
abbrev cc3_stg1_1 : Ref sig .tc := ⟨.vmem, 145, rfl⟩
abbrev cc3_stg2_0 : Ref sig .tc := ⟨.vmem, 146, rfl⟩
abbrev cc3_stg2_1 : Ref sig .tc := ⟨.vmem, 147, rfl⟩
abbrev cc3_stg3_0 : Ref sig .tc := ⟨.vmem, 148, rfl⟩
abbrev cc3_stg3_1 : Ref sig .tc := ⟨.vmem, 149, rfl⟩
abbrev cc3_stg4_0 : Ref sig .tc := ⟨.vmem, 150, rfl⟩
abbrev cc3_stg4_1 : Ref sig .tc := ⟨.vmem, 151, rfl⟩
abbrev cc3_stg5_0 : Ref sig .tc := ⟨.vmem, 152, rfl⟩
abbrev cc3_stg5_1 : Ref sig .tc := ⟨.vmem, 153, rfl⟩
abbrev cc3_stg6_0 : Ref sig .tc := ⟨.vmem, 154, rfl⟩
abbrev cc3_stg6_1 : Ref sig .tc := ⟨.vmem, 155, rfl⟩
abbrev cc3_stg7_0 : Ref sig .tc := ⟨.vmem, 156, rfl⟩
abbrev cc3_stg7_1 : Ref sig .tc := ⟨.vmem, 157, rfl⟩
abbrev cc3_stg8_0 : Ref sig .tc := ⟨.vmem, 158, rfl⟩
abbrev cc3_stg8_1 : Ref sig .tc := ⟨.vmem, 159, rfl⟩
abbrev cc3_stg9_0 : Ref sig .tc := ⟨.vmem, 160, rfl⟩
abbrev cc3_stg9_1 : Ref sig .tc := ⟨.vmem, 161, rfl⟩
abbrev cc3_stg10_0 : Ref sig .tc := ⟨.vmem, 162, rfl⟩
abbrev cc3_stg10_1 : Ref sig .tc := ⟨.vmem, 163, rfl⟩
abbrev cc3_stg11_0 : Ref sig .tc := ⟨.vmem, 164, rfl⟩
abbrev cc3_stg11_1 : Ref sig .tc := ⟨.vmem, 165, rfl⟩
abbrev cc3_stg12_0 : Ref sig .tc := ⟨.vmem, 166, rfl⟩
abbrev cc3_stg12_1 : Ref sig .tc := ⟨.vmem, 167, rfl⟩
abbrev cc3_stg13_0 : Ref sig .tc := ⟨.vmem, 168, rfl⟩
abbrev cc3_stg13_1 : Ref sig .tc := ⟨.vmem, 169, rfl⟩
abbrev cc3_stg14_0 : Ref sig .tc := ⟨.vmem, 170, rfl⟩
abbrev cc3_stg14_1 : Ref sig .tc := ⟨.vmem, 171, rfl⟩
abbrev cc3_stg15_0 : Ref sig .tc := ⟨.vmem, 172, rfl⟩
abbrev cc3_stg15_1 : Ref sig .tc := ⟨.vmem, 173, rfl⟩
abbrev cc3_stg16_0 : Ref sig .tc := ⟨.vmem, 174, rfl⟩
abbrev cc3_stg16_1 : Ref sig .tc := ⟨.vmem, 175, rfl⟩
abbrev cc3_stg17_0 : Ref sig .tc := ⟨.vmem, 176, rfl⟩
abbrev cc3_stg17_1 : Ref sig .tc := ⟨.vmem, 177, rfl⟩
abbrev cc3_stg18_0 : Ref sig .tc := ⟨.vmem, 178, rfl⟩
abbrev cc3_stg18_1 : Ref sig .tc := ⟨.vmem, 179, rfl⟩
abbrev cc3_stg19_0 : Ref sig .tc := ⟨.vmem, 180, rfl⟩
abbrev cc3_stg19_1 : Ref sig .tc := ⟨.vmem, 181, rfl⟩
abbrev cc3_stg20_0 : Ref sig .tc := ⟨.vmem, 182, rfl⟩
abbrev cc3_stg20_1 : Ref sig .tc := ⟨.vmem, 183, rfl⟩
abbrev cc3_stg21_0 : Ref sig .tc := ⟨.vmem, 184, rfl⟩
abbrev cc3_stg21_1 : Ref sig .tc := ⟨.vmem, 185, rfl⟩
abbrev cc3_stg22_0 : Ref sig .tc := ⟨.vmem, 186, rfl⟩
abbrev cc3_stg22_1 : Ref sig .tc := ⟨.vmem, 187, rfl⟩
abbrev cc3_stg23_0 : Ref sig .tc := ⟨.vmem, 188, rfl⟩
abbrev cc3_stg23_1 : Ref sig .tc := ⟨.vmem, 189, rfl⟩
abbrev cc3_stg24_0 : Ref sig .tc := ⟨.vmem, 190, rfl⟩
abbrev cc3_stg24_1 : Ref sig .tc := ⟨.vmem, 191, rfl⟩
abbrev cc3_stg25_0 : Ref sig .tc := ⟨.vmem, 192, rfl⟩
abbrev cc3_stg25_1 : Ref sig .tc := ⟨.vmem, 193, rfl⟩
abbrev cc3_stg26_0 : Ref sig .tc := ⟨.vmem, 194, rfl⟩
abbrev cc3_stg26_1 : Ref sig .tc := ⟨.vmem, 195, rfl⟩
abbrev cc3_stg27_0 : Ref sig .tc := ⟨.vmem, 196, rfl⟩
abbrev cc3_stg27_1 : Ref sig .tc := ⟨.vmem, 197, rfl⟩
abbrev cc3_stg28_0 : Ref sig .tc := ⟨.vmem, 198, rfl⟩
abbrev cc3_stg28_1 : Ref sig .tc := ⟨.vmem, 199, rfl⟩
abbrev cc3_stg29_0 : Ref sig .tc := ⟨.vmem, 200, rfl⟩
abbrev cc3_stg29_1 : Ref sig .tc := ⟨.vmem, 201, rfl⟩
abbrev cc3_stg30_0 : Ref sig .tc := ⟨.vmem, 202, rfl⟩
abbrev cc3_stg30_1 : Ref sig .tc := ⟨.vmem, 203, rfl⟩
abbrev cc3_stg31_0 : Ref sig .tc := ⟨.vmem, 204, rfl⟩
abbrev cc3_stg31_1 : Ref sig .tc := ⟨.vmem, 205, rfl⟩
abbrev cc3_stg32_0 : Ref sig .tc := ⟨.vmem, 206, rfl⟩
abbrev cc3_stg33_0 : Ref sig .tc := ⟨.vmem, 207, rfl⟩
abbrev cc3_stg34_0 : Ref sig .tc := ⟨.vmem, 208, rfl⟩
abbrev cc3_stg34_1 : Ref sig .tc := ⟨.vmem, 209, rfl⟩
abbrev cc4_stg0_0 : Ref sig .tc := ⟨.vmem, 210, rfl⟩
abbrev cc4_stg0_1 : Ref sig .tc := ⟨.vmem, 211, rfl⟩
abbrev cc4_stg1_0 : Ref sig .tc := ⟨.vmem, 212, rfl⟩
abbrev cc4_stg1_1 : Ref sig .tc := ⟨.vmem, 213, rfl⟩
abbrev cc4_stg2_0 : Ref sig .tc := ⟨.vmem, 214, rfl⟩
abbrev cc4_stg2_1 : Ref sig .tc := ⟨.vmem, 215, rfl⟩
abbrev cc4_stg3_0 : Ref sig .tc := ⟨.vmem, 216, rfl⟩
abbrev cc4_stg3_1 : Ref sig .tc := ⟨.vmem, 217, rfl⟩
abbrev cc4_stg4_0 : Ref sig .tc := ⟨.vmem, 218, rfl⟩
abbrev cc4_stg4_1 : Ref sig .tc := ⟨.vmem, 219, rfl⟩
abbrev cc4_stg5_0 : Ref sig .tc := ⟨.vmem, 220, rfl⟩
abbrev cc4_stg5_1 : Ref sig .tc := ⟨.vmem, 221, rfl⟩
abbrev cc4_stg6_0 : Ref sig .tc := ⟨.vmem, 222, rfl⟩
abbrev cc4_stg6_1 : Ref sig .tc := ⟨.vmem, 223, rfl⟩
abbrev cc4_stg7_0 : Ref sig .tc := ⟨.vmem, 224, rfl⟩
abbrev cc4_stg7_1 : Ref sig .tc := ⟨.vmem, 225, rfl⟩
abbrev cc4_stg8_0 : Ref sig .tc := ⟨.vmem, 226, rfl⟩
abbrev cc4_stg8_1 : Ref sig .tc := ⟨.vmem, 227, rfl⟩
abbrev cc4_stg9_0 : Ref sig .tc := ⟨.vmem, 228, rfl⟩
abbrev cc4_stg9_1 : Ref sig .tc := ⟨.vmem, 229, rfl⟩
abbrev cc4_stg10_0 : Ref sig .tc := ⟨.vmem, 230, rfl⟩
abbrev cc4_stg10_1 : Ref sig .tc := ⟨.vmem, 231, rfl⟩
abbrev cc4_stg11_0 : Ref sig .tc := ⟨.vmem, 232, rfl⟩
abbrev cc4_stg11_1 : Ref sig .tc := ⟨.vmem, 233, rfl⟩
abbrev cc4_stg12_0 : Ref sig .tc := ⟨.vmem, 234, rfl⟩
abbrev cc4_stg12_1 : Ref sig .tc := ⟨.vmem, 235, rfl⟩
abbrev cc4_stg13_0 : Ref sig .tc := ⟨.vmem, 236, rfl⟩
abbrev cc4_stg13_1 : Ref sig .tc := ⟨.vmem, 237, rfl⟩
abbrev cc4_stg14_0 : Ref sig .tc := ⟨.vmem, 238, rfl⟩
abbrev cc4_stg14_1 : Ref sig .tc := ⟨.vmem, 239, rfl⟩
abbrev cc4_stg15_0 : Ref sig .tc := ⟨.vmem, 240, rfl⟩
abbrev cc4_stg15_1 : Ref sig .tc := ⟨.vmem, 241, rfl⟩
abbrev cc4_stg16_0 : Ref sig .tc := ⟨.vmem, 242, rfl⟩
abbrev cc4_stg16_1 : Ref sig .tc := ⟨.vmem, 243, rfl⟩
abbrev cc4_stg17_0 : Ref sig .tc := ⟨.vmem, 244, rfl⟩
abbrev cc4_stg17_1 : Ref sig .tc := ⟨.vmem, 245, rfl⟩
abbrev cc4_stg18_0 : Ref sig .tc := ⟨.vmem, 246, rfl⟩
abbrev cc4_stg18_1 : Ref sig .tc := ⟨.vmem, 247, rfl⟩
abbrev cc4_stg19_0 : Ref sig .tc := ⟨.vmem, 248, rfl⟩
abbrev cc4_stg19_1 : Ref sig .tc := ⟨.vmem, 249, rfl⟩
abbrev cc4_stg20_0 : Ref sig .tc := ⟨.vmem, 250, rfl⟩
abbrev cc4_stg20_1 : Ref sig .tc := ⟨.vmem, 251, rfl⟩
abbrev cc4_stg21_0 : Ref sig .tc := ⟨.vmem, 252, rfl⟩
abbrev cc4_stg21_1 : Ref sig .tc := ⟨.vmem, 253, rfl⟩
abbrev cc4_stg22_0 : Ref sig .tc := ⟨.vmem, 254, rfl⟩
abbrev cc4_stg22_1 : Ref sig .tc := ⟨.vmem, 255, rfl⟩
abbrev cc4_stg23_0 : Ref sig .tc := ⟨.vmem, 256, rfl⟩
abbrev cc4_stg23_1 : Ref sig .tc := ⟨.vmem, 257, rfl⟩
abbrev cc4_stg24_0 : Ref sig .tc := ⟨.vmem, 258, rfl⟩
abbrev cc4_stg24_1 : Ref sig .tc := ⟨.vmem, 259, rfl⟩
abbrev cc4_stg25_0 : Ref sig .tc := ⟨.vmem, 260, rfl⟩
abbrev cc4_stg25_1 : Ref sig .tc := ⟨.vmem, 261, rfl⟩
abbrev cc4_stg26_0 : Ref sig .tc := ⟨.vmem, 262, rfl⟩
abbrev cc4_stg26_1 : Ref sig .tc := ⟨.vmem, 263, rfl⟩
abbrev cc4_stg27_0 : Ref sig .tc := ⟨.vmem, 264, rfl⟩
abbrev cc4_stg27_1 : Ref sig .tc := ⟨.vmem, 265, rfl⟩
abbrev cc4_stg28_0 : Ref sig .tc := ⟨.vmem, 266, rfl⟩
abbrev cc4_stg28_1 : Ref sig .tc := ⟨.vmem, 267, rfl⟩
abbrev cc4_stg29_0 : Ref sig .tc := ⟨.vmem, 268, rfl⟩
abbrev cc4_stg29_1 : Ref sig .tc := ⟨.vmem, 269, rfl⟩
abbrev cc4_stg30_0 : Ref sig .tc := ⟨.vmem, 270, rfl⟩
abbrev cc4_stg30_1 : Ref sig .tc := ⟨.vmem, 271, rfl⟩
abbrev cc4_stg31_0 : Ref sig .tc := ⟨.vmem, 272, rfl⟩
abbrev cc4_stg31_1 : Ref sig .tc := ⟨.vmem, 273, rfl⟩
abbrev cc4_stg32_0 : Ref sig .tc := ⟨.vmem, 274, rfl⟩
abbrev cc4_stg33_0 : Ref sig .tc := ⟨.vmem, 275, rfl⟩
abbrev cc4_stg34_0 : Ref sig .tc := ⟨.vmem, 276, rfl⟩
abbrev cc4_stg34_1 : Ref sig .tc := ⟨.vmem, 277, rfl⟩
abbrev cc5_stg0_0 : Ref sig .tc := ⟨.vmem, 278, rfl⟩
abbrev cc5_stg0_1 : Ref sig .tc := ⟨.vmem, 279, rfl⟩
abbrev cc5_stg1_0 : Ref sig .tc := ⟨.vmem, 280, rfl⟩
abbrev cc5_stg1_1 : Ref sig .tc := ⟨.vmem, 281, rfl⟩
abbrev cc5_stg2_0 : Ref sig .tc := ⟨.vmem, 282, rfl⟩
abbrev cc5_stg2_1 : Ref sig .tc := ⟨.vmem, 283, rfl⟩
abbrev cc5_stg3_0 : Ref sig .tc := ⟨.vmem, 284, rfl⟩
abbrev cc5_stg3_1 : Ref sig .tc := ⟨.vmem, 285, rfl⟩
abbrev cc5_stg4_0 : Ref sig .tc := ⟨.vmem, 286, rfl⟩
abbrev cc5_stg4_1 : Ref sig .tc := ⟨.vmem, 287, rfl⟩
abbrev cc5_stg5_0 : Ref sig .tc := ⟨.vmem, 288, rfl⟩
abbrev cc5_stg5_1 : Ref sig .tc := ⟨.vmem, 289, rfl⟩
abbrev cc5_stg6_0 : Ref sig .tc := ⟨.vmem, 290, rfl⟩
abbrev cc5_stg6_1 : Ref sig .tc := ⟨.vmem, 291, rfl⟩
abbrev cc5_stg7_0 : Ref sig .tc := ⟨.vmem, 292, rfl⟩
abbrev cc5_stg7_1 : Ref sig .tc := ⟨.vmem, 293, rfl⟩
abbrev cc5_stg8_0 : Ref sig .tc := ⟨.vmem, 294, rfl⟩
abbrev cc5_stg8_1 : Ref sig .tc := ⟨.vmem, 295, rfl⟩
abbrev cc5_stg9_0 : Ref sig .tc := ⟨.vmem, 296, rfl⟩
abbrev cc5_stg9_1 : Ref sig .tc := ⟨.vmem, 297, rfl⟩
abbrev cc5_stg10_0 : Ref sig .tc := ⟨.vmem, 298, rfl⟩
abbrev cc5_stg10_1 : Ref sig .tc := ⟨.vmem, 299, rfl⟩
abbrev cc5_stg11_0 : Ref sig .tc := ⟨.vmem, 300, rfl⟩
abbrev cc5_stg11_1 : Ref sig .tc := ⟨.vmem, 301, rfl⟩
abbrev cc5_stg12_0 : Ref sig .tc := ⟨.vmem, 302, rfl⟩
abbrev cc5_stg12_1 : Ref sig .tc := ⟨.vmem, 303, rfl⟩
abbrev cc5_stg13_0 : Ref sig .tc := ⟨.vmem, 304, rfl⟩
abbrev cc5_stg13_1 : Ref sig .tc := ⟨.vmem, 305, rfl⟩
abbrev cc5_stg14_0 : Ref sig .tc := ⟨.vmem, 306, rfl⟩
abbrev cc5_stg14_1 : Ref sig .tc := ⟨.vmem, 307, rfl⟩
abbrev cc5_stg15_0 : Ref sig .tc := ⟨.vmem, 308, rfl⟩
abbrev cc5_stg15_1 : Ref sig .tc := ⟨.vmem, 309, rfl⟩
abbrev cc5_stg16_0 : Ref sig .tc := ⟨.vmem, 310, rfl⟩
abbrev cc5_stg16_1 : Ref sig .tc := ⟨.vmem, 311, rfl⟩
abbrev cc5_stg17_0 : Ref sig .tc := ⟨.vmem, 312, rfl⟩
abbrev cc5_stg17_1 : Ref sig .tc := ⟨.vmem, 313, rfl⟩
abbrev cc5_stg18_0 : Ref sig .tc := ⟨.vmem, 314, rfl⟩
abbrev cc5_stg18_1 : Ref sig .tc := ⟨.vmem, 315, rfl⟩
abbrev cc5_stg19_0 : Ref sig .tc := ⟨.vmem, 316, rfl⟩
abbrev cc5_stg19_1 : Ref sig .tc := ⟨.vmem, 317, rfl⟩
abbrev cc5_stg20_0 : Ref sig .tc := ⟨.vmem, 318, rfl⟩
abbrev cc5_stg20_1 : Ref sig .tc := ⟨.vmem, 319, rfl⟩
abbrev cc5_stg21_0 : Ref sig .tc := ⟨.vmem, 320, rfl⟩
abbrev cc5_stg21_1 : Ref sig .tc := ⟨.vmem, 321, rfl⟩
abbrev cc5_stg22_0 : Ref sig .tc := ⟨.vmem, 322, rfl⟩
abbrev cc5_stg22_1 : Ref sig .tc := ⟨.vmem, 323, rfl⟩
abbrev cc5_stg23_0 : Ref sig .tc := ⟨.vmem, 324, rfl⟩
abbrev cc5_stg23_1 : Ref sig .tc := ⟨.vmem, 325, rfl⟩
abbrev cc5_stg24_0 : Ref sig .tc := ⟨.vmem, 326, rfl⟩
abbrev cc5_stg24_1 : Ref sig .tc := ⟨.vmem, 327, rfl⟩
abbrev cc5_stg25_0 : Ref sig .tc := ⟨.vmem, 328, rfl⟩
abbrev cc5_stg25_1 : Ref sig .tc := ⟨.vmem, 329, rfl⟩
abbrev cc5_stg26_0 : Ref sig .tc := ⟨.vmem, 330, rfl⟩
abbrev cc5_stg26_1 : Ref sig .tc := ⟨.vmem, 331, rfl⟩
abbrev cc5_stg27_0 : Ref sig .tc := ⟨.vmem, 332, rfl⟩
abbrev cc5_stg27_1 : Ref sig .tc := ⟨.vmem, 333, rfl⟩
abbrev cc5_stg28_0 : Ref sig .tc := ⟨.vmem, 334, rfl⟩
abbrev cc5_stg28_1 : Ref sig .tc := ⟨.vmem, 335, rfl⟩
abbrev cc5_stg29_0 : Ref sig .tc := ⟨.vmem, 336, rfl⟩
abbrev cc5_stg29_1 : Ref sig .tc := ⟨.vmem, 337, rfl⟩
abbrev cc5_stg30_0 : Ref sig .tc := ⟨.vmem, 338, rfl⟩
abbrev cc5_stg30_1 : Ref sig .tc := ⟨.vmem, 339, rfl⟩
abbrev cc5_stg31_0 : Ref sig .tc := ⟨.vmem, 340, rfl⟩
abbrev cc5_stg31_1 : Ref sig .tc := ⟨.vmem, 341, rfl⟩
abbrev cc5_stg32_0 : Ref sig .tc := ⟨.vmem, 342, rfl⟩
abbrev cc5_stg33_0 : Ref sig .tc := ⟨.vmem, 343, rfl⟩
abbrev cc5_stg34_0 : Ref sig .tc := ⟨.vmem, 344, rfl⟩
abbrev cc5_stg34_1 : Ref sig .tc := ⟨.vmem, 345, rfl⟩
abbrev cc6_stg0_0 : Ref sig .tc := ⟨.vmem, 346, rfl⟩
abbrev cc6_stg0_1 : Ref sig .tc := ⟨.vmem, 347, rfl⟩
abbrev cc6_stg1_0 : Ref sig .tc := ⟨.vmem, 348, rfl⟩
abbrev cc6_stg1_1 : Ref sig .tc := ⟨.vmem, 349, rfl⟩
abbrev cc6_stg2_0 : Ref sig .tc := ⟨.vmem, 350, rfl⟩
abbrev cc6_stg2_1 : Ref sig .tc := ⟨.vmem, 351, rfl⟩
abbrev cc6_stg3_0 : Ref sig .tc := ⟨.vmem, 352, rfl⟩
abbrev cc6_stg3_1 : Ref sig .tc := ⟨.vmem, 353, rfl⟩
abbrev cc6_stg4_0 : Ref sig .tc := ⟨.vmem, 354, rfl⟩
abbrev cc6_stg4_1 : Ref sig .tc := ⟨.vmem, 355, rfl⟩
abbrev cc6_stg5_0 : Ref sig .tc := ⟨.vmem, 356, rfl⟩
abbrev cc6_stg5_1 : Ref sig .tc := ⟨.vmem, 357, rfl⟩
abbrev cc6_stg6_0 : Ref sig .tc := ⟨.vmem, 358, rfl⟩
abbrev cc6_stg6_1 : Ref sig .tc := ⟨.vmem, 359, rfl⟩
abbrev cc6_stg7_0 : Ref sig .tc := ⟨.vmem, 360, rfl⟩
abbrev cc6_stg7_1 : Ref sig .tc := ⟨.vmem, 361, rfl⟩
abbrev cc6_stg8_0 : Ref sig .tc := ⟨.vmem, 362, rfl⟩
abbrev cc6_stg8_1 : Ref sig .tc := ⟨.vmem, 363, rfl⟩
abbrev cc6_stg9_0 : Ref sig .tc := ⟨.vmem, 364, rfl⟩
abbrev cc6_stg9_1 : Ref sig .tc := ⟨.vmem, 365, rfl⟩
abbrev cc6_stg10_0 : Ref sig .tc := ⟨.vmem, 366, rfl⟩
abbrev cc6_stg10_1 : Ref sig .tc := ⟨.vmem, 367, rfl⟩
abbrev cc6_stg11_0 : Ref sig .tc := ⟨.vmem, 368, rfl⟩
abbrev cc6_stg11_1 : Ref sig .tc := ⟨.vmem, 369, rfl⟩
abbrev cc6_stg12_0 : Ref sig .tc := ⟨.vmem, 370, rfl⟩
abbrev cc6_stg12_1 : Ref sig .tc := ⟨.vmem, 371, rfl⟩
abbrev cc6_stg13_0 : Ref sig .tc := ⟨.vmem, 372, rfl⟩
abbrev cc6_stg13_1 : Ref sig .tc := ⟨.vmem, 373, rfl⟩
abbrev cc6_stg14_0 : Ref sig .tc := ⟨.vmem, 374, rfl⟩
abbrev cc6_stg14_1 : Ref sig .tc := ⟨.vmem, 375, rfl⟩
abbrev cc6_stg15_0 : Ref sig .tc := ⟨.vmem, 376, rfl⟩
abbrev cc6_stg15_1 : Ref sig .tc := ⟨.vmem, 377, rfl⟩
abbrev cc6_stg16_0 : Ref sig .tc := ⟨.vmem, 378, rfl⟩
abbrev cc6_stg16_1 : Ref sig .tc := ⟨.vmem, 379, rfl⟩
abbrev cc6_stg17_0 : Ref sig .tc := ⟨.vmem, 380, rfl⟩
abbrev cc6_stg17_1 : Ref sig .tc := ⟨.vmem, 381, rfl⟩
abbrev cc6_stg18_0 : Ref sig .tc := ⟨.vmem, 382, rfl⟩
abbrev cc6_stg18_1 : Ref sig .tc := ⟨.vmem, 383, rfl⟩
abbrev cc6_stg19_0 : Ref sig .tc := ⟨.vmem, 384, rfl⟩
abbrev cc6_stg19_1 : Ref sig .tc := ⟨.vmem, 385, rfl⟩
abbrev cc6_stg20_0 : Ref sig .tc := ⟨.vmem, 386, rfl⟩
abbrev cc6_stg20_1 : Ref sig .tc := ⟨.vmem, 387, rfl⟩
abbrev cc6_stg21_0 : Ref sig .tc := ⟨.vmem, 388, rfl⟩
abbrev cc6_stg21_1 : Ref sig .tc := ⟨.vmem, 389, rfl⟩
abbrev cc6_stg22_0 : Ref sig .tc := ⟨.vmem, 390, rfl⟩
abbrev cc6_stg22_1 : Ref sig .tc := ⟨.vmem, 391, rfl⟩
abbrev cc6_stg23_0 : Ref sig .tc := ⟨.vmem, 392, rfl⟩
abbrev cc6_stg23_1 : Ref sig .tc := ⟨.vmem, 393, rfl⟩
abbrev cc6_stg24_0 : Ref sig .tc := ⟨.vmem, 394, rfl⟩
abbrev cc6_stg24_1 : Ref sig .tc := ⟨.vmem, 395, rfl⟩
abbrev cc6_stg25_0 : Ref sig .tc := ⟨.vmem, 396, rfl⟩
abbrev cc6_stg25_1 : Ref sig .tc := ⟨.vmem, 397, rfl⟩
abbrev cc6_stg26_0 : Ref sig .tc := ⟨.vmem, 398, rfl⟩
abbrev cc6_stg26_1 : Ref sig .tc := ⟨.vmem, 399, rfl⟩
abbrev cc6_stg27_0 : Ref sig .tc := ⟨.vmem, 400, rfl⟩
abbrev cc6_stg27_1 : Ref sig .tc := ⟨.vmem, 401, rfl⟩
abbrev cc6_stg28_0 : Ref sig .tc := ⟨.vmem, 402, rfl⟩
abbrev cc6_stg28_1 : Ref sig .tc := ⟨.vmem, 403, rfl⟩
abbrev cc6_stg29_0 : Ref sig .tc := ⟨.vmem, 404, rfl⟩
abbrev cc6_stg29_1 : Ref sig .tc := ⟨.vmem, 405, rfl⟩
abbrev cc6_stg30_0 : Ref sig .tc := ⟨.vmem, 406, rfl⟩
abbrev cc6_stg30_1 : Ref sig .tc := ⟨.vmem, 407, rfl⟩
abbrev cc6_stg31_0 : Ref sig .tc := ⟨.vmem, 408, rfl⟩
abbrev cc6_stg31_1 : Ref sig .tc := ⟨.vmem, 409, rfl⟩
abbrev cc6_stg32_0 : Ref sig .tc := ⟨.vmem, 410, rfl⟩
abbrev cc6_stg33_0 : Ref sig .tc := ⟨.vmem, 411, rfl⟩
abbrev cc6_stg34_0 : Ref sig .tc := ⟨.vmem, 412, rfl⟩
abbrev cc6_stg34_1 : Ref sig .tc := ⟨.vmem, 413, rfl⟩
abbrev cc7_stg0_0 : Ref sig .tc := ⟨.vmem, 414, rfl⟩
abbrev cc7_stg0_1 : Ref sig .tc := ⟨.vmem, 415, rfl⟩
abbrev cc7_stg1_0 : Ref sig .tc := ⟨.vmem, 416, rfl⟩
abbrev cc7_stg1_1 : Ref sig .tc := ⟨.vmem, 417, rfl⟩
abbrev cc7_stg2_0 : Ref sig .tc := ⟨.vmem, 418, rfl⟩
abbrev cc7_stg2_1 : Ref sig .tc := ⟨.vmem, 419, rfl⟩
abbrev cc7_stg3_0 : Ref sig .tc := ⟨.vmem, 420, rfl⟩
abbrev cc7_stg3_1 : Ref sig .tc := ⟨.vmem, 421, rfl⟩
abbrev cc7_stg4_0 : Ref sig .tc := ⟨.vmem, 422, rfl⟩
abbrev cc7_stg4_1 : Ref sig .tc := ⟨.vmem, 423, rfl⟩
abbrev cc7_stg5_0 : Ref sig .tc := ⟨.vmem, 424, rfl⟩
abbrev cc7_stg5_1 : Ref sig .tc := ⟨.vmem, 425, rfl⟩
abbrev cc7_stg6_0 : Ref sig .tc := ⟨.vmem, 426, rfl⟩
abbrev cc7_stg6_1 : Ref sig .tc := ⟨.vmem, 427, rfl⟩
abbrev cc7_stg7_0 : Ref sig .tc := ⟨.vmem, 428, rfl⟩
abbrev cc7_stg7_1 : Ref sig .tc := ⟨.vmem, 429, rfl⟩
abbrev cc7_stg8_0 : Ref sig .tc := ⟨.vmem, 430, rfl⟩
abbrev cc7_stg8_1 : Ref sig .tc := ⟨.vmem, 431, rfl⟩
abbrev cc7_stg9_0 : Ref sig .tc := ⟨.vmem, 432, rfl⟩
abbrev cc7_stg9_1 : Ref sig .tc := ⟨.vmem, 433, rfl⟩
abbrev cc7_stg10_0 : Ref sig .tc := ⟨.vmem, 434, rfl⟩
abbrev cc7_stg10_1 : Ref sig .tc := ⟨.vmem, 435, rfl⟩
abbrev cc7_stg11_0 : Ref sig .tc := ⟨.vmem, 436, rfl⟩
abbrev cc7_stg11_1 : Ref sig .tc := ⟨.vmem, 437, rfl⟩
abbrev cc7_stg12_0 : Ref sig .tc := ⟨.vmem, 438, rfl⟩
abbrev cc7_stg12_1 : Ref sig .tc := ⟨.vmem, 439, rfl⟩
abbrev cc7_stg13_0 : Ref sig .tc := ⟨.vmem, 440, rfl⟩
abbrev cc7_stg13_1 : Ref sig .tc := ⟨.vmem, 441, rfl⟩
abbrev cc7_stg14_0 : Ref sig .tc := ⟨.vmem, 442, rfl⟩
abbrev cc7_stg14_1 : Ref sig .tc := ⟨.vmem, 443, rfl⟩
abbrev cc7_stg15_0 : Ref sig .tc := ⟨.vmem, 444, rfl⟩
abbrev cc7_stg15_1 : Ref sig .tc := ⟨.vmem, 445, rfl⟩
abbrev cc7_stg16_0 : Ref sig .tc := ⟨.vmem, 446, rfl⟩
abbrev cc7_stg16_1 : Ref sig .tc := ⟨.vmem, 447, rfl⟩
abbrev cc7_stg17_0 : Ref sig .tc := ⟨.vmem, 448, rfl⟩
abbrev cc7_stg17_1 : Ref sig .tc := ⟨.vmem, 449, rfl⟩
abbrev cc7_stg18_0 : Ref sig .tc := ⟨.vmem, 450, rfl⟩
abbrev cc7_stg18_1 : Ref sig .tc := ⟨.vmem, 451, rfl⟩
abbrev cc7_stg19_0 : Ref sig .tc := ⟨.vmem, 452, rfl⟩
abbrev cc7_stg19_1 : Ref sig .tc := ⟨.vmem, 453, rfl⟩
abbrev cc7_stg20_0 : Ref sig .tc := ⟨.vmem, 454, rfl⟩
abbrev cc7_stg20_1 : Ref sig .tc := ⟨.vmem, 455, rfl⟩
abbrev cc7_stg21_0 : Ref sig .tc := ⟨.vmem, 456, rfl⟩
abbrev cc7_stg21_1 : Ref sig .tc := ⟨.vmem, 457, rfl⟩
abbrev cc7_stg22_0 : Ref sig .tc := ⟨.vmem, 458, rfl⟩
abbrev cc7_stg22_1 : Ref sig .tc := ⟨.vmem, 459, rfl⟩
abbrev cc7_stg23_0 : Ref sig .tc := ⟨.vmem, 460, rfl⟩
abbrev cc7_stg23_1 : Ref sig .tc := ⟨.vmem, 461, rfl⟩
abbrev cc7_stg24_0 : Ref sig .tc := ⟨.vmem, 462, rfl⟩
abbrev cc7_stg24_1 : Ref sig .tc := ⟨.vmem, 463, rfl⟩
abbrev cc7_stg25_0 : Ref sig .tc := ⟨.vmem, 464, rfl⟩
abbrev cc7_stg25_1 : Ref sig .tc := ⟨.vmem, 465, rfl⟩
abbrev cc7_stg26_0 : Ref sig .tc := ⟨.vmem, 466, rfl⟩
abbrev cc7_stg26_1 : Ref sig .tc := ⟨.vmem, 467, rfl⟩
abbrev cc7_stg27_0 : Ref sig .tc := ⟨.vmem, 468, rfl⟩
abbrev cc7_stg27_1 : Ref sig .tc := ⟨.vmem, 469, rfl⟩
abbrev cc7_stg28_0 : Ref sig .tc := ⟨.vmem, 470, rfl⟩
abbrev cc7_stg28_1 : Ref sig .tc := ⟨.vmem, 471, rfl⟩
abbrev cc7_stg29_0 : Ref sig .tc := ⟨.vmem, 472, rfl⟩
abbrev cc7_stg29_1 : Ref sig .tc := ⟨.vmem, 473, rfl⟩
abbrev cc7_stg30_0 : Ref sig .tc := ⟨.vmem, 474, rfl⟩
abbrev cc7_stg30_1 : Ref sig .tc := ⟨.vmem, 475, rfl⟩
abbrev cc7_stg31_0 : Ref sig .tc := ⟨.vmem, 476, rfl⟩
abbrev cc7_stg31_1 : Ref sig .tc := ⟨.vmem, 477, rfl⟩
abbrev cc7_stg32_0 : Ref sig .tc := ⟨.vmem, 478, rfl⟩
abbrev cc7_stg33_0 : Ref sig .tc := ⟨.vmem, 479, rfl⟩
abbrev cc7_stg34_0 : Ref sig .tc := ⟨.vmem, 480, rfl⟩
abbrev cc7_stg34_1 : Ref sig .tc := ⟨.vmem, 481, rfl⟩
abbrev cc8_stg0_0 : Ref sig .tc := ⟨.vmem, 482, rfl⟩
abbrev cc8_stg0_1 : Ref sig .tc := ⟨.vmem, 483, rfl⟩
abbrev cc8_stg1_0 : Ref sig .tc := ⟨.vmem, 484, rfl⟩
abbrev cc8_stg1_1 : Ref sig .tc := ⟨.vmem, 485, rfl⟩
abbrev cc8_stg2_0 : Ref sig .tc := ⟨.vmem, 486, rfl⟩
abbrev cc8_stg2_1 : Ref sig .tc := ⟨.vmem, 487, rfl⟩
abbrev cc8_stg3_0 : Ref sig .tc := ⟨.vmem, 488, rfl⟩
abbrev cc8_stg3_1 : Ref sig .tc := ⟨.vmem, 489, rfl⟩
abbrev cc8_stg4_0 : Ref sig .tc := ⟨.vmem, 490, rfl⟩
abbrev cc8_stg4_1 : Ref sig .tc := ⟨.vmem, 491, rfl⟩
abbrev cc8_stg5_0 : Ref sig .tc := ⟨.vmem, 492, rfl⟩
abbrev cc8_stg5_1 : Ref sig .tc := ⟨.vmem, 493, rfl⟩
abbrev cc8_stg6_0 : Ref sig .tc := ⟨.vmem, 494, rfl⟩
abbrev cc8_stg6_1 : Ref sig .tc := ⟨.vmem, 495, rfl⟩
abbrev cc8_stg7_0 : Ref sig .tc := ⟨.vmem, 496, rfl⟩
abbrev cc8_stg7_1 : Ref sig .tc := ⟨.vmem, 497, rfl⟩
abbrev cc8_stg8_0 : Ref sig .tc := ⟨.vmem, 498, rfl⟩
abbrev cc8_stg8_1 : Ref sig .tc := ⟨.vmem, 499, rfl⟩
abbrev cc8_stg9_0 : Ref sig .tc := ⟨.vmem, 500, rfl⟩
abbrev cc8_stg9_1 : Ref sig .tc := ⟨.vmem, 501, rfl⟩
abbrev cc8_stg10_0 : Ref sig .tc := ⟨.vmem, 502, rfl⟩
abbrev cc8_stg10_1 : Ref sig .tc := ⟨.vmem, 503, rfl⟩
abbrev cc8_stg11_0 : Ref sig .tc := ⟨.vmem, 504, rfl⟩
abbrev cc8_stg11_1 : Ref sig .tc := ⟨.vmem, 505, rfl⟩
abbrev cc8_stg12_0 : Ref sig .tc := ⟨.vmem, 506, rfl⟩
abbrev cc8_stg12_1 : Ref sig .tc := ⟨.vmem, 507, rfl⟩
abbrev cc8_stg13_0 : Ref sig .tc := ⟨.vmem, 508, rfl⟩
abbrev cc8_stg13_1 : Ref sig .tc := ⟨.vmem, 509, rfl⟩
abbrev cc8_stg14_0 : Ref sig .tc := ⟨.vmem, 510, rfl⟩
abbrev cc8_stg14_1 : Ref sig .tc := ⟨.vmem, 511, rfl⟩
abbrev cc8_stg15_0 : Ref sig .tc := ⟨.vmem, 512, rfl⟩
abbrev cc8_stg15_1 : Ref sig .tc := ⟨.vmem, 513, rfl⟩
abbrev cc8_stg16_0 : Ref sig .tc := ⟨.vmem, 514, rfl⟩
abbrev cc8_stg16_1 : Ref sig .tc := ⟨.vmem, 515, rfl⟩
abbrev cc8_stg17_0 : Ref sig .tc := ⟨.vmem, 516, rfl⟩
abbrev cc8_stg17_1 : Ref sig .tc := ⟨.vmem, 517, rfl⟩
abbrev cc8_stg18_0 : Ref sig .tc := ⟨.vmem, 518, rfl⟩
abbrev cc8_stg18_1 : Ref sig .tc := ⟨.vmem, 519, rfl⟩
abbrev cc8_stg19_0 : Ref sig .tc := ⟨.vmem, 520, rfl⟩
abbrev cc8_stg19_1 : Ref sig .tc := ⟨.vmem, 521, rfl⟩
abbrev cc8_stg20_0 : Ref sig .tc := ⟨.vmem, 522, rfl⟩
abbrev cc8_stg20_1 : Ref sig .tc := ⟨.vmem, 523, rfl⟩
abbrev cc8_stg21_0 : Ref sig .tc := ⟨.vmem, 524, rfl⟩
abbrev cc8_stg21_1 : Ref sig .tc := ⟨.vmem, 525, rfl⟩
abbrev cc8_stg22_0 : Ref sig .tc := ⟨.vmem, 526, rfl⟩
abbrev cc8_stg22_1 : Ref sig .tc := ⟨.vmem, 527, rfl⟩
abbrev cc8_stg23_0 : Ref sig .tc := ⟨.vmem, 528, rfl⟩
abbrev cc8_stg23_1 : Ref sig .tc := ⟨.vmem, 529, rfl⟩
abbrev cc8_stg24_0 : Ref sig .tc := ⟨.vmem, 530, rfl⟩
abbrev cc8_stg24_1 : Ref sig .tc := ⟨.vmem, 531, rfl⟩
abbrev cc8_stg25_0 : Ref sig .tc := ⟨.vmem, 532, rfl⟩
abbrev cc8_stg25_1 : Ref sig .tc := ⟨.vmem, 533, rfl⟩
abbrev cc8_stg26_0 : Ref sig .tc := ⟨.vmem, 534, rfl⟩
abbrev cc8_stg26_1 : Ref sig .tc := ⟨.vmem, 535, rfl⟩
abbrev cc8_stg27_0 : Ref sig .tc := ⟨.vmem, 536, rfl⟩
abbrev cc8_stg27_1 : Ref sig .tc := ⟨.vmem, 537, rfl⟩
abbrev cc8_stg28_0 : Ref sig .tc := ⟨.vmem, 538, rfl⟩
abbrev cc8_stg28_1 : Ref sig .tc := ⟨.vmem, 539, rfl⟩
abbrev cc8_stg29_0 : Ref sig .tc := ⟨.vmem, 540, rfl⟩
abbrev cc8_stg29_1 : Ref sig .tc := ⟨.vmem, 541, rfl⟩
abbrev cc8_stg30_0 : Ref sig .tc := ⟨.vmem, 542, rfl⟩
abbrev cc8_stg30_1 : Ref sig .tc := ⟨.vmem, 543, rfl⟩
abbrev cc8_stg31_0 : Ref sig .tc := ⟨.vmem, 544, rfl⟩
abbrev cc8_stg31_1 : Ref sig .tc := ⟨.vmem, 545, rfl⟩
abbrev cc8_stg32_0 : Ref sig .tc := ⟨.vmem, 546, rfl⟩
abbrev cc8_stg33_0 : Ref sig .tc := ⟨.vmem, 547, rfl⟩
abbrev cc8_stg34_0 : Ref sig .tc := ⟨.vmem, 548, rfl⟩
abbrev cc8_stg34_1 : Ref sig .tc := ⟨.vmem, 549, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc1_sem15_0 : DmaSem sig := 36
abbrev cc1_sem15_1 : DmaSem sig := 37
abbrev cc1_sem16_0 : DmaSem sig := 38
abbrev cc1_sem16_1 : DmaSem sig := 39
abbrev cc1_sem17_0 : DmaSem sig := 40
abbrev cc1_sem17_1 : DmaSem sig := 41
abbrev cc1_sem18_0 : DmaSem sig := 42
abbrev cc1_sem18_1 : DmaSem sig := 43
abbrev cc1_sem19_0 : DmaSem sig := 44
abbrev cc1_sem19_1 : DmaSem sig := 45
abbrev cc1_sem20_0 : DmaSem sig := 46
abbrev cc1_sem20_1 : DmaSem sig := 47
abbrev cc1_sem21_0 : DmaSem sig := 48
abbrev cc1_sem21_1 : DmaSem sig := 49
abbrev cc1_sem22_0 : DmaSem sig := 50
abbrev cc1_sem22_1 : DmaSem sig := 51
abbrev cc1_sem23_0 : DmaSem sig := 52
abbrev cc1_sem23_1 : DmaSem sig := 53
abbrev cc1_sem24_0 : DmaSem sig := 54
abbrev cc1_sem24_1 : DmaSem sig := 55
abbrev cc1_sem25_0 : DmaSem sig := 56
abbrev cc1_sem25_1 : DmaSem sig := 57
abbrev cc1_sem26_0 : DmaSem sig := 58
abbrev cc1_sem26_1 : DmaSem sig := 59
abbrev cc1_sem27_0 : DmaSem sig := 60
abbrev cc1_sem27_1 : DmaSem sig := 61
abbrev cc1_sem28_0 : DmaSem sig := 62
abbrev cc1_sem28_1 : DmaSem sig := 63
abbrev cc1_sem29_0 : DmaSem sig := 64
abbrev cc1_sem29_1 : DmaSem sig := 65
abbrev cc1_sem30_0 : DmaSem sig := 66
abbrev cc1_sem30_1 : DmaSem sig := 67
abbrev cc1_sem31_0 : DmaSem sig := 68
abbrev cc1_sem31_1 : DmaSem sig := 69
abbrev cc1_sem32_0 : DmaSem sig := 70
abbrev cc1_sem33_0 : DmaSem sig := 71
abbrev cc1_sem34_0 : DmaSem sig := 72
abbrev cc1_sem34_1 : DmaSem sig := 73
abbrev cc2_sem0_0 : DmaSem sig := 74
abbrev cc2_sem0_1 : DmaSem sig := 75
abbrev cc2_sem1_0 : DmaSem sig := 76
abbrev cc2_sem1_1 : DmaSem sig := 77
abbrev cc2_sem2_0 : DmaSem sig := 78
abbrev cc2_sem2_1 : DmaSem sig := 79
abbrev cc2_sem3_0 : DmaSem sig := 80
abbrev cc2_sem3_1 : DmaSem sig := 81
abbrev cc2_sem4_0 : DmaSem sig := 82
abbrev cc2_sem4_1 : DmaSem sig := 83
abbrev cc2_sem5_0 : DmaSem sig := 84
abbrev cc2_sem5_1 : DmaSem sig := 85
abbrev cc2_sem6_0 : DmaSem sig := 86
abbrev cc2_sem6_1 : DmaSem sig := 87
abbrev cc2_sem7_0 : DmaSem sig := 88
abbrev cc2_sem7_1 : DmaSem sig := 89
abbrev cc2_sem8_0 : DmaSem sig := 90
abbrev cc2_sem8_1 : DmaSem sig := 91
abbrev cc2_sem9_0 : DmaSem sig := 92
abbrev cc2_sem9_1 : DmaSem sig := 93
abbrev cc2_sem10_0 : DmaSem sig := 94
abbrev cc2_sem10_1 : DmaSem sig := 95
abbrev cc2_sem11_0 : DmaSem sig := 96
abbrev cc2_sem11_1 : DmaSem sig := 97
abbrev cc2_sem12_0 : DmaSem sig := 98
abbrev cc2_sem12_1 : DmaSem sig := 99
abbrev cc2_sem13_0 : DmaSem sig := 100
abbrev cc2_sem13_1 : DmaSem sig := 101
abbrev cc2_sem14_0 : DmaSem sig := 102
abbrev cc2_sem14_1 : DmaSem sig := 103
abbrev cc2_sem15_0 : DmaSem sig := 104
abbrev cc2_sem15_1 : DmaSem sig := 105
abbrev cc2_sem16_0 : DmaSem sig := 106
abbrev cc2_sem16_1 : DmaSem sig := 107
abbrev cc2_sem17_0 : DmaSem sig := 108
abbrev cc2_sem17_1 : DmaSem sig := 109
abbrev cc2_sem18_0 : DmaSem sig := 110
abbrev cc2_sem18_1 : DmaSem sig := 111
abbrev cc2_sem19_0 : DmaSem sig := 112
abbrev cc2_sem19_1 : DmaSem sig := 113
abbrev cc2_sem20_0 : DmaSem sig := 114
abbrev cc2_sem20_1 : DmaSem sig := 115
abbrev cc2_sem21_0 : DmaSem sig := 116
abbrev cc2_sem21_1 : DmaSem sig := 117
abbrev cc2_sem22_0 : DmaSem sig := 118
abbrev cc2_sem22_1 : DmaSem sig := 119
abbrev cc2_sem23_0 : DmaSem sig := 120
abbrev cc2_sem23_1 : DmaSem sig := 121
abbrev cc2_sem24_0 : DmaSem sig := 122
abbrev cc2_sem24_1 : DmaSem sig := 123
abbrev cc2_sem25_0 : DmaSem sig := 124
abbrev cc2_sem25_1 : DmaSem sig := 125
abbrev cc2_sem26_0 : DmaSem sig := 126
abbrev cc2_sem26_1 : DmaSem sig := 127
abbrev cc2_sem27_0 : DmaSem sig := 128
abbrev cc2_sem27_1 : DmaSem sig := 129
abbrev cc2_sem28_0 : DmaSem sig := 130
abbrev cc2_sem28_1 : DmaSem sig := 131
abbrev cc2_sem29_0 : DmaSem sig := 132
abbrev cc2_sem29_1 : DmaSem sig := 133
abbrev cc2_sem30_0 : DmaSem sig := 134
abbrev cc2_sem30_1 : DmaSem sig := 135
abbrev cc2_sem31_0 : DmaSem sig := 136
abbrev cc2_sem31_1 : DmaSem sig := 137
abbrev cc2_sem32_0 : DmaSem sig := 138
abbrev cc2_sem33_0 : DmaSem sig := 139
abbrev cc2_sem34_0 : DmaSem sig := 140
abbrev cc2_sem34_1 : DmaSem sig := 141
abbrev cc3_sem0_0 : DmaSem sig := 142
abbrev cc3_sem0_1 : DmaSem sig := 143
abbrev cc3_sem1_0 : DmaSem sig := 144
abbrev cc3_sem1_1 : DmaSem sig := 145
abbrev cc3_sem2_0 : DmaSem sig := 146
abbrev cc3_sem2_1 : DmaSem sig := 147
abbrev cc3_sem3_0 : DmaSem sig := 148
abbrev cc3_sem3_1 : DmaSem sig := 149
abbrev cc3_sem4_0 : DmaSem sig := 150
abbrev cc3_sem4_1 : DmaSem sig := 151
abbrev cc3_sem5_0 : DmaSem sig := 152
abbrev cc3_sem5_1 : DmaSem sig := 153
abbrev cc3_sem6_0 : DmaSem sig := 154
abbrev cc3_sem6_1 : DmaSem sig := 155
abbrev cc3_sem7_0 : DmaSem sig := 156
abbrev cc3_sem7_1 : DmaSem sig := 157
abbrev cc3_sem8_0 : DmaSem sig := 158
abbrev cc3_sem8_1 : DmaSem sig := 159
abbrev cc3_sem9_0 : DmaSem sig := 160
abbrev cc3_sem9_1 : DmaSem sig := 161
abbrev cc3_sem10_0 : DmaSem sig := 162
abbrev cc3_sem10_1 : DmaSem sig := 163
abbrev cc3_sem11_0 : DmaSem sig := 164
abbrev cc3_sem11_1 : DmaSem sig := 165
abbrev cc3_sem12_0 : DmaSem sig := 166
abbrev cc3_sem12_1 : DmaSem sig := 167
abbrev cc3_sem13_0 : DmaSem sig := 168
abbrev cc3_sem13_1 : DmaSem sig := 169
abbrev cc3_sem14_0 : DmaSem sig := 170
abbrev cc3_sem14_1 : DmaSem sig := 171
abbrev cc3_sem15_0 : DmaSem sig := 172
abbrev cc3_sem15_1 : DmaSem sig := 173
abbrev cc3_sem16_0 : DmaSem sig := 174
abbrev cc3_sem16_1 : DmaSem sig := 175
abbrev cc3_sem17_0 : DmaSem sig := 176
abbrev cc3_sem17_1 : DmaSem sig := 177
abbrev cc3_sem18_0 : DmaSem sig := 178
abbrev cc3_sem18_1 : DmaSem sig := 179
abbrev cc3_sem19_0 : DmaSem sig := 180
abbrev cc3_sem19_1 : DmaSem sig := 181
abbrev cc3_sem20_0 : DmaSem sig := 182
abbrev cc3_sem20_1 : DmaSem sig := 183
abbrev cc3_sem21_0 : DmaSem sig := 184
abbrev cc3_sem21_1 : DmaSem sig := 185
abbrev cc3_sem22_0 : DmaSem sig := 186
abbrev cc3_sem22_1 : DmaSem sig := 187
abbrev cc3_sem23_0 : DmaSem sig := 188
abbrev cc3_sem23_1 : DmaSem sig := 189
abbrev cc3_sem24_0 : DmaSem sig := 190
abbrev cc3_sem24_1 : DmaSem sig := 191
abbrev cc3_sem25_0 : DmaSem sig := 192
abbrev cc3_sem25_1 : DmaSem sig := 193
abbrev cc3_sem26_0 : DmaSem sig := 194
abbrev cc3_sem26_1 : DmaSem sig := 195
abbrev cc3_sem27_0 : DmaSem sig := 196
abbrev cc3_sem27_1 : DmaSem sig := 197
abbrev cc3_sem28_0 : DmaSem sig := 198
abbrev cc3_sem28_1 : DmaSem sig := 199
abbrev cc3_sem29_0 : DmaSem sig := 200
abbrev cc3_sem29_1 : DmaSem sig := 201
abbrev cc3_sem30_0 : DmaSem sig := 202
abbrev cc3_sem30_1 : DmaSem sig := 203
abbrev cc3_sem31_0 : DmaSem sig := 204
abbrev cc3_sem31_1 : DmaSem sig := 205
abbrev cc3_sem32_0 : DmaSem sig := 206
abbrev cc3_sem33_0 : DmaSem sig := 207
abbrev cc3_sem34_0 : DmaSem sig := 208
abbrev cc3_sem34_1 : DmaSem sig := 209
abbrev cc4_sem0_0 : DmaSem sig := 210
abbrev cc4_sem0_1 : DmaSem sig := 211
abbrev cc4_sem1_0 : DmaSem sig := 212
abbrev cc4_sem1_1 : DmaSem sig := 213
abbrev cc4_sem2_0 : DmaSem sig := 214
abbrev cc4_sem2_1 : DmaSem sig := 215
abbrev cc4_sem3_0 : DmaSem sig := 216
abbrev cc4_sem3_1 : DmaSem sig := 217
abbrev cc4_sem4_0 : DmaSem sig := 218
abbrev cc4_sem4_1 : DmaSem sig := 219
abbrev cc4_sem5_0 : DmaSem sig := 220
abbrev cc4_sem5_1 : DmaSem sig := 221
abbrev cc4_sem6_0 : DmaSem sig := 222
abbrev cc4_sem6_1 : DmaSem sig := 223
abbrev cc4_sem7_0 : DmaSem sig := 224
abbrev cc4_sem7_1 : DmaSem sig := 225
abbrev cc4_sem8_0 : DmaSem sig := 226
abbrev cc4_sem8_1 : DmaSem sig := 227
abbrev cc4_sem9_0 : DmaSem sig := 228
abbrev cc4_sem9_1 : DmaSem sig := 229
abbrev cc4_sem10_0 : DmaSem sig := 230
abbrev cc4_sem10_1 : DmaSem sig := 231
abbrev cc4_sem11_0 : DmaSem sig := 232
abbrev cc4_sem11_1 : DmaSem sig := 233
abbrev cc4_sem12_0 : DmaSem sig := 234
abbrev cc4_sem12_1 : DmaSem sig := 235
abbrev cc4_sem13_0 : DmaSem sig := 236
abbrev cc4_sem13_1 : DmaSem sig := 237
abbrev cc4_sem14_0 : DmaSem sig := 238
abbrev cc4_sem14_1 : DmaSem sig := 239
abbrev cc4_sem15_0 : DmaSem sig := 240
abbrev cc4_sem15_1 : DmaSem sig := 241
abbrev cc4_sem16_0 : DmaSem sig := 242
abbrev cc4_sem16_1 : DmaSem sig := 243
abbrev cc4_sem17_0 : DmaSem sig := 244
abbrev cc4_sem17_1 : DmaSem sig := 245
abbrev cc4_sem18_0 : DmaSem sig := 246
abbrev cc4_sem18_1 : DmaSem sig := 247
abbrev cc4_sem19_0 : DmaSem sig := 248
abbrev cc4_sem19_1 : DmaSem sig := 249
abbrev cc4_sem20_0 : DmaSem sig := 250
abbrev cc4_sem20_1 : DmaSem sig := 251
abbrev cc4_sem21_0 : DmaSem sig := 252
abbrev cc4_sem21_1 : DmaSem sig := 253
abbrev cc4_sem22_0 : DmaSem sig := 254
abbrev cc4_sem22_1 : DmaSem sig := 255
abbrev cc4_sem23_0 : DmaSem sig := 256
abbrev cc4_sem23_1 : DmaSem sig := 257
abbrev cc4_sem24_0 : DmaSem sig := 258
abbrev cc4_sem24_1 : DmaSem sig := 259
abbrev cc4_sem25_0 : DmaSem sig := 260
abbrev cc4_sem25_1 : DmaSem sig := 261
abbrev cc4_sem26_0 : DmaSem sig := 262
abbrev cc4_sem26_1 : DmaSem sig := 263
abbrev cc4_sem27_0 : DmaSem sig := 264
abbrev cc4_sem27_1 : DmaSem sig := 265
abbrev cc4_sem28_0 : DmaSem sig := 266
abbrev cc4_sem28_1 : DmaSem sig := 267
abbrev cc4_sem29_0 : DmaSem sig := 268
abbrev cc4_sem29_1 : DmaSem sig := 269
abbrev cc4_sem30_0 : DmaSem sig := 270
abbrev cc4_sem30_1 : DmaSem sig := 271
abbrev cc4_sem31_0 : DmaSem sig := 272
abbrev cc4_sem31_1 : DmaSem sig := 273
abbrev cc4_sem32_0 : DmaSem sig := 274
abbrev cc4_sem33_0 : DmaSem sig := 275
abbrev cc4_sem34_0 : DmaSem sig := 276
abbrev cc4_sem34_1 : DmaSem sig := 277
abbrev cc5_sem0_0 : DmaSem sig := 278
abbrev cc5_sem0_1 : DmaSem sig := 279
abbrev cc5_sem1_0 : DmaSem sig := 280
abbrev cc5_sem1_1 : DmaSem sig := 281
abbrev cc5_sem2_0 : DmaSem sig := 282
abbrev cc5_sem2_1 : DmaSem sig := 283
abbrev cc5_sem3_0 : DmaSem sig := 284
abbrev cc5_sem3_1 : DmaSem sig := 285
abbrev cc5_sem4_0 : DmaSem sig := 286
abbrev cc5_sem4_1 : DmaSem sig := 287
abbrev cc5_sem5_0 : DmaSem sig := 288
abbrev cc5_sem5_1 : DmaSem sig := 289
abbrev cc5_sem6_0 : DmaSem sig := 290
abbrev cc5_sem6_1 : DmaSem sig := 291
abbrev cc5_sem7_0 : DmaSem sig := 292
abbrev cc5_sem7_1 : DmaSem sig := 293
abbrev cc5_sem8_0 : DmaSem sig := 294
abbrev cc5_sem8_1 : DmaSem sig := 295
abbrev cc5_sem9_0 : DmaSem sig := 296
abbrev cc5_sem9_1 : DmaSem sig := 297
abbrev cc5_sem10_0 : DmaSem sig := 298
abbrev cc5_sem10_1 : DmaSem sig := 299
abbrev cc5_sem11_0 : DmaSem sig := 300
abbrev cc5_sem11_1 : DmaSem sig := 301
abbrev cc5_sem12_0 : DmaSem sig := 302
abbrev cc5_sem12_1 : DmaSem sig := 303
abbrev cc5_sem13_0 : DmaSem sig := 304
abbrev cc5_sem13_1 : DmaSem sig := 305
abbrev cc5_sem14_0 : DmaSem sig := 306
abbrev cc5_sem14_1 : DmaSem sig := 307
abbrev cc5_sem15_0 : DmaSem sig := 308
abbrev cc5_sem15_1 : DmaSem sig := 309
abbrev cc5_sem16_0 : DmaSem sig := 310
abbrev cc5_sem16_1 : DmaSem sig := 311
abbrev cc5_sem17_0 : DmaSem sig := 312
abbrev cc5_sem17_1 : DmaSem sig := 313
abbrev cc5_sem18_0 : DmaSem sig := 314
abbrev cc5_sem18_1 : DmaSem sig := 315
abbrev cc5_sem19_0 : DmaSem sig := 316
abbrev cc5_sem19_1 : DmaSem sig := 317
abbrev cc5_sem20_0 : DmaSem sig := 318
abbrev cc5_sem20_1 : DmaSem sig := 319
abbrev cc5_sem21_0 : DmaSem sig := 320
abbrev cc5_sem21_1 : DmaSem sig := 321
abbrev cc5_sem22_0 : DmaSem sig := 322
abbrev cc5_sem22_1 : DmaSem sig := 323
abbrev cc5_sem23_0 : DmaSem sig := 324
abbrev cc5_sem23_1 : DmaSem sig := 325
abbrev cc5_sem24_0 : DmaSem sig := 326
abbrev cc5_sem24_1 : DmaSem sig := 327
abbrev cc5_sem25_0 : DmaSem sig := 328
abbrev cc5_sem25_1 : DmaSem sig := 329
abbrev cc5_sem26_0 : DmaSem sig := 330
abbrev cc5_sem26_1 : DmaSem sig := 331
abbrev cc5_sem27_0 : DmaSem sig := 332
abbrev cc5_sem27_1 : DmaSem sig := 333
abbrev cc5_sem28_0 : DmaSem sig := 334
abbrev cc5_sem28_1 : DmaSem sig := 335
abbrev cc5_sem29_0 : DmaSem sig := 336
abbrev cc5_sem29_1 : DmaSem sig := 337
abbrev cc5_sem30_0 : DmaSem sig := 338
abbrev cc5_sem30_1 : DmaSem sig := 339
abbrev cc5_sem31_0 : DmaSem sig := 340
abbrev cc5_sem31_1 : DmaSem sig := 341
abbrev cc5_sem32_0 : DmaSem sig := 342
abbrev cc5_sem33_0 : DmaSem sig := 343
abbrev cc5_sem34_0 : DmaSem sig := 344
abbrev cc5_sem34_1 : DmaSem sig := 345
abbrev cc6_sem0_0 : DmaSem sig := 346
abbrev cc6_sem0_1 : DmaSem sig := 347
abbrev cc6_sem1_0 : DmaSem sig := 348
abbrev cc6_sem1_1 : DmaSem sig := 349
abbrev cc6_sem2_0 : DmaSem sig := 350
abbrev cc6_sem2_1 : DmaSem sig := 351
abbrev cc6_sem3_0 : DmaSem sig := 352
abbrev cc6_sem3_1 : DmaSem sig := 353
abbrev cc6_sem4_0 : DmaSem sig := 354
abbrev cc6_sem4_1 : DmaSem sig := 355
abbrev cc6_sem5_0 : DmaSem sig := 356
abbrev cc6_sem5_1 : DmaSem sig := 357
abbrev cc6_sem6_0 : DmaSem sig := 358
abbrev cc6_sem6_1 : DmaSem sig := 359
abbrev cc6_sem7_0 : DmaSem sig := 360
abbrev cc6_sem7_1 : DmaSem sig := 361
abbrev cc6_sem8_0 : DmaSem sig := 362
abbrev cc6_sem8_1 : DmaSem sig := 363
abbrev cc6_sem9_0 : DmaSem sig := 364
abbrev cc6_sem9_1 : DmaSem sig := 365
abbrev cc6_sem10_0 : DmaSem sig := 366
abbrev cc6_sem10_1 : DmaSem sig := 367
abbrev cc6_sem11_0 : DmaSem sig := 368
abbrev cc6_sem11_1 : DmaSem sig := 369
abbrev cc6_sem12_0 : DmaSem sig := 370
abbrev cc6_sem12_1 : DmaSem sig := 371
abbrev cc6_sem13_0 : DmaSem sig := 372
abbrev cc6_sem13_1 : DmaSem sig := 373
abbrev cc6_sem14_0 : DmaSem sig := 374
abbrev cc6_sem14_1 : DmaSem sig := 375
abbrev cc6_sem15_0 : DmaSem sig := 376
abbrev cc6_sem15_1 : DmaSem sig := 377
abbrev cc6_sem16_0 : DmaSem sig := 378
abbrev cc6_sem16_1 : DmaSem sig := 379
abbrev cc6_sem17_0 : DmaSem sig := 380
abbrev cc6_sem17_1 : DmaSem sig := 381
abbrev cc6_sem18_0 : DmaSem sig := 382
abbrev cc6_sem18_1 : DmaSem sig := 383
abbrev cc6_sem19_0 : DmaSem sig := 384
abbrev cc6_sem19_1 : DmaSem sig := 385
abbrev cc6_sem20_0 : DmaSem sig := 386
abbrev cc6_sem20_1 : DmaSem sig := 387
abbrev cc6_sem21_0 : DmaSem sig := 388
abbrev cc6_sem21_1 : DmaSem sig := 389
abbrev cc6_sem22_0 : DmaSem sig := 390
abbrev cc6_sem22_1 : DmaSem sig := 391
abbrev cc6_sem23_0 : DmaSem sig := 392
abbrev cc6_sem23_1 : DmaSem sig := 393
abbrev cc6_sem24_0 : DmaSem sig := 394
abbrev cc6_sem24_1 : DmaSem sig := 395
abbrev cc6_sem25_0 : DmaSem sig := 396
abbrev cc6_sem25_1 : DmaSem sig := 397
abbrev cc6_sem26_0 : DmaSem sig := 398
abbrev cc6_sem26_1 : DmaSem sig := 399
abbrev cc6_sem27_0 : DmaSem sig := 400
abbrev cc6_sem27_1 : DmaSem sig := 401
abbrev cc6_sem28_0 : DmaSem sig := 402
abbrev cc6_sem28_1 : DmaSem sig := 403
abbrev cc6_sem29_0 : DmaSem sig := 404
abbrev cc6_sem29_1 : DmaSem sig := 405
abbrev cc6_sem30_0 : DmaSem sig := 406
abbrev cc6_sem30_1 : DmaSem sig := 407
abbrev cc6_sem31_0 : DmaSem sig := 408
abbrev cc6_sem31_1 : DmaSem sig := 409
abbrev cc6_sem32_0 : DmaSem sig := 410
abbrev cc6_sem33_0 : DmaSem sig := 411
abbrev cc6_sem34_0 : DmaSem sig := 412
abbrev cc6_sem34_1 : DmaSem sig := 413
abbrev cc7_sem0_0 : DmaSem sig := 414
abbrev cc7_sem0_1 : DmaSem sig := 415
abbrev cc7_sem1_0 : DmaSem sig := 416
abbrev cc7_sem1_1 : DmaSem sig := 417
abbrev cc7_sem2_0 : DmaSem sig := 418
abbrev cc7_sem2_1 : DmaSem sig := 419
abbrev cc7_sem3_0 : DmaSem sig := 420
abbrev cc7_sem3_1 : DmaSem sig := 421
abbrev cc7_sem4_0 : DmaSem sig := 422
abbrev cc7_sem4_1 : DmaSem sig := 423
abbrev cc7_sem5_0 : DmaSem sig := 424
abbrev cc7_sem5_1 : DmaSem sig := 425
abbrev cc7_sem6_0 : DmaSem sig := 426
abbrev cc7_sem6_1 : DmaSem sig := 427
abbrev cc7_sem7_0 : DmaSem sig := 428
abbrev cc7_sem7_1 : DmaSem sig := 429
abbrev cc7_sem8_0 : DmaSem sig := 430
abbrev cc7_sem8_1 : DmaSem sig := 431
abbrev cc7_sem9_0 : DmaSem sig := 432
abbrev cc7_sem9_1 : DmaSem sig := 433
abbrev cc7_sem10_0 : DmaSem sig := 434
abbrev cc7_sem10_1 : DmaSem sig := 435
abbrev cc7_sem11_0 : DmaSem sig := 436
abbrev cc7_sem11_1 : DmaSem sig := 437
abbrev cc7_sem12_0 : DmaSem sig := 438
abbrev cc7_sem12_1 : DmaSem sig := 439
abbrev cc7_sem13_0 : DmaSem sig := 440
abbrev cc7_sem13_1 : DmaSem sig := 441
abbrev cc7_sem14_0 : DmaSem sig := 442
abbrev cc7_sem14_1 : DmaSem sig := 443
abbrev cc7_sem15_0 : DmaSem sig := 444
abbrev cc7_sem15_1 : DmaSem sig := 445
abbrev cc7_sem16_0 : DmaSem sig := 446
abbrev cc7_sem16_1 : DmaSem sig := 447
abbrev cc7_sem17_0 : DmaSem sig := 448
abbrev cc7_sem17_1 : DmaSem sig := 449
abbrev cc7_sem18_0 : DmaSem sig := 450
abbrev cc7_sem18_1 : DmaSem sig := 451
abbrev cc7_sem19_0 : DmaSem sig := 452
abbrev cc7_sem19_1 : DmaSem sig := 453
abbrev cc7_sem20_0 : DmaSem sig := 454
abbrev cc7_sem20_1 : DmaSem sig := 455
abbrev cc7_sem21_0 : DmaSem sig := 456
abbrev cc7_sem21_1 : DmaSem sig := 457
abbrev cc7_sem22_0 : DmaSem sig := 458
abbrev cc7_sem22_1 : DmaSem sig := 459
abbrev cc7_sem23_0 : DmaSem sig := 460
abbrev cc7_sem23_1 : DmaSem sig := 461
abbrev cc7_sem24_0 : DmaSem sig := 462
abbrev cc7_sem24_1 : DmaSem sig := 463
abbrev cc7_sem25_0 : DmaSem sig := 464
abbrev cc7_sem25_1 : DmaSem sig := 465
abbrev cc7_sem26_0 : DmaSem sig := 466
abbrev cc7_sem26_1 : DmaSem sig := 467
abbrev cc7_sem27_0 : DmaSem sig := 468
abbrev cc7_sem27_1 : DmaSem sig := 469
abbrev cc7_sem28_0 : DmaSem sig := 470
abbrev cc7_sem28_1 : DmaSem sig := 471
abbrev cc7_sem29_0 : DmaSem sig := 472
abbrev cc7_sem29_1 : DmaSem sig := 473
abbrev cc7_sem30_0 : DmaSem sig := 474
abbrev cc7_sem30_1 : DmaSem sig := 475
abbrev cc7_sem31_0 : DmaSem sig := 476
abbrev cc7_sem31_1 : DmaSem sig := 477
abbrev cc7_sem32_0 : DmaSem sig := 478
abbrev cc7_sem33_0 : DmaSem sig := 479
abbrev cc7_sem34_0 : DmaSem sig := 480
abbrev cc7_sem34_1 : DmaSem sig := 481
abbrev cc8_sem0_0 : DmaSem sig := 482
abbrev cc8_sem0_1 : DmaSem sig := 483
abbrev cc8_sem1_0 : DmaSem sig := 484
abbrev cc8_sem1_1 : DmaSem sig := 485
abbrev cc8_sem2_0 : DmaSem sig := 486
abbrev cc8_sem2_1 : DmaSem sig := 487
abbrev cc8_sem3_0 : DmaSem sig := 488
abbrev cc8_sem3_1 : DmaSem sig := 489
abbrev cc8_sem4_0 : DmaSem sig := 490
abbrev cc8_sem4_1 : DmaSem sig := 491
abbrev cc8_sem5_0 : DmaSem sig := 492
abbrev cc8_sem5_1 : DmaSem sig := 493
abbrev cc8_sem6_0 : DmaSem sig := 494
abbrev cc8_sem6_1 : DmaSem sig := 495
abbrev cc8_sem7_0 : DmaSem sig := 496
abbrev cc8_sem7_1 : DmaSem sig := 497
abbrev cc8_sem8_0 : DmaSem sig := 498
abbrev cc8_sem8_1 : DmaSem sig := 499
abbrev cc8_sem9_0 : DmaSem sig := 500
abbrev cc8_sem9_1 : DmaSem sig := 501
abbrev cc8_sem10_0 : DmaSem sig := 502
abbrev cc8_sem10_1 : DmaSem sig := 503
abbrev cc8_sem11_0 : DmaSem sig := 504
abbrev cc8_sem11_1 : DmaSem sig := 505
abbrev cc8_sem12_0 : DmaSem sig := 506
abbrev cc8_sem12_1 : DmaSem sig := 507
abbrev cc8_sem13_0 : DmaSem sig := 508
abbrev cc8_sem13_1 : DmaSem sig := 509
abbrev cc8_sem14_0 : DmaSem sig := 510
abbrev cc8_sem14_1 : DmaSem sig := 511
abbrev cc8_sem15_0 : DmaSem sig := 512
abbrev cc8_sem15_1 : DmaSem sig := 513
abbrev cc8_sem16_0 : DmaSem sig := 514
abbrev cc8_sem16_1 : DmaSem sig := 515
abbrev cc8_sem17_0 : DmaSem sig := 516
abbrev cc8_sem17_1 : DmaSem sig := 517
abbrev cc8_sem18_0 : DmaSem sig := 518
abbrev cc8_sem18_1 : DmaSem sig := 519
abbrev cc8_sem19_0 : DmaSem sig := 520
abbrev cc8_sem19_1 : DmaSem sig := 521
abbrev cc8_sem20_0 : DmaSem sig := 522
abbrev cc8_sem20_1 : DmaSem sig := 523
abbrev cc8_sem21_0 : DmaSem sig := 524
abbrev cc8_sem21_1 : DmaSem sig := 525
abbrev cc8_sem22_0 : DmaSem sig := 526
abbrev cc8_sem22_1 : DmaSem sig := 527
abbrev cc8_sem23_0 : DmaSem sig := 528
abbrev cc8_sem23_1 : DmaSem sig := 529
abbrev cc8_sem24_0 : DmaSem sig := 530
abbrev cc8_sem24_1 : DmaSem sig := 531
abbrev cc8_sem25_0 : DmaSem sig := 532
abbrev cc8_sem25_1 : DmaSem sig := 533
abbrev cc8_sem26_0 : DmaSem sig := 534
abbrev cc8_sem26_1 : DmaSem sig := 535
abbrev cc8_sem27_0 : DmaSem sig := 536
abbrev cc8_sem27_1 : DmaSem sig := 537
abbrev cc8_sem28_0 : DmaSem sig := 538
abbrev cc8_sem28_1 : DmaSem sig := 539
abbrev cc8_sem29_0 : DmaSem sig := 540
abbrev cc8_sem29_1 : DmaSem sig := 541
abbrev cc8_sem30_0 : DmaSem sig := 542
abbrev cc8_sem30_1 : DmaSem sig := 543
abbrev cc8_sem31_0 : DmaSem sig := 544
abbrev cc8_sem31_1 : DmaSem sig := 545
abbrev cc8_sem32_0 : DmaSem sig := 546
abbrev cc8_sem33_0 : DmaSem sig := 547
abbrev cc8_sem34_0 : DmaSem sig := 548
abbrev cc8_sem34_1 : DmaSem sig := 549

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_23 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_24 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_25 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_26 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_27 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_28 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_29 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_30 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_31 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_32 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_33 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S512x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S512x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S512x128 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S512x128 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S512x128 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S512x128 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S512x128 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S512x128 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S512x128 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev stage1_29 : Fin 2 → Memref sig .tc .vmem S512x128 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true]

abbrev stage1_30 : Fin 2 → Memref sig .tc .vmem S512x128 .f32 := fun | 0 => Memref.whole cc1_stg30_0 | 1 => Memref.whole cc1_stg30_1 | ⟨_ + 2, h⟩ => absurd h (Nat.not_lt.2 (Nat.le_add_left _ _))
abbrev sem1_30 : Fin 2 → DmaSem sig := fun | 0 => cc1_sem30_0 | 1 => cc1_sem30_1 | ⟨_ + 2, h⟩ => absurd h (Nat.not_lt.2 (Nat.le_add_left _ _))
abbrev reads1_30 : Fin grid1.rank → Bool := ![true]

abbrev stage1_31 : Fin 2 → Memref sig .tc .vmem S512x128 .f32 := fun | 0 => Memref.whole cc1_stg31_0 | 1 => Memref.whole cc1_stg31_1 | ⟨_ + 2, h⟩ => absurd h (Nat.not_lt.2 (Nat.le_add_left _ _))
abbrev sem1_31 : Fin 2 → DmaSem sig := fun | 0 => cc1_sem31_0 | 1 => cc1_sem31_1 | ⟨_ + 2, h⟩ => absurd h (Nat.not_lt.2 (Nat.le_add_left _ _))
abbrev reads1_31 : Fin grid1.rank → Bool := ![true]

abbrev stage1_32 : Fin 1 → Memref sig .tc .vmem S8x128x128 .f32 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false]

abbrev stage1_33 : Fin 1 → Memref sig .tc .vmem S8x128 .f32 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false]

abbrev stage1_34 : Fin 2 → Memref sig .tc .vmem S8x512x128 .f32 := fun | 0 => Memref.whole cc1_stg34_0 | 1 => Memref.whole cc1_stg34_1 | ⟨_ + 2, h⟩ => absurd h (Nat.not_lt.2 (Nat.le_add_left _ _))
abbrev sem1_34 : Fin 2 → DmaSem sig := fun | 0 => cc1_sem34_0 | 1 => cc1_sem34_1 | ⟨_ + 2, h⟩ => absurd h (Nat.not_lt.2 (Nat.le_add_left _ _))
abbrev reads1_34 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_23 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_24 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_25 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_26 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_27 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_28 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_29 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_30 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_31 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_32 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_33 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_34 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S512x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S512x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S512x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S512x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S512x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S512x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S512x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S512x128 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S512x128 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S512x128 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S512x128 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

abbrev stage2_24 : Fin 2 → Memref sig .tc .vmem S512x128 .f32 := fun | 0 => Memref.whole cc2_stg24_0 | 1 => Memref.whole cc2_stg24_1 | ⟨_ + 2, h⟩ => absurd h (Nat.not_lt.2 (Nat.le_add_left _ _))
abbrev sem2_24 : Fin 2 → DmaSem sig := fun | 0 => cc2_sem24_0 | 1 => cc2_sem24_1 | ⟨_ + 2, h⟩ => absurd h (Nat.not_lt.2 (Nat.le_add_left _ _))
abbrev reads2_24 : Fin grid2.rank → Bool := ![true]

abbrev stage2_25 : Fin 2 → Memref sig .tc .vmem S512x128 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S512x128 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S512x128 .f32 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev stage2_28 : Fin 2 → Memref sig .tc .vmem S512x128 .f32 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev stage2_29 : Fin 2 → Memref sig .tc .vmem S512x128 .f32 := fun | 0 => Memref.whole cc2_stg29_0 | 1 => Memref.whole cc2_stg29_1 | ⟨_ + 2, h⟩ => absurd h (Nat.not_lt.2 (Nat.le_add_left _ _))
abbrev sem2_29 : Fin 2 → DmaSem sig := fun | 0 => cc2_sem29_0 | 1 => cc2_sem29_1 | ⟨_ + 2, h⟩ => absurd h (Nat.not_lt.2 (Nat.le_add_left _ _))
abbrev reads2_29 : Fin grid2.rank → Bool := ![true]

abbrev stage2_30 : Fin 2 → Memref sig .tc .vmem S512x128 .f32 := fun | 0 => Memref.whole cc2_stg30_0 | 1 => Memref.whole cc2_stg30_1 | ⟨_ + 2, h⟩ => absurd h (Nat.not_lt.2 (Nat.le_add_left _ _))
abbrev sem2_30 : Fin 2 → DmaSem sig := fun | 0 => cc2_sem30_0 | 1 => cc2_sem30_1 | ⟨_ + 2, h⟩ => absurd h (Nat.not_lt.2 (Nat.le_add_left _ _))
abbrev reads2_30 : Fin grid2.rank → Bool := ![true]

abbrev stage2_31 : Fin 2 → Memref sig .tc .vmem S512x128 .f32 := fun | 0 => Memref.whole cc2_stg31_0 | 1 => Memref.whole cc2_stg31_1 | ⟨_ + 2, h⟩ => absurd h (Nat.not_lt.2 (Nat.le_add_left _ _))
abbrev sem2_31 : Fin 2 → DmaSem sig := fun | 0 => cc2_sem31_0 | 1 => cc2_sem31_1 | ⟨_ + 2, h⟩ => absurd h (Nat.not_lt.2 (Nat.le_add_left _ _))
abbrev reads2_31 : Fin grid2.rank → Bool := ![true]

abbrev stage2_32 : Fin 1 → Memref sig .tc .vmem S8x128x128 .f32 := fun | 0 => Memref.whole cc2_stg32_0 | ⟨_ + 1, h⟩ => absurd h (Nat.not_lt.2 (Nat.le_add_left _ _))
abbrev sem2_32 : Fin 1 → DmaSem sig := fun | 0 => cc2_sem32_0 | ⟨_ + 1, h⟩ => absurd h (Nat.not_lt.2 (Nat.le_add_left _ _))
abbrev reads2_32 : Fin grid2.rank → Bool := ![false]

abbrev stage2_33 : Fin 1 → Memref sig .tc .vmem S8x128 .f32 := fun | 0 => Memref.whole cc2_stg33_0 | ⟨_ + 1, h⟩ => absurd h (Nat.not_lt.2 (Nat.le_add_left _ _))
abbrev sem2_33 : Fin 1 → DmaSem sig := fun | 0 => cc2_sem33_0 | ⟨_ + 1, h⟩ => absurd h (Nat.not_lt.2 (Nat.le_add_left _ _))
abbrev reads2_33 : Fin grid2.rank → Bool := ![false]

abbrev stage2_34 : Fin 2 → Memref sig .tc .vmem S8x512x128 .f32 := fun | 0 => Memref.whole cc2_stg34_0 | 1 => Memref.whole cc2_stg34_1 | ⟨_ + 2, h⟩ => absurd h (Nat.not_lt.2 (Nat.le_add_left _ _))
abbrev sem2_34 : Fin 2 → DmaSem sig := fun | 0 => cc2_sem34_0 | 1 => cc2_sem34_1 | ⟨_ + 2, h⟩ => absurd h (Nat.not_lt.2 (Nat.le_add_left _ _))
abbrev reads2_34 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_19 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_21 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_22 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_23 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_24 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_25 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_26 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_27 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_28 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_29 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_30 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_31 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_32 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_33 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_34 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S512x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S512x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S512x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S512x128 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S512x128 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S512x128 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S512x128 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S512x128 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S512x128 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev stage3_21 : Fin 2 → Memref sig .tc .vmem S512x128 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev stage3_22 : Fin 2 → Memref sig .tc .vmem S512x128 .f32 := fun | 0 => Memref.whole cc3_stg22_0 | 1 => Memref.whole cc3_stg22_1 | ⟨_ + 2, h⟩ => absurd h (Nat.not_lt.2 (Nat.le_add_left _ _))
abbrev sem3_22 : Fin 2 → DmaSem sig := fun | 0 => cc3_sem22_0 | 1 => cc3_sem22_1 | ⟨_ + 2, h⟩ => absurd h (Nat.not_lt.2 (Nat.le_add_left _ _))
abbrev reads3_22 : Fin grid3.rank → Bool := ![true]

abbrev stage3_23 : Fin 2 → Memref sig .tc .vmem S512x128 .f32 := fun | 0 => Memref.whole cc3_stg23_0 | 1 => Memref.whole cc3_stg23_1 | ⟨_ + 2, h⟩ => absurd h (Nat.not_lt.2 (Nat.le_add_left _ _))
abbrev sem3_23 : Fin 2 → DmaSem sig := fun | 0 => cc3_sem23_0 | 1 => cc3_sem23_1 | ⟨_ + 2, h⟩ => absurd h (Nat.not_lt.2 (Nat.le_add_left _ _))
abbrev reads3_23 : Fin grid3.rank → Bool := ![true]

abbrev stage3_24 : Fin 2 → Memref sig .tc .vmem S512x128 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true]

abbrev stage3_25 : Fin 2 → Memref sig .tc .vmem S512x128 .f32 := fun | 0 => Memref.whole cc3_stg25_0 | 1 => Memref.whole cc3_stg25_1 | ⟨_ + 2, h⟩ => absurd h (Nat.not_lt.2 (Nat.le_add_left _ _))
abbrev sem3_25 : Fin 2 → DmaSem sig := fun | 0 => cc3_sem25_0 | 1 => cc3_sem25_1 | ⟨_ + 2, h⟩ => absurd h (Nat.not_lt.2 (Nat.le_add_left _ _))
abbrev reads3_25 : Fin grid3.rank → Bool := ![true]

abbrev stage3_26 : Fin 2 → Memref sig .tc .vmem S512x128 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]

abbrev stage3_27 : Fin 2 → Memref sig .tc .vmem S512x128 .f32 := fun | 0 => Memref.whole cc3_stg27_0 | 1 => Memref.whole cc3_stg27_1 | ⟨_ + 2, h⟩ => absurd h (Nat.not_lt.2 (Nat.le_add_left _ _))
abbrev sem3_27 : Fin 2 → DmaSem sig := fun | 0 => cc3_sem27_0 | 1 => cc3_sem27_1 | ⟨_ + 2, h⟩ => absurd h (Nat.not_lt.2 (Nat.le_add_left _ _))
abbrev reads3_27 : Fin grid3.rank → Bool := ![true]

abbrev stage3_28 : Fin 2 → Memref sig .tc .vmem S512x128 .f32 := fun | 0 => Memref.whole cc3_stg28_0 | 1 => Memref.whole cc3_stg28_1 | ⟨_ + 2, h⟩ => absurd h (Nat.not_lt.2 (Nat.le_add_left _ _))
abbrev sem3_28 : Fin 2 → DmaSem sig := fun | 0 => cc3_sem28_0 | 1 => cc3_sem28_1 | ⟨_ + 2, h⟩ => absurd h (Nat.not_lt.2 (Nat.le_add_left _ _))
abbrev reads3_28 : Fin grid3.rank → Bool := ![true]

abbrev stage3_29 : Fin 2 → Memref sig .tc .vmem S512x128 .f32 := fun | 0 => Memref.whole cc3_stg29_0 | 1 => Memref.whole cc3_stg29_1 | ⟨_ + 2, h⟩ => absurd h (Nat.not_lt.2 (Nat.le_add_left _ _))
abbrev sem3_29 : Fin 2 → DmaSem sig := fun | 0 => cc3_sem29_0 | 1 => cc3_sem29_1 | ⟨_ + 2, h⟩ => absurd h (Nat.not_lt.2 (Nat.le_add_left _ _))
abbrev reads3_29 : Fin grid3.rank → Bool := ![true]

abbrev stage3_30 : Fin 2 → Memref sig .tc .vmem S512x128 .f32 := fun | 0 => Memref.whole cc3_stg30_0 | 1 => Memref.whole cc3_stg30_1 | ⟨_ + 2, h⟩ => absurd h (Nat.not_lt.2 (Nat.le_add_left _ _))
abbrev sem3_30 : Fin 2 → DmaSem sig := fun | 0 => cc3_sem30_0 | 1 => cc3_sem30_1 | ⟨_ + 2, h⟩ => absurd h (Nat.not_lt.2 (Nat.le_add_left _ _))
abbrev reads3_30 : Fin grid3.rank → Bool := ![true]

abbrev stage3_31 : Fin 2 → Memref sig .tc .vmem S512x128 .f32 := fun | 0 => Memref.whole cc3_stg31_0 | 1 => Memref.whole cc3_stg31_1 | ⟨_ + 2, h⟩ => absurd h (Nat.not_lt.2 (Nat.le_add_left _ _))
abbrev sem3_31 : Fin 2 → DmaSem sig := fun | 0 => cc3_sem31_0 | 1 => cc3_sem31_1 | ⟨_ + 2, h⟩ => absurd h (Nat.not_lt.2 (Nat.le_add_left _ _))
abbrev reads3_31 : Fin grid3.rank → Bool := ![true]

abbrev stage3_32 : Fin 1 → Memref sig .tc .vmem S8x128x128 .f32 := fun | 0 => Memref.whole cc3_stg32_0 | ⟨_ + 1, h⟩ => absurd h (Nat.not_lt.2 (Nat.le_add_left _ _))
abbrev sem3_32 : Fin 1 → DmaSem sig := fun | 0 => cc3_sem32_0 | ⟨_ + 1, h⟩ => absurd h (Nat.not_lt.2 (Nat.le_add_left _ _))
abbrev reads3_32 : Fin grid3.rank → Bool := ![false]

abbrev stage3_33 : Fin 1 → Memref sig .tc .vmem S8x128 .f32 := fun | 0 => Memref.whole cc3_stg33_0 | ⟨_ + 1, h⟩ => absurd h (Nat.not_lt.2 (Nat.le_add_left _ _))
abbrev sem3_33 : Fin 1 → DmaSem sig := fun | 0 => cc3_sem33_0 | ⟨_ + 1, h⟩ => absurd h (Nat.not_lt.2 (Nat.le_add_left _ _))
abbrev reads3_33 : Fin grid3.rank → Bool := ![false]

abbrev stage3_34 : Fin 2 → Memref sig .tc .vmem S8x512x128 .f32 := fun | 0 => Memref.whole cc3_stg34_0 | 1 => Memref.whole cc3_stg34_1 | ⟨_ + 2, h⟩ => absurd h (Nat.not_lt.2 (Nat.le_add_left _ _))
abbrev sem3_34 : Fin 2 → DmaSem sig := fun | 0 => cc3_sem34_0 | 1 => cc3_sem34_1 | ⟨_ + 2, h⟩ => absurd h (Nat.not_lt.2 (Nat.le_add_left _ _))
abbrev reads3_34 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_18 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_19 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_20 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_21 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_22 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_23 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_24 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_25 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_26 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_27 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_28 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_29 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_30 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_31 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_32 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_33 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_34 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S512x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S512x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S512x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S512x128 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S512x128 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S512x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 2 → Memref sig .tc .vmem S512x128 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S512x128 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S512x128 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev stage4_18 : Fin 2 → Memref sig .tc .vmem S512x128 .f32 := fun | 0 => Memref.whole cc4_stg18_0 | 1 => Memref.whole cc4_stg18_1 | ⟨_ + 2, h⟩ => absurd h (Nat.not_lt.2 (Nat.le_add_left _ _))
abbrev sem4_18 : Fin 2 → DmaSem sig := fun | 0 => cc4_sem18_0 | 1 => cc4_sem18_1 | ⟨_ + 2, h⟩ => absurd h (Nat.not_lt.2 (Nat.le_add_left _ _))
abbrev reads4_18 : Fin grid4.rank → Bool := ![true]

abbrev stage4_19 : Fin 2 → Memref sig .tc .vmem S512x128 .f32 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true]

abbrev stage4_20 : Fin 2 → Memref sig .tc .vmem S512x128 .f32 := fun | 0 => Memref.whole cc4_stg20_0 | 1 => Memref.whole cc4_stg20_1 | ⟨_ + 2, h⟩ => absurd h (Nat.not_lt.2 (Nat.le_add_left _ _))
abbrev sem4_20 : Fin 2 → DmaSem sig := fun | 0 => cc4_sem20_0 | 1 => cc4_sem20_1 | ⟨_ + 2, h⟩ => absurd h (Nat.not_lt.2 (Nat.le_add_left _ _))
abbrev reads4_20 : Fin grid4.rank → Bool := ![true]

abbrev stage4_21 : Fin 2 → Memref sig .tc .vmem S512x128 .f32 := fun | 0 => Memref.whole cc4_stg21_0 | 1 => Memref.whole cc4_stg21_1 | ⟨_ + 2, h⟩ => absurd h (Nat.not_lt.2 (Nat.le_add_left _ _))
abbrev sem4_21 : Fin 2 → DmaSem sig := fun | 0 => cc4_sem21_0 | 1 => cc4_sem21_1 | ⟨_ + 2, h⟩ => absurd h (Nat.not_lt.2 (Nat.le_add_left _ _))
abbrev reads4_21 : Fin grid4.rank → Bool := ![true]

abbrev stage4_22 : Fin 2 → Memref sig .tc .vmem S512x128 .f32 := fun | 0 => Memref.whole cc4_stg22_0 | 1 => Memref.whole cc4_stg22_1 | ⟨_ + 2, h⟩ => absurd h (Nat.not_lt.2 (Nat.le_add_left _ _))
abbrev sem4_22 : Fin 2 → DmaSem sig := fun | 0 => cc4_sem22_0 | 1 => cc4_sem22_1 | ⟨_ + 2, h⟩ => absurd h (Nat.not_lt.2 (Nat.le_add_left _ _))
abbrev reads4_22 : Fin grid4.rank → Bool := ![true]

abbrev stage4_23 : Fin 2 → Memref sig .tc .vmem S512x128 .f32 := fun | 0 => Memref.whole cc4_stg23_0 | 1 => Memref.whole cc4_stg23_1 | ⟨_ + 2, h⟩ => absurd h (Nat.not_lt.2 (Nat.le_add_left _ _))
abbrev sem4_23 : Fin 2 → DmaSem sig := fun | 0 => cc4_sem23_0 | 1 => cc4_sem23_1 | ⟨_ + 2, h⟩ => absurd h (Nat.not_lt.2 (Nat.le_add_left _ _))
abbrev reads4_23 : Fin grid4.rank → Bool := ![true]

abbrev stage4_24 : Fin 2 → Memref sig .tc .vmem S512x128 .f32 := fun | 0 => Memref.whole cc4_stg24_0 | 1 => Memref.whole cc4_stg24_1 | ⟨_ + 2, h⟩ => absurd h (Nat.not_lt.2 (Nat.le_add_left _ _))
abbrev sem4_24 : Fin 2 → DmaSem sig := fun | 0 => cc4_sem24_0 | 1 => cc4_sem24_1 | ⟨_ + 2, h⟩ => absurd h (Nat.not_lt.2 (Nat.le_add_left _ _))
abbrev reads4_24 : Fin grid4.rank → Bool := ![true]

abbrev stage4_25 : Fin 2 → Memref sig .tc .vmem S512x128 .f32 := fun | 0 => Memref.whole cc4_stg25_0 | 1 => Memref.whole cc4_stg25_1 | ⟨_ + 2, h⟩ => absurd h (Nat.not_lt.2 (Nat.le_add_left _ _))
abbrev sem4_25 : Fin 2 → DmaSem sig := fun | 0 => cc4_sem25_0 | 1 => cc4_sem25_1 | ⟨_ + 2, h⟩ => absurd h (Nat.not_lt.2 (Nat.le_add_left _ _))
abbrev reads4_25 : Fin grid4.rank → Bool := ![true]

abbrev stage4_26 : Fin 2 → Memref sig .tc .vmem S512x128 .f32 := fun | 0 => Memref.whole cc4_stg26_0 | 1 => Memref.whole cc4_stg26_1 | ⟨_ + 2, h⟩ => absurd h (Nat.not_lt.2 (Nat.le_add_left _ _))
abbrev sem4_26 : Fin 2 → DmaSem sig := fun | 0 => cc4_sem26_0 | 1 => cc4_sem26_1 | ⟨_ + 2, h⟩ => absurd h (Nat.not_lt.2 (Nat.le_add_left _ _))
abbrev reads4_26 : Fin grid4.rank → Bool := ![true]

abbrev stage4_27 : Fin 2 → Memref sig .tc .vmem S512x128 .f32 := fun | 0 => Memref.whole cc4_stg27_0 | 1 => Memref.whole cc4_stg27_1 | ⟨_ + 2, h⟩ => absurd h (Nat.not_lt.2 (Nat.le_add_left _ _))
abbrev sem4_27 : Fin 2 → DmaSem sig := fun | 0 => cc4_sem27_0 | 1 => cc4_sem27_1 | ⟨_ + 2, h⟩ => absurd h (Nat.not_lt.2 (Nat.le_add_left _ _))
abbrev reads4_27 : Fin grid4.rank → Bool := ![true]

abbrev stage4_28 : Fin 2 → Memref sig .tc .vmem S512x128 .f32 := fun | 0 => Memref.whole cc4_stg28_0 | 1 => Memref.whole cc4_stg28_1 | ⟨_ + 2, h⟩ => absurd h (Nat.not_lt.2 (Nat.le_add_left _ _))
abbrev sem4_28 : Fin 2 → DmaSem sig := fun | 0 => cc4_sem28_0 | 1 => cc4_sem28_1 | ⟨_ + 2, h⟩ => absurd h (Nat.not_lt.2 (Nat.le_add_left _ _))
abbrev reads4_28 : Fin grid4.rank → Bool := ![true]

abbrev stage4_29 : Fin 2 → Memref sig .tc .vmem S512x128 .f32 := fun | 0 => Memref.whole cc4_stg29_0 | 1 => Memref.whole cc4_stg29_1 | ⟨_ + 2, h⟩ => absurd h (Nat.not_lt.2 (Nat.le_add_left _ _))
abbrev sem4_29 : Fin 2 → DmaSem sig := fun | 0 => cc4_sem29_0 | 1 => cc4_sem29_1 | ⟨_ + 2, h⟩ => absurd h (Nat.not_lt.2 (Nat.le_add_left _ _))
abbrev reads4_29 : Fin grid4.rank → Bool := ![true]

abbrev stage4_30 : Fin 2 → Memref sig .tc .vmem S512x128 .f32 := fun | 0 => Memref.whole cc4_stg30_0 | 1 => Memref.whole cc4_stg30_1 | ⟨_ + 2, h⟩ => absurd h (Nat.not_lt.2 (Nat.le_add_left _ _))
abbrev sem4_30 : Fin 2 → DmaSem sig := fun | 0 => cc4_sem30_0 | 1 => cc4_sem30_1 | ⟨_ + 2, h⟩ => absurd h (Nat.not_lt.2 (Nat.le_add_left _ _))
abbrev reads4_30 : Fin grid4.rank → Bool := ![true]

abbrev stage4_31 : Fin 2 → Memref sig .tc .vmem S512x128 .f32 := fun | 0 => Memref.whole cc4_stg31_0 | 1 => Memref.whole cc4_stg31_1 | ⟨_ + 2, h⟩ => absurd h (Nat.not_lt.2 (Nat.le_add_left _ _))
abbrev sem4_31 : Fin 2 → DmaSem sig := fun | 0 => cc4_sem31_0 | 1 => cc4_sem31_1 | ⟨_ + 2, h⟩ => absurd h (Nat.not_lt.2 (Nat.le_add_left _ _))
abbrev reads4_31 : Fin grid4.rank → Bool := ![true]

abbrev stage4_32 : Fin 1 → Memref sig .tc .vmem S8x128x128 .f32 := fun | 0 => Memref.whole cc4_stg32_0 | ⟨_ + 1, h⟩ => absurd h (Nat.not_lt.2 (Nat.le_add_left _ _))
abbrev sem4_32 : Fin 1 → DmaSem sig := fun | 0 => cc4_sem32_0 | ⟨_ + 1, h⟩ => absurd h (Nat.not_lt.2 (Nat.le_add_left _ _))
abbrev reads4_32 : Fin grid4.rank → Bool := ![false]

abbrev stage4_33 : Fin 1 → Memref sig .tc .vmem S8x128 .f32 := fun | 0 => Memref.whole cc4_stg33_0 | ⟨_ + 1, h⟩ => absurd h (Nat.not_lt.2 (Nat.le_add_left _ _))
abbrev sem4_33 : Fin 1 → DmaSem sig := fun | 0 => cc4_sem33_0 | ⟨_ + 1, h⟩ => absurd h (Nat.not_lt.2 (Nat.le_add_left _ _))
abbrev reads4_33 : Fin grid4.rank → Bool := ![false]

abbrev stage4_34 : Fin 2 → Memref sig .tc .vmem S8x512x128 .f32 := fun | 0 => Memref.whole cc4_stg34_0 | 1 => Memref.whole cc4_stg34_1 | ⟨_ + 2, h⟩ => absurd h (Nat.not_lt.2 (Nat.le_add_left _ _))
abbrev sem4_34 : Fin 2 → DmaSem sig := fun | 0 => cc4_sem34_0 | 1 => cc4_sem34_1 | ⟨_ + 2, h⟩ => absurd h (Nat.not_lt.2 (Nat.le_add_left _ _))
abbrev reads4_34 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_15 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_16 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_17 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_18 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_19 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_20 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_21 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_22 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_23 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_24 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_25 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_26 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_27 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_28 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_29 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_30 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_31 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_32 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_33 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_34 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S512x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S512x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S512x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S512x128 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev stage5_13 : Fin 2 → Memref sig .tc .vmem S512x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev stage5_14 : Fin 2 → Memref sig .tc .vmem S512x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev stage5_15 : Fin 2 → Memref sig .tc .vmem S512x128 .f32 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true]

abbrev stage5_16 : Fin 2 → Memref sig .tc .vmem S512x128 .f32 := fun | 0 => Memref.whole cc5_stg16_0 | 1 => Memref.whole cc5_stg16_1 | ⟨_ + 2, h⟩ => absurd h (Nat.not_lt.2 (Nat.le_add_left _ _))
abbrev sem5_16 : Fin 2 → DmaSem sig := fun | 0 => cc5_sem16_0 | 1 => cc5_sem16_1 | ⟨_ + 2, h⟩ => absurd h (Nat.not_lt.2 (Nat.le_add_left _ _))
abbrev reads5_16 : Fin grid5.rank → Bool := ![true]

abbrev stage5_17 : Fin 2 → Memref sig .tc .vmem S512x128 .f32 := fun | 0 => Memref.whole cc5_stg17_0 | 1 => Memref.whole cc5_stg17_1 | ⟨_ + 2, h⟩ => absurd h (Nat.not_lt.2 (Nat.le_add_left _ _))
abbrev sem5_17 : Fin 2 → DmaSem sig := fun | 0 => cc5_sem17_0 | 1 => cc5_sem17_1 | ⟨_ + 2, h⟩ => absurd h (Nat.not_lt.2 (Nat.le_add_left _ _))
abbrev reads5_17 : Fin grid5.rank → Bool := ![true]

abbrev stage5_18 : Fin 2 → Memref sig .tc .vmem S512x128 .f32 := fun | 0 => Memref.whole cc5_stg18_0 | 1 => Memref.whole cc5_stg18_1 | ⟨_ + 2, h⟩ => absurd h (Nat.not_lt.2 (Nat.le_add_left _ _))
abbrev sem5_18 : Fin 2 → DmaSem sig := fun | 0 => cc5_sem18_0 | 1 => cc5_sem18_1 | ⟨_ + 2, h⟩ => absurd h (Nat.not_lt.2 (Nat.le_add_left _ _))
abbrev reads5_18 : Fin grid5.rank → Bool := ![true]

abbrev stage5_19 : Fin 2 → Memref sig .tc .vmem S512x128 .f32 := fun | 0 => Memref.whole cc5_stg19_0 | 1 => Memref.whole cc5_stg19_1 | ⟨_ + 2, h⟩ => absurd h (Nat.not_lt.2 (Nat.le_add_left _ _))
abbrev sem5_19 : Fin 2 → DmaSem sig := fun | 0 => cc5_sem19_0 | 1 => cc5_sem19_1 | ⟨_ + 2, h⟩ => absurd h (Nat.not_lt.2 (Nat.le_add_left _ _))
abbrev reads5_19 : Fin grid5.rank → Bool := ![true]

abbrev stage5_20 : Fin 2 → Memref sig .tc .vmem S512x128 .f32 := fun | 0 => Memref.whole cc5_stg20_0 | 1 => Memref.whole cc5_stg20_1 | ⟨_ + 2, h⟩ => absurd h (Nat.not_lt.2 (Nat.le_add_left _ _))
abbrev sem5_20 : Fin 2 → DmaSem sig := fun | 0 => cc5_sem20_0 | 1 => cc5_sem20_1 | ⟨_ + 2, h⟩ => absurd h (Nat.not_lt.2 (Nat.le_add_left _ _))
abbrev reads5_20 : Fin grid5.rank → Bool := ![true]

abbrev stage5_21 : Fin 2 → Memref sig .tc .vmem S512x128 .f32 := fun | 0 => Memref.whole cc5_stg21_0 | 1 => Memref.whole cc5_stg21_1 | ⟨_ + 2, h⟩ => absurd h (Nat.not_lt.2 (Nat.le_add_left _ _))
abbrev sem5_21 : Fin 2 → DmaSem sig := fun | 0 => cc5_sem21_0 | 1 => cc5_sem21_1 | ⟨_ + 2, h⟩ => absurd h (Nat.not_lt.2 (Nat.le_add_left _ _))
abbrev reads5_21 : Fin grid5.rank → Bool := ![true]

abbrev stage5_22 : Fin 2 → Memref sig .tc .vmem S512x128 .f32 := fun | 0 => Memref.whole cc5_stg22_0 | 1 => Memref.whole cc5_stg22_1 | ⟨_ + 2, h⟩ => absurd h (Nat.not_lt.2 (Nat.le_add_left _ _))
abbrev sem5_22 : Fin 2 → DmaSem sig := fun | 0 => cc5_sem22_0 | 1 => cc5_sem22_1 | ⟨_ + 2, h⟩ => absurd h (Nat.not_lt.2 (Nat.le_add_left _ _))
abbrev reads5_22 : Fin grid5.rank → Bool := ![true]

abbrev stage5_23 : Fin 2 → Memref sig .tc .vmem S512x128 .f32 := fun | 0 => Memref.whole cc5_stg23_0 | 1 => Memref.whole cc5_stg23_1 | ⟨_ + 2, h⟩ => absurd h (Nat.not_lt.2 (Nat.le_add_left _ _))
abbrev sem5_23 : Fin 2 → DmaSem sig := fun | 0 => cc5_sem23_0 | 1 => cc5_sem23_1 | ⟨_ + 2, h⟩ => absurd h (Nat.not_lt.2 (Nat.le_add_left _ _))
abbrev reads5_23 : Fin grid5.rank → Bool := ![true]

abbrev stage5_24 : Fin 2 → Memref sig .tc .vmem S512x128 .f32 := fun | 0 => Memref.whole cc5_stg24_0 | 1 => Memref.whole cc5_stg24_1 | ⟨_ + 2, h⟩ => absurd h (Nat.not_lt.2 (Nat.le_add_left _ _))
abbrev sem5_24 : Fin 2 → DmaSem sig := fun | 0 => cc5_sem24_0 | 1 => cc5_sem24_1 | ⟨_ + 2, h⟩ => absurd h (Nat.not_lt.2 (Nat.le_add_left _ _))
abbrev reads5_24 : Fin grid5.rank → Bool := ![true]

abbrev stage5_25 : Fin 2 → Memref sig .tc .vmem S512x128 .f32 := fun | 0 => Memref.whole cc5_stg25_0 | 1 => Memref.whole cc5_stg25_1 | ⟨_ + 2, h⟩ => absurd h (Nat.not_lt.2 (Nat.le_add_left _ _))
abbrev sem5_25 : Fin 2 → DmaSem sig := fun | 0 => cc5_sem25_0 | 1 => cc5_sem25_1 | ⟨_ + 2, h⟩ => absurd h (Nat.not_lt.2 (Nat.le_add_left _ _))
abbrev reads5_25 : Fin grid5.rank → Bool := ![true]

abbrev stage5_26 : Fin 2 → Memref sig .tc .vmem S512x128 .f32 := fun | 0 => Memref.whole cc5_stg26_0 | 1 => Memref.whole cc5_stg26_1 | ⟨_ + 2, h⟩ => absurd h (Nat.not_lt.2 (Nat.le_add_left _ _))
abbrev sem5_26 : Fin 2 → DmaSem sig := fun | 0 => cc5_sem26_0 | 1 => cc5_sem26_1 | ⟨_ + 2, h⟩ => absurd h (Nat.not_lt.2 (Nat.le_add_left _ _))
abbrev reads5_26 : Fin grid5.rank → Bool := ![true]

abbrev stage5_27 : Fin 2 → Memref sig .tc .vmem S512x128 .f32 := fun | 0 => Memref.whole cc5_stg27_0 | 1 => Memref.whole cc5_stg27_1 | ⟨_ + 2, h⟩ => absurd h (Nat.not_lt.2 (Nat.le_add_left _ _))
abbrev sem5_27 : Fin 2 → DmaSem sig := fun | 0 => cc5_sem27_0 | 1 => cc5_sem27_1 | ⟨_ + 2, h⟩ => absurd h (Nat.not_lt.2 (Nat.le_add_left _ _))
abbrev reads5_27 : Fin grid5.rank → Bool := ![true]

abbrev stage5_28 : Fin 2 → Memref sig .tc .vmem S512x128 .f32 := fun | 0 => Memref.whole cc5_stg28_0 | 1 => Memref.whole cc5_stg28_1 | ⟨_ + 2, h⟩ => absurd h (Nat.not_lt.2 (Nat.le_add_left _ _))
abbrev sem5_28 : Fin 2 → DmaSem sig := fun | 0 => cc5_sem28_0 | 1 => cc5_sem28_1 | ⟨_ + 2, h⟩ => absurd h (Nat.not_lt.2 (Nat.le_add_left _ _))
abbrev reads5_28 : Fin grid5.rank → Bool := ![true]

abbrev stage5_29 : Fin 2 → Memref sig .tc .vmem S512x128 .f32 := fun | 0 => Memref.whole cc5_stg29_0 | 1 => Memref.whole cc5_stg29_1 | ⟨_ + 2, h⟩ => absurd h (Nat.not_lt.2 (Nat.le_add_left _ _))
abbrev sem5_29 : Fin 2 → DmaSem sig := fun | 0 => cc5_sem29_0 | 1 => cc5_sem29_1 | ⟨_ + 2, h⟩ => absurd h (Nat.not_lt.2 (Nat.le_add_left _ _))
abbrev reads5_29 : Fin grid5.rank → Bool := ![true]

abbrev stage5_30 : Fin 2 → Memref sig .tc .vmem S512x128 .f32 := fun | 0 => Memref.whole cc5_stg30_0 | 1 => Memref.whole cc5_stg30_1 | ⟨_ + 2, h⟩ => absurd h (Nat.not_lt.2 (Nat.le_add_left _ _))
abbrev sem5_30 : Fin 2 → DmaSem sig := fun | 0 => cc5_sem30_0 | 1 => cc5_sem30_1 | ⟨_ + 2, h⟩ => absurd h (Nat.not_lt.2 (Nat.le_add_left _ _))
abbrev reads5_30 : Fin grid5.rank → Bool := ![true]

abbrev stage5_31 : Fin 2 → Memref sig .tc .vmem S512x128 .f32 := fun | 0 => Memref.whole cc5_stg31_0 | 1 => Memref.whole cc5_stg31_1 | ⟨_ + 2, h⟩ => absurd h (Nat.not_lt.2 (Nat.le_add_left _ _))
abbrev sem5_31 : Fin 2 → DmaSem sig := fun | 0 => cc5_sem31_0 | 1 => cc5_sem31_1 | ⟨_ + 2, h⟩ => absurd h (Nat.not_lt.2 (Nat.le_add_left _ _))
abbrev reads5_31 : Fin grid5.rank → Bool := ![true]

abbrev stage5_32 : Fin 1 → Memref sig .tc .vmem S8x128x128 .f32 := fun | 0 => Memref.whole cc5_stg32_0 | ⟨_ + 1, h⟩ => absurd h (Nat.not_lt.2 (Nat.le_add_left _ _))
abbrev sem5_32 : Fin 1 → DmaSem sig := fun | 0 => cc5_sem32_0 | ⟨_ + 1, h⟩ => absurd h (Nat.not_lt.2 (Nat.le_add_left _ _))
abbrev reads5_32 : Fin grid5.rank → Bool := ![false]

abbrev stage5_33 : Fin 1 → Memref sig .tc .vmem S8x128 .f32 := fun | 0 => Memref.whole cc5_stg33_0 | ⟨_ + 1, h⟩ => absurd h (Nat.not_lt.2 (Nat.le_add_left _ _))
abbrev sem5_33 : Fin 1 → DmaSem sig := fun | 0 => cc5_sem33_0 | ⟨_ + 1, h⟩ => absurd h (Nat.not_lt.2 (Nat.le_add_left _ _))
abbrev reads5_33 : Fin grid5.rank → Bool := ![false]

abbrev stage5_34 : Fin 2 → Memref sig .tc .vmem S8x512x128 .f32 := fun | 0 => Memref.whole cc5_stg34_0 | 1 => Memref.whole cc5_stg34_1 | ⟨_ + 2, h⟩ => absurd h (Nat.not_lt.2 (Nat.le_add_left _ _))
abbrev sem5_34 : Fin 2 → DmaSem sig := fun | 0 => cc5_sem34_0 | 1 => cc5_sem34_1 | ⟨_ + 2, h⟩ => absurd h (Nat.not_lt.2 (Nat.le_add_left _ _))
abbrev reads5_34 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_15 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_16 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_17 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_18 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_19 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_20 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_21 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_22 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_23 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_24 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_25 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_26 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_27 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_28 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_29 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_30 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_31 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_32 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_33 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_34 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S512x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S512x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S512x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S512x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S512x128 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev stage6_13 : Fin 2 → Memref sig .tc .vmem S512x128 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev stage6_14 : Fin 2 → Memref sig .tc .vmem S512x128 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev stage6_15 : Fin 2 → Memref sig .tc .vmem S512x128 .f32 := fun | 0 => Memref.whole cc6_stg15_0 | 1 => Memref.whole cc6_stg15_1 | ⟨_ + 2, h⟩ => absurd h (Nat.not_lt.2 (Nat.le_add_left _ _))
abbrev sem6_15 : Fin 2 → DmaSem sig := fun | 0 => cc6_sem15_0 | 1 => cc6_sem15_1 | ⟨_ + 2, h⟩ => absurd h (Nat.not_lt.2 (Nat.le_add_left _ _))
abbrev reads6_15 : Fin grid6.rank → Bool := ![true]

abbrev stage6_16 : Fin 2 → Memref sig .tc .vmem S512x128 .f32 := fun | 0 => Memref.whole cc6_stg16_0 | 1 => Memref.whole cc6_stg16_1 | ⟨_ + 2, h⟩ => absurd h (Nat.not_lt.2 (Nat.le_add_left _ _))
abbrev sem6_16 : Fin 2 → DmaSem sig := fun | 0 => cc6_sem16_0 | 1 => cc6_sem16_1 | ⟨_ + 2, h⟩ => absurd h (Nat.not_lt.2 (Nat.le_add_left _ _))
abbrev reads6_16 : Fin grid6.rank → Bool := ![true]

abbrev stage6_17 : Fin 2 → Memref sig .tc .vmem S512x128 .f32 := fun | 0 => Memref.whole cc6_stg17_0 | 1 => Memref.whole cc6_stg17_1 | ⟨_ + 2, h⟩ => absurd h (Nat.not_lt.2 (Nat.le_add_left _ _))
abbrev sem6_17 : Fin 2 → DmaSem sig := fun | 0 => cc6_sem17_0 | 1 => cc6_sem17_1 | ⟨_ + 2, h⟩ => absurd h (Nat.not_lt.2 (Nat.le_add_left _ _))
abbrev reads6_17 : Fin grid6.rank → Bool := ![true]

abbrev stage6_18 : Fin 2 → Memref sig .tc .vmem S512x128 .f32 := fun | 0 => Memref.whole cc6_stg18_0 | 1 => Memref.whole cc6_stg18_1 | ⟨_ + 2, h⟩ => absurd h (Nat.not_lt.2 (Nat.le_add_left _ _))
abbrev sem6_18 : Fin 2 → DmaSem sig := fun | 0 => cc6_sem18_0 | 1 => cc6_sem18_1 | ⟨_ + 2, h⟩ => absurd h (Nat.not_lt.2 (Nat.le_add_left _ _))
abbrev reads6_18 : Fin grid6.rank → Bool := ![true]

abbrev stage6_19 : Fin 2 → Memref sig .tc .vmem S512x128 .f32 := fun | 0 => Memref.whole cc6_stg19_0 | 1 => Memref.whole cc6_stg19_1 | ⟨_ + 2, h⟩ => absurd h (Nat.not_lt.2 (Nat.le_add_left _ _))
abbrev sem6_19 : Fin 2 → DmaSem sig := fun | 0 => cc6_sem19_0 | 1 => cc6_sem19_1 | ⟨_ + 2, h⟩ => absurd h (Nat.not_lt.2 (Nat.le_add_left _ _))
abbrev reads6_19 : Fin grid6.rank → Bool := ![true]

abbrev stage6_20 : Fin 2 → Memref sig .tc .vmem S512x128 .f32 := fun | 0 => Memref.whole cc6_stg20_0 | 1 => Memref.whole cc6_stg20_1 | ⟨_ + 2, h⟩ => absurd h (Nat.not_lt.2 (Nat.le_add_left _ _))
abbrev sem6_20 : Fin 2 → DmaSem sig := fun | 0 => cc6_sem20_0 | 1 => cc6_sem20_1 | ⟨_ + 2, h⟩ => absurd h (Nat.not_lt.2 (Nat.le_add_left _ _))
abbrev reads6_20 : Fin grid6.rank → Bool := ![true]

abbrev stage6_21 : Fin 2 → Memref sig .tc .vmem S512x128 .f32 := fun | 0 => Memref.whole cc6_stg21_0 | 1 => Memref.whole cc6_stg21_1 | ⟨_ + 2, h⟩ => absurd h (Nat.not_lt.2 (Nat.le_add_left _ _))
abbrev sem6_21 : Fin 2 → DmaSem sig := fun | 0 => cc6_sem21_0 | 1 => cc6_sem21_1 | ⟨_ + 2, h⟩ => absurd h (Nat.not_lt.2 (Nat.le_add_left _ _))
abbrev reads6_21 : Fin grid6.rank → Bool := ![true]

abbrev stage6_22 : Fin 2 → Memref sig .tc .vmem S512x128 .f32 := fun | 0 => Memref.whole cc6_stg22_0 | 1 => Memref.whole cc6_stg22_1 | ⟨_ + 2, h⟩ => absurd h (Nat.not_lt.2 (Nat.le_add_left _ _))
abbrev sem6_22 : Fin 2 → DmaSem sig := fun | 0 => cc6_sem22_0 | 1 => cc6_sem22_1 | ⟨_ + 2, h⟩ => absurd h (Nat.not_lt.2 (Nat.le_add_left _ _))
abbrev reads6_22 : Fin grid6.rank → Bool := ![true]

abbrev stage6_23 : Fin 2 → Memref sig .tc .vmem S512x128 .f32 := fun | 0 => Memref.whole cc6_stg23_0 | 1 => Memref.whole cc6_stg23_1 | ⟨_ + 2, h⟩ => absurd h (Nat.not_lt.2 (Nat.le_add_left _ _))
abbrev sem6_23 : Fin 2 → DmaSem sig := fun | 0 => cc6_sem23_0 | 1 => cc6_sem23_1 | ⟨_ + 2, h⟩ => absurd h (Nat.not_lt.2 (Nat.le_add_left _ _))
abbrev reads6_23 : Fin grid6.rank → Bool := ![true]

abbrev stage6_24 : Fin 2 → Memref sig .tc .vmem S512x128 .f32 := fun | 0 => Memref.whole cc6_stg24_0 | 1 => Memref.whole cc6_stg24_1 | ⟨_ + 2, h⟩ => absurd h (Nat.not_lt.2 (Nat.le_add_left _ _))
abbrev sem6_24 : Fin 2 → DmaSem sig := fun | 0 => cc6_sem24_0 | 1 => cc6_sem24_1 | ⟨_ + 2, h⟩ => absurd h (Nat.not_lt.2 (Nat.le_add_left _ _))
abbrev reads6_24 : Fin grid6.rank → Bool := ![true]

abbrev stage6_25 : Fin 2 → Memref sig .tc .vmem S512x128 .f32 := fun | 0 => Memref.whole cc6_stg25_0 | 1 => Memref.whole cc6_stg25_1 | ⟨_ + 2, h⟩ => absurd h (Nat.not_lt.2 (Nat.le_add_left _ _))
abbrev sem6_25 : Fin 2 → DmaSem sig := fun | 0 => cc6_sem25_0 | 1 => cc6_sem25_1 | ⟨_ + 2, h⟩ => absurd h (Nat.not_lt.2 (Nat.le_add_left _ _))
abbrev reads6_25 : Fin grid6.rank → Bool := ![true]

abbrev stage6_26 : Fin 2 → Memref sig .tc .vmem S512x128 .f32 := fun | 0 => Memref.whole cc6_stg26_0 | 1 => Memref.whole cc6_stg26_1 | ⟨_ + 2, h⟩ => absurd h (Nat.not_lt.2 (Nat.le_add_left _ _))
abbrev sem6_26 : Fin 2 → DmaSem sig := fun | 0 => cc6_sem26_0 | 1 => cc6_sem26_1 | ⟨_ + 2, h⟩ => absurd h (Nat.not_lt.2 (Nat.le_add_left _ _))
abbrev reads6_26 : Fin grid6.rank → Bool := ![true]

abbrev stage6_27 : Fin 2 → Memref sig .tc .vmem S512x128 .f32 := fun | 0 => Memref.whole cc6_stg27_0 | 1 => Memref.whole cc6_stg27_1 | ⟨_ + 2, h⟩ => absurd h (Nat.not_lt.2 (Nat.le_add_left _ _))
abbrev sem6_27 : Fin 2 → DmaSem sig := fun | 0 => cc6_sem27_0 | 1 => cc6_sem27_1 | ⟨_ + 2, h⟩ => absurd h (Nat.not_lt.2 (Nat.le_add_left _ _))
abbrev reads6_27 : Fin grid6.rank → Bool := ![true]

abbrev stage6_28 : Fin 2 → Memref sig .tc .vmem S512x128 .f32 := fun | 0 => Memref.whole cc6_stg28_0 | 1 => Memref.whole cc6_stg28_1 | ⟨_ + 2, h⟩ => absurd h (Nat.not_lt.2 (Nat.le_add_left _ _))
abbrev sem6_28 : Fin 2 → DmaSem sig := fun | 0 => cc6_sem28_0 | 1 => cc6_sem28_1 | ⟨_ + 2, h⟩ => absurd h (Nat.not_lt.2 (Nat.le_add_left _ _))
abbrev reads6_28 : Fin grid6.rank → Bool := ![true]

abbrev stage6_29 : Fin 2 → Memref sig .tc .vmem S512x128 .f32 := fun | 0 => Memref.whole cc6_stg29_0 | 1 => Memref.whole cc6_stg29_1 | ⟨_ + 2, h⟩ => absurd h (Nat.not_lt.2 (Nat.le_add_left _ _))
abbrev sem6_29 : Fin 2 → DmaSem sig := fun | 0 => cc6_sem29_0 | 1 => cc6_sem29_1 | ⟨_ + 2, h⟩ => absurd h (Nat.not_lt.2 (Nat.le_add_left _ _))
abbrev reads6_29 : Fin grid6.rank → Bool := ![true]

abbrev stage6_30 : Fin 2 → Memref sig .tc .vmem S512x128 .f32 := fun | 0 => Memref.whole cc6_stg30_0 | 1 => Memref.whole cc6_stg30_1 | ⟨_ + 2, h⟩ => absurd h (Nat.not_lt.2 (Nat.le_add_left _ _))
abbrev sem6_30 : Fin 2 → DmaSem sig := fun | 0 => cc6_sem30_0 | 1 => cc6_sem30_1 | ⟨_ + 2, h⟩ => absurd h (Nat.not_lt.2 (Nat.le_add_left _ _))
abbrev reads6_30 : Fin grid6.rank → Bool := ![true]

abbrev stage6_31 : Fin 2 → Memref sig .tc .vmem S512x128 .f32 := fun | 0 => Memref.whole cc6_stg31_0 | 1 => Memref.whole cc6_stg31_1 | ⟨_ + 2, h⟩ => absurd h (Nat.not_lt.2 (Nat.le_add_left _ _))
abbrev sem6_31 : Fin 2 → DmaSem sig := fun | 0 => cc6_sem31_0 | 1 => cc6_sem31_1 | ⟨_ + 2, h⟩ => absurd h (Nat.not_lt.2 (Nat.le_add_left _ _))
abbrev reads6_31 : Fin grid6.rank → Bool := ![true]

abbrev stage6_32 : Fin 1 → Memref sig .tc .vmem S8x128x128 .f32 := fun | 0 => Memref.whole cc6_stg32_0 | ⟨_ + 1, h⟩ => absurd h (Nat.not_lt.2 (Nat.le_add_left _ _))
abbrev sem6_32 : Fin 1 → DmaSem sig := fun | 0 => cc6_sem32_0 | ⟨_ + 1, h⟩ => absurd h (Nat.not_lt.2 (Nat.le_add_left _ _))
abbrev reads6_32 : Fin grid6.rank → Bool := ![false]

abbrev stage6_33 : Fin 1 → Memref sig .tc .vmem S8x128 .f32 := fun | 0 => Memref.whole cc6_stg33_0 | ⟨_ + 1, h⟩ => absurd h (Nat.not_lt.2 (Nat.le_add_left _ _))
abbrev sem6_33 : Fin 1 → DmaSem sig := fun | 0 => cc6_sem33_0 | ⟨_ + 1, h⟩ => absurd h (Nat.not_lt.2 (Nat.le_add_left _ _))
abbrev reads6_33 : Fin grid6.rank → Bool := ![false]

abbrev stage6_34 : Fin 2 → Memref sig .tc .vmem S8x512x128 .f32 := fun | 0 => Memref.whole cc6_stg34_0 | 1 => Memref.whole cc6_stg34_1 | ⟨_ + 2, h⟩ => absurd h (Nat.not_lt.2 (Nat.le_add_left _ _))
abbrev sem6_34 : Fin 2 → DmaSem sig := fun | 0 => cc6_sem34_0 | 1 => cc6_sem34_1 | ⟨_ + 2, h⟩ => absurd h (Nat.not_lt.2 (Nat.le_add_left _ _))
abbrev reads6_34 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_12 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_15 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_16 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_17 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_18 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_19 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_20 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_21 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_22 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_23 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_24 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_25 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_26 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_27 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_28 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_29 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_30 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_31 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_32 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_33 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_34 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S512x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S512x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S512x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S512x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S512x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S512x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 2 → Memref sig .tc .vmem S512x128 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 2 → Memref sig .tc .vmem S512x128 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

abbrev stage7_13 : Fin 2 → Memref sig .tc .vmem S512x128 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S512x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev stage7_15 : Fin 2 → Memref sig .tc .vmem S512x128 .f32 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true]

abbrev stage7_16 : Fin 2 → Memref sig .tc .vmem S512x128 .f32 := fun | 0 => Memref.whole cc7_stg16_0 | 1 => Memref.whole cc7_stg16_1 | ⟨_ + 2, h⟩ => absurd h (Nat.not_lt.2 (Nat.le_add_left _ _))
abbrev sem7_16 : Fin 2 → DmaSem sig := fun | 0 => cc7_sem16_0 | 1 => cc7_sem16_1 | ⟨_ + 2, h⟩ => absurd h (Nat.not_lt.2 (Nat.le_add_left _ _))
abbrev reads7_16 : Fin grid7.rank → Bool := ![true]

abbrev stage7_17 : Fin 2 → Memref sig .tc .vmem S512x128 .f32 := fun | 0 => Memref.whole cc7_stg17_0 | 1 => Memref.whole cc7_stg17_1 | ⟨_ + 2, h⟩ => absurd h (Nat.not_lt.2 (Nat.le_add_left _ _))
abbrev sem7_17 : Fin 2 → DmaSem sig := fun | 0 => cc7_sem17_0 | 1 => cc7_sem17_1 | ⟨_ + 2, h⟩ => absurd h (Nat.not_lt.2 (Nat.le_add_left _ _))
abbrev reads7_17 : Fin grid7.rank → Bool := ![true]

abbrev stage7_18 : Fin 2 → Memref sig .tc .vmem S512x128 .f32 := fun | 0 => Memref.whole cc7_stg18_0 | 1 => Memref.whole cc7_stg18_1 | ⟨_ + 2, h⟩ => absurd h (Nat.not_lt.2 (Nat.le_add_left _ _))
abbrev sem7_18 : Fin 2 → DmaSem sig := fun | 0 => cc7_sem18_0 | 1 => cc7_sem18_1 | ⟨_ + 2, h⟩ => absurd h (Nat.not_lt.2 (Nat.le_add_left _ _))
abbrev reads7_18 : Fin grid7.rank → Bool := ![true]

abbrev stage7_19 : Fin 2 → Memref sig .tc .vmem S512x128 .f32 := fun | 0 => Memref.whole cc7_stg19_0 | 1 => Memref.whole cc7_stg19_1 | ⟨_ + 2, h⟩ => absurd h (Nat.not_lt.2 (Nat.le_add_left _ _))
abbrev sem7_19 : Fin 2 → DmaSem sig := fun | 0 => cc7_sem19_0 | 1 => cc7_sem19_1 | ⟨_ + 2, h⟩ => absurd h (Nat.not_lt.2 (Nat.le_add_left _ _))
abbrev reads7_19 : Fin grid7.rank → Bool := ![true]

abbrev stage7_20 : Fin 2 → Memref sig .tc .vmem S512x128 .f32 := fun | 0 => Memref.whole cc7_stg20_0 | 1 => Memref.whole cc7_stg20_1 | ⟨_ + 2, h⟩ => absurd h (Nat.not_lt.2 (Nat.le_add_left _ _))
abbrev sem7_20 : Fin 2 → DmaSem sig := fun | 0 => cc7_sem20_0 | 1 => cc7_sem20_1 | ⟨_ + 2, h⟩ => absurd h (Nat.not_lt.2 (Nat.le_add_left _ _))
abbrev reads7_20 : Fin grid7.rank → Bool := ![true]

abbrev stage7_21 : Fin 2 → Memref sig .tc .vmem S512x128 .f32 := fun | 0 => Memref.whole cc7_stg21_0 | 1 => Memref.whole cc7_stg21_1 | ⟨_ + 2, h⟩ => absurd h (Nat.not_lt.2 (Nat.le_add_left _ _))
abbrev sem7_21 : Fin 2 → DmaSem sig := fun | 0 => cc7_sem21_0 | 1 => cc7_sem21_1 | ⟨_ + 2, h⟩ => absurd h (Nat.not_lt.2 (Nat.le_add_left _ _))
abbrev reads7_21 : Fin grid7.rank → Bool := ![true]

abbrev stage7_22 : Fin 2 → Memref sig .tc .vmem S512x128 .f32 := fun | 0 => Memref.whole cc7_stg22_0 | 1 => Memref.whole cc7_stg22_1 | ⟨_ + 2, h⟩ => absurd h (Nat.not_lt.2 (Nat.le_add_left _ _))
abbrev sem7_22 : Fin 2 → DmaSem sig := fun | 0 => cc7_sem22_0 | 1 => cc7_sem22_1 | ⟨_ + 2, h⟩ => absurd h (Nat.not_lt.2 (Nat.le_add_left _ _))
abbrev reads7_22 : Fin grid7.rank → Bool := ![true]

abbrev stage7_23 : Fin 2 → Memref sig .tc .vmem S512x128 .f32 := fun | 0 => Memref.whole cc7_stg23_0 | 1 => Memref.whole cc7_stg23_1 | ⟨_ + 2, h⟩ => absurd h (Nat.not_lt.2 (Nat.le_add_left _ _))
abbrev sem7_23 : Fin 2 → DmaSem sig := fun | 0 => cc7_sem23_0 | 1 => cc7_sem23_1 | ⟨_ + 2, h⟩ => absurd h (Nat.not_lt.2 (Nat.le_add_left _ _))
abbrev reads7_23 : Fin grid7.rank → Bool := ![true]

abbrev stage7_24 : Fin 2 → Memref sig .tc .vmem S512x128 .f32 := fun | 0 => Memref.whole cc7_stg24_0 | 1 => Memref.whole cc7_stg24_1 | ⟨_ + 2, h⟩ => absurd h (Nat.not_lt.2 (Nat.le_add_left _ _))
abbrev sem7_24 : Fin 2 → DmaSem sig := fun | 0 => cc7_sem24_0 | 1 => cc7_sem24_1 | ⟨_ + 2, h⟩ => absurd h (Nat.not_lt.2 (Nat.le_add_left _ _))
abbrev reads7_24 : Fin grid7.rank → Bool := ![true]

abbrev stage7_25 : Fin 2 → Memref sig .tc .vmem S512x128 .f32 := fun | 0 => Memref.whole cc7_stg25_0 | 1 => Memref.whole cc7_stg25_1 | ⟨_ + 2, h⟩ => absurd h (Nat.not_lt.2 (Nat.le_add_left _ _))
abbrev sem7_25 : Fin 2 → DmaSem sig := fun | 0 => cc7_sem25_0 | 1 => cc7_sem25_1 | ⟨_ + 2, h⟩ => absurd h (Nat.not_lt.2 (Nat.le_add_left _ _))
abbrev reads7_25 : Fin grid7.rank → Bool := ![true]

abbrev stage7_26 : Fin 2 → Memref sig .tc .vmem S512x128 .f32 := fun | 0 => Memref.whole cc7_stg26_0 | 1 => Memref.whole cc7_stg26_1 | ⟨_ + 2, h⟩ => absurd h (Nat.not_lt.2 (Nat.le_add_left _ _))
abbrev sem7_26 : Fin 2 → DmaSem sig := fun | 0 => cc7_sem26_0 | 1 => cc7_sem26_1 | ⟨_ + 2, h⟩ => absurd h (Nat.not_lt.2 (Nat.le_add_left _ _))
abbrev reads7_26 : Fin grid7.rank → Bool := ![true]

abbrev stage7_27 : Fin 2 → Memref sig .tc .vmem S512x128 .f32 := fun | 0 => Memref.whole cc7_stg27_0 | 1 => Memref.whole cc7_stg27_1 | ⟨_ + 2, h⟩ => absurd h (Nat.not_lt.2 (Nat.le_add_left _ _))
abbrev sem7_27 : Fin 2 → DmaSem sig := fun | 0 => cc7_sem27_0 | 1 => cc7_sem27_1 | ⟨_ + 2, h⟩ => absurd h (Nat.not_lt.2 (Nat.le_add_left _ _))
abbrev reads7_27 : Fin grid7.rank → Bool := ![true]

abbrev stage7_28 : Fin 2 → Memref sig .tc .vmem S512x128 .f32 := fun | 0 => Memref.whole cc7_stg28_0 | 1 => Memref.whole cc7_stg28_1 | ⟨_ + 2, h⟩ => absurd h (Nat.not_lt.2 (Nat.le_add_left _ _))
abbrev sem7_28 : Fin 2 → DmaSem sig := fun | 0 => cc7_sem28_0 | 1 => cc7_sem28_1 | ⟨_ + 2, h⟩ => absurd h (Nat.not_lt.2 (Nat.le_add_left _ _))
abbrev reads7_28 : Fin grid7.rank → Bool := ![true]

abbrev stage7_29 : Fin 2 → Memref sig .tc .vmem S512x128 .f32 := fun | 0 => Memref.whole cc7_stg29_0 | 1 => Memref.whole cc7_stg29_1 | ⟨_ + 2, h⟩ => absurd h (Nat.not_lt.2 (Nat.le_add_left _ _))
abbrev sem7_29 : Fin 2 → DmaSem sig := fun | 0 => cc7_sem29_0 | 1 => cc7_sem29_1 | ⟨_ + 2, h⟩ => absurd h (Nat.not_lt.2 (Nat.le_add_left _ _))
abbrev reads7_29 : Fin grid7.rank → Bool := ![true]

abbrev stage7_30 : Fin 2 → Memref sig .tc .vmem S512x128 .f32 := fun | 0 => Memref.whole cc7_stg30_0 | 1 => Memref.whole cc7_stg30_1 | ⟨_ + 2, h⟩ => absurd h (Nat.not_lt.2 (Nat.le_add_left _ _))
abbrev sem7_30 : Fin 2 → DmaSem sig := fun | 0 => cc7_sem30_0 | 1 => cc7_sem30_1 | ⟨_ + 2, h⟩ => absurd h (Nat.not_lt.2 (Nat.le_add_left _ _))
abbrev reads7_30 : Fin grid7.rank → Bool := ![true]

abbrev stage7_31 : Fin 2 → Memref sig .tc .vmem S512x128 .f32 := fun | 0 => Memref.whole cc7_stg31_0 | 1 => Memref.whole cc7_stg31_1 | ⟨_ + 2, h⟩ => absurd h (Nat.not_lt.2 (Nat.le_add_left _ _))
abbrev sem7_31 : Fin 2 → DmaSem sig := fun | 0 => cc7_sem31_0 | 1 => cc7_sem31_1 | ⟨_ + 2, h⟩ => absurd h (Nat.not_lt.2 (Nat.le_add_left _ _))
abbrev reads7_31 : Fin grid7.rank → Bool := ![true]

abbrev stage7_32 : Fin 1 → Memref sig .tc .vmem S8x128x128 .f32 := fun | 0 => Memref.whole cc7_stg32_0 | ⟨_ + 1, h⟩ => absurd h (Nat.not_lt.2 (Nat.le_add_left _ _))
abbrev sem7_32 : Fin 1 → DmaSem sig := fun | 0 => cc7_sem32_0 | ⟨_ + 1, h⟩ => absurd h (Nat.not_lt.2 (Nat.le_add_left _ _))
abbrev reads7_32 : Fin grid7.rank → Bool := ![false]

abbrev stage7_33 : Fin 1 → Memref sig .tc .vmem S8x128 .f32 := fun | 0 => Memref.whole cc7_stg33_0 | ⟨_ + 1, h⟩ => absurd h (Nat.not_lt.2 (Nat.le_add_left _ _))
abbrev sem7_33 : Fin 1 → DmaSem sig := fun | 0 => cc7_sem33_0 | ⟨_ + 1, h⟩ => absurd h (Nat.not_lt.2 (Nat.le_add_left _ _))
abbrev reads7_33 : Fin grid7.rank → Bool := ![false]

abbrev stage7_34 : Fin 2 → Memref sig .tc .vmem S8x512x128 .f32 := fun | 0 => Memref.whole cc7_stg34_0 | 1 => Memref.whole cc7_stg34_1 | ⟨_ + 2, h⟩ => absurd h (Nat.not_lt.2 (Nat.le_add_left _ _))
abbrev sem7_34 : Fin 2 → DmaSem sig := fun | 0 => cc7_sem34_0 | 1 => cc7_sem34_1 | ⟨_ + 2, h⟩ => absurd h (Nat.not_lt.2 (Nat.le_add_left _ _))
abbrev reads7_34 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_14 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_15 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_16 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_17 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_18 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_19 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_20 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_21 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_22 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_23 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_24 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_25 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_26 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_27 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_28 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_29 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_30 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_31 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_32 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_33 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_34 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage8_0 : Fin 2 → Memref sig .tc .vmem S512x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S512x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S512x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S512x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S512x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S512x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S512x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S512x128 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S512x128 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev stage8_12 : Fin 2 → Memref sig .tc .vmem S512x128 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

abbrev stage8_13 : Fin 2 → Memref sig .tc .vmem S512x128 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

abbrev stage8_14 : Fin 2 → Memref sig .tc .vmem S512x128 .f32 := fun | 0 => Memref.whole cc8_stg14_0 | 1 => Memref.whole cc8_stg14_1 | ⟨_ + 2, h⟩ => absurd h (Nat.not_lt.2 (Nat.le_add_left _ _))
abbrev sem8_14 : Fin 2 → DmaSem sig := fun | 0 => cc8_sem14_0 | 1 => cc8_sem14_1 | ⟨_ + 2, h⟩ => absurd h (Nat.not_lt.2 (Nat.le_add_left _ _))
abbrev reads8_14 : Fin grid8.rank → Bool := ![true]

abbrev stage8_15 : Fin 2 → Memref sig .tc .vmem S512x128 .f32 := fun | 0 => Memref.whole cc8_stg15_0 | 1 => Memref.whole cc8_stg15_1 | ⟨_ + 2, h⟩ => absurd h (Nat.not_lt.2 (Nat.le_add_left _ _))
abbrev sem8_15 : Fin 2 → DmaSem sig := fun | 0 => cc8_sem15_0 | 1 => cc8_sem15_1 | ⟨_ + 2, h⟩ => absurd h (Nat.not_lt.2 (Nat.le_add_left _ _))
abbrev reads8_15 : Fin grid8.rank → Bool := ![true]

abbrev stage8_16 : Fin 2 → Memref sig .tc .vmem S512x128 .f32 := fun | 0 => Memref.whole cc8_stg16_0 | 1 => Memref.whole cc8_stg16_1 | ⟨_ + 2, h⟩ => absurd h (Nat.not_lt.2 (Nat.le_add_left _ _))
abbrev sem8_16 : Fin 2 → DmaSem sig := fun | 0 => cc8_sem16_0 | 1 => cc8_sem16_1 | ⟨_ + 2, h⟩ => absurd h (Nat.not_lt.2 (Nat.le_add_left _ _))
abbrev reads8_16 : Fin grid8.rank → Bool := ![true]

abbrev stage8_17 : Fin 2 → Memref sig .tc .vmem S512x128 .f32 := fun | 0 => Memref.whole cc8_stg17_0 | 1 => Memref.whole cc8_stg17_1 | ⟨_ + 2, h⟩ => absurd h (Nat.not_lt.2 (Nat.le_add_left _ _))
abbrev sem8_17 : Fin 2 → DmaSem sig := fun | 0 => cc8_sem17_0 | 1 => cc8_sem17_1 | ⟨_ + 2, h⟩ => absurd h (Nat.not_lt.2 (Nat.le_add_left _ _))
abbrev reads8_17 : Fin grid8.rank → Bool := ![true]

abbrev stage8_18 : Fin 2 → Memref sig .tc .vmem S512x128 .f32 := fun | 0 => Memref.whole cc8_stg18_0 | 1 => Memref.whole cc8_stg18_1 | ⟨_ + 2, h⟩ => absurd h (Nat.not_lt.2 (Nat.le_add_left _ _))
abbrev sem8_18 : Fin 2 → DmaSem sig := fun | 0 => cc8_sem18_0 | 1 => cc8_sem18_1 | ⟨_ + 2, h⟩ => absurd h (Nat.not_lt.2 (Nat.le_add_left _ _))
abbrev reads8_18 : Fin grid8.rank → Bool := ![true]

abbrev stage8_19 : Fin 2 → Memref sig .tc .vmem S512x128 .f32 := fun | 0 => Memref.whole cc8_stg19_0 | 1 => Memref.whole cc8_stg19_1 | ⟨_ + 2, h⟩ => absurd h (Nat.not_lt.2 (Nat.le_add_left _ _))
abbrev sem8_19 : Fin 2 → DmaSem sig := fun | 0 => cc8_sem19_0 | 1 => cc8_sem19_1 | ⟨_ + 2, h⟩ => absurd h (Nat.not_lt.2 (Nat.le_add_left _ _))
abbrev reads8_19 : Fin grid8.rank → Bool := ![true]

abbrev stage8_20 : Fin 2 → Memref sig .tc .vmem S512x128 .f32 := fun | 0 => Memref.whole cc8_stg20_0 | 1 => Memref.whole cc8_stg20_1 | ⟨_ + 2, h⟩ => absurd h (Nat.not_lt.2 (Nat.le_add_left _ _))
abbrev sem8_20 : Fin 2 → DmaSem sig := fun | 0 => cc8_sem20_0 | 1 => cc8_sem20_1 | ⟨_ + 2, h⟩ => absurd h (Nat.not_lt.2 (Nat.le_add_left _ _))
abbrev reads8_20 : Fin grid8.rank → Bool := ![true]

abbrev stage8_21 : Fin 2 → Memref sig .tc .vmem S512x128 .f32 := fun | 0 => Memref.whole cc8_stg21_0 | 1 => Memref.whole cc8_stg21_1 | ⟨_ + 2, h⟩ => absurd h (Nat.not_lt.2 (Nat.le_add_left _ _))
abbrev sem8_21 : Fin 2 → DmaSem sig := fun | 0 => cc8_sem21_0 | 1 => cc8_sem21_1 | ⟨_ + 2, h⟩ => absurd h (Nat.not_lt.2 (Nat.le_add_left _ _))
abbrev reads8_21 : Fin grid8.rank → Bool := ![true]

abbrev stage8_22 : Fin 2 → Memref sig .tc .vmem S512x128 .f32 := fun | 0 => Memref.whole cc8_stg22_0 | 1 => Memref.whole cc8_stg22_1 | ⟨_ + 2, h⟩ => absurd h (Nat.not_lt.2 (Nat.le_add_left _ _))
abbrev sem8_22 : Fin 2 → DmaSem sig := fun | 0 => cc8_sem22_0 | 1 => cc8_sem22_1 | ⟨_ + 2, h⟩ => absurd h (Nat.not_lt.2 (Nat.le_add_left _ _))
abbrev reads8_22 : Fin grid8.rank → Bool := ![true]

abbrev stage8_23 : Fin 2 → Memref sig .tc .vmem S512x128 .f32 := fun | 0 => Memref.whole cc8_stg23_0 | 1 => Memref.whole cc8_stg23_1 | ⟨_ + 2, h⟩ => absurd h (Nat.not_lt.2 (Nat.le_add_left _ _))
abbrev sem8_23 : Fin 2 → DmaSem sig := fun | 0 => cc8_sem23_0 | 1 => cc8_sem23_1 | ⟨_ + 2, h⟩ => absurd h (Nat.not_lt.2 (Nat.le_add_left _ _))
abbrev reads8_23 : Fin grid8.rank → Bool := ![true]

abbrev stage8_24 : Fin 2 → Memref sig .tc .vmem S512x128 .f32 := fun | 0 => Memref.whole cc8_stg24_0 | 1 => Memref.whole cc8_stg24_1 | ⟨_ + 2, h⟩ => absurd h (Nat.not_lt.2 (Nat.le_add_left _ _))
abbrev sem8_24 : Fin 2 → DmaSem sig := fun | 0 => cc8_sem24_0 | 1 => cc8_sem24_1 | ⟨_ + 2, h⟩ => absurd h (Nat.not_lt.2 (Nat.le_add_left _ _))
abbrev reads8_24 : Fin grid8.rank → Bool := ![true]

abbrev stage8_25 : Fin 2 → Memref sig .tc .vmem S512x128 .f32 := fun | 0 => Memref.whole cc8_stg25_0 | 1 => Memref.whole cc8_stg25_1 | ⟨_ + 2, h⟩ => absurd h (Nat.not_lt.2 (Nat.le_add_left _ _))
abbrev sem8_25 : Fin 2 → DmaSem sig := fun | 0 => cc8_sem25_0 | 1 => cc8_sem25_1 | ⟨_ + 2, h⟩ => absurd h (Nat.not_lt.2 (Nat.le_add_left _ _))
abbrev reads8_25 : Fin grid8.rank → Bool := ![true]

abbrev stage8_26 : Fin 2 → Memref sig .tc .vmem S512x128 .f32 := fun | 0 => Memref.whole cc8_stg26_0 | 1 => Memref.whole cc8_stg26_1 | ⟨_ + 2, h⟩ => absurd h (Nat.not_lt.2 (Nat.le_add_left _ _))
abbrev sem8_26 : Fin 2 → DmaSem sig := fun | 0 => cc8_sem26_0 | 1 => cc8_sem26_1 | ⟨_ + 2, h⟩ => absurd h (Nat.not_lt.2 (Nat.le_add_left _ _))
abbrev reads8_26 : Fin grid8.rank → Bool := ![true]

abbrev stage8_27 : Fin 2 → Memref sig .tc .vmem S512x128 .f32 := fun | 0 => Memref.whole cc8_stg27_0 | 1 => Memref.whole cc8_stg27_1 | ⟨_ + 2, h⟩ => absurd h (Nat.not_lt.2 (Nat.le_add_left _ _))
abbrev sem8_27 : Fin 2 → DmaSem sig := fun | 0 => cc8_sem27_0 | 1 => cc8_sem27_1 | ⟨_ + 2, h⟩ => absurd h (Nat.not_lt.2 (Nat.le_add_left _ _))
abbrev reads8_27 : Fin grid8.rank → Bool := ![true]

abbrev stage8_28 : Fin 2 → Memref sig .tc .vmem S512x128 .f32 := fun | 0 => Memref.whole cc8_stg28_0 | 1 => Memref.whole cc8_stg28_1 | ⟨_ + 2, h⟩ => absurd h (Nat.not_lt.2 (Nat.le_add_left _ _))
abbrev sem8_28 : Fin 2 → DmaSem sig := fun | 0 => cc8_sem28_0 | 1 => cc8_sem28_1 | ⟨_ + 2, h⟩ => absurd h (Nat.not_lt.2 (Nat.le_add_left _ _))
abbrev reads8_28 : Fin grid8.rank → Bool := ![true]

abbrev stage8_29 : Fin 2 → Memref sig .tc .vmem S512x128 .f32 := fun | 0 => Memref.whole cc8_stg29_0 | 1 => Memref.whole cc8_stg29_1 | ⟨_ + 2, h⟩ => absurd h (Nat.not_lt.2 (Nat.le_add_left _ _))
abbrev sem8_29 : Fin 2 → DmaSem sig := fun | 0 => cc8_sem29_0 | 1 => cc8_sem29_1 | ⟨_ + 2, h⟩ => absurd h (Nat.not_lt.2 (Nat.le_add_left _ _))
abbrev reads8_29 : Fin grid8.rank → Bool := ![true]

abbrev stage8_30 : Fin 2 → Memref sig .tc .vmem S512x128 .f32 := fun | 0 => Memref.whole cc8_stg30_0 | 1 => Memref.whole cc8_stg30_1 | ⟨_ + 2, h⟩ => absurd h (Nat.not_lt.2 (Nat.le_add_left _ _))
abbrev sem8_30 : Fin 2 → DmaSem sig := fun | 0 => cc8_sem30_0 | 1 => cc8_sem30_1 | ⟨_ + 2, h⟩ => absurd h (Nat.not_lt.2 (Nat.le_add_left _ _))
abbrev reads8_30 : Fin grid8.rank → Bool := ![true]

abbrev stage8_31 : Fin 2 → Memref sig .tc .vmem S512x128 .f32 := fun | 0 => Memref.whole cc8_stg31_0 | 1 => Memref.whole cc8_stg31_1 | ⟨_ + 2, h⟩ => absurd h (Nat.not_lt.2 (Nat.le_add_left _ _))
abbrev sem8_31 : Fin 2 → DmaSem sig := fun | 0 => cc8_sem31_0 | 1 => cc8_sem31_1 | ⟨_ + 2, h⟩ => absurd h (Nat.not_lt.2 (Nat.le_add_left _ _))
abbrev reads8_31 : Fin grid8.rank → Bool := ![true]

abbrev stage8_32 : Fin 1 → Memref sig .tc .vmem S8x128x128 .f32 := fun | 0 => Memref.whole cc8_stg32_0 | ⟨_ + 1, h⟩ => absurd h (Nat.not_lt.2 (Nat.le_add_left _ _))
abbrev sem8_32 : Fin 1 → DmaSem sig := fun | 0 => cc8_sem32_0 | ⟨_ + 1, h⟩ => absurd h (Nat.not_lt.2 (Nat.le_add_left _ _))
abbrev reads8_32 : Fin grid8.rank → Bool := ![false]

abbrev stage8_33 : Fin 1 → Memref sig .tc .vmem S8x128 .f32 := fun | 0 => Memref.whole cc8_stg33_0 | ⟨_ + 1, h⟩ => absurd h (Nat.not_lt.2 (Nat.le_add_left _ _))
abbrev sem8_33 : Fin 1 → DmaSem sig := fun | 0 => cc8_sem33_0 | ⟨_ + 1, h⟩ => absurd h (Nat.not_lt.2 (Nat.le_add_left _ _))
abbrev reads8_33 : Fin grid8.rank → Bool := ![false]

abbrev stage8_34 : Fin 2 → Memref sig .tc .vmem S8x512x128 .f32 := fun | 0 => Memref.whole cc8_stg34_0 | 1 => Memref.whole cc8_stg34_1 | ⟨_ + 2, h⟩ => absurd h (Nat.not_lt.2 (Nat.le_add_left _ _))
abbrev sem8_34 : Fin 2 → DmaSem sig := fun | 0 => cc8_sem34_0 | 1 => cc8_sem34_1 | ⟨_ + 2, h⟩ => absurd h (Nat.not_lt.2 (Nat.le_add_left _ _))
abbrev reads8_34 : Fin grid8.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S1x128x128.size a
  hwx0_1 : ∀ i : grid0.Coords, EltTy.bits .f32 = 32 ∨ (Rect.block (s := S1x128x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S1x4096x128.size a
  hwx0_3 : ∀ i : grid0.Coords, EltTy.bits .f32 = 32 ∨ (Rect.block (s := S1x4096x128) S1x512x128.size (cc0_transform_3 i) (hinb0_3 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S4096x128.size a
  hwx1_6 : ∀ i : grid1.Coords, EltTy.bits .f32 = 32 ∨ (Rect.block (s := S4096x128) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S4096x128.size a
  hwx1_7 : ∀ i : grid1.Coords, EltTy.bits .f32 = 32 ∨ (Rect.block (s := S4096x128) S512x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S4096x128.size a
  hwx1_8 : ∀ i : grid1.Coords, EltTy.bits .f32 = 32 ∨ (Rect.block (s := S4096x128) S512x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S4096x128.size a
  hwx1_9 : ∀ i : grid1.Coords, EltTy.bits .f32 = 32 ∨ (Rect.block (s := S4096x128) S512x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S4096x128.size a
  hwx1_10 : ∀ i : grid1.Coords, EltTy.bits .f32 = 32 ∨ (Rect.block (s := S4096x128) S512x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x128.size a ≤ S4096x128.size a
  hwx1_11 : ∀ i : grid1.Coords, EltTy.bits .f32 = 32 ∨ (Rect.block (s := S4096x128) S512x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x128.size a ≤ S4096x128.size a
  hwx1_12 : ∀ i : grid1.Coords, EltTy.bits .f32 = 32 ∨ (Rect.block (s := S4096x128) S512x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S512x128.size a ≤ S4096x128.size a
  hwx1_13 : ∀ i : grid1.Coords, EltTy.bits .f32 = 32 ∨ (Rect.block (s := S4096x128) S512x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S512x128.size a ≤ S4096x128.size a
  hwx1_14 : ∀ i : grid1.Coords, EltTy.bits .f32 = 32 ∨ (Rect.block (s := S4096x128) S512x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S512x128.size a ≤ S4096x128.size a
  hwx1_15 : ∀ i : grid1.Coords, EltTy.bits .f32 = 32 ∨ (Rect.block (s := S4096x128) S512x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x128.size a ≤ S4096x128.size a
  hwx1_16 : ∀ i : grid1.Coords, EltTy.bits .f32 = 32 ∨ (Rect.block (s := S4096x128) S512x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S512x128.size a ≤ S4096x128.size a
  hwx1_17 : ∀ i : grid1.Coords, EltTy.bits .f32 = 32 ∨ (Rect.block (s := S4096x128) S512x128.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S512x128.size a ≤ S4096x128.size a
  hwx1_18 : ∀ i : grid1.Coords, EltTy.bits .f32 = 32 ∨ (Rect.block (s := S4096x128) S512x128.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x128.size a ≤ S4096x128.size a
  hwx1_19 : ∀ i : grid1.Coords, EltTy.bits .f32 = 32 ∨ (Rect.block (s := S4096x128) S512x128.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S512x128.size a ≤ S4096x128.size a
  hwx1_20 : ∀ i : grid1.Coords, EltTy.bits .f32 = 32 ∨ (Rect.block (s := S4096x128) S512x128.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S512x128.size a ≤ S4096x128.size a
  hwx1_21 : ∀ i : grid1.Coords, EltTy.bits .f32 = 32 ∨ (Rect.block (s := S4096x128) S512x128.size (cc1_transform_21 i) (hinb1_21 i)).WholeWords (EltTy.packing .f32)
  hstage1_22 : ∀ j, (stage1_22 j).IsWhole
  nbuf1_22 : grid1.bufCount reads1_22 false = 2
  hreads1_22 : ∀ i i' : grid1.Coords, (∀ a, reads1_22 a = true → i a = i' a) → cc1_transform_22 i = cc1_transform_22 i'
  hinb1_22 : ∀ (i : grid1.Coords) a, (cc1_transform_22 i a + 1) * S512x128.size a ≤ S4096x128.size a
  hwx1_22 : ∀ i : grid1.Coords, EltTy.bits .f32 = 32 ∨ (Rect.block (s := S4096x128) S512x128.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S512x128.size a ≤ S4096x128.size a
  hwx1_23 : ∀ i : grid1.Coords, EltTy.bits .f32 = 32 ∨ (Rect.block (s := S4096x128) S512x128.size (cc1_transform_23 i) (hinb1_23 i)).WholeWords (EltTy.packing .f32)
  hstage1_24 : ∀ j, (stage1_24 j).IsWhole
  nbuf1_24 : grid1.bufCount reads1_24 false = 2
  hreads1_24 : ∀ i i' : grid1.Coords, (∀ a, reads1_24 a = true → i a = i' a) → cc1_transform_24 i = cc1_transform_24 i'
  hinb1_24 : ∀ (i : grid1.Coords) a, (cc1_transform_24 i a + 1) * S512x128.size a ≤ S4096x128.size a
  hwx1_24 : ∀ i : grid1.Coords, EltTy.bits .f32 = 32 ∨ (Rect.block (s := S4096x128) S512x128.size (cc1_transform_24 i) (hinb1_24 i)).WholeWords (EltTy.packing .f32)
  hstage1_25 : ∀ j, (stage1_25 j).IsWhole
  nbuf1_25 : grid1.bufCount reads1_25 false = 2
  hreads1_25 : ∀ i i' : grid1.Coords, (∀ a, reads1_25 a = true → i a = i' a) → cc1_transform_25 i = cc1_transform_25 i'
  hinb1_25 : ∀ (i : grid1.Coords) a, (cc1_transform_25 i a + 1) * S512x128.size a ≤ S4096x128.size a
  hwx1_25 : ∀ i : grid1.Coords, EltTy.bits .f32 = 32 ∨ (Rect.block (s := S4096x128) S512x128.size (cc1_transform_25 i) (hinb1_25 i)).WholeWords (EltTy.packing .f32)
  hstage1_26 : ∀ j, (stage1_26 j).IsWhole
  nbuf1_26 : grid1.bufCount reads1_26 false = 2
  hreads1_26 : ∀ i i' : grid1.Coords, (∀ a, reads1_26 a = true → i a = i' a) → cc1_transform_26 i = cc1_transform_26 i'
  hinb1_26 : ∀ (i : grid1.Coords) a, (cc1_transform_26 i a + 1) * S512x128.size a ≤ S4096x128.size a
  hwx1_26 : ∀ i : grid1.Coords, EltTy.bits .f32 = 32 ∨ (Rect.block (s := S4096x128) S512x128.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S512x128.size a ≤ S4096x128.size a
  hwx1_27 : ∀ i : grid1.Coords, EltTy.bits .f32 = 32 ∨ (Rect.block (s := S4096x128) S512x128.size (cc1_transform_27 i) (hinb1_27 i)).WholeWords (EltTy.packing .f32)
  hstage1_28 : ∀ j, (stage1_28 j).IsWhole
  nbuf1_28 : grid1.bufCount reads1_28 false = 2
  hreads1_28 : ∀ i i' : grid1.Coords, (∀ a, reads1_28 a = true → i a = i' a) → cc1_transform_28 i = cc1_transform_28 i'
  hinb1_28 : ∀ (i : grid1.Coords) a, (cc1_transform_28 i a + 1) * S512x128.size a ≤ S4096x128.size a
  hwx1_28 : ∀ i : grid1.Coords, EltTy.bits .f32 = 32 ∨ (Rect.block (s := S4096x128) S512x128.size (cc1_transform_28 i) (hinb1_28 i)).WholeWords (EltTy.packing .f32)
  hstage1_29 : ∀ j, (stage1_29 j).IsWhole
  nbuf1_29 : grid1.bufCount reads1_29 false = 2
  hreads1_29 : ∀ i i' : grid1.Coords, (∀ a, reads1_29 a = true → i a = i' a) → cc1_transform_29 i = cc1_transform_29 i'
  hinb1_29 : ∀ (i : grid1.Coords) a, (cc1_transform_29 i a + 1) * S512x128.size a ≤ S4096x128.size a
  hwx1_29 : ∀ i : grid1.Coords, EltTy.bits .f32 = 32 ∨ (Rect.block (s := S4096x128) S512x128.size (cc1_transform_29 i) (hinb1_29 i)).WholeWords (EltTy.packing .f32)
  hstage1_30 : ∀ j, (stage1_30 j).IsWhole
  nbuf1_30 : grid1.bufCount reads1_30 false = 2
  hreads1_30 : ∀ i i' : grid1.Coords, (∀ a, reads1_30 a = true → i a = i' a) → cc1_transform_30 i = cc1_transform_30 i'
  hinb1_30 : ∀ (i : grid1.Coords) a, (cc1_transform_30 i a + 1) * S512x128.size a ≤ S4096x128.size a
  hwx1_30 : ∀ i : grid1.Coords, EltTy.bits .f32 = 32 ∨ (Rect.block (s := S4096x128) S512x128.size (cc1_transform_30 i) (hinb1_30 i)).WholeWords (EltTy.packing .f32)
  hstage1_31 : ∀ j, (stage1_31 j).IsWhole
  nbuf1_31 : grid1.bufCount reads1_31 false = 2
  hreads1_31 : ∀ i i' : grid1.Coords, (∀ a, reads1_31 a = true → i a = i' a) → cc1_transform_31 i = cc1_transform_31 i'
  hinb1_31 : ∀ (i : grid1.Coords) a, (cc1_transform_31 i a + 1) * S512x128.size a ≤ S4096x128.size a
  hwx1_31 : ∀ i : grid1.Coords, EltTy.bits .f32 = 32 ∨ (Rect.block (s := S4096x128) S512x128.size (cc1_transform_31 i) (hinb1_31 i)).WholeWords (EltTy.packing .f32)
  hstage1_32 : ∀ j, (stage1_32 j).IsWhole
  nbuf1_32 : grid1.bufCount reads1_32 true = 1
  hreads1_32 : ∀ i i' : grid1.Coords, (∀ a, reads1_32 a = true → i a = i' a) → cc1_transform_32 i = cc1_transform_32 i'
  hinb1_32 : ∀ (i : grid1.Coords) a, (cc1_transform_32 i a + 1) * S8x128x128.size a ≤ S8x128x128.size a
  hwx1_32 : ∀ i : grid1.Coords, EltTy.bits .f32 = 32 ∨ (Rect.block (s := S8x128x128) S8x128x128.size (cc1_transform_32 i) (hinb1_32 i)).WholeWords (EltTy.packing .f32)
  hstage1_33 : ∀ j, (stage1_33 j).IsWhole
  nbuf1_33 : grid1.bufCount reads1_33 true = 1
  hreads1_33 : ∀ i i' : grid1.Coords, (∀ a, reads1_33 a = true → i a = i' a) → cc1_transform_33 i = cc1_transform_33 i'
  hinb1_33 : ∀ (i : grid1.Coords) a, (cc1_transform_33 i a + 1) * S8x128.size a ≤ S8x128.size a
  hwx1_33 : ∀ i : grid1.Coords, EltTy.bits .f32 = 32 ∨ (Rect.block (s := S8x128) S8x128.size (cc1_transform_33 i) (hinb1_33 i)).WholeWords (EltTy.packing .f32)
  hstage1_34 : ∀ j, (stage1_34 j).IsWhole
  nbuf1_34 : grid1.bufCount reads1_34 false = 2
  hreads1_34 : ∀ i i' : grid1.Coords, (∀ a, reads1_34 a = true → i a = i' a) → cc1_transform_34 i = cc1_transform_34 i'
  hinb1_34 : ∀ (i : grid1.Coords) a, (cc1_transform_34 i a + 1) * S8x512x128.size a ≤ S8x4096x128.size a
  hwx1_34 : ∀ i : grid1.Coords, EltTy.bits .f32 = 32 ∨ (Rect.block (s := S8x4096x128) S8x512x128.size (cc1_transform_34 i) (hinb1_34 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S4096x128.size a
  hwx2_0 : ∀ i : grid2.Coords, EltTy.bits .f32 = 32 ∨ (Rect.block (s := S4096x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S4096x128.size a
  hwx2_1 : ∀ i : grid2.Coords, EltTy.bits .f32 = 32 ∨ (Rect.block (s := S4096x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .f32 = 32 ∨ (Rect.block (s := S4096x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S4096x128.size a
  hwx2_4 : ∀ i : grid2.Coords, EltTy.bits .f32 = 32 ∨ (Rect.block (s := S4096x128) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S4096x128.size a
  hwx2_5 : ∀ i : grid2.Coords, EltTy.bits .f32 = 32 ∨ (Rect.block (s := S4096x128) S512x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x128.size a ≤ S4096x128.size a
  hwx2_6 : ∀ i : grid2.Coords, EltTy.bits .f32 = 32 ∨ (Rect.block (s := S4096x128) S512x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S4096x128.size a
  hwx2_7 : ∀ i : grid2.Coords, EltTy.bits .f32 = 32 ∨ (Rect.block (s := S4096x128) S512x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x128.size a ≤ S4096x128.size a
  hwx2_8 : ∀ i : grid2.Coords, EltTy.bits .f32 = 32 ∨ (Rect.block (s := S4096x128) S512x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x128.size a ≤ S4096x128.size a
  hwx2_9 : ∀ i : grid2.Coords, EltTy.bits .f32 = 32 ∨ (Rect.block (s := S4096x128) S512x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x128.size a ≤ S4096x128.size a
  hwx2_10 : ∀ i : grid2.Coords, EltTy.bits .f32 = 32 ∨ (Rect.block (s := S4096x128) S512x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512x128.size a ≤ S4096x128.size a
  hwx2_11 : ∀ i : grid2.Coords, EltTy.bits .f32 = 32 ∨ (Rect.block (s := S4096x128) S512x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x128.size a ≤ S4096x128.size a
  hwx2_12 : ∀ i : grid2.Coords, EltTy.bits .f32 = 32 ∨ (Rect.block (s := S4096x128) S512x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S512x128.size a ≤ S4096x128.size a
  hwx2_13 : ∀ i : grid2.Coords, EltTy.bits .f32 = 32 ∨ (Rect.block (s := S4096x128) S512x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S512x128.size a ≤ S4096x128.size a
  hwx2_14 : ∀ i : grid2.Coords, EltTy.bits .f32 = 32 ∨ (Rect.block (s := S4096x128) S512x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S512x128.size a ≤ S4096x128.size a
  hwx2_15 : ∀ i : grid2.Coords, EltTy.bits .f32 = 32 ∨ (Rect.block (s := S4096x128) S512x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S512x128.size a ≤ S4096x128.size a
  hwx2_16 : ∀ i : grid2.Coords, EltTy.bits .f32 = 32 ∨ (Rect.block (s := S4096x128) S512x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S512x128.size a ≤ S4096x128.size a
  hwx2_17 : ∀ i : grid2.Coords, EltTy.bits .f32 = 32 ∨ (Rect.block (s := S4096x128) S512x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S512x128.size a ≤ S4096x128.size a
  hwx2_18 : ∀ i : grid2.Coords, EltTy.bits .f32 = 32 ∨ (Rect.block (s := S4096x128) S512x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S512x128.size a ≤ S4096x128.size a
  hwx2_19 : ∀ i : grid2.Coords, EltTy.bits .f32 = 32 ∨ (Rect.block (s := S4096x128) S512x128.size (cc2_transform_19 i) (hinb2_19 i)).WholeWords (EltTy.packing .f32)
  hstage2_20 : ∀ j, (stage2_20 j).IsWhole
  nbuf2_20 : grid2.bufCount reads2_20 false = 2
  hreads2_20 : ∀ i i' : grid2.Coords, (∀ a, reads2_20 a = true → i a = i' a) → cc2_transform_20 i = cc2_transform_20 i'
  hinb2_20 : ∀ (i : grid2.Coords) a, (cc2_transform_20 i a + 1) * S512x128.size a ≤ S4096x128.size a
  hwx2_20 : ∀ i : grid2.Coords, EltTy.bits .f32 = 32 ∨ (Rect.block (s := S4096x128) S512x128.size (cc2_transform_20 i) (hinb2_20 i)).WholeWords (EltTy.packing .f32)
  hstage2_21 : ∀ j, (stage2_21 j).IsWhole
  nbuf2_21 : grid2.bufCount reads2_21 false = 2
  hreads2_21 : ∀ i i' : grid2.Coords, (∀ a, reads2_21 a = true → i a = i' a) → cc2_transform_21 i = cc2_transform_21 i'
  hinb2_21 : ∀ (i : grid2.Coords) a, (cc2_transform_21 i a + 1) * S512x128.size a ≤ S4096x128.size a
  hwx2_21 : ∀ i : grid2.Coords, EltTy.bits .f32 = 32 ∨ (Rect.block (s := S4096x128) S512x128.size (cc2_transform_21 i) (hinb2_21 i)).WholeWords (EltTy.packing .f32)
  hstage2_22 : ∀ j, (stage2_22 j).IsWhole
  nbuf2_22 : grid2.bufCount reads2_22 false = 2
  hreads2_22 : ∀ i i' : grid2.Coords, (∀ a, reads2_22 a = true → i a = i' a) → cc2_transform_22 i = cc2_transform_22 i'
  hinb2_22 : ∀ (i : grid2.Coords) a, (cc2_transform_22 i a + 1) * S512x128.size a ≤ S4096x128.size a
  hwx2_22 : ∀ i : grid2.Coords, EltTy.bits .f32 = 32 ∨ (Rect.block (s := S4096x128) S512x128.size (cc2_transform_22 i) (hinb2_22 i)).WholeWords (EltTy.packing .f32)
  hstage2_23 : ∀ j, (stage2_23 j).IsWhole
  nbuf2_23 : grid2.bufCount reads2_23 false = 2
  hreads2_23 : ∀ i i' : grid2.Coords, (∀ a, reads2_23 a = true → i a = i' a) → cc2_transform_23 i = cc2_transform_23 i'
  hinb2_23 : ∀ (i : grid2.Coords) a, (cc2_transform_23 i a + 1) * S512x128.size a ≤ S4096x128.size a
  hwx2_23 : ∀ i : grid2.Coords, EltTy.bits .f32 = 32 ∨ (Rect.block (s := S4096x128) S512x128.size (cc2_transform_23 i) (hinb2_23 i)).WholeWords (EltTy.packing .f32)
  hstage2_24 : ∀ j, (stage2_24 j).IsWhole
  nbuf2_24 : grid2.bufCount reads2_24 false = 2
  hreads2_24 : ∀ i i' : grid2.Coords, (∀ a, reads2_24 a = true → i a = i' a) → cc2_transform_24 i = cc2_transform_24 i'
  hinb2_24 : ∀ (i : grid2.Coords) a, (cc2_transform_24 i a + 1) * S512x128.size a ≤ S4096x128.size a
  hwx2_24 : ∀ i : grid2.Coords, EltTy.bits .f32 = 32 ∨ (Rect.block (s := S4096x128) S512x128.size (cc2_transform_24 i) (hinb2_24 i)).WholeWords (EltTy.packing .f32)
  hstage2_25 : ∀ j, (stage2_25 j).IsWhole
  nbuf2_25 : grid2.bufCount reads2_25 false = 2
  hreads2_25 : ∀ i i' : grid2.Coords, (∀ a, reads2_25 a = true → i a = i' a) → cc2_transform_25 i = cc2_transform_25 i'
  hinb2_25 : ∀ (i : grid2.Coords) a, (cc2_transform_25 i a + 1) * S512x128.size a ≤ S4096x128.size a
  hwx2_25 : ∀ i : grid2.Coords, EltTy.bits .f32 = 32 ∨ (Rect.block (s := S4096x128) S512x128.size (cc2_transform_25 i) (hinb2_25 i)).WholeWords (EltTy.packing .f32)
  hstage2_26 : ∀ j, (stage2_26 j).IsWhole
  nbuf2_26 : grid2.bufCount reads2_26 false = 2
  hreads2_26 : ∀ i i' : grid2.Coords, (∀ a, reads2_26 a = true → i a = i' a) → cc2_transform_26 i = cc2_transform_26 i'
  hinb2_26 : ∀ (i : grid2.Coords) a, (cc2_transform_26 i a + 1) * S512x128.size a ≤ S4096x128.size a
  hwx2_26 : ∀ i : grid2.Coords, EltTy.bits .f32 = 32 ∨ (Rect.block (s := S4096x128) S512x128.size (cc2_transform_26 i) (hinb2_26 i)).WholeWords (EltTy.packing .f32)
  hstage2_27 : ∀ j, (stage2_27 j).IsWhole
  nbuf2_27 : grid2.bufCount reads2_27 false = 2
  hreads2_27 : ∀ i i' : grid2.Coords, (∀ a, reads2_27 a = true → i a = i' a) → cc2_transform_27 i = cc2_transform_27 i'
  hinb2_27 : ∀ (i : grid2.Coords) a, (cc2_transform_27 i a + 1) * S512x128.size a ≤ S4096x128.size a
  hwx2_27 : ∀ i : grid2.Coords, EltTy.bits .f32 = 32 ∨ (Rect.block (s := S4096x128) S512x128.size (cc2_transform_27 i) (hinb2_27 i)).WholeWords (EltTy.packing .f32)
  hstage2_28 : ∀ j, (stage2_28 j).IsWhole
  nbuf2_28 : grid2.bufCount reads2_28 false = 2
  hreads2_28 : ∀ i i' : grid2.Coords, (∀ a, reads2_28 a = true → i a = i' a) → cc2_transform_28 i = cc2_transform_28 i'
  hinb2_28 : ∀ (i : grid2.Coords) a, (cc2_transform_28 i a + 1) * S512x128.size a ≤ S4096x128.size a
  hwx2_28 : ∀ i : grid2.Coords, EltTy.bits .f32 = 32 ∨ (Rect.block (s := S4096x128) S512x128.size (cc2_transform_28 i) (hinb2_28 i)).WholeWords (EltTy.packing .f32)
  hstage2_29 : ∀ j, (stage2_29 j).IsWhole
  nbuf2_29 : grid2.bufCount reads2_29 false = 2
  hreads2_29 : ∀ i i' : grid2.Coords, (∀ a, reads2_29 a = true → i a = i' a) → cc2_transform_29 i = cc2_transform_29 i'
  hinb2_29 : ∀ (i : grid2.Coords) a, (cc2_transform_29 i a + 1) * S512x128.size a ≤ S4096x128.size a
  hwx2_29 : ∀ i : grid2.Coords, EltTy.bits .f32 = 32 ∨ (Rect.block (s := S4096x128) S512x128.size (cc2_transform_29 i) (hinb2_29 i)).WholeWords (EltTy.packing .f32)
  hstage2_30 : ∀ j, (stage2_30 j).IsWhole
  nbuf2_30 : grid2.bufCount reads2_30 false = 2
  hreads2_30 : ∀ i i' : grid2.Coords, (∀ a, reads2_30 a = true → i a = i' a) → cc2_transform_30 i = cc2_transform_30 i'
  hinb2_30 : ∀ (i : grid2.Coords) a, (cc2_transform_30 i a + 1) * S512x128.size a ≤ S4096x128.size a
  hwx2_30 : ∀ i : grid2.Coords, EltTy.bits .f32 = 32 ∨ (Rect.block (s := S4096x128) S512x128.size (cc2_transform_30 i) (hinb2_30 i)).WholeWords (EltTy.packing .f32)
  hstage2_31 : ∀ j, (stage2_31 j).IsWhole
  nbuf2_31 : grid2.bufCount reads2_31 false = 2
  hreads2_31 : ∀ i i' : grid2.Coords, (∀ a, reads2_31 a = true → i a = i' a) → cc2_transform_31 i = cc2_transform_31 i'
  hinb2_31 : ∀ (i : grid2.Coords) a, (cc2_transform_31 i a + 1) * S512x128.size a ≤ S4096x128.size a
  hwx2_31 : ∀ i : grid2.Coords, EltTy.bits .f32 = 32 ∨ (Rect.block (s := S4096x128) S512x128.size (cc2_transform_31 i) (hinb2_31 i)).WholeWords (EltTy.packing .f32)
  hstage2_32 : ∀ j, (stage2_32 j).IsWhole
  nbuf2_32 : grid2.bufCount reads2_32 true = 1
  hreads2_32 : ∀ i i' : grid2.Coords, (∀ a, reads2_32 a = true → i a = i' a) → cc2_transform_32 i = cc2_transform_32 i'
  hinb2_32 : ∀ (i : grid2.Coords) a, (cc2_transform_32 i a + 1) * S8x128x128.size a ≤ S8x128x128.size a
  hwx2_32 : ∀ i : grid2.Coords, EltTy.bits .f32 = 32 ∨ (Rect.block (s := S8x128x128) S8x128x128.size (cc2_transform_32 i) (hinb2_32 i)).WholeWords (EltTy.packing .f32)
  hstage2_33 : ∀ j, (stage2_33 j).IsWhole
  nbuf2_33 : grid2.bufCount reads2_33 true = 1
  hreads2_33 : ∀ i i' : grid2.Coords, (∀ a, reads2_33 a = true → i a = i' a) → cc2_transform_33 i = cc2_transform_33 i'
  hinb2_33 : ∀ (i : grid2.Coords) a, (cc2_transform_33 i a + 1) * S8x128.size a ≤ S8x128.size a
  hwx2_33 : ∀ i : grid2.Coords, EltTy.bits .f32 = 32 ∨ (Rect.block (s := S8x128) S8x128.size (cc2_transform_33 i) (hinb2_33 i)).WholeWords (EltTy.packing .f32)
  hstage2_34 : ∀ j, (stage2_34 j).IsWhole
  nbuf2_34 : grid2.bufCount reads2_34 false = 2
  hreads2_34 : ∀ i i' : grid2.Coords, (∀ a, reads2_34 a = true → i a = i' a) → cc2_transform_34 i = cc2_transform_34 i'
  hinb2_34 : ∀ (i : grid2.Coords) a, (cc2_transform_34 i a + 1) * S8x512x128.size a ≤ S8x4096x128.size a
  hwx2_34 : ∀ i : grid2.Coords, EltTy.bits .f32 = 32 ∨ (Rect.block (s := S8x4096x128) S8x512x128.size (cc2_transform_34 i) (hinb2_34 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S4096x128.size a
  hwx3_0 : ∀ i : grid3.Coords, EltTy.bits .f32 = 32 ∨ (Rect.block (s := S4096x128) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S4096x128.size a
  hwx3_1 : ∀ i : grid3.Coords, EltTy.bits .f32 = 32 ∨ (Rect.block (s := S4096x128) S512x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S4096x128.size a
  hwx3_2 : ∀ i : grid3.Coords, EltTy.bits .f32 = 32 ∨ (Rect.block (s := S4096x128) S512x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S4096x128.size a
  hwx3_4 : ∀ i : grid3.Coords, EltTy.bits .f32 = 32 ∨ (Rect.block (s := S4096x128) S512x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S4096x128.size a
  hwx3_5 : ∀ i : grid3.Coords, EltTy.bits .f32 = 32 ∨ (Rect.block (s := S4096x128) S512x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x128.size a ≤ S4096x128.size a
  hwx3_6 : ∀ i : grid3.Coords, EltTy.bits .f32 = 32 ∨ (Rect.block (s := S4096x128) S512x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S4096x128.size a
  hwx3_7 : ∀ i : grid3.Coords, EltTy.bits .f32 = 32 ∨ (Rect.block (s := S4096x128) S512x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x128.size a ≤ S4096x128.size a
  hwx3_8 : ∀ i : grid3.Coords, EltTy.bits .f32 = 32 ∨ (Rect.block (s := S4096x128) S512x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x128.size a ≤ S4096x128.size a
  hwx3_9 : ∀ i : grid3.Coords, EltTy.bits .f32 = 32 ∨ (Rect.block (s := S4096x128) S512x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x128.size a ≤ S4096x128.size a
  hwx3_10 : ∀ i : grid3.Coords, EltTy.bits .f32 = 32 ∨ (Rect.block (s := S4096x128) S512x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S512x128.size a ≤ S4096x128.size a
  hwx3_11 : ∀ i : grid3.Coords, EltTy.bits .f32 = 32 ∨ (Rect.block (s := S4096x128) S512x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S512x128.size a ≤ S4096x128.size a
  hwx3_12 : ∀ i : grid3.Coords, EltTy.bits .f32 = 32 ∨ (Rect.block (s := S4096x128) S512x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S512x128.size a ≤ S4096x128.size a
  hwx3_13 : ∀ i : grid3.Coords, EltTy.bits .f32 = 32 ∨ (Rect.block (s := S4096x128) S512x128.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S512x128.size a ≤ S4096x128.size a
  hwx3_14 : ∀ i : grid3.Coords, EltTy.bits .f32 = 32 ∨ (Rect.block (s := S4096x128) S512x128.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S512x128.size a ≤ S4096x128.size a
  hwx3_15 : ∀ i : grid3.Coords, EltTy.bits .f32 = 32 ∨ (Rect.block (s := S4096x128) S512x128.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S512x128.size a ≤ S4096x128.size a
  hwx3_16 : ∀ i : grid3.Coords, EltTy.bits .f32 = 32 ∨ (Rect.block (s := S4096x128) S512x128.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S512x128.size a ≤ S4096x128.size a
  hwx3_17 : ∀ i : grid3.Coords, EltTy.bits .f32 = 32 ∨ (Rect.block (s := S4096x128) S512x128.size (cc3_transform_17 i) (hinb3_17 i)).WholeWords (EltTy.packing .f32)
  hstage3_18 : ∀ j, (stage3_18 j).IsWhole
  nbuf3_18 : grid3.bufCount reads3_18 false = 2
  hreads3_18 : ∀ i i' : grid3.Coords, (∀ a, reads3_18 a = true → i a = i' a) → cc3_transform_18 i = cc3_transform_18 i'
  hinb3_18 : ∀ (i : grid3.Coords) a, (cc3_transform_18 i a + 1) * S512x128.size a ≤ S4096x128.size a
  hwx3_18 : ∀ i : grid3.Coords, EltTy.bits .f32 = 32 ∨ (Rect.block (s := S4096x128) S512x128.size (cc3_transform_18 i) (hinb3_18 i)).WholeWords (EltTy.packing .f32)
  hstage3_19 : ∀ j, (stage3_19 j).IsWhole
  nbuf3_19 : grid3.bufCount reads3_19 false = 2
  hreads3_19 : ∀ i i' : grid3.Coords, (∀ a, reads3_19 a = true → i a = i' a) → cc3_transform_19 i = cc3_transform_19 i'
  hinb3_19 : ∀ (i : grid3.Coords) a, (cc3_transform_19 i a + 1) * S512x128.size a ≤ S4096x128.size a
  hwx3_19 : ∀ i : grid3.Coords, EltTy.bits .f32 = 32 ∨ (Rect.block (s := S4096x128) S512x128.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S512x128.size a ≤ S4096x128.size a
  hwx3_20 : ∀ i : grid3.Coords, EltTy.bits .f32 = 32 ∨ (Rect.block (s := S4096x128) S512x128.size (cc3_transform_20 i) (hinb3_20 i)).WholeWords (EltTy.packing .f32)
  hstage3_21 : ∀ j, (stage3_21 j).IsWhole
  nbuf3_21 : grid3.bufCount reads3_21 false = 2
  hreads3_21 : ∀ i i' : grid3.Coords, (∀ a, reads3_21 a = true → i a = i' a) → cc3_transform_21 i = cc3_transform_21 i'
  hinb3_21 : ∀ (i : grid3.Coords) a, (cc3_transform_21 i a + 1) * S512x128.size a ≤ S4096x128.size a
  hwx3_21 : ∀ i : grid3.Coords, EltTy.bits .f32 = 32 ∨ (Rect.block (s := S4096x128) S512x128.size (cc3_transform_21 i) (hinb3_21 i)).WholeWords (EltTy.packing .f32)
  hstage3_22 : ∀ j, (stage3_22 j).IsWhole
  nbuf3_22 : grid3.bufCount reads3_22 false = 2
  hreads3_22 : ∀ i i' : grid3.Coords, (∀ a, reads3_22 a = true → i a = i' a) → cc3_transform_22 i = cc3_transform_22 i'
  hinb3_22 : ∀ (i : grid3.Coords) a, (cc3_transform_22 i a + 1) * S512x128.size a ≤ S4096x128.size a
  hwx3_22 : ∀ i : grid3.Coords, EltTy.bits .f32 = 32 ∨ (Rect.block (s := S4096x128) S512x128.size (cc3_transform_22 i) (hinb3_22 i)).WholeWords (EltTy.packing .f32)
  hstage3_23 : ∀ j, (stage3_23 j).IsWhole
  nbuf3_23 : grid3.bufCount reads3_23 false = 2
  hreads3_23 : ∀ i i' : grid3.Coords, (∀ a, reads3_23 a = true → i a = i' a) → cc3_transform_23 i = cc3_transform_23 i'
  hinb3_23 : ∀ (i : grid3.Coords) a, (cc3_transform_23 i a + 1) * S512x128.size a ≤ S4096x128.size a
  hwx3_23 : ∀ i : grid3.Coords, EltTy.bits .f32 = 32 ∨ (Rect.block (s := S4096x128) S512x128.size (cc3_transform_23 i) (hinb3_23 i)).WholeWords (EltTy.packing .f32)
  hstage3_24 : ∀ j, (stage3_24 j).IsWhole
  nbuf3_24 : grid3.bufCount reads3_24 false = 2
  hreads3_24 : ∀ i i' : grid3.Coords, (∀ a, reads3_24 a = true → i a = i' a) → cc3_transform_24 i = cc3_transform_24 i'
  hinb3_24 : ∀ (i : grid3.Coords) a, (cc3_transform_24 i a + 1) * S512x128.size a ≤ S4096x128.size a
  hwx3_24 : ∀ i : grid3.Coords, EltTy.bits .f32 = 32 ∨ (Rect.block (s := S4096x128) S512x128.size (cc3_transform_24 i) (hinb3_24 i)).WholeWords (EltTy.packing .f32)
  hstage3_25 : ∀ j, (stage3_25 j).IsWhole
  nbuf3_25 : grid3.bufCount reads3_25 false = 2
  hreads3_25 : ∀ i i' : grid3.Coords, (∀ a, reads3_25 a = true → i a = i' a) → cc3_transform_25 i = cc3_transform_25 i'
  hinb3_25 : ∀ (i : grid3.Coords) a, (cc3_transform_25 i a + 1) * S512x128.size a ≤ S4096x128.size a
  hwx3_25 : ∀ i : grid3.Coords, EltTy.bits .f32 = 32 ∨ (Rect.block (s := S4096x128) S512x128.size (cc3_transform_25 i) (hinb3_25 i)).WholeWords (EltTy.packing .f32)
  hstage3_26 : ∀ j, (stage3_26 j).IsWhole
  nbuf3_26 : grid3.bufCount reads3_26 false = 2
  hreads3_26 : ∀ i i' : grid3.Coords, (∀ a, reads3_26 a = true → i a = i' a) → cc3_transform_26 i = cc3_transform_26 i'
  hinb3_26 : ∀ (i : grid3.Coords) a, (cc3_transform_26 i a + 1) * S512x128.size a ≤ S4096x128.size a
  hwx3_26 : ∀ i : grid3.Coords, EltTy.bits .f32 = 32 ∨ (Rect.block (s := S4096x128) S512x128.size (cc3_transform_26 i) (hinb3_26 i)).WholeWords (EltTy.packing .f32)
  hstage3_27 : ∀ j, (stage3_27 j).IsWhole
  nbuf3_27 : grid3.bufCount reads3_27 false = 2
  hreads3_27 : ∀ i i' : grid3.Coords, (∀ a, reads3_27 a = true → i a = i' a) → cc3_transform_27 i = cc3_transform_27 i'
  hinb3_27 : ∀ (i : grid3.Coords) a, (cc3_transform_27 i a + 1) * S512x128.size a ≤ S4096x128.size a
  hwx3_27 : ∀ i : grid3.Coords, EltTy.bits .f32 = 32 ∨ (Rect.block (s := S4096x128) S512x128.size (cc3_transform_27 i) (hinb3_27 i)).WholeWords (EltTy.packing .f32)
  hstage3_28 : ∀ j, (stage3_28 j).IsWhole
  nbuf3_28 : grid3.bufCount reads3_28 false = 2
  hreads3_28 : ∀ i i' : grid3.Coords, (∀ a, reads3_28 a = true → i a = i' a) → cc3_transform_28 i = cc3_transform_28 i'
  hinb3_28 : ∀ (i : grid3.Coords) a, (cc3_transform_28 i a + 1) * S512x128.size a ≤ S4096x128.size a
  hwx3_28 : ∀ i : grid3.Coords, EltTy.bits .f32 = 32 ∨ (Rect.block (s := S4096x128) S512x128.size (cc3_transform_28 i) (hinb3_28 i)).WholeWords (EltTy.packing .f32)
  hstage3_29 : ∀ j, (stage3_29 j).IsWhole
  nbuf3_29 : grid3.bufCount reads3_29 false = 2
  hreads3_29 : ∀ i i' : grid3.Coords, (∀ a, reads3_29 a = true → i a = i' a) → cc3_transform_29 i = cc3_transform_29 i'
  hinb3_29 : ∀ (i : grid3.Coords) a, (cc3_transform_29 i a + 1) * S512x128.size a ≤ S4096x128.size a
  hwx3_29 : ∀ i : grid3.Coords, EltTy.bits .f32 = 32 ∨ (Rect.block (s := S4096x128) S512x128.size (cc3_transform_29 i) (hinb3_29 i)).WholeWords (EltTy.packing .f32)
  hstage3_30 : ∀ j, (stage3_30 j).IsWhole
  nbuf3_30 : grid3.bufCount reads3_30 false = 2
  hreads3_30 : ∀ i i' : grid3.Coords, (∀ a, reads3_30 a = true → i a = i' a) → cc3_transform_30 i = cc3_transform_30 i'
  hinb3_30 : ∀ (i : grid3.Coords) a, (cc3_transform_30 i a + 1) * S512x128.size a ≤ S4096x128.size a
  hwx3_30 : ∀ i : grid3.Coords, EltTy.bits .f32 = 32 ∨ (Rect.block (s := S4096x128) S512x128.size (cc3_transform_30 i) (hinb3_30 i)).WholeWords (EltTy.packing .f32)
  hstage3_31 : ∀ j, (stage3_31 j).IsWhole
  nbuf3_31 : grid3.bufCount reads3_31 false = 2
  hreads3_31 : ∀ i i' : grid3.Coords, (∀ a, reads3_31 a = true → i a = i' a) → cc3_transform_31 i = cc3_transform_31 i'
  hinb3_31 : ∀ (i : grid3.Coords) a, (cc3_transform_31 i a + 1) * S512x128.size a ≤ S4096x128.size a
  hwx3_31 : ∀ i : grid3.Coords, EltTy.bits .f32 = 32 ∨ (Rect.block (s := S4096x128) S512x128.size (cc3_transform_31 i) (hinb3_31 i)).WholeWords (EltTy.packing .f32)
  hstage3_32 : ∀ j, (stage3_32 j).IsWhole
  nbuf3_32 : grid3.bufCount reads3_32 true = 1
  hreads3_32 : ∀ i i' : grid3.Coords, (∀ a, reads3_32 a = true → i a = i' a) → cc3_transform_32 i = cc3_transform_32 i'
  hinb3_32 : ∀ (i : grid3.Coords) a, (cc3_transform_32 i a + 1) * S8x128x128.size a ≤ S8x128x128.size a
  hwx3_32 : ∀ i : grid3.Coords, EltTy.bits .f32 = 32 ∨ (Rect.block (s := S8x128x128) S8x128x128.size (cc3_transform_32 i) (hinb3_32 i)).WholeWords (EltTy.packing .f32)
  hstage3_33 : ∀ j, (stage3_33 j).IsWhole
  nbuf3_33 : grid3.bufCount reads3_33 true = 1
  hreads3_33 : ∀ i i' : grid3.Coords, (∀ a, reads3_33 a = true → i a = i' a) → cc3_transform_33 i = cc3_transform_33 i'
  hinb3_33 : ∀ (i : grid3.Coords) a, (cc3_transform_33 i a + 1) * S8x128.size a ≤ S8x128.size a
  hwx3_33 : ∀ i : grid3.Coords, EltTy.bits .f32 = 32 ∨ (Rect.block (s := S8x128) S8x128.size (cc3_transform_33 i) (hinb3_33 i)).WholeWords (EltTy.packing .f32)
  hstage3_34 : ∀ j, (stage3_34 j).IsWhole
  nbuf3_34 : grid3.bufCount reads3_34 false = 2
  hreads3_34 : ∀ i i' : grid3.Coords, (∀ a, reads3_34 a = true → i a = i' a) → cc3_transform_34 i = cc3_transform_34 i'
  hinb3_34 : ∀ (i : grid3.Coords) a, (cc3_transform_34 i a + 1) * S8x512x128.size a ≤ S8x4096x128.size a
  hwx3_34 : ∀ i : grid3.Coords, EltTy.bits .f32 = 32 ∨ (Rect.block (s := S8x4096x128) S8x512x128.size (cc3_transform_34 i) (hinb3_34 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S4096x128.size a
  hwx4_0 : ∀ i : grid4.Coords, EltTy.bits .f32 = 32 ∨ (Rect.block (s := S4096x128) S512x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S4096x128.size a
  hwx4_1 : ∀ i : grid4.Coords, EltTy.bits .f32 = 32 ∨ (Rect.block (s := S4096x128) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S4096x128.size a
  hwx4_2 : ∀ i : grid4.Coords, EltTy.bits .f32 = 32 ∨ (Rect.block (s := S4096x128) S512x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S4096x128.size a
  hwx4_3 : ∀ i : grid4.Coords, EltTy.bits .f32 = 32 ∨ (Rect.block (s := S4096x128) S512x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S4096x128.size a
  hwx4_4 : ∀ i : grid4.Coords, EltTy.bits .f32 = 32 ∨ (Rect.block (s := S4096x128) S512x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S4096x128.size a
  hwx4_5 : ∀ i : grid4.Coords, EltTy.bits .f32 = 32 ∨ (Rect.block (s := S4096x128) S512x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x128.size a ≤ S4096x128.size a
  hwx4_6 : ∀ i : grid4.Coords, EltTy.bits .f32 = 32 ∨ (Rect.block (s := S4096x128) S512x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x128.size a ≤ S4096x128.size a
  hwx4_7 : ∀ i : grid4.Coords, EltTy.bits .f32 = 32 ∨ (Rect.block (s := S4096x128) S512x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S512x128.size a ≤ S4096x128.size a
  hwx4_8 : ∀ i : grid4.Coords, EltTy.bits .f32 = 32 ∨ (Rect.block (s := S4096x128) S512x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x128.size a ≤ S4096x128.size a
  hwx4_9 : ∀ i : grid4.Coords, EltTy.bits .f32 = 32 ∨ (Rect.block (s := S4096x128) S512x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S512x128.size a ≤ S4096x128.size a
  hwx4_10 : ∀ i : grid4.Coords, EltTy.bits .f32 = 32 ∨ (Rect.block (s := S4096x128) S512x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S512x128.size a ≤ S4096x128.size a
  hwx4_11 : ∀ i : grid4.Coords, EltTy.bits .f32 = 32 ∨ (Rect.block (s := S4096x128) S512x128.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S512x128.size a ≤ S4096x128.size a
  hwx4_12 : ∀ i : grid4.Coords, EltTy.bits .f32 = 32 ∨ (Rect.block (s := S4096x128) S512x128.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S512x128.size a ≤ S4096x128.size a
  hwx4_13 : ∀ i : grid4.Coords, EltTy.bits .f32 = 32 ∨ (Rect.block (s := S4096x128) S512x128.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S512x128.size a ≤ S4096x128.size a
  hwx4_14 : ∀ i : grid4.Coords, EltTy.bits .f32 = 32 ∨ (Rect.block (s := S4096x128) S512x128.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S512x128.size a ≤ S4096x128.size a
  hwx4_15 : ∀ i : grid4.Coords, EltTy.bits .f32 = 32 ∨ (Rect.block (s := S4096x128) S512x128.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S512x128.size a ≤ S4096x128.size a
  hwx4_16 : ∀ i : grid4.Coords, EltTy.bits .f32 = 32 ∨ (Rect.block (s := S4096x128) S512x128.size (cc4_transform_16 i) (hinb4_16 i)).WholeWords (EltTy.packing .f32)
  hstage4_17 : ∀ j, (stage4_17 j).IsWhole
  nbuf4_17 : grid4.bufCount reads4_17 false = 2
  hreads4_17 : ∀ i i' : grid4.Coords, (∀ a, reads4_17 a = true → i a = i' a) → cc4_transform_17 i = cc4_transform_17 i'
  hinb4_17 : ∀ (i : grid4.Coords) a, (cc4_transform_17 i a + 1) * S512x128.size a ≤ S4096x128.size a
  hwx4_17 : ∀ i : grid4.Coords, EltTy.bits .f32 = 32 ∨ (Rect.block (s := S4096x128) S512x128.size (cc4_transform_17 i) (hinb4_17 i)).WholeWords (EltTy.packing .f32)
  hstage4_18 : ∀ j, (stage4_18 j).IsWhole
  nbuf4_18 : grid4.bufCount reads4_18 false = 2
  hreads4_18 : ∀ i i' : grid4.Coords, (∀ a, reads4_18 a = true → i a = i' a) → cc4_transform_18 i = cc4_transform_18 i'
  hinb4_18 : ∀ (i : grid4.Coords) a, (cc4_transform_18 i a + 1) * S512x128.size a ≤ S4096x128.size a
  hwx4_18 : ∀ i : grid4.Coords, EltTy.bits .f32 = 32 ∨ (Rect.block (s := S4096x128) S512x128.size (cc4_transform_18 i) (hinb4_18 i)).WholeWords (EltTy.packing .f32)
  hstage4_19 : ∀ j, (stage4_19 j).IsWhole
  nbuf4_19 : grid4.bufCount reads4_19 false = 2
  hreads4_19 : ∀ i i' : grid4.Coords, (∀ a, reads4_19 a = true → i a = i' a) → cc4_transform_19 i = cc4_transform_19 i'
  hinb4_19 : ∀ (i : grid4.Coords) a, (cc4_transform_19 i a + 1) * S512x128.size a ≤ S4096x128.size a
  hwx4_19 : ∀ i : grid4.Coords, EltTy.bits .f32 = 32 ∨ (Rect.block (s := S4096x128) S512x128.size (cc4_transform_19 i) (hinb4_19 i)).WholeWords (EltTy.packing .f32)
  hstage4_20 : ∀ j, (stage4_20 j).IsWhole
  nbuf4_20 : grid4.bufCount reads4_20 false = 2
  hreads4_20 : ∀ i i' : grid4.Coords, (∀ a, reads4_20 a = true → i a = i' a) → cc4_transform_20 i = cc4_transform_20 i'
  hinb4_20 : ∀ (i : grid4.Coords) a, (cc4_transform_20 i a + 1) * S512x128.size a ≤ S4096x128.size a
  hwx4_20 : ∀ i : grid4.Coords, EltTy.bits .f32 = 32 ∨ (Rect.block (s := S4096x128) S512x128.size (cc4_transform_20 i) (hinb4_20 i)).WholeWords (EltTy.packing .f32)
  hstage4_21 : ∀ j, (stage4_21 j).IsWhole
  nbuf4_21 : grid4.bufCount reads4_21 false = 2
  hreads4_21 : ∀ i i' : grid4.Coords, (∀ a, reads4_21 a = true → i a = i' a) → cc4_transform_21 i = cc4_transform_21 i'
  hinb4_21 : ∀ (i : grid4.Coords) a, (cc4_transform_21 i a + 1) * S512x128.size a ≤ S4096x128.size a
  hwx4_21 : ∀ i : grid4.Coords, EltTy.bits .f32 = 32 ∨ (Rect.block (s := S4096x128) S512x128.size (cc4_transform_21 i) (hinb4_21 i)).WholeWords (EltTy.packing .f32)
  hstage4_22 : ∀ j, (stage4_22 j).IsWhole
  nbuf4_22 : grid4.bufCount reads4_22 false = 2
  hreads4_22 : ∀ i i' : grid4.Coords, (∀ a, reads4_22 a = true → i a = i' a) → cc4_transform_22 i = cc4_transform_22 i'
  hinb4_22 : ∀ (i : grid4.Coords) a, (cc4_transform_22 i a + 1) * S512x128.size a ≤ S4096x128.size a
  hwx4_22 : ∀ i : grid4.Coords, EltTy.bits .f32 = 32 ∨ (Rect.block (s := S4096x128) S512x128.size (cc4_transform_22 i) (hinb4_22 i)).WholeWords (EltTy.packing .f32)
  hstage4_23 : ∀ j, (stage4_23 j).IsWhole
  nbuf4_23 : grid4.bufCount reads4_23 false = 2
  hreads4_23 : ∀ i i' : grid4.Coords, (∀ a, reads4_23 a = true → i a = i' a) → cc4_transform_23 i = cc4_transform_23 i'
  hinb4_23 : ∀ (i : grid4.Coords) a, (cc4_transform_23 i a + 1) * S512x128.size a ≤ S4096x128.size a
  hwx4_23 : ∀ i : grid4.Coords, EltTy.bits .f32 = 32 ∨ (Rect.block (s := S4096x128) S512x128.size (cc4_transform_23 i) (hinb4_23 i)).WholeWords (EltTy.packing .f32)
  hstage4_24 : ∀ j, (stage4_24 j).IsWhole
  nbuf4_24 : grid4.bufCount reads4_24 false = 2
  hreads4_24 : ∀ i i' : grid4.Coords, (∀ a, reads4_24 a = true → i a = i' a) → cc4_transform_24 i = cc4_transform_24 i'
  hinb4_24 : ∀ (i : grid4.Coords) a, (cc4_transform_24 i a + 1) * S512x128.size a ≤ S4096x128.size a
  hwx4_24 : ∀ i : grid4.Coords, EltTy.bits .f32 = 32 ∨ (Rect.block (s := S4096x128) S512x128.size (cc4_transform_24 i) (hinb4_24 i)).WholeWords (EltTy.packing .f32)
  hstage4_25 : ∀ j, (stage4_25 j).IsWhole
  nbuf4_25 : grid4.bufCount reads4_25 false = 2
  hreads4_25 : ∀ i i' : grid4.Coords, (∀ a, reads4_25 a = true → i a = i' a) → cc4_transform_25 i = cc4_transform_25 i'
  hinb4_25 : ∀ (i : grid4.Coords) a, (cc4_transform_25 i a + 1) * S512x128.size a ≤ S4096x128.size a
  hwx4_25 : ∀ i : grid4.Coords, EltTy.bits .f32 = 32 ∨ (Rect.block (s := S4096x128) S512x128.size (cc4_transform_25 i) (hinb4_25 i)).WholeWords (EltTy.packing .f32)
  hstage4_26 : ∀ j, (stage4_26 j).IsWhole
  nbuf4_26 : grid4.bufCount reads4_26 false = 2
  hreads4_26 : ∀ i i' : grid4.Coords, (∀ a, reads4_26 a = true → i a = i' a) → cc4_transform_26 i = cc4_transform_26 i'
  hinb4_26 : ∀ (i : grid4.Coords) a, (cc4_transform_26 i a + 1) * S512x128.size a ≤ S4096x128.size a
  hwx4_26 : ∀ i : grid4.Coords, EltTy.bits .f32 = 32 ∨ (Rect.block (s := S4096x128) S512x128.size (cc4_transform_26 i) (hinb4_26 i)).WholeWords (EltTy.packing .f32)
  hstage4_27 : ∀ j, (stage4_27 j).IsWhole
  nbuf4_27 : grid4.bufCount reads4_27 false = 2
  hreads4_27 : ∀ i i' : grid4.Coords, (∀ a, reads4_27 a = true → i a = i' a) → cc4_transform_27 i = cc4_transform_27 i'
  hinb4_27 : ∀ (i : grid4.Coords) a, (cc4_transform_27 i a + 1) * S512x128.size a ≤ S4096x128.size a
  hwx4_27 : ∀ i : grid4.Coords, EltTy.bits .f32 = 32 ∨ (Rect.block (s := S4096x128) S512x128.size (cc4_transform_27 i) (hinb4_27 i)).WholeWords (EltTy.packing .f32)
  hstage4_28 : ∀ j, (stage4_28 j).IsWhole
  nbuf4_28 : grid4.bufCount reads4_28 false = 2
  hreads4_28 : ∀ i i' : grid4.Coords, (∀ a, reads4_28 a = true → i a = i' a) → cc4_transform_28 i = cc4_transform_28 i'
  hinb4_28 : ∀ (i : grid4.Coords) a, (cc4_transform_28 i a + 1) * S512x128.size a ≤ S4096x128.size a
  hwx4_28 : ∀ i : grid4.Coords, EltTy.bits .f32 = 32 ∨ (Rect.block (s := S4096x128) S512x128.size (cc4_transform_28 i) (hinb4_28 i)).WholeWords (EltTy.packing .f32)
  hstage4_29 : ∀ j, (stage4_29 j).IsWhole
  nbuf4_29 : grid4.bufCount reads4_29 false = 2
  hreads4_29 : ∀ i i' : grid4.Coords, (∀ a, reads4_29 a = true → i a = i' a) → cc4_transform_29 i = cc4_transform_29 i'
  hinb4_29 : ∀ (i : grid4.Coords) a, (cc4_transform_29 i a + 1) * S512x128.size a ≤ S4096x128.size a
  hwx4_29 : ∀ i : grid4.Coords, EltTy.bits .f32 = 32 ∨ (Rect.block (s := S4096x128) S512x128.size (cc4_transform_29 i) (hinb4_29 i)).WholeWords (EltTy.packing .f32)
  hstage4_30 : ∀ j, (stage4_30 j).IsWhole
  nbuf4_30 : grid4.bufCount reads4_30 false = 2
  hreads4_30 : ∀ i i' : grid4.Coords, (∀ a, reads4_30 a = true → i a = i' a) → cc4_transform_30 i = cc4_transform_30 i'
  hinb4_30 : ∀ (i : grid4.Coords) a, (cc4_transform_30 i a + 1) * S512x128.size a ≤ S4096x128.size a
  hwx4_30 : ∀ i : grid4.Coords, EltTy.bits .f32 = 32 ∨ (Rect.block (s := S4096x128) S512x128.size (cc4_transform_30 i) (hinb4_30 i)).WholeWords (EltTy.packing .f32)
  hstage4_31 : ∀ j, (stage4_31 j).IsWhole
  nbuf4_31 : grid4.bufCount reads4_31 false = 2
  hreads4_31 : ∀ i i' : grid4.Coords, (∀ a, reads4_31 a = true → i a = i' a) → cc4_transform_31 i = cc4_transform_31 i'
  hinb4_31 : ∀ (i : grid4.Coords) a, (cc4_transform_31 i a + 1) * S512x128.size a ≤ S4096x128.size a
  hwx4_31 : ∀ i : grid4.Coords, EltTy.bits .f32 = 32 ∨ (Rect.block (s := S4096x128) S512x128.size (cc4_transform_31 i) (hinb4_31 i)).WholeWords (EltTy.packing .f32)
  hstage4_32 : ∀ j, (stage4_32 j).IsWhole
  nbuf4_32 : grid4.bufCount reads4_32 true = 1
  hreads4_32 : ∀ i i' : grid4.Coords, (∀ a, reads4_32 a = true → i a = i' a) → cc4_transform_32 i = cc4_transform_32 i'
  hinb4_32 : ∀ (i : grid4.Coords) a, (cc4_transform_32 i a + 1) * S8x128x128.size a ≤ S8x128x128.size a
  hwx4_32 : ∀ i : grid4.Coords, EltTy.bits .f32 = 32 ∨ (Rect.block (s := S8x128x128) S8x128x128.size (cc4_transform_32 i) (hinb4_32 i)).WholeWords (EltTy.packing .f32)
  hstage4_33 : ∀ j, (stage4_33 j).IsWhole
  nbuf4_33 : grid4.bufCount reads4_33 true = 1
  hreads4_33 : ∀ i i' : grid4.Coords, (∀ a, reads4_33 a = true → i a = i' a) → cc4_transform_33 i = cc4_transform_33 i'
  hinb4_33 : ∀ (i : grid4.Coords) a, (cc4_transform_33 i a + 1) * S8x128.size a ≤ S8x128.size a
  hwx4_33 : ∀ i : grid4.Coords, EltTy.bits .f32 = 32 ∨ (Rect.block (s := S8x128) S8x128.size (cc4_transform_33 i) (hinb4_33 i)).WholeWords (EltTy.packing .f32)
  hstage4_34 : ∀ j, (stage4_34 j).IsWhole
  nbuf4_34 : grid4.bufCount reads4_34 false = 2
  hreads4_34 : ∀ i i' : grid4.Coords, (∀ a, reads4_34 a = true → i a = i' a) → cc4_transform_34 i = cc4_transform_34 i'
  hinb4_34 : ∀ (i : grid4.Coords) a, (cc4_transform_34 i a + 1) * S8x512x128.size a ≤ S8x4096x128.size a
  hwx4_34 : ∀ i : grid4.Coords, EltTy.bits .f32 = 32 ∨ (Rect.block (s := S8x4096x128) S8x512x128.size (cc4_transform_34 i) (hinb4_34 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S4096x128.size a
  hwx5_0 : ∀ i : grid5.Coords, EltTy.bits .f32 = 32 ∨ (Rect.block (s := S4096x128) S512x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S4096x128.size a
  hwx5_1 : ∀ i : grid5.Coords, EltTy.bits .f32 = 32 ∨ (Rect.block (s := S4096x128) S512x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x128.size a ≤ S4096x128.size a
  hwx5_2 : ∀ i : grid5.Coords, EltTy.bits .f32 = 32 ∨ (Rect.block (s := S4096x128) S512x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x128.size a ≤ S4096x128.size a
  hwx5_3 : ∀ i : grid5.Coords, EltTy.bits .f32 = 32 ∨ (Rect.block (s := S4096x128) S512x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x128.size a ≤ S4096x128.size a
  hwx5_4 : ∀ i : grid5.Coords, EltTy.bits .f32 = 32 ∨ (Rect.block (s := S4096x128) S512x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x128.size a ≤ S4096x128.size a
  hwx5_5 : ∀ i : grid5.Coords, EltTy.bits .f32 = 32 ∨ (Rect.block (s := S4096x128) S512x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S512x128.size a ≤ S4096x128.size a
  hwx5_6 : ∀ i : grid5.Coords, EltTy.bits .f32 = 32 ∨ (Rect.block (s := S4096x128) S512x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x128.size a ≤ S4096x128.size a
  hwx5_7 : ∀ i : grid5.Coords, EltTy.bits .f32 = 32 ∨ (Rect.block (s := S4096x128) S512x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S512x128.size a ≤ S4096x128.size a
  hwx5_8 : ∀ i : grid5.Coords, EltTy.bits .f32 = 32 ∨ (Rect.block (s := S4096x128) S512x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S512x128.size a ≤ S4096x128.size a
  hwx5_9 : ∀ i : grid5.Coords, EltTy.bits .f32 = 32 ∨ (Rect.block (s := S4096x128) S512x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S512x128.size a ≤ S4096x128.size a
  hwx5_10 : ∀ i : grid5.Coords, EltTy.bits .f32 = 32 ∨ (Rect.block (s := S4096x128) S512x128.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S512x128.size a ≤ S4096x128.size a
  hwx5_11 : ∀ i : grid5.Coords, EltTy.bits .f32 = 32 ∨ (Rect.block (s := S4096x128) S512x128.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S512x128.size a ≤ S4096x128.size a
  hwx5_12 : ∀ i : grid5.Coords, EltTy.bits .f32 = 32 ∨ (Rect.block (s := S4096x128) S512x128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S512x128.size a ≤ S4096x128.size a
  hwx5_13 : ∀ i : grid5.Coords, EltTy.bits .f32 = 32 ∨ (Rect.block (s := S4096x128) S512x128.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S512x128.size a ≤ S4096x128.size a
  hwx5_14 : ∀ i : grid5.Coords, EltTy.bits .f32 = 32 ∨ (Rect.block (s := S4096x128) S512x128.size (cc5_transform_14 i) (hinb5_14 i)).WholeWords (EltTy.packing .f32)
  hstage5_15 : ∀ j, (stage5_15 j).IsWhole
  nbuf5_15 : grid5.bufCount reads5_15 false = 2
  hreads5_15 : ∀ i i' : grid5.Coords, (∀ a, reads5_15 a = true → i a = i' a) → cc5_transform_15 i = cc5_transform_15 i'
  hinb5_15 : ∀ (i : grid5.Coords) a, (cc5_transform_15 i a + 1) * S512x128.size a ≤ S4096x128.size a
  hwx5_15 : ∀ i : grid5.Coords, EltTy.bits .f32 = 32 ∨ (Rect.block (s := S4096x128) S512x128.size (cc5_transform_15 i) (hinb5_15 i)).WholeWords (EltTy.packing .f32)
  hstage5_16 : ∀ j, (stage5_16 j).IsWhole
  nbuf5_16 : grid5.bufCount reads5_16 false = 2
  hreads5_16 : ∀ i i' : grid5.Coords, (∀ a, reads5_16 a = true → i a = i' a) → cc5_transform_16 i = cc5_transform_16 i'
  hinb5_16 : ∀ (i : grid5.Coords) a, (cc5_transform_16 i a + 1) * S512x128.size a ≤ S4096x128.size a
  hwx5_16 : ∀ i : grid5.Coords, EltTy.bits .f32 = 32 ∨ (Rect.block (s := S4096x128) S512x128.size (cc5_transform_16 i) (hinb5_16 i)).WholeWords (EltTy.packing .f32)
  hstage5_17 : ∀ j, (stage5_17 j).IsWhole
  nbuf5_17 : grid5.bufCount reads5_17 false = 2
  hreads5_17 : ∀ i i' : grid5.Coords, (∀ a, reads5_17 a = true → i a = i' a) → cc5_transform_17 i = cc5_transform_17 i'
  hinb5_17 : ∀ (i : grid5.Coords) a, (cc5_transform_17 i a + 1) * S512x128.size a ≤ S4096x128.size a
  hwx5_17 : ∀ i : grid5.Coords, EltTy.bits .f32 = 32 ∨ (Rect.block (s := S4096x128) S512x128.size (cc5_transform_17 i) (hinb5_17 i)).WholeWords (EltTy.packing .f32)
  hstage5_18 : ∀ j, (stage5_18 j).IsWhole
  nbuf5_18 : grid5.bufCount reads5_18 false = 2
  hreads5_18 : ∀ i i' : grid5.Coords, (∀ a, reads5_18 a = true → i a = i' a) → cc5_transform_18 i = cc5_transform_18 i'
  hinb5_18 : ∀ (i : grid5.Coords) a, (cc5_transform_18 i a + 1) * S512x128.size a ≤ S4096x128.size a
  hwx5_18 : ∀ i : grid5.Coords, EltTy.bits .f32 = 32 ∨ (Rect.block (s := S4096x128) S512x128.size (cc5_transform_18 i) (hinb5_18 i)).WholeWords (EltTy.packing .f32)
  hstage5_19 : ∀ j, (stage5_19 j).IsWhole
  nbuf5_19 : grid5.bufCount reads5_19 false = 2
  hreads5_19 : ∀ i i' : grid5.Coords, (∀ a, reads5_19 a = true → i a = i' a) → cc5_transform_19 i = cc5_transform_19 i'
  hinb5_19 : ∀ (i : grid5.Coords) a, (cc5_transform_19 i a + 1) * S512x128.size a ≤ S4096x128.size a
  hwx5_19 : ∀ i : grid5.Coords, EltTy.bits .f32 = 32 ∨ (Rect.block (s := S4096x128) S512x128.size (cc5_transform_19 i) (hinb5_19 i)).WholeWords (EltTy.packing .f32)
  hstage5_20 : ∀ j, (stage5_20 j).IsWhole
  nbuf5_20 : grid5.bufCount reads5_20 false = 2
  hreads5_20 : ∀ i i' : grid5.Coords, (∀ a, reads5_20 a = true → i a = i' a) → cc5_transform_20 i = cc5_transform_20 i'
  hinb5_20 : ∀ (i : grid5.Coords) a, (cc5_transform_20 i a + 1) * S512x128.size a ≤ S4096x128.size a
  hwx5_20 : ∀ i : grid5.Coords, EltTy.bits .f32 = 32 ∨ (Rect.block (s := S4096x128) S512x128.size (cc5_transform_20 i) (hinb5_20 i)).WholeWords (EltTy.packing .f32)
  hstage5_21 : ∀ j, (stage5_21 j).IsWhole
  nbuf5_21 : grid5.bufCount reads5_21 false = 2
  hreads5_21 : ∀ i i' : grid5.Coords, (∀ a, reads5_21 a = true → i a = i' a) → cc5_transform_21 i = cc5_transform_21 i'
  hinb5_21 : ∀ (i : grid5.Coords) a, (cc5_transform_21 i a + 1) * S512x128.size a ≤ S4096x128.size a
  hwx5_21 : ∀ i : grid5.Coords, EltTy.bits .f32 = 32 ∨ (Rect.block (s := S4096x128) S512x128.size (cc5_transform_21 i) (hinb5_21 i)).WholeWords (EltTy.packing .f32)
  hstage5_22 : ∀ j, (stage5_22 j).IsWhole
  nbuf5_22 : grid5.bufCount reads5_22 false = 2
  hreads5_22 : ∀ i i' : grid5.Coords, (∀ a, reads5_22 a = true → i a = i' a) → cc5_transform_22 i = cc5_transform_22 i'
  hinb5_22 : ∀ (i : grid5.Coords) a, (cc5_transform_22 i a + 1) * S512x128.size a ≤ S4096x128.size a
  hwx5_22 : ∀ i : grid5.Coords, EltTy.bits .f32 = 32 ∨ (Rect.block (s := S4096x128) S512x128.size (cc5_transform_22 i) (hinb5_22 i)).WholeWords (EltTy.packing .f32)
  hstage5_23 : ∀ j, (stage5_23 j).IsWhole
  nbuf5_23 : grid5.bufCount reads5_23 false = 2
  hreads5_23 : ∀ i i' : grid5.Coords, (∀ a, reads5_23 a = true → i a = i' a) → cc5_transform_23 i = cc5_transform_23 i'
  hinb5_23 : ∀ (i : grid5.Coords) a, (cc5_transform_23 i a + 1) * S512x128.size a ≤ S4096x128.size a
  hwx5_23 : ∀ i : grid5.Coords, EltTy.bits .f32 = 32 ∨ (Rect.block (s := S4096x128) S512x128.size (cc5_transform_23 i) (hinb5_23 i)).WholeWords (EltTy.packing .f32)
  hstage5_24 : ∀ j, (stage5_24 j).IsWhole
  nbuf5_24 : grid5.bufCount reads5_24 false = 2
  hreads5_24 : ∀ i i' : grid5.Coords, (∀ a, reads5_24 a = true → i a = i' a) → cc5_transform_24 i = cc5_transform_24 i'
  hinb5_24 : ∀ (i : grid5.Coords) a, (cc5_transform_24 i a + 1) * S512x128.size a ≤ S4096x128.size a
  hwx5_24 : ∀ i : grid5.Coords, EltTy.bits .f32 = 32 ∨ (Rect.block (s := S4096x128) S512x128.size (cc5_transform_24 i) (hinb5_24 i)).WholeWords (EltTy.packing .f32)
  hstage5_25 : ∀ j, (stage5_25 j).IsWhole
  nbuf5_25 : grid5.bufCount reads5_25 false = 2
  hreads5_25 : ∀ i i' : grid5.Coords, (∀ a, reads5_25 a = true → i a = i' a) → cc5_transform_25 i = cc5_transform_25 i'
  hinb5_25 : ∀ (i : grid5.Coords) a, (cc5_transform_25 i a + 1) * S512x128.size a ≤ S4096x128.size a
  hwx5_25 : ∀ i : grid5.Coords, EltTy.bits .f32 = 32 ∨ (Rect.block (s := S4096x128) S512x128.size (cc5_transform_25 i) (hinb5_25 i)).WholeWords (EltTy.packing .f32)
  hstage5_26 : ∀ j, (stage5_26 j).IsWhole
  nbuf5_26 : grid5.bufCount reads5_26 false = 2
  hreads5_26 : ∀ i i' : grid5.Coords, (∀ a, reads5_26 a = true → i a = i' a) → cc5_transform_26 i = cc5_transform_26 i'
  hinb5_26 : ∀ (i : grid5.Coords) a, (cc5_transform_26 i a + 1) * S512x128.size a ≤ S4096x128.size a
  hwx5_26 : ∀ i : grid5.Coords, EltTy.bits .f32 = 32 ∨ (Rect.block (s := S4096x128) S512x128.size (cc5_transform_26 i) (hinb5_26 i)).WholeWords (EltTy.packing .f32)
  hstage5_27 : ∀ j, (stage5_27 j).IsWhole
  nbuf5_27 : grid5.bufCount reads5_27 false = 2
  hreads5_27 : ∀ i i' : grid5.Coords, (∀ a, reads5_27 a = true → i a = i' a) → cc5_transform_27 i = cc5_transform_27 i'
  hinb5_27 : ∀ (i : grid5.Coords) a, (cc5_transform_27 i a + 1) * S512x128.size a ≤ S4096x128.size a
  hwx5_27 : ∀ i : grid5.Coords, EltTy.bits .f32 = 32 ∨ (Rect.block (s := S4096x128) S512x128.size (cc5_transform_27 i) (hinb5_27 i)).WholeWords (EltTy.packing .f32)
  hstage5_28 : ∀ j, (stage5_28 j).IsWhole
  nbuf5_28 : grid5.bufCount reads5_28 false = 2
  hreads5_28 : ∀ i i' : grid5.Coords, (∀ a, reads5_28 a = true → i a = i' a) → cc5_transform_28 i = cc5_transform_28 i'
  hinb5_28 : ∀ (i : grid5.Coords) a, (cc5_transform_28 i a + 1) * S512x128.size a ≤ S4096x128.size a
  hwx5_28 : ∀ i : grid5.Coords, EltTy.bits .f32 = 32 ∨ (Rect.block (s := S4096x128) S512x128.size (cc5_transform_28 i) (hinb5_28 i)).WholeWords (EltTy.packing .f32)
  hstage5_29 : ∀ j, (stage5_29 j).IsWhole
  nbuf5_29 : grid5.bufCount reads5_29 false = 2
  hreads5_29 : ∀ i i' : grid5.Coords, (∀ a, reads5_29 a = true → i a = i' a) → cc5_transform_29 i = cc5_transform_29 i'
  hinb5_29 : ∀ (i : grid5.Coords) a, (cc5_transform_29 i a + 1) * S512x128.size a ≤ S4096x128.size a
  hwx5_29 : ∀ i : grid5.Coords, EltTy.bits .f32 = 32 ∨ (Rect.block (s := S4096x128) S512x128.size (cc5_transform_29 i) (hinb5_29 i)).WholeWords (EltTy.packing .f32)
  hstage5_30 : ∀ j, (stage5_30 j).IsWhole
  nbuf5_30 : grid5.bufCount reads5_30 false = 2
  hreads5_30 : ∀ i i' : grid5.Coords, (∀ a, reads5_30 a = true → i a = i' a) → cc5_transform_30 i = cc5_transform_30 i'
  hinb5_30 : ∀ (i : grid5.Coords) a, (cc5_transform_30 i a + 1) * S512x128.size a ≤ S4096x128.size a
  hwx5_30 : ∀ i : grid5.Coords, EltTy.bits .f32 = 32 ∨ (Rect.block (s := S4096x128) S512x128.size (cc5_transform_30 i) (hinb5_30 i)).WholeWords (EltTy.packing .f32)
  hstage5_31 : ∀ j, (stage5_31 j).IsWhole
  nbuf5_31 : grid5.bufCount reads5_31 false = 2
  hreads5_31 : ∀ i i' : grid5.Coords, (∀ a, reads5_31 a = true → i a = i' a) → cc5_transform_31 i = cc5_transform_31 i'
  hinb5_31 : ∀ (i : grid5.Coords) a, (cc5_transform_31 i a + 1) * S512x128.size a ≤ S4096x128.size a
  hwx5_31 : ∀ i : grid5.Coords, EltTy.bits .f32 = 32 ∨ (Rect.block (s := S4096x128) S512x128.size (cc5_transform_31 i) (hinb5_31 i)).WholeWords (EltTy.packing .f32)
  hstage5_32 : ∀ j, (stage5_32 j).IsWhole
  nbuf5_32 : grid5.bufCount reads5_32 true = 1
  hreads5_32 : ∀ i i' : grid5.Coords, (∀ a, reads5_32 a = true → i a = i' a) → cc5_transform_32 i = cc5_transform_32 i'
  hinb5_32 : ∀ (i : grid5.Coords) a, (cc5_transform_32 i a + 1) * S8x128x128.size a ≤ S8x128x128.size a
  hwx5_32 : ∀ i : grid5.Coords, EltTy.bits .f32 = 32 ∨ (Rect.block (s := S8x128x128) S8x128x128.size (cc5_transform_32 i) (hinb5_32 i)).WholeWords (EltTy.packing .f32)
  hstage5_33 : ∀ j, (stage5_33 j).IsWhole
  nbuf5_33 : grid5.bufCount reads5_33 true = 1
  hreads5_33 : ∀ i i' : grid5.Coords, (∀ a, reads5_33 a = true → i a = i' a) → cc5_transform_33 i = cc5_transform_33 i'
  hinb5_33 : ∀ (i : grid5.Coords) a, (cc5_transform_33 i a + 1) * S8x128.size a ≤ S8x128.size a
  hwx5_33 : ∀ i : grid5.Coords, EltTy.bits .f32 = 32 ∨ (Rect.block (s := S8x128) S8x128.size (cc5_transform_33 i) (hinb5_33 i)).WholeWords (EltTy.packing .f32)
  hstage5_34 : ∀ j, (stage5_34 j).IsWhole
  nbuf5_34 : grid5.bufCount reads5_34 false = 2
  hreads5_34 : ∀ i i' : grid5.Coords, (∀ a, reads5_34 a = true → i a = i' a) → cc5_transform_34 i = cc5_transform_34 i'
  hinb5_34 : ∀ (i : grid5.Coords) a, (cc5_transform_34 i a + 1) * S8x512x128.size a ≤ S8x4096x128.size a
  hwx5_34 : ∀ i : grid5.Coords, EltTy.bits .f32 = 32 ∨ (Rect.block (s := S8x4096x128) S8x512x128.size (cc5_transform_34 i) (hinb5_34 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S4096x128.size a
  hwx6_0 : ∀ i : grid6.Coords, EltTy.bits .f32 = 32 ∨ (Rect.block (s := S4096x128) S512x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S4096x128.size a
  hwx6_1 : ∀ i : grid6.Coords, EltTy.bits .f32 = 32 ∨ (Rect.block (s := S4096x128) S512x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S4096x128.size a
  hwx6_2 : ∀ i : grid6.Coords, EltTy.bits .f32 = 32 ∨ (Rect.block (s := S4096x128) S512x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S4096x128.size a
  hwx6_3 : ∀ i : grid6.Coords, EltTy.bits .f32 = 32 ∨ (Rect.block (s := S4096x128) S512x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x128.size a ≤ S4096x128.size a
  hwx6_4 : ∀ i : grid6.Coords, EltTy.bits .f32 = 32 ∨ (Rect.block (s := S4096x128) S512x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x128.size a ≤ S4096x128.size a
  hwx6_5 : ∀ i : grid6.Coords, EltTy.bits .f32 = 32 ∨ (Rect.block (s := S4096x128) S512x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S512x128.size a ≤ S4096x128.size a
  hwx6_6 : ∀ i : grid6.Coords, EltTy.bits .f32 = 32 ∨ (Rect.block (s := S4096x128) S512x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S512x128.size a ≤ S4096x128.size a
  hwx6_7 : ∀ i : grid6.Coords, EltTy.bits .f32 = 32 ∨ (Rect.block (s := S4096x128) S512x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S512x128.size a ≤ S4096x128.size a
  hwx6_8 : ∀ i : grid6.Coords, EltTy.bits .f32 = 32 ∨ (Rect.block (s := S4096x128) S512x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S512x128.size a ≤ S4096x128.size a
  hwx6_9 : ∀ i : grid6.Coords, EltTy.bits .f32 = 32 ∨ (Rect.block (s := S4096x128) S512x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S512x128.size a ≤ S4096x128.size a
  hwx6_10 : ∀ i : grid6.Coords, EltTy.bits .f32 = 32 ∨ (Rect.block (s := S4096x128) S512x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S512x128.size a ≤ S4096x128.size a
  hwx6_11 : ∀ i : grid6.Coords, EltTy.bits .f32 = 32 ∨ (Rect.block (s := S4096x128) S512x128.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S512x128.size a ≤ S4096x128.size a
  hwx6_12 : ∀ i : grid6.Coords, EltTy.bits .f32 = 32 ∨ (Rect.block (s := S4096x128) S512x128.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S512x128.size a ≤ S4096x128.size a
  hwx6_13 : ∀ i : grid6.Coords, EltTy.bits .f32 = 32 ∨ (Rect.block (s := S4096x128) S512x128.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S512x128.size a ≤ S4096x128.size a
  hwx6_14 : ∀ i : grid6.Coords, EltTy.bits .f32 = 32 ∨ (Rect.block (s := S4096x128) S512x128.size (cc6_transform_14 i) (hinb6_14 i)).WholeWords (EltTy.packing .f32)
  hstage6_15 : ∀ j, (stage6_15 j).IsWhole
  nbuf6_15 : grid6.bufCount reads6_15 false = 2
  hreads6_15 : ∀ i i' : grid6.Coords, (∀ a, reads6_15 a = true → i a = i' a) → cc6_transform_15 i = cc6_transform_15 i'
  hinb6_15 : ∀ (i : grid6.Coords) a, (cc6_transform_15 i a + 1) * S512x128.size a ≤ S4096x128.size a
  hwx6_15 : ∀ i : grid6.Coords, EltTy.bits .f32 = 32 ∨ (Rect.block (s := S4096x128) S512x128.size (cc6_transform_15 i) (hinb6_15 i)).WholeWords (EltTy.packing .f32)
  hstage6_16 : ∀ j, (stage6_16 j).IsWhole
  nbuf6_16 : grid6.bufCount reads6_16 false = 2
  hreads6_16 : ∀ i i' : grid6.Coords, (∀ a, reads6_16 a = true → i a = i' a) → cc6_transform_16 i = cc6_transform_16 i'
  hinb6_16 : ∀ (i : grid6.Coords) a, (cc6_transform_16 i a + 1) * S512x128.size a ≤ S4096x128.size a
  hwx6_16 : ∀ i : grid6.Coords, EltTy.bits .f32 = 32 ∨ (Rect.block (s := S4096x128) S512x128.size (cc6_transform_16 i) (hinb6_16 i)).WholeWords (EltTy.packing .f32)
  hstage6_17 : ∀ j, (stage6_17 j).IsWhole
  nbuf6_17 : grid6.bufCount reads6_17 false = 2
  hreads6_17 : ∀ i i' : grid6.Coords, (∀ a, reads6_17 a = true → i a = i' a) → cc6_transform_17 i = cc6_transform_17 i'
  hinb6_17 : ∀ (i : grid6.Coords) a, (cc6_transform_17 i a + 1) * S512x128.size a ≤ S4096x128.size a
  hwx6_17 : ∀ i : grid6.Coords, EltTy.bits .f32 = 32 ∨ (Rect.block (s := S4096x128) S512x128.size (cc6_transform_17 i) (hinb6_17 i)).WholeWords (EltTy.packing .f32)
  hstage6_18 : ∀ j, (stage6_18 j).IsWhole
  nbuf6_18 : grid6.bufCount reads6_18 false = 2
  hreads6_18 : ∀ i i' : grid6.Coords, (∀ a, reads6_18 a = true → i a = i' a) → cc6_transform_18 i = cc6_transform_18 i'
  hinb6_18 : ∀ (i : grid6.Coords) a, (cc6_transform_18 i a + 1) * S512x128.size a ≤ S4096x128.size a
  hwx6_18 : ∀ i : grid6.Coords, EltTy.bits .f32 = 32 ∨ (Rect.block (s := S4096x128) S512x128.size (cc6_transform_18 i) (hinb6_18 i)).WholeWords (EltTy.packing .f32)
  hstage6_19 : ∀ j, (stage6_19 j).IsWhole
  nbuf6_19 : grid6.bufCount reads6_19 false = 2
  hreads6_19 : ∀ i i' : grid6.Coords, (∀ a, reads6_19 a = true → i a = i' a) → cc6_transform_19 i = cc6_transform_19 i'
  hinb6_19 : ∀ (i : grid6.Coords) a, (cc6_transform_19 i a + 1) * S512x128.size a ≤ S4096x128.size a
  hwx6_19 : ∀ i : grid6.Coords, EltTy.bits .f32 = 32 ∨ (Rect.block (s := S4096x128) S512x128.size (cc6_transform_19 i) (hinb6_19 i)).WholeWords (EltTy.packing .f32)
  hstage6_20 : ∀ j, (stage6_20 j).IsWhole
  nbuf6_20 : grid6.bufCount reads6_20 false = 2
  hreads6_20 : ∀ i i' : grid6.Coords, (∀ a, reads6_20 a = true → i a = i' a) → cc6_transform_20 i = cc6_transform_20 i'
  hinb6_20 : ∀ (i : grid6.Coords) a, (cc6_transform_20 i a + 1) * S512x128.size a ≤ S4096x128.size a
  hwx6_20 : ∀ i : grid6.Coords, EltTy.bits .f32 = 32 ∨ (Rect.block (s := S4096x128) S512x128.size (cc6_transform_20 i) (hinb6_20 i)).WholeWords (EltTy.packing .f32)
  hstage6_21 : ∀ j, (stage6_21 j).IsWhole
  nbuf6_21 : grid6.bufCount reads6_21 false = 2
  hreads6_21 : ∀ i i' : grid6.Coords, (∀ a, reads6_21 a = true → i a = i' a) → cc6_transform_21 i = cc6_transform_21 i'
  hinb6_21 : ∀ (i : grid6.Coords) a, (cc6_transform_21 i a + 1) * S512x128.size a ≤ S4096x128.size a
  hwx6_21 : ∀ i : grid6.Coords, EltTy.bits .f32 = 32 ∨ (Rect.block (s := S4096x128) S512x128.size (cc6_transform_21 i) (hinb6_21 i)).WholeWords (EltTy.packing .f32)
  hstage6_22 : ∀ j, (stage6_22 j).IsWhole
  nbuf6_22 : grid6.bufCount reads6_22 false = 2
  hreads6_22 : ∀ i i' : grid6.Coords, (∀ a, reads6_22 a = true → i a = i' a) → cc6_transform_22 i = cc6_transform_22 i'
  hinb6_22 : ∀ (i : grid6.Coords) a, (cc6_transform_22 i a + 1) * S512x128.size a ≤ S4096x128.size a
  hwx6_22 : ∀ i : grid6.Coords, EltTy.bits .f32 = 32 ∨ (Rect.block (s := S4096x128) S512x128.size (cc6_transform_22 i) (hinb6_22 i)).WholeWords (EltTy.packing .f32)
  hstage6_23 : ∀ j, (stage6_23 j).IsWhole
  nbuf6_23 : grid6.bufCount reads6_23 false = 2
  hreads6_23 : ∀ i i' : grid6.Coords, (∀ a, reads6_23 a = true → i a = i' a) → cc6_transform_23 i = cc6_transform_23 i'
  hinb6_23 : ∀ (i : grid6.Coords) a, (cc6_transform_23 i a + 1) * S512x128.size a ≤ S4096x128.size a
  hwx6_23 : ∀ i : grid6.Coords, EltTy.bits .f32 = 32 ∨ (Rect.block (s := S4096x128) S512x128.size (cc6_transform_23 i) (hinb6_23 i)).WholeWords (EltTy.packing .f32)
  hstage6_24 : ∀ j, (stage6_24 j).IsWhole
  nbuf6_24 : grid6.bufCount reads6_24 false = 2
  hreads6_24 : ∀ i i' : grid6.Coords, (∀ a, reads6_24 a = true → i a = i' a) → cc6_transform_24 i = cc6_transform_24 i'
  hinb6_24 : ∀ (i : grid6.Coords) a, (cc6_transform_24 i a + 1) * S512x128.size a ≤ S4096x128.size a
  hwx6_24 : ∀ i : grid6.Coords, EltTy.bits .f32 = 32 ∨ (Rect.block (s := S4096x128) S512x128.size (cc6_transform_24 i) (hinb6_24 i)).WholeWords (EltTy.packing .f32)
  hstage6_25 : ∀ j, (stage6_25 j).IsWhole
  nbuf6_25 : grid6.bufCount reads6_25 false = 2
  hreads6_25 : ∀ i i' : grid6.Coords, (∀ a, reads6_25 a = true → i a = i' a) → cc6_transform_25 i = cc6_transform_25 i'
  hinb6_25 : ∀ (i : grid6.Coords) a, (cc6_transform_25 i a + 1) * S512x128.size a ≤ S4096x128.size a
  hwx6_25 : ∀ i : grid6.Coords, EltTy.bits .f32 = 32 ∨ (Rect.block (s := S4096x128) S512x128.size (cc6_transform_25 i) (hinb6_25 i)).WholeWords (EltTy.packing .f32)
  hstage6_26 : ∀ j, (stage6_26 j).IsWhole
  nbuf6_26 : grid6.bufCount reads6_26 false = 2
  hreads6_26 : ∀ i i' : grid6.Coords, (∀ a, reads6_26 a = true → i a = i' a) → cc6_transform_26 i = cc6_transform_26 i'
  hinb6_26 : ∀ (i : grid6.Coords) a, (cc6_transform_26 i a + 1) * S512x128.size a ≤ S4096x128.size a
  hwx6_26 : ∀ i : grid6.Coords, EltTy.bits .f32 = 32 ∨ (Rect.block (s := S4096x128) S512x128.size (cc6_transform_26 i) (hinb6_26 i)).WholeWords (EltTy.packing .f32)
  hstage6_27 : ∀ j, (stage6_27 j).IsWhole
  nbuf6_27 : grid6.bufCount reads6_27 false = 2
  hreads6_27 : ∀ i i' : grid6.Coords, (∀ a, reads6_27 a = true → i a = i' a) → cc6_transform_27 i = cc6_transform_27 i'
  hinb6_27 : ∀ (i : grid6.Coords) a, (cc6_transform_27 i a + 1) * S512x128.size a ≤ S4096x128.size a
  hwx6_27 : ∀ i : grid6.Coords, EltTy.bits .f32 = 32 ∨ (Rect.block (s := S4096x128) S512x128.size (cc6_transform_27 i) (hinb6_27 i)).WholeWords (EltTy.packing .f32)
  hstage6_28 : ∀ j, (stage6_28 j).IsWhole
  nbuf6_28 : grid6.bufCount reads6_28 false = 2
  hreads6_28 : ∀ i i' : grid6.Coords, (∀ a, reads6_28 a = true → i a = i' a) → cc6_transform_28 i = cc6_transform_28 i'
  hinb6_28 : ∀ (i : grid6.Coords) a, (cc6_transform_28 i a + 1) * S512x128.size a ≤ S4096x128.size a
  hwx6_28 : ∀ i : grid6.Coords, EltTy.bits .f32 = 32 ∨ (Rect.block (s := S4096x128) S512x128.size (cc6_transform_28 i) (hinb6_28 i)).WholeWords (EltTy.packing .f32)
  hstage6_29 : ∀ j, (stage6_29 j).IsWhole
  nbuf6_29 : grid6.bufCount reads6_29 false = 2
  hreads6_29 : ∀ i i' : grid6.Coords, (∀ a, reads6_29 a = true → i a = i' a) → cc6_transform_29 i = cc6_transform_29 i'
  hinb6_29 : ∀ (i : grid6.Coords) a, (cc6_transform_29 i a + 1) * S512x128.size a ≤ S4096x128.size a
  hwx6_29 : ∀ i : grid6.Coords, EltTy.bits .f32 = 32 ∨ (Rect.block (s := S4096x128) S512x128.size (cc6_transform_29 i) (hinb6_29 i)).WholeWords (EltTy.packing .f32)
  hstage6_30 : ∀ j, (stage6_30 j).IsWhole
  nbuf6_30 : grid6.bufCount reads6_30 false = 2
  hreads6_30 : ∀ i i' : grid6.Coords, (∀ a, reads6_30 a = true → i a = i' a) → cc6_transform_30 i = cc6_transform_30 i'
  hinb6_30 : ∀ (i : grid6.Coords) a, (cc6_transform_30 i a + 1) * S512x128.size a ≤ S4096x128.size a
  hwx6_30 : ∀ i : grid6.Coords, EltTy.bits .f32 = 32 ∨ (Rect.block (s := S4096x128) S512x128.size (cc6_transform_30 i) (hinb6_30 i)).WholeWords (EltTy.packing .f32)
  hstage6_31 : ∀ j, (stage6_31 j).IsWhole
  nbuf6_31 : grid6.bufCount reads6_31 false = 2
  hreads6_31 : ∀ i i' : grid6.Coords, (∀ a, reads6_31 a = true → i a = i' a) → cc6_transform_31 i = cc6_transform_31 i'
  hinb6_31 : ∀ (i : grid6.Coords) a, (cc6_transform_31 i a + 1) * S512x128.size a ≤ S4096x128.size a
  hwx6_31 : ∀ i : grid6.Coords, EltTy.bits .f32 = 32 ∨ (Rect.block (s := S4096x128) S512x128.size (cc6_transform_31 i) (hinb6_31 i)).WholeWords (EltTy.packing .f32)
  hstage6_32 : ∀ j, (stage6_32 j).IsWhole
  nbuf6_32 : grid6.bufCount reads6_32 true = 1
  hreads6_32 : ∀ i i' : grid6.Coords, (∀ a, reads6_32 a = true → i a = i' a) → cc6_transform_32 i = cc6_transform_32 i'
  hinb6_32 : ∀ (i : grid6.Coords) a, (cc6_transform_32 i a + 1) * S8x128x128.size a ≤ S8x128x128.size a
  hwx6_32 : ∀ i : grid6.Coords, EltTy.bits .f32 = 32 ∨ (Rect.block (s := S8x128x128) S8x128x128.size (cc6_transform_32 i) (hinb6_32 i)).WholeWords (EltTy.packing .f32)
  hstage6_33 : ∀ j, (stage6_33 j).IsWhole
  nbuf6_33 : grid6.bufCount reads6_33 true = 1
  hreads6_33 : ∀ i i' : grid6.Coords, (∀ a, reads6_33 a = true → i a = i' a) → cc6_transform_33 i = cc6_transform_33 i'
  hinb6_33 : ∀ (i : grid6.Coords) a, (cc6_transform_33 i a + 1) * S8x128.size a ≤ S8x128.size a
  hwx6_33 : ∀ i : grid6.Coords, EltTy.bits .f32 = 32 ∨ (Rect.block (s := S8x128) S8x128.size (cc6_transform_33 i) (hinb6_33 i)).WholeWords (EltTy.packing .f32)
  hstage6_34 : ∀ j, (stage6_34 j).IsWhole
  nbuf6_34 : grid6.bufCount reads6_34 false = 2
  hreads6_34 : ∀ i i' : grid6.Coords, (∀ a, reads6_34 a = true → i a = i' a) → cc6_transform_34 i = cc6_transform_34 i'
  hinb6_34 : ∀ (i : grid6.Coords) a, (cc6_transform_34 i a + 1) * S8x512x128.size a ≤ S8x4096x128.size a
  hwx6_34 : ∀ i : grid6.Coords, EltTy.bits .f32 = 32 ∨ (Rect.block (s := S8x4096x128) S8x512x128.size (cc6_transform_34 i) (hinb6_34 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S4096x128.size a
  hwx7_0 : ∀ i : grid7.Coords, EltTy.bits .f32 = 32 ∨ (Rect.block (s := S4096x128) S512x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x128.size a ≤ S4096x128.size a
  hwx7_1 : ∀ i : grid7.Coords, EltTy.bits .f32 = 32 ∨ (Rect.block (s := S4096x128) S512x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S4096x128.size a
  hwx7_2 : ∀ i : grid7.Coords, EltTy.bits .f32 = 32 ∨ (Rect.block (s := S4096x128) S512x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S4096x128.size a
  hwx7_3 : ∀ i : grid7.Coords, EltTy.bits .f32 = 32 ∨ (Rect.block (s := S4096x128) S512x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x128.size a ≤ S4096x128.size a
  hwx7_4 : ∀ i : grid7.Coords, EltTy.bits .f32 = 32 ∨ (Rect.block (s := S4096x128) S512x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x128.size a ≤ S4096x128.size a
  hwx7_5 : ∀ i : grid7.Coords, EltTy.bits .f32 = 32 ∨ (Rect.block (s := S4096x128) S512x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S512x128.size a ≤ S4096x128.size a
  hwx7_6 : ∀ i : grid7.Coords, EltTy.bits .f32 = 32 ∨ (Rect.block (s := S4096x128) S512x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S512x128.size a ≤ S4096x128.size a
  hwx7_7 : ∀ i : grid7.Coords, EltTy.bits .f32 = 32 ∨ (Rect.block (s := S4096x128) S512x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S512x128.size a ≤ S4096x128.size a
  hwx7_8 : ∀ i : grid7.Coords, EltTy.bits .f32 = 32 ∨ (Rect.block (s := S4096x128) S512x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S512x128.size a ≤ S4096x128.size a
  hwx7_9 : ∀ i : grid7.Coords, EltTy.bits .f32 = 32 ∨ (Rect.block (s := S4096x128) S512x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S512x128.size a ≤ S4096x128.size a
  hwx7_10 : ∀ i : grid7.Coords, EltTy.bits .f32 = 32 ∨ (Rect.block (s := S4096x128) S512x128.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S512x128.size a ≤ S4096x128.size a
  hwx7_11 : ∀ i : grid7.Coords, EltTy.bits .f32 = 32 ∨ (Rect.block (s := S4096x128) S512x128.size (cc7_transform_11 i) (hinb7_11 i)).WholeWords (EltTy.packing .f32)
  hstage7_12 : ∀ j, (stage7_12 j).IsWhole
  nbuf7_12 : grid7.bufCount reads7_12 false = 2
  hreads7_12 : ∀ i i' : grid7.Coords, (∀ a, reads7_12 a = true → i a = i' a) → cc7_transform_12 i = cc7_transform_12 i'
  hinb7_12 : ∀ (i : grid7.Coords) a, (cc7_transform_12 i a + 1) * S512x128.size a ≤ S4096x128.size a
  hwx7_12 : ∀ i : grid7.Coords, EltTy.bits .f32 = 32 ∨ (Rect.block (s := S4096x128) S512x128.size (cc7_transform_12 i) (hinb7_12 i)).WholeWords (EltTy.packing .f32)
  hstage7_13 : ∀ j, (stage7_13 j).IsWhole
  nbuf7_13 : grid7.bufCount reads7_13 false = 2
  hreads7_13 : ∀ i i' : grid7.Coords, (∀ a, reads7_13 a = true → i a = i' a) → cc7_transform_13 i = cc7_transform_13 i'
  hinb7_13 : ∀ (i : grid7.Coords) a, (cc7_transform_13 i a + 1) * S512x128.size a ≤ S4096x128.size a
  hwx7_13 : ∀ i : grid7.Coords, EltTy.bits .f32 = 32 ∨ (Rect.block (s := S4096x128) S512x128.size (cc7_transform_13 i) (hinb7_13 i)).WholeWords (EltTy.packing .f32)
  hstage7_14 : ∀ j, (stage7_14 j).IsWhole
  nbuf7_14 : grid7.bufCount reads7_14 false = 2
  hreads7_14 : ∀ i i' : grid7.Coords, (∀ a, reads7_14 a = true → i a = i' a) → cc7_transform_14 i = cc7_transform_14 i'
  hinb7_14 : ∀ (i : grid7.Coords) a, (cc7_transform_14 i a + 1) * S512x128.size a ≤ S4096x128.size a
  hwx7_14 : ∀ i : grid7.Coords, EltTy.bits .f32 = 32 ∨ (Rect.block (s := S4096x128) S512x128.size (cc7_transform_14 i) (hinb7_14 i)).WholeWords (EltTy.packing .f32)
  hstage7_15 : ∀ j, (stage7_15 j).IsWhole
  nbuf7_15 : grid7.bufCount reads7_15 false = 2
  hreads7_15 : ∀ i i' : grid7.Coords, (∀ a, reads7_15 a = true → i a = i' a) → cc7_transform_15 i = cc7_transform_15 i'
  hinb7_15 : ∀ (i : grid7.Coords) a, (cc7_transform_15 i a + 1) * S512x128.size a ≤ S4096x128.size a
  hwx7_15 : ∀ i : grid7.Coords, EltTy.bits .f32 = 32 ∨ (Rect.block (s := S4096x128) S512x128.size (cc7_transform_15 i) (hinb7_15 i)).WholeWords (EltTy.packing .f32)
  hstage7_16 : ∀ j, (stage7_16 j).IsWhole
  nbuf7_16 : grid7.bufCount reads7_16 false = 2
  hreads7_16 : ∀ i i' : grid7.Coords, (∀ a, reads7_16 a = true → i a = i' a) → cc7_transform_16 i = cc7_transform_16 i'
  hinb7_16 : ∀ (i : grid7.Coords) a, (cc7_transform_16 i a + 1) * S512x128.size a ≤ S4096x128.size a
  hwx7_16 : ∀ i : grid7.Coords, EltTy.bits .f32 = 32 ∨ (Rect.block (s := S4096x128) S512x128.size (cc7_transform_16 i) (hinb7_16 i)).WholeWords (EltTy.packing .f32)
  hstage7_17 : ∀ j, (stage7_17 j).IsWhole
  nbuf7_17 : grid7.bufCount reads7_17 false = 2
  hreads7_17 : ∀ i i' : grid7.Coords, (∀ a, reads7_17 a = true → i a = i' a) → cc7_transform_17 i = cc7_transform_17 i'
  hinb7_17 : ∀ (i : grid7.Coords) a, (cc7_transform_17 i a + 1) * S512x128.size a ≤ S4096x128.size a
  hwx7_17 : ∀ i : grid7.Coords, EltTy.bits .f32 = 32 ∨ (Rect.block (s := S4096x128) S512x128.size (cc7_transform_17 i) (hinb7_17 i)).WholeWords (EltTy.packing .f32)
  hstage7_18 : ∀ j, (stage7_18 j).IsWhole
  nbuf7_18 : grid7.bufCount reads7_18 false = 2
  hreads7_18 : ∀ i i' : grid7.Coords, (∀ a, reads7_18 a = true → i a = i' a) → cc7_transform_18 i = cc7_transform_18 i'
  hinb7_18 : ∀ (i : grid7.Coords) a, (cc7_transform_18 i a + 1) * S512x128.size a ≤ S4096x128.size a
  hwx7_18 : ∀ i : grid7.Coords, EltTy.bits .f32 = 32 ∨ (Rect.block (s := S4096x128) S512x128.size (cc7_transform_18 i) (hinb7_18 i)).WholeWords (EltTy.packing .f32)
  hstage7_19 : ∀ j, (stage7_19 j).IsWhole
  nbuf7_19 : grid7.bufCount reads7_19 false = 2
  hreads7_19 : ∀ i i' : grid7.Coords, (∀ a, reads7_19 a = true → i a = i' a) → cc7_transform_19 i = cc7_transform_19 i'
  hinb7_19 : ∀ (i : grid7.Coords) a, (cc7_transform_19 i a + 1) * S512x128.size a ≤ S4096x128.size a
  hwx7_19 : ∀ i : grid7.Coords, EltTy.bits .f32 = 32 ∨ (Rect.block (s := S4096x128) S512x128.size (cc7_transform_19 i) (hinb7_19 i)).WholeWords (EltTy.packing .f32)
  hstage7_20 : ∀ j, (stage7_20 j).IsWhole
  nbuf7_20 : grid7.bufCount reads7_20 false = 2
  hreads7_20 : ∀ i i' : grid7.Coords, (∀ a, reads7_20 a = true → i a = i' a) → cc7_transform_20 i = cc7_transform_20 i'
  hinb7_20 : ∀ (i : grid7.Coords) a, (cc7_transform_20 i a + 1) * S512x128.size a ≤ S4096x128.size a
  hwx7_20 : ∀ i : grid7.Coords, EltTy.bits .f32 = 32 ∨ (Rect.block (s := S4096x128) S512x128.size (cc7_transform_20 i) (hinb7_20 i)).WholeWords (EltTy.packing .f32)
  hstage7_21 : ∀ j, (stage7_21 j).IsWhole
  nbuf7_21 : grid7.bufCount reads7_21 false = 2
  hreads7_21 : ∀ i i' : grid7.Coords, (∀ a, reads7_21 a = true → i a = i' a) → cc7_transform_21 i = cc7_transform_21 i'
  hinb7_21 : ∀ (i : grid7.Coords) a, (cc7_transform_21 i a + 1) * S512x128.size a ≤ S4096x128.size a
  hwx7_21 : ∀ i : grid7.Coords, EltTy.bits .f32 = 32 ∨ (Rect.block (s := S4096x128) S512x128.size (cc7_transform_21 i) (hinb7_21 i)).WholeWords (EltTy.packing .f32)
  hstage7_22 : ∀ j, (stage7_22 j).IsWhole
  nbuf7_22 : grid7.bufCount reads7_22 false = 2
  hreads7_22 : ∀ i i' : grid7.Coords, (∀ a, reads7_22 a = true → i a = i' a) → cc7_transform_22 i = cc7_transform_22 i'
  hinb7_22 : ∀ (i : grid7.Coords) a, (cc7_transform_22 i a + 1) * S512x128.size a ≤ S4096x128.size a
  hwx7_22 : ∀ i : grid7.Coords, EltTy.bits .f32 = 32 ∨ (Rect.block (s := S4096x128) S512x128.size (cc7_transform_22 i) (hinb7_22 i)).WholeWords (EltTy.packing .f32)
  hstage7_23 : ∀ j, (stage7_23 j).IsWhole
  nbuf7_23 : grid7.bufCount reads7_23 false = 2
  hreads7_23 : ∀ i i' : grid7.Coords, (∀ a, reads7_23 a = true → i a = i' a) → cc7_transform_23 i = cc7_transform_23 i'
  hinb7_23 : ∀ (i : grid7.Coords) a, (cc7_transform_23 i a + 1) * S512x128.size a ≤ S4096x128.size a
  hwx7_23 : ∀ i : grid7.Coords, EltTy.bits .f32 = 32 ∨ (Rect.block (s := S4096x128) S512x128.size (cc7_transform_23 i) (hinb7_23 i)).WholeWords (EltTy.packing .f32)
  hstage7_24 : ∀ j, (stage7_24 j).IsWhole
  nbuf7_24 : grid7.bufCount reads7_24 false = 2
  hreads7_24 : ∀ i i' : grid7.Coords, (∀ a, reads7_24 a = true → i a = i' a) → cc7_transform_24 i = cc7_transform_24 i'
  hinb7_24 : ∀ (i : grid7.Coords) a, (cc7_transform_24 i a + 1) * S512x128.size a ≤ S4096x128.size a
  hwx7_24 : ∀ i : grid7.Coords, EltTy.bits .f32 = 32 ∨ (Rect.block (s := S4096x128) S512x128.size (cc7_transform_24 i) (hinb7_24 i)).WholeWords (EltTy.packing .f32)
  hstage7_25 : ∀ j, (stage7_25 j).IsWhole
  nbuf7_25 : grid7.bufCount reads7_25 false = 2
  hreads7_25 : ∀ i i' : grid7.Coords, (∀ a, reads7_25 a = true → i a = i' a) → cc7_transform_25 i = cc7_transform_25 i'
  hinb7_25 : ∀ (i : grid7.Coords) a, (cc7_transform_25 i a + 1) * S512x128.size a ≤ S4096x128.size a
  hwx7_25 : ∀ i : grid7.Coords, EltTy.bits .f32 = 32 ∨ (Rect.block (s := S4096x128) S512x128.size (cc7_transform_25 i) (hinb7_25 i)).WholeWords (EltTy.packing .f32)
  hstage7_26 : ∀ j, (stage7_26 j).IsWhole
  nbuf7_26 : grid7.bufCount reads7_26 false = 2
  hreads7_26 : ∀ i i' : grid7.Coords, (∀ a, reads7_26 a = true → i a = i' a) → cc7_transform_26 i = cc7_transform_26 i'
  hinb7_26 : ∀ (i : grid7.Coords) a, (cc7_transform_26 i a + 1) * S512x128.size a ≤ S4096x128.size a
  hwx7_26 : ∀ i : grid7.Coords, EltTy.bits .f32 = 32 ∨ (Rect.block (s := S4096x128) S512x128.size (cc7_transform_26 i) (hinb7_26 i)).WholeWords (EltTy.packing .f32)
  hstage7_27 : ∀ j, (stage7_27 j).IsWhole
  nbuf7_27 : grid7.bufCount reads7_27 false = 2
  hreads7_27 : ∀ i i' : grid7.Coords, (∀ a, reads7_27 a = true → i a = i' a) → cc7_transform_27 i = cc7_transform_27 i'
  hinb7_27 : ∀ (i : grid7.Coords) a, (cc7_transform_27 i a + 1) * S512x128.size a ≤ S4096x128.size a
  hwx7_27 : ∀ i : grid7.Coords, EltTy.bits .f32 = 32 ∨ (Rect.block (s := S4096x128) S512x128.size (cc7_transform_27 i) (hinb7_27 i)).WholeWords (EltTy.packing .f32)
  hstage7_28 : ∀ j, (stage7_28 j).IsWhole
  nbuf7_28 : grid7.bufCount reads7_28 false = 2
  hreads7_28 : ∀ i i' : grid7.Coords, (∀ a, reads7_28 a = true → i a = i' a) → cc7_transform_28 i = cc7_transform_28 i'
  hinb7_28 : ∀ (i : grid7.Coords) a, (cc7_transform_28 i a + 1) * S512x128.size a ≤ S4096x128.size a
  hwx7_28 : ∀ i : grid7.Coords, EltTy.bits .f32 = 32 ∨ (Rect.block (s := S4096x128) S512x128.size (cc7_transform_28 i) (hinb7_28 i)).WholeWords (EltTy.packing .f32)
  hstage7_29 : ∀ j, (stage7_29 j).IsWhole
  nbuf7_29 : grid7.bufCount reads7_29 false = 2
  hreads7_29 : ∀ i i' : grid7.Coords, (∀ a, reads7_29 a = true → i a = i' a) → cc7_transform_29 i = cc7_transform_29 i'
  hinb7_29 : ∀ (i : grid7.Coords) a, (cc7_transform_29 i a + 1) * S512x128.size a ≤ S4096x128.size a
  hwx7_29 : ∀ i : grid7.Coords, EltTy.bits .f32 = 32 ∨ (Rect.block (s := S4096x128) S512x128.size (cc7_transform_29 i) (hinb7_29 i)).WholeWords (EltTy.packing .f32)
  hstage7_30 : ∀ j, (stage7_30 j).IsWhole
  nbuf7_30 : grid7.bufCount reads7_30 false = 2
  hreads7_30 : ∀ i i' : grid7.Coords, (∀ a, reads7_30 a = true → i a = i' a) → cc7_transform_30 i = cc7_transform_30 i'
  hinb7_30 : ∀ (i : grid7.Coords) a, (cc7_transform_30 i a + 1) * S512x128.size a ≤ S4096x128.size a
  hwx7_30 : ∀ i : grid7.Coords, EltTy.bits .f32 = 32 ∨ (Rect.block (s := S4096x128) S512x128.size (cc7_transform_30 i) (hinb7_30 i)).WholeWords (EltTy.packing .f32)
  hstage7_31 : ∀ j, (stage7_31 j).IsWhole
  nbuf7_31 : grid7.bufCount reads7_31 false = 2
  hreads7_31 : ∀ i i' : grid7.Coords, (∀ a, reads7_31 a = true → i a = i' a) → cc7_transform_31 i = cc7_transform_31 i'
  hinb7_31 : ∀ (i : grid7.Coords) a, (cc7_transform_31 i a + 1) * S512x128.size a ≤ S4096x128.size a
  hwx7_31 : ∀ i : grid7.Coords, EltTy.bits .f32 = 32 ∨ (Rect.block (s := S4096x128) S512x128.size (cc7_transform_31 i) (hinb7_31 i)).WholeWords (EltTy.packing .f32)
  hstage7_32 : ∀ j, (stage7_32 j).IsWhole
  nbuf7_32 : grid7.bufCount reads7_32 true = 1
  hreads7_32 : ∀ i i' : grid7.Coords, (∀ a, reads7_32 a = true → i a = i' a) → cc7_transform_32 i = cc7_transform_32 i'
  hinb7_32 : ∀ (i : grid7.Coords) a, (cc7_transform_32 i a + 1) * S8x128x128.size a ≤ S8x128x128.size a
  hwx7_32 : ∀ i : grid7.Coords, EltTy.bits .f32 = 32 ∨ (Rect.block (s := S8x128x128) S8x128x128.size (cc7_transform_32 i) (hinb7_32 i)).WholeWords (EltTy.packing .f32)
  hstage7_33 : ∀ j, (stage7_33 j).IsWhole
  nbuf7_33 : grid7.bufCount reads7_33 true = 1
  hreads7_33 : ∀ i i' : grid7.Coords, (∀ a, reads7_33 a = true → i a = i' a) → cc7_transform_33 i = cc7_transform_33 i'
  hinb7_33 : ∀ (i : grid7.Coords) a, (cc7_transform_33 i a + 1) * S8x128.size a ≤ S8x128.size a
  hwx7_33 : ∀ i : grid7.Coords, EltTy.bits .f32 = 32 ∨ (Rect.block (s := S8x128) S8x128.size (cc7_transform_33 i) (hinb7_33 i)).WholeWords (EltTy.packing .f32)
  hstage7_34 : ∀ j, (stage7_34 j).IsWhole
  nbuf7_34 : grid7.bufCount reads7_34 false = 2
  hreads7_34 : ∀ i i' : grid7.Coords, (∀ a, reads7_34 a = true → i a = i' a) → cc7_transform_34 i = cc7_transform_34 i'
  hinb7_34 : ∀ (i : grid7.Coords) a, (cc7_transform_34 i a + 1) * S8x512x128.size a ≤ S8x4096x128.size a
  hwx7_34 : ∀ i : grid7.Coords, EltTy.bits .f32 = 32 ∨ (Rect.block (s := S8x4096x128) S8x512x128.size (cc7_transform_34 i) (hinb7_34 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S4096x128.size a
  hwx8_0 : ∀ i : grid8.Coords, EltTy.bits .f32 = 32 ∨ (Rect.block (s := S4096x128) S512x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x128.size a ≤ S4096x128.size a
  hwx8_1 : ∀ i : grid8.Coords, EltTy.bits .f32 = 32 ∨ (Rect.block (s := S4096x128) S512x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S4096x128.size a
  hwx8_2 : ∀ i : grid8.Coords, EltTy.bits .f32 = 32 ∨ (Rect.block (s := S4096x128) S512x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x128.size a ≤ S4096x128.size a
  hwx8_3 : ∀ i : grid8.Coords, EltTy.bits .f32 = 32 ∨ (Rect.block (s := S4096x128) S512x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S512x128.size a ≤ S4096x128.size a
  hwx8_4 : ∀ i : grid8.Coords, EltTy.bits .f32 = 32 ∨ (Rect.block (s := S4096x128) S512x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S512x128.size a ≤ S4096x128.size a
  hwx8_5 : ∀ i : grid8.Coords, EltTy.bits .f32 = 32 ∨ (Rect.block (s := S4096x128) S512x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S512x128.size a ≤ S4096x128.size a
  hwx8_6 : ∀ i : grid8.Coords, EltTy.bits .f32 = 32 ∨ (Rect.block (s := S4096x128) S512x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S512x128.size a ≤ S4096x128.size a
  hwx8_7 : ∀ i : grid8.Coords, EltTy.bits .f32 = 32 ∨ (Rect.block (s := S4096x128) S512x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S512x128.size a ≤ S4096x128.size a
  hwx8_8 : ∀ i : grid8.Coords, EltTy.bits .f32 = 32 ∨ (Rect.block (s := S4096x128) S512x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S512x128.size a ≤ S4096x128.size a
  hwx8_9 : ∀ i : grid8.Coords, EltTy.bits .f32 = 32 ∨ (Rect.block (s := S4096x128) S512x128.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S512x128.size a ≤ S4096x128.size a
  hwx8_10 : ∀ i : grid8.Coords, EltTy.bits .f32 = 32 ∨ (Rect.block (s := S4096x128) S512x128.size (cc8_transform_10 i) (hinb8_10 i)).WholeWords (EltTy.packing .f32)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S512x128.size a ≤ S4096x128.size a
  hwx8_11 : ∀ i : grid8.Coords, EltTy.bits .f32 = 32 ∨ (Rect.block (s := S4096x128) S512x128.size (cc8_transform_11 i) (hinb8_11 i)).WholeWords (EltTy.packing .f32)
  hstage8_12 : ∀ j, (stage8_12 j).IsWhole
  nbuf8_12 : grid8.bufCount reads8_12 false = 2
  hreads8_12 : ∀ i i' : grid8.Coords, (∀ a, reads8_12 a = true → i a = i' a) → cc8_transform_12 i = cc8_transform_12 i'
  hinb8_12 : ∀ (i : grid8.Coords) a, (cc8_transform_12 i a + 1) * S512x128.size a ≤ S4096x128.size a
  hwx8_12 : ∀ i : grid8.Coords, EltTy.bits .f32 = 32 ∨ (Rect.block (s := S4096x128) S512x128.size (cc8_transform_12 i) (hinb8_12 i)).WholeWords (EltTy.packing .f32)
  hstage8_13 : ∀ j, (stage8_13 j).IsWhole
  nbuf8_13 : grid8.bufCount reads8_13 false = 2
  hreads8_13 : ∀ i i' : grid8.Coords, (∀ a, reads8_13 a = true → i a = i' a) → cc8_transform_13 i = cc8_transform_13 i'
  hinb8_13 : ∀ (i : grid8.Coords) a, (cc8_transform_13 i a + 1) * S512x128.size a ≤ S4096x128.size a
  hwx8_13 : ∀ i : grid8.Coords, EltTy.bits .f32 = 32 ∨ (Rect.block (s := S4096x128) S512x128.size (cc8_transform_13 i) (hinb8_13 i)).WholeWords (EltTy.packing .f32)
  hstage8_14 : ∀ j, (stage8_14 j).IsWhole
  nbuf8_14 : grid8.bufCount reads8_14 false = 2
  hreads8_14 : ∀ i i' : grid8.Coords, (∀ a, reads8_14 a = true → i a = i' a) → cc8_transform_14 i = cc8_transform_14 i'
  hinb8_14 : ∀ (i : grid8.Coords) a, (cc8_transform_14 i a + 1) * S512x128.size a ≤ S4096x128.size a
  hwx8_14 : ∀ i : grid8.Coords, EltTy.bits .f32 = 32 ∨ (Rect.block (s := S4096x128) S512x128.size (cc8_transform_14 i) (hinb8_14 i)).WholeWords (EltTy.packing .f32)
  hstage8_15 : ∀ j, (stage8_15 j).IsWhole
  nbuf8_15 : grid8.bufCount reads8_15 false = 2
  hreads8_15 : ∀ i i' : grid8.Coords, (∀ a, reads8_15 a = true → i a = i' a) → cc8_transform_15 i = cc8_transform_15 i'
  hinb8_15 : ∀ (i : grid8.Coords) a, (cc8_transform_15 i a + 1) * S512x128.size a ≤ S4096x128.size a
  hwx8_15 : ∀ i : grid8.Coords, EltTy.bits .f32 = 32 ∨ (Rect.block (s := S4096x128) S512x128.size (cc8_transform_15 i) (hinb8_15 i)).WholeWords (EltTy.packing .f32)
  hstage8_16 : ∀ j, (stage8_16 j).IsWhole
  nbuf8_16 : grid8.bufCount reads8_16 false = 2
  hreads8_16 : ∀ i i' : grid8.Coords, (∀ a, reads8_16 a = true → i a = i' a) → cc8_transform_16 i = cc8_transform_16 i'
  hinb8_16 : ∀ (i : grid8.Coords) a, (cc8_transform_16 i a + 1) * S512x128.size a ≤ S4096x128.size a
  hwx8_16 : ∀ i : grid8.Coords, EltTy.bits .f32 = 32 ∨ (Rect.block (s := S4096x128) S512x128.size (cc8_transform_16 i) (hinb8_16 i)).WholeWords (EltTy.packing .f32)
  hstage8_17 : ∀ j, (stage8_17 j).IsWhole
  nbuf8_17 : grid8.bufCount reads8_17 false = 2
  hreads8_17 : ∀ i i' : grid8.Coords, (∀ a, reads8_17 a = true → i a = i' a) → cc8_transform_17 i = cc8_transform_17 i'
  hinb8_17 : ∀ (i : grid8.Coords) a, (cc8_transform_17 i a + 1) * S512x128.size a ≤ S4096x128.size a
  hwx8_17 : ∀ i : grid8.Coords, EltTy.bits .f32 = 32 ∨ (Rect.block (s := S4096x128) S512x128.size (cc8_transform_17 i) (hinb8_17 i)).WholeWords (EltTy.packing .f32)
  hstage8_18 : ∀ j, (stage8_18 j).IsWhole
  nbuf8_18 : grid8.bufCount reads8_18 false = 2
  hreads8_18 : ∀ i i' : grid8.Coords, (∀ a, reads8_18 a = true → i a = i' a) → cc8_transform_18 i = cc8_transform_18 i'
  hinb8_18 : ∀ (i : grid8.Coords) a, (cc8_transform_18 i a + 1) * S512x128.size a ≤ S4096x128.size a
  hwx8_18 : ∀ i : grid8.Coords, EltTy.bits .f32 = 32 ∨ (Rect.block (s := S4096x128) S512x128.size (cc8_transform_18 i) (hinb8_18 i)).WholeWords (EltTy.packing .f32)
  hstage8_19 : ∀ j, (stage8_19 j).IsWhole
  nbuf8_19 : grid8.bufCount reads8_19 false = 2
  hreads8_19 : ∀ i i' : grid8.Coords, (∀ a, reads8_19 a = true → i a = i' a) → cc8_transform_19 i = cc8_transform_19 i'
  hinb8_19 : ∀ (i : grid8.Coords) a, (cc8_transform_19 i a + 1) * S512x128.size a ≤ S4096x128.size a
  hwx8_19 : ∀ i : grid8.Coords, EltTy.bits .f32 = 32 ∨ (Rect.block (s := S4096x128) S512x128.size (cc8_transform_19 i) (hinb8_19 i)).WholeWords (EltTy.packing .f32)
  hstage8_20 : ∀ j, (stage8_20 j).IsWhole
  nbuf8_20 : grid8.bufCount reads8_20 false = 2
  hreads8_20 : ∀ i i' : grid8.Coords, (∀ a, reads8_20 a = true → i a = i' a) → cc8_transform_20 i = cc8_transform_20 i'
  hinb8_20 : ∀ (i : grid8.Coords) a, (cc8_transform_20 i a + 1) * S512x128.size a ≤ S4096x128.size a
  hwx8_20 : ∀ i : grid8.Coords, EltTy.bits .f32 = 32 ∨ (Rect.block (s := S4096x128) S512x128.size (cc8_transform_20 i) (hinb8_20 i)).WholeWords (EltTy.packing .f32)
  hstage8_21 : ∀ j, (stage8_21 j).IsWhole
  nbuf8_21 : grid8.bufCount reads8_21 false = 2
  hreads8_21 : ∀ i i' : grid8.Coords, (∀ a, reads8_21 a = true → i a = i' a) → cc8_transform_21 i = cc8_transform_21 i'
  hinb8_21 : ∀ (i : grid8.Coords) a, (cc8_transform_21 i a + 1) * S512x128.size a ≤ S4096x128.size a
  hwx8_21 : ∀ i : grid8.Coords, EltTy.bits .f32 = 32 ∨ (Rect.block (s := S4096x128) S512x128.size (cc8_transform_21 i) (hinb8_21 i)).WholeWords (EltTy.packing .f32)
  hstage8_22 : ∀ j, (stage8_22 j).IsWhole
  nbuf8_22 : grid8.bufCount reads8_22 false = 2
  hreads8_22 : ∀ i i' : grid8.Coords, (∀ a, reads8_22 a = true → i a = i' a) → cc8_transform_22 i = cc8_transform_22 i'
  hinb8_22 : ∀ (i : grid8.Coords) a, (cc8_transform_22 i a + 1) * S512x128.size a ≤ S4096x128.size a
  hwx8_22 : ∀ i : grid8.Coords, EltTy.bits .f32 = 32 ∨ (Rect.block (s := S4096x128) S512x128.size (cc8_transform_22 i) (hinb8_22 i)).WholeWords (EltTy.packing .f32)
  hstage8_23 : ∀ j, (stage8_23 j).IsWhole
  nbuf8_23 : grid8.bufCount reads8_23 false = 2
  hreads8_23 : ∀ i i' : grid8.Coords, (∀ a, reads8_23 a = true → i a = i' a) → cc8_transform_23 i = cc8_transform_23 i'
  hinb8_23 : ∀ (i : grid8.Coords) a, (cc8_transform_23 i a + 1) * S512x128.size a ≤ S4096x128.size a
  hwx8_23 : ∀ i : grid8.Coords, EltTy.bits .f32 = 32 ∨ (Rect.block (s := S4096x128) S512x128.size (cc8_transform_23 i) (hinb8_23 i)).WholeWords (EltTy.packing .f32)
  hstage8_24 : ∀ j, (stage8_24 j).IsWhole
  nbuf8_24 : grid8.bufCount reads8_24 false = 2
  hreads8_24 : ∀ i i' : grid8.Coords, (∀ a, reads8_24 a = true → i a = i' a) → cc8_transform_24 i = cc8_transform_24 i'
  hinb8_24 : ∀ (i : grid8.Coords) a, (cc8_transform_24 i a + 1) * S512x128.size a ≤ S4096x128.size a
  hwx8_24 : ∀ i : grid8.Coords, EltTy.bits .f32 = 32 ∨ (Rect.block (s := S4096x128) S512x128.size (cc8_transform_24 i) (hinb8_24 i)).WholeWords (EltTy.packing .f32)
  hstage8_25 : ∀ j, (stage8_25 j).IsWhole
  nbuf8_25 : grid8.bufCount reads8_25 false = 2
  hreads8_25 : ∀ i i' : grid8.Coords, (∀ a, reads8_25 a = true → i a = i' a) → cc8_transform_25 i = cc8_transform_25 i'
  hinb8_25 : ∀ (i : grid8.Coords) a, (cc8_transform_25 i a + 1) * S512x128.size a ≤ S4096x128.size a
  hwx8_25 : ∀ i : grid8.Coords, EltTy.bits .f32 = 32 ∨ (Rect.block (s := S4096x128) S512x128.size (cc8_transform_25 i) (hinb8_25 i)).WholeWords (EltTy.packing .f32)
  hstage8_26 : ∀ j, (stage8_26 j).IsWhole
  nbuf8_26 : grid8.bufCount reads8_26 false = 2
  hreads8_26 : ∀ i i' : grid8.Coords, (∀ a, reads8_26 a = true → i a = i' a) → cc8_transform_26 i = cc8_transform_26 i'
  hinb8_26 : ∀ (i : grid8.Coords) a, (cc8_transform_26 i a + 1) * S512x128.size a ≤ S4096x128.size a
  hwx8_26 : ∀ i : grid8.Coords, EltTy.bits .f32 = 32 ∨ (Rect.block (s := S4096x128) S512x128.size (cc8_transform_26 i) (hinb8_26 i)).WholeWords (EltTy.packing .f32)
  hstage8_27 : ∀ j, (stage8_27 j).IsWhole
  nbuf8_27 : grid8.bufCount reads8_27 false = 2
  hreads8_27 : ∀ i i' : grid8.Coords, (∀ a, reads8_27 a = true → i a = i' a) → cc8_transform_27 i = cc8_transform_27 i'
  hinb8_27 : ∀ (i : grid8.Coords) a, (cc8_transform_27 i a + 1) * S512x128.size a ≤ S4096x128.size a
  hwx8_27 : ∀ i : grid8.Coords, EltTy.bits .f32 = 32 ∨ (Rect.block (s := S4096x128) S512x128.size (cc8_transform_27 i) (hinb8_27 i)).WholeWords (EltTy.packing .f32)
  hstage8_28 : ∀ j, (stage8_28 j).IsWhole
  nbuf8_28 : grid8.bufCount reads8_28 false = 2
  hreads8_28 : ∀ i i' : grid8.Coords, (∀ a, reads8_28 a = true → i a = i' a) → cc8_transform_28 i = cc8_transform_28 i'
  hinb8_28 : ∀ (i : grid8.Coords) a, (cc8_transform_28 i a + 1) * S512x128.size a ≤ S4096x128.size a
  hwx8_28 : ∀ i : grid8.Coords, EltTy.bits .f32 = 32 ∨ (Rect.block (s := S4096x128) S512x128.size (cc8_transform_28 i) (hinb8_28 i)).WholeWords (EltTy.packing .f32)
  hstage8_29 : ∀ j, (stage8_29 j).IsWhole
  nbuf8_29 : grid8.bufCount reads8_29 false = 2
  hreads8_29 : ∀ i i' : grid8.Coords, (∀ a, reads8_29 a = true → i a = i' a) → cc8_transform_29 i = cc8_transform_29 i'
  hinb8_29 : ∀ (i : grid8.Coords) a, (cc8_transform_29 i a + 1) * S512x128.size a ≤ S4096x128.size a
  hwx8_29 : ∀ i : grid8.Coords, EltTy.bits .f32 = 32 ∨ (Rect.block (s := S4096x128) S512x128.size (cc8_transform_29 i) (hinb8_29 i)).WholeWords (EltTy.packing .f32)
  hstage8_30 : ∀ j, (stage8_30 j).IsWhole
  nbuf8_30 : grid8.bufCount reads8_30 false = 2
  hreads8_30 : ∀ i i' : grid8.Coords, (∀ a, reads8_30 a = true → i a = i' a) → cc8_transform_30 i = cc8_transform_30 i'
  hinb8_30 : ∀ (i : grid8.Coords) a, (cc8_transform_30 i a + 1) * S512x128.size a ≤ S4096x128.size a
  hwx8_30 : ∀ i : grid8.Coords, EltTy.bits .f32 = 32 ∨ (Rect.block (s := S4096x128) S512x128.size (cc8_transform_30 i) (hinb8_30 i)).WholeWords (EltTy.packing .f32)
  hstage8_31 : ∀ j, (stage8_31 j).IsWhole
  nbuf8_31 : grid8.bufCount reads8_31 false = 2
  hreads8_31 : ∀ i i' : grid8.Coords, (∀ a, reads8_31 a = true → i a = i' a) → cc8_transform_31 i = cc8_transform_31 i'
  hinb8_31 : ∀ (i : grid8.Coords) a, (cc8_transform_31 i a + 1) * S512x128.size a ≤ S4096x128.size a
  hwx8_31 : ∀ i : grid8.Coords, EltTy.bits .f32 = 32 ∨ (Rect.block (s := S4096x128) S512x128.size (cc8_transform_31 i) (hinb8_31 i)).WholeWords (EltTy.packing .f32)
  hstage8_32 : ∀ j, (stage8_32 j).IsWhole
  nbuf8_32 : grid8.bufCount reads8_32 true = 1
  hreads8_32 : ∀ i i' : grid8.Coords, (∀ a, reads8_32 a = true → i a = i' a) → cc8_transform_32 i = cc8_transform_32 i'
  hinb8_32 : ∀ (i : grid8.Coords) a, (cc8_transform_32 i a + 1) * S8x128x128.size a ≤ S8x128x128.size a
  hwx8_32 : ∀ i : grid8.Coords, EltTy.bits .f32 = 32 ∨ (Rect.block (s := S8x128x128) S8x128x128.size (cc8_transform_32 i) (hinb8_32 i)).WholeWords (EltTy.packing .f32)
  hstage8_33 : ∀ j, (stage8_33 j).IsWhole
  nbuf8_33 : grid8.bufCount reads8_33 true = 1
  hreads8_33 : ∀ i i' : grid8.Coords, (∀ a, reads8_33 a = true → i a = i' a) → cc8_transform_33 i = cc8_transform_33 i'
  hinb8_33 : ∀ (i : grid8.Coords) a, (cc8_transform_33 i a + 1) * S8x128.size a ≤ S8x128.size a
  hwx8_33 : ∀ i : grid8.Coords, EltTy.bits .f32 = 32 ∨ (Rect.block (s := S8x128) S8x128.size (cc8_transform_33 i) (hinb8_33 i)).WholeWords (EltTy.packing .f32)
  hstage8_34 : ∀ j, (stage8_34 j).IsWhole
  nbuf8_34 : grid8.bufCount reads8_34 false = 2
  hreads8_34 : ∀ i i' : grid8.Coords, (∀ a, reads8_34 a = true → i a = i' a) → cc8_transform_34 i = cc8_transform_34 i'
  hinb8_34 : ∀ (i : grid8.Coords) a, (cc8_transform_34 i a + 1) * S8x512x128.size a ≤ S8x4096x128.size a
  hwx8_34 : ∀ i : grid8.Coords, EltTy.bits .f32 = 32 ∨ (Rect.block (s := S8x4096x128) S8x512x128.size (cc8_transform_34 i) (hinb8_34 i)).WholeWords (EltTy.packing .f32)

class Shapes1.Facts₀ : Prop where
  transposes_S65x128x128_S65x128x128_0_2_1 : S65x128x128.Transposes [0, 2, 1] S65x128x128
  slices_S65x128x128_S1x128x128_0_0_0 : S65x128x128.Slices ![0, 0, 0] S1x128x128
  slices_S65x128_S1x128_0_0 : S65x128.Slices ![0, 0] S1x128
  inb_S512x128_S512x128_0_0 : ∀ a, (![0, 0] : Fin 2 → Nat) a + S512x128.size a ≤ S512x128.size a
  h_S512x128 : 0 < S512x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S1x4096x128_S4096x128 : S1x4096x128.ShapeCasts S4096x128
  slices_S65x128x128_S8x128x128_1_0_0 : S65x128x128.Slices ![1, 0, 0] S8x128x128
  slices_S65x128_S8x128_1_0 : S65x128.Slices ![1, 0] S8x128
  shapeCasts_S512x128_S512x128 : S512x128.ShapeCasts S512x128
  inb_S8x128x128_S1x128x128_0_0_0 : ∀ a, (![0, 0, 0] : Fin 3 → Nat) a + S1x128x128.size a ≤ S8x128x128.size a
  inb_S8x128_S1x128_0_0 : ∀ a, (![0, 0] : Fin 2 → Nat) a + S1x128.size a ≤ S8x128.size a
  inb_S8x512x128_S1x512x128_0_0_0 : ∀ a, (![0, 0, 0] : Fin 3 → Nat) a + S1x512x128.size a ≤ S8x512x128.size a
  inb_S8x128x128_S1x128x128_1_0_0 : ∀ a, (![1, 0, 0] : Fin 3 → Nat) a + S1x128x128.size a ≤ S8x128x128.size a
  inb_S8x128_S1x128_1_0 : ∀ a, (![1, 0] : Fin 2 → Nat) a + S1x128.size a ≤ S8x128.size a
  inb_S8x512x128_S1x512x128_1_0_0 : ∀ a, (![1, 0, 0] : Fin 3 → Nat) a + S1x512x128.size a ≤ S8x512x128.size a
  inb_S8x128x128_S1x128x128_2_0_0 : ∀ a, (![2, 0, 0] : Fin 3 → Nat) a + S1x128x128.size a ≤ S8x128x128.size a
  inb_S8x128_S1x128_2_0 : ∀ a, (![2, 0] : Fin 2 → Nat) a + S1x128.size a ≤ S8x128.size a
  inb_S8x512x128_S1x512x128_2_0_0 : ∀ a, (![2, 0, 0] : Fin 3 → Nat) a + S1x512x128.size a ≤ S8x512x128.size a
  inb_S8x128x128_S1x128x128_3_0_0 : ∀ a, (![3, 0, 0] : Fin 3 → Nat) a + S1x128x128.size a ≤ S8x128x128.size a
  inb_S8x128_S1x128_3_0 : ∀ a, (![3, 0] : Fin 2 → Nat) a + S1x128.size a ≤ S8x128.size a
  inb_S8x512x128_S1x512x128_3_0_0 : ∀ a, (![3, 0, 0] : Fin 3 → Nat) a + S1x512x128.size a ≤ S8x512x128.size a
  inb_S8x128x128_S1x128x128_4_0_0 : ∀ a, (![4, 0, 0] : Fin 3 → Nat) a + S1x128x128.size a ≤ S8x128x128.size a
  inb_S8x128_S1x128_4_0 : ∀ a, (![4, 0] : Fin 2 → Nat) a + S1x128.size a ≤ S8x128.size a
  inb_S8x512x128_S1x512x128_4_0_0 : ∀ a, (![4, 0, 0] : Fin 3 → Nat) a + S1x512x128.size a ≤ S8x512x128.size a
  inb_S8x128x128_S1x128x128_5_0_0 : ∀ a, (![5, 0, 0] : Fin 3 → Nat) a + S1x128x128.size a ≤ S8x128x128.size a
  inb_S8x128_S1x128_5_0 : ∀ a, (![5, 0] : Fin 2 → Nat) a + S1x128.size a ≤ S8x128.size a
  inb_S8x512x128_S1x512x128_5_0_0 : ∀ a, (![5, 0, 0] : Fin 3 → Nat) a + S1x512x128.size a ≤ S8x512x128.size a
  inb_S8x128x128_S1x128x128_6_0_0 : ∀ a, (![6, 0, 0] : Fin 3 → Nat) a + S1x128x128.size a ≤ S8x128x128.size a
  inb_S8x128_S1x128_6_0 : ∀ a, (![6, 0] : Fin 2 → Nat) a + S1x128.size a ≤ S8x128.size a
  inb_S8x512x128_S1x512x128_6_0_0 : ∀ a, (![6, 0, 0] : Fin 3 → Nat) a + S1x512x128.size a ≤ S8x512x128.size a
  inb_S8x128x128_S1x128x128_7_0_0 : ∀ a, (![7, 0, 0] : Fin 3 → Nat) a + S1x128x128.size a ≤ S8x128x128.size a
  inb_S8x128_S1x128_7_0 : ∀ a, (![7, 0] : Fin 2 → Nat) a + S1x128.size a ≤ S8x128.size a
  inb_S8x512x128_S1x512x128_7_0_0 : ∀ a, (![7, 0, 0] : Fin 3 → Nat) a + S1x512x128.size a ≤ S8x512x128.size a
  slices_S8x4096x128_S1x4096x128_0_0_0 : S8x4096x128.Slices ![0, 0, 0] S1x4096x128
  slices_S8x4096x128_S1x4096x128_1_0_0 : S8x4096x128.Slices ![1, 0, 0] S1x4096x128
  slices_S8x4096x128_S1x4096x128_2_0_0 : S8x4096x128.Slices ![2, 0, 0] S1x4096x128
  slices_S8x4096x128_S1x4096x128_3_0_0 : S8x4096x128.Slices ![3, 0, 0] S1x4096x128
  slices_S8x4096x128_S1x4096x128_4_0_0 : S8x4096x128.Slices ![4, 0, 0] S1x4096x128
  slices_S8x4096x128_S1x4096x128_5_0_0 : S8x4096x128.Slices ![5, 0, 0] S1x4096x128
  slices_S8x4096x128_S1x4096x128_6_0_0 : S8x4096x128.Slices ![6, 0, 0] S1x4096x128
  slices_S8x4096x128_S1x4096x128_7_0_0 : S8x4096x128.Slices ![7, 0, 0] S1x4096x128
  slices_S65x128x128_S8x128x128_9_0_0 : S65x128x128.Slices ![9, 0, 0] S8x128x128
  slices_S65x128_S8x128_9_0 : S65x128.Slices ![9, 0] S8x128
  slices_S65x128x128_S8x128x128_17_0_0 : S65x128x128.Slices ![17, 0, 0] S8x128x128
  slices_S65x128_S8x128_17_0 : S65x128.Slices ![17, 0] S8x128
  slices_S65x128x128_S8x128x128_25_0_0 : S65x128x128.Slices ![25, 0, 0] S8x128x128
  slices_S65x128_S8x128_25_0 : S65x128.Slices ![25, 0] S8x128
  slices_S65x128x128_S8x128x128_33_0_0 : S65x128x128.Slices ![33, 0, 0] S8x128x128
  slices_S65x128_S8x128_33_0 : S65x128.Slices ![33, 0] S8x128
  slices_S65x128x128_S8x128x128_41_0_0 : S65x128x128.Slices ![41, 0, 0] S8x128x128
  slices_S65x128_S8x128_41_0 : S65x128.Slices ![41, 0] S8x128
  slices_S65x128x128_S8x128x128_49_0_0 : S65x128x128.Slices ![49, 0, 0] S8x128x128
  slices_S65x128_S8x128_49_0 : S65x128.Slices ![49, 0] S8x128
  slices_S65x128x128_S8x128x128_57_0_0 : S65x128x128.Slices ![57, 0, 0] S8x128x128
  slices_S65x128_S8x128_57_0 : S65x128.Slices ![57, 0] S8x128
  reducesTo_S8x4096x128_S4096x128_d0 : S8x4096x128.ReducesTo [0] S4096x128
  h_S_ : 0 < S_.numel
  bcast_S_S4096x128 : S_.BroadcastsInDim S4096x128 (![] : Fin 0 → Fin S4096x128.rank)
  dot_S512x128_S128x128_S512x128_1_0_0_1_n_n_wf : DotDims.WF S512x128 S128x128 S512x128 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  shapes1 : Shapes1.Facts₀
attribute [instance] Facts₀.k0 Facts₀.k1 Facts₀.k2 Facts₀.k3 Facts₀.k4 Facts₀.k5 Facts₀.k6 Facts₀.k7 Facts₀.k8 Facts₀.shapes1

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S512x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4) S512x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v4) S512x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4) S512x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v4) S512x128.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v4) S512x128.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v4) S512x128.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v4) S512x128.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v4) S512x128.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v4) S512x128.size cc1_transform_15 reads1_15 false false 2 stage1_15 sem1_15
    hrank1 hreads1_15 hinb1_15 nbuf1_15 (Memref.isWhole_whole _) hwx1_15 hstage1_15

abbrev win1_16 : Pipeline.Window sig grid1 :=
  Pipeline.Window.ofSpec (Memref.whole main_v4) S512x128.size cc1_transform_16 reads1_16 false false 2 stage1_16 sem1_16
    hrank1 hreads1_16 hinb1_16 nbuf1_16 (Memref.isWhole_whole _) hwx1_16 hstage1_16

abbrev win1_17 : Pipeline.Window sig grid1 :=
  Pipeline.Window.ofSpec (Memref.whole main_v4) S512x128.size cc1_transform_17 reads1_17 false false 2 stage1_17 sem1_17
    hrank1 hreads1_17 hinb1_17 nbuf1_17 (Memref.isWhole_whole _) hwx1_17 hstage1_17

abbrev win1_18 : Pipeline.Window sig grid1 :=
  Pipeline.Window.ofSpec (Memref.whole main_v4) S512x128.size cc1_transform_18 reads1_18 false false 2 stage1_18 sem1_18
    hrank1 hreads1_18 hinb1_18 nbuf1_18 (Memref.isWhole_whole _) hwx1_18 hstage1_18

abbrev win1_19 : Pipeline.Window sig grid1 :=
  Pipeline.Window.ofSpec (Memref.whole main_v4) S512x128.size cc1_transform_19 reads1_19 false false 2 stage1_19 sem1_19
    hrank1 hreads1_19 hinb1_19 nbuf1_19 (Memref.isWhole_whole _) hwx1_19 hstage1_19

abbrev win1_20 : Pipeline.Window sig grid1 :=
  Pipeline.Window.ofSpec (Memref.whole main_v4) S512x128.size cc1_transform_20 reads1_20 false false 2 stage1_20 sem1_20
    hrank1 hreads1_20 hinb1_20 nbuf1_20 (Memref.isWhole_whole _) hwx1_20 hstage1_20

abbrev win1_21 : Pipeline.Window sig grid1 :=
  Pipeline.Window.ofSpec (Memref.whole main_v4) S512x128.size cc1_transform_21 reads1_21 false false 2 stage1_21 sem1_21
    hrank1 hreads1_21 hinb1_21 nbuf1_21 (Memref.isWhole_whole _) hwx1_21 hstage1_21

abbrev win1_22 : Pipeline.Window sig grid1 :=
  Pipeline.Window.ofSpec (Memref.whole main_v4) S512x128.size cc1_transform_22 reads1_22 false false 2 stage1_22 sem1_22
    hrank1 hreads1_22 hinb1_22 nbuf1_22 (Memref.isWhole_whole _) hwx1_22 hstage1_22

abbrev win1_23 : Pipeline.Window sig grid1 :=
  Pipeline.Window.ofSpec (Memref.whole main_v4) S512x128.size cc1_transform_23 reads1_23 false false 2 stage1_23 sem1_23
    hrank1 hreads1_23 hinb1_23 nbuf1_23 (Memref.isWhole_whole _) hwx1_23 hstage1_23

abbrev win1_24 : Pipeline.Window sig grid1 :=
  Pipeline.Window.ofSpec (Memref.whole main_v4) S512x128.size cc1_transform_24 reads1_24 false false 2 stage1_24 sem1_24
    hrank1 hreads1_24 hinb1_24 nbuf1_24 (Memref.isWhole_whole _) hwx1_24 hstage1_24

abbrev win1_25 : Pipeline.Window sig grid1 :=
  Pipeline.Window.ofSpec (Memref.whole main_v4) S512x128.size cc1_transform_25 reads1_25 false false 2 stage1_25 sem1_25
    hrank1 hreads1_25 hinb1_25 nbuf1_25 (Memref.isWhole_whole _) hwx1_25 hstage1_25

abbrev win1_26 : Pipeline.Window sig grid1 :=
  Pipeline.Window.ofSpec (Memref.whole main_v4) S512x128.size cc1_transform_26 reads1_26 false false 2 stage1_26 sem1_26
    hrank1 hreads1_26 hinb1_26 nbuf1_26 (Memref.isWhole_whole _) hwx1_26 hstage1_26

abbrev win1_27 : Pipeline.Window sig grid1 :=
  Pipeline.Window.ofSpec (Memref.whole main_v4) S512x128.size cc1_transform_27 reads1_27 false false 2 stage1_27 sem1_27
    hrank1 hreads1_27 hinb1_27 nbuf1_27 (Memref.isWhole_whole _) hwx1_27 hstage1_27

abbrev win1_28 : Pipeline.Window sig grid1 :=
  Pipeline.Window.ofSpec (Memref.whole main_v4) S512x128.size cc1_transform_28 reads1_28 false false 2 stage1_28 sem1_28
    hrank1 hreads1_28 hinb1_28 nbuf1_28 (Memref.isWhole_whole _) hwx1_28 hstage1_28

abbrev win1_29 : Pipeline.Window sig grid1 :=
  Pipeline.Window.ofSpec (Memref.whole main_v4) S512x128.size cc1_transform_29 reads1_29 false false 2 stage1_29 sem1_29
    hrank1 hreads1_29 hinb1_29 nbuf1_29 (Memref.isWhole_whole _) hwx1_29 hstage1_29

abbrev win1_30 : Pipeline.Window sig grid1 :=
  Pipeline.Window.ofSpec (Memref.whole main_v4) S512x128.size cc1_transform_30 reads1_30 false false 2 stage1_30 sem1_30
    hrank1 hreads1_30 hinb1_30 nbuf1_30 (Memref.isWhole_whole _) hwx1_30 hstage1_30

abbrev win1_31 : Pipeline.Window sig grid1 :=
  Pipeline.Window.ofSpec (Memref.whole main_v4) S512x128.size cc1_transform_31 reads1_31 false false 2 stage1_31 sem1_31
    hrank1 hreads1_31 hinb1_31 nbuf1_31 (Memref.isWhole_whole _) hwx1_31 hstage1_31

abbrev win1_32 : Pipeline.Window sig grid1 :=
  Pipeline.Window.ofSpec (Memref.whole main_v5) S8x128x128.size cc1_transform_32 reads1_32 false true 1 stage1_32 sem1_32
    hrank1 hreads1_32 hinb1_32 nbuf1_32 (Memref.isWhole_whole _) hwx1_32 hstage1_32

abbrev win1_33 : Pipeline.Window sig grid1 :=
  Pipeline.Window.ofSpec (Memref.whole main_v6) S8x128.size cc1_transform_33 reads1_33 false true 1 stage1_33 sem1_33
    hrank1 hreads1_33 hinb1_33 nbuf1_33 (Memref.isWhole_whole _) hwx1_33 hstage1_33

abbrev win1_34 : Pipeline.Window sig grid1 :=
  Pipeline.Window.ofSpec (Memref.whole main_v7) S8x512x128.size cc1_transform_34 reads1_34 true false 2 stage1_34 sem1_34
    hrank1 hreads1_34 hinb1_34 nbuf1_34 (Memref.isWhole_whole _) hwx1_34 hstage1_34

abbrev win1 : Fin 35 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | 28 => win1_28 | 29 => win1_29 | 30 => win1_30 | 31 => win1_31 | 32 => win1_32 | 33 => win1_33 | 34 => win1_34 | ⟨_ + 35, h⟩ => absurd h (Nat.not_lt.2 (Nat.le_add_left _ _))
abbrev spec1 : Fin 35 → Pipeline.WinSpec sig grid1.rank := fun w => (win1 w).toWinSpec

abbrev win2_0 : Pipeline.Window sig grid2 :=
  Pipeline.Window.ofSpec (Memref.whole main_v21) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S512x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S512x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v4) S512x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v4) S512x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v9) S512x128.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v21) S512x128.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v17) S512x128.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_v23) S512x128.size cc2_transform_11 reads2_11 false false 2 stage2_11 sem2_11
    hrank2 hreads2_11 hinb2_11 nbuf2_11 (Memref.isWhole_whole _) hwx2_11 hstage2_11

abbrev win2_12 : Pipeline.Window sig grid2 :=
  Pipeline.Window.ofSpec (Memref.whole main_v15) S512x128.size cc2_transform_12 reads2_12 false false 2 stage2_12 sem2_12
    hrank2 hreads2_12 hinb2_12 nbuf2_12 (Memref.isWhole_whole _) hwx2_12 hstage2_12

abbrev win2_13 : Pipeline.Window sig grid2 :=
  Pipeline.Window.ofSpec (Memref.whole main_v17) S512x128.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v23) S512x128.size cc2_transform_14 reads2_14 false false 2 stage2_14 sem2_14
    hrank2 hreads2_14 hinb2_14 nbuf2_14 (Memref.isWhole_whole _) hwx2_14 hstage2_14

abbrev win2_15 : Pipeline.Window sig grid2 :=
  Pipeline.Window.ofSpec (Memref.whole main_v19) S512x128.size cc2_transform_15 reads2_15 false false 2 stage2_15 sem2_15
    hrank2 hreads2_15 hinb2_15 nbuf2_15 (Memref.isWhole_whole _) hwx2_15 hstage2_15

abbrev win2_16 : Pipeline.Window sig grid2 :=
  Pipeline.Window.ofSpec (Memref.whole main_v17) S512x128.size cc2_transform_16 reads2_16 false false 2 stage2_16 sem2_16
    hrank2 hreads2_16 hinb2_16 nbuf2_16 (Memref.isWhole_whole _) hwx2_16 hstage2_16

abbrev win2_17 : Pipeline.Window sig grid2 :=
  Pipeline.Window.ofSpec (Memref.whole main_v15) S512x128.size cc2_transform_17 reads2_17 false false 2 stage2_17 sem2_17
    hrank2 hreads2_17 hinb2_17 nbuf2_17 (Memref.isWhole_whole _) hwx2_17 hstage2_17

abbrev win2_18 : Pipeline.Window sig grid2 :=
  Pipeline.Window.ofSpec (Memref.whole main_v17) S512x128.size cc2_transform_18 reads2_18 false false 2 stage2_18 sem2_18
    hrank2 hreads2_18 hinb2_18 nbuf2_18 (Memref.isWhole_whole _) hwx2_18 hstage2_18

abbrev win2_19 : Pipeline.Window sig grid2 :=
  Pipeline.Window.ofSpec (Memref.whole main_v23) S512x128.size cc2_transform_19 reads2_19 false false 2 stage2_19 sem2_19
    hrank2 hreads2_19 hinb2_19 nbuf2_19 (Memref.isWhole_whole _) hwx2_19 hstage2_19

abbrev win2_20 : Pipeline.Window sig grid2 :=
  Pipeline.Window.ofSpec (Memref.whole main_v11) S512x128.size cc2_transform_20 reads2_20 false false 2 stage2_20 sem2_20
    hrank2 hreads2_20 hinb2_20 nbuf2_20 (Memref.isWhole_whole _) hwx2_20 hstage2_20

abbrev win2_21 : Pipeline.Window sig grid2 :=
  Pipeline.Window.ofSpec (Memref.whole main_v21) S512x128.size cc2_transform_21 reads2_21 false false 2 stage2_21 sem2_21
    hrank2 hreads2_21 hinb2_21 nbuf2_21 (Memref.isWhole_whole _) hwx2_21 hstage2_21

abbrev win2_22 : Pipeline.Window sig grid2 :=
  Pipeline.Window.ofSpec (Memref.whole main_v19) S512x128.size cc2_transform_22 reads2_22 false false 2 stage2_22 sem2_22
    hrank2 hreads2_22 hinb2_22 nbuf2_22 (Memref.isWhole_whole _) hwx2_22 hstage2_22

abbrev win2_23 : Pipeline.Window sig grid2 :=
  Pipeline.Window.ofSpec (Memref.whole main_v4) S512x128.size cc2_transform_23 reads2_23 false false 2 stage2_23 sem2_23
    hrank2 hreads2_23 hinb2_23 nbuf2_23 (Memref.isWhole_whole _) hwx2_23 hstage2_23

abbrev win2_24 : Pipeline.Window sig grid2 :=
  Pipeline.Window.ofSpec (Memref.whole main_v13) S512x128.size cc2_transform_24 reads2_24 false false 2 stage2_24 sem2_24
    hrank2 hreads2_24 hinb2_24 nbuf2_24 (Memref.isWhole_whole _) hwx2_24 hstage2_24

abbrev win2_25 : Pipeline.Window sig grid2 :=
  Pipeline.Window.ofSpec (Memref.whole main_v21) S512x128.size cc2_transform_25 reads2_25 false false 2 stage2_25 sem2_25
    hrank2 hreads2_25 hinb2_25 nbuf2_25 (Memref.isWhole_whole _) hwx2_25 hstage2_25

abbrev win2_26 : Pipeline.Window sig grid2 :=
  Pipeline.Window.ofSpec (Memref.whole main_v15) S512x128.size cc2_transform_26 reads2_26 false false 2 stage2_26 sem2_26
    hrank2 hreads2_26 hinb2_26 nbuf2_26 (Memref.isWhole_whole _) hwx2_26 hstage2_26

abbrev win2_27 : Pipeline.Window sig grid2 :=
  Pipeline.Window.ofSpec (Memref.whole main_v4) S512x128.size cc2_transform_27 reads2_27 false false 2 stage2_27 sem2_27
    hrank2 hreads2_27 hinb2_27 nbuf2_27 (Memref.isWhole_whole _) hwx2_27 hstage2_27

abbrev win2_28 : Pipeline.Window sig grid2 :=
  Pipeline.Window.ofSpec (Memref.whole main_v19) S512x128.size cc2_transform_28 reads2_28 false false 2 stage2_28 sem2_28
    hrank2 hreads2_28 hinb2_28 nbuf2_28 (Memref.isWhole_whole _) hwx2_28 hstage2_28

abbrev win2_29 : Pipeline.Window sig grid2 :=
  Pipeline.Window.ofSpec (Memref.whole main_v19) S512x128.size cc2_transform_29 reads2_29 false false 2 stage2_29 sem2_29
    hrank2 hreads2_29 hinb2_29 nbuf2_29 (Memref.isWhole_whole _) hwx2_29 hstage2_29

abbrev win2_30 : Pipeline.Window sig grid2 :=
  Pipeline.Window.ofSpec (Memref.whole main_v21) S512x128.size cc2_transform_30 reads2_30 false false 2 stage2_30 sem2_30
    hrank2 hreads2_30 hinb2_30 nbuf2_30 (Memref.isWhole_whole _) hwx2_30 hstage2_30

abbrev win2_31 : Pipeline.Window sig grid2 :=
  Pipeline.Window.ofSpec (Memref.whole main_v9) S512x128.size cc2_transform_31 reads2_31 false false 2 stage2_31 sem2_31
    hrank2 hreads2_31 hinb2_31 nbuf2_31 (Memref.isWhole_whole _) hwx2_31 hstage2_31

abbrev win2_32 : Pipeline.Window sig grid2 :=
  Pipeline.Window.ofSpec (Memref.whole main_v24) S8x128x128.size cc2_transform_32 reads2_32 false true 1 stage2_32 sem2_32
    hrank2 hreads2_32 hinb2_32 nbuf2_32 (Memref.isWhole_whole _) hwx2_32 hstage2_32

abbrev win2_33 : Pipeline.Window sig grid2 :=
  Pipeline.Window.ofSpec (Memref.whole main_v25) S8x128.size cc2_transform_33 reads2_33 false true 1 stage2_33 sem2_33
    hrank2 hreads2_33 hinb2_33 nbuf2_33 (Memref.isWhole_whole _) hwx2_33 hstage2_33

abbrev win2_34 : Pipeline.Window sig grid2 :=
  Pipeline.Window.ofSpec (Memref.whole main_v26) S8x512x128.size cc2_transform_34 reads2_34 true false 2 stage2_34 sem2_34
    hrank2 hreads2_34 hinb2_34 nbuf2_34 (Memref.isWhole_whole _) hwx2_34 hstage2_34

abbrev win2 : Fin 35 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | 24 => win2_24 | 25 => win2_25 | 26 => win2_26 | 27 => win2_27 | 28 => win2_28 | 29 => win2_29 | 30 => win2_30 | 31 => win2_31 | 32 => win2_32 | 33 => win2_33 | 34 => win2_34 | ⟨_ + 35, h⟩ => absurd h (Nat.not_lt.2 (Nat.le_add_left _ _))
abbrev spec2 : Fin 35 → Pipeline.WinSpec sig grid2.rank := fun w => (win2 w).toWinSpec

abbrev win3_0 : Pipeline.Window sig grid3 :=
  Pipeline.Window.ofSpec (Memref.whole main_v9) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S512x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9) S512x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v17) S512x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v23) S512x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v21) S512x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v19) S512x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v4) S512x128.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v4) S512x128.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v11) S512x128.size cc3_transform_11 reads3_11 false false 2 stage3_11 sem3_11
    hrank3 hreads3_11 hinb3_11 nbuf3_11 (Memref.isWhole_whole _) hwx3_11 hstage3_11

abbrev win3_12 : Pipeline.Window sig grid3 :=
  Pipeline.Window.ofSpec (Memref.whole main_v4) S512x128.size cc3_transform_12 reads3_12 false false 2 stage3_12 sem3_12
    hrank3 hreads3_12 hinb3_12 nbuf3_12 (Memref.isWhole_whole _) hwx3_12 hstage3_12

abbrev win3_13 : Pipeline.Window sig grid3 :=
  Pipeline.Window.ofSpec (Memref.whole main_v32) S512x128.size cc3_transform_13 reads3_13 false false 2 stage3_13 sem3_13
    hrank3 hreads3_13 hinb3_13 nbuf3_13 (Memref.isWhole_whole _) hwx3_13 hstage3_13

abbrev win3_14 : Pipeline.Window sig grid3 :=
  Pipeline.Window.ofSpec (Memref.whole main_v23) S512x128.size cc3_transform_14 reads3_14 false false 2 stage3_14 sem3_14
    hrank3 hreads3_14 hinb3_14 nbuf3_14 (Memref.isWhole_whole _) hwx3_14 hstage3_14

abbrev win3_15 : Pipeline.Window sig grid3 :=
  Pipeline.Window.ofSpec (Memref.whole main_v32) S512x128.size cc3_transform_15 reads3_15 false false 2 stage3_15 sem3_15
    hrank3 hreads3_15 hinb3_15 nbuf3_15 (Memref.isWhole_whole _) hwx3_15 hstage3_15

abbrev win3_16 : Pipeline.Window sig grid3 :=
  Pipeline.Window.ofSpec (Memref.whole main_v15) S512x128.size cc3_transform_16 reads3_16 false false 2 stage3_16 sem3_16
    hrank3 hreads3_16 hinb3_16 nbuf3_16 (Memref.isWhole_whole _) hwx3_16 hstage3_16

abbrev win3_17 : Pipeline.Window sig grid3 :=
  Pipeline.Window.ofSpec (Memref.whole main_v30) S512x128.size cc3_transform_17 reads3_17 false false 2 stage3_17 sem3_17
    hrank3 hreads3_17 hinb3_17 nbuf3_17 (Memref.isWhole_whole _) hwx3_17 hstage3_17

abbrev win3_18 : Pipeline.Window sig grid3 :=
  Pipeline.Window.ofSpec (Memref.whole main_v34) S512x128.size cc3_transform_18 reads3_18 false false 2 stage3_18 sem3_18
    hrank3 hreads3_18 hinb3_18 nbuf3_18 (Memref.isWhole_whole _) hwx3_18 hstage3_18

abbrev win3_19 : Pipeline.Window sig grid3 :=
  Pipeline.Window.ofSpec (Memref.whole main_v19) S512x128.size cc3_transform_19 reads3_19 false false 2 stage3_19 sem3_19
    hrank3 hreads3_19 hinb3_19 nbuf3_19 (Memref.isWhole_whole _) hwx3_19 hstage3_19

abbrev win3_20 : Pipeline.Window sig grid3 :=
  Pipeline.Window.ofSpec (Memref.whole main_v21) S512x128.size cc3_transform_20 reads3_20 false false 2 stage3_20 sem3_20
    hrank3 hreads3_20 hinb3_20 nbuf3_20 (Memref.isWhole_whole _) hwx3_20 hstage3_20

abbrev win3_21 : Pipeline.Window sig grid3 :=
  Pipeline.Window.ofSpec (Memref.whole main_v42) S512x128.size cc3_transform_21 reads3_21 false false 2 stage3_21 sem3_21
    hrank3 hreads3_21 hinb3_21 nbuf3_21 (Memref.isWhole_whole _) hwx3_21 hstage3_21

abbrev win3_22 : Pipeline.Window sig grid3 :=
  Pipeline.Window.ofSpec (Memref.whole main_v36) S512x128.size cc3_transform_22 reads3_22 false false 2 stage3_22 sem3_22
    hrank3 hreads3_22 hinb3_22 nbuf3_22 (Memref.isWhole_whole _) hwx3_22 hstage3_22

abbrev win3_23 : Pipeline.Window sig grid3 :=
  Pipeline.Window.ofSpec (Memref.whole main_v42) S512x128.size cc3_transform_23 reads3_23 false false 2 stage3_23 sem3_23
    hrank3 hreads3_23 hinb3_23 nbuf3_23 (Memref.isWhole_whole _) hwx3_23 hstage3_23

abbrev win3_24 : Pipeline.Window sig grid3 :=
  Pipeline.Window.ofSpec (Memref.whole main_v19) S512x128.size cc3_transform_24 reads3_24 false false 2 stage3_24 sem3_24
    hrank3 hreads3_24 hinb3_24 nbuf3_24 (Memref.isWhole_whole _) hwx3_24 hstage3_24

abbrev win3_25 : Pipeline.Window sig grid3 :=
  Pipeline.Window.ofSpec (Memref.whole main_v32) S512x128.size cc3_transform_25 reads3_25 false false 2 stage3_25 sem3_25
    hrank3 hreads3_25 hinb3_25 nbuf3_25 (Memref.isWhole_whole _) hwx3_25 hstage3_25

abbrev win3_26 : Pipeline.Window sig grid3 :=
  Pipeline.Window.ofSpec (Memref.whole main_v42) S512x128.size cc3_transform_26 reads3_26 false false 2 stage3_26 sem3_26
    hrank3 hreads3_26 hinb3_26 nbuf3_26 (Memref.isWhole_whole _) hwx3_26 hstage3_26

abbrev win3_27 : Pipeline.Window sig grid3 :=
  Pipeline.Window.ofSpec (Memref.whole main_v32) S512x128.size cc3_transform_27 reads3_27 false false 2 stage3_27 sem3_27
    hrank3 hreads3_27 hinb3_27 nbuf3_27 (Memref.isWhole_whole _) hwx3_27 hstage3_27

abbrev win3_28 : Pipeline.Window sig grid3 :=
  Pipeline.Window.ofSpec (Memref.whole main_v38) S512x128.size cc3_transform_28 reads3_28 false false 2 stage3_28 sem3_28
    hrank3 hreads3_28 hinb3_28 nbuf3_28 (Memref.isWhole_whole _) hwx3_28 hstage3_28

abbrev win3_29 : Pipeline.Window sig grid3 :=
  Pipeline.Window.ofSpec (Memref.whole main_v32) S512x128.size cc3_transform_29 reads3_29 false false 2 stage3_29 sem3_29
    hrank3 hreads3_29 hinb3_29 nbuf3_29 (Memref.isWhole_whole _) hwx3_29 hstage3_29

abbrev win3_30 : Pipeline.Window sig grid3 :=
  Pipeline.Window.ofSpec (Memref.whole main_v32) S512x128.size cc3_transform_30 reads3_30 false false 2 stage3_30 sem3_30
    hrank3 hreads3_30 hinb3_30 nbuf3_30 (Memref.isWhole_whole _) hwx3_30 hstage3_30

abbrev win3_31 : Pipeline.Window sig grid3 :=
  Pipeline.Window.ofSpec (Memref.whole main_v19) S512x128.size cc3_transform_31 reads3_31 false false 2 stage3_31 sem3_31
    hrank3 hreads3_31 hinb3_31 nbuf3_31 (Memref.isWhole_whole _) hwx3_31 hstage3_31

abbrev win3_32 : Pipeline.Window sig grid3 :=
  Pipeline.Window.ofSpec (Memref.whole main_v43) S8x128x128.size cc3_transform_32 reads3_32 false true 1 stage3_32 sem3_32
    hrank3 hreads3_32 hinb3_32 nbuf3_32 (Memref.isWhole_whole _) hwx3_32 hstage3_32

abbrev win3_33 : Pipeline.Window sig grid3 :=
  Pipeline.Window.ofSpec (Memref.whole main_v44) S8x128.size cc3_transform_33 reads3_33 false true 1 stage3_33 sem3_33
    hrank3 hreads3_33 hinb3_33 nbuf3_33 (Memref.isWhole_whole _) hwx3_33 hstage3_33

abbrev win3_34 : Pipeline.Window sig grid3 :=
  Pipeline.Window.ofSpec (Memref.whole main_v45) S8x512x128.size cc3_transform_34 reads3_34 true false 2 stage3_34 sem3_34
    hrank3 hreads3_34 hinb3_34 nbuf3_34 (Memref.isWhole_whole _) hwx3_34 hstage3_34

abbrev win3 : Fin 35 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | 25 => win3_25 | 26 => win3_26 | 27 => win3_27 | 28 => win3_28 | 29 => win3_29 | 30 => win3_30 | 31 => win3_31 | 32 => win3_32 | 33 => win3_33 | 34 => win3_34 | ⟨_ + 35, h⟩ => absurd h (Nat.not_lt.2 (Nat.le_add_left _ _))
abbrev spec3 : Fin 35 → Pipeline.WinSpec sig grid3.rank := fun w => (win3 w).toWinSpec

abbrev win4_0 : Pipeline.Window sig grid4 :=
  Pipeline.Window.ofSpec (Memref.whole main_v55) S512x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S512x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S512x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v49) S512x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v55) S512x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v36) S512x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v28) S512x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v21) S512x128.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v30) S512x128.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v34) S512x128.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v47) S512x128.size cc4_transform_10 reads4_10 false false 2 stage4_10 sem4_10
    hrank4 hreads4_10 hinb4_10 nbuf4_10 (Memref.isWhole_whole _) hwx4_10 hstage4_10

abbrev win4_11 : Pipeline.Window sig grid4 :=
  Pipeline.Window.ofSpec (Memref.whole main_v57) S512x128.size cc4_transform_11 reads4_11 false false 2 stage4_11 sem4_11
    hrank4 hreads4_11 hinb4_11 nbuf4_11 (Memref.isWhole_whole _) hwx4_11 hstage4_11

abbrev win4_12 : Pipeline.Window sig grid4 :=
  Pipeline.Window.ofSpec (Memref.whole main_v9) S512x128.size cc4_transform_12 reads4_12 false false 2 stage4_12 sem4_12
    hrank4 hreads4_12 hinb4_12 nbuf4_12 (Memref.isWhole_whole _) hwx4_12 hstage4_12

abbrev win4_13 : Pipeline.Window sig grid4 :=
  Pipeline.Window.ofSpec (Memref.whole main_v59) S512x128.size cc4_transform_13 reads4_13 false false 2 stage4_13 sem4_13
    hrank4 hreads4_13 hinb4_13 nbuf4_13 (Memref.isWhole_whole _) hwx4_13 hstage4_13

abbrev win4_14 : Pipeline.Window sig grid4 :=
  Pipeline.Window.ofSpec (Memref.whole main_v36) S512x128.size cc4_transform_14 reads4_14 false false 2 stage4_14 sem4_14
    hrank4 hreads4_14 hinb4_14 nbuf4_14 (Memref.isWhole_whole _) hwx4_14 hstage4_14

abbrev win4_15 : Pipeline.Window sig grid4 :=
  Pipeline.Window.ofSpec (Memref.whole main_v23) S512x128.size cc4_transform_15 reads4_15 false false 2 stage4_15 sem4_15
    hrank4 hreads4_15 hinb4_15 nbuf4_15 (Memref.isWhole_whole _) hwx4_15 hstage4_15

abbrev win4_16 : Pipeline.Window sig grid4 :=
  Pipeline.Window.ofSpec (Memref.whole main_v42) S512x128.size cc4_transform_16 reads4_16 false false 2 stage4_16 sem4_16
    hrank4 hreads4_16 hinb4_16 nbuf4_16 (Memref.isWhole_whole _) hwx4_16 hstage4_16

abbrev win4_17 : Pipeline.Window sig grid4 :=
  Pipeline.Window.ofSpec (Memref.whole main_v38) S512x128.size cc4_transform_17 reads4_17 false false 2 stage4_17 sem4_17
    hrank4 hreads4_17 hinb4_17 nbuf4_17 (Memref.isWhole_whole _) hwx4_17 hstage4_17

abbrev win4_18 : Pipeline.Window sig grid4 :=
  Pipeline.Window.ofSpec (Memref.whole main_v19) S512x128.size cc4_transform_18 reads4_18 false false 2 stage4_18 sem4_18
    hrank4 hreads4_18 hinb4_18 nbuf4_18 (Memref.isWhole_whole _) hwx4_18 hstage4_18

abbrev win4_19 : Pipeline.Window sig grid4 :=
  Pipeline.Window.ofSpec (Memref.whole main_v23) S512x128.size cc4_transform_19 reads4_19 false false 2 stage4_19 sem4_19
    hrank4 hreads4_19 hinb4_19 nbuf4_19 (Memref.isWhole_whole _) hwx4_19 hstage4_19

abbrev win4_20 : Pipeline.Window sig grid4 :=
  Pipeline.Window.ofSpec (Memref.whole main_v47) S512x128.size cc4_transform_20 reads4_20 false false 2 stage4_20 sem4_20
    hrank4 hreads4_20 hinb4_20 nbuf4_20 (Memref.isWhole_whole _) hwx4_20 hstage4_20

abbrev win4_21 : Pipeline.Window sig grid4 :=
  Pipeline.Window.ofSpec (Memref.whole main_v38) S512x128.size cc4_transform_21 reads4_21 false false 2 stage4_21 sem4_21
    hrank4 hreads4_21 hinb4_21 nbuf4_21 (Memref.isWhole_whole _) hwx4_21 hstage4_21

abbrev win4_22 : Pipeline.Window sig grid4 :=
  Pipeline.Window.ofSpec (Memref.whole main_v34) S512x128.size cc4_transform_22 reads4_22 false false 2 stage4_22 sem4_22
    hrank4 hreads4_22 hinb4_22 nbuf4_22 (Memref.isWhole_whole _) hwx4_22 hstage4_22

abbrev win4_23 : Pipeline.Window sig grid4 :=
  Pipeline.Window.ofSpec (Memref.whole main_v23) S512x128.size cc4_transform_23 reads4_23 false false 2 stage4_23 sem4_23
    hrank4 hreads4_23 hinb4_23 nbuf4_23 (Memref.isWhole_whole _) hwx4_23 hstage4_23

abbrev win4_24 : Pipeline.Window sig grid4 :=
  Pipeline.Window.ofSpec (Memref.whole main_v51) S512x128.size cc4_transform_24 reads4_24 false false 2 stage4_24 sem4_24
    hrank4 hreads4_24 hinb4_24 nbuf4_24 (Memref.isWhole_whole _) hwx4_24 hstage4_24

abbrev win4_25 : Pipeline.Window sig grid4 :=
  Pipeline.Window.ofSpec (Memref.whole main_v28) S512x128.size cc4_transform_25 reads4_25 false false 2 stage4_25 sem4_25
    hrank4 hreads4_25 hinb4_25 nbuf4_25 (Memref.isWhole_whole _) hwx4_25 hstage4_25

abbrev win4_26 : Pipeline.Window sig grid4 :=
  Pipeline.Window.ofSpec (Memref.whole main_v23) S512x128.size cc4_transform_26 reads4_26 false false 2 stage4_26 sem4_26
    hrank4 hreads4_26 hinb4_26 nbuf4_26 (Memref.isWhole_whole _) hwx4_26 hstage4_26

abbrev win4_27 : Pipeline.Window sig grid4 :=
  Pipeline.Window.ofSpec (Memref.whole main_v57) S512x128.size cc4_transform_27 reads4_27 false false 2 stage4_27 sem4_27
    hrank4 hreads4_27 hinb4_27 nbuf4_27 (Memref.isWhole_whole _) hwx4_27 hstage4_27

abbrev win4_28 : Pipeline.Window sig grid4 :=
  Pipeline.Window.ofSpec (Memref.whole main_v19) S512x128.size cc4_transform_28 reads4_28 false false 2 stage4_28 sem4_28
    hrank4 hreads4_28 hinb4_28 nbuf4_28 (Memref.isWhole_whole _) hwx4_28 hstage4_28

abbrev win4_29 : Pipeline.Window sig grid4 :=
  Pipeline.Window.ofSpec (Memref.whole main_v17) S512x128.size cc4_transform_29 reads4_29 false false 2 stage4_29 sem4_29
    hrank4 hreads4_29 hinb4_29 nbuf4_29 (Memref.isWhole_whole _) hwx4_29 hstage4_29

abbrev win4_30 : Pipeline.Window sig grid4 :=
  Pipeline.Window.ofSpec (Memref.whole main_v47) S512x128.size cc4_transform_30 reads4_30 false false 2 stage4_30 sem4_30
    hrank4 hreads4_30 hinb4_30 nbuf4_30 (Memref.isWhole_whole _) hwx4_30 hstage4_30

abbrev win4_31 : Pipeline.Window sig grid4 :=
  Pipeline.Window.ofSpec (Memref.whole main_v40) S512x128.size cc4_transform_31 reads4_31 false false 2 stage4_31 sem4_31
    hrank4 hreads4_31 hinb4_31 nbuf4_31 (Memref.isWhole_whole _) hwx4_31 hstage4_31

abbrev win4_32 : Pipeline.Window sig grid4 :=
  Pipeline.Window.ofSpec (Memref.whole main_v62) S8x128x128.size cc4_transform_32 reads4_32 false true 1 stage4_32 sem4_32
    hrank4 hreads4_32 hinb4_32 nbuf4_32 (Memref.isWhole_whole _) hwx4_32 hstage4_32

abbrev win4_33 : Pipeline.Window sig grid4 :=
  Pipeline.Window.ofSpec (Memref.whole main_v63) S8x128.size cc4_transform_33 reads4_33 false true 1 stage4_33 sem4_33
    hrank4 hreads4_33 hinb4_33 nbuf4_33 (Memref.isWhole_whole _) hwx4_33 hstage4_33

abbrev win4_34 : Pipeline.Window sig grid4 :=
  Pipeline.Window.ofSpec (Memref.whole main_v64) S8x512x128.size cc4_transform_34 reads4_34 true false 2 stage4_34 sem4_34
    hrank4 hreads4_34 hinb4_34 nbuf4_34 (Memref.isWhole_whole _) hwx4_34 hstage4_34

abbrev win4 : Fin 35 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | 21 => win4_21 | 22 => win4_22 | 23 => win4_23 | 24 => win4_24 | 25 => win4_25 | 26 => win4_26 | 27 => win4_27 | 28 => win4_28 | 29 => win4_29 | 30 => win4_30 | 31 => win4_31 | 32 => win4_32 | 33 => win4_33 | 34 => win4_34 | ⟨_ + 35, h⟩ => absurd h (Nat.not_lt.2 (Nat.le_add_left _ _))
abbrev spec4 : Fin 35 → Pipeline.WinSpec sig grid4.rank := fun w => (win4 w).toWinSpec

abbrev win5_0 : Pipeline.Window sig grid5 :=
  Pipeline.Window.ofSpec (Memref.whole main_v9) S512x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S512x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S512x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v70) S512x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v36) S512x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v66) S512x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v30) S512x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v21) S512x128.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v68) S512x128.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v72) S512x128.size cc5_transform_9 reads5_9 false false 2 stage5_9 sem5_9
    hrank5 hreads5_9 hinb5_9 nbuf5_9 (Memref.isWhole_whole _) hwx5_9 hstage5_9

abbrev win5_10 : Pipeline.Window sig grid5 :=
  Pipeline.Window.ofSpec (Memref.whole main_v11) S512x128.size cc5_transform_10 reads5_10 false false 2 stage5_10 sem5_10
    hrank5 hreads5_10 hinb5_10 nbuf5_10 (Memref.isWhole_whole _) hwx5_10 hstage5_10

abbrev win5_11 : Pipeline.Window sig grid5 :=
  Pipeline.Window.ofSpec (Memref.whole main_v9) S512x128.size cc5_transform_11 reads5_11 false false 2 stage5_11 sem5_11
    hrank5 hreads5_11 hinb5_11 nbuf5_11 (Memref.isWhole_whole _) hwx5_11 hstage5_11

abbrev win5_12 : Pipeline.Window sig grid5 :=
  Pipeline.Window.ofSpec (Memref.whole main_v57) S512x128.size cc5_transform_12 reads5_12 false false 2 stage5_12 sem5_12
    hrank5 hreads5_12 hinb5_12 nbuf5_12 (Memref.isWhole_whole _) hwx5_12 hstage5_12

abbrev win5_13 : Pipeline.Window sig grid5 :=
  Pipeline.Window.ofSpec (Memref.whole main_v32) S512x128.size cc5_transform_13 reads5_13 false false 2 stage5_13 sem5_13
    hrank5 hreads5_13 hinb5_13 nbuf5_13 (Memref.isWhole_whole _) hwx5_13 hstage5_13

abbrev win5_14 : Pipeline.Window sig grid5 :=
  Pipeline.Window.ofSpec (Memref.whole main_v49) S512x128.size cc5_transform_14 reads5_14 false false 2 stage5_14 sem5_14
    hrank5 hreads5_14 hinb5_14 nbuf5_14 (Memref.isWhole_whole _) hwx5_14 hstage5_14

abbrev win5_15 : Pipeline.Window sig grid5 :=
  Pipeline.Window.ofSpec (Memref.whole main_v15) S512x128.size cc5_transform_15 reads5_15 false false 2 stage5_15 sem5_15
    hrank5 hreads5_15 hinb5_15 nbuf5_15 (Memref.isWhole_whole _) hwx5_15 hstage5_15

abbrev win5_16 : Pipeline.Window sig grid5 :=
  Pipeline.Window.ofSpec (Memref.whole main_v72) S512x128.size cc5_transform_16 reads5_16 false false 2 stage5_16 sem5_16
    hrank5 hreads5_16 hinb5_16 nbuf5_16 (Memref.isWhole_whole _) hwx5_16 hstage5_16

abbrev win5_17 : Pipeline.Window sig grid5 :=
  Pipeline.Window.ofSpec (Memref.whole main_v38) S512x128.size cc5_transform_17 reads5_17 false false 2 stage5_17 sem5_17
    hrank5 hreads5_17 hinb5_17 nbuf5_17 (Memref.isWhole_whole _) hwx5_17 hstage5_17

abbrev win5_18 : Pipeline.Window sig grid5 :=
  Pipeline.Window.ofSpec (Memref.whole main_v74) S512x128.size cc5_transform_18 reads5_18 false false 2 stage5_18 sem5_18
    hrank5 hreads5_18 hinb5_18 nbuf5_18 (Memref.isWhole_whole _) hwx5_18 hstage5_18

abbrev win5_19 : Pipeline.Window sig grid5 :=
  Pipeline.Window.ofSpec (Memref.whole main_v68) S512x128.size cc5_transform_19 reads5_19 false false 2 stage5_19 sem5_19
    hrank5 hreads5_19 hinb5_19 nbuf5_19 (Memref.isWhole_whole _) hwx5_19 hstage5_19

abbrev win5_20 : Pipeline.Window sig grid5 :=
  Pipeline.Window.ofSpec (Memref.whole main_v59) S512x128.size cc5_transform_20 reads5_20 false false 2 stage5_20 sem5_20
    hrank5 hreads5_20 hinb5_20 nbuf5_20 (Memref.isWhole_whole _) hwx5_20 hstage5_20

abbrev win5_21 : Pipeline.Window sig grid5 :=
  Pipeline.Window.ofSpec (Memref.whole main_v21) S512x128.size cc5_transform_21 reads5_21 false false 2 stage5_21 sem5_21
    hrank5 hreads5_21 hinb5_21 nbuf5_21 (Memref.isWhole_whole _) hwx5_21 hstage5_21

abbrev win5_22 : Pipeline.Window sig grid5 :=
  Pipeline.Window.ofSpec (Memref.whole main_v66) S512x128.size cc5_transform_22 reads5_22 false false 2 stage5_22 sem5_22
    hrank5 hreads5_22 hinb5_22 nbuf5_22 (Memref.isWhole_whole _) hwx5_22 hstage5_22

abbrev win5_23 : Pipeline.Window sig grid5 :=
  Pipeline.Window.ofSpec (Memref.whole main_v9) S512x128.size cc5_transform_23 reads5_23 false false 2 stage5_23 sem5_23
    hrank5 hreads5_23 hinb5_23 nbuf5_23 (Memref.isWhole_whole _) hwx5_23 hstage5_23

abbrev win5_24 : Pipeline.Window sig grid5 :=
  Pipeline.Window.ofSpec (Memref.whole main_v49) S512x128.size cc5_transform_24 reads5_24 false false 2 stage5_24 sem5_24
    hrank5 hreads5_24 hinb5_24 nbuf5_24 (Memref.isWhole_whole _) hwx5_24 hstage5_24

abbrev win5_25 : Pipeline.Window sig grid5 :=
  Pipeline.Window.ofSpec (Memref.whole main_v36) S512x128.size cc5_transform_25 reads5_25 false false 2 stage5_25 sem5_25
    hrank5 hreads5_25 hinb5_25 nbuf5_25 (Memref.isWhole_whole _) hwx5_25 hstage5_25

abbrev win5_26 : Pipeline.Window sig grid5 :=
  Pipeline.Window.ofSpec (Memref.whole main_v80) S512x128.size cc5_transform_26 reads5_26 false false 2 stage5_26 sem5_26
    hrank5 hreads5_26 hinb5_26 nbuf5_26 (Memref.isWhole_whole _) hwx5_26 hstage5_26

abbrev win5_27 : Pipeline.Window sig grid5 :=
  Pipeline.Window.ofSpec (Memref.whole main_v19) S512x128.size cc5_transform_27 reads5_27 false false 2 stage5_27 sem5_27
    hrank5 hreads5_27 hinb5_27 nbuf5_27 (Memref.isWhole_whole _) hwx5_27 hstage5_27

abbrev win5_28 : Pipeline.Window sig grid5 :=
  Pipeline.Window.ofSpec (Memref.whole main_v78) S512x128.size cc5_transform_28 reads5_28 false false 2 stage5_28 sem5_28
    hrank5 hreads5_28 hinb5_28 nbuf5_28 (Memref.isWhole_whole _) hwx5_28 hstage5_28

abbrev win5_29 : Pipeline.Window sig grid5 :=
  Pipeline.Window.ofSpec (Memref.whole main_v11) S512x128.size cc5_transform_29 reads5_29 false false 2 stage5_29 sem5_29
    hrank5 hreads5_29 hinb5_29 nbuf5_29 (Memref.isWhole_whole _) hwx5_29 hstage5_29

abbrev win5_30 : Pipeline.Window sig grid5 :=
  Pipeline.Window.ofSpec (Memref.whole main_v53) S512x128.size cc5_transform_30 reads5_30 false false 2 stage5_30 sem5_30
    hrank5 hreads5_30 hinb5_30 nbuf5_30 (Memref.isWhole_whole _) hwx5_30 hstage5_30

abbrev win5_31 : Pipeline.Window sig grid5 :=
  Pipeline.Window.ofSpec (Memref.whole main_v51) S512x128.size cc5_transform_31 reads5_31 false false 2 stage5_31 sem5_31
    hrank5 hreads5_31 hinb5_31 nbuf5_31 (Memref.isWhole_whole _) hwx5_31 hstage5_31

abbrev win5_32 : Pipeline.Window sig grid5 :=
  Pipeline.Window.ofSpec (Memref.whole main_v81) S8x128x128.size cc5_transform_32 reads5_32 false true 1 stage5_32 sem5_32
    hrank5 hreads5_32 hinb5_32 nbuf5_32 (Memref.isWhole_whole _) hwx5_32 hstage5_32

abbrev win5_33 : Pipeline.Window sig grid5 :=
  Pipeline.Window.ofSpec (Memref.whole main_v82) S8x128.size cc5_transform_33 reads5_33 false true 1 stage5_33 sem5_33
    hrank5 hreads5_33 hinb5_33 nbuf5_33 (Memref.isWhole_whole _) hwx5_33 hstage5_33

abbrev win5_34 : Pipeline.Window sig grid5 :=
  Pipeline.Window.ofSpec (Memref.whole main_v83) S8x512x128.size cc5_transform_34 reads5_34 true false 2 stage5_34 sem5_34
    hrank5 hreads5_34 hinb5_34 nbuf5_34 (Memref.isWhole_whole _) hwx5_34 hstage5_34

abbrev win5 : Fin 35 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | 18 => win5_18 | 19 => win5_19 | 20 => win5_20 | 21 => win5_21 | 22 => win5_22 | 23 => win5_23 | 24 => win5_24 | 25 => win5_25 | 26 => win5_26 | 27 => win5_27 | 28 => win5_28 | 29 => win5_29 | 30 => win5_30 | 31 => win5_31 | 32 => win5_32 | 33 => win5_33 | 34 => win5_34 | ⟨_ + 35, h⟩ => absurd h (Nat.not_lt.2 (Nat.le_add_left _ _))
abbrev spec5 : Fin 35 → Pipeline.WinSpec sig grid5.rank := fun w => (win5 w).toWinSpec

abbrev win6_0 : Pipeline.Window sig grid6 :=
  Pipeline.Window.ofSpec (Memref.whole main_v91) S512x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S512x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v91) S512x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v70) S512x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v91) S512x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v23) S512x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v78) S512x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v95) S512x128.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v9) S512x128.size cc6_transform_8 reads6_8 false false 2 stage6_8 sem6_8
    hrank6 hreads6_8 hinb6_8 nbuf6_8 (Memref.isWhole_whole _) hwx6_8 hstage6_8

abbrev win6_9 : Pipeline.Window sig grid6 :=
  Pipeline.Window.ofSpec (Memref.whole main_v38) S512x128.size cc6_transform_9 reads6_9 false false 2 stage6_9 sem6_9
    hrank6 hreads6_9 hinb6_9 nbuf6_9 (Memref.isWhole_whole _) hwx6_9 hstage6_9

abbrev win6_10 : Pipeline.Window sig grid6 :=
  Pipeline.Window.ofSpec (Memref.whole main_v68) S512x128.size cc6_transform_10 reads6_10 false false 2 stage6_10 sem6_10
    hrank6 hreads6_10 hinb6_10 nbuf6_10 (Memref.isWhole_whole _) hwx6_10 hstage6_10

abbrev win6_11 : Pipeline.Window sig grid6 :=
  Pipeline.Window.ofSpec (Memref.whole main_v15) S512x128.size cc6_transform_11 reads6_11 false false 2 stage6_11 sem6_11
    hrank6 hreads6_11 hinb6_11 nbuf6_11 (Memref.isWhole_whole _) hwx6_11 hstage6_11

abbrev win6_12 : Pipeline.Window sig grid6 :=
  Pipeline.Window.ofSpec (Memref.whole main_v53) S512x128.size cc6_transform_12 reads6_12 false false 2 stage6_12 sem6_12
    hrank6 hreads6_12 hinb6_12 nbuf6_12 (Memref.isWhole_whole _) hwx6_12 hstage6_12

abbrev win6_13 : Pipeline.Window sig grid6 :=
  Pipeline.Window.ofSpec (Memref.whole main_v66) S512x128.size cc6_transform_13 reads6_13 false false 2 stage6_13 sem6_13
    hrank6 hreads6_13 hinb6_13 nbuf6_13 (Memref.isWhole_whole _) hwx6_13 hstage6_13

abbrev win6_14 : Pipeline.Window sig grid6 :=
  Pipeline.Window.ofSpec (Memref.whole main_v78) S512x128.size cc6_transform_14 reads6_14 false false 2 stage6_14 sem6_14
    hrank6 hreads6_14 hinb6_14 nbuf6_14 (Memref.isWhole_whole _) hwx6_14 hstage6_14

abbrev win6_15 : Pipeline.Window sig grid6 :=
  Pipeline.Window.ofSpec (Memref.whole main_v95) S512x128.size cc6_transform_15 reads6_15 false false 2 stage6_15 sem6_15
    hrank6 hreads6_15 hinb6_15 nbuf6_15 (Memref.isWhole_whole _) hwx6_15 hstage6_15

abbrev win6_16 : Pipeline.Window sig grid6 :=
  Pipeline.Window.ofSpec (Memref.whole main_v42) S512x128.size cc6_transform_16 reads6_16 false false 2 stage6_16 sem6_16
    hrank6 hreads6_16 hinb6_16 nbuf6_16 (Memref.isWhole_whole _) hwx6_16 hstage6_16

abbrev win6_17 : Pipeline.Window sig grid6 :=
  Pipeline.Window.ofSpec (Memref.whole main_v49) S512x128.size cc6_transform_17 reads6_17 false false 2 stage6_17 sem6_17
    hrank6 hreads6_17 hinb6_17 nbuf6_17 (Memref.isWhole_whole _) hwx6_17 hstage6_17

abbrev win6_18 : Pipeline.Window sig grid6 :=
  Pipeline.Window.ofSpec (Memref.whole main_v51) S512x128.size cc6_transform_18 reads6_18 false false 2 stage6_18 sem6_18
    hrank6 hreads6_18 hinb6_18 nbuf6_18 (Memref.isWhole_whole _) hwx6_18 hstage6_18

abbrev win6_19 : Pipeline.Window sig grid6 :=
  Pipeline.Window.ofSpec (Memref.whole main_v97) S512x128.size cc6_transform_19 reads6_19 false false 2 stage6_19 sem6_19
    hrank6 hreads6_19 hinb6_19 nbuf6_19 (Memref.isWhole_whole _) hwx6_19 hstage6_19

abbrev win6_20 : Pipeline.Window sig grid6 :=
  Pipeline.Window.ofSpec (Memref.whole main_v23) S512x128.size cc6_transform_20 reads6_20 false false 2 stage6_20 sem6_20
    hrank6 hreads6_20 hinb6_20 nbuf6_20 (Memref.isWhole_whole _) hwx6_20 hstage6_20

abbrev win6_21 : Pipeline.Window sig grid6 :=
  Pipeline.Window.ofSpec (Memref.whole main_v53) S512x128.size cc6_transform_21 reads6_21 false false 2 stage6_21 sem6_21
    hrank6 hreads6_21 hinb6_21 nbuf6_21 (Memref.isWhole_whole _) hwx6_21 hstage6_21

abbrev win6_22 : Pipeline.Window sig grid6 :=
  Pipeline.Window.ofSpec (Memref.whole main_v11) S512x128.size cc6_transform_22 reads6_22 false false 2 stage6_22 sem6_22
    hrank6 hreads6_22 hinb6_22 nbuf6_22 (Memref.isWhole_whole _) hwx6_22 hstage6_22

abbrev win6_23 : Pipeline.Window sig grid6 :=
  Pipeline.Window.ofSpec (Memref.whole main_v47) S512x128.size cc6_transform_23 reads6_23 false false 2 stage6_23 sem6_23
    hrank6 hreads6_23 hinb6_23 nbuf6_23 (Memref.isWhole_whole _) hwx6_23 hstage6_23

abbrev win6_24 : Pipeline.Window sig grid6 :=
  Pipeline.Window.ofSpec (Memref.whole main_v95) S512x128.size cc6_transform_24 reads6_24 false false 2 stage6_24 sem6_24
    hrank6 hreads6_24 hinb6_24 nbuf6_24 (Memref.isWhole_whole _) hwx6_24 hstage6_24

abbrev win6_25 : Pipeline.Window sig grid6 :=
  Pipeline.Window.ofSpec (Memref.whole main_v66) S512x128.size cc6_transform_25 reads6_25 false false 2 stage6_25 sem6_25
    hrank6 hreads6_25 hinb6_25 nbuf6_25 (Memref.isWhole_whole _) hwx6_25 hstage6_25

abbrev win6_26 : Pipeline.Window sig grid6 :=
  Pipeline.Window.ofSpec (Memref.whole main_v38) S512x128.size cc6_transform_26 reads6_26 false false 2 stage6_26 sem6_26
    hrank6 hreads6_26 hinb6_26 nbuf6_26 (Memref.isWhole_whole _) hwx6_26 hstage6_26

abbrev win6_27 : Pipeline.Window sig grid6 :=
  Pipeline.Window.ofSpec (Memref.whole main_v99) S512x128.size cc6_transform_27 reads6_27 false false 2 stage6_27 sem6_27
    hrank6 hreads6_27 hinb6_27 nbuf6_27 (Memref.isWhole_whole _) hwx6_27 hstage6_27

abbrev win6_28 : Pipeline.Window sig grid6 :=
  Pipeline.Window.ofSpec (Memref.whole main_v61) S512x128.size cc6_transform_28 reads6_28 false false 2 stage6_28 sem6_28
    hrank6 hreads6_28 hinb6_28 nbuf6_28 (Memref.isWhole_whole _) hwx6_28 hstage6_28

abbrev win6_29 : Pipeline.Window sig grid6 :=
  Pipeline.Window.ofSpec (Memref.whole main_v95) S512x128.size cc6_transform_29 reads6_29 false false 2 stage6_29 sem6_29
    hrank6 hreads6_29 hinb6_29 nbuf6_29 (Memref.isWhole_whole _) hwx6_29 hstage6_29

abbrev win6_30 : Pipeline.Window sig grid6 :=
  Pipeline.Window.ofSpec (Memref.whole main_v4) S512x128.size cc6_transform_30 reads6_30 false false 2 stage6_30 sem6_30
    hrank6 hreads6_30 hinb6_30 nbuf6_30 (Memref.isWhole_whole _) hwx6_30 hstage6_30

abbrev win6_31 : Pipeline.Window sig grid6 :=
  Pipeline.Window.ofSpec (Memref.whole main_v49) S512x128.size cc6_transform_31 reads6_31 false false 2 stage6_31 sem6_31
    hrank6 hreads6_31 hinb6_31 nbuf6_31 (Memref.isWhole_whole _) hwx6_31 hstage6_31

abbrev win6_32 : Pipeline.Window sig grid6 :=
  Pipeline.Window.ofSpec (Memref.whole main_v100) S8x128x128.size cc6_transform_32 reads6_32 false true 1 stage6_32 sem6_32
    hrank6 hreads6_32 hinb6_32 nbuf6_32 (Memref.isWhole_whole _) hwx6_32 hstage6_32

abbrev win6_33 : Pipeline.Window sig grid6 :=
  Pipeline.Window.ofSpec (Memref.whole main_v101) S8x128.size cc6_transform_33 reads6_33 false true 1 stage6_33 sem6_33
    hrank6 hreads6_33 hinb6_33 nbuf6_33 (Memref.isWhole_whole _) hwx6_33 hstage6_33

abbrev win6_34 : Pipeline.Window sig grid6 :=
  Pipeline.Window.ofSpec (Memref.whole main_v102) S8x512x128.size cc6_transform_34 reads6_34 true false 2 stage6_34 sem6_34
    hrank6 hreads6_34 hinb6_34 nbuf6_34 (Memref.isWhole_whole _) hwx6_34 hstage6_34

abbrev win6 : Fin 35 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | 16 => win6_16 | 17 => win6_17 | 18 => win6_18 | 19 => win6_19 | 20 => win6_20 | 21 => win6_21 | 22 => win6_22 | 23 => win6_23 | 24 => win6_24 | 25 => win6_25 | 26 => win6_26 | 27 => win6_27 | 28 => win6_28 | 29 => win6_29 | 30 => win6_30 | 31 => win6_31 | 32 => win6_32 | 33 => win6_33 | 34 => win6_34 | ⟨_ + 35, h⟩ => absurd h (Nat.not_lt.2 (Nat.le_add_left _ _))
abbrev spec6 : Fin 35 → Pipeline.WinSpec sig grid6.rank := fun w => (win6 w).toWinSpec

abbrev win7_0 : Pipeline.Window sig grid7 :=
  Pipeline.Window.ofSpec (Memref.whole main_v99) S512x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S512x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v51) S512x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v61) S512x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v53) S512x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v66) S512x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v32) S512x128.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v95) S512x128.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v13) S512x128.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v53) S512x128.size cc7_transform_9 reads7_9 false false 2 stage7_9 sem7_9
    hrank7 hreads7_9 hinb7_9 nbuf7_9 (Memref.isWhole_whole _) hwx7_9 hstage7_9

abbrev win7_10 : Pipeline.Window sig grid7 :=
  Pipeline.Window.ofSpec (Memref.whole main_v36) S512x128.size cc7_transform_10 reads7_10 false false 2 stage7_10 sem7_10
    hrank7 hreads7_10 hinb7_10 nbuf7_10 (Memref.isWhole_whole _) hwx7_10 hstage7_10

abbrev win7_11 : Pipeline.Window sig grid7 :=
  Pipeline.Window.ofSpec (Memref.whole main_v89) S512x128.size cc7_transform_11 reads7_11 false false 2 stage7_11 sem7_11
    hrank7 hreads7_11 hinb7_11 nbuf7_11 (Memref.isWhole_whole _) hwx7_11 hstage7_11

abbrev win7_12 : Pipeline.Window sig grid7 :=
  Pipeline.Window.ofSpec (Memref.whole main_v91) S512x128.size cc7_transform_12 reads7_12 false false 2 stage7_12 sem7_12
    hrank7 hreads7_12 hinb7_12 nbuf7_12 (Memref.isWhole_whole _) hwx7_12 hstage7_12

abbrev win7_13 : Pipeline.Window sig grid7 :=
  Pipeline.Window.ofSpec (Memref.whole main_v87) S512x128.size cc7_transform_13 reads7_13 false false 2 stage7_13 sem7_13
    hrank7 hreads7_13 hinb7_13 nbuf7_13 (Memref.isWhole_whole _) hwx7_13 hstage7_13

abbrev win7_14 : Pipeline.Window sig grid7 :=
  Pipeline.Window.ofSpec (Memref.whole main_v112) S512x128.size cc7_transform_14 reads7_14 false false 2 stage7_14 sem7_14
    hrank7 hreads7_14 hinb7_14 nbuf7_14 (Memref.isWhole_whole _) hwx7_14 hstage7_14

abbrev win7_15 : Pipeline.Window sig grid7 :=
  Pipeline.Window.ofSpec (Memref.whole main_v112) S512x128.size cc7_transform_15 reads7_15 false false 2 stage7_15 sem7_15
    hrank7 hreads7_15 hinb7_15 nbuf7_15 (Memref.isWhole_whole _) hwx7_15 hstage7_15

abbrev win7_16 : Pipeline.Window sig grid7 :=
  Pipeline.Window.ofSpec (Memref.whole main_v28) S512x128.size cc7_transform_16 reads7_16 false false 2 stage7_16 sem7_16
    hrank7 hreads7_16 hinb7_16 nbuf7_16 (Memref.isWhole_whole _) hwx7_16 hstage7_16

abbrev win7_17 : Pipeline.Window sig grid7 :=
  Pipeline.Window.ofSpec (Memref.whole main_v17) S512x128.size cc7_transform_17 reads7_17 false false 2 stage7_17 sem7_17
    hrank7 hreads7_17 hinb7_17 nbuf7_17 (Memref.isWhole_whole _) hwx7_17 hstage7_17

abbrev win7_18 : Pipeline.Window sig grid7 :=
  Pipeline.Window.ofSpec (Memref.whole main_v19) S512x128.size cc7_transform_18 reads7_18 false false 2 stage7_18 sem7_18
    hrank7 hreads7_18 hinb7_18 nbuf7_18 (Memref.isWhole_whole _) hwx7_18 hstage7_18

abbrev win7_19 : Pipeline.Window sig grid7 :=
  Pipeline.Window.ofSpec (Memref.whole main_v89) S512x128.size cc7_transform_19 reads7_19 false false 2 stage7_19 sem7_19
    hrank7 hreads7_19 hinb7_19 nbuf7_19 (Memref.isWhole_whole _) hwx7_19 hstage7_19

abbrev win7_20 : Pipeline.Window sig grid7 :=
  Pipeline.Window.ofSpec (Memref.whole main_v116) S512x128.size cc7_transform_20 reads7_20 false false 2 stage7_20 sem7_20
    hrank7 hreads7_20 hinb7_20 nbuf7_20 (Memref.isWhole_whole _) hwx7_20 hstage7_20

abbrev win7_21 : Pipeline.Window sig grid7 :=
  Pipeline.Window.ofSpec (Memref.whole main_v112) S512x128.size cc7_transform_21 reads7_21 false false 2 stage7_21 sem7_21
    hrank7 hreads7_21 hinb7_21 nbuf7_21 (Memref.isWhole_whole _) hwx7_21 hstage7_21

abbrev win7_22 : Pipeline.Window sig grid7 :=
  Pipeline.Window.ofSpec (Memref.whole main_v80) S512x128.size cc7_transform_22 reads7_22 false false 2 stage7_22 sem7_22
    hrank7 hreads7_22 hinb7_22 nbuf7_22 (Memref.isWhole_whole _) hwx7_22 hstage7_22

abbrev win7_23 : Pipeline.Window sig grid7 :=
  Pipeline.Window.ofSpec (Memref.whole main_v116) S512x128.size cc7_transform_23 reads7_23 false false 2 stage7_23 sem7_23
    hrank7 hreads7_23 hinb7_23 nbuf7_23 (Memref.isWhole_whole _) hwx7_23 hstage7_23

abbrev win7_24 : Pipeline.Window sig grid7 :=
  Pipeline.Window.ofSpec (Memref.whole main_v106) S512x128.size cc7_transform_24 reads7_24 false false 2 stage7_24 sem7_24
    hrank7 hreads7_24 hinb7_24 nbuf7_24 (Memref.isWhole_whole _) hwx7_24 hstage7_24

abbrev win7_25 : Pipeline.Window sig grid7 :=
  Pipeline.Window.ofSpec (Memref.whole main_v4) S512x128.size cc7_transform_25 reads7_25 false false 2 stage7_25 sem7_25
    hrank7 hreads7_25 hinb7_25 nbuf7_25 (Memref.isWhole_whole _) hwx7_25 hstage7_25

abbrev win7_26 : Pipeline.Window sig grid7 :=
  Pipeline.Window.ofSpec (Memref.whole main_v17) S512x128.size cc7_transform_26 reads7_26 false false 2 stage7_26 sem7_26
    hrank7 hreads7_26 hinb7_26 nbuf7_26 (Memref.isWhole_whole _) hwx7_26 hstage7_26

abbrev win7_27 : Pipeline.Window sig grid7 :=
  Pipeline.Window.ofSpec (Memref.whole main_v106) S512x128.size cc7_transform_27 reads7_27 false false 2 stage7_27 sem7_27
    hrank7 hreads7_27 hinb7_27 nbuf7_27 (Memref.isWhole_whole _) hwx7_27 hstage7_27

abbrev win7_28 : Pipeline.Window sig grid7 :=
  Pipeline.Window.ofSpec (Memref.whole main_v15) S512x128.size cc7_transform_28 reads7_28 false false 2 stage7_28 sem7_28
    hrank7 hreads7_28 hinb7_28 nbuf7_28 (Memref.isWhole_whole _) hwx7_28 hstage7_28

abbrev win7_29 : Pipeline.Window sig grid7 :=
  Pipeline.Window.ofSpec (Memref.whole main_v118) S512x128.size cc7_transform_29 reads7_29 false false 2 stage7_29 sem7_29
    hrank7 hreads7_29 hinb7_29 nbuf7_29 (Memref.isWhole_whole _) hwx7_29 hstage7_29

abbrev win7_30 : Pipeline.Window sig grid7 :=
  Pipeline.Window.ofSpec (Memref.whole main_v99) S512x128.size cc7_transform_30 reads7_30 false false 2 stage7_30 sem7_30
    hrank7 hreads7_30 hinb7_30 nbuf7_30 (Memref.isWhole_whole _) hwx7_30 hstage7_30

abbrev win7_31 : Pipeline.Window sig grid7 :=
  Pipeline.Window.ofSpec (Memref.whole main_v114) S512x128.size cc7_transform_31 reads7_31 false false 2 stage7_31 sem7_31
    hrank7 hreads7_31 hinb7_31 nbuf7_31 (Memref.isWhole_whole _) hwx7_31 hstage7_31

abbrev win7_32 : Pipeline.Window sig grid7 :=
  Pipeline.Window.ofSpec (Memref.whole main_v119) S8x128x128.size cc7_transform_32 reads7_32 false true 1 stage7_32 sem7_32
    hrank7 hreads7_32 hinb7_32 nbuf7_32 (Memref.isWhole_whole _) hwx7_32 hstage7_32

abbrev win7_33 : Pipeline.Window sig grid7 :=
  Pipeline.Window.ofSpec (Memref.whole main_v120) S8x128.size cc7_transform_33 reads7_33 false true 1 stage7_33 sem7_33
    hrank7 hreads7_33 hinb7_33 nbuf7_33 (Memref.isWhole_whole _) hwx7_33 hstage7_33

abbrev win7_34 : Pipeline.Window sig grid7 :=
  Pipeline.Window.ofSpec (Memref.whole main_v121) S8x512x128.size cc7_transform_34 reads7_34 true false 2 stage7_34 sem7_34
    hrank7 hreads7_34 hinb7_34 nbuf7_34 (Memref.isWhole_whole _) hwx7_34 hstage7_34

abbrev win7 : Fin 35 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | 16 => win7_16 | 17 => win7_17 | 18 => win7_18 | 19 => win7_19 | 20 => win7_20 | 21 => win7_21 | 22 => win7_22 | 23 => win7_23 | 24 => win7_24 | 25 => win7_25 | 26 => win7_26 | 27 => win7_27 | 28 => win7_28 | 29 => win7_29 | 30 => win7_30 | 31 => win7_31 | 32 => win7_32 | 33 => win7_33 | 34 => win7_34 | ⟨_ + 35, h⟩ => absurd h (Nat.not_lt.2 (Nat.le_add_left _ _))
abbrev spec7 : Fin 35 → Pipeline.WinSpec sig grid7.rank := fun w => (win7 w).toWinSpec

abbrev win8_0 : Pipeline.Window sig grid8 :=
  Pipeline.Window.ofSpec (Memref.whole main_v53) S512x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v23) S512x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v74) S512x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v135) S512x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v53) S512x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v125) S512x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v55) S512x128.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v114) S512x128.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_v36) S512x128.size cc8_transform_8 reads8_8 false false 2 stage8_8 sem8_8
    hrank8 hreads8_8 hinb8_8 nbuf8_8 (Memref.isWhole_whole _) hwx8_8 hstage8_8

abbrev win8_9 : Pipeline.Window sig grid8 :=
  Pipeline.Window.ofSpec (Memref.whole main_v70) S512x128.size cc8_transform_9 reads8_9 false false 2 stage8_9 sem8_9
    hrank8 hreads8_9 hinb8_9 nbuf8_9 (Memref.isWhole_whole _) hwx8_9 hstage8_9

abbrev win8_10 : Pipeline.Window sig grid8 :=
  Pipeline.Window.ofSpec (Memref.whole main_v49) S512x128.size cc8_transform_10 reads8_10 false false 2 stage8_10 sem8_10
    hrank8 hreads8_10 hinb8_10 nbuf8_10 (Memref.isWhole_whole _) hwx8_10 hstage8_10

abbrev win8_11 : Pipeline.Window sig grid8 :=
  Pipeline.Window.ofSpec (Memref.whole main_v36) S512x128.size cc8_transform_11 reads8_11 false false 2 stage8_11 sem8_11
    hrank8 hreads8_11 hinb8_11 nbuf8_11 (Memref.isWhole_whole _) hwx8_11 hstage8_11

abbrev win8_12 : Pipeline.Window sig grid8 :=
  Pipeline.Window.ofSpec (Memref.whole main_v125) S512x128.size cc8_transform_12 reads8_12 false false 2 stage8_12 sem8_12
    hrank8 hreads8_12 hinb8_12 nbuf8_12 (Memref.isWhole_whole _) hwx8_12 hstage8_12

abbrev win8_13 : Pipeline.Window sig grid8 :=
  Pipeline.Window.ofSpec (Memref.whole main_v112) S512x128.size cc8_transform_13 reads8_13 false false 2 stage8_13 sem8_13
    hrank8 hreads8_13 hinb8_13 nbuf8_13 (Memref.isWhole_whole _) hwx8_13 hstage8_13

abbrev win8_14 : Pipeline.Window sig grid8 :=
  Pipeline.Window.ofSpec (Memref.whole main_v21) S512x128.size cc8_transform_14 reads8_14 false false 2 stage8_14 sem8_14
    hrank8 hreads8_14 hinb8_14 nbuf8_14 (Memref.isWhole_whole _) hwx8_14 hstage8_14

abbrev win8_15 : Pipeline.Window sig grid8 :=
  Pipeline.Window.ofSpec (Memref.whole main_v129) S512x128.size cc8_transform_15 reads8_15 false false 2 stage8_15 sem8_15
    hrank8 hreads8_15 hinb8_15 nbuf8_15 (Memref.isWhole_whole _) hwx8_15 hstage8_15

abbrev win8_16 : Pipeline.Window sig grid8 :=
  Pipeline.Window.ofSpec (Memref.whole main_v135) S512x128.size cc8_transform_16 reads8_16 false false 2 stage8_16 sem8_16
    hrank8 hreads8_16 hinb8_16 nbuf8_16 (Memref.isWhole_whole _) hwx8_16 hstage8_16

abbrev win8_17 : Pipeline.Window sig grid8 :=
  Pipeline.Window.ofSpec (Memref.whole main_v40) S512x128.size cc8_transform_17 reads8_17 false false 2 stage8_17 sem8_17
    hrank8 hreads8_17 hinb8_17 nbuf8_17 (Memref.isWhole_whole _) hwx8_17 hstage8_17

abbrev win8_18 : Pipeline.Window sig grid8 :=
  Pipeline.Window.ofSpec (Memref.whole main_v61) S512x128.size cc8_transform_18 reads8_18 false false 2 stage8_18 sem8_18
    hrank8 hreads8_18 hinb8_18 nbuf8_18 (Memref.isWhole_whole _) hwx8_18 hstage8_18

abbrev win8_19 : Pipeline.Window sig grid8 :=
  Pipeline.Window.ofSpec (Memref.whole main_v76) S512x128.size cc8_transform_19 reads8_19 false false 2 stage8_19 sem8_19
    hrank8 hreads8_19 hinb8_19 nbuf8_19 (Memref.isWhole_whole _) hwx8_19 hstage8_19

abbrev win8_20 : Pipeline.Window sig grid8 :=
  Pipeline.Window.ofSpec (Memref.whole main_v93) S512x128.size cc8_transform_20 reads8_20 false false 2 stage8_20 sem8_20
    hrank8 hreads8_20 hinb8_20 nbuf8_20 (Memref.isWhole_whole _) hwx8_20 hstage8_20

abbrev win8_21 : Pipeline.Window sig grid8 :=
  Pipeline.Window.ofSpec (Memref.whole main_v66) S512x128.size cc8_transform_21 reads8_21 false false 2 stage8_21 sem8_21
    hrank8 hreads8_21 hinb8_21 nbuf8_21 (Memref.isWhole_whole _) hwx8_21 hstage8_21

abbrev win8_22 : Pipeline.Window sig grid8 :=
  Pipeline.Window.ofSpec (Memref.whole main_v23) S512x128.size cc8_transform_22 reads8_22 false false 2 stage8_22 sem8_22
    hrank8 hreads8_22 hinb8_22 nbuf8_22 (Memref.isWhole_whole _) hwx8_22 hstage8_22

abbrev win8_23 : Pipeline.Window sig grid8 :=
  Pipeline.Window.ofSpec (Memref.whole main_v131) S512x128.size cc8_transform_23 reads8_23 false false 2 stage8_23 sem8_23
    hrank8 hreads8_23 hinb8_23 nbuf8_23 (Memref.isWhole_whole _) hwx8_23 hstage8_23

abbrev win8_24 : Pipeline.Window sig grid8 :=
  Pipeline.Window.ofSpec (Memref.whole main_v97) S512x128.size cc8_transform_24 reads8_24 false false 2 stage8_24 sem8_24
    hrank8 hreads8_24 hinb8_24 nbuf8_24 (Memref.isWhole_whole _) hwx8_24 hstage8_24

abbrev win8_25 : Pipeline.Window sig grid8 :=
  Pipeline.Window.ofSpec (Memref.whole main_v11) S512x128.size cc8_transform_25 reads8_25 false false 2 stage8_25 sem8_25
    hrank8 hreads8_25 hinb8_25 nbuf8_25 (Memref.isWhole_whole _) hwx8_25 hstage8_25

abbrev win8_26 : Pipeline.Window sig grid8 :=
  Pipeline.Window.ofSpec (Memref.whole main_v114) S512x128.size cc8_transform_26 reads8_26 false false 2 stage8_26 sem8_26
    hrank8 hreads8_26 hinb8_26 nbuf8_26 (Memref.isWhole_whole _) hwx8_26 hstage8_26

abbrev win8_27 : Pipeline.Window sig grid8 :=
  Pipeline.Window.ofSpec (Memref.whole main_v104) S512x128.size cc8_transform_27 reads8_27 false false 2 stage8_27 sem8_27
    hrank8 hreads8_27 hinb8_27 nbuf8_27 (Memref.isWhole_whole _) hwx8_27 hstage8_27

abbrev win8_28 : Pipeline.Window sig grid8 :=
  Pipeline.Window.ofSpec (Memref.whole main_v30) S512x128.size cc8_transform_28 reads8_28 false false 2 stage8_28 sem8_28
    hrank8 hreads8_28 hinb8_28 nbuf8_28 (Memref.isWhole_whole _) hwx8_28 hstage8_28

abbrev win8_29 : Pipeline.Window sig grid8 :=
  Pipeline.Window.ofSpec (Memref.whole main_v89) S512x128.size cc8_transform_29 reads8_29 false false 2 stage8_29 sem8_29
    hrank8 hreads8_29 hinb8_29 nbuf8_29 (Memref.isWhole_whole _) hwx8_29 hstage8_29

abbrev win8_30 : Pipeline.Window sig grid8 :=
  Pipeline.Window.ofSpec (Memref.whole main_v72) S512x128.size cc8_transform_30 reads8_30 false false 2 stage8_30 sem8_30
    hrank8 hreads8_30 hinb8_30 nbuf8_30 (Memref.isWhole_whole _) hwx8_30 hstage8_30

abbrev win8_31 : Pipeline.Window sig grid8 :=
  Pipeline.Window.ofSpec (Memref.whole main_v9) S512x128.size cc8_transform_31 reads8_31 false false 2 stage8_31 sem8_31
    hrank8 hreads8_31 hinb8_31 nbuf8_31 (Memref.isWhole_whole _) hwx8_31 hstage8_31

abbrev win8_32 : Pipeline.Window sig grid8 :=
  Pipeline.Window.ofSpec (Memref.whole main_v138) S8x128x128.size cc8_transform_32 reads8_32 false true 1 stage8_32 sem8_32
    hrank8 hreads8_32 hinb8_32 nbuf8_32 (Memref.isWhole_whole _) hwx8_32 hstage8_32

abbrev win8_33 : Pipeline.Window sig grid8 :=
  Pipeline.Window.ofSpec (Memref.whole main_v139) S8x128.size cc8_transform_33 reads8_33 false true 1 stage8_33 sem8_33
    hrank8 hreads8_33 hinb8_33 nbuf8_33 (Memref.isWhole_whole _) hwx8_33 hstage8_33

abbrev win8_34 : Pipeline.Window sig grid8 :=
  Pipeline.Window.ofSpec (Memref.whole main_v140) S8x512x128.size cc8_transform_34 reads8_34 true false 2 stage8_34 sem8_34
    hrank8 hreads8_34 hinb8_34 nbuf8_34 (Memref.isWhole_whole _) hwx8_34 hstage8_34

abbrev win8 : Fin 35 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | 16 => win8_16 | 17 => win8_17 | 18 => win8_18 | 19 => win8_19 | 20 => win8_20 | 21 => win8_21 | 22 => win8_22 | 23 => win8_23 | 24 => win8_24 | 25 => win8_25 | 26 => win8_26 | 27 => win8_27 | 28 => win8_28 | 29 => win8_29 | 30 => win8_30 | 31 => win8_31 | 32 => win8_32 | 33 => win8_33 | 34 => win8_34 | ⟨_ + 35, h⟩ => absurd h (Nat.not_lt.2 (Nat.le_add_left _ _))
abbrev spec8 : Fin 35 → Pipeline.WinSpec sig grid8.rank := fun w => (win8 w).toWinSpec

class Facts : Prop extends Facts₀ where

variable [Facts]
-- ==== ReferenceIdeal.lean ====
abbrev S4096x128 : Shape := ⟨2, ![4096, 128]⟩
abbrev S65x128x128 : Shape := ⟨3, ![65, 128, 128]⟩
abbrev S65x128 : Shape := ⟨2, ![65, 128]⟩
abbrev S8x4 : Shape := ⟨2, ![8, 4]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1x4096x128 : Shape := ⟨3, ![1, 4096, 128]⟩
abbrev S8x4x1 : Shape := ⟨3, ![8, 4, 1]⟩
abbrev S8x4x4096x128 : Shape := ⟨4, ![8, 4, 4096, 128]⟩
abbrev S8x4096x128 : Shape := ⟨3, ![8, 4096, 128]⟩
abbrev S8x128x128 : Shape := ⟨3, ![8, 128, 128]⟩
abbrev S8x128 : Shape := ⟨2, ![8, 128]⟩
abbrev S8x1x128 : Shape := ⟨3, ![8, 1, 128]⟩
abbrev S9x4096x128 : Shape := ⟨3, ![9, 4096, 128]⟩
abbrev S17x4096x128 : Shape := ⟨3, ![17, 4096, 128]⟩
abbrev S25x4096x128 : Shape := ⟨3, ![25, 4096, 128]⟩
abbrev S33x4096x128 : Shape := ⟨3, ![33, 4096, 128]⟩
abbrev S41x4096x128 : Shape := ⟨3, ![41, 4096, 128]⟩
abbrev S49x4096x128 : Shape := ⟨3, ![49, 4096, 128]⟩
abbrev S57x4096x128 : Shape := ⟨3, ![57, 4096, 128]⟩
abbrev S65x4096x128 : Shape := ⟨3, ![65, 4096, 128]⟩

abbrev nBuf : Space → Nat
  | .hbm => 182
  | .vmem => 0
  | .smem => 0
  | _ => 0

abbrev hbmTy0_0 (i : Nat) : BufTy := match i % 128 with
  | 0 => ⟨S4096x128, .f32⟩
  | 1 => ⟨S65x128x128, .f32⟩
  | 2 => ⟨S65x128, .f32⟩
  | 3 => ⟨S8x4, .i32⟩
  | 4 => ⟨S8x4, .i1⟩
  | 5 => ⟨S8x4, .i32⟩
  | 6 => ⟨S8x4, .i1⟩
  | 7 => ⟨S8x4, .i32⟩
  | 8 => ⟨S8x4, .i1⟩
  | 9 => ⟨S8x4, .i32⟩
  | 10 => ⟨S8x4, .i1⟩
  | 11 => ⟨S8x4, .i32⟩
  | 12 => ⟨S8x4, .i1⟩
  | 13 => ⟨S8x4, .i32⟩
  | 14 => ⟨S8x4, .i1⟩
  | 15 => ⟨S8x4, .i32⟩
  | 16 => ⟨S8x4, .i1⟩
  | 17 => ⟨S8x4, .i32⟩
  | 18 => ⟨S8x4, .i1⟩
  | 19 => ⟨S1x128x128, .f32⟩
  | 20 => ⟨S128x128, .f32⟩
  | 21 => ⟨S128x128, .f32⟩
  | 22 => ⟨S4096x128, .f32⟩
  | 23 => ⟨S1x128, .f32⟩
  | 24 => ⟨S128, .f32⟩
  | 25 => ⟨S1x128, .f32⟩
  | 26 => ⟨S4096x128, .f32⟩
  | 27 => ⟨S4096x128, .f32⟩
  | 28 => ⟨S_, .f32⟩
  | 29 => ⟨S4096x128, .f32⟩
  | 30 => ⟨S4096x128, .f32⟩
  | 31 => ⟨S1x4096x128, .f32⟩
  | 32 => ⟨S_, .i32⟩
  | 33 => ⟨S8x4, .i32⟩
  | 34 => ⟨S8x4, .i32⟩
  | 35 => ⟨S8x4, .i32⟩
  | 36 => ⟨S8x4x1, .i32⟩
  | 37 => ⟨S8x4x4096x128, .f32⟩
  | 38 => ⟨S_, .f32⟩
  | 39 => ⟨S8x4096x128, .f32⟩
  | 40 => ⟨S8x128x128, .f32⟩
  | 41 => ⟨S8x128, .f32⟩
  | 42 => ⟨S8x4096x128, .f32⟩
  | 43 => ⟨S8x1x128, .f32⟩
  | 44 => ⟨S8x4096x128, .f32⟩
  | 45 => ⟨S8x4096x128, .f32⟩
  | 46 => ⟨S_, .f32⟩
  | 47 => ⟨S8x4096x128, .f32⟩
  | 48 => ⟨S8x4096x128, .f32⟩
  | 49 => ⟨S9x4096x128, .f32⟩
  | 50 => ⟨S_, .i32⟩
  | 51 => ⟨S8x4, .i32⟩
  | 52 => ⟨S8x4, .i32⟩
  | 53 => ⟨S8x4, .i32⟩
  | 54 => ⟨S8x4x1, .i32⟩
  | 55 => ⟨S8x4x4096x128, .f32⟩
  | 56 => ⟨S_, .f32⟩
  | 57 => ⟨S8x4096x128, .f32⟩
  | 58 => ⟨S8x128x128, .f32⟩
  | 59 => ⟨S8x128, .f32⟩
  | 60 => ⟨S8x4096x128, .f32⟩
  | 61 => ⟨S8x1x128, .f32⟩
  | 62 => ⟨S8x4096x128, .f32⟩
  | 63 => ⟨S8x4096x128, .f32⟩
  | 64 => ⟨S_, .f32⟩
  | 65 => ⟨S8x4096x128, .f32⟩
  | 66 => ⟨S8x4096x128, .f32⟩
  | 67 => ⟨S17x4096x128, .f32⟩
  | 68 => ⟨S_, .i32⟩
  | 69 => ⟨S8x4, .i32⟩
  | 70 => ⟨S8x4, .i32⟩
  | 71 => ⟨S8x4, .i32⟩
  | 72 => ⟨S8x4x1, .i32⟩
  | 73 => ⟨S8x4x4096x128, .f32⟩
  | 74 => ⟨S_, .f32⟩
  | 75 => ⟨S8x4096x128, .f32⟩
  | 76 => ⟨S8x128x128, .f32⟩
  | 77 => ⟨S8x128, .f32⟩
  | 78 => ⟨S8x4096x128, .f32⟩
  | 79 => ⟨S8x1x128, .f32⟩
  | 80 => ⟨S8x4096x128, .f32⟩
  | 81 => ⟨S8x4096x128, .f32⟩
  | 82 => ⟨S_, .f32⟩
  | 83 => ⟨S8x4096x128, .f32⟩
  | 84 => ⟨S8x4096x128, .f32⟩
  | 85 => ⟨S25x4096x128, .f32⟩
  | 86 => ⟨S_, .i32⟩
  | 87 => ⟨S8x4, .i32⟩
  | 88 => ⟨S8x4, .i32⟩
  | 89 => ⟨S8x4, .i32⟩
  | 90 => ⟨S8x4x1, .i32⟩
  | 91 => ⟨S8x4x4096x128, .f32⟩
  | 92 => ⟨S_, .f32⟩
  | 93 => ⟨S8x4096x128, .f32⟩
  | 94 => ⟨S8x128x128, .f32⟩
  | 95 => ⟨S8x128, .f32⟩
  | 96 => ⟨S8x4096x128, .f32⟩
  | 97 => ⟨S8x1x128, .f32⟩
  | 98 => ⟨S8x4096x128, .f32⟩
  | 99 => ⟨S8x4096x128, .f32⟩
  | 100 => ⟨S_, .f32⟩
  | 101 => ⟨S8x4096x128, .f32⟩
  | 102 => ⟨S8x4096x128, .f32⟩
  | 103 => ⟨S33x4096x128, .f32⟩
  | 104 => ⟨S_, .i32⟩
  | 105 => ⟨S8x4, .i32⟩
  | 106 => ⟨S8x4, .i32⟩
  | 107 => ⟨S8x4, .i32⟩
  | 108 => ⟨S8x4x1, .i32⟩
  | 109 => ⟨S8x4x4096x128, .f32⟩
  | 110 => ⟨S_, .f32⟩
  | 111 => ⟨S8x4096x128, .f32⟩
  | 112 => ⟨S8x128x128, .f32⟩
  | 113 => ⟨S8x128, .f32⟩
  | 114 => ⟨S8x4096x128, .f32⟩
  | 115 => ⟨S8x1x128, .f32⟩
  | 116 => ⟨S8x4096x128, .f32⟩
  | 117 => ⟨S8x4096x128, .f32⟩
  | 118 => ⟨S_, .f32⟩
  | 119 => ⟨S8x4096x128, .f32⟩
  | 120 => ⟨S8x4096x128, .f32⟩
  | 121 => ⟨S41x4096x128, .f32⟩
  | 122 => ⟨S_, .i32⟩
  | 123 => ⟨S8x4, .i32⟩
  | 124 => ⟨S8x4, .i32⟩
  | 125 => ⟨S8x4, .i32⟩
  | 126 => ⟨S8x4x1, .i32⟩
  | 127 => ⟨S8x4x4096x128, .f32⟩
  | _ => ⟨S4096x128, .f32⟩

abbrev hbmTy0_1 (i : Nat) : BufTy := match i % 128 with
  | 0 => ⟨S_, .f32⟩
  | 1 => ⟨S8x4096x128, .f32⟩
  | 2 => ⟨S8x128x128, .f32⟩
  | 3 => ⟨S8x128, .f32⟩
  | 4 => ⟨S8x4096x128, .f32⟩
  | 5 => ⟨S8x1x128, .f32⟩
  | 6 => ⟨S8x4096x128, .f32⟩
  | 7 => ⟨S8x4096x128, .f32⟩
  | 8 => ⟨S_, .f32⟩
  | 9 => ⟨S8x4096x128, .f32⟩
  | 10 => ⟨S8x4096x128, .f32⟩
  | 11 => ⟨S49x4096x128, .f32⟩
  | 12 => ⟨S_, .i32⟩
  | 13 => ⟨S8x4, .i32⟩
  | 14 => ⟨S8x4, .i32⟩
  | 15 => ⟨S8x4, .i32⟩
  | 16 => ⟨S8x4x1, .i32⟩
  | 17 => ⟨S8x4x4096x128, .f32⟩
  | 18 => ⟨S_, .f32⟩
  | 19 => ⟨S8x4096x128, .f32⟩
  | 20 => ⟨S8x128x128, .f32⟩
  | 21 => ⟨S8x128, .f32⟩
  | 22 => ⟨S8x4096x128, .f32⟩
  | 23 => ⟨S8x1x128, .f32⟩
  | 24 => ⟨S8x4096x128, .f32⟩
  | 25 => ⟨S8x4096x128, .f32⟩
  | 26 => ⟨S_, .f32⟩
  | 27 => ⟨S8x4096x128, .f32⟩
  | 28 => ⟨S8x4096x128, .f32⟩
  | 29 => ⟨S57x4096x128, .f32⟩
  | 30 => ⟨S_, .i32⟩
  | 31 => ⟨S8x4, .i32⟩
  | 32 => ⟨S8x4, .i32⟩
  | 33 => ⟨S8x4, .i32⟩
  | 34 => ⟨S8x4x1, .i32⟩
  | 35 => ⟨S8x4x4096x128, .f32⟩
  | 36 => ⟨S_, .f32⟩
  | 37 => ⟨S8x4096x128, .f32⟩
  | 38 => ⟨S8x128x128, .f32⟩
  | 39 => ⟨S8x128, .f32⟩
  | 40 => ⟨S8x4096x128, .f32⟩
  | 41 => ⟨S8x1x128, .f32⟩
  | 42 => ⟨S8x4096x128, .f32⟩
  | 43 => ⟨S8x4096x128, .f32⟩
  | 44 => ⟨S_, .f32⟩
  | 45 => ⟨S8x4096x128, .f32⟩
  | 46 => ⟨S8x4096x128, .f32⟩
  | 47 => ⟨S65x4096x128, .f32⟩
  | 48 => ⟨S8x4096x128, .f32⟩
  | 49 => ⟨S_, .f32⟩
  | 50 => ⟨S4096x128, .f32⟩
  | 51 => ⟨S_, .f32⟩
  | 52 => ⟨S4096x128, .f32⟩
  | 53 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_v10 : Ref sig .tc := ⟨.hbm, 31, rfl⟩
abbrev main_c_15 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_v23 : Ref sig .tc := ⟨.hbm, 48, rfl⟩
abbrev main_v24 : Ref sig .tc := ⟨.hbm, 49, rfl⟩
abbrev main_c_16 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_17 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_c_18 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_19 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_cst : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩
abbrev main_c_20 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call4_cst : Ref sig .tc := ⟨.hbm, 100, rfl⟩
abbrev main_call4_v0 : Ref sig .tc := ⟨.hbm, 101, rfl⟩
abbrev main_v65 : Ref sig .tc := ⟨.hbm, 102, rfl⟩
abbrev main_v66 : Ref sig .tc := ⟨.hbm, 103, rfl⟩
abbrev main_c_22 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_23 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call5_cst : Ref sig .tc := ⟨.hbm, 118, rfl⟩
abbrev main_call5_v0 : Ref sig .tc := ⟨.hbm, 119, rfl⟩
abbrev main_v79 : Ref sig .tc := ⟨.hbm, 120, rfl⟩
abbrev main_v80 : Ref sig .tc := ⟨.hbm, 121, rfl⟩
abbrev main_c_24 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_25 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call6_cst : Ref sig .tc := ⟨.hbm, 136, rfl⟩
abbrev main_call6_v0 : Ref sig .tc := ⟨.hbm, 137, rfl⟩
abbrev main_v93 : Ref sig .tc := ⟨.hbm, 138, rfl⟩
abbrev main_v94 : Ref sig .tc := ⟨.hbm, 139, rfl⟩
abbrev main_c_26 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_27 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call7_cst : Ref sig .tc := ⟨.hbm, 154, rfl⟩
abbrev main_call7_v0 : Ref sig .tc := ⟨.hbm, 155, rfl⟩
abbrev main_v107 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_29 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_call8_cst : Ref sig .tc := ⟨.hbm, 172, rfl⟩
abbrev main_call8_v0 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_cst_31 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]

class Facts₀ : Prop where
  slices_S65x128x128_S1x128x128_0_0_0 : S65x128x128.Slices ![0, 0, 0] S1x128x128
  shapeCasts_S1x128x128_S128x128 : S1x128x128.ShapeCasts S128x128
  transposes_S128x128_S128x128_1_0 : S128x128.Transposes [1, 0] S128x128
  slices_S65x128_S1x128_0_0 : S65x128.Slices ![0, 0] S1x128
  shapeCasts_S1x128_S128 : S1x128.ShapeCasts S128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S4096x128_S1x4096x128_1_2 : S4096x128.BroadcastsInDim S1x4096x128 (![1, 2] : Fin 2 → Fin S1x4096x128.rank)
  bcast_S_S8x4 : S_.BroadcastsInDim S8x4 (![] : Fin 0 → Fin S8x4.rank)
  bcast_S8x4_S8x4x1_0_1 : S8x4.BroadcastsInDim S8x4x1 (![0, 1] : Fin 2 → Fin S8x4x1.rank)
  reducesTo_S8x4x4096x128_S8x4096x128_d1 : S8x4x4096x128.ReducesTo [1] S8x4096x128
  h_S_ : 0 < S_.numel
  slices_S65x128x128_S8x128x128_1_0_0 : S65x128x128.Slices ![1, 0, 0] S8x128x128
  slices_S65x128_S8x128_1_0 : S65x128.Slices ![1, 0] S8x128
  bcast_S8x128_S8x1x128_0_2 : S8x128.BroadcastsInDim S8x1x128 (![0, 2] : Fin 2 → Fin S8x1x128.rank)
  bcast_S8x1x128_S8x4096x128_0_1_2 : S8x1x128.BroadcastsInDim S8x4096x128 (![0, 1, 2] : Fin 3 → Fin S8x4096x128.rank)
  bcast_S_S8x4096x128 : S_.BroadcastsInDim S8x4096x128 (![] : Fin 0 → Fin S8x4096x128.rank)
  concatenates_S1x4096x128_S8x4096x128_S9x4096x128_d0 : Shape.Concatenates [S1x4096x128, S8x4096x128] S9x4096x128 0
  slices_S65x128x128_S8x128x128_9_0_0 : S65x128x128.Slices ![9, 0, 0] S8x128x128
  slices_S65x128_S8x128_9_0 : S65x128.Slices ![9, 0] S8x128
  concatenates_S9x4096x128_S8x4096x128_S17x4096x128_d0 : Shape.Concatenates [S9x4096x128, S8x4096x128] S17x4096x128 0
  slices_S65x128x128_S8x128x128_17_0_0 : S65x128x128.Slices ![17, 0, 0] S8x128x128
  slices_S65x128_S8x128_17_0 : S65x128.Slices ![17, 0] S8x128
  concatenates_S17x4096x128_S8x4096x128_S25x4096x128_d0 : Shape.Concatenates [S17x4096x128, S8x4096x128] S25x4096x128 0
  slices_S65x128x128_S8x128x128_25_0_0 : S65x128x128.Slices ![25, 0, 0] S8x128x128
  slices_S65x128_S8x128_25_0 : S65x128.Slices ![25, 0] S8x128
  concatenates_S25x4096x128_S8x4096x128_S33x4096x128_d0 : Shape.Concatenates [S25x4096x128, S8x4096x128] S33x4096x128 0
  slices_S65x128x128_S8x128x128_33_0_0 : S65x128x128.Slices ![33, 0, 0] S8x128x128
  slices_S65x128_S8x128_33_0 : S65x128.Slices ![33, 0] S8x128
  concatenates_S33x4096x128_S8x4096x128_S41x4096x128_d0 : Shape.Concatenates [S33x4096x128, S8x4096x128] S41x4096x128 0
  slices_S65x128x128_S8x128x128_41_0_0 : S65x128x128.Slices ![41, 0, 0] S8x128x128
  slices_S65x128_S8x128_41_0 : S65x128.Slices ![41, 0] S8x128
  concatenates_S41x4096x128_S8x4096x128_S49x4096x128_d0 : Shape.Concatenates [S41x4096x128, S8x4096x128] S49x4096x128 0
  slices_S65x128x128_S8x128x128_49_0_0 : S65x128x128.Slices ![49, 0, 0] S8x128x128
  slices_S65x128_S8x128_49_0 : S65x128.Slices ![49, 0] S8x128
  concatenates_S49x4096x128_S8x4096x128_S57x4096x128_d0 : Shape.Concatenates [S49x4096x128, S8x4096x128] S57x4096x128 0
  slices_S65x128x128_S8x128x128_57_0_0 : S65x128x128.Slices ![57, 0, 0] S8x128x128
  slices_S65x128_S8x128_57_0 : S65x128.Slices ![57, 0] S8x128
  concatenates_S57x4096x128_S8x4096x128_S65x4096x128_d0 : Shape.Concatenates [S57x4096x128, S8x4096x128] S65x4096x128 0
  slices_S65x4096x128_S8x4096x128_57_0_0 : S65x4096x128.Slices ![57, 0, 0] S8x4096x128
  reducesTo_S8x4096x128_S4096x128_d0 : S8x4096x128.ReducesTo [0] S4096x128
  dot_S4096x128_S128x128_S4096x128_1_0_0_1_n_n_wf : DotDims.WF S4096x128 S128x128 S4096x128 [1] [0] [0] [1] [] []
  gather_S1x4096x128_S8x4x1_S8x4x4096x128_23_0_n_n_0_2_14096128_wf : GatherDims.WF S1x4096x128 S8x4x1 S8x4x4096x128 [2, 3] [0] [] [0] [] 2 ![1, 4096, 128]
  dot_S8x4096x128_S8x128x128_S8x4096x128_2_2_1_1_0_0_wf : DotDims.WF S8x4096x128 S8x128x128 S8x4096x128 [2] [2] [1] [1] [0] [0]
  gather_S9x4096x128_S8x4x1_S8x4x4096x128_23_0_n_n_0_2_14096128_wf : GatherDims.WF S9x4096x128 S8x4x1 S8x4x4096x128 [2, 3] [0] [] [0] [] 2 ![1, 4096, 128]
  gather_S17x4096x128_S8x4x1_S8x4x4096x128_23_0_n_n_0_2_14096128_wf : GatherDims.WF S17x4096x128 S8x4x1 S8x4x4096x128 [2, 3] [0] [] [0] [] 2 ![1, 4096, 128]
  gather_S25x4096x128_S8x4x1_S8x4x4096x128_23_0_n_n_0_2_14096128_wf : GatherDims.WF S25x4096x128 S8x4x1 S8x4x4096x128 [2, 3] [0] [] [0] [] 2 ![1, 4096, 128]
  gather_S33x4096x128_S8x4x1_S8x4x4096x128_23_0_n_n_0_2_14096128_wf : GatherDims.WF S33x4096x128 S8x4x1 S8x4x4096x128 [2, 3] [0] [] [0] [] 2 ![1, 4096, 128]
  gather_S41x4096x128_S8x4x1_S8x4x4096x128_23_0_n_n_0_2_14096128_wf : GatherDims.WF S41x4096x128 S8x4x1 S8x4x4096x128 [2, 3] [0] [] [0] [] 2 ![1, 4096, 128]
  gather_S49x4096x128_S8x4x1_S8x4x4096x128_23_0_n_n_0_2_14096128_wf : GatherDims.WF S49x4096x128 S8x4x1 S8x4x4096x128 [2, 3] [0] [] [0] [] 2 ![1, 4096, 128]
  gather_S57x4096x128_S8x4x1_S8x4x4096x128_23_0_n_n_0_2_14096128_wf : GatherDims.WF S57x4096x128 S8x4x1 S8x4x4096x128 [2, 3] [0] [] [0] [] 2 ![1, 4096, 128]

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S1x4096x128_S8x4x1_S8x4x4096x128_23_0_n_n_0_2_14096128 : GatherDims S1x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S1x4096x128_S8x4x1_S8x4x4096x128_23_0_n_n_0_2_14096128_wf
def dot_S8x4096x128_S8x128x128_S8x4096x128_2_2_1_1_0_0 : DotDims S8x4096x128 S8x128x128 S8x4096x128 where
  lhsContracting := [2]
  rhsContracting := [2]
  lhsNonContracting := [1]
  rhsNonContracting := [1]
  lhsBatch := [0]
  rhsBatch := [0]
  wf := dot_S8x4096x128_S8x128x128_S8x4096x128_2_2_1_1_0_0_wf
def gather_S9x4096x128_S8x4x1_S8x4x4096x128_23_0_n_n_0_2_14096128 : GatherDims S9x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S9x4096x128_S8x4x1_S8x4x4096x128_23_0_n_n_0_2_14096128_wf
def gather_S17x4096x128_S8x4x1_S8x4x4096x128_23_0_n_n_0_2_14096128 : GatherDims S17x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S17x4096x128_S8x4x1_S8x4x4096x128_23_0_n_n_0_2_14096128_wf
def gather_S25x4096x128_S8x4x1_S8x4x4096x128_23_0_n_n_0_2_14096128 : GatherDims S25x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S25x4096x128_S8x4x1_S8x4x4096x128_23_0_n_n_0_2_14096128_wf
def gather_S33x4096x128_S8x4x1_S8x4x4096x128_23_0_n_n_0_2_14096128 : GatherDims S33x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S33x4096x128_S8x4x1_S8x4x4096x128_23_0_n_n_0_2_14096128_wf
def gather_S41x4096x128_S8x4x1_S8x4x4096x128_23_0_n_n_0_2_14096128 : GatherDims S41x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S41x4096x128_S8x4x1_S8x4x4096x128_23_0_n_n_0_2_14096128_wf
def gather_S49x4096x128_S8x4x1_S8x4x4096x128_23_0_n_n_0_2_14096128 : GatherDims S49x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S49x4096x128_S8x4x1_S8x4x4096x128_23_0_n_n_0_2_14096128_wf
def gather_S57x4096x128_S8x4x1_S8x4x4096x128_23_0_n_n_0_2_14096128 : GatherDims S57x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S57x4096x128_S8x4x1_S8x4x4096x128_23_0_n_n_0_2_14096128_wf

class Facts : Prop extends Facts₀ where

variable [Facts]
-- ==== Proof.K.R0.lean ====
/- REGION 0 of the kernel's @main (pipeline 0, the grid of 8 row blocks): at any contents `V` of the TensorCore's
   buffers when the region is entered, each window's block at a point, what the body leaves in the output window's
   staging buffer as a closed function of the three input blocks (relu of the row block times the first weight
   slab plus the first bias row), the body's triple, the pipeline's proof data and the body obligation. Generic in
   the float model `F`. -/
import proofs.«135270_j33062658245245_1_alg».proof.Proof.K.LaunchP
import proofs.«135270_j33062658245245_1_alg».proof.Proof.Gen.Kernel.Skeleton
import proofs.«135270_j33062658245245_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight-slab window is fetched at the first point only; its block index never moves, so at every later point
    the buffer still holds the one block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias-row window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S512x128 := Rect.unit (s := S512x128) ![0, 0] S512x128.size inb_S512x128_S512x128_0_0
abbrev r0_1 : Rect S1x128x128 := Rect.unit (s := S1x128x128) ![0, 0, 0] S1x128x128.size inb_S1x128x128_S1x128x128_0_0_0
abbrev r0_2 : Rect S1x128 := Rect.unit (s := S1x128) ![0, 0] S1x128.size inb_S1x128_S1x128_0_0
abbrev r0_3 : Rect S1x512x128 := Rect.unit (s := S1x512x128) ![0, 0, 0] S1x512x128.size inb_S1x512x128_S1x512x128_0_0_0

/-! ## What the body leaves in the output window's buffer -/

/-- The output window's staging buffer after the body, from the three input blocks: its one store, whole, of the
    payload over the three loads. -/
def out0_3 (x0 : Vec F S512x128 .f32) (x1 : Vec F S1x128x128 .f32) (x2 : Vec F S1x128 .f32) : Vec F S1x512x128 .f32 :=
  View.canon [⟨r0_3, k0_pay1 (View.ld x0 r0_0) (View.ld x1 r0_1) (View.ld x2 r0_2)⟩]

/-- The one store is the whole buffer, so it covers it. -/
theorem cover0_3 (p0 : Vec F S1x512x128 .f32) (y : S1x512x128.Idx) :
    ∃ pc ∈ ([⟨r0_3, p0⟩] : List (View.Piece (Elt F) S1x512x128 .f32)), y ∈ pc.1.set :=
  View.cover_of_tiled [⟨r0_3, p0⟩] S1x512x128.size (by rfl) y

/-! ## The body's triple -/

set_option maxHeartbeats 1000000 in
/-- The kernel body on whole staging memrefs, the three inputs' at read contents `x0 x1 x2` and the output's at
    anything (the body reads it once before it overwrites it whole, and uses nothing of what it read), runs to the
    continuation holding the inputs' as they were and the output's at `out0_3` of the inputs'. -/
theorem sound_kernel0 (c : Dev nD) (E : Set ℕ) (i : grid0.Coords)
    (arg1 : Memref sig .tc .vmem S512x128 .f32) (harg1 : arg1.IsWhole) (arg2 : Memref sig .tc .vmem S1x128x128 .f32) (harg2 : arg2.IsWhole)
    (arg3 : Memref sig .tc .vmem S1x128 .f32) (harg3 : arg3.IsWhole) (arg4 : Memref sig .tc .vmem S1x512x128 .f32) (harg4 : arg4.IsWhole)
    (x0 : Vec F S512x128 .f32) (x1 : Vec F S1x128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__group_kernel i arg1 harg1 arg2 harg2 arg3 harg3 arg4 harg4) K := by
  simp only [cc0__group_kernel_eq_skeleton]; unfold cc0__group_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibSharedArrays.lean ====
/-
  One buffer read through several windows of a pipeline.

  A pipeline holds each input window's array at a positive share and each output window's at the full share. When
  several input windows of one pallas_call are the SAME array, the buffer behind it — held whole, at the full share —
  has to be dealt among those windows and put back together afterwards. The shares: list the windows of one buffer in
  window order; the last keeps the full share halved once per earlier window (its left half each time), and the i-th
  earlier window takes the right half split off at step i. A window alone on its buffer keeps the full share. The
  two entailments below are that deal and its inverse, for every buffer at once: the distinct buffers behind the
  windows' arrays, each whole at the full share, against one points-to per window at the window's share.

  The proof has three steps. A big separating conjunction over a finite set regroups along any function on the set:
  it is the conjunction, over the values the function takes, of the conjunctions over the fibres (`bigSep_fibres`).
  Within one finite set of a linear order, counting the members below a member is injective and takes exactly the
  values below the set's size (`rank_image`, `rank_injOn`), so a conjunction over the set whose summand depends on
  the member through that count only is a conjunction over an initial segment of the naturals. Over that segment the
  shares are one remainder and the tokens split off before it, which compose to the share dealt (`pointsTo_deal_range`,
  from the library's `Transfers.pointsTo_toks_range`).
-/
import Idealize.ShloMosaic.Lib.Pipeline.Launch
import Idealize.ShloMosaic.Lib.Transfers

noncomputable section

namespace Cert.Lib.SharedArrays

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- How many windows before `w` read the same buffer as `w`. -/
def rank {W : Nat} (r : Fin W → Ref sig .tc) (w : Fin W) : Nat :=
  (Finset.univ.filter fun w' : Fin W => w' < w ∧ r w' = r w).card

/-- How many windows read the same buffer as `w` (itself included). -/
def count {W : Nat} (r : Fin W → Ref sig .tc) (w : Fin W) : Nat :=
  (Finset.univ.filter fun w' : Fin W => r w' = r w).card

/-- The share window `w` holds of its buffer: the last window of a buffer keeps what is left of the full share after
    one token per earlier window; an earlier window holds its token. -/
def shareOf {W : Nat} (r : Fin W → Ref sig .tc) (w : Fin W) : PosShare TreeShare :=
  if rank r w + 1 = count r w then Transfers.shareDrop fullShare (rank r w) else Transfers.shareTokN fullShare (rank r w)

/-! ### Regrouping a big separating conjunction along a function -/

/-- A big separating conjunction over a finite set `s`, regrouped along a function `r` on it: the conjunction over the
    values `r` takes on `s` of the conjunctions over the fibres of `r` in `s`. -/
theorem bigSep_fibres {M : Type} [URA M] {I J : Type} [DecidableEq I] [DecidableEq J] (s : Finset I) (r : I → J) (Φ : I → sProp M) :
    bigSep (s.image r) (fun b => bigSep (s.filter fun i => r i = b) Φ) = bigSep s Φ := by
  have key : ∀ t : Finset J, bigSep t (fun b => bigSep (s.filter fun i => r i = b) Φ) = bigSep (s.filter fun i => r i ∈ t) Φ := by
    intro t
    induction t using Finset.induction_on with
    | empty => simp
    | insert b t hb ih =>
      have hsplit : (s.filter fun i => r i ∈ insert b t) = (s.filter fun i => r i = b) ∪ (s.filter fun i => r i ∈ t) := by
        ext i
        simp only [Finset.mem_filter, Finset.mem_insert, Finset.mem_union]
        tauto
      have hdisj : Disjoint (s.filter fun i => r i = b) (s.filter fun i => r i ∈ t) := by
        refine Finset.disjoint_left.mpr fun i h₁ h₂ => hb ?_
        rw [← (Finset.mem_filter.mp h₁).2]
        exact (Finset.mem_filter.mp h₂).2
      rw [bigSep_insert hb, ih, hsplit, bigSep_union hdisj]
  rw [key]
  congr 1
  exact Finset.filter_true_of_mem fun i hi => Finset.mem_image_of_mem r hi

/-! ### Counting the members of a finite set below a member -/

section Rank

variable {α : Type} [LinearOrder α] (F : Finset α)

/-- The number of members of `F` below `w` grows strictly along the members of `F`. -/
theorem below_card_lt {w₁ w₂ : α} (h₁ : w₁ ∈ F) (h : w₁ < w₂) :
    (F.filter (· < w₁)).card < (F.filter (· < w₂)).card := by
  refine Finset.card_lt_card ⟨fun x hx => ?_, fun hsub => ?_⟩
  · exact Finset.mem_filter.mpr ⟨(Finset.mem_filter.mp hx).1, lt_trans (Finset.mem_filter.mp hx).2 h⟩
  · exact lt_irrefl w₁ (Finset.mem_filter.mp (hsub (Finset.mem_filter.mpr ⟨h₁, h⟩))).2

/-- so it is injective on `F`, -/
theorem rank_injOn : Set.InjOn (fun w => (F.filter (· < w)).card) (F : Set α) := by
  intro w₁ h₁ w₂ h₂ e
  rcases lt_trichotomy w₁ w₂ with h | h | h
  · exact absurd e (below_card_lt F h₁ h).ne
  · exact h
  · exact absurd e (below_card_lt F h₂ h).ne'

/-- and takes on `F` exactly the values below the size of `F`. -/
theorem rank_image [DecidableEq α] : F.image (fun w => (F.filter (· < w)).card) = Finset.range F.card := by
  refine Finset.eq_of_subset_of_card_le (fun k hk => ?_) ?_
  · obtain ⟨w, hw, rfl⟩ := Finset.mem_image.mp hk
    refine Finset.mem_range.mpr (Finset.card_lt_card ⟨Finset.filter_subset _ _, fun hsub => ?_⟩)
    exact lt_irrefl w (Finset.mem_filter.mp (hsub hw)).2
  · rw [Finset.card_range, Finset.card_image_of_injOn (rank_injOn F)]

end Rank

/-! ### One buffer's share dealt along an initial segment of the naturals, and along a finite set -/

section Deal

variable {ℓ : Loc nD τ sig} (f : Buf Val ℓ) (q : PosShare TreeShare)

/-- A share dealt in `n + 1` parts — step `k < n` its `k`-th token, step `n` the remainder after `n` tokens —: the
    parts of a buffer's points-to compose to the points-to at the share. -/
theorem pointsTo_deal_range (n : ℕ) :
    bigSep (Finset.range (n + 1))
        (fun k => (ℓ ↦{if k + 1 = n + 1 then Transfers.shareDrop q k else Transfers.shareTokN q k} f : sProp 𝕄))
      = (ℓ ↦{q} f : sProp 𝕄) := by
  rw [Finset.range_add_one, bigSep_insert Finset.notMem_range_self, if_pos rfl,
    bigSep_congr (s := Finset.range n) (Ψ := fun k => (ℓ ↦{Transfers.shareTokN q k} f : sProp 𝕄)) fun k hk => by
      rw [if_neg (fun h => (Finset.mem_range.mp hk).ne (Nat.succ_injective h))]]
  have h : (ℓ ↦{q} f : sProp 𝕄) ⊣⊢ _ := Transfers.pointsTo_toks_range (S := Finset.univ) q n
  exact (Entails.antisymm h.1 h.2).symm

/-- The same along a nonempty finite set `F` of a linear order, a member's step being the number of members below it:
    the last member holds the remainder, every other its token. -/
theorem pointsTo_deal {α : Type} [LinearOrder α] (F : Finset α) (hF : F.Nonempty) :
    bigSep F (fun w => (ℓ ↦{if (F.filter (· < w)).card + 1 = F.card then Transfers.shareDrop q (F.filter (· < w)).card
        else Transfers.shareTokN q (F.filter (· < w)).card} f : sProp 𝕄))
      = (ℓ ↦{q} f : sProp 𝕄) := by
  classical
  obtain ⟨n, hn⟩ : ∃ n, F.card = n + 1 := Nat.exists_eq_succ_of_ne_zero (Finset.card_pos.mpr hF).ne'
  have h := bigSep_image_of_injOn (rank_injOn F)
    (fun k => (ℓ ↦{if k + 1 = n + 1 then Transfers.shareDrop q k else Transfers.shareTokN q k} f : sProp 𝕄))
  rw [rank_image, hn, pointsTo_deal_range] at h
  rw [hn]
  exact h.symm

end Deal

/-! ### The windows of a pipeline -/

/-- A window alone on its buffer holds it at the full share. -/
theorem shareOf_alone {W : Nat} (r : Fin W → Ref sig .tc) (w : Fin W) (h : ∀ w', r w' = r w → w' = w) :
    shareOf r w = fullShare := by
  have hr : rank r w = 0 := by
    unfold rank
    refine Finset.card_eq_zero.mpr (Finset.filter_eq_empty_iff.mpr fun w' _ hw' => ?_)
    exact lt_irrefl w (h w' hw'.2 ▸ hw'.1)
  have hc : count r w = 1 := by
    unfold count
    refine Finset.card_eq_one.mpr ⟨w, Finset.ext fun w' => ?_⟩
    simp only [Finset.mem_filter, Finset.mem_univ, true_and, Finset.mem_singleton]
    exact ⟨h w', fun e => e ▸ rfl⟩
  unfold shareOf
  rw [hr, hc, if_pos rfl]
  rfl

/-- The windows' shares of their buffers, all at contents `V`, ARE the distinct buffers whole at the full share. -/
theorem arrBufs_eq {gr W : Nat} (win : Fin W → Pipeline.WinSpec sig gr) (c : Dev nD)
    (V : (b : Ref sig .tc) → Buf Val ((c.tc : Thread nD τ).loc b)) :
    (bigSep Finset.univ fun w : Fin W =>
          (((c.tc : Thread nD τ).loc (Pipeline.arrRef win w)) ↦{shareOf (Pipeline.arrRef win) w} V (Pipeline.arrRef win w) : sProp 𝕄))
      = (Pipeline.arrBufs win c V : sProp 𝕄) := by
  unfold Pipeline.arrBufs
  rw [← bigSep_fibres Finset.univ (Pipeline.arrRef win)]
  refine bigSep_congr fun b hb => ?_
  obtain ⟨w₀, -, hw₀⟩ := Finset.mem_image.mp hb
  have hne : (Finset.univ.filter fun w : Fin W => Pipeline.arrRef win w = b).Nonempty := ⟨w₀, Finset.mem_filter.mpr ⟨Finset.mem_univ _, hw₀⟩⟩
  rw [← pointsTo_deal (V b) fullShare _ hne]
  refine bigSep_congr fun w hw => ?_
  have hwb : Pipeline.arrRef win w = b := (Finset.mem_filter.mp hw).2
  subst hwb
  have hr : rank (Pipeline.arrRef win) w
      = ((Finset.univ.filter fun w' : Fin W => Pipeline.arrRef win w' = Pipeline.arrRef win w).filter (· < w)).card := by
    unfold rank
    rw [Finset.filter_filter]
    exact congrArg Finset.card (Finset.filter_congr fun w' _ => and_comm)
  unfold shareOf
  rw [hr]
  rfl

/-- The distinct buffers behind the windows' arrays, each whole at the full share at contents `V`, dealt to the
    windows: each window its own array's buffer at its share, at the same contents. -/
theorem arrBufs_split {gr W : Nat} (win : Fin W → Pipeline.WinSpec sig gr) (c : Dev nD)
    (V : (b : Ref sig .tc) → Buf Val ((c.tc : Thread nD τ).loc b)) :
    (Pipeline.arrBufs win c V : sProp 𝕄)
      ⊢ bigSep Finset.univ fun w : Fin W =>
          (((c.tc : Thread nD τ).loc (Pipeline.arrRef win w)) ↦{shareOf (Pipeline.arrRef win) w} V (Pipeline.arrRef win w) : sProp 𝕄) :=
  Entails.of_eq (arrBufs_eq win c V).symm

/-- The deal undone: the windows' shares of their buffers, all at contents `V`, are the distinct buffers whole. -/
theorem arrBufs_join {gr W : Nat} (win : Fin W → Pipeline.WinSpec sig gr) (c : Dev nD)
    (V : (b : Ref sig .tc) → Buf Val ((c.tc : Thread nD τ).loc b)) :
    (bigSep Finset.univ fun w : Fin W =>
          (((c.tc : Thread nD τ).loc (Pipeline.arrRef win w)) ↦{shareOf (Pipeline.arrRef win) w} V (Pipeline.arrRef win w) : sProp 𝕄))
      ⊢ (Pipeline.arrBufs win c V : sProp 𝕄) :=
  Entails.of_eq (arrBufs_eq win c V)

end Cert.Lib.SharedArrays

end
-- ==== Proof.K.R1.lean ====
/- Region 1 of the kernel program (pipeline 1, `cc1__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out1_34`); the body's triple; the
   pipeline's proof data (`dat1`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: custom_call 1, `cc1__group_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)
theorem before1_26_of {c : Dev nD} (dat : Dat τ (Elt F) Unit ℕ (UR sig nD τ) ℕ cfg1 c) (hA : dat.A 26 = V c (Pipeline.arrRef spec1 26))
    (hafter : ∀ t, dat.after 26 t = iblk1 V c 26 t) (t : Fin cfg1.N) (d) : dat.before 26 t d = iblk1 V c 26 t :=
  (dat.before_in_eq_fetched 26 rfl (fun _ => rfl) (fun _ _ _ => rfl) (fun t => by rw [hafter]; unfold Dat.blockOf iblk1; rw [hA]; try rfl) t d).trans
    (by unfold Dat.fetched Dat.blockOf iblk1; rw [hA]; try rfl)
theorem before1_27_of {c : Dev nD} (dat : Dat τ (Elt F) Unit ℕ (UR sig nD τ) ℕ cfg1 c) (hA : dat.A 27 = V c (Pipeline.arrRef spec1 27))
    (hafter : ∀ t, dat.after 27 t = iblk1 V c 27 t) (t : Fin cfg1.N) (d) : dat.before 27 t d = iblk1 V c 27 t :=
  (dat.before_in_eq_fetched 27 rfl (fun _ => rfl) (fun _ _ _ => rfl) (fun t => by rw [hafter]; unfold Dat.blockOf iblk1; rw [hA]; try rfl) t d).trans
    (by unfold Dat.fetched Dat.blockOf iblk1; rw [hA]; try rfl)
theorem before1_28_of {c : Dev nD} (dat : Dat τ (Elt F) Unit ℕ (UR sig nD τ) ℕ cfg1 c) (hA : dat.A 28 = V c (Pipeline.arrRef spec1 28))
    (hafter : ∀ t, dat.after 28 t = iblk1 V c 28 t) (t : Fin cfg1.N) (d) : dat.before 28 t d = iblk1 V c 28 t :=
  (dat.before_in_eq_fetched 28 rfl (fun _ => rfl) (fun _ _ _ => rfl) (fun t => by rw [hafter]; unfold Dat.blockOf iblk1; rw [hA]; try rfl) t d).trans
    (by unfold Dat.fetched Dat.blockOf iblk1; rw [hA]; try rfl)
theorem before1_29_of {c : Dev nD} (dat : Dat τ (Elt F) Unit ℕ (UR sig nD τ) ℕ cfg1 c) (hA : dat.A 29 = V c (Pipeline.arrRef spec1 29))
    (hafter : ∀ t, dat.after 29 t = iblk1 V c 29 t) (t : Fin cfg1.N) (d) : dat.before 29 t d = iblk1 V c 29 t :=
  (dat.before_in_eq_fetched 29 rfl (fun _ => rfl) (fun _ _ _ => rfl) (fun t => by rw [hafter]; unfold Dat.blockOf iblk1; rw [hA]; try rfl) t d).trans
    (by unfold Dat.fetched Dat.blockOf iblk1; rw [hA]; try rfl)
theorem before1_30_of {c : Dev nD} (dat : Dat τ (Elt F) Unit ℕ (UR sig nD τ) ℕ cfg1 c) (hA : dat.A 30 = V c (Pipeline.arrRef spec1 30))
    (hafter : ∀ t, dat.after 30 t = iblk1 V c 30 t) (t : Fin cfg1.N) (d) : dat.before 30 t d = iblk1 V c 30 t :=
  (dat.before_in_eq_fetched 30 rfl (fun _ => rfl) (fun _ _ _ => rfl) (fun t => by rw [hafter]; unfold Dat.blockOf iblk1; rw [hA]; try rfl) t d).trans
    (by unfold Dat.fetched Dat.blockOf iblk1; rw [hA]; try rfl)
theorem before1_31_of {c : Dev nD} (dat : Dat τ (Elt F) Unit ℕ (UR sig nD τ) ℕ cfg1 c) (hA : dat.A 31 = V c (Pipeline.arrRef spec1 31))
    (hafter : ∀ t, dat.after 31 t = iblk1 V c 31 t) (t : Fin cfg1.N) (d) : dat.before 31 t d = iblk1 V c 31 t :=
  (dat.before_in_eq_fetched 31 rfl (fun _ => rfl) (fun _ _ _ => rfl) (fun t => by rw [hafter]; unfold Dat.blockOf iblk1; rw [hA]; try rfl) t d).trans
    (by unfold Dat.fetched Dat.blockOf iblk1; rw [hA]; try rfl)
theorem before1_32_of {c : Dev nD} (dat : Dat τ (Elt F) Unit ℕ (UR sig nD τ) ℕ cfg1 c) (hA : dat.A 32 = V c (Pipeline.arrRef spec1 32))
    (hafter : ∀ t, dat.after 32 t = iblk1 V c 32 t) (t : Fin cfg1.N) (d) : dat.before 32 t d = iblk1 V c 32 t :=
  (dat.before_in_eq_fetched 32 rfl (fun _ => rfl) (fun _ _ _ => rfl) (fun t => by rw [hafter]; unfold Dat.blockOf iblk1; rw [hA]; try rfl) t d).trans
    (by unfold Dat.fetched Dat.blockOf iblk1; rw [hA]; try rfl)
theorem before1_33_of {c : Dev nD} (dat : Dat τ (Elt F) Unit ℕ (UR sig nD τ) ℕ cfg1 c) (hA : dat.A 33 = V c (Pipeline.arrRef spec1 33))
    (hafter : ∀ t, dat.after 33 t = iblk1 V c 33 t) (t : Fin cfg1.N) (d) : dat.before 33 t d = iblk1 V c 33 t :=
  (dat.before_in_eq_fetched 33 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A parent's whole block. -/
abbrev r1_p : Rect S512x128 := Rect.unit (s := S512x128) ![0, 0] S512x128.size inb_S512x128_S512x128_0_0
/-- Slab `k` of the weight slice, -/
abbrev r1_w0 : Rect S8x128x128 := Rect.unit (s := S8x128x128) ![0, 0, 0] S1x128x128.size inb_S8x128x128_S1x128x128_0_0_0
abbrev r1_w1 : Rect S8x128x128 := Rect.unit (s := S8x128x128) ![1, 0, 0] S1x128x128.size inb_S8x128x128_S1x128x128_1_0_0
abbrev r1_w2 : Rect S8x128x128 := Rect.unit (s := S8x128x128) ![2, 0, 0] S1x128x128.size inb_S8x128x128_S1x128x128_2_0_0
abbrev r1_w3 : Rect S8x128x128 := Rect.unit (s := S8x128x128) ![3, 0, 0] S1x128x128.size inb_S8x128x128_S1x128x128_3_0_0
abbrev r1_w4 : Rect S8x128x128 := Rect.unit (s := S8x128x128) ![4, 0, 0] S1x128x128.size inb_S8x128x128_S1x128x128_4_0_0
abbrev r1_w5 : Rect S8x128x128 := Rect.unit (s := S8x128x128) ![5, 0, 0] S1x128x128.size inb_S8x128x128_S1x128x128_5_0_0
abbrev r1_w6 : Rect S8x128x128 := Rect.unit (s := S8x128x128) ![6, 0, 0] S1x128x128.size inb_S8x128x128_S1x128x128_6_0_0
abbrev r1_w7 : Rect S8x128x128 := Rect.unit (s := S8x128x128) ![7, 0, 0] S1x128x128.size inb_S8x128x128_S1x128x128_7_0_0
/-- row `k` of the bias slice, -/
abbrev r1_b0 : Rect S8x128 := Rect.unit (s := S8x128) ![0, 0] S1x128.size inb_S8x128_S1x128_0_0
abbrev r1_b1 : Rect S8x128 := Rect.unit (s := S8x128) ![1, 0] S1x128.size inb_S8x128_S1x128_1_0
abbrev r1_b2 : Rect S8x128 := Rect.unit (s := S8x128) ![2, 0] S1x128.size inb_S8x128_S1x128_2_0
abbrev r1_b3 : Rect S8x128 := Rect.unit (s := S8x128) ![3, 0] S1x128.size inb_S8x128_S1x128_3_0
abbrev r1_b4 : Rect S8x128 := Rect.unit (s := S8x128) ![4, 0] S1x128.size inb_S8x128_S1x128_4_0
abbrev r1_b5 : Rect S8x128 := Rect.unit (s := S8x128) ![5, 0] S1x128.size inb_S8x128_S1x128_5_0
abbrev r1_b6 : Rect S8x128 := Rect.unit (s := S8x128) ![6, 0] S1x128.size inb_S8x128_S1x128_6_0
abbrev r1_b7 : Rect S8x128 := Rect.unit (s := S8x128) ![7, 0] S1x128.size inb_S8x128_S1x128_7_0
/-- and slab `k` of the output block. -/
abbrev r1_o0 : Rect S8x512x128 := Rect.unit (s := S8x512x128) ![0, 0, 0] S1x512x128.size inb_S8x512x128_S1x512x128_0_0_0
abbrev r1_o1 : Rect S8x512x128 := Rect.unit (s := S8x512x128) ![1, 0, 0] S1x512x128.size inb_S8x512x128_S1x512x128_1_0_0
abbrev r1_o2 : Rect S8x512x128 := Rect.unit (s := S8x512x128) ![2, 0, 0] S1x512x128.size inb_S8x512x128_S1x512x128_2_0_0
abbrev r1_o3 : Rect S8x512x128 := Rect.unit (s := S8x512x128) ![3, 0, 0] S1x512x128.size inb_S8x512x128_S1x512x128_3_0_0
abbrev r1_o4 : Rect S8x512x128 := Rect.unit (s := S8x512x128) ![4, 0, 0] S1x512x128.size inb_S8x512x128_S1x512x128_4_0_0
abbrev r1_o5 : Rect S8x512x128 := Rect.unit (s := S8x512x128) ![5, 0, 0] S1x512x128.size inb_S8x512x128_S1x512x128_5_0_0
abbrev r1_o6 : Rect S8x512x128 := Rect.unit (s := S8x512x128) ![6, 0, 0] S1x512x128.size inb_S8x512x128_S1x512x128_6_0_0
abbrev r1_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab1_0 (p : Fin 32 → Vec F S512x128 .f32) (wt : Vec F S8x128x128 .f32) (bs : Vec F S8x128 .f32) : Vec F S1x512x128 .f32 :=
  k1_pay1 (View.ld (p 0) r1_p) (View.ld (p 1) r1_p) (View.ld (p 2) r1_p) (View.ld (p 3) r1_p) (View.ld wt r1_w0) (View.ld bs r1_b0)
def slab1_1 (p : Fin 32 → Vec F S512x128 .f32) (wt : Vec F S8x128x128 .f32) (bs : Vec F S8x128 .f32) : Vec F S1x512x128 .f32 :=
  k1_pay3 (k1_pay2 (View.ld (p 4) r1_p) (View.ld (p 5) r1_p) (View.ld (p 6) r1_p)) (View.ld (p 7) r1_p) (View.ld wt r1_w1) (View.ld bs r1_b1)
def slab1_2 (p : Fin 32 → Vec F S512x128 .f32) (wt : Vec F S8x128x128 .f32) (bs : Vec F S8x128 .f32) : Vec F S1x512x128 .f32 :=
  k1_pay7 (k1_pay4 (View.ld (p 8) r1_p) (View.ld (p 9) r1_p) (View.ld (p 10) r1_p) (View.ld (p 11) r1_p)) (k1_pay5 (View.ld wt r1_w2)) (k1_pay6 (View.ld bs r1_b2))
def slab1_3 (p : Fin 32 → Vec F S512x128 .f32) (wt : Vec F S8x128x128 .f32) (bs : Vec F S8x128 .f32) : Vec F S1x512x128 .f32 :=
  k1_pay8 (View.ld (p 12) r1_p) (View.ld (p 13) r1_p) (View.ld (p 14) r1_p) (View.ld (p 15) r1_p) (View.ld wt r1_w3) (View.ld bs r1_b3)
def slab1_4 (p : Fin 32 → Vec F S512x128 .f32) (wt : Vec F S8x128x128 .f32) (bs : Vec F S8x128 .f32) : Vec F S1x512x128 .f32 :=
  k1_pay9 (View.ld (p 16) r1_p) (View.ld (p 17) r1_p) (View.ld (p 18) r1_p) (View.ld (p 19) r1_p) (View.ld wt r1_w4) (View.ld bs r1_b4)
def slab1_5 (p : Fin 32 → Vec F S512x128 .f32) (wt : Vec F S8x128x128 .f32) (bs : Vec F S8x128 .f32) : Vec F S1x512x128 .f32 :=
  k1_pay11 (k1_pay10 (View.ld (p 20) r1_p) (View.ld (p 21) r1_p) (View.ld (p 22) r1_p)) (View.ld (p 23) r1_p) (View.ld wt r1_w5) (View.ld bs r1_b5)
def slab1_6 (p : Fin 32 → Vec F S512x128 .f32) (wt : Vec F S8x128x128 .f32) (bs : Vec F S8x128 .f32) : Vec F S1x512x128 .f32 :=
  k1_pay15 (k1_pay12 (View.ld (p 24) r1_p) (View.ld (p 25) r1_p) (View.ld (p 26) r1_p) (View.ld (p 27) r1_p)) (k1_pay13 (View.ld wt r1_w6)) (k1_pay14 (View.ld bs r1_b6))
def slab1_7 (p : Fin 32 → Vec F S512x128 .f32) (wt : Vec F S8x128x128 .f32) (bs : Vec F S8x128 .f32) : Vec F S1x512x128 .f32 :=
  k1_pay16 (View.ld (p 28) r1_p) (View.ld (p 29) r1_p) (View.ld (p 30) r1_p) (View.ld (p 31) r1_p) (View.ld wt r1_w7) (View.ld bs r1_b7)

/-- Window 34's staging buffer after the body, from the input windows' blocks: its 8 stores as pieces, LAST FIRST. -/
def out1_34 (p : Fin 32 → Vec F S512x128 .f32) (wt : Vec F S8x128x128 .f32) (bs : Vec F S8x128 .f32) : Vec F S8x512x128 .f32 :=
  View.canon [⟨r1_o7, slab1_7 p wt bs⟩, ⟨r1_o6, slab1_6 p wt bs⟩, ⟨r1_o5, slab1_5 p wt bs⟩, ⟨r1_o4, slab1_4 p wt bs⟩, ⟨r1_o3, slab1_3 p wt bs⟩, ⟨r1_o2, slab1_2 p wt bs⟩, ⟨r1_o1, slab1_1 p wt bs⟩, ⟨r1_o0, slab1_0 p wt bs⟩]

/-- The eight stores tile the buffer (checked by evaluation), so they cover it. -/
theorem cover1_34 (p0 p1 p2 p3 p4 p5 p6 p7 : Vec F S1x512x128 .f32) (y : S8x512x128.Idx) :
    ∃ pc ∈ ([⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] : List (View.Piece (Elt F) S8x512x128 .f32)), y ∈ pc.1.set :=
  View.cover_of_tiled [⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out1_34` of the inputs': the printed
    functions are their skeletons, run through every part call; each slab's load of the output buffer before its store
    reads contents nothing uses. -/
theorem sound_kernel1 (c : Dev nD) (E : Set ℕ) (i : grid1.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out1_34 p wt bs)) -∗ K ⟨⟩))
      ⊢ wp frame (wpE (defs₀ (F := F)) Variants.none c none) E (cc1__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out1_34 slab1_0 slab1_1 slab1_2 slab1_3 slab1_4 slab1_5 slab1_6 slab1_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc1__group_kernel_eq_skeleton]; unfold cc1__group_kernel_skel
  simp only [k1_part1_eq_skeleton, k1_part2_eq_skeleton, k1_part3_eq_skeleton, k1_part4_eq_skeleton, k1_part5_eq_skeleton, k1_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover1_34 _ _ _ _ _ _ _ _)

/-! ## The pipeline's proof data -/

/-- The 32 parent blocks at point `t`, as one family: parent `j` of slab `k` is window `4k+j`. -/
def par1 (c : Dev nD) (t : Fin cfg1.N) : Fin 32 → Vec F S512x128 .f32 := fun j => match j with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => iblk1 V c 30 t
    | ⟨31, _⟩ => iblk1 V c 31 t
    | ⟨_ + 32, h⟩ => absurd h (Nat.not_lt.2 (Nat.le_add_left _ _))

/-- The family at a literal index (the `match` reduced by `dsimp`). -/
theorem par1_0 (c : Dev nD) (t : Fin cfg1.N) : par1 V c t 0 = iblk1 V c 0 t := by dsimp only [par1]
theorem par1_1 (c : Dev nD) (t : Fin cfg1.N) : par1 V c t 1 = iblk1 V c 1 t := by dsimp only [par1]
theorem par1_2 (c : Dev nD) (t : Fin cfg1.N) : par1 V c t 2 = iblk1 V c 2 t := by dsimp only [par1]
theorem par1_3 (c : Dev nD) (t : Fin cfg1.N) : par1 V c t 3 = iblk1 V c 3 t := by dsimp only [par1]
theorem par1_4 (c : Dev nD) (t : Fin cfg1.N) : par1 V c t 4 = iblk1 V c 4 t := by dsimp only [par1]
theorem par1_5 (c : Dev nD) (t : Fin cfg1.N) : par1 V c t 5 = iblk1 V c 5 t := by dsimp only [par1]
theorem par1_6 (c : Dev nD) (t : Fin cfg1.N) : par1 V c t 6 = iblk1 V c 6 t := by dsimp only [par1]
theorem par1_7 (c : Dev nD) (t : Fin cfg1.N) : par1 V c t 7 = iblk1 V c 7 t := by dsimp only [par1]
theorem par1_8 (c : Dev nD) (t : Fin cfg1.N) : par1 V c t 8 = iblk1 V c 8 t := by dsimp only [par1]
theorem par1_9 (c : Dev nD) (t : Fin cfg1.N) : par1 V c t 9 = iblk1 V c 9 t := by dsimp only [par1]
theorem par1_10 (c : Dev nD) (t : Fin cfg1.N) : par1 V c t 10 = iblk1 V c 10 t := by dsimp only [par1]
theorem par1_11 (c : Dev nD) (t : Fin cfg1.N) : par1 V c t 11 = iblk1 V c 11 t := by dsimp only [par1]
theorem par1_12 (c : Dev nD) (t : Fin cfg1.N) : par1 V c t 12 = iblk1 V c 12 t := by dsimp only [par1]
theorem par1_13 (c : Dev nD) (t : Fin cfg1.N) : par1 V c t 13 = iblk1 V c 13 t := by dsimp only [par1]
theorem par1_14 (c : Dev nD) (t : Fin cfg1.N) : par1 V c t 14 = iblk1 V c 14 t := by dsimp only [par1]
theorem par1_15 (c : Dev nD) (t : Fin cfg1.N) : par1 V c t 15 = iblk1 V c 15 t := by dsimp only [par1]
theorem par1_16 (c : Dev nD) (t : Fin cfg1.N) : par1 V c t 16 = iblk1 V c 16 t := by dsimp only [par1]
theorem par1_17 (c : Dev nD) (t : Fin cfg1.N) : par1 V c t 17 = iblk1 V c 17 t := by dsimp only [par1]
theorem par1_18 (c : Dev nD) (t : Fin cfg1.N) : par1 V c t 18 = iblk1 V c 18 t := by dsimp only [par1]
theorem par1_19 (c : Dev nD) (t : Fin cfg1.N) : par1 V c t 19 = iblk1 V c 19 t := by dsimp only [par1]
theorem par1_20 (c : Dev nD) (t : Fin cfg1.N) : par1 V c t 20 = iblk1 V c 20 t := by dsimp only [par1]
theorem par1_21 (c : Dev nD) (t : Fin cfg1.N) : par1 V c t 21 = iblk1 V c 21 t := by dsimp only [par1]
theorem par1_22 (c : Dev nD) (t : Fin cfg1.N) : par1 V c t 22 = iblk1 V c 22 t := by dsimp only [par1]
theorem par1_23 (c : Dev nD) (t : Fin cfg1.N) : par1 V c t 23 = iblk1 V c 23 t := by dsimp only [par1]
theorem par1_24 (c : Dev nD) (t : Fin cfg1.N) : par1 V c t 24 = iblk1 V c 24 t := by dsimp only [par1]
theorem par1_25 (c : Dev nD) (t : Fin cfg1.N) : par1 V c t 25 = iblk1 V c 25 t := by dsimp only [par1]
theorem par1_26 (c : Dev nD) (t : Fin cfg1.N) : par1 V c t 26 = iblk1 V c 26 t := by dsimp only [par1]
theorem par1_27 (c : Dev nD) (t : Fin cfg1.N) : par1 V c t 27 = iblk1 V c 27 t := by dsimp only [par1]
theorem par1_28 (c : Dev nD) (t : Fin cfg1.N) : par1 V c t 28 = iblk1 V c 28 t := by dsimp only [par1]
theorem par1_29 (c : Dev nD) (t : Fin cfg1.N) : par1 V c t 29 = iblk1 V c 29 t := by dsimp only [par1]
theorem par1_30 (c : Dev nD) (t : Fin cfg1.N) : par1 V c t 30 = iblk1 V c 30 t := by dsimp only [par1]
theorem par1_31 (c : Dev nD) (t : Fin cfg1.N) : par1 V c t 31 = iblk1 V c 31 t := by dsimp only [par1]

/-- The proof data of pipeline 1 on core `c`: the arrays as the region finds them (`V`); after the body at point `t`
    each input's buffer at its block and the output's at `out1_34` of the input blocks; the invariant the scoped rest
    and the generator register, untouched; nothing owed; of each windowed array the share its window holds when
    several windows read one array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => iblk1 V c 30 t
    | ⟨31, _⟩ => iblk1 V c 31 t
    | ⟨32, _⟩ => iblk1 V c 32 t
    | ⟨33, _⟩ => iblk1 V c 33 t
    | ⟨34, _⟩ => out1_34 (par1 V c t) (iblk1 V c 32 t) (iblk1 V c 33 t)
    | ⟨_ + 35, h⟩ => absurd h (Nat.not_lt.2 (Nat.le_add_left _ _))
  Φ _ := Pipeline.ΦA spec1 c
  q w := Cert.Lib.SharedArrays.shareOf (Pipeline.arrRef spec1) w
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = iblk1 V c 28 t := by dsimp only [dat1]
theorem after1_29 (c : Dev nD) (t : Fin cfg1.N) : (dat1 V c).after 29 t = iblk1 V c 29 t := by dsimp only [dat1]
theorem after1_30 (c : Dev nD) (t : Fin cfg1.N) : (dat1 V c).after 30 t = iblk1 V c 30 t := by dsimp only [dat1]
theorem after1_31 (c : Dev nD) (t : Fin cfg1.N) : (dat1 V c).after 31 t = iblk1 V c 31 t := by dsimp only [dat1]
theorem after1_32 (c : Dev nD) (t : Fin cfg1.N) : (dat1 V c).after 32 t = iblk1 V c 32 t := by dsimp only [dat1]
theorem after1_33 (c : Dev nD) (t : Fin cfg1.N) : (dat1 V c).after 33 t = iblk1 V c 33 t := by dsimp only [dat1]
theorem after1_34 (c : Dev nD) (t : Fin cfg1.N) :
    (dat1 V c).after 34 t = out1_34 (par1 V c t) (iblk1 V c 32 t) (iblk1 V c 33 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d
theorem before1_26 (c : Dev nD) (t : Fin cfg1.N) (d) : (dat1 V c).before 26 t d = iblk1 V c 26 t :=
  before1_26_of V (dat1 V c) (A_eq1 V c 26) (after1_26 V c) t d
theorem before1_27 (c : Dev nD) (t : Fin cfg1.N) (d) : (dat1 V c).before 27 t d = iblk1 V c 27 t :=
  before1_27_of V (dat1 V c) (A_eq1 V c 27) (after1_27 V c) t d
theorem before1_28 (c : Dev nD) (t : Fin cfg1.N) (d) : (dat1 V c).before 28 t d = iblk1 V c 28 t :=
  before1_28_of V (dat1 V c) (A_eq1 V c 28) (after1_28 V c) t d
theorem before1_29 (c : Dev nD) (t : Fin cfg1.N) (d) : (dat1 V c).before 29 t d = iblk1 V c 29 t :=
  before1_29_of V (dat1 V c) (A_eq1 V c 29) (after1_29 V c) t d
theorem before1_30 (c : Dev nD) (t : Fin cfg1.N) (d) : (dat1 V c).before 30 t d = iblk1 V c 30 t :=
  before1_30_of V (dat1 V c) (A_eq1 V c 30) (after1_30 V c) t d
theorem before1_31 (c : Dev nD) (t : Fin cfg1.N) (d) : (dat1 V c).before 31 t d = iblk1 V c 31 t :=
  before1_31_of V (dat1 V c) (A_eq1 V c 31) (after1_31 V c) t d
theorem before1_32 (c : Dev nD) (t : Fin cfg1.N) (d) : (dat1 V c).before 32 t d = iblk1 V c 32 t :=
  before1_32_of V (dat1 V c) (A_eq1 V c 32) (after1_32 V c) t d
theorem before1_33 (c : Dev nD) (t : Fin cfg1.N) (d) : (dat1 V c).before 33 t d = iblk1 V c 33 t :=
  before1_33_of V (dat1 V c) (A_eq1 V c 33) (after1_33 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d))
    ∗ (∃ d, owns (c : Thread nD τ) (st1_29 t) fullShare ((dat1 V c).before 29 t d))
    ∗ (∃ d, owns (c : Thread nD τ) (st1_30 t) fullShare ((dat1 V c).before 30 t d))
    ∗ (∃ d, owns (c : Thread nD τ) (st1_31 t) fullShare ((dat1 V c).before 31 t d))
    ∗ (∃ d, owns (c : Thread nD τ) (st1_32 t) fullShare ((dat1 V c).before 32 t d))
    ∗ (∃ d, owns (c : Thread nD τ) (st1_33 t) fullShare ((dat1 V c).before 33 t d))
    ∗ (∃ d, owns (c : Thread nD τ) (st1_34 t) fullShare ((dat1 V c).before 34 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t)
    ∗ owns (c : Thread nD τ) (st1_29 t) fullShare ((dat1 V c).after 29 t)
    ∗ owns (c : Thread nD τ) (st1_30 t) fullShare ((dat1 V c).after 30 t)
    ∗ owns (c : Thread nD τ) (st1_31 t) fullShare ((dat1 V c).after 31 t)
    ∗ owns (c : Thread nD τ) (st1_32 t) fullShare ((dat1 V c).after 32 t)
    ∗ owns (c : Thread nD τ) (st1_33 t) fullShare ((dat1 V c).after 33 t)
    ∗ owns (c : Thread nD τ) (st1_34 t) fullShare ((dat1 V c).after 34 t))

set_option maxHeartbeats 4000000 in
/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29, before1_30, before1_31, before1_32, before1_33]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30, after1_31, after1_32, after1_33, after1_34]
  have hk := fun K => sound_kernel1 (F := F) c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12)) _ (hstage1_13 ((cfg1.slots t 13).cast nbuf1_13)) _ (hstage1_14 ((cfg1.slots t 14).cast nbuf1_14)) _ (hstage1_15 ((cfg1.slots t 15).cast nbuf1_15)) _ (hstage1_16 ((cfg1.slots t 16).cast nbuf1_16)) _ (hstage1_17 ((cfg1.slots t 17).cast nbuf1_17)) _ (hstage1_18 ((cfg1.slots t 18).cast nbuf1_18)) _ (hstage1_19 ((cfg1.slots t 19).cast nbuf1_19)) _ (hstage1_20 ((cfg1.slots t 20).cast nbuf1_20)) _ (hstage1_21 ((cfg1.slots t 21).cast nbuf1_21)) _ (hstage1_22 ((cfg1.slots t 22).cast nbuf1_22)) _ (hstage1_23 ((cfg1.slots t 23).cast nbuf1_23)) _ (hstage1_24 ((cfg1.slots t 24).cast nbuf1_24)) _ (hstage1_25 ((cfg1.slots t 25).cast nbuf1_25)) _ (hstage1_26 ((cfg1.slots t 26).cast nbuf1_26)) _ (hstage1_27 ((cfg1.slots t 27).cast nbuf1_27)) _ (hstage1_28 ((cfg1.slots t 28).cast nbuf1_28)) _ (hstage1_29 ((cfg1.slots t 29).cast nbuf1_29)) _ (hstage1_30 ((cfg1.slots t 30).cast nbuf1_30)) _ (hstage1_31 ((cfg1.slots t 31).cast nbuf1_31)) _ (hstage1_32 ((cfg1.slots t 32).cast nbuf1_32)) _ (hstage1_33 ((cfg1.slots t 33).cast nbuf1_33)) _ (hstage1_34 ((cfg1.slots t 34).cast nbuf1_34))
    (par1 V c t) (iblk1 V c 32 t) (iblk1 V c 33 t) K
  simp only [par1_0, par1_1, par1_2, par1_3, par1_4, par1_5, par1_6, par1_7, par1_8, par1_9, par1_10, par1_11, par1_12, par1_13, par1_14, par1_15, par1_16, par1_17, par1_18, par1_19, par1_20, par1_21, par1_22, par1_23, par1_24, par1_25, par1_26, par1_27, par1_28, par1_29, par1_30, par1_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of the kernel program (pipeline 2, `cc2__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out2_34`); the body's triple; the
   pipeline's proof data (`dat2`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2: custom_call 2, `cc2__group_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
theorem before2_19_of {c : Dev nD} (dat : Dat τ (Elt F) Unit ℕ (UR sig nD τ) ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
theorem before2_20_of {c : Dev nD} (dat : Dat τ (Elt F) Unit ℕ (UR sig nD τ) ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
theorem before2_21_of {c : Dev nD} (dat : Dat τ (Elt F) Unit ℕ (UR sig nD τ) ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)
theorem before2_22_of {c : Dev nD} (dat : Dat τ (Elt F) Unit ℕ (UR sig nD τ) ℕ cfg2 c) (hA : dat.A 22 = V c (Pipeline.arrRef spec2 22))
    (hafter : ∀ t, dat.after 22 t = iblk2 V c 22 t) (t : Fin cfg2.N) (d) : dat.before 22 t d = iblk2 V c 22 t :=
  (dat.before_in_eq_fetched 22 rfl (fun _ => rfl) (fun _ _ _ => rfl) (fun t => by rw [hafter]; unfold Dat.blockOf iblk2; rw [hA]; try rfl) t d).trans
    (by unfold Dat.fetched Dat.blockOf iblk2; rw [hA]; try rfl)
theorem before2_23_of {c : Dev nD} (dat : Dat τ (Elt F) Unit ℕ (UR sig nD τ) ℕ cfg2 c) (hA : dat.A 23 = V c (Pipeline.arrRef spec2 23))
    (hafter : ∀ t, dat.after 23 t = iblk2 V c 23 t) (t : Fin cfg2.N) (d) : dat.before 23 t d = iblk2 V c 23 t :=
  (dat.before_in_eq_fetched 23 rfl (fun _ => rfl) (fun _ _ _ => rfl) (fun t => by rw [hafter]; unfold Dat.blockOf iblk2; rw [hA]; try rfl) t d).trans
    (by unfold Dat.fetched Dat.blockOf iblk2; rw [hA]; try rfl)
theorem before2_24_of {c : Dev nD} (dat : Dat τ (Elt F) Unit ℕ (UR sig nD τ) ℕ cfg2 c) (hA : dat.A 24 = V c (Pipeline.arrRef spec2 24))
    (hafter : ∀ t, dat.after 24 t = iblk2 V c 24 t) (t : Fin cfg2.N) (d) : dat.before 24 t d = iblk2 V c 24 t :=
  (dat.before_in_eq_fetched 24 rfl (fun _ => rfl) (fun _ _ _ => rfl) (fun t => by rw [hafter]; unfold Dat.blockOf iblk2; rw [hA]; try rfl) t d).trans
    (by unfold Dat.fetched Dat.blockOf iblk2; rw [hA]; try rfl)
theorem before2_25_of {c : Dev nD} (dat : Dat τ (Elt F) Unit ℕ (UR sig nD τ) ℕ cfg2 c) (hA : dat.A 25 = V c (Pipeline.arrRef spec2 25))
    (hafter : ∀ t, dat.after 25 t = iblk2 V c 25 t) (t : Fin cfg2.N) (d) : dat.before 25 t d = iblk2 V c 25 t :=
  (dat.before_in_eq_fetched 25 rfl (fun _ => rfl) (fun _ _ _ => rfl) (fun t => by rw [hafter]; unfold Dat.blockOf iblk2; rw [hA]; try rfl) t d).trans
    (by unfold Dat.fetched Dat.blockOf iblk2; rw [hA]; try rfl)
theorem before2_26_of {c : Dev nD} (dat : Dat τ (Elt F) Unit ℕ (UR sig nD τ) ℕ cfg2 c) (hA : dat.A 26 = V c (Pipeline.arrRef spec2 26))
    (hafter : ∀ t, dat.after 26 t = iblk2 V c 26 t) (t : Fin cfg2.N) (d) : dat.before 26 t d = iblk2 V c 26 t :=
  (dat.before_in_eq_fetched 26 rfl (fun _ => rfl) (fun _ _ _ => rfl) (fun t => by rw [hafter]; unfold Dat.blockOf iblk2; rw [hA]; try rfl) t d).trans
    (by unfold Dat.fetched Dat.blockOf iblk2; rw [hA]; try rfl)
theorem before2_27_of {c : Dev nD} (dat : Dat τ (Elt F) Unit ℕ (UR sig nD τ) ℕ cfg2 c) (hA : dat.A 27 = V c (Pipeline.arrRef spec2 27))
    (hafter : ∀ t, dat.after 27 t = iblk2 V c 27 t) (t : Fin cfg2.N) (d) : dat.before 27 t d = iblk2 V c 27 t :=
  (dat.before_in_eq_fetched 27 rfl (fun _ => rfl) (fun _ _ _ => rfl) (fun t => by rw [hafter]; unfold Dat.blockOf iblk2; rw [hA]; try rfl) t d).trans
    (by unfold Dat.fetched Dat.blockOf iblk2; rw [hA]; try rfl)
theorem before2_28_of {c : Dev nD} (dat : Dat τ (Elt F) Unit ℕ (UR sig nD τ) ℕ cfg2 c) (hA : dat.A 28 = V c (Pipeline.arrRef spec2 28))
    (hafter : ∀ t, dat.after 28 t = iblk2 V c 28 t) (t : Fin cfg2.N) (d) : dat.before 28 t d = iblk2 V c 28 t :=
  (dat.before_in_eq_fetched 28 rfl (fun _ => rfl) (fun _ _ _ => rfl) (fun t => by rw [hafter]; unfold Dat.blockOf iblk2; rw [hA]; try rfl) t d).trans
    (by unfold Dat.fetched Dat.blockOf iblk2; rw [hA]; try rfl)
theorem before2_29_of {c : Dev nD} (dat : Dat τ (Elt F) Unit ℕ (UR sig nD τ) ℕ cfg2 c) (hA : dat.A 29 = V c (Pipeline.arrRef spec2 29))
    (hafter : ∀ t, dat.after 29 t = iblk2 V c 29 t) (t : Fin cfg2.N) (d) : dat.before 29 t d = iblk2 V c 29 t :=
  (dat.before_in_eq_fetched 29 rfl (fun _ => rfl) (fun _ _ _ => rfl) (fun t => by rw [hafter]; unfold Dat.blockOf iblk2; rw [hA]; try rfl) t d).trans
    (by unfold Dat.fetched Dat.blockOf iblk2; rw [hA]; try rfl)
theorem before2_30_of {c : Dev nD} (dat : Dat τ (Elt F) Unit ℕ (UR sig nD τ) ℕ cfg2 c) (hA : dat.A 30 = V c (Pipeline.arrRef spec2 30))
    (hafter : ∀ t, dat.after 30 t = iblk2 V c 30 t) (t : Fin cfg2.N) (d) : dat.before 30 t d = iblk2 V c 30 t :=
  (dat.before_in_eq_fetched 30 rfl (fun _ => rfl) (fun _ _ _ => rfl) (fun t => by rw [hafter]; unfold Dat.blockOf iblk2; rw [hA]; try rfl) t d).trans
    (by unfold Dat.fetched Dat.blockOf iblk2; rw [hA]; try rfl)
theorem before2_31_of {c : Dev nD} (dat : Dat τ (Elt F) Unit ℕ (UR sig nD τ) ℕ cfg2 c) (hA : dat.A 31 = V c (Pipeline.arrRef spec2 31))
    (hafter : ∀ t, dat.after 31 t = iblk2 V c 31 t) (t : Fin cfg2.N) (d) : dat.before 31 t d = iblk2 V c 31 t :=
  (dat.before_in_eq_fetched 31 rfl (fun _ => rfl) (fun _ _ _ => rfl) (fun t => by rw [hafter]; unfold Dat.blockOf iblk2; rw [hA]; try rfl) t d).trans
    (by unfold Dat.fetched Dat.blockOf iblk2; rw [hA]; try rfl)
theorem before2_32_of {c : Dev nD} (dat : Dat τ (Elt F) Unit ℕ (UR sig nD τ) ℕ cfg2 c) (hA : dat.A 32 = V c (Pipeline.arrRef spec2 32))
    (hafter : ∀ t, dat.after 32 t = iblk2 V c 32 t) (t : Fin cfg2.N) (d) : dat.before 32 t d = iblk2 V c 32 t :=
  (dat.before_in_eq_fetched 32 rfl (fun _ => rfl) (fun _ _ _ => rfl) (fun t => by rw [hafter]; unfold Dat.blockOf iblk2; rw [hA]; try rfl) t d).trans
    (by unfold Dat.fetched Dat.blockOf iblk2; rw [hA]; try rfl)
theorem before2_33_of {c : Dev nD} (dat : Dat τ (Elt F) Unit ℕ (UR sig nD τ) ℕ cfg2 c) (hA : dat.A 33 = V c (Pipeline.arrRef spec2 33))
    (hafter : ∀ t, dat.after 33 t = iblk2 V c 33 t) (t : Fin cfg2.N) (d) : dat.before 33 t d = iblk2 V c 33 t :=
  (dat.before_in_eq_fetched 33 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- A parent's whole block. -/
abbrev r2_p : Rect S512x128 := Rect.unit (s := S512x128) ![0, 0] S512x128.size inb_S512x128_S512x128_0_0
/-- Slab `k` of the weight slice, -/
abbrev r2_w0 : Rect S8x128x128 := Rect.unit (s := S8x128x128) ![0, 0, 0] S1x128x128.size inb_S8x128x128_S1x128x128_0_0_0
abbrev r2_w1 : Rect S8x128x128 := Rect.unit (s := S8x128x128) ![1, 0, 0] S1x128x128.size inb_S8x128x128_S1x128x128_1_0_0
abbrev r2_w2 : Rect S8x128x128 := Rect.unit (s := S8x128x128) ![2, 0, 0] S1x128x128.size inb_S8x128x128_S1x128x128_2_0_0
abbrev r2_w3 : Rect S8x128x128 := Rect.unit (s := S8x128x128) ![3, 0, 0] S1x128x128.size inb_S8x128x128_S1x128x128_3_0_0
abbrev r2_w4 : Rect S8x128x128 := Rect.unit (s := S8x128x128) ![4, 0, 0] S1x128x128.size inb_S8x128x128_S1x128x128_4_0_0
abbrev r2_w5 : Rect S8x128x128 := Rect.unit (s := S8x128x128) ![5, 0, 0] S1x128x128.size inb_S8x128x128_S1x128x128_5_0_0
abbrev r2_w6 : Rect S8x128x128 := Rect.unit (s := S8x128x128) ![6, 0, 0] S1x128x128.size inb_S8x128x128_S1x128x128_6_0_0
abbrev r2_w7 : Rect S8x128x128 := Rect.unit (s := S8x128x128) ![7, 0, 0] S1x128x128.size inb_S8x128x128_S1x128x128_7_0_0
/-- row `k` of the bias slice, -/
abbrev r2_b0 : Rect S8x128 := Rect.unit (s := S8x128) ![0, 0] S1x128.size inb_S8x128_S1x128_0_0
abbrev r2_b1 : Rect S8x128 := Rect.unit (s := S8x128) ![1, 0] S1x128.size inb_S8x128_S1x128_1_0
abbrev r2_b2 : Rect S8x128 := Rect.unit (s := S8x128) ![2, 0] S1x128.size inb_S8x128_S1x128_2_0
abbrev r2_b3 : Rect S8x128 := Rect.unit (s := S8x128) ![3, 0] S1x128.size inb_S8x128_S1x128_3_0
abbrev r2_b4 : Rect S8x128 := Rect.unit (s := S8x128) ![4, 0] S1x128.size inb_S8x128_S1x128_4_0
abbrev r2_b5 : Rect S8x128 := Rect.unit (s := S8x128) ![5, 0] S1x128.size inb_S8x128_S1x128_5_0
abbrev r2_b6 : Rect S8x128 := Rect.unit (s := S8x128) ![6, 0] S1x128.size inb_S8x128_S1x128_6_0
abbrev r2_b7 : Rect S8x128 := Rect.unit (s := S8x128) ![7, 0] S1x128.size inb_S8x128_S1x128_7_0
/-- and slab `k` of the output block. -/
abbrev r2_o0 : Rect S8x512x128 := Rect.unit (s := S8x512x128) ![0, 0, 0] S1x512x128.size inb_S8x512x128_S1x512x128_0_0_0
abbrev r2_o1 : Rect S8x512x128 := Rect.unit (s := S8x512x128) ![1, 0, 0] S1x512x128.size inb_S8x512x128_S1x512x128_1_0_0
abbrev r2_o2 : Rect S8x512x128 := Rect.unit (s := S8x512x128) ![2, 0, 0] S1x512x128.size inb_S8x512x128_S1x512x128_2_0_0
abbrev r2_o3 : Rect S8x512x128 := Rect.unit (s := S8x512x128) ![3, 0, 0] S1x512x128.size inb_S8x512x128_S1x512x128_3_0_0
abbrev r2_o4 : Rect S8x512x128 := Rect.unit (s := S8x512x128) ![4, 0, 0] S1x512x128.size inb_S8x512x128_S1x512x128_4_0_0
abbrev r2_o5 : Rect S8x512x128 := Rect.unit (s := S8x512x128) ![5, 0, 0] S1x512x128.size inb_S8x512x128_S1x512x128_5_0_0
abbrev r2_o6 : Rect S8x512x128 := Rect.unit (s := S8x512x128) ![6, 0, 0] S1x512x128.size inb_S8x512x128_S1x512x128_6_0_0
abbrev r2_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab2_0 (p : Fin 32 → Vec F S512x128 .f32) (wt : Vec F S8x128x128 .f32) (bs : Vec F S8x128 .f32) : Vec F S1x512x128 .f32 :=
  k2_pay1 (View.ld (p 0) r2_p) (View.ld (p 1) r2_p) (View.ld (p 2) r2_p) (View.ld (p 3) r2_p) (View.ld wt r2_w0) (View.ld bs r2_b0)
def slab2_1 (p : Fin 32 → Vec F S512x128 .f32) (wt : Vec F S8x128x128 .f32) (bs : Vec F S8x128 .f32) : Vec F S1x512x128 .f32 :=
  k2_pay3 (k2_pay2 (View.ld (p 4) r2_p) (View.ld (p 5) r2_p) (View.ld (p 6) r2_p)) (View.ld (p 7) r2_p) (View.ld wt r2_w1) (View.ld bs r2_b1)
def slab2_2 (p : Fin 32 → Vec F S512x128 .f32) (wt : Vec F S8x128x128 .f32) (bs : Vec F S8x128 .f32) : Vec F S1x512x128 .f32 :=
  k2_pay7 (k2_pay4 (View.ld (p 8) r2_p) (View.ld (p 9) r2_p) (View.ld (p 10) r2_p) (View.ld (p 11) r2_p)) (k2_pay5 (View.ld wt r2_w2)) (k2_pay6 (View.ld bs r2_b2))
def slab2_3 (p : Fin 32 → Vec F S512x128 .f32) (wt : Vec F S8x128x128 .f32) (bs : Vec F S8x128 .f32) : Vec F S1x512x128 .f32 :=
  k2_pay8 (View.ld (p 12) r2_p) (View.ld (p 13) r2_p) (View.ld (p 14) r2_p) (View.ld (p 15) r2_p) (View.ld wt r2_w3) (View.ld bs r2_b3)
def slab2_4 (p : Fin 32 → Vec F S512x128 .f32) (wt : Vec F S8x128x128 .f32) (bs : Vec F S8x128 .f32) : Vec F S1x512x128 .f32 :=
  k2_pay9 (View.ld (p 16) r2_p) (View.ld (p 17) r2_p) (View.ld (p 18) r2_p) (View.ld (p 19) r2_p) (View.ld wt r2_w4) (View.ld bs r2_b4)
def slab2_5 (p : Fin 32 → Vec F S512x128 .f32) (wt : Vec F S8x128x128 .f32) (bs : Vec F S8x128 .f32) : Vec F S1x512x128 .f32 :=
  k2_pay11 (k2_pay10 (View.ld (p 20) r2_p) (View.ld (p 21) r2_p) (View.ld (p 22) r2_p)) (View.ld (p 23) r2_p) (View.ld wt r2_w5) (View.ld bs r2_b5)
def slab2_6 (p : Fin 32 → Vec F S512x128 .f32) (wt : Vec F S8x128x128 .f32) (bs : Vec F S8x128 .f32) : Vec F S1x512x128 .f32 :=
  k2_pay15 (k2_pay12 (View.ld (p 24) r2_p) (View.ld (p 25) r2_p) (View.ld (p 26) r2_p) (View.ld (p 27) r2_p)) (k2_pay13 (View.ld wt r2_w6)) (k2_pay14 (View.ld bs r2_b6))
def slab2_7 (p : Fin 32 → Vec F S512x128 .f32) (wt : Vec F S8x128x128 .f32) (bs : Vec F S8x128 .f32) : Vec F S1x512x128 .f32 :=
  k2_pay16 (View.ld (p 28) r2_p) (View.ld (p 29) r2_p) (View.ld (p 30) r2_p) (View.ld (p 31) r2_p) (View.ld wt r2_w7) (View.ld bs r2_b7)

/-- Window 34's staging buffer after the body, from the input windows' blocks: its 8 stores as pieces, LAST FIRST. -/
def out2_34 (p : Fin 32 → Vec F S512x128 .f32) (wt : Vec F S8x128x128 .f32) (bs : Vec F S8x128 .f32) : Vec F S8x512x128 .f32 :=
  View.canon [⟨r2_o7, slab2_7 p wt bs⟩, ⟨r2_o6, slab2_6 p wt bs⟩, ⟨r2_o5, slab2_5 p wt bs⟩, ⟨r2_o4, slab2_4 p wt bs⟩, ⟨r2_o3, slab2_3 p wt bs⟩, ⟨r2_o2, slab2_2 p wt bs⟩, ⟨r2_o1, slab2_1 p wt bs⟩, ⟨r2_o0, slab2_0 p wt bs⟩]

/-- The eight stores tile the buffer (checked by evaluation), so they cover it. -/
theorem cover2_34 (p0 p1 p2 p3 p4 p5 p6 p7 : Vec F S1x512x128 .f32) (y : S8x512x128.Idx) :
    ∃ pc ∈ ([⟨r2_o7, p7⟩, ⟨r2_o6, p6⟩, ⟨r2_o5, p5⟩, ⟨r2_o4, p4⟩, ⟨r2_o3, p3⟩, ⟨r2_o2, p2⟩, ⟨r2_o1, p1⟩, ⟨r2_o0, p0⟩] : List (View.Piece (Elt F) S8x512x128 .f32)), y ∈ pc.1.set :=
  View.cover_of_tiled [⟨r2_o7, p7⟩, ⟨r2_o6, p6⟩, ⟨r2_o5, p5⟩, ⟨r2_o4, p4⟩, ⟨r2_o3, p3⟩, ⟨r2_o2, p2⟩, ⟨r2_o1, p1⟩, ⟨r2_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out2_34` of the inputs': the printed
    functions are their skeletons, run through every part call; each slab's load of the output buffer before its store
    reads contents nothing uses. -/
theorem sound_kernel2 (c : Dev nD) (E : Set ℕ) (i : grid2.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out2_34 p wt bs)) -∗ K ⟨⟩))
      ⊢ wp frame (wpE (defs₀ (F := F)) Variants.none c none) E (cc2__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out2_34 slab2_0 slab2_1 slab2_2 slab2_3 slab2_4 slab2_5 slab2_6 slab2_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc2__group_kernel_eq_skeleton]; unfold cc2__group_kernel_skel
  simp only [k2_part1_eq_skeleton, k2_part2_eq_skeleton, k2_part3_eq_skeleton, k2_part4_eq_skeleton, k2_part5_eq_skeleton, k2_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover2_34 _ _ _ _ _ _ _ _)

/-! ## The pipeline's proof data -/

/-- The 32 parent blocks at point `t`, as one family: parent `j` of slab `k` is window `4k+j`. -/
def par2 (c : Dev nD) (t : Fin cfg2.N) : Fin 32 → Vec F S512x128 .f32 := fun j => match j with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => iblk2 V c 28 t
    | ⟨29, _⟩ => iblk2 V c 29 t
    | ⟨30, _⟩ => iblk2 V c 30 t
    | ⟨31, _⟩ => iblk2 V c 31 t
    | ⟨_ + 32, h⟩ => absurd h (Nat.not_lt.2 (Nat.le_add_left _ _))

/-- The family at a literal index (the `match` reduced by `dsimp`). -/
theorem par2_0 (c : Dev nD) (t : Fin cfg2.N) : par2 V c t 0 = iblk2 V c 0 t := by dsimp only [par2]
theorem par2_1 (c : Dev nD) (t : Fin cfg2.N) : par2 V c t 1 = iblk2 V c 1 t := by dsimp only [par2]
theorem par2_2 (c : Dev nD) (t : Fin cfg2.N) : par2 V c t 2 = iblk2 V c 2 t := by dsimp only [par2]
theorem par2_3 (c : Dev nD) (t : Fin cfg2.N) : par2 V c t 3 = iblk2 V c 3 t := by dsimp only [par2]
theorem par2_4 (c : Dev nD) (t : Fin cfg2.N) : par2 V c t 4 = iblk2 V c 4 t := by dsimp only [par2]
theorem par2_5 (c : Dev nD) (t : Fin cfg2.N) : par2 V c t 5 = iblk2 V c 5 t := by dsimp only [par2]
theorem par2_6 (c : Dev nD) (t : Fin cfg2.N) : par2 V c t 6 = iblk2 V c 6 t := by dsimp only [par2]
theorem par2_7 (c : Dev nD) (t : Fin cfg2.N) : par2 V c t 7 = iblk2 V c 7 t := by dsimp only [par2]
theorem par2_8 (c : Dev nD) (t : Fin cfg2.N) : par2 V c t 8 = iblk2 V c 8 t := by dsimp only [par2]
theorem par2_9 (c : Dev nD) (t : Fin cfg2.N) : par2 V c t 9 = iblk2 V c 9 t := by dsimp only [par2]
theorem par2_10 (c : Dev nD) (t : Fin cfg2.N) : par2 V c t 10 = iblk2 V c 10 t := by dsimp only [par2]
theorem par2_11 (c : Dev nD) (t : Fin cfg2.N) : par2 V c t 11 = iblk2 V c 11 t := by dsimp only [par2]
theorem par2_12 (c : Dev nD) (t : Fin cfg2.N) : par2 V c t 12 = iblk2 V c 12 t := by dsimp only [par2]
theorem par2_13 (c : Dev nD) (t : Fin cfg2.N) : par2 V c t 13 = iblk2 V c 13 t := by dsimp only [par2]
theorem par2_14 (c : Dev nD) (t : Fin cfg2.N) : par2 V c t 14 = iblk2 V c 14 t := by dsimp only [par2]
theorem par2_15 (c : Dev nD) (t : Fin cfg2.N) : par2 V c t 15 = iblk2 V c 15 t := by dsimp only [par2]
theorem par2_16 (c : Dev nD) (t : Fin cfg2.N) : par2 V c t 16 = iblk2 V c 16 t := by dsimp only [par2]
theorem par2_17 (c : Dev nD) (t : Fin cfg2.N) : par2 V c t 17 = iblk2 V c 17 t := by dsimp only [par2]
theorem par2_18 (c : Dev nD) (t : Fin cfg2.N) : par2 V c t 18 = iblk2 V c 18 t := by dsimp only [par2]
theorem par2_19 (c : Dev nD) (t : Fin cfg2.N) : par2 V c t 19 = iblk2 V c 19 t := by dsimp only [par2]
theorem par2_20 (c : Dev nD) (t : Fin cfg2.N) : par2 V c t 20 = iblk2 V c 20 t := by dsimp only [par2]
theorem par2_21 (c : Dev nD) (t : Fin cfg2.N) : par2 V c t 21 = iblk2 V c 21 t := by dsimp only [par2]
theorem par2_22 (c : Dev nD) (t : Fin cfg2.N) : par2 V c t 22 = iblk2 V c 22 t := by dsimp only [par2]
theorem par2_23 (c : Dev nD) (t : Fin cfg2.N) : par2 V c t 23 = iblk2 V c 23 t := by dsimp only [par2]
theorem par2_24 (c : Dev nD) (t : Fin cfg2.N) : par2 V c t 24 = iblk2 V c 24 t := by dsimp only [par2]
theorem par2_25 (c : Dev nD) (t : Fin cfg2.N) : par2 V c t 25 = iblk2 V c 25 t := by dsimp only [par2]
theorem par2_26 (c : Dev nD) (t : Fin cfg2.N) : par2 V c t 26 = iblk2 V c 26 t := by dsimp only [par2]
theorem par2_27 (c : Dev nD) (t : Fin cfg2.N) : par2 V c t 27 = iblk2 V c 27 t := by dsimp only [par2]
theorem par2_28 (c : Dev nD) (t : Fin cfg2.N) : par2 V c t 28 = iblk2 V c 28 t := by dsimp only [par2]
theorem par2_29 (c : Dev nD) (t : Fin cfg2.N) : par2 V c t 29 = iblk2 V c 29 t := by dsimp only [par2]
theorem par2_30 (c : Dev nD) (t : Fin cfg2.N) : par2 V c t 30 = iblk2 V c 30 t := by dsimp only [par2]
theorem par2_31 (c : Dev nD) (t : Fin cfg2.N) : par2 V c t 31 = iblk2 V c 31 t := by dsimp only [par2]

/-- The proof data of pipeline 2 on core `c`: the arrays as the region finds them (`V`); after the body at point `t`
    each input's buffer at its block and the output's at `out2_34` of the input blocks; the invariant the scoped rest
    and the generator register, untouched; nothing owed; of each windowed array the share its window holds when
    several windows read one array. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => iblk2 V c 28 t
    | ⟨29, _⟩ => iblk2 V c 29 t
    | ⟨30, _⟩ => iblk2 V c 30 t
    | ⟨31, _⟩ => iblk2 V c 31 t
    | ⟨32, _⟩ => iblk2 V c 32 t
    | ⟨33, _⟩ => iblk2 V c 33 t
    | ⟨34, _⟩ => out2_34 (par2 V c t) (iblk2 V c 32 t) (iblk2 V c 33 t)
    | ⟨_ + 35, h⟩ => absurd h (Nat.not_lt.2 (Nat.le_add_left _ _))
  Φ _ := Pipeline.ΦA spec2 c
  q w := Cert.Lib.SharedArrays.shareOf (Pipeline.arrRef spec2) w
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = iblk2 V c 19 t := by dsimp only [dat2]
theorem after2_20 (c : Dev nD) (t : Fin cfg2.N) : (dat2 V c).after 20 t = iblk2 V c 20 t := by dsimp only [dat2]
theorem after2_21 (c : Dev nD) (t : Fin cfg2.N) : (dat2 V c).after 21 t = iblk2 V c 21 t := by dsimp only [dat2]
theorem after2_22 (c : Dev nD) (t : Fin cfg2.N) : (dat2 V c).after 22 t = iblk2 V c 22 t := by dsimp only [dat2]
theorem after2_23 (c : Dev nD) (t : Fin cfg2.N) : (dat2 V c).after 23 t = iblk2 V c 23 t := by dsimp only [dat2]
theorem after2_24 (c : Dev nD) (t : Fin cfg2.N) : (dat2 V c).after 24 t = iblk2 V c 24 t := by dsimp only [dat2]
theorem after2_25 (c : Dev nD) (t : Fin cfg2.N) : (dat2 V c).after 25 t = iblk2 V c 25 t := by dsimp only [dat2]
theorem after2_26 (c : Dev nD) (t : Fin cfg2.N) : (dat2 V c).after 26 t = iblk2 V c 26 t := by dsimp only [dat2]
theorem after2_27 (c : Dev nD) (t : Fin cfg2.N) : (dat2 V c).after 27 t = iblk2 V c 27 t := by dsimp only [dat2]
theorem after2_28 (c : Dev nD) (t : Fin cfg2.N) : (dat2 V c).after 28 t = iblk2 V c 28 t := by dsimp only [dat2]
theorem after2_29 (c : Dev nD) (t : Fin cfg2.N) : (dat2 V c).after 29 t = iblk2 V c 29 t := by dsimp only [dat2]
theorem after2_30 (c : Dev nD) (t : Fin cfg2.N) : (dat2 V c).after 30 t = iblk2 V c 30 t := by dsimp only [dat2]
theorem after2_31 (c : Dev nD) (t : Fin cfg2.N) : (dat2 V c).after 31 t = iblk2 V c 31 t := by dsimp only [dat2]
theorem after2_32 (c : Dev nD) (t : Fin cfg2.N) : (dat2 V c).after 32 t = iblk2 V c 32 t := by dsimp only [dat2]
theorem after2_33 (c : Dev nD) (t : Fin cfg2.N) : (dat2 V c).after 33 t = iblk2 V c 33 t := by dsimp only [dat2]
theorem after2_34 (c : Dev nD) (t : Fin cfg2.N) :
    (dat2 V c).after 34 t = out2_34 (par2 V c t) (iblk2 V c 32 t) (iblk2 V c 33 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d
theorem before2_19 (c : Dev nD) (t : Fin cfg2.N) (d) : (dat2 V c).before 19 t d = iblk2 V c 19 t :=
  before2_19_of V (dat2 V c) (A_eq2 V c 19) (after2_19 V c) t d
theorem before2_20 (c : Dev nD) (t : Fin cfg2.N) (d) : (dat2 V c).before 20 t d = iblk2 V c 20 t :=
  before2_20_of V (dat2 V c) (A_eq2 V c 20) (after2_20 V c) t d
theorem before2_21 (c : Dev nD) (t : Fin cfg2.N) (d) : (dat2 V c).before 21 t d = iblk2 V c 21 t :=
  before2_21_of V (dat2 V c) (A_eq2 V c 21) (after2_21 V c) t d
theorem before2_22 (c : Dev nD) (t : Fin cfg2.N) (d) : (dat2 V c).before 22 t d = iblk2 V c 22 t :=
  before2_22_of V (dat2 V c) (A_eq2 V c 22) (after2_22 V c) t d
theorem before2_23 (c : Dev nD) (t : Fin cfg2.N) (d) : (dat2 V c).before 23 t d = iblk2 V c 23 t :=
  before2_23_of V (dat2 V c) (A_eq2 V c 23) (after2_23 V c) t d
theorem before2_24 (c : Dev nD) (t : Fin cfg2.N) (d) : (dat2 V c).before 24 t d = iblk2 V c 24 t :=
  before2_24_of V (dat2 V c) (A_eq2 V c 24) (after2_24 V c) t d
theorem before2_25 (c : Dev nD) (t : Fin cfg2.N) (d) : (dat2 V c).before 25 t d = iblk2 V c 25 t :=
  before2_25_of V (dat2 V c) (A_eq2 V c 25) (after2_25 V c) t d
theorem before2_26 (c : Dev nD) (t : Fin cfg2.N) (d) : (dat2 V c).before 26 t d = iblk2 V c 26 t :=
  before2_26_of V (dat2 V c) (A_eq2 V c 26) (after2_26 V c) t d
theorem before2_27 (c : Dev nD) (t : Fin cfg2.N) (d) : (dat2 V c).before 27 t d = iblk2 V c 27 t :=
  before2_27_of V (dat2 V c) (A_eq2 V c 27) (after2_27 V c) t d
theorem before2_28 (c : Dev nD) (t : Fin cfg2.N) (d) : (dat2 V c).before 28 t d = iblk2 V c 28 t :=
  before2_28_of V (dat2 V c) (A_eq2 V c 28) (after2_28 V c) t d
theorem before2_29 (c : Dev nD) (t : Fin cfg2.N) (d) : (dat2 V c).before 29 t d = iblk2 V c 29 t :=
  before2_29_of V (dat2 V c) (A_eq2 V c 29) (after2_29 V c) t d
theorem before2_30 (c : Dev nD) (t : Fin cfg2.N) (d) : (dat2 V c).before 30 t d = iblk2 V c 30 t :=
  before2_30_of V (dat2 V c) (A_eq2 V c 30) (after2_30 V c) t d
theorem before2_31 (c : Dev nD) (t : Fin cfg2.N) (d) : (dat2 V c).before 31 t d = iblk2 V c 31 t :=
  before2_31_of V (dat2 V c) (A_eq2 V c 31) (after2_31 V c) t d
theorem before2_32 (c : Dev nD) (t : Fin cfg2.N) (d) : (dat2 V c).before 32 t d = iblk2 V c 32 t :=
  before2_32_of V (dat2 V c) (A_eq2 V c 32) (after2_32 V c) t d
theorem before2_33 (c : Dev nD) (t : Fin cfg2.N) (d) : (dat2 V c).before 33 t d = iblk2 V c 33 t :=
  before2_33_of V (dat2 V c) (A_eq2 V c 33) (after2_33 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d))
    ∗ (∃ d, owns (c : Thread nD τ) (st2_23 t) fullShare ((dat2 V c).before 23 t d))
    ∗ (∃ d, owns (c : Thread nD τ) (st2_24 t) fullShare ((dat2 V c).before 24 t d))
    ∗ (∃ d, owns (c : Thread nD τ) (st2_25 t) fullShare ((dat2 V c).before 25 t d))
    ∗ (∃ d, owns (c : Thread nD τ) (st2_26 t) fullShare ((dat2 V c).before 26 t d))
    ∗ (∃ d, owns (c : Thread nD τ) (st2_27 t) fullShare ((dat2 V c).before 27 t d))
    ∗ (∃ d, owns (c : Thread nD τ) (st2_28 t) fullShare ((dat2 V c).before 28 t d))
    ∗ (∃ d, owns (c : Thread nD τ) (st2_29 t) fullShare ((dat2 V c).before 29 t d))
    ∗ (∃ d, owns (c : Thread nD τ) (st2_30 t) fullShare ((dat2 V c).before 30 t d))
    ∗ (∃ d, owns (c : Thread nD τ) (st2_31 t) fullShare ((dat2 V c).before 31 t d))
    ∗ (∃ d, owns (c : Thread nD τ) (st2_32 t) fullShare ((dat2 V c).before 32 t d))
    ∗ (∃ d, owns (c : Thread nD τ) (st2_33 t) fullShare ((dat2 V c).before 33 t d))
    ∗ (∃ d, owns (c : Thread nD τ) (st2_34 t) fullShare ((dat2 V c).before 34 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t)
    ∗ owns (c : Thread nD τ) (st2_23 t) fullShare ((dat2 V c).after 23 t)
    ∗ owns (c : Thread nD τ) (st2_24 t) fullShare ((dat2 V c).after 24 t)
    ∗ owns (c : Thread nD τ) (st2_25 t) fullShare ((dat2 V c).after 25 t)
    ∗ owns (c : Thread nD τ) (st2_26 t) fullShare ((dat2 V c).after 26 t)
    ∗ owns (c : Thread nD τ) (st2_27 t) fullShare ((dat2 V c).after 27 t)
    ∗ owns (c : Thread nD τ) (st2_28 t) fullShare ((dat2 V c).after 28 t)
    ∗ owns (c : Thread nD τ) (st2_29 t) fullShare ((dat2 V c).after 29 t)
    ∗ owns (c : Thread nD τ) (st2_30 t) fullShare ((dat2 V c).after 30 t)
    ∗ owns (c : Thread nD τ) (st2_31 t) fullShare ((dat2 V c).after 31 t)
    ∗ owns (c : Thread nD τ) (st2_32 t) fullShare ((dat2 V c).after 32 t)
    ∗ owns (c : Thread nD τ) (st2_33 t) fullShare ((dat2 V c).after 33 t)
    ∗ owns (c : Thread nD τ) (st2_34 t) fullShare ((dat2 V c).after 34 t))

set_option maxHeartbeats 4000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21, before2_22, before2_23, before2_24, before2_25, before2_26, before2_27, before2_28, before2_29, before2_30, before2_31, before2_32, before2_33]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28, after2_29, after2_30, after2_31, after2_32, after2_33, after2_34]
  have hk := fun K => sound_kernel2 (F := F) c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9)) _ (hstage2_10 ((cfg2.slots t 10).cast nbuf2_10)) _ (hstage2_11 ((cfg2.slots t 11).cast nbuf2_11)) _ (hstage2_12 ((cfg2.slots t 12).cast nbuf2_12)) _ (hstage2_13 ((cfg2.slots t 13).cast nbuf2_13)) _ (hstage2_14 ((cfg2.slots t 14).cast nbuf2_14)) _ (hstage2_15 ((cfg2.slots t 15).cast nbuf2_15)) _ (hstage2_16 ((cfg2.slots t 16).cast nbuf2_16)) _ (hstage2_17 ((cfg2.slots t 17).cast nbuf2_17)) _ (hstage2_18 ((cfg2.slots t 18).cast nbuf2_18)) _ (hstage2_19 ((cfg2.slots t 19).cast nbuf2_19)) _ (hstage2_20 ((cfg2.slots t 20).cast nbuf2_20)) _ (hstage2_21 ((cfg2.slots t 21).cast nbuf2_21)) _ (hstage2_22 ((cfg2.slots t 22).cast nbuf2_22)) _ (hstage2_23 ((cfg2.slots t 23).cast nbuf2_23)) _ (hstage2_24 ((cfg2.slots t 24).cast nbuf2_24)) _ (hstage2_25 ((cfg2.slots t 25).cast nbuf2_25)) _ (hstage2_26 ((cfg2.slots t 26).cast nbuf2_26)) _ (hstage2_27 ((cfg2.slots t 27).cast nbuf2_27)) _ (hstage2_28 ((cfg2.slots t 28).cast nbuf2_28)) _ (hstage2_29 ((cfg2.slots t 29).cast nbuf2_29)) _ (hstage2_30 ((cfg2.slots t 30).cast nbuf2_30)) _ (hstage2_31 ((cfg2.slots t 31).cast nbuf2_31)) _ (hstage2_32 ((cfg2.slots t 32).cast nbuf2_32)) _ (hstage2_33 ((cfg2.slots t 33).cast nbuf2_33)) _ (hstage2_34 ((cfg2.slots t 34).cast nbuf2_34))
    (par2 V c t) (iblk2 V c 32 t) (iblk2 V c 33 t) K
  simp only [par2_0, par2_1, par2_2, par2_3, par2_4, par2_5, par2_6, par2_7, par2_8, par2_9, par2_10, par2_11, par2_12, par2_13, par2_14, par2_15, par2_16, par2_17, par2_18, par2_19, par2_20, par2_21, par2_22, par2_23, par2_24, par2_25, par2_26, par2_27, par2_28, par2_29, par2_30, par2_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- Region 3 of the kernel program (pipeline 3, `cc3__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out3_34`); the body's triple; the
   pipeline's proof data (`dat3`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 3: custom_call 3, `cc3__group_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)
theorem before3_20_of {c : Dev nD} (dat : Dat τ (Elt F) Unit ℕ (UR sig nD τ) ℕ cfg3 c) (hA : dat.A 20 = V c (Pipeline.arrRef spec3 20))
    (hafter : ∀ t, dat.after 20 t = iblk3 V c 20 t) (t : Fin cfg3.N) (d) : dat.before 20 t d = iblk3 V c 20 t :=
  (dat.before_in_eq_fetched 20 rfl (fun _ => rfl) (fun _ _ _ => rfl) (fun t => by rw [hafter]; unfold Dat.blockOf iblk3; rw [hA]; try rfl) t d).trans
    (by unfold Dat.fetched Dat.blockOf iblk3; rw [hA]; try rfl)
theorem before3_21_of {c : Dev nD} (dat : Dat τ (Elt F) Unit ℕ (UR sig nD τ) ℕ cfg3 c) (hA : dat.A 21 = V c (Pipeline.arrRef spec3 21))
    (hafter : ∀ t, dat.after 21 t = iblk3 V c 21 t) (t : Fin cfg3.N) (d) : dat.before 21 t d = iblk3 V c 21 t :=
  (dat.before_in_eq_fetched 21 rfl (fun _ => rfl) (fun _ _ _ => rfl) (fun t => by rw [hafter]; unfold Dat.blockOf iblk3; rw [hA]; try rfl) t d).trans
    (by unfold Dat.fetched Dat.blockOf iblk3; rw [hA]; try rfl)
theorem before3_22_of {c : Dev nD} (dat : Dat τ (Elt F) Unit ℕ (UR sig nD τ) ℕ cfg3 c) (hA : dat.A 22 = V c (Pipeline.arrRef spec3 22))
    (hafter : ∀ t, dat.after 22 t = iblk3 V c 22 t) (t : Fin cfg3.N) (d) : dat.before 22 t d = iblk3 V c 22 t :=
  (dat.before_in_eq_fetched 22 rfl (fun _ => rfl) (fun _ _ _ => rfl) (fun t => by rw [hafter]; unfold Dat.blockOf iblk3; rw [hA]; try rfl) t d).trans
    (by unfold Dat.fetched Dat.blockOf iblk3; rw [hA]; try rfl)
theorem before3_23_of {c : Dev nD} (dat : Dat τ (Elt F) Unit ℕ (UR sig nD τ) ℕ cfg3 c) (hA : dat.A 23 = V c (Pipeline.arrRef spec3 23))
    (hafter : ∀ t, dat.after 23 t = iblk3 V c 23 t) (t : Fin cfg3.N) (d) : dat.before 23 t d = iblk3 V c 23 t :=
  (dat.before_in_eq_fetched 23 rfl (fun _ => rfl) (fun _ _ _ => rfl) (fun t => by rw [hafter]; unfold Dat.blockOf iblk3; rw [hA]; try rfl) t d).trans
    (by unfold Dat.fetched Dat.blockOf iblk3; rw [hA]; try rfl)
theorem before3_24_of {c : Dev nD} (dat : Dat τ (Elt F) Unit ℕ (UR sig nD τ) ℕ cfg3 c) (hA : dat.A 24 = V c (Pipeline.arrRef spec3 24))
    (hafter : ∀ t, dat.after 24 t = iblk3 V c 24 t) (t : Fin cfg3.N) (d) : dat.before 24 t d = iblk3 V c 24 t :=
  (dat.before_in_eq_fetched 24 rfl (fun _ => rfl) (fun _ _ _ => rfl) (fun t => by rw [hafter]; unfold Dat.blockOf iblk3; rw [hA]; try rfl) t d).trans
    (by unfold Dat.fetched Dat.blockOf iblk3; rw [hA]; try rfl)
theorem before3_25_of {c : Dev nD} (dat : Dat τ (Elt F) Unit ℕ (UR sig nD τ) ℕ cfg3 c) (hA : dat.A 25 = V c (Pipeline.arrRef spec3 25))
    (hafter : ∀ t, dat.after 25 t = iblk3 V c 25 t) (t : Fin cfg3.N) (d) : dat.before 25 t d = iblk3 V c 25 t :=
  (dat.before_in_eq_fetched 25 rfl (fun _ => rfl) (fun _ _ _ => rfl) (fun t => by rw [hafter]; unfold Dat.blockOf iblk3; rw [hA]; try rfl) t d).trans
    (by unfold Dat.fetched Dat.blockOf iblk3; rw [hA]; try rfl)
theorem before3_26_of {c : Dev nD} (dat : Dat τ (Elt F) Unit ℕ (UR sig nD τ) ℕ cfg3 c) (hA : dat.A 26 = V c (Pipeline.arrRef spec3 26))
    (hafter : ∀ t, dat.after 26 t = iblk3 V c 26 t) (t : Fin cfg3.N) (d) : dat.before 26 t d = iblk3 V c 26 t :=
  (dat.before_in_eq_fetched 26 rfl (fun _ => rfl) (fun _ _ _ => rfl) (fun t => by rw [hafter]; unfold Dat.blockOf iblk3; rw [hA]; try rfl) t d).trans
    (by unfold Dat.fetched Dat.blockOf iblk3; rw [hA]; try rfl)
theorem before3_27_of {c : Dev nD} (dat : Dat τ (Elt F) Unit ℕ (UR sig nD τ) ℕ cfg3 c) (hA : dat.A 27 = V c (Pipeline.arrRef spec3 27))
    (hafter : ∀ t, dat.after 27 t = iblk3 V c 27 t) (t : Fin cfg3.N) (d) : dat.before 27 t d = iblk3 V c 27 t :=
  (dat.before_in_eq_fetched 27 rfl (fun _ => rfl) (fun _ _ _ => rfl) (fun t => by rw [hafter]; unfold Dat.blockOf iblk3; rw [hA]; try rfl) t d).trans
    (by unfold Dat.fetched Dat.blockOf iblk3; rw [hA]; try rfl)
theorem before3_28_of {c : Dev nD} (dat : Dat τ (Elt F) Unit ℕ (UR sig nD τ) ℕ cfg3 c) (hA : dat.A 28 = V c (Pipeline.arrRef spec3 28))
    (hafter : ∀ t, dat.after 28 t = iblk3 V c 28 t) (t : Fin cfg3.N) (d) : dat.before 28 t d = iblk3 V c 28 t :=
  (dat.before_in_eq_fetched 28 rfl (fun _ => rfl) (fun _ _ _ => rfl) (fun t => by rw [hafter]; unfold Dat.blockOf iblk3; rw [hA]; try rfl) t d).trans
    (by unfold Dat.fetched Dat.blockOf iblk3; rw [hA]; try rfl)
theorem before3_29_of {c : Dev nD} (dat : Dat τ (Elt F) Unit ℕ (UR sig nD τ) ℕ cfg3 c) (hA : dat.A 29 = V c (Pipeline.arrRef spec3 29))
    (hafter : ∀ t, dat.after 29 t = iblk3 V c 29 t) (t : Fin cfg3.N) (d) : dat.before 29 t d = iblk3 V c 29 t :=
  (dat.before_in_eq_fetched 29 rfl (fun _ => rfl) (fun _ _ _ => rfl) (fun t => by rw [hafter]; unfold Dat.blockOf iblk3; rw [hA]; try rfl) t d).trans
    (by unfold Dat.fetched Dat.blockOf iblk3; rw [hA]; try rfl)
theorem before3_30_of {c : Dev nD} (dat : Dat τ (Elt F) Unit ℕ (UR sig nD τ) ℕ cfg3 c) (hA : dat.A 30 = V c (Pipeline.arrRef spec3 30))
    (hafter : ∀ t, dat.after 30 t = iblk3 V c 30 t) (t : Fin cfg3.N) (d) : dat.before 30 t d = iblk3 V c 30 t :=
  (dat.before_in_eq_fetched 30 rfl (fun _ => rfl) (fun _ _ _ => rfl) (fun t => by rw [hafter]; unfold Dat.blockOf iblk3; rw [hA]; try rfl) t d).trans
    (by unfold Dat.fetched Dat.blockOf iblk3; rw [hA]; try rfl)
theorem before3_31_of {c : Dev nD} (dat : Dat τ (Elt F) Unit ℕ (UR sig nD τ) ℕ cfg3 c) (hA : dat.A 31 = V c (Pipeline.arrRef spec3 31))
    (hafter : ∀ t, dat.after 31 t = iblk3 V c 31 t) (t : Fin cfg3.N) (d) : dat.before 31 t d = iblk3 V c 31 t :=
  (dat.before_in_eq_fetched 31 rfl (fun _ => rfl) (fun _ _ _ => rfl) (fun t => by rw [hafter]; unfold Dat.blockOf iblk3; rw [hA]; try rfl) t d).trans
    (by unfold Dat.fetched Dat.blockOf iblk3; rw [hA]; try rfl)
theorem before3_32_of {c : Dev nD} (dat : Dat τ (Elt F) Unit ℕ (UR sig nD τ) ℕ cfg3 c) (hA : dat.A 32 = V c (Pipeline.arrRef spec3 32))
    (hafter : ∀ t, dat.after 32 t = iblk3 V c 32 t) (t : Fin cfg3.N) (d) : dat.before 32 t d = iblk3 V c 32 t :=
  (dat.before_in_eq_fetched 32 rfl (fun _ => rfl) (fun _ _ _ => rfl) (fun t => by rw [hafter]; unfold Dat.blockOf iblk3; rw [hA]; try rfl) t d).trans
    (by unfold Dat.fetched Dat.blockOf iblk3; rw [hA]; try rfl)
theorem before3_33_of {c : Dev nD} (dat : Dat τ (Elt F) Unit ℕ (UR sig nD τ) ℕ cfg3 c) (hA : dat.A 33 = V c (Pipeline.arrRef spec3 33))
    (hafter : ∀ t, dat.after 33 t = iblk3 V c 33 t) (t : Fin cfg3.N) (d) : dat.before 33 t d = iblk3 V c 33 t :=
  (dat.before_in_eq_fetched 33 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A parent's whole block. -/
abbrev r3_p : Rect S512x128 := Rect.unit (s := S512x128) ![0, 0] S512x128.size inb_S512x128_S512x128_0_0
/-- Slab `k` of the weight slice, -/
abbrev r3_w0 : Rect S8x128x128 := Rect.unit (s := S8x128x128) ![0, 0, 0] S1x128x128.size inb_S8x128x128_S1x128x128_0_0_0
abbrev r3_w1 : Rect S8x128x128 := Rect.unit (s := S8x128x128) ![1, 0, 0] S1x128x128.size inb_S8x128x128_S1x128x128_1_0_0
abbrev r3_w2 : Rect S8x128x128 := Rect.unit (s := S8x128x128) ![2, 0, 0] S1x128x128.size inb_S8x128x128_S1x128x128_2_0_0
abbrev r3_w3 : Rect S8x128x128 := Rect.unit (s := S8x128x128) ![3, 0, 0] S1x128x128.size inb_S8x128x128_S1x128x128_3_0_0
abbrev r3_w4 : Rect S8x128x128 := Rect.unit (s := S8x128x128) ![4, 0, 0] S1x128x128.size inb_S8x128x128_S1x128x128_4_0_0
abbrev r3_w5 : Rect S8x128x128 := Rect.unit (s := S8x128x128) ![5, 0, 0] S1x128x128.size inb_S8x128x128_S1x128x128_5_0_0
abbrev r3_w6 : Rect S8x128x128 := Rect.unit (s := S8x128x128) ![6, 0, 0] S1x128x128.size inb_S8x128x128_S1x128x128_6_0_0
abbrev r3_w7 : Rect S8x128x128 := Rect.unit (s := S8x128x128) ![7, 0, 0] S1x128x128.size inb_S8x128x128_S1x128x128_7_0_0
/-- row `k` of the bias slice, -/
abbrev r3_b0 : Rect S8x128 := Rect.unit (s := S8x128) ![0, 0] S1x128.size inb_S8x128_S1x128_0_0
abbrev r3_b1 : Rect S8x128 := Rect.unit (s := S8x128) ![1, 0] S1x128.size inb_S8x128_S1x128_1_0
abbrev r3_b2 : Rect S8x128 := Rect.unit (s := S8x128) ![2, 0] S1x128.size inb_S8x128_S1x128_2_0
abbrev r3_b3 : Rect S8x128 := Rect.unit (s := S8x128) ![3, 0] S1x128.size inb_S8x128_S1x128_3_0
abbrev r3_b4 : Rect S8x128 := Rect.unit (s := S8x128) ![4, 0] S1x128.size inb_S8x128_S1x128_4_0
abbrev r3_b5 : Rect S8x128 := Rect.unit (s := S8x128) ![5, 0] S1x128.size inb_S8x128_S1x128_5_0
abbrev r3_b6 : Rect S8x128 := Rect.unit (s := S8x128) ![6, 0] S1x128.size inb_S8x128_S1x128_6_0
abbrev r3_b7 : Rect S8x128 := Rect.unit (s := S8x128) ![7, 0] S1x128.size inb_S8x128_S1x128_7_0
/-- and slab `k` of the output block. -/
abbrev r3_o0 : Rect S8x512x128 := Rect.unit (s := S8x512x128) ![0, 0, 0] S1x512x128.size inb_S8x512x128_S1x512x128_0_0_0
abbrev r3_o1 : Rect S8x512x128 := Rect.unit (s := S8x512x128) ![1, 0, 0] S1x512x128.size inb_S8x512x128_S1x512x128_1_0_0
abbrev r3_o2 : Rect S8x512x128 := Rect.unit (s := S8x512x128) ![2, 0, 0] S1x512x128.size inb_S8x512x128_S1x512x128_2_0_0
abbrev r3_o3 : Rect S8x512x128 := Rect.unit (s := S8x512x128) ![3, 0, 0] S1x512x128.size inb_S8x512x128_S1x512x128_3_0_0
abbrev r3_o4 : Rect S8x512x128 := Rect.unit (s := S8x512x128) ![4, 0, 0] S1x512x128.size inb_S8x512x128_S1x512x128_4_0_0
abbrev r3_o5 : Rect S8x512x128 := Rect.unit (s := S8x512x128) ![5, 0, 0] S1x512x128.size inb_S8x512x128_S1x512x128_5_0_0
abbrev r3_o6 : Rect S8x512x128 := Rect.unit (s := S8x512x128) ![6, 0, 0] S1x512x128.size inb_S8x512x128_S1x512x128_6_0_0
abbrev r3_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab3_0 (p : Fin 32 → Vec F S512x128 .f32) (wt : Vec F S8x128x128 .f32) (bs : Vec F S8x128 .f32) : Vec F S1x512x128 .f32 :=
  k3_pay1 (View.ld (p 0) r3_p) (View.ld (p 1) r3_p) (View.ld (p 2) r3_p) (View.ld (p 3) r3_p) (View.ld wt r3_w0) (View.ld bs r3_b0)
def slab3_1 (p : Fin 32 → Vec F S512x128 .f32) (wt : Vec F S8x128x128 .f32) (bs : Vec F S8x128 .f32) : Vec F S1x512x128 .f32 :=
  k3_pay3 (k3_pay2 (View.ld (p 4) r3_p) (View.ld (p 5) r3_p) (View.ld (p 6) r3_p)) (View.ld (p 7) r3_p) (View.ld wt r3_w1) (View.ld bs r3_b1)
def slab3_2 (p : Fin 32 → Vec F S512x128 .f32) (wt : Vec F S8x128x128 .f32) (bs : Vec F S8x128 .f32) : Vec F S1x512x128 .f32 :=
  k3_pay7 (k3_pay4 (View.ld (p 8) r3_p) (View.ld (p 9) r3_p) (View.ld (p 10) r3_p) (View.ld (p 11) r3_p)) (k3_pay5 (View.ld wt r3_w2)) (k3_pay6 (View.ld bs r3_b2))
def slab3_3 (p : Fin 32 → Vec F S512x128 .f32) (wt : Vec F S8x128x128 .f32) (bs : Vec F S8x128 .f32) : Vec F S1x512x128 .f32 :=
  k3_pay8 (View.ld (p 12) r3_p) (View.ld (p 13) r3_p) (View.ld (p 14) r3_p) (View.ld (p 15) r3_p) (View.ld wt r3_w3) (View.ld bs r3_b3)
def slab3_4 (p : Fin 32 → Vec F S512x128 .f32) (wt : Vec F S8x128x128 .f32) (bs : Vec F S8x128 .f32) : Vec F S1x512x128 .f32 :=
  k3_pay9 (View.ld (p 16) r3_p) (View.ld (p 17) r3_p) (View.ld (p 18) r3_p) (View.ld (p 19) r3_p) (View.ld wt r3_w4) (View.ld bs r3_b4)
def slab3_5 (p : Fin 32 → Vec F S512x128 .f32) (wt : Vec F S8x128x128 .f32) (bs : Vec F S8x128 .f32) : Vec F S1x512x128 .f32 :=
  k3_pay11 (k3_pay10 (View.ld (p 20) r3_p) (View.ld (p 21) r3_p) (View.ld (p 22) r3_p)) (View.ld (p 23) r3_p) (View.ld wt r3_w5) (View.ld bs r3_b5)
def slab3_6 (p : Fin 32 → Vec F S512x128 .f32) (wt : Vec F S8x128x128 .f32) (bs : Vec F S8x128 .f32) : Vec F S1x512x128 .f32 :=
  k3_pay15 (k3_pay12 (View.ld (p 24) r3_p) (View.ld (p 25) r3_p) (View.ld (p 26) r3_p) (View.ld (p 27) r3_p)) (k3_pay13 (View.ld wt r3_w6)) (k3_pay14 (View.ld bs r3_b6))
def slab3_7 (p : Fin 32 → Vec F S512x128 .f32) (wt : Vec F S8x128x128 .f32) (bs : Vec F S8x128 .f32) : Vec F S1x512x128 .f32 :=
  k3_pay16 (View.ld (p 28) r3_p) (View.ld (p 29) r3_p) (View.ld (p 30) r3_p) (View.ld (p 31) r3_p) (View.ld wt r3_w7) (View.ld bs r3_b7)

/-- Window 34's staging buffer after the body, from the input windows' blocks: its 8 stores as pieces, LAST FIRST. -/
def out3_34 (p : Fin 32 → Vec F S512x128 .f32) (wt : Vec F S8x128x128 .f32) (bs : Vec F S8x128 .f32) : Vec F S8x512x128 .f32 :=
  View.canon [⟨r3_o7, slab3_7 p wt bs⟩, ⟨r3_o6, slab3_6 p wt bs⟩, ⟨r3_o5, slab3_5 p wt bs⟩, ⟨r3_o4, slab3_4 p wt bs⟩, ⟨r3_o3, slab3_3 p wt bs⟩, ⟨r3_o2, slab3_2 p wt bs⟩, ⟨r3_o1, slab3_1 p wt bs⟩, ⟨r3_o0, slab3_0 p wt bs⟩]

/-- The eight stores tile the buffer (checked by evaluation), so they cover it. -/
theorem cover3_34 (p0 p1 p2 p3 p4 p5 p6 p7 : Vec F S1x512x128 .f32) (y : S8x512x128.Idx) :
    ∃ pc ∈ ([⟨r3_o7, p7⟩, ⟨r3_o6, p6⟩, ⟨r3_o5, p5⟩, ⟨r3_o4, p4⟩, ⟨r3_o3, p3⟩, ⟨r3_o2, p2⟩, ⟨r3_o1, p1⟩, ⟨r3_o0, p0⟩] : List (View.Piece (Elt F) S8x512x128 .f32)), y ∈ pc.1.set :=
  View.cover_of_tiled [⟨r3_o7, p7⟩, ⟨r3_o6, p6⟩, ⟨r3_o5, p5⟩, ⟨r3_o4, p4⟩, ⟨r3_o3, p3⟩, ⟨r3_o2, p2⟩, ⟨r3_o1, p1⟩, ⟨r3_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out3_34` of the inputs': the printed
    functions are their skeletons, run through every part call; each slab's load of the output buffer before its store
    reads contents nothing uses. -/
theorem sound_kernel3 (c : Dev nD) (E : Set ℕ) (i : grid3.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out3_34 p wt bs)) -∗ K ⟨⟩))
      ⊢ wp frame (wpE (defs₀ (F := F)) Variants.none c none) E (cc3__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out3_34 slab3_0 slab3_1 slab3_2 slab3_3 slab3_4 slab3_5 slab3_6 slab3_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc3__group_kernel_eq_skeleton]; unfold cc3__group_kernel_skel
  simp only [k3_part1_eq_skeleton, k3_part2_eq_skeleton, k3_part3_eq_skeleton, k3_part4_eq_skeleton, k3_part5_eq_skeleton, k3_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover3_34 _ _ _ _ _ _ _ _)

/-! ## The pipeline's proof data -/

/-- The 32 parent blocks at point `t`, as one family: parent `j` of slab `k` is window `4k+j`. -/
def par3 (c : Dev nD) (t : Fin cfg3.N) : Fin 32 → Vec F S512x128 .f32 := fun j => match j with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => iblk3 V c 31 t
    | ⟨_ + 32, h⟩ => absurd h (Nat.not_lt.2 (Nat.le_add_left _ _))

/-- The family at a literal index (the `match` reduced by `dsimp`). -/
theorem par3_0 (c : Dev nD) (t : Fin cfg3.N) : par3 V c t 0 = iblk3 V c 0 t := by dsimp only [par3]
theorem par3_1 (c : Dev nD) (t : Fin cfg3.N) : par3 V c t 1 = iblk3 V c 1 t := by dsimp only [par3]
theorem par3_2 (c : Dev nD) (t : Fin cfg3.N) : par3 V c t 2 = iblk3 V c 2 t := by dsimp only [par3]
theorem par3_3 (c : Dev nD) (t : Fin cfg3.N) : par3 V c t 3 = iblk3 V c 3 t := by dsimp only [par3]
theorem par3_4 (c : Dev nD) (t : Fin cfg3.N) : par3 V c t 4 = iblk3 V c 4 t := by dsimp only [par3]
theorem par3_5 (c : Dev nD) (t : Fin cfg3.N) : par3 V c t 5 = iblk3 V c 5 t := by dsimp only [par3]
theorem par3_6 (c : Dev nD) (t : Fin cfg3.N) : par3 V c t 6 = iblk3 V c 6 t := by dsimp only [par3]
theorem par3_7 (c : Dev nD) (t : Fin cfg3.N) : par3 V c t 7 = iblk3 V c 7 t := by dsimp only [par3]
theorem par3_8 (c : Dev nD) (t : Fin cfg3.N) : par3 V c t 8 = iblk3 V c 8 t := by dsimp only [par3]
theorem par3_9 (c : Dev nD) (t : Fin cfg3.N) : par3 V c t 9 = iblk3 V c 9 t := by dsimp only [par3]
theorem par3_10 (c : Dev nD) (t : Fin cfg3.N) : par3 V c t 10 = iblk3 V c 10 t := by dsimp only [par3]
theorem par3_11 (c : Dev nD) (t : Fin cfg3.N) : par3 V c t 11 = iblk3 V c 11 t := by dsimp only [par3]
theorem par3_12 (c : Dev nD) (t : Fin cfg3.N) : par3 V c t 12 = iblk3 V c 12 t := by dsimp only [par3]
theorem par3_13 (c : Dev nD) (t : Fin cfg3.N) : par3 V c t 13 = iblk3 V c 13 t := by dsimp only [par3]
theorem par3_14 (c : Dev nD) (t : Fin cfg3.N) : par3 V c t 14 = iblk3 V c 14 t := by dsimp only [par3]
theorem par3_15 (c : Dev nD) (t : Fin cfg3.N) : par3 V c t 15 = iblk3 V c 15 t := by dsimp only [par3]
theorem par3_16 (c : Dev nD) (t : Fin cfg3.N) : par3 V c t 16 = iblk3 V c 16 t := by dsimp only [par3]
theorem par3_17 (c : Dev nD) (t : Fin cfg3.N) : par3 V c t 17 = iblk3 V c 17 t := by dsimp only [par3]
theorem par3_18 (c : Dev nD) (t : Fin cfg3.N) : par3 V c t 18 = iblk3 V c 18 t := by dsimp only [par3]
theorem par3_19 (c : Dev nD) (t : Fin cfg3.N) : par3 V c t 19 = iblk3 V c 19 t := by dsimp only [par3]
theorem par3_20 (c : Dev nD) (t : Fin cfg3.N) : par3 V c t 20 = iblk3 V c 20 t := by dsimp only [par3]
theorem par3_21 (c : Dev nD) (t : Fin cfg3.N) : par3 V c t 21 = iblk3 V c 21 t := by dsimp only [par3]
theorem par3_22 (c : Dev nD) (t : Fin cfg3.N) : par3 V c t 22 = iblk3 V c 22 t := by dsimp only [par3]
theorem par3_23 (c : Dev nD) (t : Fin cfg3.N) : par3 V c t 23 = iblk3 V c 23 t := by dsimp only [par3]
theorem par3_24 (c : Dev nD) (t : Fin cfg3.N) : par3 V c t 24 = iblk3 V c 24 t := by dsimp only [par3]
theorem par3_25 (c : Dev nD) (t : Fin cfg3.N) : par3 V c t 25 = iblk3 V c 25 t := by dsimp only [par3]
theorem par3_26 (c : Dev nD) (t : Fin cfg3.N) : par3 V c t 26 = iblk3 V c 26 t := by dsimp only [par3]
theorem par3_27 (c : Dev nD) (t : Fin cfg3.N) : par3 V c t 27 = iblk3 V c 27 t := by dsimp only [par3]
theorem par3_28 (c : Dev nD) (t : Fin cfg3.N) : par3 V c t 28 = iblk3 V c 28 t := by dsimp only [par3]
theorem par3_29 (c : Dev nD) (t : Fin cfg3.N) : par3 V c t 29 = iblk3 V c 29 t := by dsimp only [par3]
theorem par3_30 (c : Dev nD) (t : Fin cfg3.N) : par3 V c t 30 = iblk3 V c 30 t := by dsimp only [par3]
theorem par3_31 (c : Dev nD) (t : Fin cfg3.N) : par3 V c t 31 = iblk3 V c 31 t := by dsimp only [par3]

/-- The proof data of pipeline 3 on core `c`: the arrays as the region finds them (`V`); after the body at point `t`
    each input's buffer at its block and the output's at `out3_34` of the input blocks; the invariant the scoped rest
    and the generator register, untouched; nothing owed; of each windowed array the share its window holds when
    several windows read one array. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => iblk3 V c 31 t
    | ⟨32, _⟩ => iblk3 V c 32 t
    | ⟨33, _⟩ => iblk3 V c 33 t
    | ⟨34, _⟩ => out3_34 (par3 V c t) (iblk3 V c 32 t) (iblk3 V c 33 t)
    | ⟨_ + 35, h⟩ => absurd h (Nat.not_lt.2 (Nat.le_add_left _ _))
  Φ _ := Pipeline.ΦA spec3 c
  q w := Cert.Lib.SharedArrays.shareOf (Pipeline.arrRef spec3) w
  owed _ := 0

/-- The proof data's arrays are the region-entry contents. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = iblk3 V c 23 t := by dsimp only [dat3]
theorem after3_24 (c : Dev nD) (t : Fin cfg3.N) : (dat3 V c).after 24 t = iblk3 V c 24 t := by dsimp only [dat3]
theorem after3_25 (c : Dev nD) (t : Fin cfg3.N) : (dat3 V c).after 25 t = iblk3 V c 25 t := by dsimp only [dat3]
theorem after3_26 (c : Dev nD) (t : Fin cfg3.N) : (dat3 V c).after 26 t = iblk3 V c 26 t := by dsimp only [dat3]
theorem after3_27 (c : Dev nD) (t : Fin cfg3.N) : (dat3 V c).after 27 t = iblk3 V c 27 t := by dsimp only [dat3]
theorem after3_28 (c : Dev nD) (t : Fin cfg3.N) : (dat3 V c).after 28 t = iblk3 V c 28 t := by dsimp only [dat3]
theorem after3_29 (c : Dev nD) (t : Fin cfg3.N) : (dat3 V c).after 29 t = iblk3 V c 29 t := by dsimp only [dat3]
theorem after3_30 (c : Dev nD) (t : Fin cfg3.N) : (dat3 V c).after 30 t = iblk3 V c 30 t := by dsimp only [dat3]
theorem after3_31 (c : Dev nD) (t : Fin cfg3.N) : (dat3 V c).after 31 t = iblk3 V c 31 t := by dsimp only [dat3]
theorem after3_32 (c : Dev nD) (t : Fin cfg3.N) : (dat3 V c).after 32 t = iblk3 V c 32 t := by dsimp only [dat3]
theorem after3_33 (c : Dev nD) (t : Fin cfg3.N) : (dat3 V c).after 33 t = iblk3 V c 33 t := by dsimp only [dat3]
theorem after3_34 (c : Dev nD) (t : Fin cfg3.N) :
    (dat3 V c).after 34 t = out3_34 (par3 V c t) (iblk3 V c 32 t) (iblk3 V c 33 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d
theorem before3_20 (c : Dev nD) (t : Fin cfg3.N) (d) : (dat3 V c).before 20 t d = iblk3 V c 20 t :=
  before3_20_of V (dat3 V c) (A_eq3 V c 20) (after3_20 V c) t d
theorem before3_21 (c : Dev nD) (t : Fin cfg3.N) (d) : (dat3 V c).before 21 t d = iblk3 V c 21 t :=
  before3_21_of V (dat3 V c) (A_eq3 V c 21) (after3_21 V c) t d
theorem before3_22 (c : Dev nD) (t : Fin cfg3.N) (d) : (dat3 V c).before 22 t d = iblk3 V c 22 t :=
  before3_22_of V (dat3 V c) (A_eq3 V c 22) (after3_22 V c) t d
theorem before3_23 (c : Dev nD) (t : Fin cfg3.N) (d) : (dat3 V c).before 23 t d = iblk3 V c 23 t :=
  before3_23_of V (dat3 V c) (A_eq3 V c 23) (after3_23 V c) t d
theorem before3_24 (c : Dev nD) (t : Fin cfg3.N) (d) : (dat3 V c).before 24 t d = iblk3 V c 24 t :=
  before3_24_of V (dat3 V c) (A_eq3 V c 24) (after3_24 V c) t d
theorem before3_25 (c : Dev nD) (t : Fin cfg3.N) (d) : (dat3 V c).before 25 t d = iblk3 V c 25 t :=
  before3_25_of V (dat3 V c) (A_eq3 V c 25) (after3_25 V c) t d
theorem before3_26 (c : Dev nD) (t : Fin cfg3.N) (d) : (dat3 V c).before 26 t d = iblk3 V c 26 t :=
  before3_26_of V (dat3 V c) (A_eq3 V c 26) (after3_26 V c) t d
theorem before3_27 (c : Dev nD) (t : Fin cfg3.N) (d) : (dat3 V c).before 27 t d = iblk3 V c 27 t :=
  before3_27_of V (dat3 V c) (A_eq3 V c 27) (after3_27 V c) t d
theorem before3_28 (c : Dev nD) (t : Fin cfg3.N) (d) : (dat3 V c).before 28 t d = iblk3 V c 28 t :=
  before3_28_of V (dat3 V c) (A_eq3 V c 28) (after3_28 V c) t d
theorem before3_29 (c : Dev nD) (t : Fin cfg3.N) (d) : (dat3 V c).before 29 t d = iblk3 V c 29 t :=
  before3_29_of V (dat3 V c) (A_eq3 V c 29) (after3_29 V c) t d
theorem before3_30 (c : Dev nD) (t : Fin cfg3.N) (d) : (dat3 V c).before 30 t d = iblk3 V c 30 t :=
  before3_30_of V (dat3 V c) (A_eq3 V c 30) (after3_30 V c) t d
theorem before3_31 (c : Dev nD) (t : Fin cfg3.N) (d) : (dat3 V c).before 31 t d = iblk3 V c 31 t :=
  before3_31_of V (dat3 V c) (A_eq3 V c 31) (after3_31 V c) t d
theorem before3_32 (c : Dev nD) (t : Fin cfg3.N) (d) : (dat3 V c).before 32 t d = iblk3 V c 32 t :=
  before3_32_of V (dat3 V c) (A_eq3 V c 32) (after3_32 V c) t d
theorem before3_33 (c : Dev nD) (t : Fin cfg3.N) (d) : (dat3 V c).before 33 t d = iblk3 V c 33 t :=
  before3_33_of V (dat3 V c) (A_eq3 V c 33) (after3_33 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d))
    ∗ (∃ d, owns (c : Thread nD τ) (st3_25 t) fullShare ((dat3 V c).before 25 t d))
    ∗ (∃ d, owns (c : Thread nD τ) (st3_26 t) fullShare ((dat3 V c).before 26 t d))
    ∗ (∃ d, owns (c : Thread nD τ) (st3_27 t) fullShare ((dat3 V c).before 27 t d))
    ∗ (∃ d, owns (c : Thread nD τ) (st3_28 t) fullShare ((dat3 V c).before 28 t d))
    ∗ (∃ d, owns (c : Thread nD τ) (st3_29 t) fullShare ((dat3 V c).before 29 t d))
    ∗ (∃ d, owns (c : Thread nD τ) (st3_30 t) fullShare ((dat3 V c).before 30 t d))
    ∗ (∃ d, owns (c : Thread nD τ) (st3_31 t) fullShare ((dat3 V c).before 31 t d))
    ∗ (∃ d, owns (c : Thread nD τ) (st3_32 t) fullShare ((dat3 V c).before 32 t d))
    ∗ (∃ d, owns (c : Thread nD τ) (st3_33 t) fullShare ((dat3 V c).before 33 t d))
    ∗ (∃ d, owns (c : Thread nD τ) (st3_34 t) fullShare ((dat3 V c).before 34 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t)
    ∗ owns (c : Thread nD τ) (st3_25 t) fullShare ((dat3 V c).after 25 t)
    ∗ owns (c : Thread nD τ) (st3_26 t) fullShare ((dat3 V c).after 26 t)
    ∗ owns (c : Thread nD τ) (st3_27 t) fullShare ((dat3 V c).after 27 t)
    ∗ owns (c : Thread nD τ) (st3_28 t) fullShare ((dat3 V c).after 28 t)
    ∗ owns (c : Thread nD τ) (st3_29 t) fullShare ((dat3 V c).after 29 t)
    ∗ owns (c : Thread nD τ) (st3_30 t) fullShare ((dat3 V c).after 30 t)
    ∗ owns (c : Thread nD τ) (st3_31 t) fullShare ((dat3 V c).after 31 t)
    ∗ owns (c : Thread nD τ) (st3_32 t) fullShare ((dat3 V c).after 32 t)
    ∗ owns (c : Thread nD τ) (st3_33 t) fullShare ((dat3 V c).after 33 t)
    ∗ owns (c : Thread nD τ) (st3_34 t) fullShare ((dat3 V c).after 34 t))

set_option maxHeartbeats 4000000 in
/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22, before3_23, before3_24, before3_25, before3_26, before3_27, before3_28, before3_29, before3_30, before3_31, before3_32, before3_33]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24, after3_25, after3_26, after3_27, after3_28, after3_29, after3_30, after3_31, after3_32, after3_33, after3_34]
  have hk := fun K => sound_kernel3 (F := F) c Set.univ (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8)) _ (hstage3_9 ((cfg3.slots t 9).cast nbuf3_9)) _ (hstage3_10 ((cfg3.slots t 10).cast nbuf3_10)) _ (hstage3_11 ((cfg3.slots t 11).cast nbuf3_11)) _ (hstage3_12 ((cfg3.slots t 12).cast nbuf3_12)) _ (hstage3_13 ((cfg3.slots t 13).cast nbuf3_13)) _ (hstage3_14 ((cfg3.slots t 14).cast nbuf3_14)) _ (hstage3_15 ((cfg3.slots t 15).cast nbuf3_15)) _ (hstage3_16 ((cfg3.slots t 16).cast nbuf3_16)) _ (hstage3_17 ((cfg3.slots t 17).cast nbuf3_17)) _ (hstage3_18 ((cfg3.slots t 18).cast nbuf3_18)) _ (hstage3_19 ((cfg3.slots t 19).cast nbuf3_19)) _ (hstage3_20 ((cfg3.slots t 20).cast nbuf3_20)) _ (hstage3_21 ((cfg3.slots t 21).cast nbuf3_21)) _ (hstage3_22 ((cfg3.slots t 22).cast nbuf3_22)) _ (hstage3_23 ((cfg3.slots t 23).cast nbuf3_23)) _ (hstage3_24 ((cfg3.slots t 24).cast nbuf3_24)) _ (hstage3_25 ((cfg3.slots t 25).cast nbuf3_25)) _ (hstage3_26 ((cfg3.slots t 26).cast nbuf3_26)) _ (hstage3_27 ((cfg3.slots t 27).cast nbuf3_27)) _ (hstage3_28 ((cfg3.slots t 28).cast nbuf3_28)) _ (hstage3_29 ((cfg3.slots t 29).cast nbuf3_29)) _ (hstage3_30 ((cfg3.slots t 30).cast nbuf3_30)) _ (hstage3_31 ((cfg3.slots t 31).cast nbuf3_31)) _ (hstage3_32 ((cfg3.slots t 32).cast nbuf3_32)) _ (hstage3_33 ((cfg3.slots t 33).cast nbuf3_33)) _ (hstage3_34 ((cfg3.slots t 34).cast nbuf3_34))
    (par3 V c t) (iblk3 V c 32 t) (iblk3 V c 33 t) K
  simp only [par3_0, par3_1, par3_2, par3_3, par3_4, par3_5, par3_6, par3_7, par3_8, par3_9, par3_10, par3_11, par3_12, par3_13, par3_14, par3_15, par3_16, par3_17, par3_18, par3_19, par3_20, par3_21, par3_22, par3_23, par3_24, par3_25, par3_26, par3_27, par3_28, par3_29, par3_30, par3_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Region 4 of the kernel program (pipeline 4, `cc4__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out4_34`); the body's triple; the
   pipeline's proof data (`dat4`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4: custom_call 4, `cc4__group_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)
theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)
theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)
theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)
theorem before4_19_of {c : Dev nD} (dat : Dat τ (Elt F) Unit ℕ (UR sig nD τ) ℕ cfg4 c) (hA : dat.A 19 = V c (Pipeline.arrRef spec4 19))
    (hafter : ∀ t, dat.after 19 t = iblk4 V c 19 t) (t : Fin cfg4.N) (d) : dat.before 19 t d = iblk4 V c 19 t :=
  (dat.before_in_eq_fetched 19 rfl (fun _ => rfl) (fun _ _ _ => rfl) (fun t => by rw [hafter]; unfold Dat.blockOf iblk4; rw [hA]; try rfl) t d).trans
    (by unfold Dat.fetched Dat.blockOf iblk4; rw [hA]; try rfl)
theorem before4_20_of {c : Dev nD} (dat : Dat τ (Elt F) Unit ℕ (UR sig nD τ) ℕ cfg4 c) (hA : dat.A 20 = V c (Pipeline.arrRef spec4 20))
    (hafter : ∀ t, dat.after 20 t = iblk4 V c 20 t) (t : Fin cfg4.N) (d) : dat.before 20 t d = iblk4 V c 20 t :=
  (dat.before_in_eq_fetched 20 rfl (fun _ => rfl) (fun _ _ _ => rfl) (fun t => by rw [hafter]; unfold Dat.blockOf iblk4; rw [hA]; try rfl) t d).trans
    (by unfold Dat.fetched Dat.blockOf iblk4; rw [hA]; try rfl)
theorem before4_21_of {c : Dev nD} (dat : Dat τ (Elt F) Unit ℕ (UR sig nD τ) ℕ cfg4 c) (hA : dat.A 21 = V c (Pipeline.arrRef spec4 21))
    (hafter : ∀ t, dat.after 21 t = iblk4 V c 21 t) (t : Fin cfg4.N) (d) : dat.before 21 t d = iblk4 V c 21 t :=
  (dat.before_in_eq_fetched 21 rfl (fun _ => rfl) (fun _ _ _ => rfl) (fun t => by rw [hafter]; unfold Dat.blockOf iblk4; rw [hA]; try rfl) t d).trans
    (by unfold Dat.fetched Dat.blockOf iblk4; rw [hA]; try rfl)
theorem before4_22_of {c : Dev nD} (dat : Dat τ (Elt F) Unit ℕ (UR sig nD τ) ℕ cfg4 c) (hA : dat.A 22 = V c (Pipeline.arrRef spec4 22))
    (hafter : ∀ t, dat.after 22 t = iblk4 V c 22 t) (t : Fin cfg4.N) (d) : dat.before 22 t d = iblk4 V c 22 t :=
  (dat.before_in_eq_fetched 22 rfl (fun _ => rfl) (fun _ _ _ => rfl) (fun t => by rw [hafter]; unfold Dat.blockOf iblk4; rw [hA]; try rfl) t d).trans
    (by unfold Dat.fetched Dat.blockOf iblk4; rw [hA]; try rfl)
theorem before4_23_of {c : Dev nD} (dat : Dat τ (Elt F) Unit ℕ (UR sig nD τ) ℕ cfg4 c) (hA : dat.A 23 = V c (Pipeline.arrRef spec4 23))
    (hafter : ∀ t, dat.after 23 t = iblk4 V c 23 t) (t : Fin cfg4.N) (d) : dat.before 23 t d = iblk4 V c 23 t :=
  (dat.before_in_eq_fetched 23 rfl (fun _ => rfl) (fun _ _ _ => rfl) (fun t => by rw [hafter]; unfold Dat.blockOf iblk4; rw [hA]; try rfl) t d).trans
    (by unfold Dat.fetched Dat.blockOf iblk4; rw [hA]; try rfl)
theorem before4_24_of {c : Dev nD} (dat : Dat τ (Elt F) Unit ℕ (UR sig nD τ) ℕ cfg4 c) (hA : dat.A 24 = V c (Pipeline.arrRef spec4 24))
    (hafter : ∀ t, dat.after 24 t = iblk4 V c 24 t) (t : Fin cfg4.N) (d) : dat.before 24 t d = iblk4 V c 24 t :=
  (dat.before_in_eq_fetched 24 rfl (fun _ => rfl) (fun _ _ _ => rfl) (fun t => by rw [hafter]; unfold Dat.blockOf iblk4; rw [hA]; try rfl) t d).trans
    (by unfold Dat.fetched Dat.blockOf iblk4; rw [hA]; try rfl)
theorem before4_25_of {c : Dev nD} (dat : Dat τ (Elt F) Unit ℕ (UR sig nD τ) ℕ cfg4 c) (hA : dat.A 25 = V c (Pipeline.arrRef spec4 25))
    (hafter : ∀ t, dat.after 25 t = iblk4 V c 25 t) (t : Fin cfg4.N) (d) : dat.before 25 t d = iblk4 V c 25 t :=
  (dat.before_in_eq_fetched 25 rfl (fun _ => rfl) (fun _ _ _ => rfl) (fun t => by rw [hafter]; unfold Dat.blockOf iblk4; rw [hA]; try rfl) t d).trans
    (by unfold Dat.fetched Dat.blockOf iblk4; rw [hA]; try rfl)
theorem before4_26_of {c : Dev nD} (dat : Dat τ (Elt F) Unit ℕ (UR sig nD τ) ℕ cfg4 c) (hA : dat.A 26 = V c (Pipeline.arrRef spec4 26))
    (hafter : ∀ t, dat.after 26 t = iblk4 V c 26 t) (t : Fin cfg4.N) (d) : dat.before 26 t d = iblk4 V c 26 t :=
  (dat.before_in_eq_fetched 26 rfl (fun _ => rfl) (fun _ _ _ => rfl) (fun t => by rw [hafter]; unfold Dat.blockOf iblk4; rw [hA]; try rfl) t d).trans
    (by unfold Dat.fetched Dat.blockOf iblk4; rw [hA]; try rfl)
theorem before4_27_of {c : Dev nD} (dat : Dat τ (Elt F) Unit ℕ (UR sig nD τ) ℕ cfg4 c) (hA : dat.A 27 = V c (Pipeline.arrRef spec4 27))
    (hafter : ∀ t, dat.after 27 t = iblk4 V c 27 t) (t : Fin cfg4.N) (d) : dat.before 27 t d = iblk4 V c 27 t :=
  (dat.before_in_eq_fetched 27 rfl (fun _ => rfl) (fun _ _ _ => rfl) (fun t => by rw [hafter]; unfold Dat.blockOf iblk4; rw [hA]; try rfl) t d).trans
    (by unfold Dat.fetched Dat.blockOf iblk4; rw [hA]; try rfl)
theorem before4_28_of {c : Dev nD} (dat : Dat τ (Elt F) Unit ℕ (UR sig nD τ) ℕ cfg4 c) (hA : dat.A 28 = V c (Pipeline.arrRef spec4 28))
    (hafter : ∀ t, dat.after 28 t = iblk4 V c 28 t) (t : Fin cfg4.N) (d) : dat.before 28 t d = iblk4 V c 28 t :=
  (dat.before_in_eq_fetched 28 rfl (fun _ => rfl) (fun _ _ _ => rfl) (fun t => by rw [hafter]; unfold Dat.blockOf iblk4; rw [hA]; try rfl) t d).trans
    (by unfold Dat.fetched Dat.blockOf iblk4; rw [hA]; try rfl)
theorem before4_29_of {c : Dev nD} (dat : Dat τ (Elt F) Unit ℕ (UR sig nD τ) ℕ cfg4 c) (hA : dat.A 29 = V c (Pipeline.arrRef spec4 29))
    (hafter : ∀ t, dat.after 29 t = iblk4 V c 29 t) (t : Fin cfg4.N) (d) : dat.before 29 t d = iblk4 V c 29 t :=
  (dat.before_in_eq_fetched 29 rfl (fun _ => rfl) (fun _ _ _ => rfl) (fun t => by rw [hafter]; unfold Dat.blockOf iblk4; rw [hA]; try rfl) t d).trans
    (by unfold Dat.fetched Dat.blockOf iblk4; rw [hA]; try rfl)
theorem before4_30_of {c : Dev nD} (dat : Dat τ (Elt F) Unit ℕ (UR sig nD τ) ℕ cfg4 c) (hA : dat.A 30 = V c (Pipeline.arrRef spec4 30))
    (hafter : ∀ t, dat.after 30 t = iblk4 V c 30 t) (t : Fin cfg4.N) (d) : dat.before 30 t d = iblk4 V c 30 t :=
  (dat.before_in_eq_fetched 30 rfl (fun _ => rfl) (fun _ _ _ => rfl) (fun t => by rw [hafter]; unfold Dat.blockOf iblk4; rw [hA]; try rfl) t d).trans
    (by unfold Dat.fetched Dat.blockOf iblk4; rw [hA]; try rfl)
theorem before4_31_of {c : Dev nD} (dat : Dat τ (Elt F) Unit ℕ (UR sig nD τ) ℕ cfg4 c) (hA : dat.A 31 = V c (Pipeline.arrRef spec4 31))
    (hafter : ∀ t, dat.after 31 t = iblk4 V c 31 t) (t : Fin cfg4.N) (d) : dat.before 31 t d = iblk4 V c 31 t :=
  (dat.before_in_eq_fetched 31 rfl (fun _ => rfl) (fun _ _ _ => rfl) (fun t => by rw [hafter]; unfold Dat.blockOf iblk4; rw [hA]; try rfl) t d).trans
    (by unfold Dat.fetched Dat.blockOf iblk4; rw [hA]; try rfl)
theorem before4_32_of {c : Dev nD} (dat : Dat τ (Elt F) Unit ℕ (UR sig nD τ) ℕ cfg4 c) (hA : dat.A 32 = V c (Pipeline.arrRef spec4 32))
    (hafter : ∀ t, dat.after 32 t = iblk4 V c 32 t) (t : Fin cfg4.N) (d) : dat.before 32 t d = iblk4 V c 32 t :=
  (dat.before_in_eq_fetched 32 rfl (fun _ => rfl) (fun _ _ _ => rfl) (fun t => by rw [hafter]; unfold Dat.blockOf iblk4; rw [hA]; try rfl) t d).trans
    (by unfold Dat.fetched Dat.blockOf iblk4; rw [hA]; try rfl)
theorem before4_33_of {c : Dev nD} (dat : Dat τ (Elt F) Unit ℕ (UR sig nD τ) ℕ cfg4 c) (hA : dat.A 33 = V c (Pipeline.arrRef spec4 33))
    (hafter : ∀ t, dat.after 33 t = iblk4 V c 33 t) (t : Fin cfg4.N) (d) : dat.before 33 t d = iblk4 V c 33 t :=
  (dat.before_in_eq_fetched 33 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A parent's whole block. -/
abbrev r4_p : Rect S512x128 := Rect.unit (s := S512x128) ![0, 0] S512x128.size inb_S512x128_S512x128_0_0
/-- Slab `k` of the weight slice, -/
abbrev r4_w0 : Rect S8x128x128 := Rect.unit (s := S8x128x128) ![0, 0, 0] S1x128x128.size inb_S8x128x128_S1x128x128_0_0_0
abbrev r4_w1 : Rect S8x128x128 := Rect.unit (s := S8x128x128) ![1, 0, 0] S1x128x128.size inb_S8x128x128_S1x128x128_1_0_0
abbrev r4_w2 : Rect S8x128x128 := Rect.unit (s := S8x128x128) ![2, 0, 0] S1x128x128.size inb_S8x128x128_S1x128x128_2_0_0
abbrev r4_w3 : Rect S8x128x128 := Rect.unit (s := S8x128x128) ![3, 0, 0] S1x128x128.size inb_S8x128x128_S1x128x128_3_0_0
abbrev r4_w4 : Rect S8x128x128 := Rect.unit (s := S8x128x128) ![4, 0, 0] S1x128x128.size inb_S8x128x128_S1x128x128_4_0_0
abbrev r4_w5 : Rect S8x128x128 := Rect.unit (s := S8x128x128) ![5, 0, 0] S1x128x128.size inb_S8x128x128_S1x128x128_5_0_0
abbrev r4_w6 : Rect S8x128x128 := Rect.unit (s := S8x128x128) ![6, 0, 0] S1x128x128.size inb_S8x128x128_S1x128x128_6_0_0
abbrev r4_w7 : Rect S8x128x128 := Rect.unit (s := S8x128x128) ![7, 0, 0] S1x128x128.size inb_S8x128x128_S1x128x128_7_0_0
/-- row `k` of the bias slice, -/
abbrev r4_b0 : Rect S8x128 := Rect.unit (s := S8x128) ![0, 0] S1x128.size inb_S8x128_S1x128_0_0
abbrev r4_b1 : Rect S8x128 := Rect.unit (s := S8x128) ![1, 0] S1x128.size inb_S8x128_S1x128_1_0
abbrev r4_b2 : Rect S8x128 := Rect.unit (s := S8x128) ![2, 0] S1x128.size inb_S8x128_S1x128_2_0
abbrev r4_b3 : Rect S8x128 := Rect.unit (s := S8x128) ![3, 0] S1x128.size inb_S8x128_S1x128_3_0
abbrev r4_b4 : Rect S8x128 := Rect.unit (s := S8x128) ![4, 0] S1x128.size inb_S8x128_S1x128_4_0
abbrev r4_b5 : Rect S8x128 := Rect.unit (s := S8x128) ![5, 0] S1x128.size inb_S8x128_S1x128_5_0
abbrev r4_b6 : Rect S8x128 := Rect.unit (s := S8x128) ![6, 0] S1x128.size inb_S8x128_S1x128_6_0
abbrev r4_b7 : Rect S8x128 := Rect.unit (s := S8x128) ![7, 0] S1x128.size inb_S8x128_S1x128_7_0
/-- and slab `k` of the output block. -/
abbrev r4_o0 : Rect S8x512x128 := Rect.unit (s := S8x512x128) ![0, 0, 0] S1x512x128.size inb_S8x512x128_S1x512x128_0_0_0
abbrev r4_o1 : Rect S8x512x128 := Rect.unit (s := S8x512x128) ![1, 0, 0] S1x512x128.size inb_S8x512x128_S1x512x128_1_0_0
abbrev r4_o2 : Rect S8x512x128 := Rect.unit (s := S8x512x128) ![2, 0, 0] S1x512x128.size inb_S8x512x128_S1x512x128_2_0_0
abbrev r4_o3 : Rect S8x512x128 := Rect.unit (s := S8x512x128) ![3, 0, 0] S1x512x128.size inb_S8x512x128_S1x512x128_3_0_0
abbrev r4_o4 : Rect S8x512x128 := Rect.unit (s := S8x512x128) ![4, 0, 0] S1x512x128.size inb_S8x512x128_S1x512x128_4_0_0
abbrev r4_o5 : Rect S8x512x128 := Rect.unit (s := S8x512x128) ![5, 0, 0] S1x512x128.size inb_S8x512x128_S1x512x128_5_0_0
abbrev r4_o6 : Rect S8x512x128 := Rect.unit (s := S8x512x128) ![6, 0, 0] S1x512x128.size inb_S8x512x128_S1x512x128_6_0_0
abbrev r4_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab4_0 (p : Fin 32 → Vec F S512x128 .f32) (wt : Vec F S8x128x128 .f32) (bs : Vec F S8x128 .f32) : Vec F S1x512x128 .f32 :=
  k4_pay1 (View.ld (p 0) r4_p) (View.ld (p 1) r4_p) (View.ld (p 2) r4_p) (View.ld (p 3) r4_p) (View.ld wt r4_w0) (View.ld bs r4_b0)
def slab4_1 (p : Fin 32 → Vec F S512x128 .f32) (wt : Vec F S8x128x128 .f32) (bs : Vec F S8x128 .f32) : Vec F S1x512x128 .f32 :=
  k4_pay3 (k4_pay2 (View.ld (p 4) r4_p) (View.ld (p 5) r4_p) (View.ld (p 6) r4_p)) (View.ld (p 7) r4_p) (View.ld wt r4_w1) (View.ld bs r4_b1)
def slab4_2 (p : Fin 32 → Vec F S512x128 .f32) (wt : Vec F S8x128x128 .f32) (bs : Vec F S8x128 .f32) : Vec F S1x512x128 .f32 :=
  k4_pay7 (k4_pay4 (View.ld (p 8) r4_p) (View.ld (p 9) r4_p) (View.ld (p 10) r4_p) (View.ld (p 11) r4_p)) (k4_pay5 (View.ld wt r4_w2)) (k4_pay6 (View.ld bs r4_b2))
def slab4_3 (p : Fin 32 → Vec F S512x128 .f32) (wt : Vec F S8x128x128 .f32) (bs : Vec F S8x128 .f32) : Vec F S1x512x128 .f32 :=
  k4_pay8 (View.ld (p 12) r4_p) (View.ld (p 13) r4_p) (View.ld (p 14) r4_p) (View.ld (p 15) r4_p) (View.ld wt r4_w3) (View.ld bs r4_b3)
def slab4_4 (p : Fin 32 → Vec F S512x128 .f32) (wt : Vec F S8x128x128 .f32) (bs : Vec F S8x128 .f32) : Vec F S1x512x128 .f32 :=
  k4_pay9 (View.ld (p 16) r4_p) (View.ld (p 17) r4_p) (View.ld (p 18) r4_p) (View.ld (p 19) r4_p) (View.ld wt r4_w4) (View.ld bs r4_b4)
def slab4_5 (p : Fin 32 → Vec F S512x128 .f32) (wt : Vec F S8x128x128 .f32) (bs : Vec F S8x128 .f32) : Vec F S1x512x128 .f32 :=
  k4_pay11 (k4_pay10 (View.ld (p 20) r4_p) (View.ld (p 21) r4_p) (View.ld (p 22) r4_p)) (View.ld (p 23) r4_p) (View.ld wt r4_w5) (View.ld bs r4_b5)
def slab4_6 (p : Fin 32 → Vec F S512x128 .f32) (wt : Vec F S8x128x128 .f32) (bs : Vec F S8x128 .f32) : Vec F S1x512x128 .f32 :=
  k4_pay15 (k4_pay12 (View.ld (p 24) r4_p) (View.ld (p 25) r4_p) (View.ld (p 26) r4_p) (View.ld (p 27) r4_p)) (k4_pay13 (View.ld wt r4_w6)) (k4_pay14 (View.ld bs r4_b6))
def slab4_7 (p : Fin 32 → Vec F S512x128 .f32) (wt : Vec F S8x128x128 .f32) (bs : Vec F S8x128 .f32) : Vec F S1x512x128 .f32 :=
  k4_pay16 (View.ld (p 28) r4_p) (View.ld (p 29) r4_p) (View.ld (p 30) r4_p) (View.ld (p 31) r4_p) (View.ld wt r4_w7) (View.ld bs r4_b7)

/-- Window 34's staging buffer after the body, from the input windows' blocks: its 8 stores as pieces, LAST FIRST. -/
def out4_34 (p : Fin 32 → Vec F S512x128 .f32) (wt : Vec F S8x128x128 .f32) (bs : Vec F S8x128 .f32) : Vec F S8x512x128 .f32 :=
  View.canon [⟨r4_o7, slab4_7 p wt bs⟩, ⟨r4_o6, slab4_6 p wt bs⟩, ⟨r4_o5, slab4_5 p wt bs⟩, ⟨r4_o4, slab4_4 p wt bs⟩, ⟨r4_o3, slab4_3 p wt bs⟩, ⟨r4_o2, slab4_2 p wt bs⟩, ⟨r4_o1, slab4_1 p wt bs⟩, ⟨r4_o0, slab4_0 p wt bs⟩]

/-- The eight stores tile the buffer (checked by evaluation), so they cover it. -/
theorem cover4_34 (p0 p1 p2 p3 p4 p5 p6 p7 : Vec F S1x512x128 .f32) (y : S8x512x128.Idx) :
    ∃ pc ∈ ([⟨r4_o7, p7⟩, ⟨r4_o6, p6⟩, ⟨r4_o5, p5⟩, ⟨r4_o4, p4⟩, ⟨r4_o3, p3⟩, ⟨r4_o2, p2⟩, ⟨r4_o1, p1⟩, ⟨r4_o0, p0⟩] : List (View.Piece (Elt F) S8x512x128 .f32)), y ∈ pc.1.set :=
  View.cover_of_tiled [⟨r4_o7, p7⟩, ⟨r4_o6, p6⟩, ⟨r4_o5, p5⟩, ⟨r4_o4, p4⟩, ⟨r4_o3, p3⟩, ⟨r4_o2, p2⟩, ⟨r4_o1, p1⟩, ⟨r4_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out4_34` of the inputs': the printed
    functions are their skeletons, run through every part call; each slab's load of the output buffer before its store
    reads contents nothing uses. -/
theorem sound_kernel4 (c : Dev nD) (E : Set ℕ) (i : grid4.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out4_34 p wt bs)) -∗ K ⟨⟩))
      ⊢ wp frame (wpE (defs₀ (F := F)) Variants.none c none) E (cc4__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out4_34 slab4_0 slab4_1 slab4_2 slab4_3 slab4_4 slab4_5 slab4_6 slab4_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc4__group_kernel_eq_skeleton]; unfold cc4__group_kernel_skel
  simp only [k4_part1_eq_skeleton, k4_part2_eq_skeleton, k4_part3_eq_skeleton, k4_part4_eq_skeleton, k4_part5_eq_skeleton, k4_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover4_34 _ _ _ _ _ _ _ _)

/-! ## The pipeline's proof data -/

/-- The 32 parent blocks at point `t`, as one family: parent `j` of slab `k` is window `4k+j`. -/
def par4 (c : Dev nD) (t : Fin cfg4.N) : Fin 32 → Vec F S512x128 .f32 := fun j => match j with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => iblk4 V c 23 t
    | ⟨24, _⟩ => iblk4 V c 24 t
    | ⟨25, _⟩ => iblk4 V c 25 t
    | ⟨26, _⟩ => iblk4 V c 26 t
    | ⟨27, _⟩ => iblk4 V c 27 t
    | ⟨28, _⟩ => iblk4 V c 28 t
    | ⟨29, _⟩ => iblk4 V c 29 t
    | ⟨30, _⟩ => iblk4 V c 30 t
    | ⟨31, _⟩ => iblk4 V c 31 t
    | ⟨_ + 32, h⟩ => absurd h (Nat.not_lt.2 (Nat.le_add_left _ _))

/-- The family at a literal index (the `match` reduced by `dsimp`). -/
theorem par4_0 (c : Dev nD) (t : Fin cfg4.N) : par4 V c t 0 = iblk4 V c 0 t := by dsimp only [par4]
theorem par4_1 (c : Dev nD) (t : Fin cfg4.N) : par4 V c t 1 = iblk4 V c 1 t := by dsimp only [par4]
theorem par4_2 (c : Dev nD) (t : Fin cfg4.N) : par4 V c t 2 = iblk4 V c 2 t := by dsimp only [par4]
theorem par4_3 (c : Dev nD) (t : Fin cfg4.N) : par4 V c t 3 = iblk4 V c 3 t := by dsimp only [par4]
theorem par4_4 (c : Dev nD) (t : Fin cfg4.N) : par4 V c t 4 = iblk4 V c 4 t := by dsimp only [par4]
theorem par4_5 (c : Dev nD) (t : Fin cfg4.N) : par4 V c t 5 = iblk4 V c 5 t := by dsimp only [par4]
theorem par4_6 (c : Dev nD) (t : Fin cfg4.N) : par4 V c t 6 = iblk4 V c 6 t := by dsimp only [par4]
theorem par4_7 (c : Dev nD) (t : Fin cfg4.N) : par4 V c t 7 = iblk4 V c 7 t := by dsimp only [par4]
theorem par4_8 (c : Dev nD) (t : Fin cfg4.N) : par4 V c t 8 = iblk4 V c 8 t := by dsimp only [par4]
theorem par4_9 (c : Dev nD) (t : Fin cfg4.N) : par4 V c t 9 = iblk4 V c 9 t := by dsimp only [par4]
theorem par4_10 (c : Dev nD) (t : Fin cfg4.N) : par4 V c t 10 = iblk4 V c 10 t := by dsimp only [par4]
theorem par4_11 (c : Dev nD) (t : Fin cfg4.N) : par4 V c t 11 = iblk4 V c 11 t := by dsimp only [par4]
theorem par4_12 (c : Dev nD) (t : Fin cfg4.N) : par4 V c t 12 = iblk4 V c 12 t := by dsimp only [par4]
theorem par4_13 (c : Dev nD) (t : Fin cfg4.N) : par4 V c t 13 = iblk4 V c 13 t := by dsimp only [par4]
theorem par4_14 (c : Dev nD) (t : Fin cfg4.N) : par4 V c t 14 = iblk4 V c 14 t := by dsimp only [par4]
theorem par4_15 (c : Dev nD) (t : Fin cfg4.N) : par4 V c t 15 = iblk4 V c 15 t := by dsimp only [par4]
theorem par4_16 (c : Dev nD) (t : Fin cfg4.N) : par4 V c t 16 = iblk4 V c 16 t := by dsimp only [par4]
theorem par4_17 (c : Dev nD) (t : Fin cfg4.N) : par4 V c t 17 = iblk4 V c 17 t := by dsimp only [par4]
theorem par4_18 (c : Dev nD) (t : Fin cfg4.N) : par4 V c t 18 = iblk4 V c 18 t := by dsimp only [par4]
theorem par4_19 (c : Dev nD) (t : Fin cfg4.N) : par4 V c t 19 = iblk4 V c 19 t := by dsimp only [par4]
theorem par4_20 (c : Dev nD) (t : Fin cfg4.N) : par4 V c t 20 = iblk4 V c 20 t := by dsimp only [par4]
theorem par4_21 (c : Dev nD) (t : Fin cfg4.N) : par4 V c t 21 = iblk4 V c 21 t := by dsimp only [par4]
theorem par4_22 (c : Dev nD) (t : Fin cfg4.N) : par4 V c t 22 = iblk4 V c 22 t := by dsimp only [par4]
theorem par4_23 (c : Dev nD) (t : Fin cfg4.N) : par4 V c t 23 = iblk4 V c 23 t := by dsimp only [par4]
theorem par4_24 (c : Dev nD) (t : Fin cfg4.N) : par4 V c t 24 = iblk4 V c 24 t := by dsimp only [par4]
theorem par4_25 (c : Dev nD) (t : Fin cfg4.N) : par4 V c t 25 = iblk4 V c 25 t := by dsimp only [par4]
theorem par4_26 (c : Dev nD) (t : Fin cfg4.N) : par4 V c t 26 = iblk4 V c 26 t := by dsimp only [par4]
theorem par4_27 (c : Dev nD) (t : Fin cfg4.N) : par4 V c t 27 = iblk4 V c 27 t := by dsimp only [par4]
theorem par4_28 (c : Dev nD) (t : Fin cfg4.N) : par4 V c t 28 = iblk4 V c 28 t := by dsimp only [par4]
theorem par4_29 (c : Dev nD) (t : Fin cfg4.N) : par4 V c t 29 = iblk4 V c 29 t := by dsimp only [par4]
theorem par4_30 (c : Dev nD) (t : Fin cfg4.N) : par4 V c t 30 = iblk4 V c 30 t := by dsimp only [par4]
theorem par4_31 (c : Dev nD) (t : Fin cfg4.N) : par4 V c t 31 = iblk4 V c 31 t := by dsimp only [par4]

/-- The proof data of pipeline 4 on core `c`: the arrays as the region finds them (`V`); after the body at point `t`
    each input's buffer at its block and the output's at `out4_34` of the input blocks; the invariant the scoped rest
    and the generator register, untouched; nothing owed; of each windowed array the share its window holds when
    several windows read one array. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => iblk4 V c 23 t
    | ⟨24, _⟩ => iblk4 V c 24 t
    | ⟨25, _⟩ => iblk4 V c 25 t
    | ⟨26, _⟩ => iblk4 V c 26 t
    | ⟨27, _⟩ => iblk4 V c 27 t
    | ⟨28, _⟩ => iblk4 V c 28 t
    | ⟨29, _⟩ => iblk4 V c 29 t
    | ⟨30, _⟩ => iblk4 V c 30 t
    | ⟨31, _⟩ => iblk4 V c 31 t
    | ⟨32, _⟩ => iblk4 V c 32 t
    | ⟨33, _⟩ => iblk4 V c 33 t
    | ⟨34, _⟩ => out4_34 (par4 V c t) (iblk4 V c 32 t) (iblk4 V c 33 t)
    | ⟨_ + 35, h⟩ => absurd h (Nat.not_lt.2 (Nat.le_add_left _ _))
  Φ _ := Pipeline.ΦA spec4 c
  q w := Cert.Lib.SharedArrays.shareOf (Pipeline.arrRef spec4) w
  owed _ := 0

/-- The proof data's arrays are the region-entry contents. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = iblk4 V c 19 t := by dsimp only [dat4]
theorem after4_20 (c : Dev nD) (t : Fin cfg4.N) : (dat4 V c).after 20 t = iblk4 V c 20 t := by dsimp only [dat4]
theorem after4_21 (c : Dev nD) (t : Fin cfg4.N) : (dat4 V c).after 21 t = iblk4 V c 21 t := by dsimp only [dat4]
theorem after4_22 (c : Dev nD) (t : Fin cfg4.N) : (dat4 V c).after 22 t = iblk4 V c 22 t := by dsimp only [dat4]
theorem after4_23 (c : Dev nD) (t : Fin cfg4.N) : (dat4 V c).after 23 t = iblk4 V c 23 t := by dsimp only [dat4]
theorem after4_24 (c : Dev nD) (t : Fin cfg4.N) : (dat4 V c).after 24 t = iblk4 V c 24 t := by dsimp only [dat4]
theorem after4_25 (c : Dev nD) (t : Fin cfg4.N) : (dat4 V c).after 25 t = iblk4 V c 25 t := by dsimp only [dat4]
theorem after4_26 (c : Dev nD) (t : Fin cfg4.N) : (dat4 V c).after 26 t = iblk4 V c 26 t := by dsimp only [dat4]
theorem after4_27 (c : Dev nD) (t : Fin cfg4.N) : (dat4 V c).after 27 t = iblk4 V c 27 t := by dsimp only [dat4]
theorem after4_28 (c : Dev nD) (t : Fin cfg4.N) : (dat4 V c).after 28 t = iblk4 V c 28 t := by dsimp only [dat4]
theorem after4_29 (c : Dev nD) (t : Fin cfg4.N) : (dat4 V c).after 29 t = iblk4 V c 29 t := by dsimp only [dat4]
theorem after4_30 (c : Dev nD) (t : Fin cfg4.N) : (dat4 V c).after 30 t = iblk4 V c 30 t := by dsimp only [dat4]
theorem after4_31 (c : Dev nD) (t : Fin cfg4.N) : (dat4 V c).after 31 t = iblk4 V c 31 t := by dsimp only [dat4]
theorem after4_32 (c : Dev nD) (t : Fin cfg4.N) : (dat4 V c).after 32 t = iblk4 V c 32 t := by dsimp only [dat4]
theorem after4_33 (c : Dev nD) (t : Fin cfg4.N) : (dat4 V c).after 33 t = iblk4 V c 33 t := by dsimp only [dat4]
theorem after4_34 (c : Dev nD) (t : Fin cfg4.N) :
    (dat4 V c).after 34 t = out4_34 (par4 V c t) (iblk4 V c 32 t) (iblk4 V c 33 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d
theorem before4_19 (c : Dev nD) (t : Fin cfg4.N) (d) : (dat4 V c).before 19 t d = iblk4 V c 19 t :=
  before4_19_of V (dat4 V c) (A_eq4 V c 19) (after4_19 V c) t d
theorem before4_20 (c : Dev nD) (t : Fin cfg4.N) (d) : (dat4 V c).before 20 t d = iblk4 V c 20 t :=
  before4_20_of V (dat4 V c) (A_eq4 V c 20) (after4_20 V c) t d
theorem before4_21 (c : Dev nD) (t : Fin cfg4.N) (d) : (dat4 V c).before 21 t d = iblk4 V c 21 t :=
  before4_21_of V (dat4 V c) (A_eq4 V c 21) (after4_21 V c) t d
theorem before4_22 (c : Dev nD) (t : Fin cfg4.N) (d) : (dat4 V c).before 22 t d = iblk4 V c 22 t :=
  before4_22_of V (dat4 V c) (A_eq4 V c 22) (after4_22 V c) t d
theorem before4_23 (c : Dev nD) (t : Fin cfg4.N) (d) : (dat4 V c).before 23 t d = iblk4 V c 23 t :=
  before4_23_of V (dat4 V c) (A_eq4 V c 23) (after4_23 V c) t d
theorem before4_24 (c : Dev nD) (t : Fin cfg4.N) (d) : (dat4 V c).before 24 t d = iblk4 V c 24 t :=
  before4_24_of V (dat4 V c) (A_eq4 V c 24) (after4_24 V c) t d
theorem before4_25 (c : Dev nD) (t : Fin cfg4.N) (d) : (dat4 V c).before 25 t d = iblk4 V c 25 t :=
  before4_25_of V (dat4 V c) (A_eq4 V c 25) (after4_25 V c) t d
theorem before4_26 (c : Dev nD) (t : Fin cfg4.N) (d) : (dat4 V c).before 26 t d = iblk4 V c 26 t :=
  before4_26_of V (dat4 V c) (A_eq4 V c 26) (after4_26 V c) t d
theorem before4_27 (c : Dev nD) (t : Fin cfg4.N) (d) : (dat4 V c).before 27 t d = iblk4 V c 27 t :=
  before4_27_of V (dat4 V c) (A_eq4 V c 27) (after4_27 V c) t d
theorem before4_28 (c : Dev nD) (t : Fin cfg4.N) (d) : (dat4 V c).before 28 t d = iblk4 V c 28 t :=
  before4_28_of V (dat4 V c) (A_eq4 V c 28) (after4_28 V c) t d
theorem before4_29 (c : Dev nD) (t : Fin cfg4.N) (d) : (dat4 V c).before 29 t d = iblk4 V c 29 t :=
  before4_29_of V (dat4 V c) (A_eq4 V c 29) (after4_29 V c) t d
theorem before4_30 (c : Dev nD) (t : Fin cfg4.N) (d) : (dat4 V c).before 30 t d = iblk4 V c 30 t :=
  before4_30_of V (dat4 V c) (A_eq4 V c 30) (after4_30 V c) t d
theorem before4_31 (c : Dev nD) (t : Fin cfg4.N) (d) : (dat4 V c).before 31 t d = iblk4 V c 31 t :=
  before4_31_of V (dat4 V c) (A_eq4 V c 31) (after4_31 V c) t d
theorem before4_32 (c : Dev nD) (t : Fin cfg4.N) (d) : (dat4 V c).before 32 t d = iblk4 V c 32 t :=
  before4_32_of V (dat4 V c) (A_eq4 V c 32) (after4_32 V c) t d
theorem before4_33 (c : Dev nD) (t : Fin cfg4.N) (d) : (dat4 V c).before 33 t d = iblk4 V c 33 t :=
  before4_33_of V (dat4 V c) (A_eq4 V c 33) (after4_33 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d))
    ∗ (∃ d, owns (c : Thread nD τ) (st4_21 t) fullShare ((dat4 V c).before 21 t d))
    ∗ (∃ d, owns (c : Thread nD τ) (st4_22 t) fullShare ((dat4 V c).before 22 t d))
    ∗ (∃ d, owns (c : Thread nD τ) (st4_23 t) fullShare ((dat4 V c).before 23 t d))
    ∗ (∃ d, owns (c : Thread nD τ) (st4_24 t) fullShare ((dat4 V c).before 24 t d))
    ∗ (∃ d, owns (c : Thread nD τ) (st4_25 t) fullShare ((dat4 V c).before 25 t d))
    ∗ (∃ d, owns (c : Thread nD τ) (st4_26 t) fullShare ((dat4 V c).before 26 t d))
    ∗ (∃ d, owns (c : Thread nD τ) (st4_27 t) fullShare ((dat4 V c).before 27 t d))
    ∗ (∃ d, owns (c : Thread nD τ) (st4_28 t) fullShare ((dat4 V c).before 28 t d))
    ∗ (∃ d, owns (c : Thread nD τ) (st4_29 t) fullShare ((dat4 V c).before 29 t d))
    ∗ (∃ d, owns (c : Thread nD τ) (st4_30 t) fullShare ((dat4 V c).before 30 t d))
    ∗ (∃ d, owns (c : Thread nD τ) (st4_31 t) fullShare ((dat4 V c).before 31 t d))
    ∗ (∃ d, owns (c : Thread nD τ) (st4_32 t) fullShare ((dat4 V c).before 32 t d))
    ∗ (∃ d, owns (c : Thread nD τ) (st4_33 t) fullShare ((dat4 V c).before 33 t d))
    ∗ (∃ d, owns (c : Thread nD τ) (st4_34 t) fullShare ((dat4 V c).before 34 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t)
    ∗ owns (c : Thread nD τ) (st4_21 t) fullShare ((dat4 V c).after 21 t)
    ∗ owns (c : Thread nD τ) (st4_22 t) fullShare ((dat4 V c).after 22 t)
    ∗ owns (c : Thread nD τ) (st4_23 t) fullShare ((dat4 V c).after 23 t)
    ∗ owns (c : Thread nD τ) (st4_24 t) fullShare ((dat4 V c).after 24 t)
    ∗ owns (c : Thread nD τ) (st4_25 t) fullShare ((dat4 V c).after 25 t)
    ∗ owns (c : Thread nD τ) (st4_26 t) fullShare ((dat4 V c).after 26 t)
    ∗ owns (c : Thread nD τ) (st4_27 t) fullShare ((dat4 V c).after 27 t)
    ∗ owns (c : Thread nD τ) (st4_28 t) fullShare ((dat4 V c).after 28 t)
    ∗ owns (c : Thread nD τ) (st4_29 t) fullShare ((dat4 V c).after 29 t)
    ∗ owns (c : Thread nD τ) (st4_30 t) fullShare ((dat4 V c).after 30 t)
    ∗ owns (c : Thread nD τ) (st4_31 t) fullShare ((dat4 V c).after 31 t)
    ∗ owns (c : Thread nD τ) (st4_32 t) fullShare ((dat4 V c).after 32 t)
    ∗ owns (c : Thread nD τ) (st4_33 t) fullShare ((dat4 V c).after 33 t)
    ∗ owns (c : Thread nD τ) (st4_34 t) fullShare ((dat4 V c).after 34 t))

set_option maxHeartbeats 4000000 in
/-- The body at any point: the inputs' memrefs hold their blocks (`before4_W`), so `sound_kernel4` applies; the invariant
    and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18, before4_19, before4_20, before4_21, before4_22, before4_23, before4_24, before4_25, before4_26, before4_27, before4_28, before4_29, before4_30, before4_31, before4_32, before4_33]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20, after4_21, after4_22, after4_23, after4_24, after4_25, after4_26, after4_27, after4_28, after4_29, after4_30, after4_31, after4_32, after4_33, after4_34]
  have hk := fun K => sound_kernel4 (F := F) c Set.univ (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ (hstage4_4 ((cfg4.slots t 4).cast nbuf4_4)) _ (hstage4_5 ((cfg4.slots t 5).cast nbuf4_5)) _ (hstage4_6 ((cfg4.slots t 6).cast nbuf4_6)) _ (hstage4_7 ((cfg4.slots t 7).cast nbuf4_7)) _ (hstage4_8 ((cfg4.slots t 8).cast nbuf4_8)) _ (hstage4_9 ((cfg4.slots t 9).cast nbuf4_9)) _ (hstage4_10 ((cfg4.slots t 10).cast nbuf4_10)) _ (hstage4_11 ((cfg4.slots t 11).cast nbuf4_11)) _ (hstage4_12 ((cfg4.slots t 12).cast nbuf4_12)) _ (hstage4_13 ((cfg4.slots t 13).cast nbuf4_13)) _ (hstage4_14 ((cfg4.slots t 14).cast nbuf4_14)) _ (hstage4_15 ((cfg4.slots t 15).cast nbuf4_15)) _ (hstage4_16 ((cfg4.slots t 16).cast nbuf4_16)) _ (hstage4_17 ((cfg4.slots t 17).cast nbuf4_17)) _ (hstage4_18 ((cfg4.slots t 18).cast nbuf4_18)) _ (hstage4_19 ((cfg4.slots t 19).cast nbuf4_19)) _ (hstage4_20 ((cfg4.slots t 20).cast nbuf4_20)) _ (hstage4_21 ((cfg4.slots t 21).cast nbuf4_21)) _ (hstage4_22 ((cfg4.slots t 22).cast nbuf4_22)) _ (hstage4_23 ((cfg4.slots t 23).cast nbuf4_23)) _ (hstage4_24 ((cfg4.slots t 24).cast nbuf4_24)) _ (hstage4_25 ((cfg4.slots t 25).cast nbuf4_25)) _ (hstage4_26 ((cfg4.slots t 26).cast nbuf4_26)) _ (hstage4_27 ((cfg4.slots t 27).cast nbuf4_27)) _ (hstage4_28 ((cfg4.slots t 28).cast nbuf4_28)) _ (hstage4_29 ((cfg4.slots t 29).cast nbuf4_29)) _ (hstage4_30 ((cfg4.slots t 30).cast nbuf4_30)) _ (hstage4_31 ((cfg4.slots t 31).cast nbuf4_31)) _ (hstage4_32 ((cfg4.slots t 32).cast nbuf4_32)) _ (hstage4_33 ((cfg4.slots t 33).cast nbuf4_33)) _ (hstage4_34 ((cfg4.slots t 34).cast nbuf4_34))
    (par4 V c t) (iblk4 V c 32 t) (iblk4 V c 33 t) K
  simp only [par4_0, par4_1, par4_2, par4_3, par4_4, par4_5, par4_6, par4_7, par4_8, par4_9, par4_10, par4_11, par4_12, par4_13, par4_14, par4_15, par4_16, par4_17, par4_18, par4_19, par4_20, par4_21, par4_22, par4_23, par4_24, par4_25, par4_26, par4_27, par4_28, par4_29, par4_30, par4_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/- Region 5 of the kernel program (pipeline 5, `cc5__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out5_34`); the body's triple; the
   pipeline's proof data (`dat5`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 5: custom_call 5, `cc5__group_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)
theorem before5_14_of {c : Dev nD} (dat : Dat τ (Elt F) Unit ℕ (UR sig nD τ) ℕ cfg5 c) (hA : dat.A 14 = V c (Pipeline.arrRef spec5 14))
    (hafter : ∀ t, dat.after 14 t = iblk5 V c 14 t) (t : Fin cfg5.N) (d) : dat.before 14 t d = iblk5 V c 14 t :=
  (dat.before_in_eq_fetched 14 rfl (fun _ => rfl) (fun _ _ _ => rfl) (fun t => by rw [hafter]; unfold Dat.blockOf iblk5; rw [hA]; try rfl) t d).trans
    (by unfold Dat.fetched Dat.blockOf iblk5; rw [hA]; try rfl)
theorem before5_15_of {c : Dev nD} (dat : Dat τ (Elt F) Unit ℕ (UR sig nD τ) ℕ cfg5 c) (hA : dat.A 15 = V c (Pipeline.arrRef spec5 15))
    (hafter : ∀ t, dat.after 15 t = iblk5 V c 15 t) (t : Fin cfg5.N) (d) : dat.before 15 t d = iblk5 V c 15 t :=
  (dat.before_in_eq_fetched 15 rfl (fun _ => rfl) (fun _ _ _ => rfl) (fun t => by rw [hafter]; unfold Dat.blockOf iblk5; rw [hA]; try rfl) t d).trans
    (by unfold Dat.fetched Dat.blockOf iblk5; rw [hA]; try rfl)
theorem before5_16_of {c : Dev nD} (dat : Dat τ (Elt F) Unit ℕ (UR sig nD τ) ℕ cfg5 c) (hA : dat.A 16 = V c (Pipeline.arrRef spec5 16))
    (hafter : ∀ t, dat.after 16 t = iblk5 V c 16 t) (t : Fin cfg5.N) (d) : dat.before 16 t d = iblk5 V c 16 t :=
  (dat.before_in_eq_fetched 16 rfl (fun _ => rfl) (fun _ _ _ => rfl) (fun t => by rw [hafter]; unfold Dat.blockOf iblk5; rw [hA]; try rfl) t d).trans
    (by unfold Dat.fetched Dat.blockOf iblk5; rw [hA]; try rfl)
theorem before5_17_of {c : Dev nD} (dat : Dat τ (Elt F) Unit ℕ (UR sig nD τ) ℕ cfg5 c) (hA : dat.A 17 = V c (Pipeline.arrRef spec5 17))
    (hafter : ∀ t, dat.after 17 t = iblk5 V c 17 t) (t : Fin cfg5.N) (d) : dat.before 17 t d = iblk5 V c 17 t :=
  (dat.before_in_eq_fetched 17 rfl (fun _ => rfl) (fun _ _ _ => rfl) (fun t => by rw [hafter]; unfold Dat.blockOf iblk5; rw [hA]; try rfl) t d).trans
    (by unfold Dat.fetched Dat.blockOf iblk5; rw [hA]; try rfl)
theorem before5_18_of {c : Dev nD} (dat : Dat τ (Elt F) Unit ℕ (UR sig nD τ) ℕ cfg5 c) (hA : dat.A 18 = V c (Pipeline.arrRef spec5 18))
    (hafter : ∀ t, dat.after 18 t = iblk5 V c 18 t) (t : Fin cfg5.N) (d) : dat.before 18 t d = iblk5 V c 18 t :=
  (dat.before_in_eq_fetched 18 rfl (fun _ => rfl) (fun _ _ _ => rfl) (fun t => by rw [hafter]; unfold Dat.blockOf iblk5; rw [hA]; try rfl) t d).trans
    (by unfold Dat.fetched Dat.blockOf iblk5; rw [hA]; try rfl)
theorem before5_19_of {c : Dev nD} (dat : Dat τ (Elt F) Unit ℕ (UR sig nD τ) ℕ cfg5 c) (hA : dat.A 19 = V c (Pipeline.arrRef spec5 19))
    (hafter : ∀ t, dat.after 19 t = iblk5 V c 19 t) (t : Fin cfg5.N) (d) : dat.before 19 t d = iblk5 V c 19 t :=
  (dat.before_in_eq_fetched 19 rfl (fun _ => rfl) (fun _ _ _ => rfl) (fun t => by rw [hafter]; unfold Dat.blockOf iblk5; rw [hA]; try rfl) t d).trans
    (by unfold Dat.fetched Dat.blockOf iblk5; rw [hA]; try rfl)
theorem before5_20_of {c : Dev nD} (dat : Dat τ (Elt F) Unit ℕ (UR sig nD τ) ℕ cfg5 c) (hA : dat.A 20 = V c (Pipeline.arrRef spec5 20))
    (hafter : ∀ t, dat.after 20 t = iblk5 V c 20 t) (t : Fin cfg5.N) (d) : dat.before 20 t d = iblk5 V c 20 t :=
  (dat.before_in_eq_fetched 20 rfl (fun _ => rfl) (fun _ _ _ => rfl) (fun t => by rw [hafter]; unfold Dat.blockOf iblk5; rw [hA]; try rfl) t d).trans
    (by unfold Dat.fetched Dat.blockOf iblk5; rw [hA]; try rfl)
theorem before5_21_of {c : Dev nD} (dat : Dat τ (Elt F) Unit ℕ (UR sig nD τ) ℕ cfg5 c) (hA : dat.A 21 = V c (Pipeline.arrRef spec5 21))
    (hafter : ∀ t, dat.after 21 t = iblk5 V c 21 t) (t : Fin cfg5.N) (d) : dat.before 21 t d = iblk5 V c 21 t :=
  (dat.before_in_eq_fetched 21 rfl (fun _ => rfl) (fun _ _ _ => rfl) (fun t => by rw [hafter]; unfold Dat.blockOf iblk5; rw [hA]; try rfl) t d).trans
    (by unfold Dat.fetched Dat.blockOf iblk5; rw [hA]; try rfl)
theorem before5_22_of {c : Dev nD} (dat : Dat τ (Elt F) Unit ℕ (UR sig nD τ) ℕ cfg5 c) (hA : dat.A 22 = V c (Pipeline.arrRef spec5 22))
    (hafter : ∀ t, dat.after 22 t = iblk5 V c 22 t) (t : Fin cfg5.N) (d) : dat.before 22 t d = iblk5 V c 22 t :=
  (dat.before_in_eq_fetched 22 rfl (fun _ => rfl) (fun _ _ _ => rfl) (fun t => by rw [hafter]; unfold Dat.blockOf iblk5; rw [hA]; try rfl) t d).trans
    (by unfold Dat.fetched Dat.blockOf iblk5; rw [hA]; try rfl)
theorem before5_23_of {c : Dev nD} (dat : Dat τ (Elt F) Unit ℕ (UR sig nD τ) ℕ cfg5 c) (hA : dat.A 23 = V c (Pipeline.arrRef spec5 23))
    (hafter : ∀ t, dat.after 23 t = iblk5 V c 23 t) (t : Fin cfg5.N) (d) : dat.before 23 t d = iblk5 V c 23 t :=
  (dat.before_in_eq_fetched 23 rfl (fun _ => rfl) (fun _ _ _ => rfl) (fun t => by rw [hafter]; unfold Dat.blockOf iblk5; rw [hA]; try rfl) t d).trans
    (by unfold Dat.fetched Dat.blockOf iblk5; rw [hA]; try rfl)
theorem before5_24_of {c : Dev nD} (dat : Dat τ (Elt F) Unit ℕ (UR sig nD τ) ℕ cfg5 c) (hA : dat.A 24 = V c (Pipeline.arrRef spec5 24))
    (hafter : ∀ t, dat.after 24 t = iblk5 V c 24 t) (t : Fin cfg5.N) (d) : dat.before 24 t d = iblk5 V c 24 t :=
  (dat.before_in_eq_fetched 24 rfl (fun _ => rfl) (fun _ _ _ => rfl) (fun t => by rw [hafter]; unfold Dat.blockOf iblk5; rw [hA]; try rfl) t d).trans
    (by unfold Dat.fetched Dat.blockOf iblk5; rw [hA]; try rfl)
theorem before5_25_of {c : Dev nD} (dat : Dat τ (Elt F) Unit ℕ (UR sig nD τ) ℕ cfg5 c) (hA : dat.A 25 = V c (Pipeline.arrRef spec5 25))
    (hafter : ∀ t, dat.after 25 t = iblk5 V c 25 t) (t : Fin cfg5.N) (d) : dat.before 25 t d = iblk5 V c 25 t :=
  (dat.before_in_eq_fetched 25 rfl (fun _ => rfl) (fun _ _ _ => rfl) (fun t => by rw [hafter]; unfold Dat.blockOf iblk5; rw [hA]; try rfl) t d).trans
    (by unfold Dat.fetched Dat.blockOf iblk5; rw [hA]; try rfl)
theorem before5_26_of {c : Dev nD} (dat : Dat τ (Elt F) Unit ℕ (UR sig nD τ) ℕ cfg5 c) (hA : dat.A 26 = V c (Pipeline.arrRef spec5 26))
    (hafter : ∀ t, dat.after 26 t = iblk5 V c 26 t) (t : Fin cfg5.N) (d) : dat.before 26 t d = iblk5 V c 26 t :=
  (dat.before_in_eq_fetched 26 rfl (fun _ => rfl) (fun _ _ _ => rfl) (fun t => by rw [hafter]; unfold Dat.blockOf iblk5; rw [hA]; try rfl) t d).trans
    (by unfold Dat.fetched Dat.blockOf iblk5; rw [hA]; try rfl)
theorem before5_27_of {c : Dev nD} (dat : Dat τ (Elt F) Unit ℕ (UR sig nD τ) ℕ cfg5 c) (hA : dat.A 27 = V c (Pipeline.arrRef spec5 27))
    (hafter : ∀ t, dat.after 27 t = iblk5 V c 27 t) (t : Fin cfg5.N) (d) : dat.before 27 t d = iblk5 V c 27 t :=
  (dat.before_in_eq_fetched 27 rfl (fun _ => rfl) (fun _ _ _ => rfl) (fun t => by rw [hafter]; unfold Dat.blockOf iblk5; rw [hA]; try rfl) t d).trans
    (by unfold Dat.fetched Dat.blockOf iblk5; rw [hA]; try rfl)
theorem before5_28_of {c : Dev nD} (dat : Dat τ (Elt F) Unit ℕ (UR sig nD τ) ℕ cfg5 c) (hA : dat.A 28 = V c (Pipeline.arrRef spec5 28))
    (hafter : ∀ t, dat.after 28 t = iblk5 V c 28 t) (t : Fin cfg5.N) (d) : dat.before 28 t d = iblk5 V c 28 t :=
  (dat.before_in_eq_fetched 28 rfl (fun _ => rfl) (fun _ _ _ => rfl) (fun t => by rw [hafter]; unfold Dat.blockOf iblk5; rw [hA]; try rfl) t d).trans
    (by unfold Dat.fetched Dat.blockOf iblk5; rw [hA]; try rfl)
theorem before5_29_of {c : Dev nD} (dat : Dat τ (Elt F) Unit ℕ (UR sig nD τ) ℕ cfg5 c) (hA : dat.A 29 = V c (Pipeline.arrRef spec5 29))
    (hafter : ∀ t, dat.after 29 t = iblk5 V c 29 t) (t : Fin cfg5.N) (d) : dat.before 29 t d = iblk5 V c 29 t :=
  (dat.before_in_eq_fetched 29 rfl (fun _ => rfl) (fun _ _ _ => rfl) (fun t => by rw [hafter]; unfold Dat.blockOf iblk5; rw [hA]; try rfl) t d).trans
    (by unfold Dat.fetched Dat.blockOf iblk5; rw [hA]; try rfl)
theorem before5_30_of {c : Dev nD} (dat : Dat τ (Elt F) Unit ℕ (UR sig nD τ) ℕ cfg5 c) (hA : dat.A 30 = V c (Pipeline.arrRef spec5 30))
    (hafter : ∀ t, dat.after 30 t = iblk5 V c 30 t) (t : Fin cfg5.N) (d) : dat.before 30 t d = iblk5 V c 30 t :=
  (dat.before_in_eq_fetched 30 rfl (fun _ => rfl) (fun _ _ _ => rfl) (fun t => by rw [hafter]; unfold Dat.blockOf iblk5; rw [hA]; try rfl) t d).trans
    (by unfold Dat.fetched Dat.blockOf iblk5; rw [hA]; try rfl)
theorem before5_31_of {c : Dev nD} (dat : Dat τ (Elt F) Unit ℕ (UR sig nD τ) ℕ cfg5 c) (hA : dat.A 31 = V c (Pipeline.arrRef spec5 31))
    (hafter : ∀ t, dat.after 31 t = iblk5 V c 31 t) (t : Fin cfg5.N) (d) : dat.before 31 t d = iblk5 V c 31 t :=
  (dat.before_in_eq_fetched 31 rfl (fun _ => rfl) (fun _ _ _ => rfl) (fun t => by rw [hafter]; unfold Dat.blockOf iblk5; rw [hA]; try rfl) t d).trans
    (by unfold Dat.fetched Dat.blockOf iblk5; rw [hA]; try rfl)
theorem before5_32_of {c : Dev nD} (dat : Dat τ (Elt F) Unit ℕ (UR sig nD τ) ℕ cfg5 c) (hA : dat.A 32 = V c (Pipeline.arrRef spec5 32))
    (hafter : ∀ t, dat.after 32 t = iblk5 V c 32 t) (t : Fin cfg5.N) (d) : dat.before 32 t d = iblk5 V c 32 t :=
  (dat.before_in_eq_fetched 32 rfl (fun _ => rfl) (fun _ _ _ => rfl) (fun t => by rw [hafter]; unfold Dat.blockOf iblk5; rw [hA]; try rfl) t d).trans
    (by unfold Dat.fetched Dat.blockOf iblk5; rw [hA]; try rfl)
theorem before5_33_of {c : Dev nD} (dat : Dat τ (Elt F) Unit ℕ (UR sig nD τ) ℕ cfg5 c) (hA : dat.A 33 = V c (Pipeline.arrRef spec5 33))
    (hafter : ∀ t, dat.after 33 t = iblk5 V c 33 t) (t : Fin cfg5.N) (d) : dat.before 33 t d = iblk5 V c 33 t :=
  (dat.before_in_eq_fetched 33 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- A parent's whole block. -/
abbrev r5_p : Rect S512x128 := Rect.unit (s := S512x128) ![0, 0] S512x128.size inb_S512x128_S512x128_0_0
/-- Slab `k` of the weight slice, -/
abbrev r5_w0 : Rect S8x128x128 := Rect.unit (s := S8x128x128) ![0, 0, 0] S1x128x128.size inb_S8x128x128_S1x128x128_0_0_0
abbrev r5_w1 : Rect S8x128x128 := Rect.unit (s := S8x128x128) ![1, 0, 0] S1x128x128.size inb_S8x128x128_S1x128x128_1_0_0
abbrev r5_w2 : Rect S8x128x128 := Rect.unit (s := S8x128x128) ![2, 0, 0] S1x128x128.size inb_S8x128x128_S1x128x128_2_0_0
abbrev r5_w3 : Rect S8x128x128 := Rect.unit (s := S8x128x128) ![3, 0, 0] S1x128x128.size inb_S8x128x128_S1x128x128_3_0_0
abbrev r5_w4 : Rect S8x128x128 := Rect.unit (s := S8x128x128) ![4, 0, 0] S1x128x128.size inb_S8x128x128_S1x128x128_4_0_0
abbrev r5_w5 : Rect S8x128x128 := Rect.unit (s := S8x128x128) ![5, 0, 0] S1x128x128.size inb_S8x128x128_S1x128x128_5_0_0
abbrev r5_w6 : Rect S8x128x128 := Rect.unit (s := S8x128x128) ![6, 0, 0] S1x128x128.size inb_S8x128x128_S1x128x128_6_0_0
abbrev r5_w7 : Rect S8x128x128 := Rect.unit (s := S8x128x128) ![7, 0, 0] S1x128x128.size inb_S8x128x128_S1x128x128_7_0_0
/-- row `k` of the bias slice, -/
abbrev r5_b0 : Rect S8x128 := Rect.unit (s := S8x128) ![0, 0] S1x128.size inb_S8x128_S1x128_0_0
abbrev r5_b1 : Rect S8x128 := Rect.unit (s := S8x128) ![1, 0] S1x128.size inb_S8x128_S1x128_1_0
abbrev r5_b2 : Rect S8x128 := Rect.unit (s := S8x128) ![2, 0] S1x128.size inb_S8x128_S1x128_2_0
abbrev r5_b3 : Rect S8x128 := Rect.unit (s := S8x128) ![3, 0] S1x128.size inb_S8x128_S1x128_3_0
abbrev r5_b4 : Rect S8x128 := Rect.unit (s := S8x128) ![4, 0] S1x128.size inb_S8x128_S1x128_4_0
abbrev r5_b5 : Rect S8x128 := Rect.unit (s := S8x128) ![5, 0] S1x128.size inb_S8x128_S1x128_5_0
abbrev r5_b6 : Rect S8x128 := Rect.unit (s := S8x128) ![6, 0] S1x128.size inb_S8x128_S1x128_6_0
abbrev r5_b7 : Rect S8x128 := Rect.unit (s := S8x128) ![7, 0] S1x128.size inb_S8x128_S1x128_7_0
/-- and slab `k` of the output block. -/
abbrev r5_o0 : Rect S8x512x128 := Rect.unit (s := S8x512x128) ![0, 0, 0] S1x512x128.size inb_S8x512x128_S1x512x128_0_0_0
abbrev r5_o1 : Rect S8x512x128 := Rect.unit (s := S8x512x128) ![1, 0, 0] S1x512x128.size inb_S8x512x128_S1x512x128_1_0_0
abbrev r5_o2 : Rect S8x512x128 := Rect.unit (s := S8x512x128) ![2, 0, 0] S1x512x128.size inb_S8x512x128_S1x512x128_2_0_0
abbrev r5_o3 : Rect S8x512x128 := Rect.unit (s := S8x512x128) ![3, 0, 0] S1x512x128.size inb_S8x512x128_S1x512x128_3_0_0
abbrev r5_o4 : Rect S8x512x128 := Rect.unit (s := S8x512x128) ![4, 0, 0] S1x512x128.size inb_S8x512x128_S1x512x128_4_0_0
abbrev r5_o5 : Rect S8x512x128 := Rect.unit (s := S8x512x128) ![5, 0, 0] S1x512x128.size inb_S8x512x128_S1x512x128_5_0_0
abbrev r5_o6 : Rect S8x512x128 := Rect.unit (s := S8x512x128) ![6, 0, 0] S1x512x128.size inb_S8x512x128_S1x512x128_6_0_0
abbrev r5_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab5_0 (p : Fin 32 → Vec F S512x128 .f32) (wt : Vec F S8x128x128 .f32) (bs : Vec F S8x128 .f32) : Vec F S1x512x128 .f32 :=
  k5_pay1 (View.ld (p 0) r5_p) (View.ld (p 1) r5_p) (View.ld (p 2) r5_p) (View.ld (p 3) r5_p) (View.ld wt r5_w0) (View.ld bs r5_b0)
def slab5_1 (p : Fin 32 → Vec F S512x128 .f32) (wt : Vec F S8x128x128 .f32) (bs : Vec F S8x128 .f32) : Vec F S1x512x128 .f32 :=
  k5_pay3 (k5_pay2 (View.ld (p 4) r5_p) (View.ld (p 5) r5_p) (View.ld (p 6) r5_p)) (View.ld (p 7) r5_p) (View.ld wt r5_w1) (View.ld bs r5_b1)
def slab5_2 (p : Fin 32 → Vec F S512x128 .f32) (wt : Vec F S8x128x128 .f32) (bs : Vec F S8x128 .f32) : Vec F S1x512x128 .f32 :=
  k5_pay7 (k5_pay4 (View.ld (p 8) r5_p) (View.ld (p 9) r5_p) (View.ld (p 10) r5_p) (View.ld (p 11) r5_p)) (k5_pay5 (View.ld wt r5_w2)) (k5_pay6 (View.ld bs r5_b2))
def slab5_3 (p : Fin 32 → Vec F S512x128 .f32) (wt : Vec F S8x128x128 .f32) (bs : Vec F S8x128 .f32) : Vec F S1x512x128 .f32 :=
  k5_pay8 (View.ld (p 12) r5_p) (View.ld (p 13) r5_p) (View.ld (p 14) r5_p) (View.ld (p 15) r5_p) (View.ld wt r5_w3) (View.ld bs r5_b3)
def slab5_4 (p : Fin 32 → Vec F S512x128 .f32) (wt : Vec F S8x128x128 .f32) (bs : Vec F S8x128 .f32) : Vec F S1x512x128 .f32 :=
  k5_pay9 (View.ld (p 16) r5_p) (View.ld (p 17) r5_p) (View.ld (p 18) r5_p) (View.ld (p 19) r5_p) (View.ld wt r5_w4) (View.ld bs r5_b4)
def slab5_5 (p : Fin 32 → Vec F S512x128 .f32) (wt : Vec F S8x128x128 .f32) (bs : Vec F S8x128 .f32) : Vec F S1x512x128 .f32 :=
  k5_pay11 (k5_pay10 (View.ld (p 20) r5_p) (View.ld (p 21) r5_p) (View.ld (p 22) r5_p)) (View.ld (p 23) r5_p) (View.ld wt r5_w5) (View.ld bs r5_b5)
def slab5_6 (p : Fin 32 → Vec F S512x128 .f32) (wt : Vec F S8x128x128 .f32) (bs : Vec F S8x128 .f32) : Vec F S1x512x128 .f32 :=
  k5_pay15 (k5_pay12 (View.ld (p 24) r5_p) (View.ld (p 25) r5_p) (View.ld (p 26) r5_p) (View.ld (p 27) r5_p)) (k5_pay13 (View.ld wt r5_w6)) (k5_pay14 (View.ld bs r5_b6))
def slab5_7 (p : Fin 32 → Vec F S512x128 .f32) (wt : Vec F S8x128x128 .f32) (bs : Vec F S8x128 .f32) : Vec F S1x512x128 .f32 :=
  k5_pay16 (View.ld (p 28) r5_p) (View.ld (p 29) r5_p) (View.ld (p 30) r5_p) (View.ld (p 31) r5_p) (View.ld wt r5_w7) (View.ld bs r5_b7)

/-- Window 34's staging buffer after the body, from the input windows' blocks: its 8 stores as pieces, LAST FIRST. -/
def out5_34 (p : Fin 32 → Vec F S512x128 .f32) (wt : Vec F S8x128x128 .f32) (bs : Vec F S8x128 .f32) : Vec F S8x512x128 .f32 :=
  View.canon [⟨r5_o7, slab5_7 p wt bs⟩, ⟨r5_o6, slab5_6 p wt bs⟩, ⟨r5_o5, slab5_5 p wt bs⟩, ⟨r5_o4, slab5_4 p wt bs⟩, ⟨r5_o3, slab5_3 p wt bs⟩, ⟨r5_o2, slab5_2 p wt bs⟩, ⟨r5_o1, slab5_1 p wt bs⟩, ⟨r5_o0, slab5_0 p wt bs⟩]

/-- The eight stores tile the buffer (checked by evaluation), so they cover it. -/
theorem cover5_34 (p0 p1 p2 p3 p4 p5 p6 p7 : Vec F S1x512x128 .f32) (y : S8x512x128.Idx) :
    ∃ pc ∈ ([⟨r5_o7, p7⟩, ⟨r5_o6, p6⟩, ⟨r5_o5, p5⟩, ⟨r5_o4, p4⟩, ⟨r5_o3, p3⟩, ⟨r5_o2, p2⟩, ⟨r5_o1, p1⟩, ⟨r5_o0, p0⟩] : List (View.Piece (Elt F) S8x512x128 .f32)), y ∈ pc.1.set :=
  View.cover_of_tiled [⟨r5_o7, p7⟩, ⟨r5_o6, p6⟩, ⟨r5_o5, p5⟩, ⟨r5_o4, p4⟩, ⟨r5_o3, p3⟩, ⟨r5_o2, p2⟩, ⟨r5_o1, p1⟩, ⟨r5_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out5_34` of the inputs': the printed
    functions are their skeletons, run through every part call; each slab's load of the output buffer before its store
    reads contents nothing uses. -/
theorem sound_kernel5 (c : Dev nD) (E : Set ℕ) (i : grid5.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out5_34 p wt bs)) -∗ K ⟨⟩))
      ⊢ wp frame (wpE (defs₀ (F := F)) Variants.none c none) E (cc5__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out5_34 slab5_0 slab5_1 slab5_2 slab5_3 slab5_4 slab5_5 slab5_6 slab5_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc5__group_kernel_eq_skeleton]; unfold cc5__group_kernel_skel
  simp only [k5_part1_eq_skeleton, k5_part2_eq_skeleton, k5_part3_eq_skeleton, k5_part4_eq_skeleton, k5_part5_eq_skeleton, k5_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover5_34 _ _ _ _ _ _ _ _)

/-! ## The pipeline's proof data -/

/-- The 32 parent blocks at point `t`, as one family: parent `j` of slab `k` is window `4k+j`. -/
def par5 (c : Dev nD) (t : Fin cfg5.N) : Fin 32 → Vec F S512x128 .f32 := fun j => match j with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => iblk5 V c 19 t
    | ⟨20, _⟩ => iblk5 V c 20 t
    | ⟨21, _⟩ => iblk5 V c 21 t
    | ⟨22, _⟩ => iblk5 V c 22 t
    | ⟨23, _⟩ => iblk5 V c 23 t
    | ⟨24, _⟩ => iblk5 V c 24 t
    | ⟨25, _⟩ => iblk5 V c 25 t
    | ⟨26, _⟩ => iblk5 V c 26 t
    | ⟨27, _⟩ => iblk5 V c 27 t
    | ⟨28, _⟩ => iblk5 V c 28 t
    | ⟨29, _⟩ => iblk5 V c 29 t
    | ⟨30, _⟩ => iblk5 V c 30 t
    | ⟨31, _⟩ => iblk5 V c 31 t
    | ⟨_ + 32, h⟩ => absurd h (Nat.not_lt.2 (Nat.le_add_left _ _))

/-- The family at a literal index (the `match` reduced by `dsimp`). -/
theorem par5_0 (c : Dev nD) (t : Fin cfg5.N) : par5 V c t 0 = iblk5 V c 0 t := by dsimp only [par5]
theorem par5_1 (c : Dev nD) (t : Fin cfg5.N) : par5 V c t 1 = iblk5 V c 1 t := by dsimp only [par5]
theorem par5_2 (c : Dev nD) (t : Fin cfg5.N) : par5 V c t 2 = iblk5 V c 2 t := by dsimp only [par5]
theorem par5_3 (c : Dev nD) (t : Fin cfg5.N) : par5 V c t 3 = iblk5 V c 3 t := by dsimp only [par5]
theorem par5_4 (c : Dev nD) (t : Fin cfg5.N) : par5 V c t 4 = iblk5 V c 4 t := by dsimp only [par5]
theorem par5_5 (c : Dev nD) (t : Fin cfg5.N) : par5 V c t 5 = iblk5 V c 5 t := by dsimp only [par5]
theorem par5_6 (c : Dev nD) (t : Fin cfg5.N) : par5 V c t 6 = iblk5 V c 6 t := by dsimp only [par5]
theorem par5_7 (c : Dev nD) (t : Fin cfg5.N) : par5 V c t 7 = iblk5 V c 7 t := by dsimp only [par5]
theorem par5_8 (c : Dev nD) (t : Fin cfg5.N) : par5 V c t 8 = iblk5 V c 8 t := by dsimp only [par5]
theorem par5_9 (c : Dev nD) (t : Fin cfg5.N) : par5 V c t 9 = iblk5 V c 9 t := by dsimp only [par5]
theorem par5_10 (c : Dev nD) (t : Fin cfg5.N) : par5 V c t 10 = iblk5 V c 10 t := by dsimp only [par5]
theorem par5_11 (c : Dev nD) (t : Fin cfg5.N) : par5 V c t 11 = iblk5 V c 11 t := by dsimp only [par5]
theorem par5_12 (c : Dev nD) (t : Fin cfg5.N) : par5 V c t 12 = iblk5 V c 12 t := by dsimp only [par5]
theorem par5_13 (c : Dev nD) (t : Fin cfg5.N) : par5 V c t 13 = iblk5 V c 13 t := by dsimp only [par5]
theorem par5_14 (c : Dev nD) (t : Fin cfg5.N) : par5 V c t 14 = iblk5 V c 14 t := by dsimp only [par5]
theorem par5_15 (c : Dev nD) (t : Fin cfg5.N) : par5 V c t 15 = iblk5 V c 15 t := by dsimp only [par5]
theorem par5_16 (c : Dev nD) (t : Fin cfg5.N) : par5 V c t 16 = iblk5 V c 16 t := by dsimp only [par5]
theorem par5_17 (c : Dev nD) (t : Fin cfg5.N) : par5 V c t 17 = iblk5 V c 17 t := by dsimp only [par5]
theorem par5_18 (c : Dev nD) (t : Fin cfg5.N) : par5 V c t 18 = iblk5 V c 18 t := by dsimp only [par5]
theorem par5_19 (c : Dev nD) (t : Fin cfg5.N) : par5 V c t 19 = iblk5 V c 19 t := by dsimp only [par5]
theorem par5_20 (c : Dev nD) (t : Fin cfg5.N) : par5 V c t 20 = iblk5 V c 20 t := by dsimp only [par5]
theorem par5_21 (c : Dev nD) (t : Fin cfg5.N) : par5 V c t 21 = iblk5 V c 21 t := by dsimp only [par5]
theorem par5_22 (c : Dev nD) (t : Fin cfg5.N) : par5 V c t 22 = iblk5 V c 22 t := by dsimp only [par5]
theorem par5_23 (c : Dev nD) (t : Fin cfg5.N) : par5 V c t 23 = iblk5 V c 23 t := by dsimp only [par5]
theorem par5_24 (c : Dev nD) (t : Fin cfg5.N) : par5 V c t 24 = iblk5 V c 24 t := by dsimp only [par5]
theorem par5_25 (c : Dev nD) (t : Fin cfg5.N) : par5 V c t 25 = iblk5 V c 25 t := by dsimp only [par5]
theorem par5_26 (c : Dev nD) (t : Fin cfg5.N) : par5 V c t 26 = iblk5 V c 26 t := by dsimp only [par5]
theorem par5_27 (c : Dev nD) (t : Fin cfg5.N) : par5 V c t 27 = iblk5 V c 27 t := by dsimp only [par5]
theorem par5_28 (c : Dev nD) (t : Fin cfg5.N) : par5 V c t 28 = iblk5 V c 28 t := by dsimp only [par5]
theorem par5_29 (c : Dev nD) (t : Fin cfg5.N) : par5 V c t 29 = iblk5 V c 29 t := by dsimp only [par5]
theorem par5_30 (c : Dev nD) (t : Fin cfg5.N) : par5 V c t 30 = iblk5 V c 30 t := by dsimp only [par5]
theorem par5_31 (c : Dev nD) (t : Fin cfg5.N) : par5 V c t 31 = iblk5 V c 31 t := by dsimp only [par5]

/-- The proof data of pipeline 5 on core `c`: the arrays as the region finds them (`V`); after the body at point `t`
    each input's buffer at its block and the output's at `out5_34` of the input blocks; the invariant the scoped rest
    and the generator register, untouched; nothing owed; of each windowed array the share its window holds when
    several windows read one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => iblk5 V c 19 t
    | ⟨20, _⟩ => iblk5 V c 20 t
    | ⟨21, _⟩ => iblk5 V c 21 t
    | ⟨22, _⟩ => iblk5 V c 22 t
    | ⟨23, _⟩ => iblk5 V c 23 t
    | ⟨24, _⟩ => iblk5 V c 24 t
    | ⟨25, _⟩ => iblk5 V c 25 t
    | ⟨26, _⟩ => iblk5 V c 26 t
    | ⟨27, _⟩ => iblk5 V c 27 t
    | ⟨28, _⟩ => iblk5 V c 28 t
    | ⟨29, _⟩ => iblk5 V c 29 t
    | ⟨30, _⟩ => iblk5 V c 30 t
    | ⟨31, _⟩ => iblk5 V c 31 t
    | ⟨32, _⟩ => iblk5 V c 32 t
    | ⟨33, _⟩ => iblk5 V c 33 t
    | ⟨34, _⟩ => out5_34 (par5 V c t) (iblk5 V c 32 t) (iblk5 V c 33 t)
    | ⟨_ + 35, h⟩ => absurd h (Nat.not_lt.2 (Nat.le_add_left _ _))
  Φ _ := Pipeline.ΦA spec5 c
  q w := Cert.Lib.SharedArrays.shareOf (Pipeline.arrRef spec5) w
  owed _ := 0

/-- The proof data's arrays are the region-entry contents. -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) : (dat5 V c).after 14 t = iblk5 V c 14 t := by dsimp only [dat5]
theorem after5_15 (c : Dev nD) (t : Fin cfg5.N) : (dat5 V c).after 15 t = iblk5 V c 15 t := by dsimp only [dat5]
theorem after5_16 (c : Dev nD) (t : Fin cfg5.N) : (dat5 V c).after 16 t = iblk5 V c 16 t := by dsimp only [dat5]
theorem after5_17 (c : Dev nD) (t : Fin cfg5.N) : (dat5 V c).after 17 t = iblk5 V c 17 t := by dsimp only [dat5]
theorem after5_18 (c : Dev nD) (t : Fin cfg5.N) : (dat5 V c).after 18 t = iblk5 V c 18 t := by dsimp only [dat5]
theorem after5_19 (c : Dev nD) (t : Fin cfg5.N) : (dat5 V c).after 19 t = iblk5 V c 19 t := by dsimp only [dat5]
theorem after5_20 (c : Dev nD) (t : Fin cfg5.N) : (dat5 V c).after 20 t = iblk5 V c 20 t := by dsimp only [dat5]
theorem after5_21 (c : Dev nD) (t : Fin cfg5.N) : (dat5 V c).after 21 t = iblk5 V c 21 t := by dsimp only [dat5]
theorem after5_22 (c : Dev nD) (t : Fin cfg5.N) : (dat5 V c).after 22 t = iblk5 V c 22 t := by dsimp only [dat5]
theorem after5_23 (c : Dev nD) (t : Fin cfg5.N) : (dat5 V c).after 23 t = iblk5 V c 23 t := by dsimp only [dat5]
theorem after5_24 (c : Dev nD) (t : Fin cfg5.N) : (dat5 V c).after 24 t = iblk5 V c 24 t := by dsimp only [dat5]
theorem after5_25 (c : Dev nD) (t : Fin cfg5.N) : (dat5 V c).after 25 t = iblk5 V c 25 t := by dsimp only [dat5]
theorem after5_26 (c : Dev nD) (t : Fin cfg5.N) : (dat5 V c).after 26 t = iblk5 V c 26 t := by dsimp only [dat5]
theorem after5_27 (c : Dev nD) (t : Fin cfg5.N) : (dat5 V c).after 27 t = iblk5 V c 27 t := by dsimp only [dat5]
theorem after5_28 (c : Dev nD) (t : Fin cfg5.N) : (dat5 V c).after 28 t = iblk5 V c 28 t := by dsimp only [dat5]
theorem after5_29 (c : Dev nD) (t : Fin cfg5.N) : (dat5 V c).after 29 t = iblk5 V c 29 t := by dsimp only [dat5]
theorem after5_30 (c : Dev nD) (t : Fin cfg5.N) : (dat5 V c).after 30 t = iblk5 V c 30 t := by dsimp only [dat5]
theorem after5_31 (c : Dev nD) (t : Fin cfg5.N) : (dat5 V c).after 31 t = iblk5 V c 31 t := by dsimp only [dat5]
theorem after5_32 (c : Dev nD) (t : Fin cfg5.N) : (dat5 V c).after 32 t = iblk5 V c 32 t := by dsimp only [dat5]
theorem after5_33 (c : Dev nD) (t : Fin cfg5.N) : (dat5 V c).after 33 t = iblk5 V c 33 t := by dsimp only [dat5]
theorem after5_34 (c : Dev nD) (t : Fin cfg5.N) :
    (dat5 V c).after 34 t = out5_34 (par5 V c t) (iblk5 V c 32 t) (iblk5 V c 33 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d
theorem before5_14 (c : Dev nD) (t : Fin cfg5.N) (d) : (dat5 V c).before 14 t d = iblk5 V c 14 t :=
  before5_14_of V (dat5 V c) (A_eq5 V c 14) (after5_14 V c) t d
theorem before5_15 (c : Dev nD) (t : Fin cfg5.N) (d) : (dat5 V c).before 15 t d = iblk5 V c 15 t :=
  before5_15_of V (dat5 V c) (A_eq5 V c 15) (after5_15 V c) t d
theorem before5_16 (c : Dev nD) (t : Fin cfg5.N) (d) : (dat5 V c).before 16 t d = iblk5 V c 16 t :=
  before5_16_of V (dat5 V c) (A_eq5 V c 16) (after5_16 V c) t d
theorem before5_17 (c : Dev nD) (t : Fin cfg5.N) (d) : (dat5 V c).before 17 t d = iblk5 V c 17 t :=
  before5_17_of V (dat5 V c) (A_eq5 V c 17) (after5_17 V c) t d
theorem before5_18 (c : Dev nD) (t : Fin cfg5.N) (d) : (dat5 V c).before 18 t d = iblk5 V c 18 t :=
  before5_18_of V (dat5 V c) (A_eq5 V c 18) (after5_18 V c) t d
theorem before5_19 (c : Dev nD) (t : Fin cfg5.N) (d) : (dat5 V c).before 19 t d = iblk5 V c 19 t :=
  before5_19_of V (dat5 V c) (A_eq5 V c 19) (after5_19 V c) t d
theorem before5_20 (c : Dev nD) (t : Fin cfg5.N) (d) : (dat5 V c).before 20 t d = iblk5 V c 20 t :=
  before5_20_of V (dat5 V c) (A_eq5 V c 20) (after5_20 V c) t d
theorem before5_21 (c : Dev nD) (t : Fin cfg5.N) (d) : (dat5 V c).before 21 t d = iblk5 V c 21 t :=
  before5_21_of V (dat5 V c) (A_eq5 V c 21) (after5_21 V c) t d
theorem before5_22 (c : Dev nD) (t : Fin cfg5.N) (d) : (dat5 V c).before 22 t d = iblk5 V c 22 t :=
  before5_22_of V (dat5 V c) (A_eq5 V c 22) (after5_22 V c) t d
theorem before5_23 (c : Dev nD) (t : Fin cfg5.N) (d) : (dat5 V c).before 23 t d = iblk5 V c 23 t :=
  before5_23_of V (dat5 V c) (A_eq5 V c 23) (after5_23 V c) t d
theorem before5_24 (c : Dev nD) (t : Fin cfg5.N) (d) : (dat5 V c).before 24 t d = iblk5 V c 24 t :=
  before5_24_of V (dat5 V c) (A_eq5 V c 24) (after5_24 V c) t d
theorem before5_25 (c : Dev nD) (t : Fin cfg5.N) (d) : (dat5 V c).before 25 t d = iblk5 V c 25 t :=
  before5_25_of V (dat5 V c) (A_eq5 V c 25) (after5_25 V c) t d
theorem before5_26 (c : Dev nD) (t : Fin cfg5.N) (d) : (dat5 V c).before 26 t d = iblk5 V c 26 t :=
  before5_26_of V (dat5 V c) (A_eq5 V c 26) (after5_26 V c) t d
theorem before5_27 (c : Dev nD) (t : Fin cfg5.N) (d) : (dat5 V c).before 27 t d = iblk5 V c 27 t :=
  before5_27_of V (dat5 V c) (A_eq5 V c 27) (after5_27 V c) t d
theorem before5_28 (c : Dev nD) (t : Fin cfg5.N) (d) : (dat5 V c).before 28 t d = iblk5 V c 28 t :=
  before5_28_of V (dat5 V c) (A_eq5 V c 28) (after5_28 V c) t d
theorem before5_29 (c : Dev nD) (t : Fin cfg5.N) (d) : (dat5 V c).before 29 t d = iblk5 V c 29 t :=
  before5_29_of V (dat5 V c) (A_eq5 V c 29) (after5_29 V c) t d
theorem before5_30 (c : Dev nD) (t : Fin cfg5.N) (d) : (dat5 V c).before 30 t d = iblk5 V c 30 t :=
  before5_30_of V (dat5 V c) (A_eq5 V c 30) (after5_30 V c) t d
theorem before5_31 (c : Dev nD) (t : Fin cfg5.N) (d) : (dat5 V c).before 31 t d = iblk5 V c 31 t :=
  before5_31_of V (dat5 V c) (A_eq5 V c 31) (after5_31 V c) t d
theorem before5_32 (c : Dev nD) (t : Fin cfg5.N) (d) : (dat5 V c).before 32 t d = iblk5 V c 32 t :=
  before5_32_of V (dat5 V c) (A_eq5 V c 32) (after5_32 V c) t d
theorem before5_33 (c : Dev nD) (t : Fin cfg5.N) (d) : (dat5 V c).before 33 t d = iblk5 V c 33 t :=
  before5_33_of V (dat5 V c) (A_eq5 V c 33) (after5_33 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d))
    ∗ (∃ d, owns (c : Thread nD τ) (st5_15 t) fullShare ((dat5 V c).before 15 t d))
    ∗ (∃ d, owns (c : Thread nD τ) (st5_16 t) fullShare ((dat5 V c).before 16 t d))
    ∗ (∃ d, owns (c : Thread nD τ) (st5_17 t) fullShare ((dat5 V c).before 17 t d))
    ∗ (∃ d, owns (c : Thread nD τ) (st5_18 t) fullShare ((dat5 V c).before 18 t d))
    ∗ (∃ d, owns (c : Thread nD τ) (st5_19 t) fullShare ((dat5 V c).before 19 t d))
    ∗ (∃ d, owns (c : Thread nD τ) (st5_20 t) fullShare ((dat5 V c).before 20 t d))
    ∗ (∃ d, owns (c : Thread nD τ) (st5_21 t) fullShare ((dat5 V c).before 21 t d))
    ∗ (∃ d, owns (c : Thread nD τ) (st5_22 t) fullShare ((dat5 V c).before 22 t d))
    ∗ (∃ d, owns (c : Thread nD τ) (st5_23 t) fullShare ((dat5 V c).before 23 t d))
    ∗ (∃ d, owns (c : Thread nD τ) (st5_24 t) fullShare ((dat5 V c).before 24 t d))
    ∗ (∃ d, owns (c : Thread nD τ) (st5_25 t) fullShare ((dat5 V c).before 25 t d))
    ∗ (∃ d, owns (c : Thread nD τ) (st5_26 t) fullShare ((dat5 V c).before 26 t d))
    ∗ (∃ d, owns (c : Thread nD τ) (st5_27 t) fullShare ((dat5 V c).before 27 t d))
    ∗ (∃ d, owns (c : Thread nD τ) (st5_28 t) fullShare ((dat5 V c).before 28 t d))
    ∗ (∃ d, owns (c : Thread nD τ) (st5_29 t) fullShare ((dat5 V c).before 29 t d))
    ∗ (∃ d, owns (c : Thread nD τ) (st5_30 t) fullShare ((dat5 V c).before 30 t d))
    ∗ (∃ d, owns (c : Thread nD τ) (st5_31 t) fullShare ((dat5 V c).before 31 t d))
    ∗ (∃ d, owns (c : Thread nD τ) (st5_32 t) fullShare ((dat5 V c).before 32 t d))
    ∗ (∃ d, owns (c : Thread nD τ) (st5_33 t) fullShare ((dat5 V c).before 33 t d))
    ∗ (∃ d, owns (c : Thread nD τ) (st5_34 t) fullShare ((dat5 V c).before 34 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t)
    ∗ owns (c : Thread nD τ) (st5_15 t) fullShare ((dat5 V c).after 15 t)
    ∗ owns (c : Thread nD τ) (st5_16 t) fullShare ((dat5 V c).after 16 t)
    ∗ owns (c : Thread nD τ) (st5_17 t) fullShare ((dat5 V c).after 17 t)
    ∗ owns (c : Thread nD τ) (st5_18 t) fullShare ((dat5 V c).after 18 t)
    ∗ owns (c : Thread nD τ) (st5_19 t) fullShare ((dat5 V c).after 19 t)
    ∗ owns (c : Thread nD τ) (st5_20 t) fullShare ((dat5 V c).after 20 t)
    ∗ owns (c : Thread nD τ) (st5_21 t) fullShare ((dat5 V c).after 21 t)
    ∗ owns (c : Thread nD τ) (st5_22 t) fullShare ((dat5 V c).after 22 t)
    ∗ owns (c : Thread nD τ) (st5_23 t) fullShare ((dat5 V c).after 23 t)
    ∗ owns (c : Thread nD τ) (st5_24 t) fullShare ((dat5 V c).after 24 t)
    ∗ owns (c : Thread nD τ) (st5_25 t) fullShare ((dat5 V c).after 25 t)
    ∗ owns (c : Thread nD τ) (st5_26 t) fullShare ((dat5 V c).after 26 t)
    ∗ owns (c : Thread nD τ) (st5_27 t) fullShare ((dat5 V c).after 27 t)
    ∗ owns (c : Thread nD τ) (st5_28 t) fullShare ((dat5 V c).after 28 t)
    ∗ owns (c : Thread nD τ) (st5_29 t) fullShare ((dat5 V c).after 29 t)
    ∗ owns (c : Thread nD τ) (st5_30 t) fullShare ((dat5 V c).after 30 t)
    ∗ owns (c : Thread nD τ) (st5_31 t) fullShare ((dat5 V c).after 31 t)
    ∗ owns (c : Thread nD τ) (st5_32 t) fullShare ((dat5 V c).after 32 t)
    ∗ owns (c : Thread nD τ) (st5_33 t) fullShare ((dat5 V c).after 33 t)
    ∗ owns (c : Thread nD τ) (st5_34 t) fullShare ((dat5 V c).after 34 t))

set_option maxHeartbeats 4000000 in
/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13, before5_14, before5_15, before5_16, before5_17, before5_18, before5_19, before5_20, before5_21, before5_22, before5_23, before5_24, before5_25, before5_26, before5_27, before5_28, before5_29, before5_30, before5_31, before5_32, before5_33]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14, after5_15, after5_16, after5_17, after5_18, after5_19, after5_20, after5_21, after5_22, after5_23, after5_24, after5_25, after5_26, after5_27, after5_28, after5_29, after5_30, after5_31, after5_32, after5_33, after5_34]
  have hk := fun K => sound_kernel5 (F := F) c Set.univ (grid5.coords t) _ (hstage5_0 ((cfg5.slots t 0).cast nbuf5_0)) _ (hstage5_1 ((cfg5.slots t 1).cast nbuf5_1)) _ (hstage5_2 ((cfg5.slots t 2).cast nbuf5_2)) _ (hstage5_3 ((cfg5.slots t 3).cast nbuf5_3)) _ (hstage5_4 ((cfg5.slots t 4).cast nbuf5_4)) _ (hstage5_5 ((cfg5.slots t 5).cast nbuf5_5)) _ (hstage5_6 ((cfg5.slots t 6).cast nbuf5_6)) _ (hstage5_7 ((cfg5.slots t 7).cast nbuf5_7)) _ (hstage5_8 ((cfg5.slots t 8).cast nbuf5_8)) _ (hstage5_9 ((cfg5.slots t 9).cast nbuf5_9)) _ (hstage5_10 ((cfg5.slots t 10).cast nbuf5_10)) _ (hstage5_11 ((cfg5.slots t 11).cast nbuf5_11)) _ (hstage5_12 ((cfg5.slots t 12).cast nbuf5_12)) _ (hstage5_13 ((cfg5.slots t 13).cast nbuf5_13)) _ (hstage5_14 ((cfg5.slots t 14).cast nbuf5_14)) _ (hstage5_15 ((cfg5.slots t 15).cast nbuf5_15)) _ (hstage5_16 ((cfg5.slots t 16).cast nbuf5_16)) _ (hstage5_17 ((cfg5.slots t 17).cast nbuf5_17)) _ (hstage5_18 ((cfg5.slots t 18).cast nbuf5_18)) _ (hstage5_19 ((cfg5.slots t 19).cast nbuf5_19)) _ (hstage5_20 ((cfg5.slots t 20).cast nbuf5_20)) _ (hstage5_21 ((cfg5.slots t 21).cast nbuf5_21)) _ (hstage5_22 ((cfg5.slots t 22).cast nbuf5_22)) _ (hstage5_23 ((cfg5.slots t 23).cast nbuf5_23)) _ (hstage5_24 ((cfg5.slots t 24).cast nbuf5_24)) _ (hstage5_25 ((cfg5.slots t 25).cast nbuf5_25)) _ (hstage5_26 ((cfg5.slots t 26).cast nbuf5_26)) _ (hstage5_27 ((cfg5.slots t 27).cast nbuf5_27)) _ (hstage5_28 ((cfg5.slots t 28).cast nbuf5_28)) _ (hstage5_29 ((cfg5.slots t 29).cast nbuf5_29)) _ (hstage5_30 ((cfg5.slots t 30).cast nbuf5_30)) _ (hstage5_31 ((cfg5.slots t 31).cast nbuf5_31)) _ (hstage5_32 ((cfg5.slots t 32).cast nbuf5_32)) _ (hstage5_33 ((cfg5.slots t 33).cast nbuf5_33)) _ (hstage5_34 ((cfg5.slots t 34).cast nbuf5_34))
    (par5 V c t) (iblk5 V c 32 t) (iblk5 V c 33 t) K
  simp only [par5_0, par5_1, par5_2, par5_3, par5_4, par5_5, par5_6, par5_7, par5_8, par5_9, par5_10, par5_11, par5_12, par5_13, par5_14, par5_15, par5_16, par5_17, par5_18, par5_19, par5_20, par5_21, par5_22, par5_23, par5_24, par5_25, par5_26, par5_27, par5_28, par5_29, par5_30, par5_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/- Region 6 of the kernel program (pipeline 6, `cc6__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out6_34`); the body's triple; the
   pipeline's proof data (`dat6`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 6: custom_call 6, `cc6__group_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)
theorem before6_15_of {c : Dev nD} (dat : Dat τ (Elt F) Unit ℕ (UR sig nD τ) ℕ cfg6 c) (hA : dat.A 15 = V c (Pipeline.arrRef spec6 15))
    (hafter : ∀ t, dat.after 15 t = iblk6 V c 15 t) (t : Fin cfg6.N) (d) : dat.before 15 t d = iblk6 V c 15 t :=
  (dat.before_in_eq_fetched 15 rfl (fun _ => rfl) (fun _ _ _ => rfl) (fun t => by rw [hafter]; unfold Dat.blockOf iblk6; rw [hA]; try rfl) t d).trans
    (by unfold Dat.fetched Dat.blockOf iblk6; rw [hA]; try rfl)
theorem before6_16_of {c : Dev nD} (dat : Dat τ (Elt F) Unit ℕ (UR sig nD τ) ℕ cfg6 c) (hA : dat.A 16 = V c (Pipeline.arrRef spec6 16))
    (hafter : ∀ t, dat.after 16 t = iblk6 V c 16 t) (t : Fin cfg6.N) (d) : dat.before 16 t d = iblk6 V c 16 t :=
  (dat.before_in_eq_fetched 16 rfl (fun _ => rfl) (fun _ _ _ => rfl) (fun t => by rw [hafter]; unfold Dat.blockOf iblk6; rw [hA]; try rfl) t d).trans
    (by unfold Dat.fetched Dat.blockOf iblk6; rw [hA]; try rfl)
theorem before6_17_of {c : Dev nD} (dat : Dat τ (Elt F) Unit ℕ (UR sig nD τ) ℕ cfg6 c) (hA : dat.A 17 = V c (Pipeline.arrRef spec6 17))
    (hafter : ∀ t, dat.after 17 t = iblk6 V c 17 t) (t : Fin cfg6.N) (d) : dat.before 17 t d = iblk6 V c 17 t :=
  (dat.before_in_eq_fetched 17 rfl (fun _ => rfl) (fun _ _ _ => rfl) (fun t => by rw [hafter]; unfold Dat.blockOf iblk6; rw [hA]; try rfl) t d).trans
    (by unfold Dat.fetched Dat.blockOf iblk6; rw [hA]; try rfl)
theorem before6_18_of {c : Dev nD} (dat : Dat τ (Elt F) Unit ℕ (UR sig nD τ) ℕ cfg6 c) (hA : dat.A 18 = V c (Pipeline.arrRef spec6 18))
    (hafter : ∀ t, dat.after 18 t = iblk6 V c 18 t) (t : Fin cfg6.N) (d) : dat.before 18 t d = iblk6 V c 18 t :=
  (dat.before_in_eq_fetched 18 rfl (fun _ => rfl) (fun _ _ _ => rfl) (fun t => by rw [hafter]; unfold Dat.blockOf iblk6; rw [hA]; try rfl) t d).trans
    (by unfold Dat.fetched Dat.blockOf iblk6; rw [hA]; try rfl)
theorem before6_19_of {c : Dev nD} (dat : Dat τ (Elt F) Unit ℕ (UR sig nD τ) ℕ cfg6 c) (hA : dat.A 19 = V c (Pipeline.arrRef spec6 19))
    (hafter : ∀ t, dat.after 19 t = iblk6 V c 19 t) (t : Fin cfg6.N) (d) : dat.before 19 t d = iblk6 V c 19 t :=
  (dat.before_in_eq_fetched 19 rfl (fun _ => rfl) (fun _ _ _ => rfl) (fun t => by rw [hafter]; unfold Dat.blockOf iblk6; rw [hA]; try rfl) t d).trans
    (by unfold Dat.fetched Dat.blockOf iblk6; rw [hA]; try rfl)
theorem before6_20_of {c : Dev nD} (dat : Dat τ (Elt F) Unit ℕ (UR sig nD τ) ℕ cfg6 c) (hA : dat.A 20 = V c (Pipeline.arrRef spec6 20))
    (hafter : ∀ t, dat.after 20 t = iblk6 V c 20 t) (t : Fin cfg6.N) (d) : dat.before 20 t d = iblk6 V c 20 t :=
  (dat.before_in_eq_fetched 20 rfl (fun _ => rfl) (fun _ _ _ => rfl) (fun t => by rw [hafter]; unfold Dat.blockOf iblk6; rw [hA]; try rfl) t d).trans
    (by unfold Dat.fetched Dat.blockOf iblk6; rw [hA]; try rfl)
theorem before6_21_of {c : Dev nD} (dat : Dat τ (Elt F) Unit ℕ (UR sig nD τ) ℕ cfg6 c) (hA : dat.A 21 = V c (Pipeline.arrRef spec6 21))
    (hafter : ∀ t, dat.after 21 t = iblk6 V c 21 t) (t : Fin cfg6.N) (d) : dat.before 21 t d = iblk6 V c 21 t :=
  (dat.before_in_eq_fetched 21 rfl (fun _ => rfl) (fun _ _ _ => rfl) (fun t => by rw [hafter]; unfold Dat.blockOf iblk6; rw [hA]; try rfl) t d).trans
    (by unfold Dat.fetched Dat.blockOf iblk6; rw [hA]; try rfl)
theorem before6_22_of {c : Dev nD} (dat : Dat τ (Elt F) Unit ℕ (UR sig nD τ) ℕ cfg6 c) (hA : dat.A 22 = V c (Pipeline.arrRef spec6 22))
    (hafter : ∀ t, dat.after 22 t = iblk6 V c 22 t) (t : Fin cfg6.N) (d) : dat.before 22 t d = iblk6 V c 22 t :=
  (dat.before_in_eq_fetched 22 rfl (fun _ => rfl) (fun _ _ _ => rfl) (fun t => by rw [hafter]; unfold Dat.blockOf iblk6; rw [hA]; try rfl) t d).trans
    (by unfold Dat.fetched Dat.blockOf iblk6; rw [hA]; try rfl)
theorem before6_23_of {c : Dev nD} (dat : Dat τ (Elt F) Unit ℕ (UR sig nD τ) ℕ cfg6 c) (hA : dat.A 23 = V c (Pipeline.arrRef spec6 23))
    (hafter : ∀ t, dat.after 23 t = iblk6 V c 23 t) (t : Fin cfg6.N) (d) : dat.before 23 t d = iblk6 V c 23 t :=
  (dat.before_in_eq_fetched 23 rfl (fun _ => rfl) (fun _ _ _ => rfl) (fun t => by rw [hafter]; unfold Dat.blockOf iblk6; rw [hA]; try rfl) t d).trans
    (by unfold Dat.fetched Dat.blockOf iblk6; rw [hA]; try rfl)
theorem before6_24_of {c : Dev nD} (dat : Dat τ (Elt F) Unit ℕ (UR sig nD τ) ℕ cfg6 c) (hA : dat.A 24 = V c (Pipeline.arrRef spec6 24))
    (hafter : ∀ t, dat.after 24 t = iblk6 V c 24 t) (t : Fin cfg6.N) (d) : dat.before 24 t d = iblk6 V c 24 t :=
  (dat.before_in_eq_fetched 24 rfl (fun _ => rfl) (fun _ _ _ => rfl) (fun t => by rw [hafter]; unfold Dat.blockOf iblk6; rw [hA]; try rfl) t d).trans
    (by unfold Dat.fetched Dat.blockOf iblk6; rw [hA]; try rfl)
theorem before6_25_of {c : Dev nD} (dat : Dat τ (Elt F) Unit ℕ (UR sig nD τ) ℕ cfg6 c) (hA : dat.A 25 = V c (Pipeline.arrRef spec6 25))
    (hafter : ∀ t, dat.after 25 t = iblk6 V c 25 t) (t : Fin cfg6.N) (d) : dat.before 25 t d = iblk6 V c 25 t :=
  (dat.before_in_eq_fetched 25 rfl (fun _ => rfl) (fun _ _ _ => rfl) (fun t => by rw [hafter]; unfold Dat.blockOf iblk6; rw [hA]; try rfl) t d).trans
    (by unfold Dat.fetched Dat.blockOf iblk6; rw [hA]; try rfl)
theorem before6_26_of {c : Dev nD} (dat : Dat τ (Elt F) Unit ℕ (UR sig nD τ) ℕ cfg6 c) (hA : dat.A 26 = V c (Pipeline.arrRef spec6 26))
    (hafter : ∀ t, dat.after 26 t = iblk6 V c 26 t) (t : Fin cfg6.N) (d) : dat.before 26 t d = iblk6 V c 26 t :=
  (dat.before_in_eq_fetched 26 rfl (fun _ => rfl) (fun _ _ _ => rfl) (fun t => by rw [hafter]; unfold Dat.blockOf iblk6; rw [hA]; try rfl) t d).trans
    (by unfold Dat.fetched Dat.blockOf iblk6; rw [hA]; try rfl)
theorem before6_27_of {c : Dev nD} (dat : Dat τ (Elt F) Unit ℕ (UR sig nD τ) ℕ cfg6 c) (hA : dat.A 27 = V c (Pipeline.arrRef spec6 27))
    (hafter : ∀ t, dat.after 27 t = iblk6 V c 27 t) (t : Fin cfg6.N) (d) : dat.before 27 t d = iblk6 V c 27 t :=
  (dat.before_in_eq_fetched 27 rfl (fun _ => rfl) (fun _ _ _ => rfl) (fun t => by rw [hafter]; unfold Dat.blockOf iblk6; rw [hA]; try rfl) t d).trans
    (by unfold Dat.fetched Dat.blockOf iblk6; rw [hA]; try rfl)
theorem before6_28_of {c : Dev nD} (dat : Dat τ (Elt F) Unit ℕ (UR sig nD τ) ℕ cfg6 c) (hA : dat.A 28 = V c (Pipeline.arrRef spec6 28))
    (hafter : ∀ t, dat.after 28 t = iblk6 V c 28 t) (t : Fin cfg6.N) (d) : dat.before 28 t d = iblk6 V c 28 t :=
  (dat.before_in_eq_fetched 28 rfl (fun _ => rfl) (fun _ _ _ => rfl) (fun t => by rw [hafter]; unfold Dat.blockOf iblk6; rw [hA]; try rfl) t d).trans
    (by unfold Dat.fetched Dat.blockOf iblk6; rw [hA]; try rfl)
theorem before6_29_of {c : Dev nD} (dat : Dat τ (Elt F) Unit ℕ (UR sig nD τ) ℕ cfg6 c) (hA : dat.A 29 = V c (Pipeline.arrRef spec6 29))
    (hafter : ∀ t, dat.after 29 t = iblk6 V c 29 t) (t : Fin cfg6.N) (d) : dat.before 29 t d = iblk6 V c 29 t :=
  (dat.before_in_eq_fetched 29 rfl (fun _ => rfl) (fun _ _ _ => rfl) (fun t => by rw [hafter]; unfold Dat.blockOf iblk6; rw [hA]; try rfl) t d).trans
    (by unfold Dat.fetched Dat.blockOf iblk6; rw [hA]; try rfl)
theorem before6_30_of {c : Dev nD} (dat : Dat τ (Elt F) Unit ℕ (UR sig nD τ) ℕ cfg6 c) (hA : dat.A 30 = V c (Pipeline.arrRef spec6 30))
    (hafter : ∀ t, dat.after 30 t = iblk6 V c 30 t) (t : Fin cfg6.N) (d) : dat.before 30 t d = iblk6 V c 30 t :=
  (dat.before_in_eq_fetched 30 rfl (fun _ => rfl) (fun _ _ _ => rfl) (fun t => by rw [hafter]; unfold Dat.blockOf iblk6; rw [hA]; try rfl) t d).trans
    (by unfold Dat.fetched Dat.blockOf iblk6; rw [hA]; try rfl)
theorem before6_31_of {c : Dev nD} (dat : Dat τ (Elt F) Unit ℕ (UR sig nD τ) ℕ cfg6 c) (hA : dat.A 31 = V c (Pipeline.arrRef spec6 31))
    (hafter : ∀ t, dat.after 31 t = iblk6 V c 31 t) (t : Fin cfg6.N) (d) : dat.before 31 t d = iblk6 V c 31 t :=
  (dat.before_in_eq_fetched 31 rfl (fun _ => rfl) (fun _ _ _ => rfl) (fun t => by rw [hafter]; unfold Dat.blockOf iblk6; rw [hA]; try rfl) t d).trans
    (by unfold Dat.fetched Dat.blockOf iblk6; rw [hA]; try rfl)
theorem before6_32_of {c : Dev nD} (dat : Dat τ (Elt F) Unit ℕ (UR sig nD τ) ℕ cfg6 c) (hA : dat.A 32 = V c (Pipeline.arrRef spec6 32))
    (hafter : ∀ t, dat.after 32 t = iblk6 V c 32 t) (t : Fin cfg6.N) (d) : dat.before 32 t d = iblk6 V c 32 t :=
  (dat.before_in_eq_fetched 32 rfl (fun _ => rfl) (fun _ _ _ => rfl) (fun t => by rw [hafter]; unfold Dat.blockOf iblk6; rw [hA]; try rfl) t d).trans
    (by unfold Dat.fetched Dat.blockOf iblk6; rw [hA]; try rfl)
theorem before6_33_of {c : Dev nD} (dat : Dat τ (Elt F) Unit ℕ (UR sig nD τ) ℕ cfg6 c) (hA : dat.A 33 = V c (Pipeline.arrRef spec6 33))
    (hafter : ∀ t, dat.after 33 t = iblk6 V c 33 t) (t : Fin cfg6.N) (d) : dat.before 33 t d = iblk6 V c 33 t :=
  (dat.before_in_eq_fetched 33 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- A parent's whole block. -/
abbrev r6_p : Rect S512x128 := Rect.unit (s := S512x128) ![0, 0] S512x128.size inb_S512x128_S512x128_0_0
/-- Slab `k` of the weight slice, -/
abbrev r6_w0 : Rect S8x128x128 := Rect.unit (s := S8x128x128) ![0, 0, 0] S1x128x128.size inb_S8x128x128_S1x128x128_0_0_0
abbrev r6_w1 : Rect S8x128x128 := Rect.unit (s := S8x128x128) ![1, 0, 0] S1x128x128.size inb_S8x128x128_S1x128x128_1_0_0
abbrev r6_w2 : Rect S8x128x128 := Rect.unit (s := S8x128x128) ![2, 0, 0] S1x128x128.size inb_S8x128x128_S1x128x128_2_0_0
abbrev r6_w3 : Rect S8x128x128 := Rect.unit (s := S8x128x128) ![3, 0, 0] S1x128x128.size inb_S8x128x128_S1x128x128_3_0_0
abbrev r6_w4 : Rect S8x128x128 := Rect.unit (s := S8x128x128) ![4, 0, 0] S1x128x128.size inb_S8x128x128_S1x128x128_4_0_0
abbrev r6_w5 : Rect S8x128x128 := Rect.unit (s := S8x128x128) ![5, 0, 0] S1x128x128.size inb_S8x128x128_S1x128x128_5_0_0
abbrev r6_w6 : Rect S8x128x128 := Rect.unit (s := S8x128x128) ![6, 0, 0] S1x128x128.size inb_S8x128x128_S1x128x128_6_0_0
abbrev r6_w7 : Rect S8x128x128 := Rect.unit (s := S8x128x128) ![7, 0, 0] S1x128x128.size inb_S8x128x128_S1x128x128_7_0_0
/-- row `k` of the bias slice, -/
abbrev r6_b0 : Rect S8x128 := Rect.unit (s := S8x128) ![0, 0] S1x128.size inb_S8x128_S1x128_0_0
abbrev r6_b1 : Rect S8x128 := Rect.unit (s := S8x128) ![1, 0] S1x128.size inb_S8x128_S1x128_1_0
abbrev r6_b2 : Rect S8x128 := Rect.unit (s := S8x128) ![2, 0] S1x128.size inb_S8x128_S1x128_2_0
abbrev r6_b3 : Rect S8x128 := Rect.unit (s := S8x128) ![3, 0] S1x128.size inb_S8x128_S1x128_3_0
abbrev r6_b4 : Rect S8x128 := Rect.unit (s := S8x128) ![4, 0] S1x128.size inb_S8x128_S1x128_4_0
abbrev r6_b5 : Rect S8x128 := Rect.unit (s := S8x128) ![5, 0] S1x128.size inb_S8x128_S1x128_5_0
abbrev r6_b6 : Rect S8x128 := Rect.unit (s := S8x128) ![6, 0] S1x128.size inb_S8x128_S1x128_6_0
abbrev r6_b7 : Rect S8x128 := Rect.unit (s := S8x128) ![7, 0] S1x128.size inb_S8x128_S1x128_7_0
/-- and slab `k` of the output block. -/
abbrev r6_o0 : Rect S8x512x128 := Rect.unit (s := S8x512x128) ![0, 0, 0] S1x512x128.size inb_S8x512x128_S1x512x128_0_0_0
abbrev r6_o1 : Rect S8x512x128 := Rect.unit (s := S8x512x128) ![1, 0, 0] S1x512x128.size inb_S8x512x128_S1x512x128_1_0_0
abbrev r6_o2 : Rect S8x512x128 := Rect.unit (s := S8x512x128) ![2, 0, 0] S1x512x128.size inb_S8x512x128_S1x512x128_2_0_0
abbrev r6_o3 : Rect S8x512x128 := Rect.unit (s := S8x512x128) ![3, 0, 0] S1x512x128.size inb_S8x512x128_S1x512x128_3_0_0
abbrev r6_o4 : Rect S8x512x128 := Rect.unit (s := S8x512x128) ![4, 0, 0] S1x512x128.size inb_S8x512x128_S1x512x128_4_0_0
abbrev r6_o5 : Rect S8x512x128 := Rect.unit (s := S8x512x128) ![5, 0, 0] S1x512x128.size inb_S8x512x128_S1x512x128_5_0_0
abbrev r6_o6 : Rect S8x512x128 := Rect.unit (s := S8x512x128) ![6, 0, 0] S1x512x128.size inb_S8x512x128_S1x512x128_6_0_0
abbrev r6_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab6_0 (p : Fin 32 → Vec F S512x128 .f32) (wt : Vec F S8x128x128 .f32) (bs : Vec F S8x128 .f32) : Vec F S1x512x128 .f32 :=
  k6_pay1 (View.ld (p 0) r6_p) (View.ld (p 1) r6_p) (View.ld (p 2) r6_p) (View.ld (p 3) r6_p) (View.ld wt r6_w0) (View.ld bs r6_b0)
def slab6_1 (p : Fin 32 → Vec F S512x128 .f32) (wt : Vec F S8x128x128 .f32) (bs : Vec F S8x128 .f32) : Vec F S1x512x128 .f32 :=
  k6_pay3 (k6_pay2 (View.ld (p 4) r6_p) (View.ld (p 5) r6_p) (View.ld (p 6) r6_p)) (View.ld (p 7) r6_p) (View.ld wt r6_w1) (View.ld bs r6_b1)
def slab6_2 (p : Fin 32 → Vec F S512x128 .f32) (wt : Vec F S8x128x128 .f32) (bs : Vec F S8x128 .f32) : Vec F S1x512x128 .f32 :=
  k6_pay7 (k6_pay4 (View.ld (p 8) r6_p) (View.ld (p 9) r6_p) (View.ld (p 10) r6_p) (View.ld (p 11) r6_p)) (k6_pay5 (View.ld wt r6_w2)) (k6_pay6 (View.ld bs r6_b2))
def slab6_3 (p : Fin 32 → Vec F S512x128 .f32) (wt : Vec F S8x128x128 .f32) (bs : Vec F S8x128 .f32) : Vec F S1x512x128 .f32 :=
  k6_pay8 (View.ld (p 12) r6_p) (View.ld (p 13) r6_p) (View.ld (p 14) r6_p) (View.ld (p 15) r6_p) (View.ld wt r6_w3) (View.ld bs r6_b3)
def slab6_4 (p : Fin 32 → Vec F S512x128 .f32) (wt : Vec F S8x128x128 .f32) (bs : Vec F S8x128 .f32) : Vec F S1x512x128 .f32 :=
  k6_pay9 (View.ld (p 16) r6_p) (View.ld (p 17) r6_p) (View.ld (p 18) r6_p) (View.ld (p 19) r6_p) (View.ld wt r6_w4) (View.ld bs r6_b4)
def slab6_5 (p : Fin 32 → Vec F S512x128 .f32) (wt : Vec F S8x128x128 .f32) (bs : Vec F S8x128 .f32) : Vec F S1x512x128 .f32 :=
  k6_pay11 (k6_pay10 (View.ld (p 20) r6_p) (View.ld (p 21) r6_p) (View.ld (p 22) r6_p)) (View.ld (p 23) r6_p) (View.ld wt r6_w5) (View.ld bs r6_b5)
def slab6_6 (p : Fin 32 → Vec F S512x128 .f32) (wt : Vec F S8x128x128 .f32) (bs : Vec F S8x128 .f32) : Vec F S1x512x128 .f32 :=
  k6_pay15 (k6_pay12 (View.ld (p 24) r6_p) (View.ld (p 25) r6_p) (View.ld (p 26) r6_p) (View.ld (p 27) r6_p)) (k6_pay13 (View.ld wt r6_w6)) (k6_pay14 (View.ld bs r6_b6))
def slab6_7 (p : Fin 32 → Vec F S512x128 .f32) (wt : Vec F S8x128x128 .f32) (bs : Vec F S8x128 .f32) : Vec F S1x512x128 .f32 :=
  k6_pay16 (View.ld (p 28) r6_p) (View.ld (p 29) r6_p) (View.ld (p 30) r6_p) (View.ld (p 31) r6_p) (View.ld wt r6_w7) (View.ld bs r6_b7)

/-- Window 34's staging buffer after the body, from the input windows' blocks: its 8 stores as pieces, LAST FIRST. -/
def out6_34 (p : Fin 32 → Vec F S512x128 .f32) (wt : Vec F S8x128x128 .f32) (bs : Vec F S8x128 .f32) : Vec F S8x512x128 .f32 :=
  View.canon [⟨r6_o7, slab6_7 p wt bs⟩, ⟨r6_o6, slab6_6 p wt bs⟩, ⟨r6_o5, slab6_5 p wt bs⟩, ⟨r6_o4, slab6_4 p wt bs⟩, ⟨r6_o3, slab6_3 p wt bs⟩, ⟨r6_o2, slab6_2 p wt bs⟩, ⟨r6_o1, slab6_1 p wt bs⟩, ⟨r6_o0, slab6_0 p wt bs⟩]

/-- The eight stores tile the buffer (checked by evaluation), so they cover it. -/
theorem cover6_34 (p0 p1 p2 p3 p4 p5 p6 p7 : Vec F S1x512x128 .f32) (y : S8x512x128.Idx) :
    ∃ pc ∈ ([⟨r6_o7, p7⟩, ⟨r6_o6, p6⟩, ⟨r6_o5, p5⟩, ⟨r6_o4, p4⟩, ⟨r6_o3, p3⟩, ⟨r6_o2, p2⟩, ⟨r6_o1, p1⟩, ⟨r6_o0, p0⟩] : List (View.Piece (Elt F) S8x512x128 .f32)), y ∈ pc.1.set :=
  View.cover_of_tiled [⟨r6_o7, p7⟩, ⟨r6_o6, p6⟩, ⟨r6_o5, p5⟩, ⟨r6_o4, p4⟩, ⟨r6_o3, p3⟩, ⟨r6_o2, p2⟩, ⟨r6_o1, p1⟩, ⟨r6_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out6_34` of the inputs': the printed
    functions are their skeletons, run through every part call; each slab's load of the output buffer before its store
    reads contents nothing uses. -/
theorem sound_kernel6 (c : Dev nD) (E : Set ℕ) (i : grid6.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out6_34 p wt bs)) -∗ K ⟨⟩))
      ⊢ wp frame (wpE (defs₀ (F := F)) Variants.none c none) E (cc6__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out6_34 slab6_0 slab6_1 slab6_2 slab6_3 slab6_4 slab6_5 slab6_6 slab6_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc6__group_kernel_eq_skeleton]; unfold cc6__group_kernel_skel
  simp only [k6_part1_eq_skeleton, k6_part2_eq_skeleton, k6_part3_eq_skeleton, k6_part4_eq_skeleton, k6_part5_eq_skeleton, k6_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover6_34 _ _ _ _ _ _ _ _)

/-! ## The pipeline's proof data -/

/-- The 32 parent blocks at point `t`, as one family: parent `j` of slab `k` is window `4k+j`. -/
def par6 (c : Dev nD) (t : Fin cfg6.N) : Fin 32 → Vec F S512x128 .f32 := fun j => match j with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => iblk6 V c 19 t
    | ⟨20, _⟩ => iblk6 V c 20 t
    | ⟨21, _⟩ => iblk6 V c 21 t
    | ⟨22, _⟩ => iblk6 V c 22 t
    | ⟨23, _⟩ => iblk6 V c 23 t
    | ⟨24, _⟩ => iblk6 V c 24 t
    | ⟨25, _⟩ => iblk6 V c 25 t
    | ⟨26, _⟩ => iblk6 V c 26 t
    | ⟨27, _⟩ => iblk6 V c 27 t
    | ⟨28, _⟩ => iblk6 V c 28 t
    | ⟨29, _⟩ => iblk6 V c 29 t
    | ⟨30, _⟩ => iblk6 V c 30 t
    | ⟨31, _⟩ => iblk6 V c 31 t
    | ⟨_ + 32, h⟩ => absurd h (Nat.not_lt.2 (Nat.le_add_left _ _))

/-- The family at a literal index (the `match` reduced by `dsimp`). -/
theorem par6_0 (c : Dev nD) (t : Fin cfg6.N) : par6 V c t 0 = iblk6 V c 0 t := by dsimp only [par6]
theorem par6_1 (c : Dev nD) (t : Fin cfg6.N) : par6 V c t 1 = iblk6 V c 1 t := by dsimp only [par6]
theorem par6_2 (c : Dev nD) (t : Fin cfg6.N) : par6 V c t 2 = iblk6 V c 2 t := by dsimp only [par6]
theorem par6_3 (c : Dev nD) (t : Fin cfg6.N) : par6 V c t 3 = iblk6 V c 3 t := by dsimp only [par6]
theorem par6_4 (c : Dev nD) (t : Fin cfg6.N) : par6 V c t 4 = iblk6 V c 4 t := by dsimp only [par6]
theorem par6_5 (c : Dev nD) (t : Fin cfg6.N) : par6 V c t 5 = iblk6 V c 5 t := by dsimp only [par6]
theorem par6_6 (c : Dev nD) (t : Fin cfg6.N) : par6 V c t 6 = iblk6 V c 6 t := by dsimp only [par6]
theorem par6_7 (c : Dev nD) (t : Fin cfg6.N) : par6 V c t 7 = iblk6 V c 7 t := by dsimp only [par6]
theorem par6_8 (c : Dev nD) (t : Fin cfg6.N) : par6 V c t 8 = iblk6 V c 8 t := by dsimp only [par6]
theorem par6_9 (c : Dev nD) (t : Fin cfg6.N) : par6 V c t 9 = iblk6 V c 9 t := by dsimp only [par6]
theorem par6_10 (c : Dev nD) (t : Fin cfg6.N) : par6 V c t 10 = iblk6 V c 10 t := by dsimp only [par6]
theorem par6_11 (c : Dev nD) (t : Fin cfg6.N) : par6 V c t 11 = iblk6 V c 11 t := by dsimp only [par6]
theorem par6_12 (c : Dev nD) (t : Fin cfg6.N) : par6 V c t 12 = iblk6 V c 12 t := by dsimp only [par6]
theorem par6_13 (c : Dev nD) (t : Fin cfg6.N) : par6 V c t 13 = iblk6 V c 13 t := by dsimp only [par6]
theorem par6_14 (c : Dev nD) (t : Fin cfg6.N) : par6 V c t 14 = iblk6 V c 14 t := by dsimp only [par6]
theorem par6_15 (c : Dev nD) (t : Fin cfg6.N) : par6 V c t 15 = iblk6 V c 15 t := by dsimp only [par6]
theorem par6_16 (c : Dev nD) (t : Fin cfg6.N) : par6 V c t 16 = iblk6 V c 16 t := by dsimp only [par6]
theorem par6_17 (c : Dev nD) (t : Fin cfg6.N) : par6 V c t 17 = iblk6 V c 17 t := by dsimp only [par6]
theorem par6_18 (c : Dev nD) (t : Fin cfg6.N) : par6 V c t 18 = iblk6 V c 18 t := by dsimp only [par6]
theorem par6_19 (c : Dev nD) (t : Fin cfg6.N) : par6 V c t 19 = iblk6 V c 19 t := by dsimp only [par6]
theorem par6_20 (c : Dev nD) (t : Fin cfg6.N) : par6 V c t 20 = iblk6 V c 20 t := by dsimp only [par6]
theorem par6_21 (c : Dev nD) (t : Fin cfg6.N) : par6 V c t 21 = iblk6 V c 21 t := by dsimp only [par6]
theorem par6_22 (c : Dev nD) (t : Fin cfg6.N) : par6 V c t 22 = iblk6 V c 22 t := by dsimp only [par6]
theorem par6_23 (c : Dev nD) (t : Fin cfg6.N) : par6 V c t 23 = iblk6 V c 23 t := by dsimp only [par6]
theorem par6_24 (c : Dev nD) (t : Fin cfg6.N) : par6 V c t 24 = iblk6 V c 24 t := by dsimp only [par6]
theorem par6_25 (c : Dev nD) (t : Fin cfg6.N) : par6 V c t 25 = iblk6 V c 25 t := by dsimp only [par6]
theorem par6_26 (c : Dev nD) (t : Fin cfg6.N) : par6 V c t 26 = iblk6 V c 26 t := by dsimp only [par6]
theorem par6_27 (c : Dev nD) (t : Fin cfg6.N) : par6 V c t 27 = iblk6 V c 27 t := by dsimp only [par6]
theorem par6_28 (c : Dev nD) (t : Fin cfg6.N) : par6 V c t 28 = iblk6 V c 28 t := by dsimp only [par6]
theorem par6_29 (c : Dev nD) (t : Fin cfg6.N) : par6 V c t 29 = iblk6 V c 29 t := by dsimp only [par6]
theorem par6_30 (c : Dev nD) (t : Fin cfg6.N) : par6 V c t 30 = iblk6 V c 30 t := by dsimp only [par6]
theorem par6_31 (c : Dev nD) (t : Fin cfg6.N) : par6 V c t 31 = iblk6 V c 31 t := by dsimp only [par6]

/-- The proof data of pipeline 6 on core `c`: the arrays as the region finds them (`V`); after the body at point `t`
    each input's buffer at its block and the output's at `out6_34` of the input blocks; the invariant the scoped rest
    and the generator register, untouched; nothing owed; of each windowed array the share its window holds when
    several windows read one array. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => iblk6 V c 19 t
    | ⟨20, _⟩ => iblk6 V c 20 t
    | ⟨21, _⟩ => iblk6 V c 21 t
    | ⟨22, _⟩ => iblk6 V c 22 t
    | ⟨23, _⟩ => iblk6 V c 23 t
    | ⟨24, _⟩ => iblk6 V c 24 t
    | ⟨25, _⟩ => iblk6 V c 25 t
    | ⟨26, _⟩ => iblk6 V c 26 t
    | ⟨27, _⟩ => iblk6 V c 27 t
    | ⟨28, _⟩ => iblk6 V c 28 t
    | ⟨29, _⟩ => iblk6 V c 29 t
    | ⟨30, _⟩ => iblk6 V c 30 t
    | ⟨31, _⟩ => iblk6 V c 31 t
    | ⟨32, _⟩ => iblk6 V c 32 t
    | ⟨33, _⟩ => iblk6 V c 33 t
    | ⟨34, _⟩ => out6_34 (par6 V c t) (iblk6 V c 32 t) (iblk6 V c 33 t)
    | ⟨_ + 35, h⟩ => absurd h (Nat.not_lt.2 (Nat.le_add_left _ _))
  Φ _ := Pipeline.ΦA spec6 c
  q w := Cert.Lib.SharedArrays.shareOf (Pipeline.arrRef spec6) w
  owed _ := 0

/-- The proof data's arrays are the region-entry contents. -/
theorem A_eq6 (c : Dev nD) (w : Fin cfg6.W) : (dat6 V c).A w = V c (Pipeline.arrRef spec6 w) := by
  dsimp only [dat6]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = iblk6 V c 15 t := by dsimp only [dat6]
theorem after6_16 (c : Dev nD) (t : Fin cfg6.N) : (dat6 V c).after 16 t = iblk6 V c 16 t := by dsimp only [dat6]
theorem after6_17 (c : Dev nD) (t : Fin cfg6.N) : (dat6 V c).after 17 t = iblk6 V c 17 t := by dsimp only [dat6]
theorem after6_18 (c : Dev nD) (t : Fin cfg6.N) : (dat6 V c).after 18 t = iblk6 V c 18 t := by dsimp only [dat6]
theorem after6_19 (c : Dev nD) (t : Fin cfg6.N) : (dat6 V c).after 19 t = iblk6 V c 19 t := by dsimp only [dat6]
theorem after6_20 (c : Dev nD) (t : Fin cfg6.N) : (dat6 V c).after 20 t = iblk6 V c 20 t := by dsimp only [dat6]
theorem after6_21 (c : Dev nD) (t : Fin cfg6.N) : (dat6 V c).after 21 t = iblk6 V c 21 t := by dsimp only [dat6]
theorem after6_22 (c : Dev nD) (t : Fin cfg6.N) : (dat6 V c).after 22 t = iblk6 V c 22 t := by dsimp only [dat6]
theorem after6_23 (c : Dev nD) (t : Fin cfg6.N) : (dat6 V c).after 23 t = iblk6 V c 23 t := by dsimp only [dat6]
theorem after6_24 (c : Dev nD) (t : Fin cfg6.N) : (dat6 V c).after 24 t = iblk6 V c 24 t := by dsimp only [dat6]
theorem after6_25 (c : Dev nD) (t : Fin cfg6.N) : (dat6 V c).after 25 t = iblk6 V c 25 t := by dsimp only [dat6]
theorem after6_26 (c : Dev nD) (t : Fin cfg6.N) : (dat6 V c).after 26 t = iblk6 V c 26 t := by dsimp only [dat6]
theorem after6_27 (c : Dev nD) (t : Fin cfg6.N) : (dat6 V c).after 27 t = iblk6 V c 27 t := by dsimp only [dat6]
theorem after6_28 (c : Dev nD) (t : Fin cfg6.N) : (dat6 V c).after 28 t = iblk6 V c 28 t := by dsimp only [dat6]
theorem after6_29 (c : Dev nD) (t : Fin cfg6.N) : (dat6 V c).after 29 t = iblk6 V c 29 t := by dsimp only [dat6]
theorem after6_30 (c : Dev nD) (t : Fin cfg6.N) : (dat6 V c).after 30 t = iblk6 V c 30 t := by dsimp only [dat6]
theorem after6_31 (c : Dev nD) (t : Fin cfg6.N) : (dat6 V c).after 31 t = iblk6 V c 31 t := by dsimp only [dat6]
theorem after6_32 (c : Dev nD) (t : Fin cfg6.N) : (dat6 V c).after 32 t = iblk6 V c 32 t := by dsimp only [dat6]
theorem after6_33 (c : Dev nD) (t : Fin cfg6.N) : (dat6 V c).after 33 t = iblk6 V c 33 t := by dsimp only [dat6]
theorem after6_34 (c : Dev nD) (t : Fin cfg6.N) :
    (dat6 V c).after 34 t = out6_34 (par6 V c t) (iblk6 V c 32 t) (iblk6 V c 33 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d
theorem before6_15 (c : Dev nD) (t : Fin cfg6.N) (d) : (dat6 V c).before 15 t d = iblk6 V c 15 t :=
  before6_15_of V (dat6 V c) (A_eq6 V c 15) (after6_15 V c) t d
theorem before6_16 (c : Dev nD) (t : Fin cfg6.N) (d) : (dat6 V c).before 16 t d = iblk6 V c 16 t :=
  before6_16_of V (dat6 V c) (A_eq6 V c 16) (after6_16 V c) t d
theorem before6_17 (c : Dev nD) (t : Fin cfg6.N) (d) : (dat6 V c).before 17 t d = iblk6 V c 17 t :=
  before6_17_of V (dat6 V c) (A_eq6 V c 17) (after6_17 V c) t d
theorem before6_18 (c : Dev nD) (t : Fin cfg6.N) (d) : (dat6 V c).before 18 t d = iblk6 V c 18 t :=
  before6_18_of V (dat6 V c) (A_eq6 V c 18) (after6_18 V c) t d
theorem before6_19 (c : Dev nD) (t : Fin cfg6.N) (d) : (dat6 V c).before 19 t d = iblk6 V c 19 t :=
  before6_19_of V (dat6 V c) (A_eq6 V c 19) (after6_19 V c) t d
theorem before6_20 (c : Dev nD) (t : Fin cfg6.N) (d) : (dat6 V c).before 20 t d = iblk6 V c 20 t :=
  before6_20_of V (dat6 V c) (A_eq6 V c 20) (after6_20 V c) t d
theorem before6_21 (c : Dev nD) (t : Fin cfg6.N) (d) : (dat6 V c).before 21 t d = iblk6 V c 21 t :=
  before6_21_of V (dat6 V c) (A_eq6 V c 21) (after6_21 V c) t d
theorem before6_22 (c : Dev nD) (t : Fin cfg6.N) (d) : (dat6 V c).before 22 t d = iblk6 V c 22 t :=
  before6_22_of V (dat6 V c) (A_eq6 V c 22) (after6_22 V c) t d
theorem before6_23 (c : Dev nD) (t : Fin cfg6.N) (d) : (dat6 V c).before 23 t d = iblk6 V c 23 t :=
  before6_23_of V (dat6 V c) (A_eq6 V c 23) (after6_23 V c) t d
theorem before6_24 (c : Dev nD) (t : Fin cfg6.N) (d) : (dat6 V c).before 24 t d = iblk6 V c 24 t :=
  before6_24_of V (dat6 V c) (A_eq6 V c 24) (after6_24 V c) t d
theorem before6_25 (c : Dev nD) (t : Fin cfg6.N) (d) : (dat6 V c).before 25 t d = iblk6 V c 25 t :=
  before6_25_of V (dat6 V c) (A_eq6 V c 25) (after6_25 V c) t d
theorem before6_26 (c : Dev nD) (t : Fin cfg6.N) (d) : (dat6 V c).before 26 t d = iblk6 V c 26 t :=
  before6_26_of V (dat6 V c) (A_eq6 V c 26) (after6_26 V c) t d
theorem before6_27 (c : Dev nD) (t : Fin cfg6.N) (d) : (dat6 V c).before 27 t d = iblk6 V c 27 t :=
  before6_27_of V (dat6 V c) (A_eq6 V c 27) (after6_27 V c) t d
theorem before6_28 (c : Dev nD) (t : Fin cfg6.N) (d) : (dat6 V c).before 28 t d = iblk6 V c 28 t :=
  before6_28_of V (dat6 V c) (A_eq6 V c 28) (after6_28 V c) t d
theorem before6_29 (c : Dev nD) (t : Fin cfg6.N) (d) : (dat6 V c).before 29 t d = iblk6 V c 29 t :=
  before6_29_of V (dat6 V c) (A_eq6 V c 29) (after6_29 V c) t d
theorem before6_30 (c : Dev nD) (t : Fin cfg6.N) (d) : (dat6 V c).before 30 t d = iblk6 V c 30 t :=
  before6_30_of V (dat6 V c) (A_eq6 V c 30) (after6_30 V c) t d
theorem before6_31 (c : Dev nD) (t : Fin cfg6.N) (d) : (dat6 V c).before 31 t d = iblk6 V c 31 t :=
  before6_31_of V (dat6 V c) (A_eq6 V c 31) (after6_31 V c) t d
theorem before6_32 (c : Dev nD) (t : Fin cfg6.N) (d) : (dat6 V c).before 32 t d = iblk6 V c 32 t :=
  before6_32_of V (dat6 V c) (A_eq6 V c 32) (after6_32 V c) t d
theorem before6_33 (c : Dev nD) (t : Fin cfg6.N) (d) : (dat6 V c).before 33 t d = iblk6 V c 33 t :=
  before6_33_of V (dat6 V c) (A_eq6 V c 33) (after6_33 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d))
    ∗ (∃ d, owns (c : Thread nD τ) (st6_16 t) fullShare ((dat6 V c).before 16 t d))
    ∗ (∃ d, owns (c : Thread nD τ) (st6_17 t) fullShare ((dat6 V c).before 17 t d))
    ∗ (∃ d, owns (c : Thread nD τ) (st6_18 t) fullShare ((dat6 V c).before 18 t d))
    ∗ (∃ d, owns (c : Thread nD τ) (st6_19 t) fullShare ((dat6 V c).before 19 t d))
    ∗ (∃ d, owns (c : Thread nD τ) (st6_20 t) fullShare ((dat6 V c).before 20 t d))
    ∗ (∃ d, owns (c : Thread nD τ) (st6_21 t) fullShare ((dat6 V c).before 21 t d))
    ∗ (∃ d, owns (c : Thread nD τ) (st6_22 t) fullShare ((dat6 V c).before 22 t d))
    ∗ (∃ d, owns (c : Thread nD τ) (st6_23 t) fullShare ((dat6 V c).before 23 t d))
    ∗ (∃ d, owns (c : Thread nD τ) (st6_24 t) fullShare ((dat6 V c).before 24 t d))
    ∗ (∃ d, owns (c : Thread nD τ) (st6_25 t) fullShare ((dat6 V c).before 25 t d))
    ∗ (∃ d, owns (c : Thread nD τ) (st6_26 t) fullShare ((dat6 V c).before 26 t d))
    ∗ (∃ d, owns (c : Thread nD τ) (st6_27 t) fullShare ((dat6 V c).before 27 t d))
    ∗ (∃ d, owns (c : Thread nD τ) (st6_28 t) fullShare ((dat6 V c).before 28 t d))
    ∗ (∃ d, owns (c : Thread nD τ) (st6_29 t) fullShare ((dat6 V c).before 29 t d))
    ∗ (∃ d, owns (c : Thread nD τ) (st6_30 t) fullShare ((dat6 V c).before 30 t d))
    ∗ (∃ d, owns (c : Thread nD τ) (st6_31 t) fullShare ((dat6 V c).before 31 t d))
    ∗ (∃ d, owns (c : Thread nD τ) (st6_32 t) fullShare ((dat6 V c).before 32 t d))
    ∗ (∃ d, owns (c : Thread nD τ) (st6_33 t) fullShare ((dat6 V c).before 33 t d))
    ∗ (∃ d, owns (c : Thread nD τ) (st6_34 t) fullShare ((dat6 V c).before 34 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t)
    ∗ owns (c : Thread nD τ) (st6_16 t) fullShare ((dat6 V c).after 16 t)
    ∗ owns (c : Thread nD τ) (st6_17 t) fullShare ((dat6 V c).after 17 t)
    ∗ owns (c : Thread nD τ) (st6_18 t) fullShare ((dat6 V c).after 18 t)
    ∗ owns (c : Thread nD τ) (st6_19 t) fullShare ((dat6 V c).after 19 t)
    ∗ owns (c : Thread nD τ) (st6_20 t) fullShare ((dat6 V c).after 20 t)
    ∗ owns (c : Thread nD τ) (st6_21 t) fullShare ((dat6 V c).after 21 t)
    ∗ owns (c : Thread nD τ) (st6_22 t) fullShare ((dat6 V c).after 22 t)
    ∗ owns (c : Thread nD τ) (st6_23 t) fullShare ((dat6 V c).after 23 t)
    ∗ owns (c : Thread nD τ) (st6_24 t) fullShare ((dat6 V c).after 24 t)
    ∗ owns (c : Thread nD τ) (st6_25 t) fullShare ((dat6 V c).after 25 t)
    ∗ owns (c : Thread nD τ) (st6_26 t) fullShare ((dat6 V c).after 26 t)
    ∗ owns (c : Thread nD τ) (st6_27 t) fullShare ((dat6 V c).after 27 t)
    ∗ owns (c : Thread nD τ) (st6_28 t) fullShare ((dat6 V c).after 28 t)
    ∗ owns (c : Thread nD τ) (st6_29 t) fullShare ((dat6 V c).after 29 t)
    ∗ owns (c : Thread nD τ) (st6_30 t) fullShare ((dat6 V c).after 30 t)
    ∗ owns (c : Thread nD τ) (st6_31 t) fullShare ((dat6 V c).after 31 t)
    ∗ owns (c : Thread nD τ) (st6_32 t) fullShare ((dat6 V c).after 32 t)
    ∗ owns (c : Thread nD τ) (st6_33 t) fullShare ((dat6 V c).after 33 t)
    ∗ owns (c : Thread nD τ) (st6_34 t) fullShare ((dat6 V c).after 34 t))

set_option maxHeartbeats 4000000 in
/-- The body at any point: the inputs' memrefs hold their blocks (`before6_W`), so `sound_kernel6` applies; the invariant
    and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14, before6_15, before6_16, before6_17, before6_18, before6_19, before6_20, before6_21, before6_22, before6_23, before6_24, before6_25, before6_26, before6_27, before6_28, before6_29, before6_30, before6_31, before6_32, before6_33]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15, after6_16, after6_17, after6_18, after6_19, after6_20, after6_21, after6_22, after6_23, after6_24, after6_25, after6_26, after6_27, after6_28, after6_29, after6_30, after6_31, after6_32, after6_33, after6_34]
  have hk := fun K => sound_kernel6 (F := F) c Set.univ (grid6.coords t) _ (hstage6_0 ((cfg6.slots t 0).cast nbuf6_0)) _ (hstage6_1 ((cfg6.slots t 1).cast nbuf6_1)) _ (hstage6_2 ((cfg6.slots t 2).cast nbuf6_2)) _ (hstage6_3 ((cfg6.slots t 3).cast nbuf6_3)) _ (hstage6_4 ((cfg6.slots t 4).cast nbuf6_4)) _ (hstage6_5 ((cfg6.slots t 5).cast nbuf6_5)) _ (hstage6_6 ((cfg6.slots t 6).cast nbuf6_6)) _ (hstage6_7 ((cfg6.slots t 7).cast nbuf6_7)) _ (hstage6_8 ((cfg6.slots t 8).cast nbuf6_8)) _ (hstage6_9 ((cfg6.slots t 9).cast nbuf6_9)) _ (hstage6_10 ((cfg6.slots t 10).cast nbuf6_10)) _ (hstage6_11 ((cfg6.slots t 11).cast nbuf6_11)) _ (hstage6_12 ((cfg6.slots t 12).cast nbuf6_12)) _ (hstage6_13 ((cfg6.slots t 13).cast nbuf6_13)) _ (hstage6_14 ((cfg6.slots t 14).cast nbuf6_14)) _ (hstage6_15 ((cfg6.slots t 15).cast nbuf6_15)) _ (hstage6_16 ((cfg6.slots t 16).cast nbuf6_16)) _ (hstage6_17 ((cfg6.slots t 17).cast nbuf6_17)) _ (hstage6_18 ((cfg6.slots t 18).cast nbuf6_18)) _ (hstage6_19 ((cfg6.slots t 19).cast nbuf6_19)) _ (hstage6_20 ((cfg6.slots t 20).cast nbuf6_20)) _ (hstage6_21 ((cfg6.slots t 21).cast nbuf6_21)) _ (hstage6_22 ((cfg6.slots t 22).cast nbuf6_22)) _ (hstage6_23 ((cfg6.slots t 23).cast nbuf6_23)) _ (hstage6_24 ((cfg6.slots t 24).cast nbuf6_24)) _ (hstage6_25 ((cfg6.slots t 25).cast nbuf6_25)) _ (hstage6_26 ((cfg6.slots t 26).cast nbuf6_26)) _ (hstage6_27 ((cfg6.slots t 27).cast nbuf6_27)) _ (hstage6_28 ((cfg6.slots t 28).cast nbuf6_28)) _ (hstage6_29 ((cfg6.slots t 29).cast nbuf6_29)) _ (hstage6_30 ((cfg6.slots t 30).cast nbuf6_30)) _ (hstage6_31 ((cfg6.slots t 31).cast nbuf6_31)) _ (hstage6_32 ((cfg6.slots t 32).cast nbuf6_32)) _ (hstage6_33 ((cfg6.slots t 33).cast nbuf6_33)) _ (hstage6_34 ((cfg6.slots t 34).cast nbuf6_34))
    (par6 V c t) (iblk6 V c 32 t) (iblk6 V c 33 t) K
  simp only [par6_0, par6_1, par6_2, par6_3, par6_4, par6_5, par6_6, par6_7, par6_8, par6_9, par6_10, par6_11, par6_12, par6_13, par6_14, par6_15, par6_16, par6_17, par6_18, par6_19, par6_20, par6_21, par6_22, par6_23, par6_24, par6_25, par6_26, par6_27, par6_28, par6_29, par6_30, par6_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/- Region 7 of the kernel program (pipeline 7, `cc7__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out7_34`); the body's triple; the
   pipeline's proof data (`dat7`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 7: custom_call 7, `cc7__group_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)
theorem before7_15_of {c : Dev nD} (dat : Dat τ (Elt F) Unit ℕ (UR sig nD τ) ℕ cfg7 c) (hA : dat.A 15 = V c (Pipeline.arrRef spec7 15))
    (hafter : ∀ t, dat.after 15 t = iblk7 V c 15 t) (t : Fin cfg7.N) (d) : dat.before 15 t d = iblk7 V c 15 t :=
  (dat.before_in_eq_fetched 15 rfl (fun _ => rfl) (fun _ _ _ => rfl) (fun t => by rw [hafter]; unfold Dat.blockOf iblk7; rw [hA]; try rfl) t d).trans
    (by unfold Dat.fetched Dat.blockOf iblk7; rw [hA]; try rfl)
theorem before7_16_of {c : Dev nD} (dat : Dat τ (Elt F) Unit ℕ (UR sig nD τ) ℕ cfg7 c) (hA : dat.A 16 = V c (Pipeline.arrRef spec7 16))
    (hafter : ∀ t, dat.after 16 t = iblk7 V c 16 t) (t : Fin cfg7.N) (d) : dat.before 16 t d = iblk7 V c 16 t :=
  (dat.before_in_eq_fetched 16 rfl (fun _ => rfl) (fun _ _ _ => rfl) (fun t => by rw [hafter]; unfold Dat.blockOf iblk7; rw [hA]; try rfl) t d).trans
    (by unfold Dat.fetched Dat.blockOf iblk7; rw [hA]; try rfl)
theorem before7_17_of {c : Dev nD} (dat : Dat τ (Elt F) Unit ℕ (UR sig nD τ) ℕ cfg7 c) (hA : dat.A 17 = V c (Pipeline.arrRef spec7 17))
    (hafter : ∀ t, dat.after 17 t = iblk7 V c 17 t) (t : Fin cfg7.N) (d) : dat.before 17 t d = iblk7 V c 17 t :=
  (dat.before_in_eq_fetched 17 rfl (fun _ => rfl) (fun _ _ _ => rfl) (fun t => by rw [hafter]; unfold Dat.blockOf iblk7; rw [hA]; try rfl) t d).trans
    (by unfold Dat.fetched Dat.blockOf iblk7; rw [hA]; try rfl)
theorem before7_18_of {c : Dev nD} (dat : Dat τ (Elt F) Unit ℕ (UR sig nD τ) ℕ cfg7 c) (hA : dat.A 18 = V c (Pipeline.arrRef spec7 18))
    (hafter : ∀ t, dat.after 18 t = iblk7 V c 18 t) (t : Fin cfg7.N) (d) : dat.before 18 t d = iblk7 V c 18 t :=
  (dat.before_in_eq_fetched 18 rfl (fun _ => rfl) (fun _ _ _ => rfl) (fun t => by rw [hafter]; unfold Dat.blockOf iblk7; rw [hA]; try rfl) t d).trans
    (by unfold Dat.fetched Dat.blockOf iblk7; rw [hA]; try rfl)
theorem before7_19_of {c : Dev nD} (dat : Dat τ (Elt F) Unit ℕ (UR sig nD τ) ℕ cfg7 c) (hA : dat.A 19 = V c (Pipeline.arrRef spec7 19))
    (hafter : ∀ t, dat.after 19 t = iblk7 V c 19 t) (t : Fin cfg7.N) (d) : dat.before 19 t d = iblk7 V c 19 t :=
  (dat.before_in_eq_fetched 19 rfl (fun _ => rfl) (fun _ _ _ => rfl) (fun t => by rw [hafter]; unfold Dat.blockOf iblk7; rw [hA]; try rfl) t d).trans
    (by unfold Dat.fetched Dat.blockOf iblk7; rw [hA]; try rfl)
theorem before7_20_of {c : Dev nD} (dat : Dat τ (Elt F) Unit ℕ (UR sig nD τ) ℕ cfg7 c) (hA : dat.A 20 = V c (Pipeline.arrRef spec7 20))
    (hafter : ∀ t, dat.after 20 t = iblk7 V c 20 t) (t : Fin cfg7.N) (d) : dat.before 20 t d = iblk7 V c 20 t :=
  (dat.before_in_eq_fetched 20 rfl (fun _ => rfl) (fun _ _ _ => rfl) (fun t => by rw [hafter]; unfold Dat.blockOf iblk7; rw [hA]; try rfl) t d).trans
    (by unfold Dat.fetched Dat.blockOf iblk7; rw [hA]; try rfl)
theorem before7_21_of {c : Dev nD} (dat : Dat τ (Elt F) Unit ℕ (UR sig nD τ) ℕ cfg7 c) (hA : dat.A 21 = V c (Pipeline.arrRef spec7 21))
    (hafter : ∀ t, dat.after 21 t = iblk7 V c 21 t) (t : Fin cfg7.N) (d) : dat.before 21 t d = iblk7 V c 21 t :=
  (dat.before_in_eq_fetched 21 rfl (fun _ => rfl) (fun _ _ _ => rfl) (fun t => by rw [hafter]; unfold Dat.blockOf iblk7; rw [hA]; try rfl) t d).trans
    (by unfold Dat.fetched Dat.blockOf iblk7; rw [hA]; try rfl)
theorem before7_22_of {c : Dev nD} (dat : Dat τ (Elt F) Unit ℕ (UR sig nD τ) ℕ cfg7 c) (hA : dat.A 22 = V c (Pipeline.arrRef spec7 22))
    (hafter : ∀ t, dat.after 22 t = iblk7 V c 22 t) (t : Fin cfg7.N) (d) : dat.before 22 t d = iblk7 V c 22 t :=
  (dat.before_in_eq_fetched 22 rfl (fun _ => rfl) (fun _ _ _ => rfl) (fun t => by rw [hafter]; unfold Dat.blockOf iblk7; rw [hA]; try rfl) t d).trans
    (by unfold Dat.fetched Dat.blockOf iblk7; rw [hA]; try rfl)
theorem before7_23_of {c : Dev nD} (dat : Dat τ (Elt F) Unit ℕ (UR sig nD τ) ℕ cfg7 c) (hA : dat.A 23 = V c (Pipeline.arrRef spec7 23))
    (hafter : ∀ t, dat.after 23 t = iblk7 V c 23 t) (t : Fin cfg7.N) (d) : dat.before 23 t d = iblk7 V c 23 t :=
  (dat.before_in_eq_fetched 23 rfl (fun _ => rfl) (fun _ _ _ => rfl) (fun t => by rw [hafter]; unfold Dat.blockOf iblk7; rw [hA]; try rfl) t d).trans
    (by unfold Dat.fetched Dat.blockOf iblk7; rw [hA]; try rfl)
theorem before7_24_of {c : Dev nD} (dat : Dat τ (Elt F) Unit ℕ (UR sig nD τ) ℕ cfg7 c) (hA : dat.A 24 = V c (Pipeline.arrRef spec7 24))
    (hafter : ∀ t, dat.after 24 t = iblk7 V c 24 t) (t : Fin cfg7.N) (d) : dat.before 24 t d = iblk7 V c 24 t :=
  (dat.before_in_eq_fetched 24 rfl (fun _ => rfl) (fun _ _ _ => rfl) (fun t => by rw [hafter]; unfold Dat.blockOf iblk7; rw [hA]; try rfl) t d).trans
    (by unfold Dat.fetched Dat.blockOf iblk7; rw [hA]; try rfl)
theorem before7_25_of {c : Dev nD} (dat : Dat τ (Elt F) Unit ℕ (UR sig nD τ) ℕ cfg7 c) (hA : dat.A 25 = V c (Pipeline.arrRef spec7 25))
    (hafter : ∀ t, dat.after 25 t = iblk7 V c 25 t) (t : Fin cfg7.N) (d) : dat.before 25 t d = iblk7 V c 25 t :=
  (dat.before_in_eq_fetched 25 rfl (fun _ => rfl) (fun _ _ _ => rfl) (fun t => by rw [hafter]; unfold Dat.blockOf iblk7; rw [hA]; try rfl) t d).trans
    (by unfold Dat.fetched Dat.blockOf iblk7; rw [hA]; try rfl)
theorem before7_26_of {c : Dev nD} (dat : Dat τ (Elt F) Unit ℕ (UR sig nD τ) ℕ cfg7 c) (hA : dat.A 26 = V c (Pipeline.arrRef spec7 26))
    (hafter : ∀ t, dat.after 26 t = iblk7 V c 26 t) (t : Fin cfg7.N) (d) : dat.before 26 t d = iblk7 V c 26 t :=
  (dat.before_in_eq_fetched 26 rfl (fun _ => rfl) (fun _ _ _ => rfl) (fun t => by rw [hafter]; unfold Dat.blockOf iblk7; rw [hA]; try rfl) t d).trans
    (by unfold Dat.fetched Dat.blockOf iblk7; rw [hA]; try rfl)
theorem before7_27_of {c : Dev nD} (dat : Dat τ (Elt F) Unit ℕ (UR sig nD τ) ℕ cfg7 c) (hA : dat.A 27 = V c (Pipeline.arrRef spec7 27))
    (hafter : ∀ t, dat.after 27 t = iblk7 V c 27 t) (t : Fin cfg7.N) (d) : dat.before 27 t d = iblk7 V c 27 t :=
  (dat.before_in_eq_fetched 27 rfl (fun _ => rfl) (fun _ _ _ => rfl) (fun t => by rw [hafter]; unfold Dat.blockOf iblk7; rw [hA]; try rfl) t d).trans
    (by unfold Dat.fetched Dat.blockOf iblk7; rw [hA]; try rfl)
theorem before7_28_of {c : Dev nD} (dat : Dat τ (Elt F) Unit ℕ (UR sig nD τ) ℕ cfg7 c) (hA : dat.A 28 = V c (Pipeline.arrRef spec7 28))
    (hafter : ∀ t, dat.after 28 t = iblk7 V c 28 t) (t : Fin cfg7.N) (d) : dat.before 28 t d = iblk7 V c 28 t :=
  (dat.before_in_eq_fetched 28 rfl (fun _ => rfl) (fun _ _ _ => rfl) (fun t => by rw [hafter]; unfold Dat.blockOf iblk7; rw [hA]; try rfl) t d).trans
    (by unfold Dat.fetched Dat.blockOf iblk7; rw [hA]; try rfl)
theorem before7_29_of {c : Dev nD} (dat : Dat τ (Elt F) Unit ℕ (UR sig nD τ) ℕ cfg7 c) (hA : dat.A 29 = V c (Pipeline.arrRef spec7 29))
    (hafter : ∀ t, dat.after 29 t = iblk7 V c 29 t) (t : Fin cfg7.N) (d) : dat.before 29 t d = iblk7 V c 29 t :=
  (dat.before_in_eq_fetched 29 rfl (fun _ => rfl) (fun _ _ _ => rfl) (fun t => by rw [hafter]; unfold Dat.blockOf iblk7; rw [hA]; try rfl) t d).trans
    (by unfold Dat.fetched Dat.blockOf iblk7; rw [hA]; try rfl)
theorem before7_30_of {c : Dev nD} (dat : Dat τ (Elt F) Unit ℕ (UR sig nD τ) ℕ cfg7 c) (hA : dat.A 30 = V c (Pipeline.arrRef spec7 30))
    (hafter : ∀ t, dat.after 30 t = iblk7 V c 30 t) (t : Fin cfg7.N) (d) : dat.before 30 t d = iblk7 V c 30 t :=
  (dat.before_in_eq_fetched 30 rfl (fun _ => rfl) (fun _ _ _ => rfl) (fun t => by rw [hafter]; unfold Dat.blockOf iblk7; rw [hA]; try rfl) t d).trans
    (by unfold Dat.fetched Dat.blockOf iblk7; rw [hA]; try rfl)
theorem before7_31_of {c : Dev nD} (dat : Dat τ (Elt F) Unit ℕ (UR sig nD τ) ℕ cfg7 c) (hA : dat.A 31 = V c (Pipeline.arrRef spec7 31))
    (hafter : ∀ t, dat.after 31 t = iblk7 V c 31 t) (t : Fin cfg7.N) (d) : dat.before 31 t d = iblk7 V c 31 t :=
  (dat.before_in_eq_fetched 31 rfl (fun _ => rfl) (fun _ _ _ => rfl) (fun t => by rw [hafter]; unfold Dat.blockOf iblk7; rw [hA]; try rfl) t d).trans
    (by unfold Dat.fetched Dat.blockOf iblk7; rw [hA]; try rfl)
theorem before7_32_of {c : Dev nD} (dat : Dat τ (Elt F) Unit ℕ (UR sig nD τ) ℕ cfg7 c) (hA : dat.A 32 = V c (Pipeline.arrRef spec7 32))
    (hafter : ∀ t, dat.after 32 t = iblk7 V c 32 t) (t : Fin cfg7.N) (d) : dat.before 32 t d = iblk7 V c 32 t :=
  (dat.before_in_eq_fetched 32 rfl (fun _ => rfl) (fun _ _ _ => rfl) (fun t => by rw [hafter]; unfold Dat.blockOf iblk7; rw [hA]; try rfl) t d).trans
    (by unfold Dat.fetched Dat.blockOf iblk7; rw [hA]; try rfl)
theorem before7_33_of {c : Dev nD} (dat : Dat τ (Elt F) Unit ℕ (UR sig nD τ) ℕ cfg7 c) (hA : dat.A 33 = V c (Pipeline.arrRef spec7 33))
    (hafter : ∀ t, dat.after 33 t = iblk7 V c 33 t) (t : Fin cfg7.N) (d) : dat.before 33 t d = iblk7 V c 33 t :=
  (dat.before_in_eq_fetched 33 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- A parent's whole block. -/
abbrev r7_p : Rect S512x128 := Rect.unit (s := S512x128) ![0, 0] S512x128.size inb_S512x128_S512x128_0_0
/-- Slab `k` of the weight slice, -/
abbrev r7_w0 : Rect S8x128x128 := Rect.unit (s := S8x128x128) ![0, 0, 0] S1x128x128.size inb_S8x128x128_S1x128x128_0_0_0
abbrev r7_w1 : Rect S8x128x128 := Rect.unit (s := S8x128x128) ![1, 0, 0] S1x128x128.size inb_S8x128x128_S1x128x128_1_0_0
abbrev r7_w2 : Rect S8x128x128 := Rect.unit (s := S8x128x128) ![2, 0, 0] S1x128x128.size inb_S8x128x128_S1x128x128_2_0_0
abbrev r7_w3 : Rect S8x128x128 := Rect.unit (s := S8x128x128) ![3, 0, 0] S1x128x128.size inb_S8x128x128_S1x128x128_3_0_0
abbrev r7_w4 : Rect S8x128x128 := Rect.unit (s := S8x128x128) ![4, 0, 0] S1x128x128.size inb_S8x128x128_S1x128x128_4_0_0
abbrev r7_w5 : Rect S8x128x128 := Rect.unit (s := S8x128x128) ![5, 0, 0] S1x128x128.size inb_S8x128x128_S1x128x128_5_0_0
abbrev r7_w6 : Rect S8x128x128 := Rect.unit (s := S8x128x128) ![6, 0, 0] S1x128x128.size inb_S8x128x128_S1x128x128_6_0_0
abbrev r7_w7 : Rect S8x128x128 := Rect.unit (s := S8x128x128) ![7, 0, 0] S1x128x128.size inb_S8x128x128_S1x128x128_7_0_0
/-- row `k` of the bias slice, -/
abbrev r7_b0 : Rect S8x128 := Rect.unit (s := S8x128) ![0, 0] S1x128.size inb_S8x128_S1x128_0_0
abbrev r7_b1 : Rect S8x128 := Rect.unit (s := S8x128) ![1, 0] S1x128.size inb_S8x128_S1x128_1_0
abbrev r7_b2 : Rect S8x128 := Rect.unit (s := S8x128) ![2, 0] S1x128.size inb_S8x128_S1x128_2_0
abbrev r7_b3 : Rect S8x128 := Rect.unit (s := S8x128) ![3, 0] S1x128.size inb_S8x128_S1x128_3_0
abbrev r7_b4 : Rect S8x128 := Rect.unit (s := S8x128) ![4, 0] S1x128.size inb_S8x128_S1x128_4_0
abbrev r7_b5 : Rect S8x128 := Rect.unit (s := S8x128) ![5, 0] S1x128.size inb_S8x128_S1x128_5_0
abbrev r7_b6 : Rect S8x128 := Rect.unit (s := S8x128) ![6, 0] S1x128.size inb_S8x128_S1x128_6_0
abbrev r7_b7 : Rect S8x128 := Rect.unit (s := S8x128) ![7, 0] S1x128.size inb_S8x128_S1x128_7_0
/-- and slab `k` of the output block. -/
abbrev r7_o0 : Rect S8x512x128 := Rect.unit (s := S8x512x128) ![0, 0, 0] S1x512x128.size inb_S8x512x128_S1x512x128_0_0_0
abbrev r7_o1 : Rect S8x512x128 := Rect.unit (s := S8x512x128) ![1, 0, 0] S1x512x128.size inb_S8x512x128_S1x512x128_1_0_0
abbrev r7_o2 : Rect S8x512x128 := Rect.unit (s := S8x512x128) ![2, 0, 0] S1x512x128.size inb_S8x512x128_S1x512x128_2_0_0
abbrev r7_o3 : Rect S8x512x128 := Rect.unit (s := S8x512x128) ![3, 0, 0] S1x512x128.size inb_S8x512x128_S1x512x128_3_0_0
abbrev r7_o4 : Rect S8x512x128 := Rect.unit (s := S8x512x128) ![4, 0, 0] S1x512x128.size inb_S8x512x128_S1x512x128_4_0_0
abbrev r7_o5 : Rect S8x512x128 := Rect.unit (s := S8x512x128) ![5, 0, 0] S1x512x128.size inb_S8x512x128_S1x512x128_5_0_0
abbrev r7_o6 : Rect S8x512x128 := Rect.unit (s := S8x512x128) ![6, 0, 0] S1x512x128.size inb_S8x512x128_S1x512x128_6_0_0
abbrev r7_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab7_0 (p : Fin 32 → Vec F S512x128 .f32) (wt : Vec F S8x128x128 .f32) (bs : Vec F S8x128 .f32) : Vec F S1x512x128 .f32 :=
  k7_pay1 (View.ld (p 0) r7_p) (View.ld (p 1) r7_p) (View.ld (p 2) r7_p) (View.ld (p 3) r7_p) (View.ld wt r7_w0) (View.ld bs r7_b0)
def slab7_1 (p : Fin 32 → Vec F S512x128 .f32) (wt : Vec F S8x128x128 .f32) (bs : Vec F S8x128 .f32) : Vec F S1x512x128 .f32 :=
  k7_pay3 (k7_pay2 (View.ld (p 4) r7_p) (View.ld (p 5) r7_p) (View.ld (p 6) r7_p)) (View.ld (p 7) r7_p) (View.ld wt r7_w1) (View.ld bs r7_b1)
def slab7_2 (p : Fin 32 → Vec F S512x128 .f32) (wt : Vec F S8x128x128 .f32) (bs : Vec F S8x128 .f32) : Vec F S1x512x128 .f32 :=
  k7_pay7 (k7_pay4 (View.ld (p 8) r7_p) (View.ld (p 9) r7_p) (View.ld (p 10) r7_p) (View.ld (p 11) r7_p)) (k7_pay5 (View.ld wt r7_w2)) (k7_pay6 (View.ld bs r7_b2))
def slab7_3 (p : Fin 32 → Vec F S512x128 .f32) (wt : Vec F S8x128x128 .f32) (bs : Vec F S8x128 .f32) : Vec F S1x512x128 .f32 :=
  k7_pay8 (View.ld (p 12) r7_p) (View.ld (p 13) r7_p) (View.ld (p 14) r7_p) (View.ld (p 15) r7_p) (View.ld wt r7_w3) (View.ld bs r7_b3)
def slab7_4 (p : Fin 32 → Vec F S512x128 .f32) (wt : Vec F S8x128x128 .f32) (bs : Vec F S8x128 .f32) : Vec F S1x512x128 .f32 :=
  k7_pay9 (View.ld (p 16) r7_p) (View.ld (p 17) r7_p) (View.ld (p 18) r7_p) (View.ld (p 19) r7_p) (View.ld wt r7_w4) (View.ld bs r7_b4)
def slab7_5 (p : Fin 32 → Vec F S512x128 .f32) (wt : Vec F S8x128x128 .f32) (bs : Vec F S8x128 .f32) : Vec F S1x512x128 .f32 :=
  k7_pay11 (k7_pay10 (View.ld (p 20) r7_p) (View.ld (p 21) r7_p) (View.ld (p 22) r7_p)) (View.ld (p 23) r7_p) (View.ld wt r7_w5) (View.ld bs r7_b5)
def slab7_6 (p : Fin 32 → Vec F S512x128 .f32) (wt : Vec F S8x128x128 .f32) (bs : Vec F S8x128 .f32) : Vec F S1x512x128 .f32 :=
  k7_pay15 (k7_pay12 (View.ld (p 24) r7_p) (View.ld (p 25) r7_p) (View.ld (p 26) r7_p) (View.ld (p 27) r7_p)) (k7_pay13 (View.ld wt r7_w6)) (k7_pay14 (View.ld bs r7_b6))
def slab7_7 (p : Fin 32 → Vec F S512x128 .f32) (wt : Vec F S8x128x128 .f32) (bs : Vec F S8x128 .f32) : Vec F S1x512x128 .f32 :=
  k7_pay16 (View.ld (p 28) r7_p) (View.ld (p 29) r7_p) (View.ld (p 30) r7_p) (View.ld (p 31) r7_p) (View.ld wt r7_w7) (View.ld bs r7_b7)

/-- Window 34's staging buffer after the body, from the input windows' blocks: its 8 stores as pieces, LAST FIRST. -/
def out7_34 (p : Fin 32 → Vec F S512x128 .f32) (wt : Vec F S8x128x128 .f32) (bs : Vec F S8x128 .f32) : Vec F S8x512x128 .f32 :=
  View.canon [⟨r7_o7, slab7_7 p wt bs⟩, ⟨r7_o6, slab7_6 p wt bs⟩, ⟨r7_o5, slab7_5 p wt bs⟩, ⟨r7_o4, slab7_4 p wt bs⟩, ⟨r7_o3, slab7_3 p wt bs⟩, ⟨r7_o2, slab7_2 p wt bs⟩, ⟨r7_o1, slab7_1 p wt bs⟩, ⟨r7_o0, slab7_0 p wt bs⟩]

/-- The eight stores tile the buffer (checked by evaluation), so they cover it. -/
theorem cover7_34 (p0 p1 p2 p3 p4 p5 p6 p7 : Vec F S1x512x128 .f32) (y : S8x512x128.Idx) :
    ∃ pc ∈ ([⟨r7_o7, p7⟩, ⟨r7_o6, p6⟩, ⟨r7_o5, p5⟩, ⟨r7_o4, p4⟩, ⟨r7_o3, p3⟩, ⟨r7_o2, p2⟩, ⟨r7_o1, p1⟩, ⟨r7_o0, p0⟩] : List (View.Piece (Elt F) S8x512x128 .f32)), y ∈ pc.1.set :=
  View.cover_of_tiled [⟨r7_o7, p7⟩, ⟨r7_o6, p6⟩, ⟨r7_o5, p5⟩, ⟨r7_o4, p4⟩, ⟨r7_o3, p3⟩, ⟨r7_o2, p2⟩, ⟨r7_o1, p1⟩, ⟨r7_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out7_34` of the inputs': the printed
    functions are their skeletons, run through every part call; each slab's load of the output buffer before its store
    reads contents nothing uses. -/
theorem sound_kernel7 (c : Dev nD) (E : Set ℕ) (i : grid7.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out7_34 p wt bs)) -∗ K ⟨⟩))
      ⊢ wp frame (wpE (defs₀ (F := F)) Variants.none c none) E (cc7__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out7_34 slab7_0 slab7_1 slab7_2 slab7_3 slab7_4 slab7_5 slab7_6 slab7_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc7__group_kernel_eq_skeleton]; unfold cc7__group_kernel_skel
  simp only [k7_part1_eq_skeleton, k7_part2_eq_skeleton, k7_part3_eq_skeleton, k7_part4_eq_skeleton, k7_part5_eq_skeleton, k7_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover7_34 _ _ _ _ _ _ _ _)

/-! ## The pipeline's proof data -/

/-- The 32 parent blocks at point `t`, as one family: parent `j` of slab `k` is window `4k+j`. -/
def par7 (c : Dev nD) (t : Fin cfg7.N) : Fin 32 → Vec F S512x128 .f32 := fun j => match j with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => iblk7 V c 19 t
    | ⟨20, _⟩ => iblk7 V c 20 t
    | ⟨21, _⟩ => iblk7 V c 21 t
    | ⟨22, _⟩ => iblk7 V c 22 t
    | ⟨23, _⟩ => iblk7 V c 23 t
    | ⟨24, _⟩ => iblk7 V c 24 t
    | ⟨25, _⟩ => iblk7 V c 25 t
    | ⟨26, _⟩ => iblk7 V c 26 t
    | ⟨27, _⟩ => iblk7 V c 27 t
    | ⟨28, _⟩ => iblk7 V c 28 t
    | ⟨29, _⟩ => iblk7 V c 29 t
    | ⟨30, _⟩ => iblk7 V c 30 t
    | ⟨31, _⟩ => iblk7 V c 31 t
    | ⟨_ + 32, h⟩ => absurd h (Nat.not_lt.2 (Nat.le_add_left _ _))

/-- The family at a literal index (the `match` reduced by `dsimp`). -/
theorem par7_0 (c : Dev nD) (t : Fin cfg7.N) : par7 V c t 0 = iblk7 V c 0 t := by dsimp only [par7]
theorem par7_1 (c : Dev nD) (t : Fin cfg7.N) : par7 V c t 1 = iblk7 V c 1 t := by dsimp only [par7]
theorem par7_2 (c : Dev nD) (t : Fin cfg7.N) : par7 V c t 2 = iblk7 V c 2 t := by dsimp only [par7]
theorem par7_3 (c : Dev nD) (t : Fin cfg7.N) : par7 V c t 3 = iblk7 V c 3 t := by dsimp only [par7]
theorem par7_4 (c : Dev nD) (t : Fin cfg7.N) : par7 V c t 4 = iblk7 V c 4 t := by dsimp only [par7]
theorem par7_5 (c : Dev nD) (t : Fin cfg7.N) : par7 V c t 5 = iblk7 V c 5 t := by dsimp only [par7]
theorem par7_6 (c : Dev nD) (t : Fin cfg7.N) : par7 V c t 6 = iblk7 V c 6 t := by dsimp only [par7]
theorem par7_7 (c : Dev nD) (t : Fin cfg7.N) : par7 V c t 7 = iblk7 V c 7 t := by dsimp only [par7]
theorem par7_8 (c : Dev nD) (t : Fin cfg7.N) : par7 V c t 8 = iblk7 V c 8 t := by dsimp only [par7]
theorem par7_9 (c : Dev nD) (t : Fin cfg7.N) : par7 V c t 9 = iblk7 V c 9 t := by dsimp only [par7]
theorem par7_10 (c : Dev nD) (t : Fin cfg7.N) : par7 V c t 10 = iblk7 V c 10 t := by dsimp only [par7]
theorem par7_11 (c : Dev nD) (t : Fin cfg7.N) : par7 V c t 11 = iblk7 V c 11 t := by dsimp only [par7]
theorem par7_12 (c : Dev nD) (t : Fin cfg7.N) : par7 V c t 12 = iblk7 V c 12 t := by dsimp only [par7]
theorem par7_13 (c : Dev nD) (t : Fin cfg7.N) : par7 V c t 13 = iblk7 V c 13 t := by dsimp only [par7]
theorem par7_14 (c : Dev nD) (t : Fin cfg7.N) : par7 V c t 14 = iblk7 V c 14 t := by dsimp only [par7]
theorem par7_15 (c : Dev nD) (t : Fin cfg7.N) : par7 V c t 15 = iblk7 V c 15 t := by dsimp only [par7]
theorem par7_16 (c : Dev nD) (t : Fin cfg7.N) : par7 V c t 16 = iblk7 V c 16 t := by dsimp only [par7]
theorem par7_17 (c : Dev nD) (t : Fin cfg7.N) : par7 V c t 17 = iblk7 V c 17 t := by dsimp only [par7]
theorem par7_18 (c : Dev nD) (t : Fin cfg7.N) : par7 V c t 18 = iblk7 V c 18 t := by dsimp only [par7]
theorem par7_19 (c : Dev nD) (t : Fin cfg7.N) : par7 V c t 19 = iblk7 V c 19 t := by dsimp only [par7]
theorem par7_20 (c : Dev nD) (t : Fin cfg7.N) : par7 V c t 20 = iblk7 V c 20 t := by dsimp only [par7]
theorem par7_21 (c : Dev nD) (t : Fin cfg7.N) : par7 V c t 21 = iblk7 V c 21 t := by dsimp only [par7]
theorem par7_22 (c : Dev nD) (t : Fin cfg7.N) : par7 V c t 22 = iblk7 V c 22 t := by dsimp only [par7]
theorem par7_23 (c : Dev nD) (t : Fin cfg7.N) : par7 V c t 23 = iblk7 V c 23 t := by dsimp only [par7]
theorem par7_24 (c : Dev nD) (t : Fin cfg7.N) : par7 V c t 24 = iblk7 V c 24 t := by dsimp only [par7]
theorem par7_25 (c : Dev nD) (t : Fin cfg7.N) : par7 V c t 25 = iblk7 V c 25 t := by dsimp only [par7]
theorem par7_26 (c : Dev nD) (t : Fin cfg7.N) : par7 V c t 26 = iblk7 V c 26 t := by dsimp only [par7]
theorem par7_27 (c : Dev nD) (t : Fin cfg7.N) : par7 V c t 27 = iblk7 V c 27 t := by dsimp only [par7]
theorem par7_28 (c : Dev nD) (t : Fin cfg7.N) : par7 V c t 28 = iblk7 V c 28 t := by dsimp only [par7]
theorem par7_29 (c : Dev nD) (t : Fin cfg7.N) : par7 V c t 29 = iblk7 V c 29 t := by dsimp only [par7]
theorem par7_30 (c : Dev nD) (t : Fin cfg7.N) : par7 V c t 30 = iblk7 V c 30 t := by dsimp only [par7]
theorem par7_31 (c : Dev nD) (t : Fin cfg7.N) : par7 V c t 31 = iblk7 V c 31 t := by dsimp only [par7]

/-- The proof data of pipeline 7 on core `c`: the arrays as the region finds them (`V`); after the body at point `t`
    each input's buffer at its block and the output's at `out7_34` of the input blocks; the invariant the scoped rest
    and the generator register, untouched; nothing owed; of each windowed array the share its window holds when
    several windows read one array. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => iblk7 V c 19 t
    | ⟨20, _⟩ => iblk7 V c 20 t
    | ⟨21, _⟩ => iblk7 V c 21 t
    | ⟨22, _⟩ => iblk7 V c 22 t
    | ⟨23, _⟩ => iblk7 V c 23 t
    | ⟨24, _⟩ => iblk7 V c 24 t
    | ⟨25, _⟩ => iblk7 V c 25 t
    | ⟨26, _⟩ => iblk7 V c 26 t
    | ⟨27, _⟩ => iblk7 V c 27 t
    | ⟨28, _⟩ => iblk7 V c 28 t
    | ⟨29, _⟩ => iblk7 V c 29 t
    | ⟨30, _⟩ => iblk7 V c 30 t
    | ⟨31, _⟩ => iblk7 V c 31 t
    | ⟨32, _⟩ => iblk7 V c 32 t
    | ⟨33, _⟩ => iblk7 V c 33 t
    | ⟨34, _⟩ => out7_34 (par7 V c t) (iblk7 V c 32 t) (iblk7 V c 33 t)
    | ⟨_ + 35, h⟩ => absurd h (Nat.not_lt.2 (Nat.le_add_left _ _))
  Φ _ := Pipeline.ΦA spec7 c
  q w := Cert.Lib.SharedArrays.shareOf (Pipeline.arrRef spec7) w
  owed _ := 0

/-- The proof data's arrays are the region-entry contents. -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t = iblk7 V c 15 t := by dsimp only [dat7]
theorem after7_16 (c : Dev nD) (t : Fin cfg7.N) : (dat7 V c).after 16 t = iblk7 V c 16 t := by dsimp only [dat7]
theorem after7_17 (c : Dev nD) (t : Fin cfg7.N) : (dat7 V c).after 17 t = iblk7 V c 17 t := by dsimp only [dat7]
theorem after7_18 (c : Dev nD) (t : Fin cfg7.N) : (dat7 V c).after 18 t = iblk7 V c 18 t := by dsimp only [dat7]
theorem after7_19 (c : Dev nD) (t : Fin cfg7.N) : (dat7 V c).after 19 t = iblk7 V c 19 t := by dsimp only [dat7]
theorem after7_20 (c : Dev nD) (t : Fin cfg7.N) : (dat7 V c).after 20 t = iblk7 V c 20 t := by dsimp only [dat7]
theorem after7_21 (c : Dev nD) (t : Fin cfg7.N) : (dat7 V c).after 21 t = iblk7 V c 21 t := by dsimp only [dat7]
theorem after7_22 (c : Dev nD) (t : Fin cfg7.N) : (dat7 V c).after 22 t = iblk7 V c 22 t := by dsimp only [dat7]
theorem after7_23 (c : Dev nD) (t : Fin cfg7.N) : (dat7 V c).after 23 t = iblk7 V c 23 t := by dsimp only [dat7]
theorem after7_24 (c : Dev nD) (t : Fin cfg7.N) : (dat7 V c).after 24 t = iblk7 V c 24 t := by dsimp only [dat7]
theorem after7_25 (c : Dev nD) (t : Fin cfg7.N) : (dat7 V c).after 25 t = iblk7 V c 25 t := by dsimp only [dat7]
theorem after7_26 (c : Dev nD) (t : Fin cfg7.N) : (dat7 V c).after 26 t = iblk7 V c 26 t := by dsimp only [dat7]
theorem after7_27 (c : Dev nD) (t : Fin cfg7.N) : (dat7 V c).after 27 t = iblk7 V c 27 t := by dsimp only [dat7]
theorem after7_28 (c : Dev nD) (t : Fin cfg7.N) : (dat7 V c).after 28 t = iblk7 V c 28 t := by dsimp only [dat7]
theorem after7_29 (c : Dev nD) (t : Fin cfg7.N) : (dat7 V c).after 29 t = iblk7 V c 29 t := by dsimp only [dat7]
theorem after7_30 (c : Dev nD) (t : Fin cfg7.N) : (dat7 V c).after 30 t = iblk7 V c 30 t := by dsimp only [dat7]
theorem after7_31 (c : Dev nD) (t : Fin cfg7.N) : (dat7 V c).after 31 t = iblk7 V c 31 t := by dsimp only [dat7]
theorem after7_32 (c : Dev nD) (t : Fin cfg7.N) : (dat7 V c).after 32 t = iblk7 V c 32 t := by dsimp only [dat7]
theorem after7_33 (c : Dev nD) (t : Fin cfg7.N) : (dat7 V c).after 33 t = iblk7 V c 33 t := by dsimp only [dat7]
theorem after7_34 (c : Dev nD) (t : Fin cfg7.N) :
    (dat7 V c).after 34 t = out7_34 (par7 V c t) (iblk7 V c 32 t) (iblk7 V c 33 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d
theorem before7_15 (c : Dev nD) (t : Fin cfg7.N) (d) : (dat7 V c).before 15 t d = iblk7 V c 15 t :=
  before7_15_of V (dat7 V c) (A_eq7 V c 15) (after7_15 V c) t d
theorem before7_16 (c : Dev nD) (t : Fin cfg7.N) (d) : (dat7 V c).before 16 t d = iblk7 V c 16 t :=
  before7_16_of V (dat7 V c) (A_eq7 V c 16) (after7_16 V c) t d
theorem before7_17 (c : Dev nD) (t : Fin cfg7.N) (d) : (dat7 V c).before 17 t d = iblk7 V c 17 t :=
  before7_17_of V (dat7 V c) (A_eq7 V c 17) (after7_17 V c) t d
theorem before7_18 (c : Dev nD) (t : Fin cfg7.N) (d) : (dat7 V c).before 18 t d = iblk7 V c 18 t :=
  before7_18_of V (dat7 V c) (A_eq7 V c 18) (after7_18 V c) t d
theorem before7_19 (c : Dev nD) (t : Fin cfg7.N) (d) : (dat7 V c).before 19 t d = iblk7 V c 19 t :=
  before7_19_of V (dat7 V c) (A_eq7 V c 19) (after7_19 V c) t d
theorem before7_20 (c : Dev nD) (t : Fin cfg7.N) (d) : (dat7 V c).before 20 t d = iblk7 V c 20 t :=
  before7_20_of V (dat7 V c) (A_eq7 V c 20) (after7_20 V c) t d
theorem before7_21 (c : Dev nD) (t : Fin cfg7.N) (d) : (dat7 V c).before 21 t d = iblk7 V c 21 t :=
  before7_21_of V (dat7 V c) (A_eq7 V c 21) (after7_21 V c) t d
theorem before7_22 (c : Dev nD) (t : Fin cfg7.N) (d) : (dat7 V c).before 22 t d = iblk7 V c 22 t :=
  before7_22_of V (dat7 V c) (A_eq7 V c 22) (after7_22 V c) t d
theorem before7_23 (c : Dev nD) (t : Fin cfg7.N) (d) : (dat7 V c).before 23 t d = iblk7 V c 23 t :=
  before7_23_of V (dat7 V c) (A_eq7 V c 23) (after7_23 V c) t d
theorem before7_24 (c : Dev nD) (t : Fin cfg7.N) (d) : (dat7 V c).before 24 t d = iblk7 V c 24 t :=
  before7_24_of V (dat7 V c) (A_eq7 V c 24) (after7_24 V c) t d
theorem before7_25 (c : Dev nD) (t : Fin cfg7.N) (d) : (dat7 V c).before 25 t d = iblk7 V c 25 t :=
  before7_25_of V (dat7 V c) (A_eq7 V c 25) (after7_25 V c) t d
theorem before7_26 (c : Dev nD) (t : Fin cfg7.N) (d) : (dat7 V c).before 26 t d = iblk7 V c 26 t :=
  before7_26_of V (dat7 V c) (A_eq7 V c 26) (after7_26 V c) t d
theorem before7_27 (c : Dev nD) (t : Fin cfg7.N) (d) : (dat7 V c).before 27 t d = iblk7 V c 27 t :=
  before7_27_of V (dat7 V c) (A_eq7 V c 27) (after7_27 V c) t d
theorem before7_28 (c : Dev nD) (t : Fin cfg7.N) (d) : (dat7 V c).before 28 t d = iblk7 V c 28 t :=
  before7_28_of V (dat7 V c) (A_eq7 V c 28) (after7_28 V c) t d
theorem before7_29 (c : Dev nD) (t : Fin cfg7.N) (d) : (dat7 V c).before 29 t d = iblk7 V c 29 t :=
  before7_29_of V (dat7 V c) (A_eq7 V c 29) (after7_29 V c) t d
theorem before7_30 (c : Dev nD) (t : Fin cfg7.N) (d) : (dat7 V c).before 30 t d = iblk7 V c 30 t :=
  before7_30_of V (dat7 V c) (A_eq7 V c 30) (after7_30 V c) t d
theorem before7_31 (c : Dev nD) (t : Fin cfg7.N) (d) : (dat7 V c).before 31 t d = iblk7 V c 31 t :=
  before7_31_of V (dat7 V c) (A_eq7 V c 31) (after7_31 V c) t d
theorem before7_32 (c : Dev nD) (t : Fin cfg7.N) (d) : (dat7 V c).before 32 t d = iblk7 V c 32 t :=
  before7_32_of V (dat7 V c) (A_eq7 V c 32) (after7_32 V c) t d
theorem before7_33 (c : Dev nD) (t : Fin cfg7.N) (d) : (dat7 V c).before 33 t d = iblk7 V c 33 t :=
  before7_33_of V (dat7 V c) (A_eq7 V c 33) (after7_33 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d))
    ∗ (∃ d, owns (c : Thread nD τ) (st7_16 t) fullShare ((dat7 V c).before 16 t d))
    ∗ (∃ d, owns (c : Thread nD τ) (st7_17 t) fullShare ((dat7 V c).before 17 t d))
    ∗ (∃ d, owns (c : Thread nD τ) (st7_18 t) fullShare ((dat7 V c).before 18 t d))
    ∗ (∃ d, owns (c : Thread nD τ) (st7_19 t) fullShare ((dat7 V c).before 19 t d))
    ∗ (∃ d, owns (c : Thread nD τ) (st7_20 t) fullShare ((dat7 V c).before 20 t d))
    ∗ (∃ d, owns (c : Thread nD τ) (st7_21 t) fullShare ((dat7 V c).before 21 t d))
    ∗ (∃ d, owns (c : Thread nD τ) (st7_22 t) fullShare ((dat7 V c).before 22 t d))
    ∗ (∃ d, owns (c : Thread nD τ) (st7_23 t) fullShare ((dat7 V c).before 23 t d))
    ∗ (∃ d, owns (c : Thread nD τ) (st7_24 t) fullShare ((dat7 V c).before 24 t d))
    ∗ (∃ d, owns (c : Thread nD τ) (st7_25 t) fullShare ((dat7 V c).before 25 t d))
    ∗ (∃ d, owns (c : Thread nD τ) (st7_26 t) fullShare ((dat7 V c).before 26 t d))
    ∗ (∃ d, owns (c : Thread nD τ) (st7_27 t) fullShare ((dat7 V c).before 27 t d))
    ∗ (∃ d, owns (c : Thread nD τ) (st7_28 t) fullShare ((dat7 V c).before 28 t d))
    ∗ (∃ d, owns (c : Thread nD τ) (st7_29 t) fullShare ((dat7 V c).before 29 t d))
    ∗ (∃ d, owns (c : Thread nD τ) (st7_30 t) fullShare ((dat7 V c).before 30 t d))
    ∗ (∃ d, owns (c : Thread nD τ) (st7_31 t) fullShare ((dat7 V c).before 31 t d))
    ∗ (∃ d, owns (c : Thread nD τ) (st7_32 t) fullShare ((dat7 V c).before 32 t d))
    ∗ (∃ d, owns (c : Thread nD τ) (st7_33 t) fullShare ((dat7 V c).before 33 t d))
    ∗ (∃ d, owns (c : Thread nD τ) (st7_34 t) fullShare ((dat7 V c).before 34 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t)
    ∗ owns (c : Thread nD τ) (st7_16 t) fullShare ((dat7 V c).after 16 t)
    ∗ owns (c : Thread nD τ) (st7_17 t) fullShare ((dat7 V c).after 17 t)
    ∗ owns (c : Thread nD τ) (st7_18 t) fullShare ((dat7 V c).after 18 t)
    ∗ owns (c : Thread nD τ) (st7_19 t) fullShare ((dat7 V c).after 19 t)
    ∗ owns (c : Thread nD τ) (st7_20 t) fullShare ((dat7 V c).after 20 t)
    ∗ owns (c : Thread nD τ) (st7_21 t) fullShare ((dat7 V c).after 21 t)
    ∗ owns (c : Thread nD τ) (st7_22 t) fullShare ((dat7 V c).after 22 t)
    ∗ owns (c : Thread nD τ) (st7_23 t) fullShare ((dat7 V c).after 23 t)
    ∗ owns (c : Thread nD τ) (st7_24 t) fullShare ((dat7 V c).after 24 t)
    ∗ owns (c : Thread nD τ) (st7_25 t) fullShare ((dat7 V c).after 25 t)
    ∗ owns (c : Thread nD τ) (st7_26 t) fullShare ((dat7 V c).after 26 t)
    ∗ owns (c : Thread nD τ) (st7_27 t) fullShare ((dat7 V c).after 27 t)
    ∗ owns (c : Thread nD τ) (st7_28 t) fullShare ((dat7 V c).after 28 t)
    ∗ owns (c : Thread nD τ) (st7_29 t) fullShare ((dat7 V c).after 29 t)
    ∗ owns (c : Thread nD τ) (st7_30 t) fullShare ((dat7 V c).after 30 t)
    ∗ owns (c : Thread nD τ) (st7_31 t) fullShare ((dat7 V c).after 31 t)
    ∗ owns (c : Thread nD τ) (st7_32 t) fullShare ((dat7 V c).after 32 t)
    ∗ owns (c : Thread nD τ) (st7_33 t) fullShare ((dat7 V c).after 33 t)
    ∗ owns (c : Thread nD τ) (st7_34 t) fullShare ((dat7 V c).after 34 t))

set_option maxHeartbeats 4000000 in
/-- The body at any point: the inputs' memrefs hold their blocks (`before7_W`), so `sound_kernel7` applies; the invariant
    and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10, before7_11, before7_12, before7_13, before7_14, before7_15, before7_16, before7_17, before7_18, before7_19, before7_20, before7_21, before7_22, before7_23, before7_24, before7_25, before7_26, before7_27, before7_28, before7_29, before7_30, before7_31, before7_32, before7_33]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12, after7_13, after7_14, after7_15, after7_16, after7_17, after7_18, after7_19, after7_20, after7_21, after7_22, after7_23, after7_24, after7_25, after7_26, after7_27, after7_28, after7_29, after7_30, after7_31, after7_32, after7_33, after7_34]
  have hk := fun K => sound_kernel7 (F := F) c Set.univ (grid7.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) _ (hstage7_4 ((cfg7.slots t 4).cast nbuf7_4)) _ (hstage7_5 ((cfg7.slots t 5).cast nbuf7_5)) _ (hstage7_6 ((cfg7.slots t 6).cast nbuf7_6)) _ (hstage7_7 ((cfg7.slots t 7).cast nbuf7_7)) _ (hstage7_8 ((cfg7.slots t 8).cast nbuf7_8)) _ (hstage7_9 ((cfg7.slots t 9).cast nbuf7_9)) _ (hstage7_10 ((cfg7.slots t 10).cast nbuf7_10)) _ (hstage7_11 ((cfg7.slots t 11).cast nbuf7_11)) _ (hstage7_12 ((cfg7.slots t 12).cast nbuf7_12)) _ (hstage7_13 ((cfg7.slots t 13).cast nbuf7_13)) _ (hstage7_14 ((cfg7.slots t 14).cast nbuf7_14)) _ (hstage7_15 ((cfg7.slots t 15).cast nbuf7_15)) _ (hstage7_16 ((cfg7.slots t 16).cast nbuf7_16)) _ (hstage7_17 ((cfg7.slots t 17).cast nbuf7_17)) _ (hstage7_18 ((cfg7.slots t 18).cast nbuf7_18)) _ (hstage7_19 ((cfg7.slots t 19).cast nbuf7_19)) _ (hstage7_20 ((cfg7.slots t 20).cast nbuf7_20)) _ (hstage7_21 ((cfg7.slots t 21).cast nbuf7_21)) _ (hstage7_22 ((cfg7.slots t 22).cast nbuf7_22)) _ (hstage7_23 ((cfg7.slots t 23).cast nbuf7_23)) _ (hstage7_24 ((cfg7.slots t 24).cast nbuf7_24)) _ (hstage7_25 ((cfg7.slots t 25).cast nbuf7_25)) _ (hstage7_26 ((cfg7.slots t 26).cast nbuf7_26)) _ (hstage7_27 ((cfg7.slots t 27).cast nbuf7_27)) _ (hstage7_28 ((cfg7.slots t 28).cast nbuf7_28)) _ (hstage7_29 ((cfg7.slots t 29).cast nbuf7_29)) _ (hstage7_30 ((cfg7.slots t 30).cast nbuf7_30)) _ (hstage7_31 ((cfg7.slots t 31).cast nbuf7_31)) _ (hstage7_32 ((cfg7.slots t 32).cast nbuf7_32)) _ (hstage7_33 ((cfg7.slots t 33).cast nbuf7_33)) _ (hstage7_34 ((cfg7.slots t 34).cast nbuf7_34))
    (par7 V c t) (iblk7 V c 32 t) (iblk7 V c 33 t) K
  simp only [par7_0, par7_1, par7_2, par7_3, par7_4, par7_5, par7_6, par7_7, par7_8, par7_9, par7_10, par7_11, par7_12, par7_13, par7_14, par7_15, par7_16, par7_17, par7_18, par7_19, par7_20, par7_21, par7_22, par7_23, par7_24, par7_25, par7_26, par7_27, par7_28, par7_29, par7_30, par7_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
/- Region 8 of the kernel program (pipeline 8, `cc8__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out8_34`); the body's triple; the
   pipeline's proof data (`dat8`), whose shares of the windowed arrays are those of arrays read through several
   windows; and the body obligation at every point. -/
import proofs.«135270_j33062658245245_1_alg».proof.Proof.K.LaunchP
import proofs.«135270_j33062658245245_1_alg».proof.Proof.Gen.Kernel.Skeleton
import proofs.«135270_j33062658245245_1_alg».proof.Proof.Gen.Kernel.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 8: custom_call 8, `cc8__group_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)
theorem before8_15_of {c : Dev nD} (dat : Dat τ (Elt F) Unit ℕ (UR sig nD τ) ℕ cfg8 c) (hA : dat.A 15 = V c (Pipeline.arrRef spec8 15))
    (hafter : ∀ t, dat.after 15 t = iblk8 V c 15 t) (t : Fin cfg8.N) (d) : dat.before 15 t d = iblk8 V c 15 t :=
  (dat.before_in_eq_fetched 15 rfl (fun _ => rfl) (fun _ _ _ => rfl) (fun t => by rw [hafter]; unfold Dat.blockOf iblk8; rw [hA]; try rfl) t d).trans
    (by unfold Dat.fetched Dat.blockOf iblk8; rw [hA]; try rfl)
theorem before8_16_of {c : Dev nD} (dat : Dat τ (Elt F) Unit ℕ (UR sig nD τ) ℕ cfg8 c) (hA : dat.A 16 = V c (Pipeline.arrRef spec8 16))
    (hafter : ∀ t, dat.after 16 t = iblk8 V c 16 t) (t : Fin cfg8.N) (d) : dat.before 16 t d = iblk8 V c 16 t :=
  (dat.before_in_eq_fetched 16 rfl (fun _ => rfl) (fun _ _ _ => rfl) (fun t => by rw [hafter]; unfold Dat.blockOf iblk8; rw [hA]; try rfl) t d).trans
    (by unfold Dat.fetched Dat.blockOf iblk8; rw [hA]; try rfl)
theorem before8_17_of {c : Dev nD} (dat : Dat τ (Elt F) Unit ℕ (UR sig nD τ) ℕ cfg8 c) (hA : dat.A 17 = V c (Pipeline.arrRef spec8 17))
    (hafter : ∀ t, dat.after 17 t = iblk8 V c 17 t) (t : Fin cfg8.N) (d) : dat.before 17 t d = iblk8 V c 17 t :=
  (dat.before_in_eq_fetched 17 rfl (fun _ => rfl) (fun _ _ _ => rfl) (fun t => by rw [hafter]; unfold Dat.blockOf iblk8; rw [hA]; try rfl) t d).trans
    (by unfold Dat.fetched Dat.blockOf iblk8; rw [hA]; try rfl)
theorem before8_18_of {c : Dev nD} (dat : Dat τ (Elt F) Unit ℕ (UR sig nD τ) ℕ cfg8 c) (hA : dat.A 18 = V c (Pipeline.arrRef spec8 18))
    (hafter : ∀ t, dat.after 18 t = iblk8 V c 18 t) (t : Fin cfg8.N) (d) : dat.before 18 t d = iblk8 V c 18 t :=
  (dat.before_in_eq_fetched 18 rfl (fun _ => rfl) (fun _ _ _ => rfl) (fun t => by rw [hafter]; unfold Dat.blockOf iblk8; rw [hA]; try rfl) t d).trans
    (by unfold Dat.fetched Dat.blockOf iblk8; rw [hA]; try rfl)
theorem before8_19_of {c : Dev nD} (dat : Dat τ (Elt F) Unit ℕ (UR sig nD τ) ℕ cfg8 c) (hA : dat.A 19 = V c (Pipeline.arrRef spec8 19))
    (hafter : ∀ t, dat.after 19 t = iblk8 V c 19 t) (t : Fin cfg8.N) (d) : dat.before 19 t d = iblk8 V c 19 t :=
  (dat.before_in_eq_fetched 19 rfl (fun _ => rfl) (fun _ _ _ => rfl) (fun t => by rw [hafter]; unfold Dat.blockOf iblk8; rw [hA]; try rfl) t d).trans
    (by unfold Dat.fetched Dat.blockOf iblk8; rw [hA]; try rfl)
theorem before8_20_of {c : Dev nD} (dat : Dat τ (Elt F) Unit ℕ (UR sig nD τ) ℕ cfg8 c) (hA : dat.A 20 = V c (Pipeline.arrRef spec8 20))
    (hafter : ∀ t, dat.after 20 t = iblk8 V c 20 t) (t : Fin cfg8.N) (d) : dat.before 20 t d = iblk8 V c 20 t :=
  (dat.before_in_eq_fetched 20 rfl (fun _ => rfl) (fun _ _ _ => rfl) (fun t => by rw [hafter]; unfold Dat.blockOf iblk8; rw [hA]; try rfl) t d).trans
    (by unfold Dat.fetched Dat.blockOf iblk8; rw [hA]; try rfl)
theorem before8_21_of {c : Dev nD} (dat : Dat τ (Elt F) Unit ℕ (UR sig nD τ) ℕ cfg8 c) (hA : dat.A 21 = V c (Pipeline.arrRef spec8 21))
    (hafter : ∀ t, dat.after 21 t = iblk8 V c 21 t) (t : Fin cfg8.N) (d) : dat.before 21 t d = iblk8 V c 21 t :=
  (dat.before_in_eq_fetched 21 rfl (fun _ => rfl) (fun _ _ _ => rfl) (fun t => by rw [hafter]; unfold Dat.blockOf iblk8; rw [hA]; try rfl) t d).trans
    (by unfold Dat.fetched Dat.blockOf iblk8; rw [hA]; try rfl)
theorem before8_22_of {c : Dev nD} (dat : Dat τ (Elt F) Unit ℕ (UR sig nD τ) ℕ cfg8 c) (hA : dat.A 22 = V c (Pipeline.arrRef spec8 22))
    (hafter : ∀ t, dat.after 22 t = iblk8 V c 22 t) (t : Fin cfg8.N) (d) : dat.before 22 t d = iblk8 V c 22 t :=
  (dat.before_in_eq_fetched 22 rfl (fun _ => rfl) (fun _ _ _ => rfl) (fun t => by rw [hafter]; unfold Dat.blockOf iblk8; rw [hA]; try rfl) t d).trans
    (by unfold Dat.fetched Dat.blockOf iblk8; rw [hA]; try rfl)
theorem before8_23_of {c : Dev nD} (dat : Dat τ (Elt F) Unit ℕ (UR sig nD τ) ℕ cfg8 c) (hA : dat.A 23 = V c (Pipeline.arrRef spec8 23))
    (hafter : ∀ t, dat.after 23 t = iblk8 V c 23 t) (t : Fin cfg8.N) (d) : dat.before 23 t d = iblk8 V c 23 t :=
  (dat.before_in_eq_fetched 23 rfl (fun _ => rfl) (fun _ _ _ => rfl) (fun t => by rw [hafter]; unfold Dat.blockOf iblk8; rw [hA]; try rfl) t d).trans
    (by unfold Dat.fetched Dat.blockOf iblk8; rw [hA]; try rfl)
theorem before8_24_of {c : Dev nD} (dat : Dat τ (Elt F) Unit ℕ (UR sig nD τ) ℕ cfg8 c) (hA : dat.A 24 = V c (Pipeline.arrRef spec8 24))
    (hafter : ∀ t, dat.after 24 t = iblk8 V c 24 t) (t : Fin cfg8.N) (d) : dat.before 24 t d = iblk8 V c 24 t :=
  (dat.before_in_eq_fetched 24 rfl (fun _ => rfl) (fun _ _ _ => rfl) (fun t => by rw [hafter]; unfold Dat.blockOf iblk8; rw [hA]; try rfl) t d).trans
    (by unfold Dat.fetched Dat.blockOf iblk8; rw [hA]; try rfl)
theorem before8_25_of {c : Dev nD} (dat : Dat τ (Elt F) Unit ℕ (UR sig nD τ) ℕ cfg8 c) (hA : dat.A 25 = V c (Pipeline.arrRef spec8 25))
    (hafter : ∀ t, dat.after 25 t = iblk8 V c 25 t) (t : Fin cfg8.N) (d) : dat.before 25 t d = iblk8 V c 25 t :=
  (dat.before_in_eq_fetched 25 rfl (fun _ => rfl) (fun _ _ _ => rfl) (fun t => by rw [hafter]; unfold Dat.blockOf iblk8; rw [hA]; try rfl) t d).trans
    (by unfold Dat.fetched Dat.blockOf iblk8; rw [hA]; try rfl)
theorem before8_26_of {c : Dev nD} (dat : Dat τ (Elt F) Unit ℕ (UR sig nD τ) ℕ cfg8 c) (hA : dat.A 26 = V c (Pipeline.arrRef spec8 26))
    (hafter : ∀ t, dat.after 26 t = iblk8 V c 26 t) (t : Fin cfg8.N) (d) : dat.before 26 t d = iblk8 V c 26 t :=
  (dat.before_in_eq_fetched 26 rfl (fun _ => rfl) (fun _ _ _ => rfl) (fun t => by rw [hafter]; unfold Dat.blockOf iblk8; rw [hA]; try rfl) t d).trans
    (by unfold Dat.fetched Dat.blockOf iblk8; rw [hA]; try rfl)
theorem before8_27_of {c : Dev nD} (dat : Dat τ (Elt F) Unit ℕ (UR sig nD τ) ℕ cfg8 c) (hA : dat.A 27 = V c (Pipeline.arrRef spec8 27))
    (hafter : ∀ t, dat.after 27 t = iblk8 V c 27 t) (t : Fin cfg8.N) (d) : dat.before 27 t d = iblk8 V c 27 t :=
  (dat.before_in_eq_fetched 27 rfl (fun _ => rfl) (fun _ _ _ => rfl) (fun t => by rw [hafter]; unfold Dat.blockOf iblk8; rw [hA]; try rfl) t d).trans
    (by unfold Dat.fetched Dat.blockOf iblk8; rw [hA]; try rfl)
theorem before8_28_of {c : Dev nD} (dat : Dat τ (Elt F) Unit ℕ (UR sig nD τ) ℕ cfg8 c) (hA : dat.A 28 = V c (Pipeline.arrRef spec8 28))
    (hafter : ∀ t, dat.after 28 t = iblk8 V c 28 t) (t : Fin cfg8.N) (d) : dat.before 28 t d = iblk8 V c 28 t :=
  (dat.before_in_eq_fetched 28 rfl (fun _ => rfl) (fun _ _ _ => rfl) (fun t => by rw [hafter]; unfold Dat.blockOf iblk8; rw [hA]; try rfl) t d).trans
    (by unfold Dat.fetched Dat.blockOf iblk8; rw [hA]; try rfl)
theorem before8_29_of {c : Dev nD} (dat : Dat τ (Elt F) Unit ℕ (UR sig nD τ) ℕ cfg8 c) (hA : dat.A 29 = V c (Pipeline.arrRef spec8 29))
    (hafter : ∀ t, dat.after 29 t = iblk8 V c 29 t) (t : Fin cfg8.N) (d) : dat.before 29 t d = iblk8 V c 29 t :=
  (dat.before_in_eq_fetched 29 rfl (fun _ => rfl) (fun _ _ _ => rfl) (fun t => by rw [hafter]; unfold Dat.blockOf iblk8; rw [hA]; try rfl) t d).trans
    (by unfold Dat.fetched Dat.blockOf iblk8; rw [hA]; try rfl)
theorem before8_30_of {c : Dev nD} (dat : Dat τ (Elt F) Unit ℕ (UR sig nD τ) ℕ cfg8 c) (hA : dat.A 30 = V c (Pipeline.arrRef spec8 30))
    (hafter : ∀ t, dat.after 30 t = iblk8 V c 30 t) (t : Fin cfg8.N) (d) : dat.before 30 t d = iblk8 V c 30 t :=
  (dat.before_in_eq_fetched 30 rfl (fun _ => rfl) (fun _ _ _ => rfl) (fun t => by rw [hafter]; unfold Dat.blockOf iblk8; rw [hA]; try rfl) t d).trans
    (by unfold Dat.fetched Dat.blockOf iblk8; rw [hA]; try rfl)
theorem before8_31_of {c : Dev nD} (dat : Dat τ (Elt F) Unit ℕ (UR sig nD τ) ℕ cfg8 c) (hA : dat.A 31 = V c (Pipeline.arrRef spec8 31))
    (hafter : ∀ t, dat.after 31 t = iblk8 V c 31 t) (t : Fin cfg8.N) (d) : dat.before 31 t d = iblk8 V c 31 t :=
  (dat.before_in_eq_fetched 31 rfl (fun _ => rfl) (fun _ _ _ => rfl) (fun t => by rw [hafter]; unfold Dat.blockOf iblk8; rw [hA]; try rfl) t d).trans
    (by unfold Dat.fetched Dat.blockOf iblk8; rw [hA]; try rfl)
theorem before8_32_of {c : Dev nD} (dat : Dat τ (Elt F) Unit ℕ (UR sig nD τ) ℕ cfg8 c) (hA : dat.A 32 = V c (Pipeline.arrRef spec8 32))
    (hafter : ∀ t, dat.after 32 t = iblk8 V c 32 t) (t : Fin cfg8.N) (d) : dat.before 32 t d = iblk8 V c 32 t :=
  (dat.before_in_eq_fetched 32 rfl (fun _ => rfl) (fun _ _ _ => rfl) (fun t => by rw [hafter]; unfold Dat.blockOf iblk8; rw [hA]; try rfl) t d).trans
    (by unfold Dat.fetched Dat.blockOf iblk8; rw [hA]; try rfl)
theorem before8_33_of {c : Dev nD} (dat : Dat τ (Elt F) Unit ℕ (UR sig nD τ) ℕ cfg8 c) (hA : dat.A 33 = V c (Pipeline.arrRef spec8 33))
    (hafter : ∀ t, dat.after 33 t = iblk8 V c 33 t) (t : Fin cfg8.N) (d) : dat.before 33 t d = iblk8 V c 33 t :=
  (dat.before_in_eq_fetched 33 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- A parent's whole block. -/
abbrev r8_p : Rect S512x128 := Rect.unit (s := S512x128) ![0, 0] S512x128.size inb_S512x128_S512x128_0_0
/-- Slab `k` of the weight slice, -/
abbrev r8_w0 : Rect S8x128x128 := Rect.unit (s := S8x128x128) ![0, 0, 0] S1x128x128.size inb_S8x128x128_S1x128x128_0_0_0
abbrev r8_w1 : Rect S8x128x128 := Rect.unit (s := S8x128x128) ![1, 0, 0] S1x128x128.size inb_S8x128x128_S1x128x128_1_0_0
abbrev r8_w2 : Rect S8x128x128 := Rect.unit (s := S8x128x128) ![2, 0, 0] S1x128x128.size inb_S8x128x128_S1x128x128_2_0_0
abbrev r8_w3 : Rect S8x128x128 := Rect.unit (s := S8x128x128) ![3, 0, 0] S1x128x128.size inb_S8x128x128_S1x128x128_3_0_0
abbrev r8_w4 : Rect S8x128x128 := Rect.unit (s := S8x128x128) ![4, 0, 0] S1x128x128.size inb_S8x128x128_S1x128x128_4_0_0
abbrev r8_w5 : Rect S8x128x128 := Rect.unit (s := S8x128x128) ![5, 0, 0] S1x128x128.size inb_S8x128x128_S1x128x128_5_0_0
abbrev r8_w6 : Rect S8x128x128 := Rect.unit (s := S8x128x128) ![6, 0, 0] S1x128x128.size inb_S8x128x128_S1x128x128_6_0_0
abbrev r8_w7 : Rect S8x128x128 := Rect.unit (s := S8x128x128) ![7, 0, 0] S1x128x128.size inb_S8x128x128_S1x128x128_7_0_0
/-- row `k` of the bias slice, -/
abbrev r8_b0 : Rect S8x128 := Rect.unit (s := S8x128) ![0, 0] S1x128.size inb_S8x128_S1x128_0_0
abbrev r8_b1 : Rect S8x128 := Rect.unit (s := S8x128) ![1, 0] S1x128.size inb_S8x128_S1x128_1_0
abbrev r8_b2 : Rect S8x128 := Rect.unit (s := S8x128) ![2, 0] S1x128.size inb_S8x128_S1x128_2_0
abbrev r8_b3 : Rect S8x128 := Rect.unit (s := S8x128) ![3, 0] S1x128.size inb_S8x128_S1x128_3_0
abbrev r8_b4 : Rect S8x128 := Rect.unit (s := S8x128) ![4, 0] S1x128.size inb_S8x128_S1x128_4_0
abbrev r8_b5 : Rect S8x128 := Rect.unit (s := S8x128) ![5, 0] S1x128.size inb_S8x128_S1x128_5_0
abbrev r8_b6 : Rect S8x128 := Rect.unit (s := S8x128) ![6, 0] S1x128.size inb_S8x128_S1x128_6_0
abbrev r8_b7 : Rect S8x128 := Rect.unit (s := S8x128) ![7, 0] S1x128.size inb_S8x128_S1x128_7_0
/-- and slab `k` of the output block. -/
abbrev r8_o0 : Rect S8x512x128 := Rect.unit (s := S8x512x128) ![0, 0, 0] S1x512x128.size inb_S8x512x128_S1x512x128_0_0_0
abbrev r8_o1 : Rect S8x512x128 := Rect.unit (s := S8x512x128) ![1, 0, 0] S1x512x128.size inb_S8x512x128_S1x512x128_1_0_0
abbrev r8_o2 : Rect S8x512x128 := Rect.unit (s := S8x512x128) ![2, 0, 0] S1x512x128.size inb_S8x512x128_S1x512x128_2_0_0
abbrev r8_o3 : Rect S8x512x128 := Rect.unit (s := S8x512x128) ![3, 0, 0] S1x512x128.size inb_S8x512x128_S1x512x128_3_0_0
abbrev r8_o4 : Rect S8x512x128 := Rect.unit (s := S8x512x128) ![4, 0, 0] S1x512x128.size inb_S8x512x128_S1x512x128_4_0_0
abbrev r8_o5 : Rect S8x512x128 := Rect.unit (s := S8x512x128) ![5, 0, 0] S1x512x128.size inb_S8x512x128_S1x512x128_5_0_0
abbrev r8_o6 : Rect S8x512x128 := Rect.unit (s := S8x512x128) ![6, 0, 0] S1x512x128.size inb_S8x512x128_S1x512x128_6_0_0
abbrev r8_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab8_0 (p : Fin 32 → Vec F S512x128 .f32) (wt : Vec F S8x128x128 .f32) (bs : Vec F S8x128 .f32) : Vec F S1x512x128 .f32 :=
  k8_pay1 (View.ld (p 0) r8_p) (View.ld (p 1) r8_p) (View.ld (p 2) r8_p) (View.ld (p 3) r8_p) (View.ld wt r8_w0) (View.ld bs r8_b0)
def slab8_1 (p : Fin 32 → Vec F S512x128 .f32) (wt : Vec F S8x128x128 .f32) (bs : Vec F S8x128 .f32) : Vec F S1x512x128 .f32 :=
  k8_pay3 (k8_pay2 (View.ld (p 4) r8_p) (View.ld (p 5) r8_p) (View.ld (p 6) r8_p)) (View.ld (p 7) r8_p) (View.ld wt r8_w1) (View.ld bs r8_b1)
def slab8_2 (p : Fin 32 → Vec F S512x128 .f32) (wt : Vec F S8x128x128 .f32) (bs : Vec F S8x128 .f32) : Vec F S1x512x128 .f32 :=
  k8_pay7 (k8_pay4 (View.ld (p 8) r8_p) (View.ld (p 9) r8_p) (View.ld (p 10) r8_p) (View.ld (p 11) r8_p)) (k8_pay5 (View.ld wt r8_w2)) (k8_pay6 (View.ld bs r8_b2))
def slab8_3 (p : Fin 32 → Vec F S512x128 .f32) (wt : Vec F S8x128x128 .f32) (bs : Vec F S8x128 .f32) : Vec F S1x512x128 .f32 :=
  k8_pay8 (View.ld (p 12) r8_p) (View.ld (p 13) r8_p) (View.ld (p 14) r8_p) (View.ld (p 15) r8_p) (View.ld wt r8_w3) (View.ld bs r8_b3)
def slab8_4 (p : Fin 32 → Vec F S512x128 .f32) (wt : Vec F S8x128x128 .f32) (bs : Vec F S8x128 .f32) : Vec F S1x512x128 .f32 :=
  k8_pay9 (View.ld (p 16) r8_p) (View.ld (p 17) r8_p) (View.ld (p 18) r8_p) (View.ld (p 19) r8_p) (View.ld wt r8_w4) (View.ld bs r8_b4)
def slab8_5 (p : Fin 32 → Vec F S512x128 .f32) (wt : Vec F S8x128x128 .f32) (bs : Vec F S8x128 .f32) : Vec F S1x512x128 .f32 :=
  k8_pay11 (k8_pay10 (View.ld (p 20) r8_p) (View.ld (p 21) r8_p) (View.ld (p 22) r8_p)) (View.ld (p 23) r8_p) (View.ld wt r8_w5) (View.ld bs r8_b5)
def slab8_6 (p : Fin 32 → Vec F S512x128 .f32) (wt : Vec F S8x128x128 .f32) (bs : Vec F S8x128 .f32) : Vec F S1x512x128 .f32 :=
  k8_pay15 (k8_pay12 (View.ld (p 24) r8_p) (View.ld (p 25) r8_p) (View.ld (p 26) r8_p) (View.ld (p 27) r8_p)) (k8_pay13 (View.ld wt r8_w6)) (k8_pay14 (View.ld bs r8_b6))
def slab8_7 (p : Fin 32 → Vec F S512x128 .f32) (wt : Vec F S8x128x128 .f32) (bs : Vec F S8x128 .f32) : Vec F S1x512x128 .f32 :=
  k8_pay16 (View.ld (p 28) r8_p) (View.ld (p 29) r8_p) (View.ld (p 30) r8_p) (View.ld (p 31) r8_p) (View.ld wt r8_w7) (View.ld bs r8_b7)

/-- Window 34's staging buffer after the body, from the input windows' blocks: its 8 stores as pieces, LAST FIRST. -/
def out8_34 (p : Fin 32 → Vec F S512x128 .f32) (wt : Vec F S8x128x128 .f32) (bs : Vec F S8x128 .f32) : Vec F S8x512x128 .f32 :=
  View.canon [⟨r8_o7, slab8_7 p wt bs⟩, ⟨r8_o6, slab8_6 p wt bs⟩, ⟨r8_o5, slab8_5 p wt bs⟩, ⟨r8_o4, slab8_4 p wt bs⟩, ⟨r8_o3, slab8_3 p wt bs⟩, ⟨r8_o2, slab8_2 p wt bs⟩, ⟨r8_o1, slab8_1 p wt bs⟩, ⟨r8_o0, slab8_0 p wt bs⟩]

/-- The eight stores tile the buffer (checked by evaluation), so they cover it. -/
theorem cover8_34 (p0 p1 p2 p3 p4 p5 p6 p7 : Vec F S1x512x128 .f32) (y : S8x512x128.Idx) :
    ∃ pc ∈ ([⟨r8_o7, p7⟩, ⟨r8_o6, p6⟩, ⟨r8_o5, p5⟩, ⟨r8_o4, p4⟩, ⟨r8_o3, p3⟩, ⟨r8_o2, p2⟩, ⟨r8_o1, p1⟩, ⟨r8_o0, p0⟩] : List (View.Piece (Elt F) S8x512x128 .f32)), y ∈ pc.1.set :=
  View.cover_of_tiled [⟨r8_o7, p7⟩, ⟨r8_o6, p6⟩, ⟨r8_o5, p5⟩, ⟨r8_o4, p4⟩, ⟨r8_o3, p3⟩, ⟨r8_o2, p2⟩, ⟨r8_o1, p1⟩, ⟨r8_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out8_34` of the inputs': the printed
    functions are their skeletons, run through every part call; each slab's load of the output buffer before its store
    reads contents nothing uses. -/
theorem sound_kernel8 (c : Dev nD) (E : Set ℕ) (i : grid8.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out8_34 p wt bs)) -∗ K ⟨⟩))
      ⊢ wp frame (wpE (defs₀ (F := F)) Variants.none c none) E (cc8__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out8_34 slab8_0 slab8_1 slab8_2 slab8_3 slab8_4 slab8_5 slab8_6 slab8_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc8__group_kernel_eq_skeleton]; unfold cc8__group_kernel_skel
  simp only [k8_part1_eq_skeleton, k8_part2_eq_skeleton, k8_part3_eq_skeleton, k8_part4_eq_skeleton, k8_part5_eq_skeleton, k8_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover8_34 _ _ _ _ _ _ _ _)

/-! ## The pipeline's proof data -/

/-- The 32 parent blocks at point `t`, as one family: parent `j` of slab `k` is window `4k+j`. -/
def par8 (c : Dev nD) (t : Fin cfg8.N) : Fin 32 → Vec F S512x128 .f32 := fun j => match j with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => iblk8 V c 19 t
    | ⟨20, _⟩ => iblk8 V c 20 t
    | ⟨21, _⟩ => iblk8 V c 21 t
    | ⟨22, _⟩ => iblk8 V c 22 t
    | ⟨23, _⟩ => iblk8 V c 23 t
    | ⟨24, _⟩ => iblk8 V c 24 t
    | ⟨25, _⟩ => iblk8 V c 25 t
    | ⟨26, _⟩ => iblk8 V c 26 t
    | ⟨27, _⟩ => iblk8 V c 27 t
    | ⟨28, _⟩ => iblk8 V c 28 t
    | ⟨29, _⟩ => iblk8 V c 29 t
    | ⟨30, _⟩ => iblk8 V c 30 t
    | ⟨31, _⟩ => iblk8 V c 31 t
    | ⟨_ + 32, h⟩ => absurd h (Nat.not_lt.2 (Nat.le_add_left _ _))

/-- The family at a literal index (the `match` reduced by `dsimp`). -/
theorem par8_0 (c : Dev nD) (t : Fin cfg8.N) : par8 V c t 0 = iblk8 V c 0 t := by dsimp only [par8]
theorem par8_1 (c : Dev nD) (t : Fin cfg8.N) : par8 V c t 1 = iblk8 V c 1 t := by dsimp only [par8]
theorem par8_2 (c : Dev nD) (t : Fin cfg8.N) : par8 V c t 2 = iblk8 V c 2 t := by dsimp only [par8]
theorem par8_3 (c : Dev nD) (t : Fin cfg8.N) : par8 V c t 3 = iblk8 V c 3 t := by dsimp only [par8]
theorem par8_4 (c : Dev nD) (t : Fin cfg8.N) : par8 V c t 4 = iblk8 V c 4 t := by dsimp only [par8]
theorem par8_5 (c : Dev nD) (t : Fin cfg8.N) : par8 V c t 5 = iblk8 V c 5 t := by dsimp only [par8]
theorem par8_6 (c : Dev nD) (t : Fin cfg8.N) : par8 V c t 6 = iblk8 V c 6 t := by dsimp only [par8]
theorem par8_7 (c : Dev nD) (t : Fin cfg8.N) : par8 V c t 7 = iblk8 V c 7 t := by dsimp only [par8]
theorem par8_8 (c : Dev nD) (t : Fin cfg8.N) : par8 V c t 8 = iblk8 V c 8 t := by dsimp only [par8]
theorem par8_9 (c : Dev nD) (t : Fin cfg8.N) : par8 V c t 9 = iblk8 V c 9 t := by dsimp only [par8]
theorem par8_10 (c : Dev nD) (t : Fin cfg8.N) : par8 V c t 10 = iblk8 V c 10 t := by dsimp only [par8]
theorem par8_11 (c : Dev nD) (t : Fin cfg8.N) : par8 V c t 11 = iblk8 V c 11 t := by dsimp only [par8]
theorem par8_12 (c : Dev nD) (t : Fin cfg8.N) : par8 V c t 12 = iblk8 V c 12 t := by dsimp only [par8]
theorem par8_13 (c : Dev nD) (t : Fin cfg8.N) : par8 V c t 13 = iblk8 V c 13 t := by dsimp only [par8]
theorem par8_14 (c : Dev nD) (t : Fin cfg8.N) : par8 V c t 14 = iblk8 V c 14 t := by dsimp only [par8]
theorem par8_15 (c : Dev nD) (t : Fin cfg8.N) : par8 V c t 15 = iblk8 V c 15 t := by dsimp only [par8]
theorem par8_16 (c : Dev nD) (t : Fin cfg8.N) : par8 V c t 16 = iblk8 V c 16 t := by dsimp only [par8]
theorem par8_17 (c : Dev nD) (t : Fin cfg8.N) : par8 V c t 17 = iblk8 V c 17 t := by dsimp only [par8]
theorem par8_18 (c : Dev nD) (t : Fin cfg8.N) : par8 V c t 18 = iblk8 V c 18 t := by dsimp only [par8]
theorem par8_19 (c : Dev nD) (t : Fin cfg8.N) : par8 V c t 19 = iblk8 V c 19 t := by dsimp only [par8]
theorem par8_20 (c : Dev nD) (t : Fin cfg8.N) : par8 V c t 20 = iblk8 V c 20 t := by dsimp only [par8]
theorem par8_21 (c : Dev nD) (t : Fin cfg8.N) : par8 V c t 21 = iblk8 V c 21 t := by dsimp only [par8]
theorem par8_22 (c : Dev nD) (t : Fin cfg8.N) : par8 V c t 22 = iblk8 V c 22 t := by dsimp only [par8]
theorem par8_23 (c : Dev nD) (t : Fin cfg8.N) : par8 V c t 23 = iblk8 V c 23 t := by dsimp only [par8]
theorem par8_24 (c : Dev nD) (t : Fin cfg8.N) : par8 V c t 24 = iblk8 V c 24 t := by dsimp only [par8]
theorem par8_25 (c : Dev nD) (t : Fin cfg8.N) : par8 V c t 25 = iblk8 V c 25 t := by dsimp only [par8]
theorem par8_26 (c : Dev nD) (t : Fin cfg8.N) : par8 V c t 26 = iblk8 V c 26 t := by dsimp only [par8]
theorem par8_27 (c : Dev nD) (t : Fin cfg8.N) : par8 V c t 27 = iblk8 V c 27 t := by dsimp only [par8]
theorem par8_28 (c : Dev nD) (t : Fin cfg8.N) : par8 V c t 28 = iblk8 V c 28 t := by dsimp only [par8]
theorem par8_29 (c : Dev nD) (t : Fin cfg8.N) : par8 V c t 29 = iblk8 V c 29 t := by dsimp only [par8]
theorem par8_30 (c : Dev nD) (t : Fin cfg8.N) : par8 V c t 30 = iblk8 V c 30 t := by dsimp only [par8]
theorem par8_31 (c : Dev nD) (t : Fin cfg8.N) : par8 V c t 31 = iblk8 V c 31 t := by dsimp only [par8]

/-- The proof data of pipeline 8 on core `c`: the arrays as the region finds them (`V`); after the body at point `t`
    each input's buffer at its block and the output's at `out8_34` of the input blocks; the invariant the scoped rest
    and the generator register, untouched; nothing owed; of each windowed array the share its window holds when
    several windows read one array. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => iblk8 V c 19 t
    | ⟨20, _⟩ => iblk8 V c 20 t
    | ⟨21, _⟩ => iblk8 V c 21 t
    | ⟨22, _⟩ => iblk8 V c 22 t
    | ⟨23, _⟩ => iblk8 V c 23 t
    | ⟨24, _⟩ => iblk8 V c 24 t
    | ⟨25, _⟩ => iblk8 V c 25 t
    | ⟨26, _⟩ => iblk8 V c 26 t
    | ⟨27, _⟩ => iblk8 V c 27 t
    | ⟨28, _⟩ => iblk8 V c 28 t
    | ⟨29, _⟩ => iblk8 V c 29 t
    | ⟨30, _⟩ => iblk8 V c 30 t
    | ⟨31, _⟩ => iblk8 V c 31 t
    | ⟨32, _⟩ => iblk8 V c 32 t
    | ⟨33, _⟩ => iblk8 V c 33 t
    | ⟨34, _⟩ => out8_34 (par8 V c t) (iblk8 V c 32 t) (iblk8 V c 33 t)
    | ⟨_ + 35, h⟩ => absurd h (Nat.not_lt.2 (Nat.le_add_left _ _))
  Φ _ := Pipeline.ΦA spec8 c
  q w := Cert.Lib.SharedArrays.shareOf (Pipeline.arrRef spec8) w
  owed _ := 0

/-- The proof data's arrays are the region-entry contents. -/
theorem A_eq8 (c : Dev nD) (w : Fin cfg8.W) : (dat8 V c).A w = V c (Pipeline.arrRef spec8 w) := by
  dsimp only [dat8]

/-- What the body leaves, window by window (the proof data's `match` reduced by `dsimp`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = iblk8 V c 15 t := by dsimp only [dat8]
theorem after8_16 (c : Dev nD) (t : Fin cfg8.N) : (dat8 V c).after 16 t = iblk8 V c 16 t := by dsimp only [dat8]
theorem after8_17 (c : Dev nD) (t : Fin cfg8.N) : (dat8 V c).after 17 t = iblk8 V c 17 t := by dsimp only [dat8]
theorem after8_18 (c : Dev nD) (t : Fin cfg8.N) : (dat8 V c).after 18 t = iblk8 V c 18 t := by dsimp only [dat8]
theorem after8_19 (c : Dev nD) (t : Fin cfg8.N) : (dat8 V c).after 19 t = iblk8 V c 19 t := by dsimp only [dat8]
theorem after8_20 (c : Dev nD) (t : Fin cfg8.N) : (dat8 V c).after 20 t = iblk8 V c 20 t := by dsimp only [dat8]
theorem after8_21 (c : Dev nD) (t : Fin cfg8.N) : (dat8 V c).after 21 t = iblk8 V c 21 t := by dsimp only [dat8]
theorem after8_22 (c : Dev nD) (t : Fin cfg8.N) : (dat8 V c).after 22 t = iblk8 V c 22 t := by dsimp only [dat8]
theorem after8_23 (c : Dev nD) (t : Fin cfg8.N) : (dat8 V c).after 23 t = iblk8 V c 23 t := by dsimp only [dat8]
theorem after8_24 (c : Dev nD) (t : Fin cfg8.N) : (dat8 V c).after 24 t = iblk8 V c 24 t := by dsimp only [dat8]
theorem after8_25 (c : Dev nD) (t : Fin cfg8.N) : (dat8 V c).after 25 t = iblk8 V c 25 t := by dsimp only [dat8]
theorem after8_26 (c : Dev nD) (t : Fin cfg8.N) : (dat8 V c).after 26 t = iblk8 V c 26 t := by dsimp only [dat8]
theorem after8_27 (c : Dev nD) (t : Fin cfg8.N) : (dat8 V c).after 27 t = iblk8 V c 27 t := by dsimp only [dat8]
theorem after8_28 (c : Dev nD) (t : Fin cfg8.N) : (dat8 V c).after 28 t = iblk8 V c 28 t := by dsimp only [dat8]
theorem after8_29 (c : Dev nD) (t : Fin cfg8.N) : (dat8 V c).after 29 t = iblk8 V c 29 t := by dsimp only [dat8]
theorem after8_30 (c : Dev nD) (t : Fin cfg8.N) : (dat8 V c).after 30 t = iblk8 V c 30 t := by dsimp only [dat8]
theorem after8_31 (c : Dev nD) (t : Fin cfg8.N) : (dat8 V c).after 31 t = iblk8 V c 31 t := by dsimp only [dat8]
theorem after8_32 (c : Dev nD) (t : Fin cfg8.N) : (dat8 V c).after 32 t = iblk8 V c 32 t := by dsimp only [dat8]
theorem after8_33 (c : Dev nD) (t : Fin cfg8.N) : (dat8 V c).after 33 t = iblk8 V c 33 t := by dsimp only [dat8]
theorem after8_34 (c : Dev nD) (t : Fin cfg8.N) :
    (dat8 V c).after 34 t = out8_34 (par8 V c t) (iblk8 V c 32 t) (iblk8 V c 33 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = iblk8 V c 15 t :=
  before8_15_of V (dat8 V c) (A_eq8 V c 15) (after8_15 V c) t d
theorem before8_16 (c : Dev nD) (t : Fin cfg8.N) (d) : (dat8 V c).before 16 t d = iblk8 V c 16 t :=
  before8_16_of V (dat8 V c) (A_eq8 V c 16) (after8_16 V c) t d
theorem before8_17 (c : Dev nD) (t : Fin cfg8.N) (d) : (dat8 V c).before 17 t d = iblk8 V c 17 t :=
  before8_17_of V (dat8 V c) (A_eq8 V c 17) (after8_17 V c) t d
theorem before8_18 (c : Dev nD) (t : Fin cfg8.N) (d) : (dat8 V c).before 18 t d = iblk8 V c 18 t :=
  before8_18_of V (dat8 V c) (A_eq8 V c 18) (after8_18 V c) t d
theorem before8_19 (c : Dev nD) (t : Fin cfg8.N) (d) : (dat8 V c).before 19 t d = iblk8 V c 19 t :=
  before8_19_of V (dat8 V c) (A_eq8 V c 19) (after8_19 V c) t d
theorem before8_20 (c : Dev nD) (t : Fin cfg8.N) (d) : (dat8 V c).before 20 t d = iblk8 V c 20 t :=
  before8_20_of V (dat8 V c) (A_eq8 V c 20) (after8_20 V c) t d
theorem before8_21 (c : Dev nD) (t : Fin cfg8.N) (d) : (dat8 V c).before 21 t d = iblk8 V c 21 t :=
  before8_21_of V (dat8 V c) (A_eq8 V c 21) (after8_21 V c) t d
theorem before8_22 (c : Dev nD) (t : Fin cfg8.N) (d) : (dat8 V c).before 22 t d = iblk8 V c 22 t :=
  before8_22_of V (dat8 V c) (A_eq8 V c 22) (after8_22 V c) t d
theorem before8_23 (c : Dev nD) (t : Fin cfg8.N) (d) : (dat8 V c).before 23 t d = iblk8 V c 23 t :=
  before8_23_of V (dat8 V c) (A_eq8 V c 23) (after8_23 V c) t d
theorem before8_24 (c : Dev nD) (t : Fin cfg8.N) (d) : (dat8 V c).before 24 t d = iblk8 V c 24 t :=
  before8_24_of V (dat8 V c) (A_eq8 V c 24) (after8_24 V c) t d
theorem before8_25 (c : Dev nD) (t : Fin cfg8.N) (d) : (dat8 V c).before 25 t d = iblk8 V c 25 t :=
  before8_25_of V (dat8 V c) (A_eq8 V c 25) (after8_25 V c) t d
theorem before8_26 (c : Dev nD) (t : Fin cfg8.N) (d) : (dat8 V c).before 26 t d = iblk8 V c 26 t :=
  before8_26_of V (dat8 V c) (A_eq8 V c 26) (after8_26 V c) t d
theorem before8_27 (c : Dev nD) (t : Fin cfg8.N) (d) : (dat8 V c).before 27 t d = iblk8 V c 27 t :=
  before8_27_of V (dat8 V c) (A_eq8 V c 27) (after8_27 V c) t d
theorem before8_28 (c : Dev nD) (t : Fin cfg8.N) (d) : (dat8 V c).before 28 t d = iblk8 V c 28 t :=
  before8_28_of V (dat8 V c) (A_eq8 V c 28) (after8_28 V c) t d
theorem before8_29 (c : Dev nD) (t : Fin cfg8.N) (d) : (dat8 V c).before 29 t d = iblk8 V c 29 t :=
  before8_29_of V (dat8 V c) (A_eq8 V c 29) (after8_29 V c) t d
theorem before8_30 (c : Dev nD) (t : Fin cfg8.N) (d) : (dat8 V c).before 30 t d = iblk8 V c 30 t :=
  before8_30_of V (dat8 V c) (A_eq8 V c 30) (after8_30 V c) t d
theorem before8_31 (c : Dev nD) (t : Fin cfg8.N) (d) : (dat8 V c).before 31 t d = iblk8 V c 31 t :=
  before8_31_of V (dat8 V c) (A_eq8 V c 31) (after8_31 V c) t d
theorem before8_32 (c : Dev nD) (t : Fin cfg8.N) (d) : (dat8 V c).before 32 t d = iblk8 V c 32 t :=
  before8_32_of V (dat8 V c) (A_eq8 V c 32) (after8_32 V c) t d
theorem before8_33 (c : Dev nD) (t : Fin cfg8.N) (d) : (dat8 V c).before 33 t d = iblk8 V c 33 t :=
  before8_33_of V (dat8 V c) (A_eq8 V c 33) (after8_33 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d))
    ∗ (∃ d, owns (c : Thread nD τ) (st8_16 t) fullShare ((dat8 V c).before 16 t d))
    ∗ (∃ d, owns (c : Thread nD τ) (st8_17 t) fullShare ((dat8 V c).before 17 t d))
    ∗ (∃ d, owns (c : Thread nD τ) (st8_18 t) fullShare ((dat8 V c).before 18 t d))
    ∗ (∃ d, owns (c : Thread nD τ) (st8_19 t) fullShare ((dat8 V c).before 19 t d))
    ∗ (∃ d, owns (c : Thread nD τ) (st8_20 t) fullShare ((dat8 V c).before 20 t d))
    ∗ (∃ d, owns (c : Thread nD τ) (st8_21 t) fullShare ((dat8 V c).before 21 t d))
    ∗ (∃ d, owns (c : Thread nD τ) (st8_22 t) fullShare ((dat8 V c).before 22 t d))
    ∗ (∃ d, owns (c : Thread nD τ) (st8_23 t) fullShare ((dat8 V c).before 23 t d))
    ∗ (∃ d, owns (c : Thread nD τ) (st8_24 t) fullShare ((dat8 V c).before 24 t d))
    ∗ (∃ d, owns (c : Thread nD τ) (st8_25 t) fullShare ((dat8 V c).before 25 t d))
    ∗ (∃ d, owns (c : Thread nD τ) (st8_26 t) fullShare ((dat8 V c).before 26 t d))
    ∗ (∃ d, owns (c : Thread nD τ) (st8_27 t) fullShare ((dat8 V c).before 27 t d))
    ∗ (∃ d, owns (c : Thread nD τ) (st8_28 t) fullShare ((dat8 V c).before 28 t d))
    ∗ (∃ d, owns (c : Thread nD τ) (st8_29 t) fullShare ((dat8 V c).before 29 t d))
    ∗ (∃ d, owns (c : Thread nD τ) (st8_30 t) fullShare ((dat8 V c).before 30 t d))
    ∗ (∃ d, owns (c : Thread nD τ) (st8_31 t) fullShare ((dat8 V c).before 31 t d))
    ∗ (∃ d, owns (c : Thread nD τ) (st8_32 t) fullShare ((dat8 V c).before 32 t d))
    ∗ (∃ d, owns (c : Thread nD τ) (st8_33 t) fullShare ((dat8 V c).before 33 t d))
    ∗ (∃ d, owns (c : Thread nD τ) (st8_34 t) fullShare ((dat8 V c).before 34 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t)
    ∗ owns (c : Thread nD τ) (st8_16 t) fullShare ((dat8 V c).after 16 t)
    ∗ owns (c : Thread nD τ) (st8_17 t) fullShare ((dat8 V c).after 17 t)
    ∗ owns (c : Thread nD τ) (st8_18 t) fullShare ((dat8 V c).after 18 t)
    ∗ owns (c : Thread nD τ) (st8_19 t) fullShare ((dat8 V c).after 19 t)
    ∗ owns (c : Thread nD τ) (st8_20 t) fullShare ((dat8 V c).after 20 t)
    ∗ owns (c : Thread nD τ) (st8_21 t) fullShare ((dat8 V c).after 21 t)
    ∗ owns (c : Thread nD τ) (st8_22 t) fullShare ((dat8 V c).after 22 t)
    ∗ owns (c : Thread nD τ) (st8_23 t) fullShare ((dat8 V c).after 23 t)
    ∗ owns (c : Thread nD τ) (st8_24 t) fullShare ((dat8 V c).after 24 t)
    ∗ owns (c : Thread nD τ) (st8_25 t) fullShare ((dat8 V c).after 25 t)
    ∗ owns (c : Thread nD τ) (st8_26 t) fullShare ((dat8 V c).after 26 t)
    ∗ owns (c : Thread nD τ) (st8_27 t) fullShare ((dat8 V c).after 27 t)
    ∗ owns (c : Thread nD τ) (st8_28 t) fullShare ((dat8 V c).after 28 t)
    ∗ owns (c : Thread nD τ) (st8_29 t) fullShare ((dat8 V c).after 29 t)
    ∗ owns (c : Thread nD τ) (st8_30 t) fullShare ((dat8 V c).after 30 t)
    ∗ owns (c : Thread nD τ) (st8_31 t) fullShare ((dat8 V c).after 31 t)
    ∗ owns (c : Thread nD τ) (st8_32 t) fullShare ((dat8 V c).after 32 t)
    ∗ owns (c : Thread nD τ) (st8_33 t) fullShare ((dat8 V c).after 33 t)
    ∗ owns (c : Thread nD τ) (st8_34 t) fullShare ((dat8 V c).after 34 t))

set_option maxHeartbeats 4000000 in
/-- The body at any point: the inputs' memrefs hold their blocks (`before8_W`), so `sound_kernel8` applies; the invariant
    and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14, before8_15, before8_16, before8_17, before8_18, before8_19, before8_20, before8_21, before8_22, before8_23, before8_24, before8_25, before8_26, before8_27, before8_28, before8_29, before8_30, before8_31, before8_32, before8_33]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15, after8_16, after8_17, after8_18, after8_19, after8_20, after8_21, after8_22, after8_23, after8_24, after8_25, after8_26, after8_27, after8_28, after8_29, after8_30, after8_31, after8_32, after8_33, after8_34]
  have hk := fun K => sound_kernel8 (F := F) c Set.univ (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4)) _ (hstage8_5 ((cfg8.slots t 5).cast nbuf8_5)) _ (hstage8_6 ((cfg8.slots t 6).cast nbuf8_6)) _ (hstage8_7 ((cfg8.slots t 7).cast nbuf8_7)) _ (hstage8_8 ((cfg8.slots t 8).cast nbuf8_8)) _ (hstage8_9 ((cfg8.slots t 9).cast nbuf8_9)) _ (hstage8_10 ((cfg8.slots t 10).cast nbuf8_10)) _ (hstage8_11 ((cfg8.slots t 11).cast nbuf8_11)) _ (hstage8_12 ((cfg8.slots t 12).cast nbuf8_12)) _ (hstage8_13 ((cfg8.slots t 13).cast nbuf8_13)) _ (hstage8_14 ((cfg8.slots t 14).cast nbuf8_14)) _ (hstage8_15 ((cfg8.slots t 15).cast nbuf8_15)) _ (hstage8_16 ((cfg8.slots t 16).cast nbuf8_16)) _ (hstage8_17 ((cfg8.slots t 17).cast nbuf8_17)) _ (hstage8_18 ((cfg8.slots t 18).cast nbuf8_18)) _ (hstage8_19 ((cfg8.slots t 19).cast nbuf8_19)) _ (hstage8_20 ((cfg8.slots t 20).cast nbuf8_20)) _ (hstage8_21 ((cfg8.slots t 21).cast nbuf8_21)) _ (hstage8_22 ((cfg8.slots t 22).cast nbuf8_22)) _ (hstage8_23 ((cfg8.slots t 23).cast nbuf8_23)) _ (hstage8_24 ((cfg8.slots t 24).cast nbuf8_24)) _ (hstage8_25 ((cfg8.slots t 25).cast nbuf8_25)) _ (hstage8_26 ((cfg8.slots t 26).cast nbuf8_26)) _ (hstage8_27 ((cfg8.slots t 27).cast nbuf8_27)) _ (hstage8_28 ((cfg8.slots t 28).cast nbuf8_28)) _ (hstage8_29 ((cfg8.slots t 29).cast nbuf8_29)) _ (hstage8_30 ((cfg8.slots t 30).cast nbuf8_30)) _ (hstage8_31 ((cfg8.slots t 31).cast nbuf8_31)) _ (hstage8_32 ((cfg8.slots t 32).cast nbuf8_32)) _ (hstage8_33 ((cfg8.slots t 33).cast nbuf8_33)) _ (hstage8_34 ((cfg8.slots t 34).cast nbuf8_34))
    (par8 V c t) (iblk8 V c 32 t) (iblk8 V c 33 t) K
  simp only [par8_0, par8_1, par8_2, par8_3, par8_4, par8_5, par8_6, par8_7, par8_8, par8_9, par8_10, par8_11, par8_12, par8_13, par8_14, par8_15, par8_16, par8_17, par8_18, par8_19, par8_20, par8_21, par8_22, par8_23, par8_24, par8_25, par8_26, par8_27, par8_28, par8_29, par8_30, par8_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Outs.lean ====
/- The contents of the TensorCore's unscoped buffers between the items of the kernel's @main, as closed terms of the
   launch memory `m`. After a host stretch: the stretch's `StableHlo.after` of the contents before it. After kernel region
   p: the contents before it with the region's one output array replaced by what the pipeline's write-backs leave there
   (`Dat.arrAt … N` of the region's proof data, taken at the region's entry contents); every other buffer is as at entry,
   because the output array of a region is the array of none of its input windows. The update is at the output array
   alone, so that several windows of a region may read one array. The valuations `V0 … V19` of the conditional frame are
   written over unknown region outputs `outs`; at `outs := outsH m` they are these contents (`VJ_eq`). Per region p: its
   arrays at exit are the proof data's final arrays (`hFp`), and every buffer that is no array of the region is as at
   entry (`hrestp`). Generic in the float model `F`. -/
import proofs.«135270_j33062658245245_1_alg».proof.Proof.K.RegionsP
import proofs.«135270_j33062658245245_1_alg».proof.Proof.K.R0
import proofs.«135270_j33062658245245_1_alg».proof.Proof.K.R1
import proofs.«135270_j33062658245245_1_alg».proof.Proof.K.R2
import proofs.«135270_j33062658245245_1_alg».proof.Proof.K.R3
import proofs.«135270_j33062658245245_1_alg».proof.Proof.K.R4
import proofs.«135270_j33062658245245_1_alg».proof.Proof.K.R5
import proofs.«135270_j33062658245245_1_alg».proof.Proof.K.R6
import proofs.«135270_j33062658245245_1_alg».proof.Proof.K.R7
import proofs.«135270_j33062658245245_1_alg».proof.Proof.K.R8

-- facts decided window by window over 35 windows and 715 references recurse past the default depth
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A valuation per core read at the TensorCore's references: what a region's proof data take as entry contents. -/
abbrev rd (W : Dev nD → Valuation τ sig (Elt F)) : (c : Dev nD) → (b : Ref sig .tc) → Buf (Elt F) ((c : Thread nD τ).loc b) :=
  fun c b => W c b

/-! ## Which window of a region is written back, and that its array is no input's -/

/-- Region 0 writes back window 3 only, -/
theorem out_only0 : ∀ w : Fin cfg0.W, (cfg0.win w).isOut = true → w = 3 := by decide
/-- and no input window of region 0 reads the output array `main_v3`. -/
theorem in_ne0 : ∀ w : Fin cfg0.W, (cfg0.win w).isOut = false → Pipeline.arrRef spec0 w ≠ main_v3 := by decide
/-- Region 1 writes back window 34 only, -/
theorem out_only1 : ∀ w : Fin cfg1.W, (cfg1.win w).isOut = true → w = 34 := by decide
/-- and no input window of region 1 reads the output array `main_v7`. -/
theorem in_ne1 : ∀ w : Fin cfg1.W, (cfg1.win w).isOut = false → Pipeline.arrRef spec1 w ≠ main_v7 := by decide
/-- Region 2 writes back window 34 only, -/
theorem out_only2 : ∀ w : Fin cfg2.W, (cfg2.win w).isOut = true → w = 34 := by decide
/-- and no input window of region 2 reads the output array `main_v26`. -/
theorem in_ne2 : ∀ w : Fin cfg2.W, (cfg2.win w).isOut = false → Pipeline.arrRef spec2 w ≠ main_v26 := by decide
/-- Region 3 writes back window 34 only, -/
theorem out_only3 : ∀ w : Fin cfg3.W, (cfg3.win w).isOut = true → w = 34 := by decide
/-- and no input window of region 3 reads the output array `main_v45`. -/
theorem in_ne3 : ∀ w : Fin cfg3.W, (cfg3.win w).isOut = false → Pipeline.arrRef spec3 w ≠ main_v45 := by decide
/-- Region 4 writes back window 34 only, -/
theorem out_only4 : ∀ w : Fin cfg4.W, (cfg4.win w).isOut = true → w = 34 := by decide
/-- and no input window of region 4 reads the output array `main_v64`. -/
theorem in_ne4 : ∀ w : Fin cfg4.W, (cfg4.win w).isOut = false → Pipeline.arrRef spec4 w ≠ main_v64 := by decide
/-- Region 5 writes back window 34 only, -/
theorem out_only5 : ∀ w : Fin cfg5.W, (cfg5.win w).isOut = true → w = 34 := by decide
/-- and no input window of region 5 reads the output array `main_v83`. -/
theorem in_ne5 : ∀ w : Fin cfg5.W, (cfg5.win w).isOut = false → Pipeline.arrRef spec5 w ≠ main_v83 := by decide
/-- Region 6 writes back window 34 only, -/
theorem out_only6 : ∀ w : Fin cfg6.W, (cfg6.win w).isOut = true → w = 34 := by decide
/-- and no input window of region 6 reads the output array `main_v102`. -/
theorem in_ne6 : ∀ w : Fin cfg6.W, (cfg6.win w).isOut = false → Pipeline.arrRef spec6 w ≠ main_v102 := by decide
/-- Region 7 writes back window 34 only, -/
theorem out_only7 : ∀ w : Fin cfg7.W, (cfg7.win w).isOut = true → w = 34 := by decide
/-- and no input window of region 7 reads the output array `main_v121`. -/
theorem in_ne7 : ∀ w : Fin cfg7.W, (cfg7.win w).isOut = false → Pipeline.arrRef spec7 w ≠ main_v121 := by decide
/-- Region 8 writes back window 34 only, -/
theorem out_only8 : ∀ w : Fin cfg8.W, (cfg8.win w).isOut = true → w = 34 := by decide
/-- and no input window of region 8 reads the output array `main_v140`. -/
theorem in_ne8 : ∀ w : Fin cfg8.W, (cfg8.win w).isOut = false → Pipeline.arrRef spec8 w ≠ main_v140 := by decide

variable (m : (ℓ : Loc nD τ sig) → Buf (Elt F) ℓ)

/-! ## The contents between the items: a fold through @main from the launch memory -/

/-- After `hostOps0` (region 0's entry). -/
def W1 (c : Dev nD) : Valuation τ sig (Elt F) := StableHlo.after hostOps0 (V0 m c)
/-- At region 0's exit: `main_v3` at what the write-backs of window 3 leave, every other buffer as entered. -/
def W2 (c : Dev nD) : Valuation τ sig (Elt F) :=
  Function.update (W1 m c) main_v3 ((dat0 (rd (W1 m)) c).arrAt 3 cfg0.N)
/-- After `hostOps1` (region 1's entry). -/
def W3 (c : Dev nD) : Valuation τ sig (Elt F) := StableHlo.after hostOps1 (W2 m c)
/-- At region 1's exit: `main_v7` at what the write-backs of window 34 leave, every other buffer as entered. -/
def W4 (c : Dev nD) : Valuation τ sig (Elt F) :=
  Function.update (W3 m c) main_v7 ((dat1 (rd (W3 m)) c).arrAt 34 cfg1.N)
/-- After `hostOps2` (region 2's entry). -/
def W5 (c : Dev nD) : Valuation τ sig (Elt F) := StableHlo.after hostOps2 (W4 m c)
/-- At region 2's exit: `main_v26` at what the write-backs of window 34 leave, every other buffer as entered. -/
def W6 (c : Dev nD) : Valuation τ sig (Elt F) :=
  Function.update (W5 m c) main_v26 ((dat2 (rd (W5 m)) c).arrAt 34 cfg2.N)
/-- After `hostOps3` (region 3's entry). -/
def W7 (c : Dev nD) : Valuation τ sig (Elt F) := StableHlo.after hostOps3 (W6 m c)
/-- At region 3's exit: `main_v45` at what the write-backs of window 34 leave, every other buffer as entered. -/
def W8 (c : Dev nD) : Valuation τ sig (Elt F) :=
  Function.update (W7 m c) main_v45 ((dat3 (rd (W7 m)) c).arrAt 34 cfg3.N)
/-- After `hostOps4` (region 4's entry). -/
def W9 (c : Dev nD) : Valuation τ sig (Elt F) := StableHlo.after hostOps4 (W8 m c)
/-- At region 4's exit: `main_v64` at what the write-backs of window 34 leave, every other buffer as entered. -/
def W10 (c : Dev nD) : Valuation τ sig (Elt F) :=
  Function.update (W9 m c) main_v64 ((dat4 (rd (W9 m)) c).arrAt 34 cfg4.N)
/-- After `hostOps5` (region 5's entry). -/
def W11 (c : Dev nD) : Valuation τ sig (Elt F) := StableHlo.after hostOps5 (W10 m c)
/-- At region 5's exit: `main_v83` at what the write-backs of window 34 leave, every other buffer as entered. -/
def W12 (c : Dev nD) : Valuation τ sig (Elt F) :=
  Function.update (W11 m c) main_v83 ((dat5 (rd (W11 m)) c).arrAt 34 cfg5.N)
/-- After `hostOps6` (region 6's entry). -/
def W13 (c : Dev nD) : Valuation τ sig (Elt F) := StableHlo.after hostOps6 (W12 m c)
/-- At region 6's exit: `main_v102` at what the write-backs of window 34 leave, every other buffer as entered. -/
def W14 (c : Dev nD) : Valuation τ sig (Elt F) :=
  Function.update (W13 m c) main_v102 ((dat6 (rd (W13 m)) c).arrAt 34 cfg6.N)
/-- After `hostOps7` (region 7's entry). -/
def W15 (c : Dev nD) : Valuation τ sig (Elt F) := StableHlo.after hostOps7 (W14 m c)
/-- At region 7's exit: `main_v121` at what the write-backs of window 34 leave, every other buffer as entered. -/
def W16 (c : Dev nD) : Valuation τ sig (Elt F) :=
  Function.update (W15 m c) main_v121 ((dat7 (rd (W15 m)) c).arrAt 34 cfg7.N)
/-- After `hostOps8` (region 8's entry). -/
def W17 (c : Dev nD) : Valuation τ sig (Elt F) := StableHlo.after hostOps8 (W16 m c)
/-- At region 8's exit: `main_v140` at what the write-backs of window 34 leave, every other buffer as entered. -/
def W18 (c : Dev nD) : Valuation τ sig (Elt F) :=
  Function.update (W17 m c) main_v140 ((dat8 (rd (W17 m)) c).arrAt 34 cfg8.N)
/-- After `hostOps9`: the contents @main returns with. -/
def W19 (c : Dev nD) : Valuation τ sig (Elt F) := StableHlo.after hostOps9 (W18 m c)

/-! ## A region's exit contents read at its output array, and off it -/

theorem W2_out (c : Dev nD) : W2 m c main_v3 = (dat0 (rd (W1 m)) c).arrAt 3 cfg0.N := by
  unfold W2; exact Function.update_self _ _ _
theorem W2_of_ne (c : Dev nD) (b : Ref sig .tc) (h : b ≠ main_v3) : W2 m c b = W1 m c b := by
  unfold W2; exact Function.update_of_ne (StableHlo.devRef_ne_of_ne h) _ _
theorem W4_out (c : Dev nD) : W4 m c main_v7 = (dat1 (rd (W3 m)) c).arrAt 34 cfg1.N := by
  unfold W4; exact Function.update_self _ _ _
theorem W4_of_ne (c : Dev nD) (b : Ref sig .tc) (h : b ≠ main_v7) : W4 m c b = W3 m c b := by
  unfold W4; exact Function.update_of_ne (StableHlo.devRef_ne_of_ne h) _ _
theorem W6_out (c : Dev nD) : W6 m c main_v26 = (dat2 (rd (W5 m)) c).arrAt 34 cfg2.N := by
  unfold W6; exact Function.update_self _ _ _
theorem W6_of_ne (c : Dev nD) (b : Ref sig .tc) (h : b ≠ main_v26) : W6 m c b = W5 m c b := by
  unfold W6; exact Function.update_of_ne (StableHlo.devRef_ne_of_ne h) _ _
theorem W8_out (c : Dev nD) : W8 m c main_v45 = (dat3 (rd (W7 m)) c).arrAt 34 cfg3.N := by
  unfold W8; exact Function.update_self _ _ _
theorem W8_of_ne (c : Dev nD) (b : Ref sig .tc) (h : b ≠ main_v45) : W8 m c b = W7 m c b := by
  unfold W8; exact Function.update_of_ne (StableHlo.devRef_ne_of_ne h) _ _
theorem W10_out (c : Dev nD) : W10 m c main_v64 = (dat4 (rd (W9 m)) c).arrAt 34 cfg4.N := by
  unfold W10; exact Function.update_self _ _ _
theorem W10_of_ne (c : Dev nD) (b : Ref sig .tc) (h : b ≠ main_v64) : W10 m c b = W9 m c b := by
  unfold W10; exact Function.update_of_ne (StableHlo.devRef_ne_of_ne h) _ _
theorem W12_out (c : Dev nD) : W12 m c main_v83 = (dat5 (rd (W11 m)) c).arrAt 34 cfg5.N := by
  unfold W12; exact Function.update_self _ _ _
theorem W12_of_ne (c : Dev nD) (b : Ref sig .tc) (h : b ≠ main_v83) : W12 m c b = W11 m c b := by
  unfold W12; exact Function.update_of_ne (StableHlo.devRef_ne_of_ne h) _ _
theorem W14_out (c : Dev nD) : W14 m c main_v102 = (dat6 (rd (W13 m)) c).arrAt 34 cfg6.N := by
  unfold W14; exact Function.update_self _ _ _
theorem W14_of_ne (c : Dev nD) (b : Ref sig .tc) (h : b ≠ main_v102) : W14 m c b = W13 m c b := by
  unfold W14; exact Function.update_of_ne (StableHlo.devRef_ne_of_ne h) _ _
theorem W16_out (c : Dev nD) : W16 m c main_v121 = (dat7 (rd (W15 m)) c).arrAt 34 cfg7.N := by
  unfold W16; exact Function.update_self _ _ _
theorem W16_of_ne (c : Dev nD) (b : Ref sig .tc) (h : b ≠ main_v121) : W16 m c b = W15 m c b := by
  unfold W16; exact Function.update_of_ne (StableHlo.devRef_ne_of_ne h) _ _
theorem W18_out (c : Dev nD) : W18 m c main_v140 = (dat8 (rd (W17 m)) c).arrAt 34 cfg8.N := by
  unfold W18; exact Function.update_self _ _ _
theorem W18_of_ne (c : Dev nD) (b : Ref sig .tc) (h : b ≠ main_v140) : W18 m c b = W17 m c b := by
  unfold W18; exact Function.update_of_ne (StableHlo.devRef_ne_of_ne h) _ _

/-! ## The conditional frame's unknowns, filled in -/

/-- What the regions leave, as the conditional frame's `outs`: after item J−1 the contents `WJ` (read only at the
    output array of the region that is item J−1). -/
def outsH : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | _ => W1 m c r

/-! The conditional frame's valuations at `outs := outsH m` are the contents above: each from the one before — a host
    stretch's `after` of equal contents; a region's update at its output array of equal contents by the same value. -/

theorem V1_eq (c : Dev nD) : V1 m c = W1 m c := rfl
theorem V2_eq (c : Dev nD) : V2 m (outsH m) c = W2 m c := by
  show Function.update (V1 m c) main_v3 (W2 m c main_v3) = W2 m c
  rw [V1_eq m c, W2_out m c]; rfl
theorem V3_eq (c : Dev nD) : V3 m (outsH m) c = W3 m c := by
  show StableHlo.after hostOps1 (V2 m (outsH m) c) = W3 m c
  rw [V2_eq m c]; rfl
theorem V4_eq (c : Dev nD) : V4 m (outsH m) c = W4 m c := by
  show Function.update (V3 m (outsH m) c) main_v7 (W4 m c main_v7) = W4 m c
  rw [V3_eq m c, W4_out m c]; rfl
theorem V5_eq (c : Dev nD) : V5 m (outsH m) c = W5 m c := by
  show StableHlo.after hostOps2 (V4 m (outsH m) c) = W5 m c
  rw [V4_eq m c]; rfl
theorem V6_eq (c : Dev nD) : V6 m (outsH m) c = W6 m c := by
  show Function.update (V5 m (outsH m) c) main_v26 (W6 m c main_v26) = W6 m c
  rw [V5_eq m c, W6_out m c]; rfl
theorem V7_eq (c : Dev nD) : V7 m (outsH m) c = W7 m c := by
  show StableHlo.after hostOps3 (V6 m (outsH m) c) = W7 m c
  rw [V6_eq m c]; rfl
theorem V8_eq (c : Dev nD) : V8 m (outsH m) c = W8 m c := by
  show Function.update (V7 m (outsH m) c) main_v45 (W8 m c main_v45) = W8 m c
  rw [V7_eq m c, W8_out m c]; rfl
theorem V9_eq (c : Dev nD) : V9 m (outsH m) c = W9 m c := by
  show StableHlo.after hostOps4 (V8 m (outsH m) c) = W9 m c
  rw [V8_eq m c]; rfl
theorem V10_eq (c : Dev nD) : V10 m (outsH m) c = W10 m c := by
  show Function.update (V9 m (outsH m) c) main_v64 (W10 m c main_v64) = W10 m c
  rw [V9_eq m c, W10_out m c]; rfl
theorem V11_eq (c : Dev nD) : V11 m (outsH m) c = W11 m c := by
  show StableHlo.after hostOps5 (V10 m (outsH m) c) = W11 m c
  rw [V10_eq m c]; rfl
theorem V12_eq (c : Dev nD) : V12 m (outsH m) c = W12 m c := by
  show Function.update (V11 m (outsH m) c) main_v83 (W12 m c main_v83) = W12 m c
  rw [V11_eq m c, W12_out m c]; rfl
theorem V13_eq (c : Dev nD) : V13 m (outsH m) c = W13 m c := by
  show StableHlo.after hostOps6 (V12 m (outsH m) c) = W13 m c
  rw [V12_eq m c]; rfl
theorem V14_eq (c : Dev nD) : V14 m (outsH m) c = W14 m c := by
  show Function.update (V13 m (outsH m) c) main_v102 (W14 m c main_v102) = W14 m c
  rw [V13_eq m c, W14_out m c]; rfl
theorem V15_eq (c : Dev nD) : V15 m (outsH m) c = W15 m c := by
  show StableHlo.after hostOps7 (V14 m (outsH m) c) = W15 m c
  rw [V14_eq m c]; rfl
theorem V16_eq (c : Dev nD) : V16 m (outsH m) c = W16 m c := by
  show Function.update (V15 m (outsH m) c) main_v121 (W16 m c main_v121) = W16 m c
  rw [V15_eq m c, W16_out m c]; rfl
theorem V17_eq (c : Dev nD) : V17 m (outsH m) c = W17 m c := by
  show StableHlo.after hostOps8 (V16 m (outsH m) c) = W17 m c
  rw [V16_eq m c]; rfl
theorem V18_eq (c : Dev nD) : V18 m (outsH m) c = W18 m c := by
  show Function.update (V17 m (outsH m) c) main_v140 (W18 m c main_v140) = W18 m c
  rw [V17_eq m c, W18_out m c]; rfl
theorem V19_eq (c : Dev nD) : V19 m (outsH m) c = W19 m c := by
  show StableHlo.after hostOps9 (V18 m (outsH m) c) = W19 m c
  rw [V18_eq m c]; rfl

/-! ## A region's arrays at its exit: the two hypotheses of `Pipeline.unscopedBufs_of_arrays`

An input window's array is never written back, so the proof data's final array is the entry contents, which the update
at the output array leaves alone; the output window's final array is what the update puts there. A buffer that is no
array of the region is in particular not the output array. -/

theorem hF0 (c : Dev nD) (w : Fin cfg0.W) :
    (dat0 (rd (W1 m)) c).arrAt w cfg0.N = rd (W2 m) c (Pipeline.arrRef spec0 w) := by
  rcases Bool.eq_false_or_eq_true (cfg0.win w).isOut with hw | hw
  · obtain rfl := out_only0 w hw
    exact (W2_out m c).symm
  · exact ((dat0 (rd (W1 m)) c).arrAt_in w hw cfg0.N).trans
      ((A_eq0 (rd (W1 m)) c w).trans (W2_of_ne m c _ (in_ne0 w hw)).symm)
theorem hrest0 (c : Dev nD) : ∀ b, b ∉ Finset.univ.image (Pipeline.arrRef spec0) → rd (W2 m) c b = rd (W1 m) c b :=
  fun b hb => W2_of_ne m c b fun e => hb (Finset.mem_image.mpr ⟨3, Finset.mem_univ _, e.symm⟩)

theorem hF1 (c : Dev nD) (w : Fin cfg1.W) :
    (dat1 (rd (W3 m)) c).arrAt w cfg1.N = rd (W4 m) c (Pipeline.arrRef spec1 w) := by
  rcases Bool.eq_false_or_eq_true (cfg1.win w).isOut with hw | hw
  · obtain rfl := out_only1 w hw
    exact (W4_out m c).symm
  · exact ((dat1 (rd (W3 m)) c).arrAt_in w hw cfg1.N).trans
      ((A_eq1 (rd (W3 m)) c w).trans (W4_of_ne m c _ (in_ne1 w hw)).symm)
theorem hrest1 (c : Dev nD) : ∀ b, b ∉ Finset.univ.image (Pipeline.arrRef spec1) → rd (W4 m) c b = rd (W3 m) c b :=
  fun b hb => W4_of_ne m c b fun e => hb (Finset.mem_image.mpr ⟨34, Finset.mem_univ _, e.symm⟩)

theorem hF2 (c : Dev nD) (w : Fin cfg2.W) :
    (dat2 (rd (W5 m)) c).arrAt w cfg2.N = rd (W6 m) c (Pipeline.arrRef spec2 w) := by
  rcases Bool.eq_false_or_eq_true (cfg2.win w).isOut with hw | hw
  · obtain rfl := out_only2 w hw
    exact (W6_out m c).symm
  · exact ((dat2 (rd (W5 m)) c).arrAt_in w hw cfg2.N).trans
      ((A_eq2 (rd (W5 m)) c w).trans (W6_of_ne m c _ (in_ne2 w hw)).symm)
theorem hrest2 (c : Dev nD) : ∀ b, b ∉ Finset.univ.image (Pipeline.arrRef spec2) → rd (W6 m) c b = rd (W5 m) c b :=
  fun b hb => W6_of_ne m c b fun e => hb (Finset.mem_image.mpr ⟨34, Finset.mem_univ _, e.symm⟩)

theorem hF3 (c : Dev nD) (w : Fin cfg3.W) :
    (dat3 (rd (W7 m)) c).arrAt w cfg3.N = rd (W8 m) c (Pipeline.arrRef spec3 w) := by
  rcases Bool.eq_false_or_eq_true (cfg3.win w).isOut with hw | hw
  · obtain rfl := out_only3 w hw
    exact (W8_out m c).symm
  · exact ((dat3 (rd (W7 m)) c).arrAt_in w hw cfg3.N).trans
      ((A_eq3 (rd (W7 m)) c w).trans (W8_of_ne m c _ (in_ne3 w hw)).symm)
theorem hrest3 (c : Dev nD) : ∀ b, b ∉ Finset.univ.image (Pipeline.arrRef spec3) → rd (W8 m) c b = rd (W7 m) c b :=
  fun b hb => W8_of_ne m c b fun e => hb (Finset.mem_image.mpr ⟨34, Finset.mem_univ _, e.symm⟩)

theorem hF4 (c : Dev nD) (w : Fin cfg4.W) :
    (dat4 (rd (W9 m)) c).arrAt w cfg4.N = rd (W10 m) c (Pipeline.arrRef spec4 w) := by
  rcases Bool.eq_false_or_eq_true (cfg4.win w).isOut with hw | hw
  · obtain rfl := out_only4 w hw
    exact (W10_out m c).symm
  · exact ((dat4 (rd (W9 m)) c).arrAt_in w hw cfg4.N).trans
      ((A_eq4 (rd (W9 m)) c w).trans (W10_of_ne m c _ (in_ne4 w hw)).symm)
theorem hrest4 (c : Dev nD) : ∀ b, b ∉ Finset.univ.image (Pipeline.arrRef spec4) → rd (W10 m) c b = rd (W9 m) c b :=
  fun b hb => W10_of_ne m c b fun e => hb (Finset.mem_image.mpr ⟨34, Finset.mem_univ _, e.symm⟩)

theorem hF5 (c : Dev nD) (w : Fin cfg5.W) :
    (dat5 (rd (W11 m)) c).arrAt w cfg5.N = rd (W12 m) c (Pipeline.arrRef spec5 w) := by
  rcases Bool.eq_false_or_eq_true (cfg5.win w).isOut with hw | hw
  · obtain rfl := out_only5 w hw
    exact (W12_out m c).symm
  · exact ((dat5 (rd (W11 m)) c).arrAt_in w hw cfg5.N).trans
      ((A_eq5 (rd (W11 m)) c w).trans (W12_of_ne m c _ (in_ne5 w hw)).symm)
theorem hrest5 (c : Dev nD) : ∀ b, b ∉ Finset.univ.image (Pipeline.arrRef spec5) → rd (W12 m) c b = rd (W11 m) c b :=
  fun b hb => W12_of_ne m c b fun e => hb (Finset.mem_image.mpr ⟨34, Finset.mem_univ _, e.symm⟩)

theorem hF6 (c : Dev nD) (w : Fin cfg6.W) :
    (dat6 (rd (W13 m)) c).arrAt w cfg6.N = rd (W14 m) c (Pipeline.arrRef spec6 w) := by
  rcases Bool.eq_false_or_eq_true (cfg6.win w).isOut with hw | hw
  · obtain rfl := out_only6 w hw
    exact (W14_out m c).symm
  · exact ((dat6 (rd (W13 m)) c).arrAt_in w hw cfg6.N).trans
      ((A_eq6 (rd (W13 m)) c w).trans (W14_of_ne m c _ (in_ne6 w hw)).symm)
theorem hrest6 (c : Dev nD) : ∀ b, b ∉ Finset.univ.image (Pipeline.arrRef spec6) → rd (W14 m) c b = rd (W13 m) c b :=
  fun b hb => W14_of_ne m c b fun e => hb (Finset.mem_image.mpr ⟨34, Finset.mem_univ _, e.symm⟩)

theorem hF7 (c : Dev nD) (w : Fin cfg7.W) :
    (dat7 (rd (W15 m)) c).arrAt w cfg7.N = rd (W16 m) c (Pipeline.arrRef spec7 w) := by
  rcases Bool.eq_false_or_eq_true (cfg7.win w).isOut with hw | hw
  · obtain rfl := out_only7 w hw
    exact (W16_out m c).symm
  · exact ((dat7 (rd (W15 m)) c).arrAt_in w hw cfg7.N).trans
      ((A_eq7 (rd (W15 m)) c w).trans (W16_of_ne m c _ (in_ne7 w hw)).symm)
theorem hrest7 (c : Dev nD) : ∀ b, b ∉ Finset.univ.image (Pipeline.arrRef spec7) → rd (W16 m) c b = rd (W15 m) c b :=
  fun b hb => W16_of_ne m c b fun e => hb (Finset.mem_image.mpr ⟨34, Finset.mem_univ _, e.symm⟩)

theorem hF8 (c : Dev nD) (w : Fin cfg8.W) :
    (dat8 (rd (W17 m)) c).arrAt w cfg8.N = rd (W18 m) c (Pipeline.arrRef spec8 w) := by
  rcases Bool.eq_false_or_eq_true (cfg8.win w).isOut with hw | hw
  · obtain rfl := out_only8 w hw
    exact (W18_out m c).symm
  · exact ((dat8 (rd (W17 m)) c).arrAt_in w hw cfg8.N).trans
      ((A_eq8 (rd (W17 m)) c w).trans (W18_of_ne m c _ (in_ne8 w hw)).symm)
theorem hrest8 (c : Dev nD) : ∀ b, b ∉ Finset.univ.image (Pipeline.arrRef spec8) → rd (W18 m) c b = rd (W17 m) c b :=
  fun b hb => W18_of_ne m c b fun e => hb (Finset.mem_image.mpr ⟨34, Finset.mem_univ _, e.symm⟩)

end Cert.Kernel.Hand

end
-- ==== Proof.K.PDats.lean ====
/- Every pipeline's proof data of the kernel's @main, each taken at the contents its region is entered from (`W1`, `W3`,
   …, `W17`: the launch memory folded through the items before the region), as the one family the conditional frame and the
   regions' segment records are stated over; and what rides beside the buffers through every item: no variant, no level
   assigned, the core's generator register at some state and the core owing nothing. Generic in the float model `F`. -/
import proofs.«135270_j33062658245245_1_alg».proof.Proof.K.Outs

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents — a literal `match`, so that the family at a
    numeral reduces to that region's proof data. -/
def pdats : (p : Fin 9) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W15 m)) c
  | ⟨8, _⟩ => fun c => dat8 (rd (W17 m)) c

/-- No variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core's `owes`, at nothing. -/
abbrev Rst (c : Dev nD) : sProp 𝕄 := iprop((∃ r, prngReg c r) ∗ ∃ W, owes (c : Thread nD τ) (0 : CellTallies nD τ sig Unit) W)

end Cert.Kernel.Hand

end
-- ==== Proof.K.Seg0.lean ====
/- Region 0 of the kernel's @main (custom_call 0, pipeline 0) as a segment record over the thread state "every unscoped
   buffer of the core at the item's contents, the generator register at some state, nothing owed": entered from the
   contents `W1`, left at `W2`. Region 0's four windows read four distinct arrays, so its arrays split out of the unscoped
   buffers at entry (`Pipeline.arrays_of_unscopedBufs`) and go back at the exit contents (`Pipeline.unscopedBufs_of_arrays`,
   from `hF0` and `hrest0`); the generator register goes into the pipeline's invariant and comes back; nothing is owed; the
   kernel has no semaphore of its own. Generic in the float model `F`. -/
import proofs.«135270_j33062658245245_1_alg».proof.Proof.K.PDats

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.LibSharedSeg.lean ====
/-
  A pipeline region's arrays among a core's unscoped buffers, for a pipeline whose windows may share arrays.

  A certificate whose thread state holds EVERY unscoped buffer of a core whole, at a valuation, splits a region's
  arrays out of them when the region is entered and puts them back, at the updated valuation, when it is left. For
  pairwise distinct arrays the library does both steps (`Pipeline.arrays_of_unscopedBufs`,
  `Pipeline.unscopedBufs_of_arrays`); here the arrays need not be distinct. The distinct buffers behind the arrays are
  split off the unscoped buffers as one block (`Pipeline.unscopedBufs_split₀`), and that block is dealt among the
  windows at the shares `shareOf` names (`arrBufs_split`, `arrBufs_join`): what is left to say is that the proof
  data hold each window's array at exactly that share. For an input window that is the data's own `q`; an output
  window is held at the full share, which is its `shareOf` as soon as no other window reads its array.
-/
import proofs.«135270_j33062658245245_1_alg».proof.Proof.LibSharedArrays
import Idealize.ShloMosaic.Lib.Pipeline.Launch

noncomputable section

namespace Cert.Lib.SharedArrays

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- The share the proof data hold window `w`'s array at is the one `shareOf` deals it: the data's own for an input
    window (`hq`), the full share for an output window, whose array no other window reads (`hout`). -/
theorem share_eq_shareOf (hq : ∀ w, dat.q w = shareOf (Pipeline.arrRef cfg.spec) w)
    (hout : ∀ w, (cfg.win w).isOut = true → ∀ w', Pipeline.arrRef cfg.spec w' = Pipeline.arrRef cfg.spec w → w' = w)
    (w : Fin cfg.W) : dat.share w = shareOf (Pipeline.arrRef cfg.spec) w := by
  unfold Dat.share
  split
  · next h => exact (shareOf_alone _ w (hout w h)).symm
  · exact hq w

/-- The pipeline's arrays, each window's array a whole buffer (`harr`): one points-to per window, of the buffer behind
    the window's array at the window's share. -/
theorem arrays_eq_shares (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (Pipeline.arrRef cfg.spec w)) ↦{dat.share w} F w : sProp 𝕄) := by
  unfold Dat.arrays
  exact bigSep_congr fun w _ => by rw [(harr w).set_eq_univ]

/-- ENTRY: a core's unscoped buffers at contents `V` are the pipeline's arrays at the proof data's entry contents —
    those being read off `V` (`hA`) — beside the unscoped buffers that are no window's array. -/
theorem arrays_of_unscopedBufs_shared (hun : ∀ w, (Pipeline.arrRef cfg.spec w).isScoped = false) (harr : ∀ w, (cfg.spec w).arr.IsWhole)
    (hq : ∀ w, dat.q w = shareOf (Pipeline.arrRef cfg.spec) w)
    (hout : ∀ w, (cfg.win w).isOut = true → ∀ w', Pipeline.arrRef cfg.spec w' = Pipeline.arrRef cfg.spec w → w' = w)
    (V : (b : Ref sig .tc) → Buf Val ((c.tc : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  rw [Pipeline.unscopedBufs_split₀ (fun _ : Unit => cfg) () hun c V, arrays_eq_shares dat harr]
  refine sep_mono ((arrBufs_split cfg.spec c V).trans (Entails.of_eq (bigSep_congr fun w _ => ?_))) .rfl
  rw [share_eq_shareOf dat hq hout w, show dat.arrAt w 0 = dat.A w from rfl, hA]

/-- EXIT: the pipeline's arrays at contents `F` and the unscoped rest at `V` are the core's unscoped buffers at any
    valuation `V'` that has the arrays at `F` (`hF`) and agrees with `V` off them (`hrest`). -/
theorem unscopedBufs_of_arrays_shared (hun : ∀ w, (Pipeline.arrRef cfg.spec w).isScoped = false) (harr : ∀ w, (cfg.spec w).arr.IsWhole)
    (hq : ∀ w, dat.q w = shareOf (Pipeline.arrRef cfg.spec) w)
    (hout : ∀ w, (cfg.win w).isOut = true → ∀ w', Pipeline.arrRef cfg.spec w' = Pipeline.arrRef cfg.spec w → w' = w)
    (V V' : (b : Ref sig .tc) → Buf Val ((c.tc : Thread nD τ).loc b))
    (F : (w : Fin cfg.W) → Buf Val ((cfg.spec w).arr.view.loc (c.tc : Thread nD τ)))
    (hF : ∀ w, F w = V' (Pipeline.arrRef cfg.spec w))
    (hrest : ∀ b, b ∉ Finset.univ.image (Pipeline.arrRef cfg.spec) → V' b = V b) :
    iprop(dat.arrays F ∗ Pipeline.unscopedRest cfg.spec c V) ⊢ (unscopedBufs c V' : sProp 𝕄) := by
  rw [Pipeline.unscopedBufs_split₀ (fun _ : Unit => cfg) () hun c V', arrays_eq_shares dat harr]
  refine sep_mono ((Entails.of_eq (bigSep_congr fun w _ => ?_)).trans (arrBufs_join cfg.spec c V')) (Entails.of_eq ?_)
  · rw [share_eq_shareOf dat hq hout w, hF]
  · unfold Pipeline.unscopedRest
    exact bigSep_congr fun b hb => by rw [hrest b (Finset.mem_sdiff.mp hb).2]

end Cert.Lib.SharedArrays

end
-- ==== Proof.K.Seg1.lean ====
/- Region 1 of the kernel program (pipeline 1, custom_call 1) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry1`); at the exit the windows' shares are put together again, at the contents the write-backs leave, and the
   block goes back among the unscoped buffers (`exit1`). The rest of the record (`reg1`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R1
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 1 among the core's unscoped buffers -/

/-- The array of a window of region 1 that is written back is read through no other window. -/
theorem out_alone1 : ∀ w : Fin cfg1.W, (cfg1.win w).isOut = true →
    ∀ w' : Fin cfg1.W, Pipeline.arrRef spec1 w' = Pipeline.arrRef spec1 w → w' = w := by decide

/-- ENTRY, the arrays' part: the core's unscoped buffers at region 1's entry contents are pipeline 1's arrays at the
    proof data's entry contents — each window its array's buffer at the share dealt it, the buffers behind the arrays
    split off the unscoped buffers as one block and dealt among the windows that read them — beside the unscoped
    buffers that are no window's array. -/
theorem entry1 (c : Dev nD) :
    (unscopedBufs c (rd (W3 m) c) : sProp 𝕄)
      ⊢ iprop((pdats m 1 c).arrays ((pdats m 1 c).arrAt · 0) ∗ Pipeline.unscopedRest spec1 c (rd (W3 m) c)) :=
  Cert.Lib.SharedArrays.arrays_of_unscopedBufs_shared (dat1 (rd (W3 m)) c) winFacts₀1.arr_unscoped arr_whole1
    (fun _ => rfl) out_alone1 (rd (W3 m) c) (A_eq1 (rd (W3 m)) c)

/-- EXIT, the arrays' part: pipeline 1's arrays at what its write-backs leave, beside the unscoped rest as the region
    was entered, are the core's unscoped buffers at region 1's exit contents: these have each array at what the
    pipeline leaves (`hF1`) and agree with the entry contents off the arrays (`hrest1`). -/
theorem exit1 (c : Dev nD) :
    iprop((pdats m 1 c).arrays ((pdats m 1 c).arrAt · cfg1.N) ∗ Pipeline.unscopedRest spec1 c (rd (W3 m) c))
      ⊢ (unscopedBufs c (rd (W4 m) c) : sProp 𝕄) :=
  Cert.Lib.SharedArrays.unscopedBufs_of_arrays_shared (dat1 (rd (W3 m)) c) winFacts₀1.arr_unscoped arr_whole1
    (fun _ => rfl) out_alone1 (rd (W3 m) c) (rd (W4 m) c) ((dat1 (rd (W3 m)) c).arrAt · cfg1.N) (hF1 m c) (hrest1 m c)

/-! ## Region 1 as a segment -/

-- `iapply` of a lemma stated over the family at a numeral unifies with the region's own proof data only when
-- unification may unfold plain definitions in a metavariable's type
set_option backward.isDefEq.respectTransparency.types false in
/-- REGION 1 (custom_call 1) over the thread state: entered from every unscoped buffer at `W3`, left at `W4`. Its
    arrays are split out of the unscoped buffers (`entry1`) and put back at the exit contents (`exit1`); the generator
    register goes into the body's invariant and comes out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- Region 2 of the kernel program (pipeline 2, custom_call 2) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry2`); at the exit the windows' shares are put together again, at the contents the write-backs leave, and the
   block goes back among the unscoped buffers (`exit2`). The rest of the record (`reg2`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R2
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 2 among the core's unscoped buffers -/

/-- The array of a window of region 2 that is written back is read through no other window. -/
theorem out_alone2 : ∀ w : Fin cfg2.W, (cfg2.win w).isOut = true →
    ∀ w' : Fin cfg2.W, Pipeline.arrRef spec2 w' = Pipeline.arrRef spec2 w → w' = w := by decide

/-- ENTRY, the arrays' part: the core's unscoped buffers at region 2's entry contents are pipeline 2's arrays at the
    proof data's entry contents — each window its array's buffer at the share dealt it, the buffers behind the arrays
    split off the unscoped buffers as one block and dealt among the windows that read them — beside the unscoped
    buffers that are no window's array. -/
theorem entry2 (c : Dev nD) :
    (unscopedBufs c (rd (W5 m) c) : sProp 𝕄)
      ⊢ iprop((pdats m 2 c).arrays ((pdats m 2 c).arrAt · 0) ∗ Pipeline.unscopedRest spec2 c (rd (W5 m) c)) :=
  Cert.Lib.SharedArrays.arrays_of_unscopedBufs_shared (dat2 (rd (W5 m)) c) winFacts₀2.arr_unscoped arr_whole2
    (fun _ => rfl) out_alone2 (rd (W5 m) c) (A_eq2 (rd (W5 m)) c)

/-- EXIT, the arrays' part: pipeline 2's arrays at what its write-backs leave, beside the unscoped rest as the region
    was entered, are the core's unscoped buffers at region 2's exit contents: these have each array at what the
    pipeline leaves (`hF2`) and agree with the entry contents off the arrays (`hrest2`). -/
theorem exit2 (c : Dev nD) :
    iprop((pdats m 2 c).arrays ((pdats m 2 c).arrAt · cfg2.N) ∗ Pipeline.unscopedRest spec2 c (rd (W5 m) c))
      ⊢ (unscopedBufs c (rd (W6 m) c) : sProp 𝕄) :=
  Cert.Lib.SharedArrays.unscopedBufs_of_arrays_shared (dat2 (rd (W5 m)) c) winFacts₀2.arr_unscoped arr_whole2
    (fun _ => rfl) out_alone2 (rd (W5 m) c) (rd (W6 m) c) ((dat2 (rd (W5 m)) c).arrAt · cfg2.N) (hF2 m c) (hrest2 m c)

/-! ## Region 2 as a segment -/

-- `iapply` of a lemma stated over the family at a numeral unifies with the region's own proof data only when
-- unification may unfold plain definitions in a metavariable's type
set_option backward.isDefEq.respectTransparency.types false in
/-- REGION 2 (custom_call 2) over the thread state: entered from every unscoped buffer at `W5`, left at `W6`. Its
    arrays are split out of the unscoped buffers (`entry2`) and put back at the exit contents (`exit2`); the generator
    register goes into the body's invariant and comes out; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- Region 3 of the kernel program (pipeline 3, custom_call 3) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry3`); at the exit the windows' shares are put together again, at the contents the write-backs leave, and the
   block goes back among the unscoped buffers (`exit3`). The rest of the record (`reg3`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R3
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 3 among the core's unscoped buffers -/

/-- The array of a window of region 3 that is written back is read through no other window. -/
theorem out_alone3 : ∀ w : Fin cfg3.W, (cfg3.win w).isOut = true →
    ∀ w' : Fin cfg3.W, Pipeline.arrRef spec3 w' = Pipeline.arrRef spec3 w → w' = w := by decide

/-- ENTRY, the arrays' part: the core's unscoped buffers at region 3's entry contents are pipeline 3's arrays at the
    proof data's entry contents — each window its array's buffer at the share dealt it, the buffers behind the arrays
    split off the unscoped buffers as one block and dealt among the windows that read them — beside the unscoped
    buffers that are no window's array. -/
theorem entry3 (c : Dev nD) :
    (unscopedBufs c (rd (W7 m) c) : sProp 𝕄)
      ⊢ iprop((pdats m 3 c).arrays ((pdats m 3 c).arrAt · 0) ∗ Pipeline.unscopedRest spec3 c (rd (W7 m) c)) :=
  Cert.Lib.SharedArrays.arrays_of_unscopedBufs_shared (dat3 (rd (W7 m)) c) winFacts₀3.arr_unscoped arr_whole3
    (fun _ => rfl) out_alone3 (rd (W7 m) c) (A_eq3 (rd (W7 m)) c)

/-- EXIT, the arrays' part: pipeline 3's arrays at what its write-backs leave, beside the unscoped rest as the region
    was entered, are the core's unscoped buffers at region 3's exit contents: these have each array at what the
    pipeline leaves (`hF3`) and agree with the entry contents off the arrays (`hrest3`). -/
theorem exit3 (c : Dev nD) :
    iprop((pdats m 3 c).arrays ((pdats m 3 c).arrAt · cfg3.N) ∗ Pipeline.unscopedRest spec3 c (rd (W7 m) c))
      ⊢ (unscopedBufs c (rd (W8 m) c) : sProp 𝕄) :=
  Cert.Lib.SharedArrays.unscopedBufs_of_arrays_shared (dat3 (rd (W7 m)) c) winFacts₀3.arr_unscoped arr_whole3
    (fun _ => rfl) out_alone3 (rd (W7 m) c) (rd (W8 m) c) ((dat3 (rd (W7 m)) c).arrAt · cfg3.N) (hF3 m c) (hrest3 m c)

/-! ## Region 3 as a segment -/

-- `iapply` of a lemma stated over the family at a numeral unifies with the region's own proof data only when
-- unification may unfold plain definitions in a metavariable's type
set_option backward.isDefEq.respectTransparency.types false in
/-- REGION 3 (custom_call 3) over the thread state: entered from every unscoped buffer at `W7`, left at `W8`. Its
    arrays are split out of the unscoped buffers (`entry3`) and put back at the exit contents (`exit3`); the generator
    register goes into the body's invariant and comes out; nothing is owed; the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (rd (W7 m)) c).loose
  hwaits := Pipeline.hwaits_of_owed_zero _ _ _ _ L lv 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (rd (W7 m) c)
  hentry c := by
    rw [Pipeline.ownSems0_none]
    have hsplit := entry3 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- Region 4 of the kernel program (pipeline 4, custom_call 4) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry4`); at the exit the windows' shares are put together again, at the contents the write-backs leave, and the
   block goes back among the unscoped buffers (`exit4`). The rest of the record (`reg4`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R4
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 4 among the core's unscoped buffers -/

/-- The array of a window of region 4 that is written back is read through no other window. -/
theorem out_alone4 : ∀ w : Fin cfg4.W, (cfg4.win w).isOut = true →
    ∀ w' : Fin cfg4.W, Pipeline.arrRef spec4 w' = Pipeline.arrRef spec4 w → w' = w := by decide

/-- ENTRY, the arrays' part: the core's unscoped buffers at region 4's entry contents are pipeline 4's arrays at the
    proof data's entry contents — each window its array's buffer at the share dealt it, the buffers behind the arrays
    split off the unscoped buffers as one block and dealt among the windows that read them — beside the unscoped
    buffers that are no window's array. -/
theorem entry4 (c : Dev nD) :
    (unscopedBufs c (rd (W9 m) c) : sProp 𝕄)
      ⊢ iprop((pdats m 4 c).arrays ((pdats m 4 c).arrAt · 0) ∗ Pipeline.unscopedRest spec4 c (rd (W9 m) c)) :=
  Cert.Lib.SharedArrays.arrays_of_unscopedBufs_shared (dat4 (rd (W9 m)) c) winFacts₀4.arr_unscoped arr_whole4
    (fun _ => rfl) out_alone4 (rd (W9 m) c) (A_eq4 (rd (W9 m)) c)

/-- EXIT, the arrays' part: pipeline 4's arrays at what its write-backs leave, beside the unscoped rest as the region
    was entered, are the core's unscoped buffers at region 4's exit contents: these have each array at what the
    pipeline leaves (`hF4`) and agree with the entry contents off the arrays (`hrest4`). -/
theorem exit4 (c : Dev nD) :
    iprop((pdats m 4 c).arrays ((pdats m 4 c).arrAt · cfg4.N) ∗ Pipeline.unscopedRest spec4 c (rd (W9 m) c))
      ⊢ (unscopedBufs c (rd (W10 m) c) : sProp 𝕄) :=
  Cert.Lib.SharedArrays.unscopedBufs_of_arrays_shared (dat4 (rd (W9 m)) c) winFacts₀4.arr_unscoped arr_whole4
    (fun _ => rfl) out_alone4 (rd (W9 m) c) (rd (W10 m) c) ((dat4 (rd (W9 m)) c).arrAt · cfg4.N) (hF4 m c) (hrest4 m c)

/-! ## Region 4 as a segment -/

-- `iapply` of a lemma stated over the family at a numeral unifies with the region's own proof data only when
-- unification may unfold plain definitions in a metavariable's type
set_option backward.isDefEq.respectTransparency.types false in
/-- REGION 4 (custom_call 4) over the thread state: entered from every unscoped buffer at `W9`, left at `W10`. Its
    arrays are split out of the unscoped buffers (`entry4`) and put back at the exit contents (`exit4`); the generator
    register goes into the body's invariant and comes out; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (rd (W9 m)) c).loose
  hwaits := Pipeline.hwaits_of_owed_zero _ _ _ _ L lv 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (rd (W9 m) c)
  hentry c := by
    rw [Pipeline.ownSems0_none]
    have hsplit := entry4 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/- Region 5 of the kernel program (pipeline 5, custom_call 5) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry5`); at the exit the windows' shares are put together again, at the contents the write-backs leave, and the
   block goes back among the unscoped buffers (`exit5`). The rest of the record (`reg5`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R5
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 5 among the core's unscoped buffers -/

/-- The array of a window of region 5 that is written back is read through no other window. -/
theorem out_alone5 : ∀ w : Fin cfg5.W, (cfg5.win w).isOut = true →
    ∀ w' : Fin cfg5.W, Pipeline.arrRef spec5 w' = Pipeline.arrRef spec5 w → w' = w := by decide

/-- ENTRY, the arrays' part: the core's unscoped buffers at region 5's entry contents are pipeline 5's arrays at the
    proof data's entry contents — each window its array's buffer at the share dealt it, the buffers behind the arrays
    split off the unscoped buffers as one block and dealt among the windows that read them — beside the unscoped
    buffers that are no window's array. -/
theorem entry5 (c : Dev nD) :
    (unscopedBufs c (rd (W11 m) c) : sProp 𝕄)
      ⊢ iprop((pdats m 5 c).arrays ((pdats m 5 c).arrAt · 0) ∗ Pipeline.unscopedRest spec5 c (rd (W11 m) c)) :=
  Cert.Lib.SharedArrays.arrays_of_unscopedBufs_shared (dat5 (rd (W11 m)) c) winFacts₀5.arr_unscoped arr_whole5
    (fun _ => rfl) out_alone5 (rd (W11 m) c) (A_eq5 (rd (W11 m)) c)

/-- EXIT, the arrays' part: pipeline 5's arrays at what its write-backs leave, beside the unscoped rest as the region
    was entered, are the core's unscoped buffers at region 5's exit contents: these have each array at what the
    pipeline leaves (`hF5`) and agree with the entry contents off the arrays (`hrest5`). -/
theorem exit5 (c : Dev nD) :
    iprop((pdats m 5 c).arrays ((pdats m 5 c).arrAt · cfg5.N) ∗ Pipeline.unscopedRest spec5 c (rd (W11 m) c))
      ⊢ (unscopedBufs c (rd (W12 m) c) : sProp 𝕄) :=
  Cert.Lib.SharedArrays.unscopedBufs_of_arrays_shared (dat5 (rd (W11 m)) c) winFacts₀5.arr_unscoped arr_whole5
    (fun _ => rfl) out_alone5 (rd (W11 m) c) (rd (W12 m) c) ((dat5 (rd (W11 m)) c).arrAt · cfg5.N) (hF5 m c) (hrest5 m c)

/-! ## Region 5 as a segment -/

-- `iapply` of a lemma stated over the family at a numeral unifies with the region's own proof data only when
-- unification may unfold plain definitions in a metavariable's type
set_option backward.isDefEq.respectTransparency.types false in
/-- REGION 5 (custom_call 5) over the thread state: entered from every unscoped buffer at `W11`, left at `W12`. Its
    arrays are split out of the unscoped buffers (`entry5`) and put back at the exit contents (`exit5`); the generator
    register goes into the body's invariant and comes out; nothing is owed; the kernel has no semaphore of its own. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (rd (W11 m)) c).loose
  hwaits := Pipeline.hwaits_of_owed_zero _ _ _ _ L lv 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c (rd (W11 m) c)
  hentry c := by
    rw [Pipeline.ownSems0_none]
    have hsplit := entry5 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := exit5 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/- Region 6 of the kernel program (pipeline 6, custom_call 6) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry6`); at the exit the windows' shares are put together again, at the contents the write-backs leave, and the
   block goes back among the unscoped buffers (`exit6`). The rest of the record (`reg6`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R6
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 6 among the core's unscoped buffers -/

/-- The array of a window of region 6 that is written back is read through no other window. -/
theorem out_alone6 : ∀ w : Fin cfg6.W, (cfg6.win w).isOut = true →
    ∀ w' : Fin cfg6.W, Pipeline.arrRef spec6 w' = Pipeline.arrRef spec6 w → w' = w := by decide

/-- ENTRY, the arrays' part: the core's unscoped buffers at region 6's entry contents are pipeline 6's arrays at the
    proof data's entry contents — each window its array's buffer at the share dealt it, the buffers behind the arrays
    split off the unscoped buffers as one block and dealt among the windows that read them — beside the unscoped
    buffers that are no window's array. -/
theorem entry6 (c : Dev nD) :
    (unscopedBufs c (rd (W13 m) c) : sProp 𝕄)
      ⊢ iprop((pdats m 6 c).arrays ((pdats m 6 c).arrAt · 0) ∗ Pipeline.unscopedRest spec6 c (rd (W13 m) c)) :=
  Cert.Lib.SharedArrays.arrays_of_unscopedBufs_shared (dat6 (rd (W13 m)) c) winFacts₀6.arr_unscoped arr_whole6
    (fun _ => rfl) out_alone6 (rd (W13 m) c) (A_eq6 (rd (W13 m)) c)

/-- EXIT, the arrays' part: pipeline 6's arrays at what its write-backs leave, beside the unscoped rest as the region
    was entered, are the core's unscoped buffers at region 6's exit contents: these have each array at what the
    pipeline leaves (`hF6`) and agree with the entry contents off the arrays (`hrest6`). -/
theorem exit6 (c : Dev nD) :
    iprop((pdats m 6 c).arrays ((pdats m 6 c).arrAt · cfg6.N) ∗ Pipeline.unscopedRest spec6 c (rd (W13 m) c))
      ⊢ (unscopedBufs c (rd (W14 m) c) : sProp 𝕄) :=
  Cert.Lib.SharedArrays.unscopedBufs_of_arrays_shared (dat6 (rd (W13 m)) c) winFacts₀6.arr_unscoped arr_whole6
    (fun _ => rfl) out_alone6 (rd (W13 m) c) (rd (W14 m) c) ((dat6 (rd (W13 m)) c).arrAt · cfg6.N) (hF6 m c) (hrest6 m c)

/-! ## Region 6 as a segment -/

-- `iapply` of a lemma stated over the family at a numeral unifies with the region's own proof data only when
-- unification may unfold plain definitions in a metavariable's type
set_option backward.isDefEq.respectTransparency.types false in
/-- REGION 6 (custom_call 6) over the thread state: entered from every unscoped buffer at `W13`, left at `W14`. Its
    arrays are split out of the unscoped buffers (`entry6`) and put back at the exit contents (`exit6`); the generator
    register goes into the body's invariant and comes out; nothing is owed; the kernel has no semaphore of its own. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (rd (W13 m)) c).loose
  hwaits := Pipeline.hwaits_of_owed_zero _ _ _ _ L lv 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c (rd (W13 m) c)
  hentry c := by
    rw [Pipeline.ownSems0_none]
    have hsplit := entry6 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := exit6 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
/- Region 7 of the kernel program (pipeline 7, custom_call 7) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry7`); at the exit the windows' shares are put together again, at the contents the write-backs leave, and the
   block goes back among the unscoped buffers (`exit7`). The rest of the record (`reg7`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R7
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 7 among the core's unscoped buffers -/

/-- The array of a window of region 7 that is written back is read through no other window. -/
theorem out_alone7 : ∀ w : Fin cfg7.W, (cfg7.win w).isOut = true →
    ∀ w' : Fin cfg7.W, Pipeline.arrRef spec7 w' = Pipeline.arrRef spec7 w → w' = w := by decide

/-- ENTRY, the arrays' part: the core's unscoped buffers at region 7's entry contents are pipeline 7's arrays at the
    proof data's entry contents — each window its array's buffer at the share dealt it, the buffers behind the arrays
    split off the unscoped buffers as one block and dealt among the windows that read them — beside the unscoped
    buffers that are no window's array. -/
theorem entry7 (c : Dev nD) :
    (unscopedBufs c (rd (W15 m) c) : sProp 𝕄)
      ⊢ iprop((pdats m 7 c).arrays ((pdats m 7 c).arrAt · 0) ∗ Pipeline.unscopedRest spec7 c (rd (W15 m) c)) :=
  Cert.Lib.SharedArrays.arrays_of_unscopedBufs_shared (dat7 (rd (W15 m)) c) winFacts₀7.arr_unscoped arr_whole7
    (fun _ => rfl) out_alone7 (rd (W15 m) c) (A_eq7 (rd (W15 m)) c)

/-- EXIT, the arrays' part: pipeline 7's arrays at what its write-backs leave, beside the unscoped rest as the region
    was entered, are the core's unscoped buffers at region 7's exit contents: these have each array at what the
    pipeline leaves (`hF7`) and agree with the entry contents off the arrays (`hrest7`). -/
theorem exit7 (c : Dev nD) :
    iprop((pdats m 7 c).arrays ((pdats m 7 c).arrAt · cfg7.N) ∗ Pipeline.unscopedRest spec7 c (rd (W15 m) c))
      ⊢ (unscopedBufs c (rd (W16 m) c) : sProp 𝕄) :=
  Cert.Lib.SharedArrays.unscopedBufs_of_arrays_shared (dat7 (rd (W15 m)) c) winFacts₀7.arr_unscoped arr_whole7
    (fun _ => rfl) out_alone7 (rd (W15 m) c) (rd (W16 m) c) ((dat7 (rd (W15 m)) c).arrAt · cfg7.N) (hF7 m c) (hrest7 m c)

/-! ## Region 7 as a segment -/

-- `iapply` of a lemma stated over the family at a numeral unifies with the region's own proof data only when
-- unification may unfold plain definitions in a metavariable's type
set_option backward.isDefEq.respectTransparency.types false in
/-- REGION 7 (custom_call 7) over the thread state: entered from every unscoped buffer at `W15`, left at `W16`. Its
    arrays are split out of the unscoped buffers (`entry7`) and put back at the exit contents (`exit7`); the generator
    register goes into the body's invariant and comes out; nothing is owed; the kernel has no semaphore of its own. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (rd (W15 m)) c).loose
  hwaits := Pipeline.hwaits_of_owed_zero _ _ _ _ L lv 7 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec7 c (rd (W15 m) c)
  hentry c := by
    rw [Pipeline.ownSems0_none]
    have hsplit := entry7 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := exit7 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
/- Region 8 of the kernel program (pipeline 8, custom_call 8) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry8`); at the exit the windows' shares are put together again, at the contents the write-backs leave, and the
   block goes back among the unscoped buffers (`exit8`). The rest of the record (`reg8`) is as for distinct arrays.
   For any float model `F`. -/
import proofs.«135270_j33062658245245_1_alg».proof.Proof.K.LaunchP
import proofs.«135270_j33062658245245_1_alg».proof.Proof.K.RegionsP
import proofs.«135270_j33062658245245_1_alg».proof.Proof.K.R8
import proofs.«135270_j33062658245245_1_alg».proof.Proof.K.Outs
import proofs.«135270_j33062658245245_1_alg».proof.Proof.K.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 8 among the core's unscoped buffers -/

/-- The array of a window of region 8 that is written back is read through no other window. -/
theorem out_alone8 : ∀ w : Fin cfg8.W, (cfg8.win w).isOut = true →
    ∀ w' : Fin cfg8.W, Pipeline.arrRef spec8 w' = Pipeline.arrRef spec8 w → w' = w := by decide

/-- ENTRY, the arrays' part: the core's unscoped buffers at region 8's entry contents are pipeline 8's arrays at the
    proof data's entry contents — each window its array's buffer at the share dealt it, the buffers behind the arrays
    split off the unscoped buffers as one block and dealt among the windows that read them — beside the unscoped
    buffers that are no window's array. -/
theorem entry8 (c : Dev nD) :
    (unscopedBufs c (rd (W17 m) c) : sProp 𝕄)
      ⊢ iprop((pdats m 8 c).arrays ((pdats m 8 c).arrAt · 0) ∗ Pipeline.unscopedRest spec8 c (rd (W17 m) c)) :=
  Cert.Lib.SharedArrays.arrays_of_unscopedBufs_shared (dat8 (rd (W17 m)) c) winFacts₀8.arr_unscoped arr_whole8
    (fun _ => rfl) out_alone8 (rd (W17 m) c) (A_eq8 (rd (W17 m)) c)

/-- EXIT, the arrays' part: pipeline 8's arrays at what its write-backs leave, beside the unscoped rest as the region
    was entered, are the core's unscoped buffers at region 8's exit contents: these have each array at what the
    pipeline leaves (`hF8`) and agree with the entry contents off the arrays (`hrest8`). -/
theorem exit8 (c : Dev nD) :
    iprop((pdats m 8 c).arrays ((pdats m 8 c).arrAt · cfg8.N) ∗ Pipeline.unscopedRest spec8 c (rd (W17 m) c))
      ⊢ (unscopedBufs c (rd (W18 m) c) : sProp 𝕄) :=
  Cert.Lib.SharedArrays.unscopedBufs_of_arrays_shared (dat8 (rd (W17 m)) c) winFacts₀8.arr_unscoped arr_whole8
    (fun _ => rfl) out_alone8 (rd (W17 m) c) (rd (W18 m) c) ((dat8 (rd (W17 m)) c).arrAt · cfg8.N) (hF8 m c) (hrest8 m c)

/-! ## Region 8 as a segment -/

-- `iapply` of a lemma stated over the family at a numeral unifies with the region's own proof data only when
-- unification may unfold plain definitions in a metavariable's type
set_option backward.isDefEq.respectTransparency.types false in
/-- REGION 8 (custom_call 8) over the thread state: entered from every unscoped buffer at `W17`, left at `W18`. Its
    arrays are split out of the unscoped buffers (`entry8`) and put back at the exit contents (`exit8`); the generator
    register goes into the body's invariant and comes out; nothing is owed; the kernel has no semaphore of its own. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (rd (W17 m)) c).loose
  hwaits := Pipeline.hwaits_of_owed_zero _ _ _ _ L lv 8 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec8 c (rd (W17 m) c)
  hentry c := by
    rw [Pipeline.ownSems0_none]
    have hsplit := entry8 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := exit8 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/- THE FRAME of the kernel's @main: at the compiled mesh, from any memory with zero counters, every weakly fair execution
   of @main on the TensorCores terminates, nothing faulting, and every final memory holds the three argument arrays as
   launched. It is the conditional frame at the regions' outputs `outsH m`, the proof-data family `pdats m`, the nine
   regions' segment records, and — beside the buffers through every item — the generator register at some state and the
   core owing nothing: each region is entered from the contents before it and left at those after it because the
   conditional frame's valuations at `outsH m` are the closed contents `W1 … W18`; the launch's user element is the
   pipeline library's own; every core makes its first rest state from what the launch deals it. Generic in the float
   model `F`. -/
import proofs.«135270_j33062658245245_1_alg».proof.Proof.K.Seg0
import proofs.«135270_j33062658245245_1_alg».proof.Proof.K.Seg1
import proofs.«135270_j33062658245245_1_alg».proof.Proof.K.Seg2
import proofs.«135270_j33062658245245_1_alg».proof.Proof.K.Seg3
import proofs.«135270_j33062658245245_1_alg».proof.Proof.K.Seg4
import proofs.«135270_j33062658245245_1_alg».proof.Proof.K.Seg5
import proofs.«135270_j33062658245245_1_alg».proof.Proof.K.Seg6
import proofs.«135270_j33062658245245_1_alg».proof.Proof.K.Seg7
import proofs.«135270_j33062658245245_1_alg».proof.Proof.K.Seg8

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain: each region between the conditional frame's thread states -/

/-- Region 0 is entered from the contents before it and left at those after it. -/
theorem hpre0 (c : Dev nD) :
    iprop(StableHlo.held (c : Thread nD τ) (Pipeline.ucRefs τ sig) (V1 m c) ∗ Rst c) ⊢ (reg0 m).pre c := by
  rw [V1_eq m c]; exact .rfl
theorem hpost0 (c : Dev nD) :
    (reg0 m).post c ⊢ iprop(StableHlo.held (c : Thread nD τ) (Pipeline.ucRefs τ sig) (V2 m (outsH m) c) ∗ Rst c) := by
  rw [V2_eq m c]; exact .rfl
/-- Region 1 is entered from the contents before it and left at those after it. -/
theorem hpre1 (c : Dev nD) :
    iprop(StableHlo.held (c : Thread nD τ) (Pipeline.ucRefs τ sig) (V3 m (outsH m) c) ∗ Rst c) ⊢ (reg1 m).pre c := by
  rw [V3_eq m c]; exact .rfl
theorem hpost1 (c : Dev nD) :
    (reg1 m).post c ⊢ iprop(StableHlo.held (c : Thread nD τ) (Pipeline.ucRefs τ sig) (V4 m (outsH m) c) ∗ Rst c) := by
  rw [V4_eq m c]; exact .rfl
/-- Region 2 is entered from the contents before it and left at those after it. -/
theorem hpre2 (c : Dev nD) :
    iprop(StableHlo.held (c : Thread nD τ) (Pipeline.ucRefs τ sig) (V5 m (outsH m) c) ∗ Rst c) ⊢ (reg2 m).pre c := by
  rw [V5_eq m c]; exact .rfl
theorem hpost2 (c : Dev nD) :
    (reg2 m).post c ⊢ iprop(StableHlo.held (c : Thread nD τ) (Pipeline.ucRefs τ sig) (V6 m (outsH m) c) ∗ Rst c) := by
  rw [V6_eq m c]; exact .rfl
/-- Region 3 is entered from the contents before it and left at those after it. -/
theorem hpre3 (c : Dev nD) :
    iprop(StableHlo.held (c : Thread nD τ) (Pipeline.ucRefs τ sig) (V7 m (outsH m) c) ∗ Rst c) ⊢ (reg3 m).pre c := by
  rw [V7_eq m c]; exact .rfl
theorem hpost3 (c : Dev nD) :
    (reg3 m).post c ⊢ iprop(StableHlo.held (c : Thread nD τ) (Pipeline.ucRefs τ sig) (V8 m (outsH m) c) ∗ Rst c) := by
  rw [V8_eq m c]; exact .rfl
/-- Region 4 is entered from the contents before it and left at those after it. -/
theorem hpre4 (c : Dev nD) :
    iprop(StableHlo.held (c : Thread nD τ) (Pipeline.ucRefs τ sig) (V9 m (outsH m) c) ∗ Rst c) ⊢ (reg4 m).pre c := by
  rw [V9_eq m c]; exact .rfl
theorem hpost4 (c : Dev nD) :
    (reg4 m).post c ⊢ iprop(StableHlo.held (c : Thread nD τ) (Pipeline.ucRefs τ sig) (V10 m (outsH m) c) ∗ Rst c) := by
  rw [V10_eq m c]; exact .rfl
/-- Region 5 is entered from the contents before it and left at those after it. -/
theorem hpre5 (c : Dev nD) :
    iprop(StableHlo.held (c : Thread nD τ) (Pipeline.ucRefs τ sig) (V11 m (outsH m) c) ∗ Rst c) ⊢ (reg5 m).pre c := by
  rw [V11_eq m c]; exact .rfl
theorem hpost5 (c : Dev nD) :
    (reg5 m).post c ⊢ iprop(StableHlo.held (c : Thread nD τ) (Pipeline.ucRefs τ sig) (V12 m (outsH m) c) ∗ Rst c) := by
  rw [V12_eq m c]; exact .rfl
/-- Region 6 is entered from the contents before it and left at those after it. -/
theorem hpre6 (c : Dev nD) :
    iprop(StableHlo.held (c : Thread nD τ) (Pipeline.ucRefs τ sig) (V13 m (outsH m) c) ∗ Rst c) ⊢ (reg6 m).pre c := by
  rw [V13_eq m c]; exact .rfl
theorem hpost6 (c : Dev nD) :
    (reg6 m).post c ⊢ iprop(StableHlo.held (c : Thread nD τ) (Pipeline.ucRefs τ sig) (V14 m (outsH m) c) ∗ Rst c) := by
  rw [V14_eq m c]; exact .rfl
/-- Region 7 is entered from the contents before it and left at those after it. -/
theorem hpre7 (c : Dev nD) :
    iprop(StableHlo.held (c : Thread nD τ) (Pipeline.ucRefs τ sig) (V15 m (outsH m) c) ∗ Rst c) ⊢ (reg7 m).pre c := by
  rw [V15_eq m c]; exact .rfl
theorem hpost7 (c : Dev nD) :
    (reg7 m).post c ⊢ iprop(StableHlo.held (c : Thread nD τ) (Pipeline.ucRefs τ sig) (V16 m (outsH m) c) ∗ Rst c) := by
  rw [V16_eq m c]; exact .rfl
/-- Region 8 is entered from the contents before it and left at those after it. -/
theorem hpre8 (c : Dev nD) :
    iprop(StableHlo.held (c : Thread nD τ) (Pipeline.ucRefs τ sig) (V17 m (outsH m) c) ∗ Rst c) ⊢ (reg8 m).pre c := by
  rw [V17_eq m c]; exact .rfl
theorem hpost8 (c : Dev nD) :
    (reg8 m).post c ⊢ iprop(StableHlo.held (c : Thread nD τ) (Pipeline.ucRefs τ sig) (V18 m (outsH m) c) ∗ Rst c) := by
  rw [V18_eq m c]; exact .rfl

/-! ## The frame -/

-- the conditional frame's implicit arguments are found by unifying its conclusion with this one, which takes unfolding
-- plain definitions in a metavariable's type
set_option backward.isDefEq.respectTransparency.types false in
/-- THE FRAME, at any float model `F`. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (Ix := Unit) (U := UR sig nD τ) (Lvl := ℕ) m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)
    (R8 := reg8 m) (hpre8 := hpre8 m) (hpost8 := hpost8 m)

end Cert.Kernel.Hand

end
-- ==== Proof.KI.R0.lean ====
/- REGION 0 of the kernel's @main (pipeline 0, the grid of 8 row blocks): at any contents `V` of the TensorCore's
   buffers when the region is entered, each window's block at a point, what the body leaves in the output window's
   staging buffer as a closed function of the three input blocks (relu of the row block times the first weight
   slab plus the first bias row), the body's triple, the pipeline's proof data and the body obligation. Generic in
   the float model `F`. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight-slab window is fetched at the first point only; its block index never moves, so at every later point
    the buffer still holds the one block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias-row window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S512x128 := Rect.unit (s := S512x128) ![0, 0] S512x128.size inb_S512x128_S512x128_0_0
abbrev r0_1 : Rect S1x128x128 := Rect.unit (s := S1x128x128) ![0, 0, 0] S1x128x128.size inb_S1x128x128_S1x128x128_0_0_0
abbrev r0_2 : Rect S1x128 := Rect.unit (s := S1x128) ![0, 0] S1x128.size inb_S1x128_S1x128_0_0
abbrev r0_3 : Rect S1x512x128 := Rect.unit (s := S1x512x128) ![0, 0, 0] S1x512x128.size inb_S1x512x128_S1x512x128_0_0_0

/-! ## What the body leaves in the output window's buffer -/

/-- The output window's staging buffer after the body, from the three input blocks: its one store, whole, of the
    payload over the three loads. -/
def out0_3 (x0 : Vec F S512x128 .f32) (x1 : Vec F S1x128x128 .f32) (x2 : Vec F S1x128 .f32) : Vec F S1x512x128 .f32 :=
  View.canon [⟨r0_3, k0_pay1 (View.ld x0 r0_0) (View.ld x1 r0_1) (View.ld x2 r0_2)⟩]

/-- The one store is the whole buffer, so it covers it. -/
theorem cover0_3 (p0 : Vec F S1x512x128 .f32) (y : S1x512x128.Idx) :
    ∃ pc ∈ ([⟨r0_3, p0⟩] : List (View.Piece (Elt F) S1x512x128 .f32)), y ∈ pc.1.set :=
  View.cover_of_tiled [⟨r0_3, p0⟩] S1x512x128.size (by rfl) y

/-! ## The body's triple -/

set_option maxHeartbeats 1000000 in
/-- The kernel body on whole staging memrefs, the three inputs' at read contents `x0 x1 x2` and the output's at
    anything (the body reads it once before it overwrites it whole, and uses nothing of what it read), runs to the
    continuation holding the inputs' as they were and the output's at `out0_3` of the inputs'. -/
theorem sound_kernel0 (c : Dev nD) (E : Set ℕ) (i : grid0.Coords)
    (arg1 : Memref sig .tc .vmem S512x128 .f32) (harg1 : arg1.IsWhole) (arg2 : Memref sig .tc .vmem S1x128x128 .f32) (harg2 : arg2.IsWhole)
    (arg3 : Memref sig .tc .vmem S1x128 .f32) (harg3 : arg3.IsWhole) (arg4 : Memref sig .tc .vmem S1x512x128 .f32) (harg4 : arg4.IsWhole)
    (x0 : Vec F S512x128 .f32) (x1 : Vec F S1x128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__group_kernel i arg1 harg1 arg2 harg2 arg3 harg3 arg4 harg4) K := by
  simp only [cc0__group_kernel_eq_skeleton]; unfold cc0__group_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the kernel program (pipeline 1, `cc1__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out1_34`); the body's triple; the
   pipeline's proof data (`dat1`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: custom_call 1, `cc1__group_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)
theorem before1_26_of {c : Dev nD} (dat : Dat τ (Elt F) Unit ℕ (UR sig nD τ) ℕ cfg1 c) (hA : dat.A 26 = V c (Pipeline.arrRef spec1 26))
    (hafter : ∀ t, dat.after 26 t = iblk1 V c 26 t) (t : Fin cfg1.N) (d) : dat.before 26 t d = iblk1 V c 26 t :=
  (dat.before_in_eq_fetched 26 rfl (fun _ => rfl) (fun _ _ _ => rfl) (fun t => by rw [hafter]; unfold Dat.blockOf iblk1; rw [hA]; try rfl) t d).trans
    (by unfold Dat.fetched Dat.blockOf iblk1; rw [hA]; try rfl)
theorem before1_27_of {c : Dev nD} (dat : Dat τ (Elt F) Unit ℕ (UR sig nD τ) ℕ cfg1 c) (hA : dat.A 27 = V c (Pipeline.arrRef spec1 27))
    (hafter : ∀ t, dat.after 27 t = iblk1 V c 27 t) (t : Fin cfg1.N) (d) : dat.before 27 t d = iblk1 V c 27 t :=
  (dat.before_in_eq_fetched 27 rfl (fun _ => rfl) (fun _ _ _ => rfl) (fun t => by rw [hafter]; unfold Dat.blockOf iblk1; rw [hA]; try rfl) t d).trans
    (by unfold Dat.fetched Dat.blockOf iblk1; rw [hA]; try rfl)
theorem before1_28_of {c : Dev nD} (dat : Dat τ (Elt F) Unit ℕ (UR sig nD τ) ℕ cfg1 c) (hA : dat.A 28 = V c (Pipeline.arrRef spec1 28))
    (hafter : ∀ t, dat.after 28 t = iblk1 V c 28 t) (t : Fin cfg1.N) (d) : dat.before 28 t d = iblk1 V c 28 t :=
  (dat.before_in_eq_fetched 28 rfl (fun _ => rfl) (fun _ _ _ => rfl) (fun t => by rw [hafter]; unfold Dat.blockOf iblk1; rw [hA]; try rfl) t d).trans
    (by unfold Dat.fetched Dat.blockOf iblk1; rw [hA]; try rfl)
theorem before1_29_of {c : Dev nD} (dat : Dat τ (Elt F) Unit ℕ (UR sig nD τ) ℕ cfg1 c) (hA : dat.A 29 = V c (Pipeline.arrRef spec1 29))
    (hafter : ∀ t, dat.after 29 t = iblk1 V c 29 t) (t : Fin cfg1.N) (d) : dat.before 29 t d = iblk1 V c 29 t :=
  (dat.before_in_eq_fetched 29 rfl (fun _ => rfl) (fun _ _ _ => rfl) (fun t => by rw [hafter]; unfold Dat.blockOf iblk1; rw [hA]; try rfl) t d).trans
    (by unfold Dat.fetched Dat.blockOf iblk1; rw [hA]; try rfl)
theorem before1_30_of {c : Dev nD} (dat : Dat τ (Elt F) Unit ℕ (UR sig nD τ) ℕ cfg1 c) (hA : dat.A 30 = V c (Pipeline.arrRef spec1 30))
    (hafter : ∀ t, dat.after 30 t = iblk1 V c 30 t) (t : Fin cfg1.N) (d) : dat.before 30 t d = iblk1 V c 30 t :=
  (dat.before_in_eq_fetched 30 rfl (fun _ => rfl) (fun _ _ _ => rfl) (fun t => by rw [hafter]; unfold Dat.blockOf iblk1; rw [hA]; try rfl) t d).trans
    (by unfold Dat.fetched Dat.blockOf iblk1; rw [hA]; try rfl)
theorem before1_31_of {c : Dev nD} (dat : Dat τ (Elt F) Unit ℕ (UR sig nD τ) ℕ cfg1 c) (hA : dat.A 31 = V c (Pipeline.arrRef spec1 31))
    (hafter : ∀ t, dat.after 31 t = iblk1 V c 31 t) (t : Fin cfg1.N) (d) : dat.before 31 t d = iblk1 V c 31 t :=
  (dat.before_in_eq_fetched 31 rfl (fun _ => rfl) (fun _ _ _ => rfl) (fun t => by rw [hafter]; unfold Dat.blockOf iblk1; rw [hA]; try rfl) t d).trans
    (by unfold Dat.fetched Dat.blockOf iblk1; rw [hA]; try rfl)
theorem before1_32_of {c : Dev nD} (dat : Dat τ (Elt F) Unit ℕ (UR sig nD τ) ℕ cfg1 c) (hA : dat.A 32 = V c (Pipeline.arrRef spec1 32))
    (hafter : ∀ t, dat.after 32 t = iblk1 V c 32 t) (t : Fin cfg1.N) (d) : dat.before 32 t d = iblk1 V c 32 t :=
  (dat.before_in_eq_fetched 32 rfl (fun _ => rfl) (fun _ _ _ => rfl) (fun t => by rw [hafter]; unfold Dat.blockOf iblk1; rw [hA]; try rfl) t d).trans
    (by unfold Dat.fetched Dat.blockOf iblk1; rw [hA]; try rfl)
theorem before1_33_of {c : Dev nD} (dat : Dat τ (Elt F) Unit ℕ (UR sig nD τ) ℕ cfg1 c) (hA : dat.A 33 = V c (Pipeline.arrRef spec1 33))
    (hafter : ∀ t, dat.after 33 t = iblk1 V c 33 t) (t : Fin cfg1.N) (d) : dat.before 33 t d = iblk1 V c 33 t :=
  (dat.before_in_eq_fetched 33 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A parent's whole block. -/
abbrev r1_p : Rect S512x128 := Rect.unit (s := S512x128) ![0, 0] S512x128.size inb_S512x128_S512x128_0_0
/-- Slab `k` of the weight slice, -/
abbrev r1_w0 : Rect S8x128x128 := Rect.unit (s := S8x128x128) ![0, 0, 0] S1x128x128.size inb_S8x128x128_S1x128x128_0_0_0
abbrev r1_w1 : Rect S8x128x128 := Rect.unit (s := S8x128x128) ![1, 0, 0] S1x128x128.size inb_S8x128x128_S1x128x128_1_0_0
abbrev r1_w2 : Rect S8x128x128 := Rect.unit (s := S8x128x128) ![2, 0, 0] S1x128x128.size inb_S8x128x128_S1x128x128_2_0_0
abbrev r1_w3 : Rect S8x128x128 := Rect.unit (s := S8x128x128) ![3, 0, 0] S1x128x128.size inb_S8x128x128_S1x128x128_3_0_0
abbrev r1_w4 : Rect S8x128x128 := Rect.unit (s := S8x128x128) ![4, 0, 0] S1x128x128.size inb_S8x128x128_S1x128x128_4_0_0
abbrev r1_w5 : Rect S8x128x128 := Rect.unit (s := S8x128x128) ![5, 0, 0] S1x128x128.size inb_S8x128x128_S1x128x128_5_0_0
abbrev r1_w6 : Rect S8x128x128 := Rect.unit (s := S8x128x128) ![6, 0, 0] S1x128x128.size inb_S8x128x128_S1x128x128_6_0_0
abbrev r1_w7 : Rect S8x128x128 := Rect.unit (s := S8x128x128) ![7, 0, 0] S1x128x128.size inb_S8x128x128_S1x128x128_7_0_0
/-- row `k` of the bias slice, -/
abbrev r1_b0 : Rect S8x128 := Rect.unit (s := S8x128) ![0, 0] S1x128.size inb_S8x128_S1x128_0_0
abbrev r1_b1 : Rect S8x128 := Rect.unit (s := S8x128) ![1, 0] S1x128.size inb_S8x128_S1x128_1_0
abbrev r1_b2 : Rect S8x128 := Rect.unit (s := S8x128) ![2, 0] S1x128.size inb_S8x128_S1x128_2_0
abbrev r1_b3 : Rect S8x128 := Rect.unit (s := S8x128) ![3, 0] S1x128.size inb_S8x128_S1x128_3_0
abbrev r1_b4 : Rect S8x128 := Rect.unit (s := S8x128) ![4, 0] S1x128.size inb_S8x128_S1x128_4_0
abbrev r1_b5 : Rect S8x128 := Rect.unit (s := S8x128) ![5, 0] S1x128.size inb_S8x128_S1x128_5_0
abbrev r1_b6 : Rect S8x128 := Rect.unit (s := S8x128) ![6, 0] S1x128.size inb_S8x128_S1x128_6_0
abbrev r1_b7 : Rect S8x128 := Rect.unit (s := S8x128) ![7, 0] S1x128.size inb_S8x128_S1x128_7_0
/-- and slab `k` of the output block. -/
abbrev r1_o0 : Rect S8x512x128 := Rect.unit (s := S8x512x128) ![0, 0, 0] S1x512x128.size inb_S8x512x128_S1x512x128_0_0_0
abbrev r1_o1 : Rect S8x512x128 := Rect.unit (s := S8x512x128) ![1, 0, 0] S1x512x128.size inb_S8x512x128_S1x512x128_1_0_0
abbrev r1_o2 : Rect S8x512x128 := Rect.unit (s := S8x512x128) ![2, 0, 0] S1x512x128.size inb_S8x512x128_S1x512x128_2_0_0
abbrev r1_o3 : Rect S8x512x128 := Rect.unit (s := S8x512x128) ![3, 0, 0] S1x512x128.size inb_S8x512x128_S1x512x128_3_0_0
abbrev r1_o4 : Rect S8x512x128 := Rect.unit (s := S8x512x128) ![4, 0, 0] S1x512x128.size inb_S8x512x128_S1x512x128_4_0_0
abbrev r1_o5 : Rect S8x512x128 := Rect.unit (s := S8x512x128) ![5, 0, 0] S1x512x128.size inb_S8x512x128_S1x512x128_5_0_0
abbrev r1_o6 : Rect S8x512x128 := Rect.unit (s := S8x512x128) ![6, 0, 0] S1x512x128.size inb_S8x512x128_S1x512x128_6_0_0
abbrev r1_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab1_0 (p : Fin 32 → Vec F S512x128 .f32) (wt : Vec F S8x128x128 .f32) (bs : Vec F S8x128 .f32) : Vec F S1x512x128 .f32 :=
  k1_pay1 (View.ld (p 0) r1_p) (View.ld (p 1) r1_p) (View.ld (p 2) r1_p) (View.ld (p 3) r1_p) (View.ld wt r1_w0) (View.ld bs r1_b0)
def slab1_1 (p : Fin 32 → Vec F S512x128 .f32) (wt : Vec F S8x128x128 .f32) (bs : Vec F S8x128 .f32) : Vec F S1x512x128 .f32 :=
  k1_pay3 (k1_pay2 (View.ld (p 4) r1_p) (View.ld (p 5) r1_p) (View.ld (p 6) r1_p)) (View.ld (p 7) r1_p) (View.ld wt r1_w1) (View.ld bs r1_b1)
def slab1_2 (p : Fin 32 → Vec F S512x128 .f32) (wt : Vec F S8x128x128 .f32) (bs : Vec F S8x128 .f32) : Vec F S1x512x128 .f32 :=
  k1_pay7 (k1_pay4 (View.ld (p 8) r1_p) (View.ld (p 9) r1_p) (View.ld (p 10) r1_p) (View.ld (p 11) r1_p)) (k1_pay5 (View.ld wt r1_w2)) (k1_pay6 (View.ld bs r1_b2))
def slab1_3 (p : Fin 32 → Vec F S512x128 .f32) (wt : Vec F S8x128x128 .f32) (bs : Vec F S8x128 .f32) : Vec F S1x512x128 .f32 :=
  k1_pay8 (View.ld (p 12) r1_p) (View.ld (p 13) r1_p) (View.ld (p 14) r1_p) (View.ld (p 15) r1_p) (View.ld wt r1_w3) (View.ld bs r1_b3)
def slab1_4 (p : Fin 32 → Vec F S512x128 .f32) (wt : Vec F S8x128x128 .f32) (bs : Vec F S8x128 .f32) : Vec F S1x512x128 .f32 :=
  k1_pay9 (View.ld (p 16) r1_p) (View.ld (p 17) r1_p) (View.ld (p 18) r1_p) (View.ld (p 19) r1_p) (View.ld wt r1_w4) (View.ld bs r1_b4)
def slab1_5 (p : Fin 32 → Vec F S512x128 .f32) (wt : Vec F S8x128x128 .f32) (bs : Vec F S8x128 .f32) : Vec F S1x512x128 .f32 :=
  k1_pay11 (k1_pay10 (View.ld (p 20) r1_p) (View.ld (p 21) r1_p) (View.ld (p 22) r1_p)) (View.ld (p 23) r1_p) (View.ld wt r1_w5) (View.ld bs r1_b5)
def slab1_6 (p : Fin 32 → Vec F S512x128 .f32) (wt : Vec F S8x128x128 .f32) (bs : Vec F S8x128 .f32) : Vec F S1x512x128 .f32 :=
  k1_pay15 (k1_pay12 (View.ld (p 24) r1_p) (View.ld (p 25) r1_p) (View.ld (p 26) r1_p) (View.ld (p 27) r1_p)) (k1_pay13 (View.ld wt r1_w6)) (k1_pay14 (View.ld bs r1_b6))
def slab1_7 (p : Fin 32 → Vec F S512x128 .f32) (wt : Vec F S8x128x128 .f32) (bs : Vec F S8x128 .f32) : Vec F S1x512x128 .f32 :=
  k1_pay16 (View.ld (p 28) r1_p) (View.ld (p 29) r1_p) (View.ld (p 30) r1_p) (View.ld (p 31) r1_p) (View.ld wt r1_w7) (View.ld bs r1_b7)

/-- Window 34's staging buffer after the body, from the input windows' blocks: its 8 stores as pieces, LAST FIRST. -/
def out1_34 (p : Fin 32 → Vec F S512x128 .f32) (wt : Vec F S8x128x128 .f32) (bs : Vec F S8x128 .f32) : Vec F S8x512x128 .f32 :=
  View.canon [⟨r1_o7, slab1_7 p wt bs⟩, ⟨r1_o6, slab1_6 p wt bs⟩, ⟨r1_o5, slab1_5 p wt bs⟩, ⟨r1_o4, slab1_4 p wt bs⟩, ⟨r1_o3, slab1_3 p wt bs⟩, ⟨r1_o2, slab1_2 p wt bs⟩, ⟨r1_o1, slab1_1 p wt bs⟩, ⟨r1_o0, slab1_0 p wt bs⟩]

/-- The eight stores tile the buffer (checked by evaluation), so they cover it. -/
theorem cover1_34 (p0 p1 p2 p3 p4 p5 p6 p7 : Vec F S1x512x128 .f32) (y : S8x512x128.Idx) :
    ∃ pc ∈ ([⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] : List (View.Piece (Elt F) S8x512x128 .f32)), y ∈ pc.1.set :=
  View.cover_of_tiled [⟨r1_o7, p7⟩, ⟨r1_o6, p6⟩, ⟨r1_o5, p5⟩, ⟨r1_o4, p4⟩, ⟨r1_o3, p3⟩, ⟨r1_o2, p2⟩, ⟨r1_o1, p1⟩, ⟨r1_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out1_34` of the inputs': the printed
    functions are their skeletons, run through every part call; each slab's load of the output buffer before its store
    reads contents nothing uses. -/
theorem sound_kernel1 (c : Dev nD) (E : Set ℕ) (i : grid1.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out1_34 p wt bs)) -∗ K ⟨⟩))
      ⊢ wp frame (wpE (defs₀ (F := F)) Variants.none c none) E (cc1__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out1_34 slab1_0 slab1_1 slab1_2 slab1_3 slab1_4 slab1_5 slab1_6 slab1_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc1__group_kernel_eq_skeleton]; unfold cc1__group_kernel_skel
  simp only [k1_part1_eq_skeleton, k1_part2_eq_skeleton, k1_part3_eq_skeleton, k1_part4_eq_skeleton, k1_part5_eq_skeleton, k1_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover1_34 _ _ _ _ _ _ _ _)

/-! ## The pipeline's proof data -/

/-- The 32 parent blocks at point `t`, as one family: parent `j` of slab `k` is window `4k+j`. -/
def par1 (c : Dev nD) (t : Fin cfg1.N) : Fin 32 → Vec F S512x128 .f32 := fun j => match j with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => iblk1 V c 30 t
    | ⟨31, _⟩ => iblk1 V c 31 t
    | ⟨_ + 32, h⟩ => absurd h (Nat.not_lt.2 (Nat.le_add_left _ _))

/-- The family at a literal index (the `match` reduced by `dsimp`). -/
theorem par1_0 (c : Dev nD) (t : Fin cfg1.N) : par1 V c t 0 = iblk1 V c 0 t := by dsimp only [par1]
theorem par1_1 (c : Dev nD) (t : Fin cfg1.N) : par1 V c t 1 = iblk1 V c 1 t := by dsimp only [par1]
theorem par1_2 (c : Dev nD) (t : Fin cfg1.N) : par1 V c t 2 = iblk1 V c 2 t := by dsimp only [par1]
theorem par1_3 (c : Dev nD) (t : Fin cfg1.N) : par1 V c t 3 = iblk1 V c 3 t := by dsimp only [par1]
theorem par1_4 (c : Dev nD) (t : Fin cfg1.N) : par1 V c t 4 = iblk1 V c 4 t := by dsimp only [par1]
theorem par1_5 (c : Dev nD) (t : Fin cfg1.N) : par1 V c t 5 = iblk1 V c 5 t := by dsimp only [par1]
theorem par1_6 (c : Dev nD) (t : Fin cfg1.N) : par1 V c t 6 = iblk1 V c 6 t := by dsimp only [par1]
theorem par1_7 (c : Dev nD) (t : Fin cfg1.N) : par1 V c t 7 = iblk1 V c 7 t := by dsimp only [par1]
theorem par1_8 (c : Dev nD) (t : Fin cfg1.N) : par1 V c t 8 = iblk1 V c 8 t := by dsimp only [par1]
theorem par1_9 (c : Dev nD) (t : Fin cfg1.N) : par1 V c t 9 = iblk1 V c 9 t := by dsimp only [par1]
theorem par1_10 (c : Dev nD) (t : Fin cfg1.N) : par1 V c t 10 = iblk1 V c 10 t := by dsimp only [par1]
theorem par1_11 (c : Dev nD) (t : Fin cfg1.N) : par1 V c t 11 = iblk1 V c 11 t := by dsimp only [par1]
theorem par1_12 (c : Dev nD) (t : Fin cfg1.N) : par1 V c t 12 = iblk1 V c 12 t := by dsimp only [par1]
theorem par1_13 (c : Dev nD) (t : Fin cfg1.N) : par1 V c t 13 = iblk1 V c 13 t := by dsimp only [par1]
theorem par1_14 (c : Dev nD) (t : Fin cfg1.N) : par1 V c t 14 = iblk1 V c 14 t := by dsimp only [par1]
theorem par1_15 (c : Dev nD) (t : Fin cfg1.N) : par1 V c t 15 = iblk1 V c 15 t := by dsimp only [par1]
theorem par1_16 (c : Dev nD) (t : Fin cfg1.N) : par1 V c t 16 = iblk1 V c 16 t := by dsimp only [par1]
theorem par1_17 (c : Dev nD) (t : Fin cfg1.N) : par1 V c t 17 = iblk1 V c 17 t := by dsimp only [par1]
theorem par1_18 (c : Dev nD) (t : Fin cfg1.N) : par1 V c t 18 = iblk1 V c 18 t := by dsimp only [par1]
theorem par1_19 (c : Dev nD) (t : Fin cfg1.N) : par1 V c t 19 = iblk1 V c 19 t := by dsimp only [par1]
theorem par1_20 (c : Dev nD) (t : Fin cfg1.N) : par1 V c t 20 = iblk1 V c 20 t := by dsimp only [par1]
theorem par1_21 (c : Dev nD) (t : Fin cfg1.N) : par1 V c t 21 = iblk1 V c 21 t := by dsimp only [par1]
theorem par1_22 (c : Dev nD) (t : Fin cfg1.N) : par1 V c t 22 = iblk1 V c 22 t := by dsimp only [par1]
theorem par1_23 (c : Dev nD) (t : Fin cfg1.N) : par1 V c t 23 = iblk1 V c 23 t := by dsimp only [par1]
theorem par1_24 (c : Dev nD) (t : Fin cfg1.N) : par1 V c t 24 = iblk1 V c 24 t := by dsimp only [par1]
theorem par1_25 (c : Dev nD) (t : Fin cfg1.N) : par1 V c t 25 = iblk1 V c 25 t := by dsimp only [par1]
theorem par1_26 (c : Dev nD) (t : Fin cfg1.N) : par1 V c t 26 = iblk1 V c 26 t := by dsimp only [par1]
theorem par1_27 (c : Dev nD) (t : Fin cfg1.N) : par1 V c t 27 = iblk1 V c 27 t := by dsimp only [par1]
theorem par1_28 (c : Dev nD) (t : Fin cfg1.N) : par1 V c t 28 = iblk1 V c 28 t := by dsimp only [par1]
theorem par1_29 (c : Dev nD) (t : Fin cfg1.N) : par1 V c t 29 = iblk1 V c 29 t := by dsimp only [par1]
theorem par1_30 (c : Dev nD) (t : Fin cfg1.N) : par1 V c t 30 = iblk1 V c 30 t := by dsimp only [par1]
theorem par1_31 (c : Dev nD) (t : Fin cfg1.N) : par1 V c t 31 = iblk1 V c 31 t := by dsimp only [par1]

/-- The proof data of pipeline 1 on core `c`: the arrays as the region finds them (`V`); after the body at point `t`
    each input's buffer at its block and the output's at `out1_34` of the input blocks; the invariant the scoped rest
    and the generator register, untouched; nothing owed; of each windowed array the share its window holds when
    several windows read one array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => iblk1 V c 30 t
    | ⟨31, _⟩ => iblk1 V c 31 t
    | ⟨32, _⟩ => iblk1 V c 32 t
    | ⟨33, _⟩ => iblk1 V c 33 t
    | ⟨34, _⟩ => out1_34 (par1 V c t) (iblk1 V c 32 t) (iblk1 V c 33 t)
    | ⟨_ + 35, h⟩ => absurd h (Nat.not_lt.2 (Nat.le_add_left _ _))
  Φ _ := Pipeline.ΦA spec1 c
  q w := Cert.Lib.SharedArrays.shareOf (Pipeline.arrRef spec1) w
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = iblk1 V c 28 t := by dsimp only [dat1]
theorem after1_29 (c : Dev nD) (t : Fin cfg1.N) : (dat1 V c).after 29 t = iblk1 V c 29 t := by dsimp only [dat1]
theorem after1_30 (c : Dev nD) (t : Fin cfg1.N) : (dat1 V c).after 30 t = iblk1 V c 30 t := by dsimp only [dat1]
theorem after1_31 (c : Dev nD) (t : Fin cfg1.N) : (dat1 V c).after 31 t = iblk1 V c 31 t := by dsimp only [dat1]
theorem after1_32 (c : Dev nD) (t : Fin cfg1.N) : (dat1 V c).after 32 t = iblk1 V c 32 t := by dsimp only [dat1]
theorem after1_33 (c : Dev nD) (t : Fin cfg1.N) : (dat1 V c).after 33 t = iblk1 V c 33 t := by dsimp only [dat1]
theorem after1_34 (c : Dev nD) (t : Fin cfg1.N) :
    (dat1 V c).after 34 t = out1_34 (par1 V c t) (iblk1 V c 32 t) (iblk1 V c 33 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d
theorem before1_26 (c : Dev nD) (t : Fin cfg1.N) (d) : (dat1 V c).before 26 t d = iblk1 V c 26 t :=
  before1_26_of V (dat1 V c) (A_eq1 V c 26) (after1_26 V c) t d
theorem before1_27 (c : Dev nD) (t : Fin cfg1.N) (d) : (dat1 V c).before 27 t d = iblk1 V c 27 t :=
  before1_27_of V (dat1 V c) (A_eq1 V c 27) (after1_27 V c) t d
theorem before1_28 (c : Dev nD) (t : Fin cfg1.N) (d) : (dat1 V c).before 28 t d = iblk1 V c 28 t :=
  before1_28_of V (dat1 V c) (A_eq1 V c 28) (after1_28 V c) t d
theorem before1_29 (c : Dev nD) (t : Fin cfg1.N) (d) : (dat1 V c).before 29 t d = iblk1 V c 29 t :=
  before1_29_of V (dat1 V c) (A_eq1 V c 29) (after1_29 V c) t d
theorem before1_30 (c : Dev nD) (t : Fin cfg1.N) (d) : (dat1 V c).before 30 t d = iblk1 V c 30 t :=
  before1_30_of V (dat1 V c) (A_eq1 V c 30) (after1_30 V c) t d
theorem before1_31 (c : Dev nD) (t : Fin cfg1.N) (d) : (dat1 V c).before 31 t d = iblk1 V c 31 t :=
  before1_31_of V (dat1 V c) (A_eq1 V c 31) (after1_31 V c) t d
theorem before1_32 (c : Dev nD) (t : Fin cfg1.N) (d) : (dat1 V c).before 32 t d = iblk1 V c 32 t :=
  before1_32_of V (dat1 V c) (A_eq1 V c 32) (after1_32 V c) t d
theorem before1_33 (c : Dev nD) (t : Fin cfg1.N) (d) : (dat1 V c).before 33 t d = iblk1 V c 33 t :=
  before1_33_of V (dat1 V c) (A_eq1 V c 33) (after1_33 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d))
    ∗ (∃ d, owns (c : Thread nD τ) (st1_29 t) fullShare ((dat1 V c).before 29 t d))
    ∗ (∃ d, owns (c : Thread nD τ) (st1_30 t) fullShare ((dat1 V c).before 30 t d))
    ∗ (∃ d, owns (c : Thread nD τ) (st1_31 t) fullShare ((dat1 V c).before 31 t d))
    ∗ (∃ d, owns (c : Thread nD τ) (st1_32 t) fullShare ((dat1 V c).before 32 t d))
    ∗ (∃ d, owns (c : Thread nD τ) (st1_33 t) fullShare ((dat1 V c).before 33 t d))
    ∗ (∃ d, owns (c : Thread nD τ) (st1_34 t) fullShare ((dat1 V c).before 34 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t)
    ∗ owns (c : Thread nD τ) (st1_29 t) fullShare ((dat1 V c).after 29 t)
    ∗ owns (c : Thread nD τ) (st1_30 t) fullShare ((dat1 V c).after 30 t)
    ∗ owns (c : Thread nD τ) (st1_31 t) fullShare ((dat1 V c).after 31 t)
    ∗ owns (c : Thread nD τ) (st1_32 t) fullShare ((dat1 V c).after 32 t)
    ∗ owns (c : Thread nD τ) (st1_33 t) fullShare ((dat1 V c).after 33 t)
    ∗ owns (c : Thread nD τ) (st1_34 t) fullShare ((dat1 V c).after 34 t))

set_option maxHeartbeats 4000000 in
/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29, before1_30, before1_31, before1_32, before1_33]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30, after1_31, after1_32, after1_33, after1_34]
  have hk := fun K => sound_kernel1 (F := F) c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12)) _ (hstage1_13 ((cfg1.slots t 13).cast nbuf1_13)) _ (hstage1_14 ((cfg1.slots t 14).cast nbuf1_14)) _ (hstage1_15 ((cfg1.slots t 15).cast nbuf1_15)) _ (hstage1_16 ((cfg1.slots t 16).cast nbuf1_16)) _ (hstage1_17 ((cfg1.slots t 17).cast nbuf1_17)) _ (hstage1_18 ((cfg1.slots t 18).cast nbuf1_18)) _ (hstage1_19 ((cfg1.slots t 19).cast nbuf1_19)) _ (hstage1_20 ((cfg1.slots t 20).cast nbuf1_20)) _ (hstage1_21 ((cfg1.slots t 21).cast nbuf1_21)) _ (hstage1_22 ((cfg1.slots t 22).cast nbuf1_22)) _ (hstage1_23 ((cfg1.slots t 23).cast nbuf1_23)) _ (hstage1_24 ((cfg1.slots t 24).cast nbuf1_24)) _ (hstage1_25 ((cfg1.slots t 25).cast nbuf1_25)) _ (hstage1_26 ((cfg1.slots t 26).cast nbuf1_26)) _ (hstage1_27 ((cfg1.slots t 27).cast nbuf1_27)) _ (hstage1_28 ((cfg1.slots t 28).cast nbuf1_28)) _ (hstage1_29 ((cfg1.slots t 29).cast nbuf1_29)) _ (hstage1_30 ((cfg1.slots t 30).cast nbuf1_30)) _ (hstage1_31 ((cfg1.slots t 31).cast nbuf1_31)) _ (hstage1_32 ((cfg1.slots t 32).cast nbuf1_32)) _ (hstage1_33 ((cfg1.slots t 33).cast nbuf1_33)) _ (hstage1_34 ((cfg1.slots t 34).cast nbuf1_34))
    (par1 V c t) (iblk1 V c 32 t) (iblk1 V c 33 t) K
  simp only [par1_0, par1_1, par1_2, par1_3, par1_4, par1_5, par1_6, par1_7, par1_8, par1_9, par1_10, par1_11, par1_12, par1_13, par1_14, par1_15, par1_16, par1_17, par1_18, par1_19, par1_20, par1_21, par1_22, par1_23, par1_24, par1_25, par1_26, par1_27, par1_28, par1_29, par1_30, par1_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the kernel program (pipeline 2, `cc2__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out2_34`); the body's triple; the
   pipeline's proof data (`dat2`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2: custom_call 2, `cc2__group_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
theorem before2_19_of {c : Dev nD} (dat : Dat τ (Elt F) Unit ℕ (UR sig nD τ) ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
theorem before2_20_of {c : Dev nD} (dat : Dat τ (Elt F) Unit ℕ (UR sig nD τ) ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
theorem before2_21_of {c : Dev nD} (dat : Dat τ (Elt F) Unit ℕ (UR sig nD τ) ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)
theorem before2_22_of {c : Dev nD} (dat : Dat τ (Elt F) Unit ℕ (UR sig nD τ) ℕ cfg2 c) (hA : dat.A 22 = V c (Pipeline.arrRef spec2 22))
    (hafter : ∀ t, dat.after 22 t = iblk2 V c 22 t) (t : Fin cfg2.N) (d) : dat.before 22 t d = iblk2 V c 22 t :=
  (dat.before_in_eq_fetched 22 rfl (fun _ => rfl) (fun _ _ _ => rfl) (fun t => by rw [hafter]; unfold Dat.blockOf iblk2; rw [hA]; try rfl) t d).trans
    (by unfold Dat.fetched Dat.blockOf iblk2; rw [hA]; try rfl)
theorem before2_23_of {c : Dev nD} (dat : Dat τ (Elt F) Unit ℕ (UR sig nD τ) ℕ cfg2 c) (hA : dat.A 23 = V c (Pipeline.arrRef spec2 23))
    (hafter : ∀ t, dat.after 23 t = iblk2 V c 23 t) (t : Fin cfg2.N) (d) : dat.before 23 t d = iblk2 V c 23 t :=
  (dat.before_in_eq_fetched 23 rfl (fun _ => rfl) (fun _ _ _ => rfl) (fun t => by rw [hafter]; unfold Dat.blockOf iblk2; rw [hA]; try rfl) t d).trans
    (by unfold Dat.fetched Dat.blockOf iblk2; rw [hA]; try rfl)
theorem before2_24_of {c : Dev nD} (dat : Dat τ (Elt F) Unit ℕ (UR sig nD τ) ℕ cfg2 c) (hA : dat.A 24 = V c (Pipeline.arrRef spec2 24))
    (hafter : ∀ t, dat.after 24 t = iblk2 V c 24 t) (t : Fin cfg2.N) (d) : dat.before 24 t d = iblk2 V c 24 t :=
  (dat.before_in_eq_fetched 24 rfl (fun _ => rfl) (fun _ _ _ => rfl) (fun t => by rw [hafter]; unfold Dat.blockOf iblk2; rw [hA]; try rfl) t d).trans
    (by unfold Dat.fetched Dat.blockOf iblk2; rw [hA]; try rfl)
theorem before2_25_of {c : Dev nD} (dat : Dat τ (Elt F) Unit ℕ (UR sig nD τ) ℕ cfg2 c) (hA : dat.A 25 = V c (Pipeline.arrRef spec2 25))
    (hafter : ∀ t, dat.after 25 t = iblk2 V c 25 t) (t : Fin cfg2.N) (d) : dat.before 25 t d = iblk2 V c 25 t :=
  (dat.before_in_eq_fetched 25 rfl (fun _ => rfl) (fun _ _ _ => rfl) (fun t => by rw [hafter]; unfold Dat.blockOf iblk2; rw [hA]; try rfl) t d).trans
    (by unfold Dat.fetched Dat.blockOf iblk2; rw [hA]; try rfl)
theorem before2_26_of {c : Dev nD} (dat : Dat τ (Elt F) Unit ℕ (UR sig nD τ) ℕ cfg2 c) (hA : dat.A 26 = V c (Pipeline.arrRef spec2 26))
    (hafter : ∀ t, dat.after 26 t = iblk2 V c 26 t) (t : Fin cfg2.N) (d) : dat.before 26 t d = iblk2 V c 26 t :=
  (dat.before_in_eq_fetched 26 rfl (fun _ => rfl) (fun _ _ _ => rfl) (fun t => by rw [hafter]; unfold Dat.blockOf iblk2; rw [hA]; try rfl) t d).trans
    (by unfold Dat.fetched Dat.blockOf iblk2; rw [hA]; try rfl)
theorem before2_27_of {c : Dev nD} (dat : Dat τ (Elt F) Unit ℕ (UR sig nD τ) ℕ cfg2 c) (hA : dat.A 27 = V c (Pipeline.arrRef spec2 27))
    (hafter : ∀ t, dat.after 27 t = iblk2 V c 27 t) (t : Fin cfg2.N) (d) : dat.before 27 t d = iblk2 V c 27 t :=
  (dat.before_in_eq_fetched 27 rfl (fun _ => rfl) (fun _ _ _ => rfl) (fun t => by rw [hafter]; unfold Dat.blockOf iblk2; rw [hA]; try rfl) t d).trans
    (by unfold Dat.fetched Dat.blockOf iblk2; rw [hA]; try rfl)
theorem before2_28_of {c : Dev nD} (dat : Dat τ (Elt F) Unit ℕ (UR sig nD τ) ℕ cfg2 c) (hA : dat.A 28 = V c (Pipeline.arrRef spec2 28))
    (hafter : ∀ t, dat.after 28 t = iblk2 V c 28 t) (t : Fin cfg2.N) (d) : dat.before 28 t d = iblk2 V c 28 t :=
  (dat.before_in_eq_fetched 28 rfl (fun _ => rfl) (fun _ _ _ => rfl) (fun t => by rw [hafter]; unfold Dat.blockOf iblk2; rw [hA]; try rfl) t d).trans
    (by unfold Dat.fetched Dat.blockOf iblk2; rw [hA]; try rfl)
theorem before2_29_of {c : Dev nD} (dat : Dat τ (Elt F) Unit ℕ (UR sig nD τ) ℕ cfg2 c) (hA : dat.A 29 = V c (Pipeline.arrRef spec2 29))
    (hafter : ∀ t, dat.after 29 t = iblk2 V c 29 t) (t : Fin cfg2.N) (d) : dat.before 29 t d = iblk2 V c 29 t :=
  (dat.before_in_eq_fetched 29 rfl (fun _ => rfl) (fun _ _ _ => rfl) (fun t => by rw [hafter]; unfold Dat.blockOf iblk2; rw [hA]; try rfl) t d).trans
    (by unfold Dat.fetched Dat.blockOf iblk2; rw [hA]; try rfl)
theorem before2_30_of {c : Dev nD} (dat : Dat τ (Elt F) Unit ℕ (UR sig nD τ) ℕ cfg2 c) (hA : dat.A 30 = V c (Pipeline.arrRef spec2 30))
    (hafter : ∀ t, dat.after 30 t = iblk2 V c 30 t) (t : Fin cfg2.N) (d) : dat.before 30 t d = iblk2 V c 30 t :=
  (dat.before_in_eq_fetched 30 rfl (fun _ => rfl) (fun _ _ _ => rfl) (fun t => by rw [hafter]; unfold Dat.blockOf iblk2; rw [hA]; try rfl) t d).trans
    (by unfold Dat.fetched Dat.blockOf iblk2; rw [hA]; try rfl)
theorem before2_31_of {c : Dev nD} (dat : Dat τ (Elt F) Unit ℕ (UR sig nD τ) ℕ cfg2 c) (hA : dat.A 31 = V c (Pipeline.arrRef spec2 31))
    (hafter : ∀ t, dat.after 31 t = iblk2 V c 31 t) (t : Fin cfg2.N) (d) : dat.before 31 t d = iblk2 V c 31 t :=
  (dat.before_in_eq_fetched 31 rfl (fun _ => rfl) (fun _ _ _ => rfl) (fun t => by rw [hafter]; unfold Dat.blockOf iblk2; rw [hA]; try rfl) t d).trans
    (by unfold Dat.fetched Dat.blockOf iblk2; rw [hA]; try rfl)
theorem before2_32_of {c : Dev nD} (dat : Dat τ (Elt F) Unit ℕ (UR sig nD τ) ℕ cfg2 c) (hA : dat.A 32 = V c (Pipeline.arrRef spec2 32))
    (hafter : ∀ t, dat.after 32 t = iblk2 V c 32 t) (t : Fin cfg2.N) (d) : dat.before 32 t d = iblk2 V c 32 t :=
  (dat.before_in_eq_fetched 32 rfl (fun _ => rfl) (fun _ _ _ => rfl) (fun t => by rw [hafter]; unfold Dat.blockOf iblk2; rw [hA]; try rfl) t d).trans
    (by unfold Dat.fetched Dat.blockOf iblk2; rw [hA]; try rfl)
theorem before2_33_of {c : Dev nD} (dat : Dat τ (Elt F) Unit ℕ (UR sig nD τ) ℕ cfg2 c) (hA : dat.A 33 = V c (Pipeline.arrRef spec2 33))
    (hafter : ∀ t, dat.after 33 t = iblk2 V c 33 t) (t : Fin cfg2.N) (d) : dat.before 33 t d = iblk2 V c 33 t :=
  (dat.before_in_eq_fetched 33 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- A parent's whole block. -/
abbrev r2_p : Rect S512x128 := Rect.unit (s := S512x128) ![0, 0] S512x128.size inb_S512x128_S512x128_0_0
/-- Slab `k` of the weight slice, -/
abbrev r2_w0 : Rect S8x128x128 := Rect.unit (s := S8x128x128) ![0, 0, 0] S1x128x128.size inb_S8x128x128_S1x128x128_0_0_0
abbrev r2_w1 : Rect S8x128x128 := Rect.unit (s := S8x128x128) ![1, 0, 0] S1x128x128.size inb_S8x128x128_S1x128x128_1_0_0
abbrev r2_w2 : Rect S8x128x128 := Rect.unit (s := S8x128x128) ![2, 0, 0] S1x128x128.size inb_S8x128x128_S1x128x128_2_0_0
abbrev r2_w3 : Rect S8x128x128 := Rect.unit (s := S8x128x128) ![3, 0, 0] S1x128x128.size inb_S8x128x128_S1x128x128_3_0_0
abbrev r2_w4 : Rect S8x128x128 := Rect.unit (s := S8x128x128) ![4, 0, 0] S1x128x128.size inb_S8x128x128_S1x128x128_4_0_0
abbrev r2_w5 : Rect S8x128x128 := Rect.unit (s := S8x128x128) ![5, 0, 0] S1x128x128.size inb_S8x128x128_S1x128x128_5_0_0
abbrev r2_w6 : Rect S8x128x128 := Rect.unit (s := S8x128x128) ![6, 0, 0] S1x128x128.size inb_S8x128x128_S1x128x128_6_0_0
abbrev r2_w7 : Rect S8x128x128 := Rect.unit (s := S8x128x128) ![7, 0, 0] S1x128x128.size inb_S8x128x128_S1x128x128_7_0_0
/-- row `k` of the bias slice, -/
abbrev r2_b0 : Rect S8x128 := Rect.unit (s := S8x128) ![0, 0] S1x128.size inb_S8x128_S1x128_0_0
abbrev r2_b1 : Rect S8x128 := Rect.unit (s := S8x128) ![1, 0] S1x128.size inb_S8x128_S1x128_1_0
abbrev r2_b2 : Rect S8x128 := Rect.unit (s := S8x128) ![2, 0] S1x128.size inb_S8x128_S1x128_2_0
abbrev r2_b3 : Rect S8x128 := Rect.unit (s := S8x128) ![3, 0] S1x128.size inb_S8x128_S1x128_3_0
abbrev r2_b4 : Rect S8x128 := Rect.unit (s := S8x128) ![4, 0] S1x128.size inb_S8x128_S1x128_4_0
abbrev r2_b5 : Rect S8x128 := Rect.unit (s := S8x128) ![5, 0] S1x128.size inb_S8x128_S1x128_5_0
abbrev r2_b6 : Rect S8x128 := Rect.unit (s := S8x128) ![6, 0] S1x128.size inb_S8x128_S1x128_6_0
abbrev r2_b7 : Rect S8x128 := Rect.unit (s := S8x128) ![7, 0] S1x128.size inb_S8x128_S1x128_7_0
/-- and slab `k` of the output block. -/
abbrev r2_o0 : Rect S8x512x128 := Rect.unit (s := S8x512x128) ![0, 0, 0] S1x512x128.size inb_S8x512x128_S1x512x128_0_0_0
abbrev r2_o1 : Rect S8x512x128 := Rect.unit (s := S8x512x128) ![1, 0, 0] S1x512x128.size inb_S8x512x128_S1x512x128_1_0_0
abbrev r2_o2 : Rect S8x512x128 := Rect.unit (s := S8x512x128) ![2, 0, 0] S1x512x128.size inb_S8x512x128_S1x512x128_2_0_0
abbrev r2_o3 : Rect S8x512x128 := Rect.unit (s := S8x512x128) ![3, 0, 0] S1x512x128.size inb_S8x512x128_S1x512x128_3_0_0
abbrev r2_o4 : Rect S8x512x128 := Rect.unit (s := S8x512x128) ![4, 0, 0] S1x512x128.size inb_S8x512x128_S1x512x128_4_0_0
abbrev r2_o5 : Rect S8x512x128 := Rect.unit (s := S8x512x128) ![5, 0, 0] S1x512x128.size inb_S8x512x128_S1x512x128_5_0_0
abbrev r2_o6 : Rect S8x512x128 := Rect.unit (s := S8x512x128) ![6, 0, 0] S1x512x128.size inb_S8x512x128_S1x512x128_6_0_0
abbrev r2_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab2_0 (p : Fin 32 → Vec F S512x128 .f32) (wt : Vec F S8x128x128 .f32) (bs : Vec F S8x128 .f32) : Vec F S1x512x128 .f32 :=
  k2_pay1 (View.ld (p 0) r2_p) (View.ld (p 1) r2_p) (View.ld (p 2) r2_p) (View.ld (p 3) r2_p) (View.ld wt r2_w0) (View.ld bs r2_b0)
def slab2_1 (p : Fin 32 → Vec F S512x128 .f32) (wt : Vec F S8x128x128 .f32) (bs : Vec F S8x128 .f32) : Vec F S1x512x128 .f32 :=
  k2_pay3 (k2_pay2 (View.ld (p 4) r2_p) (View.ld (p 5) r2_p) (View.ld (p 6) r2_p)) (View.ld (p 7) r2_p) (View.ld wt r2_w1) (View.ld bs r2_b1)
def slab2_2 (p : Fin 32 → Vec F S512x128 .f32) (wt : Vec F S8x128x128 .f32) (bs : Vec F S8x128 .f32) : Vec F S1x512x128 .f32 :=
  k2_pay7 (k2_pay4 (View.ld (p 8) r2_p) (View.ld (p 9) r2_p) (View.ld (p 10) r2_p) (View.ld (p 11) r2_p)) (k2_pay5 (View.ld wt r2_w2)) (k2_pay6 (View.ld bs r2_b2))
def slab2_3 (p : Fin 32 → Vec F S512x128 .f32) (wt : Vec F S8x128x128 .f32) (bs : Vec F S8x128 .f32) : Vec F S1x512x128 .f32 :=
  k2_pay8 (View.ld (p 12) r2_p) (View.ld (p 13) r2_p) (View.ld (p 14) r2_p) (View.ld (p 15) r2_p) (View.ld wt r2_w3) (View.ld bs r2_b3)
def slab2_4 (p : Fin 32 → Vec F S512x128 .f32) (wt : Vec F S8x128x128 .f32) (bs : Vec F S8x128 .f32) : Vec F S1x512x128 .f32 :=
  k2_pay9 (View.ld (p 16) r2_p) (View.ld (p 17) r2_p) (View.ld (p 18) r2_p) (View.ld (p 19) r2_p) (View.ld wt r2_w4) (View.ld bs r2_b4)
def slab2_5 (p : Fin 32 → Vec F S512x128 .f32) (wt : Vec F S8x128x128 .f32) (bs : Vec F S8x128 .f32) : Vec F S1x512x128 .f32 :=
  k2_pay11 (k2_pay10 (View.ld (p 20) r2_p) (View.ld (p 21) r2_p) (View.ld (p 22) r2_p)) (View.ld (p 23) r2_p) (View.ld wt r2_w5) (View.ld bs r2_b5)
def slab2_6 (p : Fin 32 → Vec F S512x128 .f32) (wt : Vec F S8x128x128 .f32) (bs : Vec F S8x128 .f32) : Vec F S1x512x128 .f32 :=
  k2_pay15 (k2_pay12 (View.ld (p 24) r2_p) (View.ld (p 25) r2_p) (View.ld (p 26) r2_p) (View.ld (p 27) r2_p)) (k2_pay13 (View.ld wt r2_w6)) (k2_pay14 (View.ld bs r2_b6))
def slab2_7 (p : Fin 32 → Vec F S512x128 .f32) (wt : Vec F S8x128x128 .f32) (bs : Vec F S8x128 .f32) : Vec F S1x512x128 .f32 :=
  k2_pay16 (View.ld (p 28) r2_p) (View.ld (p 29) r2_p) (View.ld (p 30) r2_p) (View.ld (p 31) r2_p) (View.ld wt r2_w7) (View.ld bs r2_b7)

/-- Window 34's staging buffer after the body, from the input windows' blocks: its 8 stores as pieces, LAST FIRST. -/
def out2_34 (p : Fin 32 → Vec F S512x128 .f32) (wt : Vec F S8x128x128 .f32) (bs : Vec F S8x128 .f32) : Vec F S8x512x128 .f32 :=
  View.canon [⟨r2_o7, slab2_7 p wt bs⟩, ⟨r2_o6, slab2_6 p wt bs⟩, ⟨r2_o5, slab2_5 p wt bs⟩, ⟨r2_o4, slab2_4 p wt bs⟩, ⟨r2_o3, slab2_3 p wt bs⟩, ⟨r2_o2, slab2_2 p wt bs⟩, ⟨r2_o1, slab2_1 p wt bs⟩, ⟨r2_o0, slab2_0 p wt bs⟩]

/-- The eight stores tile the buffer (checked by evaluation), so they cover it. -/
theorem cover2_34 (p0 p1 p2 p3 p4 p5 p6 p7 : Vec F S1x512x128 .f32) (y : S8x512x128.Idx) :
    ∃ pc ∈ ([⟨r2_o7, p7⟩, ⟨r2_o6, p6⟩, ⟨r2_o5, p5⟩, ⟨r2_o4, p4⟩, ⟨r2_o3, p3⟩, ⟨r2_o2, p2⟩, ⟨r2_o1, p1⟩, ⟨r2_o0, p0⟩] : List (View.Piece (Elt F) S8x512x128 .f32)), y ∈ pc.1.set :=
  View.cover_of_tiled [⟨r2_o7, p7⟩, ⟨r2_o6, p6⟩, ⟨r2_o5, p5⟩, ⟨r2_o4, p4⟩, ⟨r2_o3, p3⟩, ⟨r2_o2, p2⟩, ⟨r2_o1, p1⟩, ⟨r2_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out2_34` of the inputs': the printed
    functions are their skeletons, run through every part call; each slab's load of the output buffer before its store
    reads contents nothing uses. -/
theorem sound_kernel2 (c : Dev nD) (E : Set ℕ) (i : grid2.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out2_34 p wt bs)) -∗ K ⟨⟩))
      ⊢ wp frame (wpE (defs₀ (F := F)) Variants.none c none) E (cc2__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out2_34 slab2_0 slab2_1 slab2_2 slab2_3 slab2_4 slab2_5 slab2_6 slab2_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc2__group_kernel_eq_skeleton]; unfold cc2__group_kernel_skel
  simp only [k2_part1_eq_skeleton, k2_part2_eq_skeleton, k2_part3_eq_skeleton, k2_part4_eq_skeleton, k2_part5_eq_skeleton, k2_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover2_34 _ _ _ _ _ _ _ _)

/-! ## The pipeline's proof data -/

/-- The 32 parent blocks at point `t`, as one family: parent `j` of slab `k` is window `4k+j`. -/
def par2 (c : Dev nD) (t : Fin cfg2.N) : Fin 32 → Vec F S512x128 .f32 := fun j => match j with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => iblk2 V c 28 t
    | ⟨29, _⟩ => iblk2 V c 29 t
    | ⟨30, _⟩ => iblk2 V c 30 t
    | ⟨31, _⟩ => iblk2 V c 31 t
    | ⟨_ + 32, h⟩ => absurd h (Nat.not_lt.2 (Nat.le_add_left _ _))

/-- The family at a literal index (the `match` reduced by `dsimp`). -/
theorem par2_0 (c : Dev nD) (t : Fin cfg2.N) : par2 V c t 0 = iblk2 V c 0 t := by dsimp only [par2]
theorem par2_1 (c : Dev nD) (t : Fin cfg2.N) : par2 V c t 1 = iblk2 V c 1 t := by dsimp only [par2]
theorem par2_2 (c : Dev nD) (t : Fin cfg2.N) : par2 V c t 2 = iblk2 V c 2 t := by dsimp only [par2]
theorem par2_3 (c : Dev nD) (t : Fin cfg2.N) : par2 V c t 3 = iblk2 V c 3 t := by dsimp only [par2]
theorem par2_4 (c : Dev nD) (t : Fin cfg2.N) : par2 V c t 4 = iblk2 V c 4 t := by dsimp only [par2]
theorem par2_5 (c : Dev nD) (t : Fin cfg2.N) : par2 V c t 5 = iblk2 V c 5 t := by dsimp only [par2]
theorem par2_6 (c : Dev nD) (t : Fin cfg2.N) : par2 V c t 6 = iblk2 V c 6 t := by dsimp only [par2]
theorem par2_7 (c : Dev nD) (t : Fin cfg2.N) : par2 V c t 7 = iblk2 V c 7 t := by dsimp only [par2]
theorem par2_8 (c : Dev nD) (t : Fin cfg2.N) : par2 V c t 8 = iblk2 V c 8 t := by dsimp only [par2]
theorem par2_9 (c : Dev nD) (t : Fin cfg2.N) : par2 V c t 9 = iblk2 V c 9 t := by dsimp only [par2]
theorem par2_10 (c : Dev nD) (t : Fin cfg2.N) : par2 V c t 10 = iblk2 V c 10 t := by dsimp only [par2]
theorem par2_11 (c : Dev nD) (t : Fin cfg2.N) : par2 V c t 11 = iblk2 V c 11 t := by dsimp only [par2]
theorem par2_12 (c : Dev nD) (t : Fin cfg2.N) : par2 V c t 12 = iblk2 V c 12 t := by dsimp only [par2]
theorem par2_13 (c : Dev nD) (t : Fin cfg2.N) : par2 V c t 13 = iblk2 V c 13 t := by dsimp only [par2]
theorem par2_14 (c : Dev nD) (t : Fin cfg2.N) : par2 V c t 14 = iblk2 V c 14 t := by dsimp only [par2]
theorem par2_15 (c : Dev nD) (t : Fin cfg2.N) : par2 V c t 15 = iblk2 V c 15 t := by dsimp only [par2]
theorem par2_16 (c : Dev nD) (t : Fin cfg2.N) : par2 V c t 16 = iblk2 V c 16 t := by dsimp only [par2]
theorem par2_17 (c : Dev nD) (t : Fin cfg2.N) : par2 V c t 17 = iblk2 V c 17 t := by dsimp only [par2]
theorem par2_18 (c : Dev nD) (t : Fin cfg2.N) : par2 V c t 18 = iblk2 V c 18 t := by dsimp only [par2]
theorem par2_19 (c : Dev nD) (t : Fin cfg2.N) : par2 V c t 19 = iblk2 V c 19 t := by dsimp only [par2]
theorem par2_20 (c : Dev nD) (t : Fin cfg2.N) : par2 V c t 20 = iblk2 V c 20 t := by dsimp only [par2]
theorem par2_21 (c : Dev nD) (t : Fin cfg2.N) : par2 V c t 21 = iblk2 V c 21 t := by dsimp only [par2]
theorem par2_22 (c : Dev nD) (t : Fin cfg2.N) : par2 V c t 22 = iblk2 V c 22 t := by dsimp only [par2]
theorem par2_23 (c : Dev nD) (t : Fin cfg2.N) : par2 V c t 23 = iblk2 V c 23 t := by dsimp only [par2]
theorem par2_24 (c : Dev nD) (t : Fin cfg2.N) : par2 V c t 24 = iblk2 V c 24 t := by dsimp only [par2]
theorem par2_25 (c : Dev nD) (t : Fin cfg2.N) : par2 V c t 25 = iblk2 V c 25 t := by dsimp only [par2]
theorem par2_26 (c : Dev nD) (t : Fin cfg2.N) : par2 V c t 26 = iblk2 V c 26 t := by dsimp only [par2]
theorem par2_27 (c : Dev nD) (t : Fin cfg2.N) : par2 V c t 27 = iblk2 V c 27 t := by dsimp only [par2]
theorem par2_28 (c : Dev nD) (t : Fin cfg2.N) : par2 V c t 28 = iblk2 V c 28 t := by dsimp only [par2]
theorem par2_29 (c : Dev nD) (t : Fin cfg2.N) : par2 V c t 29 = iblk2 V c 29 t := by dsimp only [par2]
theorem par2_30 (c : Dev nD) (t : Fin cfg2.N) : par2 V c t 30 = iblk2 V c 30 t := by dsimp only [par2]
theorem par2_31 (c : Dev nD) (t : Fin cfg2.N) : par2 V c t 31 = iblk2 V c 31 t := by dsimp only [par2]

/-- The proof data of pipeline 2 on core `c`: the arrays as the region finds them (`V`); after the body at point `t`
    each input's buffer at its block and the output's at `out2_34` of the input blocks; the invariant the scoped rest
    and the generator register, untouched; nothing owed; of each windowed array the share its window holds when
    several windows read one array. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => iblk2 V c 28 t
    | ⟨29, _⟩ => iblk2 V c 29 t
    | ⟨30, _⟩ => iblk2 V c 30 t
    | ⟨31, _⟩ => iblk2 V c 31 t
    | ⟨32, _⟩ => iblk2 V c 32 t
    | ⟨33, _⟩ => iblk2 V c 33 t
    | ⟨34, _⟩ => out2_34 (par2 V c t) (iblk2 V c 32 t) (iblk2 V c 33 t)
    | ⟨_ + 35, h⟩ => absurd h (Nat.not_lt.2 (Nat.le_add_left _ _))
  Φ _ := Pipeline.ΦA spec2 c
  q w := Cert.Lib.SharedArrays.shareOf (Pipeline.arrRef spec2) w
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = iblk2 V c 19 t := by dsimp only [dat2]
theorem after2_20 (c : Dev nD) (t : Fin cfg2.N) : (dat2 V c).after 20 t = iblk2 V c 20 t := by dsimp only [dat2]
theorem after2_21 (c : Dev nD) (t : Fin cfg2.N) : (dat2 V c).after 21 t = iblk2 V c 21 t := by dsimp only [dat2]
theorem after2_22 (c : Dev nD) (t : Fin cfg2.N) : (dat2 V c).after 22 t = iblk2 V c 22 t := by dsimp only [dat2]
theorem after2_23 (c : Dev nD) (t : Fin cfg2.N) : (dat2 V c).after 23 t = iblk2 V c 23 t := by dsimp only [dat2]
theorem after2_24 (c : Dev nD) (t : Fin cfg2.N) : (dat2 V c).after 24 t = iblk2 V c 24 t := by dsimp only [dat2]
theorem after2_25 (c : Dev nD) (t : Fin cfg2.N) : (dat2 V c).after 25 t = iblk2 V c 25 t := by dsimp only [dat2]
theorem after2_26 (c : Dev nD) (t : Fin cfg2.N) : (dat2 V c).after 26 t = iblk2 V c 26 t := by dsimp only [dat2]
theorem after2_27 (c : Dev nD) (t : Fin cfg2.N) : (dat2 V c).after 27 t = iblk2 V c 27 t := by dsimp only [dat2]
theorem after2_28 (c : Dev nD) (t : Fin cfg2.N) : (dat2 V c).after 28 t = iblk2 V c 28 t := by dsimp only [dat2]
theorem after2_29 (c : Dev nD) (t : Fin cfg2.N) : (dat2 V c).after 29 t = iblk2 V c 29 t := by dsimp only [dat2]
theorem after2_30 (c : Dev nD) (t : Fin cfg2.N) : (dat2 V c).after 30 t = iblk2 V c 30 t := by dsimp only [dat2]
theorem after2_31 (c : Dev nD) (t : Fin cfg2.N) : (dat2 V c).after 31 t = iblk2 V c 31 t := by dsimp only [dat2]
theorem after2_32 (c : Dev nD) (t : Fin cfg2.N) : (dat2 V c).after 32 t = iblk2 V c 32 t := by dsimp only [dat2]
theorem after2_33 (c : Dev nD) (t : Fin cfg2.N) : (dat2 V c).after 33 t = iblk2 V c 33 t := by dsimp only [dat2]
theorem after2_34 (c : Dev nD) (t : Fin cfg2.N) :
    (dat2 V c).after 34 t = out2_34 (par2 V c t) (iblk2 V c 32 t) (iblk2 V c 33 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d
theorem before2_19 (c : Dev nD) (t : Fin cfg2.N) (d) : (dat2 V c).before 19 t d = iblk2 V c 19 t :=
  before2_19_of V (dat2 V c) (A_eq2 V c 19) (after2_19 V c) t d
theorem before2_20 (c : Dev nD) (t : Fin cfg2.N) (d) : (dat2 V c).before 20 t d = iblk2 V c 20 t :=
  before2_20_of V (dat2 V c) (A_eq2 V c 20) (after2_20 V c) t d
theorem before2_21 (c : Dev nD) (t : Fin cfg2.N) (d) : (dat2 V c).before 21 t d = iblk2 V c 21 t :=
  before2_21_of V (dat2 V c) (A_eq2 V c 21) (after2_21 V c) t d
theorem before2_22 (c : Dev nD) (t : Fin cfg2.N) (d) : (dat2 V c).before 22 t d = iblk2 V c 22 t :=
  before2_22_of V (dat2 V c) (A_eq2 V c 22) (after2_22 V c) t d
theorem before2_23 (c : Dev nD) (t : Fin cfg2.N) (d) : (dat2 V c).before 23 t d = iblk2 V c 23 t :=
  before2_23_of V (dat2 V c) (A_eq2 V c 23) (after2_23 V c) t d
theorem before2_24 (c : Dev nD) (t : Fin cfg2.N) (d) : (dat2 V c).before 24 t d = iblk2 V c 24 t :=
  before2_24_of V (dat2 V c) (A_eq2 V c 24) (after2_24 V c) t d
theorem before2_25 (c : Dev nD) (t : Fin cfg2.N) (d) : (dat2 V c).before 25 t d = iblk2 V c 25 t :=
  before2_25_of V (dat2 V c) (A_eq2 V c 25) (after2_25 V c) t d
theorem before2_26 (c : Dev nD) (t : Fin cfg2.N) (d) : (dat2 V c).before 26 t d = iblk2 V c 26 t :=
  before2_26_of V (dat2 V c) (A_eq2 V c 26) (after2_26 V c) t d
theorem before2_27 (c : Dev nD) (t : Fin cfg2.N) (d) : (dat2 V c).before 27 t d = iblk2 V c 27 t :=
  before2_27_of V (dat2 V c) (A_eq2 V c 27) (after2_27 V c) t d
theorem before2_28 (c : Dev nD) (t : Fin cfg2.N) (d) : (dat2 V c).before 28 t d = iblk2 V c 28 t :=
  before2_28_of V (dat2 V c) (A_eq2 V c 28) (after2_28 V c) t d
theorem before2_29 (c : Dev nD) (t : Fin cfg2.N) (d) : (dat2 V c).before 29 t d = iblk2 V c 29 t :=
  before2_29_of V (dat2 V c) (A_eq2 V c 29) (after2_29 V c) t d
theorem before2_30 (c : Dev nD) (t : Fin cfg2.N) (d) : (dat2 V c).before 30 t d = iblk2 V c 30 t :=
  before2_30_of V (dat2 V c) (A_eq2 V c 30) (after2_30 V c) t d
theorem before2_31 (c : Dev nD) (t : Fin cfg2.N) (d) : (dat2 V c).before 31 t d = iblk2 V c 31 t :=
  before2_31_of V (dat2 V c) (A_eq2 V c 31) (after2_31 V c) t d
theorem before2_32 (c : Dev nD) (t : Fin cfg2.N) (d) : (dat2 V c).before 32 t d = iblk2 V c 32 t :=
  before2_32_of V (dat2 V c) (A_eq2 V c 32) (after2_32 V c) t d
theorem before2_33 (c : Dev nD) (t : Fin cfg2.N) (d) : (dat2 V c).before 33 t d = iblk2 V c 33 t :=
  before2_33_of V (dat2 V c) (A_eq2 V c 33) (after2_33 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d))
    ∗ (∃ d, owns (c : Thread nD τ) (st2_23 t) fullShare ((dat2 V c).before 23 t d))
    ∗ (∃ d, owns (c : Thread nD τ) (st2_24 t) fullShare ((dat2 V c).before 24 t d))
    ∗ (∃ d, owns (c : Thread nD τ) (st2_25 t) fullShare ((dat2 V c).before 25 t d))
    ∗ (∃ d, owns (c : Thread nD τ) (st2_26 t) fullShare ((dat2 V c).before 26 t d))
    ∗ (∃ d, owns (c : Thread nD τ) (st2_27 t) fullShare ((dat2 V c).before 27 t d))
    ∗ (∃ d, owns (c : Thread nD τ) (st2_28 t) fullShare ((dat2 V c).before 28 t d))
    ∗ (∃ d, owns (c : Thread nD τ) (st2_29 t) fullShare ((dat2 V c).before 29 t d))
    ∗ (∃ d, owns (c : Thread nD τ) (st2_30 t) fullShare ((dat2 V c).before 30 t d))
    ∗ (∃ d, owns (c : Thread nD τ) (st2_31 t) fullShare ((dat2 V c).before 31 t d))
    ∗ (∃ d, owns (c : Thread nD τ) (st2_32 t) fullShare ((dat2 V c).before 32 t d))
    ∗ (∃ d, owns (c : Thread nD τ) (st2_33 t) fullShare ((dat2 V c).before 33 t d))
    ∗ (∃ d, owns (c : Thread nD τ) (st2_34 t) fullShare ((dat2 V c).before 34 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t)
    ∗ owns (c : Thread nD τ) (st2_23 t) fullShare ((dat2 V c).after 23 t)
    ∗ owns (c : Thread nD τ) (st2_24 t) fullShare ((dat2 V c).after 24 t)
    ∗ owns (c : Thread nD τ) (st2_25 t) fullShare ((dat2 V c).after 25 t)
    ∗ owns (c : Thread nD τ) (st2_26 t) fullShare ((dat2 V c).after 26 t)
    ∗ owns (c : Thread nD τ) (st2_27 t) fullShare ((dat2 V c).after 27 t)
    ∗ owns (c : Thread nD τ) (st2_28 t) fullShare ((dat2 V c).after 28 t)
    ∗ owns (c : Thread nD τ) (st2_29 t) fullShare ((dat2 V c).after 29 t)
    ∗ owns (c : Thread nD τ) (st2_30 t) fullShare ((dat2 V c).after 30 t)
    ∗ owns (c : Thread nD τ) (st2_31 t) fullShare ((dat2 V c).after 31 t)
    ∗ owns (c : Thread nD τ) (st2_32 t) fullShare ((dat2 V c).after 32 t)
    ∗ owns (c : Thread nD τ) (st2_33 t) fullShare ((dat2 V c).after 33 t)
    ∗ owns (c : Thread nD τ) (st2_34 t) fullShare ((dat2 V c).after 34 t))

set_option maxHeartbeats 4000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21, before2_22, before2_23, before2_24, before2_25, before2_26, before2_27, before2_28, before2_29, before2_30, before2_31, before2_32, before2_33]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28, after2_29, after2_30, after2_31, after2_32, after2_33, after2_34]
  have hk := fun K => sound_kernel2 (F := F) c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9)) _ (hstage2_10 ((cfg2.slots t 10).cast nbuf2_10)) _ (hstage2_11 ((cfg2.slots t 11).cast nbuf2_11)) _ (hstage2_12 ((cfg2.slots t 12).cast nbuf2_12)) _ (hstage2_13 ((cfg2.slots t 13).cast nbuf2_13)) _ (hstage2_14 ((cfg2.slots t 14).cast nbuf2_14)) _ (hstage2_15 ((cfg2.slots t 15).cast nbuf2_15)) _ (hstage2_16 ((cfg2.slots t 16).cast nbuf2_16)) _ (hstage2_17 ((cfg2.slots t 17).cast nbuf2_17)) _ (hstage2_18 ((cfg2.slots t 18).cast nbuf2_18)) _ (hstage2_19 ((cfg2.slots t 19).cast nbuf2_19)) _ (hstage2_20 ((cfg2.slots t 20).cast nbuf2_20)) _ (hstage2_21 ((cfg2.slots t 21).cast nbuf2_21)) _ (hstage2_22 ((cfg2.slots t 22).cast nbuf2_22)) _ (hstage2_23 ((cfg2.slots t 23).cast nbuf2_23)) _ (hstage2_24 ((cfg2.slots t 24).cast nbuf2_24)) _ (hstage2_25 ((cfg2.slots t 25).cast nbuf2_25)) _ (hstage2_26 ((cfg2.slots t 26).cast nbuf2_26)) _ (hstage2_27 ((cfg2.slots t 27).cast nbuf2_27)) _ (hstage2_28 ((cfg2.slots t 28).cast nbuf2_28)) _ (hstage2_29 ((cfg2.slots t 29).cast nbuf2_29)) _ (hstage2_30 ((cfg2.slots t 30).cast nbuf2_30)) _ (hstage2_31 ((cfg2.slots t 31).cast nbuf2_31)) _ (hstage2_32 ((cfg2.slots t 32).cast nbuf2_32)) _ (hstage2_33 ((cfg2.slots t 33).cast nbuf2_33)) _ (hstage2_34 ((cfg2.slots t 34).cast nbuf2_34))
    (par2 V c t) (iblk2 V c 32 t) (iblk2 V c 33 t) K
  simp only [par2_0, par2_1, par2_2, par2_3, par2_4, par2_5, par2_6, par2_7, par2_8, par2_9, par2_10, par2_11, par2_12, par2_13, par2_14, par2_15, par2_16, par2_17, par2_18, par2_19, par2_20, par2_21, par2_22, par2_23, par2_24, par2_25, par2_26, par2_27, par2_28, par2_29, par2_30, par2_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3 of the kernel program (pipeline 3, `cc3__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out3_34`); the body's triple; the
   pipeline's proof data (`dat3`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 3: custom_call 3, `cc3__group_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)
theorem before3_20_of {c : Dev nD} (dat : Dat τ (Elt F) Unit ℕ (UR sig nD τ) ℕ cfg3 c) (hA : dat.A 20 = V c (Pipeline.arrRef spec3 20))
    (hafter : ∀ t, dat.after 20 t = iblk3 V c 20 t) (t : Fin cfg3.N) (d) : dat.before 20 t d = iblk3 V c 20 t :=
  (dat.before_in_eq_fetched 20 rfl (fun _ => rfl) (fun _ _ _ => rfl) (fun t => by rw [hafter]; unfold Dat.blockOf iblk3; rw [hA]; try rfl) t d).trans
    (by unfold Dat.fetched Dat.blockOf iblk3; rw [hA]; try rfl)
theorem before3_21_of {c : Dev nD} (dat : Dat τ (Elt F) Unit ℕ (UR sig nD τ) ℕ cfg3 c) (hA : dat.A 21 = V c (Pipeline.arrRef spec3 21))
    (hafter : ∀ t, dat.after 21 t = iblk3 V c 21 t) (t : Fin cfg3.N) (d) : dat.before 21 t d = iblk3 V c 21 t :=
  (dat.before_in_eq_fetched 21 rfl (fun _ => rfl) (fun _ _ _ => rfl) (fun t => by rw [hafter]; unfold Dat.blockOf iblk3; rw [hA]; try rfl) t d).trans
    (by unfold Dat.fetched Dat.blockOf iblk3; rw [hA]; try rfl)
theorem before3_22_of {c : Dev nD} (dat : Dat τ (Elt F) Unit ℕ (UR sig nD τ) ℕ cfg3 c) (hA : dat.A 22 = V c (Pipeline.arrRef spec3 22))
    (hafter : ∀ t, dat.after 22 t = iblk3 V c 22 t) (t : Fin cfg3.N) (d) : dat.before 22 t d = iblk3 V c 22 t :=
  (dat.before_in_eq_fetched 22 rfl (fun _ => rfl) (fun _ _ _ => rfl) (fun t => by rw [hafter]; unfold Dat.blockOf iblk3; rw [hA]; try rfl) t d).trans
    (by unfold Dat.fetched Dat.blockOf iblk3; rw [hA]; try rfl)
theorem before3_23_of {c : Dev nD} (dat : Dat τ (Elt F) Unit ℕ (UR sig nD τ) ℕ cfg3 c) (hA : dat.A 23 = V c (Pipeline.arrRef spec3 23))
    (hafter : ∀ t, dat.after 23 t = iblk3 V c 23 t) (t : Fin cfg3.N) (d) : dat.before 23 t d = iblk3 V c 23 t :=
  (dat.before_in_eq_fetched 23 rfl (fun _ => rfl) (fun _ _ _ => rfl) (fun t => by rw [hafter]; unfold Dat.blockOf iblk3; rw [hA]; try rfl) t d).trans
    (by unfold Dat.fetched Dat.blockOf iblk3; rw [hA]; try rfl)
theorem before3_24_of {c : Dev nD} (dat : Dat τ (Elt F) Unit ℕ (UR sig nD τ) ℕ cfg3 c) (hA : dat.A 24 = V c (Pipeline.arrRef spec3 24))
    (hafter : ∀ t, dat.after 24 t = iblk3 V c 24 t) (t : Fin cfg3.N) (d) : dat.before 24 t d = iblk3 V c 24 t :=
  (dat.before_in_eq_fetched 24 rfl (fun _ => rfl) (fun _ _ _ => rfl) (fun t => by rw [hafter]; unfold Dat.blockOf iblk3; rw [hA]; try rfl) t d).trans
    (by unfold Dat.fetched Dat.blockOf iblk3; rw [hA]; try rfl)
theorem before3_25_of {c : Dev nD} (dat : Dat τ (Elt F) Unit ℕ (UR sig nD τ) ℕ cfg3 c) (hA : dat.A 25 = V c (Pipeline.arrRef spec3 25))
    (hafter : ∀ t, dat.after 25 t = iblk3 V c 25 t) (t : Fin cfg3.N) (d) : dat.before 25 t d = iblk3 V c 25 t :=
  (dat.before_in_eq_fetched 25 rfl (fun _ => rfl) (fun _ _ _ => rfl) (fun t => by rw [hafter]; unfold Dat.blockOf iblk3; rw [hA]; try rfl) t d).trans
    (by unfold Dat.fetched Dat.blockOf iblk3; rw [hA]; try rfl)
theorem before3_26_of {c : Dev nD} (dat : Dat τ (Elt F) Unit ℕ (UR sig nD τ) ℕ cfg3 c) (hA : dat.A 26 = V c (Pipeline.arrRef spec3 26))
    (hafter : ∀ t, dat.after 26 t = iblk3 V c 26 t) (t : Fin cfg3.N) (d) : dat.before 26 t d = iblk3 V c 26 t :=
  (dat.before_in_eq_fetched 26 rfl (fun _ => rfl) (fun _ _ _ => rfl) (fun t => by rw [hafter]; unfold Dat.blockOf iblk3; rw [hA]; try rfl) t d).trans
    (by unfold Dat.fetched Dat.blockOf iblk3; rw [hA]; try rfl)
theorem before3_27_of {c : Dev nD} (dat : Dat τ (Elt F) Unit ℕ (UR sig nD τ) ℕ cfg3 c) (hA : dat.A 27 = V c (Pipeline.arrRef spec3 27))
    (hafter : ∀ t, dat.after 27 t = iblk3 V c 27 t) (t : Fin cfg3.N) (d) : dat.before 27 t d = iblk3 V c 27 t :=
  (dat.before_in_eq_fetched 27 rfl (fun _ => rfl) (fun _ _ _ => rfl) (fun t => by rw [hafter]; unfold Dat.blockOf iblk3; rw [hA]; try rfl) t d).trans
    (by unfold Dat.fetched Dat.blockOf iblk3; rw [hA]; try rfl)
theorem before3_28_of {c : Dev nD} (dat : Dat τ (Elt F) Unit ℕ (UR sig nD τ) ℕ cfg3 c) (hA : dat.A 28 = V c (Pipeline.arrRef spec3 28))
    (hafter : ∀ t, dat.after 28 t = iblk3 V c 28 t) (t : Fin cfg3.N) (d) : dat.before 28 t d = iblk3 V c 28 t :=
  (dat.before_in_eq_fetched 28 rfl (fun _ => rfl) (fun _ _ _ => rfl) (fun t => by rw [hafter]; unfold Dat.blockOf iblk3; rw [hA]; try rfl) t d).trans
    (by unfold Dat.fetched Dat.blockOf iblk3; rw [hA]; try rfl)
theorem before3_29_of {c : Dev nD} (dat : Dat τ (Elt F) Unit ℕ (UR sig nD τ) ℕ cfg3 c) (hA : dat.A 29 = V c (Pipeline.arrRef spec3 29))
    (hafter : ∀ t, dat.after 29 t = iblk3 V c 29 t) (t : Fin cfg3.N) (d) : dat.before 29 t d = iblk3 V c 29 t :=
  (dat.before_in_eq_fetched 29 rfl (fun _ => rfl) (fun _ _ _ => rfl) (fun t => by rw [hafter]; unfold Dat.blockOf iblk3; rw [hA]; try rfl) t d).trans
    (by unfold Dat.fetched Dat.blockOf iblk3; rw [hA]; try rfl)
theorem before3_30_of {c : Dev nD} (dat : Dat τ (Elt F) Unit ℕ (UR sig nD τ) ℕ cfg3 c) (hA : dat.A 30 = V c (Pipeline.arrRef spec3 30))
    (hafter : ∀ t, dat.after 30 t = iblk3 V c 30 t) (t : Fin cfg3.N) (d) : dat.before 30 t d = iblk3 V c 30 t :=
  (dat.before_in_eq_fetched 30 rfl (fun _ => rfl) (fun _ _ _ => rfl) (fun t => by rw [hafter]; unfold Dat.blockOf iblk3; rw [hA]; try rfl) t d).trans
    (by unfold Dat.fetched Dat.blockOf iblk3; rw [hA]; try rfl)
theorem before3_31_of {c : Dev nD} (dat : Dat τ (Elt F) Unit ℕ (UR sig nD τ) ℕ cfg3 c) (hA : dat.A 31 = V c (Pipeline.arrRef spec3 31))
    (hafter : ∀ t, dat.after 31 t = iblk3 V c 31 t) (t : Fin cfg3.N) (d) : dat.before 31 t d = iblk3 V c 31 t :=
  (dat.before_in_eq_fetched 31 rfl (fun _ => rfl) (fun _ _ _ => rfl) (fun t => by rw [hafter]; unfold Dat.blockOf iblk3; rw [hA]; try rfl) t d).trans
    (by unfold Dat.fetched Dat.blockOf iblk3; rw [hA]; try rfl)
theorem before3_32_of {c : Dev nD} (dat : Dat τ (Elt F) Unit ℕ (UR sig nD τ) ℕ cfg3 c) (hA : dat.A 32 = V c (Pipeline.arrRef spec3 32))
    (hafter : ∀ t, dat.after 32 t = iblk3 V c 32 t) (t : Fin cfg3.N) (d) : dat.before 32 t d = iblk3 V c 32 t :=
  (dat.before_in_eq_fetched 32 rfl (fun _ => rfl) (fun _ _ _ => rfl) (fun t => by rw [hafter]; unfold Dat.blockOf iblk3; rw [hA]; try rfl) t d).trans
    (by unfold Dat.fetched Dat.blockOf iblk3; rw [hA]; try rfl)
theorem before3_33_of {c : Dev nD} (dat : Dat τ (Elt F) Unit ℕ (UR sig nD τ) ℕ cfg3 c) (hA : dat.A 33 = V c (Pipeline.arrRef spec3 33))
    (hafter : ∀ t, dat.after 33 t = iblk3 V c 33 t) (t : Fin cfg3.N) (d) : dat.before 33 t d = iblk3 V c 33 t :=
  (dat.before_in_eq_fetched 33 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A parent's whole block. -/
abbrev r3_p : Rect S512x128 := Rect.unit (s := S512x128) ![0, 0] S512x128.size inb_S512x128_S512x128_0_0
/-- Slab `k` of the weight slice, -/
abbrev r3_w0 : Rect S8x128x128 := Rect.unit (s := S8x128x128) ![0, 0, 0] S1x128x128.size inb_S8x128x128_S1x128x128_0_0_0
abbrev r3_w1 : Rect S8x128x128 := Rect.unit (s := S8x128x128) ![1, 0, 0] S1x128x128.size inb_S8x128x128_S1x128x128_1_0_0
abbrev r3_w2 : Rect S8x128x128 := Rect.unit (s := S8x128x128) ![2, 0, 0] S1x128x128.size inb_S8x128x128_S1x128x128_2_0_0
abbrev r3_w3 : Rect S8x128x128 := Rect.unit (s := S8x128x128) ![3, 0, 0] S1x128x128.size inb_S8x128x128_S1x128x128_3_0_0
abbrev r3_w4 : Rect S8x128x128 := Rect.unit (s := S8x128x128) ![4, 0, 0] S1x128x128.size inb_S8x128x128_S1x128x128_4_0_0
abbrev r3_w5 : Rect S8x128x128 := Rect.unit (s := S8x128x128) ![5, 0, 0] S1x128x128.size inb_S8x128x128_S1x128x128_5_0_0
abbrev r3_w6 : Rect S8x128x128 := Rect.unit (s := S8x128x128) ![6, 0, 0] S1x128x128.size inb_S8x128x128_S1x128x128_6_0_0
abbrev r3_w7 : Rect S8x128x128 := Rect.unit (s := S8x128x128) ![7, 0, 0] S1x128x128.size inb_S8x128x128_S1x128x128_7_0_0
/-- row `k` of the bias slice, -/
abbrev r3_b0 : Rect S8x128 := Rect.unit (s := S8x128) ![0, 0] S1x128.size inb_S8x128_S1x128_0_0
abbrev r3_b1 : Rect S8x128 := Rect.unit (s := S8x128) ![1, 0] S1x128.size inb_S8x128_S1x128_1_0
abbrev r3_b2 : Rect S8x128 := Rect.unit (s := S8x128) ![2, 0] S1x128.size inb_S8x128_S1x128_2_0
abbrev r3_b3 : Rect S8x128 := Rect.unit (s := S8x128) ![3, 0] S1x128.size inb_S8x128_S1x128_3_0
abbrev r3_b4 : Rect S8x128 := Rect.unit (s := S8x128) ![4, 0] S1x128.size inb_S8x128_S1x128_4_0
abbrev r3_b5 : Rect S8x128 := Rect.unit (s := S8x128) ![5, 0] S1x128.size inb_S8x128_S1x128_5_0
abbrev r3_b6 : Rect S8x128 := Rect.unit (s := S8x128) ![6, 0] S1x128.size inb_S8x128_S1x128_6_0
abbrev r3_b7 : Rect S8x128 := Rect.unit (s := S8x128) ![7, 0] S1x128.size inb_S8x128_S1x128_7_0
/-- and slab `k` of the output block. -/
abbrev r3_o0 : Rect S8x512x128 := Rect.unit (s := S8x512x128) ![0, 0, 0] S1x512x128.size inb_S8x512x128_S1x512x128_0_0_0
abbrev r3_o1 : Rect S8x512x128 := Rect.unit (s := S8x512x128) ![1, 0, 0] S1x512x128.size inb_S8x512x128_S1x512x128_1_0_0
abbrev r3_o2 : Rect S8x512x128 := Rect.unit (s := S8x512x128) ![2, 0, 0] S1x512x128.size inb_S8x512x128_S1x512x128_2_0_0
abbrev r3_o3 : Rect S8x512x128 := Rect.unit (s := S8x512x128) ![3, 0, 0] S1x512x128.size inb_S8x512x128_S1x512x128_3_0_0
abbrev r3_o4 : Rect S8x512x128 := Rect.unit (s := S8x512x128) ![4, 0, 0] S1x512x128.size inb_S8x512x128_S1x512x128_4_0_0
abbrev r3_o5 : Rect S8x512x128 := Rect.unit (s := S8x512x128) ![5, 0, 0] S1x512x128.size inb_S8x512x128_S1x512x128_5_0_0
abbrev r3_o6 : Rect S8x512x128 := Rect.unit (s := S8x512x128) ![6, 0, 0] S1x512x128.size inb_S8x512x128_S1x512x128_6_0_0
abbrev r3_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab3_0 (p : Fin 32 → Vec F S512x128 .f32) (wt : Vec F S8x128x128 .f32) (bs : Vec F S8x128 .f32) : Vec F S1x512x128 .f32 :=
  k3_pay1 (View.ld (p 0) r3_p) (View.ld (p 1) r3_p) (View.ld (p 2) r3_p) (View.ld (p 3) r3_p) (View.ld wt r3_w0) (View.ld bs r3_b0)
def slab3_1 (p : Fin 32 → Vec F S512x128 .f32) (wt : Vec F S8x128x128 .f32) (bs : Vec F S8x128 .f32) : Vec F S1x512x128 .f32 :=
  k3_pay3 (k3_pay2 (View.ld (p 4) r3_p) (View.ld (p 5) r3_p) (View.ld (p 6) r3_p)) (View.ld (p 7) r3_p) (View.ld wt r3_w1) (View.ld bs r3_b1)
def slab3_2 (p : Fin 32 → Vec F S512x128 .f32) (wt : Vec F S8x128x128 .f32) (bs : Vec F S8x128 .f32) : Vec F S1x512x128 .f32 :=
  k3_pay7 (k3_pay4 (View.ld (p 8) r3_p) (View.ld (p 9) r3_p) (View.ld (p 10) r3_p) (View.ld (p 11) r3_p)) (k3_pay5 (View.ld wt r3_w2)) (k3_pay6 (View.ld bs r3_b2))
def slab3_3 (p : Fin 32 → Vec F S512x128 .f32) (wt : Vec F S8x128x128 .f32) (bs : Vec F S8x128 .f32) : Vec F S1x512x128 .f32 :=
  k3_pay8 (View.ld (p 12) r3_p) (View.ld (p 13) r3_p) (View.ld (p 14) r3_p) (View.ld (p 15) r3_p) (View.ld wt r3_w3) (View.ld bs r3_b3)
def slab3_4 (p : Fin 32 → Vec F S512x128 .f32) (wt : Vec F S8x128x128 .f32) (bs : Vec F S8x128 .f32) : Vec F S1x512x128 .f32 :=
  k3_pay9 (View.ld (p 16) r3_p) (View.ld (p 17) r3_p) (View.ld (p 18) r3_p) (View.ld (p 19) r3_p) (View.ld wt r3_w4) (View.ld bs r3_b4)
def slab3_5 (p : Fin 32 → Vec F S512x128 .f32) (wt : Vec F S8x128x128 .f32) (bs : Vec F S8x128 .f32) : Vec F S1x512x128 .f32 :=
  k3_pay11 (k3_pay10 (View.ld (p 20) r3_p) (View.ld (p 21) r3_p) (View.ld (p 22) r3_p)) (View.ld (p 23) r3_p) (View.ld wt r3_w5) (View.ld bs r3_b5)
def slab3_6 (p : Fin 32 → Vec F S512x128 .f32) (wt : Vec F S8x128x128 .f32) (bs : Vec F S8x128 .f32) : Vec F S1x512x128 .f32 :=
  k3_pay15 (k3_pay12 (View.ld (p 24) r3_p) (View.ld (p 25) r3_p) (View.ld (p 26) r3_p) (View.ld (p 27) r3_p)) (k3_pay13 (View.ld wt r3_w6)) (k3_pay14 (View.ld bs r3_b6))
def slab3_7 (p : Fin 32 → Vec F S512x128 .f32) (wt : Vec F S8x128x128 .f32) (bs : Vec F S8x128 .f32) : Vec F S1x512x128 .f32 :=
  k3_pay16 (View.ld (p 28) r3_p) (View.ld (p 29) r3_p) (View.ld (p 30) r3_p) (View.ld (p 31) r3_p) (View.ld wt r3_w7) (View.ld bs r3_b7)

/-- Window 34's staging buffer after the body, from the input windows' blocks: its 8 stores as pieces, LAST FIRST. -/
def out3_34 (p : Fin 32 → Vec F S512x128 .f32) (wt : Vec F S8x128x128 .f32) (bs : Vec F S8x128 .f32) : Vec F S8x512x128 .f32 :=
  View.canon [⟨r3_o7, slab3_7 p wt bs⟩, ⟨r3_o6, slab3_6 p wt bs⟩, ⟨r3_o5, slab3_5 p wt bs⟩, ⟨r3_o4, slab3_4 p wt bs⟩, ⟨r3_o3, slab3_3 p wt bs⟩, ⟨r3_o2, slab3_2 p wt bs⟩, ⟨r3_o1, slab3_1 p wt bs⟩, ⟨r3_o0, slab3_0 p wt bs⟩]

/-- The eight stores tile the buffer (checked by evaluation), so they cover it. -/
theorem cover3_34 (p0 p1 p2 p3 p4 p5 p6 p7 : Vec F S1x512x128 .f32) (y : S8x512x128.Idx) :
    ∃ pc ∈ ([⟨r3_o7, p7⟩, ⟨r3_o6, p6⟩, ⟨r3_o5, p5⟩, ⟨r3_o4, p4⟩, ⟨r3_o3, p3⟩, ⟨r3_o2, p2⟩, ⟨r3_o1, p1⟩, ⟨r3_o0, p0⟩] : List (View.Piece (Elt F) S8x512x128 .f32)), y ∈ pc.1.set :=
  View.cover_of_tiled [⟨r3_o7, p7⟩, ⟨r3_o6, p6⟩, ⟨r3_o5, p5⟩, ⟨r3_o4, p4⟩, ⟨r3_o3, p3⟩, ⟨r3_o2, p2⟩, ⟨r3_o1, p1⟩, ⟨r3_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out3_34` of the inputs': the printed
    functions are their skeletons, run through every part call; each slab's load of the output buffer before its store
    reads contents nothing uses. -/
theorem sound_kernel3 (c : Dev nD) (E : Set ℕ) (i : grid3.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out3_34 p wt bs)) -∗ K ⟨⟩))
      ⊢ wp frame (wpE (defs₀ (F := F)) Variants.none c none) E (cc3__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out3_34 slab3_0 slab3_1 slab3_2 slab3_3 slab3_4 slab3_5 slab3_6 slab3_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc3__group_kernel_eq_skeleton]; unfold cc3__group_kernel_skel
  simp only [k3_part1_eq_skeleton, k3_part2_eq_skeleton, k3_part3_eq_skeleton, k3_part4_eq_skeleton, k3_part5_eq_skeleton, k3_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover3_34 _ _ _ _ _ _ _ _)

/-! ## The pipeline's proof data -/

/-- The 32 parent blocks at point `t`, as one family: parent `j` of slab `k` is window `4k+j`. -/
def par3 (c : Dev nD) (t : Fin cfg3.N) : Fin 32 → Vec F S512x128 .f32 := fun j => match j with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => iblk3 V c 31 t
    | ⟨_ + 32, h⟩ => absurd h (Nat.not_lt.2 (Nat.le_add_left _ _))

/-- The family at a literal index (the `match` reduced by `dsimp`). -/
theorem par3_0 (c : Dev nD) (t : Fin cfg3.N) : par3 V c t 0 = iblk3 V c 0 t := by dsimp only [par3]
theorem par3_1 (c : Dev nD) (t : Fin cfg3.N) : par3 V c t 1 = iblk3 V c 1 t := by dsimp only [par3]
theorem par3_2 (c : Dev nD) (t : Fin cfg3.N) : par3 V c t 2 = iblk3 V c 2 t := by dsimp only [par3]
theorem par3_3 (c : Dev nD) (t : Fin cfg3.N) : par3 V c t 3 = iblk3 V c 3 t := by dsimp only [par3]
theorem par3_4 (c : Dev nD) (t : Fin cfg3.N) : par3 V c t 4 = iblk3 V c 4 t := by dsimp only [par3]
theorem par3_5 (c : Dev nD) (t : Fin cfg3.N) : par3 V c t 5 = iblk3 V c 5 t := by dsimp only [par3]
theorem par3_6 (c : Dev nD) (t : Fin cfg3.N) : par3 V c t 6 = iblk3 V c 6 t := by dsimp only [par3]
theorem par3_7 (c : Dev nD) (t : Fin cfg3.N) : par3 V c t 7 = iblk3 V c 7 t := by dsimp only [par3]
theorem par3_8 (c : Dev nD) (t : Fin cfg3.N) : par3 V c t 8 = iblk3 V c 8 t := by dsimp only [par3]
theorem par3_9 (c : Dev nD) (t : Fin cfg3.N) : par3 V c t 9 = iblk3 V c 9 t := by dsimp only [par3]
theorem par3_10 (c : Dev nD) (t : Fin cfg3.N) : par3 V c t 10 = iblk3 V c 10 t := by dsimp only [par3]
theorem par3_11 (c : Dev nD) (t : Fin cfg3.N) : par3 V c t 11 = iblk3 V c 11 t := by dsimp only [par3]
theorem par3_12 (c : Dev nD) (t : Fin cfg3.N) : par3 V c t 12 = iblk3 V c 12 t := by dsimp only [par3]
theorem par3_13 (c : Dev nD) (t : Fin cfg3.N) : par3 V c t 13 = iblk3 V c 13 t := by dsimp only [par3]
theorem par3_14 (c : Dev nD) (t : Fin cfg3.N) : par3 V c t 14 = iblk3 V c 14 t := by dsimp only [par3]
theorem par3_15 (c : Dev nD) (t : Fin cfg3.N) : par3 V c t 15 = iblk3 V c 15 t := by dsimp only [par3]
theorem par3_16 (c : Dev nD) (t : Fin cfg3.N) : par3 V c t 16 = iblk3 V c 16 t := by dsimp only [par3]
theorem par3_17 (c : Dev nD) (t : Fin cfg3.N) : par3 V c t 17 = iblk3 V c 17 t := by dsimp only [par3]
theorem par3_18 (c : Dev nD) (t : Fin cfg3.N) : par3 V c t 18 = iblk3 V c 18 t := by dsimp only [par3]
theorem par3_19 (c : Dev nD) (t : Fin cfg3.N) : par3 V c t 19 = iblk3 V c 19 t := by dsimp only [par3]
theorem par3_20 (c : Dev nD) (t : Fin cfg3.N) : par3 V c t 20 = iblk3 V c 20 t := by dsimp only [par3]
theorem par3_21 (c : Dev nD) (t : Fin cfg3.N) : par3 V c t 21 = iblk3 V c 21 t := by dsimp only [par3]
theorem par3_22 (c : Dev nD) (t : Fin cfg3.N) : par3 V c t 22 = iblk3 V c 22 t := by dsimp only [par3]
theorem par3_23 (c : Dev nD) (t : Fin cfg3.N) : par3 V c t 23 = iblk3 V c 23 t := by dsimp only [par3]
theorem par3_24 (c : Dev nD) (t : Fin cfg3.N) : par3 V c t 24 = iblk3 V c 24 t := by dsimp only [par3]
theorem par3_25 (c : Dev nD) (t : Fin cfg3.N) : par3 V c t 25 = iblk3 V c 25 t := by dsimp only [par3]
theorem par3_26 (c : Dev nD) (t : Fin cfg3.N) : par3 V c t 26 = iblk3 V c 26 t := by dsimp only [par3]
theorem par3_27 (c : Dev nD) (t : Fin cfg3.N) : par3 V c t 27 = iblk3 V c 27 t := by dsimp only [par3]
theorem par3_28 (c : Dev nD) (t : Fin cfg3.N) : par3 V c t 28 = iblk3 V c 28 t := by dsimp only [par3]
theorem par3_29 (c : Dev nD) (t : Fin cfg3.N) : par3 V c t 29 = iblk3 V c 29 t := by dsimp only [par3]
theorem par3_30 (c : Dev nD) (t : Fin cfg3.N) : par3 V c t 30 = iblk3 V c 30 t := by dsimp only [par3]
theorem par3_31 (c : Dev nD) (t : Fin cfg3.N) : par3 V c t 31 = iblk3 V c 31 t := by dsimp only [par3]

/-- The proof data of pipeline 3 on core `c`: the arrays as the region finds them (`V`); after the body at point `t`
    each input's buffer at its block and the output's at `out3_34` of the input blocks; the invariant the scoped rest
    and the generator register, untouched; nothing owed; of each windowed array the share its window holds when
    several windows read one array. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => iblk3 V c 31 t
    | ⟨32, _⟩ => iblk3 V c 32 t
    | ⟨33, _⟩ => iblk3 V c 33 t
    | ⟨34, _⟩ => out3_34 (par3 V c t) (iblk3 V c 32 t) (iblk3 V c 33 t)
    | ⟨_ + 35, h⟩ => absurd h (Nat.not_lt.2 (Nat.le_add_left _ _))
  Φ _ := Pipeline.ΦA spec3 c
  q w := Cert.Lib.SharedArrays.shareOf (Pipeline.arrRef spec3) w
  owed _ := 0

/-- The proof data's arrays are the region-entry contents. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = iblk3 V c 23 t := by dsimp only [dat3]
theorem after3_24 (c : Dev nD) (t : Fin cfg3.N) : (dat3 V c).after 24 t = iblk3 V c 24 t := by dsimp only [dat3]
theorem after3_25 (c : Dev nD) (t : Fin cfg3.N) : (dat3 V c).after 25 t = iblk3 V c 25 t := by dsimp only [dat3]
theorem after3_26 (c : Dev nD) (t : Fin cfg3.N) : (dat3 V c).after 26 t = iblk3 V c 26 t := by dsimp only [dat3]
theorem after3_27 (c : Dev nD) (t : Fin cfg3.N) : (dat3 V c).after 27 t = iblk3 V c 27 t := by dsimp only [dat3]
theorem after3_28 (c : Dev nD) (t : Fin cfg3.N) : (dat3 V c).after 28 t = iblk3 V c 28 t := by dsimp only [dat3]
theorem after3_29 (c : Dev nD) (t : Fin cfg3.N) : (dat3 V c).after 29 t = iblk3 V c 29 t := by dsimp only [dat3]
theorem after3_30 (c : Dev nD) (t : Fin cfg3.N) : (dat3 V c).after 30 t = iblk3 V c 30 t := by dsimp only [dat3]
theorem after3_31 (c : Dev nD) (t : Fin cfg3.N) : (dat3 V c).after 31 t = iblk3 V c 31 t := by dsimp only [dat3]
theorem after3_32 (c : Dev nD) (t : Fin cfg3.N) : (dat3 V c).after 32 t = iblk3 V c 32 t := by dsimp only [dat3]
theorem after3_33 (c : Dev nD) (t : Fin cfg3.N) : (dat3 V c).after 33 t = iblk3 V c 33 t := by dsimp only [dat3]
theorem after3_34 (c : Dev nD) (t : Fin cfg3.N) :
    (dat3 V c).after 34 t = out3_34 (par3 V c t) (iblk3 V c 32 t) (iblk3 V c 33 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d
theorem before3_20 (c : Dev nD) (t : Fin cfg3.N) (d) : (dat3 V c).before 20 t d = iblk3 V c 20 t :=
  before3_20_of V (dat3 V c) (A_eq3 V c 20) (after3_20 V c) t d
theorem before3_21 (c : Dev nD) (t : Fin cfg3.N) (d) : (dat3 V c).before 21 t d = iblk3 V c 21 t :=
  before3_21_of V (dat3 V c) (A_eq3 V c 21) (after3_21 V c) t d
theorem before3_22 (c : Dev nD) (t : Fin cfg3.N) (d) : (dat3 V c).before 22 t d = iblk3 V c 22 t :=
  before3_22_of V (dat3 V c) (A_eq3 V c 22) (after3_22 V c) t d
theorem before3_23 (c : Dev nD) (t : Fin cfg3.N) (d) : (dat3 V c).before 23 t d = iblk3 V c 23 t :=
  before3_23_of V (dat3 V c) (A_eq3 V c 23) (after3_23 V c) t d
theorem before3_24 (c : Dev nD) (t : Fin cfg3.N) (d) : (dat3 V c).before 24 t d = iblk3 V c 24 t :=
  before3_24_of V (dat3 V c) (A_eq3 V c 24) (after3_24 V c) t d
theorem before3_25 (c : Dev nD) (t : Fin cfg3.N) (d) : (dat3 V c).before 25 t d = iblk3 V c 25 t :=
  before3_25_of V (dat3 V c) (A_eq3 V c 25) (after3_25 V c) t d
theorem before3_26 (c : Dev nD) (t : Fin cfg3.N) (d) : (dat3 V c).before 26 t d = iblk3 V c 26 t :=
  before3_26_of V (dat3 V c) (A_eq3 V c 26) (after3_26 V c) t d
theorem before3_27 (c : Dev nD) (t : Fin cfg3.N) (d) : (dat3 V c).before 27 t d = iblk3 V c 27 t :=
  before3_27_of V (dat3 V c) (A_eq3 V c 27) (after3_27 V c) t d
theorem before3_28 (c : Dev nD) (t : Fin cfg3.N) (d) : (dat3 V c).before 28 t d = iblk3 V c 28 t :=
  before3_28_of V (dat3 V c) (A_eq3 V c 28) (after3_28 V c) t d
theorem before3_29 (c : Dev nD) (t : Fin cfg3.N) (d) : (dat3 V c).before 29 t d = iblk3 V c 29 t :=
  before3_29_of V (dat3 V c) (A_eq3 V c 29) (after3_29 V c) t d
theorem before3_30 (c : Dev nD) (t : Fin cfg3.N) (d) : (dat3 V c).before 30 t d = iblk3 V c 30 t :=
  before3_30_of V (dat3 V c) (A_eq3 V c 30) (after3_30 V c) t d
theorem before3_31 (c : Dev nD) (t : Fin cfg3.N) (d) : (dat3 V c).before 31 t d = iblk3 V c 31 t :=
  before3_31_of V (dat3 V c) (A_eq3 V c 31) (after3_31 V c) t d
theorem before3_32 (c : Dev nD) (t : Fin cfg3.N) (d) : (dat3 V c).before 32 t d = iblk3 V c 32 t :=
  before3_32_of V (dat3 V c) (A_eq3 V c 32) (after3_32 V c) t d
theorem before3_33 (c : Dev nD) (t : Fin cfg3.N) (d) : (dat3 V c).before 33 t d = iblk3 V c 33 t :=
  before3_33_of V (dat3 V c) (A_eq3 V c 33) (after3_33 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d))
    ∗ (∃ d, owns (c : Thread nD τ) (st3_25 t) fullShare ((dat3 V c).before 25 t d))
    ∗ (∃ d, owns (c : Thread nD τ) (st3_26 t) fullShare ((dat3 V c).before 26 t d))
    ∗ (∃ d, owns (c : Thread nD τ) (st3_27 t) fullShare ((dat3 V c).before 27 t d))
    ∗ (∃ d, owns (c : Thread nD τ) (st3_28 t) fullShare ((dat3 V c).before 28 t d))
    ∗ (∃ d, owns (c : Thread nD τ) (st3_29 t) fullShare ((dat3 V c).before 29 t d))
    ∗ (∃ d, owns (c : Thread nD τ) (st3_30 t) fullShare ((dat3 V c).before 30 t d))
    ∗ (∃ d, owns (c : Thread nD τ) (st3_31 t) fullShare ((dat3 V c).before 31 t d))
    ∗ (∃ d, owns (c : Thread nD τ) (st3_32 t) fullShare ((dat3 V c).before 32 t d))
    ∗ (∃ d, owns (c : Thread nD τ) (st3_33 t) fullShare ((dat3 V c).before 33 t d))
    ∗ (∃ d, owns (c : Thread nD τ) (st3_34 t) fullShare ((dat3 V c).before 34 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t)
    ∗ owns (c : Thread nD τ) (st3_25 t) fullShare ((dat3 V c).after 25 t)
    ∗ owns (c : Thread nD τ) (st3_26 t) fullShare ((dat3 V c).after 26 t)
    ∗ owns (c : Thread nD τ) (st3_27 t) fullShare ((dat3 V c).after 27 t)
    ∗ owns (c : Thread nD τ) (st3_28 t) fullShare ((dat3 V c).after 28 t)
    ∗ owns (c : Thread nD τ) (st3_29 t) fullShare ((dat3 V c).after 29 t)
    ∗ owns (c : Thread nD τ) (st3_30 t) fullShare ((dat3 V c).after 30 t)
    ∗ owns (c : Thread nD τ) (st3_31 t) fullShare ((dat3 V c).after 31 t)
    ∗ owns (c : Thread nD τ) (st3_32 t) fullShare ((dat3 V c).after 32 t)
    ∗ owns (c : Thread nD τ) (st3_33 t) fullShare ((dat3 V c).after 33 t)
    ∗ owns (c : Thread nD τ) (st3_34 t) fullShare ((dat3 V c).after 34 t))

set_option maxHeartbeats 4000000 in
/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22, before3_23, before3_24, before3_25, before3_26, before3_27, before3_28, before3_29, before3_30, before3_31, before3_32, before3_33]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24, after3_25, after3_26, after3_27, after3_28, after3_29, after3_30, after3_31, after3_32, after3_33, after3_34]
  have hk := fun K => sound_kernel3 (F := F) c Set.univ (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8)) _ (hstage3_9 ((cfg3.slots t 9).cast nbuf3_9)) _ (hstage3_10 ((cfg3.slots t 10).cast nbuf3_10)) _ (hstage3_11 ((cfg3.slots t 11).cast nbuf3_11)) _ (hstage3_12 ((cfg3.slots t 12).cast nbuf3_12)) _ (hstage3_13 ((cfg3.slots t 13).cast nbuf3_13)) _ (hstage3_14 ((cfg3.slots t 14).cast nbuf3_14)) _ (hstage3_15 ((cfg3.slots t 15).cast nbuf3_15)) _ (hstage3_16 ((cfg3.slots t 16).cast nbuf3_16)) _ (hstage3_17 ((cfg3.slots t 17).cast nbuf3_17)) _ (hstage3_18 ((cfg3.slots t 18).cast nbuf3_18)) _ (hstage3_19 ((cfg3.slots t 19).cast nbuf3_19)) _ (hstage3_20 ((cfg3.slots t 20).cast nbuf3_20)) _ (hstage3_21 ((cfg3.slots t 21).cast nbuf3_21)) _ (hstage3_22 ((cfg3.slots t 22).cast nbuf3_22)) _ (hstage3_23 ((cfg3.slots t 23).cast nbuf3_23)) _ (hstage3_24 ((cfg3.slots t 24).cast nbuf3_24)) _ (hstage3_25 ((cfg3.slots t 25).cast nbuf3_25)) _ (hstage3_26 ((cfg3.slots t 26).cast nbuf3_26)) _ (hstage3_27 ((cfg3.slots t 27).cast nbuf3_27)) _ (hstage3_28 ((cfg3.slots t 28).cast nbuf3_28)) _ (hstage3_29 ((cfg3.slots t 29).cast nbuf3_29)) _ (hstage3_30 ((cfg3.slots t 30).cast nbuf3_30)) _ (hstage3_31 ((cfg3.slots t 31).cast nbuf3_31)) _ (hstage3_32 ((cfg3.slots t 32).cast nbuf3_32)) _ (hstage3_33 ((cfg3.slots t 33).cast nbuf3_33)) _ (hstage3_34 ((cfg3.slots t 34).cast nbuf3_34))
    (par3 V c t) (iblk3 V c 32 t) (iblk3 V c 33 t) K
  simp only [par3_0, par3_1, par3_2, par3_3, par3_4, par3_5, par3_6, par3_7, par3_8, par3_9, par3_10, par3_11, par3_12, par3_13, par3_14, par3_15, par3_16, par3_17, par3_18, par3_19, par3_20, par3_21, par3_22, par3_23, par3_24, par3_25, par3_26, par3_27, par3_28, par3_29, par3_30, par3_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Region 4 of the kernel program (pipeline 4, `cc4__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out4_34`); the body's triple; the
   pipeline's proof data (`dat4`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4: custom_call 4, `cc4__group_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)
theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)
theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)
theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)
theorem before4_19_of {c : Dev nD} (dat : Dat τ (Elt F) Unit ℕ (UR sig nD τ) ℕ cfg4 c) (hA : dat.A 19 = V c (Pipeline.arrRef spec4 19))
    (hafter : ∀ t, dat.after 19 t = iblk4 V c 19 t) (t : Fin cfg4.N) (d) : dat.before 19 t d = iblk4 V c 19 t :=
  (dat.before_in_eq_fetched 19 rfl (fun _ => rfl) (fun _ _ _ => rfl) (fun t => by rw [hafter]; unfold Dat.blockOf iblk4; rw [hA]; try rfl) t d).trans
    (by unfold Dat.fetched Dat.blockOf iblk4; rw [hA]; try rfl)
theorem before4_20_of {c : Dev nD} (dat : Dat τ (Elt F) Unit ℕ (UR sig nD τ) ℕ cfg4 c) (hA : dat.A 20 = V c (Pipeline.arrRef spec4 20))
    (hafter : ∀ t, dat.after 20 t = iblk4 V c 20 t) (t : Fin cfg4.N) (d) : dat.before 20 t d = iblk4 V c 20 t :=
  (dat.before_in_eq_fetched 20 rfl (fun _ => rfl) (fun _ _ _ => rfl) (fun t => by rw [hafter]; unfold Dat.blockOf iblk4; rw [hA]; try rfl) t d).trans
    (by unfold Dat.fetched Dat.blockOf iblk4; rw [hA]; try rfl)
theorem before4_21_of {c : Dev nD} (dat : Dat τ (Elt F) Unit ℕ (UR sig nD τ) ℕ cfg4 c) (hA : dat.A 21 = V c (Pipeline.arrRef spec4 21))
    (hafter : ∀ t, dat.after 21 t = iblk4 V c 21 t) (t : Fin cfg4.N) (d) : dat.before 21 t d = iblk4 V c 21 t :=
  (dat.before_in_eq_fetched 21 rfl (fun _ => rfl) (fun _ _ _ => rfl) (fun t => by rw [hafter]; unfold Dat.blockOf iblk4; rw [hA]; try rfl) t d).trans
    (by unfold Dat.fetched Dat.blockOf iblk4; rw [hA]; try rfl)
theorem before4_22_of {c : Dev nD} (dat : Dat τ (Elt F) Unit ℕ (UR sig nD τ) ℕ cfg4 c) (hA : dat.A 22 = V c (Pipeline.arrRef spec4 22))
    (hafter : ∀ t, dat.after 22 t = iblk4 V c 22 t) (t : Fin cfg4.N) (d) : dat.before 22 t d = iblk4 V c 22 t :=
  (dat.before_in_eq_fetched 22 rfl (fun _ => rfl) (fun _ _ _ => rfl) (fun t => by rw [hafter]; unfold Dat.blockOf iblk4; rw [hA]; try rfl) t d).trans
    (by unfold Dat.fetched Dat.blockOf iblk4; rw [hA]; try rfl)
theorem before4_23_of {c : Dev nD} (dat : Dat τ (Elt F) Unit ℕ (UR sig nD τ) ℕ cfg4 c) (hA : dat.A 23 = V c (Pipeline.arrRef spec4 23))
    (hafter : ∀ t, dat.after 23 t = iblk4 V c 23 t) (t : Fin cfg4.N) (d) : dat.before 23 t d = iblk4 V c 23 t :=
  (dat.before_in_eq_fetched 23 rfl (fun _ => rfl) (fun _ _ _ => rfl) (fun t => by rw [hafter]; unfold Dat.blockOf iblk4; rw [hA]; try rfl) t d).trans
    (by unfold Dat.fetched Dat.blockOf iblk4; rw [hA]; try rfl)
theorem before4_24_of {c : Dev nD} (dat : Dat τ (Elt F) Unit ℕ (UR sig nD τ) ℕ cfg4 c) (hA : dat.A 24 = V c (Pipeline.arrRef spec4 24))
    (hafter : ∀ t, dat.after 24 t = iblk4 V c 24 t) (t : Fin cfg4.N) (d) : dat.before 24 t d = iblk4 V c 24 t :=
  (dat.before_in_eq_fetched 24 rfl (fun _ => rfl) (fun _ _ _ => rfl) (fun t => by rw [hafter]; unfold Dat.blockOf iblk4; rw [hA]; try rfl) t d).trans
    (by unfold Dat.fetched Dat.blockOf iblk4; rw [hA]; try rfl)
theorem before4_25_of {c : Dev nD} (dat : Dat τ (Elt F) Unit ℕ (UR sig nD τ) ℕ cfg4 c) (hA : dat.A 25 = V c (Pipeline.arrRef spec4 25))
    (hafter : ∀ t, dat.after 25 t = iblk4 V c 25 t) (t : Fin cfg4.N) (d) : dat.before 25 t d = iblk4 V c 25 t :=
  (dat.before_in_eq_fetched 25 rfl (fun _ => rfl) (fun _ _ _ => rfl) (fun t => by rw [hafter]; unfold Dat.blockOf iblk4; rw [hA]; try rfl) t d).trans
    (by unfold Dat.fetched Dat.blockOf iblk4; rw [hA]; try rfl)
theorem before4_26_of {c : Dev nD} (dat : Dat τ (Elt F) Unit ℕ (UR sig nD τ) ℕ cfg4 c) (hA : dat.A 26 = V c (Pipeline.arrRef spec4 26))
    (hafter : ∀ t, dat.after 26 t = iblk4 V c 26 t) (t : Fin cfg4.N) (d) : dat.before 26 t d = iblk4 V c 26 t :=
  (dat.before_in_eq_fetched 26 rfl (fun _ => rfl) (fun _ _ _ => rfl) (fun t => by rw [hafter]; unfold Dat.blockOf iblk4; rw [hA]; try rfl) t d).trans
    (by unfold Dat.fetched Dat.blockOf iblk4; rw [hA]; try rfl)
theorem before4_27_of {c : Dev nD} (dat : Dat τ (Elt F) Unit ℕ (UR sig nD τ) ℕ cfg4 c) (hA : dat.A 27 = V c (Pipeline.arrRef spec4 27))
    (hafter : ∀ t, dat.after 27 t = iblk4 V c 27 t) (t : Fin cfg4.N) (d) : dat.before 27 t d = iblk4 V c 27 t :=
  (dat.before_in_eq_fetched 27 rfl (fun _ => rfl) (fun _ _ _ => rfl) (fun t => by rw [hafter]; unfold Dat.blockOf iblk4; rw [hA]; try rfl) t d).trans
    (by unfold Dat.fetched Dat.blockOf iblk4; rw [hA]; try rfl)
theorem before4_28_of {c : Dev nD} (dat : Dat τ (Elt F) Unit ℕ (UR sig nD τ) ℕ cfg4 c) (hA : dat.A 28 = V c (Pipeline.arrRef spec4 28))
    (hafter : ∀ t, dat.after 28 t = iblk4 V c 28 t) (t : Fin cfg4.N) (d) : dat.before 28 t d = iblk4 V c 28 t :=
  (dat.before_in_eq_fetched 28 rfl (fun _ => rfl) (fun _ _ _ => rfl) (fun t => by rw [hafter]; unfold Dat.blockOf iblk4; rw [hA]; try rfl) t d).trans
    (by unfold Dat.fetched Dat.blockOf iblk4; rw [hA]; try rfl)
theorem before4_29_of {c : Dev nD} (dat : Dat τ (Elt F) Unit ℕ (UR sig nD τ) ℕ cfg4 c) (hA : dat.A 29 = V c (Pipeline.arrRef spec4 29))
    (hafter : ∀ t, dat.after 29 t = iblk4 V c 29 t) (t : Fin cfg4.N) (d) : dat.before 29 t d = iblk4 V c 29 t :=
  (dat.before_in_eq_fetched 29 rfl (fun _ => rfl) (fun _ _ _ => rfl) (fun t => by rw [hafter]; unfold Dat.blockOf iblk4; rw [hA]; try rfl) t d).trans
    (by unfold Dat.fetched Dat.blockOf iblk4; rw [hA]; try rfl)
theorem before4_30_of {c : Dev nD} (dat : Dat τ (Elt F) Unit ℕ (UR sig nD τ) ℕ cfg4 c) (hA : dat.A 30 = V c (Pipeline.arrRef spec4 30))
    (hafter : ∀ t, dat.after 30 t = iblk4 V c 30 t) (t : Fin cfg4.N) (d) : dat.before 30 t d = iblk4 V c 30 t :=
  (dat.before_in_eq_fetched 30 rfl (fun _ => rfl) (fun _ _ _ => rfl) (fun t => by rw [hafter]; unfold Dat.blockOf iblk4; rw [hA]; try rfl) t d).trans
    (by unfold Dat.fetched Dat.blockOf iblk4; rw [hA]; try rfl)
theorem before4_31_of {c : Dev nD} (dat : Dat τ (Elt F) Unit ℕ (UR sig nD τ) ℕ cfg4 c) (hA : dat.A 31 = V c (Pipeline.arrRef spec4 31))
    (hafter : ∀ t, dat.after 31 t = iblk4 V c 31 t) (t : Fin cfg4.N) (d) : dat.before 31 t d = iblk4 V c 31 t :=
  (dat.before_in_eq_fetched 31 rfl (fun _ => rfl) (fun _ _ _ => rfl) (fun t => by rw [hafter]; unfold Dat.blockOf iblk4; rw [hA]; try rfl) t d).trans
    (by unfold Dat.fetched Dat.blockOf iblk4; rw [hA]; try rfl)
theorem before4_32_of {c : Dev nD} (dat : Dat τ (Elt F) Unit ℕ (UR sig nD τ) ℕ cfg4 c) (hA : dat.A 32 = V c (Pipeline.arrRef spec4 32))
    (hafter : ∀ t, dat.after 32 t = iblk4 V c 32 t) (t : Fin cfg4.N) (d) : dat.before 32 t d = iblk4 V c 32 t :=
  (dat.before_in_eq_fetched 32 rfl (fun _ => rfl) (fun _ _ _ => rfl) (fun t => by rw [hafter]; unfold Dat.blockOf iblk4; rw [hA]; try rfl) t d).trans
    (by unfold Dat.fetched Dat.blockOf iblk4; rw [hA]; try rfl)
theorem before4_33_of {c : Dev nD} (dat : Dat τ (Elt F) Unit ℕ (UR sig nD τ) ℕ cfg4 c) (hA : dat.A 33 = V c (Pipeline.arrRef spec4 33))
    (hafter : ∀ t, dat.after 33 t = iblk4 V c 33 t) (t : Fin cfg4.N) (d) : dat.before 33 t d = iblk4 V c 33 t :=
  (dat.before_in_eq_fetched 33 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A parent's whole block. -/
abbrev r4_p : Rect S512x128 := Rect.unit (s := S512x128) ![0, 0] S512x128.size inb_S512x128_S512x128_0_0
/-- Slab `k` of the weight slice, -/
abbrev r4_w0 : Rect S8x128x128 := Rect.unit (s := S8x128x128) ![0, 0, 0] S1x128x128.size inb_S8x128x128_S1x128x128_0_0_0
abbrev r4_w1 : Rect S8x128x128 := Rect.unit (s := S8x128x128) ![1, 0, 0] S1x128x128.size inb_S8x128x128_S1x128x128_1_0_0
abbrev r4_w2 : Rect S8x128x128 := Rect.unit (s := S8x128x128) ![2, 0, 0] S1x128x128.size inb_S8x128x128_S1x128x128_2_0_0
abbrev r4_w3 : Rect S8x128x128 := Rect.unit (s := S8x128x128) ![3, 0, 0] S1x128x128.size inb_S8x128x128_S1x128x128_3_0_0
abbrev r4_w4 : Rect S8x128x128 := Rect.unit (s := S8x128x128) ![4, 0, 0] S1x128x128.size inb_S8x128x128_S1x128x128_4_0_0
abbrev r4_w5 : Rect S8x128x128 := Rect.unit (s := S8x128x128) ![5, 0, 0] S1x128x128.size inb_S8x128x128_S1x128x128_5_0_0
abbrev r4_w6 : Rect S8x128x128 := Rect.unit (s := S8x128x128) ![6, 0, 0] S1x128x128.size inb_S8x128x128_S1x128x128_6_0_0
abbrev r4_w7 : Rect S8x128x128 := Rect.unit (s := S8x128x128) ![7, 0, 0] S1x128x128.size inb_S8x128x128_S1x128x128_7_0_0
/-- row `k` of the bias slice, -/
abbrev r4_b0 : Rect S8x128 := Rect.unit (s := S8x128) ![0, 0] S1x128.size inb_S8x128_S1x128_0_0
abbrev r4_b1 : Rect S8x128 := Rect.unit (s := S8x128) ![1, 0] S1x128.size inb_S8x128_S1x128_1_0
abbrev r4_b2 : Rect S8x128 := Rect.unit (s := S8x128) ![2, 0] S1x128.size inb_S8x128_S1x128_2_0
abbrev r4_b3 : Rect S8x128 := Rect.unit (s := S8x128) ![3, 0] S1x128.size inb_S8x128_S1x128_3_0
abbrev r4_b4 : Rect S8x128 := Rect.unit (s := S8x128) ![4, 0] S1x128.size inb_S8x128_S1x128_4_0
abbrev r4_b5 : Rect S8x128 := Rect.unit (s := S8x128) ![5, 0] S1x128.size inb_S8x128_S1x128_5_0
abbrev r4_b6 : Rect S8x128 := Rect.unit (s := S8x128) ![6, 0] S1x128.size inb_S8x128_S1x128_6_0
abbrev r4_b7 : Rect S8x128 := Rect.unit (s := S8x128) ![7, 0] S1x128.size inb_S8x128_S1x128_7_0
/-- and slab `k` of the output block. -/
abbrev r4_o0 : Rect S8x512x128 := Rect.unit (s := S8x512x128) ![0, 0, 0] S1x512x128.size inb_S8x512x128_S1x512x128_0_0_0
abbrev r4_o1 : Rect S8x512x128 := Rect.unit (s := S8x512x128) ![1, 0, 0] S1x512x128.size inb_S8x512x128_S1x512x128_1_0_0
abbrev r4_o2 : Rect S8x512x128 := Rect.unit (s := S8x512x128) ![2, 0, 0] S1x512x128.size inb_S8x512x128_S1x512x128_2_0_0
abbrev r4_o3 : Rect S8x512x128 := Rect.unit (s := S8x512x128) ![3, 0, 0] S1x512x128.size inb_S8x512x128_S1x512x128_3_0_0
abbrev r4_o4 : Rect S8x512x128 := Rect.unit (s := S8x512x128) ![4, 0, 0] S1x512x128.size inb_S8x512x128_S1x512x128_4_0_0
abbrev r4_o5 : Rect S8x512x128 := Rect.unit (s := S8x512x128) ![5, 0, 0] S1x512x128.size inb_S8x512x128_S1x512x128_5_0_0
abbrev r4_o6 : Rect S8x512x128 := Rect.unit (s := S8x512x128) ![6, 0, 0] S1x512x128.size inb_S8x512x128_S1x512x128_6_0_0
abbrev r4_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab4_0 (p : Fin 32 → Vec F S512x128 .f32) (wt : Vec F S8x128x128 .f32) (bs : Vec F S8x128 .f32) : Vec F S1x512x128 .f32 :=
  k4_pay1 (View.ld (p 0) r4_p) (View.ld (p 1) r4_p) (View.ld (p 2) r4_p) (View.ld (p 3) r4_p) (View.ld wt r4_w0) (View.ld bs r4_b0)
def slab4_1 (p : Fin 32 → Vec F S512x128 .f32) (wt : Vec F S8x128x128 .f32) (bs : Vec F S8x128 .f32) : Vec F S1x512x128 .f32 :=
  k4_pay3 (k4_pay2 (View.ld (p 4) r4_p) (View.ld (p 5) r4_p) (View.ld (p 6) r4_p)) (View.ld (p 7) r4_p) (View.ld wt r4_w1) (View.ld bs r4_b1)
def slab4_2 (p : Fin 32 → Vec F S512x128 .f32) (wt : Vec F S8x128x128 .f32) (bs : Vec F S8x128 .f32) : Vec F S1x512x128 .f32 :=
  k4_pay7 (k4_pay4 (View.ld (p 8) r4_p) (View.ld (p 9) r4_p) (View.ld (p 10) r4_p) (View.ld (p 11) r4_p)) (k4_pay5 (View.ld wt r4_w2)) (k4_pay6 (View.ld bs r4_b2))
def slab4_3 (p : Fin 32 → Vec F S512x128 .f32) (wt : Vec F S8x128x128 .f32) (bs : Vec F S8x128 .f32) : Vec F S1x512x128 .f32 :=
  k4_pay8 (View.ld (p 12) r4_p) (View.ld (p 13) r4_p) (View.ld (p 14) r4_p) (View.ld (p 15) r4_p) (View.ld wt r4_w3) (View.ld bs r4_b3)
def slab4_4 (p : Fin 32 → Vec F S512x128 .f32) (wt : Vec F S8x128x128 .f32) (bs : Vec F S8x128 .f32) : Vec F S1x512x128 .f32 :=
  k4_pay9 (View.ld (p 16) r4_p) (View.ld (p 17) r4_p) (View.ld (p 18) r4_p) (View.ld (p 19) r4_p) (View.ld wt r4_w4) (View.ld bs r4_b4)
def slab4_5 (p : Fin 32 → Vec F S512x128 .f32) (wt : Vec F S8x128x128 .f32) (bs : Vec F S8x128 .f32) : Vec F S1x512x128 .f32 :=
  k4_pay11 (k4_pay10 (View.ld (p 20) r4_p) (View.ld (p 21) r4_p) (View.ld (p 22) r4_p)) (View.ld (p 23) r4_p) (View.ld wt r4_w5) (View.ld bs r4_b5)
def slab4_6 (p : Fin 32 → Vec F S512x128 .f32) (wt : Vec F S8x128x128 .f32) (bs : Vec F S8x128 .f32) : Vec F S1x512x128 .f32 :=
  k4_pay15 (k4_pay12 (View.ld (p 24) r4_p) (View.ld (p 25) r4_p) (View.ld (p 26) r4_p) (View.ld (p 27) r4_p)) (k4_pay13 (View.ld wt r4_w6)) (k4_pay14 (View.ld bs r4_b6))
def slab4_7 (p : Fin 32 → Vec F S512x128 .f32) (wt : Vec F S8x128x128 .f32) (bs : Vec F S8x128 .f32) : Vec F S1x512x128 .f32 :=
  k4_pay16 (View.ld (p 28) r4_p) (View.ld (p 29) r4_p) (View.ld (p 30) r4_p) (View.ld (p 31) r4_p) (View.ld wt r4_w7) (View.ld bs r4_b7)

/-- Window 34's staging buffer after the body, from the input windows' blocks: its 8 stores as pieces, LAST FIRST. -/
def out4_34 (p : Fin 32 → Vec F S512x128 .f32) (wt : Vec F S8x128x128 .f32) (bs : Vec F S8x128 .f32) : Vec F S8x512x128 .f32 :=
  View.canon [⟨r4_o7, slab4_7 p wt bs⟩, ⟨r4_o6, slab4_6 p wt bs⟩, ⟨r4_o5, slab4_5 p wt bs⟩, ⟨r4_o4, slab4_4 p wt bs⟩, ⟨r4_o3, slab4_3 p wt bs⟩, ⟨r4_o2, slab4_2 p wt bs⟩, ⟨r4_o1, slab4_1 p wt bs⟩, ⟨r4_o0, slab4_0 p wt bs⟩]

/-- The eight stores tile the buffer (checked by evaluation), so they cover it. -/
theorem cover4_34 (p0 p1 p2 p3 p4 p5 p6 p7 : Vec F S1x512x128 .f32) (y : S8x512x128.Idx) :
    ∃ pc ∈ ([⟨r4_o7, p7⟩, ⟨r4_o6, p6⟩, ⟨r4_o5, p5⟩, ⟨r4_o4, p4⟩, ⟨r4_o3, p3⟩, ⟨r4_o2, p2⟩, ⟨r4_o1, p1⟩, ⟨r4_o0, p0⟩] : List (View.Piece (Elt F) S8x512x128 .f32)), y ∈ pc.1.set :=
  View.cover_of_tiled [⟨r4_o7, p7⟩, ⟨r4_o6, p6⟩, ⟨r4_o5, p5⟩, ⟨r4_o4, p4⟩, ⟨r4_o3, p3⟩, ⟨r4_o2, p2⟩, ⟨r4_o1, p1⟩, ⟨r4_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out4_34` of the inputs': the printed
    functions are their skeletons, run through every part call; each slab's load of the output buffer before its store
    reads contents nothing uses. -/
theorem sound_kernel4 (c : Dev nD) (E : Set ℕ) (i : grid4.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out4_34 p wt bs)) -∗ K ⟨⟩))
      ⊢ wp frame (wpE (defs₀ (F := F)) Variants.none c none) E (cc4__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out4_34 slab4_0 slab4_1 slab4_2 slab4_3 slab4_4 slab4_5 slab4_6 slab4_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc4__group_kernel_eq_skeleton]; unfold cc4__group_kernel_skel
  simp only [k4_part1_eq_skeleton, k4_part2_eq_skeleton, k4_part3_eq_skeleton, k4_part4_eq_skeleton, k4_part5_eq_skeleton, k4_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover4_34 _ _ _ _ _ _ _ _)

/-! ## The pipeline's proof data -/

/-- The 32 parent blocks at point `t`, as one family: parent `j` of slab `k` is window `4k+j`. -/
def par4 (c : Dev nD) (t : Fin cfg4.N) : Fin 32 → Vec F S512x128 .f32 := fun j => match j with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => iblk4 V c 23 t
    | ⟨24, _⟩ => iblk4 V c 24 t
    | ⟨25, _⟩ => iblk4 V c 25 t
    | ⟨26, _⟩ => iblk4 V c 26 t
    | ⟨27, _⟩ => iblk4 V c 27 t
    | ⟨28, _⟩ => iblk4 V c 28 t
    | ⟨29, _⟩ => iblk4 V c 29 t
    | ⟨30, _⟩ => iblk4 V c 30 t
    | ⟨31, _⟩ => iblk4 V c 31 t
    | ⟨_ + 32, h⟩ => absurd h (Nat.not_lt.2 (Nat.le_add_left _ _))

/-- The family at a literal index (the `match` reduced by `dsimp`). -/
theorem par4_0 (c : Dev nD) (t : Fin cfg4.N) : par4 V c t 0 = iblk4 V c 0 t := by dsimp only [par4]
theorem par4_1 (c : Dev nD) (t : Fin cfg4.N) : par4 V c t 1 = iblk4 V c 1 t := by dsimp only [par4]
theorem par4_2 (c : Dev nD) (t : Fin cfg4.N) : par4 V c t 2 = iblk4 V c 2 t := by dsimp only [par4]
theorem par4_3 (c : Dev nD) (t : Fin cfg4.N) : par4 V c t 3 = iblk4 V c 3 t := by dsimp only [par4]
theorem par4_4 (c : Dev nD) (t : Fin cfg4.N) : par4 V c t 4 = iblk4 V c 4 t := by dsimp only [par4]
theorem par4_5 (c : Dev nD) (t : Fin cfg4.N) : par4 V c t 5 = iblk4 V c 5 t := by dsimp only [par4]
theorem par4_6 (c : Dev nD) (t : Fin cfg4.N) : par4 V c t 6 = iblk4 V c 6 t := by dsimp only [par4]
theorem par4_7 (c : Dev nD) (t : Fin cfg4.N) : par4 V c t 7 = iblk4 V c 7 t := by dsimp only [par4]
theorem par4_8 (c : Dev nD) (t : Fin cfg4.N) : par4 V c t 8 = iblk4 V c 8 t := by dsimp only [par4]
theorem par4_9 (c : Dev nD) (t : Fin cfg4.N) : par4 V c t 9 = iblk4 V c 9 t := by dsimp only [par4]
theorem par4_10 (c : Dev nD) (t : Fin cfg4.N) : par4 V c t 10 = iblk4 V c 10 t := by dsimp only [par4]
theorem par4_11 (c : Dev nD) (t : Fin cfg4.N) : par4 V c t 11 = iblk4 V c 11 t := by dsimp only [par4]
theorem par4_12 (c : Dev nD) (t : Fin cfg4.N) : par4 V c t 12 = iblk4 V c 12 t := by dsimp only [par4]
theorem par4_13 (c : Dev nD) (t : Fin cfg4.N) : par4 V c t 13 = iblk4 V c 13 t := by dsimp only [par4]
theorem par4_14 (c : Dev nD) (t : Fin cfg4.N) : par4 V c t 14 = iblk4 V c 14 t := by dsimp only [par4]
theorem par4_15 (c : Dev nD) (t : Fin cfg4.N) : par4 V c t 15 = iblk4 V c 15 t := by dsimp only [par4]
theorem par4_16 (c : Dev nD) (t : Fin cfg4.N) : par4 V c t 16 = iblk4 V c 16 t := by dsimp only [par4]
theorem par4_17 (c : Dev nD) (t : Fin cfg4.N) : par4 V c t 17 = iblk4 V c 17 t := by dsimp only [par4]
theorem par4_18 (c : Dev nD) (t : Fin cfg4.N) : par4 V c t 18 = iblk4 V c 18 t := by dsimp only [par4]
theorem par4_19 (c : Dev nD) (t : Fin cfg4.N) : par4 V c t 19 = iblk4 V c 19 t := by dsimp only [par4]
theorem par4_20 (c : Dev nD) (t : Fin cfg4.N) : par4 V c t 20 = iblk4 V c 20 t := by dsimp only [par4]
theorem par4_21 (c : Dev nD) (t : Fin cfg4.N) : par4 V c t 21 = iblk4 V c 21 t := by dsimp only [par4]
theorem par4_22 (c : Dev nD) (t : Fin cfg4.N) : par4 V c t 22 = iblk4 V c 22 t := by dsimp only [par4]
theorem par4_23 (c : Dev nD) (t : Fin cfg4.N) : par4 V c t 23 = iblk4 V c 23 t := by dsimp only [par4]
theorem par4_24 (c : Dev nD) (t : Fin cfg4.N) : par4 V c t 24 = iblk4 V c 24 t := by dsimp only [par4]
theorem par4_25 (c : Dev nD) (t : Fin cfg4.N) : par4 V c t 25 = iblk4 V c 25 t := by dsimp only [par4]
theorem par4_26 (c : Dev nD) (t : Fin cfg4.N) : par4 V c t 26 = iblk4 V c 26 t := by dsimp only [par4]
theorem par4_27 (c : Dev nD) (t : Fin cfg4.N) : par4 V c t 27 = iblk4 V c 27 t := by dsimp only [par4]
theorem par4_28 (c : Dev nD) (t : Fin cfg4.N) : par4 V c t 28 = iblk4 V c 28 t := by dsimp only [par4]
theorem par4_29 (c : Dev nD) (t : Fin cfg4.N) : par4 V c t 29 = iblk4 V c 29 t := by dsimp only [par4]
theorem par4_30 (c : Dev nD) (t : Fin cfg4.N) : par4 V c t 30 = iblk4 V c 30 t := by dsimp only [par4]
theorem par4_31 (c : Dev nD) (t : Fin cfg4.N) : par4 V c t 31 = iblk4 V c 31 t := by dsimp only [par4]

/-- The proof data of pipeline 4 on core `c`: the arrays as the region finds them (`V`); after the body at point `t`
    each input's buffer at its block and the output's at `out4_34` of the input blocks; the invariant the scoped rest
    and the generator register, untouched; nothing owed; of each windowed array the share its window holds when
    several windows read one array. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => iblk4 V c 23 t
    | ⟨24, _⟩ => iblk4 V c 24 t
    | ⟨25, _⟩ => iblk4 V c 25 t
    | ⟨26, _⟩ => iblk4 V c 26 t
    | ⟨27, _⟩ => iblk4 V c 27 t
    | ⟨28, _⟩ => iblk4 V c 28 t
    | ⟨29, _⟩ => iblk4 V c 29 t
    | ⟨30, _⟩ => iblk4 V c 30 t
    | ⟨31, _⟩ => iblk4 V c 31 t
    | ⟨32, _⟩ => iblk4 V c 32 t
    | ⟨33, _⟩ => iblk4 V c 33 t
    | ⟨34, _⟩ => out4_34 (par4 V c t) (iblk4 V c 32 t) (iblk4 V c 33 t)
    | ⟨_ + 35, h⟩ => absurd h (Nat.not_lt.2 (Nat.le_add_left _ _))
  Φ _ := Pipeline.ΦA spec4 c
  q w := Cert.Lib.SharedArrays.shareOf (Pipeline.arrRef spec4) w
  owed _ := 0

/-- The proof data's arrays are the region-entry contents. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = iblk4 V c 19 t := by dsimp only [dat4]
theorem after4_20 (c : Dev nD) (t : Fin cfg4.N) : (dat4 V c).after 20 t = iblk4 V c 20 t := by dsimp only [dat4]
theorem after4_21 (c : Dev nD) (t : Fin cfg4.N) : (dat4 V c).after 21 t = iblk4 V c 21 t := by dsimp only [dat4]
theorem after4_22 (c : Dev nD) (t : Fin cfg4.N) : (dat4 V c).after 22 t = iblk4 V c 22 t := by dsimp only [dat4]
theorem after4_23 (c : Dev nD) (t : Fin cfg4.N) : (dat4 V c).after 23 t = iblk4 V c 23 t := by dsimp only [dat4]
theorem after4_24 (c : Dev nD) (t : Fin cfg4.N) : (dat4 V c).after 24 t = iblk4 V c 24 t := by dsimp only [dat4]
theorem after4_25 (c : Dev nD) (t : Fin cfg4.N) : (dat4 V c).after 25 t = iblk4 V c 25 t := by dsimp only [dat4]
theorem after4_26 (c : Dev nD) (t : Fin cfg4.N) : (dat4 V c).after 26 t = iblk4 V c 26 t := by dsimp only [dat4]
theorem after4_27 (c : Dev nD) (t : Fin cfg4.N) : (dat4 V c).after 27 t = iblk4 V c 27 t := by dsimp only [dat4]
theorem after4_28 (c : Dev nD) (t : Fin cfg4.N) : (dat4 V c).after 28 t = iblk4 V c 28 t := by dsimp only [dat4]
theorem after4_29 (c : Dev nD) (t : Fin cfg4.N) : (dat4 V c).after 29 t = iblk4 V c 29 t := by dsimp only [dat4]
theorem after4_30 (c : Dev nD) (t : Fin cfg4.N) : (dat4 V c).after 30 t = iblk4 V c 30 t := by dsimp only [dat4]
theorem after4_31 (c : Dev nD) (t : Fin cfg4.N) : (dat4 V c).after 31 t = iblk4 V c 31 t := by dsimp only [dat4]
theorem after4_32 (c : Dev nD) (t : Fin cfg4.N) : (dat4 V c).after 32 t = iblk4 V c 32 t := by dsimp only [dat4]
theorem after4_33 (c : Dev nD) (t : Fin cfg4.N) : (dat4 V c).after 33 t = iblk4 V c 33 t := by dsimp only [dat4]
theorem after4_34 (c : Dev nD) (t : Fin cfg4.N) :
    (dat4 V c).after 34 t = out4_34 (par4 V c t) (iblk4 V c 32 t) (iblk4 V c 33 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d
theorem before4_19 (c : Dev nD) (t : Fin cfg4.N) (d) : (dat4 V c).before 19 t d = iblk4 V c 19 t :=
  before4_19_of V (dat4 V c) (A_eq4 V c 19) (after4_19 V c) t d
theorem before4_20 (c : Dev nD) (t : Fin cfg4.N) (d) : (dat4 V c).before 20 t d = iblk4 V c 20 t :=
  before4_20_of V (dat4 V c) (A_eq4 V c 20) (after4_20 V c) t d
theorem before4_21 (c : Dev nD) (t : Fin cfg4.N) (d) : (dat4 V c).before 21 t d = iblk4 V c 21 t :=
  before4_21_of V (dat4 V c) (A_eq4 V c 21) (after4_21 V c) t d
theorem before4_22 (c : Dev nD) (t : Fin cfg4.N) (d) : (dat4 V c).before 22 t d = iblk4 V c 22 t :=
  before4_22_of V (dat4 V c) (A_eq4 V c 22) (after4_22 V c) t d
theorem before4_23 (c : Dev nD) (t : Fin cfg4.N) (d) : (dat4 V c).before 23 t d = iblk4 V c 23 t :=
  before4_23_of V (dat4 V c) (A_eq4 V c 23) (after4_23 V c) t d
theorem before4_24 (c : Dev nD) (t : Fin cfg4.N) (d) : (dat4 V c).before 24 t d = iblk4 V c 24 t :=
  before4_24_of V (dat4 V c) (A_eq4 V c 24) (after4_24 V c) t d
theorem before4_25 (c : Dev nD) (t : Fin cfg4.N) (d) : (dat4 V c).before 25 t d = iblk4 V c 25 t :=
  before4_25_of V (dat4 V c) (A_eq4 V c 25) (after4_25 V c) t d
theorem before4_26 (c : Dev nD) (t : Fin cfg4.N) (d) : (dat4 V c).before 26 t d = iblk4 V c 26 t :=
  before4_26_of V (dat4 V c) (A_eq4 V c 26) (after4_26 V c) t d
theorem before4_27 (c : Dev nD) (t : Fin cfg4.N) (d) : (dat4 V c).before 27 t d = iblk4 V c 27 t :=
  before4_27_of V (dat4 V c) (A_eq4 V c 27) (after4_27 V c) t d
theorem before4_28 (c : Dev nD) (t : Fin cfg4.N) (d) : (dat4 V c).before 28 t d = iblk4 V c 28 t :=
  before4_28_of V (dat4 V c) (A_eq4 V c 28) (after4_28 V c) t d
theorem before4_29 (c : Dev nD) (t : Fin cfg4.N) (d) : (dat4 V c).before 29 t d = iblk4 V c 29 t :=
  before4_29_of V (dat4 V c) (A_eq4 V c 29) (after4_29 V c) t d
theorem before4_30 (c : Dev nD) (t : Fin cfg4.N) (d) : (dat4 V c).before 30 t d = iblk4 V c 30 t :=
  before4_30_of V (dat4 V c) (A_eq4 V c 30) (after4_30 V c) t d
theorem before4_31 (c : Dev nD) (t : Fin cfg4.N) (d) : (dat4 V c).before 31 t d = iblk4 V c 31 t :=
  before4_31_of V (dat4 V c) (A_eq4 V c 31) (after4_31 V c) t d
theorem before4_32 (c : Dev nD) (t : Fin cfg4.N) (d) : (dat4 V c).before 32 t d = iblk4 V c 32 t :=
  before4_32_of V (dat4 V c) (A_eq4 V c 32) (after4_32 V c) t d
theorem before4_33 (c : Dev nD) (t : Fin cfg4.N) (d) : (dat4 V c).before 33 t d = iblk4 V c 33 t :=
  before4_33_of V (dat4 V c) (A_eq4 V c 33) (after4_33 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d))
    ∗ (∃ d, owns (c : Thread nD τ) (st4_21 t) fullShare ((dat4 V c).before 21 t d))
    ∗ (∃ d, owns (c : Thread nD τ) (st4_22 t) fullShare ((dat4 V c).before 22 t d))
    ∗ (∃ d, owns (c : Thread nD τ) (st4_23 t) fullShare ((dat4 V c).before 23 t d))
    ∗ (∃ d, owns (c : Thread nD τ) (st4_24 t) fullShare ((dat4 V c).before 24 t d))
    ∗ (∃ d, owns (c : Thread nD τ) (st4_25 t) fullShare ((dat4 V c).before 25 t d))
    ∗ (∃ d, owns (c : Thread nD τ) (st4_26 t) fullShare ((dat4 V c).before 26 t d))
    ∗ (∃ d, owns (c : Thread nD τ) (st4_27 t) fullShare ((dat4 V c).before 27 t d))
    ∗ (∃ d, owns (c : Thread nD τ) (st4_28 t) fullShare ((dat4 V c).before 28 t d))
    ∗ (∃ d, owns (c : Thread nD τ) (st4_29 t) fullShare ((dat4 V c).before 29 t d))
    ∗ (∃ d, owns (c : Thread nD τ) (st4_30 t) fullShare ((dat4 V c).before 30 t d))
    ∗ (∃ d, owns (c : Thread nD τ) (st4_31 t) fullShare ((dat4 V c).before 31 t d))
    ∗ (∃ d, owns (c : Thread nD τ) (st4_32 t) fullShare ((dat4 V c).before 32 t d))
    ∗ (∃ d, owns (c : Thread nD τ) (st4_33 t) fullShare ((dat4 V c).before 33 t d))
    ∗ (∃ d, owns (c : Thread nD τ) (st4_34 t) fullShare ((dat4 V c).before 34 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t)
    ∗ owns (c : Thread nD τ) (st4_21 t) fullShare ((dat4 V c).after 21 t)
    ∗ owns (c : Thread nD τ) (st4_22 t) fullShare ((dat4 V c).after 22 t)
    ∗ owns (c : Thread nD τ) (st4_23 t) fullShare ((dat4 V c).after 23 t)
    ∗ owns (c : Thread nD τ) (st4_24 t) fullShare ((dat4 V c).after 24 t)
    ∗ owns (c : Thread nD τ) (st4_25 t) fullShare ((dat4 V c).after 25 t)
    ∗ owns (c : Thread nD τ) (st4_26 t) fullShare ((dat4 V c).after 26 t)
    ∗ owns (c : Thread nD τ) (st4_27 t) fullShare ((dat4 V c).after 27 t)
    ∗ owns (c : Thread nD τ) (st4_28 t) fullShare ((dat4 V c).after 28 t)
    ∗ owns (c : Thread nD τ) (st4_29 t) fullShare ((dat4 V c).after 29 t)
    ∗ owns (c : Thread nD τ) (st4_30 t) fullShare ((dat4 V c).after 30 t)
    ∗ owns (c : Thread nD τ) (st4_31 t) fullShare ((dat4 V c).after 31 t)
    ∗ owns (c : Thread nD τ) (st4_32 t) fullShare ((dat4 V c).after 32 t)
    ∗ owns (c : Thread nD τ) (st4_33 t) fullShare ((dat4 V c).after 33 t)
    ∗ owns (c : Thread nD τ) (st4_34 t) fullShare ((dat4 V c).after 34 t))

set_option maxHeartbeats 4000000 in
/-- The body at any point: the inputs' memrefs hold their blocks (`before4_W`), so `sound_kernel4` applies; the invariant
    and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18, before4_19, before4_20, before4_21, before4_22, before4_23, before4_24, before4_25, before4_26, before4_27, before4_28, before4_29, before4_30, before4_31, before4_32, before4_33]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20, after4_21, after4_22, after4_23, after4_24, after4_25, after4_26, after4_27, after4_28, after4_29, after4_30, after4_31, after4_32, after4_33, after4_34]
  have hk := fun K => sound_kernel4 (F := F) c Set.univ (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ (hstage4_4 ((cfg4.slots t 4).cast nbuf4_4)) _ (hstage4_5 ((cfg4.slots t 5).cast nbuf4_5)) _ (hstage4_6 ((cfg4.slots t 6).cast nbuf4_6)) _ (hstage4_7 ((cfg4.slots t 7).cast nbuf4_7)) _ (hstage4_8 ((cfg4.slots t 8).cast nbuf4_8)) _ (hstage4_9 ((cfg4.slots t 9).cast nbuf4_9)) _ (hstage4_10 ((cfg4.slots t 10).cast nbuf4_10)) _ (hstage4_11 ((cfg4.slots t 11).cast nbuf4_11)) _ (hstage4_12 ((cfg4.slots t 12).cast nbuf4_12)) _ (hstage4_13 ((cfg4.slots t 13).cast nbuf4_13)) _ (hstage4_14 ((cfg4.slots t 14).cast nbuf4_14)) _ (hstage4_15 ((cfg4.slots t 15).cast nbuf4_15)) _ (hstage4_16 ((cfg4.slots t 16).cast nbuf4_16)) _ (hstage4_17 ((cfg4.slots t 17).cast nbuf4_17)) _ (hstage4_18 ((cfg4.slots t 18).cast nbuf4_18)) _ (hstage4_19 ((cfg4.slots t 19).cast nbuf4_19)) _ (hstage4_20 ((cfg4.slots t 20).cast nbuf4_20)) _ (hstage4_21 ((cfg4.slots t 21).cast nbuf4_21)) _ (hstage4_22 ((cfg4.slots t 22).cast nbuf4_22)) _ (hstage4_23 ((cfg4.slots t 23).cast nbuf4_23)) _ (hstage4_24 ((cfg4.slots t 24).cast nbuf4_24)) _ (hstage4_25 ((cfg4.slots t 25).cast nbuf4_25)) _ (hstage4_26 ((cfg4.slots t 26).cast nbuf4_26)) _ (hstage4_27 ((cfg4.slots t 27).cast nbuf4_27)) _ (hstage4_28 ((cfg4.slots t 28).cast nbuf4_28)) _ (hstage4_29 ((cfg4.slots t 29).cast nbuf4_29)) _ (hstage4_30 ((cfg4.slots t 30).cast nbuf4_30)) _ (hstage4_31 ((cfg4.slots t 31).cast nbuf4_31)) _ (hstage4_32 ((cfg4.slots t 32).cast nbuf4_32)) _ (hstage4_33 ((cfg4.slots t 33).cast nbuf4_33)) _ (hstage4_34 ((cfg4.slots t 34).cast nbuf4_34))
    (par4 V c t) (iblk4 V c 32 t) (iblk4 V c 33 t) K
  simp only [par4_0, par4_1, par4_2, par4_3, par4_4, par4_5, par4_6, par4_7, par4_8, par4_9, par4_10, par4_11, par4_12, par4_13, par4_14, par4_15, par4_16, par4_17, par4_18, par4_19, par4_20, par4_21, par4_22, par4_23, par4_24, par4_25, par4_26, par4_27, par4_28, par4_29, par4_30, par4_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Region 5 of the kernel program (pipeline 5, `cc5__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out5_34`); the body's triple; the
   pipeline's proof data (`dat5`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 5: custom_call 5, `cc5__group_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)
theorem before5_14_of {c : Dev nD} (dat : Dat τ (Elt F) Unit ℕ (UR sig nD τ) ℕ cfg5 c) (hA : dat.A 14 = V c (Pipeline.arrRef spec5 14))
    (hafter : ∀ t, dat.after 14 t = iblk5 V c 14 t) (t : Fin cfg5.N) (d) : dat.before 14 t d = iblk5 V c 14 t :=
  (dat.before_in_eq_fetched 14 rfl (fun _ => rfl) (fun _ _ _ => rfl) (fun t => by rw [hafter]; unfold Dat.blockOf iblk5; rw [hA]; try rfl) t d).trans
    (by unfold Dat.fetched Dat.blockOf iblk5; rw [hA]; try rfl)
theorem before5_15_of {c : Dev nD} (dat : Dat τ (Elt F) Unit ℕ (UR sig nD τ) ℕ cfg5 c) (hA : dat.A 15 = V c (Pipeline.arrRef spec5 15))
    (hafter : ∀ t, dat.after 15 t = iblk5 V c 15 t) (t : Fin cfg5.N) (d) : dat.before 15 t d = iblk5 V c 15 t :=
  (dat.before_in_eq_fetched 15 rfl (fun _ => rfl) (fun _ _ _ => rfl) (fun t => by rw [hafter]; unfold Dat.blockOf iblk5; rw [hA]; try rfl) t d).trans
    (by unfold Dat.fetched Dat.blockOf iblk5; rw [hA]; try rfl)
theorem before5_16_of {c : Dev nD} (dat : Dat τ (Elt F) Unit ℕ (UR sig nD τ) ℕ cfg5 c) (hA : dat.A 16 = V c (Pipeline.arrRef spec5 16))
    (hafter : ∀ t, dat.after 16 t = iblk5 V c 16 t) (t : Fin cfg5.N) (d) : dat.before 16 t d = iblk5 V c 16 t :=
  (dat.before_in_eq_fetched 16 rfl (fun _ => rfl) (fun _ _ _ => rfl) (fun t => by rw [hafter]; unfold Dat.blockOf iblk5; rw [hA]; try rfl) t d).trans
    (by unfold Dat.fetched Dat.blockOf iblk5; rw [hA]; try rfl)
theorem before5_17_of {c : Dev nD} (dat : Dat τ (Elt F) Unit ℕ (UR sig nD τ) ℕ cfg5 c) (hA : dat.A 17 = V c (Pipeline.arrRef spec5 17))
    (hafter : ∀ t, dat.after 17 t = iblk5 V c 17 t) (t : Fin cfg5.N) (d) : dat.before 17 t d = iblk5 V c 17 t :=
  (dat.before_in_eq_fetched 17 rfl (fun _ => rfl) (fun _ _ _ => rfl) (fun t => by rw [hafter]; unfold Dat.blockOf iblk5; rw [hA]; try rfl) t d).trans
    (by unfold Dat.fetched Dat.blockOf iblk5; rw [hA]; try rfl)
theorem before5_18_of {c : Dev nD} (dat : Dat τ (Elt F) Unit ℕ (UR sig nD τ) ℕ cfg5 c) (hA : dat.A 18 = V c (Pipeline.arrRef spec5 18))
    (hafter : ∀ t, dat.after 18 t = iblk5 V c 18 t) (t : Fin cfg5.N) (d) : dat.before 18 t d = iblk5 V c 18 t :=
  (dat.before_in_eq_fetched 18 rfl (fun _ => rfl) (fun _ _ _ => rfl) (fun t => by rw [hafter]; unfold Dat.blockOf iblk5; rw [hA]; try rfl) t d).trans
    (by unfold Dat.fetched Dat.blockOf iblk5; rw [hA]; try rfl)
theorem before5_19_of {c : Dev nD} (dat : Dat τ (Elt F) Unit ℕ (UR sig nD τ) ℕ cfg5 c) (hA : dat.A 19 = V c (Pipeline.arrRef spec5 19))
    (hafter : ∀ t, dat.after 19 t = iblk5 V c 19 t) (t : Fin cfg5.N) (d) : dat.before 19 t d = iblk5 V c 19 t :=
  (dat.before_in_eq_fetched 19 rfl (fun _ => rfl) (fun _ _ _ => rfl) (fun t => by rw [hafter]; unfold Dat.blockOf iblk5; rw [hA]; try rfl) t d).trans
    (by unfold Dat.fetched Dat.blockOf iblk5; rw [hA]; try rfl)
theorem before5_20_of {c : Dev nD} (dat : Dat τ (Elt F) Unit ℕ (UR sig nD τ) ℕ cfg5 c) (hA : dat.A 20 = V c (Pipeline.arrRef spec5 20))
    (hafter : ∀ t, dat.after 20 t = iblk5 V c 20 t) (t : Fin cfg5.N) (d) : dat.before 20 t d = iblk5 V c 20 t :=
  (dat.before_in_eq_fetched 20 rfl (fun _ => rfl) (fun _ _ _ => rfl) (fun t => by rw [hafter]; unfold Dat.blockOf iblk5; rw [hA]; try rfl) t d).trans
    (by unfold Dat.fetched Dat.blockOf iblk5; rw [hA]; try rfl)
theorem before5_21_of {c : Dev nD} (dat : Dat τ (Elt F) Unit ℕ (UR sig nD τ) ℕ cfg5 c) (hA : dat.A 21 = V c (Pipeline.arrRef spec5 21))
    (hafter : ∀ t, dat.after 21 t = iblk5 V c 21 t) (t : Fin cfg5.N) (d) : dat.before 21 t d = iblk5 V c 21 t :=
  (dat.before_in_eq_fetched 21 rfl (fun _ => rfl) (fun _ _ _ => rfl) (fun t => by rw [hafter]; unfold Dat.blockOf iblk5; rw [hA]; try rfl) t d).trans
    (by unfold Dat.fetched Dat.blockOf iblk5; rw [hA]; try rfl)
theorem before5_22_of {c : Dev nD} (dat : Dat τ (Elt F) Unit ℕ (UR sig nD τ) ℕ cfg5 c) (hA : dat.A 22 = V c (Pipeline.arrRef spec5 22))
    (hafter : ∀ t, dat.after 22 t = iblk5 V c 22 t) (t : Fin cfg5.N) (d) : dat.before 22 t d = iblk5 V c 22 t :=
  (dat.before_in_eq_fetched 22 rfl (fun _ => rfl) (fun _ _ _ => rfl) (fun t => by rw [hafter]; unfold Dat.blockOf iblk5; rw [hA]; try rfl) t d).trans
    (by unfold Dat.fetched Dat.blockOf iblk5; rw [hA]; try rfl)
theorem before5_23_of {c : Dev nD} (dat : Dat τ (Elt F) Unit ℕ (UR sig nD τ) ℕ cfg5 c) (hA : dat.A 23 = V c (Pipeline.arrRef spec5 23))
    (hafter : ∀ t, dat.after 23 t = iblk5 V c 23 t) (t : Fin cfg5.N) (d) : dat.before 23 t d = iblk5 V c 23 t :=
  (dat.before_in_eq_fetched 23 rfl (fun _ => rfl) (fun _ _ _ => rfl) (fun t => by rw [hafter]; unfold Dat.blockOf iblk5; rw [hA]; try rfl) t d).trans
    (by unfold Dat.fetched Dat.blockOf iblk5; rw [hA]; try rfl)
theorem before5_24_of {c : Dev nD} (dat : Dat τ (Elt F) Unit ℕ (UR sig nD τ) ℕ cfg5 c) (hA : dat.A 24 = V c (Pipeline.arrRef spec5 24))
    (hafter : ∀ t, dat.after 24 t = iblk5 V c 24 t) (t : Fin cfg5.N) (d) : dat.before 24 t d = iblk5 V c 24 t :=
  (dat.before_in_eq_fetched 24 rfl (fun _ => rfl) (fun _ _ _ => rfl) (fun t => by rw [hafter]; unfold Dat.blockOf iblk5; rw [hA]; try rfl) t d).trans
    (by unfold Dat.fetched Dat.blockOf iblk5; rw [hA]; try rfl)
theorem before5_25_of {c : Dev nD} (dat : Dat τ (Elt F) Unit ℕ (UR sig nD τ) ℕ cfg5 c) (hA : dat.A 25 = V c (Pipeline.arrRef spec5 25))
    (hafter : ∀ t, dat.after 25 t = iblk5 V c 25 t) (t : Fin cfg5.N) (d) : dat.before 25 t d = iblk5 V c 25 t :=
  (dat.before_in_eq_fetched 25 rfl (fun _ => rfl) (fun _ _ _ => rfl) (fun t => by rw [hafter]; unfold Dat.blockOf iblk5; rw [hA]; try rfl) t d).trans
    (by unfold Dat.fetched Dat.blockOf iblk5; rw [hA]; try rfl)
theorem before5_26_of {c : Dev nD} (dat : Dat τ (Elt F) Unit ℕ (UR sig nD τ) ℕ cfg5 c) (hA : dat.A 26 = V c (Pipeline.arrRef spec5 26))
    (hafter : ∀ t, dat.after 26 t = iblk5 V c 26 t) (t : Fin cfg5.N) (d) : dat.before 26 t d = iblk5 V c 26 t :=
  (dat.before_in_eq_fetched 26 rfl (fun _ => rfl) (fun _ _ _ => rfl) (fun t => by rw [hafter]; unfold Dat.blockOf iblk5; rw [hA]; try rfl) t d).trans
    (by unfold Dat.fetched Dat.blockOf iblk5; rw [hA]; try rfl)
theorem before5_27_of {c : Dev nD} (dat : Dat τ (Elt F) Unit ℕ (UR sig nD τ) ℕ cfg5 c) (hA : dat.A 27 = V c (Pipeline.arrRef spec5 27))
    (hafter : ∀ t, dat.after 27 t = iblk5 V c 27 t) (t : Fin cfg5.N) (d) : dat.before 27 t d = iblk5 V c 27 t :=
  (dat.before_in_eq_fetched 27 rfl (fun _ => rfl) (fun _ _ _ => rfl) (fun t => by rw [hafter]; unfold Dat.blockOf iblk5; rw [hA]; try rfl) t d).trans
    (by unfold Dat.fetched Dat.blockOf iblk5; rw [hA]; try rfl)
theorem before5_28_of {c : Dev nD} (dat : Dat τ (Elt F) Unit ℕ (UR sig nD τ) ℕ cfg5 c) (hA : dat.A 28 = V c (Pipeline.arrRef spec5 28))
    (hafter : ∀ t, dat.after 28 t = iblk5 V c 28 t) (t : Fin cfg5.N) (d) : dat.before 28 t d = iblk5 V c 28 t :=
  (dat.before_in_eq_fetched 28 rfl (fun _ => rfl) (fun _ _ _ => rfl) (fun t => by rw [hafter]; unfold Dat.blockOf iblk5; rw [hA]; try rfl) t d).trans
    (by unfold Dat.fetched Dat.blockOf iblk5; rw [hA]; try rfl)
theorem before5_29_of {c : Dev nD} (dat : Dat τ (Elt F) Unit ℕ (UR sig nD τ) ℕ cfg5 c) (hA : dat.A 29 = V c (Pipeline.arrRef spec5 29))
    (hafter : ∀ t, dat.after 29 t = iblk5 V c 29 t) (t : Fin cfg5.N) (d) : dat.before 29 t d = iblk5 V c 29 t :=
  (dat.before_in_eq_fetched 29 rfl (fun _ => rfl) (fun _ _ _ => rfl) (fun t => by rw [hafter]; unfold Dat.blockOf iblk5; rw [hA]; try rfl) t d).trans
    (by unfold Dat.fetched Dat.blockOf iblk5; rw [hA]; try rfl)
theorem before5_30_of {c : Dev nD} (dat : Dat τ (Elt F) Unit ℕ (UR sig nD τ) ℕ cfg5 c) (hA : dat.A 30 = V c (Pipeline.arrRef spec5 30))
    (hafter : ∀ t, dat.after 30 t = iblk5 V c 30 t) (t : Fin cfg5.N) (d) : dat.before 30 t d = iblk5 V c 30 t :=
  (dat.before_in_eq_fetched 30 rfl (fun _ => rfl) (fun _ _ _ => rfl) (fun t => by rw [hafter]; unfold Dat.blockOf iblk5; rw [hA]; try rfl) t d).trans
    (by unfold Dat.fetched Dat.blockOf iblk5; rw [hA]; try rfl)
theorem before5_31_of {c : Dev nD} (dat : Dat τ (Elt F) Unit ℕ (UR sig nD τ) ℕ cfg5 c) (hA : dat.A 31 = V c (Pipeline.arrRef spec5 31))
    (hafter : ∀ t, dat.after 31 t = iblk5 V c 31 t) (t : Fin cfg5.N) (d) : dat.before 31 t d = iblk5 V c 31 t :=
  (dat.before_in_eq_fetched 31 rfl (fun _ => rfl) (fun _ _ _ => rfl) (fun t => by rw [hafter]; unfold Dat.blockOf iblk5; rw [hA]; try rfl) t d).trans
    (by unfold Dat.fetched Dat.blockOf iblk5; rw [hA]; try rfl)
theorem before5_32_of {c : Dev nD} (dat : Dat τ (Elt F) Unit ℕ (UR sig nD τ) ℕ cfg5 c) (hA : dat.A 32 = V c (Pipeline.arrRef spec5 32))
    (hafter : ∀ t, dat.after 32 t = iblk5 V c 32 t) (t : Fin cfg5.N) (d) : dat.before 32 t d = iblk5 V c 32 t :=
  (dat.before_in_eq_fetched 32 rfl (fun _ => rfl) (fun _ _ _ => rfl) (fun t => by rw [hafter]; unfold Dat.blockOf iblk5; rw [hA]; try rfl) t d).trans
    (by unfold Dat.fetched Dat.blockOf iblk5; rw [hA]; try rfl)
theorem before5_33_of {c : Dev nD} (dat : Dat τ (Elt F) Unit ℕ (UR sig nD τ) ℕ cfg5 c) (hA : dat.A 33 = V c (Pipeline.arrRef spec5 33))
    (hafter : ∀ t, dat.after 33 t = iblk5 V c 33 t) (t : Fin cfg5.N) (d) : dat.before 33 t d = iblk5 V c 33 t :=
  (dat.before_in_eq_fetched 33 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- A parent's whole block. -/
abbrev r5_p : Rect S512x128 := Rect.unit (s := S512x128) ![0, 0] S512x128.size inb_S512x128_S512x128_0_0
/-- Slab `k` of the weight slice, -/
abbrev r5_w0 : Rect S8x128x128 := Rect.unit (s := S8x128x128) ![0, 0, 0] S1x128x128.size inb_S8x128x128_S1x128x128_0_0_0
abbrev r5_w1 : Rect S8x128x128 := Rect.unit (s := S8x128x128) ![1, 0, 0] S1x128x128.size inb_S8x128x128_S1x128x128_1_0_0
abbrev r5_w2 : Rect S8x128x128 := Rect.unit (s := S8x128x128) ![2, 0, 0] S1x128x128.size inb_S8x128x128_S1x128x128_2_0_0
abbrev r5_w3 : Rect S8x128x128 := Rect.unit (s := S8x128x128) ![3, 0, 0] S1x128x128.size inb_S8x128x128_S1x128x128_3_0_0
abbrev r5_w4 : Rect S8x128x128 := Rect.unit (s := S8x128x128) ![4, 0, 0] S1x128x128.size inb_S8x128x128_S1x128x128_4_0_0
abbrev r5_w5 : Rect S8x128x128 := Rect.unit (s := S8x128x128) ![5, 0, 0] S1x128x128.size inb_S8x128x128_S1x128x128_5_0_0
abbrev r5_w6 : Rect S8x128x128 := Rect.unit (s := S8x128x128) ![6, 0, 0] S1x128x128.size inb_S8x128x128_S1x128x128_6_0_0
abbrev r5_w7 : Rect S8x128x128 := Rect.unit (s := S8x128x128) ![7, 0, 0] S1x128x128.size inb_S8x128x128_S1x128x128_7_0_0
/-- row `k` of the bias slice, -/
abbrev r5_b0 : Rect S8x128 := Rect.unit (s := S8x128) ![0, 0] S1x128.size inb_S8x128_S1x128_0_0
abbrev r5_b1 : Rect S8x128 := Rect.unit (s := S8x128) ![1, 0] S1x128.size inb_S8x128_S1x128_1_0
abbrev r5_b2 : Rect S8x128 := Rect.unit (s := S8x128) ![2, 0] S1x128.size inb_S8x128_S1x128_2_0
abbrev r5_b3 : Rect S8x128 := Rect.unit (s := S8x128) ![3, 0] S1x128.size inb_S8x128_S1x128_3_0
abbrev r5_b4 : Rect S8x128 := Rect.unit (s := S8x128) ![4, 0] S1x128.size inb_S8x128_S1x128_4_0
abbrev r5_b5 : Rect S8x128 := Rect.unit (s := S8x128) ![5, 0] S1x128.size inb_S8x128_S1x128_5_0
abbrev r5_b6 : Rect S8x128 := Rect.unit (s := S8x128) ![6, 0] S1x128.size inb_S8x128_S1x128_6_0
abbrev r5_b7 : Rect S8x128 := Rect.unit (s := S8x128) ![7, 0] S1x128.size inb_S8x128_S1x128_7_0
/-- and slab `k` of the output block. -/
abbrev r5_o0 : Rect S8x512x128 := Rect.unit (s := S8x512x128) ![0, 0, 0] S1x512x128.size inb_S8x512x128_S1x512x128_0_0_0
abbrev r5_o1 : Rect S8x512x128 := Rect.unit (s := S8x512x128) ![1, 0, 0] S1x512x128.size inb_S8x512x128_S1x512x128_1_0_0
abbrev r5_o2 : Rect S8x512x128 := Rect.unit (s := S8x512x128) ![2, 0, 0] S1x512x128.size inb_S8x512x128_S1x512x128_2_0_0
abbrev r5_o3 : Rect S8x512x128 := Rect.unit (s := S8x512x128) ![3, 0, 0] S1x512x128.size inb_S8x512x128_S1x512x128_3_0_0
abbrev r5_o4 : Rect S8x512x128 := Rect.unit (s := S8x512x128) ![4, 0, 0] S1x512x128.size inb_S8x512x128_S1x512x128_4_0_0
abbrev r5_o5 : Rect S8x512x128 := Rect.unit (s := S8x512x128) ![5, 0, 0] S1x512x128.size inb_S8x512x128_S1x512x128_5_0_0
abbrev r5_o6 : Rect S8x512x128 := Rect.unit (s := S8x512x128) ![6, 0, 0] S1x512x128.size inb_S8x512x128_S1x512x128_6_0_0
abbrev r5_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab5_0 (p : Fin 32 → Vec F S512x128 .f32) (wt : Vec F S8x128x128 .f32) (bs : Vec F S8x128 .f32) : Vec F S1x512x128 .f32 :=
  k5_pay1 (View.ld (p 0) r5_p) (View.ld (p 1) r5_p) (View.ld (p 2) r5_p) (View.ld (p 3) r5_p) (View.ld wt r5_w0) (View.ld bs r5_b0)
def slab5_1 (p : Fin 32 → Vec F S512x128 .f32) (wt : Vec F S8x128x128 .f32) (bs : Vec F S8x128 .f32) : Vec F S1x512x128 .f32 :=
  k5_pay3 (k5_pay2 (View.ld (p 4) r5_p) (View.ld (p 5) r5_p) (View.ld (p 6) r5_p)) (View.ld (p 7) r5_p) (View.ld wt r5_w1) (View.ld bs r5_b1)
def slab5_2 (p : Fin 32 → Vec F S512x128 .f32) (wt : Vec F S8x128x128 .f32) (bs : Vec F S8x128 .f32) : Vec F S1x512x128 .f32 :=
  k5_pay7 (k5_pay4 (View.ld (p 8) r5_p) (View.ld (p 9) r5_p) (View.ld (p 10) r5_p) (View.ld (p 11) r5_p)) (k5_pay5 (View.ld wt r5_w2)) (k5_pay6 (View.ld bs r5_b2))
def slab5_3 (p : Fin 32 → Vec F S512x128 .f32) (wt : Vec F S8x128x128 .f32) (bs : Vec F S8x128 .f32) : Vec F S1x512x128 .f32 :=
  k5_pay8 (View.ld (p 12) r5_p) (View.ld (p 13) r5_p) (View.ld (p 14) r5_p) (View.ld (p 15) r5_p) (View.ld wt r5_w3) (View.ld bs r5_b3)
def slab5_4 (p : Fin 32 → Vec F S512x128 .f32) (wt : Vec F S8x128x128 .f32) (bs : Vec F S8x128 .f32) : Vec F S1x512x128 .f32 :=
  k5_pay9 (View.ld (p 16) r5_p) (View.ld (p 17) r5_p) (View.ld (p 18) r5_p) (View.ld (p 19) r5_p) (View.ld wt r5_w4) (View.ld bs r5_b4)
def slab5_5 (p : Fin 32 → Vec F S512x128 .f32) (wt : Vec F S8x128x128 .f32) (bs : Vec F S8x128 .f32) : Vec F S1x512x128 .f32 :=
  k5_pay11 (k5_pay10 (View.ld (p 20) r5_p) (View.ld (p 21) r5_p) (View.ld (p 22) r5_p)) (View.ld (p 23) r5_p) (View.ld wt r5_w5) (View.ld bs r5_b5)
def slab5_6 (p : Fin 32 → Vec F S512x128 .f32) (wt : Vec F S8x128x128 .f32) (bs : Vec F S8x128 .f32) : Vec F S1x512x128 .f32 :=
  k5_pay15 (k5_pay12 (View.ld (p 24) r5_p) (View.ld (p 25) r5_p) (View.ld (p 26) r5_p) (View.ld (p 27) r5_p)) (k5_pay13 (View.ld wt r5_w6)) (k5_pay14 (View.ld bs r5_b6))
def slab5_7 (p : Fin 32 → Vec F S512x128 .f32) (wt : Vec F S8x128x128 .f32) (bs : Vec F S8x128 .f32) : Vec F S1x512x128 .f32 :=
  k5_pay16 (View.ld (p 28) r5_p) (View.ld (p 29) r5_p) (View.ld (p 30) r5_p) (View.ld (p 31) r5_p) (View.ld wt r5_w7) (View.ld bs r5_b7)

/-- Window 34's staging buffer after the body, from the input windows' blocks: its 8 stores as pieces, LAST FIRST. -/
def out5_34 (p : Fin 32 → Vec F S512x128 .f32) (wt : Vec F S8x128x128 .f32) (bs : Vec F S8x128 .f32) : Vec F S8x512x128 .f32 :=
  View.canon [⟨r5_o7, slab5_7 p wt bs⟩, ⟨r5_o6, slab5_6 p wt bs⟩, ⟨r5_o5, slab5_5 p wt bs⟩, ⟨r5_o4, slab5_4 p wt bs⟩, ⟨r5_o3, slab5_3 p wt bs⟩, ⟨r5_o2, slab5_2 p wt bs⟩, ⟨r5_o1, slab5_1 p wt bs⟩, ⟨r5_o0, slab5_0 p wt bs⟩]

/-- The eight stores tile the buffer (checked by evaluation), so they cover it. -/
theorem cover5_34 (p0 p1 p2 p3 p4 p5 p6 p7 : Vec F S1x512x128 .f32) (y : S8x512x128.Idx) :
    ∃ pc ∈ ([⟨r5_o7, p7⟩, ⟨r5_o6, p6⟩, ⟨r5_o5, p5⟩, ⟨r5_o4, p4⟩, ⟨r5_o3, p3⟩, ⟨r5_o2, p2⟩, ⟨r5_o1, p1⟩, ⟨r5_o0, p0⟩] : List (View.Piece (Elt F) S8x512x128 .f32)), y ∈ pc.1.set :=
  View.cover_of_tiled [⟨r5_o7, p7⟩, ⟨r5_o6, p6⟩, ⟨r5_o5, p5⟩, ⟨r5_o4, p4⟩, ⟨r5_o3, p3⟩, ⟨r5_o2, p2⟩, ⟨r5_o1, p1⟩, ⟨r5_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out5_34` of the inputs': the printed
    functions are their skeletons, run through every part call; each slab's load of the output buffer before its store
    reads contents nothing uses. -/
theorem sound_kernel5 (c : Dev nD) (E : Set ℕ) (i : grid5.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out5_34 p wt bs)) -∗ K ⟨⟩))
      ⊢ wp frame (wpE (defs₀ (F := F)) Variants.none c none) E (cc5__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out5_34 slab5_0 slab5_1 slab5_2 slab5_3 slab5_4 slab5_5 slab5_6 slab5_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc5__group_kernel_eq_skeleton]; unfold cc5__group_kernel_skel
  simp only [k5_part1_eq_skeleton, k5_part2_eq_skeleton, k5_part3_eq_skeleton, k5_part4_eq_skeleton, k5_part5_eq_skeleton, k5_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover5_34 _ _ _ _ _ _ _ _)

/-! ## The pipeline's proof data -/

/-- The 32 parent blocks at point `t`, as one family: parent `j` of slab `k` is window `4k+j`. -/
def par5 (c : Dev nD) (t : Fin cfg5.N) : Fin 32 → Vec F S512x128 .f32 := fun j => match j with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => iblk5 V c 19 t
    | ⟨20, _⟩ => iblk5 V c 20 t
    | ⟨21, _⟩ => iblk5 V c 21 t
    | ⟨22, _⟩ => iblk5 V c 22 t
    | ⟨23, _⟩ => iblk5 V c 23 t
    | ⟨24, _⟩ => iblk5 V c 24 t
    | ⟨25, _⟩ => iblk5 V c 25 t
    | ⟨26, _⟩ => iblk5 V c 26 t
    | ⟨27, _⟩ => iblk5 V c 27 t
    | ⟨28, _⟩ => iblk5 V c 28 t
    | ⟨29, _⟩ => iblk5 V c 29 t
    | ⟨30, _⟩ => iblk5 V c 30 t
    | ⟨31, _⟩ => iblk5 V c 31 t
    | ⟨_ + 32, h⟩ => absurd h (Nat.not_lt.2 (Nat.le_add_left _ _))

/-- The family at a literal index (the `match` reduced by `dsimp`). -/
theorem par5_0 (c : Dev nD) (t : Fin cfg5.N) : par5 V c t 0 = iblk5 V c 0 t := by dsimp only [par5]
theorem par5_1 (c : Dev nD) (t : Fin cfg5.N) : par5 V c t 1 = iblk5 V c 1 t := by dsimp only [par5]
theorem par5_2 (c : Dev nD) (t : Fin cfg5.N) : par5 V c t 2 = iblk5 V c 2 t := by dsimp only [par5]
theorem par5_3 (c : Dev nD) (t : Fin cfg5.N) : par5 V c t 3 = iblk5 V c 3 t := by dsimp only [par5]
theorem par5_4 (c : Dev nD) (t : Fin cfg5.N) : par5 V c t 4 = iblk5 V c 4 t := by dsimp only [par5]
theorem par5_5 (c : Dev nD) (t : Fin cfg5.N) : par5 V c t 5 = iblk5 V c 5 t := by dsimp only [par5]
theorem par5_6 (c : Dev nD) (t : Fin cfg5.N) : par5 V c t 6 = iblk5 V c 6 t := by dsimp only [par5]
theorem par5_7 (c : Dev nD) (t : Fin cfg5.N) : par5 V c t 7 = iblk5 V c 7 t := by dsimp only [par5]
theorem par5_8 (c : Dev nD) (t : Fin cfg5.N) : par5 V c t 8 = iblk5 V c 8 t := by dsimp only [par5]
theorem par5_9 (c : Dev nD) (t : Fin cfg5.N) : par5 V c t 9 = iblk5 V c 9 t := by dsimp only [par5]
theorem par5_10 (c : Dev nD) (t : Fin cfg5.N) : par5 V c t 10 = iblk5 V c 10 t := by dsimp only [par5]
theorem par5_11 (c : Dev nD) (t : Fin cfg5.N) : par5 V c t 11 = iblk5 V c 11 t := by dsimp only [par5]
theorem par5_12 (c : Dev nD) (t : Fin cfg5.N) : par5 V c t 12 = iblk5 V c 12 t := by dsimp only [par5]
theorem par5_13 (c : Dev nD) (t : Fin cfg5.N) : par5 V c t 13 = iblk5 V c 13 t := by dsimp only [par5]
theorem par5_14 (c : Dev nD) (t : Fin cfg5.N) : par5 V c t 14 = iblk5 V c 14 t := by dsimp only [par5]
theorem par5_15 (c : Dev nD) (t : Fin cfg5.N) : par5 V c t 15 = iblk5 V c 15 t := by dsimp only [par5]
theorem par5_16 (c : Dev nD) (t : Fin cfg5.N) : par5 V c t 16 = iblk5 V c 16 t := by dsimp only [par5]
theorem par5_17 (c : Dev nD) (t : Fin cfg5.N) : par5 V c t 17 = iblk5 V c 17 t := by dsimp only [par5]
theorem par5_18 (c : Dev nD) (t : Fin cfg5.N) : par5 V c t 18 = iblk5 V c 18 t := by dsimp only [par5]
theorem par5_19 (c : Dev nD) (t : Fin cfg5.N) : par5 V c t 19 = iblk5 V c 19 t := by dsimp only [par5]
theorem par5_20 (c : Dev nD) (t : Fin cfg5.N) : par5 V c t 20 = iblk5 V c 20 t := by dsimp only [par5]
theorem par5_21 (c : Dev nD) (t : Fin cfg5.N) : par5 V c t 21 = iblk5 V c 21 t := by dsimp only [par5]
theorem par5_22 (c : Dev nD) (t : Fin cfg5.N) : par5 V c t 22 = iblk5 V c 22 t := by dsimp only [par5]
theorem par5_23 (c : Dev nD) (t : Fin cfg5.N) : par5 V c t 23 = iblk5 V c 23 t := by dsimp only [par5]
theorem par5_24 (c : Dev nD) (t : Fin cfg5.N) : par5 V c t 24 = iblk5 V c 24 t := by dsimp only [par5]
theorem par5_25 (c : Dev nD) (t : Fin cfg5.N) : par5 V c t 25 = iblk5 V c 25 t := by dsimp only [par5]
theorem par5_26 (c : Dev nD) (t : Fin cfg5.N) : par5 V c t 26 = iblk5 V c 26 t := by dsimp only [par5]
theorem par5_27 (c : Dev nD) (t : Fin cfg5.N) : par5 V c t 27 = iblk5 V c 27 t := by dsimp only [par5]
theorem par5_28 (c : Dev nD) (t : Fin cfg5.N) : par5 V c t 28 = iblk5 V c 28 t := by dsimp only [par5]
theorem par5_29 (c : Dev nD) (t : Fin cfg5.N) : par5 V c t 29 = iblk5 V c 29 t := by dsimp only [par5]
theorem par5_30 (c : Dev nD) (t : Fin cfg5.N) : par5 V c t 30 = iblk5 V c 30 t := by dsimp only [par5]
theorem par5_31 (c : Dev nD) (t : Fin cfg5.N) : par5 V c t 31 = iblk5 V c 31 t := by dsimp only [par5]

/-- The proof data of pipeline 5 on core `c`: the arrays as the region finds them (`V`); after the body at point `t`
    each input's buffer at its block and the output's at `out5_34` of the input blocks; the invariant the scoped rest
    and the generator register, untouched; nothing owed; of each windowed array the share its window holds when
    several windows read one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => iblk5 V c 14 t
    | ⟨15, _⟩ => iblk5 V c 15 t
    | ⟨16, _⟩ => iblk5 V c 16 t
    | ⟨17, _⟩ => iblk5 V c 17 t
    | ⟨18, _⟩ => iblk5 V c 18 t
    | ⟨19, _⟩ => iblk5 V c 19 t
    | ⟨20, _⟩ => iblk5 V c 20 t
    | ⟨21, _⟩ => iblk5 V c 21 t
    | ⟨22, _⟩ => iblk5 V c 22 t
    | ⟨23, _⟩ => iblk5 V c 23 t
    | ⟨24, _⟩ => iblk5 V c 24 t
    | ⟨25, _⟩ => iblk5 V c 25 t
    | ⟨26, _⟩ => iblk5 V c 26 t
    | ⟨27, _⟩ => iblk5 V c 27 t
    | ⟨28, _⟩ => iblk5 V c 28 t
    | ⟨29, _⟩ => iblk5 V c 29 t
    | ⟨30, _⟩ => iblk5 V c 30 t
    | ⟨31, _⟩ => iblk5 V c 31 t
    | ⟨32, _⟩ => iblk5 V c 32 t
    | ⟨33, _⟩ => iblk5 V c 33 t
    | ⟨34, _⟩ => out5_34 (par5 V c t) (iblk5 V c 32 t) (iblk5 V c 33 t)
    | ⟨_ + 35, h⟩ => absurd h (Nat.not_lt.2 (Nat.le_add_left _ _))
  Φ _ := Pipeline.ΦA spec5 c
  q w := Cert.Lib.SharedArrays.shareOf (Pipeline.arrRef spec5) w
  owed _ := 0

/-- The proof data's arrays are the region-entry contents. -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) : (dat5 V c).after 14 t = iblk5 V c 14 t := by dsimp only [dat5]
theorem after5_15 (c : Dev nD) (t : Fin cfg5.N) : (dat5 V c).after 15 t = iblk5 V c 15 t := by dsimp only [dat5]
theorem after5_16 (c : Dev nD) (t : Fin cfg5.N) : (dat5 V c).after 16 t = iblk5 V c 16 t := by dsimp only [dat5]
theorem after5_17 (c : Dev nD) (t : Fin cfg5.N) : (dat5 V c).after 17 t = iblk5 V c 17 t := by dsimp only [dat5]
theorem after5_18 (c : Dev nD) (t : Fin cfg5.N) : (dat5 V c).after 18 t = iblk5 V c 18 t := by dsimp only [dat5]
theorem after5_19 (c : Dev nD) (t : Fin cfg5.N) : (dat5 V c).after 19 t = iblk5 V c 19 t := by dsimp only [dat5]
theorem after5_20 (c : Dev nD) (t : Fin cfg5.N) : (dat5 V c).after 20 t = iblk5 V c 20 t := by dsimp only [dat5]
theorem after5_21 (c : Dev nD) (t : Fin cfg5.N) : (dat5 V c).after 21 t = iblk5 V c 21 t := by dsimp only [dat5]
theorem after5_22 (c : Dev nD) (t : Fin cfg5.N) : (dat5 V c).after 22 t = iblk5 V c 22 t := by dsimp only [dat5]
theorem after5_23 (c : Dev nD) (t : Fin cfg5.N) : (dat5 V c).after 23 t = iblk5 V c 23 t := by dsimp only [dat5]
theorem after5_24 (c : Dev nD) (t : Fin cfg5.N) : (dat5 V c).after 24 t = iblk5 V c 24 t := by dsimp only [dat5]
theorem after5_25 (c : Dev nD) (t : Fin cfg5.N) : (dat5 V c).after 25 t = iblk5 V c 25 t := by dsimp only [dat5]
theorem after5_26 (c : Dev nD) (t : Fin cfg5.N) : (dat5 V c).after 26 t = iblk5 V c 26 t := by dsimp only [dat5]
theorem after5_27 (c : Dev nD) (t : Fin cfg5.N) : (dat5 V c).after 27 t = iblk5 V c 27 t := by dsimp only [dat5]
theorem after5_28 (c : Dev nD) (t : Fin cfg5.N) : (dat5 V c).after 28 t = iblk5 V c 28 t := by dsimp only [dat5]
theorem after5_29 (c : Dev nD) (t : Fin cfg5.N) : (dat5 V c).after 29 t = iblk5 V c 29 t := by dsimp only [dat5]
theorem after5_30 (c : Dev nD) (t : Fin cfg5.N) : (dat5 V c).after 30 t = iblk5 V c 30 t := by dsimp only [dat5]
theorem after5_31 (c : Dev nD) (t : Fin cfg5.N) : (dat5 V c).after 31 t = iblk5 V c 31 t := by dsimp only [dat5]
theorem after5_32 (c : Dev nD) (t : Fin cfg5.N) : (dat5 V c).after 32 t = iblk5 V c 32 t := by dsimp only [dat5]
theorem after5_33 (c : Dev nD) (t : Fin cfg5.N) : (dat5 V c).after 33 t = iblk5 V c 33 t := by dsimp only [dat5]
theorem after5_34 (c : Dev nD) (t : Fin cfg5.N) :
    (dat5 V c).after 34 t = out5_34 (par5 V c t) (iblk5 V c 32 t) (iblk5 V c 33 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d
theorem before5_14 (c : Dev nD) (t : Fin cfg5.N) (d) : (dat5 V c).before 14 t d = iblk5 V c 14 t :=
  before5_14_of V (dat5 V c) (A_eq5 V c 14) (after5_14 V c) t d
theorem before5_15 (c : Dev nD) (t : Fin cfg5.N) (d) : (dat5 V c).before 15 t d = iblk5 V c 15 t :=
  before5_15_of V (dat5 V c) (A_eq5 V c 15) (after5_15 V c) t d
theorem before5_16 (c : Dev nD) (t : Fin cfg5.N) (d) : (dat5 V c).before 16 t d = iblk5 V c 16 t :=
  before5_16_of V (dat5 V c) (A_eq5 V c 16) (after5_16 V c) t d
theorem before5_17 (c : Dev nD) (t : Fin cfg5.N) (d) : (dat5 V c).before 17 t d = iblk5 V c 17 t :=
  before5_17_of V (dat5 V c) (A_eq5 V c 17) (after5_17 V c) t d
theorem before5_18 (c : Dev nD) (t : Fin cfg5.N) (d) : (dat5 V c).before 18 t d = iblk5 V c 18 t :=
  before5_18_of V (dat5 V c) (A_eq5 V c 18) (after5_18 V c) t d
theorem before5_19 (c : Dev nD) (t : Fin cfg5.N) (d) : (dat5 V c).before 19 t d = iblk5 V c 19 t :=
  before5_19_of V (dat5 V c) (A_eq5 V c 19) (after5_19 V c) t d
theorem before5_20 (c : Dev nD) (t : Fin cfg5.N) (d) : (dat5 V c).before 20 t d = iblk5 V c 20 t :=
  before5_20_of V (dat5 V c) (A_eq5 V c 20) (after5_20 V c) t d
theorem before5_21 (c : Dev nD) (t : Fin cfg5.N) (d) : (dat5 V c).before 21 t d = iblk5 V c 21 t :=
  before5_21_of V (dat5 V c) (A_eq5 V c 21) (after5_21 V c) t d
theorem before5_22 (c : Dev nD) (t : Fin cfg5.N) (d) : (dat5 V c).before 22 t d = iblk5 V c 22 t :=
  before5_22_of V (dat5 V c) (A_eq5 V c 22) (after5_22 V c) t d
theorem before5_23 (c : Dev nD) (t : Fin cfg5.N) (d) : (dat5 V c).before 23 t d = iblk5 V c 23 t :=
  before5_23_of V (dat5 V c) (A_eq5 V c 23) (after5_23 V c) t d
theorem before5_24 (c : Dev nD) (t : Fin cfg5.N) (d) : (dat5 V c).before 24 t d = iblk5 V c 24 t :=
  before5_24_of V (dat5 V c) (A_eq5 V c 24) (after5_24 V c) t d
theorem before5_25 (c : Dev nD) (t : Fin cfg5.N) (d) : (dat5 V c).before 25 t d = iblk5 V c 25 t :=
  before5_25_of V (dat5 V c) (A_eq5 V c 25) (after5_25 V c) t d
theorem before5_26 (c : Dev nD) (t : Fin cfg5.N) (d) : (dat5 V c).before 26 t d = iblk5 V c 26 t :=
  before5_26_of V (dat5 V c) (A_eq5 V c 26) (after5_26 V c) t d
theorem before5_27 (c : Dev nD) (t : Fin cfg5.N) (d) : (dat5 V c).before 27 t d = iblk5 V c 27 t :=
  before5_27_of V (dat5 V c) (A_eq5 V c 27) (after5_27 V c) t d
theorem before5_28 (c : Dev nD) (t : Fin cfg5.N) (d) : (dat5 V c).before 28 t d = iblk5 V c 28 t :=
  before5_28_of V (dat5 V c) (A_eq5 V c 28) (after5_28 V c) t d
theorem before5_29 (c : Dev nD) (t : Fin cfg5.N) (d) : (dat5 V c).before 29 t d = iblk5 V c 29 t :=
  before5_29_of V (dat5 V c) (A_eq5 V c 29) (after5_29 V c) t d
theorem before5_30 (c : Dev nD) (t : Fin cfg5.N) (d) : (dat5 V c).before 30 t d = iblk5 V c 30 t :=
  before5_30_of V (dat5 V c) (A_eq5 V c 30) (after5_30 V c) t d
theorem before5_31 (c : Dev nD) (t : Fin cfg5.N) (d) : (dat5 V c).before 31 t d = iblk5 V c 31 t :=
  before5_31_of V (dat5 V c) (A_eq5 V c 31) (after5_31 V c) t d
theorem before5_32 (c : Dev nD) (t : Fin cfg5.N) (d) : (dat5 V c).before 32 t d = iblk5 V c 32 t :=
  before5_32_of V (dat5 V c) (A_eq5 V c 32) (after5_32 V c) t d
theorem before5_33 (c : Dev nD) (t : Fin cfg5.N) (d) : (dat5 V c).before 33 t d = iblk5 V c 33 t :=
  before5_33_of V (dat5 V c) (A_eq5 V c 33) (after5_33 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d))
    ∗ (∃ d, owns (c : Thread nD τ) (st5_15 t) fullShare ((dat5 V c).before 15 t d))
    ∗ (∃ d, owns (c : Thread nD τ) (st5_16 t) fullShare ((dat5 V c).before 16 t d))
    ∗ (∃ d, owns (c : Thread nD τ) (st5_17 t) fullShare ((dat5 V c).before 17 t d))
    ∗ (∃ d, owns (c : Thread nD τ) (st5_18 t) fullShare ((dat5 V c).before 18 t d))
    ∗ (∃ d, owns (c : Thread nD τ) (st5_19 t) fullShare ((dat5 V c).before 19 t d))
    ∗ (∃ d, owns (c : Thread nD τ) (st5_20 t) fullShare ((dat5 V c).before 20 t d))
    ∗ (∃ d, owns (c : Thread nD τ) (st5_21 t) fullShare ((dat5 V c).before 21 t d))
    ∗ (∃ d, owns (c : Thread nD τ) (st5_22 t) fullShare ((dat5 V c).before 22 t d))
    ∗ (∃ d, owns (c : Thread nD τ) (st5_23 t) fullShare ((dat5 V c).before 23 t d))
    ∗ (∃ d, owns (c : Thread nD τ) (st5_24 t) fullShare ((dat5 V c).before 24 t d))
    ∗ (∃ d, owns (c : Thread nD τ) (st5_25 t) fullShare ((dat5 V c).before 25 t d))
    ∗ (∃ d, owns (c : Thread nD τ) (st5_26 t) fullShare ((dat5 V c).before 26 t d))
    ∗ (∃ d, owns (c : Thread nD τ) (st5_27 t) fullShare ((dat5 V c).before 27 t d))
    ∗ (∃ d, owns (c : Thread nD τ) (st5_28 t) fullShare ((dat5 V c).before 28 t d))
    ∗ (∃ d, owns (c : Thread nD τ) (st5_29 t) fullShare ((dat5 V c).before 29 t d))
    ∗ (∃ d, owns (c : Thread nD τ) (st5_30 t) fullShare ((dat5 V c).before 30 t d))
    ∗ (∃ d, owns (c : Thread nD τ) (st5_31 t) fullShare ((dat5 V c).before 31 t d))
    ∗ (∃ d, owns (c : Thread nD τ) (st5_32 t) fullShare ((dat5 V c).before 32 t d))
    ∗ (∃ d, owns (c : Thread nD τ) (st5_33 t) fullShare ((dat5 V c).before 33 t d))
    ∗ (∃ d, owns (c : Thread nD τ) (st5_34 t) fullShare ((dat5 V c).before 34 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t)
    ∗ owns (c : Thread nD τ) (st5_15 t) fullShare ((dat5 V c).after 15 t)
    ∗ owns (c : Thread nD τ) (st5_16 t) fullShare ((dat5 V c).after 16 t)
    ∗ owns (c : Thread nD τ) (st5_17 t) fullShare ((dat5 V c).after 17 t)
    ∗ owns (c : Thread nD τ) (st5_18 t) fullShare ((dat5 V c).after 18 t)
    ∗ owns (c : Thread nD τ) (st5_19 t) fullShare ((dat5 V c).after 19 t)
    ∗ owns (c : Thread nD τ) (st5_20 t) fullShare ((dat5 V c).after 20 t)
    ∗ owns (c : Thread nD τ) (st5_21 t) fullShare ((dat5 V c).after 21 t)
    ∗ owns (c : Thread nD τ) (st5_22 t) fullShare ((dat5 V c).after 22 t)
    ∗ owns (c : Thread nD τ) (st5_23 t) fullShare ((dat5 V c).after 23 t)
    ∗ owns (c : Thread nD τ) (st5_24 t) fullShare ((dat5 V c).after 24 t)
    ∗ owns (c : Thread nD τ) (st5_25 t) fullShare ((dat5 V c).after 25 t)
    ∗ owns (c : Thread nD τ) (st5_26 t) fullShare ((dat5 V c).after 26 t)
    ∗ owns (c : Thread nD τ) (st5_27 t) fullShare ((dat5 V c).after 27 t)
    ∗ owns (c : Thread nD τ) (st5_28 t) fullShare ((dat5 V c).after 28 t)
    ∗ owns (c : Thread nD τ) (st5_29 t) fullShare ((dat5 V c).after 29 t)
    ∗ owns (c : Thread nD τ) (st5_30 t) fullShare ((dat5 V c).after 30 t)
    ∗ owns (c : Thread nD τ) (st5_31 t) fullShare ((dat5 V c).after 31 t)
    ∗ owns (c : Thread nD τ) (st5_32 t) fullShare ((dat5 V c).after 32 t)
    ∗ owns (c : Thread nD τ) (st5_33 t) fullShare ((dat5 V c).after 33 t)
    ∗ owns (c : Thread nD τ) (st5_34 t) fullShare ((dat5 V c).after 34 t))

set_option maxHeartbeats 4000000 in
/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13, before5_14, before5_15, before5_16, before5_17, before5_18, before5_19, before5_20, before5_21, before5_22, before5_23, before5_24, before5_25, before5_26, before5_27, before5_28, before5_29, before5_30, before5_31, before5_32, before5_33]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14, after5_15, after5_16, after5_17, after5_18, after5_19, after5_20, after5_21, after5_22, after5_23, after5_24, after5_25, after5_26, after5_27, after5_28, after5_29, after5_30, after5_31, after5_32, after5_33, after5_34]
  have hk := fun K => sound_kernel5 (F := F) c Set.univ (grid5.coords t) _ (hstage5_0 ((cfg5.slots t 0).cast nbuf5_0)) _ (hstage5_1 ((cfg5.slots t 1).cast nbuf5_1)) _ (hstage5_2 ((cfg5.slots t 2).cast nbuf5_2)) _ (hstage5_3 ((cfg5.slots t 3).cast nbuf5_3)) _ (hstage5_4 ((cfg5.slots t 4).cast nbuf5_4)) _ (hstage5_5 ((cfg5.slots t 5).cast nbuf5_5)) _ (hstage5_6 ((cfg5.slots t 6).cast nbuf5_6)) _ (hstage5_7 ((cfg5.slots t 7).cast nbuf5_7)) _ (hstage5_8 ((cfg5.slots t 8).cast nbuf5_8)) _ (hstage5_9 ((cfg5.slots t 9).cast nbuf5_9)) _ (hstage5_10 ((cfg5.slots t 10).cast nbuf5_10)) _ (hstage5_11 ((cfg5.slots t 11).cast nbuf5_11)) _ (hstage5_12 ((cfg5.slots t 12).cast nbuf5_12)) _ (hstage5_13 ((cfg5.slots t 13).cast nbuf5_13)) _ (hstage5_14 ((cfg5.slots t 14).cast nbuf5_14)) _ (hstage5_15 ((cfg5.slots t 15).cast nbuf5_15)) _ (hstage5_16 ((cfg5.slots t 16).cast nbuf5_16)) _ (hstage5_17 ((cfg5.slots t 17).cast nbuf5_17)) _ (hstage5_18 ((cfg5.slots t 18).cast nbuf5_18)) _ (hstage5_19 ((cfg5.slots t 19).cast nbuf5_19)) _ (hstage5_20 ((cfg5.slots t 20).cast nbuf5_20)) _ (hstage5_21 ((cfg5.slots t 21).cast nbuf5_21)) _ (hstage5_22 ((cfg5.slots t 22).cast nbuf5_22)) _ (hstage5_23 ((cfg5.slots t 23).cast nbuf5_23)) _ (hstage5_24 ((cfg5.slots t 24).cast nbuf5_24)) _ (hstage5_25 ((cfg5.slots t 25).cast nbuf5_25)) _ (hstage5_26 ((cfg5.slots t 26).cast nbuf5_26)) _ (hstage5_27 ((cfg5.slots t 27).cast nbuf5_27)) _ (hstage5_28 ((cfg5.slots t 28).cast nbuf5_28)) _ (hstage5_29 ((cfg5.slots t 29).cast nbuf5_29)) _ (hstage5_30 ((cfg5.slots t 30).cast nbuf5_30)) _ (hstage5_31 ((cfg5.slots t 31).cast nbuf5_31)) _ (hstage5_32 ((cfg5.slots t 32).cast nbuf5_32)) _ (hstage5_33 ((cfg5.slots t 33).cast nbuf5_33)) _ (hstage5_34 ((cfg5.slots t 34).cast nbuf5_34))
    (par5 V c t) (iblk5 V c 32 t) (iblk5 V c 33 t) K
  simp only [par5_0, par5_1, par5_2, par5_3, par5_4, par5_5, par5_6, par5_7, par5_8, par5_9, par5_10, par5_11, par5_12, par5_13, par5_14, par5_15, par5_16, par5_17, par5_18, par5_19, par5_20, par5_21, par5_22, par5_23, par5_24, par5_25, par5_26, par5_27, par5_28, par5_29, par5_30, par5_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Region 6 of the kernel program (pipeline 6, `cc6__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out6_34`); the body's triple; the
   pipeline's proof data (`dat6`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 6: custom_call 6, `cc6__group_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)
theorem before6_15_of {c : Dev nD} (dat : Dat τ (Elt F) Unit ℕ (UR sig nD τ) ℕ cfg6 c) (hA : dat.A 15 = V c (Pipeline.arrRef spec6 15))
    (hafter : ∀ t, dat.after 15 t = iblk6 V c 15 t) (t : Fin cfg6.N) (d) : dat.before 15 t d = iblk6 V c 15 t :=
  (dat.before_in_eq_fetched 15 rfl (fun _ => rfl) (fun _ _ _ => rfl) (fun t => by rw [hafter]; unfold Dat.blockOf iblk6; rw [hA]; try rfl) t d).trans
    (by unfold Dat.fetched Dat.blockOf iblk6; rw [hA]; try rfl)
theorem before6_16_of {c : Dev nD} (dat : Dat τ (Elt F) Unit ℕ (UR sig nD τ) ℕ cfg6 c) (hA : dat.A 16 = V c (Pipeline.arrRef spec6 16))
    (hafter : ∀ t, dat.after 16 t = iblk6 V c 16 t) (t : Fin cfg6.N) (d) : dat.before 16 t d = iblk6 V c 16 t :=
  (dat.before_in_eq_fetched 16 rfl (fun _ => rfl) (fun _ _ _ => rfl) (fun t => by rw [hafter]; unfold Dat.blockOf iblk6; rw [hA]; try rfl) t d).trans
    (by unfold Dat.fetched Dat.blockOf iblk6; rw [hA]; try rfl)
theorem before6_17_of {c : Dev nD} (dat : Dat τ (Elt F) Unit ℕ (UR sig nD τ) ℕ cfg6 c) (hA : dat.A 17 = V c (Pipeline.arrRef spec6 17))
    (hafter : ∀ t, dat.after 17 t = iblk6 V c 17 t) (t : Fin cfg6.N) (d) : dat.before 17 t d = iblk6 V c 17 t :=
  (dat.before_in_eq_fetched 17 rfl (fun _ => rfl) (fun _ _ _ => rfl) (fun t => by rw [hafter]; unfold Dat.blockOf iblk6; rw [hA]; try rfl) t d).trans
    (by unfold Dat.fetched Dat.blockOf iblk6; rw [hA]; try rfl)
theorem before6_18_of {c : Dev nD} (dat : Dat τ (Elt F) Unit ℕ (UR sig nD τ) ℕ cfg6 c) (hA : dat.A 18 = V c (Pipeline.arrRef spec6 18))
    (hafter : ∀ t, dat.after 18 t = iblk6 V c 18 t) (t : Fin cfg6.N) (d) : dat.before 18 t d = iblk6 V c 18 t :=
  (dat.before_in_eq_fetched 18 rfl (fun _ => rfl) (fun _ _ _ => rfl) (fun t => by rw [hafter]; unfold Dat.blockOf iblk6; rw [hA]; try rfl) t d).trans
    (by unfold Dat.fetched Dat.blockOf iblk6; rw [hA]; try rfl)
theorem before6_19_of {c : Dev nD} (dat : Dat τ (Elt F) Unit ℕ (UR sig nD τ) ℕ cfg6 c) (hA : dat.A 19 = V c (Pipeline.arrRef spec6 19))
    (hafter : ∀ t, dat.after 19 t = iblk6 V c 19 t) (t : Fin cfg6.N) (d) : dat.before 19 t d = iblk6 V c 19 t :=
  (dat.before_in_eq_fetched 19 rfl (fun _ => rfl) (fun _ _ _ => rfl) (fun t => by rw [hafter]; unfold Dat.blockOf iblk6; rw [hA]; try rfl) t d).trans
    (by unfold Dat.fetched Dat.blockOf iblk6; rw [hA]; try rfl)
theorem before6_20_of {c : Dev nD} (dat : Dat τ (Elt F) Unit ℕ (UR sig nD τ) ℕ cfg6 c) (hA : dat.A 20 = V c (Pipeline.arrRef spec6 20))
    (hafter : ∀ t, dat.after 20 t = iblk6 V c 20 t) (t : Fin cfg6.N) (d) : dat.before 20 t d = iblk6 V c 20 t :=
  (dat.before_in_eq_fetched 20 rfl (fun _ => rfl) (fun _ _ _ => rfl) (fun t => by rw [hafter]; unfold Dat.blockOf iblk6; rw [hA]; try rfl) t d).trans
    (by unfold Dat.fetched Dat.blockOf iblk6; rw [hA]; try rfl)
theorem before6_21_of {c : Dev nD} (dat : Dat τ (Elt F) Unit ℕ (UR sig nD τ) ℕ cfg6 c) (hA : dat.A 21 = V c (Pipeline.arrRef spec6 21))
    (hafter : ∀ t, dat.after 21 t = iblk6 V c 21 t) (t : Fin cfg6.N) (d) : dat.before 21 t d = iblk6 V c 21 t :=
  (dat.before_in_eq_fetched 21 rfl (fun _ => rfl) (fun _ _ _ => rfl) (fun t => by rw [hafter]; unfold Dat.blockOf iblk6; rw [hA]; try rfl) t d).trans
    (by unfold Dat.fetched Dat.blockOf iblk6; rw [hA]; try rfl)
theorem before6_22_of {c : Dev nD} (dat : Dat τ (Elt F) Unit ℕ (UR sig nD τ) ℕ cfg6 c) (hA : dat.A 22 = V c (Pipeline.arrRef spec6 22))
    (hafter : ∀ t, dat.after 22 t = iblk6 V c 22 t) (t : Fin cfg6.N) (d) : dat.before 22 t d = iblk6 V c 22 t :=
  (dat.before_in_eq_fetched 22 rfl (fun _ => rfl) (fun _ _ _ => rfl) (fun t => by rw [hafter]; unfold Dat.blockOf iblk6; rw [hA]; try rfl) t d).trans
    (by unfold Dat.fetched Dat.blockOf iblk6; rw [hA]; try rfl)
theorem before6_23_of {c : Dev nD} (dat : Dat τ (Elt F) Unit ℕ (UR sig nD τ) ℕ cfg6 c) (hA : dat.A 23 = V c (Pipeline.arrRef spec6 23))
    (hafter : ∀ t, dat.after 23 t = iblk6 V c 23 t) (t : Fin cfg6.N) (d) : dat.before 23 t d = iblk6 V c 23 t :=
  (dat.before_in_eq_fetched 23 rfl (fun _ => rfl) (fun _ _ _ => rfl) (fun t => by rw [hafter]; unfold Dat.blockOf iblk6; rw [hA]; try rfl) t d).trans
    (by unfold Dat.fetched Dat.blockOf iblk6; rw [hA]; try rfl)
theorem before6_24_of {c : Dev nD} (dat : Dat τ (Elt F) Unit ℕ (UR sig nD τ) ℕ cfg6 c) (hA : dat.A 24 = V c (Pipeline.arrRef spec6 24))
    (hafter : ∀ t, dat.after 24 t = iblk6 V c 24 t) (t : Fin cfg6.N) (d) : dat.before 24 t d = iblk6 V c 24 t :=
  (dat.before_in_eq_fetched 24 rfl (fun _ => rfl) (fun _ _ _ => rfl) (fun t => by rw [hafter]; unfold Dat.blockOf iblk6; rw [hA]; try rfl) t d).trans
    (by unfold Dat.fetched Dat.blockOf iblk6; rw [hA]; try rfl)
theorem before6_25_of {c : Dev nD} (dat : Dat τ (Elt F) Unit ℕ (UR sig nD τ) ℕ cfg6 c) (hA : dat.A 25 = V c (Pipeline.arrRef spec6 25))
    (hafter : ∀ t, dat.after 25 t = iblk6 V c 25 t) (t : Fin cfg6.N) (d) : dat.before 25 t d = iblk6 V c 25 t :=
  (dat.before_in_eq_fetched 25 rfl (fun _ => rfl) (fun _ _ _ => rfl) (fun t => by rw [hafter]; unfold Dat.blockOf iblk6; rw [hA]; try rfl) t d).trans
    (by unfold Dat.fetched Dat.blockOf iblk6; rw [hA]; try rfl)
theorem before6_26_of {c : Dev nD} (dat : Dat τ (Elt F) Unit ℕ (UR sig nD τ) ℕ cfg6 c) (hA : dat.A 26 = V c (Pipeline.arrRef spec6 26))
    (hafter : ∀ t, dat.after 26 t = iblk6 V c 26 t) (t : Fin cfg6.N) (d) : dat.before 26 t d = iblk6 V c 26 t :=
  (dat.before_in_eq_fetched 26 rfl (fun _ => rfl) (fun _ _ _ => rfl) (fun t => by rw [hafter]; unfold Dat.blockOf iblk6; rw [hA]; try rfl) t d).trans
    (by unfold Dat.fetched Dat.blockOf iblk6; rw [hA]; try rfl)
theorem before6_27_of {c : Dev nD} (dat : Dat τ (Elt F) Unit ℕ (UR sig nD τ) ℕ cfg6 c) (hA : dat.A 27 = V c (Pipeline.arrRef spec6 27))
    (hafter : ∀ t, dat.after 27 t = iblk6 V c 27 t) (t : Fin cfg6.N) (d) : dat.before 27 t d = iblk6 V c 27 t :=
  (dat.before_in_eq_fetched 27 rfl (fun _ => rfl) (fun _ _ _ => rfl) (fun t => by rw [hafter]; unfold Dat.blockOf iblk6; rw [hA]; try rfl) t d).trans
    (by unfold Dat.fetched Dat.blockOf iblk6; rw [hA]; try rfl)
theorem before6_28_of {c : Dev nD} (dat : Dat τ (Elt F) Unit ℕ (UR sig nD τ) ℕ cfg6 c) (hA : dat.A 28 = V c (Pipeline.arrRef spec6 28))
    (hafter : ∀ t, dat.after 28 t = iblk6 V c 28 t) (t : Fin cfg6.N) (d) : dat.before 28 t d = iblk6 V c 28 t :=
  (dat.before_in_eq_fetched 28 rfl (fun _ => rfl) (fun _ _ _ => rfl) (fun t => by rw [hafter]; unfold Dat.blockOf iblk6; rw [hA]; try rfl) t d).trans
    (by unfold Dat.fetched Dat.blockOf iblk6; rw [hA]; try rfl)
theorem before6_29_of {c : Dev nD} (dat : Dat τ (Elt F) Unit ℕ (UR sig nD τ) ℕ cfg6 c) (hA : dat.A 29 = V c (Pipeline.arrRef spec6 29))
    (hafter : ∀ t, dat.after 29 t = iblk6 V c 29 t) (t : Fin cfg6.N) (d) : dat.before 29 t d = iblk6 V c 29 t :=
  (dat.before_in_eq_fetched 29 rfl (fun _ => rfl) (fun _ _ _ => rfl) (fun t => by rw [hafter]; unfold Dat.blockOf iblk6; rw [hA]; try rfl) t d).trans
    (by unfold Dat.fetched Dat.blockOf iblk6; rw [hA]; try rfl)
theorem before6_30_of {c : Dev nD} (dat : Dat τ (Elt F) Unit ℕ (UR sig nD τ) ℕ cfg6 c) (hA : dat.A 30 = V c (Pipeline.arrRef spec6 30))
    (hafter : ∀ t, dat.after 30 t = iblk6 V c 30 t) (t : Fin cfg6.N) (d) : dat.before 30 t d = iblk6 V c 30 t :=
  (dat.before_in_eq_fetched 30 rfl (fun _ => rfl) (fun _ _ _ => rfl) (fun t => by rw [hafter]; unfold Dat.blockOf iblk6; rw [hA]; try rfl) t d).trans
    (by unfold Dat.fetched Dat.blockOf iblk6; rw [hA]; try rfl)
theorem before6_31_of {c : Dev nD} (dat : Dat τ (Elt F) Unit ℕ (UR sig nD τ) ℕ cfg6 c) (hA : dat.A 31 = V c (Pipeline.arrRef spec6 31))
    (hafter : ∀ t, dat.after 31 t = iblk6 V c 31 t) (t : Fin cfg6.N) (d) : dat.before 31 t d = iblk6 V c 31 t :=
  (dat.before_in_eq_fetched 31 rfl (fun _ => rfl) (fun _ _ _ => rfl) (fun t => by rw [hafter]; unfold Dat.blockOf iblk6; rw [hA]; try rfl) t d).trans
    (by unfold Dat.fetched Dat.blockOf iblk6; rw [hA]; try rfl)
theorem before6_32_of {c : Dev nD} (dat : Dat τ (Elt F) Unit ℕ (UR sig nD τ) ℕ cfg6 c) (hA : dat.A 32 = V c (Pipeline.arrRef spec6 32))
    (hafter : ∀ t, dat.after 32 t = iblk6 V c 32 t) (t : Fin cfg6.N) (d) : dat.before 32 t d = iblk6 V c 32 t :=
  (dat.before_in_eq_fetched 32 rfl (fun _ => rfl) (fun _ _ _ => rfl) (fun t => by rw [hafter]; unfold Dat.blockOf iblk6; rw [hA]; try rfl) t d).trans
    (by unfold Dat.fetched Dat.blockOf iblk6; rw [hA]; try rfl)
theorem before6_33_of {c : Dev nD} (dat : Dat τ (Elt F) Unit ℕ (UR sig nD τ) ℕ cfg6 c) (hA : dat.A 33 = V c (Pipeline.arrRef spec6 33))
    (hafter : ∀ t, dat.after 33 t = iblk6 V c 33 t) (t : Fin cfg6.N) (d) : dat.before 33 t d = iblk6 V c 33 t :=
  (dat.before_in_eq_fetched 33 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- A parent's whole block. -/
abbrev r6_p : Rect S512x128 := Rect.unit (s := S512x128) ![0, 0] S512x128.size inb_S512x128_S512x128_0_0
/-- Slab `k` of the weight slice, -/
abbrev r6_w0 : Rect S8x128x128 := Rect.unit (s := S8x128x128) ![0, 0, 0] S1x128x128.size inb_S8x128x128_S1x128x128_0_0_0
abbrev r6_w1 : Rect S8x128x128 := Rect.unit (s := S8x128x128) ![1, 0, 0] S1x128x128.size inb_S8x128x128_S1x128x128_1_0_0
abbrev r6_w2 : Rect S8x128x128 := Rect.unit (s := S8x128x128) ![2, 0, 0] S1x128x128.size inb_S8x128x128_S1x128x128_2_0_0
abbrev r6_w3 : Rect S8x128x128 := Rect.unit (s := S8x128x128) ![3, 0, 0] S1x128x128.size inb_S8x128x128_S1x128x128_3_0_0
abbrev r6_w4 : Rect S8x128x128 := Rect.unit (s := S8x128x128) ![4, 0, 0] S1x128x128.size inb_S8x128x128_S1x128x128_4_0_0
abbrev r6_w5 : Rect S8x128x128 := Rect.unit (s := S8x128x128) ![5, 0, 0] S1x128x128.size inb_S8x128x128_S1x128x128_5_0_0
abbrev r6_w6 : Rect S8x128x128 := Rect.unit (s := S8x128x128) ![6, 0, 0] S1x128x128.size inb_S8x128x128_S1x128x128_6_0_0
abbrev r6_w7 : Rect S8x128x128 := Rect.unit (s := S8x128x128) ![7, 0, 0] S1x128x128.size inb_S8x128x128_S1x128x128_7_0_0
/-- row `k` of the bias slice, -/
abbrev r6_b0 : Rect S8x128 := Rect.unit (s := S8x128) ![0, 0] S1x128.size inb_S8x128_S1x128_0_0
abbrev r6_b1 : Rect S8x128 := Rect.unit (s := S8x128) ![1, 0] S1x128.size inb_S8x128_S1x128_1_0
abbrev r6_b2 : Rect S8x128 := Rect.unit (s := S8x128) ![2, 0] S1x128.size inb_S8x128_S1x128_2_0
abbrev r6_b3 : Rect S8x128 := Rect.unit (s := S8x128) ![3, 0] S1x128.size inb_S8x128_S1x128_3_0
abbrev r6_b4 : Rect S8x128 := Rect.unit (s := S8x128) ![4, 0] S1x128.size inb_S8x128_S1x128_4_0
abbrev r6_b5 : Rect S8x128 := Rect.unit (s := S8x128) ![5, 0] S1x128.size inb_S8x128_S1x128_5_0
abbrev r6_b6 : Rect S8x128 := Rect.unit (s := S8x128) ![6, 0] S1x128.size inb_S8x128_S1x128_6_0
abbrev r6_b7 : Rect S8x128 := Rect.unit (s := S8x128) ![7, 0] S1x128.size inb_S8x128_S1x128_7_0
/-- and slab `k` of the output block. -/
abbrev r6_o0 : Rect S8x512x128 := Rect.unit (s := S8x512x128) ![0, 0, 0] S1x512x128.size inb_S8x512x128_S1x512x128_0_0_0
abbrev r6_o1 : Rect S8x512x128 := Rect.unit (s := S8x512x128) ![1, 0, 0] S1x512x128.size inb_S8x512x128_S1x512x128_1_0_0
abbrev r6_o2 : Rect S8x512x128 := Rect.unit (s := S8x512x128) ![2, 0, 0] S1x512x128.size inb_S8x512x128_S1x512x128_2_0_0
abbrev r6_o3 : Rect S8x512x128 := Rect.unit (s := S8x512x128) ![3, 0, 0] S1x512x128.size inb_S8x512x128_S1x512x128_3_0_0
abbrev r6_o4 : Rect S8x512x128 := Rect.unit (s := S8x512x128) ![4, 0, 0] S1x512x128.size inb_S8x512x128_S1x512x128_4_0_0
abbrev r6_o5 : Rect S8x512x128 := Rect.unit (s := S8x512x128) ![5, 0, 0] S1x512x128.size inb_S8x512x128_S1x512x128_5_0_0
abbrev r6_o6 : Rect S8x512x128 := Rect.unit (s := S8x512x128) ![6, 0, 0] S1x512x128.size inb_S8x512x128_S1x512x128_6_0_0
abbrev r6_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab6_0 (p : Fin 32 → Vec F S512x128 .f32) (wt : Vec F S8x128x128 .f32) (bs : Vec F S8x128 .f32) : Vec F S1x512x128 .f32 :=
  k6_pay1 (View.ld (p 0) r6_p) (View.ld (p 1) r6_p) (View.ld (p 2) r6_p) (View.ld (p 3) r6_p) (View.ld wt r6_w0) (View.ld bs r6_b0)
def slab6_1 (p : Fin 32 → Vec F S512x128 .f32) (wt : Vec F S8x128x128 .f32) (bs : Vec F S8x128 .f32) : Vec F S1x512x128 .f32 :=
  k6_pay3 (k6_pay2 (View.ld (p 4) r6_p) (View.ld (p 5) r6_p) (View.ld (p 6) r6_p)) (View.ld (p 7) r6_p) (View.ld wt r6_w1) (View.ld bs r6_b1)
def slab6_2 (p : Fin 32 → Vec F S512x128 .f32) (wt : Vec F S8x128x128 .f32) (bs : Vec F S8x128 .f32) : Vec F S1x512x128 .f32 :=
  k6_pay7 (k6_pay4 (View.ld (p 8) r6_p) (View.ld (p 9) r6_p) (View.ld (p 10) r6_p) (View.ld (p 11) r6_p)) (k6_pay5 (View.ld wt r6_w2)) (k6_pay6 (View.ld bs r6_b2))
def slab6_3 (p : Fin 32 → Vec F S512x128 .f32) (wt : Vec F S8x128x128 .f32) (bs : Vec F S8x128 .f32) : Vec F S1x512x128 .f32 :=
  k6_pay8 (View.ld (p 12) r6_p) (View.ld (p 13) r6_p) (View.ld (p 14) r6_p) (View.ld (p 15) r6_p) (View.ld wt r6_w3) (View.ld bs r6_b3)
def slab6_4 (p : Fin 32 → Vec F S512x128 .f32) (wt : Vec F S8x128x128 .f32) (bs : Vec F S8x128 .f32) : Vec F S1x512x128 .f32 :=
  k6_pay9 (View.ld (p 16) r6_p) (View.ld (p 17) r6_p) (View.ld (p 18) r6_p) (View.ld (p 19) r6_p) (View.ld wt r6_w4) (View.ld bs r6_b4)
def slab6_5 (p : Fin 32 → Vec F S512x128 .f32) (wt : Vec F S8x128x128 .f32) (bs : Vec F S8x128 .f32) : Vec F S1x512x128 .f32 :=
  k6_pay11 (k6_pay10 (View.ld (p 20) r6_p) (View.ld (p 21) r6_p) (View.ld (p 22) r6_p)) (View.ld (p 23) r6_p) (View.ld wt r6_w5) (View.ld bs r6_b5)
def slab6_6 (p : Fin 32 → Vec F S512x128 .f32) (wt : Vec F S8x128x128 .f32) (bs : Vec F S8x128 .f32) : Vec F S1x512x128 .f32 :=
  k6_pay15 (k6_pay12 (View.ld (p 24) r6_p) (View.ld (p 25) r6_p) (View.ld (p 26) r6_p) (View.ld (p 27) r6_p)) (k6_pay13 (View.ld wt r6_w6)) (k6_pay14 (View.ld bs r6_b6))
def slab6_7 (p : Fin 32 → Vec F S512x128 .f32) (wt : Vec F S8x128x128 .f32) (bs : Vec F S8x128 .f32) : Vec F S1x512x128 .f32 :=
  k6_pay16 (View.ld (p 28) r6_p) (View.ld (p 29) r6_p) (View.ld (p 30) r6_p) (View.ld (p 31) r6_p) (View.ld wt r6_w7) (View.ld bs r6_b7)

/-- Window 34's staging buffer after the body, from the input windows' blocks: its 8 stores as pieces, LAST FIRST. -/
def out6_34 (p : Fin 32 → Vec F S512x128 .f32) (wt : Vec F S8x128x128 .f32) (bs : Vec F S8x128 .f32) : Vec F S8x512x128 .f32 :=
  View.canon [⟨r6_o7, slab6_7 p wt bs⟩, ⟨r6_o6, slab6_6 p wt bs⟩, ⟨r6_o5, slab6_5 p wt bs⟩, ⟨r6_o4, slab6_4 p wt bs⟩, ⟨r6_o3, slab6_3 p wt bs⟩, ⟨r6_o2, slab6_2 p wt bs⟩, ⟨r6_o1, slab6_1 p wt bs⟩, ⟨r6_o0, slab6_0 p wt bs⟩]

/-- The eight stores tile the buffer (checked by evaluation), so they cover it. -/
theorem cover6_34 (p0 p1 p2 p3 p4 p5 p6 p7 : Vec F S1x512x128 .f32) (y : S8x512x128.Idx) :
    ∃ pc ∈ ([⟨r6_o7, p7⟩, ⟨r6_o6, p6⟩, ⟨r6_o5, p5⟩, ⟨r6_o4, p4⟩, ⟨r6_o3, p3⟩, ⟨r6_o2, p2⟩, ⟨r6_o1, p1⟩, ⟨r6_o0, p0⟩] : List (View.Piece (Elt F) S8x512x128 .f32)), y ∈ pc.1.set :=
  View.cover_of_tiled [⟨r6_o7, p7⟩, ⟨r6_o6, p6⟩, ⟨r6_o5, p5⟩, ⟨r6_o4, p4⟩, ⟨r6_o3, p3⟩, ⟨r6_o2, p2⟩, ⟨r6_o1, p1⟩, ⟨r6_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out6_34` of the inputs': the printed
    functions are their skeletons, run through every part call; each slab's load of the output buffer before its store
    reads contents nothing uses. -/
theorem sound_kernel6 (c : Dev nD) (E : Set ℕ) (i : grid6.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out6_34 p wt bs)) -∗ K ⟨⟩))
      ⊢ wp frame (wpE (defs₀ (F := F)) Variants.none c none) E (cc6__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out6_34 slab6_0 slab6_1 slab6_2 slab6_3 slab6_4 slab6_5 slab6_6 slab6_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc6__group_kernel_eq_skeleton]; unfold cc6__group_kernel_skel
  simp only [k6_part1_eq_skeleton, k6_part2_eq_skeleton, k6_part3_eq_skeleton, k6_part4_eq_skeleton, k6_part5_eq_skeleton, k6_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover6_34 _ _ _ _ _ _ _ _)

/-! ## The pipeline's proof data -/

/-- The 32 parent blocks at point `t`, as one family: parent `j` of slab `k` is window `4k+j`. -/
def par6 (c : Dev nD) (t : Fin cfg6.N) : Fin 32 → Vec F S512x128 .f32 := fun j => match j with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => iblk6 V c 19 t
    | ⟨20, _⟩ => iblk6 V c 20 t
    | ⟨21, _⟩ => iblk6 V c 21 t
    | ⟨22, _⟩ => iblk6 V c 22 t
    | ⟨23, _⟩ => iblk6 V c 23 t
    | ⟨24, _⟩ => iblk6 V c 24 t
    | ⟨25, _⟩ => iblk6 V c 25 t
    | ⟨26, _⟩ => iblk6 V c 26 t
    | ⟨27, _⟩ => iblk6 V c 27 t
    | ⟨28, _⟩ => iblk6 V c 28 t
    | ⟨29, _⟩ => iblk6 V c 29 t
    | ⟨30, _⟩ => iblk6 V c 30 t
    | ⟨31, _⟩ => iblk6 V c 31 t
    | ⟨_ + 32, h⟩ => absurd h (Nat.not_lt.2 (Nat.le_add_left _ _))

/-- The family at a literal index (the `match` reduced by `dsimp`). -/
theorem par6_0 (c : Dev nD) (t : Fin cfg6.N) : par6 V c t 0 = iblk6 V c 0 t := by dsimp only [par6]
theorem par6_1 (c : Dev nD) (t : Fin cfg6.N) : par6 V c t 1 = iblk6 V c 1 t := by dsimp only [par6]
theorem par6_2 (c : Dev nD) (t : Fin cfg6.N) : par6 V c t 2 = iblk6 V c 2 t := by dsimp only [par6]
theorem par6_3 (c : Dev nD) (t : Fin cfg6.N) : par6 V c t 3 = iblk6 V c 3 t := by dsimp only [par6]
theorem par6_4 (c : Dev nD) (t : Fin cfg6.N) : par6 V c t 4 = iblk6 V c 4 t := by dsimp only [par6]
theorem par6_5 (c : Dev nD) (t : Fin cfg6.N) : par6 V c t 5 = iblk6 V c 5 t := by dsimp only [par6]
theorem par6_6 (c : Dev nD) (t : Fin cfg6.N) : par6 V c t 6 = iblk6 V c 6 t := by dsimp only [par6]
theorem par6_7 (c : Dev nD) (t : Fin cfg6.N) : par6 V c t 7 = iblk6 V c 7 t := by dsimp only [par6]
theorem par6_8 (c : Dev nD) (t : Fin cfg6.N) : par6 V c t 8 = iblk6 V c 8 t := by dsimp only [par6]
theorem par6_9 (c : Dev nD) (t : Fin cfg6.N) : par6 V c t 9 = iblk6 V c 9 t := by dsimp only [par6]
theorem par6_10 (c : Dev nD) (t : Fin cfg6.N) : par6 V c t 10 = iblk6 V c 10 t := by dsimp only [par6]
theorem par6_11 (c : Dev nD) (t : Fin cfg6.N) : par6 V c t 11 = iblk6 V c 11 t := by dsimp only [par6]
theorem par6_12 (c : Dev nD) (t : Fin cfg6.N) : par6 V c t 12 = iblk6 V c 12 t := by dsimp only [par6]
theorem par6_13 (c : Dev nD) (t : Fin cfg6.N) : par6 V c t 13 = iblk6 V c 13 t := by dsimp only [par6]
theorem par6_14 (c : Dev nD) (t : Fin cfg6.N) : par6 V c t 14 = iblk6 V c 14 t := by dsimp only [par6]
theorem par6_15 (c : Dev nD) (t : Fin cfg6.N) : par6 V c t 15 = iblk6 V c 15 t := by dsimp only [par6]
theorem par6_16 (c : Dev nD) (t : Fin cfg6.N) : par6 V c t 16 = iblk6 V c 16 t := by dsimp only [par6]
theorem par6_17 (c : Dev nD) (t : Fin cfg6.N) : par6 V c t 17 = iblk6 V c 17 t := by dsimp only [par6]
theorem par6_18 (c : Dev nD) (t : Fin cfg6.N) : par6 V c t 18 = iblk6 V c 18 t := by dsimp only [par6]
theorem par6_19 (c : Dev nD) (t : Fin cfg6.N) : par6 V c t 19 = iblk6 V c 19 t := by dsimp only [par6]
theorem par6_20 (c : Dev nD) (t : Fin cfg6.N) : par6 V c t 20 = iblk6 V c 20 t := by dsimp only [par6]
theorem par6_21 (c : Dev nD) (t : Fin cfg6.N) : par6 V c t 21 = iblk6 V c 21 t := by dsimp only [par6]
theorem par6_22 (c : Dev nD) (t : Fin cfg6.N) : par6 V c t 22 = iblk6 V c 22 t := by dsimp only [par6]
theorem par6_23 (c : Dev nD) (t : Fin cfg6.N) : par6 V c t 23 = iblk6 V c 23 t := by dsimp only [par6]
theorem par6_24 (c : Dev nD) (t : Fin cfg6.N) : par6 V c t 24 = iblk6 V c 24 t := by dsimp only [par6]
theorem par6_25 (c : Dev nD) (t : Fin cfg6.N) : par6 V c t 25 = iblk6 V c 25 t := by dsimp only [par6]
theorem par6_26 (c : Dev nD) (t : Fin cfg6.N) : par6 V c t 26 = iblk6 V c 26 t := by dsimp only [par6]
theorem par6_27 (c : Dev nD) (t : Fin cfg6.N) : par6 V c t 27 = iblk6 V c 27 t := by dsimp only [par6]
theorem par6_28 (c : Dev nD) (t : Fin cfg6.N) : par6 V c t 28 = iblk6 V c 28 t := by dsimp only [par6]
theorem par6_29 (c : Dev nD) (t : Fin cfg6.N) : par6 V c t 29 = iblk6 V c 29 t := by dsimp only [par6]
theorem par6_30 (c : Dev nD) (t : Fin cfg6.N) : par6 V c t 30 = iblk6 V c 30 t := by dsimp only [par6]
theorem par6_31 (c : Dev nD) (t : Fin cfg6.N) : par6 V c t 31 = iblk6 V c 31 t := by dsimp only [par6]

/-- The proof data of pipeline 6 on core `c`: the arrays as the region finds them (`V`); after the body at point `t`
    each input's buffer at its block and the output's at `out6_34` of the input blocks; the invariant the scoped rest
    and the generator register, untouched; nothing owed; of each windowed array the share its window holds when
    several windows read one array. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => iblk6 V c 15 t
    | ⟨16, _⟩ => iblk6 V c 16 t
    | ⟨17, _⟩ => iblk6 V c 17 t
    | ⟨18, _⟩ => iblk6 V c 18 t
    | ⟨19, _⟩ => iblk6 V c 19 t
    | ⟨20, _⟩ => iblk6 V c 20 t
    | ⟨21, _⟩ => iblk6 V c 21 t
    | ⟨22, _⟩ => iblk6 V c 22 t
    | ⟨23, _⟩ => iblk6 V c 23 t
    | ⟨24, _⟩ => iblk6 V c 24 t
    | ⟨25, _⟩ => iblk6 V c 25 t
    | ⟨26, _⟩ => iblk6 V c 26 t
    | ⟨27, _⟩ => iblk6 V c 27 t
    | ⟨28, _⟩ => iblk6 V c 28 t
    | ⟨29, _⟩ => iblk6 V c 29 t
    | ⟨30, _⟩ => iblk6 V c 30 t
    | ⟨31, _⟩ => iblk6 V c 31 t
    | ⟨32, _⟩ => iblk6 V c 32 t
    | ⟨33, _⟩ => iblk6 V c 33 t
    | ⟨34, _⟩ => out6_34 (par6 V c t) (iblk6 V c 32 t) (iblk6 V c 33 t)
    | ⟨_ + 35, h⟩ => absurd h (Nat.not_lt.2 (Nat.le_add_left _ _))
  Φ _ := Pipeline.ΦA spec6 c
  q w := Cert.Lib.SharedArrays.shareOf (Pipeline.arrRef spec6) w
  owed _ := 0

/-- The proof data's arrays are the region-entry contents. -/
theorem A_eq6 (c : Dev nD) (w : Fin cfg6.W) : (dat6 V c).A w = V c (Pipeline.arrRef spec6 w) := by
  dsimp only [dat6]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = iblk6 V c 15 t := by dsimp only [dat6]
theorem after6_16 (c : Dev nD) (t : Fin cfg6.N) : (dat6 V c).after 16 t = iblk6 V c 16 t := by dsimp only [dat6]
theorem after6_17 (c : Dev nD) (t : Fin cfg6.N) : (dat6 V c).after 17 t = iblk6 V c 17 t := by dsimp only [dat6]
theorem after6_18 (c : Dev nD) (t : Fin cfg6.N) : (dat6 V c).after 18 t = iblk6 V c 18 t := by dsimp only [dat6]
theorem after6_19 (c : Dev nD) (t : Fin cfg6.N) : (dat6 V c).after 19 t = iblk6 V c 19 t := by dsimp only [dat6]
theorem after6_20 (c : Dev nD) (t : Fin cfg6.N) : (dat6 V c).after 20 t = iblk6 V c 20 t := by dsimp only [dat6]
theorem after6_21 (c : Dev nD) (t : Fin cfg6.N) : (dat6 V c).after 21 t = iblk6 V c 21 t := by dsimp only [dat6]
theorem after6_22 (c : Dev nD) (t : Fin cfg6.N) : (dat6 V c).after 22 t = iblk6 V c 22 t := by dsimp only [dat6]
theorem after6_23 (c : Dev nD) (t : Fin cfg6.N) : (dat6 V c).after 23 t = iblk6 V c 23 t := by dsimp only [dat6]
theorem after6_24 (c : Dev nD) (t : Fin cfg6.N) : (dat6 V c).after 24 t = iblk6 V c 24 t := by dsimp only [dat6]
theorem after6_25 (c : Dev nD) (t : Fin cfg6.N) : (dat6 V c).after 25 t = iblk6 V c 25 t := by dsimp only [dat6]
theorem after6_26 (c : Dev nD) (t : Fin cfg6.N) : (dat6 V c).after 26 t = iblk6 V c 26 t := by dsimp only [dat6]
theorem after6_27 (c : Dev nD) (t : Fin cfg6.N) : (dat6 V c).after 27 t = iblk6 V c 27 t := by dsimp only [dat6]
theorem after6_28 (c : Dev nD) (t : Fin cfg6.N) : (dat6 V c).after 28 t = iblk6 V c 28 t := by dsimp only [dat6]
theorem after6_29 (c : Dev nD) (t : Fin cfg6.N) : (dat6 V c).after 29 t = iblk6 V c 29 t := by dsimp only [dat6]
theorem after6_30 (c : Dev nD) (t : Fin cfg6.N) : (dat6 V c).after 30 t = iblk6 V c 30 t := by dsimp only [dat6]
theorem after6_31 (c : Dev nD) (t : Fin cfg6.N) : (dat6 V c).after 31 t = iblk6 V c 31 t := by dsimp only [dat6]
theorem after6_32 (c : Dev nD) (t : Fin cfg6.N) : (dat6 V c).after 32 t = iblk6 V c 32 t := by dsimp only [dat6]
theorem after6_33 (c : Dev nD) (t : Fin cfg6.N) : (dat6 V c).after 33 t = iblk6 V c 33 t := by dsimp only [dat6]
theorem after6_34 (c : Dev nD) (t : Fin cfg6.N) :
    (dat6 V c).after 34 t = out6_34 (par6 V c t) (iblk6 V c 32 t) (iblk6 V c 33 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d
theorem before6_15 (c : Dev nD) (t : Fin cfg6.N) (d) : (dat6 V c).before 15 t d = iblk6 V c 15 t :=
  before6_15_of V (dat6 V c) (A_eq6 V c 15) (after6_15 V c) t d
theorem before6_16 (c : Dev nD) (t : Fin cfg6.N) (d) : (dat6 V c).before 16 t d = iblk6 V c 16 t :=
  before6_16_of V (dat6 V c) (A_eq6 V c 16) (after6_16 V c) t d
theorem before6_17 (c : Dev nD) (t : Fin cfg6.N) (d) : (dat6 V c).before 17 t d = iblk6 V c 17 t :=
  before6_17_of V (dat6 V c) (A_eq6 V c 17) (after6_17 V c) t d
theorem before6_18 (c : Dev nD) (t : Fin cfg6.N) (d) : (dat6 V c).before 18 t d = iblk6 V c 18 t :=
  before6_18_of V (dat6 V c) (A_eq6 V c 18) (after6_18 V c) t d
theorem before6_19 (c : Dev nD) (t : Fin cfg6.N) (d) : (dat6 V c).before 19 t d = iblk6 V c 19 t :=
  before6_19_of V (dat6 V c) (A_eq6 V c 19) (after6_19 V c) t d
theorem before6_20 (c : Dev nD) (t : Fin cfg6.N) (d) : (dat6 V c).before 20 t d = iblk6 V c 20 t :=
  before6_20_of V (dat6 V c) (A_eq6 V c 20) (after6_20 V c) t d
theorem before6_21 (c : Dev nD) (t : Fin cfg6.N) (d) : (dat6 V c).before 21 t d = iblk6 V c 21 t :=
  before6_21_of V (dat6 V c) (A_eq6 V c 21) (after6_21 V c) t d
theorem before6_22 (c : Dev nD) (t : Fin cfg6.N) (d) : (dat6 V c).before 22 t d = iblk6 V c 22 t :=
  before6_22_of V (dat6 V c) (A_eq6 V c 22) (after6_22 V c) t d
theorem before6_23 (c : Dev nD) (t : Fin cfg6.N) (d) : (dat6 V c).before 23 t d = iblk6 V c 23 t :=
  before6_23_of V (dat6 V c) (A_eq6 V c 23) (after6_23 V c) t d
theorem before6_24 (c : Dev nD) (t : Fin cfg6.N) (d) : (dat6 V c).before 24 t d = iblk6 V c 24 t :=
  before6_24_of V (dat6 V c) (A_eq6 V c 24) (after6_24 V c) t d
theorem before6_25 (c : Dev nD) (t : Fin cfg6.N) (d) : (dat6 V c).before 25 t d = iblk6 V c 25 t :=
  before6_25_of V (dat6 V c) (A_eq6 V c 25) (after6_25 V c) t d
theorem before6_26 (c : Dev nD) (t : Fin cfg6.N) (d) : (dat6 V c).before 26 t d = iblk6 V c 26 t :=
  before6_26_of V (dat6 V c) (A_eq6 V c 26) (after6_26 V c) t d
theorem before6_27 (c : Dev nD) (t : Fin cfg6.N) (d) : (dat6 V c).before 27 t d = iblk6 V c 27 t :=
  before6_27_of V (dat6 V c) (A_eq6 V c 27) (after6_27 V c) t d
theorem before6_28 (c : Dev nD) (t : Fin cfg6.N) (d) : (dat6 V c).before 28 t d = iblk6 V c 28 t :=
  before6_28_of V (dat6 V c) (A_eq6 V c 28) (after6_28 V c) t d
theorem before6_29 (c : Dev nD) (t : Fin cfg6.N) (d) : (dat6 V c).before 29 t d = iblk6 V c 29 t :=
  before6_29_of V (dat6 V c) (A_eq6 V c 29) (after6_29 V c) t d
theorem before6_30 (c : Dev nD) (t : Fin cfg6.N) (d) : (dat6 V c).before 30 t d = iblk6 V c 30 t :=
  before6_30_of V (dat6 V c) (A_eq6 V c 30) (after6_30 V c) t d
theorem before6_31 (c : Dev nD) (t : Fin cfg6.N) (d) : (dat6 V c).before 31 t d = iblk6 V c 31 t :=
  before6_31_of V (dat6 V c) (A_eq6 V c 31) (after6_31 V c) t d
theorem before6_32 (c : Dev nD) (t : Fin cfg6.N) (d) : (dat6 V c).before 32 t d = iblk6 V c 32 t :=
  before6_32_of V (dat6 V c) (A_eq6 V c 32) (after6_32 V c) t d
theorem before6_33 (c : Dev nD) (t : Fin cfg6.N) (d) : (dat6 V c).before 33 t d = iblk6 V c 33 t :=
  before6_33_of V (dat6 V c) (A_eq6 V c 33) (after6_33 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d))
    ∗ (∃ d, owns (c : Thread nD τ) (st6_16 t) fullShare ((dat6 V c).before 16 t d))
    ∗ (∃ d, owns (c : Thread nD τ) (st6_17 t) fullShare ((dat6 V c).before 17 t d))
    ∗ (∃ d, owns (c : Thread nD τ) (st6_18 t) fullShare ((dat6 V c).before 18 t d))
    ∗ (∃ d, owns (c : Thread nD τ) (st6_19 t) fullShare ((dat6 V c).before 19 t d))
    ∗ (∃ d, owns (c : Thread nD τ) (st6_20 t) fullShare ((dat6 V c).before 20 t d))
    ∗ (∃ d, owns (c : Thread nD τ) (st6_21 t) fullShare ((dat6 V c).before 21 t d))
    ∗ (∃ d, owns (c : Thread nD τ) (st6_22 t) fullShare ((dat6 V c).before 22 t d))
    ∗ (∃ d, owns (c : Thread nD τ) (st6_23 t) fullShare ((dat6 V c).before 23 t d))
    ∗ (∃ d, owns (c : Thread nD τ) (st6_24 t) fullShare ((dat6 V c).before 24 t d))
    ∗ (∃ d, owns (c : Thread nD τ) (st6_25 t) fullShare ((dat6 V c).before 25 t d))
    ∗ (∃ d, owns (c : Thread nD τ) (st6_26 t) fullShare ((dat6 V c).before 26 t d))
    ∗ (∃ d, owns (c : Thread nD τ) (st6_27 t) fullShare ((dat6 V c).before 27 t d))
    ∗ (∃ d, owns (c : Thread nD τ) (st6_28 t) fullShare ((dat6 V c).before 28 t d))
    ∗ (∃ d, owns (c : Thread nD τ) (st6_29 t) fullShare ((dat6 V c).before 29 t d))
    ∗ (∃ d, owns (c : Thread nD τ) (st6_30 t) fullShare ((dat6 V c).before 30 t d))
    ∗ (∃ d, owns (c : Thread nD τ) (st6_31 t) fullShare ((dat6 V c).before 31 t d))
    ∗ (∃ d, owns (c : Thread nD τ) (st6_32 t) fullShare ((dat6 V c).before 32 t d))
    ∗ (∃ d, owns (c : Thread nD τ) (st6_33 t) fullShare ((dat6 V c).before 33 t d))
    ∗ (∃ d, owns (c : Thread nD τ) (st6_34 t) fullShare ((dat6 V c).before 34 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t)
    ∗ owns (c : Thread nD τ) (st6_16 t) fullShare ((dat6 V c).after 16 t)
    ∗ owns (c : Thread nD τ) (st6_17 t) fullShare ((dat6 V c).after 17 t)
    ∗ owns (c : Thread nD τ) (st6_18 t) fullShare ((dat6 V c).after 18 t)
    ∗ owns (c : Thread nD τ) (st6_19 t) fullShare ((dat6 V c).after 19 t)
    ∗ owns (c : Thread nD τ) (st6_20 t) fullShare ((dat6 V c).after 20 t)
    ∗ owns (c : Thread nD τ) (st6_21 t) fullShare ((dat6 V c).after 21 t)
    ∗ owns (c : Thread nD τ) (st6_22 t) fullShare ((dat6 V c).after 22 t)
    ∗ owns (c : Thread nD τ) (st6_23 t) fullShare ((dat6 V c).after 23 t)
    ∗ owns (c : Thread nD τ) (st6_24 t) fullShare ((dat6 V c).after 24 t)
    ∗ owns (c : Thread nD τ) (st6_25 t) fullShare ((dat6 V c).after 25 t)
    ∗ owns (c : Thread nD τ) (st6_26 t) fullShare ((dat6 V c).after 26 t)
    ∗ owns (c : Thread nD τ) (st6_27 t) fullShare ((dat6 V c).after 27 t)
    ∗ owns (c : Thread nD τ) (st6_28 t) fullShare ((dat6 V c).after 28 t)
    ∗ owns (c : Thread nD τ) (st6_29 t) fullShare ((dat6 V c).after 29 t)
    ∗ owns (c : Thread nD τ) (st6_30 t) fullShare ((dat6 V c).after 30 t)
    ∗ owns (c : Thread nD τ) (st6_31 t) fullShare ((dat6 V c).after 31 t)
    ∗ owns (c : Thread nD τ) (st6_32 t) fullShare ((dat6 V c).after 32 t)
    ∗ owns (c : Thread nD τ) (st6_33 t) fullShare ((dat6 V c).after 33 t)
    ∗ owns (c : Thread nD τ) (st6_34 t) fullShare ((dat6 V c).after 34 t))

set_option maxHeartbeats 4000000 in
/-- The body at any point: the inputs' memrefs hold their blocks (`before6_W`), so `sound_kernel6` applies; the invariant
    and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14, before6_15, before6_16, before6_17, before6_18, before6_19, before6_20, before6_21, before6_22, before6_23, before6_24, before6_25, before6_26, before6_27, before6_28, before6_29, before6_30, before6_31, before6_32, before6_33]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15, after6_16, after6_17, after6_18, after6_19, after6_20, after6_21, after6_22, after6_23, after6_24, after6_25, after6_26, after6_27, after6_28, after6_29, after6_30, after6_31, after6_32, after6_33, after6_34]
  have hk := fun K => sound_kernel6 (F := F) c Set.univ (grid6.coords t) _ (hstage6_0 ((cfg6.slots t 0).cast nbuf6_0)) _ (hstage6_1 ((cfg6.slots t 1).cast nbuf6_1)) _ (hstage6_2 ((cfg6.slots t 2).cast nbuf6_2)) _ (hstage6_3 ((cfg6.slots t 3).cast nbuf6_3)) _ (hstage6_4 ((cfg6.slots t 4).cast nbuf6_4)) _ (hstage6_5 ((cfg6.slots t 5).cast nbuf6_5)) _ (hstage6_6 ((cfg6.slots t 6).cast nbuf6_6)) _ (hstage6_7 ((cfg6.slots t 7).cast nbuf6_7)) _ (hstage6_8 ((cfg6.slots t 8).cast nbuf6_8)) _ (hstage6_9 ((cfg6.slots t 9).cast nbuf6_9)) _ (hstage6_10 ((cfg6.slots t 10).cast nbuf6_10)) _ (hstage6_11 ((cfg6.slots t 11).cast nbuf6_11)) _ (hstage6_12 ((cfg6.slots t 12).cast nbuf6_12)) _ (hstage6_13 ((cfg6.slots t 13).cast nbuf6_13)) _ (hstage6_14 ((cfg6.slots t 14).cast nbuf6_14)) _ (hstage6_15 ((cfg6.slots t 15).cast nbuf6_15)) _ (hstage6_16 ((cfg6.slots t 16).cast nbuf6_16)) _ (hstage6_17 ((cfg6.slots t 17).cast nbuf6_17)) _ (hstage6_18 ((cfg6.slots t 18).cast nbuf6_18)) _ (hstage6_19 ((cfg6.slots t 19).cast nbuf6_19)) _ (hstage6_20 ((cfg6.slots t 20).cast nbuf6_20)) _ (hstage6_21 ((cfg6.slots t 21).cast nbuf6_21)) _ (hstage6_22 ((cfg6.slots t 22).cast nbuf6_22)) _ (hstage6_23 ((cfg6.slots t 23).cast nbuf6_23)) _ (hstage6_24 ((cfg6.slots t 24).cast nbuf6_24)) _ (hstage6_25 ((cfg6.slots t 25).cast nbuf6_25)) _ (hstage6_26 ((cfg6.slots t 26).cast nbuf6_26)) _ (hstage6_27 ((cfg6.slots t 27).cast nbuf6_27)) _ (hstage6_28 ((cfg6.slots t 28).cast nbuf6_28)) _ (hstage6_29 ((cfg6.slots t 29).cast nbuf6_29)) _ (hstage6_30 ((cfg6.slots t 30).cast nbuf6_30)) _ (hstage6_31 ((cfg6.slots t 31).cast nbuf6_31)) _ (hstage6_32 ((cfg6.slots t 32).cast nbuf6_32)) _ (hstage6_33 ((cfg6.slots t 33).cast nbuf6_33)) _ (hstage6_34 ((cfg6.slots t 34).cast nbuf6_34))
    (par6 V c t) (iblk6 V c 32 t) (iblk6 V c 33 t) K
  simp only [par6_0, par6_1, par6_2, par6_3, par6_4, par6_5, par6_6, par6_7, par6_8, par6_9, par6_10, par6_11, par6_12, par6_13, par6_14, par6_15, par6_16, par6_17, par6_18, par6_19, par6_20, par6_21, par6_22, par6_23, par6_24, par6_25, par6_26, par6_27, par6_28, par6_29, par6_30, par6_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/- Region 7 of the kernel program (pipeline 7, `cc7__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out7_34`); the body's triple; the
   pipeline's proof data (`dat7`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 7: custom_call 7, `cc7__group_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)
theorem before7_11_of {c : Dev nD} (dat : Dat τ (Elt F) Unit ℕ (UR sig nD τ) ℕ cfg7 c) (hA : dat.A 11 = V c (Pipeline.arrRef spec7 11))
    (hafter : ∀ t, dat.after 11 t = iblk7 V c 11 t) (t : Fin cfg7.N) (d) : dat.before 11 t d = iblk7 V c 11 t :=
  (dat.before_in_eq_fetched 11 rfl (fun _ => rfl) (fun _ _ _ => rfl) (fun t => by rw [hafter]; unfold Dat.blockOf iblk7; rw [hA]; try rfl) t d).trans
    (by unfold Dat.fetched Dat.blockOf iblk7; rw [hA]; try rfl)
theorem before7_12_of {c : Dev nD} (dat : Dat τ (Elt F) Unit ℕ (UR sig nD τ) ℕ cfg7 c) (hA : dat.A 12 = V c (Pipeline.arrRef spec7 12))
    (hafter : ∀ t, dat.after 12 t = iblk7 V c 12 t) (t : Fin cfg7.N) (d) : dat.before 12 t d = iblk7 V c 12 t :=
  (dat.before_in_eq_fetched 12 rfl (fun _ => rfl) (fun _ _ _ => rfl) (fun t => by rw [hafter]; unfold Dat.blockOf iblk7; rw [hA]; try rfl) t d).trans
    (by unfold Dat.fetched Dat.blockOf iblk7; rw [hA]; try rfl)
theorem before7_13_of {c : Dev nD} (dat : Dat τ (Elt F) Unit ℕ (UR sig nD τ) ℕ cfg7 c) (hA : dat.A 13 = V c (Pipeline.arrRef spec7 13))
    (hafter : ∀ t, dat.after 13 t = iblk7 V c 13 t) (t : Fin cfg7.N) (d) : dat.before 13 t d = iblk7 V c 13 t :=
  (dat.before_in_eq_fetched 13 rfl (fun _ => rfl) (fun _ _ _ => rfl) (fun t => by rw [hafter]; unfold Dat.blockOf iblk7; rw [hA]; try rfl) t d).trans
    (by unfold Dat.fetched Dat.blockOf iblk7; rw [hA]; try rfl)
theorem before7_14_of {c : Dev nD} (dat : Dat τ (Elt F) Unit ℕ (UR sig nD τ) ℕ cfg7 c) (hA : dat.A 14 = V c (Pipeline.arrRef spec7 14))
    (hafter : ∀ t, dat.after 14 t = iblk7 V c 14 t) (t : Fin cfg7.N) (d) : dat.before 14 t d = iblk7 V c 14 t :=
  (dat.before_in_eq_fetched 14 rfl (fun _ => rfl) (fun _ _ _ => rfl) (fun t => by rw [hafter]; unfold Dat.blockOf iblk7; rw [hA]; try rfl) t d).trans
    (by unfold Dat.fetched Dat.blockOf iblk7; rw [hA]; try rfl)
theorem before7_15_of {c : Dev nD} (dat : Dat τ (Elt F) Unit ℕ (UR sig nD τ) ℕ cfg7 c) (hA : dat.A 15 = V c (Pipeline.arrRef spec7 15))
    (hafter : ∀ t, dat.after 15 t = iblk7 V c 15 t) (t : Fin cfg7.N) (d) : dat.before 15 t d = iblk7 V c 15 t :=
  (dat.before_in_eq_fetched 15 rfl (fun _ => rfl) (fun _ _ _ => rfl) (fun t => by rw [hafter]; unfold Dat.blockOf iblk7; rw [hA]; try rfl) t d).trans
    (by unfold Dat.fetched Dat.blockOf iblk7; rw [hA]; try rfl)
theorem before7_16_of {c : Dev nD} (dat : Dat τ (Elt F) Unit ℕ (UR sig nD τ) ℕ cfg7 c) (hA : dat.A 16 = V c (Pipeline.arrRef spec7 16))
    (hafter : ∀ t, dat.after 16 t = iblk7 V c 16 t) (t : Fin cfg7.N) (d) : dat.before 16 t d = iblk7 V c 16 t :=
  (dat.before_in_eq_fetched 16 rfl (fun _ => rfl) (fun _ _ _ => rfl) (fun t => by rw [hafter]; unfold Dat.blockOf iblk7; rw [hA]; try rfl) t d).trans
    (by unfold Dat.fetched Dat.blockOf iblk7; rw [hA]; try rfl)
theorem before7_17_of {c : Dev nD} (dat : Dat τ (Elt F) Unit ℕ (UR sig nD τ) ℕ cfg7 c) (hA : dat.A 17 = V c (Pipeline.arrRef spec7 17))
    (hafter : ∀ t, dat.after 17 t = iblk7 V c 17 t) (t : Fin cfg7.N) (d) : dat.before 17 t d = iblk7 V c 17 t :=
  (dat.before_in_eq_fetched 17 rfl (fun _ => rfl) (fun _ _ _ => rfl) (fun t => by rw [hafter]; unfold Dat.blockOf iblk7; rw [hA]; try rfl) t d).trans
    (by unfold Dat.fetched Dat.blockOf iblk7; rw [hA]; try rfl)
theorem before7_18_of {c : Dev nD} (dat : Dat τ (Elt F) Unit ℕ (UR sig nD τ) ℕ cfg7 c) (hA : dat.A 18 = V c (Pipeline.arrRef spec7 18))
    (hafter : ∀ t, dat.after 18 t = iblk7 V c 18 t) (t : Fin cfg7.N) (d) : dat.before 18 t d = iblk7 V c 18 t :=
  (dat.before_in_eq_fetched 18 rfl (fun _ => rfl) (fun _ _ _ => rfl) (fun t => by rw [hafter]; unfold Dat.blockOf iblk7; rw [hA]; try rfl) t d).trans
    (by unfold Dat.fetched Dat.blockOf iblk7; rw [hA]; try rfl)
theorem before7_19_of {c : Dev nD} (dat : Dat τ (Elt F) Unit ℕ (UR sig nD τ) ℕ cfg7 c) (hA : dat.A 19 = V c (Pipeline.arrRef spec7 19))
    (hafter : ∀ t, dat.after 19 t = iblk7 V c 19 t) (t : Fin cfg7.N) (d) : dat.before 19 t d = iblk7 V c 19 t :=
  (dat.before_in_eq_fetched 19 rfl (fun _ => rfl) (fun _ _ _ => rfl) (fun t => by rw [hafter]; unfold Dat.blockOf iblk7; rw [hA]; try rfl) t d).trans
    (by unfold Dat.fetched Dat.blockOf iblk7; rw [hA]; try rfl)
theorem before7_20_of {c : Dev nD} (dat : Dat τ (Elt F) Unit ℕ (UR sig nD τ) ℕ cfg7 c) (hA : dat.A 20 = V c (Pipeline.arrRef spec7 20))
    (hafter : ∀ t, dat.after 20 t = iblk7 V c 20 t) (t : Fin cfg7.N) (d) : dat.before 20 t d = iblk7 V c 20 t :=
  (dat.before_in_eq_fetched 20 rfl (fun _ => rfl) (fun _ _ _ => rfl) (fun t => by rw [hafter]; unfold Dat.blockOf iblk7; rw [hA]; try rfl) t d).trans
    (by unfold Dat.fetched Dat.blockOf iblk7; rw [hA]; try rfl)
theorem before7_21_of {c : Dev nD} (dat : Dat τ (Elt F) Unit ℕ (UR sig nD τ) ℕ cfg7 c) (hA : dat.A 21 = V c (Pipeline.arrRef spec7 21))
    (hafter : ∀ t, dat.after 21 t = iblk7 V c 21 t) (t : Fin cfg7.N) (d) : dat.before 21 t d = iblk7 V c 21 t :=
  (dat.before_in_eq_fetched 21 rfl (fun _ => rfl) (fun _ _ _ => rfl) (fun t => by rw [hafter]; unfold Dat.blockOf iblk7; rw [hA]; try rfl) t d).trans
    (by unfold Dat.fetched Dat.blockOf iblk7; rw [hA]; try rfl)
theorem before7_22_of {c : Dev nD} (dat : Dat τ (Elt F) Unit ℕ (UR sig nD τ) ℕ cfg7 c) (hA : dat.A 22 = V c (Pipeline.arrRef spec7 22))
    (hafter : ∀ t, dat.after 22 t = iblk7 V c 22 t) (t : Fin cfg7.N) (d) : dat.before 22 t d = iblk7 V c 22 t :=
  (dat.before_in_eq_fetched 22 rfl (fun _ => rfl) (fun _ _ _ => rfl) (fun t => by rw [hafter]; unfold Dat.blockOf iblk7; rw [hA]; try rfl) t d).trans
    (by unfold Dat.fetched Dat.blockOf iblk7; rw [hA]; try rfl)
theorem before7_23_of {c : Dev nD} (dat : Dat τ (Elt F) Unit ℕ (UR sig nD τ) ℕ cfg7 c) (hA : dat.A 23 = V c (Pipeline.arrRef spec7 23))
    (hafter : ∀ t, dat.after 23 t = iblk7 V c 23 t) (t : Fin cfg7.N) (d) : dat.before 23 t d = iblk7 V c 23 t :=
  (dat.before_in_eq_fetched 23 rfl (fun _ => rfl) (fun _ _ _ => rfl) (fun t => by rw [hafter]; unfold Dat.blockOf iblk7; rw [hA]; try rfl) t d).trans
    (by unfold Dat.fetched Dat.blockOf iblk7; rw [hA]; try rfl)
theorem before7_24_of {c : Dev nD} (dat : Dat τ (Elt F) Unit ℕ (UR sig nD τ) ℕ cfg7 c) (hA : dat.A 24 = V c (Pipeline.arrRef spec7 24))
    (hafter : ∀ t, dat.after 24 t = iblk7 V c 24 t) (t : Fin cfg7.N) (d) : dat.before 24 t d = iblk7 V c 24 t :=
  (dat.before_in_eq_fetched 24 rfl (fun _ => rfl) (fun _ _ _ => rfl) (fun t => by rw [hafter]; unfold Dat.blockOf iblk7; rw [hA]; try rfl) t d).trans
    (by unfold Dat.fetched Dat.blockOf iblk7; rw [hA]; try rfl)
theorem before7_25_of {c : Dev nD} (dat : Dat τ (Elt F) Unit ℕ (UR sig nD τ) ℕ cfg7 c) (hA : dat.A 25 = V c (Pipeline.arrRef spec7 25))
    (hafter : ∀ t, dat.after 25 t = iblk7 V c 25 t) (t : Fin cfg7.N) (d) : dat.before 25 t d = iblk7 V c 25 t :=
  (dat.before_in_eq_fetched 25 rfl (fun _ => rfl) (fun _ _ _ => rfl) (fun t => by rw [hafter]; unfold Dat.blockOf iblk7; rw [hA]; try rfl) t d).trans
    (by unfold Dat.fetched Dat.blockOf iblk7; rw [hA]; try rfl)
theorem before7_26_of {c : Dev nD} (dat : Dat τ (Elt F) Unit ℕ (UR sig nD τ) ℕ cfg7 c) (hA : dat.A 26 = V c (Pipeline.arrRef spec7 26))
    (hafter : ∀ t, dat.after 26 t = iblk7 V c 26 t) (t : Fin cfg7.N) (d) : dat.before 26 t d = iblk7 V c 26 t :=
  (dat.before_in_eq_fetched 26 rfl (fun _ => rfl) (fun _ _ _ => rfl) (fun t => by rw [hafter]; unfold Dat.blockOf iblk7; rw [hA]; try rfl) t d).trans
    (by unfold Dat.fetched Dat.blockOf iblk7; rw [hA]; try rfl)
theorem before7_27_of {c : Dev nD} (dat : Dat τ (Elt F) Unit ℕ (UR sig nD τ) ℕ cfg7 c) (hA : dat.A 27 = V c (Pipeline.arrRef spec7 27))
    (hafter : ∀ t, dat.after 27 t = iblk7 V c 27 t) (t : Fin cfg7.N) (d) : dat.before 27 t d = iblk7 V c 27 t :=
  (dat.before_in_eq_fetched 27 rfl (fun _ => rfl) (fun _ _ _ => rfl) (fun t => by rw [hafter]; unfold Dat.blockOf iblk7; rw [hA]; try rfl) t d).trans
    (by unfold Dat.fetched Dat.blockOf iblk7; rw [hA]; try rfl)
theorem before7_28_of {c : Dev nD} (dat : Dat τ (Elt F) Unit ℕ (UR sig nD τ) ℕ cfg7 c) (hA : dat.A 28 = V c (Pipeline.arrRef spec7 28))
    (hafter : ∀ t, dat.after 28 t = iblk7 V c 28 t) (t : Fin cfg7.N) (d) : dat.before 28 t d = iblk7 V c 28 t :=
  (dat.before_in_eq_fetched 28 rfl (fun _ => rfl) (fun _ _ _ => rfl) (fun t => by rw [hafter]; unfold Dat.blockOf iblk7; rw [hA]; try rfl) t d).trans
    (by unfold Dat.fetched Dat.blockOf iblk7; rw [hA]; try rfl)
theorem before7_29_of {c : Dev nD} (dat : Dat τ (Elt F) Unit ℕ (UR sig nD τ) ℕ cfg7 c) (hA : dat.A 29 = V c (Pipeline.arrRef spec7 29))
    (hafter : ∀ t, dat.after 29 t = iblk7 V c 29 t) (t : Fin cfg7.N) (d) : dat.before 29 t d = iblk7 V c 29 t :=
  (dat.before_in_eq_fetched 29 rfl (fun _ => rfl) (fun _ _ _ => rfl) (fun t => by rw [hafter]; unfold Dat.blockOf iblk7; rw [hA]; try rfl) t d).trans
    (by unfold Dat.fetched Dat.blockOf iblk7; rw [hA]; try rfl)
theorem before7_30_of {c : Dev nD} (dat : Dat τ (Elt F) Unit ℕ (UR sig nD τ) ℕ cfg7 c) (hA : dat.A 30 = V c (Pipeline.arrRef spec7 30))
    (hafter : ∀ t, dat.after 30 t = iblk7 V c 30 t) (t : Fin cfg7.N) (d) : dat.before 30 t d = iblk7 V c 30 t :=
  (dat.before_in_eq_fetched 30 rfl (fun _ => rfl) (fun _ _ _ => rfl) (fun t => by rw [hafter]; unfold Dat.blockOf iblk7; rw [hA]; try rfl) t d).trans
    (by unfold Dat.fetched Dat.blockOf iblk7; rw [hA]; try rfl)
theorem before7_31_of {c : Dev nD} (dat : Dat τ (Elt F) Unit ℕ (UR sig nD τ) ℕ cfg7 c) (hA : dat.A 31 = V c (Pipeline.arrRef spec7 31))
    (hafter : ∀ t, dat.after 31 t = iblk7 V c 31 t) (t : Fin cfg7.N) (d) : dat.before 31 t d = iblk7 V c 31 t :=
  (dat.before_in_eq_fetched 31 rfl (fun _ => rfl) (fun _ _ _ => rfl) (fun t => by rw [hafter]; unfold Dat.blockOf iblk7; rw [hA]; try rfl) t d).trans
    (by unfold Dat.fetched Dat.blockOf iblk7; rw [hA]; try rfl)
theorem before7_32_of {c : Dev nD} (dat : Dat τ (Elt F) Unit ℕ (UR sig nD τ) ℕ cfg7 c) (hA : dat.A 32 = V c (Pipeline.arrRef spec7 32))
    (hafter : ∀ t, dat.after 32 t = iblk7 V c 32 t) (t : Fin cfg7.N) (d) : dat.before 32 t d = iblk7 V c 32 t :=
  (dat.before_in_eq_fetched 32 rfl (fun _ => rfl) (fun _ _ _ => rfl) (fun t => by rw [hafter]; unfold Dat.blockOf iblk7; rw [hA]; try rfl) t d).trans
    (by unfold Dat.fetched Dat.blockOf iblk7; rw [hA]; try rfl)
theorem before7_33_of {c : Dev nD} (dat : Dat τ (Elt F) Unit ℕ (UR sig nD τ) ℕ cfg7 c) (hA : dat.A 33 = V c (Pipeline.arrRef spec7 33))
    (hafter : ∀ t, dat.after 33 t = iblk7 V c 33 t) (t : Fin cfg7.N) (d) : dat.before 33 t d = iblk7 V c 33 t :=
  (dat.before_in_eq_fetched 33 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- A parent's whole block. -/
abbrev r7_p : Rect S512x128 := Rect.unit (s := S512x128) ![0, 0] S512x128.size inb_S512x128_S512x128_0_0
/-- Slab `k` of the weight slice, -/
abbrev r7_w0 : Rect S8x128x128 := Rect.unit (s := S8x128x128) ![0, 0, 0] S1x128x128.size inb_S8x128x128_S1x128x128_0_0_0
abbrev r7_w1 : Rect S8x128x128 := Rect.unit (s := S8x128x128) ![1, 0, 0] S1x128x128.size inb_S8x128x128_S1x128x128_1_0_0
abbrev r7_w2 : Rect S8x128x128 := Rect.unit (s := S8x128x128) ![2, 0, 0] S1x128x128.size inb_S8x128x128_S1x128x128_2_0_0
abbrev r7_w3 : Rect S8x128x128 := Rect.unit (s := S8x128x128) ![3, 0, 0] S1x128x128.size inb_S8x128x128_S1x128x128_3_0_0
abbrev r7_w4 : Rect S8x128x128 := Rect.unit (s := S8x128x128) ![4, 0, 0] S1x128x128.size inb_S8x128x128_S1x128x128_4_0_0
abbrev r7_w5 : Rect S8x128x128 := Rect.unit (s := S8x128x128) ![5, 0, 0] S1x128x128.size inb_S8x128x128_S1x128x128_5_0_0
abbrev r7_w6 : Rect S8x128x128 := Rect.unit (s := S8x128x128) ![6, 0, 0] S1x128x128.size inb_S8x128x128_S1x128x128_6_0_0
abbrev r7_w7 : Rect S8x128x128 := Rect.unit (s := S8x128x128) ![7, 0, 0] S1x128x128.size inb_S8x128x128_S1x128x128_7_0_0
/-- row `k` of the bias slice, -/
abbrev r7_b0 : Rect S8x128 := Rect.unit (s := S8x128) ![0, 0] S1x128.size inb_S8x128_S1x128_0_0
abbrev r7_b1 : Rect S8x128 := Rect.unit (s := S8x128) ![1, 0] S1x128.size inb_S8x128_S1x128_1_0
abbrev r7_b2 : Rect S8x128 := Rect.unit (s := S8x128) ![2, 0] S1x128.size inb_S8x128_S1x128_2_0
abbrev r7_b3 : Rect S8x128 := Rect.unit (s := S8x128) ![3, 0] S1x128.size inb_S8x128_S1x128_3_0
abbrev r7_b4 : Rect S8x128 := Rect.unit (s := S8x128) ![4, 0] S1x128.size inb_S8x128_S1x128_4_0
abbrev r7_b5 : Rect S8x128 := Rect.unit (s := S8x128) ![5, 0] S1x128.size inb_S8x128_S1x128_5_0
abbrev r7_b6 : Rect S8x128 := Rect.unit (s := S8x128) ![6, 0] S1x128.size inb_S8x128_S1x128_6_0
abbrev r7_b7 : Rect S8x128 := Rect.unit (s := S8x128) ![7, 0] S1x128.size inb_S8x128_S1x128_7_0
/-- and slab `k` of the output block. -/
abbrev r7_o0 : Rect S8x512x128 := Rect.unit (s := S8x512x128) ![0, 0, 0] S1x512x128.size inb_S8x512x128_S1x512x128_0_0_0
abbrev r7_o1 : Rect S8x512x128 := Rect.unit (s := S8x512x128) ![1, 0, 0] S1x512x128.size inb_S8x512x128_S1x512x128_1_0_0
abbrev r7_o2 : Rect S8x512x128 := Rect.unit (s := S8x512x128) ![2, 0, 0] S1x512x128.size inb_S8x512x128_S1x512x128_2_0_0
abbrev r7_o3 : Rect S8x512x128 := Rect.unit (s := S8x512x128) ![3, 0, 0] S1x512x128.size inb_S8x512x128_S1x512x128_3_0_0
abbrev r7_o4 : Rect S8x512x128 := Rect.unit (s := S8x512x128) ![4, 0, 0] S1x512x128.size inb_S8x512x128_S1x512x128_4_0_0
abbrev r7_o5 : Rect S8x512x128 := Rect.unit (s := S8x512x128) ![5, 0, 0] S1x512x128.size inb_S8x512x128_S1x512x128_5_0_0
abbrev r7_o6 : Rect S8x512x128 := Rect.unit (s := S8x512x128) ![6, 0, 0] S1x512x128.size inb_S8x512x128_S1x512x128_6_0_0
abbrev r7_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab7_0 (p : Fin 32 → Vec F S512x128 .f32) (wt : Vec F S8x128x128 .f32) (bs : Vec F S8x128 .f32) : Vec F S1x512x128 .f32 :=
  k7_pay1 (View.ld (p 0) r7_p) (View.ld (p 1) r7_p) (View.ld (p 2) r7_p) (View.ld (p 3) r7_p) (View.ld wt r7_w0) (View.ld bs r7_b0)
def slab7_1 (p : Fin 32 → Vec F S512x128 .f32) (wt : Vec F S8x128x128 .f32) (bs : Vec F S8x128 .f32) : Vec F S1x512x128 .f32 :=
  k7_pay3 (k7_pay2 (View.ld (p 4) r7_p) (View.ld (p 5) r7_p) (View.ld (p 6) r7_p)) (View.ld (p 7) r7_p) (View.ld wt r7_w1) (View.ld bs r7_b1)
def slab7_2 (p : Fin 32 → Vec F S512x128 .f32) (wt : Vec F S8x128x128 .f32) (bs : Vec F S8x128 .f32) : Vec F S1x512x128 .f32 :=
  k7_pay7 (k7_pay4 (View.ld (p 8) r7_p) (View.ld (p 9) r7_p) (View.ld (p 10) r7_p) (View.ld (p 11) r7_p)) (k7_pay5 (View.ld wt r7_w2)) (k7_pay6 (View.ld bs r7_b2))
def slab7_3 (p : Fin 32 → Vec F S512x128 .f32) (wt : Vec F S8x128x128 .f32) (bs : Vec F S8x128 .f32) : Vec F S1x512x128 .f32 :=
  k7_pay8 (View.ld (p 12) r7_p) (View.ld (p 13) r7_p) (View.ld (p 14) r7_p) (View.ld (p 15) r7_p) (View.ld wt r7_w3) (View.ld bs r7_b3)
def slab7_4 (p : Fin 32 → Vec F S512x128 .f32) (wt : Vec F S8x128x128 .f32) (bs : Vec F S8x128 .f32) : Vec F S1x512x128 .f32 :=
  k7_pay9 (View.ld (p 16) r7_p) (View.ld (p 17) r7_p) (View.ld (p 18) r7_p) (View.ld (p 19) r7_p) (View.ld wt r7_w4) (View.ld bs r7_b4)
def slab7_5 (p : Fin 32 → Vec F S512x128 .f32) (wt : Vec F S8x128x128 .f32) (bs : Vec F S8x128 .f32) : Vec F S1x512x128 .f32 :=
  k7_pay11 (k7_pay10 (View.ld (p 20) r7_p) (View.ld (p 21) r7_p) (View.ld (p 22) r7_p)) (View.ld (p 23) r7_p) (View.ld wt r7_w5) (View.ld bs r7_b5)
def slab7_6 (p : Fin 32 → Vec F S512x128 .f32) (wt : Vec F S8x128x128 .f32) (bs : Vec F S8x128 .f32) : Vec F S1x512x128 .f32 :=
  k7_pay15 (k7_pay12 (View.ld (p 24) r7_p) (View.ld (p 25) r7_p) (View.ld (p 26) r7_p) (View.ld (p 27) r7_p)) (k7_pay13 (View.ld wt r7_w6)) (k7_pay14 (View.ld bs r7_b6))
def slab7_7 (p : Fin 32 → Vec F S512x128 .f32) (wt : Vec F S8x128x128 .f32) (bs : Vec F S8x128 .f32) : Vec F S1x512x128 .f32 :=
  k7_pay16 (View.ld (p 28) r7_p) (View.ld (p 29) r7_p) (View.ld (p 30) r7_p) (View.ld (p 31) r7_p) (View.ld wt r7_w7) (View.ld bs r7_b7)

/-- Window 34's staging buffer after the body, from the input windows' blocks: its 8 stores as pieces, LAST FIRST. -/
def out7_34 (p : Fin 32 → Vec F S512x128 .f32) (wt : Vec F S8x128x128 .f32) (bs : Vec F S8x128 .f32) : Vec F S8x512x128 .f32 :=
  View.canon [⟨r7_o7, slab7_7 p wt bs⟩, ⟨r7_o6, slab7_6 p wt bs⟩, ⟨r7_o5, slab7_5 p wt bs⟩, ⟨r7_o4, slab7_4 p wt bs⟩, ⟨r7_o3, slab7_3 p wt bs⟩, ⟨r7_o2, slab7_2 p wt bs⟩, ⟨r7_o1, slab7_1 p wt bs⟩, ⟨r7_o0, slab7_0 p wt bs⟩]

/-- The eight stores tile the buffer (checked by evaluation), so they cover it. -/
theorem cover7_34 (p0 p1 p2 p3 p4 p5 p6 p7 : Vec F S1x512x128 .f32) (y : S8x512x128.Idx) :
    ∃ pc ∈ ([⟨r7_o7, p7⟩, ⟨r7_o6, p6⟩, ⟨r7_o5, p5⟩, ⟨r7_o4, p4⟩, ⟨r7_o3, p3⟩, ⟨r7_o2, p2⟩, ⟨r7_o1, p1⟩, ⟨r7_o0, p0⟩] : List (View.Piece (Elt F) S8x512x128 .f32)), y ∈ pc.1.set :=
  View.cover_of_tiled [⟨r7_o7, p7⟩, ⟨r7_o6, p6⟩, ⟨r7_o5, p5⟩, ⟨r7_o4, p4⟩, ⟨r7_o3, p3⟩, ⟨r7_o2, p2⟩, ⟨r7_o1, p1⟩, ⟨r7_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out7_34` of the inputs': the printed
    functions are their skeletons, run through every part call; each slab's load of the output buffer before its store
    reads contents nothing uses. -/
theorem sound_kernel7 (c : Dev nD) (E : Set ℕ) (i : grid7.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out7_34 p wt bs)) -∗ K ⟨⟩))
      ⊢ wp frame (wpE (defs₀ (F := F)) Variants.none c none) E (cc7__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out7_34 slab7_0 slab7_1 slab7_2 slab7_3 slab7_4 slab7_5 slab7_6 slab7_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc7__group_kernel_eq_skeleton]; unfold cc7__group_kernel_skel
  simp only [k7_part1_eq_skeleton, k7_part2_eq_skeleton, k7_part3_eq_skeleton, k7_part4_eq_skeleton, k7_part5_eq_skeleton, k7_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover7_34 _ _ _ _ _ _ _ _)

/-! ## The pipeline's proof data -/

/-- The 32 parent blocks at point `t`, as one family: parent `j` of slab `k` is window `4k+j`. -/
def par7 (c : Dev nD) (t : Fin cfg7.N) : Fin 32 → Vec F S512x128 .f32 := fun j => match j with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => iblk7 V c 19 t
    | ⟨20, _⟩ => iblk7 V c 20 t
    | ⟨21, _⟩ => iblk7 V c 21 t
    | ⟨22, _⟩ => iblk7 V c 22 t
    | ⟨23, _⟩ => iblk7 V c 23 t
    | ⟨24, _⟩ => iblk7 V c 24 t
    | ⟨25, _⟩ => iblk7 V c 25 t
    | ⟨26, _⟩ => iblk7 V c 26 t
    | ⟨27, _⟩ => iblk7 V c 27 t
    | ⟨28, _⟩ => iblk7 V c 28 t
    | ⟨29, _⟩ => iblk7 V c 29 t
    | ⟨30, _⟩ => iblk7 V c 30 t
    | ⟨31, _⟩ => iblk7 V c 31 t
    | ⟨_ + 32, h⟩ => absurd h (Nat.not_lt.2 (Nat.le_add_left _ _))

/-- The family at a literal index (the `match` reduced by `dsimp`). -/
theorem par7_0 (c : Dev nD) (t : Fin cfg7.N) : par7 V c t 0 = iblk7 V c 0 t := by dsimp only [par7]
theorem par7_1 (c : Dev nD) (t : Fin cfg7.N) : par7 V c t 1 = iblk7 V c 1 t := by dsimp only [par7]
theorem par7_2 (c : Dev nD) (t : Fin cfg7.N) : par7 V c t 2 = iblk7 V c 2 t := by dsimp only [par7]
theorem par7_3 (c : Dev nD) (t : Fin cfg7.N) : par7 V c t 3 = iblk7 V c 3 t := by dsimp only [par7]
theorem par7_4 (c : Dev nD) (t : Fin cfg7.N) : par7 V c t 4 = iblk7 V c 4 t := by dsimp only [par7]
theorem par7_5 (c : Dev nD) (t : Fin cfg7.N) : par7 V c t 5 = iblk7 V c 5 t := by dsimp only [par7]
theorem par7_6 (c : Dev nD) (t : Fin cfg7.N) : par7 V c t 6 = iblk7 V c 6 t := by dsimp only [par7]
theorem par7_7 (c : Dev nD) (t : Fin cfg7.N) : par7 V c t 7 = iblk7 V c 7 t := by dsimp only [par7]
theorem par7_8 (c : Dev nD) (t : Fin cfg7.N) : par7 V c t 8 = iblk7 V c 8 t := by dsimp only [par7]
theorem par7_9 (c : Dev nD) (t : Fin cfg7.N) : par7 V c t 9 = iblk7 V c 9 t := by dsimp only [par7]
theorem par7_10 (c : Dev nD) (t : Fin cfg7.N) : par7 V c t 10 = iblk7 V c 10 t := by dsimp only [par7]
theorem par7_11 (c : Dev nD) (t : Fin cfg7.N) : par7 V c t 11 = iblk7 V c 11 t := by dsimp only [par7]
theorem par7_12 (c : Dev nD) (t : Fin cfg7.N) : par7 V c t 12 = iblk7 V c 12 t := by dsimp only [par7]
theorem par7_13 (c : Dev nD) (t : Fin cfg7.N) : par7 V c t 13 = iblk7 V c 13 t := by dsimp only [par7]
theorem par7_14 (c : Dev nD) (t : Fin cfg7.N) : par7 V c t 14 = iblk7 V c 14 t := by dsimp only [par7]
theorem par7_15 (c : Dev nD) (t : Fin cfg7.N) : par7 V c t 15 = iblk7 V c 15 t := by dsimp only [par7]
theorem par7_16 (c : Dev nD) (t : Fin cfg7.N) : par7 V c t 16 = iblk7 V c 16 t := by dsimp only [par7]
theorem par7_17 (c : Dev nD) (t : Fin cfg7.N) : par7 V c t 17 = iblk7 V c 17 t := by dsimp only [par7]
theorem par7_18 (c : Dev nD) (t : Fin cfg7.N) : par7 V c t 18 = iblk7 V c 18 t := by dsimp only [par7]
theorem par7_19 (c : Dev nD) (t : Fin cfg7.N) : par7 V c t 19 = iblk7 V c 19 t := by dsimp only [par7]
theorem par7_20 (c : Dev nD) (t : Fin cfg7.N) : par7 V c t 20 = iblk7 V c 20 t := by dsimp only [par7]
theorem par7_21 (c : Dev nD) (t : Fin cfg7.N) : par7 V c t 21 = iblk7 V c 21 t := by dsimp only [par7]
theorem par7_22 (c : Dev nD) (t : Fin cfg7.N) : par7 V c t 22 = iblk7 V c 22 t := by dsimp only [par7]
theorem par7_23 (c : Dev nD) (t : Fin cfg7.N) : par7 V c t 23 = iblk7 V c 23 t := by dsimp only [par7]
theorem par7_24 (c : Dev nD) (t : Fin cfg7.N) : par7 V c t 24 = iblk7 V c 24 t := by dsimp only [par7]
theorem par7_25 (c : Dev nD) (t : Fin cfg7.N) : par7 V c t 25 = iblk7 V c 25 t := by dsimp only [par7]
theorem par7_26 (c : Dev nD) (t : Fin cfg7.N) : par7 V c t 26 = iblk7 V c 26 t := by dsimp only [par7]
theorem par7_27 (c : Dev nD) (t : Fin cfg7.N) : par7 V c t 27 = iblk7 V c 27 t := by dsimp only [par7]
theorem par7_28 (c : Dev nD) (t : Fin cfg7.N) : par7 V c t 28 = iblk7 V c 28 t := by dsimp only [par7]
theorem par7_29 (c : Dev nD) (t : Fin cfg7.N) : par7 V c t 29 = iblk7 V c 29 t := by dsimp only [par7]
theorem par7_30 (c : Dev nD) (t : Fin cfg7.N) : par7 V c t 30 = iblk7 V c 30 t := by dsimp only [par7]
theorem par7_31 (c : Dev nD) (t : Fin cfg7.N) : par7 V c t 31 = iblk7 V c 31 t := by dsimp only [par7]

/-- The proof data of pipeline 7 on core `c`: the arrays as the region finds them (`V`); after the body at point `t`
    each input's buffer at its block and the output's at `out7_34` of the input blocks; the invariant the scoped rest
    and the generator register, untouched; nothing owed; of each windowed array the share its window holds when
    several windows read one array. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => iblk7 V c 14 t
    | ⟨15, _⟩ => iblk7 V c 15 t
    | ⟨16, _⟩ => iblk7 V c 16 t
    | ⟨17, _⟩ => iblk7 V c 17 t
    | ⟨18, _⟩ => iblk7 V c 18 t
    | ⟨19, _⟩ => iblk7 V c 19 t
    | ⟨20, _⟩ => iblk7 V c 20 t
    | ⟨21, _⟩ => iblk7 V c 21 t
    | ⟨22, _⟩ => iblk7 V c 22 t
    | ⟨23, _⟩ => iblk7 V c 23 t
    | ⟨24, _⟩ => iblk7 V c 24 t
    | ⟨25, _⟩ => iblk7 V c 25 t
    | ⟨26, _⟩ => iblk7 V c 26 t
    | ⟨27, _⟩ => iblk7 V c 27 t
    | ⟨28, _⟩ => iblk7 V c 28 t
    | ⟨29, _⟩ => iblk7 V c 29 t
    | ⟨30, _⟩ => iblk7 V c 30 t
    | ⟨31, _⟩ => iblk7 V c 31 t
    | ⟨32, _⟩ => iblk7 V c 32 t
    | ⟨33, _⟩ => iblk7 V c 33 t
    | ⟨34, _⟩ => out7_34 (par7 V c t) (iblk7 V c 32 t) (iblk7 V c 33 t)
    | ⟨_ + 35, h⟩ => absurd h (Nat.not_lt.2 (Nat.le_add_left _ _))
  Φ _ := Pipeline.ΦA spec7 c
  q w := Cert.Lib.SharedArrays.shareOf (Pipeline.arrRef spec7) w
  owed _ := 0

/-- The proof data's arrays are the region-entry contents. -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = iblk7 V c 14 t := by dsimp only [dat7]
theorem after7_15 (c : Dev nD) (t : Fin cfg7.N) : (dat7 V c).after 15 t = iblk7 V c 15 t := by dsimp only [dat7]
theorem after7_16 (c : Dev nD) (t : Fin cfg7.N) : (dat7 V c).after 16 t = iblk7 V c 16 t := by dsimp only [dat7]
theorem after7_17 (c : Dev nD) (t : Fin cfg7.N) : (dat7 V c).after 17 t = iblk7 V c 17 t := by dsimp only [dat7]
theorem after7_18 (c : Dev nD) (t : Fin cfg7.N) : (dat7 V c).after 18 t = iblk7 V c 18 t := by dsimp only [dat7]
theorem after7_19 (c : Dev nD) (t : Fin cfg7.N) : (dat7 V c).after 19 t = iblk7 V c 19 t := by dsimp only [dat7]
theorem after7_20 (c : Dev nD) (t : Fin cfg7.N) : (dat7 V c).after 20 t = iblk7 V c 20 t := by dsimp only [dat7]
theorem after7_21 (c : Dev nD) (t : Fin cfg7.N) : (dat7 V c).after 21 t = iblk7 V c 21 t := by dsimp only [dat7]
theorem after7_22 (c : Dev nD) (t : Fin cfg7.N) : (dat7 V c).after 22 t = iblk7 V c 22 t := by dsimp only [dat7]
theorem after7_23 (c : Dev nD) (t : Fin cfg7.N) : (dat7 V c).after 23 t = iblk7 V c 23 t := by dsimp only [dat7]
theorem after7_24 (c : Dev nD) (t : Fin cfg7.N) : (dat7 V c).after 24 t = iblk7 V c 24 t := by dsimp only [dat7]
theorem after7_25 (c : Dev nD) (t : Fin cfg7.N) : (dat7 V c).after 25 t = iblk7 V c 25 t := by dsimp only [dat7]
theorem after7_26 (c : Dev nD) (t : Fin cfg7.N) : (dat7 V c).after 26 t = iblk7 V c 26 t := by dsimp only [dat7]
theorem after7_27 (c : Dev nD) (t : Fin cfg7.N) : (dat7 V c).after 27 t = iblk7 V c 27 t := by dsimp only [dat7]
theorem after7_28 (c : Dev nD) (t : Fin cfg7.N) : (dat7 V c).after 28 t = iblk7 V c 28 t := by dsimp only [dat7]
theorem after7_29 (c : Dev nD) (t : Fin cfg7.N) : (dat7 V c).after 29 t = iblk7 V c 29 t := by dsimp only [dat7]
theorem after7_30 (c : Dev nD) (t : Fin cfg7.N) : (dat7 V c).after 30 t = iblk7 V c 30 t := by dsimp only [dat7]
theorem after7_31 (c : Dev nD) (t : Fin cfg7.N) : (dat7 V c).after 31 t = iblk7 V c 31 t := by dsimp only [dat7]
theorem after7_32 (c : Dev nD) (t : Fin cfg7.N) : (dat7 V c).after 32 t = iblk7 V c 32 t := by dsimp only [dat7]
theorem after7_33 (c : Dev nD) (t : Fin cfg7.N) : (dat7 V c).after 33 t = iblk7 V c 33 t := by dsimp only [dat7]
theorem after7_34 (c : Dev nD) (t : Fin cfg7.N) :
    (dat7 V c).after 34 t = out7_34 (par7 V c t) (iblk7 V c 32 t) (iblk7 V c 33 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d
theorem before7_11 (c : Dev nD) (t : Fin cfg7.N) (d) : (dat7 V c).before 11 t d = iblk7 V c 11 t :=
  before7_11_of V (dat7 V c) (A_eq7 V c 11) (after7_11 V c) t d
theorem before7_12 (c : Dev nD) (t : Fin cfg7.N) (d) : (dat7 V c).before 12 t d = iblk7 V c 12 t :=
  before7_12_of V (dat7 V c) (A_eq7 V c 12) (after7_12 V c) t d
theorem before7_13 (c : Dev nD) (t : Fin cfg7.N) (d) : (dat7 V c).before 13 t d = iblk7 V c 13 t :=
  before7_13_of V (dat7 V c) (A_eq7 V c 13) (after7_13 V c) t d
theorem before7_14 (c : Dev nD) (t : Fin cfg7.N) (d) : (dat7 V c).before 14 t d = iblk7 V c 14 t :=
  before7_14_of V (dat7 V c) (A_eq7 V c 14) (after7_14 V c) t d
theorem before7_15 (c : Dev nD) (t : Fin cfg7.N) (d) : (dat7 V c).before 15 t d = iblk7 V c 15 t :=
  before7_15_of V (dat7 V c) (A_eq7 V c 15) (after7_15 V c) t d
theorem before7_16 (c : Dev nD) (t : Fin cfg7.N) (d) : (dat7 V c).before 16 t d = iblk7 V c 16 t :=
  before7_16_of V (dat7 V c) (A_eq7 V c 16) (after7_16 V c) t d
theorem before7_17 (c : Dev nD) (t : Fin cfg7.N) (d) : (dat7 V c).before 17 t d = iblk7 V c 17 t :=
  before7_17_of V (dat7 V c) (A_eq7 V c 17) (after7_17 V c) t d
theorem before7_18 (c : Dev nD) (t : Fin cfg7.N) (d) : (dat7 V c).before 18 t d = iblk7 V c 18 t :=
  before7_18_of V (dat7 V c) (A_eq7 V c 18) (after7_18 V c) t d
theorem before7_19 (c : Dev nD) (t : Fin cfg7.N) (d) : (dat7 V c).before 19 t d = iblk7 V c 19 t :=
  before7_19_of V (dat7 V c) (A_eq7 V c 19) (after7_19 V c) t d
theorem before7_20 (c : Dev nD) (t : Fin cfg7.N) (d) : (dat7 V c).before 20 t d = iblk7 V c 20 t :=
  before7_20_of V (dat7 V c) (A_eq7 V c 20) (after7_20 V c) t d
theorem before7_21 (c : Dev nD) (t : Fin cfg7.N) (d) : (dat7 V c).before 21 t d = iblk7 V c 21 t :=
  before7_21_of V (dat7 V c) (A_eq7 V c 21) (after7_21 V c) t d
theorem before7_22 (c : Dev nD) (t : Fin cfg7.N) (d) : (dat7 V c).before 22 t d = iblk7 V c 22 t :=
  before7_22_of V (dat7 V c) (A_eq7 V c 22) (after7_22 V c) t d
theorem before7_23 (c : Dev nD) (t : Fin cfg7.N) (d) : (dat7 V c).before 23 t d = iblk7 V c 23 t :=
  before7_23_of V (dat7 V c) (A_eq7 V c 23) (after7_23 V c) t d
theorem before7_24 (c : Dev nD) (t : Fin cfg7.N) (d) : (dat7 V c).before 24 t d = iblk7 V c 24 t :=
  before7_24_of V (dat7 V c) (A_eq7 V c 24) (after7_24 V c) t d
theorem before7_25 (c : Dev nD) (t : Fin cfg7.N) (d) : (dat7 V c).before 25 t d = iblk7 V c 25 t :=
  before7_25_of V (dat7 V c) (A_eq7 V c 25) (after7_25 V c) t d
theorem before7_26 (c : Dev nD) (t : Fin cfg7.N) (d) : (dat7 V c).before 26 t d = iblk7 V c 26 t :=
  before7_26_of V (dat7 V c) (A_eq7 V c 26) (after7_26 V c) t d
theorem before7_27 (c : Dev nD) (t : Fin cfg7.N) (d) : (dat7 V c).before 27 t d = iblk7 V c 27 t :=
  before7_27_of V (dat7 V c) (A_eq7 V c 27) (after7_27 V c) t d
theorem before7_28 (c : Dev nD) (t : Fin cfg7.N) (d) : (dat7 V c).before 28 t d = iblk7 V c 28 t :=
  before7_28_of V (dat7 V c) (A_eq7 V c 28) (after7_28 V c) t d
theorem before7_29 (c : Dev nD) (t : Fin cfg7.N) (d) : (dat7 V c).before 29 t d = iblk7 V c 29 t :=
  before7_29_of V (dat7 V c) (A_eq7 V c 29) (after7_29 V c) t d
theorem before7_30 (c : Dev nD) (t : Fin cfg7.N) (d) : (dat7 V c).before 30 t d = iblk7 V c 30 t :=
  before7_30_of V (dat7 V c) (A_eq7 V c 30) (after7_30 V c) t d
theorem before7_31 (c : Dev nD) (t : Fin cfg7.N) (d) : (dat7 V c).before 31 t d = iblk7 V c 31 t :=
  before7_31_of V (dat7 V c) (A_eq7 V c 31) (after7_31 V c) t d
theorem before7_32 (c : Dev nD) (t : Fin cfg7.N) (d) : (dat7 V c).before 32 t d = iblk7 V c 32 t :=
  before7_32_of V (dat7 V c) (A_eq7 V c 32) (after7_32 V c) t d
theorem before7_33 (c : Dev nD) (t : Fin cfg7.N) (d) : (dat7 V c).before 33 t d = iblk7 V c 33 t :=
  before7_33_of V (dat7 V c) (A_eq7 V c 33) (after7_33 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d))
    ∗ (∃ d, owns (c : Thread nD τ) (st7_15 t) fullShare ((dat7 V c).before 15 t d))
    ∗ (∃ d, owns (c : Thread nD τ) (st7_16 t) fullShare ((dat7 V c).before 16 t d))
    ∗ (∃ d, owns (c : Thread nD τ) (st7_17 t) fullShare ((dat7 V c).before 17 t d))
    ∗ (∃ d, owns (c : Thread nD τ) (st7_18 t) fullShare ((dat7 V c).before 18 t d))
    ∗ (∃ d, owns (c : Thread nD τ) (st7_19 t) fullShare ((dat7 V c).before 19 t d))
    ∗ (∃ d, owns (c : Thread nD τ) (st7_20 t) fullShare ((dat7 V c).before 20 t d))
    ∗ (∃ d, owns (c : Thread nD τ) (st7_21 t) fullShare ((dat7 V c).before 21 t d))
    ∗ (∃ d, owns (c : Thread nD τ) (st7_22 t) fullShare ((dat7 V c).before 22 t d))
    ∗ (∃ d, owns (c : Thread nD τ) (st7_23 t) fullShare ((dat7 V c).before 23 t d))
    ∗ (∃ d, owns (c : Thread nD τ) (st7_24 t) fullShare ((dat7 V c).before 24 t d))
    ∗ (∃ d, owns (c : Thread nD τ) (st7_25 t) fullShare ((dat7 V c).before 25 t d))
    ∗ (∃ d, owns (c : Thread nD τ) (st7_26 t) fullShare ((dat7 V c).before 26 t d))
    ∗ (∃ d, owns (c : Thread nD τ) (st7_27 t) fullShare ((dat7 V c).before 27 t d))
    ∗ (∃ d, owns (c : Thread nD τ) (st7_28 t) fullShare ((dat7 V c).before 28 t d))
    ∗ (∃ d, owns (c : Thread nD τ) (st7_29 t) fullShare ((dat7 V c).before 29 t d))
    ∗ (∃ d, owns (c : Thread nD τ) (st7_30 t) fullShare ((dat7 V c).before 30 t d))
    ∗ (∃ d, owns (c : Thread nD τ) (st7_31 t) fullShare ((dat7 V c).before 31 t d))
    ∗ (∃ d, owns (c : Thread nD τ) (st7_32 t) fullShare ((dat7 V c).before 32 t d))
    ∗ (∃ d, owns (c : Thread nD τ) (st7_33 t) fullShare ((dat7 V c).before 33 t d))
    ∗ (∃ d, owns (c : Thread nD τ) (st7_34 t) fullShare ((dat7 V c).before 34 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t)
    ∗ owns (c : Thread nD τ) (st7_15 t) fullShare ((dat7 V c).after 15 t)
    ∗ owns (c : Thread nD τ) (st7_16 t) fullShare ((dat7 V c).after 16 t)
    ∗ owns (c : Thread nD τ) (st7_17 t) fullShare ((dat7 V c).after 17 t)
    ∗ owns (c : Thread nD τ) (st7_18 t) fullShare ((dat7 V c).after 18 t)
    ∗ owns (c : Thread nD τ) (st7_19 t) fullShare ((dat7 V c).after 19 t)
    ∗ owns (c : Thread nD τ) (st7_20 t) fullShare ((dat7 V c).after 20 t)
    ∗ owns (c : Thread nD τ) (st7_21 t) fullShare ((dat7 V c).after 21 t)
    ∗ owns (c : Thread nD τ) (st7_22 t) fullShare ((dat7 V c).after 22 t)
    ∗ owns (c : Thread nD τ) (st7_23 t) fullShare ((dat7 V c).after 23 t)
    ∗ owns (c : Thread nD τ) (st7_24 t) fullShare ((dat7 V c).after 24 t)
    ∗ owns (c : Thread nD τ) (st7_25 t) fullShare ((dat7 V c).after 25 t)
    ∗ owns (c : Thread nD τ) (st7_26 t) fullShare ((dat7 V c).after 26 t)
    ∗ owns (c : Thread nD τ) (st7_27 t) fullShare ((dat7 V c).after 27 t)
    ∗ owns (c : Thread nD τ) (st7_28 t) fullShare ((dat7 V c).after 28 t)
    ∗ owns (c : Thread nD τ) (st7_29 t) fullShare ((dat7 V c).after 29 t)
    ∗ owns (c : Thread nD τ) (st7_30 t) fullShare ((dat7 V c).after 30 t)
    ∗ owns (c : Thread nD τ) (st7_31 t) fullShare ((dat7 V c).after 31 t)
    ∗ owns (c : Thread nD τ) (st7_32 t) fullShare ((dat7 V c).after 32 t)
    ∗ owns (c : Thread nD τ) (st7_33 t) fullShare ((dat7 V c).after 33 t)
    ∗ owns (c : Thread nD τ) (st7_34 t) fullShare ((dat7 V c).after 34 t))

set_option maxHeartbeats 4000000 in
/-- The body at any point: the inputs' memrefs hold their blocks (`before7_W`), so `sound_kernel7` applies; the invariant
    and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10, before7_11, before7_12, before7_13, before7_14, before7_15, before7_16, before7_17, before7_18, before7_19, before7_20, before7_21, before7_22, before7_23, before7_24, before7_25, before7_26, before7_27, before7_28, before7_29, before7_30, before7_31, before7_32, before7_33]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12, after7_13, after7_14, after7_15, after7_16, after7_17, after7_18, after7_19, after7_20, after7_21, after7_22, after7_23, after7_24, after7_25, after7_26, after7_27, after7_28, after7_29, after7_30, after7_31, after7_32, after7_33, after7_34]
  have hk := fun K => sound_kernel7 (F := F) c Set.univ (grid7.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) _ (hstage7_4 ((cfg7.slots t 4).cast nbuf7_4)) _ (hstage7_5 ((cfg7.slots t 5).cast nbuf7_5)) _ (hstage7_6 ((cfg7.slots t 6).cast nbuf7_6)) _ (hstage7_7 ((cfg7.slots t 7).cast nbuf7_7)) _ (hstage7_8 ((cfg7.slots t 8).cast nbuf7_8)) _ (hstage7_9 ((cfg7.slots t 9).cast nbuf7_9)) _ (hstage7_10 ((cfg7.slots t 10).cast nbuf7_10)) _ (hstage7_11 ((cfg7.slots t 11).cast nbuf7_11)) _ (hstage7_12 ((cfg7.slots t 12).cast nbuf7_12)) _ (hstage7_13 ((cfg7.slots t 13).cast nbuf7_13)) _ (hstage7_14 ((cfg7.slots t 14).cast nbuf7_14)) _ (hstage7_15 ((cfg7.slots t 15).cast nbuf7_15)) _ (hstage7_16 ((cfg7.slots t 16).cast nbuf7_16)) _ (hstage7_17 ((cfg7.slots t 17).cast nbuf7_17)) _ (hstage7_18 ((cfg7.slots t 18).cast nbuf7_18)) _ (hstage7_19 ((cfg7.slots t 19).cast nbuf7_19)) _ (hstage7_20 ((cfg7.slots t 20).cast nbuf7_20)) _ (hstage7_21 ((cfg7.slots t 21).cast nbuf7_21)) _ (hstage7_22 ((cfg7.slots t 22).cast nbuf7_22)) _ (hstage7_23 ((cfg7.slots t 23).cast nbuf7_23)) _ (hstage7_24 ((cfg7.slots t 24).cast nbuf7_24)) _ (hstage7_25 ((cfg7.slots t 25).cast nbuf7_25)) _ (hstage7_26 ((cfg7.slots t 26).cast nbuf7_26)) _ (hstage7_27 ((cfg7.slots t 27).cast nbuf7_27)) _ (hstage7_28 ((cfg7.slots t 28).cast nbuf7_28)) _ (hstage7_29 ((cfg7.slots t 29).cast nbuf7_29)) _ (hstage7_30 ((cfg7.slots t 30).cast nbuf7_30)) _ (hstage7_31 ((cfg7.slots t 31).cast nbuf7_31)) _ (hstage7_32 ((cfg7.slots t 32).cast nbuf7_32)) _ (hstage7_33 ((cfg7.slots t 33).cast nbuf7_33)) _ (hstage7_34 ((cfg7.slots t 34).cast nbuf7_34))
    (par7 V c t) (iblk7 V c 32 t) (iblk7 V c 33 t) K
  simp only [par7_0, par7_1, par7_2, par7_3, par7_4, par7_5, par7_6, par7_7, par7_8, par7_9, par7_10, par7_11, par7_12, par7_13, par7_14, par7_15, par7_16, par7_17, par7_18, par7_19, par7_20, par7_21, par7_22, par7_23, par7_24, par7_25, par7_26, par7_27, par7_28, par7_29, par7_30, par7_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
/- Region 8 of the kernel program (pipeline 8, `cc8__group_kernel`), at a parameter `V` — the TensorCore's buffer
   contents when the region is entered —, for any float model `F`. The pipeline has 35 windows: 32 parent blocks
   [512,128] (window 4k+j is parent j of output slab k), the weight slice [8,128,128] and the bias slice [8,128] (both
   fetched at the first point only and kept), and the output block [8,512,128], which the body fills by eight stores,
   one slab each. Proved here: each input window's staging buffer holds its block at every point; what the eight
   stores leave in the output's staging buffer as a closed form of the input blocks (`out8_34`); the body's triple; the
   pipeline's proof data (`dat8`), whose shares of the windowed arrays are those of arrays read through several
   windows; and the body obligation at every point. -/
import proofs.«135270_j33062658245245_1_alg».proof.Proof.KI.LaunchP
import proofs.«135270_j33062658245245_1_alg».proof.Proof.Gen.KernelIdeal.Skeleton
import proofs.«135270_j33062658245245_1_alg».proof.Proof.Gen.KernelIdeal.Points
import proofs.«135270_j33062658245245_1_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 8: custom_call 8, `cc8__group_kernel` (pipeline 8), at the entry contents `V` -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point, fetched there or not, for ANY proof
    data whose array is `V`'s (`hA`) and whose body leaves the block in place (`hafter`): unfetched, the block index
    has not moved since the point before, so the block kept is this point's block (windows 32 and 33, fetched at the
    first point only, have a constant index); every window is uncut and never idle. One lemma per input window: the
    statement's types reduce only at a literal window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)
theorem before8_14_of {c : Dev nD} (dat : Dat τ (Elt F) Unit ℕ (UR sig nD τ) ℕ cfg8 c) (hA : dat.A 14 = V c (Pipeline.arrRef spec8 14))
    (hafter : ∀ t, dat.after 14 t = iblk8 V c 14 t) (t : Fin cfg8.N) (d) : dat.before 14 t d = iblk8 V c 14 t :=
  (dat.before_in_eq_fetched 14 rfl (fun _ => rfl) (fun _ _ _ => rfl) (fun t => by rw [hafter]; unfold Dat.blockOf iblk8; rw [hA]; try rfl) t d).trans
    (by unfold Dat.fetched Dat.blockOf iblk8; rw [hA]; try rfl)
theorem before8_15_of {c : Dev nD} (dat : Dat τ (Elt F) Unit ℕ (UR sig nD τ) ℕ cfg8 c) (hA : dat.A 15 = V c (Pipeline.arrRef spec8 15))
    (hafter : ∀ t, dat.after 15 t = iblk8 V c 15 t) (t : Fin cfg8.N) (d) : dat.before 15 t d = iblk8 V c 15 t :=
  (dat.before_in_eq_fetched 15 rfl (fun _ => rfl) (fun _ _ _ => rfl) (fun t => by rw [hafter]; unfold Dat.blockOf iblk8; rw [hA]; try rfl) t d).trans
    (by unfold Dat.fetched Dat.blockOf iblk8; rw [hA]; try rfl)
theorem before8_16_of {c : Dev nD} (dat : Dat τ (Elt F) Unit ℕ (UR sig nD τ) ℕ cfg8 c) (hA : dat.A 16 = V c (Pipeline.arrRef spec8 16))
    (hafter : ∀ t, dat.after 16 t = iblk8 V c 16 t) (t : Fin cfg8.N) (d) : dat.before 16 t d = iblk8 V c 16 t :=
  (dat.before_in_eq_fetched 16 rfl (fun _ => rfl) (fun _ _ _ => rfl) (fun t => by rw [hafter]; unfold Dat.blockOf iblk8; rw [hA]; try rfl) t d).trans
    (by unfold Dat.fetched Dat.blockOf iblk8; rw [hA]; try rfl)
theorem before8_17_of {c : Dev nD} (dat : Dat τ (Elt F) Unit ℕ (UR sig nD τ) ℕ cfg8 c) (hA : dat.A 17 = V c (Pipeline.arrRef spec8 17))
    (hafter : ∀ t, dat.after 17 t = iblk8 V c 17 t) (t : Fin cfg8.N) (d) : dat.before 17 t d = iblk8 V c 17 t :=
  (dat.before_in_eq_fetched 17 rfl (fun _ => rfl) (fun _ _ _ => rfl) (fun t => by rw [hafter]; unfold Dat.blockOf iblk8; rw [hA]; try rfl) t d).trans
    (by unfold Dat.fetched Dat.blockOf iblk8; rw [hA]; try rfl)
theorem before8_18_of {c : Dev nD} (dat : Dat τ (Elt F) Unit ℕ (UR sig nD τ) ℕ cfg8 c) (hA : dat.A 18 = V c (Pipeline.arrRef spec8 18))
    (hafter : ∀ t, dat.after 18 t = iblk8 V c 18 t) (t : Fin cfg8.N) (d) : dat.before 18 t d = iblk8 V c 18 t :=
  (dat.before_in_eq_fetched 18 rfl (fun _ => rfl) (fun _ _ _ => rfl) (fun t => by rw [hafter]; unfold Dat.blockOf iblk8; rw [hA]; try rfl) t d).trans
    (by unfold Dat.fetched Dat.blockOf iblk8; rw [hA]; try rfl)
theorem before8_19_of {c : Dev nD} (dat : Dat τ (Elt F) Unit ℕ (UR sig nD τ) ℕ cfg8 c) (hA : dat.A 19 = V c (Pipeline.arrRef spec8 19))
    (hafter : ∀ t, dat.after 19 t = iblk8 V c 19 t) (t : Fin cfg8.N) (d) : dat.before 19 t d = iblk8 V c 19 t :=
  (dat.before_in_eq_fetched 19 rfl (fun _ => rfl) (fun _ _ _ => rfl) (fun t => by rw [hafter]; unfold Dat.blockOf iblk8; rw [hA]; try rfl) t d).trans
    (by unfold Dat.fetched Dat.blockOf iblk8; rw [hA]; try rfl)
theorem before8_20_of {c : Dev nD} (dat : Dat τ (Elt F) Unit ℕ (UR sig nD τ) ℕ cfg8 c) (hA : dat.A 20 = V c (Pipeline.arrRef spec8 20))
    (hafter : ∀ t, dat.after 20 t = iblk8 V c 20 t) (t : Fin cfg8.N) (d) : dat.before 20 t d = iblk8 V c 20 t :=
  (dat.before_in_eq_fetched 20 rfl (fun _ => rfl) (fun _ _ _ => rfl) (fun t => by rw [hafter]; unfold Dat.blockOf iblk8; rw [hA]; try rfl) t d).trans
    (by unfold Dat.fetched Dat.blockOf iblk8; rw [hA]; try rfl)
theorem before8_21_of {c : Dev nD} (dat : Dat τ (Elt F) Unit ℕ (UR sig nD τ) ℕ cfg8 c) (hA : dat.A 21 = V c (Pipeline.arrRef spec8 21))
    (hafter : ∀ t, dat.after 21 t = iblk8 V c 21 t) (t : Fin cfg8.N) (d) : dat.before 21 t d = iblk8 V c 21 t :=
  (dat.before_in_eq_fetched 21 rfl (fun _ => rfl) (fun _ _ _ => rfl) (fun t => by rw [hafter]; unfold Dat.blockOf iblk8; rw [hA]; try rfl) t d).trans
    (by unfold Dat.fetched Dat.blockOf iblk8; rw [hA]; try rfl)
theorem before8_22_of {c : Dev nD} (dat : Dat τ (Elt F) Unit ℕ (UR sig nD τ) ℕ cfg8 c) (hA : dat.A 22 = V c (Pipeline.arrRef spec8 22))
    (hafter : ∀ t, dat.after 22 t = iblk8 V c 22 t) (t : Fin cfg8.N) (d) : dat.before 22 t d = iblk8 V c 22 t :=
  (dat.before_in_eq_fetched 22 rfl (fun _ => rfl) (fun _ _ _ => rfl) (fun t => by rw [hafter]; unfold Dat.blockOf iblk8; rw [hA]; try rfl) t d).trans
    (by unfold Dat.fetched Dat.blockOf iblk8; rw [hA]; try rfl)
theorem before8_23_of {c : Dev nD} (dat : Dat τ (Elt F) Unit ℕ (UR sig nD τ) ℕ cfg8 c) (hA : dat.A 23 = V c (Pipeline.arrRef spec8 23))
    (hafter : ∀ t, dat.after 23 t = iblk8 V c 23 t) (t : Fin cfg8.N) (d) : dat.before 23 t d = iblk8 V c 23 t :=
  (dat.before_in_eq_fetched 23 rfl (fun _ => rfl) (fun _ _ _ => rfl) (fun t => by rw [hafter]; unfold Dat.blockOf iblk8; rw [hA]; try rfl) t d).trans
    (by unfold Dat.fetched Dat.blockOf iblk8; rw [hA]; try rfl)
theorem before8_24_of {c : Dev nD} (dat : Dat τ (Elt F) Unit ℕ (UR sig nD τ) ℕ cfg8 c) (hA : dat.A 24 = V c (Pipeline.arrRef spec8 24))
    (hafter : ∀ t, dat.after 24 t = iblk8 V c 24 t) (t : Fin cfg8.N) (d) : dat.before 24 t d = iblk8 V c 24 t :=
  (dat.before_in_eq_fetched 24 rfl (fun _ => rfl) (fun _ _ _ => rfl) (fun t => by rw [hafter]; unfold Dat.blockOf iblk8; rw [hA]; try rfl) t d).trans
    (by unfold Dat.fetched Dat.blockOf iblk8; rw [hA]; try rfl)
theorem before8_25_of {c : Dev nD} (dat : Dat τ (Elt F) Unit ℕ (UR sig nD τ) ℕ cfg8 c) (hA : dat.A 25 = V c (Pipeline.arrRef spec8 25))
    (hafter : ∀ t, dat.after 25 t = iblk8 V c 25 t) (t : Fin cfg8.N) (d) : dat.before 25 t d = iblk8 V c 25 t :=
  (dat.before_in_eq_fetched 25 rfl (fun _ => rfl) (fun _ _ _ => rfl) (fun t => by rw [hafter]; unfold Dat.blockOf iblk8; rw [hA]; try rfl) t d).trans
    (by unfold Dat.fetched Dat.blockOf iblk8; rw [hA]; try rfl)
theorem before8_26_of {c : Dev nD} (dat : Dat τ (Elt F) Unit ℕ (UR sig nD τ) ℕ cfg8 c) (hA : dat.A 26 = V c (Pipeline.arrRef spec8 26))
    (hafter : ∀ t, dat.after 26 t = iblk8 V c 26 t) (t : Fin cfg8.N) (d) : dat.before 26 t d = iblk8 V c 26 t :=
  (dat.before_in_eq_fetched 26 rfl (fun _ => rfl) (fun _ _ _ => rfl) (fun t => by rw [hafter]; unfold Dat.blockOf iblk8; rw [hA]; try rfl) t d).trans
    (by unfold Dat.fetched Dat.blockOf iblk8; rw [hA]; try rfl)
theorem before8_27_of {c : Dev nD} (dat : Dat τ (Elt F) Unit ℕ (UR sig nD τ) ℕ cfg8 c) (hA : dat.A 27 = V c (Pipeline.arrRef spec8 27))
    (hafter : ∀ t, dat.after 27 t = iblk8 V c 27 t) (t : Fin cfg8.N) (d) : dat.before 27 t d = iblk8 V c 27 t :=
  (dat.before_in_eq_fetched 27 rfl (fun _ => rfl) (fun _ _ _ => rfl) (fun t => by rw [hafter]; unfold Dat.blockOf iblk8; rw [hA]; try rfl) t d).trans
    (by unfold Dat.fetched Dat.blockOf iblk8; rw [hA]; try rfl)
theorem before8_28_of {c : Dev nD} (dat : Dat τ (Elt F) Unit ℕ (UR sig nD τ) ℕ cfg8 c) (hA : dat.A 28 = V c (Pipeline.arrRef spec8 28))
    (hafter : ∀ t, dat.after 28 t = iblk8 V c 28 t) (t : Fin cfg8.N) (d) : dat.before 28 t d = iblk8 V c 28 t :=
  (dat.before_in_eq_fetched 28 rfl (fun _ => rfl) (fun _ _ _ => rfl) (fun t => by rw [hafter]; unfold Dat.blockOf iblk8; rw [hA]; try rfl) t d).trans
    (by unfold Dat.fetched Dat.blockOf iblk8; rw [hA]; try rfl)
theorem before8_29_of {c : Dev nD} (dat : Dat τ (Elt F) Unit ℕ (UR sig nD τ) ℕ cfg8 c) (hA : dat.A 29 = V c (Pipeline.arrRef spec8 29))
    (hafter : ∀ t, dat.after 29 t = iblk8 V c 29 t) (t : Fin cfg8.N) (d) : dat.before 29 t d = iblk8 V c 29 t :=
  (dat.before_in_eq_fetched 29 rfl (fun _ => rfl) (fun _ _ _ => rfl) (fun t => by rw [hafter]; unfold Dat.blockOf iblk8; rw [hA]; try rfl) t d).trans
    (by unfold Dat.fetched Dat.blockOf iblk8; rw [hA]; try rfl)
theorem before8_30_of {c : Dev nD} (dat : Dat τ (Elt F) Unit ℕ (UR sig nD τ) ℕ cfg8 c) (hA : dat.A 30 = V c (Pipeline.arrRef spec8 30))
    (hafter : ∀ t, dat.after 30 t = iblk8 V c 30 t) (t : Fin cfg8.N) (d) : dat.before 30 t d = iblk8 V c 30 t :=
  (dat.before_in_eq_fetched 30 rfl (fun _ => rfl) (fun _ _ _ => rfl) (fun t => by rw [hafter]; unfold Dat.blockOf iblk8; rw [hA]; try rfl) t d).trans
    (by unfold Dat.fetched Dat.blockOf iblk8; rw [hA]; try rfl)
theorem before8_31_of {c : Dev nD} (dat : Dat τ (Elt F) Unit ℕ (UR sig nD τ) ℕ cfg8 c) (hA : dat.A 31 = V c (Pipeline.arrRef spec8 31))
    (hafter : ∀ t, dat.after 31 t = iblk8 V c 31 t) (t : Fin cfg8.N) (d) : dat.before 31 t d = iblk8 V c 31 t :=
  (dat.before_in_eq_fetched 31 rfl (fun _ => rfl) (fun _ _ _ => rfl) (fun t => by rw [hafter]; unfold Dat.blockOf iblk8; rw [hA]; try rfl) t d).trans
    (by unfold Dat.fetched Dat.blockOf iblk8; rw [hA]; try rfl)
theorem before8_32_of {c : Dev nD} (dat : Dat τ (Elt F) Unit ℕ (UR sig nD τ) ℕ cfg8 c) (hA : dat.A 32 = V c (Pipeline.arrRef spec8 32))
    (hafter : ∀ t, dat.after 32 t = iblk8 V c 32 t) (t : Fin cfg8.N) (d) : dat.before 32 t d = iblk8 V c 32 t :=
  (dat.before_in_eq_fetched 32 rfl (fun _ => rfl) (fun _ _ _ => rfl) (fun t => by rw [hafter]; unfold Dat.blockOf iblk8; rw [hA]; try rfl) t d).trans
    (by unfold Dat.fetched Dat.blockOf iblk8; rw [hA]; try rfl)
theorem before8_33_of {c : Dev nD} (dat : Dat τ (Elt F) Unit ℕ (UR sig nD τ) ℕ cfg8 c) (hA : dat.A 33 = V c (Pipeline.arrRef spec8 33))
    (hafter : ∀ t, dat.after 33 t = iblk8 V c 33 t) (t : Fin cfg8.N) (d) : dat.before 33 t d = iblk8 V c 33 t :=
  (dat.before_in_eq_fetched 33 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- A parent's whole block. -/
abbrev r8_p : Rect S512x128 := Rect.unit (s := S512x128) ![0, 0] S512x128.size inb_S512x128_S512x128_0_0
/-- Slab `k` of the weight slice, -/
abbrev r8_w0 : Rect S8x128x128 := Rect.unit (s := S8x128x128) ![0, 0, 0] S1x128x128.size inb_S8x128x128_S1x128x128_0_0_0
abbrev r8_w1 : Rect S8x128x128 := Rect.unit (s := S8x128x128) ![1, 0, 0] S1x128x128.size inb_S8x128x128_S1x128x128_1_0_0
abbrev r8_w2 : Rect S8x128x128 := Rect.unit (s := S8x128x128) ![2, 0, 0] S1x128x128.size inb_S8x128x128_S1x128x128_2_0_0
abbrev r8_w3 : Rect S8x128x128 := Rect.unit (s := S8x128x128) ![3, 0, 0] S1x128x128.size inb_S8x128x128_S1x128x128_3_0_0
abbrev r8_w4 : Rect S8x128x128 := Rect.unit (s := S8x128x128) ![4, 0, 0] S1x128x128.size inb_S8x128x128_S1x128x128_4_0_0
abbrev r8_w5 : Rect S8x128x128 := Rect.unit (s := S8x128x128) ![5, 0, 0] S1x128x128.size inb_S8x128x128_S1x128x128_5_0_0
abbrev r8_w6 : Rect S8x128x128 := Rect.unit (s := S8x128x128) ![6, 0, 0] S1x128x128.size inb_S8x128x128_S1x128x128_6_0_0
abbrev r8_w7 : Rect S8x128x128 := Rect.unit (s := S8x128x128) ![7, 0, 0] S1x128x128.size inb_S8x128x128_S1x128x128_7_0_0
/-- row `k` of the bias slice, -/
abbrev r8_b0 : Rect S8x128 := Rect.unit (s := S8x128) ![0, 0] S1x128.size inb_S8x128_S1x128_0_0
abbrev r8_b1 : Rect S8x128 := Rect.unit (s := S8x128) ![1, 0] S1x128.size inb_S8x128_S1x128_1_0
abbrev r8_b2 : Rect S8x128 := Rect.unit (s := S8x128) ![2, 0] S1x128.size inb_S8x128_S1x128_2_0
abbrev r8_b3 : Rect S8x128 := Rect.unit (s := S8x128) ![3, 0] S1x128.size inb_S8x128_S1x128_3_0
abbrev r8_b4 : Rect S8x128 := Rect.unit (s := S8x128) ![4, 0] S1x128.size inb_S8x128_S1x128_4_0
abbrev r8_b5 : Rect S8x128 := Rect.unit (s := S8x128) ![5, 0] S1x128.size inb_S8x128_S1x128_5_0
abbrev r8_b6 : Rect S8x128 := Rect.unit (s := S8x128) ![6, 0] S1x128.size inb_S8x128_S1x128_6_0
abbrev r8_b7 : Rect S8x128 := Rect.unit (s := S8x128) ![7, 0] S1x128.size inb_S8x128_S1x128_7_0
/-- and slab `k` of the output block. -/
abbrev r8_o0 : Rect S8x512x128 := Rect.unit (s := S8x512x128) ![0, 0, 0] S1x512x128.size inb_S8x512x128_S1x512x128_0_0_0
abbrev r8_o1 : Rect S8x512x128 := Rect.unit (s := S8x512x128) ![1, 0, 0] S1x512x128.size inb_S8x512x128_S1x512x128_1_0_0
abbrev r8_o2 : Rect S8x512x128 := Rect.unit (s := S8x512x128) ![2, 0, 0] S1x512x128.size inb_S8x512x128_S1x512x128_2_0_0
abbrev r8_o3 : Rect S8x512x128 := Rect.unit (s := S8x512x128) ![3, 0, 0] S1x512x128.size inb_S8x512x128_S1x512x128_3_0_0
abbrev r8_o4 : Rect S8x512x128 := Rect.unit (s := S8x512x128) ![4, 0, 0] S1x512x128.size inb_S8x512x128_S1x512x128_4_0_0
abbrev r8_o5 : Rect S8x512x128 := Rect.unit (s := S8x512x128) ![5, 0, 0] S1x512x128.size inb_S8x512x128_S1x512x128_5_0_0
abbrev r8_o6 : Rect S8x512x128 := Rect.unit (s := S8x512x128) ![6, 0, 0] S1x512x128.size inb_S8x512x128_S1x512x128_6_0_0
abbrev r8_o7 : Rect S8x512x128 := Rect.unit (s := S8x512x128) ![7, 0, 0] S1x512x128.size inb_S8x512x128_S1x512x128_7_0_0

/-! ## What the body leaves in the output window's buffer -/

/-- Slab `k` of the output as the body stores it, from the input windows' blocks `p j` (parents), `wt` (weights) and
    `bs` (bias): the payload of the store at slab `k`, over the payloads the skeleton threads through the six parts. -/
def slab8_0 (p : Fin 32 → Vec F S512x128 .f32) (wt : Vec F S8x128x128 .f32) (bs : Vec F S8x128 .f32) : Vec F S1x512x128 .f32 :=
  k8_pay1 (View.ld (p 0) r8_p) (View.ld (p 1) r8_p) (View.ld (p 2) r8_p) (View.ld (p 3) r8_p) (View.ld wt r8_w0) (View.ld bs r8_b0)
def slab8_1 (p : Fin 32 → Vec F S512x128 .f32) (wt : Vec F S8x128x128 .f32) (bs : Vec F S8x128 .f32) : Vec F S1x512x128 .f32 :=
  k8_pay3 (k8_pay2 (View.ld (p 4) r8_p) (View.ld (p 5) r8_p) (View.ld (p 6) r8_p)) (View.ld (p 7) r8_p) (View.ld wt r8_w1) (View.ld bs r8_b1)
def slab8_2 (p : Fin 32 → Vec F S512x128 .f32) (wt : Vec F S8x128x128 .f32) (bs : Vec F S8x128 .f32) : Vec F S1x512x128 .f32 :=
  k8_pay7 (k8_pay4 (View.ld (p 8) r8_p) (View.ld (p 9) r8_p) (View.ld (p 10) r8_p) (View.ld (p 11) r8_p)) (k8_pay5 (View.ld wt r8_w2)) (k8_pay6 (View.ld bs r8_b2))
def slab8_3 (p : Fin 32 → Vec F S512x128 .f32) (wt : Vec F S8x128x128 .f32) (bs : Vec F S8x128 .f32) : Vec F S1x512x128 .f32 :=
  k8_pay8 (View.ld (p 12) r8_p) (View.ld (p 13) r8_p) (View.ld (p 14) r8_p) (View.ld (p 15) r8_p) (View.ld wt r8_w3) (View.ld bs r8_b3)
def slab8_4 (p : Fin 32 → Vec F S512x128 .f32) (wt : Vec F S8x128x128 .f32) (bs : Vec F S8x128 .f32) : Vec F S1x512x128 .f32 :=
  k8_pay9 (View.ld (p 16) r8_p) (View.ld (p 17) r8_p) (View.ld (p 18) r8_p) (View.ld (p 19) r8_p) (View.ld wt r8_w4) (View.ld bs r8_b4)
def slab8_5 (p : Fin 32 → Vec F S512x128 .f32) (wt : Vec F S8x128x128 .f32) (bs : Vec F S8x128 .f32) : Vec F S1x512x128 .f32 :=
  k8_pay11 (k8_pay10 (View.ld (p 20) r8_p) (View.ld (p 21) r8_p) (View.ld (p 22) r8_p)) (View.ld (p 23) r8_p) (View.ld wt r8_w5) (View.ld bs r8_b5)
def slab8_6 (p : Fin 32 → Vec F S512x128 .f32) (wt : Vec F S8x128x128 .f32) (bs : Vec F S8x128 .f32) : Vec F S1x512x128 .f32 :=
  k8_pay15 (k8_pay12 (View.ld (p 24) r8_p) (View.ld (p 25) r8_p) (View.ld (p 26) r8_p) (View.ld (p 27) r8_p)) (k8_pay13 (View.ld wt r8_w6)) (k8_pay14 (View.ld bs r8_b6))
def slab8_7 (p : Fin 32 → Vec F S512x128 .f32) (wt : Vec F S8x128x128 .f32) (bs : Vec F S8x128 .f32) : Vec F S1x512x128 .f32 :=
  k8_pay16 (View.ld (p 28) r8_p) (View.ld (p 29) r8_p) (View.ld (p 30) r8_p) (View.ld (p 31) r8_p) (View.ld wt r8_w7) (View.ld bs r8_b7)

/-- Window 34's staging buffer after the body, from the input windows' blocks: its 8 stores as pieces, LAST FIRST. -/
def out8_34 (p : Fin 32 → Vec F S512x128 .f32) (wt : Vec F S8x128x128 .f32) (bs : Vec F S8x128 .f32) : Vec F S8x512x128 .f32 :=
  View.canon [⟨r8_o7, slab8_7 p wt bs⟩, ⟨r8_o6, slab8_6 p wt bs⟩, ⟨r8_o5, slab8_5 p wt bs⟩, ⟨r8_o4, slab8_4 p wt bs⟩, ⟨r8_o3, slab8_3 p wt bs⟩, ⟨r8_o2, slab8_2 p wt bs⟩, ⟨r8_o1, slab8_1 p wt bs⟩, ⟨r8_o0, slab8_0 p wt bs⟩]

/-- The eight stores tile the buffer (checked by evaluation), so they cover it. -/
theorem cover8_34 (p0 p1 p2 p3 p4 p5 p6 p7 : Vec F S1x512x128 .f32) (y : S8x512x128.Idx) :
    ∃ pc ∈ ([⟨r8_o7, p7⟩, ⟨r8_o6, p6⟩, ⟨r8_o5, p5⟩, ⟨r8_o4, p4⟩, ⟨r8_o3, p3⟩, ⟨r8_o2, p2⟩, ⟨r8_o1, p1⟩, ⟨r8_o0, p0⟩] : List (View.Piece (Elt F) S8x512x128 .f32)), y ∈ pc.1.set :=
  View.cover_of_tiled [⟨r8_o7, p7⟩, ⟨r8_o6, p6⟩, ⟨r8_o5, p5⟩, ⟨r8_o4, p4⟩, ⟨r8_o3, p3⟩, ⟨r8_o2, p2⟩, ⟨r8_o1, p1⟩, ⟨r8_o0, p0⟩] S1x512x128.size (by rfl) y

/-! ## The body's triple -/

set_option maxHeartbeats 4000000 in
/-- The kernel body on whole staging memrefs, the inputs' at read contents (`p j`, `wt`, `bs`) and the output's at anything,
    runs to the continuation holding the inputs' as they were and the output's at `out8_34` of the inputs': the printed
    functions are their skeletons, run through every part call; each slab's load of the output buffer before its store
    reads contents nothing uses. -/
theorem sound_kernel8 (c : Dev nD) (E : Set ℕ) (i : grid8.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S8x128x128 .f32) (harg33 : arg33.IsWhole) (arg34 : Memref sig .tc .vmem S8x128 .f32) (harg34 : arg34.IsWhole) (arg35 : Memref sig .tc .vmem S8x512x128 .f32) (harg35 : arg35.IsWhole)
    (p : Fin 32 → Vec F S512x128 .f32) (wt : Vec F S8x128x128 .f32) (bs : Vec F S8x128 .f32) (K : PUnit → sProp 𝕄) :
    iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ (∃ d, owns (c : Thread nD τ) arg35 fullShare d)
        ∗ (iprop(owns (c : Thread nD τ) arg1 fullShare (p 0) ∗ owns (c : Thread nD τ) arg2 fullShare (p 1) ∗ owns (c : Thread nD τ) arg3 fullShare (p 2) ∗ owns (c : Thread nD τ) arg4 fullShare (p 3) ∗ owns (c : Thread nD τ) arg5 fullShare (p 4) ∗ owns (c : Thread nD τ) arg6 fullShare (p 5) ∗ owns (c : Thread nD τ) arg7 fullShare (p 6) ∗ owns (c : Thread nD τ) arg8 fullShare (p 7) ∗ owns (c : Thread nD τ) arg9 fullShare (p 8) ∗ owns (c : Thread nD τ) arg10 fullShare (p 9) ∗ owns (c : Thread nD τ) arg11 fullShare (p 10) ∗ owns (c : Thread nD τ) arg12 fullShare (p 11) ∗ owns (c : Thread nD τ) arg13 fullShare (p 12) ∗ owns (c : Thread nD τ) arg14 fullShare (p 13) ∗ owns (c : Thread nD τ) arg15 fullShare (p 14) ∗ owns (c : Thread nD τ) arg16 fullShare (p 15) ∗ owns (c : Thread nD τ) arg17 fullShare (p 16) ∗ owns (c : Thread nD τ) arg18 fullShare (p 17) ∗ owns (c : Thread nD τ) arg19 fullShare (p 18) ∗ owns (c : Thread nD τ) arg20 fullShare (p 19) ∗ owns (c : Thread nD τ) arg21 fullShare (p 20) ∗ owns (c : Thread nD τ) arg22 fullShare (p 21) ∗ owns (c : Thread nD τ) arg23 fullShare (p 22) ∗ owns (c : Thread nD τ) arg24 fullShare (p 23) ∗ owns (c : Thread nD τ) arg25 fullShare (p 24) ∗ owns (c : Thread nD τ) arg26 fullShare (p 25) ∗ owns (c : Thread nD τ) arg27 fullShare (p 26) ∗ owns (c : Thread nD τ) arg28 fullShare (p 27) ∗ owns (c : Thread nD τ) arg29 fullShare (p 28) ∗ owns (c : Thread nD τ) arg30 fullShare (p 29) ∗ owns (c : Thread nD τ) arg31 fullShare (p 30) ∗ owns (c : Thread nD τ) arg32 fullShare (p 31) ∗ owns (c : Thread nD τ) arg33 fullShare wt ∗ owns (c : Thread nD τ) arg34 fullShare bs ∗ owns (c : Thread nD τ) arg35 fullShare (out8_34 p wt bs)) -∗ K ⟨⟩))
      ⊢ wp frame (wpE (defs₀ (F := F)) Variants.none c none) E (cc8__group_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  unfold out8_34 slab8_0 slab8_1 slab8_2 slab8_3 slab8_4 slab8_5 slab8_6 slab8_7
  generalize p 0 = x0
  generalize p 1 = x1
  generalize p 2 = x2
  generalize p 3 = x3
  generalize p 4 = x4
  generalize p 5 = x5
  generalize p 6 = x6
  generalize p 7 = x7
  generalize p 8 = x8
  generalize p 9 = x9
  generalize p 10 = x10
  generalize p 11 = x11
  generalize p 12 = x12
  generalize p 13 = x13
  generalize p 14 = x14
  generalize p 15 = x15
  generalize p 16 = x16
  generalize p 17 = x17
  generalize p 18 = x18
  generalize p 19 = x19
  generalize p 20 = x20
  generalize p 21 = x21
  generalize p 22 = x22
  generalize p 23 = x23
  generalize p 24 = x24
  generalize p 25 = x25
  generalize p 26 = x26
  generalize p 27 = x27
  generalize p 28 = x28
  generalize p 29 = x29
  generalize p 30 = x30
  generalize p 31 = x31
  simp only [cc8__group_kernel_eq_skeleton]; unfold cc8__group_kernel_skel
  simp only [k8_part1_eq_skeleton, k8_part2_eq_skeleton, k8_part3_eq_skeleton, k8_part4_eq_skeleton, k8_part5_eq_skeleton, k8_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
  subst hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  iexists _; isplitr
  swap; · iexact H35
  ipureintro
  exact View.read_writes_eq_canon _ _ _ (cover8_34 _ _ _ _ _ _ _ _)

/-! ## The pipeline's proof data -/

/-- The 32 parent blocks at point `t`, as one family: parent `j` of slab `k` is window `4k+j`. -/
def par8 (c : Dev nD) (t : Fin cfg8.N) : Fin 32 → Vec F S512x128 .f32 := fun j => match j with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => iblk8 V c 19 t
    | ⟨20, _⟩ => iblk8 V c 20 t
    | ⟨21, _⟩ => iblk8 V c 21 t
    | ⟨22, _⟩ => iblk8 V c 22 t
    | ⟨23, _⟩ => iblk8 V c 23 t
    | ⟨24, _⟩ => iblk8 V c 24 t
    | ⟨25, _⟩ => iblk8 V c 25 t
    | ⟨26, _⟩ => iblk8 V c 26 t
    | ⟨27, _⟩ => iblk8 V c 27 t
    | ⟨28, _⟩ => iblk8 V c 28 t
    | ⟨29, _⟩ => iblk8 V c 29 t
    | ⟨30, _⟩ => iblk8 V c 30 t
    | ⟨31, _⟩ => iblk8 V c 31 t
    | ⟨_ + 32, h⟩ => absurd h (Nat.not_lt.2 (Nat.le_add_left _ _))

/-- The family at a literal index (the `match` reduced by `dsimp`). -/
theorem par8_0 (c : Dev nD) (t : Fin cfg8.N) : par8 V c t 0 = iblk8 V c 0 t := by dsimp only [par8]
theorem par8_1 (c : Dev nD) (t : Fin cfg8.N) : par8 V c t 1 = iblk8 V c 1 t := by dsimp only [par8]
theorem par8_2 (c : Dev nD) (t : Fin cfg8.N) : par8 V c t 2 = iblk8 V c 2 t := by dsimp only [par8]
theorem par8_3 (c : Dev nD) (t : Fin cfg8.N) : par8 V c t 3 = iblk8 V c 3 t := by dsimp only [par8]
theorem par8_4 (c : Dev nD) (t : Fin cfg8.N) : par8 V c t 4 = iblk8 V c 4 t := by dsimp only [par8]
theorem par8_5 (c : Dev nD) (t : Fin cfg8.N) : par8 V c t 5 = iblk8 V c 5 t := by dsimp only [par8]
theorem par8_6 (c : Dev nD) (t : Fin cfg8.N) : par8 V c t 6 = iblk8 V c 6 t := by dsimp only [par8]
theorem par8_7 (c : Dev nD) (t : Fin cfg8.N) : par8 V c t 7 = iblk8 V c 7 t := by dsimp only [par8]
theorem par8_8 (c : Dev nD) (t : Fin cfg8.N) : par8 V c t 8 = iblk8 V c 8 t := by dsimp only [par8]
theorem par8_9 (c : Dev nD) (t : Fin cfg8.N) : par8 V c t 9 = iblk8 V c 9 t := by dsimp only [par8]
theorem par8_10 (c : Dev nD) (t : Fin cfg8.N) : par8 V c t 10 = iblk8 V c 10 t := by dsimp only [par8]
theorem par8_11 (c : Dev nD) (t : Fin cfg8.N) : par8 V c t 11 = iblk8 V c 11 t := by dsimp only [par8]
theorem par8_12 (c : Dev nD) (t : Fin cfg8.N) : par8 V c t 12 = iblk8 V c 12 t := by dsimp only [par8]
theorem par8_13 (c : Dev nD) (t : Fin cfg8.N) : par8 V c t 13 = iblk8 V c 13 t := by dsimp only [par8]
theorem par8_14 (c : Dev nD) (t : Fin cfg8.N) : par8 V c t 14 = iblk8 V c 14 t := by dsimp only [par8]
theorem par8_15 (c : Dev nD) (t : Fin cfg8.N) : par8 V c t 15 = iblk8 V c 15 t := by dsimp only [par8]
theorem par8_16 (c : Dev nD) (t : Fin cfg8.N) : par8 V c t 16 = iblk8 V c 16 t := by dsimp only [par8]
theorem par8_17 (c : Dev nD) (t : Fin cfg8.N) : par8 V c t 17 = iblk8 V c 17 t := by dsimp only [par8]
theorem par8_18 (c : Dev nD) (t : Fin cfg8.N) : par8 V c t 18 = iblk8 V c 18 t := by dsimp only [par8]
theorem par8_19 (c : Dev nD) (t : Fin cfg8.N) : par8 V c t 19 = iblk8 V c 19 t := by dsimp only [par8]
theorem par8_20 (c : Dev nD) (t : Fin cfg8.N) : par8 V c t 20 = iblk8 V c 20 t := by dsimp only [par8]
theorem par8_21 (c : Dev nD) (t : Fin cfg8.N) : par8 V c t 21 = iblk8 V c 21 t := by dsimp only [par8]
theorem par8_22 (c : Dev nD) (t : Fin cfg8.N) : par8 V c t 22 = iblk8 V c 22 t := by dsimp only [par8]
theorem par8_23 (c : Dev nD) (t : Fin cfg8.N) : par8 V c t 23 = iblk8 V c 23 t := by dsimp only [par8]
theorem par8_24 (c : Dev nD) (t : Fin cfg8.N) : par8 V c t 24 = iblk8 V c 24 t := by dsimp only [par8]
theorem par8_25 (c : Dev nD) (t : Fin cfg8.N) : par8 V c t 25 = iblk8 V c 25 t := by dsimp only [par8]
theorem par8_26 (c : Dev nD) (t : Fin cfg8.N) : par8 V c t 26 = iblk8 V c 26 t := by dsimp only [par8]
theorem par8_27 (c : Dev nD) (t : Fin cfg8.N) : par8 V c t 27 = iblk8 V c 27 t := by dsimp only [par8]
theorem par8_28 (c : Dev nD) (t : Fin cfg8.N) : par8 V c t 28 = iblk8 V c 28 t := by dsimp only [par8]
theorem par8_29 (c : Dev nD) (t : Fin cfg8.N) : par8 V c t 29 = iblk8 V c 29 t := by dsimp only [par8]
theorem par8_30 (c : Dev nD) (t : Fin cfg8.N) : par8 V c t 30 = iblk8 V c 30 t := by dsimp only [par8]
theorem par8_31 (c : Dev nD) (t : Fin cfg8.N) : par8 V c t 31 = iblk8 V c 31 t := by dsimp only [par8]

/-- The proof data of pipeline 8 on core `c`: the arrays as the region finds them (`V`); after the body at point `t`
    each input's buffer at its block and the output's at `out8_34` of the input blocks; the invariant the scoped rest
    and the generator register, untouched; nothing owed; of each windowed array the share its window holds when
    several windows read one array. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => iblk8 V c 14 t
    | ⟨15, _⟩ => iblk8 V c 15 t
    | ⟨16, _⟩ => iblk8 V c 16 t
    | ⟨17, _⟩ => iblk8 V c 17 t
    | ⟨18, _⟩ => iblk8 V c 18 t
    | ⟨19, _⟩ => iblk8 V c 19 t
    | ⟨20, _⟩ => iblk8 V c 20 t
    | ⟨21, _⟩ => iblk8 V c 21 t
    | ⟨22, _⟩ => iblk8 V c 22 t
    | ⟨23, _⟩ => iblk8 V c 23 t
    | ⟨24, _⟩ => iblk8 V c 24 t
    | ⟨25, _⟩ => iblk8 V c 25 t
    | ⟨26, _⟩ => iblk8 V c 26 t
    | ⟨27, _⟩ => iblk8 V c 27 t
    | ⟨28, _⟩ => iblk8 V c 28 t
    | ⟨29, _⟩ => iblk8 V c 29 t
    | ⟨30, _⟩ => iblk8 V c 30 t
    | ⟨31, _⟩ => iblk8 V c 31 t
    | ⟨32, _⟩ => iblk8 V c 32 t
    | ⟨33, _⟩ => iblk8 V c 33 t
    | ⟨34, _⟩ => out8_34 (par8 V c t) (iblk8 V c 32 t) (iblk8 V c 33 t)
    | ⟨_ + 35, h⟩ => absurd h (Nat.not_lt.2 (Nat.le_add_left _ _))
  Φ _ := Pipeline.ΦA spec8 c
  q w := Cert.Lib.SharedArrays.shareOf (Pipeline.arrRef spec8) w
  owed _ := 0

/-- The proof data's arrays are the region-entry contents. -/
theorem A_eq8 (c : Dev nD) (w : Fin cfg8.W) : (dat8 V c).A w = V c (Pipeline.arrRef spec8 w) := by
  dsimp only [dat8]

/-- What the body leaves, window by window (the proof data's `match` reduced by `dsimp`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = iblk8 V c 14 t := by dsimp only [dat8]
theorem after8_15 (c : Dev nD) (t : Fin cfg8.N) : (dat8 V c).after 15 t = iblk8 V c 15 t := by dsimp only [dat8]
theorem after8_16 (c : Dev nD) (t : Fin cfg8.N) : (dat8 V c).after 16 t = iblk8 V c 16 t := by dsimp only [dat8]
theorem after8_17 (c : Dev nD) (t : Fin cfg8.N) : (dat8 V c).after 17 t = iblk8 V c 17 t := by dsimp only [dat8]
theorem after8_18 (c : Dev nD) (t : Fin cfg8.N) : (dat8 V c).after 18 t = iblk8 V c 18 t := by dsimp only [dat8]
theorem after8_19 (c : Dev nD) (t : Fin cfg8.N) : (dat8 V c).after 19 t = iblk8 V c 19 t := by dsimp only [dat8]
theorem after8_20 (c : Dev nD) (t : Fin cfg8.N) : (dat8 V c).after 20 t = iblk8 V c 20 t := by dsimp only [dat8]
theorem after8_21 (c : Dev nD) (t : Fin cfg8.N) : (dat8 V c).after 21 t = iblk8 V c 21 t := by dsimp only [dat8]
theorem after8_22 (c : Dev nD) (t : Fin cfg8.N) : (dat8 V c).after 22 t = iblk8 V c 22 t := by dsimp only [dat8]
theorem after8_23 (c : Dev nD) (t : Fin cfg8.N) : (dat8 V c).after 23 t = iblk8 V c 23 t := by dsimp only [dat8]
theorem after8_24 (c : Dev nD) (t : Fin cfg8.N) : (dat8 V c).after 24 t = iblk8 V c 24 t := by dsimp only [dat8]
theorem after8_25 (c : Dev nD) (t : Fin cfg8.N) : (dat8 V c).after 25 t = iblk8 V c 25 t := by dsimp only [dat8]
theorem after8_26 (c : Dev nD) (t : Fin cfg8.N) : (dat8 V c).after 26 t = iblk8 V c 26 t := by dsimp only [dat8]
theorem after8_27 (c : Dev nD) (t : Fin cfg8.N) : (dat8 V c).after 27 t = iblk8 V c 27 t := by dsimp only [dat8]
theorem after8_28 (c : Dev nD) (t : Fin cfg8.N) : (dat8 V c).after 28 t = iblk8 V c 28 t := by dsimp only [dat8]
theorem after8_29 (c : Dev nD) (t : Fin cfg8.N) : (dat8 V c).after 29 t = iblk8 V c 29 t := by dsimp only [dat8]
theorem after8_30 (c : Dev nD) (t : Fin cfg8.N) : (dat8 V c).after 30 t = iblk8 V c 30 t := by dsimp only [dat8]
theorem after8_31 (c : Dev nD) (t : Fin cfg8.N) : (dat8 V c).after 31 t = iblk8 V c 31 t := by dsimp only [dat8]
theorem after8_32 (c : Dev nD) (t : Fin cfg8.N) : (dat8 V c).after 32 t = iblk8 V c 32 t := by dsimp only [dat8]
theorem after8_33 (c : Dev nD) (t : Fin cfg8.N) : (dat8 V c).after 33 t = iblk8 V c 33 t := by dsimp only [dat8]
theorem after8_34 (c : Dev nD) (t : Fin cfg8.N) :
    (dat8 V c).after 34 t = out8_34 (par8 V c t) (iblk8 V c 32 t) (iblk8 V c 33 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d
theorem before8_14 (c : Dev nD) (t : Fin cfg8.N) (d) : (dat8 V c).before 14 t d = iblk8 V c 14 t :=
  before8_14_of V (dat8 V c) (A_eq8 V c 14) (after8_14 V c) t d
theorem before8_15 (c : Dev nD) (t : Fin cfg8.N) (d) : (dat8 V c).before 15 t d = iblk8 V c 15 t :=
  before8_15_of V (dat8 V c) (A_eq8 V c 15) (after8_15 V c) t d
theorem before8_16 (c : Dev nD) (t : Fin cfg8.N) (d) : (dat8 V c).before 16 t d = iblk8 V c 16 t :=
  before8_16_of V (dat8 V c) (A_eq8 V c 16) (after8_16 V c) t d
theorem before8_17 (c : Dev nD) (t : Fin cfg8.N) (d) : (dat8 V c).before 17 t d = iblk8 V c 17 t :=
  before8_17_of V (dat8 V c) (A_eq8 V c 17) (after8_17 V c) t d
theorem before8_18 (c : Dev nD) (t : Fin cfg8.N) (d) : (dat8 V c).before 18 t d = iblk8 V c 18 t :=
  before8_18_of V (dat8 V c) (A_eq8 V c 18) (after8_18 V c) t d
theorem before8_19 (c : Dev nD) (t : Fin cfg8.N) (d) : (dat8 V c).before 19 t d = iblk8 V c 19 t :=
  before8_19_of V (dat8 V c) (A_eq8 V c 19) (after8_19 V c) t d
theorem before8_20 (c : Dev nD) (t : Fin cfg8.N) (d) : (dat8 V c).before 20 t d = iblk8 V c 20 t :=
  before8_20_of V (dat8 V c) (A_eq8 V c 20) (after8_20 V c) t d
theorem before8_21 (c : Dev nD) (t : Fin cfg8.N) (d) : (dat8 V c).before 21 t d = iblk8 V c 21 t :=
  before8_21_of V (dat8 V c) (A_eq8 V c 21) (after8_21 V c) t d
theorem before8_22 (c : Dev nD) (t : Fin cfg8.N) (d) : (dat8 V c).before 22 t d = iblk8 V c 22 t :=
  before8_22_of V (dat8 V c) (A_eq8 V c 22) (after8_22 V c) t d
theorem before8_23 (c : Dev nD) (t : Fin cfg8.N) (d) : (dat8 V c).before 23 t d = iblk8 V c 23 t :=
  before8_23_of V (dat8 V c) (A_eq8 V c 23) (after8_23 V c) t d
theorem before8_24 (c : Dev nD) (t : Fin cfg8.N) (d) : (dat8 V c).before 24 t d = iblk8 V c 24 t :=
  before8_24_of V (dat8 V c) (A_eq8 V c 24) (after8_24 V c) t d
theorem before8_25 (c : Dev nD) (t : Fin cfg8.N) (d) : (dat8 V c).before 25 t d = iblk8 V c 25 t :=
  before8_25_of V (dat8 V c) (A_eq8 V c 25) (after8_25 V c) t d
theorem before8_26 (c : Dev nD) (t : Fin cfg8.N) (d) : (dat8 V c).before 26 t d = iblk8 V c 26 t :=
  before8_26_of V (dat8 V c) (A_eq8 V c 26) (after8_26 V c) t d
theorem before8_27 (c : Dev nD) (t : Fin cfg8.N) (d) : (dat8 V c).before 27 t d = iblk8 V c 27 t :=
  before8_27_of V (dat8 V c) (A_eq8 V c 27) (after8_27 V c) t d
theorem before8_28 (c : Dev nD) (t : Fin cfg8.N) (d) : (dat8 V c).before 28 t d = iblk8 V c 28 t :=
  before8_28_of V (dat8 V c) (A_eq8 V c 28) (after8_28 V c) t d
theorem before8_29 (c : Dev nD) (t : Fin cfg8.N) (d) : (dat8 V c).before 29 t d = iblk8 V c 29 t :=
  before8_29_of V (dat8 V c) (A_eq8 V c 29) (after8_29 V c) t d
theorem before8_30 (c : Dev nD) (t : Fin cfg8.N) (d) : (dat8 V c).before 30 t d = iblk8 V c 30 t :=
  before8_30_of V (dat8 V c) (A_eq8 V c 30) (after8_30 V c) t d
theorem before8_31 (c : Dev nD) (t : Fin cfg8.N) (d) : (dat8 V c).before 31 t d = iblk8 V c 31 t :=
  before8_31_of V (dat8 V c) (A_eq8 V c 31) (after8_31 V c) t d
theorem before8_32 (c : Dev nD) (t : Fin cfg8.N) (d) : (dat8 V c).before 32 t d = iblk8 V c 32 t :=
  before8_32_of V (dat8 V c) (A_eq8 V c 32) (after8_32 V c) t d
theorem before8_33 (c : Dev nD) (t : Fin cfg8.N) (d) : (dat8 V c).before 33 t d = iblk8 V c 33 t :=
  before8_33_of V (dat8 V c) (A_eq8 V c 33) (after8_33 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d))
    ∗ (∃ d, owns (c : Thread nD τ) (st8_16 t) fullShare ((dat8 V c).before 16 t d))
    ∗ (∃ d, owns (c : Thread nD τ) (st8_17 t) fullShare ((dat8 V c).before 17 t d))
    ∗ (∃ d, owns (c : Thread nD τ) (st8_18 t) fullShare ((dat8 V c).before 18 t d))
    ∗ (∃ d, owns (c : Thread nD τ) (st8_19 t) fullShare ((dat8 V c).before 19 t d))
    ∗ (∃ d, owns (c : Thread nD τ) (st8_20 t) fullShare ((dat8 V c).before 20 t d))
    ∗ (∃ d, owns (c : Thread nD τ) (st8_21 t) fullShare ((dat8 V c).before 21 t d))
    ∗ (∃ d, owns (c : Thread nD τ) (st8_22 t) fullShare ((dat8 V c).before 22 t d))
    ∗ (∃ d, owns (c : Thread nD τ) (st8_23 t) fullShare ((dat8 V c).before 23 t d))
    ∗ (∃ d, owns (c : Thread nD τ) (st8_24 t) fullShare ((dat8 V c).before 24 t d))
    ∗ (∃ d, owns (c : Thread nD τ) (st8_25 t) fullShare ((dat8 V c).before 25 t d))
    ∗ (∃ d, owns (c : Thread nD τ) (st8_26 t) fullShare ((dat8 V c).before 26 t d))
    ∗ (∃ d, owns (c : Thread nD τ) (st8_27 t) fullShare ((dat8 V c).before 27 t d))
    ∗ (∃ d, owns (c : Thread nD τ) (st8_28 t) fullShare ((dat8 V c).before 28 t d))
    ∗ (∃ d, owns (c : Thread nD τ) (st8_29 t) fullShare ((dat8 V c).before 29 t d))
    ∗ (∃ d, owns (c : Thread nD τ) (st8_30 t) fullShare ((dat8 V c).before 30 t d))
    ∗ (∃ d, owns (c : Thread nD τ) (st8_31 t) fullShare ((dat8 V c).before 31 t d))
    ∗ (∃ d, owns (c : Thread nD τ) (st8_32 t) fullShare ((dat8 V c).before 32 t d))
    ∗ (∃ d, owns (c : Thread nD τ) (st8_33 t) fullShare ((dat8 V c).before 33 t d))
    ∗ (∃ d, owns (c : Thread nD τ) (st8_34 t) fullShare ((dat8 V c).before 34 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t)
    ∗ owns (c : Thread nD τ) (st8_16 t) fullShare ((dat8 V c).after 16 t)
    ∗ owns (c : Thread nD τ) (st8_17 t) fullShare ((dat8 V c).after 17 t)
    ∗ owns (c : Thread nD τ) (st8_18 t) fullShare ((dat8 V c).after 18 t)
    ∗ owns (c : Thread nD τ) (st8_19 t) fullShare ((dat8 V c).after 19 t)
    ∗ owns (c : Thread nD τ) (st8_20 t) fullShare ((dat8 V c).after 20 t)
    ∗ owns (c : Thread nD τ) (st8_21 t) fullShare ((dat8 V c).after 21 t)
    ∗ owns (c : Thread nD τ) (st8_22 t) fullShare ((dat8 V c).after 22 t)
    ∗ owns (c : Thread nD τ) (st8_23 t) fullShare ((dat8 V c).after 23 t)
    ∗ owns (c : Thread nD τ) (st8_24 t) fullShare ((dat8 V c).after 24 t)
    ∗ owns (c : Thread nD τ) (st8_25 t) fullShare ((dat8 V c).after 25 t)
    ∗ owns (c : Thread nD τ) (st8_26 t) fullShare ((dat8 V c).after 26 t)
    ∗ owns (c : Thread nD τ) (st8_27 t) fullShare ((dat8 V c).after 27 t)
    ∗ owns (c : Thread nD τ) (st8_28 t) fullShare ((dat8 V c).after 28 t)
    ∗ owns (c : Thread nD τ) (st8_29 t) fullShare ((dat8 V c).after 29 t)
    ∗ owns (c : Thread nD τ) (st8_30 t) fullShare ((dat8 V c).after 30 t)
    ∗ owns (c : Thread nD τ) (st8_31 t) fullShare ((dat8 V c).after 31 t)
    ∗ owns (c : Thread nD τ) (st8_32 t) fullShare ((dat8 V c).after 32 t)
    ∗ owns (c : Thread nD τ) (st8_33 t) fullShare ((dat8 V c).after 33 t)
    ∗ owns (c : Thread nD τ) (st8_34 t) fullShare ((dat8 V c).after 34 t))

set_option maxHeartbeats 4000000 in
/-- The body at any point: the inputs' memrefs hold their blocks (`before8_W`), so `sound_kernel8` applies; the invariant
    and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13, before8_14, before8_15, before8_16, before8_17, before8_18, before8_19, before8_20, before8_21, before8_22, before8_23, before8_24, before8_25, before8_26, before8_27, before8_28, before8_29, before8_30, before8_31, before8_32, before8_33]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15, after8_16, after8_17, after8_18, after8_19, after8_20, after8_21, after8_22, after8_23, after8_24, after8_25, after8_26, after8_27, after8_28, after8_29, after8_30, after8_31, after8_32, after8_33, after8_34]
  have hk := fun K => sound_kernel8 (F := F) c Set.univ (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4)) _ (hstage8_5 ((cfg8.slots t 5).cast nbuf8_5)) _ (hstage8_6 ((cfg8.slots t 6).cast nbuf8_6)) _ (hstage8_7 ((cfg8.slots t 7).cast nbuf8_7)) _ (hstage8_8 ((cfg8.slots t 8).cast nbuf8_8)) _ (hstage8_9 ((cfg8.slots t 9).cast nbuf8_9)) _ (hstage8_10 ((cfg8.slots t 10).cast nbuf8_10)) _ (hstage8_11 ((cfg8.slots t 11).cast nbuf8_11)) _ (hstage8_12 ((cfg8.slots t 12).cast nbuf8_12)) _ (hstage8_13 ((cfg8.slots t 13).cast nbuf8_13)) _ (hstage8_14 ((cfg8.slots t 14).cast nbuf8_14)) _ (hstage8_15 ((cfg8.slots t 15).cast nbuf8_15)) _ (hstage8_16 ((cfg8.slots t 16).cast nbuf8_16)) _ (hstage8_17 ((cfg8.slots t 17).cast nbuf8_17)) _ (hstage8_18 ((cfg8.slots t 18).cast nbuf8_18)) _ (hstage8_19 ((cfg8.slots t 19).cast nbuf8_19)) _ (hstage8_20 ((cfg8.slots t 20).cast nbuf8_20)) _ (hstage8_21 ((cfg8.slots t 21).cast nbuf8_21)) _ (hstage8_22 ((cfg8.slots t 22).cast nbuf8_22)) _ (hstage8_23 ((cfg8.slots t 23).cast nbuf8_23)) _ (hstage8_24 ((cfg8.slots t 24).cast nbuf8_24)) _ (hstage8_25 ((cfg8.slots t 25).cast nbuf8_25)) _ (hstage8_26 ((cfg8.slots t 26).cast nbuf8_26)) _ (hstage8_27 ((cfg8.slots t 27).cast nbuf8_27)) _ (hstage8_28 ((cfg8.slots t 28).cast nbuf8_28)) _ (hstage8_29 ((cfg8.slots t 29).cast nbuf8_29)) _ (hstage8_30 ((cfg8.slots t 30).cast nbuf8_30)) _ (hstage8_31 ((cfg8.slots t 31).cast nbuf8_31)) _ (hstage8_32 ((cfg8.slots t 32).cast nbuf8_32)) _ (hstage8_33 ((cfg8.slots t 33).cast nbuf8_33)) _ (hstage8_34 ((cfg8.slots t 34).cast nbuf8_34))
    (par8 V c t) (iblk8 V c 32 t) (iblk8 V c 33 t) K
  simp only [par8_0, par8_1, par8_2, par8_3, par8_4, par8_5, par8_6, par8_7, par8_8, par8_9, par8_10, par8_11, par8_12, par8_13, par8_14, par8_15, par8_16, par8_17, par8_18, par8_19, par8_20, par8_21, par8_22, par8_23, par8_24, par8_25, par8_26, par8_27, par8_28, par8_29, par8_30, par8_31] at hk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Outs.lean ====
/- The contents of the TensorCore's unscoped buffers between the items of the kernel's @main, as closed terms of the
   launch memory `m`. After a host stretch: the stretch's `StableHlo.after` of the contents before it. After kernel region
   p: the contents before it with the region's one output array replaced by what the pipeline's write-backs leave there
   (`Dat.arrAt … N` of the region's proof data, taken at the region's entry contents); every other buffer is as at entry,
   because the output array of a region is the array of none of its input windows. The update is at the output array
   alone, so that several windows of a region may read one array. The valuations `V0 … V19` of the conditional frame are
   written over unknown region outputs `outs`; at `outs := outsH m` they are these contents (`VJ_eq`). Per region p: its
   arrays at exit are the proof data's final arrays (`hFp`), and every buffer that is no array of the region is as at
   entry (`hrestp`). Generic in the float model `F`. -/
import proofs.«135270_j33062658245245_1_alg».proof.Proof.KI.RegionsP
import proofs.«135270_j33062658245245_1_alg».proof.Proof.KI.R0
import proofs.«135270_j33062658245245_1_alg».proof.Proof.KI.R1
import proofs.«135270_j33062658245245_1_alg».proof.Proof.KI.R2
import proofs.«135270_j33062658245245_1_alg».proof.Proof.KI.R3
import proofs.«135270_j33062658245245_1_alg».proof.Proof.KI.R4
import proofs.«135270_j33062658245245_1_alg».proof.Proof.KI.R5
import proofs.«135270_j33062658245245_1_alg».proof.Proof.KI.R6
import proofs.«135270_j33062658245245_1_alg».proof.Proof.KI.R7
import proofs.«135270_j33062658245245_1_alg».proof.Proof.KI.R8

-- facts decided window by window over 35 windows and 715 references recurse past the default depth
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A valuation per core read at the TensorCore's references: what a region's proof data take as entry contents. -/
abbrev rd (W : Dev nD → Valuation τ sig (Elt F)) : (c : Dev nD) → (b : Ref sig .tc) → Buf (Elt F) ((c : Thread nD τ).loc b) :=
  fun c b => W c b

/-! ## Which window of a region is written back, and that its array is no input's -/

/-- Region 0 writes back window 3 only, -/
theorem out_only0 : ∀ w : Fin cfg0.W, (cfg0.win w).isOut = true → w = 3 := by decide
/-- and no input window of region 0 reads the output array `main_v3`. -/
theorem in_ne0 : ∀ w : Fin cfg0.W, (cfg0.win w).isOut = false → Pipeline.arrRef spec0 w ≠ main_v3 := by decide
/-- Region 1 writes back window 34 only, -/
theorem out_only1 : ∀ w : Fin cfg1.W, (cfg1.win w).isOut = true → w = 34 := by decide
/-- and no input window of region 1 reads the output array `main_v7`. -/
theorem in_ne1 : ∀ w : Fin cfg1.W, (cfg1.win w).isOut = false → Pipeline.arrRef spec1 w ≠ main_v7 := by decide
/-- Region 2 writes back window 34 only, -/
theorem out_only2 : ∀ w : Fin cfg2.W, (cfg2.win w).isOut = true → w = 34 := by decide
/-- and no input window of region 2 reads the output array `main_v26`. -/
theorem in_ne2 : ∀ w : Fin cfg2.W, (cfg2.win w).isOut = false → Pipeline.arrRef spec2 w ≠ main_v26 := by decide
/-- Region 3 writes back window 34 only, -/
theorem out_only3 : ∀ w : Fin cfg3.W, (cfg3.win w).isOut = true → w = 34 := by decide
/-- and no input window of region 3 reads the output array `main_v45`. -/
theorem in_ne3 : ∀ w : Fin cfg3.W, (cfg3.win w).isOut = false → Pipeline.arrRef spec3 w ≠ main_v45 := by decide
/-- Region 4 writes back window 34 only, -/
theorem out_only4 : ∀ w : Fin cfg4.W, (cfg4.win w).isOut = true → w = 34 := by decide
/-- and no input window of region 4 reads the output array `main_v64`. -/
theorem in_ne4 : ∀ w : Fin cfg4.W, (cfg4.win w).isOut = false → Pipeline.arrRef spec4 w ≠ main_v64 := by decide
/-- Region 5 writes back window 34 only, -/
theorem out_only5 : ∀ w : Fin cfg5.W, (cfg5.win w).isOut = true → w = 34 := by decide
/-- and no input window of region 5 reads the output array `main_v83`. -/
theorem in_ne5 : ∀ w : Fin cfg5.W, (cfg5.win w).isOut = false → Pipeline.arrRef spec5 w ≠ main_v83 := by decide
/-- Region 6 writes back window 34 only, -/
theorem out_only6 : ∀ w : Fin cfg6.W, (cfg6.win w).isOut = true → w = 34 := by decide
/-- and no input window of region 6 reads the output array `main_v102`. -/
theorem in_ne6 : ∀ w : Fin cfg6.W, (cfg6.win w).isOut = false → Pipeline.arrRef spec6 w ≠ main_v102 := by decide
/-- Region 7 writes back window 34 only, -/
theorem out_only7 : ∀ w : Fin cfg7.W, (cfg7.win w).isOut = true → w = 34 := by decide
/-- and no input window of region 7 reads the output array `main_v121`. -/
theorem in_ne7 : ∀ w : Fin cfg7.W, (cfg7.win w).isOut = false → Pipeline.arrRef spec7 w ≠ main_v121 := by decide
/-- Region 8 writes back window 34 only, -/
theorem out_only8 : ∀ w : Fin cfg8.W, (cfg8.win w).isOut = true → w = 34 := by decide
/-- and no input window of region 8 reads the output array `main_v140`. -/
theorem in_ne8 : ∀ w : Fin cfg8.W, (cfg8.win w).isOut = false → Pipeline.arrRef spec8 w ≠ main_v140 := by decide

variable (m : (ℓ : Loc nD τ sig) → Buf (Elt F) ℓ)

/-! ## The contents between the items: a fold through @main from the launch memory -/

/-- After `hostOps0` (region 0's entry). -/
def W1 (c : Dev nD) : Valuation τ sig (Elt F) := StableHlo.after hostOps0 (V0 m c)
/-- At region 0's exit: `main_v3` at what the write-backs of window 3 leave, every other buffer as entered. -/
def W2 (c : Dev nD) : Valuation τ sig (Elt F) :=
  Function.update (W1 m c) main_v3 ((dat0 (rd (W1 m)) c).arrAt 3 cfg0.N)
/-- After `hostOps1` (region 1's entry). -/
def W3 (c : Dev nD) : Valuation τ sig (Elt F) := StableHlo.after hostOps1 (W2 m c)
/-- At region 1's exit: `main_v7` at what the write-backs of window 34 leave, every other buffer as entered. -/
def W4 (c : Dev nD) : Valuation τ sig (Elt F) :=
  Function.update (W3 m c) main_v7 ((dat1 (rd (W3 m)) c).arrAt 34 cfg1.N)
/-- After `hostOps2` (region 2's entry). -/
def W5 (c : Dev nD) : Valuation τ sig (Elt F) := StableHlo.after hostOps2 (W4 m c)
/-- At region 2's exit: `main_v26` at what the write-backs of window 34 leave, every other buffer as entered. -/
def W6 (c : Dev nD) : Valuation τ sig (Elt F) :=
  Function.update (W5 m c) main_v26 ((dat2 (rd (W5 m)) c).arrAt 34 cfg2.N)
/-- After `hostOps3` (region 3's entry). -/
def W7 (c : Dev nD) : Valuation τ sig (Elt F) := StableHlo.after hostOps3 (W6 m c)
/-- At region 3's exit: `main_v45` at what the write-backs of window 34 leave, every other buffer as entered. -/
def W8 (c : Dev nD) : Valuation τ sig (Elt F) :=
  Function.update (W7 m c) main_v45 ((dat3 (rd (W7 m)) c).arrAt 34 cfg3.N)
/-- After `hostOps4` (region 4's entry). -/
def W9 (c : Dev nD) : Valuation τ sig (Elt F) := StableHlo.after hostOps4 (W8 m c)
/-- At region 4's exit: `main_v64` at what the write-backs of window 34 leave, every other buffer as entered. -/
def W10 (c : Dev nD) : Valuation τ sig (Elt F) :=
  Function.update (W9 m c) main_v64 ((dat4 (rd (W9 m)) c).arrAt 34 cfg4.N)
/-- After `hostOps5` (region 5's entry). -/
def W11 (c : Dev nD) : Valuation τ sig (Elt F) := StableHlo.after hostOps5 (W10 m c)
/-- At region 5's exit: `main_v83` at what the write-backs of window 34 leave, every other buffer as entered. -/
def W12 (c : Dev nD) : Valuation τ sig (Elt F) :=
  Function.update (W11 m c) main_v83 ((dat5 (rd (W11 m)) c).arrAt 34 cfg5.N)
/-- After `hostOps6` (region 6's entry). -/
def W13 (c : Dev nD) : Valuation τ sig (Elt F) := StableHlo.after hostOps6 (W12 m c)
/-- At region 6's exit: `main_v102` at what the write-backs of window 34 leave, every other buffer as entered. -/
def W14 (c : Dev nD) : Valuation τ sig (Elt F) :=
  Function.update (W13 m c) main_v102 ((dat6 (rd (W13 m)) c).arrAt 34 cfg6.N)
/-- After `hostOps7` (region 7's entry). -/
def W15 (c : Dev nD) : Valuation τ sig (Elt F) := StableHlo.after hostOps7 (W14 m c)
/-- At region 7's exit: `main_v121` at what the write-backs of window 34 leave, every other buffer as entered. -/
def W16 (c : Dev nD) : Valuation τ sig (Elt F) :=
  Function.update (W15 m c) main_v121 ((dat7 (rd (W15 m)) c).arrAt 34 cfg7.N)
/-- After `hostOps8` (region 8's entry). -/
def W17 (c : Dev nD) : Valuation τ sig (Elt F) := StableHlo.after hostOps8 (W16 m c)
/-- At region 8's exit: `main_v140` at what the write-backs of window 34 leave, every other buffer as entered. -/
def W18 (c : Dev nD) : Valuation τ sig (Elt F) :=
  Function.update (W17 m c) main_v140 ((dat8 (rd (W17 m)) c).arrAt 34 cfg8.N)
/-- After `hostOps9`: the contents @main returns with. -/
def W19 (c : Dev nD) : Valuation τ sig (Elt F) := StableHlo.after hostOps9 (W18 m c)

/-! ## A region's exit contents read at its output array, and off it -/

theorem W2_out (c : Dev nD) : W2 m c main_v3 = (dat0 (rd (W1 m)) c).arrAt 3 cfg0.N := by
  unfold W2; exact Function.update_self _ _ _
theorem W2_of_ne (c : Dev nD) (b : Ref sig .tc) (h : b ≠ main_v3) : W2 m c b = W1 m c b := by
  unfold W2; exact Function.update_of_ne (StableHlo.devRef_ne_of_ne h) _ _
theorem W4_out (c : Dev nD) : W4 m c main_v7 = (dat1 (rd (W3 m)) c).arrAt 34 cfg1.N := by
  unfold W4; exact Function.update_self _ _ _
theorem W4_of_ne (c : Dev nD) (b : Ref sig .tc) (h : b ≠ main_v7) : W4 m c b = W3 m c b := by
  unfold W4; exact Function.update_of_ne (StableHlo.devRef_ne_of_ne h) _ _
theorem W6_out (c : Dev nD) : W6 m c main_v26 = (dat2 (rd (W5 m)) c).arrAt 34 cfg2.N := by
  unfold W6; exact Function.update_self _ _ _
theorem W6_of_ne (c : Dev nD) (b : Ref sig .tc) (h : b ≠ main_v26) : W6 m c b = W5 m c b := by
  unfold W6; exact Function.update_of_ne (StableHlo.devRef_ne_of_ne h) _ _
theorem W8_out (c : Dev nD) : W8 m c main_v45 = (dat3 (rd (W7 m)) c).arrAt 34 cfg3.N := by
  unfold W8; exact Function.update_self _ _ _
theorem W8_of_ne (c : Dev nD) (b : Ref sig .tc) (h : b ≠ main_v45) : W8 m c b = W7 m c b := by
  unfold W8; exact Function.update_of_ne (StableHlo.devRef_ne_of_ne h) _ _
theorem W10_out (c : Dev nD) : W10 m c main_v64 = (dat4 (rd (W9 m)) c).arrAt 34 cfg4.N := by
  unfold W10; exact Function.update_self _ _ _
theorem W10_of_ne (c : Dev nD) (b : Ref sig .tc) (h : b ≠ main_v64) : W10 m c b = W9 m c b := by
  unfold W10; exact Function.update_of_ne (StableHlo.devRef_ne_of_ne h) _ _
theorem W12_out (c : Dev nD) : W12 m c main_v83 = (dat5 (rd (W11 m)) c).arrAt 34 cfg5.N := by
  unfold W12; exact Function.update_self _ _ _
theorem W12_of_ne (c : Dev nD) (b : Ref sig .tc) (h : b ≠ main_v83) : W12 m c b = W11 m c b := by
  unfold W12; exact Function.update_of_ne (StableHlo.devRef_ne_of_ne h) _ _
theorem W14_out (c : Dev nD) : W14 m c main_v102 = (dat6 (rd (W13 m)) c).arrAt 34 cfg6.N := by
  unfold W14; exact Function.update_self _ _ _
theorem W14_of_ne (c : Dev nD) (b : Ref sig .tc) (h : b ≠ main_v102) : W14 m c b = W13 m c b := by
  unfold W14; exact Function.update_of_ne (StableHlo.devRef_ne_of_ne h) _ _
theorem W16_out (c : Dev nD) : W16 m c main_v121 = (dat7 (rd (W15 m)) c).arrAt 34 cfg7.N := by
  unfold W16; exact Function.update_self _ _ _
theorem W16_of_ne (c : Dev nD) (b : Ref sig .tc) (h : b ≠ main_v121) : W16 m c b = W15 m c b := by
  unfold W16; exact Function.update_of_ne (StableHlo.devRef_ne_of_ne h) _ _
theorem W18_out (c : Dev nD) : W18 m c main_v140 = (dat8 (rd (W17 m)) c).arrAt 34 cfg8.N := by
  unfold W18; exact Function.update_self _ _ _
theorem W18_of_ne (c : Dev nD) (b : Ref sig .tc) (h : b ≠ main_v140) : W18 m c b = W17 m c b := by
  unfold W18; exact Function.update_of_ne (StableHlo.devRef_ne_of_ne h) _ _

/-! ## The conditional frame's unknowns, filled in -/

/-- What the regions leave, as the conditional frame's `outs`: after item J−1 the contents `WJ` (read only at the
    output array of the region that is item J−1). -/
def outsH : Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | _ => W1 m c r

/-! The conditional frame's valuations at `outs := outsH m` are the contents above: each from the one before — a host
    stretch's `after` of equal contents; a region's update at its output array of equal contents by the same value. -/

theorem V1_eq (c : Dev nD) : V1 m c = W1 m c := rfl
theorem V2_eq (c : Dev nD) : V2 m (outsH m) c = W2 m c := by
  show Function.update (V1 m c) main_v3 (W2 m c main_v3) = W2 m c
  rw [V1_eq m c, W2_out m c]; rfl
theorem V3_eq (c : Dev nD) : V3 m (outsH m) c = W3 m c := by
  show StableHlo.after hostOps1 (V2 m (outsH m) c) = W3 m c
  rw [V2_eq m c]; rfl
theorem V4_eq (c : Dev nD) : V4 m (outsH m) c = W4 m c := by
  show Function.update (V3 m (outsH m) c) main_v7 (W4 m c main_v7) = W4 m c
  rw [V3_eq m c, W4_out m c]; rfl
theorem V5_eq (c : Dev nD) : V5 m (outsH m) c = W5 m c := by
  show StableHlo.after hostOps2 (V4 m (outsH m) c) = W5 m c
  rw [V4_eq m c]; rfl
theorem V6_eq (c : Dev nD) : V6 m (outsH m) c = W6 m c := by
  show Function.update (V5 m (outsH m) c) main_v26 (W6 m c main_v26) = W6 m c
  rw [V5_eq m c, W6_out m c]; rfl
theorem V7_eq (c : Dev nD) : V7 m (outsH m) c = W7 m c := by
  show StableHlo.after hostOps3 (V6 m (outsH m) c) = W7 m c
  rw [V6_eq m c]; rfl
theorem V8_eq (c : Dev nD) : V8 m (outsH m) c = W8 m c := by
  show Function.update (V7 m (outsH m) c) main_v45 (W8 m c main_v45) = W8 m c
  rw [V7_eq m c, W8_out m c]; rfl
theorem V9_eq (c : Dev nD) : V9 m (outsH m) c = W9 m c := by
  show StableHlo.after hostOps4 (V8 m (outsH m) c) = W9 m c
  rw [V8_eq m c]; rfl
theorem V10_eq (c : Dev nD) : V10 m (outsH m) c = W10 m c := by
  show Function.update (V9 m (outsH m) c) main_v64 (W10 m c main_v64) = W10 m c
  rw [V9_eq m c, W10_out m c]; rfl
theorem V11_eq (c : Dev nD) : V11 m (outsH m) c = W11 m c := by
  show StableHlo.after hostOps5 (V10 m (outsH m) c) = W11 m c
  rw [V10_eq m c]; rfl
theorem V12_eq (c : Dev nD) : V12 m (outsH m) c = W12 m c := by
  show Function.update (V11 m (outsH m) c) main_v83 (W12 m c main_v83) = W12 m c
  rw [V11_eq m c, W12_out m c]; rfl
theorem V13_eq (c : Dev nD) : V13 m (outsH m) c = W13 m c := by
  show StableHlo.after hostOps6 (V12 m (outsH m) c) = W13 m c
  rw [V12_eq m c]; rfl
theorem V14_eq (c : Dev nD) : V14 m (outsH m) c = W14 m c := by
  show Function.update (V13 m (outsH m) c) main_v102 (W14 m c main_v102) = W14 m c
  rw [V13_eq m c, W14_out m c]; rfl
theorem V15_eq (c : Dev nD) : V15 m (outsH m) c = W15 m c := by
  show StableHlo.after hostOps7 (V14 m (outsH m) c) = W15 m c
  rw [V14_eq m c]; rfl
theorem V16_eq (c : Dev nD) : V16 m (outsH m) c = W16 m c := by
  show Function.update (V15 m (outsH m) c) main_v121 (W16 m c main_v121) = W16 m c
  rw [V15_eq m c, W16_out m c]; rfl
theorem V17_eq (c : Dev nD) : V17 m (outsH m) c = W17 m c := by
  show StableHlo.after hostOps8 (V16 m (outsH m) c) = W17 m c
  rw [V16_eq m c]; rfl
theorem V18_eq (c : Dev nD) : V18 m (outsH m) c = W18 m c := by
  show Function.update (V17 m (outsH m) c) main_v140 (W18 m c main_v140) = W18 m c
  rw [V17_eq m c, W18_out m c]; rfl
theorem V19_eq (c : Dev nD) : V19 m (outsH m) c = W19 m c := by
  show StableHlo.after hostOps9 (V18 m (outsH m) c) = W19 m c
  rw [V18_eq m c]; rfl

/-! ## A region's arrays at its exit: the two hypotheses of `Pipeline.unscopedBufs_of_arrays`

An input window's array is never written back, so the proof data's final array is the entry contents, which the update
at the output array leaves alone; the output window's final array is what the update puts there. A buffer that is no
array of the region is in particular not the output array. -/

theorem hF0 (c : Dev nD) (w : Fin cfg0.W) :
    (dat0 (rd (W1 m)) c).arrAt w cfg0.N = rd (W2 m) c (Pipeline.arrRef spec0 w) := by
  rcases Bool.eq_false_or_eq_true (cfg0.win w).isOut with hw | hw
  · obtain rfl := out_only0 w hw
    exact (W2_out m c).symm
  · exact ((dat0 (rd (W1 m)) c).arrAt_in w hw cfg0.N).trans
      ((A_eq0 (rd (W1 m)) c w).trans (W2_of_ne m c _ (in_ne0 w hw)).symm)
theorem hrest0 (c : Dev nD) : ∀ b, b ∉ Finset.univ.image (Pipeline.arrRef spec0) → rd (W2 m) c b = rd (W1 m) c b :=
  fun b hb => W2_of_ne m c b fun e => hb (Finset.mem_image.mpr ⟨3, Finset.mem_univ _, e.symm⟩)

theorem hF1 (c : Dev nD) (w : Fin cfg1.W) :
    (dat1 (rd (W3 m)) c).arrAt w cfg1.N = rd (W4 m) c (Pipeline.arrRef spec1 w) := by
  rcases Bool.eq_false_or_eq_true (cfg1.win w).isOut with hw | hw
  · obtain rfl := out_only1 w hw
    exact (W4_out m c).symm
  · exact ((dat1 (rd (W3 m)) c).arrAt_in w hw cfg1.N).trans
      ((A_eq1 (rd (W3 m)) c w).trans (W4_of_ne m c _ (in_ne1 w hw)).symm)
theorem hrest1 (c : Dev nD) : ∀ b, b ∉ Finset.univ.image (Pipeline.arrRef spec1) → rd (W4 m) c b = rd (W3 m) c b :=
  fun b hb => W4_of_ne m c b fun e => hb (Finset.mem_image.mpr ⟨34, Finset.mem_univ _, e.symm⟩)

theorem hF2 (c : Dev nD) (w : Fin cfg2.W) :
    (dat2 (rd (W5 m)) c).arrAt w cfg2.N = rd (W6 m) c (Pipeline.arrRef spec2 w) := by
  rcases Bool.eq_false_or_eq_true (cfg2.win w).isOut with hw | hw
  · obtain rfl := out_only2 w hw
    exact (W6_out m c).symm
  · exact ((dat2 (rd (W5 m)) c).arrAt_in w hw cfg2.N).trans
      ((A_eq2 (rd (W5 m)) c w).trans (W6_of_ne m c _ (in_ne2 w hw)).symm)
theorem hrest2 (c : Dev nD) : ∀ b, b ∉ Finset.univ.image (Pipeline.arrRef spec2) → rd (W6 m) c b = rd (W5 m) c b :=
  fun b hb => W6_of_ne m c b fun e => hb (Finset.mem_image.mpr ⟨34, Finset.mem_univ _, e.symm⟩)

theorem hF3 (c : Dev nD) (w : Fin cfg3.W) :
    (dat3 (rd (W7 m)) c).arrAt w cfg3.N = rd (W8 m) c (Pipeline.arrRef spec3 w) := by
  rcases Bool.eq_false_or_eq_true (cfg3.win w).isOut with hw | hw
  · obtain rfl := out_only3 w hw
    exact (W8_out m c).symm
  · exact ((dat3 (rd (W7 m)) c).arrAt_in w hw cfg3.N).trans
      ((A_eq3 (rd (W7 m)) c w).trans (W8_of_ne m c _ (in_ne3 w hw)).symm)
theorem hrest3 (c : Dev nD) : ∀ b, b ∉ Finset.univ.image (Pipeline.arrRef spec3) → rd (W8 m) c b = rd (W7 m) c b :=
  fun b hb => W8_of_ne m c b fun e => hb (Finset.mem_image.mpr ⟨34, Finset.mem_univ _, e.symm⟩)

theorem hF4 (c : Dev nD) (w : Fin cfg4.W) :
    (dat4 (rd (W9 m)) c).arrAt w cfg4.N = rd (W10 m) c (Pipeline.arrRef spec4 w) := by
  rcases Bool.eq_false_or_eq_true (cfg4.win w).isOut with hw | hw
  · obtain rfl := out_only4 w hw
    exact (W10_out m c).symm
  · exact ((dat4 (rd (W9 m)) c).arrAt_in w hw cfg4.N).trans
      ((A_eq4 (rd (W9 m)) c w).trans (W10_of_ne m c _ (in_ne4 w hw)).symm)
theorem hrest4 (c : Dev nD) : ∀ b, b ∉ Finset.univ.image (Pipeline.arrRef spec4) → rd (W10 m) c b = rd (W9 m) c b :=
  fun b hb => W10_of_ne m c b fun e => hb (Finset.mem_image.mpr ⟨34, Finset.mem_univ _, e.symm⟩)

theorem hF5 (c : Dev nD) (w : Fin cfg5.W) :
    (dat5 (rd (W11 m)) c).arrAt w cfg5.N = rd (W12 m) c (Pipeline.arrRef spec5 w) := by
  rcases Bool.eq_false_or_eq_true (cfg5.win w).isOut with hw | hw
  · obtain rfl := out_only5 w hw
    exact (W12_out m c).symm
  · exact ((dat5 (rd (W11 m)) c).arrAt_in w hw cfg5.N).trans
      ((A_eq5 (rd (W11 m)) c w).trans (W12_of_ne m c _ (in_ne5 w hw)).symm)
theorem hrest5 (c : Dev nD) : ∀ b, b ∉ Finset.univ.image (Pipeline.arrRef spec5) → rd (W12 m) c b = rd (W11 m) c b :=
  fun b hb => W12_of_ne m c b fun e => hb (Finset.mem_image.mpr ⟨34, Finset.mem_univ _, e.symm⟩)

theorem hF6 (c : Dev nD) (w : Fin cfg6.W) :
    (dat6 (rd (W13 m)) c).arrAt w cfg6.N = rd (W14 m) c (Pipeline.arrRef spec6 w) := by
  rcases Bool.eq_false_or_eq_true (cfg6.win w).isOut with hw | hw
  · obtain rfl := out_only6 w hw
    exact (W14_out m c).symm
  · exact ((dat6 (rd (W13 m)) c).arrAt_in w hw cfg6.N).trans
      ((A_eq6 (rd (W13 m)) c w).trans (W14_of_ne m c _ (in_ne6 w hw)).symm)
theorem hrest6 (c : Dev nD) : ∀ b, b ∉ Finset.univ.image (Pipeline.arrRef spec6) → rd (W14 m) c b = rd (W13 m) c b :=
  fun b hb => W14_of_ne m c b fun e => hb (Finset.mem_image.mpr ⟨34, Finset.mem_univ _, e.symm⟩)

theorem hF7 (c : Dev nD) (w : Fin cfg7.W) :
    (dat7 (rd (W15 m)) c).arrAt w cfg7.N = rd (W16 m) c (Pipeline.arrRef spec7 w) := by
  rcases Bool.eq_false_or_eq_true (cfg7.win w).isOut with hw | hw
  · obtain rfl := out_only7 w hw
    exact (W16_out m c).symm
  · exact ((dat7 (rd (W15 m)) c).arrAt_in w hw cfg7.N).trans
      ((A_eq7 (rd (W15 m)) c w).trans (W16_of_ne m c _ (in_ne7 w hw)).symm)
theorem hrest7 (c : Dev nD) : ∀ b, b ∉ Finset.univ.image (Pipeline.arrRef spec7) → rd (W16 m) c b = rd (W15 m) c b :=
  fun b hb => W16_of_ne m c b fun e => hb (Finset.mem_image.mpr ⟨34, Finset.mem_univ _, e.symm⟩)

theorem hF8 (c : Dev nD) (w : Fin cfg8.W) :
    (dat8 (rd (W17 m)) c).arrAt w cfg8.N = rd (W18 m) c (Pipeline.arrRef spec8 w) := by
  rcases Bool.eq_false_or_eq_true (cfg8.win w).isOut with hw | hw
  · obtain rfl := out_only8 w hw
    exact (W18_out m c).symm
  · exact ((dat8 (rd (W17 m)) c).arrAt_in w hw cfg8.N).trans
      ((A_eq8 (rd (W17 m)) c w).trans (W18_of_ne m c _ (in_ne8 w hw)).symm)
theorem hrest8 (c : Dev nD) : ∀ b, b ∉ Finset.univ.image (Pipeline.arrRef spec8) → rd (W18 m) c b = rd (W17 m) c b :=
  fun b hb => W18_of_ne m c b fun e => hb (Finset.mem_image.mpr ⟨34, Finset.mem_univ _, e.symm⟩)

end Cert.KernelIdeal.Hand

end
-- ==== Proof.KI.PDats.lean ====
/- Every pipeline's proof data of the kernel's @main, each taken at the contents its region is entered from (`W1`, `W3`,
   …, `W17`: the launch memory folded through the items before the region), as the one family the conditional frame and the
   regions' segment records are stated over; and what rides beside the buffers through every item: no variant, no level
   assigned, the core's generator register at some state and the core owing nothing. Generic in the float model `F`. -/
import proofs.«135270_j33062658245245_1_alg».proof.Proof.KI.Outs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents — a literal `match`, so that the family at a
    numeral reduces to that region's proof data. -/
def pdats : (p : Fin 9) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W15 m)) c
  | ⟨8, _⟩ => fun c => dat8 (rd (W17 m)) c

/-- No variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core's `owes`, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KI.Seg0.lean ====
/- Region 0 of the kernel's @main (custom_call 0, pipeline 0) as a segment record over the thread state "every unscoped
   buffer of the core at the item's contents, the generator register at some state, nothing owed": entered from the
   contents `W1`, left at `W2`. Region 0's four windows read four distinct arrays, so its arrays split out of the unscoped
   buffers at entry (`Pipeline.arrays_of_unscopedBufs`) and go back at the exit contents (`Pipeline.unscopedBufs_of_arrays`,
   from `hF0` and `hrest0`); the generator register goes into the pipeline's invariant and comes back; nothing is owed; the
   kernel has no semaphore of its own. Generic in the float model `F`. -/
import proofs.«135270_j33062658245245_1_alg».proof.Proof.KI.PDats

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 of the kernel program (pipeline 1, custom_call 1) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry1`); at the exit the windows' shares are put together again, at the contents the write-backs leave, and the
   block goes back among the unscoped buffers (`exit1`). The rest of the record (`reg1`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R1
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 1 among the core's unscoped buffers -/

/-- The array of a window of region 1 that is written back is read through no other window. -/
theorem out_alone1 : ∀ w : Fin cfg1.W, (cfg1.win w).isOut = true →
    ∀ w' : Fin cfg1.W, Pipeline.arrRef spec1 w' = Pipeline.arrRef spec1 w → w' = w := by decide

/-- ENTRY, the arrays' part: the core's unscoped buffers at region 1's entry contents are pipeline 1's arrays at the
    proof data's entry contents — each window its array's buffer at the share dealt it, the buffers behind the arrays
    split off the unscoped buffers as one block and dealt among the windows that read them — beside the unscoped
    buffers that are no window's array. -/
theorem entry1 (c : Dev nD) :
    (unscopedBufs c (rd (W3 m) c) : sProp 𝕄)
      ⊢ iprop((pdats m 1 c).arrays ((pdats m 1 c).arrAt · 0) ∗ Pipeline.unscopedRest spec1 c (rd (W3 m) c)) :=
  Cert.Lib.SharedArrays.arrays_of_unscopedBufs_shared (dat1 (rd (W3 m)) c) winFacts₀1.arr_unscoped arr_whole1
    (fun _ => rfl) out_alone1 (rd (W3 m) c) (A_eq1 (rd (W3 m)) c)

/-- EXIT, the arrays' part: pipeline 1's arrays at what its write-backs leave, beside the unscoped rest as the region
    was entered, are the core's unscoped buffers at region 1's exit contents: these have each array at what the
    pipeline leaves (`hF1`) and agree with the entry contents off the arrays (`hrest1`). -/
theorem exit1 (c : Dev nD) :
    iprop((pdats m 1 c).arrays ((pdats m 1 c).arrAt · cfg1.N) ∗ Pipeline.unscopedRest spec1 c (rd (W3 m) c))
      ⊢ (unscopedBufs c (rd (W4 m) c) : sProp 𝕄) :=
  Cert.Lib.SharedArrays.unscopedBufs_of_arrays_shared (dat1 (rd (W3 m)) c) winFacts₀1.arr_unscoped arr_whole1
    (fun _ => rfl) out_alone1 (rd (W3 m) c) (rd (W4 m) c) ((dat1 (rd (W3 m)) c).arrAt · cfg1.N) (hF1 m c) (hrest1 m c)

/-! ## Region 1 as a segment -/

-- `iapply` of a lemma stated over the family at a numeral unifies with the region's own proof data only when
-- unification may unfold plain definitions in a metavariable's type
set_option backward.isDefEq.respectTransparency.types false in
/-- REGION 1 (custom_call 1) over the thread state: entered from every unscoped buffer at `W3`, left at `W4`. Its
    arrays are split out of the unscoped buffers (`entry1`) and put back at the exit contents (`exit1`); the generator
    register goes into the body's invariant and comes out; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 of the kernel program (pipeline 2, custom_call 2) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry2`); at the exit the windows' shares are put together again, at the contents the write-backs leave, and the
   block goes back among the unscoped buffers (`exit2`). The rest of the record (`reg2`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R2
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 2 among the core's unscoped buffers -/

/-- The array of a window of region 2 that is written back is read through no other window. -/
theorem out_alone2 : ∀ w : Fin cfg2.W, (cfg2.win w).isOut = true →
    ∀ w' : Fin cfg2.W, Pipeline.arrRef spec2 w' = Pipeline.arrRef spec2 w → w' = w := by decide

/-- ENTRY, the arrays' part: the core's unscoped buffers at region 2's entry contents are pipeline 2's arrays at the
    proof data's entry contents — each window its array's buffer at the share dealt it, the buffers behind the arrays
    split off the unscoped buffers as one block and dealt among the windows that read them — beside the unscoped
    buffers that are no window's array. -/
theorem entry2 (c : Dev nD) :
    (unscopedBufs c (rd (W5 m) c) : sProp 𝕄)
      ⊢ iprop((pdats m 2 c).arrays ((pdats m 2 c).arrAt · 0) ∗ Pipeline.unscopedRest spec2 c (rd (W5 m) c)) :=
  Cert.Lib.SharedArrays.arrays_of_unscopedBufs_shared (dat2 (rd (W5 m)) c) winFacts₀2.arr_unscoped arr_whole2
    (fun _ => rfl) out_alone2 (rd (W5 m) c) (A_eq2 (rd (W5 m)) c)

/-- EXIT, the arrays' part: pipeline 2's arrays at what its write-backs leave, beside the unscoped rest as the region
    was entered, are the core's unscoped buffers at region 2's exit contents: these have each array at what the
    pipeline leaves (`hF2`) and agree with the entry contents off the arrays (`hrest2`). -/
theorem exit2 (c : Dev nD) :
    iprop((pdats m 2 c).arrays ((pdats m 2 c).arrAt · cfg2.N) ∗ Pipeline.unscopedRest spec2 c (rd (W5 m) c))
      ⊢ (unscopedBufs c (rd (W6 m) c) : sProp 𝕄) :=
  Cert.Lib.SharedArrays.unscopedBufs_of_arrays_shared (dat2 (rd (W5 m)) c) winFacts₀2.arr_unscoped arr_whole2
    (fun _ => rfl) out_alone2 (rd (W5 m) c) (rd (W6 m) c) ((dat2 (rd (W5 m)) c).arrAt · cfg2.N) (hF2 m c) (hrest2 m c)

/-! ## Region 2 as a segment -/

-- `iapply` of a lemma stated over the family at a numeral unifies with the region's own proof data only when
-- unification may unfold plain definitions in a metavariable's type
set_option backward.isDefEq.respectTransparency.types false in
/-- REGION 2 (custom_call 2) over the thread state: entered from every unscoped buffer at `W5`, left at `W6`. Its
    arrays are split out of the unscoped buffers (`entry2`) and put back at the exit contents (`exit2`); the generator
    register goes into the body's invariant and comes out; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 of the kernel program (pipeline 3, custom_call 3) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry3`); at the exit the windows' shares are put together again, at the contents the write-backs leave, and the
   block goes back among the unscoped buffers (`exit3`). The rest of the record (`reg3`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R3
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 3 among the core's unscoped buffers -/

/-- The array of a window of region 3 that is written back is read through no other window. -/
theorem out_alone3 : ∀ w : Fin cfg3.W, (cfg3.win w).isOut = true →
    ∀ w' : Fin cfg3.W, Pipeline.arrRef spec3 w' = Pipeline.arrRef spec3 w → w' = w := by decide

/-- ENTRY, the arrays' part: the core's unscoped buffers at region 3's entry contents are pipeline 3's arrays at the
    proof data's entry contents — each window its array's buffer at the share dealt it, the buffers behind the arrays
    split off the unscoped buffers as one block and dealt among the windows that read them — beside the unscoped
    buffers that are no window's array. -/
theorem entry3 (c : Dev nD) :
    (unscopedBufs c (rd (W7 m) c) : sProp 𝕄)
      ⊢ iprop((pdats m 3 c).arrays ((pdats m 3 c).arrAt · 0) ∗ Pipeline.unscopedRest spec3 c (rd (W7 m) c)) :=
  Cert.Lib.SharedArrays.arrays_of_unscopedBufs_shared (dat3 (rd (W7 m)) c) winFacts₀3.arr_unscoped arr_whole3
    (fun _ => rfl) out_alone3 (rd (W7 m) c) (A_eq3 (rd (W7 m)) c)

/-- EXIT, the arrays' part: pipeline 3's arrays at what its write-backs leave, beside the unscoped rest as the region
    was entered, are the core's unscoped buffers at region 3's exit contents: these have each array at what the
    pipeline leaves (`hF3`) and agree with the entry contents off the arrays (`hrest3`). -/
theorem exit3 (c : Dev nD) :
    iprop((pdats m 3 c).arrays ((pdats m 3 c).arrAt · cfg3.N) ∗ Pipeline.unscopedRest spec3 c (rd (W7 m) c))
      ⊢ (unscopedBufs c (rd (W8 m) c) : sProp 𝕄) :=
  Cert.Lib.SharedArrays.unscopedBufs_of_arrays_shared (dat3 (rd (W7 m)) c) winFacts₀3.arr_unscoped arr_whole3
    (fun _ => rfl) out_alone3 (rd (W7 m) c) (rd (W8 m) c) ((dat3 (rd (W7 m)) c).arrAt · cfg3.N) (hF3 m c) (hrest3 m c)

/-! ## Region 3 as a segment -/

-- `iapply` of a lemma stated over the family at a numeral unifies with the region's own proof data only when
-- unification may unfold plain definitions in a metavariable's type
set_option backward.isDefEq.respectTransparency.types false in
/-- REGION 3 (custom_call 3) over the thread state: entered from every unscoped buffer at `W7`, left at `W8`. Its
    arrays are split out of the unscoped buffers (`entry3`) and put back at the exit contents (`exit3`); the generator
    register goes into the body's invariant and comes out; nothing is owed; the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (rd (W7 m)) c).loose
  hwaits := Pipeline.hwaits_of_owed_zero _ _ _ _ L lv 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (rd (W7 m) c)
  hentry c := by
    rw [Pipeline.ownSems0_none]
    have hsplit := entry3 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- Region 4 of the kernel program (pipeline 4, custom_call 4) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry4`); at the exit the windows' shares are put together again, at the contents the write-backs leave, and the
   block goes back among the unscoped buffers (`exit4`). The rest of the record (`reg4`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R4
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 4 among the core's unscoped buffers -/

/-- The array of a window of region 4 that is written back is read through no other window. -/
theorem out_alone4 : ∀ w : Fin cfg4.W, (cfg4.win w).isOut = true →
    ∀ w' : Fin cfg4.W, Pipeline.arrRef spec4 w' = Pipeline.arrRef spec4 w → w' = w := by decide

/-- ENTRY, the arrays' part: the core's unscoped buffers at region 4's entry contents are pipeline 4's arrays at the
    proof data's entry contents — each window its array's buffer at the share dealt it, the buffers behind the arrays
    split off the unscoped buffers as one block and dealt among the windows that read them — beside the unscoped
    buffers that are no window's array. -/
theorem entry4 (c : Dev nD) :
    (unscopedBufs c (rd (W9 m) c) : sProp 𝕄)
      ⊢ iprop((pdats m 4 c).arrays ((pdats m 4 c).arrAt · 0) ∗ Pipeline.unscopedRest spec4 c (rd (W9 m) c)) :=
  Cert.Lib.SharedArrays.arrays_of_unscopedBufs_shared (dat4 (rd (W9 m)) c) winFacts₀4.arr_unscoped arr_whole4
    (fun _ => rfl) out_alone4 (rd (W9 m) c) (A_eq4 (rd (W9 m)) c)

/-- EXIT, the arrays' part: pipeline 4's arrays at what its write-backs leave, beside the unscoped rest as the region
    was entered, are the core's unscoped buffers at region 4's exit contents: these have each array at what the
    pipeline leaves (`hF4`) and agree with the entry contents off the arrays (`hrest4`). -/
theorem exit4 (c : Dev nD) :
    iprop((pdats m 4 c).arrays ((pdats m 4 c).arrAt · cfg4.N) ∗ Pipeline.unscopedRest spec4 c (rd (W9 m) c))
      ⊢ (unscopedBufs c (rd (W10 m) c) : sProp 𝕄) :=
  Cert.Lib.SharedArrays.unscopedBufs_of_arrays_shared (dat4 (rd (W9 m)) c) winFacts₀4.arr_unscoped arr_whole4
    (fun _ => rfl) out_alone4 (rd (W9 m) c) (rd (W10 m) c) ((dat4 (rd (W9 m)) c).arrAt · cfg4.N) (hF4 m c) (hrest4 m c)

/-! ## Region 4 as a segment -/

-- `iapply` of a lemma stated over the family at a numeral unifies with the region's own proof data only when
-- unification may unfold plain definitions in a metavariable's type
set_option backward.isDefEq.respectTransparency.types false in
/-- REGION 4 (custom_call 4) over the thread state: entered from every unscoped buffer at `W9`, left at `W10`. Its
    arrays are split out of the unscoped buffers (`entry4`) and put back at the exit contents (`exit4`); the generator
    register goes into the body's invariant and comes out; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (rd (W9 m)) c).loose
  hwaits := Pipeline.hwaits_of_owed_zero _ _ _ _ L lv 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (rd (W9 m) c)
  hentry c := by
    rw [Pipeline.ownSems0_none]
    have hsplit := entry4 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/- Region 5 of the kernel program (pipeline 5, custom_call 5) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry5`); at the exit the windows' shares are put together again, at the contents the write-backs leave, and the
   block goes back among the unscoped buffers (`exit5`). The rest of the record (`reg5`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R5
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 5 among the core's unscoped buffers -/

/-- The array of a window of region 5 that is written back is read through no other window. -/
theorem out_alone5 : ∀ w : Fin cfg5.W, (cfg5.win w).isOut = true →
    ∀ w' : Fin cfg5.W, Pipeline.arrRef spec5 w' = Pipeline.arrRef spec5 w → w' = w := by decide

/-- ENTRY, the arrays' part: the core's unscoped buffers at region 5's entry contents are pipeline 5's arrays at the
    proof data's entry contents — each window its array's buffer at the share dealt it, the buffers behind the arrays
    split off the unscoped buffers as one block and dealt among the windows that read them — beside the unscoped
    buffers that are no window's array. -/
theorem entry5 (c : Dev nD) :
    (unscopedBufs c (rd (W11 m) c) : sProp 𝕄)
      ⊢ iprop((pdats m 5 c).arrays ((pdats m 5 c).arrAt · 0) ∗ Pipeline.unscopedRest spec5 c (rd (W11 m) c)) :=
  Cert.Lib.SharedArrays.arrays_of_unscopedBufs_shared (dat5 (rd (W11 m)) c) winFacts₀5.arr_unscoped arr_whole5
    (fun _ => rfl) out_alone5 (rd (W11 m) c) (A_eq5 (rd (W11 m)) c)

/-- EXIT, the arrays' part: pipeline 5's arrays at what its write-backs leave, beside the unscoped rest as the region
    was entered, are the core's unscoped buffers at region 5's exit contents: these have each array at what the
    pipeline leaves (`hF5`) and agree with the entry contents off the arrays (`hrest5`). -/
theorem exit5 (c : Dev nD) :
    iprop((pdats m 5 c).arrays ((pdats m 5 c).arrAt · cfg5.N) ∗ Pipeline.unscopedRest spec5 c (rd (W11 m) c))
      ⊢ (unscopedBufs c (rd (W12 m) c) : sProp 𝕄) :=
  Cert.Lib.SharedArrays.unscopedBufs_of_arrays_shared (dat5 (rd (W11 m)) c) winFacts₀5.arr_unscoped arr_whole5
    (fun _ => rfl) out_alone5 (rd (W11 m) c) (rd (W12 m) c) ((dat5 (rd (W11 m)) c).arrAt · cfg5.N) (hF5 m c) (hrest5 m c)

/-! ## Region 5 as a segment -/

-- `iapply` of a lemma stated over the family at a numeral unifies with the region's own proof data only when
-- unification may unfold plain definitions in a metavariable's type
set_option backward.isDefEq.respectTransparency.types false in
/-- REGION 5 (custom_call 5) over the thread state: entered from every unscoped buffer at `W11`, left at `W12`. Its
    arrays are split out of the unscoped buffers (`entry5`) and put back at the exit contents (`exit5`); the generator
    register goes into the body's invariant and comes out; nothing is owed; the kernel has no semaphore of its own. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (rd (W11 m)) c).loose
  hwaits := Pipeline.hwaits_of_owed_zero _ _ _ _ L lv 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c (rd (W11 m) c)
  hentry c := by
    rw [Pipeline.ownSems0_none]
    have hsplit := entry5 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := exit5 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/- Region 6 of the kernel program (pipeline 6, custom_call 6) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry6`); at the exit the windows' shares are put together again, at the contents the write-backs leave, and the
   block goes back among the unscoped buffers (`exit6`). The rest of the record (`reg6`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R6
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 6 among the core's unscoped buffers -/

/-- The array of a window of region 6 that is written back is read through no other window. -/
theorem out_alone6 : ∀ w : Fin cfg6.W, (cfg6.win w).isOut = true →
    ∀ w' : Fin cfg6.W, Pipeline.arrRef spec6 w' = Pipeline.arrRef spec6 w → w' = w := by decide

/-- ENTRY, the arrays' part: the core's unscoped buffers at region 6's entry contents are pipeline 6's arrays at the
    proof data's entry contents — each window its array's buffer at the share dealt it, the buffers behind the arrays
    split off the unscoped buffers as one block and dealt among the windows that read them — beside the unscoped
    buffers that are no window's array. -/
theorem entry6 (c : Dev nD) :
    (unscopedBufs c (rd (W13 m) c) : sProp 𝕄)
      ⊢ iprop((pdats m 6 c).arrays ((pdats m 6 c).arrAt · 0) ∗ Pipeline.unscopedRest spec6 c (rd (W13 m) c)) :=
  Cert.Lib.SharedArrays.arrays_of_unscopedBufs_shared (dat6 (rd (W13 m)) c) winFacts₀6.arr_unscoped arr_whole6
    (fun _ => rfl) out_alone6 (rd (W13 m) c) (A_eq6 (rd (W13 m)) c)

/-- EXIT, the arrays' part: pipeline 6's arrays at what its write-backs leave, beside the unscoped rest as the region
    was entered, are the core's unscoped buffers at region 6's exit contents: these have each array at what the
    pipeline leaves (`hF6`) and agree with the entry contents off the arrays (`hrest6`). -/
theorem exit6 (c : Dev nD) :
    iprop((pdats m 6 c).arrays ((pdats m 6 c).arrAt · cfg6.N) ∗ Pipeline.unscopedRest spec6 c (rd (W13 m) c))
      ⊢ (unscopedBufs c (rd (W14 m) c) : sProp 𝕄) :=
  Cert.Lib.SharedArrays.unscopedBufs_of_arrays_shared (dat6 (rd (W13 m)) c) winFacts₀6.arr_unscoped arr_whole6
    (fun _ => rfl) out_alone6 (rd (W13 m) c) (rd (W14 m) c) ((dat6 (rd (W13 m)) c).arrAt · cfg6.N) (hF6 m c) (hrest6 m c)

/-! ## Region 6 as a segment -/

-- `iapply` of a lemma stated over the family at a numeral unifies with the region's own proof data only when
-- unification may unfold plain definitions in a metavariable's type
set_option backward.isDefEq.respectTransparency.types false in
/-- REGION 6 (custom_call 6) over the thread state: entered from every unscoped buffer at `W13`, left at `W14`. Its
    arrays are split out of the unscoped buffers (`entry6`) and put back at the exit contents (`exit6`); the generator
    register goes into the body's invariant and comes out; nothing is owed; the kernel has no semaphore of its own. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (rd (W13 m)) c).loose
  hwaits := Pipeline.hwaits_of_owed_zero _ _ _ _ L lv 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c (rd (W13 m) c)
  hentry c := by
    rw [Pipeline.ownSems0_none]
    have hsplit := entry6 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := exit6 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/- Region 7 of the kernel program (pipeline 7, custom_call 7) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry7`); at the exit the windows' shares are put together again, at the contents the write-backs leave, and the
   block goes back among the unscoped buffers (`exit7`). The rest of the record (`reg7`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R7
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 7 among the core's unscoped buffers -/

/-- The array of a window of region 7 that is written back is read through no other window. -/
theorem out_alone7 : ∀ w : Fin cfg7.W, (cfg7.win w).isOut = true →
    ∀ w' : Fin cfg7.W, Pipeline.arrRef spec7 w' = Pipeline.arrRef spec7 w → w' = w := by decide

/-- ENTRY, the arrays' part: the core's unscoped buffers at region 7's entry contents are pipeline 7's arrays at the
    proof data's entry contents — each window its array's buffer at the share dealt it, the buffers behind the arrays
    split off the unscoped buffers as one block and dealt among the windows that read them — beside the unscoped
    buffers that are no window's array. -/
theorem entry7 (c : Dev nD) :
    (unscopedBufs c (rd (W15 m) c) : sProp 𝕄)
      ⊢ iprop((pdats m 7 c).arrays ((pdats m 7 c).arrAt · 0) ∗ Pipeline.unscopedRest spec7 c (rd (W15 m) c)) :=
  Cert.Lib.SharedArrays.arrays_of_unscopedBufs_shared (dat7 (rd (W15 m)) c) winFacts₀7.arr_unscoped arr_whole7
    (fun _ => rfl) out_alone7 (rd (W15 m) c) (A_eq7 (rd (W15 m)) c)

/-- EXIT, the arrays' part: pipeline 7's arrays at what its write-backs leave, beside the unscoped rest as the region
    was entered, are the core's unscoped buffers at region 7's exit contents: these have each array at what the
    pipeline leaves (`hF7`) and agree with the entry contents off the arrays (`hrest7`). -/
theorem exit7 (c : Dev nD) :
    iprop((pdats m 7 c).arrays ((pdats m 7 c).arrAt · cfg7.N) ∗ Pipeline.unscopedRest spec7 c (rd (W15 m) c))
      ⊢ (unscopedBufs c (rd (W16 m) c) : sProp 𝕄) :=
  Cert.Lib.SharedArrays.unscopedBufs_of_arrays_shared (dat7 (rd (W15 m)) c) winFacts₀7.arr_unscoped arr_whole7
    (fun _ => rfl) out_alone7 (rd (W15 m) c) (rd (W16 m) c) ((dat7 (rd (W15 m)) c).arrAt · cfg7.N) (hF7 m c) (hrest7 m c)

/-! ## Region 7 as a segment -/

-- `iapply` of a lemma stated over the family at a numeral unifies with the region's own proof data only when
-- unification may unfold plain definitions in a metavariable's type
set_option backward.isDefEq.respectTransparency.types false in
/-- REGION 7 (custom_call 7) over the thread state: entered from every unscoped buffer at `W15`, left at `W16`. Its
    arrays are split out of the unscoped buffers (`entry7`) and put back at the exit contents (`exit7`); the generator
    register goes into the body's invariant and comes out; nothing is owed; the kernel has no semaphore of its own. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (rd (W15 m)) c).loose
  hwaits := Pipeline.hwaits_of_owed_zero _ _ _ _ L lv 7 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec7 c (rd (W15 m) c)
  hentry c := by
    rw [Pipeline.ownSems0_none]
    have hsplit := entry7 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := exit7 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/- Region 8 of the kernel program (pipeline 8, custom_call 8) as a segment of @main over the thread state "every
   unscoped buffer of the core whole at the boundary's contents, the generator register at some state, nothing owed".
   Several of the region's input windows may read one and the same array, so the windows' arrays are no family of
   distinct buffers: at the region's entry the distinct buffers behind the arrays are split off the unscoped buffers
   as one block and dealt among the windows, each window taking its array's buffer at the share the proof data name
   (`entry8`); at the exit the windows' shares are put together again, at the contents the write-backs leave, and the
   block goes back among the unscoped buffers (`exit8`). The rest of the record (`reg8`) is as for distinct arrays.
   For any float model `F`. -/
import proofs.«135270_j33062658245245_1_alg».proof.Proof.KI.LaunchP
import proofs.«135270_j33062658245245_1_alg».proof.Proof.KI.RegionsP
import proofs.«135270_j33062658245245_1_alg».proof.Proof.KI.R8
import proofs.«135270_j33062658245245_1_alg».proof.Proof.KI.Outs
import proofs.«135270_j33062658245245_1_alg».proof.Proof.KI.PDats
import proofs.«135270_j33062658245245_1_alg».proof.Proof.LibSharedArrays
import proofs.«135270_j33062658245245_1_alg».proof.Proof.LibSharedSeg
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays of region 8 among the core's unscoped buffers -/

/-- The array of a window of region 8 that is written back is read through no other window. -/
theorem out_alone8 : ∀ w : Fin cfg8.W, (cfg8.win w).isOut = true →
    ∀ w' : Fin cfg8.W, Pipeline.arrRef spec8 w' = Pipeline.arrRef spec8 w → w' = w := by decide

/-- ENTRY, the arrays' part: the core's unscoped buffers at region 8's entry contents are pipeline 8's arrays at the
    proof data's entry contents — each window its array's buffer at the share dealt it, the buffers behind the arrays
    split off the unscoped buffers as one block and dealt among the windows that read them — beside the unscoped
    buffers that are no window's array. -/
theorem entry8 (c : Dev nD) :
    (unscopedBufs c (rd (W17 m) c) : sProp 𝕄)
      ⊢ iprop((pdats m 8 c).arrays ((pdats m 8 c).arrAt · 0) ∗ Pipeline.unscopedRest spec8 c (rd (W17 m) c)) :=
  Cert.Lib.SharedArrays.arrays_of_unscopedBufs_shared (dat8 (rd (W17 m)) c) winFacts₀8.arr_unscoped arr_whole8
    (fun _ => rfl) out_alone8 (rd (W17 m) c) (A_eq8 (rd (W17 m)) c)

/-- EXIT, the arrays' part: pipeline 8's arrays at what its write-backs leave, beside the unscoped rest as the region
    was entered, are the core's unscoped buffers at region 8's exit contents: these have each array at what the
    pipeline leaves (`hF8`) and agree with the entry contents off the arrays (`hrest8`). -/
theorem exit8 (c : Dev nD) :
    iprop((pdats m 8 c).arrays ((pdats m 8 c).arrAt · cfg8.N) ∗ Pipeline.unscopedRest spec8 c (rd (W17 m) c))
      ⊢ (unscopedBufs c (rd (W18 m) c) : sProp 𝕄) :=
  Cert.Lib.SharedArrays.unscopedBufs_of_arrays_shared (dat8 (rd (W17 m)) c) winFacts₀8.arr_unscoped arr_whole8
    (fun _ => rfl) out_alone8 (rd (W17 m) c) (rd (W18 m) c) ((dat8 (rd (W17 m)) c).arrAt · cfg8.N) (hF8 m c) (hrest8 m c)

/-! ## Region 8 as a segment -/

-- `iapply` of a lemma stated over the family at a numeral unifies with the region's own proof data only when
-- unification may unfold plain definitions in a metavariable's type
set_option backward.isDefEq.respectTransparency.types false in
/-- REGION 8 (custom_call 8) over the thread state: entered from every unscoped buffer at `W17`, left at `W18`. Its
    arrays are split out of the unscoped buffers (`entry8`) and put back at the exit contents (`exit8`); the generator
    register goes into the body's invariant and comes out; nothing is owed; the kernel has no semaphore of its own. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (rd (W17 m)) c).loose
  hwaits := Pipeline.hwaits_of_owed_zero _ _ _ _ L lv 8 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec8 c (rd (W17 m) c)
  hentry c := by
    rw [Pipeline.ownSems0_none]
    have hsplit := entry8 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := exit8 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/- THE FRAME of the kernel's @main: at the compiled mesh, from any memory with zero counters, every weakly fair execution
   of @main on the TensorCores terminates, nothing faulting, and every final memory holds the three argument arrays as
   launched. It is the conditional frame at the regions' outputs `outsH m`, the proof-data family `pdats m`, the nine
   regions' segment records, and — beside the buffers through every item — the generator register at some state and the
   core owing nothing: each region is entered from the contents before it and left at those after it because the
   conditional frame's valuations at `outsH m` are the closed contents `W1 … W18`; the launch's user element is the
   pipeline library's own; every core makes its first rest state from what the launch deals it. Generic in the float
   model `F`. -/
import proofs.«135270_j33062658245245_1_alg».proof.Proof.KI.Seg0
import proofs.«135270_j33062658245245_1_alg».proof.Proof.KI.Seg1
import proofs.«135270_j33062658245245_1_alg».proof.Proof.KI.Seg2
import proofs.«135270_j33062658245245_1_alg».proof.Proof.KI.Seg3
import proofs.«135270_j33062658245245_1_alg».proof.Proof.KI.Seg4
import proofs.«135270_j33062658245245_1_alg».proof.Proof.KI.Seg5
import proofs.«135270_j33062658245245_1_alg».proof.Proof.KI.Seg6
import proofs.«135270_j33062658245245_1_alg».proof.Proof.KI.Seg7
import proofs.«135270_j33062658245245_1_alg».proof.Proof.KI.Seg8

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The chain: each region between the conditional frame's thread states -/

/-- Region 0 is entered from the contents before it and left at those after it. -/
theorem hpre0 (c : Dev nD) :
    iprop(StableHlo.held (c : Thread nD τ) (Pipeline.ucRefs τ sig) (V1 m c) ∗ Rst c) ⊢ (reg0 m).pre c := by
  rw [V1_eq m c]; exact .rfl
theorem hpost0 (c : Dev nD) :
    (reg0 m).post c ⊢ iprop(StableHlo.held (c : Thread nD τ) (Pipeline.ucRefs τ sig) (V2 m (outsH m) c) ∗ Rst c) := by
  rw [V2_eq m c]; exact .rfl
/-- Region 1 is entered from the contents before it and left at those after it. -/
theorem hpre1 (c : Dev nD) :
    iprop(StableHlo.held (c : Thread nD τ) (Pipeline.ucRefs τ sig) (V3 m (outsH m) c) ∗ Rst c) ⊢ (reg1 m).pre c := by
  rw [V3_eq m c]; exact .rfl
theorem hpost1 (c : Dev nD) :
    (reg1 m).post c ⊢ iprop(StableHlo.held (c : Thread nD τ) (Pipeline.ucRefs τ sig) (V4 m (outsH m) c) ∗ Rst c) := by
  rw [V4_eq m c]; exact .rfl
/-- Region 2 is entered from the contents before it and left at those after it. -/
theorem hpre2 (c : Dev nD) :
    iprop(StableHlo.held (c : Thread nD τ) (Pipeline.ucRefs τ sig) (V5 m (outsH m) c) ∗ Rst c) ⊢ (reg2 m).pre c := by
  rw [V5_eq m c]; exact .rfl
theorem hpost2 (c : Dev nD) :
    (reg2 m).post c ⊢ iprop(StableHlo.held (c : Thread nD τ) (Pipeline.ucRefs τ sig) (V6 m (outsH m) c) ∗ Rst c) := by
  rw [V6_eq m c]; exact .rfl
/-- Region 3 is entered from the contents before it and left at those after it. -/
theorem hpre3 (c : Dev nD) :
    iprop(StableHlo.held (c : Thread nD τ) (Pipeline.ucRefs τ sig) (V7 m (outsH m) c) ∗ Rst c) ⊢ (reg3 m).pre c := by
  rw [V7_eq m c]; exact .rfl
theorem hpost3 (c : Dev nD) :
    (reg3 m).post c ⊢ iprop(StableHlo.held (c : Thread nD τ) (Pipeline.ucRefs τ sig) (V8 m (outsH m) c) ∗ Rst c) := by
  rw [V8_eq m c]; exact .rfl
/-- Region 4 is entered from the contents before it and left at those after it. -/
theorem hpre4 (c : Dev nD) :
    iprop(StableHlo.held (c : Thread nD τ) (Pipeline.ucRefs τ sig) (V9 m (outsH m) c) ∗ Rst c) ⊢ (reg4 m).pre c := by
  rw [V9_eq m c]; exact .rfl
theorem hpost4 (c : Dev nD) :
    (reg4 m).post c ⊢ iprop(StableHlo.held (c : Thread nD τ) (Pipeline.ucRefs τ sig) (V10 m (outsH m) c) ∗ Rst c) := by
  rw [V10_eq m c]; exact .rfl
/-- Region 5 is entered from the contents before it and left at those after it. -/
theorem hpre5 (c : Dev nD) :
    iprop(StableHlo.held (c : Thread nD τ) (Pipeline.ucRefs τ sig) (V11 m (outsH m) c) ∗ Rst c) ⊢ (reg5 m).pre c := by
  rw [V11_eq m c]; exact .rfl
theorem hpost5 (c : Dev nD) :
    (reg5 m).post c ⊢ iprop(StableHlo.held (c : Thread nD τ) (Pipeline.ucRefs τ sig) (V12 m (outsH m) c) ∗ Rst c) := by
  rw [V12_eq m c]; exact .rfl
/-- Region 6 is entered from the contents before it and left at those after it. -/
theorem hpre6 (c : Dev nD) :
    iprop(StableHlo.held (c : Thread nD τ) (Pipeline.ucRefs τ sig) (V13 m (outsH m) c) ∗ Rst c) ⊢ (reg6 m).pre c := by
  rw [V13_eq m c]; exact .rfl
theorem hpost6 (c : Dev nD) :
    (reg6 m).post c ⊢ iprop(StableHlo.held (c : Thread nD τ) (Pipeline.ucRefs τ sig) (V14 m (outsH m) c) ∗ Rst c) := by
  rw [V14_eq m c]; exact .rfl
/-- Region 7 is entered from the contents before it and left at those after it. -/
theorem hpre7 (c : Dev nD) :
    iprop(StableHlo.held (c : Thread nD τ) (Pipeline.ucRefs τ sig) (V15 m (outsH m) c) ∗ Rst c) ⊢ (reg7 m).pre c := by
  rw [V15_eq m c]; exact .rfl
theorem hpost7 (c : Dev nD) :
    (reg7 m).post c ⊢ iprop(StableHlo.held (c : Thread nD τ) (Pipeline.ucRefs τ sig) (V16 m (outsH m) c) ∗ Rst c) := by
  rw [V16_eq m c]; exact .rfl
/-- Region 8 is entered from the contents before it and left at those after it. -/
theorem hpre8 (c : Dev nD) :
    iprop(StableHlo.held (c : Thread nD τ) (Pipeline.ucRefs τ sig) (V17 m (outsH m) c) ∗ Rst c) ⊢ (reg8 m).pre c := by
  rw [V17_eq m c]; exact .rfl
theorem hpost8 (c : Dev nD) :
    (reg8 m).post c ⊢ iprop(StableHlo.held (c : Thread nD τ) (Pipeline.ucRefs τ sig) (V18 m (outsH m) c) ∗ Rst c) := by
  rw [V18_eq m c]; exact .rfl

/-! ## The frame -/

-- the conditional frame's implicit arguments are found by unifying its conclusion with this one, which takes unfolding
-- plain definitions in a metavariable's type
set_option backward.isDefEq.respectTransparency.types false in
/-- THE FRAME, at any float model `F`. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (Ix := Unit) (U := UR sig nD τ) (Lvl := ℕ) m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)
    (R8 := reg8 m) (hpre8 := hpre8 m) (hpost8 := hpost8 m)

end Cert.KernelIdeal.Hand

end
-- ==== Proof.KI.RunVal.lean ====
/- THE RUN of the kernel's @main WITH ITS RESULT: the launch of the frame called once more with one more reading at the
   end. At the compiled mesh, from any memory with zero counters, every weakly fair execution of @main on the TensorCores
   terminates, nothing faulting, and every final memory holds in the result buffer `main_v159` the closed contents
   `W19 m c main_v159` — the launch memory folded through the ten host stretches and the nine regions — and the three
   argument arrays as launched. The items as the kit's segments, the chain of thread states and the launch are those of
   the frame; the last thread state (every unscoped buffer at the last contents) is read against the final state at the
   result buffer as at the arguments, and the last valuation at `outsH m` is `W19`. Generic in the float model `F`. -/
import proofs.«135270_j33062658245245_1_alg».proof.Proof.KI.Frame

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- @main's items as the kit's segments on core `c`: the host stretches' from the conditional frame's contents at
    `outsH m`, the regions' the nine records, the generator register and the core owing nothing beside them. -/
abbrev segsH : Dev nD → List (Seg (pcfgs (F := F)) adm (pdats m) () defs₀ 𝒱₀ L lv) :=
  segs (Ix := Unit) (U := UR sig nD τ) (Lvl := ℕ) m (outsH m) 𝒱₀ L lv (fun _ c => Rst c) () (pdats m)
    (reg0 m) (reg1 m) (reg2 m) (reg3 m) (reg4 m) (reg5 m) (reg6 m) (reg7 m) (reg8 m)

-- the kit's implicit arguments are found by unifying its conclusion with this one, which takes unfolding plain
-- definitions in a metavariable's type
set_option backward.isDefEq.respectTransparency.types false in
/-- THE RUN WITH ITS RESULT, at any float model `F`. -/
theorem run_val (ρ : Dev nD → PrngReg) : θ_run defs (onTc (τ := τ) (main (F := F))) ⟨m, fun _ => 0, ρ⟩ (fun r => ∀ c : Dev nD,
      r.2.mem ((c.tc : Thread nD τ).loc main_v159) = W19 m c main_v159
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ 𝒱₀ L lv m ρ main
    (segsH m)
    (fun c Q => by
      rewrite [main_chain c, Seg.run_eq_chain,
        show (segsH m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segsH, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (V0 m c) ∗ Rst c))
    (Tₙ := fun c => StableHlo.held (c : Thread nD τ) (Pipeline.ucRefs τ sig) (V19 m (outsH m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, hpost8 m c,
      sep_mono .rfl (show Rst c ⊢ (iprop(∃ W, owes (c : Thread nD τ) (0 : CellTallies nD τ sig Unit) W) : sProp 𝕄) from by
        iintro ⟨-, HO⟩; iexact HO)⟩)
    (hinit := ?hin)
    (QY := fun c s => s.mem ((c.tc : Thread nD τ).loc main_v159) = W19 m c main_v159
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?hf) (hQ := fun _ h => h)
  case hu =>
    -- the launch's user element is the pipeline library's own; no ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hin =>
    -- the launch: on every core the unscoped buffers are `held` at the launch contents, the generator register and the
    -- `owes` make the rest
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hf =>
    -- the end: the result's buffer and each argument's read off the last valuation
    unfold StableHlo.held
    iintro ⟨Hh, HSI⟩
    ihave Hr := (pointsTo_read_all (Pipeline.ucRefs τ sig) (fun b => ((c : Thread nD τ).1, b)) (V19 m (outsH m) c) s') $$ [Hh HSI]
    · isplitl [Hh] <;> iassumption
    icases Hr with ⟨%h, HSI⟩
    imodintro
    isplitr
    · ipureintro
      exact ⟨(h (Proc.devRef .tc main_v159) (Finset.mem_filter.mpr ⟨StableHlo.devRef_mem_tcRefs main_v159, by decide⟩)).trans (congrFun (V19_eq m c) (Proc.devRef .tc main_v159)),
        (h (Proc.devRef .tc main_arg0) (Finset.mem_filter.mpr ⟨StableHlo.devRef_mem_tcRefs main_arg0, by decide⟩)).trans (V19_main_arg0 m (outsH m) c),
        (h (Proc.devRef .tc main_arg1) (Finset.mem_filter.mpr ⟨StableHlo.devRef_mem_tcRefs main_arg1, by decide⟩)).trans (V19_main_arg1 m (outsH m) c),
        (h (Proc.devRef .tc main_arg2) (Finset.mem_filter.mpr ⟨StableHlo.devRef_mem_tcRefs main_arg2, by decide⟩)).trans (V19_main_arg2 m (outsH m) c)⟩
    · iexact HSI

end Cert.KernelIdeal.Hand

end
-- ==== Proof.KI.Host1.lean ====
import proofs.«135270_j33062658245245_1_alg».proof.Proof.KI.RegionsP
import Idealize.ShloMosaic.Lib.StableHlo.Run

/-! What the host stretches of @main leave in the buffers they write, for arbitrary region outputs outs:
  region 0's operands, each region output read back off the valuation after it (out0 .. out8), the transposed weights and the bias
  carried along the valuations, every slab of a region output reshaped to [4096,128] (buf_vN), every region's slice of the
  transposed weights and of the bias, and the program's result: the mean over the 8 slabs of the last region's output. -/

-- decided memberships among the program's references recurse past the default depth
set_option maxRecDepth 7852

noncomputable section

namespace Cert.KernelIdeal.Hand

open Cert.KernelIdeal Cert.KernelIdeal.Gen Cert.KernelIdeal.GenP Idealize.ShloMosaic Idealize.ShloMosaic.TcCoe Idealize.ShloMosaic.StableHlo

variable {F : FTy → Type} [FloatOps F] (m : (ℓ : Loc nD τ sig) → Buf (Elt F) ℓ) (outs : Outs (F := F))

/-! ## Region 0's operands -/

theorem V1_arg0 (c : Dev nD) : V1 m c main_arg0 = m ((c : Thread nD τ).loc main_arg0) :=
  V1_of m c main_arg0 (by decide)

theorem V1_v0 (c : Dev nD) :
    V1 m c main_v0 = transpose S65x128x128 [0, 2, 1] (m ((c : Thread nD τ).loc main_arg1)) transposes_S65x128x128_S65x128x128_0_2_1 := by
  dsimp only [V1, hostOps0]; after_results

theorem V1_v1 (c : Dev nD) :
    V1 m c main_v1 = extractStridedSlice S1x128x128 ![0, 0, 0] (transpose S65x128x128 [0, 2, 1] (m ((c : Thread nD τ).loc main_arg1)) transposes_S65x128x128_S65x128x128_0_2_1) slices_S65x128x128_S1x128x128_0_0_0 := by
  dsimp only [V1, hostOps0]; after_results

theorem V1_v2 (c : Dev nD) :
    V1 m c main_v2 = extractStridedSlice S1x128 ![0, 0] (m ((c : Thread nD τ).loc main_arg2)) slices_S65x128_S1x128_0_0 := by
  dsimp only [V1, hostOps0]; after_results

/-! ## What a region leaves in its output array -/

theorem out0 (c : Dev nD) : V2 m outs c main_v3 = outs 2 main_v3 c :=
  Function.update_self _ _ _

theorem out1 (c : Dev nD) : V4 m outs c main_v7 = outs 4 main_v7 c :=
  Function.update_self _ _ _

theorem out2 (c : Dev nD) : V6 m outs c main_v26 = outs 6 main_v26 c :=
  Function.update_self _ _ _

theorem out3 (c : Dev nD) : V8 m outs c main_v45 = outs 8 main_v45 c :=
  Function.update_self _ _ _

theorem out4 (c : Dev nD) : V10 m outs c main_v64 = outs 10 main_v64 c :=
  Function.update_self _ _ _

theorem out5 (c : Dev nD) : V12 m outs c main_v83 = outs 12 main_v83 c :=
  Function.update_self _ _ _

theorem out6 (c : Dev nD) : V14 m outs c main_v102 = outs 14 main_v102 c :=
  Function.update_self _ _ _

theorem out7 (c : Dev nD) : V16 m outs c main_v121 = outs 16 main_v121 c :=
  Function.update_self _ _ _

theorem out8 (c : Dev nD) : V18 m outs c main_v140 = outs 18 main_v140 c :=
  Function.update_self _ _ _

/-! ## The transposed weights and the bias, carried along: no later item writes them -/

theorem v0_at2 (c : Dev nD) :
    V2 m outs c main_v0 = transpose S65x128x128 [0, 2, 1] (m ((c : Thread nD τ).loc main_arg1)) transposes_S65x128x128_S65x128x128_0_2_1 :=
  (V2_of m outs c main_v0 (by decide)).trans (V1_v0 m c)

theorem v0_at3 (c : Dev nD) :
    V3 m outs c main_v0 = transpose S65x128x128 [0, 2, 1] (m ((c : Thread nD τ).loc main_arg1)) transposes_S65x128x128_S65x128x128_0_2_1 :=
  (V3_of m outs c main_v0 (by decide)).trans (v0_at2 m outs c)

theorem v0_at4 (c : Dev nD) :
    V4 m outs c main_v0 = transpose S65x128x128 [0, 2, 1] (m ((c : Thread nD τ).loc main_arg1)) transposes_S65x128x128_S65x128x128_0_2_1 :=
  (V4_of m outs c main_v0 (by decide)).trans (v0_at3 m outs c)

theorem v0_at5 (c : Dev nD) :
    V5 m outs c main_v0 = transpose S65x128x128 [0, 2, 1] (m ((c : Thread nD τ).loc main_arg1)) transposes_S65x128x128_S65x128x128_0_2_1 :=
  (V5_of m outs c main_v0 (by decide)).trans (v0_at4 m outs c)

theorem v0_at6 (c : Dev nD) :
    V6 m outs c main_v0 = transpose S65x128x128 [0, 2, 1] (m ((c : Thread nD τ).loc main_arg1)) transposes_S65x128x128_S65x128x128_0_2_1 :=
  (V6_of m outs c main_v0 (by decide)).trans (v0_at5 m outs c)

theorem v0_at7 (c : Dev nD) :
    V7 m outs c main_v0 = transpose S65x128x128 [0, 2, 1] (m ((c : Thread nD τ).loc main_arg1)) transposes_S65x128x128_S65x128x128_0_2_1 :=
  (V7_of m outs c main_v0 (by decide)).trans (v0_at6 m outs c)

theorem v0_at8 (c : Dev nD) :
    V8 m outs c main_v0 = transpose S65x128x128 [0, 2, 1] (m ((c : Thread nD τ).loc main_arg1)) transposes_S65x128x128_S65x128x128_0_2_1 :=
  (V8_of m outs c main_v0 (by decide)).trans (v0_at7 m outs c)

theorem v0_at9 (c : Dev nD) :
    V9 m outs c main_v0 = transpose S65x128x128 [0, 2, 1] (m ((c : Thread nD τ).loc main_arg1)) transposes_S65x128x128_S65x128x128_0_2_1 :=
  (V9_of m outs c main_v0 (by decide)).trans (v0_at8 m outs c)

theorem v0_at10 (c : Dev nD) :
    V10 m outs c main_v0 = transpose S65x128x128 [0, 2, 1] (m ((c : Thread nD τ).loc main_arg1)) transposes_S65x128x128_S65x128x128_0_2_1 :=
  (V10_of m outs c main_v0 (by decide)).trans (v0_at9 m outs c)

theorem v0_at11 (c : Dev nD) :
    V11 m outs c main_v0 = transpose S65x128x128 [0, 2, 1] (m ((c : Thread nD τ).loc main_arg1)) transposes_S65x128x128_S65x128x128_0_2_1 :=
  (V11_of m outs c main_v0 (by decide)).trans (v0_at10 m outs c)

theorem v0_at12 (c : Dev nD) :
    V12 m outs c main_v0 = transpose S65x128x128 [0, 2, 1] (m ((c : Thread nD τ).loc main_arg1)) transposes_S65x128x128_S65x128x128_0_2_1 :=
  (V12_of m outs c main_v0 (by decide)).trans (v0_at11 m outs c)

theorem v0_at13 (c : Dev nD) :
    V13 m outs c main_v0 = transpose S65x128x128 [0, 2, 1] (m ((c : Thread nD τ).loc main_arg1)) transposes_S65x128x128_S65x128x128_0_2_1 :=
  (V13_of m outs c main_v0 (by decide)).trans (v0_at12 m outs c)

theorem v0_at14 (c : Dev nD) :
    V14 m outs c main_v0 = transpose S65x128x128 [0, 2, 1] (m ((c : Thread nD τ).loc main_arg1)) transposes_S65x128x128_S65x128x128_0_2_1 :=
  (V14_of m outs c main_v0 (by decide)).trans (v0_at13 m outs c)

theorem v0_at15 (c : Dev nD) :
    V15 m outs c main_v0 = transpose S65x128x128 [0, 2, 1] (m ((c : Thread nD τ).loc main_arg1)) transposes_S65x128x128_S65x128x128_0_2_1 :=
  (V15_of m outs c main_v0 (by decide)).trans (v0_at14 m outs c)

theorem v0_at16 (c : Dev nD) :
    V16 m outs c main_v0 = transpose S65x128x128 [0, 2, 1] (m ((c : Thread nD τ).loc main_arg1)) transposes_S65x128x128_S65x128x128_0_2_1 :=
  (V16_of m outs c main_v0 (by decide)).trans (v0_at15 m outs c)

theorem arg2_at1 (c : Dev nD) : V1 m c main_arg2 = m ((c : Thread nD τ).loc main_arg2) :=
  V1_of m c main_arg2 (by decide)

theorem arg2_at2 (c : Dev nD) : V2 m outs c main_arg2 = m ((c : Thread nD τ).loc main_arg2) :=
  (V2_of m outs c main_arg2 (by decide)).trans (arg2_at1 m c)

theorem arg2_at3 (c : Dev nD) : V3 m outs c main_arg2 = m ((c : Thread nD τ).loc main_arg2) :=
  (V3_of m outs c main_arg2 (by decide)).trans (arg2_at2 m outs c)

theorem arg2_at4 (c : Dev nD) : V4 m outs c main_arg2 = m ((c : Thread nD τ).loc main_arg2) :=
  (V4_of m outs c main_arg2 (by decide)).trans (arg2_at3 m outs c)

theorem arg2_at5 (c : Dev nD) : V5 m outs c main_arg2 = m ((c : Thread nD τ).loc main_arg2) :=
  (V5_of m outs c main_arg2 (by decide)).trans (arg2_at4 m outs c)

theorem arg2_at6 (c : Dev nD) : V6 m outs c main_arg2 = m ((c : Thread nD τ).loc main_arg2) :=
  (V6_of m outs c main_arg2 (by decide)).trans (arg2_at5 m outs c)

theorem arg2_at7 (c : Dev nD) : V7 m outs c main_arg2 = m ((c : Thread nD τ).loc main_arg2) :=
  (V7_of m outs c main_arg2 (by decide)).trans (arg2_at6 m outs c)

theorem arg2_at8 (c : Dev nD) : V8 m outs c main_arg2 = m ((c : Thread nD τ).loc main_arg2) :=
  (V8_of m outs c main_arg2 (by decide)).trans (arg2_at7 m outs c)

theorem arg2_at9 (c : Dev nD) : V9 m outs c main_arg2 = m ((c : Thread nD τ).loc main_arg2) :=
  (V9_of m outs c main_arg2 (by decide)).trans (arg2_at8 m outs c)

theorem arg2_at10 (c : Dev nD) : V10 m outs c main_arg2 = m ((c : Thread nD τ).loc main_arg2) :=
  (V10_of m outs c main_arg2 (by decide)).trans (arg2_at9 m outs c)

theorem arg2_at11 (c : Dev nD) : V11 m outs c main_arg2 = m ((c : Thread nD τ).loc main_arg2) :=
  (V11_of m outs c main_arg2 (by decide)).trans (arg2_at10 m outs c)

theorem arg2_at12 (c : Dev nD) : V12 m outs c main_arg2 = m ((c : Thread nD τ).loc main_arg2) :=
  (V12_of m outs c main_arg2 (by decide)).trans (arg2_at11 m outs c)

theorem arg2_at13 (c : Dev nD) : V13 m outs c main_arg2 = m ((c : Thread nD τ).loc main_arg2) :=
  (V13_of m outs c main_arg2 (by decide)).trans (arg2_at12 m outs c)

theorem arg2_at14 (c : Dev nD) : V14 m outs c main_arg2 = m ((c : Thread nD τ).loc main_arg2) :=
  (V14_of m outs c main_arg2 (by decide)).trans (arg2_at13 m outs c)

theorem arg2_at15 (c : Dev nD) : V15 m outs c main_arg2 = m ((c : Thread nD τ).loc main_arg2) :=
  (V15_of m outs c main_arg2 (by decide)).trans (arg2_at14 m outs c)

theorem arg2_at16 (c : Dev nD) : V16 m outs c main_arg2 = m ((c : Thread nD τ).loc main_arg2) :=
  (V16_of m outs c main_arg2 (by decide)).trans (arg2_at15 m outs c)

/-! ## The buffers the stretches between regions write, each at the valuation after its stretch -/

theorem buf_v4 (c : Dev nD) :
    V3 m outs c main_v4 = shapeCast S4096x128 (outs 2 main_v3 c) shapeCasts_S1x4096x128_S4096x128 := by
  dsimp only [V3, hostOps1]; after_results; rw [out0 m outs c]; rfl

theorem buf_v5 (c : Dev nD) :
    V3 m outs c main_v5 = extractStridedSlice S8x128x128 ![1, 0, 0] (transpose S65x128x128 [0, 2, 1] (m ((c : Thread nD τ).loc main_arg1)) transposes_S65x128x128_S65x128x128_0_2_1) slices_S65x128x128_S8x128x128_1_0_0 := by
  dsimp only [V3, hostOps1]; after_results; rw [v0_at2 m outs c]

theorem buf_v6 (c : Dev nD) :
    V3 m outs c main_v6 = extractStridedSlice S8x128 ![1, 0] (m ((c : Thread nD τ).loc main_arg2)) slices_S65x128_S8x128_1_0 := by
  dsimp only [V3, hostOps1]; after_results; rw [arg2_at2 m outs c]

theorem buf_v9 (c : Dev nD) :
    V5 m outs c main_v9 = shapeCast S4096x128 (extractStridedSlice S1x4096x128 ![0, 0, 0] (outs 4 main_v7 c) slices_S8x4096x128_S1x4096x128_0_0_0) shapeCasts_S1x4096x128_S4096x128 := by
  dsimp only [V5, hostOps2]; after_results; rw [out1 m outs c]; rfl

theorem buf_v11 (c : Dev nD) :
    V5 m outs c main_v11 = shapeCast S4096x128 (extractStridedSlice S1x4096x128 ![1, 0, 0] (outs 4 main_v7 c) slices_S8x4096x128_S1x4096x128_1_0_0) shapeCasts_S1x4096x128_S4096x128 := by
  dsimp only [V5, hostOps2]; after_results; rw [out1 m outs c]; rfl

theorem buf_v13 (c : Dev nD) :
    V5 m outs c main_v13 = shapeCast S4096x128 (extractStridedSlice S1x4096x128 ![2, 0, 0] (outs 4 main_v7 c) slices_S8x4096x128_S1x4096x128_2_0_0) shapeCasts_S1x4096x128_S4096x128 := by
  dsimp only [V5, hostOps2]; after_results; rw [out1 m outs c]; rfl

theorem buf_v15 (c : Dev nD) :
    V5 m outs c main_v15 = shapeCast S4096x128 (extractStridedSlice S1x4096x128 ![3, 0, 0] (outs 4 main_v7 c) slices_S8x4096x128_S1x4096x128_3_0_0) shapeCasts_S1x4096x128_S4096x128 := by
  dsimp only [V5, hostOps2]; after_results; rw [out1 m outs c]; rfl

theorem buf_v17 (c : Dev nD) :
    V5 m outs c main_v17 = shapeCast S4096x128 (extractStridedSlice S1x4096x128 ![4, 0, 0] (outs 4 main_v7 c) slices_S8x4096x128_S1x4096x128_4_0_0) shapeCasts_S1x4096x128_S4096x128 := by
  dsimp only [V5, hostOps2]; after_results; rw [out1 m outs c]; rfl

theorem buf_v19 (c : Dev nD) :
    V5 m outs c main_v19 = shapeCast S4096x128 (extractStridedSlice S1x4096x128 ![5, 0, 0] (outs 4 main_v7 c) slices_S8x4096x128_S1x4096x128_5_0_0) shapeCasts_S1x4096x128_S4096x128 := by
  dsimp only [V5, hostOps2]; after_results; rw [out1 m outs c]; rfl

theorem buf_v21 (c : Dev nD) :
    V5 m outs c main_v21 = shapeCast S4096x128 (extractStridedSlice S1x4096x128 ![6, 0, 0] (outs 4 main_v7 c) slices_S8x4096x128_S1x4096x128_6_0_0) shapeCasts_S1x4096x128_S4096x128 := by
  dsimp only [V5, hostOps2]; after_results; rw [out1 m outs c]; rfl

theorem buf_v23 (c : Dev nD) :
    V5 m outs c main_v23 = shapeCast S4096x128 (extractStridedSlice S1x4096x128 ![7, 0, 0] (outs 4 main_v7 c) slices_S8x4096x128_S1x4096x128_7_0_0) shapeCasts_S1x4096x128_S4096x128 := by
  dsimp only [V5, hostOps2]; after_results; rw [out1 m outs c]; rfl

theorem buf_v24 (c : Dev nD) :
    V5 m outs c main_v24 = extractStridedSlice S8x128x128 ![9, 0, 0] (transpose S65x128x128 [0, 2, 1] (m ((c : Thread nD τ).loc main_arg1)) transposes_S65x128x128_S65x128x128_0_2_1) slices_S65x128x128_S8x128x128_9_0_0 := by
  dsimp only [V5, hostOps2]; after_results; rw [v0_at4 m outs c]

theorem buf_v25 (c : Dev nD) :
    V5 m outs c main_v25 = extractStridedSlice S8x128 ![9, 0] (m ((c : Thread nD τ).loc main_arg2)) slices_S65x128_S8x128_9_0 := by
  dsimp only [V5, hostOps2]; after_results; rw [arg2_at4 m outs c]

theorem buf_v28 (c : Dev nD) :
    V7 m outs c main_v28 = shapeCast S4096x128 (extractStridedSlice S1x4096x128 ![0, 0, 0] (outs 6 main_v26 c) slices_S8x4096x128_S1x4096x128_0_0_0) shapeCasts_S1x4096x128_S4096x128 := by
  dsimp only [V7, hostOps3]; after_results; rw [out2 m outs c]; rfl

theorem buf_v30 (c : Dev nD) :
    V7 m outs c main_v30 = shapeCast S4096x128 (extractStridedSlice S1x4096x128 ![1, 0, 0] (outs 6 main_v26 c) slices_S8x4096x128_S1x4096x128_1_0_0) shapeCasts_S1x4096x128_S4096x128 := by
  dsimp only [V7, hostOps3]; after_results; rw [out2 m outs c]; rfl

theorem buf_v32 (c : Dev nD) :
    V7 m outs c main_v32 = shapeCast S4096x128 (extractStridedSlice S1x4096x128 ![2, 0, 0] (outs 6 main_v26 c) slices_S8x4096x128_S1x4096x128_2_0_0) shapeCasts_S1x4096x128_S4096x128 := by
  dsimp only [V7, hostOps3]; after_results; rw [out2 m outs c]; rfl

theorem buf_v34 (c : Dev nD) :
    V7 m outs c main_v34 = shapeCast S4096x128 (extractStridedSlice S1x4096x128 ![3, 0, 0] (outs 6 main_v26 c) slices_S8x4096x128_S1x4096x128_3_0_0) shapeCasts_S1x4096x128_S4096x128 := by
  dsimp only [V7, hostOps3]; after_results; rw [out2 m outs c]; rfl

theorem buf_v36 (c : Dev nD) :
    V7 m outs c main_v36 = shapeCast S4096x128 (extractStridedSlice S1x4096x128 ![4, 0, 0] (outs 6 main_v26 c) slices_S8x4096x128_S1x4096x128_4_0_0) shapeCasts_S1x4096x128_S4096x128 := by
  dsimp only [V7, hostOps3]; after_results; rw [out2 m outs c]; rfl

theorem buf_v38 (c : Dev nD) :
    V7 m outs c main_v38 = shapeCast S4096x128 (extractStridedSlice S1x4096x128 ![5, 0, 0] (outs 6 main_v26 c) slices_S8x4096x128_S1x4096x128_5_0_0) shapeCasts_S1x4096x128_S4096x128 := by
  dsimp only [V7, hostOps3]; after_results; rw [out2 m outs c]; rfl

theorem buf_v40 (c : Dev nD) :
    V7 m outs c main_v40 = shapeCast S4096x128 (extractStridedSlice S1x4096x128 ![6, 0, 0] (outs 6 main_v26 c) slices_S8x4096x128_S1x4096x128_6_0_0) shapeCasts_S1x4096x128_S4096x128 := by
  dsimp only [V7, hostOps3]; after_results; rw [out2 m outs c]; rfl

theorem buf_v42 (c : Dev nD) :
    V7 m outs c main_v42 = shapeCast S4096x128 (extractStridedSlice S1x4096x128 ![7, 0, 0] (outs 6 main_v26 c) slices_S8x4096x128_S1x4096x128_7_0_0) shapeCasts_S1x4096x128_S4096x128 := by
  dsimp only [V7, hostOps3]; after_results; rw [out2 m outs c]; rfl

theorem buf_v43 (c : Dev nD) :
    V7 m outs c main_v43 = extractStridedSlice S8x128x128 ![17, 0, 0] (transpose S65x128x128 [0, 2, 1] (m ((c : Thread nD τ).loc main_arg1)) transposes_S65x128x128_S65x128x128_0_2_1) slices_S65x128x128_S8x128x128_17_0_0 := by
  dsimp only [V7, hostOps3]; after_results; rw [v0_at6 m outs c]

theorem buf_v44 (c : Dev nD) :
    V7 m outs c main_v44 = extractStridedSlice S8x128 ![17, 0] (m ((c : Thread nD τ).loc main_arg2)) slices_S65x128_S8x128_17_0 := by
  dsimp only [V7, hostOps3]; after_results; rw [arg2_at6 m outs c]

theorem buf_v47 (c : Dev nD) :
    V9 m outs c main_v47 = shapeCast S4096x128 (extractStridedSlice S1x4096x128 ![0, 0, 0] (outs 8 main_v45 c) slices_S8x4096x128_S1x4096x128_0_0_0) shapeCasts_S1x4096x128_S4096x128 := by
  dsimp only [V9, hostOps4]; after_results; rw [out3 m outs c]; rfl

theorem buf_v49 (c : Dev nD) :
    V9 m outs c main_v49 = shapeCast S4096x128 (extractStridedSlice S1x4096x128 ![1, 0, 0] (outs 8 main_v45 c) slices_S8x4096x128_S1x4096x128_1_0_0) shapeCasts_S1x4096x128_S4096x128 := by
  dsimp only [V9, hostOps4]; after_results; rw [out3 m outs c]; rfl

theorem buf_v51 (c : Dev nD) :
    V9 m outs c main_v51 = shapeCast S4096x128 (extractStridedSlice S1x4096x128 ![2, 0, 0] (outs 8 main_v45 c) slices_S8x4096x128_S1x4096x128_2_0_0) shapeCasts_S1x4096x128_S4096x128 := by
  dsimp only [V9, hostOps4]; after_results; rw [out3 m outs c]; rfl

theorem buf_v53 (c : Dev nD) :
    V9 m outs c main_v53 = shapeCast S4096x128 (extractStridedSlice S1x4096x128 ![3, 0, 0] (outs 8 main_v45 c) slices_S8x4096x128_S1x4096x128_3_0_0) shapeCasts_S1x4096x128_S4096x128 := by
  dsimp only [V9, hostOps4]; after_results; rw [out3 m outs c]; rfl

theorem buf_v55 (c : Dev nD) :
    V9 m outs c main_v55 = shapeCast S4096x128 (extractStridedSlice S1x4096x128 ![4, 0, 0] (outs 8 main_v45 c) slices_S8x4096x128_S1x4096x128_4_0_0) shapeCasts_S1x4096x128_S4096x128 := by
  dsimp only [V9, hostOps4]; after_results; rw [out3 m outs c]; rfl

theorem buf_v57 (c : Dev nD) :
    V9 m outs c main_v57 = shapeCast S4096x128 (extractStridedSlice S1x4096x128 ![5, 0, 0] (outs 8 main_v45 c) slices_S8x4096x128_S1x4096x128_5_0_0) shapeCasts_S1x4096x128_S4096x128 := by
  dsimp only [V9, hostOps4]; after_results; rw [out3 m outs c]; rfl

theorem buf_v59 (c : Dev nD) :
    V9 m outs c main_v59 = shapeCast S4096x128 (extractStridedSlice S1x4096x128 ![6, 0, 0] (outs 8 main_v45 c) slices_S8x4096x128_S1x4096x128_6_0_0) shapeCasts_S1x4096x128_S4096x128 := by
  dsimp only [V9, hostOps4]; after_results; rw [out3 m outs c]; rfl

theorem buf_v61 (c : Dev nD) :
    V9 m outs c main_v61 = shapeCast S4096x128 (extractStridedSlice S1x4096x128 ![7, 0, 0] (outs 8 main_v45 c) slices_S8x4096x128_S1x4096x128_7_0_0) shapeCasts_S1x4096x128_S4096x128 := by
  dsimp only [V9, hostOps4]; after_results; rw [out3 m outs c]; rfl

theorem buf_v62 (c : Dev nD) :
    V9 m outs c main_v62 = extractStridedSlice S8x128x128 ![25, 0, 0] (transpose S65x128x128 [0, 2, 1] (m ((c : Thread nD τ).loc main_arg1)) transposes_S65x128x128_S65x128x128_0_2_1) slices_S65x128x128_S8x128x128_25_0_0 := by
  dsimp only [V9, hostOps4]; after_results; rw [v0_at8 m outs c]

theorem buf_v63 (c : Dev nD) :
    V9 m outs c main_v63 = extractStridedSlice S8x128 ![25, 0] (m ((c : Thread nD τ).loc main_arg2)) slices_S65x128_S8x128_25_0 := by
  dsimp only [V9, hostOps4]; after_results; rw [arg2_at8 m outs c]

theorem buf_v66 (c : Dev nD) :
    V11 m outs c main_v66 = shapeCast S4096x128 (extractStridedSlice S1x4096x128 ![0, 0, 0] (outs 10 main_v64 c) slices_S8x4096x128_S1x4096x128_0_0_0) shapeCasts_S1x4096x128_S4096x128 := by
  dsimp only [V11, hostOps5]; after_results; rw [out4 m outs c]; rfl

theorem buf_v68 (c : Dev nD) :
    V11 m outs c main_v68 = shapeCast S4096x128 (extractStridedSlice S1x4096x128 ![1, 0, 0] (outs 10 main_v64 c) slices_S8x4096x128_S1x4096x128_1_0_0) shapeCasts_S1x4096x128_S4096x128 := by
  dsimp only [V11, hostOps5]; after_results; rw [out4 m outs c]; rfl

theorem buf_v70 (c : Dev nD) :
    V11 m outs c main_v70 = shapeCast S4096x128 (extractStridedSlice S1x4096x128 ![2, 0, 0] (outs 10 main_v64 c) slices_S8x4096x128_S1x4096x128_2_0_0) shapeCasts_S1x4096x128_S4096x128 := by
  dsimp only [V11, hostOps5]; after_results; rw [out4 m outs c]; rfl

theorem buf_v72 (c : Dev nD) :
    V11 m outs c main_v72 = shapeCast S4096x128 (extractStridedSlice S1x4096x128 ![3, 0, 0] (outs 10 main_v64 c) slices_S8x4096x128_S1x4096x128_3_0_0) shapeCasts_S1x4096x128_S4096x128 := by
  dsimp only [V11, hostOps5]; after_results; rw [out4 m outs c]; rfl

theorem buf_v74 (c : Dev nD) :
    V11 m outs c main_v74 = shapeCast S4096x128 (extractStridedSlice S1x4096x128 ![4, 0, 0] (outs 10 main_v64 c) slices_S8x4096x128_S1x4096x128_4_0_0) shapeCasts_S1x4096x128_S4096x128 := by
  dsimp only [V11, hostOps5]; after_results; rw [out4 m outs c]; rfl

theorem buf_v76 (c : Dev nD) :
    V11 m outs c main_v76 = shapeCast S4096x128 (extractStridedSlice S1x4096x128 ![5, 0, 0] (outs 10 main_v64 c) slices_S8x4096x128_S1x4096x128_5_0_0) shapeCasts_S1x4096x128_S4096x128 := by
  dsimp only [V11, hostOps5]; after_results; rw [out4 m outs c]; rfl

theorem buf_v78 (c : Dev nD) :
    V11 m outs c main_v78 = shapeCast S4096x128 (extractStridedSlice S1x4096x128 ![6, 0, 0] (outs 10 main_v64 c) slices_S8x4096x128_S1x4096x128_6_0_0) shapeCasts_S1x4096x128_S4096x128 := by
  dsimp only [V11, hostOps5]; after_results; rw [out4 m outs c]; rfl

theorem buf_v80 (c : Dev nD) :
    V11 m outs c main_v80 = shapeCast S4096x128 (extractStridedSlice S1x4096x128 ![7, 0, 0] (outs 10 main_v64 c) slices_S8x4096x128_S1x4096x128_7_0_0) shapeCasts_S1x4096x128_S4096x128 := by
  dsimp only [V11, hostOps5]; after_results; rw [out4 m outs c]; rfl

theorem buf_v81 (c : Dev nD) :
    V11 m outs c main_v81 = extractStridedSlice S8x128x128 ![33, 0, 0] (transpose S65x128x128 [0, 2, 1] (m ((c : Thread nD τ).loc main_arg1)) transposes_S65x128x128_S65x128x128_0_2_1) slices_S65x128x128_S8x128x128_33_0_0 := by
  dsimp only [V11, hostOps5]; after_results; rw [v0_at10 m outs c]

theorem buf_v82 (c : Dev nD) :
    V11 m outs c main_v82 = extractStridedSlice S8x128 ![33, 0] (m ((c : Thread nD τ).loc main_arg2)) slices_S65x128_S8x128_33_0 := by
  dsimp only [V11, hostOps5]; after_results; rw [arg2_at10 m outs c]

theorem buf_v85 (c : Dev nD) :
    V13 m outs c main_v85 = shapeCast S4096x128 (extractStridedSlice S1x4096x128 ![0, 0, 0] (outs 12 main_v83 c) slices_S8x4096x128_S1x4096x128_0_0_0) shapeCasts_S1x4096x128_S4096x128 := by
  dsimp only [V13, hostOps6]; after_results; rw [out5 m outs c]; rfl

theorem buf_v87 (c : Dev nD) :
    V13 m outs c main_v87 = shapeCast S4096x128 (extractStridedSlice S1x4096x128 ![1, 0, 0] (outs 12 main_v83 c) slices_S8x4096x128_S1x4096x128_1_0_0) shapeCasts_S1x4096x128_S4096x128 := by
  dsimp only [V13, hostOps6]; after_results; rw [out5 m outs c]; rfl

theorem buf_v89 (c : Dev nD) :
    V13 m outs c main_v89 = shapeCast S4096x128 (extractStridedSlice S1x4096x128 ![2, 0, 0] (outs 12 main_v83 c) slices_S8x4096x128_S1x4096x128_2_0_0) shapeCasts_S1x4096x128_S4096x128 := by
  dsimp only [V13, hostOps6]; after_results; rw [out5 m outs c]; rfl

theorem buf_v91 (c : Dev nD) :
    V13 m outs c main_v91 = shapeCast S4096x128 (extractStridedSlice S1x4096x128 ![3, 0, 0] (outs 12 main_v83 c) slices_S8x4096x128_S1x4096x128_3_0_0) shapeCasts_S1x4096x128_S4096x128 := by
  dsimp only [V13, hostOps6]; after_results; rw [out5 m outs c]; rfl

theorem buf_v93 (c : Dev nD) :
    V13 m outs c main_v93 = shapeCast S4096x128 (extractStridedSlice S1x4096x128 ![4, 0, 0] (outs 12 main_v83 c) slices_S8x4096x128_S1x4096x128_4_0_0) shapeCasts_S1x4096x128_S4096x128 := by
  dsimp only [V13, hostOps6]; after_results; rw [out5 m outs c]; rfl

theorem buf_v95 (c : Dev nD) :
    V13 m outs c main_v95 = shapeCast S4096x128 (extractStridedSlice S1x4096x128 ![5, 0, 0] (outs 12 main_v83 c) slices_S8x4096x128_S1x4096x128_5_0_0) shapeCasts_S1x4096x128_S4096x128 := by
  dsimp only [V13, hostOps6]; after_results; rw [out5 m outs c]; rfl

theorem buf_v97 (c : Dev nD) :
    V13 m outs c main_v97 = shapeCast S4096x128 (extractStridedSlice S1x4096x128 ![6, 0, 0] (outs 12 main_v83 c) slices_S8x4096x128_S1x4096x128_6_0_0) shapeCasts_S1x4096x128_S4096x128 := by
  dsimp only [V13, hostOps6]; after_results; rw [out5 m outs c]; rfl

theorem buf_v99 (c : Dev nD) :
    V13 m outs c main_v99 = shapeCast S4096x128 (extractStridedSlice S1x4096x128 ![7, 0, 0] (outs 12 main_v83 c) slices_S8x4096x128_S1x4096x128_7_0_0) shapeCasts_S1x4096x128_S4096x128 := by
  dsimp only [V13, hostOps6]; after_results; rw [out5 m outs c]; rfl

theorem buf_v100 (c : Dev nD) :
    V13 m outs c main_v100 = extractStridedSlice S8x128x128 ![41, 0, 0] (transpose S65x128x128 [0, 2, 1] (m ((c : Thread nD τ).loc main_arg1)) transposes_S65x128x128_S65x128x128_0_2_1) slices_S65x128x128_S8x128x128_41_0_0 := by
  dsimp only [V13, hostOps6]; after_results; rw [v0_at12 m outs c]

theorem buf_v101 (c : Dev nD) :
    V13 m outs c main_v101 = extractStridedSlice S8x128 ![41, 0] (m ((c : Thread nD τ).loc main_arg2)) slices_S65x128_S8x128_41_0 := by
  dsimp only [V13, hostOps6]; after_results; rw [arg2_at12 m outs c]

theorem buf_v104 (c : Dev nD) :
    V15 m outs c main_v104 = shapeCast S4096x128 (extractStridedSlice S1x4096x128 ![0, 0, 0] (outs 14 main_v102 c) slices_S8x4096x128_S1x4096x128_0_0_0) shapeCasts_S1x4096x128_S4096x128 := by
  dsimp only [V15, hostOps7]; after_results; rw [out6 m outs c]; rfl

theorem buf_v106 (c : Dev nD) :
    V15 m outs c main_v106 = shapeCast S4096x128 (extractStridedSlice S1x4096x128 ![1, 0, 0] (outs 14 main_v102 c) slices_S8x4096x128_S1x4096x128_1_0_0) shapeCasts_S1x4096x128_S4096x128 := by
  dsimp only [V15, hostOps7]; after_results; rw [out6 m outs c]; rfl

theorem buf_v108 (c : Dev nD) :
    V15 m outs c main_v108 = shapeCast S4096x128 (extractStridedSlice S1x4096x128 ![2, 0, 0] (outs 14 main_v102 c) slices_S8x4096x128_S1x4096x128_2_0_0) shapeCasts_S1x4096x128_S4096x128 := by
  dsimp only [V15, hostOps7]; after_results; rw [out6 m outs c]; rfl

theorem buf_v110 (c : Dev nD) :
    V15 m outs c main_v110 = shapeCast S4096x128 (extractStridedSlice S1x4096x128 ![3, 0, 0] (outs 14 main_v102 c) slices_S8x4096x128_S1x4096x128_3_0_0) shapeCasts_S1x4096x128_S4096x128 := by
  dsimp only [V15, hostOps7]; after_results; rw [out6 m outs c]; rfl

theorem buf_v112 (c : Dev nD) :
    V15 m outs c main_v112 = shapeCast S4096x128 (extractStridedSlice S1x4096x128 ![4, 0, 0] (outs 14 main_v102 c) slices_S8x4096x128_S1x4096x128_4_0_0) shapeCasts_S1x4096x128_S4096x128 := by
  dsimp only [V15, hostOps7]; after_results; rw [out6 m outs c]; rfl

theorem buf_v114 (c : Dev nD) :
    V15 m outs c main_v114 = shapeCast S4096x128 (extractStridedSlice S1x4096x128 ![5, 0, 0] (outs 14 main_v102 c) slices_S8x4096x128_S1x4096x128_5_0_0) shapeCasts_S1x4096x128_S4096x128 := by
  dsimp only [V15, hostOps7]; after_results; rw [out6 m outs c]; rfl

theorem buf_v116 (c : Dev nD) :
    V15 m outs c main_v116 = shapeCast S4096x128 (extractStridedSlice S1x4096x128 ![6, 0, 0] (outs 14 main_v102 c) slices_S8x4096x128_S1x4096x128_6_0_0) shapeCasts_S1x4096x128_S4096x128 := by
  dsimp only [V15, hostOps7]; after_results; rw [out6 m outs c]; rfl

theorem buf_v118 (c : Dev nD) :
    V15 m outs c main_v118 = shapeCast S4096x128 (extractStridedSlice S1x4096x128 ![7, 0, 0] (outs 14 main_v102 c) slices_S8x4096x128_S1x4096x128_7_0_0) shapeCasts_S1x4096x128_S4096x128 := by
  dsimp only [V15, hostOps7]; after_results; rw [out6 m outs c]; rfl

theorem buf_v119 (c : Dev nD) :
    V15 m outs c main_v119 = extractStridedSlice S8x128x128 ![49, 0, 0] (transpose S65x128x128 [0, 2, 1] (m ((c : Thread nD τ).loc main_arg1)) transposes_S65x128x128_S65x128x128_0_2_1) slices_S65x128x128_S8x128x128_49_0_0 := by
  dsimp only [V15, hostOps7]; after_results; rw [v0_at14 m outs c]

theorem buf_v120 (c : Dev nD) :
    V15 m outs c main_v120 = extractStridedSlice S8x128 ![49, 0] (m ((c : Thread nD τ).loc main_arg2)) slices_S65x128_S8x128_49_0 := by
  dsimp only [V15, hostOps7]; after_results; rw [arg2_at14 m outs c]

theorem buf_v123 (c : Dev nD) :
    V17 m outs c main_v123 = shapeCast S4096x128 (extractStridedSlice S1x4096x128 ![0, 0, 0] (outs 16 main_v121 c) slices_S8x4096x128_S1x4096x128_0_0_0) shapeCasts_S1x4096x128_S4096x128 := by
  dsimp only [V17, hostOps8]; after_results; rw [out7 m outs c]; rfl

theorem buf_v125 (c : Dev nD) :
    V17 m outs c main_v125 = shapeCast S4096x128 (extractStridedSlice S1x4096x128 ![1, 0, 0] (outs 16 main_v121 c) slices_S8x4096x128_S1x4096x128_1_0_0) shapeCasts_S1x4096x128_S4096x128 := by
  dsimp only [V17, hostOps8]; after_results; rw [out7 m outs c]; rfl

theorem buf_v127 (c : Dev nD) :
    V17 m outs c main_v127 = shapeCast S4096x128 (extractStridedSlice S1x4096x128 ![2, 0, 0] (outs 16 main_v121 c) slices_S8x4096x128_S1x4096x128_2_0_0) shapeCasts_S1x4096x128_S4096x128 := by
  dsimp only [V17, hostOps8]; after_results; rw [out7 m outs c]; rfl

theorem buf_v129 (c : Dev nD) :
    V17 m outs c main_v129 = shapeCast S4096x128 (extractStridedSlice S1x4096x128 ![3, 0, 0] (outs 16 main_v121 c) slices_S8x4096x128_S1x4096x128_3_0_0) shapeCasts_S1x4096x128_S4096x128 := by
  dsimp only [V17, hostOps8]; after_results; rw [out7 m outs c]; rfl

theorem buf_v131 (c : Dev nD) :
    V17 m outs c main_v131 = shapeCast S4096x128 (extractStridedSlice S1x4096x128 ![4, 0, 0] (outs 16 main_v121 c) slices_S8x4096x128_S1x4096x128_4_0_0) shapeCasts_S1x4096x128_S4096x128 := by
  dsimp only [V17, hostOps8]; after_results; rw [out7 m outs c]; rfl

theorem buf_v133 (c : Dev nD) :
    V17 m outs c main_v133 = shapeCast S4096x128 (extractStridedSlice S1x4096x128 ![5, 0, 0] (outs 16 main_v121 c) slices_S8x4096x128_S1x4096x128_5_0_0) shapeCasts_S1x4096x128_S4096x128 := by
  dsimp only [V17, hostOps8]; after_results; rw [out7 m outs c]; rfl

theorem buf_v135 (c : Dev nD) :
    V17 m outs c main_v135 = shapeCast S4096x128 (extractStridedSlice S1x4096x128 ![6, 0, 0] (outs 16 main_v121 c) slices_S8x4096x128_S1x4096x128_6_0_0) shapeCasts_S1x4096x128_S4096x128 := by
  dsimp only [V17, hostOps8]; after_results; rw [out7 m outs c]; rfl

theorem buf_v137 (c : Dev nD) :
    V17 m outs c main_v137 = shapeCast S4096x128 (extractStridedSlice S1x4096x128 ![7, 0, 0] (outs 16 main_v121 c) slices_S8x4096x128_S1x4096x128_7_0_0) shapeCasts_S1x4096x128_S4096x128 := by
  dsimp only [V17, hostOps8]; after_results; rw [out7 m outs c]; rfl

theorem buf_v138 (c : Dev nD) :
    V17 m outs c main_v138 = extractStridedSlice S8x128x128 ![57, 0, 0] (transpose S65x128x128 [0, 2, 1] (m ((c : Thread nD τ).loc main_arg1)) transposes_S65x128x128_S65x128x128_0_2_1) slices_S65x128x128_S8x128x128_57_0_0 := by
  dsimp only [V17, hostOps8]; after_results; rw [v0_at16 m outs c]

theorem buf_v139 (c : Dev nD) :
    V17 m outs c main_v139 = extractStridedSlice S8x128 ![57, 0] (m ((c : Thread nD τ).loc main_arg2)) slices_S65x128_S8x128_57_0 := by
  dsimp only [V17, hostOps8]; after_results; rw [arg2_at16 m outs c]

/-! ## The result: the mean over the 8 slabs of the last region's output -/

theorem V19_v159 (c : Dev nD) :
    V19 m outs c main_v159 = Host.divf (Host.reduceAdd (outs 18 main_v140 c) (constant S_ .f32 0x00000000#32) reducesTo_S8x4096x128_S4096x128_d0 h_S_)
      (broadcastInDim S4096x128 ![] bcast_S_S4096x128 (constant S_ .f32 0x41000000#32)) := by
  dsimp only [V19, hostOps9]; after_results; rw [out8 m outs c]

end Cert.KernelIdeal.Hand
-- ==== Proof.KI.Host2.lean ====
import proofs.«135270_j33062658245245_1_alg».proof.Proof.KI.Host1

/-! What regions 1 to 2 find in their 34 operand arrays on entry, for arbitrary region outputs outs: each parent array is a slab
  of an earlier region's output reshaped to [4096,128] (or region 0's whole output reshaped), array 32 the region's 8 rows of the
  transposed weights, array 33 its 8 rows of the bias. A table of cases over the operand lists of the program's custom_calls. -/

-- decided memberships among the program's references recurse past the default depth
set_option maxRecDepth 7852

noncomputable section

namespace Cert.KernelIdeal.Hand

open Cert.KernelIdeal Cert.KernelIdeal.Gen Cert.KernelIdeal.GenP Idealize.ShloMosaic Idealize.ShloMosaic.TcCoe Idealize.ShloMosaic.StableHlo

variable {F : FTy → Type} [FloatOps F] (m : (ℓ : Loc nD τ sig) → Buf (Elt F) ℓ) (outs : Outs (F := F))

/-! ## Region 1's 34 operand arrays at its entry valuation -/

theorem opnd1_0 (c : Dev nD) :
    V3 m outs c (Pipeline.arrRef spec1 ⟨0, by decide⟩) = shapeCast S4096x128 (outs 2 main_v3 c) shapeCasts_S1x4096x128_S4096x128 := by
  show V3 m outs c main_v4 = _
  exact buf_v4 m outs c

theorem opnd1_1 (c : Dev nD) :
    V3 m outs c (Pipeline.arrRef spec1 ⟨1, by decide⟩) = shapeCast S4096x128 (outs 2 main_v3 c) shapeCasts_S1x4096x128_S4096x128 := by
  show V3 m outs c main_v4 = _
  exact buf_v4 m outs c

theorem opnd1_2 (c : Dev nD) :
    V3 m outs c (Pipeline.arrRef spec1 ⟨2, by decide⟩) = shapeCast S4096x128 (outs 2 main_v3 c) shapeCasts_S1x4096x128_S4096x128 := by
  show V3 m outs c main_v4 = _
  exact buf_v4 m outs c

theorem opnd1_3 (c : Dev nD) :
    V3 m outs c (Pipeline.arrRef spec1 ⟨3, by decide⟩) = shapeCast S4096x128 (outs 2 main_v3 c) shapeCasts_S1x4096x128_S4096x128 := by
  show V3 m outs c main_v4 = _
  exact buf_v4 m outs c

theorem opnd1_4 (c : Dev nD) :
    V3 m outs c (Pipeline.arrRef spec1 ⟨4, by decide⟩) = shapeCast S4096x128 (outs 2 main_v3 c) shapeCasts_S1x4096x128_S4096x128 := by
  show V3 m outs c main_v4 = _
  exact buf_v4 m outs c

theorem opnd1_5 (c : Dev nD) :
    V3 m outs c (Pipeline.arrRef spec1 ⟨5, by decide⟩) = shapeCast S4096x128 (outs 2 main_v3 c) shapeCasts_S1x4096x128_S4096x128 := by
  show V3 m outs c main_v4 = _
  exact buf_v4 m outs c

theorem opnd1_6 (c : Dev nD) :
    V3 m outs c (Pipeline.arrRef spec1 ⟨6, by decide⟩) = shapeCast S4096x128 (outs 2 main_v3 c) shapeCasts_S1x4096x128_S4096x128 := by
  show V3 m outs c main_v4 = _
  exact buf_v4 m outs c

theorem opnd1_7 (c : Dev nD) :
    V3 m outs c (Pipeline.arrRef spec1 ⟨7, by decide⟩) = shapeCast S4096x128 (outs 2 main_v3 c) shapeCasts_S1x4096x128_S4096x128 := by
  show V3 m outs c main_v4 = _
  exact buf_v4 m outs c

theorem opnd1_8 (c : Dev nD) :
    V3 m outs c (Pipeline.arrRef spec1 ⟨8, by decide⟩) = shapeCast S4096x128 (outs 2 main_v3 c) shapeCasts_S1x4096x128_S4096x128 := by
  show V3 m outs c main_v4 = _
  exact buf_v4 m outs c

theorem opnd1_9 (c : Dev nD) :
    V3 m outs c (Pipeline.arrRef spec1 ⟨9, by decide⟩) = shapeCast S4096x128 (outs 2 main_v3 c) shapeCasts_S1x4096x128_S4096x128 := by
  show V3 m outs c main_v4 = _
  exact buf_v4 m outs c

theorem opnd1_10 (c : Dev nD) :
    V3 m outs c (Pipeline.arrRef spec1 ⟨10, by decide⟩) = shapeCast S4096x128 (outs 2 main_v3 c) shapeCasts_S1x4096x128_S4096x128 := by
  show V3 m outs c main_v4 = _
  exact buf_v4 m outs c

theorem opnd1_11 (c : Dev nD) :
    V3 m outs c (Pipeline.arrRef spec1 ⟨11, by decide⟩) = shapeCast S4096x128 (outs 2 main_v3 c) shapeCasts_S1x4096x128_S4096x128 := by
  show V3 m outs c main_v4 = _
  exact buf_v4 m outs c

theorem opnd1_12 (c : Dev nD) :
    V3 m outs c (Pipeline.arrRef spec1 ⟨12, by decide⟩) = shapeCast S4096x128 (outs 2 main_v3 c) shapeCasts_S1x4096x128_S4096x128 := by
  show V3 m outs c main_v4 = _
  exact buf_v4 m outs c

theorem opnd1_13 (c : Dev nD) :
    V3 m outs c (Pipeline.arrRef spec1 ⟨13, by decide⟩) = shapeCast S4096x128 (outs 2 main_v3 c) shapeCasts_S1x4096x128_S4096x128 := by
  show V3 m outs c main_v4 = _
  exact buf_v4 m outs c

theorem opnd1_14 (c : Dev nD) :
    V3 m outs c (Pipeline.arrRef spec1 ⟨14, by decide⟩) = shapeCast S4096x128 (outs 2 main_v3 c) shapeCasts_S1x4096x128_S4096x128 := by
  show V3 m outs c main_v4 = _
  exact buf_v4 m outs c

theorem opnd1_15 (c : Dev nD) :
    V3 m outs c (Pipeline.arrRef spec1 ⟨15, by decide⟩) = shapeCast S4096x128 (outs 2 main_v3 c) shapeCasts_S1x4096x128_S4096x128 := by
  show V3 m outs c main_v4 = _
  exact buf_v4 m outs c

theorem opnd1_16 (c : Dev nD) :
    V3 m outs c (Pipeline.arrRef spec1 ⟨16, by decide⟩) = shapeCast S4096x128 (outs 2 main_v3 c) shapeCasts_S1x4096x128_S4096x128 := by
  show V3 m outs c main_v4 = _
  exact buf_v4 m outs c

theorem opnd1_17 (c : Dev nD) :
    V3 m outs c (Pipeline.arrRef spec1 ⟨17, by decide⟩) = shapeCast S4096x128 (outs 2 main_v3 c) shapeCasts_S1x4096x128_S4096x128 := by
  show V3 m outs c main_v4 = _
  exact buf_v4 m outs c

theorem opnd1_18 (c : Dev nD) :
    V3 m outs c (Pipeline.arrRef spec1 ⟨18, by decide⟩) = shapeCast S4096x128 (outs 2 main_v3 c) shapeCasts_S1x4096x128_S4096x128 := by
  show V3 m outs c main_v4 = _
  exact buf_v4 m outs c

theorem opnd1_19 (c : Dev nD) :
    V3 m outs c (Pipeline.arrRef spec1 ⟨19, by decide⟩) = shapeCast S4096x128 (outs 2 main_v3 c) shapeCasts_S1x4096x128_S4096x128 := by
  show V3 m outs c main_v4 = _
  exact buf_v4 m outs c

theorem opnd1_20 (c : Dev nD) :
    V3 m outs c (Pipeline.arrRef spec1 ⟨20, by decide⟩) = shapeCast S4096x128 (outs 2 main_v3 c) shapeCasts_S1x4096x128_S4096x128 := by
  show V3 m outs c main_v4 = _
  exact buf_v4 m outs c

theorem opnd1_21 (c : Dev nD) :
    V3 m outs c (Pipeline.arrRef spec1 ⟨21, by decide⟩) = shapeCast S4096x128 (outs 2 main_v3 c) shapeCasts_S1x4096x128_S4096x128 := by
  show V3 m outs c main_v4 = _
  exact buf_v4 m outs c

theorem opnd1_22 (c : Dev nD) :
    V3 m outs c (Pipeline.arrRef spec1 ⟨22, by decide⟩) = shapeCast S4096x128 (outs 2 main_v3 c) shapeCasts_S1x4096x128_S4096x128 := by
  show V3 m outs c main_v4 = _
  exact buf_v4 m outs c

theorem opnd1_23 (c : Dev nD) :
    V3 m outs c (Pipeline.arrRef spec1 ⟨23, by decide⟩) = shapeCast S4096x128 (outs 2 main_v3 c) shapeCasts_S1x4096x128_S4096x128 := by
  show V3 m outs c main_v4 = _
  exact buf_v4 m outs c

theorem opnd1_24 (c : Dev nD) :
    V3 m outs c (Pipeline.arrRef spec1 ⟨24, by decide⟩) = shapeCast S4096x128 (outs 2 main_v3 c) shapeCasts_S1x4096x128_S4096x128 := by
  show V3 m outs c main_v4 = _
  exact buf_v4 m outs c

theorem opnd1_25 (c : Dev nD) :
    V3 m outs c (Pipeline.arrRef spec1 ⟨25, by decide⟩) = shapeCast S4096x128 (outs 2 main_v3 c) shapeCasts_S1x4096x128_S4096x128 := by
  show V3 m outs c main_v4 = _
  exact buf_v4 m outs c

theorem opnd1_26 (c : Dev nD) :
    V3 m outs c (Pipeline.arrRef spec1 ⟨26, by decide⟩) = shapeCast S4096x128 (outs 2 main_v3 c) shapeCasts_S1x4096x128_S4096x128 := by
  show V3 m outs c main_v4 = _
  exact buf_v4 m outs c

theorem opnd1_27 (c : Dev nD) :
    V3 m outs c (Pipeline.arrRef spec1 ⟨27, by decide⟩) = shapeCast S4096x128 (outs 2 main_v3 c) shapeCasts_S1x4096x128_S4096x128 := by
  show V3 m outs c main_v4 = _
  exact buf_v4 m outs c

theorem opnd1_28 (c : Dev nD) :
    V3 m outs c (Pipeline.arrRef spec1 ⟨28, by decide⟩) = shapeCast S4096x128 (outs 2 main_v3 c) shapeCasts_S1x4096x128_S4096x128 := by
  show V3 m outs c main_v4 = _
  exact buf_v4 m outs c

theorem opnd1_29 (c : Dev nD) :
    V3 m outs c (Pipeline.arrRef spec1 ⟨29, by decide⟩) = shapeCast S4096x128 (outs 2 main_v3 c) shapeCasts_S1x4096x128_S4096x128 := by
  show V3 m outs c main_v4 = _
  exact buf_v4 m outs c

theorem opnd1_30 (c : Dev nD) :
    V3 m outs c (Pipeline.arrRef spec1 ⟨30, by decide⟩) = shapeCast S4096x128 (outs 2 main_v3 c) shapeCasts_S1x4096x128_S4096x128 := by
  show V3 m outs c main_v4 = _
  exact buf_v4 m outs c

theorem opnd1_31 (c : Dev nD) :
    V3 m outs c (Pipeline.arrRef spec1 ⟨31, by decide⟩) = shapeCast S4096x128 (outs 2 main_v3 c) shapeCasts_S1x4096x128_S4096x128 := by
  show V3 m outs c main_v4 = _
  exact buf_v4 m outs c

theorem opnd1_32 (c : Dev nD) :
    V3 m outs c (Pipeline.arrRef spec1 ⟨32, by decide⟩) = extractStridedSlice S8x128x128 ![1, 0, 0] (transpose S65x128x128 [0, 2, 1] (m ((c : Thread nD τ).loc main_arg1)) transposes_S65x128x128_S65x128x128_0_2_1) slices_S65x128x128_S8x128x128_1_0_0 := by
  show V3 m outs c main_v5 = _
  exact buf_v5 m outs c

theorem opnd1_33 (c : Dev nD) :
    V3 m outs c (Pipeline.arrRef spec1 ⟨33, by decide⟩) = extractStridedSlice S8x128 ![1, 0] (m ((c : Thread nD τ).loc main_arg2)) slices_S65x128_S8x128_1_0 := by
  show V3 m outs c main_v6 = _
  exact buf_v6 m outs c

/-! ## Region 2's 34 operand arrays at its entry valuation -/

theorem opnd2_0 (c : Dev nD) :
    V5 m outs c (Pipeline.arrRef spec2 ⟨0, by decide⟩) = shapeCast S4096x128 (extractStridedSlice S1x4096x128 ![6, 0, 0] (outs 4 main_v7 c) slices_S8x4096x128_S1x4096x128_6_0_0) shapeCasts_S1x4096x128_S4096x128 := by
  show V5 m outs c main_v21 = _
  exact buf_v21 m outs c

theorem opnd2_1 (c : Dev nD) :
    V5 m outs c (Pipeline.arrRef spec2 ⟨1, by decide⟩) = shapeCast S4096x128 (extractStridedSlice S1x4096x128 ![4, 0, 0] (outs 4 main_v7 c) slices_S8x4096x128_S1x4096x128_4_0_0) shapeCasts_S1x4096x128_S4096x128 := by
  show V5 m outs c main_v17 = _
  exact buf_v17 m outs c

theorem opnd2_2 (c : Dev nD) :
    V5 m outs c (Pipeline.arrRef spec2 ⟨2, by decide⟩) = shapeCast S4096x128 (extractStridedSlice S1x4096x128 ![3, 0, 0] (outs 4 main_v7 c) slices_S8x4096x128_S1x4096x128_3_0_0) shapeCasts_S1x4096x128_S4096x128 := by
  show V5 m outs c main_v15 = _
  exact buf_v15 m outs c

theorem opnd2_3 (c : Dev nD) :
    V5 m outs c (Pipeline.arrRef spec2 ⟨3, by decide⟩) = shapeCast S4096x128 (extractStridedSlice S1x4096x128 ![1, 0, 0] (outs 4 main_v7 c) slices_S8x4096x128_S1x4096x128_1_0_0) shapeCasts_S1x4096x128_S4096x128 := by
  show V5 m outs c main_v11 = _
  exact buf_v11 m outs c

theorem opnd2_4 (c : Dev nD) :
    V5 m outs c (Pipeline.arrRef spec2 ⟨4, by decide⟩) = shapeCast S4096x128 (extractStridedSlice S1x4096x128 ![1, 0, 0] (outs 4 main_v7 c) slices_S8x4096x128_S1x4096x128_1_0_0) shapeCasts_S1x4096x128_S4096x128 := by
  show V5 m outs c main_v11 = _
  exact buf_v11 m outs c

theorem opnd2_5 (c : Dev nD) :
    V5 m outs c (Pipeline.arrRef spec2 ⟨5, by decide⟩) = shapeCast S4096x128 (outs 2 main_v3 c) shapeCasts_S1x4096x128_S4096x128 := by
  show V5 m outs c main_v4 = _
  exact (V5_of m outs c main_v4 (by decide)).trans <| (V4_of m outs c main_v4 (by decide)).trans <| (buf_v4 m outs c)

theorem opnd2_6 (c : Dev nD) :
    V5 m outs c (Pipeline.arrRef spec2 ⟨6, by decide⟩) = shapeCast S4096x128 (outs 2 main_v3 c) shapeCasts_S1x4096x128_S4096x128 := by
  show V5 m outs c main_v4 = _
  exact (V5_of m outs c main_v4 (by decide)).trans <| (V4_of m outs c main_v4 (by decide)).trans <| (buf_v4 m outs c)

theorem opnd2_7 (c : Dev nD) :
    V5 m outs c (Pipeline.arrRef spec2 ⟨7, by decide⟩) = shapeCast S4096x128 (outs 2 main_v3 c) shapeCasts_S1x4096x128_S4096x128 := by
  show V5 m outs c main_v4 = _
  exact (V5_of m outs c main_v4 (by decide)).trans <| (V4_of m outs c main_v4 (by decide)).trans <| (buf_v4 m outs c)

theorem opnd2_8 (c : Dev nD) :
    V5 m outs c (Pipeline.arrRef spec2 ⟨8, by decide⟩) = shapeCast S4096x128 (extractStridedSlice S1x4096x128 ![0, 0, 0] (outs 4 main_v7 c) slices_S8x4096x128_S1x4096x128_0_0_0) shapeCasts_S1x4096x128_S4096x128 := by
  show V5 m outs c main_v9 = _
  exact buf_v9 m outs c

theorem opnd2_9 (c : Dev nD) :
    V5 m outs c (Pipeline.arrRef spec2 ⟨9, by decide⟩) = shapeCast S4096x128 (extractStridedSlice S1x4096x128 ![6, 0, 0] (outs 4 main_v7 c) slices_S8x4096x128_S1x4096x128_6_0_0) shapeCasts_S1x4096x128_S4096x128 := by
  show V5 m outs c main_v21 = _
  exact buf_v21 m outs c

theorem opnd2_10 (c : Dev nD) :
    V5 m outs c (Pipeline.arrRef spec2 ⟨10, by decide⟩) = shapeCast S4096x128 (extractStridedSlice S1x4096x128 ![4, 0, 0] (outs 4 main_v7 c) slices_S8x4096x128_S1x4096x128_4_0_0) shapeCasts_S1x4096x128_S4096x128 := by
  show V5 m outs c main_v17 = _
  exact buf_v17 m outs c

theorem opnd2_11 (c : Dev nD) :
    V5 m outs c (Pipeline.arrRef spec2 ⟨11, by decide⟩) = shapeCast S4096x128 (extractStridedSlice S1x4096x128 ![7, 0, 0] (outs 4 main_v7 c) slices_S8x4096x128_S1x4096x128_7_0_0) shapeCasts_S1x4096x128_S4096x128 := by
  show V5 m outs c main_v23 = _
  exact buf_v23 m outs c

theorem opnd2_12 (c : Dev nD) :
    V5 m outs c (Pipeline.arrRef spec2 ⟨12, by decide⟩) = shapeCast S4096x128 (extractStridedSlice S1x4096x128 ![3, 0, 0] (outs 4 main_v7 c) slices_S8x4096x128_S1x4096x128_3_0_0) shapeCasts_S1x4096x128_S4096x128 := by
  show V5 m outs c main_v15 = _
  exact buf_v15 m outs c

theorem opnd2_13 (c : Dev nD) :
    V5 m outs c (Pipeline.arrRef spec2 ⟨13, by decide⟩) = shapeCast S4096x128 (extractStridedSlice S1x4096x128 ![4, 0, 0] (outs 4 main_v7 c) slices_S8x4096x128_S1x4096x128_4_0_0) shapeCasts_S1x4096x128_S4096x128 := by
  show V5 m outs c main_v17 = _
  exact buf_v17 m outs c

theorem opnd2_14 (c : Dev nD) :
    V5 m outs c (Pipeline.arrRef spec2 ⟨14, by decide⟩) = shapeCast S4096x128 (extractStridedSlice S1x4096x128 ![7, 0, 0] (outs 4 main_v7 c) slices_S8x4096x128_S1x4096x128_7_0_0) shapeCasts_S1x4096x128_S4096x128 := by
  show V5 m outs c main_v23 = _
  exact buf_v23 m outs c

theorem opnd2_15 (c : Dev nD) :
    V5 m outs c (Pipeline.arrRef spec2 ⟨15, by decide⟩) = shapeCast S4096x128 (extractStridedSlice S1x4096x128 ![5, 0, 0] (outs 4 main_v7 c) slices_S8x4096x128_S1x4096x128_5_0_0) shapeCasts_S1x4096x128_S4096x128 := by
  show V5 m outs c main_v19 = _
  exact buf_v19 m outs c

theorem opnd2_16 (c : Dev nD) :
    V5 m outs c (Pipeline.arrRef spec2 ⟨16, by decide⟩) = shapeCast S4096x128 (extractStridedSlice S1x4096x128 ![4, 0, 0] (outs 4 main_v7 c) slices_S8x4096x128_S1x4096x128_4_0_0) shapeCasts_S1x4096x128_S4096x128 := by
  show V5 m outs c main_v17 = _
  exact buf_v17 m outs c

theorem opnd2_17 (c : Dev nD) :
    V5 m outs c (Pipeline.arrRef spec2 ⟨17, by decide⟩) = shapeCast S4096x128 (extractStridedSlice S1x4096x128 ![3, 0, 0] (outs 4 main_v7 c) slices_S8x4096x128_S1x4096x128_3_0_0) shapeCasts_S1x4096x128_S4096x128 := by
  show V5 m outs c main_v15 = _
  exact buf_v15 m outs c

theorem opnd2_18 (c : Dev nD) :
    V5 m outs c (Pipeline.arrRef spec2 ⟨18, by decide⟩) = shapeCast S4096x128 (extractStridedSlice S1x4096x128 ![4, 0, 0] (outs 4 main_v7 c) slices_S8x4096x128_S1x4096x128_4_0_0) shapeCasts_S1x4096x128_S4096x128 := by
  show V5 m outs c main_v17 = _
  exact buf_v17 m outs c

theorem opnd2_19 (c : Dev nD) :
    V5 m outs c (Pipeline.arrRef spec2 ⟨19, by decide⟩) = shapeCast S4096x128 (extractStridedSlice S1x4096x128 ![7, 0, 0] (outs 4 main_v7 c) slices_S8x4096x128_S1x4096x128_7_0_0) shapeCasts_S1x4096x128_S4096x128 := by
  show V5 m outs c main_v23 = _
  exact buf_v23 m outs c

theorem opnd2_20 (c : Dev nD) :
    V5 m outs c (Pipeline.arrRef spec2 ⟨20, by decide⟩) = shapeCast S4096x128 (extractStridedSlice S1x4096x128 ![1, 0, 0] (outs 4 main_v7 c) slices_S8x4096x128_S1x4096x128_1_0_0) shapeCasts_S1x4096x128_S4096x128 := by
  show V5 m outs c main_v11 = _
  exact buf_v11 m outs c

theorem opnd2_21 (c : Dev nD) :
    V5 m outs c (Pipeline.arrRef spec2 ⟨21, by decide⟩) = shapeCast S4096x128 (extractStridedSlice S1x4096x128 ![6, 0, 0] (outs 4 main_v7 c) slices_S8x4096x128_S1x4096x128_6_0_0) shapeCasts_S1x4096x128_S4096x128 := by
  show V5 m outs c main_v21 = _
  exact buf_v21 m outs c

theorem opnd2_22 (c : Dev nD) :
    V5 m outs c (Pipeline.arrRef spec2 ⟨22, by decide⟩) = shapeCast S4096x128 (extractStridedSlice S1x4096x128 ![5, 0, 0] (outs 4 main_v7 c) slices_S8x4096x128_S1x4096x128_5_0_0) shapeCasts_S1x4096x128_S4096x128 := by
  show V5 m outs c main_v19 = _
  exact buf_v19 m outs c

theorem opnd2_23 (c : Dev nD) :
    V5 m outs c (Pipeline.arrRef spec2 ⟨23, by decide⟩) = shapeCast S4096x128 (outs 2 main_v3 c) shapeCasts_S1x4096x128_S4096x128 := by
  show V5 m outs c main_v4 = _
  exact (V5_of m outs c main_v4 (by decide)).trans <| (V4_of m outs c main_v4 (by decide)).trans <| (buf_v4 m outs c)

theorem opnd2_24 (c : Dev nD) :
    V5 m outs c (Pipeline.arrRef spec2 ⟨24, by decide⟩) = shapeCast S4096x128 (extractStridedSlice S1x4096x128 ![2, 0, 0] (outs 4 main_v7 c) slices_S8x4096x128_S1x4096x128_2_0_0) shapeCasts_S1x4096x128_S4096x128 := by
  show V5 m outs c main_v13 = _
  exact buf_v13 m outs c

theorem opnd2_25 (c : Dev nD) :
    V5 m outs c (Pipeline.arrRef spec2 ⟨25, by decide⟩) = shapeCast S4096x128 (extractStridedSlice S1x4096x128 ![6, 0, 0] (outs 4 main_v7 c) slices_S8x4096x128_S1x4096x128_6_0_0) shapeCasts_S1x4096x128_S4096x128 := by
  show V5 m outs c main_v21 = _
  exact buf_v21 m outs c

theorem opnd2_26 (c : Dev nD) :
    V5 m outs c (Pipeline.arrRef spec2 ⟨26, by decide⟩) = shapeCast S4096x128 (extractStridedSlice S1x4096x128 ![3, 0, 0] (outs 4 main_v7 c) slices_S8x4096x128_S1x4096x128_3_0_0) shapeCasts_S1x4096x128_S4096x128 := by
  show V5 m outs c main_v15 = _
  exact buf_v15 m outs c

theorem opnd2_27 (c : Dev nD) :
    V5 m outs c (Pipeline.arrRef spec2 ⟨27, by decide⟩) = shapeCast S4096x128 (outs 2 main_v3 c) shapeCasts_S1x4096x128_S4096x128 := by
  show V5 m outs c main_v4 = _
  exact (V5_of m outs c main_v4 (by decide)).trans <| (V4_of m outs c main_v4 (by decide)).trans <| (buf_v4 m outs c)

theorem opnd2_28 (c : Dev nD) :
    V5 m outs c (Pipeline.arrRef spec2 ⟨28, by decide⟩) = shapeCast S4096x128 (extractStridedSlice S1x4096x128 ![5, 0, 0] (outs 4 main_v7 c) slices_S8x4096x128_S1x4096x128_5_0_0) shapeCasts_S1x4096x128_S4096x128 := by
  show V5 m outs c main_v19 = _
  exact buf_v19 m outs c

theorem opnd2_29 (c : Dev nD) :
    V5 m outs c (Pipeline.arrRef spec2 ⟨29, by decide⟩) = shapeCast S4096x128 (extractStridedSlice S1x4096x128 ![5, 0, 0] (outs 4 main_v7 c) slices_S8x4096x128_S1x4096x128_5_0_0) shapeCasts_S1x4096x128_S4096x128 := by
  show V5 m outs c main_v19 = _
  exact buf_v19 m outs c

theorem opnd2_30 (c : Dev nD) :
    V5 m outs c (Pipeline.arrRef spec2 ⟨30, by decide⟩) = shapeCast S4096x128 (extractStridedSlice S1x4096x128 ![6, 0, 0] (outs 4 main_v7 c) slices_S8x4096x128_S1x4096x128_6_0_0) shapeCasts_S1x4096x128_S4096x128 := by
  show V5 m outs c main_v21 = _
  exact buf_v21 m outs c

theorem opnd2_31 (c : Dev nD) :
    V5 m outs c (Pipeline.arrRef spec2 ⟨31, by decide⟩) = shapeCast S4096x128 (extractStridedSlice S1x4096x128 ![0, 0, 0] (outs 4 main_v7 c) slices_S8x4096x128_S1x4096x128_0_0_0) shapeCasts_S1x4096x128_S4096x128 := by
  show V5 m outs c main_v9 = _
  exact buf_v9 m outs c

theorem opnd2_32 (c : Dev nD) :
    V5 m outs c (Pipeline.arrRef spec2 ⟨32, by decide⟩) = extractStridedSlice S8x128x128 ![9, 0, 0] (transpose S65x128x128 [0, 2, 1] (m ((c : Thread nD τ).loc main_arg1)) transposes_S65x128x128_S65x128x128_0_2_1) slices_S65x128x128_S8x128x128_9_0_0 := by
  show V5 m outs c main_v24 = _
  exact buf_v24 m outs c

theorem opnd2_33 (c : Dev nD) :
    V5 m outs c (Pipeline.arrRef spec2 ⟨33, by decide⟩) = extractStridedSlice S8x128 ![9, 0] (m ((c : Thread nD τ).loc main_arg2)) slices_S65x128_S8x128_9_0 := by
  show V5 m outs c main_v25 = _
  exact buf_v25 m outs c

end Cert.KernelIdeal.Hand
-- ==== Proof.KI.Host3.lean ====
import proofs.«135270_j33062658245245_1_alg».proof.Proof.KI.Host1

/-! What regions 3 to 4 find in their 34 operand arrays on entry, for arbitrary region outputs outs: each parent array is a slab
  of an earlier region's output reshaped to [4096,128] (or region 0's whole output reshaped), array 32 the region's 8 rows of the
  transposed weights, array 33 its 8 rows of the bias. A table of cases over the operand lists of the program's custom_calls. -/

-- decided memberships among the program's references recurse past the default depth
set_option maxRecDepth 7852

noncomputable section

namespace Cert.KernelIdeal.Hand

open Cert.KernelIdeal Cert.KernelIdeal.Gen Cert.KernelIdeal.GenP Idealize.ShloMosaic Idealize.ShloMosaic.TcCoe Idealize.ShloMosaic.StableHlo

variable {F : FTy → Type} [FloatOps F] (m : (ℓ : Loc nD τ sig) → Buf (Elt F) ℓ) (outs : Outs (F := F))

/-! ## Region 3's 34 operand arrays at its entry valuation -/

theorem opnd3_0 (c : Dev nD) :
    V7 m outs c (Pipeline.arrRef spec3 ⟨0, by decide⟩) = shapeCast S4096x128 (extractStridedSlice S1x4096x128 ![0, 0, 0] (outs 4 main_v7 c) slices_S8x4096x128_S1x4096x128_0_0_0) shapeCasts_S1x4096x128_S4096x128 := by
  show V7 m outs c main_v9 = _
  exact (V7_of m outs c main_v9 (by decide)).trans <| (V6_of m outs c main_v9 (by decide)).trans <| (buf_v9 m outs c)

theorem opnd3_1 (c : Dev nD) :
    V7 m outs c (Pipeline.arrRef spec3 ⟨1, by decide⟩) = shapeCast S4096x128 (extractStridedSlice S1x4096x128 ![5, 0, 0] (outs 6 main_v26 c) slices_S8x4096x128_S1x4096x128_5_0_0) shapeCasts_S1x4096x128_S4096x128 := by
  show V7 m outs c main_v38 = _
  exact buf_v38 m outs c

theorem opnd3_2 (c : Dev nD) :
    V7 m outs c (Pipeline.arrRef spec3 ⟨2, by decide⟩) = shapeCast S4096x128 (outs 2 main_v3 c) shapeCasts_S1x4096x128_S4096x128 := by
  show V7 m outs c main_v4 = _
  exact (V7_of m outs c main_v4 (by decide)).trans <| (V6_of m outs c main_v4 (by decide)).trans <| (V5_of m outs c main_v4 (by decide)).trans <| (V4_of m outs c main_v4 (by decide)).trans <| (buf_v4 m outs c)

theorem opnd3_3 (c : Dev nD) :
    V7 m outs c (Pipeline.arrRef spec3 ⟨3, by decide⟩) = shapeCast S4096x128 (extractStridedSlice S1x4096x128 ![0, 0, 0] (outs 6 main_v26 c) slices_S8x4096x128_S1x4096x128_0_0_0) shapeCasts_S1x4096x128_S4096x128 := by
  show V7 m outs c main_v28 = _
  exact buf_v28 m outs c

theorem opnd3_4 (c : Dev nD) :
    V7 m outs c (Pipeline.arrRef spec3 ⟨4, by decide⟩) = shapeCast S4096x128 (extractStridedSlice S1x4096x128 ![0, 0, 0] (outs 4 main_v7 c) slices_S8x4096x128_S1x4096x128_0_0_0) shapeCasts_S1x4096x128_S4096x128 := by
  show V7 m outs c main_v9 = _
  exact (V7_of m outs c main_v9 (by decide)).trans <| (V6_of m outs c main_v9 (by decide)).trans <| (buf_v9 m outs c)

theorem opnd3_5 (c : Dev nD) :
    V7 m outs c (Pipeline.arrRef spec3 ⟨5, by decide⟩) = shapeCast S4096x128 (extractStridedSlice S1x4096x128 ![4, 0, 0] (outs 4 main_v7 c) slices_S8x4096x128_S1x4096x128_4_0_0) shapeCasts_S1x4096x128_S4096x128 := by
  show V7 m outs c main_v17 = _
  exact (V7_of m outs c main_v17 (by decide)).trans <| (V6_of m outs c main_v17 (by decide)).trans <| (buf_v17 m outs c)

theorem opnd3_6 (c : Dev nD) :
    V7 m outs c (Pipeline.arrRef spec3 ⟨6, by decide⟩) = shapeCast S4096x128 (extractStridedSlice S1x4096x128 ![7, 0, 0] (outs 4 main_v7 c) slices_S8x4096x128_S1x4096x128_7_0_0) shapeCasts_S1x4096x128_S4096x128 := by
  show V7 m outs c main_v23 = _
  exact (V7_of m outs c main_v23 (by decide)).trans <| (V6_of m outs c main_v23 (by decide)).trans <| (buf_v23 m outs c)

theorem opnd3_7 (c : Dev nD) :
    V7 m outs c (Pipeline.arrRef spec3 ⟨7, by decide⟩) = shapeCast S4096x128 (extractStridedSlice S1x4096x128 ![6, 0, 0] (outs 4 main_v7 c) slices_S8x4096x128_S1x4096x128_6_0_0) shapeCasts_S1x4096x128_S4096x128 := by
  show V7 m outs c main_v21 = _
  exact (V7_of m outs c main_v21 (by decide)).trans <| (V6_of m outs c main_v21 (by decide)).trans <| (buf_v21 m outs c)

theorem opnd3_8 (c : Dev nD) :
    V7 m outs c (Pipeline.arrRef spec3 ⟨8, by decide⟩) = shapeCast S4096x128 (extractStridedSlice S1x4096x128 ![5, 0, 0] (outs 4 main_v7 c) slices_S8x4096x128_S1x4096x128_5_0_0) shapeCasts_S1x4096x128_S4096x128 := by
  show V7 m outs c main_v19 = _
  exact (V7_of m outs c main_v19 (by decide)).trans <| (V6_of m outs c main_v19 (by decide)).trans <| (buf_v19 m outs c)

theorem opnd3_9 (c : Dev nD) :
    V7 m outs c (Pipeline.arrRef spec3 ⟨9, by decide⟩) = shapeCast S4096x128 (outs 2 main_v3 c) shapeCasts_S1x4096x128_S4096x128 := by
  show V7 m outs c main_v4 = _
  exact (V7_of m outs c main_v4 (by decide)).trans <| (V6_of m outs c main_v4 (by decide)).trans <| (V5_of m outs c main_v4 (by decide)).trans <| (V4_of m outs c main_v4 (by decide)).trans <| (buf_v4 m outs c)

theorem opnd3_10 (c : Dev nD) :
    V7 m outs c (Pipeline.arrRef spec3 ⟨10, by decide⟩) = shapeCast S4096x128 (outs 2 main_v3 c) shapeCasts_S1x4096x128_S4096x128 := by
  show V7 m outs c main_v4 = _
  exact (V7_of m outs c main_v4 (by decide)).trans <| (V6_of m outs c main_v4 (by decide)).trans <| (V5_of m outs c main_v4 (by decide)).trans <| (V4_of m outs c main_v4 (by decide)).trans <| (buf_v4 m outs c)

theorem opnd3_11 (c : Dev nD) :
    V7 m outs c (Pipeline.arrRef spec3 ⟨11, by decide⟩) = shapeCast S4096x128 (extractStridedSlice S1x4096x128 ![1, 0, 0] (outs 4 main_v7 c) slices_S8x4096x128_S1x4096x128_1_0_0) shapeCasts_S1x4096x128_S4096x128 := by
  show V7 m outs c main_v11 = _
  exact (V7_of m outs c main_v11 (by decide)).trans <| (V6_of m outs c main_v11 (by decide)).trans <| (buf_v11 m outs c)

theorem opnd3_12 (c : Dev nD) :
    V7 m outs c (Pipeline.arrRef spec3 ⟨12, by decide⟩) = shapeCast S4096x128 (outs 2 main_v3 c) shapeCasts_S1x4096x128_S4096x128 := by
  show V7 m outs c main_v4 = _
  exact (V7_of m outs c main_v4 (by decide)).trans <| (V6_of m outs c main_v4 (by decide)).trans <| (V5_of m outs c main_v4 (by decide)).trans <| (V4_of m outs c main_v4 (by decide)).trans <| (buf_v4 m outs c)

theorem opnd3_13 (c : Dev nD) :
    V7 m outs c (Pipeline.arrRef spec3 ⟨13, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_14 (c : Dev nD) :
    V7 m outs c (Pipeline.arrRef spec3 ⟨14, by decide⟩) = shapeCast S4096x128 (extractStridedSlice S1x4096x128 ![7, 0, 0] (outs 4 main_v7 c) slices_S8x4096x128_S1x4096x128_7_0_0) shapeCasts_S1x4096x128_S4096x128 := by
  show V7 m outs c main_v23 = _
  exact (V7_of m outs c main_v23 (by decide)).trans <| (V6_of m outs c main_v23 (by decide)).trans <| (buf_v23 m outs c)

theorem opnd3_15 (c : Dev nD) :
    V7 m outs c (Pipeline.arrRef spec3 ⟨15, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_16 (c : Dev nD) :
    V7 m outs c (Pipeline.arrRef spec3 ⟨16, by decide⟩) = shapeCast S4096x128 (extractStridedSlice S1x4096x128 ![3, 0, 0] (outs 4 main_v7 c) slices_S8x4096x128_S1x4096x128_3_0_0) shapeCasts_S1x4096x128_S4096x128 := by
  show V7 m outs c main_v15 = _
  exact (V7_of m outs c main_v15 (by decide)).trans <| (V6_of m outs c main_v15 (by decide)).trans <| (buf_v15 m outs c)

theorem opnd3_17 (c : Dev nD) :
    V7 m outs c (Pipeline.arrRef spec3 ⟨17, by decide⟩) = shapeCast S4096x128 (extractStridedSlice S1x4096x128 ![1, 0, 0] (outs 6 main_v26 c) slices_S8x4096x128_S1x4096x128_1_0_0) shapeCasts_S1x4096x128_S4096x128 := by
  show V7 m outs c main_v30 = _
  exact buf_v30 m outs c

theorem opnd3_18 (c : Dev nD) :
    V7 m outs c (Pipeline.arrRef spec3 ⟨18, by decide⟩) = shapeCast S4096x128 (extractStridedSlice S1x4096x128 ![3, 0, 0] (outs 6 main_v26 c) slices_S8x4096x128_S1x4096x128_3_0_0) shapeCasts_S1x4096x128_S4096x128 := by
  show V7 m outs c main_v34 = _
  exact buf_v34 m outs c

theorem opnd3_19 (c : Dev nD) :
    V7 m outs c (Pipeline.arrRef spec3 ⟨19, by decide⟩) = shapeCast S4096x128 (extractStridedSlice S1x4096x128 ![5, 0, 0] (outs 4 main_v7 c) slices_S8x4096x128_S1x4096x128_5_0_0) shapeCasts_S1x4096x128_S4096x128 := by
  show V7 m outs c main_v19 = _
  exact (V7_of m outs c main_v19 (by decide)).trans <| (V6_of m outs c main_v19 (by decide)).trans <| (buf_v19 m outs c)

theorem opnd3_20 (c : Dev nD) :
    V7 m outs c (Pipeline.arrRef spec3 ⟨20, by decide⟩) = shapeCast S4096x128 (extractStridedSlice S1x4096x128 ![6, 0, 0] (outs 4 main_v7 c) slices_S8x4096x128_S1x4096x128_6_0_0) shapeCasts_S1x4096x128_S4096x128 := by
  show V7 m outs c main_v21 = _
  exact (V7_of m outs c main_v21 (by decide)).trans <| (V6_of m outs c main_v21 (by decide)).trans <| (buf_v21 m outs c)

theorem opnd3_21 (c : Dev nD) :
    V7 m outs c (Pipeline.arrRef spec3 ⟨21, by decide⟩) = shapeCast S4096x128 (extractStridedSlice S1x4096x128 ![7, 0, 0] (outs 6 main_v26 c) slices_S8x4096x128_S1x4096x128_7_0_0) shapeCasts_S1x4096x128_S4096x128 := by
  show V7 m outs c main_v42 = _
  exact buf_v42 m outs c

theorem opnd3_22 (c : Dev nD) :
    V7 m outs c (Pipeline.arrRef spec3 ⟨22, by decide⟩) = shapeCast S4096x128 (extractStridedSlice S1x4096x128 ![4, 0, 0] (outs 6 main_v26 c) slices_S8x4096x128_S1x4096x128_4_0_0) shapeCasts_S1x4096x128_S4096x128 := by
  show V7 m outs c main_v36 = _
  exact buf_v36 m outs c

theorem opnd3_23 (c : Dev nD) :
    V7 m outs c (Pipeline.arrRef spec3 ⟨23, by decide⟩) = shapeCast S4096x128 (extractStridedSlice S1x4096x128 ![7, 0, 0] (outs 6 main_v26 c) slices_S8x4096x128_S1x4096x128_7_0_0) shapeCasts_S1x4096x128_S4096x128 := by
  show V7 m outs c main_v42 = _
  exact buf_v42 m outs c

theorem opnd3_24 (c : Dev nD) :
    V7 m outs c (Pipeline.arrRef spec3 ⟨24, by decide⟩) = shapeCast S4096x128 (extractStridedSlice S1x4096x128 ![5, 0, 0] (outs 4 main_v7 c) slices_S8x4096x128_S1x4096x128_5_0_0) shapeCasts_S1x4096x128_S4096x128 := by
  show V7 m outs c main_v19 = _
  exact (V7_of m outs c main_v19 (by decide)).trans <| (V6_of m outs c main_v19 (by decide)).trans <| (buf_v19 m outs c)

theorem opnd3_25 (c : Dev nD) :
    V7 m outs c (Pipeline.arrRef spec3 ⟨25, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_26 (c : Dev nD) :
    V7 m outs c (Pipeline.arrRef spec3 ⟨26, by decide⟩) = shapeCast S4096x128 (extractStridedSlice S1x4096x128 ![7, 0, 0] (outs 6 main_v26 c) slices_S8x4096x128_S1x4096x128_7_0_0) shapeCasts_S1x4096x128_S4096x128 := by
  show V7 m outs c main_v42 = _
  exact buf_v42 m outs c

theorem opnd3_27 (c : Dev nD) :
    V7 m outs c (Pipeline.arrRef spec3 ⟨27, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_28 (c : Dev nD) :
    V7 m outs c (Pipeline.arrRef spec3 ⟨28, by decide⟩) = shapeCast S4096x128 (extractStridedSlice S1x4096x128 ![5, 0, 0] (outs 6 main_v26 c) slices_S8x4096x128_S1x4096x128_5_0_0) shapeCasts_S1x4096x128_S4096x128 := by
  show V7 m outs c main_v38 = _
  exact buf_v38 m outs c

theorem opnd3_29 (c : Dev nD) :
    V7 m outs c (Pipeline.arrRef spec3 ⟨29, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_30 (c : Dev nD) :
    V7 m outs c (Pipeline.arrRef spec3 ⟨30, by decide⟩) = shapeCast S4096x128 (extractStridedSlice S1x4096x128 ![2, 0, 0] (outs 6 main_v26 c) slices_S8x4096x128_S1x4096x128_2_0_0) shapeCasts_S1x4096x128_S4096x128 := by
  show V7 m outs c main_v32 = _
  exact buf_v32 m outs c

theorem opnd3_31 (c : Dev nD) :
    V7 m outs c (Pipeline.arrRef spec3 ⟨31, by decide⟩) = shapeCast S4096x128 (extractStridedSlice S1x4096x128 ![5, 0, 0] (outs 4 main_v7 c) slices_S8x4096x128_S1x4096x128_5_0_0) shapeCasts_S1x4096x128_S4096x128 := by
  show V7 m outs c main_v19 = _
  exact (V7_of m outs c main_v19 (by decide)).trans <| (V6_of m outs c main_v19 (by decide)).trans <| (buf_v19 m outs c)

theorem opnd3_32 (c : Dev nD) :
    V7 m outs c (Pipeline.arrRef spec3 ⟨32, by decide⟩) = extractStridedSlice S8x128x128 ![17, 0, 0] (transpose S65x128x128 [0, 2, 1] (m ((c : Thread nD τ).loc main_arg1)) transposes_S65x128x128_S65x128x128_0_2_1) slices_S65x128x128_S8x128x128_17_0_0 := by
  show V7 m outs c main_v43 = _
  exact buf_v43 m outs c

theorem opnd3_33 (c : Dev nD) :
    V7 m outs c (Pipeline.arrRef spec3 ⟨33, by decide⟩) = extractStridedSlice S8x128 ![17, 0] (m ((c : Thread nD τ).loc main_arg2)) slices_S65x128_S8x128_17_0 := by
  show V7 m outs c main_v44 = _
  exact buf_v44 m outs c

/-! ## Region 4's 34 operand arrays at its entry valuation -/

theorem opnd4_0 (c : Dev nD) :
    V9 m outs c (Pipeline.arrRef spec4 ⟨0, by decide⟩) = shapeCast S4096x128 (extractStridedSlice S1x4096x128 ![4, 0, 0] (outs 8 main_v45 c) slices_S8x4096x128_S1x4096x128_4_0_0) shapeCasts_S1x4096x128_S4096x128 := by
  show V9 m outs c main_v55 = _
  exact buf_v55 m outs c

theorem opnd4_1 (c : Dev nD) :
    V9 m outs c (Pipeline.arrRef spec4 ⟨1, by decide⟩) = shapeCast S4096x128 (extractStridedSlice S1x4096x128 ![2, 0, 0] (outs 4 main_v7 c) slices_S8x4096x128_S1x4096x128_2_0_0) shapeCasts_S1x4096x128_S4096x128 := by
  show V9 m outs c main_v13 = _
  exact (V9_of m outs c main_v13 (by decide)).trans <| (V8_of m outs c main_v13 (by decide)).trans <| (V7_of m outs c main_v13 (by decide)).trans <| (V6_of m outs c main_v13 (by decide)).trans <| (buf_v13 m outs c)

theorem opnd4_2 (c : Dev nD) :
    V9 m outs c (Pipeline.arrRef spec4 ⟨2, by decide⟩) = shapeCast S4096x128 (extractStridedSlice S1x4096x128 ![5, 0, 0] (outs 6 main_v26 c) slices_S8x4096x128_S1x4096x128_5_0_0) shapeCasts_S1x4096x128_S4096x128 := by
  show V9 m outs c main_v38 = _
  exact (V9_of m outs c main_v38 (by decide)).trans <| (V8_of m outs c main_v38 (by decide)).trans <| (buf_v38 m outs c)

theorem opnd4_3 (c : Dev nD) :
    V9 m outs c (Pipeline.arrRef spec4 ⟨3, by decide⟩) = shapeCast S4096x128 (extractStridedSlice S1x4096x128 ![1, 0, 0] (outs 8 main_v45 c) slices_S8x4096x128_S1x4096x128_1_0_0) shapeCasts_S1x4096x128_S4096x128 := by
  show V9 m outs c main_v49 = _
  exact buf_v49 m outs c

theorem opnd4_4 (c : Dev nD) :
    V9 m outs c (Pipeline.arrRef spec4 ⟨4, by decide⟩) = shapeCast S4096x128 (extractStridedSlice S1x4096x128 ![4, 0, 0] (outs 8 main_v45 c) slices_S8x4096x128_S1x4096x128_4_0_0) shapeCasts_S1x4096x128_S4096x128 := by
  show V9 m outs c main_v55 = _
  exact buf_v55 m outs c

theorem opnd4_5 (c : Dev nD) :
    V9 m outs c (Pipeline.arrRef spec4 ⟨5, by decide⟩) = shapeCast S4096x128 (extractStridedSlice S1x4096x128 ![4, 0, 0] (outs 6 main_v26 c) slices_S8x4096x128_S1x4096x128_4_0_0) shapeCasts_S1x4096x128_S4096x128 := by
  show V9 m outs c main_v36 = _
  exact (V9_of m outs c main_v36 (by decide)).trans <| (V8_of m outs c main_v36 (by decide)).trans <| (buf_v36 m outs c)

theorem opnd4_6 (c : Dev nD) :
    V9 m outs c (Pipeline.arrRef spec4 ⟨6, by decide⟩) = shapeCast S4096x128 (extractStridedSlice S1x4096x128 ![0, 0, 0] (outs 6 main_v26 c) slices_S8x4096x128_S1x4096x128_0_0_0) shapeCasts_S1x4096x128_S4096x128 := by
  show V9 m outs c main_v28 = _
  exact (V9_of m outs c main_v28 (by decide)).trans <| (V8_of m outs c main_v28 (by decide)).trans <| (buf_v28 m outs c)

theorem opnd4_7 (c : Dev nD) :
    V9 m outs c (Pipeline.arrRef spec4 ⟨7, by decide⟩) = shapeCast S4096x128 (extractStridedSlice S1x4096x128 ![6, 0, 0] (outs 4 main_v7 c) slices_S8x4096x128_S1x4096x128_6_0_0) shapeCasts_S1x4096x128_S4096x128 := by
  show V9 m outs c main_v21 = _
  exact (V9_of m outs c main_v21 (by decide)).trans <| (V8_of m outs c main_v21 (by decide)).trans <| (V7_of m outs c main_v21 (by decide)).trans <| (V6_of m outs c main_v21 (by decide)).trans <| (buf_v21 m outs c)

theorem opnd4_8 (c : Dev nD) :
    V9 m outs c (Pipeline.arrRef spec4 ⟨8, by decide⟩) = shapeCast S4096x128 (extractStridedSlice S1x4096x128 ![1, 0, 0] (outs 6 main_v26 c) slices_S8x4096x128_S1x4096x128_1_0_0) shapeCasts_S1x4096x128_S4096x128 := by
  show V9 m outs c main_v30 = _
  exact (V9_of m outs c main_v30 (by decide)).trans <| (V8_of m outs c main_v30 (by decide)).trans <| (buf_v30 m outs c)

theorem opnd4_9 (c : Dev nD) :
    V9 m outs c (Pipeline.arrRef spec4 ⟨9, by decide⟩) = shapeCast S4096x128 (extractStridedSlice S1x4096x128 ![3, 0, 0] (outs 6 main_v26 c) slices_S8x4096x128_S1x4096x128_3_0_0) shapeCasts_S1x4096x128_S4096x128 := by
  show V9 m outs c main_v34 = _
  exact (V9_of m outs c main_v34 (by decide)).trans <| (V8_of m outs c main_v34 (by decide)).trans <| (buf_v34 m outs c)

theorem opnd4_10 (c : Dev nD) :
    V9 m outs c (Pipeline.arrRef spec4 ⟨10, by decide⟩) = shapeCast S4096x128 (extractStridedSlice S1x4096x128 ![0, 0, 0] (outs 8 main_v45 c) slices_S8x4096x128_S1x4096x128_0_0_0) shapeCasts_S1x4096x128_S4096x128 := by
  show V9 m outs c main_v47 = _
  exact buf_v47 m outs c

theorem opnd4_11 (c : Dev nD) :
    V9 m outs c (Pipeline.arrRef spec4 ⟨11, by decide⟩) = shapeCast S4096x128 (extractStridedSlice S1x4096x128 ![5, 0, 0] (outs 8 main_v45 c) slices_S8x4096x128_S1x4096x128_5_0_0) shapeCasts_S1x4096x128_S4096x128 := by
  show V9 m outs c main_v57 = _
  exact buf_v57 m outs c

theorem opnd4_12 (c : Dev nD) :
    V9 m outs c (Pipeline.arrRef spec4 ⟨12, by decide⟩) = shapeCast S4096x128 (extractStridedSlice S1x4096x128 ![0, 0, 0] (outs 4 main_v7 c) slices_S8x4096x128_S1x4096x128_0_0_0) shapeCasts_S1x4096x128_S4096x128 := by
  show V9 m outs c main_v9 = _
  exact (V9_of m outs c main_v9 (by decide)).trans <| (V8_of m outs c main_v9 (by decide)).trans <| (V7_of m outs c main_v9 (by decide)).trans <| (V6_of m outs c main_v9 (by decide)).trans <| (buf_v9 m outs c)

theorem opnd4_13 (c : Dev nD) :
    V9 m outs c (Pipeline.arrRef spec4 ⟨13, by decide⟩) = shapeCast S4096x128 (extractStridedSlice S1x4096x128 ![6, 0, 0] (outs 8 main_v45 c) slices_S8x4096x128_S1x4096x128_6_0_0) shapeCasts_S1x4096x128_S4096x128 := by
  show V9 m outs c main_v59 = _
  exact buf_v59 m outs c

theorem opnd4_14 (c : Dev nD) :
    V9 m outs c (Pipeline.arrRef spec4 ⟨14, by decide⟩) = shapeCast S4096x128 (extractStridedSlice S1x4096x128 ![4, 0, 0] (outs 6 main_v26 c) slices_S8x4096x128_S1x4096x128_4_0_0) shapeCasts_S1x4096x128_S4096x128 := by
  show V9 m outs c main_v36 = _
  exact (V9_of m outs c main_v36 (by decide)).trans <| (V8_of m outs c main_v36 (by decide)).trans <| (buf_v36 m outs c)

theorem opnd4_15 (c : Dev nD) :
    V9 m outs c (Pipeline.arrRef spec4 ⟨15, by decide⟩) = shapeCast S4096x128 (extractStridedSlice S1x4096x128 ![7, 0, 0] (outs 4 main_v7 c) slices_S8x4096x128_S1x4096x128_7_0_0) shapeCasts_S1x4096x128_S4096x128 := by
  show V9 m outs c main_v23 = _
  exact (V9_of m outs c main_v23 (by decide)).trans <| (V8_of m outs c main_v23 (by decide)).trans <| (V7_of m outs c main_v23 (by decide)).trans <| (V6_of m outs c main_v23 (by decide)).trans <| (buf_v23 m outs c)

theorem opnd4_16 (c : Dev nD) :
    V9 m outs c (Pipeline.arrRef spec4 ⟨16, by decide⟩) = shapeCast S4096x128 (extractStridedSlice S1x4096x128 ![7, 0, 0] (outs 6 main_v26 c) slices_S8x4096x128_S1x4096x128_7_0_0) shapeCasts_S1x4096x128_S4096x128 := by
  show V9 m outs c main_v42 = _
  exact (V9_of m outs c main_v42 (by decide)).trans <| (V8_of m outs c main_v42 (by decide)).trans <| (buf_v42 m outs c)

theorem opnd4_17 (c : Dev nD) :
    V9 m outs c (Pipeline.arrRef spec4 ⟨17, by decide⟩) = shapeCast S4096x128 (extractStridedSlice S1x4096x128 ![5, 0, 0] (outs 6 main_v26 c) slices_S8x4096x128_S1x4096x128_5_0_0) shapeCasts_S1x4096x128_S4096x128 := by
  show V9 m outs c main_v38 = _
  exact (V9_of m outs c main_v38 (by decide)).trans <| (V8_of m outs c main_v38 (by decide)).trans <| (buf_v38 m outs c)

theorem opnd4_18 (c : Dev nD) :
    V9 m outs c (Pipeline.arrRef spec4 ⟨18, by decide⟩) = shapeCast S4096x128 (extractStridedSlice S1x4096x128 ![5, 0, 0] (outs 4 main_v7 c) slices_S8x4096x128_S1x4096x128_5_0_0) shapeCasts_S1x4096x128_S4096x128 := by
  show V9 m outs c main_v19 = _
  exact (V9_of m outs c main_v19 (by decide)).trans <| (V8_of m outs c main_v19 (by decide)).trans <| (V7_of m outs c main_v19 (by decide)).trans <| (V6_of m outs c main_v19 (by decide)).trans <| (buf_v19 m outs c)

theorem opnd4_19 (c : Dev nD) :
    V9 m outs c (Pipeline.arrRef spec4 ⟨19, by decide⟩) = shapeCast S4096x128 (extractStridedSlice S1x4096x128 ![7, 0, 0] (outs 4 main_v7 c) slices_S8x4096x128_S1x4096x128_7_0_0) shapeCasts_S1x4096x128_S4096x128 := by
  show V9 m outs c main_v23 = _
  exact (V9_of m outs c main_v23 (by decide)).trans <| (V8_of m outs c main_v23 (by decide)).trans <| (V7_of m outs c main_v23 (by decide)).trans <| (V6_of m outs c main_v23 (by decide)).trans <| (buf_v23 m outs c)

theorem opnd4_20 (c : Dev nD) :
    V9 m outs c (Pipeline.arrRef spec4 ⟨20, by decide⟩) = shapeCast S4096x128 (extractStridedSlice S1x4096x128 ![0, 0, 0] (outs 8 main_v45 c) slices_S8x4096x128_S1x4096x128_0_0_0) shapeCasts_S1x4096x128_S4096x128 := by
  show V9 m outs c main_v47 = _
  exact buf_v47 m outs c

theorem opnd4_21 (c : Dev nD) :
    V9 m outs c (Pipeline.arrRef spec4 ⟨21, by decide⟩) = shapeCast S4096x128 (extractStridedSlice S1x4096x128 ![5, 0, 0] (outs 6 main_v26 c) slices_S8x4096x128_S1x4096x128_5_0_0) shapeCasts_S1x4096x128_S4096x128 := by
  show V9 m outs c main_v38 = _
  exact (V9_of m outs c main_v38 (by decide)).trans <| (V8_of m outs c main_v38 (by decide)).trans <| (buf_v38 m outs c)

theorem opnd4_22 (c : Dev nD) :
    V9 m outs c (Pipeline.arrRef spec4 ⟨22, by decide⟩) = shapeCast S4096x128 (extractStridedSlice S1x4096x128 ![3, 0, 0] (outs 6 main_v26 c) slices_S8x4096x128_S1x4096x128_3_0_0) shapeCasts_S1x4096x128_S4096x128 := by
  show V9 m outs c main_v34 = _
  exact (V9_of m outs c main_v34 (by decide)).trans <| (V8_of m outs c main_v34 (by decide)).trans <| (buf_v34 m outs c)

theorem opnd4_23 (c : Dev nD) :
    V9 m outs c (Pipeline.arrRef spec4 ⟨23, by decide⟩) = shapeCast S4096x128 (extractStridedSlice S1x4096x128 ![7, 0, 0] (outs 4 main_v7 c) slices_S8x4096x128_S1x4096x128_7_0_0) shapeCasts_S1x4096x128_S4096x128 := by
  show V9 m outs c main_v23 = _
  exact (V9_of m outs c main_v23 (by decide)).trans <| (V8_of m outs c main_v23 (by decide)).trans <| (V7_of m outs c main_v23 (by decide)).trans <| (V6_of m outs c main_v23 (by decide)).trans <| (buf_v23 m outs c)

theorem opnd4_24 (c : Dev nD) :
    V9 m outs c (Pipeline.arrRef spec4 ⟨24, by decide⟩) = shapeCast S4096x128 (extractStridedSlice S1x4096x128 ![2, 0, 0] (outs 8 main_v45 c) slices_S8x4096x128_S1x4096x128_2_0_0) shapeCasts_S1x4096x128_S4096x128 := by
  show V9 m outs c main_v51 = _
  exact buf_v51 m outs c

theorem opnd4_25 (c : Dev nD) :
    V9 m outs c (Pipeline.arrRef spec4 ⟨25, by decide⟩) = shapeCast S4096x128 (extractStridedSlice S1x4096x128 ![0, 0, 0] (outs 6 main_v26 c) slices_S8x4096x128_S1x4096x128_0_0_0) shapeCasts_S1x4096x128_S4096x128 := by
  show V9 m outs c main_v28 = _
  exact (V9_of m outs c main_v28 (by decide)).trans <| (V8_of m outs c main_v28 (by decide)).trans <| (buf_v28 m outs c)

theorem opnd4_26 (c : Dev nD) :
    V9 m outs c (Pipeline.arrRef spec4 ⟨26, by decide⟩) = shapeCast S4096x128 (extractStridedSlice S1x4096x128 ![7, 0, 0] (outs 4 main_v7 c) slices_S8x4096x128_S1x4096x128_7_0_0) shapeCasts_S1x4096x128_S4096x128 := by
  show V9 m outs c main_v23 = _
  exact (V9_of m outs c main_v23 (by decide)).trans <| (V8_of m outs c main_v23 (by decide)).trans <| (V7_of m outs c main_v23 (by decide)).trans <| (V6_of m outs c main_v23 (by decide)).trans <| (buf_v23 m outs c)

theorem opnd4_27 (c : Dev nD) :
    V9 m outs c (Pipeline.arrRef spec4 ⟨27, by decide⟩) = shapeCast S4096x128 (extractStridedSlice S1x4096x128 ![5, 0, 0] (outs 8 main_v45 c) slices_S8x4096x128_S1x4096x128_5_0_0) shapeCasts_S1x4096x128_S4096x128 := by
  show V9 m outs c main_v57 = _
  exact buf_v57 m outs c

theorem opnd4_28 (c : Dev nD) :
    V9 m outs c (Pipeline.arrRef spec4 ⟨28, by decide⟩) = shapeCast S4096x128 (extractStridedSlice S1x4096x128 ![5, 0, 0] (outs 4 main_v7 c) slices_S8x4096x128_S1x4096x128_5_0_0) shapeCasts_S1x4096x128_S4096x128 := by
  show V9 m outs c main_v19 = _
  exact (V9_of m outs c main_v19 (by decide)).trans <| (V8_of m outs c main_v19 (by decide)).trans <| (V7_of m outs c main_v19 (by decide)).trans <| (V6_of m outs c main_v19 (by decide)).trans <| (buf_v19 m outs c)

theorem opnd4_29 (c : Dev nD) :
    V9 m outs c (Pipeline.arrRef spec4 ⟨29, by decide⟩) = shapeCast S4096x128 (extractStridedSlice S1x4096x128 ![4, 0, 0] (outs 4 main_v7 c) slices_S8x4096x128_S1x4096x128_4_0_0) shapeCasts_S1x4096x128_S4096x128 := by
  show V9 m outs c main_v17 = _
  exact (V9_of m outs c main_v17 (by decide)).trans <| (V8_of m outs c main_v17 (by decide)).trans <| (V7_of m outs c main_v17 (by decide)).trans <| (V6_of m outs c main_v17 (by decide)).trans <| (buf_v17 m outs c)

theorem opnd4_30 (c : Dev nD) :
    V9 m outs c (Pipeline.arrRef spec4 ⟨30, by decide⟩) = shapeCast S4096x128 (extractStridedSlice S1x4096x128 ![0, 0, 0] (outs 8 main_v45 c) slices_S8x4096x128_S1x4096x128_0_0_0) shapeCasts_S1x4096x128_S4096x128 := by
  show V9 m outs c main_v47 = _
  exact buf_v47 m outs c

theorem opnd4_31 (c : Dev nD) :
    V9 m outs c (Pipeline.arrRef spec4 ⟨31, by decide⟩) = shapeCast S4096x128 (extractStridedSlice S1x4096x128 ![6, 0, 0] (outs 6 main_v26 c) slices_S8x4096x128_S1x4096x128_6_0_0) shapeCasts_S1x4096x128_S4096x128 := by
  show V9 m outs c main_v40 = _
  exact (V9_of m outs c main_v40 (by decide)).trans <| (V8_of m outs c main_v40 (by decide)).trans <| (buf_v40 m outs c)

theorem opnd4_32 (c : Dev nD) :
    V9 m outs c (Pipeline.arrRef spec4 ⟨32, by decide⟩) = extractStridedSlice S8x128x128 ![25, 0, 0] (transpose S65x128x128 [0, 2, 1] (m ((c : Thread nD τ).loc main_arg1)) transposes_S65x128x128_S65x128x128_0_2_1) slices_S65x128x128_S8x128x128_25_0_0 := by
  show V9 m outs c main_v62 = _
  exact buf_v62 m outs c

theorem opnd4_33 (c : Dev nD) :
    V9 m outs c (Pipeline.arrRef spec4 ⟨33, by decide⟩) = extractStridedSlice S8x128 ![25, 0] (m ((c : Thread nD τ).loc main_arg2)) slices_S65x128_S8x128_25_0 := by
  show V9 m outs c main_v63 = _
  exact buf_v63 m outs c

end Cert.KernelIdeal.Hand
-- ==== Proof.KI.Host4.lean ====
import proofs.«135270_j33062658245245_1_alg».proof.Proof.KI.Host1

/-! What regions 5 to 6 find in their 34 operand arrays on entry, for arbitrary region outputs outs: each parent array is a slab
  of an earlier region's output reshaped to [4096,128] (or region 0's whole output reshaped), array 32 the region's 8 rows of the
  transposed weights, array 33 its 8 rows of the bias. A table of cases over the operand lists of the program's custom_calls. -/

-- decided memberships among the program's references recurse past the default depth
set_option maxRecDepth 7852

noncomputable section

namespace Cert.KernelIdeal.Hand

open Cert.KernelIdeal Cert.KernelIdeal.Gen Cert.KernelIdeal.GenP Idealize.ShloMosaic Idealize.ShloMosaic.TcCoe Idealize.ShloMosaic.StableHlo

variable {F : FTy → Type} [FloatOps F] (m : (ℓ : Loc nD τ sig) → Buf (Elt F) ℓ) (outs : Outs (F := F))

/-! ## Region 5's 34 operand arrays at its entry valuation -/

theorem opnd5_0 (c : Dev nD) :
    V11 m outs c (Pipeline.arrRef spec5 ⟨0, by decide⟩) = shapeCast S4096x128 (extractStridedSlice S1x4096x128 ![0, 0, 0] (outs 4 main_v7 c) slices_S8x4096x128_S1x4096x128_0_0_0) shapeCasts_S1x4096x128_S4096x128 := by
  show V11 m outs c main_v9 = _
  exact (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (buf_v9 m outs c)

theorem opnd5_1 (c : Dev nD) :
    V11 m outs c (Pipeline.arrRef spec5 ⟨1, by decide⟩) = shapeCast S4096x128 (extractStridedSlice S1x4096x128 ![1, 0, 0] (outs 4 main_v7 c) slices_S8x4096x128_S1x4096x128_1_0_0) shapeCasts_S1x4096x128_S4096x128 := by
  show V11 m outs c main_v11 = _
  exact (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (buf_v11 m outs c)

theorem opnd5_2 (c : Dev nD) :
    V11 m outs c (Pipeline.arrRef spec5 ⟨2, by decide⟩) = shapeCast S4096x128 (extractStridedSlice S1x4096x128 ![3, 0, 0] (outs 6 main_v26 c) slices_S8x4096x128_S1x4096x128_3_0_0) shapeCasts_S1x4096x128_S4096x128 := by
  show V11 m outs c main_v34 = _
  exact (V11_of m outs c main_v34 (by decide)).trans <| (V10_of m outs c main_v34 (by decide)).trans <| (V9_of m outs c main_v34 (by decide)).trans <| (V8_of m outs c main_v34 (by decide)).trans <| (buf_v34 m outs c)

theorem opnd5_3 (c : Dev nD) :
    V11 m outs c (Pipeline.arrRef spec5 ⟨3, by decide⟩) = shapeCast S4096x128 (extractStridedSlice S1x4096x128 ![2, 0, 0] (outs 10 main_v64 c) slices_S8x4096x128_S1x4096x128_2_0_0) shapeCasts_S1x4096x128_S4096x128 := by
  show V11 m outs c main_v70 = _
  exact buf_v70 m outs c

theorem opnd5_4 (c : Dev nD) :
    V11 m outs c (Pipeline.arrRef spec5 ⟨4, by decide⟩) = shapeCast S4096x128 (extractStridedSlice S1x4096x128 ![4, 0, 0] (outs 6 main_v26 c) slices_S8x4096x128_S1x4096x128_4_0_0) shapeCasts_S1x4096x128_S4096x128 := by
  show V11 m outs c main_v36 = _
  exact (V11_of m outs c main_v36 (by decide)).trans <| (V10_of m outs c main_v36 (by decide)).trans <| (V9_of m outs c main_v36 (by decide)).trans <| (V8_of m outs c main_v36 (by decide)).trans <| (buf_v36 m outs c)

theorem opnd5_5 (c : Dev nD) :
    V11 m outs c (Pipeline.arrRef spec5 ⟨5, by decide⟩) = shapeCast S4096x128 (extractStridedSlice S1x4096x128 ![0, 0, 0] (outs 10 main_v64 c) slices_S8x4096x128_S1x4096x128_0_0_0) shapeCasts_S1x4096x128_S4096x128 := by
  show V11 m outs c main_v66 = _
  exact buf_v66 m outs c

theorem opnd5_6 (c : Dev nD) :
    V11 m outs c (Pipeline.arrRef spec5 ⟨6, by decide⟩) = shapeCast S4096x128 (extractStridedSlice S1x4096x128 ![1, 0, 0] (outs 6 main_v26 c) slices_S8x4096x128_S1x4096x128_1_0_0) shapeCasts_S1x4096x128_S4096x128 := by
  show V11 m outs c main_v30 = _
  exact (V11_of m outs c main_v30 (by decide)).trans <| (V10_of m outs c main_v30 (by decide)).trans <| (V9_of m outs c main_v30 (by decide)).trans <| (V8_of m outs c main_v30 (by decide)).trans <| (buf_v30 m outs c)

theorem opnd5_7 (c : Dev nD) :
    V11 m outs c (Pipeline.arrRef spec5 ⟨7, by decide⟩) = shapeCast S4096x128 (extractStridedSlice S1x4096x128 ![6, 0, 0] (outs 4 main_v7 c) slices_S8x4096x128_S1x4096x128_6_0_0) shapeCasts_S1x4096x128_S4096x128 := by
  show V11 m outs c main_v21 = _
  exact (V11_of m outs c main_v21 (by decide)).trans <| (V10_of m outs c main_v21 (by decide)).trans <| (V9_of m outs c main_v21 (by decide)).trans <| (V8_of m outs c main_v21 (by decide)).trans <| (V7_of m outs c main_v21 (by decide)).trans <| (V6_of m outs c main_v21 (by decide)).trans <| (buf_v21 m outs c)

theorem opnd5_8 (c : Dev nD) :
    V11 m outs c (Pipeline.arrRef spec5 ⟨8, by decide⟩) = shapeCast S4096x128 (extractStridedSlice S1x4096x128 ![1, 0, 0] (outs 10 main_v64 c) slices_S8x4096x128_S1x4096x128_1_0_0) shapeCasts_S1x4096x128_S4096x128 := by
  show V11 m outs c main_v68 = _
  exact buf_v68 m outs c

theorem opnd5_9 (c : Dev nD) :
    V11 m outs c (Pipeline.arrRef spec5 ⟨9, by decide⟩) = shapeCast S4096x128 (extractStridedSlice S1x4096x128 ![3, 0, 0] (outs 10 main_v64 c) slices_S8x4096x128_S1x4096x128_3_0_0) shapeCasts_S1x4096x128_S4096x128 := by
  show V11 m outs c main_v72 = _
  exact buf_v72 m outs c

theorem opnd5_10 (c : Dev nD) :
    V11 m outs c (Pipeline.arrRef spec5 ⟨10, by decide⟩) = shapeCast S4096x128 (extractStridedSlice S1x4096x128 ![1, 0, 0] (outs 4 main_v7 c) slices_S8x4096x128_S1x4096x128_1_0_0) shapeCasts_S1x4096x128_S4096x128 := by
  show V11 m outs c main_v11 = _
  exact (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (buf_v11 m outs c)

theorem opnd5_11 (c : Dev nD) :
    V11 m outs c (Pipeline.arrRef spec5 ⟨11, by decide⟩) = shapeCast S4096x128 (extractStridedSlice S1x4096x128 ![0, 0, 0] (outs 4 main_v7 c) slices_S8x4096x128_S1x4096x128_0_0_0) shapeCasts_S1x4096x128_S4096x128 := by
  show V11 m outs c main_v9 = _
  exact (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (buf_v9 m outs c)

theorem opnd5_12 (c : Dev nD) :
    V11 m outs c (Pipeline.arrRef spec5 ⟨12, by decide⟩) = shapeCast S4096x128 (extractStridedSlice S1x4096x128 ![5, 0, 0] (outs 8 main_v45 c) slices_S8x4096x128_S1x4096x128_5_0_0) shapeCasts_S1x4096x128_S4096x128 := by
  show V11 m outs c main_v57 = _
  exact (V11_of m outs c main_v57 (by decide)).trans <| (V10_of m outs c main_v57 (by decide)).trans <| (buf_v57 m outs c)

theorem opnd5_13 (c : Dev nD) :
    V11 m outs c (Pipeline.arrRef spec5 ⟨13, by decide⟩) = shapeCast S4096x128 (extractStridedSlice S1x4096x128 ![2, 0, 0] (outs 6 main_v26 c) slices_S8x4096x128_S1x4096x128_2_0_0) shapeCasts_S1x4096x128_S4096x128 := by
  show V11 m outs c main_v32 = _
  exact (V11_of m outs c main_v32 (by decide)).trans <| (V10_of m outs c main_v32 (by decide)).trans <| (V9_of m outs c main_v32 (by decide)).trans <| (V8_of m outs c main_v32 (by decide)).trans <| (buf_v32 m outs c)

theorem opnd5_14 (c : Dev nD) :
    V11 m outs c (Pipeline.arrRef spec5 ⟨14, by decide⟩) = shapeCast S4096x128 (extractStridedSlice S1x4096x128 ![1, 0, 0] (outs 8 main_v45 c) slices_S8x4096x128_S1x4096x128_1_0_0) shapeCasts_S1x4096x128_S4096x128 := by
  show V11 m outs c main_v49 = _
  exact (V11_of m outs c main_v49 (by decide)).trans <| (V10_of m outs c main_v49 (by decide)).trans <| (buf_v49 m outs c)

theorem opnd5_15 (c : Dev nD) :
    V11 m outs c (Pipeline.arrRef spec5 ⟨15, by decide⟩) = shapeCast S4096x128 (extractStridedSlice S1x4096x128 ![3, 0, 0] (outs 4 main_v7 c) slices_S8x4096x128_S1x4096x128_3_0_0) shapeCasts_S1x4096x128_S4096x128 := by
  show V11 m outs c main_v15 = _
  exact (V11_of m outs c main_v15 (by decide)).trans <| (V10_of m outs c main_v15 (by decide)).trans <| (V9_of m outs c main_v15 (by decide)).trans <| (V8_of m outs c main_v15 (by decide)).trans <| (V7_of m outs c main_v15 (by decide)).trans <| (V6_of m outs c main_v15 (by decide)).trans <| (buf_v15 m outs c)

theorem opnd5_16 (c : Dev nD) :
    V11 m outs c (Pipeline.arrRef spec5 ⟨16, by decide⟩) = shapeCast S4096x128 (extractStridedSlice S1x4096x128 ![3, 0, 0] (outs 10 main_v64 c) slices_S8x4096x128_S1x4096x128_3_0_0) shapeCasts_S1x4096x128_S4096x128 := by
  show V11 m outs c main_v72 = _
  exact buf_v72 m outs c

theorem opnd5_17 (c : Dev nD) :
    V11 m outs c (Pipeline.arrRef spec5 ⟨17, by decide⟩) = shapeCast S4096x128 (extractStridedSlice S1x4096x128 ![5, 0, 0] (outs 6 main_v26 c) slices_S8x4096x128_S1x4096x128_5_0_0) shapeCasts_S1x4096x128_S4096x128 := by
  show V11 m outs c main_v38 = _
  exact (V11_of m outs c main_v38 (by decide)).trans <| (V10_of m outs c main_v38 (by decide)).trans <| (V9_of m outs c main_v38 (by decide)).trans <| (V8_of m outs c main_v38 (by decide)).trans <| (buf_v38 m outs c)

theorem opnd5_18 (c : Dev nD) :
    V11 m outs c (Pipeline.arrRef spec5 ⟨18, by decide⟩) = shapeCast S4096x128 (extractStridedSlice S1x4096x128 ![4, 0, 0] (outs 10 main_v64 c) slices_S8x4096x128_S1x4096x128_4_0_0) shapeCasts_S1x4096x128_S4096x128 := by
  show V11 m outs c main_v74 = _
  exact buf_v74 m outs c

theorem opnd5_19 (c : Dev nD) :
    V11 m outs c (Pipeline.arrRef spec5 ⟨19, by decide⟩) = shapeCast S4096x128 (extractStridedSlice S1x4096x128 ![1, 0, 0] (outs 10 main_v64 c) slices_S8x4096x128_S1x4096x128_1_0_0) shapeCasts_S1x4096x128_S4096x128 := by
  show V11 m outs c main_v68 = _
  exact buf_v68 m outs c

theorem opnd5_20 (c : Dev nD) :
    V11 m outs c (Pipeline.arrRef spec5 ⟨20, by decide⟩) = shapeCast S4096x128 (extractStridedSlice S1x4096x128 ![6, 0, 0] (outs 8 main_v45 c) slices_S8x4096x128_S1x4096x128_6_0_0) shapeCasts_S1x4096x128_S4096x128 := by
  show V11 m outs c main_v59 = _
  exact (V11_of m outs c main_v59 (by decide)).trans <| (V10_of m outs c main_v59 (by decide)).trans <| (buf_v59 m outs c)

theorem opnd5_21 (c : Dev nD) :
    V11 m outs c (Pipeline.arrRef spec5 ⟨21, by decide⟩) = shapeCast S4096x128 (extractStridedSlice S1x4096x128 ![6, 0, 0] (outs 4 main_v7 c) slices_S8x4096x128_S1x4096x128_6_0_0) shapeCasts_S1x4096x128_S4096x128 := by
  show V11 m outs c main_v21 = _
  exact (V11_of m outs c main_v21 (by decide)).trans <| (V10_of m outs c main_v21 (by decide)).trans <| (V9_of m outs c main_v21 (by decide)).trans <| (V8_of m outs c main_v21 (by decide)).trans <| (V7_of m outs c main_v21 (by decide)).trans <| (V6_of m outs c main_v21 (by decide)).trans <| (buf_v21 m outs c)

theorem opnd5_22 (c : Dev nD) :
    V11 m outs c (Pipeline.arrRef spec5 ⟨22, by decide⟩) = shapeCast S4096x128 (extractStridedSlice S1x4096x128 ![0, 0, 0] (outs 10 main_v64 c) slices_S8x4096x128_S1x4096x128_0_0_0) shapeCasts_S1x4096x128_S4096x128 := by
  show V11 m outs c main_v66 = _
  exact buf_v66 m outs c

theorem opnd5_23 (c : Dev nD) :
    V11 m outs c (Pipeline.arrRef spec5 ⟨23, by decide⟩) = shapeCast S4096x128 (extractStridedSlice S1x4096x128 ![0, 0, 0] (outs 4 main_v7 c) slices_S8x4096x128_S1x4096x128_0_0_0) shapeCasts_S1x4096x128_S4096x128 := by
  show V11 m outs c main_v9 = _
  exact (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (buf_v9 m outs c)

theorem opnd5_24 (c : Dev nD) :
    V11 m outs c (Pipeline.arrRef spec5 ⟨24, by decide⟩) = shapeCast S4096x128 (extractStridedSlice S1x4096x128 ![1, 0, 0] (outs 8 main_v45 c) slices_S8x4096x128_S1x4096x128_1_0_0) shapeCasts_S1x4096x128_S4096x128 := by
  show V11 m outs c main_v49 = _
  exact (V11_of m outs c main_v49 (by decide)).trans <| (V10_of m outs c main_v49 (by decide)).trans <| (buf_v49 m outs c)

theorem opnd5_25 (c : Dev nD) :
    V11 m outs c (Pipeline.arrRef spec5 ⟨25, by decide⟩) = shapeCast S4096x128 (extractStridedSlice S1x4096x128 ![4, 0, 0] (outs 6 main_v26 c) slices_S8x4096x128_S1x4096x128_4_0_0) shapeCasts_S1x4096x128_S4096x128 := by
  show V11 m outs c main_v36 = _
  exact (V11_of m outs c main_v36 (by decide)).trans <| (V10_of m outs c main_v36 (by decide)).trans <| (V9_of m outs c main_v36 (by decide)).trans <| (V8_of m outs c main_v36 (by decide)).trans <| (buf_v36 m outs c)

theorem opnd5_26 (c : Dev nD) :
    V11 m outs c (Pipeline.arrRef spec5 ⟨26, by decide⟩) = shapeCast S4096x128 (extractStridedSlice S1x4096x128 ![7, 0, 0] (outs 10 main_v64 c) slices_S8x4096x128_S1x4096x128_7_0_0) shapeCasts_S1x4096x128_S4096x128 := by
  show V11 m outs c main_v80 = _
  exact buf_v80 m outs c

theorem opnd5_27 (c : Dev nD) :
    V11 m outs c (Pipeline.arrRef spec5 ⟨27, by decide⟩) = shapeCast S4096x128 (extractStridedSlice S1x4096x128 ![5, 0, 0] (outs 4 main_v7 c) slices_S8x4096x128_S1x4096x128_5_0_0) shapeCasts_S1x4096x128_S4096x128 := by
  show V11 m outs c main_v19 = _
  exact (V11_of m outs c main_v19 (by decide)).trans <| (V10_of m outs c main_v19 (by decide)).trans <| (V9_of m outs c main_v19 (by decide)).trans <| (V8_of m outs c main_v19 (by decide)).trans <| (V7_of m outs c main_v19 (by decide)).trans <| (V6_of m outs c main_v19 (by decide)).trans <| (buf_v19 m outs c)

theorem opnd5_28 (c : Dev nD) :
    V11 m outs c (Pipeline.arrRef spec5 ⟨28, by decide⟩) = shapeCast S4096x128 (extractStridedSlice S1x4096x128 ![6, 0, 0] (outs 10 main_v64 c) slices_S8x4096x128_S1x4096x128_6_0_0) shapeCasts_S1x4096x128_S4096x128 := by
  show V11 m outs c main_v78 = _
  exact buf_v78 m outs c

theorem opnd5_29 (c : Dev nD) :
    V11 m outs c (Pipeline.arrRef spec5 ⟨29, by decide⟩) = shapeCast S4096x128 (extractStridedSlice S1x4096x128 ![1, 0, 0] (outs 4 main_v7 c) slices_S8x4096x128_S1x4096x128_1_0_0) shapeCasts_S1x4096x128_S4096x128 := by
  show V11 m outs c main_v11 = _
  exact (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (buf_v11 m outs c)

theorem opnd5_30 (c : Dev nD) :
    V11 m outs c (Pipeline.arrRef spec5 ⟨30, by decide⟩) = shapeCast S4096x128 (extractStridedSlice S1x4096x128 ![3, 0, 0] (outs 8 main_v45 c) slices_S8x4096x128_S1x4096x128_3_0_0) shapeCasts_S1x4096x128_S4096x128 := by
  show V11 m outs c main_v53 = _
  exact (V11_of m outs c main_v53 (by decide)).trans <| (V10_of m outs c main_v53 (by decide)).trans <| (buf_v53 m outs c)

theorem opnd5_31 (c : Dev nD) :
    V11 m outs c (Pipeline.arrRef spec5 ⟨31, by decide⟩) = shapeCast S4096x128 (extractStridedSlice S1x4096x128 ![2, 0, 0] (outs 8 main_v45 c) slices_S8x4096x128_S1x4096x128_2_0_0) shapeCasts_S1x4096x128_S4096x128 := by
  show V11 m outs c main_v51 = _
  exact (V11_of m outs c main_v51 (by decide)).trans <| (V10_of m outs c main_v51 (by decide)).trans <| (buf_v51 m outs c)

theorem opnd5_32 (c : Dev nD) :
    V11 m outs c (Pipeline.arrRef spec5 ⟨32, by decide⟩) = extractStridedSlice S8x128x128 ![33, 0, 0] (transpose S65x128x128 [0, 2, 1] (m ((c : Thread nD τ).loc main_arg1)) transposes_S65x128x128_S65x128x128_0_2_1) slices_S65x128x128_S8x128x128_33_0_0 := by
  show V11 m outs c main_v81 = _
  exact buf_v81 m outs c

theorem opnd5_33 (c : Dev nD) :
    V11 m outs c (Pipeline.arrRef spec5 ⟨33, by decide⟩) = extractStridedSlice S8x128 ![33, 0] (m ((c : Thread nD τ).loc main_arg2)) slices_S65x128_S8x128_33_0 := by
  show V11 m outs c main_v82 = _
  exact buf_v82 m outs c

/-! ## Region 6's 34 operand arrays at its entry valuation -/

theorem opnd6_0 (c : Dev nD) :
    V13 m outs c (Pipeline.arrRef spec6 ⟨0, by decide⟩) = shapeCast S4096x128 (extractStridedSlice S1x4096x128 ![3, 0, 0] (outs 12 main_v83 c) slices_S8x4096x128_S1x4096x128_3_0_0) shapeCasts_S1x4096x128_S4096x128 := by
  show V13 m outs c main_v91 = _
  exact buf_v91 m outs c

theorem opnd6_1 (c : Dev nD) :
    V13 m outs c (Pipeline.arrRef spec6 ⟨1, by decide⟩) = shapeCast S4096x128 (extractStridedSlice S1x4096x128 ![3, 0, 0] (outs 6 main_v26 c) slices_S8x4096x128_S1x4096x128_3_0_0) shapeCasts_S1x4096x128_S4096x128 := by
  show V13 m outs c main_v34 = _
  exact (V13_of m outs c main_v34 (by decide)).trans <| (V12_of m outs c main_v34 (by decide)).trans <| (V11_of m outs c main_v34 (by decide)).trans <| (V10_of m outs c main_v34 (by decide)).trans <| (V9_of m outs c main_v34 (by decide)).trans <| (V8_of m outs c main_v34 (by decide)).trans <| (buf_v34 m outs c)

theorem opnd6_2 (c : Dev nD) :
    V13 m outs c (Pipeline.arrRef spec6 ⟨2, by decide⟩) = shapeCast S4096x128 (extractStridedSlice S1x4096x128 ![3, 0, 0] (outs 12 main_v83 c) slices_S8x4096x128_S1x4096x128_3_0_0) shapeCasts_S1x4096x128_S4096x128 := by
  show V13 m outs c main_v91 = _
  exact buf_v91 m outs c

theorem opnd6_3 (c : Dev nD) :
    V13 m outs c (Pipeline.arrRef spec6 ⟨3, by decide⟩) = shapeCast S4096x128 (extractStridedSlice S1x4096x128 ![2, 0, 0] (outs 10 main_v64 c) slices_S8x4096x128_S1x4096x128_2_0_0) shapeCasts_S1x4096x128_S4096x128 := by
  show V13 m outs c main_v70 = _
  exact (V13_of m outs c main_v70 (by decide)).trans <| (V12_of m outs c main_v70 (by decide)).trans <| (buf_v70 m outs c)

theorem opnd6_4 (c : Dev nD) :
    V13 m outs c (Pipeline.arrRef spec6 ⟨4, by decide⟩) = shapeCast S4096x128 (extractStridedSlice S1x4096x128 ![3, 0, 0] (outs 12 main_v83 c) slices_S8x4096x128_S1x4096x128_3_0_0) shapeCasts_S1x4096x128_S4096x128 := by
  show V13 m outs c main_v91 = _
  exact buf_v91 m outs c

theorem opnd6_5 (c : Dev nD) :
    V13 m outs c (Pipeline.arrRef spec6 ⟨5, by decide⟩) = shapeCast S4096x128 (extractStridedSlice S1x4096x128 ![7, 0, 0] (outs 4 main_v7 c) slices_S8x4096x128_S1x4096x128_7_0_0) shapeCasts_S1x4096x128_S4096x128 := by
  show V13 m outs c main_v23 = _
  exact (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (buf_v23 m outs c)

theorem opnd6_6 (c : Dev nD) :
    V13 m outs c (Pipeline.arrRef spec6 ⟨6, by decide⟩) = shapeCast S4096x128 (extractStridedSlice S1x4096x128 ![6, 0, 0] (outs 10 main_v64 c) slices_S8x4096x128_S1x4096x128_6_0_0) shapeCasts_S1x4096x128_S4096x128 := by
  show V13 m outs c main_v78 = _
  exact (V13_of m outs c main_v78 (by decide)).trans <| (V12_of m outs c main_v78 (by decide)).trans <| (buf_v78 m outs c)

theorem opnd6_7 (c : Dev nD) :
    V13 m outs c (Pipeline.arrRef spec6 ⟨7, by decide⟩) = shapeCast S4096x128 (extractStridedSlice S1x4096x128 ![5, 0, 0] (outs 12 main_v83 c) slices_S8x4096x128_S1x4096x128_5_0_0) shapeCasts_S1x4096x128_S4096x128 := by
  show V13 m outs c main_v95 = _
  exact buf_v95 m outs c

theorem opnd6_8 (c : Dev nD) :
    V13 m outs c (Pipeline.arrRef spec6 ⟨8, by decide⟩) = shapeCast S4096x128 (extractStridedSlice S1x4096x128 ![0, 0, 0] (outs 4 main_v7 c) slices_S8x4096x128_S1x4096x128_0_0_0) shapeCasts_S1x4096x128_S4096x128 := by
  show V13 m outs c main_v9 = _
  exact (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (buf_v9 m outs c)

theorem opnd6_9 (c : Dev nD) :
    V13 m outs c (Pipeline.arrRef spec6 ⟨9, by decide⟩) = shapeCast S4096x128 (extractStridedSlice S1x4096x128 ![5, 0, 0] (outs 6 main_v26 c) slices_S8x4096x128_S1x4096x128_5_0_0) shapeCasts_S1x4096x128_S4096x128 := by
  show V13 m outs c main_v38 = _
  exact (V13_of m outs c main_v38 (by decide)).trans <| (V12_of m outs c main_v38 (by decide)).trans <| (V11_of m outs c main_v38 (by decide)).trans <| (V10_of m outs c main_v38 (by decide)).trans <| (V9_of m outs c main_v38 (by decide)).trans <| (V8_of m outs c main_v38 (by decide)).trans <| (buf_v38 m outs c)

theorem opnd6_10 (c : Dev nD) :
    V13 m outs c (Pipeline.arrRef spec6 ⟨10, by decide⟩) = shapeCast S4096x128 (extractStridedSlice S1x4096x128 ![1, 0, 0] (outs 10 main_v64 c) slices_S8x4096x128_S1x4096x128_1_0_0) shapeCasts_S1x4096x128_S4096x128 := by
  show V13 m outs c main_v68 = _
  exact (V13_of m outs c main_v68 (by decide)).trans <| (V12_of m outs c main_v68 (by decide)).trans <| (buf_v68 m outs c)

theorem opnd6_11 (c : Dev nD) :
    V13 m outs c (Pipeline.arrRef spec6 ⟨11, by decide⟩) = shapeCast S4096x128 (extractStridedSlice S1x4096x128 ![3, 0, 0] (outs 4 main_v7 c) slices_S8x4096x128_S1x4096x128_3_0_0) shapeCasts_S1x4096x128_S4096x128 := by
  show V13 m outs c main_v15 = _
  exact (V13_of m outs c main_v15 (by decide)).trans <| (V12_of m outs c main_v15 (by decide)).trans <| (V11_of m outs c main_v15 (by decide)).trans <| (V10_of m outs c main_v15 (by decide)).trans <| (V9_of m outs c main_v15 (by decide)).trans <| (V8_of m outs c main_v15 (by decide)).trans <| (V7_of m outs c main_v15 (by decide)).trans <| (V6_of m outs c main_v15 (by decide)).trans <| (buf_v15 m outs c)

theorem opnd6_12 (c : Dev nD) :
    V13 m outs c (Pipeline.arrRef spec6 ⟨12, by decide⟩) = shapeCast S4096x128 (extractStridedSlice S1x4096x128 ![3, 0, 0] (outs 8 main_v45 c) slices_S8x4096x128_S1x4096x128_3_0_0) shapeCasts_S1x4096x128_S4096x128 := by
  show V13 m outs c main_v53 = _
  exact (V13_of m outs c main_v53 (by decide)).trans <| (V12_of m outs c main_v53 (by decide)).trans <| (V11_of m outs c main_v53 (by decide)).trans <| (V10_of m outs c main_v53 (by decide)).trans <| (buf_v53 m outs c)

theorem opnd6_13 (c : Dev nD) :
    V13 m outs c (Pipeline.arrRef spec6 ⟨13, by decide⟩) = shapeCast S4096x128 (extractStridedSlice S1x4096x128 ![0, 0, 0] (outs 10 main_v64 c) slices_S8x4096x128_S1x4096x128_0_0_0) shapeCasts_S1x4096x128_S4096x128 := by
  show V13 m outs c main_v66 = _
  exact (V13_of m outs c main_v66 (by decide)).trans <| (V12_of m outs c main_v66 (by decide)).trans <| (buf_v66 m outs c)

theorem opnd6_14 (c : Dev nD) :
    V13 m outs c (Pipeline.arrRef spec6 ⟨14, by decide⟩) = shapeCast S4096x128 (extractStridedSlice S1x4096x128 ![6, 0, 0] (outs 10 main_v64 c) slices_S8x4096x128_S1x4096x128_6_0_0) shapeCasts_S1x4096x128_S4096x128 := by
  show V13 m outs c main_v78 = _
  exact (V13_of m outs c main_v78 (by decide)).trans <| (V12_of m outs c main_v78 (by decide)).trans <| (buf_v78 m outs c)

theorem opnd6_15 (c : Dev nD) :
    V13 m outs c (Pipeline.arrRef spec6 ⟨15, by decide⟩) = shapeCast S4096x128 (extractStridedSlice S1x4096x128 ![5, 0, 0] (outs 12 main_v83 c) slices_S8x4096x128_S1x4096x128_5_0_0) shapeCasts_S1x4096x128_S4096x128 := by
  show V13 m outs c main_v95 = _
  exact buf_v95 m outs c

theorem opnd6_16 (c : Dev nD) :
    V13 m outs c (Pipeline.arrRef spec6 ⟨16, by decide⟩) = shapeCast S4096x128 (extractStridedSlice S1x4096x128 ![7, 0, 0] (outs 6 main_v26 c) slices_S8x4096x128_S1x4096x128_7_0_0) shapeCasts_S1x4096x128_S4096x128 := by
  show V13 m outs c main_v42 = _
  exact (V13_of m outs c main_v42 (by decide)).trans <| (V12_of m outs c main_v42 (by decide)).trans <| (V11_of m outs c main_v42 (by decide)).trans <| (V10_of m outs c main_v42 (by decide)).trans <| (V9_of m outs c main_v42 (by decide)).trans <| (V8_of m outs c main_v42 (by decide)).trans <| (buf_v42 m outs c)

theorem opnd6_17 (c : Dev nD) :
    V13 m outs c (Pipeline.arrRef spec6 ⟨17, by decide⟩) = shapeCast S4096x128 (extractStridedSlice S1x4096x128 ![1, 0, 0] (outs 8 main_v45 c) slices_S8x4096x128_S1x4096x128_1_0_0) shapeCasts_S1x4096x128_S4096x128 := by
  show V13 m outs c main_v49 = _
  exact (V13_of m outs c main_v49 (by decide)).trans <| (V12_of m outs c main_v49 (by decide)).trans <| (V11_of m outs c main_v49 (by decide)).trans <| (V10_of m outs c main_v49 (by decide)).trans <| (buf_v49 m outs c)

theorem opnd6_18 (c : Dev nD) :
    V13 m outs c (Pipeline.arrRef spec6 ⟨18, by decide⟩) = shapeCast S4096x128 (extractStridedSlice S1x4096x128 ![2, 0, 0] (outs 8 main_v45 c) slices_S8x4096x128_S1x4096x128_2_0_0) shapeCasts_S1x4096x128_S4096x128 := by
  show V13 m outs c main_v51 = _
  exact (V13_of m outs c main_v51 (by decide)).trans <| (V12_of m outs c main_v51 (by decide)).trans <| (V11_of m outs c main_v51 (by decide)).trans <| (V10_of m outs c main_v51 (by decide)).trans <| (buf_v51 m outs c)

theorem opnd6_19 (c : Dev nD) :
    V13 m outs c (Pipeline.arrRef spec6 ⟨19, by decide⟩) = shapeCast S4096x128 (extractStridedSlice S1x4096x128 ![6, 0, 0] (outs 12 main_v83 c) slices_S8x4096x128_S1x4096x128_6_0_0) shapeCasts_S1x4096x128_S4096x128 := by
  show V13 m outs c main_v97 = _
  exact buf_v97 m outs c

theorem opnd6_20 (c : Dev nD) :
    V13 m outs c (Pipeline.arrRef spec6 ⟨20, by decide⟩) = shapeCast S4096x128 (extractStridedSlice S1x4096x128 ![7, 0, 0] (outs 4 main_v7 c) slices_S8x4096x128_S1x4096x128_7_0_0) shapeCasts_S1x4096x128_S4096x128 := by
  show V13 m outs c main_v23 = _
  exact (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (buf_v23 m outs c)

theorem opnd6_21 (c : Dev nD) :
    V13 m outs c (Pipeline.arrRef spec6 ⟨21, by decide⟩) = shapeCast S4096x128 (extractStridedSlice S1x4096x128 ![3, 0, 0] (outs 8 main_v45 c) slices_S8x4096x128_S1x4096x128_3_0_0) shapeCasts_S1x4096x128_S4096x128 := by
  show V13 m outs c main_v53 = _
  exact (V13_of m outs c main_v53 (by decide)).trans <| (V12_of m outs c main_v53 (by decide)).trans <| (V11_of m outs c main_v53 (by decide)).trans <| (V10_of m outs c main_v53 (by decide)).trans <| (buf_v53 m outs c)

theorem opnd6_22 (c : Dev nD) :
    V13 m outs c (Pipeline.arrRef spec6 ⟨22, by decide⟩) = shapeCast S4096x128 (extractStridedSlice S1x4096x128 ![1, 0, 0] (outs 4 main_v7 c) slices_S8x4096x128_S1x4096x128_1_0_0) shapeCasts_S1x4096x128_S4096x128 := by
  show V13 m outs c main_v11 = _
  exact (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (buf_v11 m outs c)

theorem opnd6_23 (c : Dev nD) :
    V13 m outs c (Pipeline.arrRef spec6 ⟨23, by decide⟩) = shapeCast S4096x128 (extractStridedSlice S1x4096x128 ![0, 0, 0] (outs 8 main_v45 c) slices_S8x4096x128_S1x4096x128_0_0_0) shapeCasts_S1x4096x128_S4096x128 := by
  show V13 m outs c main_v47 = _
  exact (V13_of m outs c main_v47 (by decide)).trans <| (V12_of m outs c main_v47 (by decide)).trans <| (V11_of m outs c main_v47 (by decide)).trans <| (V10_of m outs c main_v47 (by decide)).trans <| (buf_v47 m outs c)

theorem opnd6_24 (c : Dev nD) :
    V13 m outs c (Pipeline.arrRef spec6 ⟨24, by decide⟩) = shapeCast S4096x128 (extractStridedSlice S1x4096x128 ![5, 0, 0] (outs 12 main_v83 c) slices_S8x4096x128_S1x4096x128_5_0_0) shapeCasts_S1x4096x128_S4096x128 := by
  show V13 m outs c main_v95 = _
  exact buf_v95 m outs c

theorem opnd6_25 (c : Dev nD) :
    V13 m outs c (Pipeline.arrRef spec6 ⟨25, by decide⟩) = shapeCast S4096x128 (extractStridedSlice S1x4096x128 ![0, 0, 0] (outs 10 main_v64 c) slices_S8x4096x128_S1x4096x128_0_0_0) shapeCasts_S1x4096x128_S4096x128 := by
  show V13 m outs c main_v66 = _
  exact (V13_of m outs c main_v66 (by decide)).trans <| (V12_of m outs c main_v66 (by decide)).trans <| (buf_v66 m outs c)

theorem opnd6_26 (c : Dev nD) :
    V13 m outs c (Pipeline.arrRef spec6 ⟨26, by decide⟩) = shapeCast S4096x128 (extractStridedSlice S1x4096x128 ![5, 0, 0] (outs 6 main_v26 c) slices_S8x4096x128_S1x4096x128_5_0_0) shapeCasts_S1x4096x128_S4096x128 := by
  show V13 m outs c main_v38 = _
  exact (V13_of m outs c main_v38 (by decide)).trans <| (V12_of m outs c main_v38 (by decide)).trans <| (V11_of m outs c main_v38 (by decide)).trans <| (V10_of m outs c main_v38 (by decide)).trans <| (V9_of m outs c main_v38 (by decide)).trans <| (V8_of m outs c main_v38 (by decide)).trans <| (buf_v38 m outs c)

theorem opnd6_27 (c : Dev nD) :
    V13 m outs c (Pipeline.arrRef spec6 ⟨27, by decide⟩) = shapeCast S4096x128 (extractStridedSlice S1x4096x128 ![7, 0, 0] (outs 12 main_v83 c) slices_S8x4096x128_S1x4096x128_7_0_0) shapeCasts_S1x4096x128_S4096x128 := by
  show V13 m outs c main_v99 = _
  exact buf_v99 m outs c

theorem opnd6_28 (c : Dev nD) :
    V13 m outs c (Pipeline.arrRef spec6 ⟨28, by decide⟩) = shapeCast S4096x128 (extractStridedSlice S1x4096x128 ![7, 0, 0] (outs 8 main_v45 c) slices_S8x4096x128_S1x4096x128_7_0_0) shapeCasts_S1x4096x128_S4096x128 := by
  show V13 m outs c main_v61 = _
  exact (V13_of m outs c main_v61 (by decide)).trans <| (V12_of m outs c main_v61 (by decide)).trans <| (V11_of m outs c main_v61 (by decide)).trans <| (V10_of m outs c main_v61 (by decide)).trans <| (buf_v61 m outs c)

theorem opnd6_29 (c : Dev nD) :
    V13 m outs c (Pipeline.arrRef spec6 ⟨29, by decide⟩) = shapeCast S4096x128 (extractStridedSlice S1x4096x128 ![5, 0, 0] (outs 12 main_v83 c) slices_S8x4096x128_S1x4096x128_5_0_0) shapeCasts_S1x4096x128_S4096x128 := by
  show V13 m outs c main_v95 = _
  exact buf_v95 m outs c

theorem opnd6_30 (c : Dev nD) :
    V13 m outs c (Pipeline.arrRef spec6 ⟨30, by decide⟩) = shapeCast S4096x128 (outs 2 main_v3 c) shapeCasts_S1x4096x128_S4096x128 := by
  show V13 m outs c main_v4 = _
  exact (V13_of m outs c main_v4 (by decide)).trans <| (V12_of m outs c main_v4 (by decide)).trans <| (V11_of m outs c main_v4 (by decide)).trans <| (V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m outs c main_v4 (by decide)).trans <| (V4_of m outs c main_v4 (by decide)).trans <| (buf_v4 m outs c)

theorem opnd6_31 (c : Dev nD) :
    V13 m outs c (Pipeline.arrRef spec6 ⟨31, by decide⟩) = shapeCast S4096x128 (extractStridedSlice S1x4096x128 ![1, 0, 0] (outs 8 main_v45 c) slices_S8x4096x128_S1x4096x128_1_0_0) shapeCasts_S1x4096x128_S4096x128 := by
  show V13 m outs c main_v49 = _
  exact (V13_of m outs c main_v49 (by decide)).trans <| (V12_of m outs c main_v49 (by decide)).trans <| (V11_of m outs c main_v49 (by decide)).trans <| (V10_of m outs c main_v49 (by decide)).trans <| (buf_v49 m outs c)

theorem opnd6_32 (c : Dev nD) :
    V13 m outs c (Pipeline.arrRef spec6 ⟨32, by decide⟩) = extractStridedSlice S8x128x128 ![41, 0, 0] (transpose S65x128x128 [0, 2, 1] (m ((c : Thread nD τ).loc main_arg1)) transposes_S65x128x128_S65x128x128_0_2_1) slices_S65x128x128_S8x128x128_41_0_0 := by
  show V13 m outs c main_v100 = _
  exact buf_v100 m outs c

theorem opnd6_33 (c : Dev nD) :
    V13 m outs c (Pipeline.arrRef spec6 ⟨33, by decide⟩) = extractStridedSlice S8x128 ![41, 0] (m ((c : Thread nD τ).loc main_arg2)) slices_S65x128_S8x128_41_0 := by
  show V13 m outs c main_v101 = _
  exact buf_v101 m outs c

end Cert.KernelIdeal.Hand
-- ==== Proof.KI.Host5.lean ====
import proofs.«135270_j33062658245245_1_alg».proof.Proof.KI.Host1

/-! What regions 7 to 8 find in their 34 operand arrays on entry, for arbitrary region outputs outs: each parent array is a slab
  of an earlier region's output reshaped to [4096,128] (or region 0's whole output reshaped), array 32 the region's 8 rows of the
  transposed weights, array 33 its 8 rows of the bias. A table of cases over the operand lists of the program's custom_calls. -/

-- decided memberships among the program's references recurse past the default depth
set_option maxRecDepth 7852

noncomputable section

namespace Cert.KernelIdeal.Hand

open Cert.KernelIdeal Cert.KernelIdeal.Gen Cert.KernelIdeal.GenP Idealize.ShloMosaic Idealize.ShloMosaic.TcCoe Idealize.ShloMosaic.StableHlo

variable {F : FTy → Type} [FloatOps F] (m : (ℓ : Loc nD τ sig) → Buf (Elt F) ℓ) (outs : Outs (F := F))

/-! ## Region 7's 34 operand arrays at its entry valuation -/

theorem opnd7_0 (c : Dev nD) :
    V15 m outs c (Pipeline.arrRef spec7 ⟨0, by decide⟩) = shapeCast S4096x128 (extractStridedSlice S1x4096x128 ![7, 0, 0] (outs 12 main_v83 c) slices_S8x4096x128_S1x4096x128_7_0_0) shapeCasts_S1x4096x128_S4096x128 := by
  show V15 m outs c main_v99 = _
  exact (V15_of m outs c main_v99 (by decide)).trans <| (V14_of m outs c main_v99 (by decide)).trans <| (buf_v99 m outs c)

theorem opnd7_1 (c : Dev nD) :
    V15 m outs c (Pipeline.arrRef spec7 ⟨1, by decide⟩) = shapeCast S4096x128 (extractStridedSlice S1x4096x128 ![4, 0, 0] (outs 12 main_v83 c) slices_S8x4096x128_S1x4096x128_4_0_0) shapeCasts_S1x4096x128_S4096x128 := by
  show V15 m outs c main_v93 = _
  exact (V15_of m outs c main_v93 (by decide)).trans <| (V14_of m outs c main_v93 (by decide)).trans <| (buf_v93 m outs c)

theorem opnd7_2 (c : Dev nD) :
    V15 m outs c (Pipeline.arrRef spec7 ⟨2, by decide⟩) = shapeCast S4096x128 (extractStridedSlice S1x4096x128 ![2, 0, 0] (outs 8 main_v45 c) slices_S8x4096x128_S1x4096x128_2_0_0) shapeCasts_S1x4096x128_S4096x128 := by
  show V15 m outs c main_v51 = _
  exact (V15_of m outs c main_v51 (by decide)).trans <| (V14_of m outs c main_v51 (by decide)).trans <| (V13_of m outs c main_v51 (by decide)).trans <| (V12_of m outs c main_v51 (by decide)).trans <| (V11_of m outs c main_v51 (by decide)).trans <| (V10_of m outs c main_v51 (by decide)).trans <| (buf_v51 m outs c)

theorem opnd7_3 (c : Dev nD) :
    V15 m outs c (Pipeline.arrRef spec7 ⟨3, by decide⟩) = shapeCast S4096x128 (extractStridedSlice S1x4096x128 ![7, 0, 0] (outs 8 main_v45 c) slices_S8x4096x128_S1x4096x128_7_0_0) shapeCasts_S1x4096x128_S4096x128 := by
  show V15 m outs c main_v61 = _
  exact (V15_of m outs c main_v61 (by decide)).trans <| (V14_of m outs c main_v61 (by decide)).trans <| (V13_of m outs c main_v61 (by decide)).trans <| (V12_of m outs c main_v61 (by decide)).trans <| (V11_of m outs c main_v61 (by decide)).trans <| (V10_of m outs c main_v61 (by decide)).trans <| (buf_v61 m outs c)

theorem opnd7_4 (c : Dev nD) :
    V15 m outs c (Pipeline.arrRef spec7 ⟨4, by decide⟩) = shapeCast S4096x128 (extractStridedSlice S1x4096x128 ![3, 0, 0] (outs 8 main_v45 c) slices_S8x4096x128_S1x4096x128_3_0_0) shapeCasts_S1x4096x128_S4096x128 := by
  show V15 m outs c main_v53 = _
  exact (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (buf_v53 m outs c)

theorem opnd7_5 (c : Dev nD) :
    V15 m outs c (Pipeline.arrRef spec7 ⟨5, by decide⟩) = shapeCast S4096x128 (extractStridedSlice S1x4096x128 ![0, 0, 0] (outs 10 main_v64 c) slices_S8x4096x128_S1x4096x128_0_0_0) shapeCasts_S1x4096x128_S4096x128 := by
  show V15 m outs c main_v66 = _
  exact (V15_of m outs c main_v66 (by decide)).trans <| (V14_of m outs c main_v66 (by decide)).trans <| (V13_of m outs c main_v66 (by decide)).trans <| (V12_of m outs c main_v66 (by decide)).trans <| (buf_v66 m outs c)

theorem opnd7_6 (c : Dev nD) :
    V15 m outs c (Pipeline.arrRef spec7 ⟨6, by decide⟩) = shapeCast S4096x128 (extractStridedSlice S1x4096x128 ![2, 0, 0] (outs 6 main_v26 c) slices_S8x4096x128_S1x4096x128_2_0_0) shapeCasts_S1x4096x128_S4096x128 := by
  show V15 m outs c main_v32 = _
  exact (V15_of m outs c main_v32 (by decide)).trans <| (V14_of m outs c main_v32 (by decide)).trans <| (V13_of m outs c main_v32 (by decide)).trans <| (V12_of m outs c main_v32 (by decide)).trans <| (V11_of m outs c main_v32 (by decide)).trans <| (V10_of m outs c main_v32 (by decide)).trans <| (V9_of m outs c main_v32 (by decide)).trans <| (V8_of m outs c main_v32 (by decide)).trans <| (buf_v32 m outs c)

theorem opnd7_7 (c : Dev nD) :
    V15 m outs c (Pipeline.arrRef spec7 ⟨7, by decide⟩) = shapeCast S4096x128 (extractStridedSlice S1x4096x128 ![5, 0, 0] (outs 12 main_v83 c) slices_S8x4096x128_S1x4096x128_5_0_0) shapeCasts_S1x4096x128_S4096x128 := by
  show V15 m outs c main_v95 = _
  exact (V15_of m outs c main_v95 (by decide)).trans <| (V14_of m outs c main_v95 (by decide)).trans <| (buf_v95 m outs c)

theorem opnd7_8 (c : Dev nD) :
    V15 m outs c (Pipeline.arrRef spec7 ⟨8, by decide⟩) = shapeCast S4096x128 (extractStridedSlice S1x4096x128 ![2, 0, 0] (outs 4 main_v7 c) slices_S8x4096x128_S1x4096x128_2_0_0) shapeCasts_S1x4096x128_S4096x128 := by
  show V15 m outs c main_v13 = _
  exact (V15_of m outs c main_v13 (by decide)).trans <| (V14_of m outs c main_v13 (by decide)).trans <| (V13_of m outs c main_v13 (by decide)).trans <| (V12_of m outs c main_v13 (by decide)).trans <| (V11_of m outs c main_v13 (by decide)).trans <| (V10_of m outs c main_v13 (by decide)).trans <| (V9_of m outs c main_v13 (by decide)).trans <| (V8_of m outs c main_v13 (by decide)).trans <| (V7_of m outs c main_v13 (by decide)).trans <| (V6_of m outs c main_v13 (by decide)).trans <| (buf_v13 m outs c)

theorem opnd7_9 (c : Dev nD) :
    V15 m outs c (Pipeline.arrRef spec7 ⟨9, by decide⟩) = shapeCast S4096x128 (extractStridedSlice S1x4096x128 ![3, 0, 0] (outs 8 main_v45 c) slices_S8x4096x128_S1x4096x128_3_0_0) shapeCasts_S1x4096x128_S4096x128 := by
  show V15 m outs c main_v53 = _
  exact (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (buf_v53 m outs c)

theorem opnd7_10 (c : Dev nD) :
    V15 m outs c (Pipeline.arrRef spec7 ⟨10, by decide⟩) = shapeCast S4096x128 (extractStridedSlice S1x4096x128 ![4, 0, 0] (outs 6 main_v26 c) slices_S8x4096x128_S1x4096x128_4_0_0) shapeCasts_S1x4096x128_S4096x128 := by
  show V15 m outs c main_v36 = _
  exact (V15_of m outs c main_v36 (by decide)).trans <| (V14_of m outs c main_v36 (by decide)).trans <| (V13_of m outs c main_v36 (by decide)).trans <| (V12_of m outs c main_v36 (by decide)).trans <| (V11_of m outs c main_v36 (by decide)).trans <| (V10_of m outs c main_v36 (by decide)).trans <| (V9_of m outs c main_v36 (by decide)).trans <| (V8_of m outs c main_v36 (by decide)).trans <| (buf_v36 m outs c)

theorem opnd7_11 (c : Dev nD) :
    V15 m outs c (Pipeline.arrRef spec7 ⟨11, by decide⟩) = shapeCast S4096x128 (extractStridedSlice S1x4096x128 ![2, 0, 0] (outs 12 main_v83 c) slices_S8x4096x128_S1x4096x128_2_0_0) shapeCasts_S1x4096x128_S4096x128 := by
  show V15 m outs c main_v89 = _
  exact (V15_of m outs c main_v89 (by decide)).trans <| (V14_of m outs c main_v89 (by decide)).trans <| (buf_v89 m outs c)

theorem opnd7_12 (c : Dev nD) :
    V15 m outs c (Pipeline.arrRef spec7 ⟨12, by decide⟩) = shapeCast S4096x128 (extractStridedSlice S1x4096x128 ![3, 0, 0] (outs 12 main_v83 c) slices_S8x4096x128_S1x4096x128_3_0_0) shapeCasts_S1x4096x128_S4096x128 := by
  show V15 m outs c main_v91 = _
  exact (V15_of m outs c main_v91 (by decide)).trans <| (V14_of m outs c main_v91 (by decide)).trans <| (buf_v91 m outs c)

theorem opnd7_13 (c : Dev nD) :
    V15 m outs c (Pipeline.arrRef spec7 ⟨13, by decide⟩) = shapeCast S4096x128 (extractStridedSlice S1x4096x128 ![1, 0, 0] (outs 12 main_v83 c) slices_S8x4096x128_S1x4096x128_1_0_0) shapeCasts_S1x4096x128_S4096x128 := by
  show V15 m outs c main_v87 = _
  exact (V15_of m outs c main_v87 (by decide)).trans <| (V14_of m outs c main_v87 (by decide)).trans <| (buf_v87 m outs c)

theorem opnd7_14 (c : Dev nD) :
    V15 m outs c (Pipeline.arrRef spec7 ⟨14, by decide⟩) = shapeCast S4096x128 (extractStridedSlice S1x4096x128 ![4, 0, 0] (outs 14 main_v102 c) slices_S8x4096x128_S1x4096x128_4_0_0) shapeCasts_S1x4096x128_S4096x128 := by
  show V15 m outs c main_v112 = _
  exact buf_v112 m outs c

theorem opnd7_15 (c : Dev nD) :
    V15 m outs c (Pipeline.arrRef spec7 ⟨15, by decide⟩) = shapeCast S4096x128 (extractStridedSlice S1x4096x128 ![4, 0, 0] (outs 14 main_v102 c) slices_S8x4096x128_S1x4096x128_4_0_0) shapeCasts_S1x4096x128_S4096x128 := by
  show V15 m outs c main_v112 = _
  exact buf_v112 m outs c

theorem opnd7_16 (c : Dev nD) :
    V15 m outs c (Pipeline.arrRef spec7 ⟨16, by decide⟩) = shapeCast S4096x128 (extractStridedSlice S1x4096x128 ![0, 0, 0] (outs 6 main_v26 c) slices_S8x4096x128_S1x4096x128_0_0_0) shapeCasts_S1x4096x128_S4096x128 := by
  show V15 m outs c main_v28 = _
  exact (V15_of m outs c main_v28 (by decide)).trans <| (V14_of m outs c main_v28 (by decide)).trans <| (V13_of m outs c main_v28 (by decide)).trans <| (V12_of m outs c main_v28 (by decide)).trans <| (V11_of m outs c main_v28 (by decide)).trans <| (V10_of m outs c main_v28 (by decide)).trans <| (V9_of m outs c main_v28 (by decide)).trans <| (V8_of m outs c main_v28 (by decide)).trans <| (buf_v28 m outs c)

theorem opnd7_17 (c : Dev nD) :
    V15 m outs c (Pipeline.arrRef spec7 ⟨17, by decide⟩) = shapeCast S4096x128 (extractStridedSlice S1x4096x128 ![4, 0, 0] (outs 4 main_v7 c) slices_S8x4096x128_S1x4096x128_4_0_0) shapeCasts_S1x4096x128_S4096x128 := by
  show V15 m outs c main_v17 = _
  exact (V15_of m outs c main_v17 (by decide)).trans <| (V14_of m outs c main_v17 (by decide)).trans <| (V13_of m outs c main_v17 (by decide)).trans <| (V12_of m outs c main_v17 (by decide)).trans <| (V11_of m outs c main_v17 (by decide)).trans <| (V10_of m outs c main_v17 (by decide)).trans <| (V9_of m outs c main_v17 (by decide)).trans <| (V8_of m outs c main_v17 (by decide)).trans <| (V7_of m outs c main_v17 (by decide)).trans <| (V6_of m outs c main_v17 (by decide)).trans <| (buf_v17 m outs c)

theorem opnd7_18 (c : Dev nD) :
    V15 m outs c (Pipeline.arrRef spec7 ⟨18, by decide⟩) = shapeCast S4096x128 (extractStridedSlice S1x4096x128 ![5, 0, 0] (outs 4 main_v7 c) slices_S8x4096x128_S1x4096x128_5_0_0) shapeCasts_S1x4096x128_S4096x128 := by
  show V15 m outs c main_v19 = _
  exact (V15_of m outs c main_v19 (by decide)).trans <| (V14_of m outs c main_v19 (by decide)).trans <| (V13_of m outs c main_v19 (by decide)).trans <| (V12_of m outs c main_v19 (by decide)).trans <| (V11_of m outs c main_v19 (by decide)).trans <| (V10_of m outs c main_v19 (by decide)).trans <| (V9_of m outs c main_v19 (by decide)).trans <| (V8_of m outs c main_v19 (by decide)).trans <| (V7_of m outs c main_v19 (by decide)).trans <| (V6_of m outs c main_v19 (by decide)).trans <| (buf_v19 m outs c)

theorem opnd7_19 (c : Dev nD) :
    V15 m outs c (Pipeline.arrRef spec7 ⟨19, by decide⟩) = shapeCast S4096x128 (extractStridedSlice S1x4096x128 ![2, 0, 0] (outs 12 main_v83 c) slices_S8x4096x128_S1x4096x128_2_0_0) shapeCasts_S1x4096x128_S4096x128 := by
  show V15 m outs c main_v89 = _
  exact (V15_of m outs c main_v89 (by decide)).trans <| (V14_of m outs c main_v89 (by decide)).trans <| (buf_v89 m outs c)

theorem opnd7_20 (c : Dev nD) :
    V15 m outs c (Pipeline.arrRef spec7 ⟨20, by decide⟩) = shapeCast S4096x128 (extractStridedSlice S1x4096x128 ![6, 0, 0] (outs 14 main_v102 c) slices_S8x4096x128_S1x4096x128_6_0_0) shapeCasts_S1x4096x128_S4096x128 := by
  show V15 m outs c main_v116 = _
  exact buf_v116 m outs c

theorem opnd7_21 (c : Dev nD) :
    V15 m outs c (Pipeline.arrRef spec7 ⟨21, by decide⟩) = shapeCast S4096x128 (extractStridedSlice S1x4096x128 ![4, 0, 0] (outs 14 main_v102 c) slices_S8x4096x128_S1x4096x128_4_0_0) shapeCasts_S1x4096x128_S4096x128 := by
  show V15 m outs c main_v112 = _
  exact buf_v112 m outs c

theorem opnd7_22 (c : Dev nD) :
    V15 m outs c (Pipeline.arrRef spec7 ⟨22, by decide⟩) = shapeCast S4096x128 (extractStridedSlice S1x4096x128 ![7, 0, 0] (outs 10 main_v64 c) slices_S8x4096x128_S1x4096x128_7_0_0) shapeCasts_S1x4096x128_S4096x128 := by
  show V15 m outs c main_v80 = _
  exact (V15_of m outs c main_v80 (by decide)).trans <| (V14_of m outs c main_v80 (by decide)).trans <| (V13_of m outs c main_v80 (by decide)).trans <| (V12_of m outs c main_v80 (by decide)).trans <| (buf_v80 m outs c)

theorem opnd7_23 (c : Dev nD) :
    V15 m outs c (Pipeline.arrRef spec7 ⟨23, by decide⟩) = shapeCast S4096x128 (extractStridedSlice S1x4096x128 ![6, 0, 0] (outs 14 main_v102 c) slices_S8x4096x128_S1x4096x128_6_0_0) shapeCasts_S1x4096x128_S4096x128 := by
  show V15 m outs c main_v116 = _
  exact buf_v116 m outs c

theorem opnd7_24 (c : Dev nD) :
    V15 m outs c (Pipeline.arrRef spec7 ⟨24, by decide⟩) = shapeCast S4096x128 (extractStridedSlice S1x4096x128 ![1, 0, 0] (outs 14 main_v102 c) slices_S8x4096x128_S1x4096x128_1_0_0) shapeCasts_S1x4096x128_S4096x128 := by
  show V15 m outs c main_v106 = _
  exact buf_v106 m outs c

theorem opnd7_25 (c : Dev nD) :
    V15 m outs c (Pipeline.arrRef spec7 ⟨25, by decide⟩) = shapeCast S4096x128 (outs 2 main_v3 c) shapeCasts_S1x4096x128_S4096x128 := by
  show V15 m outs c main_v4 = _
  exact (V15_of m outs c main_v4 (by decide)).trans <| (V14_of m outs c main_v4 (by decide)).trans <| (V13_of m outs c main_v4 (by decide)).trans <| (V12_of m outs c main_v4 (by decide)).trans <| (V11_of m outs c main_v4 (by decide)).trans <| (V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m outs c main_v4 (by decide)).trans <| (V4_of m outs c main_v4 (by decide)).trans <| (buf_v4 m outs c)

theorem opnd7_26 (c : Dev nD) :
    V15 m outs c (Pipeline.arrRef spec7 ⟨26, by decide⟩) = shapeCast S4096x128 (extractStridedSlice S1x4096x128 ![4, 0, 0] (outs 4 main_v7 c) slices_S8x4096x128_S1x4096x128_4_0_0) shapeCasts_S1x4096x128_S4096x128 := by
  show V15 m outs c main_v17 = _
  exact (V15_of m outs c main_v17 (by decide)).trans <| (V14_of m outs c main_v17 (by decide)).trans <| (V13_of m outs c main_v17 (by decide)).trans <| (V12_of m outs c main_v17 (by decide)).trans <| (V11_of m outs c main_v17 (by decide)).trans <| (V10_of m outs c main_v17 (by decide)).trans <| (V9_of m outs c main_v17 (by decide)).trans <| (V8_of m outs c main_v17 (by decide)).trans <| (V7_of m outs c main_v17 (by decide)).trans <| (V6_of m outs c main_v17 (by decide)).trans <| (buf_v17 m outs c)

theorem opnd7_27 (c : Dev nD) :
    V15 m outs c (Pipeline.arrRef spec7 ⟨27, by decide⟩) = shapeCast S4096x128 (extractStridedSlice S1x4096x128 ![1, 0, 0] (outs 14 main_v102 c) slices_S8x4096x128_S1x4096x128_1_0_0) shapeCasts_S1x4096x128_S4096x128 := by
  show V15 m outs c main_v106 = _
  exact buf_v106 m outs c

theorem opnd7_28 (c : Dev nD) :
    V15 m outs c (Pipeline.arrRef spec7 ⟨28, by decide⟩) = shapeCast S4096x128 (extractStridedSlice S1x4096x128 ![3, 0, 0] (outs 4 main_v7 c) slices_S8x4096x128_S1x4096x128_3_0_0) shapeCasts_S1x4096x128_S4096x128 := by
  show V15 m outs c main_v15 = _
  exact (V15_of m outs c main_v15 (by decide)).trans <| (V14_of m outs c main_v15 (by decide)).trans <| (V13_of m outs c main_v15 (by decide)).trans <| (V12_of m outs c main_v15 (by decide)).trans <| (V11_of m outs c main_v15 (by decide)).trans <| (V10_of m outs c main_v15 (by decide)).trans <| (V9_of m outs c main_v15 (by decide)).trans <| (V8_of m outs c main_v15 (by decide)).trans <| (V7_of m outs c main_v15 (by decide)).trans <| (V6_of m outs c main_v15 (by decide)).trans <| (buf_v15 m outs c)

theorem opnd7_29 (c : Dev nD) :
    V15 m outs c (Pipeline.arrRef spec7 ⟨29, by decide⟩) = shapeCast S4096x128 (extractStridedSlice S1x4096x128 ![7, 0, 0] (outs 14 main_v102 c) slices_S8x4096x128_S1x4096x128_7_0_0) shapeCasts_S1x4096x128_S4096x128 := by
  show V15 m outs c main_v118 = _
  exact buf_v118 m outs c

theorem opnd7_30 (c : Dev nD) :
    V15 m outs c (Pipeline.arrRef spec7 ⟨30, by decide⟩) = shapeCast S4096x128 (extractStridedSlice S1x4096x128 ![7, 0, 0] (outs 12 main_v83 c) slices_S8x4096x128_S1x4096x128_7_0_0) shapeCasts_S1x4096x128_S4096x128 := by
  show V15 m outs c main_v99 = _
  exact (V15_of m outs c main_v99 (by decide)).trans <| (V14_of m outs c main_v99 (by decide)).trans <| (buf_v99 m outs c)

theorem opnd7_31 (c : Dev nD) :
    V15 m outs c (Pipeline.arrRef spec7 ⟨31, by decide⟩) = shapeCast S4096x128 (extractStridedSlice S1x4096x128 ![5, 0, 0] (outs 14 main_v102 c) slices_S8x4096x128_S1x4096x128_5_0_0) shapeCasts_S1x4096x128_S4096x128 := by
  show V15 m outs c main_v114 = _
  exact buf_v114 m outs c

theorem opnd7_32 (c : Dev nD) :
    V15 m outs c (Pipeline.arrRef spec7 ⟨32, by decide⟩) = extractStridedSlice S8x128x128 ![49, 0, 0] (transpose S65x128x128 [0, 2, 1] (m ((c : Thread nD τ).loc main_arg1)) transposes_S65x128x128_S65x128x128_0_2_1) slices_S65x128x128_S8x128x128_49_0_0 := by
  show V15 m outs c main_v119 = _
  exact buf_v119 m outs c

theorem opnd7_33 (c : Dev nD) :
    V15 m outs c (Pipeline.arrRef spec7 ⟨33, by decide⟩) = extractStridedSlice S8x128 ![49, 0] (m ((c : Thread nD τ).loc main_arg2)) slices_S65x128_S8x128_49_0 := by
  show V15 m outs c main_v120 = _
  exact buf_v120 m outs c

/-! ## Region 8's 34 operand arrays at its entry valuation -/

theorem opnd8_0 (c : Dev nD) :
    V17 m outs c (Pipeline.arrRef spec8 ⟨0, by decide⟩) = shapeCast S4096x128 (extractStridedSlice S1x4096x128 ![3, 0, 0] (outs 8 main_v45 c) slices_S8x4096x128_S1x4096x128_3_0_0) shapeCasts_S1x4096x128_S4096x128 := by
  show V17 m outs c main_v53 = _
  exact (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (buf_v53 m outs c)

theorem opnd8_1 (c : Dev nD) :
    V17 m outs c (Pipeline.arrRef spec8 ⟨1, by decide⟩) = shapeCast S4096x128 (extractStridedSlice S1x4096x128 ![7, 0, 0] (outs 4 main_v7 c) slices_S8x4096x128_S1x4096x128_7_0_0) shapeCasts_S1x4096x128_S4096x128 := by
  show V17 m outs c main_v23 = _
  exact (V17_of m outs c main_v23 (by decide)).trans <| (V16_of m outs c main_v23 (by decide)).trans <| (V15_of m outs c main_v23 (by decide)).trans <| (V14_of m outs c main_v23 (by decide)).trans <| (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (buf_v23 m outs c)

theorem opnd8_2 (c : Dev nD) :
    V17 m outs c (Pipeline.arrRef spec8 ⟨2, by decide⟩) = shapeCast S4096x128 (extractStridedSlice S1x4096x128 ![4, 0, 0] (outs 10 main_v64 c) slices_S8x4096x128_S1x4096x128_4_0_0) shapeCasts_S1x4096x128_S4096x128 := by
  show V17 m outs c main_v74 = _
  exact (V17_of m outs c main_v74 (by decide)).trans <| (V16_of m outs c main_v74 (by decide)).trans <| (V15_of m outs c main_v74 (by decide)).trans <| (V14_of m outs c main_v74 (by decide)).trans <| (V13_of m outs c main_v74 (by decide)).trans <| (V12_of m outs c main_v74 (by decide)).trans <| (buf_v74 m outs c)

theorem opnd8_3 (c : Dev nD) :
    V17 m outs c (Pipeline.arrRef spec8 ⟨3, by decide⟩) = shapeCast S4096x128 (extractStridedSlice S1x4096x128 ![6, 0, 0] (outs 16 main_v121 c) slices_S8x4096x128_S1x4096x128_6_0_0) shapeCasts_S1x4096x128_S4096x128 := by
  show V17 m outs c main_v135 = _
  exact buf_v135 m outs c

theorem opnd8_4 (c : Dev nD) :
    V17 m outs c (Pipeline.arrRef spec8 ⟨4, by decide⟩) = shapeCast S4096x128 (extractStridedSlice S1x4096x128 ![3, 0, 0] (outs 8 main_v45 c) slices_S8x4096x128_S1x4096x128_3_0_0) shapeCasts_S1x4096x128_S4096x128 := by
  show V17 m outs c main_v53 = _
  exact (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (buf_v53 m outs c)

theorem opnd8_5 (c : Dev nD) :
    V17 m outs c (Pipeline.arrRef spec8 ⟨5, by decide⟩) = shapeCast S4096x128 (extractStridedSlice S1x4096x128 ![1, 0, 0] (outs 16 main_v121 c) slices_S8x4096x128_S1x4096x128_1_0_0) shapeCasts_S1x4096x128_S4096x128 := by
  show V17 m outs c main_v125 = _
  exact buf_v125 m outs c

theorem opnd8_6 (c : Dev nD) :
    V17 m outs c (Pipeline.arrRef spec8 ⟨6, by decide⟩) = shapeCast S4096x128 (extractStridedSlice S1x4096x128 ![4, 0, 0] (outs 8 main_v45 c) slices_S8x4096x128_S1x4096x128_4_0_0) shapeCasts_S1x4096x128_S4096x128 := by
  show V17 m outs c main_v55 = _
  exact (V17_of m outs c main_v55 (by decide)).trans <| (V16_of m outs c main_v55 (by decide)).trans <| (V15_of m outs c main_v55 (by decide)).trans <| (V14_of m outs c main_v55 (by decide)).trans <| (V13_of m outs c main_v55 (by decide)).trans <| (V12_of m outs c main_v55 (by decide)).trans <| (V11_of m outs c main_v55 (by decide)).trans <| (V10_of m outs c main_v55 (by decide)).trans <| (buf_v55 m outs c)

theorem opnd8_7 (c : Dev nD) :
    V17 m outs c (Pipeline.arrRef spec8 ⟨7, by decide⟩) = shapeCast S4096x128 (extractStridedSlice S1x4096x128 ![5, 0, 0] (outs 14 main_v102 c) slices_S8x4096x128_S1x4096x128_5_0_0) shapeCasts_S1x4096x128_S4096x128 := by
  show V17 m outs c main_v114 = _
  exact (V17_of m outs c main_v114 (by decide)).trans <| (V16_of m outs c main_v114 (by decide)).trans <| (buf_v114 m outs c)

theorem opnd8_8 (c : Dev nD) :
    V17 m outs c (Pipeline.arrRef spec8 ⟨8, by decide⟩) = shapeCast S4096x128 (extractStridedSlice S1x4096x128 ![4, 0, 0] (outs 6 main_v26 c) slices_S8x4096x128_S1x4096x128_4_0_0) shapeCasts_S1x4096x128_S4096x128 := by
  show V17 m outs c main_v36 = _
  exact (V17_of m outs c main_v36 (by decide)).trans <| (V16_of m outs c main_v36 (by decide)).trans <| (V15_of m outs c main_v36 (by decide)).trans <| (V14_of m outs c main_v36 (by decide)).trans <| (V13_of m outs c main_v36 (by decide)).trans <| (V12_of m outs c main_v36 (by decide)).trans <| (V11_of m outs c main_v36 (by decide)).trans <| (V10_of m outs c main_v36 (by decide)).trans <| (V9_of m outs c main_v36 (by decide)).trans <| (V8_of m outs c main_v36 (by decide)).trans <| (buf_v36 m outs c)

theorem opnd8_9 (c : Dev nD) :
    V17 m outs c (Pipeline.arrRef spec8 ⟨9, by decide⟩) = shapeCast S4096x128 (extractStridedSlice S1x4096x128 ![2, 0, 0] (outs 10 main_v64 c) slices_S8x4096x128_S1x4096x128_2_0_0) shapeCasts_S1x4096x128_S4096x128 := by
  show V17 m outs c main_v70 = _
  exact (V17_of m outs c main_v70 (by decide)).trans <| (V16_of m outs c main_v70 (by decide)).trans <| (V15_of m outs c main_v70 (by decide)).trans <| (V14_of m outs c main_v70 (by decide)).trans <| (V13_of m outs c main_v70 (by decide)).trans <| (V12_of m outs c main_v70 (by decide)).trans <| (buf_v70 m outs c)

theorem opnd8_10 (c : Dev nD) :
    V17 m outs c (Pipeline.arrRef spec8 ⟨10, by decide⟩) = shapeCast S4096x128 (extractStridedSlice S1x4096x128 ![1, 0, 0] (outs 8 main_v45 c) slices_S8x4096x128_S1x4096x128_1_0_0) shapeCasts_S1x4096x128_S4096x128 := by
  show V17 m outs c main_v49 = _
  exact (V17_of m outs c main_v49 (by decide)).trans <| (V16_of m outs c main_v49 (by decide)).trans <| (V15_of m outs c main_v49 (by decide)).trans <| (V14_of m outs c main_v49 (by decide)).trans <| (V13_of m outs c main_v49 (by decide)).trans <| (V12_of m outs c main_v49 (by decide)).trans <| (V11_of m outs c main_v49 (by decide)).trans <| (V10_of m outs c main_v49 (by decide)).trans <| (buf_v49 m outs c)

theorem opnd8_11 (c : Dev nD) :
    V17 m outs c (Pipeline.arrRef spec8 ⟨11, by decide⟩) = shapeCast S4096x128 (extractStridedSlice S1x4096x128 ![4, 0, 0] (outs 6 main_v26 c) slices_S8x4096x128_S1x4096x128_4_0_0) shapeCasts_S1x4096x128_S4096x128 := by
  show V17 m outs c main_v36 = _
  exact (V17_of m outs c main_v36 (by decide)).trans <| (V16_of m outs c main_v36 (by decide)).trans <| (V15_of m outs c main_v36 (by decide)).trans <| (V14_of m outs c main_v36 (by decide)).trans <| (V13_of m outs c main_v36 (by decide)).trans <| (V12_of m outs c main_v36 (by decide)).trans <| (V11_of m outs c main_v36 (by decide)).trans <| (V10_of m outs c main_v36 (by decide)).trans <| (V9_of m outs c main_v36 (by decide)).trans <| (V8_of m outs c main_v36 (by decide)).trans <| (buf_v36 m outs c)

theorem opnd8_12 (c : Dev nD) :
    V17 m outs c (Pipeline.arrRef spec8 ⟨12, by decide⟩) = shapeCast S4096x128 (extractStridedSlice S1x4096x128 ![1, 0, 0] (outs 16 main_v121 c) slices_S8x4096x128_S1x4096x128_1_0_0) shapeCasts_S1x4096x128_S4096x128 := by
  show V17 m outs c main_v125 = _
  exact buf_v125 m outs c

theorem opnd8_13 (c : Dev nD) :
    V17 m outs c (Pipeline.arrRef spec8 ⟨13, by decide⟩) = shapeCast S4096x128 (extractStridedSlice S1x4096x128 ![4, 0, 0] (outs 14 main_v102 c) slices_S8x4096x128_S1x4096x128_4_0_0) shapeCasts_S1x4096x128_S4096x128 := by
  show V17 m outs c main_v112 = _
  exact (V17_of m outs c main_v112 (by decide)).trans <| (V16_of m outs c main_v112 (by decide)).trans <| (buf_v112 m outs c)

theorem opnd8_14 (c : Dev nD) :
    V17 m outs c (Pipeline.arrRef spec8 ⟨14, by decide⟩) = shapeCast S4096x128 (extractStridedSlice S1x4096x128 ![6, 0, 0] (outs 4 main_v7 c) slices_S8x4096x128_S1x4096x128_6_0_0) shapeCasts_S1x4096x128_S4096x128 := by
  show V17 m outs c main_v21 = _
  exact (V17_of m outs c main_v21 (by decide)).trans <| (V16_of m outs c main_v21 (by decide)).trans <| (V15_of m outs c main_v21 (by decide)).trans <| (V14_of m outs c main_v21 (by decide)).trans <| (V13_of m outs c main_v21 (by decide)).trans <| (V12_of m outs c main_v21 (by decide)).trans <| (V11_of m outs c main_v21 (by decide)).trans <| (V10_of m outs c main_v21 (by decide)).trans <| (V9_of m outs c main_v21 (by decide)).trans <| (V8_of m outs c main_v21 (by decide)).trans <| (V7_of m outs c main_v21 (by decide)).trans <| (V6_of m outs c main_v21 (by decide)).trans <| (buf_v21 m outs c)

theorem opnd8_15 (c : Dev nD) :
    V17 m outs c (Pipeline.arrRef spec8 ⟨15, by decide⟩) = shapeCast S4096x128 (extractStridedSlice S1x4096x128 ![3, 0, 0] (outs 16 main_v121 c) slices_S8x4096x128_S1x4096x128_3_0_0) shapeCasts_S1x4096x128_S4096x128 := by
  show V17 m outs c main_v129 = _
  exact buf_v129 m outs c

theorem opnd8_16 (c : Dev nD) :
    V17 m outs c (Pipeline.arrRef spec8 ⟨16, by decide⟩) = shapeCast S4096x128 (extractStridedSlice S1x4096x128 ![6, 0, 0] (outs 16 main_v121 c) slices_S8x4096x128_S1x4096x128_6_0_0) shapeCasts_S1x4096x128_S4096x128 := by
  show V17 m outs c main_v135 = _
  exact buf_v135 m outs c

theorem opnd8_17 (c : Dev nD) :
    V17 m outs c (Pipeline.arrRef spec8 ⟨17, by decide⟩) = shapeCast S4096x128 (extractStridedSlice S1x4096x128 ![6, 0, 0] (outs 6 main_v26 c) slices_S8x4096x128_S1x4096x128_6_0_0) shapeCasts_S1x4096x128_S4096x128 := by
  show V17 m outs c main_v40 = _
  exact (V17_of m outs c main_v40 (by decide)).trans <| (V16_of m outs c main_v40 (by decide)).trans <| (V15_of m outs c main_v40 (by decide)).trans <| (V14_of m outs c main_v40 (by decide)).trans <| (V13_of m outs c main_v40 (by decide)).trans <| (V12_of m outs c main_v40 (by decide)).trans <| (V11_of m outs c main_v40 (by decide)).trans <| (V10_of m outs c main_v40 (by decide)).trans <| (V9_of m outs c main_v40 (by decide)).trans <| (V8_of m outs c main_v40 (by decide)).trans <| (buf_v40 m outs c)

theorem opnd8_18 (c : Dev nD) :
    V17 m outs c (Pipeline.arrRef spec8 ⟨18, by decide⟩) = shapeCast S4096x128 (extractStridedSlice S1x4096x128 ![7, 0, 0] (outs 8 main_v45 c) slices_S8x4096x128_S1x4096x128_7_0_0) shapeCasts_S1x4096x128_S4096x128 := by
  show V17 m outs c main_v61 = _
  exact (V17_of m outs c main_v61 (by decide)).trans <| (V16_of m outs c main_v61 (by decide)).trans <| (V15_of m outs c main_v61 (by decide)).trans <| (V14_of m outs c main_v61 (by decide)).trans <| (V13_of m outs c main_v61 (by decide)).trans <| (V12_of m outs c main_v61 (by decide)).trans <| (V11_of m outs c main_v61 (by decide)).trans <| (V10_of m outs c main_v61 (by decide)).trans <| (buf_v61 m outs c)

theorem opnd8_19 (c : Dev nD) :
    V17 m outs c (Pipeline.arrRef spec8 ⟨19, by decide⟩) = shapeCast S4096x128 (extractStridedSlice S1x4096x128 ![5, 0, 0] (outs 10 main_v64 c) slices_S8x4096x128_S1x4096x128_5_0_0) shapeCasts_S1x4096x128_S4096x128 := by
  show V17 m outs c main_v76 = _
  exact (V17_of m outs c main_v76 (by decide)).trans <| (V16_of m outs c main_v76 (by decide)).trans <| (V15_of m outs c main_v76 (by decide)).trans <| (V14_of m outs c main_v76 (by decide)).trans <| (V13_of m outs c main_v76 (by decide)).trans <| (V12_of m outs c main_v76 (by decide)).trans <| (buf_v76 m outs c)

theorem opnd8_20 (c : Dev nD) :
    V17 m outs c (Pipeline.arrRef spec8 ⟨20, by decide⟩) = shapeCast S4096x128 (extractStridedSlice S1x4096x128 ![4, 0, 0] (outs 12 main_v83 c) slices_S8x4096x128_S1x4096x128_4_0_0) shapeCasts_S1x4096x128_S4096x128 := by
  show V17 m outs c main_v93 = _
  exact (V17_of m outs c main_v93 (by decide)).trans <| (V16_of m outs c main_v93 (by decide)).trans <| (V15_of m outs c main_v93 (by decide)).trans <| (V14_of m outs c main_v93 (by decide)).trans <| (buf_v93 m outs c)

theorem opnd8_21 (c : Dev nD) :
    V17 m outs c (Pipeline.arrRef spec8 ⟨21, by decide⟩) = shapeCast S4096x128 (extractStridedSlice S1x4096x128 ![0, 0, 0] (outs 10 main_v64 c) slices_S8x4096x128_S1x4096x128_0_0_0) shapeCasts_S1x4096x128_S4096x128 := by
  show V17 m outs c main_v66 = _
  exact (V17_of m outs c main_v66 (by decide)).trans <| (V16_of m outs c main_v66 (by decide)).trans <| (V15_of m outs c main_v66 (by decide)).trans <| (V14_of m outs c main_v66 (by decide)).trans <| (V13_of m outs c main_v66 (by decide)).trans <| (V12_of m outs c main_v66 (by decide)).trans <| (buf_v66 m outs c)

theorem opnd8_22 (c : Dev nD) :
    V17 m outs c (Pipeline.arrRef spec8 ⟨22, by decide⟩) = shapeCast S4096x128 (extractStridedSlice S1x4096x128 ![7, 0, 0] (outs 4 main_v7 c) slices_S8x4096x128_S1x4096x128_7_0_0) shapeCasts_S1x4096x128_S4096x128 := by
  show V17 m outs c main_v23 = _
  exact (V17_of m outs c main_v23 (by decide)).trans <| (V16_of m outs c main_v23 (by decide)).trans <| (V15_of m outs c main_v23 (by decide)).trans <| (V14_of m outs c main_v23 (by decide)).trans <| (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (buf_v23 m outs c)

theorem opnd8_23 (c : Dev nD) :
    V17 m outs c (Pipeline.arrRef spec8 ⟨23, by decide⟩) = shapeCast S4096x128 (extractStridedSlice S1x4096x128 ![4, 0, 0] (outs 16 main_v121 c) slices_S8x4096x128_S1x4096x128_4_0_0) shapeCasts_S1x4096x128_S4096x128 := by
  show V17 m outs c main_v131 = _
  exact buf_v131 m outs c

theorem opnd8_24 (c : Dev nD) :
    V17 m outs c (Pipeline.arrRef spec8 ⟨24, by decide⟩) = shapeCast S4096x128 (extractStridedSlice S1x4096x128 ![6, 0, 0] (outs 12 main_v83 c) slices_S8x4096x128_S1x4096x128_6_0_0) shapeCasts_S1x4096x128_S4096x128 := by
  show V17 m outs c main_v97 = _
  exact (V17_of m outs c main_v97 (by decide)).trans <| (V16_of m outs c main_v97 (by decide)).trans <| (V15_of m outs c main_v97 (by decide)).trans <| (V14_of m outs c main_v97 (by decide)).trans <| (buf_v97 m outs c)

theorem opnd8_25 (c : Dev nD) :
    V17 m outs c (Pipeline.arrRef spec8 ⟨25, by decide⟩) = shapeCast S4096x128 (extractStridedSlice S1x4096x128 ![1, 0, 0] (outs 4 main_v7 c) slices_S8x4096x128_S1x4096x128_1_0_0) shapeCasts_S1x4096x128_S4096x128 := by
  show V17 m outs c main_v11 = _
  exact (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide)).trans <| (buf_v11 m outs c)

theorem opnd8_26 (c : Dev nD) :
    V17 m outs c (Pipeline.arrRef spec8 ⟨26, by decide⟩) = shapeCast S4096x128 (extractStridedSlice S1x4096x128 ![5, 0, 0] (outs 14 main_v102 c) slices_S8x4096x128_S1x4096x128_5_0_0) shapeCasts_S1x4096x128_S4096x128 := by
  show V17 m outs c main_v114 = _
  exact (V17_of m outs c main_v114 (by decide)).trans <| (V16_of m outs c main_v114 (by decide)).trans <| (buf_v114 m outs c)

theorem opnd8_27 (c : Dev nD) :
    V17 m outs c (Pipeline.arrRef spec8 ⟨27, by decide⟩) = shapeCast S4096x128 (extractStridedSlice S1x4096x128 ![0, 0, 0] (outs 14 main_v102 c) slices_S8x4096x128_S1x4096x128_0_0_0) shapeCasts_S1x4096x128_S4096x128 := by
  show V17 m outs c main_v104 = _
  exact (V17_of m outs c main_v104 (by decide)).trans <| (V16_of m outs c main_v104 (by decide)).trans <| (buf_v104 m outs c)

theorem opnd8_28 (c : Dev nD) :
    V17 m outs c (Pipeline.arrRef spec8 ⟨28, by decide⟩) = shapeCast S4096x128 (extractStridedSlice S1x4096x128 ![1, 0, 0] (outs 6 main_v26 c) slices_S8x4096x128_S1x4096x128_1_0_0) shapeCasts_S1x4096x128_S4096x128 := by
  show V17 m outs c main_v30 = _
  exact (V17_of m outs c main_v30 (by decide)).trans <| (V16_of m outs c main_v30 (by decide)).trans <| (V15_of m outs c main_v30 (by decide)).trans <| (V14_of m outs c main_v30 (by decide)).trans <| (V13_of m outs c main_v30 (by decide)).trans <| (V12_of m outs c main_v30 (by decide)).trans <| (V11_of m outs c main_v30 (by decide)).trans <| (V10_of m outs c main_v30 (by decide)).trans <| (V9_of m outs c main_v30 (by decide)).trans <| (V8_of m outs c main_v30 (by decide)).trans <| (buf_v30 m outs c)

theorem opnd8_29 (c : Dev nD) :
    V17 m outs c (Pipeline.arrRef spec8 ⟨29, by decide⟩) = shapeCast S4096x128 (extractStridedSlice S1x4096x128 ![2, 0, 0] (outs 12 main_v83 c) slices_S8x4096x128_S1x4096x128_2_0_0) shapeCasts_S1x4096x128_S4096x128 := by
  show V17 m outs c main_v89 = _
  exact (V17_of m outs c main_v89 (by decide)).trans <| (V16_of m outs c main_v89 (by decide)).trans <| (V15_of m outs c main_v89 (by decide)).trans <| (V14_of m outs c main_v89 (by decide)).trans <| (buf_v89 m outs c)

theorem opnd8_30 (c : Dev nD) :
    V17 m outs c (Pipeline.arrRef spec8 ⟨30, by decide⟩) = shapeCast S4096x128 (extractStridedSlice S1x4096x128 ![3, 0, 0] (outs 10 main_v64 c) slices_S8x4096x128_S1x4096x128_3_0_0) shapeCasts_S1x4096x128_S4096x128 := by
  show V17 m outs c main_v72 = _
  exact (V17_of m outs c main_v72 (by decide)).trans <| (V16_of m outs c main_v72 (by decide)).trans <| (V15_of m outs c main_v72 (by decide)).trans <| (V14_of m outs c main_v72 (by decide)).trans <| (V13_of m outs c main_v72 (by decide)).trans <| (V12_of m outs c main_v72 (by decide)).trans <| (buf_v72 m outs c)

theorem opnd8_31 (c : Dev nD) :
    V17 m outs c (Pipeline.arrRef spec8 ⟨31, by decide⟩) = shapeCast S4096x128 (extractStridedSlice S1x4096x128 ![0, 0, 0] (outs 4 main_v7 c) slices_S8x4096x128_S1x4096x128_0_0_0) shapeCasts_S1x4096x128_S4096x128 := by
  show V17 m outs c main_v9 = _
  exact (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (buf_v9 m outs c)

theorem opnd8_32 (c : Dev nD) :
    V17 m outs c (Pipeline.arrRef spec8 ⟨32, by decide⟩) = extractStridedSlice S8x128x128 ![57, 0, 0] (transpose S65x128x128 [0, 2, 1] (m ((c : Thread nD τ).loc main_arg1)) transposes_S65x128x128_S65x128x128_0_2_1) slices_S65x128x128_S8x128x128_57_0_0 := by
  show V17 m outs c main_v138 = _
  exact buf_v138 m outs c

theorem opnd8_33 (c : Dev nD) :
    V17 m outs c (Pipeline.arrRef spec8 ⟨33, by decide⟩) = extractStridedSlice S8x128 ![57, 0] (m ((c : Thread nD τ).loc main_arg2)) slices_S65x128_S8x128_57_0 := by
  show V17 m outs c main_v139 = _
  exact buf_v139 m outs c

end Cert.KernelIdeal.Hand
-- ==== Proof.KI.Host.lean ====
import proofs.«135270_j33062658245245_1_alg».proof.Proof.KI.Host1
import proofs.«135270_j33062658245245_1_alg».proof.Proof.KI.Host2
import proofs.«135270_j33062658245245_1_alg».proof.Proof.KI.Host3
import proofs.«135270_j33062658245245_1_alg».proof.Proof.KI.Host4
import proofs.«135270_j33062658245245_1_alg».proof.Proof.KI.Host5

/-! What the host stretches of @main leave in each region's operand arrays and in the result: the five parts, as one import. -/
-- ==== Proof.KI.Pay0.lean ====
/-
  A node's step read at one index of the stored block.

  Every slab any region stores is the same composite: the inbox block (narrowed, which changes no extended real) times
  a 128 × 128 weight matrix, accumulated into a zero block; plus the bias row laid along all 512 rows; the maximum
  with a zero block; a unit axis put in front. This module reads that composite at an index `(0, r, e)`:

      max (Σ_d inbox (r, d) · w (d, e) + b e) 0 ,

  the contraction's sum re-indexed through its one coordinate, and then region 0's stored value, whose inbox is the
  input block itself, whose weight matrix is the loaded `[1, 128, 128]` slab with its unit axis dropped, and whose bias
  is the loaded `[1, 128]` row with its unit axis dropped. The inbox of a later region's slab is the sum of four parent
  blocks; that sum at an index, and the composite over it, are read here too, once for all regions.
-/
import proofs.«135270_j33062658245245_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The matrix product at an index -/

/-- On the left operand's row axis the operand index is the result index's row. -/
theorem mm_lhs_0 (j : S512x128.Idx) (k : dot_S512x128_S128x128_S512x128_1_0_0_1_n_n.contr.Idx) :
    (dot_S512x128_S128x128_S512x128_1_0_0_1_n_n.lhsIdx j k 0).val = (j 0).val := by
  unfold DotDims.lhsIdx
  rw [dif_neg (show ¬ (0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

/-- On the left operand's column axis, the one contracted, it is the contraction position's coordinate. -/
theorem mm_lhs_1 (j : S512x128.Idx) (k : dot_S512x128_S128x128_S512x128_1_0_0_1_n_n.contr.Idx) :
    (dot_S512x128_S128x128_S512x128_1_0_0_1_n_n.lhsIdx j k 1).val = (k ⟨0, by decide⟩).val :=
  dot_S512x128_S128x128_S512x128_1_0_0_1_n_n.lhsIdx_val_of_single (cl := 1) rfl j k

/-- On the right operand's row axis, the one contracted, it is the contraction position's coordinate. -/
theorem mm_rhs_0 (j : S512x128.Idx) (k : dot_S512x128_S128x128_S512x128_1_0_0_1_n_n.contr.Idx) :
    (dot_S512x128_S128x128_S512x128_1_0_0_1_n_n.rhsIdx j k 0).val = (k ⟨0, by decide⟩).val :=
  dot_S512x128_S128x128_S512x128_1_0_0_1_n_n.rhsIdx_val_of_single (cr := 0) rfl j k

/-- On the right operand's column axis the operand index is the result index's column. -/
theorem mm_rhs_1 (j : S512x128.Idx) (k : dot_S512x128_S128x128_S512x128_1_0_0_1_n_n.contr.Idx) :
    (dot_S512x128_S128x128_S512x128_1_0_0_1_n_n.rhsIdx j k 1).val = (j 1).val := by
  unfold DotDims.rhsIdx
  rw [dif_neg (show ¬ (1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The product of a 512 × 128 block by a 128 × 128 matrix, accumulated into zero, read at `(r, e)`: the sum over the
    contracted coordinate `d` of `a (r, d) · w (d, e)`. -/
theorem mm_apply (a : FVec Ideal S512x128 .bf16) (w : FVec Ideal S128x128 .bf16) (r : Fin 512) (e : Fin 128) :
    matmul dot_S512x128_S128x128_S512x128_1_0_0_1_n_n none a w (constant (F := Ideal) S512x128 .f32 0x00000000#32) (ix2 r e)
      = ∑ d : Fin 128, a (ix2 r d) * w (ix2 d e) := by
  show FloatOps.matmul _ none a w _ (ix2 r e) = _
  rw [Ideal.matmul_constant_zero_apply,
    ← Equiv.sum_comp (contrEquiv1 dot_S512x128_S128x128_S512x128_1_0_0_1_n_n 128 rfl rfl).symm]
  refine Finset.sum_congr rfl fun d _ => ?_
  have hk := contrEquiv1_symm_val dot_S512x128_S128x128_S512x128_1_0_0_1_n_n 128 rfl rfl d
  have hl : dot_S512x128_S128x128_S512x128_1_0_0_1_n_n.lhsIdx (ix2 r e)
      ((contrEquiv1 dot_S512x128_S128x128_S512x128_1_0_0_1_n_n 128 rfl rfl).symm d) = ix2 r d := by
    funext ax; apply Fin.ext
    match ax with
    | ⟨0, _⟩ => exact mm_lhs_0 _ _
    | ⟨1, _⟩ => exact (mm_lhs_1 _ _).trans hk
  have hr : dot_S512x128_S128x128_S512x128_1_0_0_1_n_n.rhsIdx (ix2 r e)
      ((contrEquiv1 dot_S512x128_S128x128_S512x128_1_0_0_1_n_n 128 rfl rfl).symm d) = ix2 d e := by
    funext ax; apply Fin.ext
    match ax with
    | ⟨0, _⟩ => exact (mm_rhs_0 _ _).trans hk
    | ⟨1, _⟩ => exact mm_rhs_1 _ _
  rw [hl, hr]

/-! ## The composite every slab is -/

/-- The inbox times the weight matrix into a zero block, plus the bias along every row, clipped below at zero, with a
    unit axis in front. -/
def slabFn (s : FVec Ideal S512x128 .f32) (w : FVec Ideal S128x128 .bf16) (b : FVec Ideal S128 .f32) :
    FVec Ideal S1x512x128 .f32 :=
  shapeCast S1x512x128
    (maximumf
      (addf
        (matmul dot_S512x128_S128x128_S512x128_1_0_0_1_n_n none (truncf .bf16 s bitsLt_bf16_f32) w
          (constant (F := Ideal) S512x128 .f32 0x00000000#32))
        (broadcastTo S512x128 (shapeCast S1x128 b shapeCasts_S128_S1x128) broadcasts_S1x128_S512x128))
      (broadcast S512x128 (Scalar.ofBits (F := Ideal) .f32 0x00000000#32)))
    shapeCasts_S512x128_S1x512x128

/-- The composite at `(0, r, e)`. -/
theorem slabFn_apply (s : FVec Ideal S512x128 .f32) (w : FVec Ideal S128x128 .bf16) (b : FVec Ideal S128 .f32)
    (r : Fin 512) (e : Fin 128) :
    slabFn s w b (ix3 0 r e)
      = max ((∑ d : Fin 128, s (ix2 r d) * w (ix2 d e)) + b (ix1 e)) (Ideal.ofBits .f32 0x00000000#32) := by
  unfold slabFn
  rw [shapeCast_ab_1ab_apply, maximumf_apply, addf_apply, broadcast_apply, mm_apply, broadcastTo_1b_ab_apply,
    shapeCast_a_1a_apply]
  rfl

/-! ## Region 0 -/

theorem pay0_apply (x : Vec Ideal S512x128 .f32) (wt : Vec Ideal S1x128x128 .f32) (bs : Vec Ideal S1x128 .f32) (r : Fin 512) (e : Fin 128) :
    k0_pay1 (F := Ideal) x wt bs (ix3 0 r e) = max ((∑ d : Fin 128, x (ix2 r d) * wt (ix3 0 d e)) + bs (ix2 0 e)) (Ideal.ofBits .f32 0x00000000#32) := by
  refine (slabFn_apply x (truncf .bf16 (shapeCast S128x128 wt shapeCasts_S1x128x128_S128x128) bitsLt_bf16_f32)
    (shapeCast S128 bs shapeCasts_S1x128_S128) r e).trans ?_
  simp only [truncf_apply, shapeCast_1ab_ab_apply, shapeCast_1a_a_apply]

/-! ## The sum of four parent blocks as the inbox -/

/-- The four parent blocks added from the left, each first cast to the shape it already has. -/
def sum4 (p0 p1 p2 p3 : FVec Ideal S512x128 .f32) : FVec Ideal S512x128 .f32 :=
  addf
    (addf
      (addf (shapeCast S512x128 p0 shapeCasts_S512x128_S512x128) (shapeCast S512x128 p1 shapeCasts_S512x128_S512x128))
      (shapeCast S512x128 p2 shapeCasts_S512x128_S512x128))
    (shapeCast S512x128 p3 shapeCasts_S512x128_S512x128)

/-- The sum at an index is the sum of the four entries, bracketed from the left. -/
theorem sum4_apply (p0 p1 p2 p3 : FVec Ideal S512x128 .f32) (i : S512x128.Idx) :
    sum4 p0 p1 p2 p3 i = ((p0 i + p1 i) + p2 i) + p3 i := by
  unfold sum4
  simp only [addf_apply, shapeCast_self]

/-- One slab's value at row `r`, column `e`, from its four parent blocks, its weights and its bias row. -/
def slabVal (p0 p1 p2 p3 : Vec Ideal S512x128 .f32) (wk : Vec Ideal S1x128x128 .f32) (bk : Vec Ideal S1x128 .f32) (r : Fin 512) (e : Fin 128) : EReal :=
  max ((∑ d : Fin 128, (((p0 (ix2 r d) + p1 (ix2 r d)) + p2 (ix2 r d)) + p3 (ix2 r d)) * wk (ix3 0 d e)) + bk (ix2 0 e)) (Ideal.ofBits .f32 0x00000000#32)

/-- The composite over the sum of four parent blocks, with the loaded weight slab and bias row, at `(0, r, e)`. -/
theorem slabFn_sum4_apply (p0 p1 p2 p3 : Vec Ideal S512x128 .f32) (wk : Vec Ideal S1x128x128 .f32)
    (bk : Vec Ideal S1x128 .f32) (r : Fin 512) (e : Fin 128) :
    slabFn (sum4 p0 p1 p2 p3)
        (truncf .bf16 (shapeCast S128x128 wk shapeCasts_S1x128x128_S128x128) bitsLt_bf16_f32)
        (shapeCast S128 bk shapeCasts_S1x128_S128) (ix3 0 r e)
      = slabVal p0 p1 p2 p3 wk bk r e := by
  rw [slabFn_apply]
  unfold slabVal
  simp only [sum4_apply, truncf_apply, shapeCast_1ab_ab_apply, shapeCast_1a_a_apply]

end Cert.KernelIdeal.Hand

end
-- ==== Proof.KI.RegVal0.lean ====
/-
  Region 0's output array as one function of the arrays the region finds.

  The grid's eight points each write back one block of 512 rows of the output array `[1, 4096, 128]`; point `t`'s
  block is computed from rows `512 t …` of the input batch and from the whole weight slab and bias row. Read at an
  index, what the body stores is the maximum with zero of `Σ_d X (r, d) · Wt (0, d, e) + Bs (0, e)` at the array's
  own row `r = 512 t + (row in the block)`; the eight blocks cover the array, so the array ends holding that function.
-/
import proofs.«135270_j33062658245245_1_alg».proof.Proof.KI.R0
import proofs.«135270_j33062658245245_1_alg».proof.Proof.KI.Pay0
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## The function region 0 computes, over whole arrays -/

/-- Node 0's array `[1, 4096, 128]` from the input batch, the first (transposed) weight slab and the first bias row:
    at `(0, r, e)` the maximum with zero of `Σ_d X (r, d) · Wt (0, d, e) + Bs (0, e)`. -/
noncomputable def region0Fn (X : FVec Ideal S4096x128 .f32) (Wt : FVec Ideal S1x128x128 .f32) (Bs : FVec Ideal S1x128 .f32) :
    FVec Ideal S1x4096x128 .f32 :=
  fun i => max ((∑ d : Fin 128, X (ix2 (i 1) d) * Wt (ix3 0 d (i 2))) + Bs (ix2 0 (i 2))) (Ideal.ofBits .f32 0x00000000#32)

/-! ## One point's block -/

/-- What the body stores at a point whose input block is rows `512 q …` of `X` and whose weight and bias blocks are the
    whole arrays: the function's value at the same row of the array. -/
theorem block0_apply (X : FVec Ideal S4096x128 .f32) (Wt : FVec Ideal S1x128x128 .f32) (Bs : FVec Ideal S1x128 .f32)
    (x0 : Vec Ideal S512x128 .f32) (x1 : Vec Ideal S1x128x128 .f32) (x2 : Vec Ideal S1x128 .f32) (q : Nat)
    (h0 : ∀ (r : Fin 512) (d : Fin 128) (r' : Fin 4096), r'.val = q * 512 + r.val → x0 (ix2 r d) = X (ix2 r' d))
    (h1 : x1 = Wt) (h2 : x2 = Bs) (j : S1x512x128.Idx) (i : S1x4096x128.Idx)
    (hi1 : (i 1).val = q * 512 + (j 1).val) (hi2 : (i 2).val = (j 2).val) :
    k0_pay1 (F := Ideal) x0 x1 x2 j = region0Fn X Wt Bs i := by
  obtain ⟨u, r, e, rfl⟩ : ∃ (u : Fin 1) (r : Fin 512) (e : Fin 128), j = ix3 u r e := ⟨j 0, j 1, j 2, eq_ix3 j⟩
  obtain ⟨k, r', e', rfl⟩ : ∃ (k : Fin 1) (r' : Fin 4096) (e' : Fin 128), i = ix3 k r' e' := ⟨i 0, i 1, i 2, eq_ix3 i⟩
  obtain rfl : u = 0 := Subsingleton.elim _ _
  obtain rfl : e' = e := Fin.ext hi2
  subst h1 h2
  rw [pay0_apply]
  unfold region0Fn
  simp only [h0 r _ r' hi1]

/-! ## The windows' blocks as parts of their arrays -/

/-- The printed index maps over the grid: the input's and the output's row block moves with the point, the weight slab's
    and the bias row's never. -/
theorem idx_facts0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

variable (V : (c : Dev nD) → (b : Ref sig .tc) → Buf (Elt Ideal) ((c : Thread nD τ).loc b)) (c : Dev nD)

/-- The input window's block at point `t` is rows `512 t …` of the input array. -/
theorem iblk0_0_apply (t : Fin cfg0.N) (r : Fin 512) (d : Fin 128) (r' : Fin 4096) (hr : r'.val = t.val * 512 + r.val) :
    (iblk0 V c 0 t : Vec Ideal S512x128 .f32) (ix2 r d) = (V c (Pipeline.arrRef spec0 0) : FVec Ideal S4096x128 .f32) (ix2 r' d) := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t (0 : Fin 2) * 512 + 1 * r.val = r'.val; rw [e0, hr]; omega
  | ⟨1, _⟩ => show win0_0.index t (1 : Fin 2) * 128 + 1 * d.val = d.val; rw [e1]; omega

/-- The weight window's block is the whole weight slab at every point. -/
theorem iblk0_1_eq (t : Fin cfg0.N) :
    (iblk0 V c 1 t : Vec Ideal S1x128x128 .f32) = (V c (Pipeline.arrRef spec0 1) : FVec Ideal S1x128x128 .f32) := by
  obtain ⟨-, -, e0, e1, e2, -⟩ := idx_facts0 t
  funext y
  unfold iblk0
  rw [View.read_apply]
  refine congrArg (V c (Pipeline.arrRef spec0 1)) (funext fun a => Fin.ext ?_)
  match a with
  | ⟨0, _⟩ => show win0_1.index t (0 : Fin 3) * 1 + 1 * (y 0).val = (y 0).val; rw [e0]; omega
  | ⟨1, _⟩ => show win0_1.index t (1 : Fin 3) * 128 + 1 * (y 1).val = (y 1).val; rw [e1]; omega
  | ⟨2, _⟩ => show win0_1.index t (2 : Fin 3) * 128 + 1 * (y 2).val = (y 2).val; rw [e2]; omega

/-- The bias window's block is the whole bias row at every point. -/
theorem iblk0_2_eq (t : Fin cfg0.N) :
    (iblk0 V c 2 t : Vec Ideal S1x128 .f32) = (V c (Pipeline.arrRef spec0 2) : FVec Ideal S1x128 .f32) := by
  obtain ⟨-, -, -, -, -, e0, e1, -⟩ := idx_facts0 t
  funext y
  unfold iblk0
  rw [View.read_apply]
  refine congrArg (V c (Pipeline.arrRef spec0 2)) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What each point writes back, and the cover -/

theorem hz0_3 : (![0, 0, 0] : Fin 3 → Nat) = fun _ => 0 := funext fun a => by fin_cases a <;> rfl
theorem hz0_2 : (![0, 0] : Fin 2 → Nat) = fun _ => 0 := funext fun a => by fin_cases a <;> rfl

/-- What point `t` writes back is block `t` of the function of the entry arrays. -/
theorem flushed0_eq (t : Fin cfg0.N) :
    (dat0 (F := Ideal) V c).flushed 3 t = ((cfg0.win 3).blk t).view.read (Elt Ideal)
      (region0Fn (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0_3]
  simp only [View.ld_unit_zero (S := S512x128) hz0_2, View.ld_unit_zero (S := S1x128x128) hz0_3, View.ld_unit_zero (S := S1x128) hz0_2]
  obtain ⟨-, -, -, -, -, -, -, e0, e1, e2⟩ := idx_facts0 t
  funext j
  rw [View.read_apply]
  refine block0_apply (V c (Pipeline.arrRef spec0 0)) (V c (Pipeline.arrRef spec0 1)) (V c (Pipeline.arrRef spec0 2))
    (iblk0 V c 0 t) (iblk0 V c 1 t) (iblk0 V c 2 t) t.val (fun r d r' hr => iblk0_0_apply V c t r d r' hr)
    (iblk0_1_eq V c t) (iblk0_2_eq V c t) j (((cfg0.win 3).blk t).view.emb j) ?_ ?_
  · show win0_3.index t (1 : Fin 3) * 512 + 1 * (j 1).val = t.val * 512 + (j 1).val; rw [e1]; omega
  · show win0_3.index t (2 : Fin 3) * 128 + 1 * (j 2).val = (j 2).val; rw [e2]; omega

/-- An index of the output array is in point `t`'s block iff each coordinate is in the block's range on its axis. -/
theorem mem_blk0 (t : Fin cfg0.N) (i : S1x4096x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole (Pipeline.arrRef spec0 3)).slice (win0_3.rect t)).set ↔ _
  rw [View.set_slice_whole, Rect.mem_set_unit]
  exact Iff.rfl

/-- Every index of the output array is in the block of the point its row falls in. -/
theorem cover0 (i : S1x4096x128.Idx) : ∃ t : Fin cfg0.N, (cfg0.win 3).flush t = true ∧ i ∈ ((cfg0.win 3).blk t).view.set := by
  have hi0 : (i 0).val < 1 := (i 0).isLt
  have hi1 : (i 1).val < 4096 := (i 1).isLt
  have hi2 : (i 2).val < 128 := (i 2).isLt
  have hN : cfg0.N = 8 := N_0
  let t : Fin cfg0.N := ⟨(i 1).val / 512, by rw [hN]; omega⟩
  obtain ⟨-, -, -, -, -, -, -, e0, e1, e2⟩ := idx_facts0 t
  have ht : t.val = (i 1).val / 512 := rfl
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 128 ≤ (i 2).val ∧ (i 2).val < win0_3.index t (2 : Fin 3) * 128 + 128; rw [e2]; omega

/-! ## The region's output array -/

/-- After region 0 its output array holds node 0's function of the arrays the region found. -/
theorem regval0 : (dat0 (F := Ideal) V c).arrAt 3 cfg0.N
    = region0Fn (V c (Pipeline.arrRef spec0 0)) (V c (Pipeline.arrRef spec0 1)) (V c (Pipeline.arrRef spec0 2)) :=
  (dat0 (F := Ideal) V c).arrAt_eq_of_cover 3 _ (fun t _ => flushed0_eq V c t) (cover0)

end Cert.KernelIdeal.Hand

end
-- ==== Proof.Spec.lean ====
/-
  The function both programs compute, stated once over the three argument arrays.

  A graph of 65 nodes: node 0 reads the input batch `X` [4096, 128]; every later node `n` sums the values of its
  four parents `par n 0 … par n 3` (all of smaller number: the table below, eight layers of eight nodes, one row
  of four parents per node), and each node applies the same step to its inbox: the product with the transpose of
  its own weight matrix `W[n]` [128, 128], plus its bias row `B[n]`, then the maximum with zero:

      node n r e = max (Σ_d inbox r d · W[n, e, d] + B[n, e]) 0 .

  The result is the mean of the last eight nodes (57 … 64); since both programs end in the same reduction and
  division applied to the array of those eight, this module only names that array (`layerArr 7`).
  All values are extended reals; sums are finite sums in a commutative monoid, so no finiteness is needed to
  regroup them.
-/
import Idealize.ShloMosaic.PureOps.Ideal
import Idealize.ShloMosaic.Lib.ValueIdx

noncomputable section

namespace Cert.Spec

open Idealize.ShloMosaic Idealize.ShloMosaic.ValueIdx

/-- The parents of nodes 1 … 64, four per node, in node order (row `n - 1` holds node `n`'s). -/
def parList : List Nat :=
  [
   0, 0, 0, 0,  0, 0, 0, 0,  0, 0, 0, 0,  0, 0, 0, 0,  0, 0, 0, 0,  0, 0, 0, 0,  0, 0, 0, 0,  0, 0, 0, 0,
   7, 5, 4, 2,  2, 0, 0, 0,  1, 7, 5, 8,  4, 5, 8, 6,  5, 4, 5, 8,  2, 7, 6, 0,  3, 7, 4, 0,  6, 6, 7, 1,
   1, 14, 0, 9,  1, 5, 8, 7,  6, 0, 0, 2,  0, 11, 8, 11,  4, 10, 12, 6,  7, 16, 13, 16,  6, 11, 16, 11,  14, 11, 11, 6,
   21, 3, 14, 18,  21, 13, 9, 7,  10, 12, 17, 22,  1, 23, 13, 8,  16, 14, 6, 8,  17, 14, 12, 8,  19, 9, 8, 22,  6, 5, 17, 15,
   1, 2, 12, 27,  13, 25, 10, 7,  26, 28, 2, 1,  22, 11, 18, 4,  28, 14, 29, 26,  23, 7, 25, 1,  18, 13, 32, 6,  31, 2, 20, 19,
   36, 12, 36, 27,  36, 8, 31, 38,  1, 14, 26, 4,  20, 25, 31, 38,  16, 18, 19, 39,  8, 20, 2, 17,  38, 25, 14, 40,  24, 38, 0, 18,
   40, 37, 19, 24,  20, 25, 11, 38,  3, 20, 13, 35,  36, 34, 45, 45,  9, 5, 6, 35,  47, 45, 32, 47,  42, 0, 5, 42,  4, 48, 40, 46,
   20, 8, 29, 55,  20, 50, 21, 46,  13, 27, 18, 13,  50, 45, 7, 52,  55, 15, 24, 30,  37, 25, 8, 53,  39, 2, 46, 41,  10, 35, 28, 1
  ]

/-- Parent `j` of node `n` (for `1 ≤ n ≤ 64`, `j < 4`). -/
def par (n j : Nat) : Nat := parList.getD (4 * (n - 1) + j) 0

/-- Every parent precedes its node. -/
theorem par_lt : ∀ n : Fin 65, ∀ j : Fin 4, 1 ≤ n.val → par n.val j.val < n.val := by decide

variable (X : FVec Ideal (⟨2, ![4096, 128]⟩ : Shape) .f32) (W : FVec Ideal (⟨3, ![65, 128, 128]⟩ : Shape) .f32)
  (B : FVec Ideal (⟨2, ![65, 128]⟩ : Shape) .f32)

/-- One node's step: the inbox times the transpose of the node's weights, plus its bias, clipped below at zero. -/
def act (n : Fin 65) (inbox : Fin 4096 → Fin 128 → EReal) (r : Fin 4096) (e : Fin 128) : EReal :=
  max ((∑ d : Fin 128, inbox r d * W (ix3 n e d)) + B (ix2 n e)) (Ideal.ofBits .f32 0x00000000#32)

/-- The node number as an index of the weight and bias arrays. -/
def nix (n : Nat) : Fin 65 := ⟨n % 65, Nat.mod_lt _ (by decide)⟩

/-- Node `n`'s value at row `r`, column `e`. The parent's number is clamped below the node's own, which the table
    satisfies anyway (`par_lt`), so that the recursion is plainly well founded. -/
def node : Nat → Fin 4096 → Fin 128 → EReal
  | 0 => act W B (nix 0) (fun r d => X (ix2 r d))
  | n + 1 => act W B (nix (n + 1)) (fun r d => ∑ j : Fin 4, node (min (par (n + 1) j.val) n) r d)
termination_by n => n
decreasing_by omega

theorem node_zero : node X W B 0 = act W B (nix 0) (fun r d => X (ix2 r d)) := by
  rw [node]

/-- A later node is the step applied to the sum of its four parents. -/
theorem node_succ (n : Nat) (hn : n + 1 ≤ 64) :
    node X W B (n + 1) = act W B (nix (n + 1)) (fun r d => ∑ j : Fin 4, node X W B (par (n + 1) j.val) r d) := by
  rw [node]
  have h : ∀ j : Fin 4, min (par (n + 1) j.val) n = par (n + 1) j.val := fun j => by
    have := par_lt ⟨n + 1, by omega⟩ j (by show 1 ≤ n + 1; omega)
    have h' : par (n + 1) j.val < n + 1 := this
    omega
  simp only [h]

/-- Node `n` as an array [4096, 128]. -/
def nodeArr (n : Nat) : FVec Ideal (⟨2, ![4096, 128]⟩ : Shape) .f32 := fun i => node X W B n (i 0) (i 1)

/-- Layer `l` (0 … 7) as an array [8, 4096, 128]: nodes `8 l + 1 … 8 l + 8`. -/
def layerArr (l : Nat) : FVec Ideal (⟨3, ![8, 4096, 128]⟩ : Shape) .f32 := fun i => node X W B (8 * l + 1 + (i 0).val) (i 1) (i 2)

/-- The first `N` nodes stacked as an array [N, 4096, 128]. -/
def uptoArr (N : Nat) : FVec Ideal (⟨3, ![N, 4096, 128]⟩ : Shape) .f32 := fun i => node X W B (i 0).val (i 1) (i 2)

end Cert.Spec

end
-- ==== Proof.RegionFn.lean ====
/-
  What one pallas_call of the kernel computes, as a function of whole arrays, and that it is a layer of the graph.

  A region takes 32 parent arrays [4096, 128] (array 4k + j is parent j of the region's node k), a slice `Wt` [8, 128, 128]
  of the TRANSPOSED weights (`Wt[k, d, e] = W[s + k, e, d]`) and a slice `Bs` [8, 128] of the biases, and leaves, at
  (k, r, e): the maximum with zero of  Σ_d (((p0 + p1) + p2) + p3)[r, d] · Wt[k, d, e] + Bs[k, e].
  With the parents the nodes `par (8 l + 1 + k) j` and the slices taken at `s = 8 l + 1`, that is layer `l`: the
  sum of four parents written left to right is the sum over `Fin 4`.
-/
import proofs.«135270_j33062658245245_1_alg».proof.Proof.Spec

noncomputable section

namespace Cert.Spec

open Idealize.ShloMosaic Idealize.ShloMosaic.ValueIdx

/-- Window `4 k + j` of a region: parent `j` of its node `k`. -/
def p4 (k : Fin 8) (j : Fin 4) : Fin 32 := ⟨4 * k.val + j.val, by have := k.isLt; have := j.isLt; omega⟩

/-- A region's value at explicit coordinates. -/
def regionAt (P : Fin 32 → FVec Ideal (⟨2, ![4096, 128]⟩ : Shape) .f32) (Wt : FVec Ideal (⟨3, ![8, 128, 128]⟩ : Shape) .f32)
    (Bs : FVec Ideal (⟨2, ![8, 128]⟩ : Shape) .f32) (k : Fin 8) (r : Fin 4096) (e : Fin 128) : EReal :=
  max ((∑ d : Fin 128, (((P (p4 k 0) (ix2 r d) + P (p4 k 1) (ix2 r d)) + P (p4 k 2) (ix2 r d)) + P (p4 k 3) (ix2 r d)) * Wt (ix3 k d e))
    + Bs (ix2 k e)) (Ideal.ofBits .f32 0x00000000#32)

/-- A region's output array [8, 4096, 128]. -/
def regionFn (P : Fin 32 → FVec Ideal (⟨2, ![4096, 128]⟩ : Shape) .f32) (Wt : FVec Ideal (⟨3, ![8, 128, 128]⟩ : Shape) .f32)
    (Bs : FVec Ideal (⟨2, ![8, 128]⟩ : Shape) .f32) : FVec Ideal (⟨3, ![8, 4096, 128]⟩ : Shape) .f32 :=
  fun i => regionAt P Wt Bs (i 0) (i 1) (i 2)

variable (X : FVec Ideal (⟨2, ![4096, 128]⟩ : Shape) .f32) (W : FVec Ideal (⟨3, ![65, 128, 128]⟩ : Shape) .f32)
  (B : FVec Ideal (⟨2, ![65, 128]⟩ : Shape) .f32)

/-- Eight consecutive nodes' transposed weights, from node `s`: `[k, d, e] ↦ W[s + k, e, d]`. -/
def wtSlice (s : Nat) : FVec Ideal (⟨3, ![8, 128, 128]⟩ : Shape) .f32 := fun i => W (ix3 (nix (s + (i 0).val)) (i 2) (i 1))

/-- Eight consecutive nodes' biases, from node `s`. -/
def bSlice (s : Nat) : FVec Ideal (⟨2, ![8, 128]⟩ : Shape) .f32 := fun i => B (ix2 (nix (s + (i 0).val)) (i 1))

/-- A region whose parents are the nodes the table names, with the slices taken at the layer's first node, computes
    that layer. -/
theorem regionFn_layer (l : Nat) (hl : l < 8) (n : Fin 32 → Nat)
    (hn : ∀ (k : Fin 8) (j : Fin 4), n (p4 k j) = par (8 * l + 1 + k.val) j.val) :
    regionFn (fun w => nodeArr X W B (n w)) (wtSlice W (8 * l + 1)) (bSlice B (8 * l + 1)) = layerArr X W B l := by
  funext i
  have hk : (i 0).val < 8 := (i 0).isLt
  show regionAt _ _ _ (i 0) (i 1) (i 2) = node X W B (8 * l + 1 + (i 0).val) (i 1) (i 2)
  have e1 : 8 * l + 1 + (i 0).val = (8 * l + (i 0).val) + 1 := by omega
  rw [e1, node_succ X W B (8 * l + (i 0).val) (by omega)]
  unfold regionAt act
  have hsum : ∀ d : Fin 128,
      (((nodeArr X W B (n (p4 (i 0) 0)) (ix2 (i 1) d) + nodeArr X W B (n (p4 (i 0) 1)) (ix2 (i 1) d))
          + nodeArr X W B (n (p4 (i 0) 2)) (ix2 (i 1) d)) + nodeArr X W B (n (p4 (i 0) 3)) (ix2 (i 1) d))
        = ∑ j : Fin 4, node X W B (par (8 * l + (i 0).val + 1) j.val) (i 1) d := fun d => by
    rw [Fin.sum_univ_four, hn (i 0) 0, hn (i 0) 1, hn (i 0) 2, hn (i 0) 3, ← e1]
    rfl
  simp only [hsum, wtSlice, bSlice, ← e1]

end Cert.Spec

end
-- ==== Proof.KI.ChainIdx.lean ====
/-
  Index bookkeeping between the host operations of the program and the common function of `Cert.Spec`.

  The program hands a region its operands through layout operations only: a layer [8, 4096, 128] is cut into its eight
  slabs [1, 4096, 128], each viewed [4096, 128]; the weights are transposed on their last two axes once and cut into
  runs of eight matrices; the biases are cut into runs of eight rows. Read at an index, a slab of layer `l` viewed as a
  matrix is node `8 l + 1 + k`; a run of the transposed weights from `s` is `wtSlice W s`
  (`[k, d, e] ↦ W[s + k, e, d]`), a run of the biases from `s` is `bSlice B s`. The first region reads the runs of
  length one at 0, which is the form `node_zero` has.
-/
import proofs.«135270_j33062658245245_1_alg».proof.Proof.Spec
import proofs.«135270_j33062658245245_1_alg».proof.Proof.RegionFn
import Idealize.ShloMosaic.Lib.ValueIdx
import Idealize.ShloMosaic.Lib.Pipeline.Value
import Idealize.ShloMosaic.Lib.ValueLayout

noncomputable section

namespace Cert.Spec

open Idealize.ShloMosaic Idealize.ShloMosaic.ValueIdx

variable (X : FVec Ideal (⟨2, ![4096, 128]⟩ : Shape) .f32) (W : FVec Ideal (⟨3, ![65, 128, 128]⟩ : Shape) .f32)
  (B : FVec Ideal (⟨2, ![65, 128]⟩ : Shape) .f32)

/-- A node number below 65 is its own index into the weights and biases. -/
theorem nix_of_lt (n : Nat) (h : n < 65) : nix n = ⟨n, h⟩ := Fin.ext (Nat.mod_eq_of_lt h)

/-! ## A slab of a layer, viewed as a matrix, is a node -/

/-- Slab `k` of layer `l`, its unit axis dropped, is node `8 l + 1 + k`. -/
theorem slab_node (l k : Nat)
    (h₁ : (⟨3, ![8, 4096, 128]⟩ : Shape).Slices ![k, 0, 0] ⟨3, ![1, 4096, 128]⟩)
    (h₂ : (⟨3, ![1, 4096, 128]⟩ : Shape).ShapeCasts ⟨2, ![4096, 128]⟩) :
    shapeCast ⟨2, ![4096, 128]⟩ (extractStridedSlice ⟨3, ![1, 4096, 128]⟩ ![k, 0, 0] (layerArr X W B l) h₁) h₂
      = nodeArr X W B (8 * l + 1 + k) := by
  have hk1 : k + 1 ≤ 8 := h₁.2 0
  have hk : k < 8 := by omega
  funext i
  obtain ⟨a, b, rfl⟩ : ∃ a b, i = ix2 a b := ⟨i 0, i 1, eq_ix2 i⟩
  rw [shapeCast_1ab_ab_apply]
  refine (extractStridedSlice_apply _ _ h₁ _ (ix3 (⟨k, hk⟩ : Fin 8) a b) (fun ax => ?_)).trans rfl
  match ax with
  | ⟨0, _⟩ => rfl
  | ⟨1, _⟩ => exact (Nat.zero_add _).symm
  | ⟨2, _⟩ => exact (Nat.zero_add _).symm

/-- The first region's output [1, 4096, 128], its unit axis dropped, is node 0. -/
theorem node0_cast (h₂ : (⟨3, ![1, 4096, 128]⟩ : Shape).ShapeCasts ⟨2, ![4096, 128]⟩) :
    shapeCast ⟨2, ![4096, 128]⟩ (fun i : (⟨3, ![1, 4096, 128]⟩ : Shape).Idx => node X W B 0 (i 1) (i 2)) h₂
      = nodeArr X W B 0 := by
  funext i
  obtain ⟨a, b, rfl⟩ : ∃ a b, i = ix2 a b := ⟨i 0, i 1, eq_ix2 i⟩
  rw [shapeCast_1ab_ab_apply]
  rfl

/-! ## Runs of the transposed weights and of the biases -/

/-- A run of the transposed weights from `s`, read at `(k, d, e)`: `W[s + k, e, d]` (any length `n` of run). -/
theorem wt_run_apply (s n : Nat)
    (ht : (⟨3, ![65, 128, 128]⟩ : Shape).Transposes [0, 2, 1] ⟨3, ![65, 128, 128]⟩)
    (hs : (⟨3, ![65, 128, 128]⟩ : Shape).Slices ![s, 0, 0] ⟨3, ![n, 128, 128]⟩)
    (k : Fin n) (d e : Fin 128) :
    extractStridedSlice ⟨3, ![n, 128, 128]⟩ ![s, 0, 0] (transpose ⟨3, ![65, 128, 128]⟩ [0, 2, 1] W ht) hs (ix3 k d e)
      = W (ix3 (nix (s + k.val)) e d) := by
  have hsn : s + n ≤ 65 := hs.2 0
  have hlt : s + k.val < 65 := by have := k.isLt; omega
  refine (extractStridedSlice_apply _ _ hs _ (ix3 (⟨s + k.val, hlt⟩ : Fin 65) d e) (fun ax => ?_)).trans ?_
  · match ax with
    | ⟨0, _⟩ => rfl
    | ⟨1, _⟩ => exact (Nat.zero_add _).symm
    | ⟨2, _⟩ => exact (Nat.zero_add _).symm
  · rw [transpose_ix3_021_apply, nix_of_lt _ hlt]

/-- A run of the biases from `s`, read at `(k, e)`: `B[s + k, e]` (any length `n` of run). -/
theorem b_run_apply (s n : Nat) (hs : (⟨2, ![65, 128]⟩ : Shape).Slices ![s, 0] ⟨2, ![n, 128]⟩) (k : Fin n) (e : Fin 128) :
    extractStridedSlice ⟨2, ![n, 128]⟩ ![s, 0] B hs (ix2 k e) = B (ix2 (nix (s + k.val)) e) := by
  have hsn : s + n ≤ 65 := hs.2 0
  have hlt : s + k.val < 65 := by have := k.isLt; omega
  rw [slice2_axis0_apply s B hs k e (⟨s + k.val, hlt⟩ : Fin 65) rfl, nix_of_lt _ hlt]

/-- Eight transposed weight matrices from `s`: the slice a region reads. -/
theorem wt_slice (s : Nat)
    (ht : (⟨3, ![65, 128, 128]⟩ : Shape).Transposes [0, 2, 1] ⟨3, ![65, 128, 128]⟩)
    (hs : (⟨3, ![65, 128, 128]⟩ : Shape).Slices ![s, 0, 0] ⟨3, ![8, 128, 128]⟩) :
    extractStridedSlice ⟨3, ![8, 128, 128]⟩ ![s, 0, 0] (transpose ⟨3, ![65, 128, 128]⟩ [0, 2, 1] W ht) hs = wtSlice W s := by
  funext i
  obtain ⟨k, d, e, rfl⟩ : ∃ k d e, i = ix3 k d e := ⟨i 0, i 1, i 2, eq_ix3 i⟩
  rw [wt_run_apply W s 8 ht hs k d e]
  rfl

/-- Eight bias rows from `s`: the slice a region reads. -/
theorem b_slice (s : Nat) (hs : (⟨2, ![65, 128]⟩ : Shape).Slices ![s, 0] ⟨2, ![8, 128]⟩) :
    extractStridedSlice ⟨2, ![8, 128]⟩ ![s, 0] B hs = bSlice B s := by
  funext i
  obtain ⟨k, e, rfl⟩ : ∃ k e, i = ix2 k e := ⟨i 0, i 1, eq_ix2 i⟩
  rw [b_run_apply B s 8 hs k e]
  rfl

/-! ## The first region: the runs of length one at 0 -/

/-- The first transposed weight matrix, read at `(0, d, e)`: `W[0, e, d]`. -/
theorem wt0_apply
    (ht : (⟨3, ![65, 128, 128]⟩ : Shape).Transposes [0, 2, 1] ⟨3, ![65, 128, 128]⟩)
    (hs : (⟨3, ![65, 128, 128]⟩ : Shape).Slices ![0, 0, 0] ⟨3, ![1, 128, 128]⟩) (u : Fin 1) (d e : Fin 128) :
    extractStridedSlice ⟨3, ![1, 128, 128]⟩ ![0, 0, 0] (transpose ⟨3, ![65, 128, 128]⟩ [0, 2, 1] W ht) hs (ix3 u d e)
      = W (ix3 (nix 0) e d) := by
  rw [wt_run_apply W 0 1 ht hs u d e]
  have hu : u.val = 0 := by have := u.isLt; omega
  rw [hu]

/-- The first bias row, read at `(0, e)`: `B[0, e]`. -/
theorem b0_apply (hs : (⟨2, ![65, 128]⟩ : Shape).Slices ![0, 0] ⟨2, ![1, 128]⟩) (u : Fin 1) (e : Fin 128) :
    extractStridedSlice ⟨2, ![1, 128]⟩ ![0, 0] B hs (ix2 u e) = B (ix2 (nix 0) e) := by
  rw [b_run_apply B 0 1 hs u e]
  have hu : u.val = 0 := by have := u.isLt; omega
  rw [hu]

/-- The first region's value — the input block times the first transposed weight matrix, plus the first bias row,
    clipped below at zero — is node 0, over any arrays that read as the first weight matrix transposed and the first
    bias row. -/
theorem region0_node (Wt0 : FVec Ideal (⟨3, ![1, 128, 128]⟩ : Shape) .f32) (B0 : FVec Ideal (⟨2, ![1, 128]⟩ : Shape) .f32)
    (hW : ∀ (u : Fin 1) (d e : Fin 128), Wt0 (ix3 u d e) = W (ix3 (nix 0) e d))
    (hB : ∀ (u : Fin 1) (e : Fin 128), B0 (ix2 u e) = B (ix2 (nix 0) e)) :
    (fun i : (⟨3, ![1, 4096, 128]⟩ : Shape).Idx =>
        max ((∑ d : Fin 128, X (ix2 (i 1) d) * Wt0 (ix3 0 d (i 2))) + B0 (ix2 0 (i 2))) (Ideal.ofBits .f32 0x00000000#32))
      = fun i => node X W B 0 (i 1) (i 2) := by
  funext i
  rw [node_zero]
  unfold act
  have h1 : ∀ d : Fin 128, Wt0 (ix3 0 d (i 2)) = W (ix3 (nix 0) (i 2) d) := fun d => hW 0 d (i 2)
  have h2 : B0 (ix2 0 (i 2)) = B (ix2 (nix 0) (i 2)) := hB 0 (i 2)
  simp only [h1, h2]

/-! ## The windows of a region, and a region as a layer -/

/-- The node that window `w` of the region computing layer `l` reads: parent `w % 4` of node `8 l + 1 + w / 4`. (Over
    the window's number as a natural, so that an entry of a table of windows is a closed equation of naturals.) -/
def nOf (l w : Nat) : Nat := par (8 * l + 1 + w / 4) (w % 4)

/-- Window `4 k + j` reads parent `j` of the layer's node `k`. -/
theorem nOf_p4 (l : Nat) (k : Fin 8) (j : Fin 4) : nOf l (p4 k j).val = par (8 * l + 1 + k.val) j.val := by
  have hk := k.isLt
  have hj := j.isLt
  have h1 : (4 * k.val + j.val) / 4 = k.val := by omega
  have h2 : (4 * k.val + j.val) % 4 = j.val := by omega
  show par (8 * l + 1 + (4 * k.val + j.val) / 4) ((4 * k.val + j.val) % 4) = _
  rw [h1, h2]

/-- A region whose 32 parent arrays are the nodes the table names, and whose weight and bias arrays are the layer's
    slices, computes the layer. -/
theorem layer_of_operands (l : Nat) (hl : l < 8) (P : Fin 32 → FVec Ideal (⟨2, ![4096, 128]⟩ : Shape) .f32)
    (Wt : FVec Ideal (⟨3, ![8, 128, 128]⟩ : Shape) .f32) (Bs : FVec Ideal (⟨2, ![8, 128]⟩ : Shape) .f32)
    (hP : ∀ w : Fin 32, P w = nodeArr X W B (nOf l w.val)) (hW : Wt = wtSlice W (8 * l + 1)) (hB : Bs = bSlice B (8 * l + 1)) :
    regionFn P Wt Bs = layerArr X W B l := by
  have hP' : P = fun w => nodeArr X W B (nOf l w.val) := funext hP
  rw [hP', hW, hB]
  exact regionFn_layer X W B l hl (fun w => nOf l w.val) (nOf_p4 l)

/-- Slab `k` of an array known to be layer `l`, its unit axis dropped, is the node numbered `8 l + 1 + k`; the number is
    given apart (`hn`), so that a table entry can name it in any closed form. -/
theorem slab_of_layer (A : FVec Ideal (⟨3, ![8, 4096, 128]⟩ : Shape) .f32) (l : Nat) (hA : A = layerArr X W B l) (k : Nat)
    (h₁ : (⟨3, ![8, 4096, 128]⟩ : Shape).Slices ![k, 0, 0] ⟨3, ![1, 4096, 128]⟩)
    (h₂ : (⟨3, ![1, 4096, 128]⟩ : Shape).ShapeCasts ⟨2, ![4096, 128]⟩) (n : Nat) (hn : 8 * l + 1 + k = n) :
    shapeCast ⟨2, ![4096, 128]⟩ (extractStridedSlice ⟨3, ![1, 4096, 128]⟩ ![k, 0, 0] A h₁) h₂ = nodeArr X W B n := by
  subst hA
  subst hn
  exact slab_node X W B l k h₁ h₂

/-- An array [1, 4096, 128] known to be node 0, its unit axis dropped, is node 0 (the number given apart as above). -/
theorem node0_of (A : FVec Ideal (⟨3, ![1, 4096, 128]⟩ : Shape) .f32) (hA : A = fun i => node X W B 0 (i 1) (i 2))
    (h₂ : (⟨3, ![1, 4096, 128]⟩ : Shape).ShapeCasts ⟨2, ![4096, 128]⟩) (n : Nat) (hn : 0 = n) :
    shapeCast ⟨2, ![4096, 128]⟩ A h₂ = nodeArr X W B n := by
  subst hA
  subst hn
  exact node0_cast X W B h₂

end Cert.Spec

end
-- ==== Proof.KI.ChainPre.lean ====
/-
  The kernel's value through the layers of the graph: the argument arrays, and node 0.

  Between the items of @main the buffers hold closed contents `W1 … W19` of the launch memory. Read at the output array
  of the first pallas_call they hold node 0 of the common function over the three argument arrays as launched: the
  region's output is the input block times its second operand plus its third, clipped below at zero; the second and
  third operands are the runs of length one at 0 of the transposed weights and of the biases, which read `W[0, e, d]`
  and `B[0, e]`.
-/
import proofs.«135270_j33062658245245_1_alg».proof.Proof.KI.Outs
import proofs.«135270_j33062658245245_1_alg».proof.Proof.KI.Host
import proofs.«135270_j33062658245245_1_alg».proof.Proof.KI.RegVal0
import proofs.«135270_j33062658245245_1_alg».proof.Proof.KI.ChainIdx

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- The input batch as launched. -/
abbrev argX (c : Dev nD) : FVec Ideal S4096x128 .f32 := m ((c : Thread nD τ).loc main_arg0)
/-- The weights as launched. -/
abbrev argW (c : Dev nD) : FVec Ideal S65x128x128 .f32 := m ((c : Thread nD τ).loc main_arg1)
/-- The biases as launched. -/
abbrev argB (c : Dev nD) : FVec Ideal S65x128 .f32 := m ((c : Thread nD τ).loc main_arg2)

/-- What the first pallas_call leaves in its output array is node 0. -/
theorem chain0 (c : Dev nD) :
    (W2 m c main_v3 : FVec Ideal S1x4096x128 .f32) = fun i => node (argX m c) (argW m c) (argB m c) 0 (i 1) (i 2) := by
  rw [W2_out m c, regval0 (rd (W1 m)) c]
  have h0 : (W1 m c (Pipeline.arrRef spec0 0) : FVec Ideal S4096x128 .f32) = argX m c := V1_arg0 m c
  have h1 : (W1 m c (Pipeline.arrRef spec0 1) : FVec Ideal S1x128x128 .f32)
      = extractStridedSlice S1x128x128 ![0, 0, 0] (transpose S65x128x128 [0, 2, 1] (argW m c) transposes_S65x128x128_S65x128x128_0_2_1)
          slices_S65x128x128_S1x128x128_0_0_0 := V1_v1 m c
  have h2 : (W1 m c (Pipeline.arrRef spec0 2) : FVec Ideal S1x128 .f32)
      = extractStridedSlice S1x128 ![0, 0] (argB m c) slices_S65x128_S1x128_0_0 := V1_v2 m c
  show region0Fn (W1 m c (Pipeline.arrRef spec0 0)) (W1 m c (Pipeline.arrRef spec0 1)) (W1 m c (Pipeline.arrRef spec0 2)) = _
  rw [h0, h1, h2]
  exact region0_node (argX m c) (argW m c) (argB m c) _ _
    (fun u d e => wt0_apply (argW m c) _ _ u d e) (fun u e => b0_apply (argB m c) _ u e)

/-- Node 0 as the later regions read it: the first output array with its unit axis dropped (`n` names the node in
    any closed form, `hn` says it is 0). -/
theorem node0L (c : Dev nD) (h₂ : S1x4096x128.ShapeCasts S4096x128) (n : Nat) (hn : 0 = n) :
    shapeCast S4096x128 (outsH m 2 main_v3 c) h₂ = nodeArr (argX m c) (argW m c) (argB m c) n :=
  node0_of (argX m c) (argW m c) (argB m c) (outsH m 2 main_v3 c) (chain0 m c) h₂ n hn

end Cert.KernelIdeal.Hand

end
-- ==== Proof.KI.Pay1.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay1_slab0 :
    k1_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay1_slab1 :
    k1_pay3 (F := Ideal) (k1_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay1_slab2 :
    k1_pay7 (F := Ideal) (k1_pay4 p0 p1 p2 p3) (k1_pay5 wk) (k1_pay6 bk) (ix3 0 r e) = slabVal p0 p1 p2 p3 wk bk r e :=
  slabFn_sum4_apply p0 p1 p2 p3 wk bk r e

/-- Slab 3: as slab 0. -/
theorem pay1_slab3 :
    k1_pay8 (F := Ideal) p0 p1 p2 p3 wk bk (ix3 0 r e) = slabVal p0 p1 p2 p3 wk bk r e :=
  slabFn_sum4_apply p0 p1 p2 p3 wk bk r e

/-- Slab 4: as slab 0. -/
theorem pay1_slab4 :
    k1_pay9 (F := Ideal) p0 p1 p2 p3 wk bk (ix3 0 r e) = slabVal p0 p1 p2 p3 wk bk r e :=
  slabFn_sum4_apply p0 p1 p2 p3 wk bk r e

/-- Slab 5: as slab 1. -/
theorem pay1_slab5 :
    k1_pay11 (F := Ideal) (k1_pay10 p0 p1 p2) p3 wk bk (ix3 0 r e) = slabVal p0 p1 p2 p3 wk bk r e :=
  slabFn_sum4_apply p0 p1 p2 p3 wk bk r e

/-- Slab 6: as slab 2. -/
theorem pay1_slab6 :
    k1_pay15 (F := Ideal) (k1_pay12 p0 p1 p2 p3) (k1_pay13 wk) (k1_pay14 bk) (ix3 0 r e) = slabVal p0 p1 p2 p3 wk bk r e :=
  slabFn_sum4_apply p0 p1 p2 p3 wk bk r e

/-- Slab 7: as slab 0. -/
theorem pay1_slab7 :
    k1_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal1.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R1
import proofs.«135270_j33062658245245_1_alg».proof.Proof.KI.Pay1
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab1_0_apply (x : S1x512x128.Idx) (i : S8x4096x128.Idx) (h0 : (i 0).val = 0)
    (h1 : (i 1).val = q * 512 + (x 1).val) (h2 : (i 2).val = (x 2).val) :
    slab1_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_0
  simp only [View.ld_unit_zero (S := S512x128) hz2]
  refine (pay1_slab0 (p 0) (p 1) (p 2) (p 3) (View.ld Wt r1_w0) (View.ld Bs r1_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab1_1_apply (x : S1x512x128.Idx) (i : S8x4096x128.Idx) (h0 : (i 0).val = 1)
    (h1 : (i 1).val = q * 512 + (x 1).val) (h2 : (i 2).val = (x 2).val) :
    slab1_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_1
  simp only [View.ld_unit_zero (S := S512x128) hz2]
  refine (pay1_slab1 (p 4) (p 5) (p 6) (p 7) (View.ld Wt r1_w1) (View.ld Bs r1_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab1_2_apply (x : S1x512x128.Idx) (i : S8x4096x128.Idx) (h0 : (i 0).val = 2)
    (h1 : (i 1).val = q * 512 + (x 1).val) (h2 : (i 2).val = (x 2).val) :
    slab1_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_2
  simp only [View.ld_unit_zero (S := S512x128) hz2]
  refine (pay1_slab2 (p 8) (p 9) (p 10) (p 11) (View.ld Wt r1_w2) (View.ld Bs r1_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab1_3_apply (x : S1x512x128.Idx) (i : S8x4096x128.Idx) (h0 : (i 0).val = 3)
    (h1 : (i 1).val = q * 512 + (x 1).val) (h2 : (i 2).val = (x 2).val) :
    slab1_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_3
  simp only [View.ld_unit_zero (S := S512x128) hz2]
  refine (pay1_slab3 (p 12) (p 13) (p 14) (p 15) (View.ld Wt r1_w3) (View.ld Bs r1_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab1_4_apply (x : S1x512x128.Idx) (i : S8x4096x128.Idx) (h0 : (i 0).val = 4)
    (h1 : (i 1).val = q * 512 + (x 1).val) (h2 : (i 2).val = (x 2).val) :
    slab1_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_4
  simp only [View.ld_unit_zero (S := S512x128) hz2]
  refine (pay1_slab4 (p 16) (p 17) (p 18) (p 19) (View.ld Wt r1_w4) (View.ld Bs r1_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab1_5_apply (x : S1x512x128.Idx) (i : S8x4096x128.Idx) (h0 : (i 0).val = 5)
    (h1 : (i 1).val = q * 512 + (x 1).val) (h2 : (i 2).val = (x 2).val) :
    slab1_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_5
  simp only [View.ld_unit_zero (S := S512x128) hz2]
  refine (pay1_slab5 (p 20) (p 21) (p 22) (p 23) (View.ld Wt r1_w5) (View.ld Bs r1_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab1_6_apply (x : S1x512x128.Idx) (i : S8x4096x128.Idx) (h0 : (i 0).val = 6)
    (h1 : (i 1).val = q * 512 + (x 1).val) (h2 : (i 2).val = (x 2).val) :
    slab1_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_6
  simp only [View.ld_unit_zero (S := S512x128) hz2]
  refine (pay1_slab6 (p 24) (p 25) (p 26) (p 27) (View.ld Wt r1_w6) (View.ld Bs r1_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab1_7_apply (x : S1x512x128.Idx) (i : S8x4096x128.Idx) (h0 : (i 0).val = 7)
    (h1 : (i 1).val = q * 512 + (x 1).val) (h2 : (i 2).val = (x 2).val) :
    slab1_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab1_7
  simp only [View.ld_unit_zero (S := S512x128) hz2]
  refine (pay1_slab7 (p 28) (p 29) (p 30) (p 31) (View.ld Wt r1_w7) (View.ld Bs r1_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out1_34_apply (hq : q < 8) (y : S8x512x128.Idx) :
    out1_34 (F := Ideal) p Wt Bs y = regionFn P Wt Bs (rowsOf q hq y) := by
  unfold out1_34
  refine View.canon_apply_of_pieces (fun y' => regionFn P Wt Bs (rowsOf q hq y')) _ ?_ y
    (cover1_34 (F := Ideal) _ _ _ _ _ _ _ _ y)
  intro pc hpc
  rcases List.mem_cons.mp hpc with rfl | hpc
  · exact fun x => slab1_7_apply P Wt Bs p q hp x (rowsOf q hq (r1_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_6_apply P Wt Bs p q hp x (rowsOf q hq (r1_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_5_apply P Wt Bs p q hp x (rowsOf q hq (r1_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_4_apply P Wt Bs p q hp x (rowsOf q hq (r1_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_3_apply P Wt Bs p q hp x (rowsOf q hq (r1_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_2_apply P Wt Bs p q hp x (rowsOf q hq (r1_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_1_apply P Wt Bs p q hp x (rowsOf q hq (r1_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab1_0_apply P Wt Bs p q hp x (rowsOf q hq (r1_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx1_par : ∀ w : Fin 35, w.val < 32 → ∀ (t : Fin cfg1.N) (a : Fin (win1 w).shape.rank),
    (win1 w).index t a = if a.val = 0 then t.val else 0 :=
  (by decide +kernel : ∀ w : Fin 35, w.val < 32 → ∀ (t : Fin grid1.N) (a : Fin (win1 w).shape.rank),
    (win1 w).index t a = if a.val = 0 then t.val else 0)

/-- the weight slice's and the bias slice's never move, and the output's row block moves with the point. -/
theorem idx1_rest : ∀ t : Fin cfg1.N, win1_32.index t (0 : Fin 3) = 0 ∧ win1_32.index t (1 : Fin 3) = 0
    ∧ win1_32.index t (2 : Fin 3) = 0 ∧ win1_33.index t (0 : Fin 2) = 0 ∧ win1_33.index t (1 : Fin 2) = 0
    ∧ win1_34.index t (0 : Fin 3) = 0 ∧ win1_34.index t (1 : Fin 3) = t.val ∧ win1_34.index t (2 : Fin 3) = 0 :=
  (by decide +kernel : ∀ t : Fin grid1.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr1 (c : Dev nD) : Fin 32 → FVec Ideal S4096x128 .f32 := fun j => match j with
    | ⟨0, _⟩ => V c (Pipeline.arrRef spec1 0)
    | ⟨1, _⟩ => V c (Pipeline.arrRef spec1 1)
    | ⟨2, _⟩ => V c (Pipeline.arrRef spec1 2)
    | ⟨3, _⟩ => V c (Pipeline.arrRef spec1 3)
    | ⟨4, _⟩ => V c (Pipeline.arrRef spec1 4)
    | ⟨5, _⟩ => V c (Pipeline.arrRef spec1 5)
    | ⟨6, _⟩ => V c (Pipeline.arrRef spec1 6)
    | ⟨7, _⟩ => V c (Pipeline.arrRef spec1 7)
    | ⟨8, _⟩ => V c (Pipeline.arrRef spec1 8)
    | ⟨9, _⟩ => V c (Pipeline.arrRef spec1 9)
    | ⟨10, _⟩ => V c (Pipeline.arrRef spec1 10)
    | ⟨11, _⟩ => V c (Pipeline.arrRef spec1 11)
    | ⟨12, _⟩ => V c (Pipeline.arrRef spec1 12)
    | ⟨13, _⟩ => V c (Pipeline.arrRef spec1 13)
    | ⟨14, _⟩ => V c (Pipeline.arrRef spec1 14)
    | ⟨15, _⟩ => V c (Pipeline.arrRef spec1 15)
    | ⟨16, _⟩ => V c (Pipeline.arrRef spec1 16)
    | ⟨17, _⟩ => V c (Pipeline.arrRef spec1 17)
    | ⟨18, _⟩ => V c (Pipeline.arrRef spec1 18)
    | ⟨19, _⟩ => V c (Pipeline.arrRef spec1 19)
    | ⟨20, _⟩ => V c (Pipeline.arrRef spec1 20)
    | ⟨21, _⟩ => V c (Pipeline.arrRef spec1 21)
    | ⟨22, _⟩ => V c (Pipeline.arrRef spec1 22)
    | ⟨23, _⟩ => V c (Pipeline.arrRef spec1 23)
    | ⟨24, _⟩ => V c (Pipeline.arrRef spec1 24)
    | ⟨25, _⟩ => V c (Pipeline.arrRef spec1 25)
    | ⟨26, _⟩ => V c (Pipeline.arrRef spec1 26)
    | ⟨27, _⟩ => V c (Pipeline.arrRef spec1 27)
    | ⟨28, _⟩ => V c (Pipeline.arrRef spec1 28)
    | ⟨29, _⟩ => V c (Pipeline.arrRef spec1 29)
    | ⟨30, _⟩ => V c (Pipeline.arrRef spec1 30)
    | ⟨31, _⟩ => V c (Pipeline.arrRef spec1 31)
    | ⟨_ + 32, h⟩ => absurd h (Nat.not_lt.2 (Nat.le_add_left _ _))

/-- The family at a literal index. -/
theorem parArr1_0 (c : Dev nD) : parArr1 V c 0 = V c (Pipeline.arrRef spec1 0) := by dsimp only [parArr1]
theorem parArr1_1 (c : Dev nD) : parArr1 V c 1 = V c (Pipeline.arrRef spec1 1) := by dsimp only [parArr1]
theorem parArr1_2 (c : Dev nD) : parArr1 V c 2 = V c (Pipeline.arrRef spec1 2) := by dsimp only [parArr1]
theorem parArr1_3 (c : Dev nD) : parArr1 V c 3 = V c (Pipeline.arrRef spec1 3) := by dsimp only [parArr1]
theorem parArr1_4 (c : Dev nD) : parArr1 V c 4 = V c (Pipeline.arrRef spec1 4) := by dsimp only [parArr1]
theorem parArr1_5 (c : Dev nD) : parArr1 V c 5 = V c (Pipeline.arrRef spec1 5) := by dsimp only [parArr1]
theorem parArr1_6 (c : Dev nD) : parArr1 V c 6 = V c (Pipeline.arrRef spec1 6) := by dsimp only [parArr1]
theorem parArr1_7 (c : Dev nD) : parArr1 V c 7 = V c (Pipeline.arrRef spec1 7) := by dsimp only [parArr1]
theorem parArr1_8 (c : Dev nD) : parArr1 V c 8 = V c (Pipeline.arrRef spec1 8) := by dsimp only [parArr1]
theorem parArr1_9 (c : Dev nD) : parArr1 V c 9 = V c (Pipeline.arrRef spec1 9) := by dsimp only [parArr1]
theorem parArr1_10 (c : Dev nD) : parArr1 V c 10 = V c (Pipeline.arrRef spec1 10) := by dsimp only [parArr1]
theorem parArr1_11 (c : Dev nD) : parArr1 V c 11 = V c (Pipeline.arrRef spec1 11) := by dsimp only [parArr1]
theorem parArr1_12 (c : Dev nD) : parArr1 V c 12 = V c (Pipeline.arrRef spec1 12) := by dsimp only [parArr1]
theorem parArr1_13 (c : Dev nD) : parArr1 V c 13 = V c (Pipeline.arrRef spec1 13) := by dsimp only [parArr1]
theorem parArr1_14 (c : Dev nD) : parArr1 V c 14 = V c (Pipeline.arrRef spec1 14) := by dsimp only [parArr1]
theorem parArr1_15 (c : Dev nD) : parArr1 V c 15 = V c (Pipeline.arrRef spec1 15) := by dsimp only [parArr1]
theorem parArr1_16 (c : Dev nD) : parArr1 V c 16 = V c (Pipeline.arrRef spec1 16) := by dsimp only [parArr1]
theorem parArr1_17 (c : Dev nD) : parArr1 V c 17 = V c (Pipeline.arrRef spec1 17) := by dsimp only [parArr1]
theorem parArr1_18 (c : Dev nD) : parArr1 V c 18 = V c (Pipeline.arrRef spec1 18) := by dsimp only [parArr1]
theorem parArr1_19 (c : Dev nD) : parArr1 V c 19 = V c (Pipeline.arrRef spec1 19) := by dsimp only [parArr1]
theorem parArr1_20 (c : Dev nD) : parArr1 V c 20 = V c (Pipeline.arrRef spec1 20) := by dsimp only [parArr1]
theorem parArr1_21 (c : Dev nD) : parArr1 V c 21 = V c (Pipeline.arrRef spec1 21) := by dsimp only [parArr1]
theorem parArr1_22 (c : Dev nD) : parArr1 V c 22 = V c (Pipeline.arrRef spec1 22) := by dsimp only [parArr1]
theorem parArr1_23 (c : Dev nD) : parArr1 V c 23 = V c (Pipeline.arrRef spec1 23) := by dsimp only [parArr1]
theorem parArr1_24 (c : Dev nD) : parArr1 V c 24 = V c (Pipeline.arrRef spec1 24) := by dsimp only [parArr1]
theorem parArr1_25 (c : Dev nD) : parArr1 V c 25 = V c (Pipeline.arrRef spec1 25) := by dsimp only [parArr1]
theorem parArr1_26 (c : Dev nD) : parArr1 V c 26 = V c (Pipeline.arrRef spec1 26) := by dsimp only [parArr1]
theorem parArr1_27 (c : Dev nD) : parArr1 V c 27 = V c (Pipeline.arrRef spec1 27) := by dsimp only [parArr1]
theorem parArr1_28 (c : Dev nD) : parArr1 V c 28 = V c (Pipeline.arrRef spec1 28) := by dsimp only [parArr1]
theorem parArr1_29 (c : Dev nD) : parArr1 V c 29 = V c (Pipeline.arrRef spec1 29) := by dsimp only [parArr1]
theorem parArr1_30 (c : Dev nD) : parArr1 V c 30 = V c (Pipeline.arrRef spec1 30) := by dsimp only [parArr1]
theorem parArr1_31 (c : Dev nD) : parArr1 V c 31 = V c (Pipeline.arrRef spec1 31) := by dsimp only [parArr1]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par1_apply (c : Dev nD) (t : Fin cfg1.N) (j : Fin 32) (r : Fin 512) (d : Fin 128) (r' : Fin 4096)
    (hr : r'.val = t.val * 512 + r.val) : par1 V c t j (ix2 r d) = parArr1 V c j (ix2 r' d) := by
  match j with
  | ⟨0, _⟩ =>
    show (V c (Pipeline.arrRef spec1 0) : FVec Ideal S4096x128 .f32) (((win1 0).rect t).emb (ix2 r d)) = (V c (Pipeline.arrRef spec1 0) : FVec Ideal S4096x128 .f32) (ix2 r' d)
    exact rows_apply _ _ _ t.val
      (by show (win1 0).index t (0 : Fin 2) * 512 = t.val * 512; rw [idx1_par 0 (by decide) t (0 : Fin 2)]; rfl)
      (by show (win1 0).index t (1 : Fin 2) * 128 = 0; rw [idx1_par 0 (by decide) t (1 : Fin 2)]; rfl) r d r' hr
  | ⟨1, _⟩ =>
    show (V c (Pipeline.arrRef spec1 1) : FVec Ideal S4096x128 .f32) (((win1 1).rect t).emb (ix2 r d)) = (V c (Pipeline.arrRef spec1 1) : FVec Ideal S4096x128 .f32) (ix2 r' d)
    exact rows_apply _ _ _ t.val
      (by show (win1 1).index t (0 : Fin 2) * 512 = t.val * 512; rw [idx1_par 1 (by decide) t (0 : Fin 2)]; rfl)
      (by show (win1 1).index t (1 : Fin 2) * 128 = 0; rw [idx1_par 1 (by decide) t (1 : Fin 2)]; rfl) r d r' hr
  | ⟨2, _⟩ =>
    show (V c (Pipeline.arrRef spec1 2) : FVec Ideal S4096x128 .f32) (((win1 2).rect t).emb (ix2 r d)) = (V c (Pipeline.arrRef spec1 2) : FVec Ideal S4096x128 .f32) (ix2 r' d)
    exact rows_apply _ _ _ t.val
      (by show (win1 2).index t (0 : Fin 2) * 512 = t.val * 512; rw [idx1_par 2 (by decide) t (0 : Fin 2)]; rfl)
      (by show (win1 2).index t (1 : Fin 2) * 128 = 0; rw [idx1_par 2 (by decide) t (1 : Fin 2)]; rfl) r d r' hr
  | ⟨3, _⟩ =>
    show (V c (Pipeline.arrRef spec1 3) : FVec Ideal S4096x128 .f32) (((win1 3).rect t).emb (ix2 r d)) = (V c (Pipeline.arrRef spec1 3) : FVec Ideal S4096x128 .f32) (ix2 r' d)
    exact rows_apply _ _ _ t.val
      (by show (win1 3).index t (0 : Fin 2) * 512 = t.val * 512; rw [idx1_par 3 (by decide) t (0 : Fin 2)]; rfl)
      (by show (win1 3).index t (1 : Fin 2) * 128 = 0; rw [idx1_par 3 (by decide) t (1 : Fin 2)]; rfl) r d r' hr
  | ⟨4, _⟩ =>
    show (V c (Pipeline.arrRef spec1 4) : FVec Ideal S4096x128 .f32) (((win1 4).rect t).emb (ix2 r d)) = (V c (Pipeline.arrRef spec1 4) : FVec Ideal S4096x128 .f32) (ix2 r' d)
    exact rows_apply _ _ _ t.val
      (by show (win1 4).index t (0 : Fin 2) * 512 = t.val * 512; rw [idx1_par 4 (by decide) t (0 : Fin 2)]; rfl)
      (by show (win1 4).index t (1 : Fin 2) * 128 = 0; rw [idx1_par 4 (by decide) t (1 : Fin 2)]; rfl) r d r' hr
  | ⟨5, _⟩ =>
    show (V c (Pipeline.arrRef spec1 5) : FVec Ideal S4096x128 .f32) (((win1 5).rect t).emb (ix2 r d)) = (V c (Pipeline.arrRef spec1 5) : FVec Ideal S4096x128 .f32) (ix2 r' d)
    exact rows_apply _ _ _ t.val
      (by show (win1 5).index t (0 : Fin 2) * 512 = t.val * 512; rw [idx1_par 5 (by decide) t (0 : Fin 2)]; rfl)
      (by show (win1 5).index t (1 : Fin 2) * 128 = 0; rw [idx1_par 5 (by decide) t (1 : Fin 2)]; rfl) r d r' hr
  | ⟨6, _⟩ =>
    show (V c (Pipeline.arrRef spec1 6) : FVec Ideal S4096x128 .f32) (((win1 6).rect t).emb (ix2 r d)) = (V c (Pipeline.arrRef spec1 6) : FVec Ideal S4096x128 .f32) (ix2 r' d)
    exact rows_apply _ _ _ t.val
      (by show (win1 6).index t (0 : Fin 2) * 512 = t.val * 512; rw [idx1_par 6 (by decide) t (0 : Fin 2)]; rfl)
      (by show (win1 6).index t (1 : Fin 2) * 128 = 0; rw [idx1_par 6 (by decide) t (1 : Fin 2)]; rfl) r d r' hr
  | ⟨7, _⟩ =>
    show (V c (Pipeline.arrRef spec1 7) : FVec Ideal S4096x128 .f32) (((win1 7).rect t).emb (ix2 r d)) = (V c (Pipeline.arrRef spec1 7) : FVec Ideal S4096x128 .f32) (ix2 r' d)
    exact rows_apply _ _ _ t.val
      (by show (win1 7).index t (0 : Fin 2) * 512 = t.val * 512; rw [idx1_par 7 (by decide) t (0 : Fin 2)]; rfl)
      (by show (win1 7).index t (1 : Fin 2) * 128 = 0; rw [idx1_par 7 (by decide) t (1 : Fin 2)]; rfl) r d r' hr
  | ⟨8, _⟩ =>
    show (V c (Pipeline.arrRef spec1 8) : FVec Ideal S4096x128 .f32) (((win1 8).rect t).emb (ix2 r d)) = (V c (Pipeline.arrRef spec1 8) : FVec Ideal S4096x128 .f32) (ix2 r' d)
    exact rows_apply _ _ _ t.val
      (by show (win1 8).index t (0 : Fin 2) * 512 = t.val * 512; rw [idx1_par 8 (by decide) t (0 : Fin 2)]; rfl)
      (by show (win1 8).index t (1 : Fin 2) * 128 = 0; rw [idx1_par 8 (by decide) t (1 : Fin 2)]; rfl) r d r' hr
  | ⟨9, _⟩ =>
    show (V c (Pipeline.arrRef spec1 9) : FVec Ideal S4096x128 .f32) (((win1 9).rect t).emb (ix2 r d)) = (V c (Pipeline.arrRef spec1 9) : FVec Ideal S4096x128 .f32) (ix2 r' d)
    exact rows_apply _ _ _ t.val
      (by show (win1 9).index t (0 : Fin 2) * 512 = t.val * 512; rw [idx1_par 9 (by decide) t (0 : Fin 2)]; rfl)
      (by show (win1 9).index t (1 : Fin 2) * 128 = 0; rw [idx1_par 9 (by decide) t (1 : Fin 2)]; rfl) r d r' hr
  | ⟨10, _⟩ =>
    show (V c (Pipeline.arrRef spec1 10) : FVec Ideal S4096x128 .f32) (((win1 10).rect t).emb (ix2 r d)) = (V c (Pipeline.arrRef spec1 10) : FVec Ideal S4096x128 .f32) (ix2 r' d)
    exact rows_apply _ _ _ t.val
      (by show (win1 10).index t (0 : Fin 2) * 512 = t.val * 512; rw [idx1_par 10 (by decide) t (0 : Fin 2)]; rfl)
      (by show (win1 10).index t (1 : Fin 2) * 128 = 0; rw [idx1_par 10 (by decide) t (1 : Fin 2)]; rfl) r d r' hr
  | ⟨11, _⟩ =>
    show (V c (Pipeline.arrRef spec1 11) : FVec Ideal S4096x128 .f32) (((win1 11).rect t).emb (ix2 r d)) = (V c (Pipeline.arrRef spec1 11) : FVec Ideal S4096x128 .f32) (ix2 r' d)
    exact rows_apply _ _ _ t.val
      (by show (win1 11).index t (0 : Fin 2) * 512 = t.val * 512; rw [idx1_par 11 (by decide) t (0 : Fin 2)]; rfl)
      (by show (win1 11).index t (1 : Fin 2) * 128 = 0; rw [idx1_par 11 (by decide) t (1 : Fin 2)]; rfl) r d r' hr
  | ⟨12, _⟩ =>
    show (V c (Pipeline.arrRef spec1 12) : FVec Ideal S4096x128 .f32) (((win1 12).rect t).emb (ix2 r d)) = (V c (Pipeline.arrRef spec1 12) : FVec Ideal S4096x128 .f32) (ix2 r' d)
    exact rows_apply _ _ _ t.val
      (by show (win1 12).index t (0 : Fin 2) * 512 = t.val * 512; rw [idx1_par 12 (by decide) t (0 : Fin 2)]; rfl)
      (by show (win1 12).index t (1 : Fin 2) * 128 = 0; rw [idx1_par 12 (by decide) t (1 : Fin 2)]; rfl) r d r' hr
  | ⟨13, _⟩ =>
    show (V c (Pipeline.arrRef spec1 13) : FVec Ideal S4096x128 .f32) (((win1 13).rect t).emb (ix2 r d)) = (V c (Pipeline.arrRef spec1 13) : FVec Ideal S4096x128 .f32) (ix2 r' d)
    exact rows_apply _ _ _ t.val
      (by show (win1 13).index t (0 : Fin 2) * 512 = t.val * 512; rw [idx1_par 13 (by decide) t (0 : Fin 2)]; rfl)
      (by show (win1 13).index t (1 : Fin 2) * 128 = 0; rw [idx1_par 13 (by decide) t (1 : Fin 2)]; rfl) r d r' hr
  | ⟨14, _⟩ =>
    show (V c (Pipeline.arrRef spec1 14) : FVec Ideal S4096x128 .f32) (((win1 14).rect t).emb (ix2 r d)) = (V c (Pipeline.arrRef spec1 14) : FVec Ideal S4096x128 .f32) (ix2 r' d)
    exact rows_apply _ _ _ t.val
      (by show (win1 14).index t (0 : Fin 2) * 512 = t.val * 512; rw [idx1_par 14 (by decide) t (0 : Fin 2)]; rfl)
      (by show (win1 14).index t (1 : Fin 2) * 128 = 0; rw [idx1_par 14 (by decide) t (1 : Fin 2)]; rfl) r d r' hr
  | ⟨15, _⟩ =>
    show (V c (Pipeline.arrRef spec1 15) : FVec Ideal S4096x128 .f32) (((win1 15).rect t).emb (ix2 r d)) = (V c (Pipeline.arrRef spec1 15) : FVec Ideal S4096x128 .f32) (ix2 r' d)
    exact rows_apply _ _ _ t.val
      (by show (win1 15).index t (0 : Fin 2) * 512 = t.val * 512; rw [idx1_par 15 (by decide) t (0 : Fin 2)]; rfl)
      (by show (win1 15).index t (1 : Fin 2) * 128 = 0; rw [idx1_par 15 (by decide) t (1 : Fin 2)]; rfl) r d r' hr
  | ⟨16, _⟩ =>
    show (V c (Pipeline.arrRef spec1 16) : FVec Ideal S4096x128 .f32) (((win1 16).rect t).emb (ix2 r d)) = (V c (Pipeline.arrRef spec1 16) : FVec Ideal S4096x128 .f32) (ix2 r' d)
    exact rows_apply _ _ _ t.val
      (by show (win1 16).index t (0 : Fin 2) * 512 = t.val * 512; rw [idx1_par 16 (by decide) t (0 : Fin 2)]; rfl)
      (by show (win1 16).index t (1 : Fin 2) * 128 = 0; rw [idx1_par 16 (by decide) t (1 : Fin 2)]; rfl) r d r' hr
  | ⟨17, _⟩ =>
    show (V c (Pipeline.arrRef spec1 17) : FVec Ideal S4096x128 .f32) (((win1 17).rect t).emb (ix2 r d)) = (V c (Pipeline.arrRef spec1 17) : FVec Ideal S4096x128 .f32) (ix2 r' d)
    exact rows_apply _ _ _ t.val
      (by show (win1 17).index t (0 : Fin 2) * 512 = t.val * 512; rw [idx1_par 17 (by decide) t (0 : Fin 2)]; rfl)
      (by show (win1 17).index t (1 : Fin 2) * 128 = 0; rw [idx1_par 17 (by decide) t (1 : Fin 2)]; rfl) r d r' hr
  | ⟨18, _⟩ =>
    show (V c (Pipeline.arrRef spec1 18) : FVec Ideal S4096x128 .f32) (((win1 18).rect t).emb (ix2 r d)) = (V c (Pipeline.arrRef spec1 18) : FVec Ideal S4096x128 .f32) (ix2 r' d)
    exact rows_apply _ _ _ t.val
      (by show (win1 18).index t (0 : Fin 2) * 512 = t.val * 512; rw [idx1_par 18 (by decide) t (0 : Fin 2)]; rfl)
      (by show (win1 18).index t (1 : Fin 2) * 128 = 0; rw [idx1_par 18 (by decide) t (1 : Fin 2)]; rfl) r d r' hr
  | ⟨19, _⟩ =>
    show (V c (Pipeline.arrRef spec1 19) : FVec Ideal S4096x128 .f32) (((win1 19).rect t).emb (ix2 r d)) = (V c (Pipeline.arrRef spec1 19) : FVec Ideal S4096x128 .f32) (ix2 r' d)
    exact rows_apply _ _ _ t.val
      (by show (win1 19).index t (0 : Fin 2) * 512 = t.val * 512; rw [idx1_par 19 (by decide) t (0 : Fin 2)]; rfl)
      (by show (win1 19).index t (1 : Fin 2) * 128 = 0; rw [idx1_par 19 (by decide) t (1 : Fin 2)]; rfl) r d r' hr
  | ⟨20, _⟩ =>
    show (V c (Pipeline.arrRef spec1 20) : FVec Ideal S4096x128 .f32) (((win1 20).rect t).emb (ix2 r d)) = (V c (Pipeline.arrRef spec1 20) : FVec Ideal S4096x128 .f32) (ix2 r' d)
    exact rows_apply _ _ _ t.val
      (by show (win1 20).index t (0 : Fin 2) * 512 = t.val * 512; rw [idx1_par 20 (by decide) t (0 : Fin 2)]; rfl)
      (by show (win1 20).index t (1 : Fin 2) * 128 = 0; rw [idx1_par 20 (by decide) t (1 : Fin 2)]; rfl) r d r' hr
  | ⟨21, _⟩ =>
    show (V c (Pipeline.arrRef spec1 21) : FVec Ideal S4096x128 .f32) (((win1 21).rect t).emb (ix2 r d)) = (V c (Pipeline.arrRef spec1 21) : FVec Ideal S4096x128 .f32) (ix2 r' d)
    exact rows_apply _ _ _ t.val
      (by show (win1 21).index t (0 : Fin 2) * 512 = t.val * 512; rw [idx1_par 21 (by decide) t (0 : Fin 2)]; rfl)
      (by show (win1 21).index t (1 : Fin 2) * 128 = 0; rw [idx1_par 21 (by decide) t (1 : Fin 2)]; rfl) r d r' hr
  | ⟨22, _⟩ =>
    show (V c (Pipeline.arrRef spec1 22) : FVec Ideal S4096x128 .f32) (((win1 22).rect t).emb (ix2 r d)) = (V c (Pipeline.arrRef spec1 22) : FVec Ideal S4096x128 .f32) (ix2 r' d)
    exact rows_apply _ _ _ t.val
      (by show (win1 22).index t (0 : Fin 2) * 512 = t.val * 512; rw [idx1_par 22 (by decide) t (0 : Fin 2)]; rfl)
      (by show (win1 22).index t (1 : Fin 2) * 128 = 0; rw [idx1_par 22 (by decide) t (1 : Fin 2)]; rfl) r d r' hr
  | ⟨23, _⟩ =>
    show (V c (Pipeline.arrRef spec1 23) : FVec Ideal S4096x128 .f32) (((win1 23).rect t).emb (ix2 r d)) = (V c (Pipeline.arrRef spec1 23) : FVec Ideal S4096x128 .f32) (ix2 r' d)
    exact rows_apply _ _ _ t.val
      (by show (win1 23).index t (0 : Fin 2) * 512 = t.val * 512; rw [idx1_par 23 (by decide) t (0 : Fin 2)]; rfl)
      (by show (win1 23).index t (1 : Fin 2) * 128 = 0; rw [idx1_par 23 (by decide) t (1 : Fin 2)]; rfl) r d r' hr
  | ⟨24, _⟩ =>
    show (V c (Pipeline.arrRef spec1 24) : FVec Ideal S4096x128 .f32) (((win1 24).rect t).emb (ix2 r d)) = (V c (Pipeline.arrRef spec1 24) : FVec Ideal S4096x128 .f32) (ix2 r' d)
    exact rows_apply _ _ _ t.val
      (by show (win1 24).index t (0 : Fin 2) * 512 = t.val * 512; rw [idx1_par 24 (by decide) t (0 : Fin 2)]; rfl)
      (by show (win1 24).index t (1 : Fin 2) * 128 = 0; rw [idx1_par 24 (by decide) t (1 : Fin 2)]; rfl) r d r' hr
  | ⟨25, _⟩ =>
    show (V c (Pipeline.arrRef spec1 25) : FVec Ideal S4096x128 .f32) (((win1 25).rect t).emb (ix2 r d)) = (V c (Pipeline.arrRef spec1 25) : FVec Ideal S4096x128 .f32) (ix2 r' d)
    exact rows_apply _ _ _ t.val
      (by show (win1 25).index t (0 : Fin 2) * 512 = t.val * 512; rw [idx1_par 25 (by decide) t (0 : Fin 2)]; rfl)
      (by show (win1 25).index t (1 : Fin 2) * 128 = 0; rw [idx1_par 25 (by decide) t (1 : Fin 2)]; rfl) r d r' hr
  | ⟨26, _⟩ =>
    show (V c (Pipeline.arrRef spec1 26) : FVec Ideal S4096x128 .f32) (((win1 26).rect t).emb (ix2 r d)) = (V c (Pipeline.arrRef spec1 26) : FVec Ideal S4096x128 .f32) (ix2 r' d)
    exact rows_apply _ _ _ t.val
      (by show (win1 26).index t (0 : Fin 2) * 512 = t.val * 512; rw [idx1_par 26 (by decide) t (0 : Fin 2)]; rfl)
      (by show (win1 26).index t (1 : Fin 2) * 128 = 0; rw [idx1_par 26 (by decide) t (1 : Fin 2)]; rfl) r d r' hr
  | ⟨27, _⟩ =>
    show (V c (Pipeline.arrRef spec1 27) : FVec Ideal S4096x128 .f32) (((win1 27).rect t).emb (ix2 r d)) = (V c (Pipeline.arrRef spec1 27) : FVec Ideal S4096x128 .f32) (ix2 r' d)
    exact rows_apply _ _ _ t.val
      (by show (win1 27).index t (0 : Fin 2) * 512 = t.val * 512; rw [idx1_par 27 (by decide) t (0 : Fin 2)]; rfl)
      (by show (win1 27).index t (1 : Fin 2) * 128 = 0; rw [idx1_par 27 (by decide) t (1 : Fin 2)]; rfl) r d r' hr
  | ⟨28, _⟩ =>
    show (V c (Pipeline.arrRef spec1 28) : FVec Ideal S4096x128 .f32) (((win1 28).rect t).emb (ix2 r d)) = (V c (Pipeline.arrRef spec1 28) : FVec Ideal S4096x128 .f32) (ix2 r' d)
    exact rows_apply _ _ _ t.val
      (by show (win1 28).index t (0 : Fin 2) * 512 = t.val * 512; rw [idx1_par 28 (by decide) t (0 : Fin 2)]; rfl)
      (by show (win1 28).index t (1 : Fin 2) * 128 = 0; rw [idx1_par 28 (by decide) t (1 : Fin 2)]; rfl) r d r' hr
  | ⟨29, _⟩ =>
    show (V c (Pipeline.arrRef spec1 29) : FVec Ideal S4096x128 .f32) (((win1 29).rect t).emb (ix2 r d)) = (V c (Pipeline.arrRef spec1 29) : FVec Ideal S4096x128 .f32) (ix2 r' d)
    exact rows_apply _ _ _ t.val
      (by show (win1 29).index t (0 : Fin 2) * 512 = t.val * 512; rw [idx1_par 29 (by decide) t (0 : Fin 2)]; rfl)
      (by show (win1 29).index t (1 : Fin 2) * 128 = 0; rw [idx1_par 29 (by decide) t (1 : Fin 2)]; rfl) r d r' hr
  | ⟨30, _⟩ =>
    show (V c (Pipeline.arrRef spec1 30) : FVec Ideal S4096x128 .f32) (((win1 30).rect t).emb (ix2 r d)) = (V c (Pipeline.arrRef spec1 30) : FVec Ideal S4096x128 .f32) (ix2 r' d)
    exact rows_apply _ _ _ t.val
      (by show (win1 30).index t (0 : Fin 2) * 512 = t.val * 512; rw [idx1_par 30 (by decide) t (0 : Fin 2)]; rfl)
      (by show (win1 30).index t (1 : Fin 2) * 128 = 0; rw [idx1_par 30 (by decide) t (1 : Fin 2)]; rfl) r d r' hr
  | ⟨31, _⟩ =>
    show (V c (Pipeline.arrRef spec1 31) : FVec Ideal S4096x128 .f32) (((win1 31).rect t).emb (ix2 r d)) = (V c (Pipeline.arrRef spec1 31) : FVec Ideal S4096x128 .f32) (ix2 r' d)
    exact rows_apply _ _ _ t.val
      (by show (win1 31).index t (0 : Fin 2) * 512 = t.val * 512; rw [idx1_par 31 (by decide) t (0 : Fin 2)]; rfl)
      (by show (win1 31).index t (1 : Fin 2) * 128 = 0; rw [idx1_par 31 (by decide) t (1 : Fin 2)]; rfl) r d r' hr
  | ⟨_ + 32, h⟩ => exact absurd h (Nat.not_lt.2 (Nat.le_add_left _ _))

/-- The weight window's block is the whole weight slice at every point. -/
theorem iblk1_32_eq (c : Dev nD) (t : Fin cfg1.N) :
    (iblk1 V c 32 t : Vec Ideal S8x128x128 .f32) = (V c (Pipeline.arrRef spec1 32) : FVec Ideal S8x128x128 .f32) := by
  obtain ⟨e0, e1, e2, -⟩ := idx1_rest t
  funext y
  unfold iblk1
  rw [View.read_apply]
  refine congrArg (V c (Pipeline.arrRef spec1 32)) (funext fun a => Fin.ext ?_)
  match a with
  | ⟨0, _⟩ => show win1_32.index t (0 : Fin 3) * 8 + 1 * (y 0).val = (y 0).val; rw [e0]; omega
  | ⟨1, _⟩ => show win1_32.index t (1 : Fin 3) * 128 + 1 * (y 1).val = (y 1).val; rw [e1]; omega
  | ⟨2, _⟩ => show win1_32.index t (2 : Fin 3) * 128 + 1 * (y 2).val = (y 2).val; rw [e2]; omega

/-- The bias window's block is the whole bias slice at every point. -/
theorem iblk1_33_eq (c : Dev nD) (t : Fin cfg1.N) :
    (iblk1 V c 33 t : Vec Ideal S8x128 .f32) = (V c (Pipeline.arrRef spec1 33) : FVec Ideal S8x128 .f32) := by
  obtain ⟨-, -, -, e0, e1, -⟩ := idx1_rest t
  funext y
  unfold iblk1
  rw [View.read_apply]
  refine congrArg (V c (Pipeline.arrRef spec1 33)) (funext fun a => Fin.ext ?_)
  match a with
  | ⟨0, _⟩ => show win1_33.index t (0 : Fin 2) * 8 + 1 * (y 0).val = (y 0).val; rw [e0]; omega
  | ⟨1, _⟩ => show win1_33.index t (1 : Fin 2) * 128 + 1 * (y 1).val = (y 1).val; rw [e1]; omega

/-! ## What each point writes back, and the cover -/

/-- What point `t` writes back is block `t` of the region's function of the entry arrays. -/
theorem flushed1_eq (c : Dev nD) (t : Fin cfg1.N) :
    (dat1 (F := Ideal) V c).flushed 34 t = ((cfg1.win 34).blk t).view.read (Elt Ideal)
      (regionFn (parArr1 V c) (V c (Pipeline.arrRef spec1 32)) (V c (Pipeline.arrRef spec1 33))) := by
  show (cfg1.win 34).cut (grid1.coords t) ((dat1 V c).after 34 t) = _
  rw [after1_34, iblk1_32_eq, iblk1_33_eq]
  obtain ⟨-, -, -, -, -, e0, e1, e2⟩ := idx1_rest t
  have ht : t.val < 8 := Nat.lt_of_lt_of_eq t.isLt N_1
  funext j
  rw [View.read_apply]
  refine (out1_34_apply (parArr1 V c) (V c (Pipeline.arrRef spec1 32)) (V c (Pipeline.arrRef spec1 33)) (par1 V c t) t.val
    (fun j r d r' hr => par1_apply V c t j r d r' hr) ht j).trans ?_
  refine congrArg (regionFn (parArr1 V c) (V c (Pipeline.arrRef spec1 32)) (V c (Pipeline.arrRef spec1 33)))
    (funext fun a => Fin.ext ?_)
  match a with
  | ⟨0, _⟩ => show (j 0).val = win1_34.index t (0 : Fin 3) * 8 + 1 * (j 0).val; rw [e0]; omega
  | ⟨1, _⟩ => show t.val * 512 + (j 1).val = win1_34.index t (1 : Fin 3) * 512 + 1 * (j 1).val; rw [e1]; omega
  | ⟨2, _⟩ => show (j 2).val = win1_34.index t (2 : Fin 3) * 128 + 1 * (j 2).val; rw [e2]; omega

/-- An index of the output array is in point `t`'s block iff each coordinate is in the block's range on its axis. -/
theorem mem_blk1 (t : Fin cfg1.N) (i : S8x4096x128.Idx) :
    i ∈ ((cfg1.win 34).blk t).view.set ↔ ∀ a : Fin 3, win1_34.index t a * S8x512x128.size a ≤ (i a).val
      ∧ (i a).val < win1_34.index t a * S8x512x128.size a + S8x512x128.size a := by
  show i ∈ ((View.whole (Pipeline.arrRef spec1 34)).slice (win1_34.rect t)).set ↔ _
  rw [View.set_slice_whole, Rect.mem_set_unit]
  exact Iff.rfl

/-- Every index of the output array is in the block of the point its row falls in. -/
theorem cover1 (i : S8x4096x128.Idx) : ∃ t : Fin cfg1.N, (cfg1.win 34).flush t = true ∧ i ∈ ((cfg1.win 34).blk t).view.set := by
  have hi0 : (i 0).val < 8 := (i 0).isLt
  have hi1 : (i 1).val < 4096 := (i 1).isLt
  have hi2 : (i 2).val < 128 := (i 2).isLt
  have hN : cfg1.N = 8 := N_1
  let t : Fin cfg1.N := ⟨(i 1).val / 512, by rw [hN]; omega⟩
  obtain ⟨-, -, -, -, -, e0, e1, e2⟩ := idx1_rest t
  have ht : t.val = (i 1).val / 512 := rfl
  refine ⟨t, flush1_34 t, ?_⟩
  rw [mem_blk1]
  intro a
  match a with
  | ⟨0, _⟩ => show win1_34.index t (0 : Fin 3) * 8 ≤ (i 0).val ∧ (i 0).val < win1_34.index t (0 : Fin 3) * 8 + 8; rw [e0]; omega
  | ⟨1, _⟩ => show win1_34.index t (1 : Fin 3) * 512 ≤ (i 1).val ∧ (i 1).val < win1_34.index t (1 : Fin 3) * 512 + 512; rw [e1, ht]; omega
  | ⟨2, _⟩ => show win1_34.index t (2 : Fin 3) * 128 ≤ (i 2).val ∧ (i 2).val < win1_34.index t (2 : Fin 3) * 128 + 128; rw [e2]; omega

/-! ## The region's output array -/

/-- After the region its output array holds the region's function of the arrays the region found. -/
theorem regval1 (c : Dev nD) : (dat1 (F := Ideal) V c).arrAt 34 cfg1.N
    = regionFn (parArr1 V c) (V c (Pipeline.arrRef spec1 32)) (V c (Pipeline.arrRef spec1 33)) :=
  (dat1 (F := Ideal) V c).arrAt_eq_of_cover 34 _ (fun t _ => flushed1_eq V c t) cover1

end Cert.KernelIdeal.Hand

end
-- ==== Proof.KI.Chain1.lean ====
/-
  Layer 0 of the graph is what pallas_call 1 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.ChainPre
import proofs.«135270_j33062658245245_1_alg».proof.Proof.KI.RegVal1

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 1 leaves in its output array is layer 0. -/
theorem chain1 (c : Dev nD) :
    (W4 m c main_v7 : FVec Ideal S8x4096x128 .f32) = layerArr (argX m c) (argW m c) (argB m c) 0 := by
  rw [W4_out m c, regval1 (rd (W3 m)) c]
  refine layer_of_operands (argX m c) (argW m c) (argB m c) 0 (by decide) _ _ _ (fun w => ?_) ?_ ?_
  · -- the 32 parent windows: window i holds a reshaped slab of an earlier output array, the array the table of parents names
    match w with
    | ⟨0, _⟩ => exact (congrFun (V3_eq m c).symm _).trans ((opnd1_0 m (outsH m) c).trans (node0L m c _ (nOf 0 0) (by decide)))
    | ⟨1, _⟩ => exact (congrFun (V3_eq m c).symm _).trans ((opnd1_1 m (outsH m) c).trans (node0L m c _ (nOf 0 1) (by decide)))
    | ⟨2, _⟩ => exact (congrFun (V3_eq m c).symm _).trans ((opnd1_2 m (outsH m) c).trans (node0L m c _ (nOf 0 2) (by decide)))
    | ⟨3, _⟩ => exact (congrFun (V3_eq m c).symm _).trans ((opnd1_3 m (outsH m) c).trans (node0L m c _ (nOf 0 3) (by decide)))
    | ⟨4, _⟩ => exact (congrFun (V3_eq m c).symm _).trans ((opnd1_4 m (outsH m) c).trans (node0L m c _ (nOf 0 4) (by decide)))
    | ⟨5, _⟩ => exact (congrFun (V3_eq m c).symm _).trans ((opnd1_5 m (outsH m) c).trans (node0L m c _ (nOf 0 5) (by decide)))
    | ⟨6, _⟩ => exact (congrFun (V3_eq m c).symm _).trans ((opnd1_6 m (outsH m) c).trans (node0L m c _ (nOf 0 6) (by decide)))
    | ⟨7, _⟩ => exact (congrFun (V3_eq m c).symm _).trans ((opnd1_7 m (outsH m) c).trans (node0L m c _ (nOf 0 7) (by decide)))
    | ⟨8, _⟩ => exact (congrFun (V3_eq m c).symm _).trans ((opnd1_8 m (outsH m) c).trans (node0L m c _ (nOf 0 8) (by decide)))
    | ⟨9, _⟩ => exact (congrFun (V3_eq m c).symm _).trans ((opnd1_9 m (outsH m) c).trans (node0L m c _ (nOf 0 9) (by decide)))
    | ⟨10, _⟩ => exact (congrFun (V3_eq m c).symm _).trans ((opnd1_10 m (outsH m) c).trans (node0L m c _ (nOf 0 10) (by decide)))
    | ⟨11, _⟩ => exact (congrFun (V3_eq m c).symm _).trans ((opnd1_11 m (outsH m) c).trans (node0L m c _ (nOf 0 11) (by decide)))
    | ⟨12, _⟩ => exact (congrFun (V3_eq m c).symm _).trans ((opnd1_12 m (outsH m) c).trans (node0L m c _ (nOf 0 12) (by decide)))
    | ⟨13, _⟩ => exact (congrFun (V3_eq m c).symm _).trans ((opnd1_13 m (outsH m) c).trans (node0L m c _ (nOf 0 13) (by decide)))
    | ⟨14, _⟩ => exact (congrFun (V3_eq m c).symm _).trans ((opnd1_14 m (outsH m) c).trans (node0L m c _ (nOf 0 14) (by decide)))
    | ⟨15, _⟩ => exact (congrFun (V3_eq m c).symm _).trans ((opnd1_15 m (outsH m) c).trans (node0L m c _ (nOf 0 15) (by decide)))
    | ⟨16, _⟩ => exact (congrFun (V3_eq m c).symm _).trans ((opnd1_16 m (outsH m) c).trans (node0L m c _ (nOf 0 16) (by decide)))
    | ⟨17, _⟩ => exact (congrFun (V3_eq m c).symm _).trans ((opnd1_17 m (outsH m) c).trans (node0L m c _ (nOf 0 17) (by decide)))
    | ⟨18, _⟩ => exact (congrFun (V3_eq m c).symm _).trans ((opnd1_18 m (outsH m) c).trans (node0L m c _ (nOf 0 18) (by decide)))
    | ⟨19, _⟩ => exact (congrFun (V3_eq m c).symm _).trans ((opnd1_19 m (outsH m) c).trans (node0L m c _ (nOf 0 19) (by decide)))
    | ⟨20, _⟩ => exact (congrFun (V3_eq m c).symm _).trans ((opnd1_20 m (outsH m) c).trans (node0L m c _ (nOf 0 20) (by decide)))
    | ⟨21, _⟩ => exact (congrFun (V3_eq m c).symm _).trans ((opnd1_21 m (outsH m) c).trans (node0L m c _ (nOf 0 21) (by decide)))
    | ⟨22, _⟩ => exact (congrFun (V3_eq m c).symm _).trans ((opnd1_22 m (outsH m) c).trans (node0L m c _ (nOf 0 22) (by decide)))
    | ⟨23, _⟩ => exact (congrFun (V3_eq m c).symm _).trans ((opnd1_23 m (outsH m) c).trans (node0L m c _ (nOf 0 23) (by decide)))
    | ⟨24, _⟩ => exact (congrFun (V3_eq m c).symm _).trans ((opnd1_24 m (outsH m) c).trans (node0L m c _ (nOf 0 24) (by decide)))
    | ⟨25, _⟩ => exact (congrFun (V3_eq m c).symm _).trans ((opnd1_25 m (outsH m) c).trans (node0L m c _ (nOf 0 25) (by decide)))
    | ⟨26, _⟩ => exact (congrFun (V3_eq m c).symm _).trans ((opnd1_26 m (outsH m) c).trans (node0L m c _ (nOf 0 26) (by decide)))
    | ⟨27, _⟩ => exact (congrFun (V3_eq m c).symm _).trans ((opnd1_27 m (outsH m) c).trans (node0L m c _ (nOf 0 27) (by decide)))
    | ⟨28, _⟩ => exact (congrFun (V3_eq m c).symm _).trans ((opnd1_28 m (outsH m) c).trans (node0L m c _ (nOf 0 28) (by decide)))
    | ⟨29, _⟩ => exact (congrFun (V3_eq m c).symm _).trans ((opnd1_29 m (outsH m) c).trans (node0L m c _ (nOf 0 29) (by decide)))
    | ⟨30, _⟩ => exact (congrFun (V3_eq m c).symm _).trans ((opnd1_30 m (outsH m) c).trans (node0L m c _ (nOf 0 30) (by decide)))
    | ⟨31, _⟩ => exact (congrFun (V3_eq m c).symm _).trans ((opnd1_31 m (outsH m) c).trans (node0L m c _ (nOf 0 31) (by decide)))
    | ⟨n + 32, h⟩ => exact absurd h (by omega)
  · -- the transposed weights of the layer's eight nodes
    exact (congrFun (V3_eq m c).symm _).trans ((opnd1_32 m (outsH m) c).trans (wt_slice (argW m c) (8 * 0 + 1) _ _))
  · -- the biases of the layer's eight nodes
    exact (congrFun (V3_eq m c).symm _).trans ((opnd1_33 m (outsH m) c).trans (b_slice (argB m c) (8 * 0 + 1) _))

/-- The slabs of layer 0 as the later regions read them: slab `k` with its unit axis dropped is node `8 · 0 + 1 + k`
    (`n` names the node in any closed form, `hn` a closed equation of naturals). -/
theorem slabL0 (c : Dev nD) (k : Nat) (h₁ : S8x4096x128.Slices ![k, 0, 0] S1x4096x128)
    (h₂ : S1x4096x128.ShapeCasts S4096x128) (n : Nat) (hn : 8 * 0 + 1 + k = n) :
    shapeCast S4096x128 (extractStridedSlice S1x4096x128 ![k, 0, 0] (outsH m 4 main_v7 c) h₁) h₂
      = nodeArr (argX m c) (argW m c) (argB m c) n :=
  slab_of_layer (argX m c) (argW m c) (argB m c) (outsH m 4 main_v7 c) 0 (chain1 m c) k h₁ h₂ n hn

end Cert.KernelIdeal.Hand

end
-- ==== Proof.KI.Pay2.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay2_slab0 :
    k2_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay2_slab1 :
    k2_pay3 (F := Ideal) (k2_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay2_slab2 :
    k2_pay7 (F := Ideal) (k2_pay4 p0 p1 p2 p3) (k2_pay5 wk) (k2_pay6 bk) (ix3 0 r e) = slabVal p0 p1 p2 p3 wk bk r e :=
  slabFn_sum4_apply p0 p1 p2 p3 wk bk r e

/-- Slab 3: as slab 0. -/
theorem pay2_slab3 :
    k2_pay8 (F := Ideal) p0 p1 p2 p3 wk bk (ix3 0 r e) = slabVal p0 p1 p2 p3 wk bk r e :=
  slabFn_sum4_apply p0 p1 p2 p3 wk bk r e

/-- Slab 4: as slab 0. -/
theorem pay2_slab4 :
    k2_pay9 (F := Ideal) p0 p1 p2 p3 wk bk (ix3 0 r e) = slabVal p0 p1 p2 p3 wk bk r e :=
  slabFn_sum4_apply p0 p1 p2 p3 wk bk r e

/-- Slab 5: as slab 1. -/
theorem pay2_slab5 :
    k2_pay11 (F := Ideal) (k2_pay10 p0 p1 p2) p3 wk bk (ix3 0 r e) = slabVal p0 p1 p2 p3 wk bk r e :=
  slabFn_sum4_apply p0 p1 p2 p3 wk bk r e

/-- Slab 6: as slab 2. -/
theorem pay2_slab6 :
    k2_pay15 (F := Ideal) (k2_pay12 p0 p1 p2 p3) (k2_pay13 wk) (k2_pay14 bk) (ix3 0 r e) = slabVal p0 p1 p2 p3 wk bk r e :=
  slabFn_sum4_apply p0 p1 p2 p3 wk bk r e

/-- Slab 7: as slab 0. -/
theorem pay2_slab7 :
    k2_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal2.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R2
import proofs.«135270_j33062658245245_1_alg».proof.Proof.KI.Pay2
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab2_0_apply (x : S1x512x128.Idx) (i : S8x4096x128.Idx) (h0 : (i 0).val = 0)
    (h1 : (i 1).val = q * 512 + (x 1).val) (h2 : (i 2).val = (x 2).val) :
    slab2_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_0
  simp only [View.ld_unit_zero (S := S512x128) hz2]
  refine (pay2_slab0 (p 0) (p 1) (p 2) (p 3) (View.ld Wt r2_w0) (View.ld Bs r2_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab2_1_apply (x : S1x512x128.Idx) (i : S8x4096x128.Idx) (h0 : (i 0).val = 1)
    (h1 : (i 1).val = q * 512 + (x 1).val) (h2 : (i 2).val = (x 2).val) :
    slab2_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_1
  simp only [View.ld_unit_zero (S := S512x128) hz2]
  refine (pay2_slab1 (p 4) (p 5) (p 6) (p 7) (View.ld Wt r2_w1) (View.ld Bs r2_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab2_2_apply (x : S1x512x128.Idx) (i : S8x4096x128.Idx) (h0 : (i 0).val = 2)
    (h1 : (i 1).val = q * 512 + (x 1).val) (h2 : (i 2).val = (x 2).val) :
    slab2_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_2
  simp only [View.ld_unit_zero (S := S512x128) hz2]
  refine (pay2_slab2 (p 8) (p 9) (p 10) (p 11) (View.ld Wt r2_w2) (View.ld Bs r2_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab2_3_apply (x : S1x512x128.Idx) (i : S8x4096x128.Idx) (h0 : (i 0).val = 3)
    (h1 : (i 1).val = q * 512 + (x 1).val) (h2 : (i 2).val = (x 2).val) :
    slab2_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_3
  simp only [View.ld_unit_zero (S := S512x128) hz2]
  refine (pay2_slab3 (p 12) (p 13) (p 14) (p 15) (View.ld Wt r2_w3) (View.ld Bs r2_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab2_4_apply (x : S1x512x128.Idx) (i : S8x4096x128.Idx) (h0 : (i 0).val = 4)
    (h1 : (i 1).val = q * 512 + (x 1).val) (h2 : (i 2).val = (x 2).val) :
    slab2_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_4
  simp only [View.ld_unit_zero (S := S512x128) hz2]
  refine (pay2_slab4 (p 16) (p 17) (p 18) (p 19) (View.ld Wt r2_w4) (View.ld Bs r2_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab2_5_apply (x : S1x512x128.Idx) (i : S8x4096x128.Idx) (h0 : (i 0).val = 5)
    (h1 : (i 1).val = q * 512 + (x 1).val) (h2 : (i 2).val = (x 2).val) :
    slab2_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_5
  simp only [View.ld_unit_zero (S := S512x128) hz2]
  refine (pay2_slab5 (p 20) (p 21) (p 22) (p 23) (View.ld Wt r2_w5) (View.ld Bs r2_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab2_6_apply (x : S1x512x128.Idx) (i : S8x4096x128.Idx) (h0 : (i 0).val = 6)
    (h1 : (i 1).val = q * 512 + (x 1).val) (h2 : (i 2).val = (x 2).val) :
    slab2_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_6
  simp only [View.ld_unit_zero (S := S512x128) hz2]
  refine (pay2_slab6 (p 24) (p 25) (p 26) (p 27) (View.ld Wt r2_w6) (View.ld Bs r2_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab2_7_apply (x : S1x512x128.Idx) (i : S8x4096x128.Idx) (h0 : (i 0).val = 7)
    (h1 : (i 1).val = q * 512 + (x 1).val) (h2 : (i 2).val = (x 2).val) :
    slab2_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab2_7
  simp only [View.ld_unit_zero (S := S512x128) hz2]
  refine (pay2_slab7 (p 28) (p 29) (p 30) (p 31) (View.ld Wt r2_w7) (View.ld Bs r2_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out2_34_apply (hq : q < 8) (y : S8x512x128.Idx) :
    out2_34 (F := Ideal) p Wt Bs y = regionFn P Wt Bs (rowsOf q hq y) := by
  unfold out2_34
  refine View.canon_apply_of_pieces (fun y' => regionFn P Wt Bs (rowsOf q hq y')) _ ?_ y
    (cover2_34 (F := Ideal) _ _ _ _ _ _ _ _ y)
  intro pc hpc
  rcases List.mem_cons.mp hpc with rfl | hpc
  · exact fun x => slab2_7_apply P Wt Bs p q hp x (rowsOf q hq (r2_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_6_apply P Wt Bs p q hp x (rowsOf q hq (r2_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_5_apply P Wt Bs p q hp x (rowsOf q hq (r2_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_4_apply P Wt Bs p q hp x (rowsOf q hq (r2_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_3_apply P Wt Bs p q hp x (rowsOf q hq (r2_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_2_apply P Wt Bs p q hp x (rowsOf q hq (r2_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_1_apply P Wt Bs p q hp x (rowsOf q hq (r2_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab2_0_apply P Wt Bs p q hp x (rowsOf q hq (r2_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx2_par : ∀ w : Fin 35, w.val < 32 → ∀ (t : Fin cfg2.N) (a : Fin (win2 w).shape.rank),
    (win2 w).index t a = if a.val = 0 then t.val else 0 :=
  (by decide +kernel : ∀ w : Fin 35, w.val < 32 → ∀ (t : Fin grid2.N) (a : Fin (win2 w).shape.rank),
    (win2 w).index t a = if a.val = 0 then t.val else 0)

/-- the weight slice's and the bias slice's never move, and the output's row block moves with the point. -/
theorem idx2_rest : ∀ t : Fin cfg2.N, win2_32.index t (0 : Fin 3) = 0 ∧ win2_32.index t (1 : Fin 3) = 0
    ∧ win2_32.index t (2 : Fin 3) = 0 ∧ win2_33.index t (0 : Fin 2) = 0 ∧ win2_33.index t (1 : Fin 2) = 0
    ∧ win2_34.index t (0 : Fin 3) = 0 ∧ win2_34.index t (1 : Fin 3) = t.val ∧ win2_34.index t (2 : Fin 3) = 0 :=
  (by decide +kernel : ∀ t : Fin grid2.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr2 (c : Dev nD) : Fin 32 → FVec Ideal S4096x128 .f32 := fun j => match j with
    | ⟨0, _⟩ => V c (Pipeline.arrRef spec2 0)
    | ⟨1, _⟩ => V c (Pipeline.arrRef spec2 1)
    | ⟨2, _⟩ => V c (Pipeline.arrRef spec2 2)
    | ⟨3, _⟩ => V c (Pipeline.arrRef spec2 3)
    | ⟨4, _⟩ => V c (Pipeline.arrRef spec2 4)
    | ⟨5, _⟩ => V c (Pipeline.arrRef spec2 5)
    | ⟨6, _⟩ => V c (Pipeline.arrRef spec2 6)
    | ⟨7, _⟩ => V c (Pipeline.arrRef spec2 7)
    | ⟨8, _⟩ => V c (Pipeline.arrRef spec2 8)
    | ⟨9, _⟩ => V c (Pipeline.arrRef spec2 9)
    | ⟨10, _⟩ => V c (Pipeline.arrRef spec2 10)
    | ⟨11, _⟩ => V c (Pipeline.arrRef spec2 11)
    | ⟨12, _⟩ => V c (Pipeline.arrRef spec2 12)
    | ⟨13, _⟩ => V c (Pipeline.arrRef spec2 13)
    | ⟨14, _⟩ => V c (Pipeline.arrRef spec2 14)
    | ⟨15, _⟩ => V c (Pipeline.arrRef spec2 15)
    | ⟨16, _⟩ => V c (Pipeline.arrRef spec2 16)
    | ⟨17, _⟩ => V c (Pipeline.arrRef spec2 17)
    | ⟨18, _⟩ => V c (Pipeline.arrRef spec2 18)
    | ⟨19, _⟩ => V c (Pipeline.arrRef spec2 19)
    | ⟨20, _⟩ => V c (Pipeline.arrRef spec2 20)
    | ⟨21, _⟩ => V c (Pipeline.arrRef spec2 21)
    | ⟨22, _⟩ => V c (Pipeline.arrRef spec2 22)
    | ⟨23, _⟩ => V c (Pipeline.arrRef spec2 23)
    | ⟨24, _⟩ => V c (Pipeline.arrRef spec2 24)
    | ⟨25, _⟩ => V c (Pipeline.arrRef spec2 25)
    | ⟨26, _⟩ => V c (Pipeline.arrRef spec2 26)
    | ⟨27, _⟩ => V c (Pipeline.arrRef spec2 27)
    | ⟨28, _⟩ => V c (Pipeline.arrRef spec2 28)
    | ⟨29, _⟩ => V c (Pipeline.arrRef spec2 29)
    | ⟨30, _⟩ => V c (Pipeline.arrRef spec2 30)
    | ⟨31, _⟩ => V c (Pipeline.arrRef spec2 31)
    | ⟨_ + 32, h⟩ => absurd h (Nat.not_lt.2 (Nat.le_add_left _ _))

/-- The family at a literal index. -/
theorem parArr2_0 (c : Dev nD) : parArr2 V c 0 = V c (Pipeline.arrRef spec2 0) := by dsimp only [parArr2]
theorem parArr2_1 (c : Dev nD) : parArr2 V c 1 = V c (Pipeline.arrRef spec2 1) := by dsimp only [parArr2]
theorem parArr2_2 (c : Dev nD) : parArr2 V c 2 = V c (Pipeline.arrRef spec2 2) := by dsimp only [parArr2]
theorem parArr2_3 (c : Dev nD) : parArr2 V c 3 = V c (Pipeline.arrRef spec2 3) := by dsimp only [parArr2]
theorem parArr2_4 (c : Dev nD) : parArr2 V c 4 = V c (Pipeline.arrRef spec2 4) := by dsimp only [parArr2]
theorem parArr2_5 (c : Dev nD) : parArr2 V c 5 = V c (Pipeline.arrRef spec2 5) := by dsimp only [parArr2]
theorem parArr2_6 (c : Dev nD) : parArr2 V c 6 = V c (Pipeline.arrRef spec2 6) := by dsimp only [parArr2]
theorem parArr2_7 (c : Dev nD) : parArr2 V c 7 = V c (Pipeline.arrRef spec2 7) := by dsimp only [parArr2]
theorem parArr2_8 (c : Dev nD) : parArr2 V c 8 = V c (Pipeline.arrRef spec2 8) := by dsimp only [parArr2]
theorem parArr2_9 (c : Dev nD) : parArr2 V c 9 = V c (Pipeline.arrRef spec2 9) := by dsimp only [parArr2]
theorem parArr2_10 (c : Dev nD) : parArr2 V c 10 = V c (Pipeline.arrRef spec2 10) := by dsimp only [parArr2]
theorem parArr2_11 (c : Dev nD) : parArr2 V c 11 = V c (Pipeline.arrRef spec2 11) := by dsimp only [parArr2]
theorem parArr2_12 (c : Dev nD) : parArr2 V c 12 = V c (Pipeline.arrRef spec2 12) := by dsimp only [parArr2]
theorem parArr2_13 (c : Dev nD) : parArr2 V c 13 = V c (Pipeline.arrRef spec2 13) := by dsimp only [parArr2]
theorem parArr2_14 (c : Dev nD) : parArr2 V c 14 = V c (Pipeline.arrRef spec2 14) := by dsimp only [parArr2]
theorem parArr2_15 (c : Dev nD) : parArr2 V c 15 = V c (Pipeline.arrRef spec2 15) := by dsimp only [parArr2]
theorem parArr2_16 (c : Dev nD) : parArr2 V c 16 = V c (Pipeline.arrRef spec2 16) := by dsimp only [parArr2]
theorem parArr2_17 (c : Dev nD) : parArr2 V c 17 = V c (Pipeline.arrRef spec2 17) := by dsimp only [parArr2]
theorem parArr2_18 (c : Dev nD) : parArr2 V c 18 = V c (Pipeline.arrRef spec2 18) := by dsimp only [parArr2]
theorem parArr2_19 (c : Dev nD) : parArr2 V c 19 = V c (Pipeline.arrRef spec2 19) := by dsimp only [parArr2]
theorem parArr2_20 (c : Dev nD) : parArr2 V c 20 = V c (Pipeline.arrRef spec2 20) := by dsimp only [parArr2]
theorem parArr2_21 (c : Dev nD) : parArr2 V c 21 = V c (Pipeline.arrRef spec2 21) := by dsimp only [parArr2]
theorem parArr2_22 (c : Dev nD) : parArr2 V c 22 = V c (Pipeline.arrRef spec2 22) := by dsimp only [parArr2]
theorem parArr2_23 (c : Dev nD) : parArr2 V c 23 = V c (Pipeline.arrRef spec2 23) := by dsimp only [parArr2]
theorem parArr2_24 (c : Dev nD) : parArr2 V c 24 = V c (Pipeline.arrRef spec2 24) := by dsimp only [parArr2]
theorem parArr2_25 (c : Dev nD) : parArr2 V c 25 = V c (Pipeline.arrRef spec2 25) := by dsimp only [parArr2]
theorem parArr2_26 (c : Dev nD) : parArr2 V c 26 = V c (Pipeline.arrRef spec2 26) := by dsimp only [parArr2]
theorem parArr2_27 (c : Dev nD) : parArr2 V c 27 = V c (Pipeline.arrRef spec2 27) := by dsimp only [parArr2]
theorem parArr2_28 (c : Dev nD) : parArr2 V c 28 = V c (Pipeline.arrRef spec2 28) := by dsimp only [parArr2]
theorem parArr2_29 (c : Dev nD) : parArr2 V c 29 = V c (Pipeline.arrRef spec2 29) := by dsimp only [parArr2]
theorem parArr2_30 (c : Dev nD) : parArr2 V c 30 = V c (Pipeline.arrRef spec2 30) := by dsimp only [parArr2]
theorem parArr2_31 (c : Dev nD) : parArr2 V c 31 = V c (Pipeline.arrRef spec2 31) := by dsimp only [parArr2]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par2_apply (c : Dev nD) (t : Fin cfg2.N) (j : Fin 32) (r : Fin 512) (d : Fin 128) (r' : Fin 4096)
    (hr : r'.val = t.val * 512 + r.val) : par2 V c t j (ix2 r d) = parArr2 V c j (ix2 r' d) := by
  match j with
  | ⟨0, _⟩ =>
    show (V c (Pipeline.arrRef spec2 0) : FVec Ideal S4096x128 .f32) (((win2 0).rect t).emb (ix2 r d)) = (V c (Pipeline.arrRef spec2 0) : FVec Ideal S4096x128 .f32) (ix2 r' d)
    exact rows_apply _ _ _ t.val
      (by show (win2 0).index t (0 : Fin 2) * 512 = t.val * 512; rw [idx2_par 0 (by decide) t (0 : Fin 2)]; rfl)
      (by show (win2 0).index t (1 : Fin 2) * 128 = 0; rw [idx2_par 0 (by decide) t (1 : Fin 2)]; rfl) r d r' hr
  | ⟨1, _⟩ =>
    show (V c (Pipeline.arrRef spec2 1) : FVec Ideal S4096x128 .f32) (((win2 1).rect t).emb (ix2 r d)) = (V c (Pipeline.arrRef spec2 1) : FVec Ideal S4096x128 .f32) (ix2 r' d)
    exact rows_apply _ _ _ t.val
      (by show (win2 1).index t (0 : Fin 2) * 512 = t.val * 512; rw [idx2_par 1 (by decide) t (0 : Fin 2)]; rfl)
      (by show (win2 1).index t (1 : Fin 2) * 128 = 0; rw [idx2_par 1 (by decide) t (1 : Fin 2)]; rfl) r d r' hr
  | ⟨2, _⟩ =>
    show (V c (Pipeline.arrRef spec2 2) : FVec Ideal S4096x128 .f32) (((win2 2).rect t).emb (ix2 r d)) = (V c (Pipeline.arrRef spec2 2) : FVec Ideal S4096x128 .f32) (ix2 r' d)
    exact rows_apply _ _ _ t.val
      (by show (win2 2).index t (0 : Fin 2) * 512 = t.val * 512; rw [idx2_par 2 (by decide) t (0 : Fin 2)]; rfl)
      (by show (win2 2).index t (1 : Fin 2) * 128 = 0; rw [idx2_par 2 (by decide) t (1 : Fin 2)]; rfl) r d r' hr
  | ⟨3, _⟩ =>
    show (V c (Pipeline.arrRef spec2 3) : FVec Ideal S4096x128 .f32) (((win2 3).rect t).emb (ix2 r d)) = (V c (Pipeline.arrRef spec2 3) : FVec Ideal S4096x128 .f32) (ix2 r' d)
    exact rows_apply _ _ _ t.val
      (by show (win2 3).index t (0 : Fin 2) * 512 = t.val * 512; rw [idx2_par 3 (by decide) t (0 : Fin 2)]; rfl)
      (by show (win2 3).index t (1 : Fin 2) * 128 = 0; rw [idx2_par 3 (by decide) t (1 : Fin 2)]; rfl) r d r' hr
  | ⟨4, _⟩ =>
    show (V c (Pipeline.arrRef spec2 4) : FVec Ideal S4096x128 .f32) (((win2 4).rect t).emb (ix2 r d)) = (V c (Pipeline.arrRef spec2 4) : FVec Ideal S4096x128 .f32) (ix2 r' d)
    exact rows_apply _ _ _ t.val
      (by show (win2 4).index t (0 : Fin 2) * 512 = t.val * 512; rw [idx2_par 4 (by decide) t (0 : Fin 2)]; rfl)
      (by show (win2 4).index t (1 : Fin 2) * 128 = 0; rw [idx2_par 4 (by decide) t (1 : Fin 2)]; rfl) r d r' hr
  | ⟨5, _⟩ =>
    show (V c (Pipeline.arrRef spec2 5) : FVec Ideal S4096x128 .f32) (((win2 5).rect t).emb (ix2 r d)) = (V c (Pipeline.arrRef spec2 5) : FVec Ideal S4096x128 .f32) (ix2 r' d)
    exact rows_apply _ _ _ t.val
      (by show (win2 5).index t (0 : Fin 2) * 512 = t.val * 512; rw [idx2_par 5 (by decide) t (0 : Fin 2)]; rfl)
      (by show (win2 5).index t (1 : Fin 2) * 128 = 0; rw [idx2_par 5 (by decide) t (1 : Fin 2)]; rfl) r d r' hr
  | ⟨6, _⟩ =>
    show (V c (Pipeline.arrRef spec2 6) : FVec Ideal S4096x128 .f32) (((win2 6).rect t).emb (ix2 r d)) = (V c (Pipeline.arrRef spec2 6) : FVec Ideal S4096x128 .f32) (ix2 r' d)
    exact rows_apply _ _ _ t.val
      (by show (win2 6).index t (0 : Fin 2) * 512 = t.val * 512; rw [idx2_par 6 (by decide) t (0 : Fin 2)]; rfl)
      (by show (win2 6).index t (1 : Fin 2) * 128 = 0; rw [idx2_par 6 (by decide) t (1 : Fin 2)]; rfl) r d r' hr
  | ⟨7, _⟩ =>
    show (V c (Pipeline.arrRef spec2 7) : FVec Ideal S4096x128 .f32) (((win2 7).rect t).emb (ix2 r d)) = (V c (Pipeline.arrRef spec2 7) : FVec Ideal S4096x128 .f32) (ix2 r' d)
    exact rows_apply _ _ _ t.val
      (by show (win2 7).index t (0 : Fin 2) * 512 = t.val * 512; rw [idx2_par 7 (by decide) t (0 : Fin 2)]; rfl)
      (by show (win2 7).index t (1 : Fin 2) * 128 = 0; rw [idx2_par 7 (by decide) t (1 : Fin 2)]; rfl) r d r' hr
  | ⟨8, _⟩ =>
    show (V c (Pipeline.arrRef spec2 8) : FVec Ideal S4096x128 .f32) (((win2 8).rect t).emb (ix2 r d)) = (V c (Pipeline.arrRef spec2 8) : FVec Ideal S4096x128 .f32) (ix2 r' d)
    exact rows_apply _ _ _ t.val
      (by show (win2 8).index t (0 : Fin 2) * 512 = t.val * 512; rw [idx2_par 8 (by decide) t (0 : Fin 2)]; rfl)
      (by show (win2 8).index t (1 : Fin 2) * 128 = 0; rw [idx2_par 8 (by decide) t (1 : Fin 2)]; rfl) r d r' hr
  | ⟨9, _⟩ =>
    show (V c (Pipeline.arrRef spec2 9) : FVec Ideal S4096x128 .f32) (((win2 9).rect t).emb (ix2 r d)) = (V c (Pipeline.arrRef spec2 9) : FVec Ideal S4096x128 .f32) (ix2 r' d)
    exact rows_apply _ _ _ t.val
      (by show (win2 9).index t (0 : Fin 2) * 512 = t.val * 512; rw [idx2_par 9 (by decide) t (0 : Fin 2)]; rfl)
      (by show (win2 9).index t (1 : Fin 2) * 128 = 0; rw [idx2_par 9 (by decide) t (1 : Fin 2)]; rfl) r d r' hr
  | ⟨10, _⟩ =>
    show (V c (Pipeline.arrRef spec2 10) : FVec Ideal S4096x128 .f32) (((win2 10).rect t).emb (ix2 r d)) = (V c (Pipeline.arrRef spec2 10) : FVec Ideal S4096x128 .f32) (ix2 r' d)
    exact rows_apply _ _ _ t.val
      (by show (win2 10).index t (0 : Fin 2) * 512 = t.val * 512; rw [idx2_par 10 (by decide) t (0 : Fin 2)]; rfl)
      (by show (win2 10).index t (1 : Fin 2) * 128 = 0; rw [idx2_par 10 (by decide) t (1 : Fin 2)]; rfl) r d r' hr
  | ⟨11, _⟩ =>
    show (V c (Pipeline.arrRef spec2 11) : FVec Ideal S4096x128 .f32) (((win2 11).rect t).emb (ix2 r d)) = (V c (Pipeline.arrRef spec2 11) : FVec Ideal S4096x128 .f32) (ix2 r' d)
    exact rows_apply _ _ _ t.val
      (by show (win2 11).index t (0 : Fin 2) * 512 = t.val * 512; rw [idx2_par 11 (by decide) t (0 : Fin 2)]; rfl)
      (by show (win2 11).index t (1 : Fin 2) * 128 = 0; rw [idx2_par 11 (by decide) t (1 : Fin 2)]; rfl) r d r' hr
  | ⟨12, _⟩ =>
    show (V c (Pipeline.arrRef spec2 12) : FVec Ideal S4096x128 .f32) (((win2 12).rect t).emb (ix2 r d)) = (V c (Pipeline.arrRef spec2 12) : FVec Ideal S4096x128 .f32) (ix2 r' d)
    exact rows_apply _ _ _ t.val
      (by show (win2 12).index t (0 : Fin 2) * 512 = t.val * 512; rw [idx2_par 12 (by decide) t (0 : Fin 2)]; rfl)
      (by show (win2 12).index t (1 : Fin 2) * 128 = 0; rw [idx2_par 12 (by decide) t (1 : Fin 2)]; rfl) r d r' hr
  | ⟨13, _⟩ =>
    show (V c (Pipeline.arrRef spec2 13) : FVec Ideal S4096x128 .f32) (((win2 13).rect t).emb (ix2 r d)) = (V c (Pipeline.arrRef spec2 13) : FVec Ideal S4096x128 .f32) (ix2 r' d)
    exact rows_apply _ _ _ t.val
      (by show (win2 13).index t (0 : Fin 2) * 512 = t.val * 512; rw [idx2_par 13 (by decide) t (0 : Fin 2)]; rfl)
      (by show (win2 13).index t (1 : Fin 2) * 128 = 0; rw [idx2_par 13 (by decide) t (1 : Fin 2)]; rfl) r d r' hr
  | ⟨14, _⟩ =>
    show (V c (Pipeline.arrRef spec2 14) : FVec Ideal S4096x128 .f32) (((win2 14).rect t).emb (ix2 r d)) = (V c (Pipeline.arrRef spec2 14) : FVec Ideal S4096x128 .f32) (ix2 r' d)
    exact rows_apply _ _ _ t.val
      (by show (win2 14).index t (0 : Fin 2) * 512 = t.val * 512; rw [idx2_par 14 (by decide) t (0 : Fin 2)]; rfl)
      (by show (win2 14).index t (1 : Fin 2) * 128 = 0; rw [idx2_par 14 (by decide) t (1 : Fin 2)]; rfl) r d r' hr
  | ⟨15, _⟩ =>
    show (V c (Pipeline.arrRef spec2 15) : FVec Ideal S4096x128 .f32) (((win2 15).rect t).emb (ix2 r d)) = (V c (Pipeline.arrRef spec2 15) : FVec Ideal S4096x128 .f32) (ix2 r' d)
    exact rows_apply _ _ _ t.val
      (by show (win2 15).index t (0 : Fin 2) * 512 = t.val * 512; rw [idx2_par 15 (by decide) t (0 : Fin 2)]; rfl)
      (by show (win2 15).index t (1 : Fin 2) * 128 = 0; rw [idx2_par 15 (by decide) t (1 : Fin 2)]; rfl) r d r' hr
  | ⟨16, _⟩ =>
    show (V c (Pipeline.arrRef spec2 16) : FVec Ideal S4096x128 .f32) (((win2 16).rect t).emb (ix2 r d)) = (V c (Pipeline.arrRef spec2 16) : FVec Ideal S4096x128 .f32) (ix2 r' d)
    exact rows_apply _ _ _ t.val
      (by show (win2 16).index t (0 : Fin 2) * 512 = t.val * 512; rw [idx2_par 16 (by decide) t (0 : Fin 2)]; rfl)
      (by show (win2 16).index t (1 : Fin 2) * 128 = 0; rw [idx2_par 16 (by decide) t (1 : Fin 2)]; rfl) r d r' hr
  | ⟨17, _⟩ =>
    show (V c (Pipeline.arrRef spec2 17) : FVec Ideal S4096x128 .f32) (((win2 17).rect t).emb (ix2 r d)) = (V c (Pipeline.arrRef spec2 17) : FVec Ideal S4096x128 .f32) (ix2 r' d)
    exact rows_apply _ _ _ t.val
      (by show (win2 17).index t (0 : Fin 2) * 512 = t.val * 512; rw [idx2_par 17 (by decide) t (0 : Fin 2)]; rfl)
      (by show (win2 17).index t (1 : Fin 2) * 128 = 0; rw [idx2_par 17 (by decide) t (1 : Fin 2)]; rfl) r d r' hr
  | ⟨18, _⟩ =>
    show (V c (Pipeline.arrRef spec2 18) : FVec Ideal S4096x128 .f32) (((win2 18).rect t).emb (ix2 r d)) = (V c (Pipeline.arrRef spec2 18) : FVec Ideal S4096x128 .f32) (ix2 r' d)
    exact rows_apply _ _ _ t.val
      (by show (win2 18).index t (0 : Fin 2) * 512 = t.val * 512; rw [idx2_par 18 (by decide) t (0 : Fin 2)]; rfl)
      (by show (win2 18).index t (1 : Fin 2) * 128 = 0; rw [idx2_par 18 (by decide) t (1 : Fin 2)]; rfl) r d r' hr
  | ⟨19, _⟩ =>
    show (V c (Pipeline.arrRef spec2 19) : FVec Ideal S4096x128 .f32) (((win2 19).rect t).emb (ix2 r d)) = (V c (Pipeline.arrRef spec2 19) : FVec Ideal S4096x128 .f32) (ix2 r' d)
    exact rows_apply _ _ _ t.val
      (by show (win2 19).index t (0 : Fin 2) * 512 = t.val * 512; rw [idx2_par 19 (by decide) t (0 : Fin 2)]; rfl)
      (by show (win2 19).index t (1 : Fin 2) * 128 = 0; rw [idx2_par 19 (by decide) t (1 : Fin 2)]; rfl) r d r' hr
  | ⟨20, _⟩ =>
    show (V c (Pipeline.arrRef spec2 20) : FVec Ideal S4096x128 .f32) (((win2 20).rect t).emb (ix2 r d)) = (V c (Pipeline.arrRef spec2 20) : FVec Ideal S4096x128 .f32) (ix2 r' d)
    exact rows_apply _ _ _ t.val
      (by show (win2 20).index t (0 : Fin 2) * 512 = t.val * 512; rw [idx2_par 20 (by decide) t (0 : Fin 2)]; rfl)
      (by show (win2 20).index t (1 : Fin 2) * 128 = 0; rw [idx2_par 20 (by decide) t (1 : Fin 2)]; rfl) r d r' hr
  | ⟨21, _⟩ =>
    show (V c (Pipeline.arrRef spec2 21) : FVec Ideal S4096x128 .f32) (((win2 21).rect t).emb (ix2 r d)) = (V c (Pipeline.arrRef spec2 21) : FVec Ideal S4096x128 .f32) (ix2 r' d)
    exact rows_apply _ _ _ t.val
      (by show (win2 21).index t (0 : Fin 2) * 512 = t.val * 512; rw [idx2_par 21 (by decide) t (0 : Fin 2)]; rfl)
      (by show (win2 21).index t (1 : Fin 2) * 128 = 0; rw [idx2_par 21 (by decide) t (1 : Fin 2)]; rfl) r d r' hr
  | ⟨22, _⟩ =>
    show (V c (Pipeline.arrRef spec2 22) : FVec Ideal S4096x128 .f32) (((win2 22).rect t).emb (ix2 r d)) = (V c (Pipeline.arrRef spec2 22) : FVec Ideal S4096x128 .f32) (ix2 r' d)
    exact rows_apply _ _ _ t.val
      (by show (win2 22).index t (0 : Fin 2) * 512 = t.val * 512; rw [idx2_par 22 (by decide) t (0 : Fin 2)]; rfl)
      (by show (win2 22).index t (1 : Fin 2) * 128 = 0; rw [idx2_par 22 (by decide) t (1 : Fin 2)]; rfl) r d r' hr
  | ⟨23, _⟩ =>
    show (V c (Pipeline.arrRef spec2 23) : FVec Ideal S4096x128 .f32) (((win2 23).rect t).emb (ix2 r d)) = (V c (Pipeline.arrRef spec2 23) : FVec Ideal S4096x128 .f32) (ix2 r' d)
    exact rows_apply _ _ _ t.val
      (by show (win2 23).index t (0 : Fin 2) * 512 = t.val * 512; rw [idx2_par 23 (by decide) t (0 : Fin 2)]; rfl)
      (by show (win2 23).index t (1 : Fin 2) * 128 = 0; rw [idx2_par 23 (by decide) t (1 : Fin 2)]; rfl) r d r' hr
  | ⟨24, _⟩ =>
    show (V c (Pipeline.arrRef spec2 24) : FVec Ideal S4096x128 .f32) (((win2 24).rect t).emb (ix2 r d)) = (V c (Pipeline.arrRef spec2 24) : FVec Ideal S4096x128 .f32) (ix2 r' d)
    exact rows_apply _ _ _ t.val
      (by show (win2 24).index t (0 : Fin 2) * 512 = t.val * 512; rw [idx2_par 24 (by decide) t (0 : Fin 2)]; rfl)
      (by show (win2 24).index t (1 : Fin 2) * 128 = 0; rw [idx2_par 24 (by decide) t (1 : Fin 2)]; rfl) r d r' hr
  | ⟨25, _⟩ =>
    show (V c (Pipeline.arrRef spec2 25) : FVec Ideal S4096x128 .f32) (((win2 25).rect t).emb (ix2 r d)) = (V c (Pipeline.arrRef spec2 25) : FVec Ideal S4096x128 .f32) (ix2 r' d)
    exact rows_apply _ _ _ t.val
      (by show (win2 25).index t (0 : Fin 2) * 512 = t.val * 512; rw [idx2_par 25 (by decide) t (0 : Fin 2)]; rfl)
      (by show (win2 25).index t (1 : Fin 2) * 128 = 0; rw [idx2_par 25 (by decide) t (1 : Fin 2)]; rfl) r d r' hr
  | ⟨26, _⟩ =>
    show (V c (Pipeline.arrRef spec2 26) : FVec Ideal S4096x128 .f32) (((win2 26).rect t).emb (ix2 r d)) = (V c (Pipeline.arrRef spec2 26) : FVec Ideal S4096x128 .f32) (ix2 r' d)
    exact rows_apply _ _ _ t.val
      (by show (win2 26).index t (0 : Fin 2) * 512 = t.val * 512; rw [idx2_par 26 (by decide) t (0 : Fin 2)]; rfl)
      (by show (win2 26).index t (1 : Fin 2) * 128 = 0; rw [idx2_par 26 (by decide) t (1 : Fin 2)]; rfl) r d r' hr
  | ⟨27, _⟩ =>
    show (V c (Pipeline.arrRef spec2 27) : FVec Ideal S4096x128 .f32) (((win2 27).rect t).emb (ix2 r d)) = (V c (Pipeline.arrRef spec2 27) : FVec Ideal S4096x128 .f32) (ix2 r' d)
    exact rows_apply _ _ _ t.val
      (by show (win2 27).index t (0 : Fin 2) * 512 = t.val * 512; rw [idx2_par 27 (by decide) t (0 : Fin 2)]; rfl)
      (by show (win2 27).index t (1 : Fin 2) * 128 = 0; rw [idx2_par 27 (by decide) t (1 : Fin 2)]; rfl) r d r' hr
  | ⟨28, _⟩ =>
    show (V c (Pipeline.arrRef spec2 28) : FVec Ideal S4096x128 .f32) (((win2 28).rect t).emb (ix2 r d)) = (V c (Pipeline.arrRef spec2 28) : FVec Ideal S4096x128 .f32) (ix2 r' d)
    exact rows_apply _ _ _ t.val
      (by show (win2 28).index t (0 : Fin 2) * 512 = t.val * 512; rw [idx2_par 28 (by decide) t (0 : Fin 2)]; rfl)
      (by show (win2 28).index t (1 : Fin 2) * 128 = 0; rw [idx2_par 28 (by decide) t (1 : Fin 2)]; rfl) r d r' hr
  | ⟨29, _⟩ =>
    show (V c (Pipeline.arrRef spec2 29) : FVec Ideal S4096x128 .f32) (((win2 29).rect t).emb (ix2 r d)) = (V c (Pipeline.arrRef spec2 29) : FVec Ideal S4096x128 .f32) (ix2 r' d)
    exact rows_apply _ _ _ t.val
      (by show (win2 29).index t (0 : Fin 2) * 512 = t.val * 512; rw [idx2_par 29 (by decide) t (0 : Fin 2)]; rfl)
      (by show (win2 29).index t (1 : Fin 2) * 128 = 0; rw [idx2_par 29 (by decide) t (1 : Fin 2)]; rfl) r d r' hr
  | ⟨30, _⟩ =>
    show (V c (Pipeline.arrRef spec2 30) : FVec Ideal S4096x128 .f32) (((win2 30).rect t).emb (ix2 r d)) = (V c (Pipeline.arrRef spec2 30) : FVec Ideal S4096x128 .f32) (ix2 r' d)
    exact rows_apply _ _ _ t.val
      (by show (win2 30).index t (0 : Fin 2) * 512 = t.val * 512; rw [idx2_par 30 (by decide) t (0 : Fin 2)]; rfl)
      (by show (win2 30).index t (1 : Fin 2) * 128 = 0; rw [idx2_par 30 (by decide) t (1 : Fin 2)]; rfl) r d r' hr
  | ⟨31, _⟩ =>
    show (V c (Pipeline.arrRef spec2 31) : FVec Ideal S4096x128 .f32) (((win2 31).rect t).emb (ix2 r d)) = (V c (Pipeline.arrRef spec2 31) : FVec Ideal S4096x128 .f32) (ix2 r' d)
    exact rows_apply _ _ _ t.val
      (by show (win2 31).index t (0 : Fin 2) * 512 = t.val * 512; rw [idx2_par 31 (by decide) t (0 : Fin 2)]; rfl)
      (by show (win2 31).index t (1 : Fin 2) * 128 = 0; rw [idx2_par 31 (by decide) t (1 : Fin 2)]; rfl) r d r' hr
  | ⟨_ + 32, h⟩ => exact absurd h (Nat.not_lt.2 (Nat.le_add_left _ _))

/-- The weight window's block is the whole weight slice at every point. -/
theorem iblk2_32_eq (c : Dev nD) (t : Fin cfg2.N) :
    (iblk2 V c 32 t : Vec Ideal S8x128x128 .f32) = (V c (Pipeline.arrRef spec2 32) : FVec Ideal S8x128x128 .f32) := by
  obtain ⟨e0, e1, e2, -⟩ := idx2_rest t
  funext y
  unfold iblk2
  rw [View.read_apply]
  refine congrArg (V c (Pipeline.arrRef spec2 32)) (funext fun a => Fin.ext ?_)
  match a with
  | ⟨0, _⟩ => show win2_32.index t (0 : Fin 3) * 8 + 1 * (y 0).val = (y 0).val; rw [e0]; omega
  | ⟨1, _⟩ => show win2_32.index t (1 : Fin 3) * 128 + 1 * (y 1).val = (y 1).val; rw [e1]; omega
  | ⟨2, _⟩ => show win2_32.index t (2 : Fin 3) * 128 + 1 * (y 2).val = (y 2).val; rw [e2]; omega

/-- The bias window's block is the whole bias slice at every point. -/
theorem iblk2_33_eq (c : Dev nD) (t : Fin cfg2.N) :
    (iblk2 V c 33 t : Vec Ideal S8x128 .f32) = (V c (Pipeline.arrRef spec2 33) : FVec Ideal S8x128 .f32) := by
  obtain ⟨-, -, -, e0, e1, -⟩ := idx2_rest t
  funext y
  unfold iblk2
  rw [View.read_apply]
  refine congrArg (V c (Pipeline.arrRef spec2 33)) (funext fun a => Fin.ext ?_)
  match a with
  | ⟨0, _⟩ => show win2_33.index t (0 : Fin 2) * 8 + 1 * (y 0).val = (y 0).val; rw [e0]; omega
  | ⟨1, _⟩ => show win2_33.index t (1 : Fin 2) * 128 + 1 * (y 1).val = (y 1).val; rw [e1]; omega

/-! ## What each point writes back, and the cover -/

/-- What point `t` writes back is block `t` of the region's function of the entry arrays. -/
theorem flushed2_eq (c : Dev nD) (t : Fin cfg2.N) :
    (dat2 (F := Ideal) V c).flushed 34 t = ((cfg2.win 34).blk t).view.read (Elt Ideal)
      (regionFn (parArr2 V c) (V c (Pipeline.arrRef spec2 32)) (V c (Pipeline.arrRef spec2 33))) := by
  show (cfg2.win 34).cut (grid2.coords t) ((dat2 V c).after 34 t) = _
  rw [after2_34, iblk2_32_eq, iblk2_33_eq]
  obtain ⟨-, -, -, -, -, e0, e1, e2⟩ := idx2_rest t
  have ht : t.val < 8 := Nat.lt_of_lt_of_eq t.isLt N_2
  funext j
  rw [View.read_apply]
  refine (out2_34_apply (parArr2 V c) (V c (Pipeline.arrRef spec2 32)) (V c (Pipeline.arrRef spec2 33)) (par2 V c t) t.val
    (fun j r d r' hr => par2_apply V c t j r d r' hr) ht j).trans ?_
  refine congrArg (regionFn (parArr2 V c) (V c (Pipeline.arrRef spec2 32)) (V c (Pipeline.arrRef spec2 33)))
    (funext fun a => Fin.ext ?_)
  match a with
  | ⟨0, _⟩ => show (j 0).val = win2_34.index t (0 : Fin 3) * 8 + 1 * (j 0).val; rw [e0]; omega
  | ⟨1, _⟩ => show t.val * 512 + (j 1).val = win2_34.index t (1 : Fin 3) * 512 + 1 * (j 1).val; rw [e1]; omega
  | ⟨2, _⟩ => show (j 2).val = win2_34.index t (2 : Fin 3) * 128 + 1 * (j 2).val; rw [e2]; omega

/-- An index of the output array is in point `t`'s block iff each coordinate is in the block's range on its axis. -/
theorem mem_blk2 (t : Fin cfg2.N) (i : S8x4096x128.Idx) :
    i ∈ ((cfg2.win 34).blk t).view.set ↔ ∀ a : Fin 3, win2_34.index t a * S8x512x128.size a ≤ (i a).val
      ∧ (i a).val < win2_34.index t a * S8x512x128.size a + S8x512x128.size a := by
  show i ∈ ((View.whole (Pipeline.arrRef spec2 34)).slice (win2_34.rect t)).set ↔ _
  rw [View.set_slice_whole, Rect.mem_set_unit]
  exact Iff.rfl

/-- Every index of the output array is in the block of the point its row falls in. -/
theorem cover2 (i : S8x4096x128.Idx) : ∃ t : Fin cfg2.N, (cfg2.win 34).flush t = true ∧ i ∈ ((cfg2.win 34).blk t).view.set := by
  have hi0 : (i 0).val < 8 := (i 0).isLt
  have hi1 : (i 1).val < 4096 := (i 1).isLt
  have hi2 : (i 2).val < 128 := (i 2).isLt
  have hN : cfg2.N = 8 := N_2
  let t : Fin cfg2.N := ⟨(i 1).val / 512, by rw [hN]; omega⟩
  obtain ⟨-, -, -, -, -, e0, e1, e2⟩ := idx2_rest t
  have ht : t.val = (i 1).val / 512 := rfl
  refine ⟨t, flush2_34 t, ?_⟩
  rw [mem_blk2]
  intro a
  match a with
  | ⟨0, _⟩ => show win2_34.index t (0 : Fin 3) * 8 ≤ (i 0).val ∧ (i 0).val < win2_34.index t (0 : Fin 3) * 8 + 8; rw [e0]; omega
  | ⟨1, _⟩ => show win2_34.index t (1 : Fin 3) * 512 ≤ (i 1).val ∧ (i 1).val < win2_34.index t (1 : Fin 3) * 512 + 512; rw [e1, ht]; omega
  | ⟨2, _⟩ => show win2_34.index t (2 : Fin 3) * 128 ≤ (i 2).val ∧ (i 2).val < win2_34.index t (2 : Fin 3) * 128 + 128; rw [e2]; omega

/-! ## The region's output array -/

/-- After the region its output array holds the region's function of the arrays the region found. -/
theorem regval2 (c : Dev nD) : (dat2 (F := Ideal) V c).arrAt 34 cfg2.N
    = regionFn (parArr2 V c) (V c (Pipeline.arrRef spec2 32)) (V c (Pipeline.arrRef spec2 33)) :=
  (dat2 (F := Ideal) V c).arrAt_eq_of_cover 34 _ (fun t _ => flushed2_eq V c t) cover2

end Cert.KernelIdeal.Hand

end
-- ==== Proof.KI.Chain2.lean ====
/-
  Layer 1 of the graph is what pallas_call 2 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain1
import proofs.«135270_j33062658245245_1_alg».proof.Proof.KI.RegVal2

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 2 leaves in its output array is layer 1. -/
theorem chain2 (c : Dev nD) :
    (W6 m c main_v26 : FVec Ideal S8x4096x128 .f32) = layerArr (argX m c) (argW m c) (argB m c) 1 := by
  rw [W6_out m c, regval2 (rd (W5 m)) c]
  refine layer_of_operands (argX m c) (argW m c) (argB m c) 1 (by decide) _ _ _ (fun w => ?_) ?_ ?_
  · -- the 32 parent windows: window i holds a reshaped slab of an earlier output array, the array the table of parents names
    match w with
    | ⟨0, _⟩ => exact (congrFun (V5_eq m c).symm _).trans ((opnd2_0 m (outsH m) c).trans (slabL0 m c 6 _ _ (nOf 1 0) (by decide)))
    | ⟨1, _⟩ => exact (congrFun (V5_eq m c).symm _).trans ((opnd2_1 m (outsH m) c).trans (slabL0 m c 4 _ _ (nOf 1 1) (by decide)))
    | ⟨2, _⟩ => exact (congrFun (V5_eq m c).symm _).trans ((opnd2_2 m (outsH m) c).trans (slabL0 m c 3 _ _ (nOf 1 2) (by decide)))
    | ⟨3, _⟩ => exact (congrFun (V5_eq m c).symm _).trans ((opnd2_3 m (outsH m) c).trans (slabL0 m c 1 _ _ (nOf 1 3) (by decide)))
    | ⟨4, _⟩ => exact (congrFun (V5_eq m c).symm _).trans ((opnd2_4 m (outsH m) c).trans (slabL0 m c 1 _ _ (nOf 1 4) (by decide)))
    | ⟨5, _⟩ => exact (congrFun (V5_eq m c).symm _).trans ((opnd2_5 m (outsH m) c).trans (node0L m c _ (nOf 1 5) (by decide)))
    | ⟨6, _⟩ => exact (congrFun (V5_eq m c).symm _).trans ((opnd2_6 m (outsH m) c).trans (node0L m c _ (nOf 1 6) (by decide)))
    | ⟨7, _⟩ => exact (congrFun (V5_eq m c).symm _).trans ((opnd2_7 m (outsH m) c).trans (node0L m c _ (nOf 1 7) (by decide)))
    | ⟨8, _⟩ => exact (congrFun (V5_eq m c).symm _).trans ((opnd2_8 m (outsH m) c).trans (slabL0 m c 0 _ _ (nOf 1 8) (by decide)))
    | ⟨9, _⟩ => exact (congrFun (V5_eq m c).symm _).trans ((opnd2_9 m (outsH m) c).trans (slabL0 m c 6 _ _ (nOf 1 9) (by decide)))
    | ⟨10, _⟩ => exact (congrFun (V5_eq m c).symm _).trans ((opnd2_10 m (outsH m) c).trans (slabL0 m c 4 _ _ (nOf 1 10) (by decide)))
    | ⟨11, _⟩ => exact (congrFun (V5_eq m c).symm _).trans ((opnd2_11 m (outsH m) c).trans (slabL0 m c 7 _ _ (nOf 1 11) (by decide)))
    | ⟨12, _⟩ => exact (congrFun (V5_eq m c).symm _).trans ((opnd2_12 m (outsH m) c).trans (slabL0 m c 3 _ _ (nOf 1 12) (by decide)))
    | ⟨13, _⟩ => exact (congrFun (V5_eq m c).symm _).trans ((opnd2_13 m (outsH m) c).trans (slabL0 m c 4 _ _ (nOf 1 13) (by decide)))
    | ⟨14, _⟩ => exact (congrFun (V5_eq m c).symm _).trans ((opnd2_14 m (outsH m) c).trans (slabL0 m c 7 _ _ (nOf 1 14) (by decide)))
    | ⟨15, _⟩ => exact (congrFun (V5_eq m c).symm _).trans ((opnd2_15 m (outsH m) c).trans (slabL0 m c 5 _ _ (nOf 1 15) (by decide)))
    | ⟨16, _⟩ => exact (congrFun (V5_eq m c).symm _).trans ((opnd2_16 m (outsH m) c).trans (slabL0 m c 4 _ _ (nOf 1 16) (by decide)))
    | ⟨17, _⟩ => exact (congrFun (V5_eq m c).symm _).trans ((opnd2_17 m (outsH m) c).trans (slabL0 m c 3 _ _ (nOf 1 17) (by decide)))
    | ⟨18, _⟩ => exact (congrFun (V5_eq m c).symm _).trans ((opnd2_18 m (outsH m) c).trans (slabL0 m c 4 _ _ (nOf 1 18) (by decide)))
    | ⟨19, _⟩ => exact (congrFun (V5_eq m c).symm _).trans ((opnd2_19 m (outsH m) c).trans (slabL0 m c 7 _ _ (nOf 1 19) (by decide)))
    | ⟨20, _⟩ => exact (congrFun (V5_eq m c).symm _).trans ((opnd2_20 m (outsH m) c).trans (slabL0 m c 1 _ _ (nOf 1 20) (by decide)))
    | ⟨21, _⟩ => exact (congrFun (V5_eq m c).symm _).trans ((opnd2_21 m (outsH m) c).trans (slabL0 m c 6 _ _ (nOf 1 21) (by decide)))
    | ⟨22, _⟩ => exact (congrFun (V5_eq m c).symm _).trans ((opnd2_22 m (outsH m) c).trans (slabL0 m c 5 _ _ (nOf 1 22) (by decide)))
    | ⟨23, _⟩ => exact (congrFun (V5_eq m c).symm _).trans ((opnd2_23 m (outsH m) c).trans (node0L m c _ (nOf 1 23) (by decide)))
    | ⟨24, _⟩ => exact (congrFun (V5_eq m c).symm _).trans ((opnd2_24 m (outsH m) c).trans (slabL0 m c 2 _ _ (nOf 1 24) (by decide)))
    | ⟨25, _⟩ => exact (congrFun (V5_eq m c).symm _).trans ((opnd2_25 m (outsH m) c).trans (slabL0 m c 6 _ _ (nOf 1 25) (by decide)))
    | ⟨26, _⟩ => exact (congrFun (V5_eq m c).symm _).trans ((opnd2_26 m (outsH m) c).trans (slabL0 m c 3 _ _ (nOf 1 26) (by decide)))
    | ⟨27, _⟩ => exact (congrFun (V5_eq m c).symm _).trans ((opnd2_27 m (outsH m) c).trans (node0L m c _ (nOf 1 27) (by decide)))
    | ⟨28, _⟩ => exact (congrFun (V5_eq m c).symm _).trans ((opnd2_28 m (outsH m) c).trans (slabL0 m c 5 _ _ (nOf 1 28) (by decide)))
    | ⟨29, _⟩ => exact (congrFun (V5_eq m c).symm _).trans ((opnd2_29 m (outsH m) c).trans (slabL0 m c 5 _ _ (nOf 1 29) (by decide)))
    | ⟨30, _⟩ => exact (congrFun (V5_eq m c).symm _).trans ((opnd2_30 m (outsH m) c).trans (slabL0 m c 6 _ _ (nOf 1 30) (by decide)))
    | ⟨31, _⟩ => exact (congrFun (V5_eq m c).symm _).trans ((opnd2_31 m (outsH m) c).trans (slabL0 m c 0 _ _ (nOf 1 31) (by decide)))
    | ⟨n + 32, h⟩ => exact absurd h (by omega)
  · -- the transposed weights of the layer's eight nodes
    exact (congrFun (V5_eq m c).symm _).trans ((opnd2_32 m (outsH m) c).trans (wt_slice (argW m c) (8 * 1 + 1) _ _))
  · -- the biases of the layer's eight nodes
    exact (congrFun (V5_eq m c).symm _).trans ((opnd2_33 m (outsH m) c).trans (b_slice (argB m c) (8 * 1 + 1) _))

/-- The slabs of layer 1 as the later regions read them: slab `k` with its unit axis dropped is node `8 · 1 + 1 + k`
    (`n` names the node in any closed form, `hn` a closed equation of naturals). -/
theorem slabL1 (c : Dev nD) (k : Nat) (h₁ : S8x4096x128.Slices ![k, 0, 0] S1x4096x128)
    (h₂ : S1x4096x128.ShapeCasts S4096x128) (n : Nat) (hn : 8 * 1 + 1 + k = n) :
    shapeCast S4096x128 (extractStridedSlice S1x4096x128 ![k, 0, 0] (outsH m 6 main_v26 c) h₁) h₂
      = nodeArr (argX m c) (argW m c) (argB m c) n :=
  slab_of_layer (argX m c) (argW m c) (argB m c) (outsH m 6 main_v26 c) 1 (chain2 m c) k h₁ h₂ n hn

end Cert.KernelIdeal.Hand

end
-- ==== Proof.KI.Pay3.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay3_slab0 :
    k3_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay3_slab1 :
    k3_pay3 (F := Ideal) (k3_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay3_slab2 :
    k3_pay7 (F := Ideal) (k3_pay4 p0 p1 p2 p3) (k3_pay5 wk) (k3_pay6 bk) (ix3 0 r e) = slabVal p0 p1 p2 p3 wk bk r e :=
  slabFn_sum4_apply p0 p1 p2 p3 wk bk r e

/-- Slab 3: as slab 0. -/
theorem pay3_slab3 :
    k3_pay8 (F := Ideal) p0 p1 p2 p3 wk bk (ix3 0 r e) = slabVal p0 p1 p2 p3 wk bk r e :=
  slabFn_sum4_apply p0 p1 p2 p3 wk bk r e

/-- Slab 4: as slab 0. -/
theorem pay3_slab4 :
    k3_pay9 (F := Ideal) p0 p1 p2 p3 wk bk (ix3 0 r e) = slabVal p0 p1 p2 p3 wk bk r e :=
  slabFn_sum4_apply p0 p1 p2 p3 wk bk r e

/-- Slab 5: as slab 1. -/
theorem pay3_slab5 :
    k3_pay11 (F := Ideal) (k3_pay10 p0 p1 p2) p3 wk bk (ix3 0 r e) = slabVal p0 p1 p2 p3 wk bk r e :=
  slabFn_sum4_apply p0 p1 p2 p3 wk bk r e

/-- Slab 6: as slab 2. -/
theorem pay3_slab6 :
    k3_pay15 (F := Ideal) (k3_pay12 p0 p1 p2 p3) (k3_pay13 wk) (k3_pay14 bk) (ix3 0 r e) = slabVal p0 p1 p2 p3 wk bk r e :=
  slabFn_sum4_apply p0 p1 p2 p3 wk bk r e

/-- Slab 7: as slab 0. -/
theorem pay3_slab7 :
    k3_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal3.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R3
import proofs.«135270_j33062658245245_1_alg».proof.Proof.KI.Pay3
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab3_0_apply (x : S1x512x128.Idx) (i : S8x4096x128.Idx) (h0 : (i 0).val = 0)
    (h1 : (i 1).val = q * 512 + (x 1).val) (h2 : (i 2).val = (x 2).val) :
    slab3_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_0
  simp only [View.ld_unit_zero (S := S512x128) hz2]
  refine (pay3_slab0 (p 0) (p 1) (p 2) (p 3) (View.ld Wt r3_w0) (View.ld Bs r3_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab3_1_apply (x : S1x512x128.Idx) (i : S8x4096x128.Idx) (h0 : (i 0).val = 1)
    (h1 : (i 1).val = q * 512 + (x 1).val) (h2 : (i 2).val = (x 2).val) :
    slab3_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_1
  simp only [View.ld_unit_zero (S := S512x128) hz2]
  refine (pay3_slab1 (p 4) (p 5) (p 6) (p 7) (View.ld Wt r3_w1) (View.ld Bs r3_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab3_2_apply (x : S1x512x128.Idx) (i : S8x4096x128.Idx) (h0 : (i 0).val = 2)
    (h1 : (i 1).val = q * 512 + (x 1).val) (h2 : (i 2).val = (x 2).val) :
    slab3_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_2
  simp only [View.ld_unit_zero (S := S512x128) hz2]
  refine (pay3_slab2 (p 8) (p 9) (p 10) (p 11) (View.ld Wt r3_w2) (View.ld Bs r3_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab3_3_apply (x : S1x512x128.Idx) (i : S8x4096x128.Idx) (h0 : (i 0).val = 3)
    (h1 : (i 1).val = q * 512 + (x 1).val) (h2 : (i 2).val = (x 2).val) :
    slab3_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_3
  simp only [View.ld_unit_zero (S := S512x128) hz2]
  refine (pay3_slab3 (p 12) (p 13) (p 14) (p 15) (View.ld Wt r3_w3) (View.ld Bs r3_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab3_4_apply (x : S1x512x128.Idx) (i : S8x4096x128.Idx) (h0 : (i 0).val = 4)
    (h1 : (i 1).val = q * 512 + (x 1).val) (h2 : (i 2).val = (x 2).val) :
    slab3_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_4
  simp only [View.ld_unit_zero (S := S512x128) hz2]
  refine (pay3_slab4 (p 16) (p 17) (p 18) (p 19) (View.ld Wt r3_w4) (View.ld Bs r3_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab3_5_apply (x : S1x512x128.Idx) (i : S8x4096x128.Idx) (h0 : (i 0).val = 5)
    (h1 : (i 1).val = q * 512 + (x 1).val) (h2 : (i 2).val = (x 2).val) :
    slab3_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_5
  simp only [View.ld_unit_zero (S := S512x128) hz2]
  refine (pay3_slab5 (p 20) (p 21) (p 22) (p 23) (View.ld Wt r3_w5) (View.ld Bs r3_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab3_6_apply (x : S1x512x128.Idx) (i : S8x4096x128.Idx) (h0 : (i 0).val = 6)
    (h1 : (i 1).val = q * 512 + (x 1).val) (h2 : (i 2).val = (x 2).val) :
    slab3_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_6
  simp only [View.ld_unit_zero (S := S512x128) hz2]
  refine (pay3_slab6 (p 24) (p 25) (p 26) (p 27) (View.ld Wt r3_w6) (View.ld Bs r3_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab3_7_apply (x : S1x512x128.Idx) (i : S8x4096x128.Idx) (h0 : (i 0).val = 7)
    (h1 : (i 1).val = q * 512 + (x 1).val) (h2 : (i 2).val = (x 2).val) :
    slab3_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab3_7
  simp only [View.ld_unit_zero (S := S512x128) hz2]
  refine (pay3_slab7 (p 28) (p 29) (p 30) (p 31) (View.ld Wt r3_w7) (View.ld Bs r3_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out3_34_apply (hq : q < 8) (y : S8x512x128.Idx) :
    out3_34 (F := Ideal) p Wt Bs y = regionFn P Wt Bs (rowsOf q hq y) := by
  unfold out3_34
  refine View.canon_apply_of_pieces (fun y' => regionFn P Wt Bs (rowsOf q hq y')) _ ?_ y
    (cover3_34 (F := Ideal) _ _ _ _ _ _ _ _ y)
  intro pc hpc
  rcases List.mem_cons.mp hpc with rfl | hpc
  · exact fun x => slab3_7_apply P Wt Bs p q hp x (rowsOf q hq (r3_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_6_apply P Wt Bs p q hp x (rowsOf q hq (r3_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_5_apply P Wt Bs p q hp x (rowsOf q hq (r3_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_4_apply P Wt Bs p q hp x (rowsOf q hq (r3_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_3_apply P Wt Bs p q hp x (rowsOf q hq (r3_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_2_apply P Wt Bs p q hp x (rowsOf q hq (r3_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_1_apply P Wt Bs p q hp x (rowsOf q hq (r3_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab3_0_apply P Wt Bs p q hp x (rowsOf q hq (r3_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx3_par : ∀ w : Fin 35, w.val < 32 → ∀ (t : Fin cfg3.N) (a : Fin (win3 w).shape.rank),
    (win3 w).index t a = if a.val = 0 then t.val else 0 :=
  (by decide +kernel : ∀ w : Fin 35, w.val < 32 → ∀ (t : Fin grid3.N) (a : Fin (win3 w).shape.rank),
    (win3 w).index t a = if a.val = 0 then t.val else 0)

/-- the weight slice's and the bias slice's never move, and the output's row block moves with the point. -/
theorem idx3_rest : ∀ t : Fin cfg3.N, win3_32.index t (0 : Fin 3) = 0 ∧ win3_32.index t (1 : Fin 3) = 0
    ∧ win3_32.index t (2 : Fin 3) = 0 ∧ win3_33.index t (0 : Fin 2) = 0 ∧ win3_33.index t (1 : Fin 2) = 0
    ∧ win3_34.index t (0 : Fin 3) = 0 ∧ win3_34.index t (1 : Fin 3) = t.val ∧ win3_34.index t (2 : Fin 3) = 0 :=
  (by decide +kernel : ∀ t : Fin grid3.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr3 (c : Dev nD) : Fin 32 → FVec Ideal S4096x128 .f32 := fun j => match j with
    | ⟨0, _⟩ => V c (Pipeline.arrRef spec3 0)
    | ⟨1, _⟩ => V c (Pipeline.arrRef spec3 1)
    | ⟨2, _⟩ => V c (Pipeline.arrRef spec3 2)
    | ⟨3, _⟩ => V c (Pipeline.arrRef spec3 3)
    | ⟨4, _⟩ => V c (Pipeline.arrRef spec3 4)
    | ⟨5, _⟩ => V c (Pipeline.arrRef spec3 5)
    | ⟨6, _⟩ => V c (Pipeline.arrRef spec3 6)
    | ⟨7, _⟩ => V c (Pipeline.arrRef spec3 7)
    | ⟨8, _⟩ => V c (Pipeline.arrRef spec3 8)
    | ⟨9, _⟩ => V c (Pipeline.arrRef spec3 9)
    | ⟨10, _⟩ => V c (Pipeline.arrRef spec3 10)
    | ⟨11, _⟩ => V c (Pipeline.arrRef spec3 11)
    | ⟨12, _⟩ => V c (Pipeline.arrRef spec3 12)
    | ⟨13, _⟩ => V c (Pipeline.arrRef spec3 13)
    | ⟨14, _⟩ => V c (Pipeline.arrRef spec3 14)
    | ⟨15, _⟩ => V c (Pipeline.arrRef spec3 15)
    | ⟨16, _⟩ => V c (Pipeline.arrRef spec3 16)
    | ⟨17, _⟩ => V c (Pipeline.arrRef spec3 17)
    | ⟨18, _⟩ => V c (Pipeline.arrRef spec3 18)
    | ⟨19, _⟩ => V c (Pipeline.arrRef spec3 19)
    | ⟨20, _⟩ => V c (Pipeline.arrRef spec3 20)
    | ⟨21, _⟩ => V c (Pipeline.arrRef spec3 21)
    | ⟨22, _⟩ => V c (Pipeline.arrRef spec3 22)
    | ⟨23, _⟩ => V c (Pipeline.arrRef spec3 23)
    | ⟨24, _⟩ => V c (Pipeline.arrRef spec3 24)
    | ⟨25, _⟩ => V c (Pipeline.arrRef spec3 25)
    | ⟨26, _⟩ => V c (Pipeline.arrRef spec3 26)
    | ⟨27, _⟩ => V c (Pipeline.arrRef spec3 27)
    | ⟨28, _⟩ => V c (Pipeline.arrRef spec3 28)
    | ⟨29, _⟩ => V c (Pipeline.arrRef spec3 29)
    | ⟨30, _⟩ => V c (Pipeline.arrRef spec3 30)
    | ⟨31, _⟩ => V c (Pipeline.arrRef spec3 31)
    | ⟨_ + 32, h⟩ => absurd h (Nat.not_lt.2 (Nat.le_add_left _ _))

/-- The family at a literal index. -/
theorem parArr3_0 (c : Dev nD) : parArr3 V c 0 = V c (Pipeline.arrRef spec3 0) := by dsimp only [parArr3]
theorem parArr3_1 (c : Dev nD) : parArr3 V c 1 = V c (Pipeline.arrRef spec3 1) := by dsimp only [parArr3]
theorem parArr3_2 (c : Dev nD) : parArr3 V c 2 = V c (Pipeline.arrRef spec3 2) := by dsimp only [parArr3]
theorem parArr3_3 (c : Dev nD) : parArr3 V c 3 = V c (Pipeline.arrRef spec3 3) := by dsimp only [parArr3]
theorem parArr3_4 (c : Dev nD) : parArr3 V c 4 = V c (Pipeline.arrRef spec3 4) := by dsimp only [parArr3]
theorem parArr3_5 (c : Dev nD) : parArr3 V c 5 = V c (Pipeline.arrRef spec3 5) := by dsimp only [parArr3]
theorem parArr3_6 (c : Dev nD) : parArr3 V c 6 = V c (Pipeline.arrRef spec3 6) := by dsimp only [parArr3]
theorem parArr3_7 (c : Dev nD) : parArr3 V c 7 = V c (Pipeline.arrRef spec3 7) := by dsimp only [parArr3]
theorem parArr3_8 (c : Dev nD) : parArr3 V c 8 = V c (Pipeline.arrRef spec3 8) := by dsimp only [parArr3]
theorem parArr3_9 (c : Dev nD) : parArr3 V c 9 = V c (Pipeline.arrRef spec3 9) := by dsimp only [parArr3]
theorem parArr3_10 (c : Dev nD) : parArr3 V c 10 = V c (Pipeline.arrRef spec3 10) := by dsimp only [parArr3]
theorem parArr3_11 (c : Dev nD) : parArr3 V c 11 = V c (Pipeline.arrRef spec3 11) := by dsimp only [parArr3]
theorem parArr3_12 (c : Dev nD) : parArr3 V c 12 = V c (Pipeline.arrRef spec3 12) := by dsimp only [parArr3]
theorem parArr3_13 (c : Dev nD) : parArr3 V c 13 = V c (Pipeline.arrRef spec3 13) := by dsimp only [parArr3]
theorem parArr3_14 (c : Dev nD) : parArr3 V c 14 = V c (Pipeline.arrRef spec3 14) := by dsimp only [parArr3]
theorem parArr3_15 (c : Dev nD) : parArr3 V c 15 = V c (Pipeline.arrRef spec3 15) := by dsimp only [parArr3]
theorem parArr3_16 (c : Dev nD) : parArr3 V c 16 = V c (Pipeline.arrRef spec3 16) := by dsimp only [parArr3]
theorem parArr3_17 (c : Dev nD) : parArr3 V c 17 = V c (Pipeline.arrRef spec3 17) := by dsimp only [parArr3]
theorem parArr3_18 (c : Dev nD) : parArr3 V c 18 = V c (Pipeline.arrRef spec3 18) := by dsimp only [parArr3]
theorem parArr3_19 (c : Dev nD) : parArr3 V c 19 = V c (Pipeline.arrRef spec3 19) := by dsimp only [parArr3]
theorem parArr3_20 (c : Dev nD) : parArr3 V c 20 = V c (Pipeline.arrRef spec3 20) := by dsimp only [parArr3]
theorem parArr3_21 (c : Dev nD) : parArr3 V c 21 = V c (Pipeline.arrRef spec3 21) := by dsimp only [parArr3]
theorem parArr3_22 (c : Dev nD) : parArr3 V c 22 = V c (Pipeline.arrRef spec3 22) := by dsimp only [parArr3]
theorem parArr3_23 (c : Dev nD) : parArr3 V c 23 = V c (Pipeline.arrRef spec3 23) := by dsimp only [parArr3]
theorem parArr3_24 (c : Dev nD) : parArr3 V c 24 = V c (Pipeline.arrRef spec3 24) := by dsimp only [parArr3]
theorem parArr3_25 (c : Dev nD) : parArr3 V c 25 = V c (Pipeline.arrRef spec3 25) := by dsimp only [parArr3]
theorem parArr3_26 (c : Dev nD) : parArr3 V c 26 = V c (Pipeline.arrRef spec3 26) := by dsimp only [parArr3]
theorem parArr3_27 (c : Dev nD) : parArr3 V c 27 = V c (Pipeline.arrRef spec3 27) := by dsimp only [parArr3]
theorem parArr3_28 (c : Dev nD) : parArr3 V c 28 = V c (Pipeline.arrRef spec3 28) := by dsimp only [parArr3]
theorem parArr3_29 (c : Dev nD) : parArr3 V c 29 = V c (Pipeline.arrRef spec3 29) := by dsimp only [parArr3]
theorem parArr3_30 (c : Dev nD) : parArr3 V c 30 = V c (Pipeline.arrRef spec3 30) := by dsimp only [parArr3]
theorem parArr3_31 (c : Dev nD) : parArr3 V c 31 = V c (Pipeline.arrRef spec3 31) := by dsimp only [parArr3]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par3_apply (c : Dev nD) (t : Fin cfg3.N) (j : Fin 32) (r : Fin 512) (d : Fin 128) (r' : Fin 4096)
    (hr : r'.val = t.val * 512 + r.val) : par3 V c t j (ix2 r d) = parArr3 V c j (ix2 r' d) := by
  match j with
  | ⟨0, _⟩ =>
    show (V c (Pipeline.arrRef spec3 0) : FVec Ideal S4096x128 .f32) (((win3 0).rect t).emb (ix2 r d)) = (V c (Pipeline.arrRef spec3 0) : FVec Ideal S4096x128 .f32) (ix2 r' d)
    exact rows_apply _ _ _ t.val
      (by show (win3 0).index t (0 : Fin 2) * 512 = t.val * 512; rw [idx3_par 0 (by decide) t (0 : Fin 2)]; rfl)
      (by show (win3 0).index t (1 : Fin 2) * 128 = 0; rw [idx3_par 0 (by decide) t (1 : Fin 2)]; rfl) r d r' hr
  | ⟨1, _⟩ =>
    show (V c (Pipeline.arrRef spec3 1) : FVec Ideal S4096x128 .f32) (((win3 1).rect t).emb (ix2 r d)) = (V c (Pipeline.arrRef spec3 1) : FVec Ideal S4096x128 .f32) (ix2 r' d)
    exact rows_apply _ _ _ t.val
      (by show (win3 1).index t (0 : Fin 2) * 512 = t.val * 512; rw [idx3_par 1 (by decide) t (0 : Fin 2)]; rfl)
      (by show (win3 1).index t (1 : Fin 2) * 128 = 0; rw [idx3_par 1 (by decide) t (1 : Fin 2)]; rfl) r d r' hr
  | ⟨2, _⟩ =>
    show (V c (Pipeline.arrRef spec3 2) : FVec Ideal S4096x128 .f32) (((win3 2).rect t).emb (ix2 r d)) = (V c (Pipeline.arrRef spec3 2) : FVec Ideal S4096x128 .f32) (ix2 r' d)
    exact rows_apply _ _ _ t.val
      (by show (win3 2).index t (0 : Fin 2) * 512 = t.val * 512; rw [idx3_par 2 (by decide) t (0 : Fin 2)]; rfl)
      (by show (win3 2).index t (1 : Fin 2) * 128 = 0; rw [idx3_par 2 (by decide) t (1 : Fin 2)]; rfl) r d r' hr
  | ⟨3, _⟩ =>
    show (V c (Pipeline.arrRef spec3 3) : FVec Ideal S4096x128 .f32) (((win3 3).rect t).emb (ix2 r d)) = (V c (Pipeline.arrRef spec3 3) : FVec Ideal S4096x128 .f32) (ix2 r' d)
    exact rows_apply _ _ _ t.val
      (by show (win3 3).index t (0 : Fin 2) * 512 = t.val * 512; rw [idx3_par 3 (by decide) t (0 : Fin 2)]; rfl)
      (by show (win3 3).index t (1 : Fin 2) * 128 = 0; rw [idx3_par 3 (by decide) t (1 : Fin 2)]; rfl) r d r' hr
  | ⟨4, _⟩ =>
    show (V c (Pipeline.arrRef spec3 4) : FVec Ideal S4096x128 .f32) (((win3 4).rect t).emb (ix2 r d)) = (V c (Pipeline.arrRef spec3 4) : FVec Ideal S4096x128 .f32) (ix2 r' d)
    exact rows_apply _ _ _ t.val
      (by show (win3 4).index t (0 : Fin 2) * 512 = t.val * 512; rw [idx3_par 4 (by decide) t (0 : Fin 2)]; rfl)
      (by show (win3 4).index t (1 : Fin 2) * 128 = 0; rw [idx3_par 4 (by decide) t (1 : Fin 2)]; rfl) r d r' hr
  | ⟨5, _⟩ =>
    show (V c (Pipeline.arrRef spec3 5) : FVec Ideal S4096x128 .f32) (((win3 5).rect t).emb (ix2 r d)) = (V c (Pipeline.arrRef spec3 5) : FVec Ideal S4096x128 .f32) (ix2 r' d)
    exact rows_apply _ _ _ t.val
      (by show (win3 5).index t (0 : Fin 2) * 512 = t.val * 512; rw [idx3_par 5 (by decide) t (0 : Fin 2)]; rfl)
      (by show (win3 5).index t (1 : Fin 2) * 128 = 0; rw [idx3_par 5 (by decide) t (1 : Fin 2)]; rfl) r d r' hr
  | ⟨6, _⟩ =>
    show (V c (Pipeline.arrRef spec3 6) : FVec Ideal S4096x128 .f32) (((win3 6).rect t).emb (ix2 r d)) = (V c (Pipeline.arrRef spec3 6) : FVec Ideal S4096x128 .f32) (ix2 r' d)
    exact rows_apply _ _ _ t.val
      (by show (win3 6).index t (0 : Fin 2) * 512 = t.val * 512; rw [idx3_par 6 (by decide) t (0 : Fin 2)]; rfl)
      (by show (win3 6).index t (1 : Fin 2) * 128 = 0; rw [idx3_par 6 (by decide) t (1 : Fin 2)]; rfl) r d r' hr
  | ⟨7, _⟩ =>
    show (V c (Pipeline.arrRef spec3 7) : FVec Ideal S4096x128 .f32) (((win3 7).rect t).emb (ix2 r d)) = (V c (Pipeline.arrRef spec3 7) : FVec Ideal S4096x128 .f32) (ix2 r' d)
    exact rows_apply _ _ _ t.val
      (by show (win3 7).index t (0 : Fin 2) * 512 = t.val * 512; rw [idx3_par 7 (by decide) t (0 : Fin 2)]; rfl)
      (by show (win3 7).index t (1 : Fin 2) * 128 = 0; rw [idx3_par 7 (by decide) t (1 : Fin 2)]; rfl) r d r' hr
  | ⟨8, _⟩ =>
    show (V c (Pipeline.arrRef spec3 8) : FVec Ideal S4096x128 .f32) (((win3 8).rect t).emb (ix2 r d)) = (V c (Pipeline.arrRef spec3 8) : FVec Ideal S4096x128 .f32) (ix2 r' d)
    exact rows_apply _ _ _ t.val
      (by show (win3 8).index t (0 : Fin 2) * 512 = t.val * 512; rw [idx3_par 8 (by decide) t (0 : Fin 2)]; rfl)
      (by show (win3 8).index t (1 : Fin 2) * 128 = 0; rw [idx3_par 8 (by decide) t (1 : Fin 2)]; rfl) r d r' hr
  | ⟨9, _⟩ =>
    show (V c (Pipeline.arrRef spec3 9) : FVec Ideal S4096x128 .f32) (((win3 9).rect t).emb (ix2 r d)) = (V c (Pipeline.arrRef spec3 9) : FVec Ideal S4096x128 .f32) (ix2 r' d)
    exact rows_apply _ _ _ t.val
      (by show (win3 9).index t (0 : Fin 2) * 512 = t.val * 512; rw [idx3_par 9 (by decide) t (0 : Fin 2)]; rfl)
      (by show (win3 9).index t (1 : Fin 2) * 128 = 0; rw [idx3_par 9 (by decide) t (1 : Fin 2)]; rfl) r d r' hr
  | ⟨10, _⟩ =>
    show (V c (Pipeline.arrRef spec3 10) : FVec Ideal S4096x128 .f32) (((win3 10).rect t).emb (ix2 r d)) = (V c (Pipeline.arrRef spec3 10) : FVec Ideal S4096x128 .f32) (ix2 r' d)
    exact rows_apply _ _ _ t.val
      (by show (win3 10).index t (0 : Fin 2) * 512 = t.val * 512; rw [idx3_par 10 (by decide) t (0 : Fin 2)]; rfl)
      (by show (win3 10).index t (1 : Fin 2) * 128 = 0; rw [idx3_par 10 (by decide) t (1 : Fin 2)]; rfl) r d r' hr
  | ⟨11, _⟩ =>
    show (V c (Pipeline.arrRef spec3 11) : FVec Ideal S4096x128 .f32) (((win3 11).rect t).emb (ix2 r d)) = (V c (Pipeline.arrRef spec3 11) : FVec Ideal S4096x128 .f32) (ix2 r' d)
    exact rows_apply _ _ _ t.val
      (by show (win3 11).index t (0 : Fin 2) * 512 = t.val * 512; rw [idx3_par 11 (by decide) t (0 : Fin 2)]; rfl)
      (by show (win3 11).index t (1 : Fin 2) * 128 = 0; rw [idx3_par 11 (by decide) t (1 : Fin 2)]; rfl) r d r' hr
  | ⟨12, _⟩ =>
    show (V c (Pipeline.arrRef spec3 12) : FVec Ideal S4096x128 .f32) (((win3 12).rect t).emb (ix2 r d)) = (V c (Pipeline.arrRef spec3 12) : FVec Ideal S4096x128 .f32) (ix2 r' d)
    exact rows_apply _ _ _ t.val
      (by show (win3 12).index t (0 : Fin 2) * 512 = t.val * 512; rw [idx3_par 12 (by decide) t (0 : Fin 2)]; rfl)
      (by show (win3 12).index t (1 : Fin 2) * 128 = 0; rw [idx3_par 12 (by decide) t (1 : Fin 2)]; rfl) r d r' hr
  | ⟨13, _⟩ =>
    show (V c (Pipeline.arrRef spec3 13) : FVec Ideal S4096x128 .f32) (((win3 13).rect t).emb (ix2 r d)) = (V c (Pipeline.arrRef spec3 13) : FVec Ideal S4096x128 .f32) (ix2 r' d)
    exact rows_apply _ _ _ t.val
      (by show (win3 13).index t (0 : Fin 2) * 512 = t.val * 512; rw [idx3_par 13 (by decide) t (0 : Fin 2)]; rfl)
      (by show (win3 13).index t (1 : Fin 2) * 128 = 0; rw [idx3_par 13 (by decide) t (1 : Fin 2)]; rfl) r d r' hr
  | ⟨14, _⟩ =>
    show (V c (Pipeline.arrRef spec3 14) : FVec Ideal S4096x128 .f32) (((win3 14).rect t).emb (ix2 r d)) = (V c (Pipeline.arrRef spec3 14) : FVec Ideal S4096x128 .f32) (ix2 r' d)
    exact rows_apply _ _ _ t.val
      (by show (win3 14).index t (0 : Fin 2) * 512 = t.val * 512; rw [idx3_par 14 (by decide) t (0 : Fin 2)]; rfl)
      (by show (win3 14).index t (1 : Fin 2) * 128 = 0; rw [idx3_par 14 (by decide) t (1 : Fin 2)]; rfl) r d r' hr
  | ⟨15, _⟩ =>
    show (V c (Pipeline.arrRef spec3 15) : FVec Ideal S4096x128 .f32) (((win3 15).rect t).emb (ix2 r d)) = (V c (Pipeline.arrRef spec3 15) : FVec Ideal S4096x128 .f32) (ix2 r' d)
    exact rows_apply _ _ _ t.val
      (by show (win3 15).index t (0 : Fin 2) * 512 = t.val * 512; rw [idx3_par 15 (by decide) t (0 : Fin 2)]; rfl)
      (by show (win3 15).index t (1 : Fin 2) * 128 = 0; rw [idx3_par 15 (by decide) t (1 : Fin 2)]; rfl) r d r' hr
  | ⟨16, _⟩ =>
    show (V c (Pipeline.arrRef spec3 16) : FVec Ideal S4096x128 .f32) (((win3 16).rect t).emb (ix2 r d)) = (V c (Pipeline.arrRef spec3 16) : FVec Ideal S4096x128 .f32) (ix2 r' d)
    exact rows_apply _ _ _ t.val
      (by show (win3 16).index t (0 : Fin 2) * 512 = t.val * 512; rw [idx3_par 16 (by decide) t (0 : Fin 2)]; rfl)
      (by show (win3 16).index t (1 : Fin 2) * 128 = 0; rw [idx3_par 16 (by decide) t (1 : Fin 2)]; rfl) r d r' hr
  | ⟨17, _⟩ =>
    show (V c (Pipeline.arrRef spec3 17) : FVec Ideal S4096x128 .f32) (((win3 17).rect t).emb (ix2 r d)) = (V c (Pipeline.arrRef spec3 17) : FVec Ideal S4096x128 .f32) (ix2 r' d)
    exact rows_apply _ _ _ t.val
      (by show (win3 17).index t (0 : Fin 2) * 512 = t.val * 512; rw [idx3_par 17 (by decide) t (0 : Fin 2)]; rfl)
      (by show (win3 17).index t (1 : Fin 2) * 128 = 0; rw [idx3_par 17 (by decide) t (1 : Fin 2)]; rfl) r d r' hr
  | ⟨18, _⟩ =>
    show (V c (Pipeline.arrRef spec3 18) : FVec Ideal S4096x128 .f32) (((win3 18).rect t).emb (ix2 r d)) = (V c (Pipeline.arrRef spec3 18) : FVec Ideal S4096x128 .f32) (ix2 r' d)
    exact rows_apply _ _ _ t.val
      (by show (win3 18).index t (0 : Fin 2) * 512 = t.val * 512; rw [idx3_par 18 (by decide) t (0 : Fin 2)]; rfl)
      (by show (win3 18).index t (1 : Fin 2) * 128 = 0; rw [idx3_par 18 (by decide) t (1 : Fin 2)]; rfl) r d r' hr
  | ⟨19, _⟩ =>
    show (V c (Pipeline.arrRef spec3 19) : FVec Ideal S4096x128 .f32) (((win3 19).rect t).emb (ix2 r d)) = (V c (Pipeline.arrRef spec3 19) : FVec Ideal S4096x128 .f32) (ix2 r' d)
    exact rows_apply _ _ _ t.val
      (by show (win3 19).index t (0 : Fin 2) * 512 = t.val * 512; rw [idx3_par 19 (by decide) t (0 : Fin 2)]; rfl)
      (by show (win3 19).index t (1 : Fin 2) * 128 = 0; rw [idx3_par 19 (by decide) t (1 : Fin 2)]; rfl) r d r' hr
  | ⟨20, _⟩ =>
    show (V c (Pipeline.arrRef spec3 20) : FVec Ideal S4096x128 .f32) (((win3 20).rect t).emb (ix2 r d)) = (V c (Pipeline.arrRef spec3 20) : FVec Ideal S4096x128 .f32) (ix2 r' d)
    exact rows_apply _ _ _ t.val
      (by show (win3 20).index t (0 : Fin 2) * 512 = t.val * 512; rw [idx3_par 20 (by decide) t (0 : Fin 2)]; rfl)
      (by show (win3 20).index t (1 : Fin 2) * 128 = 0; rw [idx3_par 20 (by decide) t (1 : Fin 2)]; rfl) r d r' hr
  | ⟨21, _⟩ =>
    show (V c (Pipeline.arrRef spec3 21) : FVec Ideal S4096x128 .f32) (((win3 21).rect t).emb (ix2 r d)) = (V c (Pipeline.arrRef spec3 21) : FVec Ideal S4096x128 .f32) (ix2 r' d)
    exact rows_apply _ _ _ t.val
      (by show (win3 21).index t (0 : Fin 2) * 512 = t.val * 512; rw [idx3_par 21 (by decide) t (0 : Fin 2)]; rfl)
      (by show (win3 21).index t (1 : Fin 2) * 128 = 0; rw [idx3_par 21 (by decide) t (1 : Fin 2)]; rfl) r d r' hr
  | ⟨22, _⟩ =>
    show (V c (Pipeline.arrRef spec3 22) : FVec Ideal S4096x128 .f32) (((win3 22).rect t).emb (ix2 r d)) = (V c (Pipeline.arrRef spec3 22) : FVec Ideal S4096x128 .f32) (ix2 r' d)
    exact rows_apply _ _ _ t.val
      (by show (win3 22).index t (0 : Fin 2) * 512 = t.val * 512; rw [idx3_par 22 (by decide) t (0 : Fin 2)]; rfl)
      (by show (win3 22).index t (1 : Fin 2) * 128 = 0; rw [idx3_par 22 (by decide) t (1 : Fin 2)]; rfl) r d r' hr
  | ⟨23, _⟩ =>
    show (V c (Pipeline.arrRef spec3 23) : FVec Ideal S4096x128 .f32) (((win3 23).rect t).emb (ix2 r d)) = (V c (Pipeline.arrRef spec3 23) : FVec Ideal S4096x128 .f32) (ix2 r' d)
    exact rows_apply _ _ _ t.val
      (by show (win3 23).index t (0 : Fin 2) * 512 = t.val * 512; rw [idx3_par 23 (by decide) t (0 : Fin 2)]; rfl)
      (by show (win3 23).index t (1 : Fin 2) * 128 = 0; rw [idx3_par 23 (by decide) t (1 : Fin 2)]; rfl) r d r' hr
  | ⟨24, _⟩ =>
    show (V c (Pipeline.arrRef spec3 24) : FVec Ideal S4096x128 .f32) (((win3 24).rect t).emb (ix2 r d)) = (V c (Pipeline.arrRef spec3 24) : FVec Ideal S4096x128 .f32) (ix2 r' d)
    exact rows_apply _ _ _ t.val
      (by show (win3 24).index t (0 : Fin 2) * 512 = t.val * 512; rw [idx3_par 24 (by decide) t (0 : Fin 2)]; rfl)
      (by show (win3 24).index t (1 : Fin 2) * 128 = 0; rw [idx3_par 24 (by decide) t (1 : Fin 2)]; rfl) r d r' hr
  | ⟨25, _⟩ =>
    show (V c (Pipeline.arrRef spec3 25) : FVec Ideal S4096x128 .f32) (((win3 25).rect t).emb (ix2 r d)) = (V c (Pipeline.arrRef spec3 25) : FVec Ideal S4096x128 .f32) (ix2 r' d)
    exact rows_apply _ _ _ t.val
      (by show (win3 25).index t (0 : Fin 2) * 512 = t.val * 512; rw [idx3_par 25 (by decide) t (0 : Fin 2)]; rfl)
      (by show (win3 25).index t (1 : Fin 2) * 128 = 0; rw [idx3_par 25 (by decide) t (1 : Fin 2)]; rfl) r d r' hr
  | ⟨26, _⟩ =>
    show (V c (Pipeline.arrRef spec3 26) : FVec Ideal S4096x128 .f32) (((win3 26).rect t).emb (ix2 r d)) = (V c (Pipeline.arrRef spec3 26) : FVec Ideal S4096x128 .f32) (ix2 r' d)
    exact rows_apply _ _ _ t.val
      (by show (win3 26).index t (0 : Fin 2) * 512 = t.val * 512; rw [idx3_par 26 (by decide) t (0 : Fin 2)]; rfl)
      (by show (win3 26).index t (1 : Fin 2) * 128 = 0; rw [idx3_par 26 (by decide) t (1 : Fin 2)]; rfl) r d r' hr
  | ⟨27, _⟩ =>
    show (V c (Pipeline.arrRef spec3 27) : FVec Ideal S4096x128 .f32) (((win3 27).rect t).emb (ix2 r d)) = (V c (Pipeline.arrRef spec3 27) : FVec Ideal S4096x128 .f32) (ix2 r' d)
    exact rows_apply _ _ _ t.val
      (by show (win3 27).index t (0 : Fin 2) * 512 = t.val * 512; rw [idx3_par 27 (by decide) t (0 : Fin 2)]; rfl)
      (by show (win3 27).index t (1 : Fin 2) * 128 = 0; rw [idx3_par 27 (by decide) t (1 : Fin 2)]; rfl) r d r' hr
  | ⟨28, _⟩ =>
    show (V c (Pipeline.arrRef spec3 28) : FVec Ideal S4096x128 .f32) (((win3 28).rect t).emb (ix2 r d)) = (V c (Pipeline.arrRef spec3 28) : FVec Ideal S4096x128 .f32) (ix2 r' d)
    exact rows_apply _ _ _ t.val
      (by show (win3 28).index t (0 : Fin 2) * 512 = t.val * 512; rw [idx3_par 28 (by decide) t (0 : Fin 2)]; rfl)
      (by show (win3 28).index t (1 : Fin 2) * 128 = 0; rw [idx3_par 28 (by decide) t (1 : Fin 2)]; rfl) r d r' hr
  | ⟨29, _⟩ =>
    show (V c (Pipeline.arrRef spec3 29) : FVec Ideal S4096x128 .f32) (((win3 29).rect t).emb (ix2 r d)) = (V c (Pipeline.arrRef spec3 29) : FVec Ideal S4096x128 .f32) (ix2 r' d)
    exact rows_apply _ _ _ t.val
      (by show (win3 29).index t (0 : Fin 2) * 512 = t.val * 512; rw [idx3_par 29 (by decide) t (0 : Fin 2)]; rfl)
      (by show (win3 29).index t (1 : Fin 2) * 128 = 0; rw [idx3_par 29 (by decide) t (1 : Fin 2)]; rfl) r d r' hr
  | ⟨30, _⟩ =>
    show (V c (Pipeline.arrRef spec3 30) : FVec Ideal S4096x128 .f32) (((win3 30).rect t).emb (ix2 r d)) = (V c (Pipeline.arrRef spec3 30) : FVec Ideal S4096x128 .f32) (ix2 r' d)
    exact rows_apply _ _ _ t.val
      (by show (win3 30).index t (0 : Fin 2) * 512 = t.val * 512; rw [idx3_par 30 (by decide) t (0 : Fin 2)]; rfl)
      (by show (win3 30).index t (1 : Fin 2) * 128 = 0; rw [idx3_par 30 (by decide) t (1 : Fin 2)]; rfl) r d r' hr
  | ⟨31, _⟩ =>
    show (V c (Pipeline.arrRef spec3 31) : FVec Ideal S4096x128 .f32) (((win3 31).rect t).emb (ix2 r d)) = (V c (Pipeline.arrRef spec3 31) : FVec Ideal S4096x128 .f32) (ix2 r' d)
    exact rows_apply _ _ _ t.val
      (by show (win3 31).index t (0 : Fin 2) * 512 = t.val * 512; rw [idx3_par 31 (by decide) t (0 : Fin 2)]; rfl)
      (by show (win3 31).index t (1 : Fin 2) * 128 = 0; rw [idx3_par 31 (by decide) t (1 : Fin 2)]; rfl) r d r' hr
  | ⟨_ + 32, h⟩ => exact absurd h (Nat.not_lt.2 (Nat.le_add_left _ _))

/-- The weight window's block is the whole weight slice at every point. -/
theorem iblk3_32_eq (c : Dev nD) (t : Fin cfg3.N) :
    (iblk3 V c 32 t : Vec Ideal S8x128x128 .f32) = (V c (Pipeline.arrRef spec3 32) : FVec Ideal S8x128x128 .f32) := by
  obtain ⟨e0, e1, e2, -⟩ := idx3_rest t
  funext y
  unfold iblk3
  rw [View.read_apply]
  refine congrArg (V c (Pipeline.arrRef spec3 32)) (funext fun a => Fin.ext ?_)
  match a with
  | ⟨0, _⟩ => show win3_32.index t (0 : Fin 3) * 8 + 1 * (y 0).val = (y 0).val; rw [e0]; omega
  | ⟨1, _⟩ => show win3_32.index t (1 : Fin 3) * 128 + 1 * (y 1).val = (y 1).val; rw [e1]; omega
  | ⟨2, _⟩ => show win3_32.index t (2 : Fin 3) * 128 + 1 * (y 2).val = (y 2).val; rw [e2]; omega

/-- The bias window's block is the whole bias slice at every point. -/
theorem iblk3_33_eq (c : Dev nD) (t : Fin cfg3.N) :
    (iblk3 V c 33 t : Vec Ideal S8x128 .f32) = (V c (Pipeline.arrRef spec3 33) : FVec Ideal S8x128 .f32) := by
  obtain ⟨-, -, -, e0, e1, -⟩ := idx3_rest t
  funext y
  unfold iblk3
  rw [View.read_apply]
  refine congrArg (V c (Pipeline.arrRef spec3 33)) (funext fun a => Fin.ext ?_)
  match a with
  | ⟨0, _⟩ => show win3_33.index t (0 : Fin 2) * 8 + 1 * (y 0).val = (y 0).val; rw [e0]; omega
  | ⟨1, _⟩ => show win3_33.index t (1 : Fin 2) * 128 + 1 * (y 1).val = (y 1).val; rw [e1]; omega

/-! ## What each point writes back, and the cover -/

/-- What point `t` writes back is block `t` of the region's function of the entry arrays. -/
theorem flushed3_eq (c : Dev nD) (t : Fin cfg3.N) :
    (dat3 (F := Ideal) V c).flushed 34 t = ((cfg3.win 34).blk t).view.read (Elt Ideal)
      (regionFn (parArr3 V c) (V c (Pipeline.arrRef spec3 32)) (V c (Pipeline.arrRef spec3 33))) := by
  show (cfg3.win 34).cut (grid3.coords t) ((dat3 V c).after 34 t) = _
  rw [after3_34, iblk3_32_eq, iblk3_33_eq]
  obtain ⟨-, -, -, -, -, e0, e1, e2⟩ := idx3_rest t
  have ht : t.val < 8 := Nat.lt_of_lt_of_eq t.isLt N_3
  funext j
  rw [View.read_apply]
  refine (out3_34_apply (parArr3 V c) (V c (Pipeline.arrRef spec3 32)) (V c (Pipeline.arrRef spec3 33)) (par3 V c t) t.val
    (fun j r d r' hr => par3_apply V c t j r d r' hr) ht j).trans ?_
  refine congrArg (regionFn (parArr3 V c) (V c (Pipeline.arrRef spec3 32)) (V c (Pipeline.arrRef spec3 33)))
    (funext fun a => Fin.ext ?_)
  match a with
  | ⟨0, _⟩ => show (j 0).val = win3_34.index t (0 : Fin 3) * 8 + 1 * (j 0).val; rw [e0]; omega
  | ⟨1, _⟩ => show t.val * 512 + (j 1).val = win3_34.index t (1 : Fin 3) * 512 + 1 * (j 1).val; rw [e1]; omega
  | ⟨2, _⟩ => show (j 2).val = win3_34.index t (2 : Fin 3) * 128 + 1 * (j 2).val; rw [e2]; omega

/-- An index of the output array is in point `t`'s block iff each coordinate is in the block's range on its axis. -/
theorem mem_blk3 (t : Fin cfg3.N) (i : S8x4096x128.Idx) :
    i ∈ ((cfg3.win 34).blk t).view.set ↔ ∀ a : Fin 3, win3_34.index t a * S8x512x128.size a ≤ (i a).val
      ∧ (i a).val < win3_34.index t a * S8x512x128.size a + S8x512x128.size a := by
  show i ∈ ((View.whole (Pipeline.arrRef spec3 34)).slice (win3_34.rect t)).set ↔ _
  rw [View.set_slice_whole, Rect.mem_set_unit]
  exact Iff.rfl

/-- Every index of the output array is in the block of the point its row falls in. -/
theorem cover3 (i : S8x4096x128.Idx) : ∃ t : Fin cfg3.N, (cfg3.win 34).flush t = true ∧ i ∈ ((cfg3.win 34).blk t).view.set := by
  have hi0 : (i 0).val < 8 := (i 0).isLt
  have hi1 : (i 1).val < 4096 := (i 1).isLt
  have hi2 : (i 2).val < 128 := (i 2).isLt
  have hN : cfg3.N = 8 := N_3
  let t : Fin cfg3.N := ⟨(i 1).val / 512, by rw [hN]; omega⟩
  obtain ⟨-, -, -, -, -, e0, e1, e2⟩ := idx3_rest t
  have ht : t.val = (i 1).val / 512 := rfl
  refine ⟨t, flush3_34 t, ?_⟩
  rw [mem_blk3]
  intro a
  match a with
  | ⟨0, _⟩ => show win3_34.index t (0 : Fin 3) * 8 ≤ (i 0).val ∧ (i 0).val < win3_34.index t (0 : Fin 3) * 8 + 8; rw [e0]; omega
  | ⟨1, _⟩ => show win3_34.index t (1 : Fin 3) * 512 ≤ (i 1).val ∧ (i 1).val < win3_34.index t (1 : Fin 3) * 512 + 512; rw [e1, ht]; omega
  | ⟨2, _⟩ => show win3_34.index t (2 : Fin 3) * 128 ≤ (i 2).val ∧ (i 2).val < win3_34.index t (2 : Fin 3) * 128 + 128; rw [e2]; omega

/-! ## The region's output array -/

/-- After the region its output array holds the region's function of the arrays the region found. -/
theorem regval3 (c : Dev nD) : (dat3 (F := Ideal) V c).arrAt 34 cfg3.N
    = regionFn (parArr3 V c) (V c (Pipeline.arrRef spec3 32)) (V c (Pipeline.arrRef spec3 33)) :=
  (dat3 (F := Ideal) V c).arrAt_eq_of_cover 34 _ (fun t _ => flushed3_eq V c t) cover3

end Cert.KernelIdeal.Hand

end
-- ==== Proof.KI.Chain3.lean ====
/-
  Layer 2 of the graph is what pallas_call 3 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain2
import proofs.«135270_j33062658245245_1_alg».proof.Proof.KI.RegVal3

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 3 leaves in its output array is layer 2. -/
theorem chain3 (c : Dev nD) :
    (W8 m c main_v45 : FVec Ideal S8x4096x128 .f32) = layerArr (argX m c) (argW m c) (argB m c) 2 := by
  rw [W8_out m c, regval3 (rd (W7 m)) c]
  refine layer_of_operands (argX m c) (argW m c) (argB m c) 2 (by decide) _ _ _ (fun w => ?_) ?_ ?_
  · -- the 32 parent windows: window i holds a reshaped slab of an earlier output array, the array the table of parents names
    match w with
    | ⟨0, _⟩ => exact (congrFun (V7_eq m c).symm _).trans ((opnd3_0 m (outsH m) c).trans (slabL0 m c 0 _ _ (nOf 2 0) (by decide)))
    | ⟨1, _⟩ => exact (congrFun (V7_eq m c).symm _).trans ((opnd3_1 m (outsH m) c).trans (slabL1 m c 5 _ _ (nOf 2 1) (by decide)))
    | ⟨2, _⟩ => exact (congrFun (V7_eq m c).symm _).trans ((opnd3_2 m (outsH m) c).trans (node0L m c _ (nOf 2 2) (by decide)))
    | ⟨3, _⟩ => exact (congrFun (V7_eq m c).symm _).trans ((opnd3_3 m (outsH m) c).trans (slabL1 m c 0 _ _ (nOf 2 3) (by decide)))
    | ⟨4, _⟩ => exact (congrFun (V7_eq m c).symm _).trans ((opnd3_4 m (outsH m) c).trans (slabL0 m c 0 _ _ (nOf 2 4) (by decide)))
    | ⟨5, _⟩ => exact (congrFun (V7_eq m c).symm _).trans ((opnd3_5 m (outsH m) c).trans (slabL0 m c 4 _ _ (nOf 2 5) (by decide)))
    | ⟨6, _⟩ => exact (congrFun (V7_eq m c).symm _).trans ((opnd3_6 m (outsH m) c).trans (slabL0 m c 7 _ _ (nOf 2 6) (by decide)))
    | ⟨7, _⟩ => exact (congrFun (V7_eq m c).symm _).trans ((opnd3_7 m (outsH m) c).trans (slabL0 m c 6 _ _ (nOf 2 7) (by decide)))
    | ⟨8, _⟩ => exact (congrFun (V7_eq m c).symm _).trans ((opnd3_8 m (outsH m) c).trans (slabL0 m c 5 _ _ (nOf 2 8) (by decide)))
    | ⟨9, _⟩ => exact (congrFun (V7_eq m c).symm _).trans ((opnd3_9 m (outsH m) c).trans (node0L m c _ (nOf 2 9) (by decide)))
    | ⟨10, _⟩ => exact (congrFun (V7_eq m c).symm _).trans ((opnd3_10 m (outsH m) c).trans (node0L m c _ (nOf 2 10) (by decide)))
    | ⟨11, _⟩ => exact (congrFun (V7_eq m c).symm _).trans ((opnd3_11 m (outsH m) c).trans (slabL0 m c 1 _ _ (nOf 2 11) (by decide)))
    | ⟨12, _⟩ => exact (congrFun (V7_eq m c).symm _).trans ((opnd3_12 m (outsH m) c).trans (node0L m c _ (nOf 2 12) (by decide)))
    | ⟨13, _⟩ => exact (congrFun (V7_eq m c).symm _).trans ((opnd3_13 m (outsH m) c).trans (slabL1 m c 2 _ _ (nOf 2 13) (by decide)))
    | ⟨14, _⟩ => exact (congrFun (V7_eq m c).symm _).trans ((opnd3_14 m (outsH m) c).trans (slabL0 m c 7 _ _ (nOf 2 14) (by decide)))
    | ⟨15, _⟩ => exact (congrFun (V7_eq m c).symm _).trans ((opnd3_15 m (outsH m) c).trans (slabL1 m c 2 _ _ (nOf 2 15) (by decide)))
    | ⟨16, _⟩ => exact (congrFun (V7_eq m c).symm _).trans ((opnd3_16 m (outsH m) c).trans (slabL0 m c 3 _ _ (nOf 2 16) (by decide)))
    | ⟨17, _⟩ => exact (congrFun (V7_eq m c).symm _).trans ((opnd3_17 m (outsH m) c).trans (slabL1 m c 1 _ _ (nOf 2 17) (by decide)))
    | ⟨18, _⟩ => exact (congrFun (V7_eq m c).symm _).trans ((opnd3_18 m (outsH m) c).trans (slabL1 m c 3 _ _ (nOf 2 18) (by decide)))
    | ⟨19, _⟩ => exact (congrFun (V7_eq m c).symm _).trans ((opnd3_19 m (outsH m) c).trans (slabL0 m c 5 _ _ (nOf 2 19) (by decide)))
    | ⟨20, _⟩ => exact (congrFun (V7_eq m c).symm _).trans ((opnd3_20 m (outsH m) c).trans (slabL0 m c 6 _ _ (nOf 2 20) (by decide)))
    | ⟨21, _⟩ => exact (congrFun (V7_eq m c).symm _).trans ((opnd3_21 m (outsH m) c).trans (slabL1 m c 7 _ _ (nOf 2 21) (by decide)))
    | ⟨22, _⟩ => exact (congrFun (V7_eq m c).symm _).trans ((opnd3_22 m (outsH m) c).trans (slabL1 m c 4 _ _ (nOf 2 22) (by decide)))
    | ⟨23, _⟩ => exact (congrFun (V7_eq m c).symm _).trans ((opnd3_23 m (outsH m) c).trans (slabL1 m c 7 _ _ (nOf 2 23) (by decide)))
    | ⟨24, _⟩ => exact (congrFun (V7_eq m c).symm _).trans ((opnd3_24 m (outsH m) c).trans (slabL0 m c 5 _ _ (nOf 2 24) (by decide)))
    | ⟨25, _⟩ => exact (congrFun (V7_eq m c).symm _).trans ((opnd3_25 m (outsH m) c).trans (slabL1 m c 2 _ _ (nOf 2 25) (by decide)))
    | ⟨26, _⟩ => exact (congrFun (V7_eq m c).symm _).trans ((opnd3_26 m (outsH m) c).trans (slabL1 m c 7 _ _ (nOf 2 26) (by decide)))
    | ⟨27, _⟩ => exact (congrFun (V7_eq m c).symm _).trans ((opnd3_27 m (outsH m) c).trans (slabL1 m c 2 _ _ (nOf 2 27) (by decide)))
    | ⟨28, _⟩ => exact (congrFun (V7_eq m c).symm _).trans ((opnd3_28 m (outsH m) c).trans (slabL1 m c 5 _ _ (nOf 2 28) (by decide)))
    | ⟨29, _⟩ => exact (congrFun (V7_eq m c).symm _).trans ((opnd3_29 m (outsH m) c).trans (slabL1 m c 2 _ _ (nOf 2 29) (by decide)))
    | ⟨30, _⟩ => exact (congrFun (V7_eq m c).symm _).trans ((opnd3_30 m (outsH m) c).trans (slabL1 m c 2 _ _ (nOf 2 30) (by decide)))
    | ⟨31, _⟩ => exact (congrFun (V7_eq m c).symm _).trans ((opnd3_31 m (outsH m) c).trans (slabL0 m c 5 _ _ (nOf 2 31) (by decide)))
    | ⟨n + 32, h⟩ => exact absurd h (by omega)
  · -- the transposed weights of the layer's eight nodes
    exact (congrFun (V7_eq m c).symm _).trans ((opnd3_32 m (outsH m) c).trans (wt_slice (argW m c) (8 * 2 + 1) _ _))
  · -- the biases of the layer's eight nodes
    exact (congrFun (V7_eq m c).symm _).trans ((opnd3_33 m (outsH m) c).trans (b_slice (argB m c) (8 * 2 + 1) _))

/-- The slabs of layer 2 as the later regions read them: slab `k` with its unit axis dropped is node `8 · 2 + 1 + k`
    (`n` names the node in any closed form, `hn` a closed equation of naturals). -/
theorem slabL2 (c : Dev nD) (k : Nat) (h₁ : S8x4096x128.Slices ![k, 0, 0] S1x4096x128)
    (h₂ : S1x4096x128.ShapeCasts S4096x128) (n : Nat) (hn : 8 * 2 + 1 + k = n) :
    shapeCast S4096x128 (extractStridedSlice S1x4096x128 ![k, 0, 0] (outsH m 8 main_v45 c) h₁) h₂
      = nodeArr (argX m c) (argW m c) (argB m c) n :=
  slab_of_layer (argX m c) (argW m c) (argB m c) (outsH m 8 main_v45 c) 2 (chain3 m c) k h₁ h₂ n hn

end Cert.KernelIdeal.Hand

end
-- ==== Proof.KI.Pay4.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay4_slab0 :
    k4_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay4_slab1 :
    k4_pay3 (F := Ideal) (k4_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay4_slab2 :
    k4_pay7 (F := Ideal) (k4_pay4 p0 p1 p2 p3) (k4_pay5 wk) (k4_pay6 bk) (ix3 0 r e) = slabVal p0 p1 p2 p3 wk bk r e :=
  slabFn_sum4_apply p0 p1 p2 p3 wk bk r e

/-- Slab 3: as slab 0. -/
theorem pay4_slab3 :
    k4_pay8 (F := Ideal) p0 p1 p2 p3 wk bk (ix3 0 r e) = slabVal p0 p1 p2 p3 wk bk r e :=
  slabFn_sum4_apply p0 p1 p2 p3 wk bk r e

/-- Slab 4: as slab 0. -/
theorem pay4_slab4 :
    k4_pay9 (F := Ideal) p0 p1 p2 p3 wk bk (ix3 0 r e) = slabVal p0 p1 p2 p3 wk bk r e :=
  slabFn_sum4_apply p0 p1 p2 p3 wk bk r e

/-- Slab 5: as slab 1. -/
theorem pay4_slab5 :
    k4_pay11 (F := Ideal) (k4_pay10 p0 p1 p2) p3 wk bk (ix3 0 r e) = slabVal p0 p1 p2 p3 wk bk r e :=
  slabFn_sum4_apply p0 p1 p2 p3 wk bk r e

/-- Slab 6: as slab 2. -/
theorem pay4_slab6 :
    k4_pay15 (F := Ideal) (k4_pay12 p0 p1 p2 p3) (k4_pay13 wk) (k4_pay14 bk) (ix3 0 r e) = slabVal p0 p1 p2 p3 wk bk r e :=
  slabFn_sum4_apply p0 p1 p2 p3 wk bk r e

/-- Slab 7: as slab 0. -/
theorem pay4_slab7 :
    k4_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal4.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R4
import proofs.«135270_j33062658245245_1_alg».proof.Proof.KI.Pay4
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab4_0_apply (x : S1x512x128.Idx) (i : S8x4096x128.Idx) (h0 : (i 0).val = 0)
    (h1 : (i 1).val = q * 512 + (x 1).val) (h2 : (i 2).val = (x 2).val) :
    slab4_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_0
  simp only [View.ld_unit_zero (S := S512x128) hz2]
  refine (pay4_slab0 (p 0) (p 1) (p 2) (p 3) (View.ld Wt r4_w0) (View.ld Bs r4_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab4_1_apply (x : S1x512x128.Idx) (i : S8x4096x128.Idx) (h0 : (i 0).val = 1)
    (h1 : (i 1).val = q * 512 + (x 1).val) (h2 : (i 2).val = (x 2).val) :
    slab4_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_1
  simp only [View.ld_unit_zero (S := S512x128) hz2]
  refine (pay4_slab1 (p 4) (p 5) (p 6) (p 7) (View.ld Wt r4_w1) (View.ld Bs r4_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab4_2_apply (x : S1x512x128.Idx) (i : S8x4096x128.Idx) (h0 : (i 0).val = 2)
    (h1 : (i 1).val = q * 512 + (x 1).val) (h2 : (i 2).val = (x 2).val) :
    slab4_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_2
  simp only [View.ld_unit_zero (S := S512x128) hz2]
  refine (pay4_slab2 (p 8) (p 9) (p 10) (p 11) (View.ld Wt r4_w2) (View.ld Bs r4_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab4_3_apply (x : S1x512x128.Idx) (i : S8x4096x128.Idx) (h0 : (i 0).val = 3)
    (h1 : (i 1).val = q * 512 + (x 1).val) (h2 : (i 2).val = (x 2).val) :
    slab4_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_3
  simp only [View.ld_unit_zero (S := S512x128) hz2]
  refine (pay4_slab3 (p 12) (p 13) (p 14) (p 15) (View.ld Wt r4_w3) (View.ld Bs r4_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab4_4_apply (x : S1x512x128.Idx) (i : S8x4096x128.Idx) (h0 : (i 0).val = 4)
    (h1 : (i 1).val = q * 512 + (x 1).val) (h2 : (i 2).val = (x 2).val) :
    slab4_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_4
  simp only [View.ld_unit_zero (S := S512x128) hz2]
  refine (pay4_slab4 (p 16) (p 17) (p 18) (p 19) (View.ld Wt r4_w4) (View.ld Bs r4_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab4_5_apply (x : S1x512x128.Idx) (i : S8x4096x128.Idx) (h0 : (i 0).val = 5)
    (h1 : (i 1).val = q * 512 + (x 1).val) (h2 : (i 2).val = (x 2).val) :
    slab4_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_5
  simp only [View.ld_unit_zero (S := S512x128) hz2]
  refine (pay4_slab5 (p 20) (p 21) (p 22) (p 23) (View.ld Wt r4_w5) (View.ld Bs r4_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab4_6_apply (x : S1x512x128.Idx) (i : S8x4096x128.Idx) (h0 : (i 0).val = 6)
    (h1 : (i 1).val = q * 512 + (x 1).val) (h2 : (i 2).val = (x 2).val) :
    slab4_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_6
  simp only [View.ld_unit_zero (S := S512x128) hz2]
  refine (pay4_slab6 (p 24) (p 25) (p 26) (p 27) (View.ld Wt r4_w6) (View.ld Bs r4_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab4_7_apply (x : S1x512x128.Idx) (i : S8x4096x128.Idx) (h0 : (i 0).val = 7)
    (h1 : (i 1).val = q * 512 + (x 1).val) (h2 : (i 2).val = (x 2).val) :
    slab4_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab4_7
  simp only [View.ld_unit_zero (S := S512x128) hz2]
  refine (pay4_slab7 (p 28) (p 29) (p 30) (p 31) (View.ld Wt r4_w7) (View.ld Bs r4_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out4_34_apply (hq : q < 8) (y : S8x512x128.Idx) :
    out4_34 (F := Ideal) p Wt Bs y = regionFn P Wt Bs (rowsOf q hq y) := by
  unfold out4_34
  refine View.canon_apply_of_pieces (fun y' => regionFn P Wt Bs (rowsOf q hq y')) _ ?_ y
    (cover4_34 (F := Ideal) _ _ _ _ _ _ _ _ y)
  intro pc hpc
  rcases List.mem_cons.mp hpc with rfl | hpc
  · exact fun x => slab4_7_apply P Wt Bs p q hp x (rowsOf q hq (r4_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_6_apply P Wt Bs p q hp x (rowsOf q hq (r4_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_5_apply P Wt Bs p q hp x (rowsOf q hq (r4_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_4_apply P Wt Bs p q hp x (rowsOf q hq (r4_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_3_apply P Wt Bs p q hp x (rowsOf q hq (r4_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_2_apply P Wt Bs p q hp x (rowsOf q hq (r4_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_1_apply P Wt Bs p q hp x (rowsOf q hq (r4_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab4_0_apply P Wt Bs p q hp x (rowsOf q hq (r4_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx4_par : ∀ w : Fin 35, w.val < 32 → ∀ (t : Fin cfg4.N) (a : Fin (win4 w).shape.rank),
    (win4 w).index t a = if a.val = 0 then t.val else 0 :=
  (by decide +kernel : ∀ w : Fin 35, w.val < 32 → ∀ (t : Fin grid4.N) (a : Fin (win4 w).shape.rank),
    (win4 w).index t a = if a.val = 0 then t.val else 0)

/-- the weight slice's and the bias slice's never move, and the output's row block moves with the point. -/
theorem idx4_rest : ∀ t : Fin cfg4.N, win4_32.index t (0 : Fin 3) = 0 ∧ win4_32.index t (1 : Fin 3) = 0
    ∧ win4_32.index t (2 : Fin 3) = 0 ∧ win4_33.index t (0 : Fin 2) = 0 ∧ win4_33.index t (1 : Fin 2) = 0
    ∧ win4_34.index t (0 : Fin 3) = 0 ∧ win4_34.index t (1 : Fin 3) = t.val ∧ win4_34.index t (2 : Fin 3) = 0 :=
  (by decide +kernel : ∀ t : Fin grid4.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr4 (c : Dev nD) : Fin 32 → FVec Ideal S4096x128 .f32 := fun j => match j with
    | ⟨0, _⟩ => V c (Pipeline.arrRef spec4 0)
    | ⟨1, _⟩ => V c (Pipeline.arrRef spec4 1)
    | ⟨2, _⟩ => V c (Pipeline.arrRef spec4 2)
    | ⟨3, _⟩ => V c (Pipeline.arrRef spec4 3)
    | ⟨4, _⟩ => V c (Pipeline.arrRef spec4 4)
    | ⟨5, _⟩ => V c (Pipeline.arrRef spec4 5)
    | ⟨6, _⟩ => V c (Pipeline.arrRef spec4 6)
    | ⟨7, _⟩ => V c (Pipeline.arrRef spec4 7)
    | ⟨8, _⟩ => V c (Pipeline.arrRef spec4 8)
    | ⟨9, _⟩ => V c (Pipeline.arrRef spec4 9)
    | ⟨10, _⟩ => V c (Pipeline.arrRef spec4 10)
    | ⟨11, _⟩ => V c (Pipeline.arrRef spec4 11)
    | ⟨12, _⟩ => V c (Pipeline.arrRef spec4 12)
    | ⟨13, _⟩ => V c (Pipeline.arrRef spec4 13)
    | ⟨14, _⟩ => V c (Pipeline.arrRef spec4 14)
    | ⟨15, _⟩ => V c (Pipeline.arrRef spec4 15)
    | ⟨16, _⟩ => V c (Pipeline.arrRef spec4 16)
    | ⟨17, _⟩ => V c (Pipeline.arrRef spec4 17)
    | ⟨18, _⟩ => V c (Pipeline.arrRef spec4 18)
    | ⟨19, _⟩ => V c (Pipeline.arrRef spec4 19)
    | ⟨20, _⟩ => V c (Pipeline.arrRef spec4 20)
    | ⟨21, _⟩ => V c (Pipeline.arrRef spec4 21)
    | ⟨22, _⟩ => V c (Pipeline.arrRef spec4 22)
    | ⟨23, _⟩ => V c (Pipeline.arrRef spec4 23)
    | ⟨24, _⟩ => V c (Pipeline.arrRef spec4 24)
    | ⟨25, _⟩ => V c (Pipeline.arrRef spec4 25)
    | ⟨26, _⟩ => V c (Pipeline.arrRef spec4 26)
    | ⟨27, _⟩ => V c (Pipeline.arrRef spec4 27)
    | ⟨28, _⟩ => V c (Pipeline.arrRef spec4 28)
    | ⟨29, _⟩ => V c (Pipeline.arrRef spec4 29)
    | ⟨30, _⟩ => V c (Pipeline.arrRef spec4 30)
    | ⟨31, _⟩ => V c (Pipeline.arrRef spec4 31)
    | ⟨_ + 32, h⟩ => absurd h (Nat.not_lt.2 (Nat.le_add_left _ _))

/-- The family at a literal index. -/
theorem parArr4_0 (c : Dev nD) : parArr4 V c 0 = V c (Pipeline.arrRef spec4 0) := by dsimp only [parArr4]
theorem parArr4_1 (c : Dev nD) : parArr4 V c 1 = V c (Pipeline.arrRef spec4 1) := by dsimp only [parArr4]
theorem parArr4_2 (c : Dev nD) : parArr4 V c 2 = V c (Pipeline.arrRef spec4 2) := by dsimp only [parArr4]
theorem parArr4_3 (c : Dev nD) : parArr4 V c 3 = V c (Pipeline.arrRef spec4 3) := by dsimp only [parArr4]
theorem parArr4_4 (c : Dev nD) : parArr4 V c 4 = V c (Pipeline.arrRef spec4 4) := by dsimp only [parArr4]
theorem parArr4_5 (c : Dev nD) : parArr4 V c 5 = V c (Pipeline.arrRef spec4 5) := by dsimp only [parArr4]
theorem parArr4_6 (c : Dev nD) : parArr4 V c 6 = V c (Pipeline.arrRef spec4 6) := by dsimp only [parArr4]
theorem parArr4_7 (c : Dev nD) : parArr4 V c 7 = V c (Pipeline.arrRef spec4 7) := by dsimp only [parArr4]
theorem parArr4_8 (c : Dev nD) : parArr4 V c 8 = V c (Pipeline.arrRef spec4 8) := by dsimp only [parArr4]
theorem parArr4_9 (c : Dev nD) : parArr4 V c 9 = V c (Pipeline.arrRef spec4 9) := by dsimp only [parArr4]
theorem parArr4_10 (c : Dev nD) : parArr4 V c 10 = V c (Pipeline.arrRef spec4 10) := by dsimp only [parArr4]
theorem parArr4_11 (c : Dev nD) : parArr4 V c 11 = V c (Pipeline.arrRef spec4 11) := by dsimp only [parArr4]
theorem parArr4_12 (c : Dev nD) : parArr4 V c 12 = V c (Pipeline.arrRef spec4 12) := by dsimp only [parArr4]
theorem parArr4_13 (c : Dev nD) : parArr4 V c 13 = V c (Pipeline.arrRef spec4 13) := by dsimp only [parArr4]
theorem parArr4_14 (c : Dev nD) : parArr4 V c 14 = V c (Pipeline.arrRef spec4 14) := by dsimp only [parArr4]
theorem parArr4_15 (c : Dev nD) : parArr4 V c 15 = V c (Pipeline.arrRef spec4 15) := by dsimp only [parArr4]
theorem parArr4_16 (c : Dev nD) : parArr4 V c 16 = V c (Pipeline.arrRef spec4 16) := by dsimp only [parArr4]
theorem parArr4_17 (c : Dev nD) : parArr4 V c 17 = V c (Pipeline.arrRef spec4 17) := by dsimp only [parArr4]
theorem parArr4_18 (c : Dev nD) : parArr4 V c 18 = V c (Pipeline.arrRef spec4 18) := by dsimp only [parArr4]
theorem parArr4_19 (c : Dev nD) : parArr4 V c 19 = V c (Pipeline.arrRef spec4 19) := by dsimp only [parArr4]
theorem parArr4_20 (c : Dev nD) : parArr4 V c 20 = V c (Pipeline.arrRef spec4 20) := by dsimp only [parArr4]
theorem parArr4_21 (c : Dev nD) : parArr4 V c 21 = V c (Pipeline.arrRef spec4 21) := by dsimp only [parArr4]
theorem parArr4_22 (c : Dev nD) : parArr4 V c 22 = V c (Pipeline.arrRef spec4 22) := by dsimp only [parArr4]
theorem parArr4_23 (c : Dev nD) : parArr4 V c 23 = V c (Pipeline.arrRef spec4 23) := by dsimp only [parArr4]
theorem parArr4_24 (c : Dev nD) : parArr4 V c 24 = V c (Pipeline.arrRef spec4 24) := by dsimp only [parArr4]
theorem parArr4_25 (c : Dev nD) : parArr4 V c 25 = V c (Pipeline.arrRef spec4 25) := by dsimp only [parArr4]
theorem parArr4_26 (c : Dev nD) : parArr4 V c 26 = V c (Pipeline.arrRef spec4 26) := by dsimp only [parArr4]
theorem parArr4_27 (c : Dev nD) : parArr4 V c 27 = V c (Pipeline.arrRef spec4 27) := by dsimp only [parArr4]
theorem parArr4_28 (c : Dev nD) : parArr4 V c 28 = V c (Pipeline.arrRef spec4 28) := by dsimp only [parArr4]
theorem parArr4_29 (c : Dev nD) : parArr4 V c 29 = V c (Pipeline.arrRef spec4 29) := by dsimp only [parArr4]
theorem parArr4_30 (c : Dev nD) : parArr4 V c 30 = V c (Pipeline.arrRef spec4 30) := by dsimp only [parArr4]
theorem parArr4_31 (c : Dev nD) : parArr4 V c 31 = V c (Pipeline.arrRef spec4 31) := by dsimp only [parArr4]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par4_apply (c : Dev nD) (t : Fin cfg4.N) (j : Fin 32) (r : Fin 512) (d : Fin 128) (r' : Fin 4096)
    (hr : r'.val = t.val * 512 + r.val) : par4 V c t j (ix2 r d) = parArr4 V c j (ix2 r' d) := by
  match j with
  | ⟨0, _⟩ =>
    show (V c (Pipeline.arrRef spec4 0) : FVec Ideal S4096x128 .f32) (((win4 0).rect t).emb (ix2 r d)) = (V c (Pipeline.arrRef spec4 0) : FVec Ideal S4096x128 .f32) (ix2 r' d)
    exact rows_apply _ _ _ t.val
      (by show (win4 0).index t (0 : Fin 2) * 512 = t.val * 512; rw [idx4_par 0 (by decide) t (0 : Fin 2)]; rfl)
      (by show (win4 0).index t (1 : Fin 2) * 128 = 0; rw [idx4_par 0 (by decide) t (1 : Fin 2)]; rfl) r d r' hr
  | ⟨1, _⟩ =>
    show (V c (Pipeline.arrRef spec4 1) : FVec Ideal S4096x128 .f32) (((win4 1).rect t).emb (ix2 r d)) = (V c (Pipeline.arrRef spec4 1) : FVec Ideal S4096x128 .f32) (ix2 r' d)
    exact rows_apply _ _ _ t.val
      (by show (win4 1).index t (0 : Fin 2) * 512 = t.val * 512; rw [idx4_par 1 (by decide) t (0 : Fin 2)]; rfl)
      (by show (win4 1).index t (1 : Fin 2) * 128 = 0; rw [idx4_par 1 (by decide) t (1 : Fin 2)]; rfl) r d r' hr
  | ⟨2, _⟩ =>
    show (V c (Pipeline.arrRef spec4 2) : FVec Ideal S4096x128 .f32) (((win4 2).rect t).emb (ix2 r d)) = (V c (Pipeline.arrRef spec4 2) : FVec Ideal S4096x128 .f32) (ix2 r' d)
    exact rows_apply _ _ _ t.val
      (by show (win4 2).index t (0 : Fin 2) * 512 = t.val * 512; rw [idx4_par 2 (by decide) t (0 : Fin 2)]; rfl)
      (by show (win4 2).index t (1 : Fin 2) * 128 = 0; rw [idx4_par 2 (by decide) t (1 : Fin 2)]; rfl) r d r' hr
  | ⟨3, _⟩ =>
    show (V c (Pipeline.arrRef spec4 3) : FVec Ideal S4096x128 .f32) (((win4 3).rect t).emb (ix2 r d)) = (V c (Pipeline.arrRef spec4 3) : FVec Ideal S4096x128 .f32) (ix2 r' d)
    exact rows_apply _ _ _ t.val
      (by show (win4 3).index t (0 : Fin 2) * 512 = t.val * 512; rw [idx4_par 3 (by decide) t (0 : Fin 2)]; rfl)
      (by show (win4 3).index t (1 : Fin 2) * 128 = 0; rw [idx4_par 3 (by decide) t (1 : Fin 2)]; rfl) r d r' hr
  | ⟨4, _⟩ =>
    show (V c (Pipeline.arrRef spec4 4) : FVec Ideal S4096x128 .f32) (((win4 4).rect t).emb (ix2 r d)) = (V c (Pipeline.arrRef spec4 4) : FVec Ideal S4096x128 .f32) (ix2 r' d)
    exact rows_apply _ _ _ t.val
      (by show (win4 4).index t (0 : Fin 2) * 512 = t.val * 512; rw [idx4_par 4 (by decide) t (0 : Fin 2)]; rfl)
      (by show (win4 4).index t (1 : Fin 2) * 128 = 0; rw [idx4_par 4 (by decide) t (1 : Fin 2)]; rfl) r d r' hr
  | ⟨5, _⟩ =>
    show (V c (Pipeline.arrRef spec4 5) : FVec Ideal S4096x128 .f32) (((win4 5).rect t).emb (ix2 r d)) = (V c (Pipeline.arrRef spec4 5) : FVec Ideal S4096x128 .f32) (ix2 r' d)
    exact rows_apply _ _ _ t.val
      (by show (win4 5).index t (0 : Fin 2) * 512 = t.val * 512; rw [idx4_par 5 (by decide) t (0 : Fin 2)]; rfl)
      (by show (win4 5).index t (1 : Fin 2) * 128 = 0; rw [idx4_par 5 (by decide) t (1 : Fin 2)]; rfl) r d r' hr
  | ⟨6, _⟩ =>
    show (V c (Pipeline.arrRef spec4 6) : FVec Ideal S4096x128 .f32) (((win4 6).rect t).emb (ix2 r d)) = (V c (Pipeline.arrRef spec4 6) : FVec Ideal S4096x128 .f32) (ix2 r' d)
    exact rows_apply _ _ _ t.val
      (by show (win4 6).index t (0 : Fin 2) * 512 = t.val * 512; rw [idx4_par 6 (by decide) t (0 : Fin 2)]; rfl)
      (by show (win4 6).index t (1 : Fin 2) * 128 = 0; rw [idx4_par 6 (by decide) t (1 : Fin 2)]; rfl) r d r' hr
  | ⟨7, _⟩ =>
    show (V c (Pipeline.arrRef spec4 7) : FVec Ideal S4096x128 .f32) (((win4 7).rect t).emb (ix2 r d)) = (V c (Pipeline.arrRef spec4 7) : FVec Ideal S4096x128 .f32) (ix2 r' d)
    exact rows_apply _ _ _ t.val
      (by show (win4 7).index t (0 : Fin 2) * 512 = t.val * 512; rw [idx4_par 7 (by decide) t (0 : Fin 2)]; rfl)
      (by show (win4 7).index t (1 : Fin 2) * 128 = 0; rw [idx4_par 7 (by decide) t (1 : Fin 2)]; rfl) r d r' hr
  | ⟨8, _⟩ =>
    show (V c (Pipeline.arrRef spec4 8) : FVec Ideal S4096x128 .f32) (((win4 8).rect t).emb (ix2 r d)) = (V c (Pipeline.arrRef spec4 8) : FVec Ideal S4096x128 .f32) (ix2 r' d)
    exact rows_apply _ _ _ t.val
      (by show (win4 8).index t (0 : Fin 2) * 512 = t.val * 512; rw [idx4_par 8 (by decide) t (0 : Fin 2)]; rfl)
      (by show (win4 8).index t (1 : Fin 2) * 128 = 0; rw [idx4_par 8 (by decide) t (1 : Fin 2)]; rfl) r d r' hr
  | ⟨9, _⟩ =>
    show (V c (Pipeline.arrRef spec4 9) : FVec Ideal S4096x128 .f32) (((win4 9).rect t).emb (ix2 r d)) = (V c (Pipeline.arrRef spec4 9) : FVec Ideal S4096x128 .f32) (ix2 r' d)
    exact rows_apply _ _ _ t.val
      (by show (win4 9).index t (0 : Fin 2) * 512 = t.val * 512; rw [idx4_par 9 (by decide) t (0 : Fin 2)]; rfl)
      (by show (win4 9).index t (1 : Fin 2) * 128 = 0; rw [idx4_par 9 (by decide) t (1 : Fin 2)]; rfl) r d r' hr
  | ⟨10, _⟩ =>
    show (V c (Pipeline.arrRef spec4 10) : FVec Ideal S4096x128 .f32) (((win4 10).rect t).emb (ix2 r d)) = (V c (Pipeline.arrRef spec4 10) : FVec Ideal S4096x128 .f32) (ix2 r' d)
    exact rows_apply _ _ _ t.val
      (by show (win4 10).index t (0 : Fin 2) * 512 = t.val * 512; rw [idx4_par 10 (by decide) t (0 : Fin 2)]; rfl)
      (by show (win4 10).index t (1 : Fin 2) * 128 = 0; rw [idx4_par 10 (by decide) t (1 : Fin 2)]; rfl) r d r' hr
  | ⟨11, _⟩ =>
    show (V c (Pipeline.arrRef spec4 11) : FVec Ideal S4096x128 .f32) (((win4 11).rect t).emb (ix2 r d)) = (V c (Pipeline.arrRef spec4 11) : FVec Ideal S4096x128 .f32) (ix2 r' d)
    exact rows_apply _ _ _ t.val
      (by show (win4 11).index t (0 : Fin 2) * 512 = t.val * 512; rw [idx4_par 11 (by decide) t (0 : Fin 2)]; rfl)
      (by show (win4 11).index t (1 : Fin 2) * 128 = 0; rw [idx4_par 11 (by decide) t (1 : Fin 2)]; rfl) r d r' hr
  | ⟨12, _⟩ =>
    show (V c (Pipeline.arrRef spec4 12) : FVec Ideal S4096x128 .f32) (((win4 12).rect t).emb (ix2 r d)) = (V c (Pipeline.arrRef spec4 12) : FVec Ideal S4096x128 .f32) (ix2 r' d)
    exact rows_apply _ _ _ t.val
      (by show (win4 12).index t (0 : Fin 2) * 512 = t.val * 512; rw [idx4_par 12 (by decide) t (0 : Fin 2)]; rfl)
      (by show (win4 12).index t (1 : Fin 2) * 128 = 0; rw [idx4_par 12 (by decide) t (1 : Fin 2)]; rfl) r d r' hr
  | ⟨13, _⟩ =>
    show (V c (Pipeline.arrRef spec4 13) : FVec Ideal S4096x128 .f32) (((win4 13).rect t).emb (ix2 r d)) = (V c (Pipeline.arrRef spec4 13) : FVec Ideal S4096x128 .f32) (ix2 r' d)
    exact rows_apply _ _ _ t.val
      (by show (win4 13).index t (0 : Fin 2) * 512 = t.val * 512; rw [idx4_par 13 (by decide) t (0 : Fin 2)]; rfl)
      (by show (win4 13).index t (1 : Fin 2) * 128 = 0; rw [idx4_par 13 (by decide) t (1 : Fin 2)]; rfl) r d r' hr
  | ⟨14, _⟩ =>
    show (V c (Pipeline.arrRef spec4 14) : FVec Ideal S4096x128 .f32) (((win4 14).rect t).emb (ix2 r d)) = (V c (Pipeline.arrRef spec4 14) : FVec Ideal S4096x128 .f32) (ix2 r' d)
    exact rows_apply _ _ _ t.val
      (by show (win4 14).index t (0 : Fin 2) * 512 = t.val * 512; rw [idx4_par 14 (by decide) t (0 : Fin 2)]; rfl)
      (by show (win4 14).index t (1 : Fin 2) * 128 = 0; rw [idx4_par 14 (by decide) t (1 : Fin 2)]; rfl) r d r' hr
  | ⟨15, _⟩ =>
    show (V c (Pipeline.arrRef spec4 15) : FVec Ideal S4096x128 .f32) (((win4 15).rect t).emb (ix2 r d)) = (V c (Pipeline.arrRef spec4 15) : FVec Ideal S4096x128 .f32) (ix2 r' d)
    exact rows_apply _ _ _ t.val
      (by show (win4 15).index t (0 : Fin 2) * 512 = t.val * 512; rw [idx4_par 15 (by decide) t (0 : Fin 2)]; rfl)
      (by show (win4 15).index t (1 : Fin 2) * 128 = 0; rw [idx4_par 15 (by decide) t (1 : Fin 2)]; rfl) r d r' hr
  | ⟨16, _⟩ =>
    show (V c (Pipeline.arrRef spec4 16) : FVec Ideal S4096x128 .f32) (((win4 16).rect t).emb (ix2 r d)) = (V c (Pipeline.arrRef spec4 16) : FVec Ideal S4096x128 .f32) (ix2 r' d)
    exact rows_apply _ _ _ t.val
      (by show (win4 16).index t (0 : Fin 2) * 512 = t.val * 512; rw [idx4_par 16 (by decide) t (0 : Fin 2)]; rfl)
      (by show (win4 16).index t (1 : Fin 2) * 128 = 0; rw [idx4_par 16 (by decide) t (1 : Fin 2)]; rfl) r d r' hr
  | ⟨17, _⟩ =>
    show (V c (Pipeline.arrRef spec4 17) : FVec Ideal S4096x128 .f32) (((win4 17).rect t).emb (ix2 r d)) = (V c (Pipeline.arrRef spec4 17) : FVec Ideal S4096x128 .f32) (ix2 r' d)
    exact rows_apply _ _ _ t.val
      (by show (win4 17).index t (0 : Fin 2) * 512 = t.val * 512; rw [idx4_par 17 (by decide) t (0 : Fin 2)]; rfl)
      (by show (win4 17).index t (1 : Fin 2) * 128 = 0; rw [idx4_par 17 (by decide) t (1 : Fin 2)]; rfl) r d r' hr
  | ⟨18, _⟩ =>
    show (V c (Pipeline.arrRef spec4 18) : FVec Ideal S4096x128 .f32) (((win4 18).rect t).emb (ix2 r d)) = (V c (Pipeline.arrRef spec4 18) : FVec Ideal S4096x128 .f32) (ix2 r' d)
    exact rows_apply _ _ _ t.val
      (by show (win4 18).index t (0 : Fin 2) * 512 = t.val * 512; rw [idx4_par 18 (by decide) t (0 : Fin 2)]; rfl)
      (by show (win4 18).index t (1 : Fin 2) * 128 = 0; rw [idx4_par 18 (by decide) t (1 : Fin 2)]; rfl) r d r' hr
  | ⟨19, _⟩ =>
    show (V c (Pipeline.arrRef spec4 19) : FVec Ideal S4096x128 .f32) (((win4 19).rect t).emb (ix2 r d)) = (V c (Pipeline.arrRef spec4 19) : FVec Ideal S4096x128 .f32) (ix2 r' d)
    exact rows_apply _ _ _ t.val
      (by show (win4 19).index t (0 : Fin 2) * 512 = t.val * 512; rw [idx4_par 19 (by decide) t (0 : Fin 2)]; rfl)
      (by show (win4 19).index t (1 : Fin 2) * 128 = 0; rw [idx4_par 19 (by decide) t (1 : Fin 2)]; rfl) r d r' hr
  | ⟨20, _⟩ =>
    show (V c (Pipeline.arrRef spec4 20) : FVec Ideal S4096x128 .f32) (((win4 20).rect t).emb (ix2 r d)) = (V c (Pipeline.arrRef spec4 20) : FVec Ideal S4096x128 .f32) (ix2 r' d)
    exact rows_apply _ _ _ t.val
      (by show (win4 20).index t (0 : Fin 2) * 512 = t.val * 512; rw [idx4_par 20 (by decide) t (0 : Fin 2)]; rfl)
      (by show (win4 20).index t (1 : Fin 2) * 128 = 0; rw [idx4_par 20 (by decide) t (1 : Fin 2)]; rfl) r d r' hr
  | ⟨21, _⟩ =>
    show (V c (Pipeline.arrRef spec4 21) : FVec Ideal S4096x128 .f32) (((win4 21).rect t).emb (ix2 r d)) = (V c (Pipeline.arrRef spec4 21) : FVec Ideal S4096x128 .f32) (ix2 r' d)
    exact rows_apply _ _ _ t.val
      (by show (win4 21).index t (0 : Fin 2) * 512 = t.val * 512; rw [idx4_par 21 (by decide) t (0 : Fin 2)]; rfl)
      (by show (win4 21).index t (1 : Fin 2) * 128 = 0; rw [idx4_par 21 (by decide) t (1 : Fin 2)]; rfl) r d r' hr
  | ⟨22, _⟩ =>
    show (V c (Pipeline.arrRef spec4 22) : FVec Ideal S4096x128 .f32) (((win4 22).rect t).emb (ix2 r d)) = (V c (Pipeline.arrRef spec4 22) : FVec Ideal S4096x128 .f32) (ix2 r' d)
    exact rows_apply _ _ _ t.val
      (by show (win4 22).index t (0 : Fin 2) * 512 = t.val * 512; rw [idx4_par 22 (by decide) t (0 : Fin 2)]; rfl)
      (by show (win4 22).index t (1 : Fin 2) * 128 = 0; rw [idx4_par 22 (by decide) t (1 : Fin 2)]; rfl) r d r' hr
  | ⟨23, _⟩ =>
    show (V c (Pipeline.arrRef spec4 23) : FVec Ideal S4096x128 .f32) (((win4 23).rect t).emb (ix2 r d)) = (V c (Pipeline.arrRef spec4 23) : FVec Ideal S4096x128 .f32) (ix2 r' d)
    exact rows_apply _ _ _ t.val
      (by show (win4 23).index t (0 : Fin 2) * 512 = t.val * 512; rw [idx4_par 23 (by decide) t (0 : Fin 2)]; rfl)
      (by show (win4 23).index t (1 : Fin 2) * 128 = 0; rw [idx4_par 23 (by decide) t (1 : Fin 2)]; rfl) r d r' hr
  | ⟨24, _⟩ =>
    show (V c (Pipeline.arrRef spec4 24) : FVec Ideal S4096x128 .f32) (((win4 24).rect t).emb (ix2 r d)) = (V c (Pipeline.arrRef spec4 24) : FVec Ideal S4096x128 .f32) (ix2 r' d)
    exact rows_apply _ _ _ t.val
      (by show (win4 24).index t (0 : Fin 2) * 512 = t.val * 512; rw [idx4_par 24 (by decide) t (0 : Fin 2)]; rfl)
      (by show (win4 24).index t (1 : Fin 2) * 128 = 0; rw [idx4_par 24 (by decide) t (1 : Fin 2)]; rfl) r d r' hr
  | ⟨25, _⟩ =>
    show (V c (Pipeline.arrRef spec4 25) : FVec Ideal S4096x128 .f32) (((win4 25).rect t).emb (ix2 r d)) = (V c (Pipeline.arrRef spec4 25) : FVec Ideal S4096x128 .f32) (ix2 r' d)
    exact rows_apply _ _ _ t.val
      (by show (win4 25).index t (0 : Fin 2) * 512 = t.val * 512; rw [idx4_par 25 (by decide) t (0 : Fin 2)]; rfl)
      (by show (win4 25).index t (1 : Fin 2) * 128 = 0; rw [idx4_par 25 (by decide) t (1 : Fin 2)]; rfl) r d r' hr
  | ⟨26, _⟩ =>
    show (V c (Pipeline.arrRef spec4 26) : FVec Ideal S4096x128 .f32) (((win4 26).rect t).emb (ix2 r d)) = (V c (Pipeline.arrRef spec4 26) : FVec Ideal S4096x128 .f32) (ix2 r' d)
    exact rows_apply _ _ _ t.val
      (by show (win4 26).index t (0 : Fin 2) * 512 = t.val * 512; rw [idx4_par 26 (by decide) t (0 : Fin 2)]; rfl)
      (by show (win4 26).index t (1 : Fin 2) * 128 = 0; rw [idx4_par 26 (by decide) t (1 : Fin 2)]; rfl) r d r' hr
  | ⟨27, _⟩ =>
    show (V c (Pipeline.arrRef spec4 27) : FVec Ideal S4096x128 .f32) (((win4 27).rect t).emb (ix2 r d)) = (V c (Pipeline.arrRef spec4 27) : FVec Ideal S4096x128 .f32) (ix2 r' d)
    exact rows_apply _ _ _ t.val
      (by show (win4 27).index t (0 : Fin 2) * 512 = t.val * 512; rw [idx4_par 27 (by decide) t (0 : Fin 2)]; rfl)
      (by show (win4 27).index t (1 : Fin 2) * 128 = 0; rw [idx4_par 27 (by decide) t (1 : Fin 2)]; rfl) r d r' hr
  | ⟨28, _⟩ =>
    show (V c (Pipeline.arrRef spec4 28) : FVec Ideal S4096x128 .f32) (((win4 28).rect t).emb (ix2 r d)) = (V c (Pipeline.arrRef spec4 28) : FVec Ideal S4096x128 .f32) (ix2 r' d)
    exact rows_apply _ _ _ t.val
      (by show (win4 28).index t (0 : Fin 2) * 512 = t.val * 512; rw [idx4_par 28 (by decide) t (0 : Fin 2)]; rfl)
      (by show (win4 28).index t (1 : Fin 2) * 128 = 0; rw [idx4_par 28 (by decide) t (1 : Fin 2)]; rfl) r d r' hr
  | ⟨29, _⟩ =>
    show (V c (Pipeline.arrRef spec4 29) : FVec Ideal S4096x128 .f32) (((win4 29).rect t).emb (ix2 r d)) = (V c (Pipeline.arrRef spec4 29) : FVec Ideal S4096x128 .f32) (ix2 r' d)
    exact rows_apply _ _ _ t.val
      (by show (win4 29).index t (0 : Fin 2) * 512 = t.val * 512; rw [idx4_par 29 (by decide) t (0 : Fin 2)]; rfl)
      (by show (win4 29).index t (1 : Fin 2) * 128 = 0; rw [idx4_par 29 (by decide) t (1 : Fin 2)]; rfl) r d r' hr
  | ⟨30, _⟩ =>
    show (V c (Pipeline.arrRef spec4 30) : FVec Ideal S4096x128 .f32) (((win4 30).rect t).emb (ix2 r d)) = (V c (Pipeline.arrRef spec4 30) : FVec Ideal S4096x128 .f32) (ix2 r' d)
    exact rows_apply _ _ _ t.val
      (by show (win4 30).index t (0 : Fin 2) * 512 = t.val * 512; rw [idx4_par 30 (by decide) t (0 : Fin 2)]; rfl)
      (by show (win4 30).index t (1 : Fin 2) * 128 = 0; rw [idx4_par 30 (by decide) t (1 : Fin 2)]; rfl) r d r' hr
  | ⟨31, _⟩ =>
    show (V c (Pipeline.arrRef spec4 31) : FVec Ideal S4096x128 .f32) (((win4 31).rect t).emb (ix2 r d)) = (V c (Pipeline.arrRef spec4 31) : FVec Ideal S4096x128 .f32) (ix2 r' d)
    exact rows_apply _ _ _ t.val
      (by show (win4 31).index t (0 : Fin 2) * 512 = t.val * 512; rw [idx4_par 31 (by decide) t (0 : Fin 2)]; rfl)
      (by show (win4 31).index t (1 : Fin 2) * 128 = 0; rw [idx4_par 31 (by decide) t (1 : Fin 2)]; rfl) r d r' hr
  | ⟨_ + 32, h⟩ => exact absurd h (Nat.not_lt.2 (Nat.le_add_left _ _))

/-- The weight window's block is the whole weight slice at every point. -/
theorem iblk4_32_eq (c : Dev nD) (t : Fin cfg4.N) :
    (iblk4 V c 32 t : Vec Ideal S8x128x128 .f32) = (V c (Pipeline.arrRef spec4 32) : FVec Ideal S8x128x128 .f32) := by
  obtain ⟨e0, e1, e2, -⟩ := idx4_rest t
  funext y
  unfold iblk4
  rw [View.read_apply]
  refine congrArg (V c (Pipeline.arrRef spec4 32)) (funext fun a => Fin.ext ?_)
  match a with
  | ⟨0, _⟩ => show win4_32.index t (0 : Fin 3) * 8 + 1 * (y 0).val = (y 0).val; rw [e0]; omega
  | ⟨1, _⟩ => show win4_32.index t (1 : Fin 3) * 128 + 1 * (y 1).val = (y 1).val; rw [e1]; omega
  | ⟨2, _⟩ => show win4_32.index t (2 : Fin 3) * 128 + 1 * (y 2).val = (y 2).val; rw [e2]; omega

/-- The bias window's block is the whole bias slice at every point. -/
theorem iblk4_33_eq (c : Dev nD) (t : Fin cfg4.N) :
    (iblk4 V c 33 t : Vec Ideal S8x128 .f32) = (V c (Pipeline.arrRef spec4 33) : FVec Ideal S8x128 .f32) := by
  obtain ⟨-, -, -, e0, e1, -⟩ := idx4_rest t
  funext y
  unfold iblk4
  rw [View.read_apply]
  refine congrArg (V c (Pipeline.arrRef spec4 33)) (funext fun a => Fin.ext ?_)
  match a with
  | ⟨0, _⟩ => show win4_33.index t (0 : Fin 2) * 8 + 1 * (y 0).val = (y 0).val; rw [e0]; omega
  | ⟨1, _⟩ => show win4_33.index t (1 : Fin 2) * 128 + 1 * (y 1).val = (y 1).val; rw [e1]; omega

/-! ## What each point writes back, and the cover -/

/-- What point `t` writes back is block `t` of the region's function of the entry arrays. -/
theorem flushed4_eq (c : Dev nD) (t : Fin cfg4.N) :
    (dat4 (F := Ideal) V c).flushed 34 t = ((cfg4.win 34).blk t).view.read (Elt Ideal)
      (regionFn (parArr4 V c) (V c (Pipeline.arrRef spec4 32)) (V c (Pipeline.arrRef spec4 33))) := by
  show (cfg4.win 34).cut (grid4.coords t) ((dat4 V c).after 34 t) = _
  rw [after4_34, iblk4_32_eq, iblk4_33_eq]
  obtain ⟨-, -, -, -, -, e0, e1, e2⟩ := idx4_rest t
  have ht : t.val < 8 := Nat.lt_of_lt_of_eq t.isLt N_4
  funext j
  rw [View.read_apply]
  refine (out4_34_apply (parArr4 V c) (V c (Pipeline.arrRef spec4 32)) (V c (Pipeline.arrRef spec4 33)) (par4 V c t) t.val
    (fun j r d r' hr => par4_apply V c t j r d r' hr) ht j).trans ?_
  refine congrArg (regionFn (parArr4 V c) (V c (Pipeline.arrRef spec4 32)) (V c (Pipeline.arrRef spec4 33)))
    (funext fun a => Fin.ext ?_)
  match a with
  | ⟨0, _⟩ => show (j 0).val = win4_34.index t (0 : Fin 3) * 8 + 1 * (j 0).val; rw [e0]; omega
  | ⟨1, _⟩ => show t.val * 512 + (j 1).val = win4_34.index t (1 : Fin 3) * 512 + 1 * (j 1).val; rw [e1]; omega
  | ⟨2, _⟩ => show (j 2).val = win4_34.index t (2 : Fin 3) * 128 + 1 * (j 2).val; rw [e2]; omega

/-- An index of the output array is in point `t`'s block iff each coordinate is in the block's range on its axis. -/
theorem mem_blk4 (t : Fin cfg4.N) (i : S8x4096x128.Idx) :
    i ∈ ((cfg4.win 34).blk t).view.set ↔ ∀ a : Fin 3, win4_34.index t a * S8x512x128.size a ≤ (i a).val
      ∧ (i a).val < win4_34.index t a * S8x512x128.size a + S8x512x128.size a := by
  show i ∈ ((View.whole (Pipeline.arrRef spec4 34)).slice (win4_34.rect t)).set ↔ _
  rw [View.set_slice_whole, Rect.mem_set_unit]
  exact Iff.rfl

/-- Every index of the output array is in the block of the point its row falls in. -/
theorem cover4 (i : S8x4096x128.Idx) : ∃ t : Fin cfg4.N, (cfg4.win 34).flush t = true ∧ i ∈ ((cfg4.win 34).blk t).view.set := by
  have hi0 : (i 0).val < 8 := (i 0).isLt
  have hi1 : (i 1).val < 4096 := (i 1).isLt
  have hi2 : (i 2).val < 128 := (i 2).isLt
  have hN : cfg4.N = 8 := N_4
  let t : Fin cfg4.N := ⟨(i 1).val / 512, by rw [hN]; omega⟩
  obtain ⟨-, -, -, -, -, e0, e1, e2⟩ := idx4_rest t
  have ht : t.val = (i 1).val / 512 := rfl
  refine ⟨t, flush4_34 t, ?_⟩
  rw [mem_blk4]
  intro a
  match a with
  | ⟨0, _⟩ => show win4_34.index t (0 : Fin 3) * 8 ≤ (i 0).val ∧ (i 0).val < win4_34.index t (0 : Fin 3) * 8 + 8; rw [e0]; omega
  | ⟨1, _⟩ => show win4_34.index t (1 : Fin 3) * 512 ≤ (i 1).val ∧ (i 1).val < win4_34.index t (1 : Fin 3) * 512 + 512; rw [e1, ht]; omega
  | ⟨2, _⟩ => show win4_34.index t (2 : Fin 3) * 128 ≤ (i 2).val ∧ (i 2).val < win4_34.index t (2 : Fin 3) * 128 + 128; rw [e2]; omega

/-! ## The region's output array -/

/-- After the region its output array holds the region's function of the arrays the region found. -/
theorem regval4 (c : Dev nD) : (dat4 (F := Ideal) V c).arrAt 34 cfg4.N
    = regionFn (parArr4 V c) (V c (Pipeline.arrRef spec4 32)) (V c (Pipeline.arrRef spec4 33)) :=
  (dat4 (F := Ideal) V c).arrAt_eq_of_cover 34 _ (fun t _ => flushed4_eq V c t) cover4

end Cert.KernelIdeal.Hand

end
-- ==== Proof.KI.Chain4.lean ====
/-
  Layer 3 of the graph is what pallas_call 4 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain3
import proofs.«135270_j33062658245245_1_alg».proof.Proof.KI.RegVal4

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 4 leaves in its output array is layer 3. -/
theorem chain4 (c : Dev nD) :
    (W10 m c main_v64 : FVec Ideal S8x4096x128 .f32) = layerArr (argX m c) (argW m c) (argB m c) 3 := by
  rw [W10_out m c, regval4 (rd (W9 m)) c]
  refine layer_of_operands (argX m c) (argW m c) (argB m c) 3 (by decide) _ _ _ (fun w => ?_) ?_ ?_
  · -- the 32 parent windows: window i holds a reshaped slab of an earlier output array, the array the table of parents names
    match w with
    | ⟨0, _⟩ => exact (congrFun (V9_eq m c).symm _).trans ((opnd4_0 m (outsH m) c).trans (slabL2 m c 4 _ _ (nOf 3 0) (by decide)))
    | ⟨1, _⟩ => exact (congrFun (V9_eq m c).symm _).trans ((opnd4_1 m (outsH m) c).trans (slabL0 m c 2 _ _ (nOf 3 1) (by decide)))
    | ⟨2, _⟩ => exact (congrFun (V9_eq m c).symm _).trans ((opnd4_2 m (outsH m) c).trans (slabL1 m c 5 _ _ (nOf 3 2) (by decide)))
    | ⟨3, _⟩ => exact (congrFun (V9_eq m c).symm _).trans ((opnd4_3 m (outsH m) c).trans (slabL2 m c 1 _ _ (nOf 3 3) (by decide)))
    | ⟨4, _⟩ => exact (congrFun (V9_eq m c).symm _).trans ((opnd4_4 m (outsH m) c).trans (slabL2 m c 4 _ _ (nOf 3 4) (by decide)))
    | ⟨5, _⟩ => exact (congrFun (V9_eq m c).symm _).trans ((opnd4_5 m (outsH m) c).trans (slabL1 m c 4 _ _ (nOf 3 5) (by decide)))
    | ⟨6, _⟩ => exact (congrFun (V9_eq m c).symm _).trans ((opnd4_6 m (outsH m) c).trans (slabL1 m c 0 _ _ (nOf 3 6) (by decide)))
    | ⟨7, _⟩ => exact (congrFun (V9_eq m c).symm _).trans ((opnd4_7 m (outsH m) c).trans (slabL0 m c 6 _ _ (nOf 3 7) (by decide)))
    | ⟨8, _⟩ => exact (congrFun (V9_eq m c).symm _).trans ((opnd4_8 m (outsH m) c).trans (slabL1 m c 1 _ _ (nOf 3 8) (by decide)))
    | ⟨9, _⟩ => exact (congrFun (V9_eq m c).symm _).trans ((opnd4_9 m (outsH m) c).trans (slabL1 m c 3 _ _ (nOf 3 9) (by decide)))
    | ⟨10, _⟩ => exact (congrFun (V9_eq m c).symm _).trans ((opnd4_10 m (outsH m) c).trans (slabL2 m c 0 _ _ (nOf 3 10) (by decide)))
    | ⟨11, _⟩ => exact (congrFun (V9_eq m c).symm _).trans ((opnd4_11 m (outsH m) c).trans (slabL2 m c 5 _ _ (nOf 3 11) (by decide)))
    | ⟨12, _⟩ => exact (congrFun (V9_eq m c).symm _).trans ((opnd4_12 m (outsH m) c).trans (slabL0 m c 0 _ _ (nOf 3 12) (by decide)))
    | ⟨13, _⟩ => exact (congrFun (V9_eq m c).symm _).trans ((opnd4_13 m (outsH m) c).trans (slabL2 m c 6 _ _ (nOf 3 13) (by decide)))
    | ⟨14, _⟩ => exact (congrFun (V9_eq m c).symm _).trans ((opnd4_14 m (outsH m) c).trans (slabL1 m c 4 _ _ (nOf 3 14) (by decide)))
    | ⟨15, _⟩ => exact (congrFun (V9_eq m c).symm _).trans ((opnd4_15 m (outsH m) c).trans (slabL0 m c 7 _ _ (nOf 3 15) (by decide)))
    | ⟨16, _⟩ => exact (congrFun (V9_eq m c).symm _).trans ((opnd4_16 m (outsH m) c).trans (slabL1 m c 7 _ _ (nOf 3 16) (by decide)))
    | ⟨17, _⟩ => exact (congrFun (V9_eq m c).symm _).trans ((opnd4_17 m (outsH m) c).trans (slabL1 m c 5 _ _ (nOf 3 17) (by decide)))
    | ⟨18, _⟩ => exact (congrFun (V9_eq m c).symm _).trans ((opnd4_18 m (outsH m) c).trans (slabL0 m c 5 _ _ (nOf 3 18) (by decide)))
    | ⟨19, _⟩ => exact (congrFun (V9_eq m c).symm _).trans ((opnd4_19 m (outsH m) c).trans (slabL0 m c 7 _ _ (nOf 3 19) (by decide)))
    | ⟨20, _⟩ => exact (congrFun (V9_eq m c).symm _).trans ((opnd4_20 m (outsH m) c).trans (slabL2 m c 0 _ _ (nOf 3 20) (by decide)))
    | ⟨21, _⟩ => exact (congrFun (V9_eq m c).symm _).trans ((opnd4_21 m (outsH m) c).trans (slabL1 m c 5 _ _ (nOf 3 21) (by decide)))
    | ⟨22, _⟩ => exact (congrFun (V9_eq m c).symm _).trans ((opnd4_22 m (outsH m) c).trans (slabL1 m c 3 _ _ (nOf 3 22) (by decide)))
    | ⟨23, _⟩ => exact (congrFun (V9_eq m c).symm _).trans ((opnd4_23 m (outsH m) c).trans (slabL0 m c 7 _ _ (nOf 3 23) (by decide)))
    | ⟨24, _⟩ => exact (congrFun (V9_eq m c).symm _).trans ((opnd4_24 m (outsH m) c).trans (slabL2 m c 2 _ _ (nOf 3 24) (by decide)))
    | ⟨25, _⟩ => exact (congrFun (V9_eq m c).symm _).trans ((opnd4_25 m (outsH m) c).trans (slabL1 m c 0 _ _ (nOf 3 25) (by decide)))
    | ⟨26, _⟩ => exact (congrFun (V9_eq m c).symm _).trans ((opnd4_26 m (outsH m) c).trans (slabL0 m c 7 _ _ (nOf 3 26) (by decide)))
    | ⟨27, _⟩ => exact (congrFun (V9_eq m c).symm _).trans ((opnd4_27 m (outsH m) c).trans (slabL2 m c 5 _ _ (nOf 3 27) (by decide)))
    | ⟨28, _⟩ => exact (congrFun (V9_eq m c).symm _).trans ((opnd4_28 m (outsH m) c).trans (slabL0 m c 5 _ _ (nOf 3 28) (by decide)))
    | ⟨29, _⟩ => exact (congrFun (V9_eq m c).symm _).trans ((opnd4_29 m (outsH m) c).trans (slabL0 m c 4 _ _ (nOf 3 29) (by decide)))
    | ⟨30, _⟩ => exact (congrFun (V9_eq m c).symm _).trans ((opnd4_30 m (outsH m) c).trans (slabL2 m c 0 _ _ (nOf 3 30) (by decide)))
    | ⟨31, _⟩ => exact (congrFun (V9_eq m c).symm _).trans ((opnd4_31 m (outsH m) c).trans (slabL1 m c 6 _ _ (nOf 3 31) (by decide)))
    | ⟨n + 32, h⟩ => exact absurd h (by omega)
  · -- the transposed weights of the layer's eight nodes
    exact (congrFun (V9_eq m c).symm _).trans ((opnd4_32 m (outsH m) c).trans (wt_slice (argW m c) (8 * 3 + 1) _ _))
  · -- the biases of the layer's eight nodes
    exact (congrFun (V9_eq m c).symm _).trans ((opnd4_33 m (outsH m) c).trans (b_slice (argB m c) (8 * 3 + 1) _))

/-- The slabs of layer 3 as the later regions read them: slab `k` with its unit axis dropped is node `8 · 3 + 1 + k`
    (`n` names the node in any closed form, `hn` a closed equation of naturals). -/
theorem slabL3 (c : Dev nD) (k : Nat) (h₁ : S8x4096x128.Slices ![k, 0, 0] S1x4096x128)
    (h₂ : S1x4096x128.ShapeCasts S4096x128) (n : Nat) (hn : 8 * 3 + 1 + k = n) :
    shapeCast S4096x128 (extractStridedSlice S1x4096x128 ![k, 0, 0] (outsH m 10 main_v64 c) h₁) h₂
      = nodeArr (argX m c) (argW m c) (argB m c) n :=
  slab_of_layer (argX m c) (argW m c) (argB m c) (outsH m 10 main_v64 c) 3 (chain4 m c) k h₁ h₂ n hn

end Cert.KernelIdeal.Hand

end
-- ==== Proof.KI.Pay5.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay5_slab0 :
    k5_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay5_slab1 :
    k5_pay3 (F := Ideal) (k5_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay5_slab2 :
    k5_pay7 (F := Ideal) (k5_pay4 p0 p1 p2 p3) (k5_pay5 wk) (k5_pay6 bk) (ix3 0 r e) = slabVal p0 p1 p2 p3 wk bk r e :=
  slabFn_sum4_apply p0 p1 p2 p3 wk bk r e

/-- Slab 3: as slab 0. -/
theorem pay5_slab3 :
    k5_pay8 (F := Ideal) p0 p1 p2 p3 wk bk (ix3 0 r e) = slabVal p0 p1 p2 p3 wk bk r e :=
  slabFn_sum4_apply p0 p1 p2 p3 wk bk r e

/-- Slab 4: as slab 0. -/
theorem pay5_slab4 :
    k5_pay9 (F := Ideal) p0 p1 p2 p3 wk bk (ix3 0 r e) = slabVal p0 p1 p2 p3 wk bk r e :=
  slabFn_sum4_apply p0 p1 p2 p3 wk bk r e

/-- Slab 5: as slab 1. -/
theorem pay5_slab5 :
    k5_pay11 (F := Ideal) (k5_pay10 p0 p1 p2) p3 wk bk (ix3 0 r e) = slabVal p0 p1 p2 p3 wk bk r e :=
  slabFn_sum4_apply p0 p1 p2 p3 wk bk r e

/-- Slab 6: as slab 2. -/
theorem pay5_slab6 :
    k5_pay15 (F := Ideal) (k5_pay12 p0 p1 p2 p3) (k5_pay13 wk) (k5_pay14 bk) (ix3 0 r e) = slabVal p0 p1 p2 p3 wk bk r e :=
  slabFn_sum4_apply p0 p1 p2 p3 wk bk r e

/-- Slab 7: as slab 0. -/
theorem pay5_slab7 :
    k5_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal5.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R5
import proofs.«135270_j33062658245245_1_alg».proof.Proof.KI.Pay5
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab5_0_apply (x : S1x512x128.Idx) (i : S8x4096x128.Idx) (h0 : (i 0).val = 0)
    (h1 : (i 1).val = q * 512 + (x 1).val) (h2 : (i 2).val = (x 2).val) :
    slab5_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_0
  simp only [View.ld_unit_zero (S := S512x128) hz2]
  refine (pay5_slab0 (p 0) (p 1) (p 2) (p 3) (View.ld Wt r5_w0) (View.ld Bs r5_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab5_1_apply (x : S1x512x128.Idx) (i : S8x4096x128.Idx) (h0 : (i 0).val = 1)
    (h1 : (i 1).val = q * 512 + (x 1).val) (h2 : (i 2).val = (x 2).val) :
    slab5_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_1
  simp only [View.ld_unit_zero (S := S512x128) hz2]
  refine (pay5_slab1 (p 4) (p 5) (p 6) (p 7) (View.ld Wt r5_w1) (View.ld Bs r5_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab5_2_apply (x : S1x512x128.Idx) (i : S8x4096x128.Idx) (h0 : (i 0).val = 2)
    (h1 : (i 1).val = q * 512 + (x 1).val) (h2 : (i 2).val = (x 2).val) :
    slab5_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_2
  simp only [View.ld_unit_zero (S := S512x128) hz2]
  refine (pay5_slab2 (p 8) (p 9) (p 10) (p 11) (View.ld Wt r5_w2) (View.ld Bs r5_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab5_3_apply (x : S1x512x128.Idx) (i : S8x4096x128.Idx) (h0 : (i 0).val = 3)
    (h1 : (i 1).val = q * 512 + (x 1).val) (h2 : (i 2).val = (x 2).val) :
    slab5_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_3
  simp only [View.ld_unit_zero (S := S512x128) hz2]
  refine (pay5_slab3 (p 12) (p 13) (p 14) (p 15) (View.ld Wt r5_w3) (View.ld Bs r5_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab5_4_apply (x : S1x512x128.Idx) (i : S8x4096x128.Idx) (h0 : (i 0).val = 4)
    (h1 : (i 1).val = q * 512 + (x 1).val) (h2 : (i 2).val = (x 2).val) :
    slab5_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_4
  simp only [View.ld_unit_zero (S := S512x128) hz2]
  refine (pay5_slab4 (p 16) (p 17) (p 18) (p 19) (View.ld Wt r5_w4) (View.ld Bs r5_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab5_5_apply (x : S1x512x128.Idx) (i : S8x4096x128.Idx) (h0 : (i 0).val = 5)
    (h1 : (i 1).val = q * 512 + (x 1).val) (h2 : (i 2).val = (x 2).val) :
    slab5_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_5
  simp only [View.ld_unit_zero (S := S512x128) hz2]
  refine (pay5_slab5 (p 20) (p 21) (p 22) (p 23) (View.ld Wt r5_w5) (View.ld Bs r5_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab5_6_apply (x : S1x512x128.Idx) (i : S8x4096x128.Idx) (h0 : (i 0).val = 6)
    (h1 : (i 1).val = q * 512 + (x 1).val) (h2 : (i 2).val = (x 2).val) :
    slab5_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_6
  simp only [View.ld_unit_zero (S := S512x128) hz2]
  refine (pay5_slab6 (p 24) (p 25) (p 26) (p 27) (View.ld Wt r5_w6) (View.ld Bs r5_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab5_7_apply (x : S1x512x128.Idx) (i : S8x4096x128.Idx) (h0 : (i 0).val = 7)
    (h1 : (i 1).val = q * 512 + (x 1).val) (h2 : (i 2).val = (x 2).val) :
    slab5_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab5_7
  simp only [View.ld_unit_zero (S := S512x128) hz2]
  refine (pay5_slab7 (p 28) (p 29) (p 30) (p 31) (View.ld Wt r5_w7) (View.ld Bs r5_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out5_34_apply (hq : q < 8) (y : S8x512x128.Idx) :
    out5_34 (F := Ideal) p Wt Bs y = regionFn P Wt Bs (rowsOf q hq y) := by
  unfold out5_34
  refine View.canon_apply_of_pieces (fun y' => regionFn P Wt Bs (rowsOf q hq y')) _ ?_ y
    (cover5_34 (F := Ideal) _ _ _ _ _ _ _ _ y)
  intro pc hpc
  rcases List.mem_cons.mp hpc with rfl | hpc
  · exact fun x => slab5_7_apply P Wt Bs p q hp x (rowsOf q hq (r5_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_6_apply P Wt Bs p q hp x (rowsOf q hq (r5_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_5_apply P Wt Bs p q hp x (rowsOf q hq (r5_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_4_apply P Wt Bs p q hp x (rowsOf q hq (r5_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_3_apply P Wt Bs p q hp x (rowsOf q hq (r5_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_2_apply P Wt Bs p q hp x (rowsOf q hq (r5_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_1_apply P Wt Bs p q hp x (rowsOf q hq (r5_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab5_0_apply P Wt Bs p q hp x (rowsOf q hq (r5_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx5_par : ∀ w : Fin 35, w.val < 32 → ∀ (t : Fin cfg5.N) (a : Fin (win5 w).shape.rank),
    (win5 w).index t a = if a.val = 0 then t.val else 0 :=
  (by decide +kernel : ∀ w : Fin 35, w.val < 32 → ∀ (t : Fin grid5.N) (a : Fin (win5 w).shape.rank),
    (win5 w).index t a = if a.val = 0 then t.val else 0)

/-- the weight slice's and the bias slice's never move, and the output's row block moves with the point. -/
theorem idx5_rest : ∀ t : Fin cfg5.N, win5_32.index t (0 : Fin 3) = 0 ∧ win5_32.index t (1 : Fin 3) = 0
    ∧ win5_32.index t (2 : Fin 3) = 0 ∧ win5_33.index t (0 : Fin 2) = 0 ∧ win5_33.index t (1 : Fin 2) = 0
    ∧ win5_34.index t (0 : Fin 3) = 0 ∧ win5_34.index t (1 : Fin 3) = t.val ∧ win5_34.index t (2 : Fin 3) = 0 :=
  (by decide +kernel : ∀ t : Fin grid5.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr5 (c : Dev nD) : Fin 32 → FVec Ideal S4096x128 .f32 := fun j => match j with
    | ⟨0, _⟩ => V c (Pipeline.arrRef spec5 0)
    | ⟨1, _⟩ => V c (Pipeline.arrRef spec5 1)
    | ⟨2, _⟩ => V c (Pipeline.arrRef spec5 2)
    | ⟨3, _⟩ => V c (Pipeline.arrRef spec5 3)
    | ⟨4, _⟩ => V c (Pipeline.arrRef spec5 4)
    | ⟨5, _⟩ => V c (Pipeline.arrRef spec5 5)
    | ⟨6, _⟩ => V c (Pipeline.arrRef spec5 6)
    | ⟨7, _⟩ => V c (Pipeline.arrRef spec5 7)
    | ⟨8, _⟩ => V c (Pipeline.arrRef spec5 8)
    | ⟨9, _⟩ => V c (Pipeline.arrRef spec5 9)
    | ⟨10, _⟩ => V c (Pipeline.arrRef spec5 10)
    | ⟨11, _⟩ => V c (Pipeline.arrRef spec5 11)
    | ⟨12, _⟩ => V c (Pipeline.arrRef spec5 12)
    | ⟨13, _⟩ => V c (Pipeline.arrRef spec5 13)
    | ⟨14, _⟩ => V c (Pipeline.arrRef spec5 14)
    | ⟨15, _⟩ => V c (Pipeline.arrRef spec5 15)
    | ⟨16, _⟩ => V c (Pipeline.arrRef spec5 16)
    | ⟨17, _⟩ => V c (Pipeline.arrRef spec5 17)
    | ⟨18, _⟩ => V c (Pipeline.arrRef spec5 18)
    | ⟨19, _⟩ => V c (Pipeline.arrRef spec5 19)
    | ⟨20, _⟩ => V c (Pipeline.arrRef spec5 20)
    | ⟨21, _⟩ => V c (Pipeline.arrRef spec5 21)
    | ⟨22, _⟩ => V c (Pipeline.arrRef spec5 22)
    | ⟨23, _⟩ => V c (Pipeline.arrRef spec5 23)
    | ⟨24, _⟩ => V c (Pipeline.arrRef spec5 24)
    | ⟨25, _⟩ => V c (Pipeline.arrRef spec5 25)
    | ⟨26, _⟩ => V c (Pipeline.arrRef spec5 26)
    | ⟨27, _⟩ => V c (Pipeline.arrRef spec5 27)
    | ⟨28, _⟩ => V c (Pipeline.arrRef spec5 28)
    | ⟨29, _⟩ => V c (Pipeline.arrRef spec5 29)
    | ⟨30, _⟩ => V c (Pipeline.arrRef spec5 30)
    | ⟨31, _⟩ => V c (Pipeline.arrRef spec5 31)
    | ⟨_ + 32, h⟩ => absurd h (Nat.not_lt.2 (Nat.le_add_left _ _))

/-- The family at a literal index. -/
theorem parArr5_0 (c : Dev nD) : parArr5 V c 0 = V c (Pipeline.arrRef spec5 0) := by dsimp only [parArr5]
theorem parArr5_1 (c : Dev nD) : parArr5 V c 1 = V c (Pipeline.arrRef spec5 1) := by dsimp only [parArr5]
theorem parArr5_2 (c : Dev nD) : parArr5 V c 2 = V c (Pipeline.arrRef spec5 2) := by dsimp only [parArr5]
theorem parArr5_3 (c : Dev nD) : parArr5 V c 3 = V c (Pipeline.arrRef spec5 3) := by dsimp only [parArr5]
theorem parArr5_4 (c : Dev nD) : parArr5 V c 4 = V c (Pipeline.arrRef spec5 4) := by dsimp only [parArr5]
theorem parArr5_5 (c : Dev nD) : parArr5 V c 5 = V c (Pipeline.arrRef spec5 5) := by dsimp only [parArr5]
theorem parArr5_6 (c : Dev nD) : parArr5 V c 6 = V c (Pipeline.arrRef spec5 6) := by dsimp only [parArr5]
theorem parArr5_7 (c : Dev nD) : parArr5 V c 7 = V c (Pipeline.arrRef spec5 7) := by dsimp only [parArr5]
theorem parArr5_8 (c : Dev nD) : parArr5 V c 8 = V c (Pipeline.arrRef spec5 8) := by dsimp only [parArr5]
theorem parArr5_9 (c : Dev nD) : parArr5 V c 9 = V c (Pipeline.arrRef spec5 9) := by dsimp only [parArr5]
theorem parArr5_10 (c : Dev nD) : parArr5 V c 10 = V c (Pipeline.arrRef spec5 10) := by dsimp only [parArr5]
theorem parArr5_11 (c : Dev nD) : parArr5 V c 11 = V c (Pipeline.arrRef spec5 11) := by dsimp only [parArr5]
theorem parArr5_12 (c : Dev nD) : parArr5 V c 12 = V c (Pipeline.arrRef spec5 12) := by dsimp only [parArr5]
theorem parArr5_13 (c : Dev nD) : parArr5 V c 13 = V c (Pipeline.arrRef spec5 13) := by dsimp only [parArr5]
theorem parArr5_14 (c : Dev nD) : parArr5 V c 14 = V c (Pipeline.arrRef spec5 14) := by dsimp only [parArr5]
theorem parArr5_15 (c : Dev nD) : parArr5 V c 15 = V c (Pipeline.arrRef spec5 15) := by dsimp only [parArr5]
theorem parArr5_16 (c : Dev nD) : parArr5 V c 16 = V c (Pipeline.arrRef spec5 16) := by dsimp only [parArr5]
theorem parArr5_17 (c : Dev nD) : parArr5 V c 17 = V c (Pipeline.arrRef spec5 17) := by dsimp only [parArr5]
theorem parArr5_18 (c : Dev nD) : parArr5 V c 18 = V c (Pipeline.arrRef spec5 18) := by dsimp only [parArr5]
theorem parArr5_19 (c : Dev nD) : parArr5 V c 19 = V c (Pipeline.arrRef spec5 19) := by dsimp only [parArr5]
theorem parArr5_20 (c : Dev nD) : parArr5 V c 20 = V c (Pipeline.arrRef spec5 20) := by dsimp only [parArr5]
theorem parArr5_21 (c : Dev nD) : parArr5 V c 21 = V c (Pipeline.arrRef spec5 21) := by dsimp only [parArr5]
theorem parArr5_22 (c : Dev nD) : parArr5 V c 22 = V c (Pipeline.arrRef spec5 22) := by dsimp only [parArr5]
theorem parArr5_23 (c : Dev nD) : parArr5 V c 23 = V c (Pipeline.arrRef spec5 23) := by dsimp only [parArr5]
theorem parArr5_24 (c : Dev nD) : parArr5 V c 24 = V c (Pipeline.arrRef spec5 24) := by dsimp only [parArr5]
theorem parArr5_25 (c : Dev nD) : parArr5 V c 25 = V c (Pipeline.arrRef spec5 25) := by dsimp only [parArr5]
theorem parArr5_26 (c : Dev nD) : parArr5 V c 26 = V c (Pipeline.arrRef spec5 26) := by dsimp only [parArr5]
theorem parArr5_27 (c : Dev nD) : parArr5 V c 27 = V c (Pipeline.arrRef spec5 27) := by dsimp only [parArr5]
theorem parArr5_28 (c : Dev nD) : parArr5 V c 28 = V c (Pipeline.arrRef spec5 28) := by dsimp only [parArr5]
theorem parArr5_29 (c : Dev nD) : parArr5 V c 29 = V c (Pipeline.arrRef spec5 29) := by dsimp only [parArr5]
theorem parArr5_30 (c : Dev nD) : parArr5 V c 30 = V c (Pipeline.arrRef spec5 30) := by dsimp only [parArr5]
theorem parArr5_31 (c : Dev nD) : parArr5 V c 31 = V c (Pipeline.arrRef spec5 31) := by dsimp only [parArr5]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par5_apply (c : Dev nD) (t : Fin cfg5.N) (j : Fin 32) (r : Fin 512) (d : Fin 128) (r' : Fin 4096)
    (hr : r'.val = t.val * 512 + r.val) : par5 V c t j (ix2 r d) = parArr5 V c j (ix2 r' d) := by
  match j with
  | ⟨0, _⟩ =>
    show (V c (Pipeline.arrRef spec5 0) : FVec Ideal S4096x128 .f32) (((win5 0).rect t).emb (ix2 r d)) = (V c (Pipeline.arrRef spec5 0) : FVec Ideal S4096x128 .f32) (ix2 r' d)
    exact rows_apply _ _ _ t.val
      (by show (win5 0).index t (0 : Fin 2) * 512 = t.val * 512; rw [idx5_par 0 (by decide) t (0 : Fin 2)]; rfl)
      (by show (win5 0).index t (1 : Fin 2) * 128 = 0; rw [idx5_par 0 (by decide) t (1 : Fin 2)]; rfl) r d r' hr
  | ⟨1, _⟩ =>
    show (V c (Pipeline.arrRef spec5 1) : FVec Ideal S4096x128 .f32) (((win5 1).rect t).emb (ix2 r d)) = (V c (Pipeline.arrRef spec5 1) : FVec Ideal S4096x128 .f32) (ix2 r' d)
    exact rows_apply _ _ _ t.val
      (by show (win5 1).index t (0 : Fin 2) * 512 = t.val * 512; rw [idx5_par 1 (by decide) t (0 : Fin 2)]; rfl)
      (by show (win5 1).index t (1 : Fin 2) * 128 = 0; rw [idx5_par 1 (by decide) t (1 : Fin 2)]; rfl) r d r' hr
  | ⟨2, _⟩ =>
    show (V c (Pipeline.arrRef spec5 2) : FVec Ideal S4096x128 .f32) (((win5 2).rect t).emb (ix2 r d)) = (V c (Pipeline.arrRef spec5 2) : FVec Ideal S4096x128 .f32) (ix2 r' d)
    exact rows_apply _ _ _ t.val
      (by show (win5 2).index t (0 : Fin 2) * 512 = t.val * 512; rw [idx5_par 2 (by decide) t (0 : Fin 2)]; rfl)
      (by show (win5 2).index t (1 : Fin 2) * 128 = 0; rw [idx5_par 2 (by decide) t (1 : Fin 2)]; rfl) r d r' hr
  | ⟨3, _⟩ =>
    show (V c (Pipeline.arrRef spec5 3) : FVec Ideal S4096x128 .f32) (((win5 3).rect t).emb (ix2 r d)) = (V c (Pipeline.arrRef spec5 3) : FVec Ideal S4096x128 .f32) (ix2 r' d)
    exact rows_apply _ _ _ t.val
      (by show (win5 3).index t (0 : Fin 2) * 512 = t.val * 512; rw [idx5_par 3 (by decide) t (0 : Fin 2)]; rfl)
      (by show (win5 3).index t (1 : Fin 2) * 128 = 0; rw [idx5_par 3 (by decide) t (1 : Fin 2)]; rfl) r d r' hr
  | ⟨4, _⟩ =>
    show (V c (Pipeline.arrRef spec5 4) : FVec Ideal S4096x128 .f32) (((win5 4).rect t).emb (ix2 r d)) = (V c (Pipeline.arrRef spec5 4) : FVec Ideal S4096x128 .f32) (ix2 r' d)
    exact rows_apply _ _ _ t.val
      (by show (win5 4).index t (0 : Fin 2) * 512 = t.val * 512; rw [idx5_par 4 (by decide) t (0 : Fin 2)]; rfl)
      (by show (win5 4).index t (1 : Fin 2) * 128 = 0; rw [idx5_par 4 (by decide) t (1 : Fin 2)]; rfl) r d r' hr
  | ⟨5, _⟩ =>
    show (V c (Pipeline.arrRef spec5 5) : FVec Ideal S4096x128 .f32) (((win5 5).rect t).emb (ix2 r d)) = (V c (Pipeline.arrRef spec5 5) : FVec Ideal S4096x128 .f32) (ix2 r' d)
    exact rows_apply _ _ _ t.val
      (by show (win5 5).index t (0 : Fin 2) * 512 = t.val * 512; rw [idx5_par 5 (by decide) t (0 : Fin 2)]; rfl)
      (by show (win5 5).index t (1 : Fin 2) * 128 = 0; rw [idx5_par 5 (by decide) t (1 : Fin 2)]; rfl) r d r' hr
  | ⟨6, _⟩ =>
    show (V c (Pipeline.arrRef spec5 6) : FVec Ideal S4096x128 .f32) (((win5 6).rect t).emb (ix2 r d)) = (V c (Pipeline.arrRef spec5 6) : FVec Ideal S4096x128 .f32) (ix2 r' d)
    exact rows_apply _ _ _ t.val
      (by show (win5 6).index t (0 : Fin 2) * 512 = t.val * 512; rw [idx5_par 6 (by decide) t (0 : Fin 2)]; rfl)
      (by show (win5 6).index t (1 : Fin 2) * 128 = 0; rw [idx5_par 6 (by decide) t (1 : Fin 2)]; rfl) r d r' hr
  | ⟨7, _⟩ =>
    show (V c (Pipeline.arrRef spec5 7) : FVec Ideal S4096x128 .f32) (((win5 7).rect t).emb (ix2 r d)) = (V c (Pipeline.arrRef spec5 7) : FVec Ideal S4096x128 .f32) (ix2 r' d)
    exact rows_apply _ _ _ t.val
      (by show (win5 7).index t (0 : Fin 2) * 512 = t.val * 512; rw [idx5_par 7 (by decide) t (0 : Fin 2)]; rfl)
      (by show (win5 7).index t (1 : Fin 2) * 128 = 0; rw [idx5_par 7 (by decide) t (1 : Fin 2)]; rfl) r d r' hr
  | ⟨8, _⟩ =>
    show (V c (Pipeline.arrRef spec5 8) : FVec Ideal S4096x128 .f32) (((win5 8).rect t).emb (ix2 r d)) = (V c (Pipeline.arrRef spec5 8) : FVec Ideal S4096x128 .f32) (ix2 r' d)
    exact rows_apply _ _ _ t.val
      (by show (win5 8).index t (0 : Fin 2) * 512 = t.val * 512; rw [idx5_par 8 (by decide) t (0 : Fin 2)]; rfl)
      (by show (win5 8).index t (1 : Fin 2) * 128 = 0; rw [idx5_par 8 (by decide) t (1 : Fin 2)]; rfl) r d r' hr
  | ⟨9, _⟩ =>
    show (V c (Pipeline.arrRef spec5 9) : FVec Ideal S4096x128 .f32) (((win5 9).rect t).emb (ix2 r d)) = (V c (Pipeline.arrRef spec5 9) : FVec Ideal S4096x128 .f32) (ix2 r' d)
    exact rows_apply _ _ _ t.val
      (by show (win5 9).index t (0 : Fin 2) * 512 = t.val * 512; rw [idx5_par 9 (by decide) t (0 : Fin 2)]; rfl)
      (by show (win5 9).index t (1 : Fin 2) * 128 = 0; rw [idx5_par 9 (by decide) t (1 : Fin 2)]; rfl) r d r' hr
  | ⟨10, _⟩ =>
    show (V c (Pipeline.arrRef spec5 10) : FVec Ideal S4096x128 .f32) (((win5 10).rect t).emb (ix2 r d)) = (V c (Pipeline.arrRef spec5 10) : FVec Ideal S4096x128 .f32) (ix2 r' d)
    exact rows_apply _ _ _ t.val
      (by show (win5 10).index t (0 : Fin 2) * 512 = t.val * 512; rw [idx5_par 10 (by decide) t (0 : Fin 2)]; rfl)
      (by show (win5 10).index t (1 : Fin 2) * 128 = 0; rw [idx5_par 10 (by decide) t (1 : Fin 2)]; rfl) r d r' hr
  | ⟨11, _⟩ =>
    show (V c (Pipeline.arrRef spec5 11) : FVec Ideal S4096x128 .f32) (((win5 11).rect t).emb (ix2 r d)) = (V c (Pipeline.arrRef spec5 11) : FVec Ideal S4096x128 .f32) (ix2 r' d)
    exact rows_apply _ _ _ t.val
      (by show (win5 11).index t (0 : Fin 2) * 512 = t.val * 512; rw [idx5_par 11 (by decide) t (0 : Fin 2)]; rfl)
      (by show (win5 11).index t (1 : Fin 2) * 128 = 0; rw [idx5_par 11 (by decide) t (1 : Fin 2)]; rfl) r d r' hr
  | ⟨12, _⟩ =>
    show (V c (Pipeline.arrRef spec5 12) : FVec Ideal S4096x128 .f32) (((win5 12).rect t).emb (ix2 r d)) = (V c (Pipeline.arrRef spec5 12) : FVec Ideal S4096x128 .f32) (ix2 r' d)
    exact rows_apply _ _ _ t.val
      (by show (win5 12).index t (0 : Fin 2) * 512 = t.val * 512; rw [idx5_par 12 (by decide) t (0 : Fin 2)]; rfl)
      (by show (win5 12).index t (1 : Fin 2) * 128 = 0; rw [idx5_par 12 (by decide) t (1 : Fin 2)]; rfl) r d r' hr
  | ⟨13, _⟩ =>
    show (V c (Pipeline.arrRef spec5 13) : FVec Ideal S4096x128 .f32) (((win5 13).rect t).emb (ix2 r d)) = (V c (Pipeline.arrRef spec5 13) : FVec Ideal S4096x128 .f32) (ix2 r' d)
    exact rows_apply _ _ _ t.val
      (by show (win5 13).index t (0 : Fin 2) * 512 = t.val * 512; rw [idx5_par 13 (by decide) t (0 : Fin 2)]; rfl)
      (by show (win5 13).index t (1 : Fin 2) * 128 = 0; rw [idx5_par 13 (by decide) t (1 : Fin 2)]; rfl) r d r' hr
  | ⟨14, _⟩ =>
    show (V c (Pipeline.arrRef spec5 14) : FVec Ideal S4096x128 .f32) (((win5 14).rect t).emb (ix2 r d)) = (V c (Pipeline.arrRef spec5 14) : FVec Ideal S4096x128 .f32) (ix2 r' d)
    exact rows_apply _ _ _ t.val
      (by show (win5 14).index t (0 : Fin 2) * 512 = t.val * 512; rw [idx5_par 14 (by decide) t (0 : Fin 2)]; rfl)
      (by show (win5 14).index t (1 : Fin 2) * 128 = 0; rw [idx5_par 14 (by decide) t (1 : Fin 2)]; rfl) r d r' hr
  | ⟨15, _⟩ =>
    show (V c (Pipeline.arrRef spec5 15) : FVec Ideal S4096x128 .f32) (((win5 15).rect t).emb (ix2 r d)) = (V c (Pipeline.arrRef spec5 15) : FVec Ideal S4096x128 .f32) (ix2 r' d)
    exact rows_apply _ _ _ t.val
      (by show (win5 15).index t (0 : Fin 2) * 512 = t.val * 512; rw [idx5_par 15 (by decide) t (0 : Fin 2)]; rfl)
      (by show (win5 15).index t (1 : Fin 2) * 128 = 0; rw [idx5_par 15 (by decide) t (1 : Fin 2)]; rfl) r d r' hr
  | ⟨16, _⟩ =>
    show (V c (Pipeline.arrRef spec5 16) : FVec Ideal S4096x128 .f32) (((win5 16).rect t).emb (ix2 r d)) = (V c (Pipeline.arrRef spec5 16) : FVec Ideal S4096x128 .f32) (ix2 r' d)
    exact rows_apply _ _ _ t.val
      (by show (win5 16).index t (0 : Fin 2) * 512 = t.val * 512; rw [idx5_par 16 (by decide) t (0 : Fin 2)]; rfl)
      (by show (win5 16).index t (1 : Fin 2) * 128 = 0; rw [idx5_par 16 (by decide) t (1 : Fin 2)]; rfl) r d r' hr
  | ⟨17, _⟩ =>
    show (V c (Pipeline.arrRef spec5 17) : FVec Ideal S4096x128 .f32) (((win5 17).rect t).emb (ix2 r d)) = (V c (Pipeline.arrRef spec5 17) : FVec Ideal S4096x128 .f32) (ix2 r' d)
    exact rows_apply _ _ _ t.val
      (by show (win5 17).index t (0 : Fin 2) * 512 = t.val * 512; rw [idx5_par 17 (by decide) t (0 : Fin 2)]; rfl)
      (by show (win5 17).index t (1 : Fin 2) * 128 = 0; rw [idx5_par 17 (by decide) t (1 : Fin 2)]; rfl) r d r' hr
  | ⟨18, _⟩ =>
    show (V c (Pipeline.arrRef spec5 18) : FVec Ideal S4096x128 .f32) (((win5 18).rect t).emb (ix2 r d)) = (V c (Pipeline.arrRef spec5 18) : FVec Ideal S4096x128 .f32) (ix2 r' d)
    exact rows_apply _ _ _ t.val
      (by show (win5 18).index t (0 : Fin 2) * 512 = t.val * 512; rw [idx5_par 18 (by decide) t (0 : Fin 2)]; rfl)
      (by show (win5 18).index t (1 : Fin 2) * 128 = 0; rw [idx5_par 18 (by decide) t (1 : Fin 2)]; rfl) r d r' hr
  | ⟨19, _⟩ =>
    show (V c (Pipeline.arrRef spec5 19) : FVec Ideal S4096x128 .f32) (((win5 19).rect t).emb (ix2 r d)) = (V c (Pipeline.arrRef spec5 19) : FVec Ideal S4096x128 .f32) (ix2 r' d)
    exact rows_apply _ _ _ t.val
      (by show (win5 19).index t (0 : Fin 2) * 512 = t.val * 512; rw [idx5_par 19 (by decide) t (0 : Fin 2)]; rfl)
      (by show (win5 19).index t (1 : Fin 2) * 128 = 0; rw [idx5_par 19 (by decide) t (1 : Fin 2)]; rfl) r d r' hr
  | ⟨20, _⟩ =>
    show (V c (Pipeline.arrRef spec5 20) : FVec Ideal S4096x128 .f32) (((win5 20).rect t).emb (ix2 r d)) = (V c (Pipeline.arrRef spec5 20) : FVec Ideal S4096x128 .f32) (ix2 r' d)
    exact rows_apply _ _ _ t.val
      (by show (win5 20).index t (0 : Fin 2) * 512 = t.val * 512; rw [idx5_par 20 (by decide) t (0 : Fin 2)]; rfl)
      (by show (win5 20).index t (1 : Fin 2) * 128 = 0; rw [idx5_par 20 (by decide) t (1 : Fin 2)]; rfl) r d r' hr
  | ⟨21, _⟩ =>
    show (V c (Pipeline.arrRef spec5 21) : FVec Ideal S4096x128 .f32) (((win5 21).rect t).emb (ix2 r d)) = (V c (Pipeline.arrRef spec5 21) : FVec Ideal S4096x128 .f32) (ix2 r' d)
    exact rows_apply _ _ _ t.val
      (by show (win5 21).index t (0 : Fin 2) * 512 = t.val * 512; rw [idx5_par 21 (by decide) t (0 : Fin 2)]; rfl)
      (by show (win5 21).index t (1 : Fin 2) * 128 = 0; rw [idx5_par 21 (by decide) t (1 : Fin 2)]; rfl) r d r' hr
  | ⟨22, _⟩ =>
    show (V c (Pipeline.arrRef spec5 22) : FVec Ideal S4096x128 .f32) (((win5 22).rect t).emb (ix2 r d)) = (V c (Pipeline.arrRef spec5 22) : FVec Ideal S4096x128 .f32) (ix2 r' d)
    exact rows_apply _ _ _ t.val
      (by show (win5 22).index t (0 : Fin 2) * 512 = t.val * 512; rw [idx5_par 22 (by decide) t (0 : Fin 2)]; rfl)
      (by show (win5 22).index t (1 : Fin 2) * 128 = 0; rw [idx5_par 22 (by decide) t (1 : Fin 2)]; rfl) r d r' hr
  | ⟨23, _⟩ =>
    show (V c (Pipeline.arrRef spec5 23) : FVec Ideal S4096x128 .f32) (((win5 23).rect t).emb (ix2 r d)) = (V c (Pipeline.arrRef spec5 23) : FVec Ideal S4096x128 .f32) (ix2 r' d)
    exact rows_apply _ _ _ t.val
      (by show (win5 23).index t (0 : Fin 2) * 512 = t.val * 512; rw [idx5_par 23 (by decide) t (0 : Fin 2)]; rfl)
      (by show (win5 23).index t (1 : Fin 2) * 128 = 0; rw [idx5_par 23 (by decide) t (1 : Fin 2)]; rfl) r d r' hr
  | ⟨24, _⟩ =>
    show (V c (Pipeline.arrRef spec5 24) : FVec Ideal S4096x128 .f32) (((win5 24).rect t).emb (ix2 r d)) = (V c (Pipeline.arrRef spec5 24) : FVec Ideal S4096x128 .f32) (ix2 r' d)
    exact rows_apply _ _ _ t.val
      (by show (win5 24).index t (0 : Fin 2) * 512 = t.val * 512; rw [idx5_par 24 (by decide) t (0 : Fin 2)]; rfl)
      (by show (win5 24).index t (1 : Fin 2) * 128 = 0; rw [idx5_par 24 (by decide) t (1 : Fin 2)]; rfl) r d r' hr
  | ⟨25, _⟩ =>
    show (V c (Pipeline.arrRef spec5 25) : FVec Ideal S4096x128 .f32) (((win5 25).rect t).emb (ix2 r d)) = (V c (Pipeline.arrRef spec5 25) : FVec Ideal S4096x128 .f32) (ix2 r' d)
    exact rows_apply _ _ _ t.val
      (by show (win5 25).index t (0 : Fin 2) * 512 = t.val * 512; rw [idx5_par 25 (by decide) t (0 : Fin 2)]; rfl)
      (by show (win5 25).index t (1 : Fin 2) * 128 = 0; rw [idx5_par 25 (by decide) t (1 : Fin 2)]; rfl) r d r' hr
  | ⟨26, _⟩ =>
    show (V c (Pipeline.arrRef spec5 26) : FVec Ideal S4096x128 .f32) (((win5 26).rect t).emb (ix2 r d)) = (V c (Pipeline.arrRef spec5 26) : FVec Ideal S4096x128 .f32) (ix2 r' d)
    exact rows_apply _ _ _ t.val
      (by show (win5 26).index t (0 : Fin 2) * 512 = t.val * 512; rw [idx5_par 26 (by decide) t (0 : Fin 2)]; rfl)
      (by show (win5 26).index t (1 : Fin 2) * 128 = 0; rw [idx5_par 26 (by decide) t (1 : Fin 2)]; rfl) r d r' hr
  | ⟨27, _⟩ =>
    show (V c (Pipeline.arrRef spec5 27) : FVec Ideal S4096x128 .f32) (((win5 27).rect t).emb (ix2 r d)) = (V c (Pipeline.arrRef spec5 27) : FVec Ideal S4096x128 .f32) (ix2 r' d)
    exact rows_apply _ _ _ t.val
      (by show (win5 27).index t (0 : Fin 2) * 512 = t.val * 512; rw [idx5_par 27 (by decide) t (0 : Fin 2)]; rfl)
      (by show (win5 27).index t (1 : Fin 2) * 128 = 0; rw [idx5_par 27 (by decide) t (1 : Fin 2)]; rfl) r d r' hr
  | ⟨28, _⟩ =>
    show (V c (Pipeline.arrRef spec5 28) : FVec Ideal S4096x128 .f32) (((win5 28).rect t).emb (ix2 r d)) = (V c (Pipeline.arrRef spec5 28) : FVec Ideal S4096x128 .f32) (ix2 r' d)
    exact rows_apply _ _ _ t.val
      (by show (win5 28).index t (0 : Fin 2) * 512 = t.val * 512; rw [idx5_par 28 (by decide) t (0 : Fin 2)]; rfl)
      (by show (win5 28).index t (1 : Fin 2) * 128 = 0; rw [idx5_par 28 (by decide) t (1 : Fin 2)]; rfl) r d r' hr
  | ⟨29, _⟩ =>
    show (V c (Pipeline.arrRef spec5 29) : FVec Ideal S4096x128 .f32) (((win5 29).rect t).emb (ix2 r d)) = (V c (Pipeline.arrRef spec5 29) : FVec Ideal S4096x128 .f32) (ix2 r' d)
    exact rows_apply _ _ _ t.val
      (by show (win5 29).index t (0 : Fin 2) * 512 = t.val * 512; rw [idx5_par 29 (by decide) t (0 : Fin 2)]; rfl)
      (by show (win5 29).index t (1 : Fin 2) * 128 = 0; rw [idx5_par 29 (by decide) t (1 : Fin 2)]; rfl) r d r' hr
  | ⟨30, _⟩ =>
    show (V c (Pipeline.arrRef spec5 30) : FVec Ideal S4096x128 .f32) (((win5 30).rect t).emb (ix2 r d)) = (V c (Pipeline.arrRef spec5 30) : FVec Ideal S4096x128 .f32) (ix2 r' d)
    exact rows_apply _ _ _ t.val
      (by show (win5 30).index t (0 : Fin 2) * 512 = t.val * 512; rw [idx5_par 30 (by decide) t (0 : Fin 2)]; rfl)
      (by show (win5 30).index t (1 : Fin 2) * 128 = 0; rw [idx5_par 30 (by decide) t (1 : Fin 2)]; rfl) r d r' hr
  | ⟨31, _⟩ =>
    show (V c (Pipeline.arrRef spec5 31) : FVec Ideal S4096x128 .f32) (((win5 31).rect t).emb (ix2 r d)) = (V c (Pipeline.arrRef spec5 31) : FVec Ideal S4096x128 .f32) (ix2 r' d)
    exact rows_apply _ _ _ t.val
      (by show (win5 31).index t (0 : Fin 2) * 512 = t.val * 512; rw [idx5_par 31 (by decide) t (0 : Fin 2)]; rfl)
      (by show (win5 31).index t (1 : Fin 2) * 128 = 0; rw [idx5_par 31 (by decide) t (1 : Fin 2)]; rfl) r d r' hr
  | ⟨_ + 32, h⟩ => exact absurd h (Nat.not_lt.2 (Nat.le_add_left _ _))

/-- The weight window's block is the whole weight slice at every point. -/
theorem iblk5_32_eq (c : Dev nD) (t : Fin cfg5.N) :
    (iblk5 V c 32 t : Vec Ideal S8x128x128 .f32) = (V c (Pipeline.arrRef spec5 32) : FVec Ideal S8x128x128 .f32) := by
  obtain ⟨e0, e1, e2, -⟩ := idx5_rest t
  funext y
  unfold iblk5
  rw [View.read_apply]
  refine congrArg (V c (Pipeline.arrRef spec5 32)) (funext fun a => Fin.ext ?_)
  match a with
  | ⟨0, _⟩ => show win5_32.index t (0 : Fin 3) * 8 + 1 * (y 0).val = (y 0).val; rw [e0]; omega
  | ⟨1, _⟩ => show win5_32.index t (1 : Fin 3) * 128 + 1 * (y 1).val = (y 1).val; rw [e1]; omega
  | ⟨2, _⟩ => show win5_32.index t (2 : Fin 3) * 128 + 1 * (y 2).val = (y 2).val; rw [e2]; omega

/-- The bias window's block is the whole bias slice at every point. -/
theorem iblk5_33_eq (c : Dev nD) (t : Fin cfg5.N) :
    (iblk5 V c 33 t : Vec Ideal S8x128 .f32) = (V c (Pipeline.arrRef spec5 33) : FVec Ideal S8x128 .f32) := by
  obtain ⟨-, -, -, e0, e1, -⟩ := idx5_rest t
  funext y
  unfold iblk5
  rw [View.read_apply]
  refine congrArg (V c (Pipeline.arrRef spec5 33)) (funext fun a => Fin.ext ?_)
  match a with
  | ⟨0, _⟩ => show win5_33.index t (0 : Fin 2) * 8 + 1 * (y 0).val = (y 0).val; rw [e0]; omega
  | ⟨1, _⟩ => show win5_33.index t (1 : Fin 2) * 128 + 1 * (y 1).val = (y 1).val; rw [e1]; omega

/-! ## What each point writes back, and the cover -/

/-- What point `t` writes back is block `t` of the region's function of the entry arrays. -/
theorem flushed5_eq (c : Dev nD) (t : Fin cfg5.N) :
    (dat5 (F := Ideal) V c).flushed 34 t = ((cfg5.win 34).blk t).view.read (Elt Ideal)
      (regionFn (parArr5 V c) (V c (Pipeline.arrRef spec5 32)) (V c (Pipeline.arrRef spec5 33))) := by
  show (cfg5.win 34).cut (grid5.coords t) ((dat5 V c).after 34 t) = _
  rw [after5_34, iblk5_32_eq, iblk5_33_eq]
  obtain ⟨-, -, -, -, -, e0, e1, e2⟩ := idx5_rest t
  have ht : t.val < 8 := Nat.lt_of_lt_of_eq t.isLt N_5
  funext j
  rw [View.read_apply]
  refine (out5_34_apply (parArr5 V c) (V c (Pipeline.arrRef spec5 32)) (V c (Pipeline.arrRef spec5 33)) (par5 V c t) t.val
    (fun j r d r' hr => par5_apply V c t j r d r' hr) ht j).trans ?_
  refine congrArg (regionFn (parArr5 V c) (V c (Pipeline.arrRef spec5 32)) (V c (Pipeline.arrRef spec5 33)))
    (funext fun a => Fin.ext ?_)
  match a with
  | ⟨0, _⟩ => show (j 0).val = win5_34.index t (0 : Fin 3) * 8 + 1 * (j 0).val; rw [e0]; omega
  | ⟨1, _⟩ => show t.val * 512 + (j 1).val = win5_34.index t (1 : Fin 3) * 512 + 1 * (j 1).val; rw [e1]; omega
  | ⟨2, _⟩ => show (j 2).val = win5_34.index t (2 : Fin 3) * 128 + 1 * (j 2).val; rw [e2]; omega

/-- An index of the output array is in point `t`'s block iff each coordinate is in the block's range on its axis. -/
theorem mem_blk5 (t : Fin cfg5.N) (i : S8x4096x128.Idx) :
    i ∈ ((cfg5.win 34).blk t).view.set ↔ ∀ a : Fin 3, win5_34.index t a * S8x512x128.size a ≤ (i a).val
      ∧ (i a).val < win5_34.index t a * S8x512x128.size a + S8x512x128.size a := by
  show i ∈ ((View.whole (Pipeline.arrRef spec5 34)).slice (win5_34.rect t)).set ↔ _
  rw [View.set_slice_whole, Rect.mem_set_unit]
  exact Iff.rfl

/-- Every index of the output array is in the block of the point its row falls in. -/
theorem cover5 (i : S8x4096x128.Idx) : ∃ t : Fin cfg5.N, (cfg5.win 34).flush t = true ∧ i ∈ ((cfg5.win 34).blk t).view.set := by
  have hi0 : (i 0).val < 8 := (i 0).isLt
  have hi1 : (i 1).val < 4096 := (i 1).isLt
  have hi2 : (i 2).val < 128 := (i 2).isLt
  have hN : cfg5.N = 8 := N_5
  let t : Fin cfg5.N := ⟨(i 1).val / 512, by rw [hN]; omega⟩
  obtain ⟨-, -, -, -, -, e0, e1, e2⟩ := idx5_rest t
  have ht : t.val = (i 1).val / 512 := rfl
  refine ⟨t, flush5_34 t, ?_⟩
  rw [mem_blk5]
  intro a
  match a with
  | ⟨0, _⟩ => show win5_34.index t (0 : Fin 3) * 8 ≤ (i 0).val ∧ (i 0).val < win5_34.index t (0 : Fin 3) * 8 + 8; rw [e0]; omega
  | ⟨1, _⟩ => show win5_34.index t (1 : Fin 3) * 512 ≤ (i 1).val ∧ (i 1).val < win5_34.index t (1 : Fin 3) * 512 + 512; rw [e1, ht]; omega
  | ⟨2, _⟩ => show win5_34.index t (2 : Fin 3) * 128 ≤ (i 2).val ∧ (i 2).val < win5_34.index t (2 : Fin 3) * 128 + 128; rw [e2]; omega

/-! ## The region's output array -/

/-- After the region its output array holds the region's function of the arrays the region found. -/
theorem regval5 (c : Dev nD) : (dat5 (F := Ideal) V c).arrAt 34 cfg5.N
    = regionFn (parArr5 V c) (V c (Pipeline.arrRef spec5 32)) (V c (Pipeline.arrRef spec5 33)) :=
  (dat5 (F := Ideal) V c).arrAt_eq_of_cover 34 _ (fun t _ => flushed5_eq V c t) cover5

end Cert.KernelIdeal.Hand

end
-- ==== Proof.KI.Chain5.lean ====
/-
  Layer 4 of the graph is what pallas_call 5 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain4
import proofs.«135270_j33062658245245_1_alg».proof.Proof.KI.RegVal5

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 5 leaves in its output array is layer 4. -/
theorem chain5 (c : Dev nD) :
    (W12 m c main_v83 : FVec Ideal S8x4096x128 .f32) = layerArr (argX m c) (argW m c) (argB m c) 4 := by
  rw [W12_out m c, regval5 (rd (W11 m)) c]
  refine layer_of_operands (argX m c) (argW m c) (argB m c) 4 (by decide) _ _ _ (fun w => ?_) ?_ ?_
  · -- the 32 parent windows: window i holds a reshaped slab of an earlier output array, the array the table of parents names
    match w with
    | ⟨0, _⟩ => exact (congrFun (V11_eq m c).symm _).trans ((opnd5_0 m (outsH m) c).trans (slabL0 m c 0 _ _ (nOf 4 0) (by decide)))
    | ⟨1, _⟩ => exact (congrFun (V11_eq m c).symm _).trans ((opnd5_1 m (outsH m) c).trans (slabL0 m c 1 _ _ (nOf 4 1) (by decide)))
    | ⟨2, _⟩ => exact (congrFun (V11_eq m c).symm _).trans ((opnd5_2 m (outsH m) c).trans (slabL1 m c 3 _ _ (nOf 4 2) (by decide)))
    | ⟨3, _⟩ => exact (congrFun (V11_eq m c).symm _).trans ((opnd5_3 m (outsH m) c).trans (slabL3 m c 2 _ _ (nOf 4 3) (by decide)))
    | ⟨4, _⟩ => exact (congrFun (V11_eq m c).symm _).trans ((opnd5_4 m (outsH m) c).trans (slabL1 m c 4 _ _ (nOf 4 4) (by decide)))
    | ⟨5, _⟩ => exact (congrFun (V11_eq m c).symm _).trans ((opnd5_5 m (outsH m) c).trans (slabL3 m c 0 _ _ (nOf 4 5) (by decide)))
    | ⟨6, _⟩ => exact (congrFun (V11_eq m c).symm _).trans ((opnd5_6 m (outsH m) c).trans (slabL1 m c 1 _ _ (nOf 4 6) (by decide)))
    | ⟨7, _⟩ => exact (congrFun (V11_eq m c).symm _).trans ((opnd5_7 m (outsH m) c).trans (slabL0 m c 6 _ _ (nOf 4 7) (by decide)))
    | ⟨8, _⟩ => exact (congrFun (V11_eq m c).symm _).trans ((opnd5_8 m (outsH m) c).trans (slabL3 m c 1 _ _ (nOf 4 8) (by decide)))
    | ⟨9, _⟩ => exact (congrFun (V11_eq m c).symm _).trans ((opnd5_9 m (outsH m) c).trans (slabL3 m c 3 _ _ (nOf 4 9) (by decide)))
    | ⟨10, _⟩ => exact (congrFun (V11_eq m c).symm _).trans ((opnd5_10 m (outsH m) c).trans (slabL0 m c 1 _ _ (nOf 4 10) (by decide)))
    | ⟨11, _⟩ => exact (congrFun (V11_eq m c).symm _).trans ((opnd5_11 m (outsH m) c).trans (slabL0 m c 0 _ _ (nOf 4 11) (by decide)))
    | ⟨12, _⟩ => exact (congrFun (V11_eq m c).symm _).trans ((opnd5_12 m (outsH m) c).trans (slabL2 m c 5 _ _ (nOf 4 12) (by decide)))
    | ⟨13, _⟩ => exact (congrFun (V11_eq m c).symm _).trans ((opnd5_13 m (outsH m) c).trans (slabL1 m c 2 _ _ (nOf 4 13) (by decide)))
    | ⟨14, _⟩ => exact (congrFun (V11_eq m c).symm _).trans ((opnd5_14 m (outsH m) c).trans (slabL2 m c 1 _ _ (nOf 4 14) (by decide)))
    | ⟨15, _⟩ => exact (congrFun (V11_eq m c).symm _).trans ((opnd5_15 m (outsH m) c).trans (slabL0 m c 3 _ _ (nOf 4 15) (by decide)))
    | ⟨16, _⟩ => exact (congrFun (V11_eq m c).symm _).trans ((opnd5_16 m (outsH m) c).trans (slabL3 m c 3 _ _ (nOf 4 16) (by decide)))
    | ⟨17, _⟩ => exact (congrFun (V11_eq m c).symm _).trans ((opnd5_17 m (outsH m) c).trans (slabL1 m c 5 _ _ (nOf 4 17) (by decide)))
    | ⟨18, _⟩ => exact (congrFun (V11_eq m c).symm _).trans ((opnd5_18 m (outsH m) c).trans (slabL3 m c 4 _ _ (nOf 4 18) (by decide)))
    | ⟨19, _⟩ => exact (congrFun (V11_eq m c).symm _).trans ((opnd5_19 m (outsH m) c).trans (slabL3 m c 1 _ _ (nOf 4 19) (by decide)))
    | ⟨20, _⟩ => exact (congrFun (V11_eq m c).symm _).trans ((opnd5_20 m (outsH m) c).trans (slabL2 m c 6 _ _ (nOf 4 20) (by decide)))
    | ⟨21, _⟩ => exact (congrFun (V11_eq m c).symm _).trans ((opnd5_21 m (outsH m) c).trans (slabL0 m c 6 _ _ (nOf 4 21) (by decide)))
    | ⟨22, _⟩ => exact (congrFun (V11_eq m c).symm _).trans ((opnd5_22 m (outsH m) c).trans (slabL3 m c 0 _ _ (nOf 4 22) (by decide)))
    | ⟨23, _⟩ => exact (congrFun (V11_eq m c).symm _).trans ((opnd5_23 m (outsH m) c).trans (slabL0 m c 0 _ _ (nOf 4 23) (by decide)))
    | ⟨24, _⟩ => exact (congrFun (V11_eq m c).symm _).trans ((opnd5_24 m (outsH m) c).trans (slabL2 m c 1 _ _ (nOf 4 24) (by decide)))
    | ⟨25, _⟩ => exact (congrFun (V11_eq m c).symm _).trans ((opnd5_25 m (outsH m) c).trans (slabL1 m c 4 _ _ (nOf 4 25) (by decide)))
    | ⟨26, _⟩ => exact (congrFun (V11_eq m c).symm _).trans ((opnd5_26 m (outsH m) c).trans (slabL3 m c 7 _ _ (nOf 4 26) (by decide)))
    | ⟨27, _⟩ => exact (congrFun (V11_eq m c).symm _).trans ((opnd5_27 m (outsH m) c).trans (slabL0 m c 5 _ _ (nOf 4 27) (by decide)))
    | ⟨28, _⟩ => exact (congrFun (V11_eq m c).symm _).trans ((opnd5_28 m (outsH m) c).trans (slabL3 m c 6 _ _ (nOf 4 28) (by decide)))
    | ⟨29, _⟩ => exact (congrFun (V11_eq m c).symm _).trans ((opnd5_29 m (outsH m) c).trans (slabL0 m c 1 _ _ (nOf 4 29) (by decide)))
    | ⟨30, _⟩ => exact (congrFun (V11_eq m c).symm _).trans ((opnd5_30 m (outsH m) c).trans (slabL2 m c 3 _ _ (nOf 4 30) (by decide)))
    | ⟨31, _⟩ => exact (congrFun (V11_eq m c).symm _).trans ((opnd5_31 m (outsH m) c).trans (slabL2 m c 2 _ _ (nOf 4 31) (by decide)))
    | ⟨n + 32, h⟩ => exact absurd h (by omega)
  · -- the transposed weights of the layer's eight nodes
    exact (congrFun (V11_eq m c).symm _).trans ((opnd5_32 m (outsH m) c).trans (wt_slice (argW m c) (8 * 4 + 1) _ _))
  · -- the biases of the layer's eight nodes
    exact (congrFun (V11_eq m c).symm _).trans ((opnd5_33 m (outsH m) c).trans (b_slice (argB m c) (8 * 4 + 1) _))

/-- The slabs of layer 4 as the later regions read them: slab `k` with its unit axis dropped is node `8 · 4 + 1 + k`
    (`n` names the node in any closed form, `hn` a closed equation of naturals). -/
theorem slabL4 (c : Dev nD) (k : Nat) (h₁ : S8x4096x128.Slices ![k, 0, 0] S1x4096x128)
    (h₂ : S1x4096x128.ShapeCasts S4096x128) (n : Nat) (hn : 8 * 4 + 1 + k = n) :
    shapeCast S4096x128 (extractStridedSlice S1x4096x128 ![k, 0, 0] (outsH m 12 main_v83 c) h₁) h₂
      = nodeArr (argX m c) (argW m c) (argB m c) n :=
  slab_of_layer (argX m c) (argW m c) (argB m c) (outsH m 12 main_v83 c) 4 (chain5 m c) k h₁ h₂ n hn

end Cert.KernelIdeal.Hand

end
-- ==== Proof.KI.Pay6.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay6_slab0 :
    k6_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay6_slab1 :
    k6_pay3 (F := Ideal) (k6_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay6_slab2 :
    k6_pay7 (F := Ideal) (k6_pay4 p0 p1 p2 p3) (k6_pay5 wk) (k6_pay6 bk) (ix3 0 r e) = slabVal p0 p1 p2 p3 wk bk r e :=
  slabFn_sum4_apply p0 p1 p2 p3 wk bk r e

/-- Slab 3: as slab 0. -/
theorem pay6_slab3 :
    k6_pay8 (F := Ideal) p0 p1 p2 p3 wk bk (ix3 0 r e) = slabVal p0 p1 p2 p3 wk bk r e :=
  slabFn_sum4_apply p0 p1 p2 p3 wk bk r e

/-- Slab 4: as slab 0. -/
theorem pay6_slab4 :
    k6_pay9 (F := Ideal) p0 p1 p2 p3 wk bk (ix3 0 r e) = slabVal p0 p1 p2 p3 wk bk r e :=
  slabFn_sum4_apply p0 p1 p2 p3 wk bk r e

/-- Slab 5: as slab 1. -/
theorem pay6_slab5 :
    k6_pay11 (F := Ideal) (k6_pay10 p0 p1 p2) p3 wk bk (ix3 0 r e) = slabVal p0 p1 p2 p3 wk bk r e :=
  slabFn_sum4_apply p0 p1 p2 p3 wk bk r e

/-- Slab 6: as slab 2. -/
theorem pay6_slab6 :
    k6_pay15 (F := Ideal) (k6_pay12 p0 p1 p2 p3) (k6_pay13 wk) (k6_pay14 bk) (ix3 0 r e) = slabVal p0 p1 p2 p3 wk bk r e :=
  slabFn_sum4_apply p0 p1 p2 p3 wk bk r e

/-- Slab 7: as slab 0. -/
theorem pay6_slab7 :
    k6_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal6.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R6
import proofs.«135270_j33062658245245_1_alg».proof.Proof.KI.Pay6
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab6_0_apply (x : S1x512x128.Idx) (i : S8x4096x128.Idx) (h0 : (i 0).val = 0)
    (h1 : (i 1).val = q * 512 + (x 1).val) (h2 : (i 2).val = (x 2).val) :
    slab6_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_0
  simp only [View.ld_unit_zero (S := S512x128) hz2]
  refine (pay6_slab0 (p 0) (p 1) (p 2) (p 3) (View.ld Wt r6_w0) (View.ld Bs r6_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab6_1_apply (x : S1x512x128.Idx) (i : S8x4096x128.Idx) (h0 : (i 0).val = 1)
    (h1 : (i 1).val = q * 512 + (x 1).val) (h2 : (i 2).val = (x 2).val) :
    slab6_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_1
  simp only [View.ld_unit_zero (S := S512x128) hz2]
  refine (pay6_slab1 (p 4) (p 5) (p 6) (p 7) (View.ld Wt r6_w1) (View.ld Bs r6_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab6_2_apply (x : S1x512x128.Idx) (i : S8x4096x128.Idx) (h0 : (i 0).val = 2)
    (h1 : (i 1).val = q * 512 + (x 1).val) (h2 : (i 2).val = (x 2).val) :
    slab6_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_2
  simp only [View.ld_unit_zero (S := S512x128) hz2]
  refine (pay6_slab2 (p 8) (p 9) (p 10) (p 11) (View.ld Wt r6_w2) (View.ld Bs r6_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab6_3_apply (x : S1x512x128.Idx) (i : S8x4096x128.Idx) (h0 : (i 0).val = 3)
    (h1 : (i 1).val = q * 512 + (x 1).val) (h2 : (i 2).val = (x 2).val) :
    slab6_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_3
  simp only [View.ld_unit_zero (S := S512x128) hz2]
  refine (pay6_slab3 (p 12) (p 13) (p 14) (p 15) (View.ld Wt r6_w3) (View.ld Bs r6_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab6_4_apply (x : S1x512x128.Idx) (i : S8x4096x128.Idx) (h0 : (i 0).val = 4)
    (h1 : (i 1).val = q * 512 + (x 1).val) (h2 : (i 2).val = (x 2).val) :
    slab6_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_4
  simp only [View.ld_unit_zero (S := S512x128) hz2]
  refine (pay6_slab4 (p 16) (p 17) (p 18) (p 19) (View.ld Wt r6_w4) (View.ld Bs r6_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab6_5_apply (x : S1x512x128.Idx) (i : S8x4096x128.Idx) (h0 : (i 0).val = 5)
    (h1 : (i 1).val = q * 512 + (x 1).val) (h2 : (i 2).val = (x 2).val) :
    slab6_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_5
  simp only [View.ld_unit_zero (S := S512x128) hz2]
  refine (pay6_slab5 (p 20) (p 21) (p 22) (p 23) (View.ld Wt r6_w5) (View.ld Bs r6_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab6_6_apply (x : S1x512x128.Idx) (i : S8x4096x128.Idx) (h0 : (i 0).val = 6)
    (h1 : (i 1).val = q * 512 + (x 1).val) (h2 : (i 2).val = (x 2).val) :
    slab6_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_6
  simp only [View.ld_unit_zero (S := S512x128) hz2]
  refine (pay6_slab6 (p 24) (p 25) (p 26) (p 27) (View.ld Wt r6_w6) (View.ld Bs r6_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab6_7_apply (x : S1x512x128.Idx) (i : S8x4096x128.Idx) (h0 : (i 0).val = 7)
    (h1 : (i 1).val = q * 512 + (x 1).val) (h2 : (i 2).val = (x 2).val) :
    slab6_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab6_7
  simp only [View.ld_unit_zero (S := S512x128) hz2]
  refine (pay6_slab7 (p 28) (p 29) (p 30) (p 31) (View.ld Wt r6_w7) (View.ld Bs r6_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out6_34_apply (hq : q < 8) (y : S8x512x128.Idx) :
    out6_34 (F := Ideal) p Wt Bs y = regionFn P Wt Bs (rowsOf q hq y) := by
  unfold out6_34
  refine View.canon_apply_of_pieces (fun y' => regionFn P Wt Bs (rowsOf q hq y')) _ ?_ y
    (cover6_34 (F := Ideal) _ _ _ _ _ _ _ _ y)
  intro pc hpc
  rcases List.mem_cons.mp hpc with rfl | hpc
  · exact fun x => slab6_7_apply P Wt Bs p q hp x (rowsOf q hq (r6_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_6_apply P Wt Bs p q hp x (rowsOf q hq (r6_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_5_apply P Wt Bs p q hp x (rowsOf q hq (r6_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_4_apply P Wt Bs p q hp x (rowsOf q hq (r6_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_3_apply P Wt Bs p q hp x (rowsOf q hq (r6_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_2_apply P Wt Bs p q hp x (rowsOf q hq (r6_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_1_apply P Wt Bs p q hp x (rowsOf q hq (r6_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab6_0_apply P Wt Bs p q hp x (rowsOf q hq (r6_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx6_par : ∀ w : Fin 35, w.val < 32 → ∀ (t : Fin cfg6.N) (a : Fin (win6 w).shape.rank),
    (win6 w).index t a = if a.val = 0 then t.val else 0 :=
  (by decide +kernel : ∀ w : Fin 35, w.val < 32 → ∀ (t : Fin grid6.N) (a : Fin (win6 w).shape.rank),
    (win6 w).index t a = if a.val = 0 then t.val else 0)

/-- the weight slice's and the bias slice's never move, and the output's row block moves with the point. -/
theorem idx6_rest : ∀ t : Fin cfg6.N, win6_32.index t (0 : Fin 3) = 0 ∧ win6_32.index t (1 : Fin 3) = 0
    ∧ win6_32.index t (2 : Fin 3) = 0 ∧ win6_33.index t (0 : Fin 2) = 0 ∧ win6_33.index t (1 : Fin 2) = 0
    ∧ win6_34.index t (0 : Fin 3) = 0 ∧ win6_34.index t (1 : Fin 3) = t.val ∧ win6_34.index t (2 : Fin 3) = 0 :=
  (by decide +kernel : ∀ t : Fin grid6.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr6 (c : Dev nD) : Fin 32 → FVec Ideal S4096x128 .f32 := fun j => match j with
    | ⟨0, _⟩ => V c (Pipeline.arrRef spec6 0)
    | ⟨1, _⟩ => V c (Pipeline.arrRef spec6 1)
    | ⟨2, _⟩ => V c (Pipeline.arrRef spec6 2)
    | ⟨3, _⟩ => V c (Pipeline.arrRef spec6 3)
    | ⟨4, _⟩ => V c (Pipeline.arrRef spec6 4)
    | ⟨5, _⟩ => V c (Pipeline.arrRef spec6 5)
    | ⟨6, _⟩ => V c (Pipeline.arrRef spec6 6)
    | ⟨7, _⟩ => V c (Pipeline.arrRef spec6 7)
    | ⟨8, _⟩ => V c (Pipeline.arrRef spec6 8)
    | ⟨9, _⟩ => V c (Pipeline.arrRef spec6 9)
    | ⟨10, _⟩ => V c (Pipeline.arrRef spec6 10)
    | ⟨11, _⟩ => V c (Pipeline.arrRef spec6 11)
    | ⟨12, _⟩ => V c (Pipeline.arrRef spec6 12)
    | ⟨13, _⟩ => V c (Pipeline.arrRef spec6 13)
    | ⟨14, _⟩ => V c (Pipeline.arrRef spec6 14)
    | ⟨15, _⟩ => V c (Pipeline.arrRef spec6 15)
    | ⟨16, _⟩ => V c (Pipeline.arrRef spec6 16)
    | ⟨17, _⟩ => V c (Pipeline.arrRef spec6 17)
    | ⟨18, _⟩ => V c (Pipeline.arrRef spec6 18)
    | ⟨19, _⟩ => V c (Pipeline.arrRef spec6 19)
    | ⟨20, _⟩ => V c (Pipeline.arrRef spec6 20)
    | ⟨21, _⟩ => V c (Pipeline.arrRef spec6 21)
    | ⟨22, _⟩ => V c (Pipeline.arrRef spec6 22)
    | ⟨23, _⟩ => V c (Pipeline.arrRef spec6 23)
    | ⟨24, _⟩ => V c (Pipeline.arrRef spec6 24)
    | ⟨25, _⟩ => V c (Pipeline.arrRef spec6 25)
    | ⟨26, _⟩ => V c (Pipeline.arrRef spec6 26)
    | ⟨27, _⟩ => V c (Pipeline.arrRef spec6 27)
    | ⟨28, _⟩ => V c (Pipeline.arrRef spec6 28)
    | ⟨29, _⟩ => V c (Pipeline.arrRef spec6 29)
    | ⟨30, _⟩ => V c (Pipeline.arrRef spec6 30)
    | ⟨31, _⟩ => V c (Pipeline.arrRef spec6 31)
    | ⟨_ + 32, h⟩ => absurd h (Nat.not_lt.2 (Nat.le_add_left _ _))

/-- The family at a literal index. -/
theorem parArr6_0 (c : Dev nD) : parArr6 V c 0 = V c (Pipeline.arrRef spec6 0) := by dsimp only [parArr6]
theorem parArr6_1 (c : Dev nD) : parArr6 V c 1 = V c (Pipeline.arrRef spec6 1) := by dsimp only [parArr6]
theorem parArr6_2 (c : Dev nD) : parArr6 V c 2 = V c (Pipeline.arrRef spec6 2) := by dsimp only [parArr6]
theorem parArr6_3 (c : Dev nD) : parArr6 V c 3 = V c (Pipeline.arrRef spec6 3) := by dsimp only [parArr6]
theorem parArr6_4 (c : Dev nD) : parArr6 V c 4 = V c (Pipeline.arrRef spec6 4) := by dsimp only [parArr6]
theorem parArr6_5 (c : Dev nD) : parArr6 V c 5 = V c (Pipeline.arrRef spec6 5) := by dsimp only [parArr6]
theorem parArr6_6 (c : Dev nD) : parArr6 V c 6 = V c (Pipeline.arrRef spec6 6) := by dsimp only [parArr6]
theorem parArr6_7 (c : Dev nD) : parArr6 V c 7 = V c (Pipeline.arrRef spec6 7) := by dsimp only [parArr6]
theorem parArr6_8 (c : Dev nD) : parArr6 V c 8 = V c (Pipeline.arrRef spec6 8) := by dsimp only [parArr6]
theorem parArr6_9 (c : Dev nD) : parArr6 V c 9 = V c (Pipeline.arrRef spec6 9) := by dsimp only [parArr6]
theorem parArr6_10 (c : Dev nD) : parArr6 V c 10 = V c (Pipeline.arrRef spec6 10) := by dsimp only [parArr6]
theorem parArr6_11 (c : Dev nD) : parArr6 V c 11 = V c (Pipeline.arrRef spec6 11) := by dsimp only [parArr6]
theorem parArr6_12 (c : Dev nD) : parArr6 V c 12 = V c (Pipeline.arrRef spec6 12) := by dsimp only [parArr6]
theorem parArr6_13 (c : Dev nD) : parArr6 V c 13 = V c (Pipeline.arrRef spec6 13) := by dsimp only [parArr6]
theorem parArr6_14 (c : Dev nD) : parArr6 V c 14 = V c (Pipeline.arrRef spec6 14) := by dsimp only [parArr6]
theorem parArr6_15 (c : Dev nD) : parArr6 V c 15 = V c (Pipeline.arrRef spec6 15) := by dsimp only [parArr6]
theorem parArr6_16 (c : Dev nD) : parArr6 V c 16 = V c (Pipeline.arrRef spec6 16) := by dsimp only [parArr6]
theorem parArr6_17 (c : Dev nD) : parArr6 V c 17 = V c (Pipeline.arrRef spec6 17) := by dsimp only [parArr6]
theorem parArr6_18 (c : Dev nD) : parArr6 V c 18 = V c (Pipeline.arrRef spec6 18) := by dsimp only [parArr6]
theorem parArr6_19 (c : Dev nD) : parArr6 V c 19 = V c (Pipeline.arrRef spec6 19) := by dsimp only [parArr6]
theorem parArr6_20 (c : Dev nD) : parArr6 V c 20 = V c (Pipeline.arrRef spec6 20) := by dsimp only [parArr6]
theorem parArr6_21 (c : Dev nD) : parArr6 V c 21 = V c (Pipeline.arrRef spec6 21) := by dsimp only [parArr6]
theorem parArr6_22 (c : Dev nD) : parArr6 V c 22 = V c (Pipeline.arrRef spec6 22) := by dsimp only [parArr6]
theorem parArr6_23 (c : Dev nD) : parArr6 V c 23 = V c (Pipeline.arrRef spec6 23) := by dsimp only [parArr6]
theorem parArr6_24 (c : Dev nD) : parArr6 V c 24 = V c (Pipeline.arrRef spec6 24) := by dsimp only [parArr6]
theorem parArr6_25 (c : Dev nD) : parArr6 V c 25 = V c (Pipeline.arrRef spec6 25) := by dsimp only [parArr6]
theorem parArr6_26 (c : Dev nD) : parArr6 V c 26 = V c (Pipeline.arrRef spec6 26) := by dsimp only [parArr6]
theorem parArr6_27 (c : Dev nD) : parArr6 V c 27 = V c (Pipeline.arrRef spec6 27) := by dsimp only [parArr6]
theorem parArr6_28 (c : Dev nD) : parArr6 V c 28 = V c (Pipeline.arrRef spec6 28) := by dsimp only [parArr6]
theorem parArr6_29 (c : Dev nD) : parArr6 V c 29 = V c (Pipeline.arrRef spec6 29) := by dsimp only [parArr6]
theorem parArr6_30 (c : Dev nD) : parArr6 V c 30 = V c (Pipeline.arrRef spec6 30) := by dsimp only [parArr6]
theorem parArr6_31 (c : Dev nD) : parArr6 V c 31 = V c (Pipeline.arrRef spec6 31) := by dsimp only [parArr6]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par6_apply (c : Dev nD) (t : Fin cfg6.N) (j : Fin 32) (r : Fin 512) (d : Fin 128) (r' : Fin 4096)
    (hr : r'.val = t.val * 512 + r.val) : par6 V c t j (ix2 r d) = parArr6 V c j (ix2 r' d) := by
  match j with
  | ⟨0, _⟩ =>
    show (V c (Pipeline.arrRef spec6 0) : FVec Ideal S4096x128 .f32) (((win6 0).rect t).emb (ix2 r d)) = (V c (Pipeline.arrRef spec6 0) : FVec Ideal S4096x128 .f32) (ix2 r' d)
    exact rows_apply _ _ _ t.val
      (by show (win6 0).index t (0 : Fin 2) * 512 = t.val * 512; rw [idx6_par 0 (by decide) t (0 : Fin 2)]; rfl)
      (by show (win6 0).index t (1 : Fin 2) * 128 = 0; rw [idx6_par 0 (by decide) t (1 : Fin 2)]; rfl) r d r' hr
  | ⟨1, _⟩ =>
    show (V c (Pipeline.arrRef spec6 1) : FVec Ideal S4096x128 .f32) (((win6 1).rect t).emb (ix2 r d)) = (V c (Pipeline.arrRef spec6 1) : FVec Ideal S4096x128 .f32) (ix2 r' d)
    exact rows_apply _ _ _ t.val
      (by show (win6 1).index t (0 : Fin 2) * 512 = t.val * 512; rw [idx6_par 1 (by decide) t (0 : Fin 2)]; rfl)
      (by show (win6 1).index t (1 : Fin 2) * 128 = 0; rw [idx6_par 1 (by decide) t (1 : Fin 2)]; rfl) r d r' hr
  | ⟨2, _⟩ =>
    show (V c (Pipeline.arrRef spec6 2) : FVec Ideal S4096x128 .f32) (((win6 2).rect t).emb (ix2 r d)) = (V c (Pipeline.arrRef spec6 2) : FVec Ideal S4096x128 .f32) (ix2 r' d)
    exact rows_apply _ _ _ t.val
      (by show (win6 2).index t (0 : Fin 2) * 512 = t.val * 512; rw [idx6_par 2 (by decide) t (0 : Fin 2)]; rfl)
      (by show (win6 2).index t (1 : Fin 2) * 128 = 0; rw [idx6_par 2 (by decide) t (1 : Fin 2)]; rfl) r d r' hr
  | ⟨3, _⟩ =>
    show (V c (Pipeline.arrRef spec6 3) : FVec Ideal S4096x128 .f32) (((win6 3).rect t).emb (ix2 r d)) = (V c (Pipeline.arrRef spec6 3) : FVec Ideal S4096x128 .f32) (ix2 r' d)
    exact rows_apply _ _ _ t.val
      (by show (win6 3).index t (0 : Fin 2) * 512 = t.val * 512; rw [idx6_par 3 (by decide) t (0 : Fin 2)]; rfl)
      (by show (win6 3).index t (1 : Fin 2) * 128 = 0; rw [idx6_par 3 (by decide) t (1 : Fin 2)]; rfl) r d r' hr
  | ⟨4, _⟩ =>
    show (V c (Pipeline.arrRef spec6 4) : FVec Ideal S4096x128 .f32) (((win6 4).rect t).emb (ix2 r d)) = (V c (Pipeline.arrRef spec6 4) : FVec Ideal S4096x128 .f32) (ix2 r' d)
    exact rows_apply _ _ _ t.val
      (by show (win6 4).index t (0 : Fin 2) * 512 = t.val * 512; rw [idx6_par 4 (by decide) t (0 : Fin 2)]; rfl)
      (by show (win6 4).index t (1 : Fin 2) * 128 = 0; rw [idx6_par 4 (by decide) t (1 : Fin 2)]; rfl) r d r' hr
  | ⟨5, _⟩ =>
    show (V c (Pipeline.arrRef spec6 5) : FVec Ideal S4096x128 .f32) (((win6 5).rect t).emb (ix2 r d)) = (V c (Pipeline.arrRef spec6 5) : FVec Ideal S4096x128 .f32) (ix2 r' d)
    exact rows_apply _ _ _ t.val
      (by show (win6 5).index t (0 : Fin 2) * 512 = t.val * 512; rw [idx6_par 5 (by decide) t (0 : Fin 2)]; rfl)
      (by show (win6 5).index t (1 : Fin 2) * 128 = 0; rw [idx6_par 5 (by decide) t (1 : Fin 2)]; rfl) r d r' hr
  | ⟨6, _⟩ =>
    show (V c (Pipeline.arrRef spec6 6) : FVec Ideal S4096x128 .f32) (((win6 6).rect t).emb (ix2 r d)) = (V c (Pipeline.arrRef spec6 6) : FVec Ideal S4096x128 .f32) (ix2 r' d)
    exact rows_apply _ _ _ t.val
      (by show (win6 6).index t (0 : Fin 2) * 512 = t.val * 512; rw [idx6_par 6 (by decide) t (0 : Fin 2)]; rfl)
      (by show (win6 6).index t (1 : Fin 2) * 128 = 0; rw [idx6_par 6 (by decide) t (1 : Fin 2)]; rfl) r d r' hr
  | ⟨7, _⟩ =>
    show (V c (Pipeline.arrRef spec6 7) : FVec Ideal S4096x128 .f32) (((win6 7).rect t).emb (ix2 r d)) = (V c (Pipeline.arrRef spec6 7) : FVec Ideal S4096x128 .f32) (ix2 r' d)
    exact rows_apply _ _ _ t.val
      (by show (win6 7).index t (0 : Fin 2) * 512 = t.val * 512; rw [idx6_par 7 (by decide) t (0 : Fin 2)]; rfl)
      (by show (win6 7).index t (1 : Fin 2) * 128 = 0; rw [idx6_par 7 (by decide) t (1 : Fin 2)]; rfl) r d r' hr
  | ⟨8, _⟩ =>
    show (V c (Pipeline.arrRef spec6 8) : FVec Ideal S4096x128 .f32) (((win6 8).rect t).emb (ix2 r d)) = (V c (Pipeline.arrRef spec6 8) : FVec Ideal S4096x128 .f32) (ix2 r' d)
    exact rows_apply _ _ _ t.val
      (by show (win6 8).index t (0 : Fin 2) * 512 = t.val * 512; rw [idx6_par 8 (by decide) t (0 : Fin 2)]; rfl)
      (by show (win6 8).index t (1 : Fin 2) * 128 = 0; rw [idx6_par 8 (by decide) t (1 : Fin 2)]; rfl) r d r' hr
  | ⟨9, _⟩ =>
    show (V c (Pipeline.arrRef spec6 9) : FVec Ideal S4096x128 .f32) (((win6 9).rect t).emb (ix2 r d)) = (V c (Pipeline.arrRef spec6 9) : FVec Ideal S4096x128 .f32) (ix2 r' d)
    exact rows_apply _ _ _ t.val
      (by show (win6 9).index t (0 : Fin 2) * 512 = t.val * 512; rw [idx6_par 9 (by decide) t (0 : Fin 2)]; rfl)
      (by show (win6 9).index t (1 : Fin 2) * 128 = 0; rw [idx6_par 9 (by decide) t (1 : Fin 2)]; rfl) r d r' hr
  | ⟨10, _⟩ =>
    show (V c (Pipeline.arrRef spec6 10) : FVec Ideal S4096x128 .f32) (((win6 10).rect t).emb (ix2 r d)) = (V c (Pipeline.arrRef spec6 10) : FVec Ideal S4096x128 .f32) (ix2 r' d)
    exact rows_apply _ _ _ t.val
      (by show (win6 10).index t (0 : Fin 2) * 512 = t.val * 512; rw [idx6_par 10 (by decide) t (0 : Fin 2)]; rfl)
      (by show (win6 10).index t (1 : Fin 2) * 128 = 0; rw [idx6_par 10 (by decide) t (1 : Fin 2)]; rfl) r d r' hr
  | ⟨11, _⟩ =>
    show (V c (Pipeline.arrRef spec6 11) : FVec Ideal S4096x128 .f32) (((win6 11).rect t).emb (ix2 r d)) = (V c (Pipeline.arrRef spec6 11) : FVec Ideal S4096x128 .f32) (ix2 r' d)
    exact rows_apply _ _ _ t.val
      (by show (win6 11).index t (0 : Fin 2) * 512 = t.val * 512; rw [idx6_par 11 (by decide) t (0 : Fin 2)]; rfl)
      (by show (win6 11).index t (1 : Fin 2) * 128 = 0; rw [idx6_par 11 (by decide) t (1 : Fin 2)]; rfl) r d r' hr
  | ⟨12, _⟩ =>
    show (V c (Pipeline.arrRef spec6 12) : FVec Ideal S4096x128 .f32) (((win6 12).rect t).emb (ix2 r d)) = (V c (Pipeline.arrRef spec6 12) : FVec Ideal S4096x128 .f32) (ix2 r' d)
    exact rows_apply _ _ _ t.val
      (by show (win6 12).index t (0 : Fin 2) * 512 = t.val * 512; rw [idx6_par 12 (by decide) t (0 : Fin 2)]; rfl)
      (by show (win6 12).index t (1 : Fin 2) * 128 = 0; rw [idx6_par 12 (by decide) t (1 : Fin 2)]; rfl) r d r' hr
  | ⟨13, _⟩ =>
    show (V c (Pipeline.arrRef spec6 13) : FVec Ideal S4096x128 .f32) (((win6 13).rect t).emb (ix2 r d)) = (V c (Pipeline.arrRef spec6 13) : FVec Ideal S4096x128 .f32) (ix2 r' d)
    exact rows_apply _ _ _ t.val
      (by show (win6 13).index t (0 : Fin 2) * 512 = t.val * 512; rw [idx6_par 13 (by decide) t (0 : Fin 2)]; rfl)
      (by show (win6 13).index t (1 : Fin 2) * 128 = 0; rw [idx6_par 13 (by decide) t (1 : Fin 2)]; rfl) r d r' hr
  | ⟨14, _⟩ =>
    show (V c (Pipeline.arrRef spec6 14) : FVec Ideal S4096x128 .f32) (((win6 14).rect t).emb (ix2 r d)) = (V c (Pipeline.arrRef spec6 14) : FVec Ideal S4096x128 .f32) (ix2 r' d)
    exact rows_apply _ _ _ t.val
      (by show (win6 14).index t (0 : Fin 2) * 512 = t.val * 512; rw [idx6_par 14 (by decide) t (0 : Fin 2)]; rfl)
      (by show (win6 14).index t (1 : Fin 2) * 128 = 0; rw [idx6_par 14 (by decide) t (1 : Fin 2)]; rfl) r d r' hr
  | ⟨15, _⟩ =>
    show (V c (Pipeline.arrRef spec6 15) : FVec Ideal S4096x128 .f32) (((win6 15).rect t).emb (ix2 r d)) = (V c (Pipeline.arrRef spec6 15) : FVec Ideal S4096x128 .f32) (ix2 r' d)
    exact rows_apply _ _ _ t.val
      (by show (win6 15).index t (0 : Fin 2) * 512 = t.val * 512; rw [idx6_par 15 (by decide) t (0 : Fin 2)]; rfl)
      (by show (win6 15).index t (1 : Fin 2) * 128 = 0; rw [idx6_par 15 (by decide) t (1 : Fin 2)]; rfl) r d r' hr
  | ⟨16, _⟩ =>
    show (V c (Pipeline.arrRef spec6 16) : FVec Ideal S4096x128 .f32) (((win6 16).rect t).emb (ix2 r d)) = (V c (Pipeline.arrRef spec6 16) : FVec Ideal S4096x128 .f32) (ix2 r' d)
    exact rows_apply _ _ _ t.val
      (by show (win6 16).index t (0 : Fin 2) * 512 = t.val * 512; rw [idx6_par 16 (by decide) t (0 : Fin 2)]; rfl)
      (by show (win6 16).index t (1 : Fin 2) * 128 = 0; rw [idx6_par 16 (by decide) t (1 : Fin 2)]; rfl) r d r' hr
  | ⟨17, _⟩ =>
    show (V c (Pipeline.arrRef spec6 17) : FVec Ideal S4096x128 .f32) (((win6 17).rect t).emb (ix2 r d)) = (V c (Pipeline.arrRef spec6 17) : FVec Ideal S4096x128 .f32) (ix2 r' d)
    exact rows_apply _ _ _ t.val
      (by show (win6 17).index t (0 : Fin 2) * 512 = t.val * 512; rw [idx6_par 17 (by decide) t (0 : Fin 2)]; rfl)
      (by show (win6 17).index t (1 : Fin 2) * 128 = 0; rw [idx6_par 17 (by decide) t (1 : Fin 2)]; rfl) r d r' hr
  | ⟨18, _⟩ =>
    show (V c (Pipeline.arrRef spec6 18) : FVec Ideal S4096x128 .f32) (((win6 18).rect t).emb (ix2 r d)) = (V c (Pipeline.arrRef spec6 18) : FVec Ideal S4096x128 .f32) (ix2 r' d)
    exact rows_apply _ _ _ t.val
      (by show (win6 18).index t (0 : Fin 2) * 512 = t.val * 512; rw [idx6_par 18 (by decide) t (0 : Fin 2)]; rfl)
      (by show (win6 18).index t (1 : Fin 2) * 128 = 0; rw [idx6_par 18 (by decide) t (1 : Fin 2)]; rfl) r d r' hr
  | ⟨19, _⟩ =>
    show (V c (Pipeline.arrRef spec6 19) : FVec Ideal S4096x128 .f32) (((win6 19).rect t).emb (ix2 r d)) = (V c (Pipeline.arrRef spec6 19) : FVec Ideal S4096x128 .f32) (ix2 r' d)
    exact rows_apply _ _ _ t.val
      (by show (win6 19).index t (0 : Fin 2) * 512 = t.val * 512; rw [idx6_par 19 (by decide) t (0 : Fin 2)]; rfl)
      (by show (win6 19).index t (1 : Fin 2) * 128 = 0; rw [idx6_par 19 (by decide) t (1 : Fin 2)]; rfl) r d r' hr
  | ⟨20, _⟩ =>
    show (V c (Pipeline.arrRef spec6 20) : FVec Ideal S4096x128 .f32) (((win6 20).rect t).emb (ix2 r d)) = (V c (Pipeline.arrRef spec6 20) : FVec Ideal S4096x128 .f32) (ix2 r' d)
    exact rows_apply _ _ _ t.val
      (by show (win6 20).index t (0 : Fin 2) * 512 = t.val * 512; rw [idx6_par 20 (by decide) t (0 : Fin 2)]; rfl)
      (by show (win6 20).index t (1 : Fin 2) * 128 = 0; rw [idx6_par 20 (by decide) t (1 : Fin 2)]; rfl) r d r' hr
  | ⟨21, _⟩ =>
    show (V c (Pipeline.arrRef spec6 21) : FVec Ideal S4096x128 .f32) (((win6 21).rect t).emb (ix2 r d)) = (V c (Pipeline.arrRef spec6 21) : FVec Ideal S4096x128 .f32) (ix2 r' d)
    exact rows_apply _ _ _ t.val
      (by show (win6 21).index t (0 : Fin 2) * 512 = t.val * 512; rw [idx6_par 21 (by decide) t (0 : Fin 2)]; rfl)
      (by show (win6 21).index t (1 : Fin 2) * 128 = 0; rw [idx6_par 21 (by decide) t (1 : Fin 2)]; rfl) r d r' hr
  | ⟨22, _⟩ =>
    show (V c (Pipeline.arrRef spec6 22) : FVec Ideal S4096x128 .f32) (((win6 22).rect t).emb (ix2 r d)) = (V c (Pipeline.arrRef spec6 22) : FVec Ideal S4096x128 .f32) (ix2 r' d)
    exact rows_apply _ _ _ t.val
      (by show (win6 22).index t (0 : Fin 2) * 512 = t.val * 512; rw [idx6_par 22 (by decide) t (0 : Fin 2)]; rfl)
      (by show (win6 22).index t (1 : Fin 2) * 128 = 0; rw [idx6_par 22 (by decide) t (1 : Fin 2)]; rfl) r d r' hr
  | ⟨23, _⟩ =>
    show (V c (Pipeline.arrRef spec6 23) : FVec Ideal S4096x128 .f32) (((win6 23).rect t).emb (ix2 r d)) = (V c (Pipeline.arrRef spec6 23) : FVec Ideal S4096x128 .f32) (ix2 r' d)
    exact rows_apply _ _ _ t.val
      (by show (win6 23).index t (0 : Fin 2) * 512 = t.val * 512; rw [idx6_par 23 (by decide) t (0 : Fin 2)]; rfl)
      (by show (win6 23).index t (1 : Fin 2) * 128 = 0; rw [idx6_par 23 (by decide) t (1 : Fin 2)]; rfl) r d r' hr
  | ⟨24, _⟩ =>
    show (V c (Pipeline.arrRef spec6 24) : FVec Ideal S4096x128 .f32) (((win6 24).rect t).emb (ix2 r d)) = (V c (Pipeline.arrRef spec6 24) : FVec Ideal S4096x128 .f32) (ix2 r' d)
    exact rows_apply _ _ _ t.val
      (by show (win6 24).index t (0 : Fin 2) * 512 = t.val * 512; rw [idx6_par 24 (by decide) t (0 : Fin 2)]; rfl)
      (by show (win6 24).index t (1 : Fin 2) * 128 = 0; rw [idx6_par 24 (by decide) t (1 : Fin 2)]; rfl) r d r' hr
  | ⟨25, _⟩ =>
    show (V c (Pipeline.arrRef spec6 25) : FVec Ideal S4096x128 .f32) (((win6 25).rect t).emb (ix2 r d)) = (V c (Pipeline.arrRef spec6 25) : FVec Ideal S4096x128 .f32) (ix2 r' d)
    exact rows_apply _ _ _ t.val
      (by show (win6 25).index t (0 : Fin 2) * 512 = t.val * 512; rw [idx6_par 25 (by decide) t (0 : Fin 2)]; rfl)
      (by show (win6 25).index t (1 : Fin 2) * 128 = 0; rw [idx6_par 25 (by decide) t (1 : Fin 2)]; rfl) r d r' hr
  | ⟨26, _⟩ =>
    show (V c (Pipeline.arrRef spec6 26) : FVec Ideal S4096x128 .f32) (((win6 26).rect t).emb (ix2 r d)) = (V c (Pipeline.arrRef spec6 26) : FVec Ideal S4096x128 .f32) (ix2 r' d)
    exact rows_apply _ _ _ t.val
      (by show (win6 26).index t (0 : Fin 2) * 512 = t.val * 512; rw [idx6_par 26 (by decide) t (0 : Fin 2)]; rfl)
      (by show (win6 26).index t (1 : Fin 2) * 128 = 0; rw [idx6_par 26 (by decide) t (1 : Fin 2)]; rfl) r d r' hr
  | ⟨27, _⟩ =>
    show (V c (Pipeline.arrRef spec6 27) : FVec Ideal S4096x128 .f32) (((win6 27).rect t).emb (ix2 r d)) = (V c (Pipeline.arrRef spec6 27) : FVec Ideal S4096x128 .f32) (ix2 r' d)
    exact rows_apply _ _ _ t.val
      (by show (win6 27).index t (0 : Fin 2) * 512 = t.val * 512; rw [idx6_par 27 (by decide) t (0 : Fin 2)]; rfl)
      (by show (win6 27).index t (1 : Fin 2) * 128 = 0; rw [idx6_par 27 (by decide) t (1 : Fin 2)]; rfl) r d r' hr
  | ⟨28, _⟩ =>
    show (V c (Pipeline.arrRef spec6 28) : FVec Ideal S4096x128 .f32) (((win6 28).rect t).emb (ix2 r d)) = (V c (Pipeline.arrRef spec6 28) : FVec Ideal S4096x128 .f32) (ix2 r' d)
    exact rows_apply _ _ _ t.val
      (by show (win6 28).index t (0 : Fin 2) * 512 = t.val * 512; rw [idx6_par 28 (by decide) t (0 : Fin 2)]; rfl)
      (by show (win6 28).index t (1 : Fin 2) * 128 = 0; rw [idx6_par 28 (by decide) t (1 : Fin 2)]; rfl) r d r' hr
  | ⟨29, _⟩ =>
    show (V c (Pipeline.arrRef spec6 29) : FVec Ideal S4096x128 .f32) (((win6 29).rect t).emb (ix2 r d)) = (V c (Pipeline.arrRef spec6 29) : FVec Ideal S4096x128 .f32) (ix2 r' d)
    exact rows_apply _ _ _ t.val
      (by show (win6 29).index t (0 : Fin 2) * 512 = t.val * 512; rw [idx6_par 29 (by decide) t (0 : Fin 2)]; rfl)
      (by show (win6 29).index t (1 : Fin 2) * 128 = 0; rw [idx6_par 29 (by decide) t (1 : Fin 2)]; rfl) r d r' hr
  | ⟨30, _⟩ =>
    show (V c (Pipeline.arrRef spec6 30) : FVec Ideal S4096x128 .f32) (((win6 30).rect t).emb (ix2 r d)) = (V c (Pipeline.arrRef spec6 30) : FVec Ideal S4096x128 .f32) (ix2 r' d)
    exact rows_apply _ _ _ t.val
      (by show (win6 30).index t (0 : Fin 2) * 512 = t.val * 512; rw [idx6_par 30 (by decide) t (0 : Fin 2)]; rfl)
      (by show (win6 30).index t (1 : Fin 2) * 128 = 0; rw [idx6_par 30 (by decide) t (1 : Fin 2)]; rfl) r d r' hr
  | ⟨31, _⟩ =>
    show (V c (Pipeline.arrRef spec6 31) : FVec Ideal S4096x128 .f32) (((win6 31).rect t).emb (ix2 r d)) = (V c (Pipeline.arrRef spec6 31) : FVec Ideal S4096x128 .f32) (ix2 r' d)
    exact rows_apply _ _ _ t.val
      (by show (win6 31).index t (0 : Fin 2) * 512 = t.val * 512; rw [idx6_par 31 (by decide) t (0 : Fin 2)]; rfl)
      (by show (win6 31).index t (1 : Fin 2) * 128 = 0; rw [idx6_par 31 (by decide) t (1 : Fin 2)]; rfl) r d r' hr
  | ⟨_ + 32, h⟩ => exact absurd h (Nat.not_lt.2 (Nat.le_add_left _ _))

/-- The weight window's block is the whole weight slice at every point. -/
theorem iblk6_32_eq (c : Dev nD) (t : Fin cfg6.N) :
    (iblk6 V c 32 t : Vec Ideal S8x128x128 .f32) = (V c (Pipeline.arrRef spec6 32) : FVec Ideal S8x128x128 .f32) := by
  obtain ⟨e0, e1, e2, -⟩ := idx6_rest t
  funext y
  unfold iblk6
  rw [View.read_apply]
  refine congrArg (V c (Pipeline.arrRef spec6 32)) (funext fun a => Fin.ext ?_)
  match a with
  | ⟨0, _⟩ => show win6_32.index t (0 : Fin 3) * 8 + 1 * (y 0).val = (y 0).val; rw [e0]; omega
  | ⟨1, _⟩ => show win6_32.index t (1 : Fin 3) * 128 + 1 * (y 1).val = (y 1).val; rw [e1]; omega
  | ⟨2, _⟩ => show win6_32.index t (2 : Fin 3) * 128 + 1 * (y 2).val = (y 2).val; rw [e2]; omega

/-- The bias window's block is the whole bias slice at every point. -/
theorem iblk6_33_eq (c : Dev nD) (t : Fin cfg6.N) :
    (iblk6 V c 33 t : Vec Ideal S8x128 .f32) = (V c (Pipeline.arrRef spec6 33) : FVec Ideal S8x128 .f32) := by
  obtain ⟨-, -, -, e0, e1, -⟩ := idx6_rest t
  funext y
  unfold iblk6
  rw [View.read_apply]
  refine congrArg (V c (Pipeline.arrRef spec6 33)) (funext fun a => Fin.ext ?_)
  match a with
  | ⟨0, _⟩ => show win6_33.index t (0 : Fin 2) * 8 + 1 * (y 0).val = (y 0).val; rw [e0]; omega
  | ⟨1, _⟩ => show win6_33.index t (1 : Fin 2) * 128 + 1 * (y 1).val = (y 1).val; rw [e1]; omega

/-! ## What each point writes back, and the cover -/

/-- What point `t` writes back is block `t` of the region's function of the entry arrays. -/
theorem flushed6_eq (c : Dev nD) (t : Fin cfg6.N) :
    (dat6 (F := Ideal) V c).flushed 34 t = ((cfg6.win 34).blk t).view.read (Elt Ideal)
      (regionFn (parArr6 V c) (V c (Pipeline.arrRef spec6 32)) (V c (Pipeline.arrRef spec6 33))) := by
  show (cfg6.win 34).cut (grid6.coords t) ((dat6 V c).after 34 t) = _
  rw [after6_34, iblk6_32_eq, iblk6_33_eq]
  obtain ⟨-, -, -, -, -, e0, e1, e2⟩ := idx6_rest t
  have ht : t.val < 8 := Nat.lt_of_lt_of_eq t.isLt N_6
  funext j
  rw [View.read_apply]
  refine (out6_34_apply (parArr6 V c) (V c (Pipeline.arrRef spec6 32)) (V c (Pipeline.arrRef spec6 33)) (par6 V c t) t.val
    (fun j r d r' hr => par6_apply V c t j r d r' hr) ht j).trans ?_
  refine congrArg (regionFn (parArr6 V c) (V c (Pipeline.arrRef spec6 32)) (V c (Pipeline.arrRef spec6 33)))
    (funext fun a => Fin.ext ?_)
  match a with
  | ⟨0, _⟩ => show (j 0).val = win6_34.index t (0 : Fin 3) * 8 + 1 * (j 0).val; rw [e0]; omega
  | ⟨1, _⟩ => show t.val * 512 + (j 1).val = win6_34.index t (1 : Fin 3) * 512 + 1 * (j 1).val; rw [e1]; omega
  | ⟨2, _⟩ => show (j 2).val = win6_34.index t (2 : Fin 3) * 128 + 1 * (j 2).val; rw [e2]; omega

/-- An index of the output array is in point `t`'s block iff each coordinate is in the block's range on its axis. -/
theorem mem_blk6 (t : Fin cfg6.N) (i : S8x4096x128.Idx) :
    i ∈ ((cfg6.win 34).blk t).view.set ↔ ∀ a : Fin 3, win6_34.index t a * S8x512x128.size a ≤ (i a).val
      ∧ (i a).val < win6_34.index t a * S8x512x128.size a + S8x512x128.size a := by
  show i ∈ ((View.whole (Pipeline.arrRef spec6 34)).slice (win6_34.rect t)).set ↔ _
  rw [View.set_slice_whole, Rect.mem_set_unit]
  exact Iff.rfl

/-- Every index of the output array is in the block of the point its row falls in. -/
theorem cover6 (i : S8x4096x128.Idx) : ∃ t : Fin cfg6.N, (cfg6.win 34).flush t = true ∧ i ∈ ((cfg6.win 34).blk t).view.set := by
  have hi0 : (i 0).val < 8 := (i 0).isLt
  have hi1 : (i 1).val < 4096 := (i 1).isLt
  have hi2 : (i 2).val < 128 := (i 2).isLt
  have hN : cfg6.N = 8 := N_6
  let t : Fin cfg6.N := ⟨(i 1).val / 512, by rw [hN]; omega⟩
  obtain ⟨-, -, -, -, -, e0, e1, e2⟩ := idx6_rest t
  have ht : t.val = (i 1).val / 512 := rfl
  refine ⟨t, flush6_34 t, ?_⟩
  rw [mem_blk6]
  intro a
  match a with
  | ⟨0, _⟩ => show win6_34.index t (0 : Fin 3) * 8 ≤ (i 0).val ∧ (i 0).val < win6_34.index t (0 : Fin 3) * 8 + 8; rw [e0]; omega
  | ⟨1, _⟩ => show win6_34.index t (1 : Fin 3) * 512 ≤ (i 1).val ∧ (i 1).val < win6_34.index t (1 : Fin 3) * 512 + 512; rw [e1, ht]; omega
  | ⟨2, _⟩ => show win6_34.index t (2 : Fin 3) * 128 ≤ (i 2).val ∧ (i 2).val < win6_34.index t (2 : Fin 3) * 128 + 128; rw [e2]; omega

/-! ## The region's output array -/

/-- After the region its output array holds the region's function of the arrays the region found. -/
theorem regval6 (c : Dev nD) : (dat6 (F := Ideal) V c).arrAt 34 cfg6.N
    = regionFn (parArr6 V c) (V c (Pipeline.arrRef spec6 32)) (V c (Pipeline.arrRef spec6 33)) :=
  (dat6 (F := Ideal) V c).arrAt_eq_of_cover 34 _ (fun t _ => flushed6_eq V c t) cover6

end Cert.KernelIdeal.Hand

end
-- ==== Proof.KI.Chain6.lean ====
/-
  Layer 5 of the graph is what pallas_call 6 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain5
import proofs.«135270_j33062658245245_1_alg».proof.Proof.KI.RegVal6

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 6 leaves in its output array is layer 5. -/
theorem chain6 (c : Dev nD) :
    (W14 m c main_v102 : FVec Ideal S8x4096x128 .f32) = layerArr (argX m c) (argW m c) (argB m c) 5 := by
  rw [W14_out m c, regval6 (rd (W13 m)) c]
  refine layer_of_operands (argX m c) (argW m c) (argB m c) 5 (by decide) _ _ _ (fun w => ?_) ?_ ?_
  · -- the 32 parent windows: window i holds a reshaped slab of an earlier output array, the array the table of parents names
    match w with
    | ⟨0, _⟩ => exact (congrFun (V13_eq m c).symm _).trans ((opnd6_0 m (outsH m) c).trans (slabL4 m c 3 _ _ (nOf 5 0) (by decide)))
    | ⟨1, _⟩ => exact (congrFun (V13_eq m c).symm _).trans ((opnd6_1 m (outsH m) c).trans (slabL1 m c 3 _ _ (nOf 5 1) (by decide)))
    | ⟨2, _⟩ => exact (congrFun (V13_eq m c).symm _).trans ((opnd6_2 m (outsH m) c).trans (slabL4 m c 3 _ _ (nOf 5 2) (by decide)))
    | ⟨3, _⟩ => exact (congrFun (V13_eq m c).symm _).trans ((opnd6_3 m (outsH m) c).trans (slabL3 m c 2 _ _ (nOf 5 3) (by decide)))
    | ⟨4, _⟩ => exact (congrFun (V13_eq m c).symm _).trans ((opnd6_4 m (outsH m) c).trans (slabL4 m c 3 _ _ (nOf 5 4) (by decide)))
    | ⟨5, _⟩ => exact (congrFun (V13_eq m c).symm _).trans ((opnd6_5 m (outsH m) c).trans (slabL0 m c 7 _ _ (nOf 5 5) (by decide)))
    | ⟨6, _⟩ => exact (congrFun (V13_eq m c).symm _).trans ((opnd6_6 m (outsH m) c).trans (slabL3 m c 6 _ _ (nOf 5 6) (by decide)))
    | ⟨7, _⟩ => exact (congrFun (V13_eq m c).symm _).trans ((opnd6_7 m (outsH m) c).trans (slabL4 m c 5 _ _ (nOf 5 7) (by decide)))
    | ⟨8, _⟩ => exact (congrFun (V13_eq m c).symm _).trans ((opnd6_8 m (outsH m) c).trans (slabL0 m c 0 _ _ (nOf 5 8) (by decide)))
    | ⟨9, _⟩ => exact (congrFun (V13_eq m c).symm _).trans ((opnd6_9 m (outsH m) c).trans (slabL1 m c 5 _ _ (nOf 5 9) (by decide)))
    | ⟨10, _⟩ => exact (congrFun (V13_eq m c).symm _).trans ((opnd6_10 m (outsH m) c).trans (slabL3 m c 1 _ _ (nOf 5 10) (by decide)))
    | ⟨11, _⟩ => exact (congrFun (V13_eq m c).symm _).trans ((opnd6_11 m (outsH m) c).trans (slabL0 m c 3 _ _ (nOf 5 11) (by decide)))
    | ⟨12, _⟩ => exact (congrFun (V13_eq m c).symm _).trans ((opnd6_12 m (outsH m) c).trans (slabL2 m c 3 _ _ (nOf 5 12) (by decide)))
    | ⟨13, _⟩ => exact (congrFun (V13_eq m c).symm _).trans ((opnd6_13 m (outsH m) c).trans (slabL3 m c 0 _ _ (nOf 5 13) (by decide)))
    | ⟨14, _⟩ => exact (congrFun (V13_eq m c).symm _).trans ((opnd6_14 m (outsH m) c).trans (slabL3 m c 6 _ _ (nOf 5 14) (by decide)))
    | ⟨15, _⟩ => exact (congrFun (V13_eq m c).symm _).trans ((opnd6_15 m (outsH m) c).trans (slabL4 m c 5 _ _ (nOf 5 15) (by decide)))
    | ⟨16, _⟩ => exact (congrFun (V13_eq m c).symm _).trans ((opnd6_16 m (outsH m) c).trans (slabL1 m c 7 _ _ (nOf 5 16) (by decide)))
    | ⟨17, _⟩ => exact (congrFun (V13_eq m c).symm _).trans ((opnd6_17 m (outsH m) c).trans (slabL2 m c 1 _ _ (nOf 5 17) (by decide)))
    | ⟨18, _⟩ => exact (congrFun (V13_eq m c).symm _).trans ((opnd6_18 m (outsH m) c).trans (slabL2 m c 2 _ _ (nOf 5 18) (by decide)))
    | ⟨19, _⟩ => exact (congrFun (V13_eq m c).symm _).trans ((opnd6_19 m (outsH m) c).trans (slabL4 m c 6 _ _ (nOf 5 19) (by decide)))
    | ⟨20, _⟩ => exact (congrFun (V13_eq m c).symm _).trans ((opnd6_20 m (outsH m) c).trans (slabL0 m c 7 _ _ (nOf 5 20) (by decide)))
    | ⟨21, _⟩ => exact (congrFun (V13_eq m c).symm _).trans ((opnd6_21 m (outsH m) c).trans (slabL2 m c 3 _ _ (nOf 5 21) (by decide)))
    | ⟨22, _⟩ => exact (congrFun (V13_eq m c).symm _).trans ((opnd6_22 m (outsH m) c).trans (slabL0 m c 1 _ _ (nOf 5 22) (by decide)))
    | ⟨23, _⟩ => exact (congrFun (V13_eq m c).symm _).trans ((opnd6_23 m (outsH m) c).trans (slabL2 m c 0 _ _ (nOf 5 23) (by decide)))
    | ⟨24, _⟩ => exact (congrFun (V13_eq m c).symm _).trans ((opnd6_24 m (outsH m) c).trans (slabL4 m c 5 _ _ (nOf 5 24) (by decide)))
    | ⟨25, _⟩ => exact (congrFun (V13_eq m c).symm _).trans ((opnd6_25 m (outsH m) c).trans (slabL3 m c 0 _ _ (nOf 5 25) (by decide)))
    | ⟨26, _⟩ => exact (congrFun (V13_eq m c).symm _).trans ((opnd6_26 m (outsH m) c).trans (slabL1 m c 5 _ _ (nOf 5 26) (by decide)))
    | ⟨27, _⟩ => exact (congrFun (V13_eq m c).symm _).trans ((opnd6_27 m (outsH m) c).trans (slabL4 m c 7 _ _ (nOf 5 27) (by decide)))
    | ⟨28, _⟩ => exact (congrFun (V13_eq m c).symm _).trans ((opnd6_28 m (outsH m) c).trans (slabL2 m c 7 _ _ (nOf 5 28) (by decide)))
    | ⟨29, _⟩ => exact (congrFun (V13_eq m c).symm _).trans ((opnd6_29 m (outsH m) c).trans (slabL4 m c 5 _ _ (nOf 5 29) (by decide)))
    | ⟨30, _⟩ => exact (congrFun (V13_eq m c).symm _).trans ((opnd6_30 m (outsH m) c).trans (node0L m c _ (nOf 5 30) (by decide)))
    | ⟨31, _⟩ => exact (congrFun (V13_eq m c).symm _).trans ((opnd6_31 m (outsH m) c).trans (slabL2 m c 1 _ _ (nOf 5 31) (by decide)))
    | ⟨n + 32, h⟩ => exact absurd h (by omega)
  · -- the transposed weights of the layer's eight nodes
    exact (congrFun (V13_eq m c).symm _).trans ((opnd6_32 m (outsH m) c).trans (wt_slice (argW m c) (8 * 5 + 1) _ _))
  · -- the biases of the layer's eight nodes
    exact (congrFun (V13_eq m c).symm _).trans ((opnd6_33 m (outsH m) c).trans (b_slice (argB m c) (8 * 5 + 1) _))

/-- The slabs of layer 5 as the later regions read them: slab `k` with its unit axis dropped is node `8 · 5 + 1 + k`
    (`n` names the node in any closed form, `hn` a closed equation of naturals). -/
theorem slabL5 (c : Dev nD) (k : Nat) (h₁ : S8x4096x128.Slices ![k, 0, 0] S1x4096x128)
    (h₂ : S1x4096x128.ShapeCasts S4096x128) (n : Nat) (hn : 8 * 5 + 1 + k = n) :
    shapeCast S4096x128 (extractStridedSlice S1x4096x128 ![k, 0, 0] (outsH m 14 main_v102 c) h₁) h₂
      = nodeArr (argX m c) (argW m c) (argB m c) n :=
  slab_of_layer (argX m c) (argW m c) (argB m c) (outsH m 14 main_v102 c) 5 (chain6 m c) k h₁ h₂ n hn

end Cert.KernelIdeal.Hand

end
-- ==== Proof.KI.Pay7.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay7_slab0 :
    k7_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay7_slab1 :
    k7_pay3 (F := Ideal) (k7_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay7_slab2 :
    k7_pay7 (F := Ideal) (k7_pay4 p0 p1 p2 p3) (k7_pay5 wk) (k7_pay6 bk) (ix3 0 r e) = slabVal p0 p1 p2 p3 wk bk r e :=
  slabFn_sum4_apply p0 p1 p2 p3 wk bk r e

/-- Slab 3: as slab 0. -/
theorem pay7_slab3 :
    k7_pay8 (F := Ideal) p0 p1 p2 p3 wk bk (ix3 0 r e) = slabVal p0 p1 p2 p3 wk bk r e :=
  slabFn_sum4_apply p0 p1 p2 p3 wk bk r e

/-- Slab 4: as slab 0. -/
theorem pay7_slab4 :
    k7_pay9 (F := Ideal) p0 p1 p2 p3 wk bk (ix3 0 r e) = slabVal p0 p1 p2 p3 wk bk r e :=
  slabFn_sum4_apply p0 p1 p2 p3 wk bk r e

/-- Slab 5: as slab 1. -/
theorem pay7_slab5 :
    k7_pay11 (F := Ideal) (k7_pay10 p0 p1 p2) p3 wk bk (ix3 0 r e) = slabVal p0 p1 p2 p3 wk bk r e :=
  slabFn_sum4_apply p0 p1 p2 p3 wk bk r e

/-- Slab 6: as slab 2. -/
theorem pay7_slab6 :
    k7_pay15 (F := Ideal) (k7_pay12 p0 p1 p2 p3) (k7_pay13 wk) (k7_pay14 bk) (ix3 0 r e) = slabVal p0 p1 p2 p3 wk bk r e :=
  slabFn_sum4_apply p0 p1 p2 p3 wk bk r e

/-- Slab 7: as slab 0. -/
theorem pay7_slab7 :
    k7_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal7.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R7
import proofs.«135270_j33062658245245_1_alg».proof.Proof.KI.Pay7
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab7_0_apply (x : S1x512x128.Idx) (i : S8x4096x128.Idx) (h0 : (i 0).val = 0)
    (h1 : (i 1).val = q * 512 + (x 1).val) (h2 : (i 2).val = (x 2).val) :
    slab7_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_0
  simp only [View.ld_unit_zero (S := S512x128) hz2]
  refine (pay7_slab0 (p 0) (p 1) (p 2) (p 3) (View.ld Wt r7_w0) (View.ld Bs r7_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab7_1_apply (x : S1x512x128.Idx) (i : S8x4096x128.Idx) (h0 : (i 0).val = 1)
    (h1 : (i 1).val = q * 512 + (x 1).val) (h2 : (i 2).val = (x 2).val) :
    slab7_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_1
  simp only [View.ld_unit_zero (S := S512x128) hz2]
  refine (pay7_slab1 (p 4) (p 5) (p 6) (p 7) (View.ld Wt r7_w1) (View.ld Bs r7_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab7_2_apply (x : S1x512x128.Idx) (i : S8x4096x128.Idx) (h0 : (i 0).val = 2)
    (h1 : (i 1).val = q * 512 + (x 1).val) (h2 : (i 2).val = (x 2).val) :
    slab7_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_2
  simp only [View.ld_unit_zero (S := S512x128) hz2]
  refine (pay7_slab2 (p 8) (p 9) (p 10) (p 11) (View.ld Wt r7_w2) (View.ld Bs r7_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab7_3_apply (x : S1x512x128.Idx) (i : S8x4096x128.Idx) (h0 : (i 0).val = 3)
    (h1 : (i 1).val = q * 512 + (x 1).val) (h2 : (i 2).val = (x 2).val) :
    slab7_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_3
  simp only [View.ld_unit_zero (S := S512x128) hz2]
  refine (pay7_slab3 (p 12) (p 13) (p 14) (p 15) (View.ld Wt r7_w3) (View.ld Bs r7_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab7_4_apply (x : S1x512x128.Idx) (i : S8x4096x128.Idx) (h0 : (i 0).val = 4)
    (h1 : (i 1).val = q * 512 + (x 1).val) (h2 : (i 2).val = (x 2).val) :
    slab7_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_4
  simp only [View.ld_unit_zero (S := S512x128) hz2]
  refine (pay7_slab4 (p 16) (p 17) (p 18) (p 19) (View.ld Wt r7_w4) (View.ld Bs r7_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab7_5_apply (x : S1x512x128.Idx) (i : S8x4096x128.Idx) (h0 : (i 0).val = 5)
    (h1 : (i 1).val = q * 512 + (x 1).val) (h2 : (i 2).val = (x 2).val) :
    slab7_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_5
  simp only [View.ld_unit_zero (S := S512x128) hz2]
  refine (pay7_slab5 (p 20) (p 21) (p 22) (p 23) (View.ld Wt r7_w5) (View.ld Bs r7_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab7_6_apply (x : S1x512x128.Idx) (i : S8x4096x128.Idx) (h0 : (i 0).val = 6)
    (h1 : (i 1).val = q * 512 + (x 1).val) (h2 : (i 2).val = (x 2).val) :
    slab7_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_6
  simp only [View.ld_unit_zero (S := S512x128) hz2]
  refine (pay7_slab6 (p 24) (p 25) (p 26) (p 27) (View.ld Wt r7_w6) (View.ld Bs r7_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab7_7_apply (x : S1x512x128.Idx) (i : S8x4096x128.Idx) (h0 : (i 0).val = 7)
    (h1 : (i 1).val = q * 512 + (x 1).val) (h2 : (i 2).val = (x 2).val) :
    slab7_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab7_7
  simp only [View.ld_unit_zero (S := S512x128) hz2]
  refine (pay7_slab7 (p 28) (p 29) (p 30) (p 31) (View.ld Wt r7_w7) (View.ld Bs r7_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out7_34_apply (hq : q < 8) (y : S8x512x128.Idx) :
    out7_34 (F := Ideal) p Wt Bs y = regionFn P Wt Bs (rowsOf q hq y) := by
  unfold out7_34
  refine View.canon_apply_of_pieces (fun y' => regionFn P Wt Bs (rowsOf q hq y')) _ ?_ y
    (cover7_34 (F := Ideal) _ _ _ _ _ _ _ _ y)
  intro pc hpc
  rcases List.mem_cons.mp hpc with rfl | hpc
  · exact fun x => slab7_7_apply P Wt Bs p q hp x (rowsOf q hq (r7_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_6_apply P Wt Bs p q hp x (rowsOf q hq (r7_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_5_apply P Wt Bs p q hp x (rowsOf q hq (r7_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_4_apply P Wt Bs p q hp x (rowsOf q hq (r7_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_3_apply P Wt Bs p q hp x (rowsOf q hq (r7_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_2_apply P Wt Bs p q hp x (rowsOf q hq (r7_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_1_apply P Wt Bs p q hp x (rowsOf q hq (r7_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab7_0_apply P Wt Bs p q hp x (rowsOf q hq (r7_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx7_par : ∀ w : Fin 35, w.val < 32 → ∀ (t : Fin cfg7.N) (a : Fin (win7 w).shape.rank),
    (win7 w).index t a = if a.val = 0 then t.val else 0 :=
  (by decide +kernel : ∀ w : Fin 35, w.val < 32 → ∀ (t : Fin grid7.N) (a : Fin (win7 w).shape.rank),
    (win7 w).index t a = if a.val = 0 then t.val else 0)

/-- the weight slice's and the bias slice's never move, and the output's row block moves with the point. -/
theorem idx7_rest : ∀ t : Fin cfg7.N, win7_32.index t (0 : Fin 3) = 0 ∧ win7_32.index t (1 : Fin 3) = 0
    ∧ win7_32.index t (2 : Fin 3) = 0 ∧ win7_33.index t (0 : Fin 2) = 0 ∧ win7_33.index t (1 : Fin 2) = 0
    ∧ win7_34.index t (0 : Fin 3) = 0 ∧ win7_34.index t (1 : Fin 3) = t.val ∧ win7_34.index t (2 : Fin 3) = 0 :=
  (by decide +kernel : ∀ t : Fin grid7.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr7 (c : Dev nD) : Fin 32 → FVec Ideal S4096x128 .f32 := fun j => match j with
    | ⟨0, _⟩ => V c (Pipeline.arrRef spec7 0)
    | ⟨1, _⟩ => V c (Pipeline.arrRef spec7 1)
    | ⟨2, _⟩ => V c (Pipeline.arrRef spec7 2)
    | ⟨3, _⟩ => V c (Pipeline.arrRef spec7 3)
    | ⟨4, _⟩ => V c (Pipeline.arrRef spec7 4)
    | ⟨5, _⟩ => V c (Pipeline.arrRef spec7 5)
    | ⟨6, _⟩ => V c (Pipeline.arrRef spec7 6)
    | ⟨7, _⟩ => V c (Pipeline.arrRef spec7 7)
    | ⟨8, _⟩ => V c (Pipeline.arrRef spec7 8)
    | ⟨9, _⟩ => V c (Pipeline.arrRef spec7 9)
    | ⟨10, _⟩ => V c (Pipeline.arrRef spec7 10)
    | ⟨11, _⟩ => V c (Pipeline.arrRef spec7 11)
    | ⟨12, _⟩ => V c (Pipeline.arrRef spec7 12)
    | ⟨13, _⟩ => V c (Pipeline.arrRef spec7 13)
    | ⟨14, _⟩ => V c (Pipeline.arrRef spec7 14)
    | ⟨15, _⟩ => V c (Pipeline.arrRef spec7 15)
    | ⟨16, _⟩ => V c (Pipeline.arrRef spec7 16)
    | ⟨17, _⟩ => V c (Pipeline.arrRef spec7 17)
    | ⟨18, _⟩ => V c (Pipeline.arrRef spec7 18)
    | ⟨19, _⟩ => V c (Pipeline.arrRef spec7 19)
    | ⟨20, _⟩ => V c (Pipeline.arrRef spec7 20)
    | ⟨21, _⟩ => V c (Pipeline.arrRef spec7 21)
    | ⟨22, _⟩ => V c (Pipeline.arrRef spec7 22)
    | ⟨23, _⟩ => V c (Pipeline.arrRef spec7 23)
    | ⟨24, _⟩ => V c (Pipeline.arrRef spec7 24)
    | ⟨25, _⟩ => V c (Pipeline.arrRef spec7 25)
    | ⟨26, _⟩ => V c (Pipeline.arrRef spec7 26)
    | ⟨27, _⟩ => V c (Pipeline.arrRef spec7 27)
    | ⟨28, _⟩ => V c (Pipeline.arrRef spec7 28)
    | ⟨29, _⟩ => V c (Pipeline.arrRef spec7 29)
    | ⟨30, _⟩ => V c (Pipeline.arrRef spec7 30)
    | ⟨31, _⟩ => V c (Pipeline.arrRef spec7 31)
    | ⟨_ + 32, h⟩ => absurd h (Nat.not_lt.2 (Nat.le_add_left _ _))

/-- The family at a literal index. -/
theorem parArr7_0 (c : Dev nD) : parArr7 V c 0 = V c (Pipeline.arrRef spec7 0) := by dsimp only [parArr7]
theorem parArr7_1 (c : Dev nD) : parArr7 V c 1 = V c (Pipeline.arrRef spec7 1) := by dsimp only [parArr7]
theorem parArr7_2 (c : Dev nD) : parArr7 V c 2 = V c (Pipeline.arrRef spec7 2) := by dsimp only [parArr7]
theorem parArr7_3 (c : Dev nD) : parArr7 V c 3 = V c (Pipeline.arrRef spec7 3) := by dsimp only [parArr7]
theorem parArr7_4 (c : Dev nD) : parArr7 V c 4 = V c (Pipeline.arrRef spec7 4) := by dsimp only [parArr7]
theorem parArr7_5 (c : Dev nD) : parArr7 V c 5 = V c (Pipeline.arrRef spec7 5) := by dsimp only [parArr7]
theorem parArr7_6 (c : Dev nD) : parArr7 V c 6 = V c (Pipeline.arrRef spec7 6) := by dsimp only [parArr7]
theorem parArr7_7 (c : Dev nD) : parArr7 V c 7 = V c (Pipeline.arrRef spec7 7) := by dsimp only [parArr7]
theorem parArr7_8 (c : Dev nD) : parArr7 V c 8 = V c (Pipeline.arrRef spec7 8) := by dsimp only [parArr7]
theorem parArr7_9 (c : Dev nD) : parArr7 V c 9 = V c (Pipeline.arrRef spec7 9) := by dsimp only [parArr7]
theorem parArr7_10 (c : Dev nD) : parArr7 V c 10 = V c (Pipeline.arrRef spec7 10) := by dsimp only [parArr7]
theorem parArr7_11 (c : Dev nD) : parArr7 V c 11 = V c (Pipeline.arrRef spec7 11) := by dsimp only [parArr7]
theorem parArr7_12 (c : Dev nD) : parArr7 V c 12 = V c (Pipeline.arrRef spec7 12) := by dsimp only [parArr7]
theorem parArr7_13 (c : Dev nD) : parArr7 V c 13 = V c (Pipeline.arrRef spec7 13) := by dsimp only [parArr7]
theorem parArr7_14 (c : Dev nD) : parArr7 V c 14 = V c (Pipeline.arrRef spec7 14) := by dsimp only [parArr7]
theorem parArr7_15 (c : Dev nD) : parArr7 V c 15 = V c (Pipeline.arrRef spec7 15) := by dsimp only [parArr7]
theorem parArr7_16 (c : Dev nD) : parArr7 V c 16 = V c (Pipeline.arrRef spec7 16) := by dsimp only [parArr7]
theorem parArr7_17 (c : Dev nD) : parArr7 V c 17 = V c (Pipeline.arrRef spec7 17) := by dsimp only [parArr7]
theorem parArr7_18 (c : Dev nD) : parArr7 V c 18 = V c (Pipeline.arrRef spec7 18) := by dsimp only [parArr7]
theorem parArr7_19 (c : Dev nD) : parArr7 V c 19 = V c (Pipeline.arrRef spec7 19) := by dsimp only [parArr7]
theorem parArr7_20 (c : Dev nD) : parArr7 V c 20 = V c (Pipeline.arrRef spec7 20) := by dsimp only [parArr7]
theorem parArr7_21 (c : Dev nD) : parArr7 V c 21 = V c (Pipeline.arrRef spec7 21) := by dsimp only [parArr7]
theorem parArr7_22 (c : Dev nD) : parArr7 V c 22 = V c (Pipeline.arrRef spec7 22) := by dsimp only [parArr7]
theorem parArr7_23 (c : Dev nD) : parArr7 V c 23 = V c (Pipeline.arrRef spec7 23) := by dsimp only [parArr7]
theorem parArr7_24 (c : Dev nD) : parArr7 V c 24 = V c (Pipeline.arrRef spec7 24) := by dsimp only [parArr7]
theorem parArr7_25 (c : Dev nD) : parArr7 V c 25 = V c (Pipeline.arrRef spec7 25) := by dsimp only [parArr7]
theorem parArr7_26 (c : Dev nD) : parArr7 V c 26 = V c (Pipeline.arrRef spec7 26) := by dsimp only [parArr7]
theorem parArr7_27 (c : Dev nD) : parArr7 V c 27 = V c (Pipeline.arrRef spec7 27) := by dsimp only [parArr7]
theorem parArr7_28 (c : Dev nD) : parArr7 V c 28 = V c (Pipeline.arrRef spec7 28) := by dsimp only [parArr7]
theorem parArr7_29 (c : Dev nD) : parArr7 V c 29 = V c (Pipeline.arrRef spec7 29) := by dsimp only [parArr7]
theorem parArr7_30 (c : Dev nD) : parArr7 V c 30 = V c (Pipeline.arrRef spec7 30) := by dsimp only [parArr7]
theorem parArr7_31 (c : Dev nD) : parArr7 V c 31 = V c (Pipeline.arrRef spec7 31) := by dsimp only [parArr7]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par7_apply (c : Dev nD) (t : Fin cfg7.N) (j : Fin 32) (r : Fin 512) (d : Fin 128) (r' : Fin 4096)
    (hr : r'.val = t.val * 512 + r.val) : par7 V c t j (ix2 r d) = parArr7 V c j (ix2 r' d) := by
  match j with
  | ⟨0, _⟩ =>
    show (V c (Pipeline.arrRef spec7 0) : FVec Ideal S4096x128 .f32) (((win7 0).rect t).emb (ix2 r d)) = (V c (Pipeline.arrRef spec7 0) : FVec Ideal S4096x128 .f32) (ix2 r' d)
    exact rows_apply _ _ _ t.val
      (by show (win7 0).index t (0 : Fin 2) * 512 = t.val * 512; rw [idx7_par 0 (by decide) t (0 : Fin 2)]; rfl)
      (by show (win7 0).index t (1 : Fin 2) * 128 = 0; rw [idx7_par 0 (by decide) t (1 : Fin 2)]; rfl) r d r' hr
  | ⟨1, _⟩ =>
    show (V c (Pipeline.arrRef spec7 1) : FVec Ideal S4096x128 .f32) (((win7 1).rect t).emb (ix2 r d)) = (V c (Pipeline.arrRef spec7 1) : FVec Ideal S4096x128 .f32) (ix2 r' d)
    exact rows_apply _ _ _ t.val
      (by show (win7 1).index t (0 : Fin 2) * 512 = t.val * 512; rw [idx7_par 1 (by decide) t (0 : Fin 2)]; rfl)
      (by show (win7 1).index t (1 : Fin 2) * 128 = 0; rw [idx7_par 1 (by decide) t (1 : Fin 2)]; rfl) r d r' hr
  | ⟨2, _⟩ =>
    show (V c (Pipeline.arrRef spec7 2) : FVec Ideal S4096x128 .f32) (((win7 2).rect t).emb (ix2 r d)) = (V c (Pipeline.arrRef spec7 2) : FVec Ideal S4096x128 .f32) (ix2 r' d)
    exact rows_apply _ _ _ t.val
      (by show (win7 2).index t (0 : Fin 2) * 512 = t.val * 512; rw [idx7_par 2 (by decide) t (0 : Fin 2)]; rfl)
      (by show (win7 2).index t (1 : Fin 2) * 128 = 0; rw [idx7_par 2 (by decide) t (1 : Fin 2)]; rfl) r d r' hr
  | ⟨3, _⟩ =>
    show (V c (Pipeline.arrRef spec7 3) : FVec Ideal S4096x128 .f32) (((win7 3).rect t).emb (ix2 r d)) = (V c (Pipeline.arrRef spec7 3) : FVec Ideal S4096x128 .f32) (ix2 r' d)
    exact rows_apply _ _ _ t.val
      (by show (win7 3).index t (0 : Fin 2) * 512 = t.val * 512; rw [idx7_par 3 (by decide) t (0 : Fin 2)]; rfl)
      (by show (win7 3).index t (1 : Fin 2) * 128 = 0; rw [idx7_par 3 (by decide) t (1 : Fin 2)]; rfl) r d r' hr
  | ⟨4, _⟩ =>
    show (V c (Pipeline.arrRef spec7 4) : FVec Ideal S4096x128 .f32) (((win7 4).rect t).emb (ix2 r d)) = (V c (Pipeline.arrRef spec7 4) : FVec Ideal S4096x128 .f32) (ix2 r' d)
    exact rows_apply _ _ _ t.val
      (by show (win7 4).index t (0 : Fin 2) * 512 = t.val * 512; rw [idx7_par 4 (by decide) t (0 : Fin 2)]; rfl)
      (by show (win7 4).index t (1 : Fin 2) * 128 = 0; rw [idx7_par 4 (by decide) t (1 : Fin 2)]; rfl) r d r' hr
  | ⟨5, _⟩ =>
    show (V c (Pipeline.arrRef spec7 5) : FVec Ideal S4096x128 .f32) (((win7 5).rect t).emb (ix2 r d)) = (V c (Pipeline.arrRef spec7 5) : FVec Ideal S4096x128 .f32) (ix2 r' d)
    exact rows_apply _ _ _ t.val
      (by show (win7 5).index t (0 : Fin 2) * 512 = t.val * 512; rw [idx7_par 5 (by decide) t (0 : Fin 2)]; rfl)
      (by show (win7 5).index t (1 : Fin 2) * 128 = 0; rw [idx7_par 5 (by decide) t (1 : Fin 2)]; rfl) r d r' hr
  | ⟨6, _⟩ =>
    show (V c (Pipeline.arrRef spec7 6) : FVec Ideal S4096x128 .f32) (((win7 6).rect t).emb (ix2 r d)) = (V c (Pipeline.arrRef spec7 6) : FVec Ideal S4096x128 .f32) (ix2 r' d)
    exact rows_apply _ _ _ t.val
      (by show (win7 6).index t (0 : Fin 2) * 512 = t.val * 512; rw [idx7_par 6 (by decide) t (0 : Fin 2)]; rfl)
      (by show (win7 6).index t (1 : Fin 2) * 128 = 0; rw [idx7_par 6 (by decide) t (1 : Fin 2)]; rfl) r d r' hr
  | ⟨7, _⟩ =>
    show (V c (Pipeline.arrRef spec7 7) : FVec Ideal S4096x128 .f32) (((win7 7).rect t).emb (ix2 r d)) = (V c (Pipeline.arrRef spec7 7) : FVec Ideal S4096x128 .f32) (ix2 r' d)
    exact rows_apply _ _ _ t.val
      (by show (win7 7).index t (0 : Fin 2) * 512 = t.val * 512; rw [idx7_par 7 (by decide) t (0 : Fin 2)]; rfl)
      (by show (win7 7).index t (1 : Fin 2) * 128 = 0; rw [idx7_par 7 (by decide) t (1 : Fin 2)]; rfl) r d r' hr
  | ⟨8, _⟩ =>
    show (V c (Pipeline.arrRef spec7 8) : FVec Ideal S4096x128 .f32) (((win7 8).rect t).emb (ix2 r d)) = (V c (Pipeline.arrRef spec7 8) : FVec Ideal S4096x128 .f32) (ix2 r' d)
    exact rows_apply _ _ _ t.val
      (by show (win7 8).index t (0 : Fin 2) * 512 = t.val * 512; rw [idx7_par 8 (by decide) t (0 : Fin 2)]; rfl)
      (by show (win7 8).index t (1 : Fin 2) * 128 = 0; rw [idx7_par 8 (by decide) t (1 : Fin 2)]; rfl) r d r' hr
  | ⟨9, _⟩ =>
    show (V c (Pipeline.arrRef spec7 9) : FVec Ideal S4096x128 .f32) (((win7 9).rect t).emb (ix2 r d)) = (V c (Pipeline.arrRef spec7 9) : FVec Ideal S4096x128 .f32) (ix2 r' d)
    exact rows_apply _ _ _ t.val
      (by show (win7 9).index t (0 : Fin 2) * 512 = t.val * 512; rw [idx7_par 9 (by decide) t (0 : Fin 2)]; rfl)
      (by show (win7 9).index t (1 : Fin 2) * 128 = 0; rw [idx7_par 9 (by decide) t (1 : Fin 2)]; rfl) r d r' hr
  | ⟨10, _⟩ =>
    show (V c (Pipeline.arrRef spec7 10) : FVec Ideal S4096x128 .f32) (((win7 10).rect t).emb (ix2 r d)) = (V c (Pipeline.arrRef spec7 10) : FVec Ideal S4096x128 .f32) (ix2 r' d)
    exact rows_apply _ _ _ t.val
      (by show (win7 10).index t (0 : Fin 2) * 512 = t.val * 512; rw [idx7_par 10 (by decide) t (0 : Fin 2)]; rfl)
      (by show (win7 10).index t (1 : Fin 2) * 128 = 0; rw [idx7_par 10 (by decide) t (1 : Fin 2)]; rfl) r d r' hr
  | ⟨11, _⟩ =>
    show (V c (Pipeline.arrRef spec7 11) : FVec Ideal S4096x128 .f32) (((win7 11).rect t).emb (ix2 r d)) = (V c (Pipeline.arrRef spec7 11) : FVec Ideal S4096x128 .f32) (ix2 r' d)
    exact rows_apply _ _ _ t.val
      (by show (win7 11).index t (0 : Fin 2) * 512 = t.val * 512; rw [idx7_par 11 (by decide) t (0 : Fin 2)]; rfl)
      (by show (win7 11).index t (1 : Fin 2) * 128 = 0; rw [idx7_par 11 (by decide) t (1 : Fin 2)]; rfl) r d r' hr
  | ⟨12, _⟩ =>
    show (V c (Pipeline.arrRef spec7 12) : FVec Ideal S4096x128 .f32) (((win7 12).rect t).emb (ix2 r d)) = (V c (Pipeline.arrRef spec7 12) : FVec Ideal S4096x128 .f32) (ix2 r' d)
    exact rows_apply _ _ _ t.val
      (by show (win7 12).index t (0 : Fin 2) * 512 = t.val * 512; rw [idx7_par 12 (by decide) t (0 : Fin 2)]; rfl)
      (by show (win7 12).index t (1 : Fin 2) * 128 = 0; rw [idx7_par 12 (by decide) t (1 : Fin 2)]; rfl) r d r' hr
  | ⟨13, _⟩ =>
    show (V c (Pipeline.arrRef spec7 13) : FVec Ideal S4096x128 .f32) (((win7 13).rect t).emb (ix2 r d)) = (V c (Pipeline.arrRef spec7 13) : FVec Ideal S4096x128 .f32) (ix2 r' d)
    exact rows_apply _ _ _ t.val
      (by show (win7 13).index t (0 : Fin 2) * 512 = t.val * 512; rw [idx7_par 13 (by decide) t (0 : Fin 2)]; rfl)
      (by show (win7 13).index t (1 : Fin 2) * 128 = 0; rw [idx7_par 13 (by decide) t (1 : Fin 2)]; rfl) r d r' hr
  | ⟨14, _⟩ =>
    show (V c (Pipeline.arrRef spec7 14) : FVec Ideal S4096x128 .f32) (((win7 14).rect t).emb (ix2 r d)) = (V c (Pipeline.arrRef spec7 14) : FVec Ideal S4096x128 .f32) (ix2 r' d)
    exact rows_apply _ _ _ t.val
      (by show (win7 14).index t (0 : Fin 2) * 512 = t.val * 512; rw [idx7_par 14 (by decide) t (0 : Fin 2)]; rfl)
      (by show (win7 14).index t (1 : Fin 2) * 128 = 0; rw [idx7_par 14 (by decide) t (1 : Fin 2)]; rfl) r d r' hr
  | ⟨15, _⟩ =>
    show (V c (Pipeline.arrRef spec7 15) : FVec Ideal S4096x128 .f32) (((win7 15).rect t).emb (ix2 r d)) = (V c (Pipeline.arrRef spec7 15) : FVec Ideal S4096x128 .f32) (ix2 r' d)
    exact rows_apply _ _ _ t.val
      (by show (win7 15).index t (0 : Fin 2) * 512 = t.val * 512; rw [idx7_par 15 (by decide) t (0 : Fin 2)]; rfl)
      (by show (win7 15).index t (1 : Fin 2) * 128 = 0; rw [idx7_par 15 (by decide) t (1 : Fin 2)]; rfl) r d r' hr
  | ⟨16, _⟩ =>
    show (V c (Pipeline.arrRef spec7 16) : FVec Ideal S4096x128 .f32) (((win7 16).rect t).emb (ix2 r d)) = (V c (Pipeline.arrRef spec7 16) : FVec Ideal S4096x128 .f32) (ix2 r' d)
    exact rows_apply _ _ _ t.val
      (by show (win7 16).index t (0 : Fin 2) * 512 = t.val * 512; rw [idx7_par 16 (by decide) t (0 : Fin 2)]; rfl)
      (by show (win7 16).index t (1 : Fin 2) * 128 = 0; rw [idx7_par 16 (by decide) t (1 : Fin 2)]; rfl) r d r' hr
  | ⟨17, _⟩ =>
    show (V c (Pipeline.arrRef spec7 17) : FVec Ideal S4096x128 .f32) (((win7 17).rect t).emb (ix2 r d)) = (V c (Pipeline.arrRef spec7 17) : FVec Ideal S4096x128 .f32) (ix2 r' d)
    exact rows_apply _ _ _ t.val
      (by show (win7 17).index t (0 : Fin 2) * 512 = t.val * 512; rw [idx7_par 17 (by decide) t (0 : Fin 2)]; rfl)
      (by show (win7 17).index t (1 : Fin 2) * 128 = 0; rw [idx7_par 17 (by decide) t (1 : Fin 2)]; rfl) r d r' hr
  | ⟨18, _⟩ =>
    show (V c (Pipeline.arrRef spec7 18) : FVec Ideal S4096x128 .f32) (((win7 18).rect t).emb (ix2 r d)) = (V c (Pipeline.arrRef spec7 18) : FVec Ideal S4096x128 .f32) (ix2 r' d)
    exact rows_apply _ _ _ t.val
      (by show (win7 18).index t (0 : Fin 2) * 512 = t.val * 512; rw [idx7_par 18 (by decide) t (0 : Fin 2)]; rfl)
      (by show (win7 18).index t (1 : Fin 2) * 128 = 0; rw [idx7_par 18 (by decide) t (1 : Fin 2)]; rfl) r d r' hr
  | ⟨19, _⟩ =>
    show (V c (Pipeline.arrRef spec7 19) : FVec Ideal S4096x128 .f32) (((win7 19).rect t).emb (ix2 r d)) = (V c (Pipeline.arrRef spec7 19) : FVec Ideal S4096x128 .f32) (ix2 r' d)
    exact rows_apply _ _ _ t.val
      (by show (win7 19).index t (0 : Fin 2) * 512 = t.val * 512; rw [idx7_par 19 (by decide) t (0 : Fin 2)]; rfl)
      (by show (win7 19).index t (1 : Fin 2) * 128 = 0; rw [idx7_par 19 (by decide) t (1 : Fin 2)]; rfl) r d r' hr
  | ⟨20, _⟩ =>
    show (V c (Pipeline.arrRef spec7 20) : FVec Ideal S4096x128 .f32) (((win7 20).rect t).emb (ix2 r d)) = (V c (Pipeline.arrRef spec7 20) : FVec Ideal S4096x128 .f32) (ix2 r' d)
    exact rows_apply _ _ _ t.val
      (by show (win7 20).index t (0 : Fin 2) * 512 = t.val * 512; rw [idx7_par 20 (by decide) t (0 : Fin 2)]; rfl)
      (by show (win7 20).index t (1 : Fin 2) * 128 = 0; rw [idx7_par 20 (by decide) t (1 : Fin 2)]; rfl) r d r' hr
  | ⟨21, _⟩ =>
    show (V c (Pipeline.arrRef spec7 21) : FVec Ideal S4096x128 .f32) (((win7 21).rect t).emb (ix2 r d)) = (V c (Pipeline.arrRef spec7 21) : FVec Ideal S4096x128 .f32) (ix2 r' d)
    exact rows_apply _ _ _ t.val
      (by show (win7 21).index t (0 : Fin 2) * 512 = t.val * 512; rw [idx7_par 21 (by decide) t (0 : Fin 2)]; rfl)
      (by show (win7 21).index t (1 : Fin 2) * 128 = 0; rw [idx7_par 21 (by decide) t (1 : Fin 2)]; rfl) r d r' hr
  | ⟨22, _⟩ =>
    show (V c (Pipeline.arrRef spec7 22) : FVec Ideal S4096x128 .f32) (((win7 22).rect t).emb (ix2 r d)) = (V c (Pipeline.arrRef spec7 22) : FVec Ideal S4096x128 .f32) (ix2 r' d)
    exact rows_apply _ _ _ t.val
      (by show (win7 22).index t (0 : Fin 2) * 512 = t.val * 512; rw [idx7_par 22 (by decide) t (0 : Fin 2)]; rfl)
      (by show (win7 22).index t (1 : Fin 2) * 128 = 0; rw [idx7_par 22 (by decide) t (1 : Fin 2)]; rfl) r d r' hr
  | ⟨23, _⟩ =>
    show (V c (Pipeline.arrRef spec7 23) : FVec Ideal S4096x128 .f32) (((win7 23).rect t).emb (ix2 r d)) = (V c (Pipeline.arrRef spec7 23) : FVec Ideal S4096x128 .f32) (ix2 r' d)
    exact rows_apply _ _ _ t.val
      (by show (win7 23).index t (0 : Fin 2) * 512 = t.val * 512; rw [idx7_par 23 (by decide) t (0 : Fin 2)]; rfl)
      (by show (win7 23).index t (1 : Fin 2) * 128 = 0; rw [idx7_par 23 (by decide) t (1 : Fin 2)]; rfl) r d r' hr
  | ⟨24, _⟩ =>
    show (V c (Pipeline.arrRef spec7 24) : FVec Ideal S4096x128 .f32) (((win7 24).rect t).emb (ix2 r d)) = (V c (Pipeline.arrRef spec7 24) : FVec Ideal S4096x128 .f32) (ix2 r' d)
    exact rows_apply _ _ _ t.val
      (by show (win7 24).index t (0 : Fin 2) * 512 = t.val * 512; rw [idx7_par 24 (by decide) t (0 : Fin 2)]; rfl)
      (by show (win7 24).index t (1 : Fin 2) * 128 = 0; rw [idx7_par 24 (by decide) t (1 : Fin 2)]; rfl) r d r' hr
  | ⟨25, _⟩ =>
    show (V c (Pipeline.arrRef spec7 25) : FVec Ideal S4096x128 .f32) (((win7 25).rect t).emb (ix2 r d)) = (V c (Pipeline.arrRef spec7 25) : FVec Ideal S4096x128 .f32) (ix2 r' d)
    exact rows_apply _ _ _ t.val
      (by show (win7 25).index t (0 : Fin 2) * 512 = t.val * 512; rw [idx7_par 25 (by decide) t (0 : Fin 2)]; rfl)
      (by show (win7 25).index t (1 : Fin 2) * 128 = 0; rw [idx7_par 25 (by decide) t (1 : Fin 2)]; rfl) r d r' hr
  | ⟨26, _⟩ =>
    show (V c (Pipeline.arrRef spec7 26) : FVec Ideal S4096x128 .f32) (((win7 26).rect t).emb (ix2 r d)) = (V c (Pipeline.arrRef spec7 26) : FVec Ideal S4096x128 .f32) (ix2 r' d)
    exact rows_apply _ _ _ t.val
      (by show (win7 26).index t (0 : Fin 2) * 512 = t.val * 512; rw [idx7_par 26 (by decide) t (0 : Fin 2)]; rfl)
      (by show (win7 26).index t (1 : Fin 2) * 128 = 0; rw [idx7_par 26 (by decide) t (1 : Fin 2)]; rfl) r d r' hr
  | ⟨27, _⟩ =>
    show (V c (Pipeline.arrRef spec7 27) : FVec Ideal S4096x128 .f32) (((win7 27).rect t).emb (ix2 r d)) = (V c (Pipeline.arrRef spec7 27) : FVec Ideal S4096x128 .f32) (ix2 r' d)
    exact rows_apply _ _ _ t.val
      (by show (win7 27).index t (0 : Fin 2) * 512 = t.val * 512; rw [idx7_par 27 (by decide) t (0 : Fin 2)]; rfl)
      (by show (win7 27).index t (1 : Fin 2) * 128 = 0; rw [idx7_par 27 (by decide) t (1 : Fin 2)]; rfl) r d r' hr
  | ⟨28, _⟩ =>
    show (V c (Pipeline.arrRef spec7 28) : FVec Ideal S4096x128 .f32) (((win7 28).rect t).emb (ix2 r d)) = (V c (Pipeline.arrRef spec7 28) : FVec Ideal S4096x128 .f32) (ix2 r' d)
    exact rows_apply _ _ _ t.val
      (by show (win7 28).index t (0 : Fin 2) * 512 = t.val * 512; rw [idx7_par 28 (by decide) t (0 : Fin 2)]; rfl)
      (by show (win7 28).index t (1 : Fin 2) * 128 = 0; rw [idx7_par 28 (by decide) t (1 : Fin 2)]; rfl) r d r' hr
  | ⟨29, _⟩ =>
    show (V c (Pipeline.arrRef spec7 29) : FVec Ideal S4096x128 .f32) (((win7 29).rect t).emb (ix2 r d)) = (V c (Pipeline.arrRef spec7 29) : FVec Ideal S4096x128 .f32) (ix2 r' d)
    exact rows_apply _ _ _ t.val
      (by show (win7 29).index t (0 : Fin 2) * 512 = t.val * 512; rw [idx7_par 29 (by decide) t (0 : Fin 2)]; rfl)
      (by show (win7 29).index t (1 : Fin 2) * 128 = 0; rw [idx7_par 29 (by decide) t (1 : Fin 2)]; rfl) r d r' hr
  | ⟨30, _⟩ =>
    show (V c (Pipeline.arrRef spec7 30) : FVec Ideal S4096x128 .f32) (((win7 30).rect t).emb (ix2 r d)) = (V c (Pipeline.arrRef spec7 30) : FVec Ideal S4096x128 .f32) (ix2 r' d)
    exact rows_apply _ _ _ t.val
      (by show (win7 30).index t (0 : Fin 2) * 512 = t.val * 512; rw [idx7_par 30 (by decide) t (0 : Fin 2)]; rfl)
      (by show (win7 30).index t (1 : Fin 2) * 128 = 0; rw [idx7_par 30 (by decide) t (1 : Fin 2)]; rfl) r d r' hr
  | ⟨31, _⟩ =>
    show (V c (Pipeline.arrRef spec7 31) : FVec Ideal S4096x128 .f32) (((win7 31).rect t).emb (ix2 r d)) = (V c (Pipeline.arrRef spec7 31) : FVec Ideal S4096x128 .f32) (ix2 r' d)
    exact rows_apply _ _ _ t.val
      (by show (win7 31).index t (0 : Fin 2) * 512 = t.val * 512; rw [idx7_par 31 (by decide) t (0 : Fin 2)]; rfl)
      (by show (win7 31).index t (1 : Fin 2) * 128 = 0; rw [idx7_par 31 (by decide) t (1 : Fin 2)]; rfl) r d r' hr
  | ⟨_ + 32, h⟩ => exact absurd h (Nat.not_lt.2 (Nat.le_add_left _ _))

/-- The weight window's block is the whole weight slice at every point. -/
theorem iblk7_32_eq (c : Dev nD) (t : Fin cfg7.N) :
    (iblk7 V c 32 t : Vec Ideal S8x128x128 .f32) = (V c (Pipeline.arrRef spec7 32) : FVec Ideal S8x128x128 .f32) := by
  obtain ⟨e0, e1, e2, -⟩ := idx7_rest t
  funext y
  unfold iblk7
  rw [View.read_apply]
  refine congrArg (V c (Pipeline.arrRef spec7 32)) (funext fun a => Fin.ext ?_)
  match a with
  | ⟨0, _⟩ => show win7_32.index t (0 : Fin 3) * 8 + 1 * (y 0).val = (y 0).val; rw [e0]; omega
  | ⟨1, _⟩ => show win7_32.index t (1 : Fin 3) * 128 + 1 * (y 1).val = (y 1).val; rw [e1]; omega
  | ⟨2, _⟩ => show win7_32.index t (2 : Fin 3) * 128 + 1 * (y 2).val = (y 2).val; rw [e2]; omega

/-- The bias window's block is the whole bias slice at every point. -/
theorem iblk7_33_eq (c : Dev nD) (t : Fin cfg7.N) :
    (iblk7 V c 33 t : Vec Ideal S8x128 .f32) = (V c (Pipeline.arrRef spec7 33) : FVec Ideal S8x128 .f32) := by
  obtain ⟨-, -, -, e0, e1, -⟩ := idx7_rest t
  funext y
  unfold iblk7
  rw [View.read_apply]
  refine congrArg (V c (Pipeline.arrRef spec7 33)) (funext fun a => Fin.ext ?_)
  match a with
  | ⟨0, _⟩ => show win7_33.index t (0 : Fin 2) * 8 + 1 * (y 0).val = (y 0).val; rw [e0]; omega
  | ⟨1, _⟩ => show win7_33.index t (1 : Fin 2) * 128 + 1 * (y 1).val = (y 1).val; rw [e1]; omega

/-! ## What each point writes back, and the cover -/

/-- What point `t` writes back is block `t` of the region's function of the entry arrays. -/
theorem flushed7_eq (c : Dev nD) (t : Fin cfg7.N) :
    (dat7 (F := Ideal) V c).flushed 34 t = ((cfg7.win 34).blk t).view.read (Elt Ideal)
      (regionFn (parArr7 V c) (V c (Pipeline.arrRef spec7 32)) (V c (Pipeline.arrRef spec7 33))) := by
  show (cfg7.win 34).cut (grid7.coords t) ((dat7 V c).after 34 t) = _
  rw [after7_34, iblk7_32_eq, iblk7_33_eq]
  obtain ⟨-, -, -, -, -, e0, e1, e2⟩ := idx7_rest t
  have ht : t.val < 8 := Nat.lt_of_lt_of_eq t.isLt N_7
  funext j
  rw [View.read_apply]
  refine (out7_34_apply (parArr7 V c) (V c (Pipeline.arrRef spec7 32)) (V c (Pipeline.arrRef spec7 33)) (par7 V c t) t.val
    (fun j r d r' hr => par7_apply V c t j r d r' hr) ht j).trans ?_
  refine congrArg (regionFn (parArr7 V c) (V c (Pipeline.arrRef spec7 32)) (V c (Pipeline.arrRef spec7 33)))
    (funext fun a => Fin.ext ?_)
  match a with
  | ⟨0, _⟩ => show (j 0).val = win7_34.index t (0 : Fin 3) * 8 + 1 * (j 0).val; rw [e0]; omega
  | ⟨1, _⟩ => show t.val * 512 + (j 1).val = win7_34.index t (1 : Fin 3) * 512 + 1 * (j 1).val; rw [e1]; omega
  | ⟨2, _⟩ => show (j 2).val = win7_34.index t (2 : Fin 3) * 128 + 1 * (j 2).val; rw [e2]; omega

/-- An index of the output array is in point `t`'s block iff each coordinate is in the block's range on its axis. -/
theorem mem_blk7 (t : Fin cfg7.N) (i : S8x4096x128.Idx) :
    i ∈ ((cfg7.win 34).blk t).view.set ↔ ∀ a : Fin 3, win7_34.index t a * S8x512x128.size a ≤ (i a).val
      ∧ (i a).val < win7_34.index t a * S8x512x128.size a + S8x512x128.size a := by
  show i ∈ ((View.whole (Pipeline.arrRef spec7 34)).slice (win7_34.rect t)).set ↔ _
  rw [View.set_slice_whole, Rect.mem_set_unit]
  exact Iff.rfl

/-- Every index of the output array is in the block of the point its row falls in. -/
theorem cover7 (i : S8x4096x128.Idx) : ∃ t : Fin cfg7.N, (cfg7.win 34).flush t = true ∧ i ∈ ((cfg7.win 34).blk t).view.set := by
  have hi0 : (i 0).val < 8 := (i 0).isLt
  have hi1 : (i 1).val < 4096 := (i 1).isLt
  have hi2 : (i 2).val < 128 := (i 2).isLt
  have hN : cfg7.N = 8 := N_7
  let t : Fin cfg7.N := ⟨(i 1).val / 512, by rw [hN]; omega⟩
  obtain ⟨-, -, -, -, -, e0, e1, e2⟩ := idx7_rest t
  have ht : t.val = (i 1).val / 512 := rfl
  refine ⟨t, flush7_34 t, ?_⟩
  rw [mem_blk7]
  intro a
  match a with
  | ⟨0, _⟩ => show win7_34.index t (0 : Fin 3) * 8 ≤ (i 0).val ∧ (i 0).val < win7_34.index t (0 : Fin 3) * 8 + 8; rw [e0]; omega
  | ⟨1, _⟩ => show win7_34.index t (1 : Fin 3) * 512 ≤ (i 1).val ∧ (i 1).val < win7_34.index t (1 : Fin 3) * 512 + 512; rw [e1, ht]; omega
  | ⟨2, _⟩ => show win7_34.index t (2 : Fin 3) * 128 ≤ (i 2).val ∧ (i 2).val < win7_34.index t (2 : Fin 3) * 128 + 128; rw [e2]; omega

/-! ## The region's output array -/

/-- After the region its output array holds the region's function of the arrays the region found. -/
theorem regval7 (c : Dev nD) : (dat7 (F := Ideal) V c).arrAt 34 cfg7.N
    = regionFn (parArr7 V c) (V c (Pipeline.arrRef spec7 32)) (V c (Pipeline.arrRef spec7 33)) :=
  (dat7 (F := Ideal) V c).arrAt_eq_of_cover 34 _ (fun t _ => flushed7_eq V c t) cover7

end Cert.KernelIdeal.Hand

end
-- ==== Proof.KI.Chain7.lean ====
/-
  Layer 6 of the graph is what pallas_call 7 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain6
import proofs.«135270_j33062658245245_1_alg».proof.Proof.KI.RegVal7

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 7 leaves in its output array is layer 6. -/
theorem chain7 (c : Dev nD) :
    (W16 m c main_v121 : FVec Ideal S8x4096x128 .f32) = layerArr (argX m c) (argW m c) (argB m c) 6 := by
  rw [W16_out m c, regval7 (rd (W15 m)) c]
  refine layer_of_operands (argX m c) (argW m c) (argB m c) 6 (by decide) _ _ _ (fun w => ?_) ?_ ?_
  · -- the 32 parent windows: window i holds a reshaped slab of an earlier output array, the array the table of parents names
    match w with
    | ⟨0, _⟩ => exact (congrFun (V15_eq m c).symm _).trans ((opnd7_0 m (outsH m) c).trans (slabL4 m c 7 _ _ (nOf 6 0) (by decide)))
    | ⟨1, _⟩ => exact (congrFun (V15_eq m c).symm _).trans ((opnd7_1 m (outsH m) c).trans (slabL4 m c 4 _ _ (nOf 6 1) (by decide)))
    | ⟨2, _⟩ => exact (congrFun (V15_eq m c).symm _).trans ((opnd7_2 m (outsH m) c).trans (slabL2 m c 2 _ _ (nOf 6 2) (by decide)))
    | ⟨3, _⟩ => exact (congrFun (V15_eq m c).symm _).trans ((opnd7_3 m (outsH m) c).trans (slabL2 m c 7 _ _ (nOf 6 3) (by decide)))
    | ⟨4, _⟩ => exact (congrFun (V15_eq m c).symm _).trans ((opnd7_4 m (outsH m) c).trans (slabL2 m c 3 _ _ (nOf 6 4) (by decide)))
    | ⟨5, _⟩ => exact (congrFun (V15_eq m c).symm _).trans ((opnd7_5 m (outsH m) c).trans (slabL3 m c 0 _ _ (nOf 6 5) (by decide)))
    | ⟨6, _⟩ => exact (congrFun (V15_eq m c).symm _).trans ((opnd7_6 m (outsH m) c).trans (slabL1 m c 2 _ _ (nOf 6 6) (by decide)))
    | ⟨7, _⟩ => exact (congrFun (V15_eq m c).symm _).trans ((opnd7_7 m (outsH m) c).trans (slabL4 m c 5 _ _ (nOf 6 7) (by decide)))
    | ⟨8, _⟩ => exact (congrFun (V15_eq m c).symm _).trans ((opnd7_8 m (outsH m) c).trans (slabL0 m c 2 _ _ (nOf 6 8) (by decide)))
    | ⟨9, _⟩ => exact (congrFun (V15_eq m c).symm _).trans ((opnd7_9 m (outsH m) c).trans (slabL2 m c 3 _ _ (nOf 6 9) (by decide)))
    | ⟨10, _⟩ => exact (congrFun (V15_eq m c).symm _).trans ((opnd7_10 m (outsH m) c).trans (slabL1 m c 4 _ _ (nOf 6 10) (by decide)))
    | ⟨11, _⟩ => exact (congrFun (V15_eq m c).symm _).trans ((opnd7_11 m (outsH m) c).trans (slabL4 m c 2 _ _ (nOf 6 11) (by decide)))
    | ⟨12, _⟩ => exact (congrFun (V15_eq m c).symm _).trans ((opnd7_12 m (outsH m) c).trans (slabL4 m c 3 _ _ (nOf 6 12) (by decide)))
    | ⟨13, _⟩ => exact (congrFun (V15_eq m c).symm _).trans ((opnd7_13 m (outsH m) c).trans (slabL4 m c 1 _ _ (nOf 6 13) (by decide)))
    | ⟨14, _⟩ => exact (congrFun (V15_eq m c).symm _).trans ((opnd7_14 m (outsH m) c).trans (slabL5 m c 4 _ _ (nOf 6 14) (by decide)))
    | ⟨15, _⟩ => exact (congrFun (V15_eq m c).symm _).trans ((opnd7_15 m (outsH m) c).trans (slabL5 m c 4 _ _ (nOf 6 15) (by decide)))
    | ⟨16, _⟩ => exact (congrFun (V15_eq m c).symm _).trans ((opnd7_16 m (outsH m) c).trans (slabL1 m c 0 _ _ (nOf 6 16) (by decide)))
    | ⟨17, _⟩ => exact (congrFun (V15_eq m c).symm _).trans ((opnd7_17 m (outsH m) c).trans (slabL0 m c 4 _ _ (nOf 6 17) (by decide)))
    | ⟨18, _⟩ => exact (congrFun (V15_eq m c).symm _).trans ((opnd7_18 m (outsH m) c).trans (slabL0 m c 5 _ _ (nOf 6 18) (by decide)))
    | ⟨19, _⟩ => exact (congrFun (V15_eq m c).symm _).trans ((opnd7_19 m (outsH m) c).trans (slabL4 m c 2 _ _ (nOf 6 19) (by decide)))
    | ⟨20, _⟩ => exact (congrFun (V15_eq m c).symm _).trans ((opnd7_20 m (outsH m) c).trans (slabL5 m c 6 _ _ (nOf 6 20) (by decide)))
    | ⟨21, _⟩ => exact (congrFun (V15_eq m c).symm _).trans ((opnd7_21 m (outsH m) c).trans (slabL5 m c 4 _ _ (nOf 6 21) (by decide)))
    | ⟨22, _⟩ => exact (congrFun (V15_eq m c).symm _).trans ((opnd7_22 m (outsH m) c).trans (slabL3 m c 7 _ _ (nOf 6 22) (by decide)))
    | ⟨23, _⟩ => exact (congrFun (V15_eq m c).symm _).trans ((opnd7_23 m (outsH m) c).trans (slabL5 m c 6 _ _ (nOf 6 23) (by decide)))
    | ⟨24, _⟩ => exact (congrFun (V15_eq m c).symm _).trans ((opnd7_24 m (outsH m) c).trans (slabL5 m c 1 _ _ (nOf 6 24) (by decide)))
    | ⟨25, _⟩ => exact (congrFun (V15_eq m c).symm _).trans ((opnd7_25 m (outsH m) c).trans (node0L m c _ (nOf 6 25) (by decide)))
    | ⟨26, _⟩ => exact (congrFun (V15_eq m c).symm _).trans ((opnd7_26 m (outsH m) c).trans (slabL0 m c 4 _ _ (nOf 6 26) (by decide)))
    | ⟨27, _⟩ => exact (congrFun (V15_eq m c).symm _).trans ((opnd7_27 m (outsH m) c).trans (slabL5 m c 1 _ _ (nOf 6 27) (by decide)))
    | ⟨28, _⟩ => exact (congrFun (V15_eq m c).symm _).trans ((opnd7_28 m (outsH m) c).trans (slabL0 m c 3 _ _ (nOf 6 28) (by decide)))
    | ⟨29, _⟩ => exact (congrFun (V15_eq m c).symm _).trans ((opnd7_29 m (outsH m) c).trans (slabL5 m c 7 _ _ (nOf 6 29) (by decide)))
    | ⟨30, _⟩ => exact (congrFun (V15_eq m c).symm _).trans ((opnd7_30 m (outsH m) c).trans (slabL4 m c 7 _ _ (nOf 6 30) (by decide)))
    | ⟨31, _⟩ => exact (congrFun (V15_eq m c).symm _).trans ((opnd7_31 m (outsH m) c).trans (slabL5 m c 5 _ _ (nOf 6 31) (by decide)))
    | ⟨n + 32, h⟩ => exact absurd h (by omega)
  · -- the transposed weights of the layer's eight nodes
    exact (congrFun (V15_eq m c).symm _).trans ((opnd7_32 m (outsH m) c).trans (wt_slice (argW m c) (8 * 6 + 1) _ _))
  · -- the biases of the layer's eight nodes
    exact (congrFun (V15_eq m c).symm _).trans ((opnd7_33 m (outsH m) c).trans (b_slice (argB m c) (8 * 6 + 1) _))

/-- The slabs of layer 6 as the later regions read them: slab `k` with its unit axis dropped is node `8 · 6 + 1 + k`
    (`n` names the node in any closed form, `hn` a closed equation of naturals). -/
theorem slabL6 (c : Dev nD) (k : Nat) (h₁ : S8x4096x128.Slices ![k, 0, 0] S1x4096x128)
    (h₂ : S1x4096x128.ShapeCasts S4096x128) (n : Nat) (hn : 8 * 6 + 1 + k = n) :
    shapeCast S4096x128 (extractStridedSlice S1x4096x128 ![k, 0, 0] (outsH m 16 main_v121 c) h₁) h₂
      = nodeArr (argX m c) (argW m c) (argB m c) n :=
  slab_of_layer (argX m c) (argW m c) (argB m c) (outsH m 16 main_v121 c) 6 (chain7 m c) k h₁ h₂ n hn

end Cert.KernelIdeal.Hand

end
-- ==== Proof.KI.Pay8.lean ====
/-
  A region's eight stored values read at one index. Each slab's stored value is, whatever the order in which the region
  makes its pieces, the same composite over the sum of the slab's four parent blocks: the sum times the slab's weights,
  plus the slab's bias row, clipped below at zero. The eight equations hold by unfolding the stored values to that
  composite, which is read at an index once for all slabs.
-/
import proofs.«135270_j33062658245245_1_alg».proof.Proof.Gen.KernelIdeal.Skeleton
import proofs.«135270_j33062658245245_1_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable (p0 p1 p2 p3 : Vec Ideal S512x128 .f32) (wk : Vec Ideal S1x128x128 .f32) (bk : Vec Ideal S1x128 .f32) (r : Fin 512) (e : Fin 128)

/-- Slab 0: the whole step in one stored value. -/
theorem pay8_slab0 :
    k8_pay1 (F := Ideal) p0 p1 p2 p3 wk bk (ix3 0 r e) = slabVal p0 p1 p2 p3 wk bk r e :=
  slabFn_sum4_apply p0 p1 p2 p3 wk bk r e

/-- Slab 1: the first three parents are added before the fourth is loaded. -/
theorem pay8_slab1 :
    k8_pay3 (F := Ideal) (k8_pay2 p0 p1 p2) p3 wk bk (ix3 0 r e) = slabVal p0 p1 p2 p3 wk bk r e :=
  slabFn_sum4_apply p0 p1 p2 p3 wk bk r e

/-- Slab 2: the inbox, the narrowed weights and the bias vector are made before the product. -/
theorem pay8_slab2 :
    k8_pay7 (F := Ideal) (k8_pay4 p0 p1 p2 p3) (k8_pay5 wk) (k8_pay6 bk) (ix3 0 r e) = slabVal p0 p1 p2 p3 wk bk r e :=
  slabFn_sum4_apply p0 p1 p2 p3 wk bk r e

/-- Slab 3: as slab 0. -/
theorem pay8_slab3 :
    k8_pay8 (F := Ideal) p0 p1 p2 p3 wk bk (ix3 0 r e) = slabVal p0 p1 p2 p3 wk bk r e :=
  slabFn_sum4_apply p0 p1 p2 p3 wk bk r e

/-- Slab 4: as slab 0. -/
theorem pay8_slab4 :
    k8_pay9 (F := Ideal) p0 p1 p2 p3 wk bk (ix3 0 r e) = slabVal p0 p1 p2 p3 wk bk r e :=
  slabFn_sum4_apply p0 p1 p2 p3 wk bk r e

/-- Slab 5: as slab 1. -/
theorem pay8_slab5 :
    k8_pay11 (F := Ideal) (k8_pay10 p0 p1 p2) p3 wk bk (ix3 0 r e) = slabVal p0 p1 p2 p3 wk bk r e :=
  slabFn_sum4_apply p0 p1 p2 p3 wk bk r e

/-- Slab 6: as slab 2. -/
theorem pay8_slab6 :
    k8_pay15 (F := Ideal) (k8_pay12 p0 p1 p2 p3) (k8_pay13 wk) (k8_pay14 bk) (ix3 0 r e) = slabVal p0 p1 p2 p3 wk bk r e :=
  slabFn_sum4_apply p0 p1 p2 p3 wk bk r e

/-- Slab 7: as slab 0. -/
theorem pay8_slab7 :
    k8_pay16 (F := Ideal) p0 p1 p2 p3 wk bk (ix3 0 r e) = slabVal p0 p1 p2 p3 wk bk r e :=
  slabFn_sum4_apply p0 p1 p2 p3 wk bk r e

end Cert.KernelIdeal.Hand

end
-- ==== Proof.KI.RegVal8.lean ====
/-
  A region's output array as one function of the arrays the region finds.

  The grid's eight points each write back one block `[8, 512, 128]` of the output array `[8, 4096, 128]`: rows
  `512 t …` of all eight slabs. The body fills the block by eight stores, slab `k` from the blocks of parent windows
  `4 k … 4 k + 3` (rows `512 t …` of the parent arrays), slab `k` of the weight slice and row `k` of the bias slice
  (both windows are the whole arrays at every point). Read at an index, what the stores leave is the region's
  function of the whole arrays at the array's own row; the eight blocks cover the array, so the array ends holding
  that function.
-/
import proofs.«135270_j33062658245245_1_alg».proof.Proof.KI.R8
import proofs.«135270_j33062658245245_1_alg».proof.Proof.KI.Pay8
import proofs.«135270_j33062658245245_1_alg».proof.Proof.RegionFn
import proofs.«135270_j33062658245245_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx
open Idealize.SL Idealize.SL.RA Idealize.SL.BI Idealize.SL.Sem
open scoped Idealize.SL.BI
open Idealize.ShloMosaic.Pipeline (Dat Cfg Window)

/-! ## Generic steps: a slab's value against the region's function, and the slab loads -/

/-- A slab's value over parent blocks that are rows of the parent arrays, with the slab's weights and bias the `k`-th
    of the slices, is the region's function at the array's row. -/
private theorem slabVal_eq_regionAt (P : Fin 32 → FVec Ideal S4096x128 .f32) (Wt : FVec Ideal S8x128x128 .f32)
    (Bs : FVec Ideal S8x128 .f32) (p0 p1 p2 p3 : Vec Ideal S512x128 .f32) (wk : Vec Ideal S1x128x128 .f32)
    (bk : Vec Ideal S1x128 .f32) (k : Fin 8) (r : Fin 512) (r' : Fin 4096) (e : Fin 128)
    (h0 : ∀ d, p0 (ix2 r d) = P (p4 k 0) (ix2 r' d)) (h1 : ∀ d, p1 (ix2 r d) = P (p4 k 1) (ix2 r' d))
    (h2 : ∀ d, p2 (ix2 r d) = P (p4 k 2) (ix2 r' d)) (h3 : ∀ d, p3 (ix2 r d) = P (p4 k 3) (ix2 r' d))
    (hw : ∀ d, wk (ix3 0 d e) = Wt (ix3 k d e)) (hb : bk (ix2 0 e) = Bs (ix2 k e)) :
    slabVal p0 p1 p2 p3 wk bk r e = regionAt P Wt Bs k r' e := by
  unfold slabVal regionAt
  simp only [h0, h1, h2, h3, hw, hb]

/-- The region's function depends on an index through its coordinates' values. -/
private theorem regionFn_congr (P : Fin 32 → FVec Ideal S4096x128 .f32) (Wt : FVec Ideal S8x128x128 .f32)
    (Bs : FVec Ideal S8x128 .f32) (k : Fin 8) (r' : Fin 4096) (e : Fin 128) (i : S8x4096x128.Idx)
    (h0 : (i 0).val = k.val) (h1 : (i 1).val = r'.val) (h2 : (i 2).val = e.val) :
    regionAt P Wt Bs k r' e = regionFn P Wt Bs i := by
  obtain rfl : i 0 = k := Fin.ext h0
  obtain rfl : i 1 = r' := Fin.ext h1
  obtain rfl : i 2 = e := Fin.ext h2
  rfl

/-- Slab `k` of the weight block, loaded, reads the block at `(k, d, e)`. -/
private theorem ld_wslab (wt : Vec Ideal S8x128x128 .f32) (k : Fin 8)
    (inb : ∀ a, (![k.val, 0, 0] : Fin 3 → Nat) a + S1x128x128.size a ≤ S8x128x128.size a) (d e : Fin 128) :
    View.ld wt (Rect.unit (s := S8x128x128) ![k.val, 0, 0] S1x128x128.size inb) (ix3 (0 : Fin 1) d e) = wt (ix3 k d e) := by
  refine congrArg wt (funext fun a => Fin.ext ?_)
  match a with
  | ⟨0, _⟩ => show k.val + 1 * 0 = k.val; omega
  | ⟨1, _⟩ => show 0 + 1 * d.val = d.val; omega
  | ⟨2, _⟩ => show 0 + 1 * e.val = e.val; omega

/-- Row `k` of the bias block, loaded, reads the block at `(k, e)`. -/
private theorem ld_bslab (bs : Vec Ideal S8x128 .f32) (k : Fin 8)
    (inb : ∀ a, (![k.val, 0] : Fin 2 → Nat) a + S1x128.size a ≤ S8x128.size a) (e : Fin 128) :
    View.ld bs (Rect.unit (s := S8x128) ![k.val, 0] S1x128.size inb) (ix2 (0 : Fin 1) e) = bs (ix2 k e) := by
  refine congrArg bs (funext fun a => Fin.ext ?_)
  match a with
  | ⟨0, _⟩ => show k.val + 1 * 0 = k.val; omega
  | ⟨1, _⟩ => show 0 + 1 * e.val = e.val; omega

private theorem hz2 : (![0, 0] : Fin 2 → Nat) = fun _ => 0 := funext fun a => by fin_cases a <;> rfl

/-- The array's index under a block's index at point `q`: the same slab and column, row `512 q + ` the block's row. -/
private def rowsOf (q : Nat) (hq : q < 8) (y : S8x512x128.Idx) : S8x4096x128.Idx :=
  ix3 (y 0) (⟨q * 512 + (y 1).val, by have := (y 1).isLt; have h : (y 1).val < 512 := this; omega⟩ : Fin 4096) (y 2)

/-! ## One point's block, slab by slab -/

section Block
variable (P : Fin 32 → FVec Ideal S4096x128 .f32) (Wt : Vec Ideal S8x128x128 .f32) (Bs : Vec Ideal S8x128 .f32)
  (p : Fin 32 → Vec Ideal S512x128 .f32) (q : Nat)
  (hp : ∀ (j : Fin 32) (r : Fin 512) (d : Fin 128) (r' : Fin 4096), r'.val = q * 512 + r.val → p j (ix2 r d) = P j (ix2 r' d))
include hp

/-- Slab 0 as the body stores it, at a block index, is the region's function at the array's index. -/
theorem slab8_0_apply (x : S1x512x128.Idx) (i : S8x4096x128.Idx) (h0 : (i 0).val = 0)
    (h1 : (i 1).val = q * 512 + (x 1).val) (h2 : (i 2).val = (x 2).val) :
    slab8_0 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_0
  simp only [View.ld_unit_zero (S := S512x128) hz2]
  refine (pay8_slab0 (p 0) (p 1) (p 2) (p 3) (View.ld Wt r8_w0) (View.ld Bs r8_b0) r e).trans ?_
  refine (slabVal_eq_regionAt P Wt Bs _ _ _ _ _ _ 0 r (i 1) e (fun d => hp 0 r d (i 1) h1) (fun d => hp 1 r d (i 1) h1)
    (fun d => hp 2 r d (i 1) h1) (fun d => hp 3 r d (i 1) h1) (fun d => ld_wslab Wt 0 _ d e) (ld_bslab Bs 0 _ e)).trans ?_
  exact regionFn_congr P Wt Bs 0 (i 1) e i h0 rfl h2

/-- Slab 1. -/
theorem slab8_1_apply (x : S1x512x128.Idx) (i : S8x4096x128.Idx) (h0 : (i 0).val = 1)
    (h1 : (i 1).val = q * 512 + (x 1).val) (h2 : (i 2).val = (x 2).val) :
    slab8_1 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_1
  simp only [View.ld_unit_zero (S := S512x128) hz2]
  refine (pay8_slab1 (p 4) (p 5) (p 6) (p 7) (View.ld Wt r8_w1) (View.ld Bs r8_b1) r e).trans ?_
  refine (slabVal_eq_regionAt P Wt Bs _ _ _ _ _ _ 1 r (i 1) e (fun d => hp 4 r d (i 1) h1) (fun d => hp 5 r d (i 1) h1)
    (fun d => hp 6 r d (i 1) h1) (fun d => hp 7 r d (i 1) h1) (fun d => ld_wslab Wt 1 _ d e) (ld_bslab Bs 1 _ e)).trans ?_
  exact regionFn_congr P Wt Bs 1 (i 1) e i h0 rfl h2

/-- Slab 2. -/
theorem slab8_2_apply (x : S1x512x128.Idx) (i : S8x4096x128.Idx) (h0 : (i 0).val = 2)
    (h1 : (i 1).val = q * 512 + (x 1).val) (h2 : (i 2).val = (x 2).val) :
    slab8_2 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_2
  simp only [View.ld_unit_zero (S := S512x128) hz2]
  refine (pay8_slab2 (p 8) (p 9) (p 10) (p 11) (View.ld Wt r8_w2) (View.ld Bs r8_b2) r e).trans ?_
  refine (slabVal_eq_regionAt P Wt Bs _ _ _ _ _ _ 2 r (i 1) e (fun d => hp 8 r d (i 1) h1) (fun d => hp 9 r d (i 1) h1)
    (fun d => hp 10 r d (i 1) h1) (fun d => hp 11 r d (i 1) h1) (fun d => ld_wslab Wt 2 _ d e) (ld_bslab Bs 2 _ e)).trans ?_
  exact regionFn_congr P Wt Bs 2 (i 1) e i h0 rfl h2

/-- Slab 3. -/
theorem slab8_3_apply (x : S1x512x128.Idx) (i : S8x4096x128.Idx) (h0 : (i 0).val = 3)
    (h1 : (i 1).val = q * 512 + (x 1).val) (h2 : (i 2).val = (x 2).val) :
    slab8_3 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_3
  simp only [View.ld_unit_zero (S := S512x128) hz2]
  refine (pay8_slab3 (p 12) (p 13) (p 14) (p 15) (View.ld Wt r8_w3) (View.ld Bs r8_b3) r e).trans ?_
  refine (slabVal_eq_regionAt P Wt Bs _ _ _ _ _ _ 3 r (i 1) e (fun d => hp 12 r d (i 1) h1) (fun d => hp 13 r d (i 1) h1)
    (fun d => hp 14 r d (i 1) h1) (fun d => hp 15 r d (i 1) h1) (fun d => ld_wslab Wt 3 _ d e) (ld_bslab Bs 3 _ e)).trans ?_
  exact regionFn_congr P Wt Bs 3 (i 1) e i h0 rfl h2

/-- Slab 4. -/
theorem slab8_4_apply (x : S1x512x128.Idx) (i : S8x4096x128.Idx) (h0 : (i 0).val = 4)
    (h1 : (i 1).val = q * 512 + (x 1).val) (h2 : (i 2).val = (x 2).val) :
    slab8_4 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_4
  simp only [View.ld_unit_zero (S := S512x128) hz2]
  refine (pay8_slab4 (p 16) (p 17) (p 18) (p 19) (View.ld Wt r8_w4) (View.ld Bs r8_b4) r e).trans ?_
  refine (slabVal_eq_regionAt P Wt Bs _ _ _ _ _ _ 4 r (i 1) e (fun d => hp 16 r d (i 1) h1) (fun d => hp 17 r d (i 1) h1)
    (fun d => hp 18 r d (i 1) h1) (fun d => hp 19 r d (i 1) h1) (fun d => ld_wslab Wt 4 _ d e) (ld_bslab Bs 4 _ e)).trans ?_
  exact regionFn_congr P Wt Bs 4 (i 1) e i h0 rfl h2

/-- Slab 5. -/
theorem slab8_5_apply (x : S1x512x128.Idx) (i : S8x4096x128.Idx) (h0 : (i 0).val = 5)
    (h1 : (i 1).val = q * 512 + (x 1).val) (h2 : (i 2).val = (x 2).val) :
    slab8_5 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_5
  simp only [View.ld_unit_zero (S := S512x128) hz2]
  refine (pay8_slab5 (p 20) (p 21) (p 22) (p 23) (View.ld Wt r8_w5) (View.ld Bs r8_b5) r e).trans ?_
  refine (slabVal_eq_regionAt P Wt Bs _ _ _ _ _ _ 5 r (i 1) e (fun d => hp 20 r d (i 1) h1) (fun d => hp 21 r d (i 1) h1)
    (fun d => hp 22 r d (i 1) h1) (fun d => hp 23 r d (i 1) h1) (fun d => ld_wslab Wt 5 _ d e) (ld_bslab Bs 5 _ e)).trans ?_
  exact regionFn_congr P Wt Bs 5 (i 1) e i h0 rfl h2

/-- Slab 6. -/
theorem slab8_6_apply (x : S1x512x128.Idx) (i : S8x4096x128.Idx) (h0 : (i 0).val = 6)
    (h1 : (i 1).val = q * 512 + (x 1).val) (h2 : (i 2).val = (x 2).val) :
    slab8_6 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_6
  simp only [View.ld_unit_zero (S := S512x128) hz2]
  refine (pay8_slab6 (p 24) (p 25) (p 26) (p 27) (View.ld Wt r8_w6) (View.ld Bs r8_b6) r e).trans ?_
  refine (slabVal_eq_regionAt P Wt Bs _ _ _ _ _ _ 6 r (i 1) e (fun d => hp 24 r d (i 1) h1) (fun d => hp 25 r d (i 1) h1)
    (fun d => hp 26 r d (i 1) h1) (fun d => hp 27 r d (i 1) h1) (fun d => ld_wslab Wt 6 _ d e) (ld_bslab Bs 6 _ e)).trans ?_
  exact regionFn_congr P Wt Bs 6 (i 1) e i h0 rfl h2

/-- Slab 7. -/
theorem slab8_7_apply (x : S1x512x128.Idx) (i : S8x4096x128.Idx) (h0 : (i 0).val = 7)
    (h1 : (i 1).val = q * 512 + (x 1).val) (h2 : (i 2).val = (x 2).val) :
    slab8_7 (F := Ideal) p Wt Bs x = regionFn P Wt Bs i := by
  obtain ⟨u, r, e, rfl⟩ : ∃ (u : Fin 1) (r : Fin 512) (e : Fin 128), x = ix3 u r e := ⟨x 0, x 1, x 2, eq_ix3 x⟩
  obtain rfl : u = 0 := Subsingleton.elim _ _
  unfold slab8_7
  simp only [View.ld_unit_zero (S := S512x128) hz2]
  refine (pay8_slab7 (p 28) (p 29) (p 30) (p 31) (View.ld Wt r8_w7) (View.ld Bs r8_b7) r e).trans ?_
  refine (slabVal_eq_regionAt P Wt Bs _ _ _ _ _ _ 7 r (i 1) e (fun d => hp 28 r d (i 1) h1) (fun d => hp 29 r d (i 1) h1)
    (fun d => hp 30 r d (i 1) h1) (fun d => hp 31 r d (i 1) h1) (fun d => ld_wslab Wt 7 _ d e) (ld_bslab Bs 7 _ e)).trans ?_
  exact regionFn_congr P Wt Bs 7 (i 1) e i h0 rfl h2

/-- What the eight stores leave, at a block index, is the region's function at the array's index. -/
theorem out8_34_apply (hq : q < 8) (y : S8x512x128.Idx) :
    out8_34 (F := Ideal) p Wt Bs y = regionFn P Wt Bs (rowsOf q hq y) := by
  unfold out8_34
  refine View.canon_apply_of_pieces (fun y' => regionFn P Wt Bs (rowsOf q hq y')) _ ?_ y
    (cover8_34 (F := Ideal) _ _ _ _ _ _ _ _ y)
  intro pc hpc
  rcases List.mem_cons.mp hpc with rfl | hpc
  · exact fun x => slab8_7_apply P Wt Bs p q hp x (rowsOf q hq (r8_o7.emb x))
      (by show 7 + 1 * (x 0).val = 7; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_6_apply P Wt Bs p q hp x (rowsOf q hq (r8_o6.emb x))
      (by show 6 + 1 * (x 0).val = 6; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_5_apply P Wt Bs p q hp x (rowsOf q hq (r8_o5.emb x))
      (by show 5 + 1 * (x 0).val = 5; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_4_apply P Wt Bs p q hp x (rowsOf q hq (r8_o4.emb x))
      (by show 4 + 1 * (x 0).val = 4; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_3_apply P Wt Bs p q hp x (rowsOf q hq (r8_o3.emb x))
      (by show 3 + 1 * (x 0).val = 3; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_2_apply P Wt Bs p q hp x (rowsOf q hq (r8_o2.emb x))
      (by show 2 + 1 * (x 0).val = 2; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_1_apply P Wt Bs p q hp x (rowsOf q hq (r8_o1.emb x))
      (by show 1 + 1 * (x 0).val = 1; have h : (x 0).val < 1 := (x 0).isLt; omega)
      (by show q * 512 + (0 + 1 * (x 1).val) = q * 512 + (x 1).val; omega)
      (by show 0 + 1 * (x 2).val = (x 2).val; omega)
  rcases List.mem_cons.mp hpc with rfl | hpc
  · exact fun x => slab8_0_apply P Wt Bs p q hp x (rowsOf q hq (r8_o0.emb x))
      (by show 0 + 1 * (x 0).val = 0; have h : (x 0).val < 1 := (x 0).isLt; omega)
      (by show q * 512 + (0 + 1 * (x 1).val) = q * 512 + (x 1).val; omega)
      (by show 0 + 1 * (x 2).val = (x 2).val; omega)
  exact absurd hpc List.not_mem_nil

end Block

/-! ## The windows' blocks as parts of their arrays -/

/-- The printed index maps over the grid: every parent window's row block moves with the point; -/
theorem idx8_par : ∀ w : Fin 35, w.val < 32 → ∀ (t : Fin cfg8.N) (a : Fin (win8 w).shape.rank),
    (win8 w).index t a = if a.val = 0 then t.val else 0 :=
  (by decide +kernel : ∀ w : Fin 35, w.val < 32 → ∀ (t : Fin grid8.N) (a : Fin (win8 w).shape.rank),
    (win8 w).index t a = if a.val = 0 then t.val else 0)

/-- the weight slice's and the bias slice's never move, and the output's row block moves with the point. -/
theorem idx8_rest : ∀ t : Fin cfg8.N, win8_32.index t (0 : Fin 3) = 0 ∧ win8_32.index t (1 : Fin 3) = 0
    ∧ win8_32.index t (2 : Fin 3) = 0 ∧ win8_33.index t (0 : Fin 2) = 0 ∧ win8_33.index t (1 : Fin 2) = 0
    ∧ win8_34.index t (0 : Fin 3) = 0 ∧ win8_34.index t (1 : Fin 3) = t.val ∧ win8_34.index t (2 : Fin 3) = 0 :=
  (by decide +kernel : ∀ t : Fin grid8.N, _)

variable (V : (c : Dev nD) → (b : Ref sig .tc) → Buf (Elt Ideal) ((c : Thread nD τ).loc b))

/-! ## The parent arrays as one family -/

/-- The 32 parent arrays as the region finds them: parent `j` of slab `k` is the array of window `4 k + j`. -/
def parArr8 (c : Dev nD) : Fin 32 → FVec Ideal S4096x128 .f32 := fun j => match j with
    | ⟨0, _⟩ => V c (Pipeline.arrRef spec8 0)
    | ⟨1, _⟩ => V c (Pipeline.arrRef spec8 1)
    | ⟨2, _⟩ => V c (Pipeline.arrRef spec8 2)
    | ⟨3, _⟩ => V c (Pipeline.arrRef spec8 3)
    | ⟨4, _⟩ => V c (Pipeline.arrRef spec8 4)
    | ⟨5, _⟩ => V c (Pipeline.arrRef spec8 5)
    | ⟨6, _⟩ => V c (Pipeline.arrRef spec8 6)
    | ⟨7, _⟩ => V c (Pipeline.arrRef spec8 7)
    | ⟨8, _⟩ => V c (Pipeline.arrRef spec8 8)
    | ⟨9, _⟩ => V c (Pipeline.arrRef spec8 9)
    | ⟨10, _⟩ => V c (Pipeline.arrRef spec8 10)
    | ⟨11, _⟩ => V c (Pipeline.arrRef spec8 11)
    | ⟨12, _⟩ => V c (Pipeline.arrRef spec8 12)
    | ⟨13, _⟩ => V c (Pipeline.arrRef spec8 13)
    | ⟨14, _⟩ => V c (Pipeline.arrRef spec8 14)
    | ⟨15, _⟩ => V c (Pipeline.arrRef spec8 15)
    | ⟨16, _⟩ => V c (Pipeline.arrRef spec8 16)
    | ⟨17, _⟩ => V c (Pipeline.arrRef spec8 17)
    | ⟨18, _⟩ => V c (Pipeline.arrRef spec8 18)
    | ⟨19, _⟩ => V c (Pipeline.arrRef spec8 19)
    | ⟨20, _⟩ => V c (Pipeline.arrRef spec8 20)
    | ⟨21, _⟩ => V c (Pipeline.arrRef spec8 21)
    | ⟨22, _⟩ => V c (Pipeline.arrRef spec8 22)
    | ⟨23, _⟩ => V c (Pipeline.arrRef spec8 23)
    | ⟨24, _⟩ => V c (Pipeline.arrRef spec8 24)
    | ⟨25, _⟩ => V c (Pipeline.arrRef spec8 25)
    | ⟨26, _⟩ => V c (Pipeline.arrRef spec8 26)
    | ⟨27, _⟩ => V c (Pipeline.arrRef spec8 27)
    | ⟨28, _⟩ => V c (Pipeline.arrRef spec8 28)
    | ⟨29, _⟩ => V c (Pipeline.arrRef spec8 29)
    | ⟨30, _⟩ => V c (Pipeline.arrRef spec8 30)
    | ⟨31, _⟩ => V c (Pipeline.arrRef spec8 31)
    | ⟨_ + 32, h⟩ => absurd h (Nat.not_lt.2 (Nat.le_add_left _ _))

/-- The family at a literal index. -/
theorem parArr8_0 (c : Dev nD) : parArr8 V c 0 = V c (Pipeline.arrRef spec8 0) := by dsimp only [parArr8]
theorem parArr8_1 (c : Dev nD) : parArr8 V c 1 = V c (Pipeline.arrRef spec8 1) := by dsimp only [parArr8]
theorem parArr8_2 (c : Dev nD) : parArr8 V c 2 = V c (Pipeline.arrRef spec8 2) := by dsimp only [parArr8]
theorem parArr8_3 (c : Dev nD) : parArr8 V c 3 = V c (Pipeline.arrRef spec8 3) := by dsimp only [parArr8]
theorem parArr8_4 (c : Dev nD) : parArr8 V c 4 = V c (Pipeline.arrRef spec8 4) := by dsimp only [parArr8]
theorem parArr8_5 (c : Dev nD) : parArr8 V c 5 = V c (Pipeline.arrRef spec8 5) := by dsimp only [parArr8]
theorem parArr8_6 (c : Dev nD) : parArr8 V c 6 = V c (Pipeline.arrRef spec8 6) := by dsimp only [parArr8]
theorem parArr8_7 (c : Dev nD) : parArr8 V c 7 = V c (Pipeline.arrRef spec8 7) := by dsimp only [parArr8]
theorem parArr8_8 (c : Dev nD) : parArr8 V c 8 = V c (Pipeline.arrRef spec8 8) := by dsimp only [parArr8]
theorem parArr8_9 (c : Dev nD) : parArr8 V c 9 = V c (Pipeline.arrRef spec8 9) := by dsimp only [parArr8]
theorem parArr8_10 (c : Dev nD) : parArr8 V c 10 = V c (Pipeline.arrRef spec8 10) := by dsimp only [parArr8]
theorem parArr8_11 (c : Dev nD) : parArr8 V c 11 = V c (Pipeline.arrRef spec8 11) := by dsimp only [parArr8]
theorem parArr8_12 (c : Dev nD) : parArr8 V c 12 = V c (Pipeline.arrRef spec8 12) := by dsimp only [parArr8]
theorem parArr8_13 (c : Dev nD) : parArr8 V c 13 = V c (Pipeline.arrRef spec8 13) := by dsimp only [parArr8]
theorem parArr8_14 (c : Dev nD) : parArr8 V c 14 = V c (Pipeline.arrRef spec8 14) := by dsimp only [parArr8]
theorem parArr8_15 (c : Dev nD) : parArr8 V c 15 = V c (Pipeline.arrRef spec8 15) := by dsimp only [parArr8]
theorem parArr8_16 (c : Dev nD) : parArr8 V c 16 = V c (Pipeline.arrRef spec8 16) := by dsimp only [parArr8]
theorem parArr8_17 (c : Dev nD) : parArr8 V c 17 = V c (Pipeline.arrRef spec8 17) := by dsimp only [parArr8]
theorem parArr8_18 (c : Dev nD) : parArr8 V c 18 = V c (Pipeline.arrRef spec8 18) := by dsimp only [parArr8]
theorem parArr8_19 (c : Dev nD) : parArr8 V c 19 = V c (Pipeline.arrRef spec8 19) := by dsimp only [parArr8]
theorem parArr8_20 (c : Dev nD) : parArr8 V c 20 = V c (Pipeline.arrRef spec8 20) := by dsimp only [parArr8]
theorem parArr8_21 (c : Dev nD) : parArr8 V c 21 = V c (Pipeline.arrRef spec8 21) := by dsimp only [parArr8]
theorem parArr8_22 (c : Dev nD) : parArr8 V c 22 = V c (Pipeline.arrRef spec8 22) := by dsimp only [parArr8]
theorem parArr8_23 (c : Dev nD) : parArr8 V c 23 = V c (Pipeline.arrRef spec8 23) := by dsimp only [parArr8]
theorem parArr8_24 (c : Dev nD) : parArr8 V c 24 = V c (Pipeline.arrRef spec8 24) := by dsimp only [parArr8]
theorem parArr8_25 (c : Dev nD) : parArr8 V c 25 = V c (Pipeline.arrRef spec8 25) := by dsimp only [parArr8]
theorem parArr8_26 (c : Dev nD) : parArr8 V c 26 = V c (Pipeline.arrRef spec8 26) := by dsimp only [parArr8]
theorem parArr8_27 (c : Dev nD) : parArr8 V c 27 = V c (Pipeline.arrRef spec8 27) := by dsimp only [parArr8]
theorem parArr8_28 (c : Dev nD) : parArr8 V c 28 = V c (Pipeline.arrRef spec8 28) := by dsimp only [parArr8]
theorem parArr8_29 (c : Dev nD) : parArr8 V c 29 = V c (Pipeline.arrRef spec8 29) := by dsimp only [parArr8]
theorem parArr8_30 (c : Dev nD) : parArr8 V c 30 = V c (Pipeline.arrRef spec8 30) := by dsimp only [parArr8]
theorem parArr8_31 (c : Dev nD) : parArr8 V c 31 = V c (Pipeline.arrRef spec8 31) := by dsimp only [parArr8]

/-! ## The parent windows' blocks -/

/-- A block of 512 rows at row offset `512 q` of an array `[4096, 128]`, read at `(r, d)`, is the array at `(512 q + r, d)`. -/
private theorem rows_apply {α : Type} (X : S4096x128.Idx → α) (off : Fin 2 → Nat)
    (inb : ∀ a, off a + S512x128.size a ≤ S4096x128.size a) (q : Nat) (h0 : off 0 = q * 512) (h1 : off 1 = 0)
    (r : Fin 512) (d : Fin 128) (r' : Fin 4096) (hr : r'.val = q * 512 + r.val) :
    X ((Rect.unit (s := S4096x128) off S512x128.size inb).emb (ix2 r d)) = X (ix2 r' d) := by
  refine congrArg X (funext fun a => Fin.ext ?_)
  match a with
  | ⟨0, _⟩ => show off 0 + 1 * r.val = r'.val; rw [h0, hr]; omega
  | ⟨1, _⟩ => show off 1 + 1 * d.val = d.val; rw [h1]; omega

set_option maxHeartbeats 1600000 in
/-- Every parent window's block at point `t` is rows `512 t …` of its array. -/
theorem par8_apply (c : Dev nD) (t : Fin cfg8.N) (j : Fin 32) (r : Fin 512) (d : Fin 128) (r' : Fin 4096)
    (hr : r'.val = t.val * 512 + r.val) : par8 V c t j (ix2 r d) = parArr8 V c j (ix2 r' d) := by
  match j with
  | ⟨0, _⟩ =>
    show (V c (Pipeline.arrRef spec8 0) : FVec Ideal S4096x128 .f32) (((win8 0).rect t).emb (ix2 r d)) = (V c (Pipeline.arrRef spec8 0) : FVec Ideal S4096x128 .f32) (ix2 r' d)
    exact rows_apply _ _ _ t.val
      (by show (win8 0).index t (0 : Fin 2) * 512 = t.val * 512; rw [idx8_par 0 (by decide) t (0 : Fin 2)]; rfl)
      (by show (win8 0).index t (1 : Fin 2) * 128 = 0; rw [idx8_par 0 (by decide) t (1 : Fin 2)]; rfl) r d r' hr
  | ⟨1, _⟩ =>
    show (V c (Pipeline.arrRef spec8 1) : FVec Ideal S4096x128 .f32) (((win8 1).rect t).emb (ix2 r d)) = (V c (Pipeline.arrRef spec8 1) : FVec Ideal S4096x128 .f32) (ix2 r' d)
    exact rows_apply _ _ _ t.val
      (by show (win8 1).index t (0 : Fin 2) * 512 = t.val * 512; rw [idx8_par 1 (by decide) t (0 : Fin 2)]; rfl)
      (by show (win8 1).index t (1 : Fin 2) * 128 = 0; rw [idx8_par 1 (by decide) t (1 : Fin 2)]; rfl) r d r' hr
  | ⟨2, _⟩ =>
    show (V c (Pipeline.arrRef spec8 2) : FVec Ideal S4096x128 .f32) (((win8 2).rect t).emb (ix2 r d)) = (V c (Pipeline.arrRef spec8 2) : FVec Ideal S4096x128 .f32) (ix2 r' d)
    exact rows_apply _ _ _ t.val
      (by show (win8 2).index t (0 : Fin 2) * 512 = t.val * 512; rw [idx8_par 2 (by decide) t (0 : Fin 2)]; rfl)
      (by show (win8 2).index t (1 : Fin 2) * 128 = 0; rw [idx8_par 2 (by decide) t (1 : Fin 2)]; rfl) r d r' hr
  | ⟨3, _⟩ =>
    show (V c (Pipeline.arrRef spec8 3) : FVec Ideal S4096x128 .f32) (((win8 3).rect t).emb (ix2 r d)) = (V c (Pipeline.arrRef spec8 3) : FVec Ideal S4096x128 .f32) (ix2 r' d)
    exact rows_apply _ _ _ t.val
      (by show (win8 3).index t (0 : Fin 2) * 512 = t.val * 512; rw [idx8_par 3 (by decide) t (0 : Fin 2)]; rfl)
      (by show (win8 3).index t (1 : Fin 2) * 128 = 0; rw [idx8_par 3 (by decide) t (1 : Fin 2)]; rfl) r d r' hr
  | ⟨4, _⟩ =>
    show (V c (Pipeline.arrRef spec8 4) : FVec Ideal S4096x128 .f32) (((win8 4).rect t).emb (ix2 r d)) = (V c (Pipeline.arrRef spec8 4) : FVec Ideal S4096x128 .f32) (ix2 r' d)
    exact rows_apply _ _ _ t.val
      (by show (win8 4).index t (0 : Fin 2) * 512 = t.val * 512; rw [idx8_par 4 (by decide) t (0 : Fin 2)]; rfl)
      (by show (win8 4).index t (1 : Fin 2) * 128 = 0; rw [idx8_par 4 (by decide) t (1 : Fin 2)]; rfl) r d r' hr
  | ⟨5, _⟩ =>
    show (V c (Pipeline.arrRef spec8 5) : FVec Ideal S4096x128 .f32) (((win8 5).rect t).emb (ix2 r d)) = (V c (Pipeline.arrRef spec8 5) : FVec Ideal S4096x128 .f32) (ix2 r' d)
    exact rows_apply _ _ _ t.val
      (by show (win8 5).index t (0 : Fin 2) * 512 = t.val * 512; rw [idx8_par 5 (by decide) t (0 : Fin 2)]; rfl)
      (by show (win8 5).index t (1 : Fin 2) * 128 = 0; rw [idx8_par 5 (by decide) t (1 : Fin 2)]; rfl) r d r' hr
  | ⟨6, _⟩ =>
    show (V c (Pipeline.arrRef spec8 6) : FVec Ideal S4096x128 .f32) (((win8 6).rect t).emb (ix2 r d)) = (V c (Pipeline.arrRef spec8 6) : FVec Ideal S4096x128 .f32) (ix2 r' d)
    exact rows_apply _ _ _ t.val
      (by show (win8 6).index t (0 : Fin 2) * 512 = t.val * 512; rw [idx8_par 6 (by decide) t (0 : Fin 2)]; rfl)
      (by show (win8 6).index t (1 : Fin 2) * 128 = 0; rw [idx8_par 6 (by decide) t (1 : Fin 2)]; rfl) r d r' hr
  | ⟨7, _⟩ =>
    show (V c (Pipeline.arrRef spec8 7) : FVec Ideal S4096x128 .f32) (((win8 7).rect t).emb (ix2 r d)) = (V c (Pipeline.arrRef spec8 7) : FVec Ideal S4096x128 .f32) (ix2 r' d)
    exact rows_apply _ _ _ t.val
      (by show (win8 7).index t (0 : Fin 2) * 512 = t.val * 512; rw [idx8_par 7 (by decide) t (0 : Fin 2)]; rfl)
      (by show (win8 7).index t (1 : Fin 2) * 128 = 0; rw [idx8_par 7 (by decide) t (1 : Fin 2)]; rfl) r d r' hr
  | ⟨8, _⟩ =>
    show (V c (Pipeline.arrRef spec8 8) : FVec Ideal S4096x128 .f32) (((win8 8).rect t).emb (ix2 r d)) = (V c (Pipeline.arrRef spec8 8) : FVec Ideal S4096x128 .f32) (ix2 r' d)
    exact rows_apply _ _ _ t.val
      (by show (win8 8).index t (0 : Fin 2) * 512 = t.val * 512; rw [idx8_par 8 (by decide) t (0 : Fin 2)]; rfl)
      (by show (win8 8).index t (1 : Fin 2) * 128 = 0; rw [idx8_par 8 (by decide) t (1 : Fin 2)]; rfl) r d r' hr
  | ⟨9, _⟩ =>
    show (V c (Pipeline.arrRef spec8 9) : FVec Ideal S4096x128 .f32) (((win8 9).rect t).emb (ix2 r d)) = (V c (Pipeline.arrRef spec8 9) : FVec Ideal S4096x128 .f32) (ix2 r' d)
    exact rows_apply _ _ _ t.val
      (by show (win8 9).index t (0 : Fin 2) * 512 = t.val * 512; rw [idx8_par 9 (by decide) t (0 : Fin 2)]; rfl)
      (by show (win8 9).index t (1 : Fin 2) * 128 = 0; rw [idx8_par 9 (by decide) t (1 : Fin 2)]; rfl) r d r' hr
  | ⟨10, _⟩ =>
    show (V c (Pipeline.arrRef spec8 10) : FVec Ideal S4096x128 .f32) (((win8 10).rect t).emb (ix2 r d)) = (V c (Pipeline.arrRef spec8 10) : FVec Ideal S4096x128 .f32) (ix2 r' d)
    exact rows_apply _ _ _ t.val
      (by show (win8 10).index t (0 : Fin 2) * 512 = t.val * 512; rw [idx8_par 10 (by decide) t (0 : Fin 2)]; rfl)
      (by show (win8 10).index t (1 : Fin 2) * 128 = 0; rw [idx8_par 10 (by decide) t (1 : Fin 2)]; rfl) r d r' hr
  | ⟨11, _⟩ =>
    show (V c (Pipeline.arrRef spec8 11) : FVec Ideal S4096x128 .f32) (((win8 11).rect t).emb (ix2 r d)) = (V c (Pipeline.arrRef spec8 11) : FVec Ideal S4096x128 .f32) (ix2 r' d)
    exact rows_apply _ _ _ t.val
      (by show (win8 11).index t (0 : Fin 2) * 512 = t.val * 512; rw [idx8_par 11 (by decide) t (0 : Fin 2)]; rfl)
      (by show (win8 11).index t (1 : Fin 2) * 128 = 0; rw [idx8_par 11 (by decide) t (1 : Fin 2)]; rfl) r d r' hr
  | ⟨12, _⟩ =>
    show (V c (Pipeline.arrRef spec8 12) : FVec Ideal S4096x128 .f32) (((win8 12).rect t).emb (ix2 r d)) = (V c (Pipeline.arrRef spec8 12) : FVec Ideal S4096x128 .f32) (ix2 r' d)
    exact rows_apply _ _ _ t.val
      (by show (win8 12).index t (0 : Fin 2) * 512 = t.val * 512; rw [idx8_par 12 (by decide) t (0 : Fin 2)]; rfl)
      (by show (win8 12).index t (1 : Fin 2) * 128 = 0; rw [idx8_par 12 (by decide) t (1 : Fin 2)]; rfl) r d r' hr
  | ⟨13, _⟩ =>
    show (V c (Pipeline.arrRef spec8 13) : FVec Ideal S4096x128 .f32) (((win8 13).rect t).emb (ix2 r d)) = (V c (Pipeline.arrRef spec8 13) : FVec Ideal S4096x128 .f32) (ix2 r' d)
    exact rows_apply _ _ _ t.val
      (by show (win8 13).index t (0 : Fin 2) * 512 = t.val * 512; rw [idx8_par 13 (by decide) t (0 : Fin 2)]; rfl)
      (by show (win8 13).index t (1 : Fin 2) * 128 = 0; rw [idx8_par 13 (by decide) t (1 : Fin 2)]; rfl) r d r' hr
  | ⟨14, _⟩ =>
    show (V c (Pipeline.arrRef spec8 14) : FVec Ideal S4096x128 .f32) (((win8 14).rect t).emb (ix2 r d)) = (V c (Pipeline.arrRef spec8 14) : FVec Ideal S4096x128 .f32) (ix2 r' d)
    exact rows_apply _ _ _ t.val
      (by show (win8 14).index t (0 : Fin 2) * 512 = t.val * 512; rw [idx8_par 14 (by decide) t (0 : Fin 2)]; rfl)
      (by show (win8 14).index t (1 : Fin 2) * 128 = 0; rw [idx8_par 14 (by decide) t (1 : Fin 2)]; rfl) r d r' hr
  | ⟨15, _⟩ =>
    show (V c (Pipeline.arrRef spec8 15) : FVec Ideal S4096x128 .f32) (((win8 15).rect t).emb (ix2 r d)) = (V c (Pipeline.arrRef spec8 15) : FVec Ideal S4096x128 .f32) (ix2 r' d)
    exact rows_apply _ _ _ t.val
      (by show (win8 15).index t (0 : Fin 2) * 512 = t.val * 512; rw [idx8_par 15 (by decide) t (0 : Fin 2)]; rfl)
      (by show (win8 15).index t (1 : Fin 2) * 128 = 0; rw [idx8_par 15 (by decide) t (1 : Fin 2)]; rfl) r d r' hr
  | ⟨16, _⟩ =>
    show (V c (Pipeline.arrRef spec8 16) : FVec Ideal S4096x128 .f32) (((win8 16).rect t).emb (ix2 r d)) = (V c (Pipeline.arrRef spec8 16) : FVec Ideal S4096x128 .f32) (ix2 r' d)
    exact rows_apply _ _ _ t.val
      (by show (win8 16).index t (0 : Fin 2) * 512 = t.val * 512; rw [idx8_par 16 (by decide) t (0 : Fin 2)]; rfl)
      (by show (win8 16).index t (1 : Fin 2) * 128 = 0; rw [idx8_par 16 (by decide) t (1 : Fin 2)]; rfl) r d r' hr
  | ⟨17, _⟩ =>
    show (V c (Pipeline.arrRef spec8 17) : FVec Ideal S4096x128 .f32) (((win8 17).rect t).emb (ix2 r d)) = (V c (Pipeline.arrRef spec8 17) : FVec Ideal S4096x128 .f32) (ix2 r' d)
    exact rows_apply _ _ _ t.val
      (by show (win8 17).index t (0 : Fin 2) * 512 = t.val * 512; rw [idx8_par 17 (by decide) t (0 : Fin 2)]; rfl)
      (by show (win8 17).index t (1 : Fin 2) * 128 = 0; rw [idx8_par 17 (by decide) t (1 : Fin 2)]; rfl) r d r' hr
  | ⟨18, _⟩ =>
    show (V c (Pipeline.arrRef spec8 18) : FVec Ideal S4096x128 .f32) (((win8 18).rect t).emb (ix2 r d)) = (V c (Pipeline.arrRef spec8 18) : FVec Ideal S4096x128 .f32) (ix2 r' d)
    exact rows_apply _ _ _ t.val
      (by show (win8 18).index t (0 : Fin 2) * 512 = t.val * 512; rw [idx8_par 18 (by decide) t (0 : Fin 2)]; rfl)
      (by show (win8 18).index t (1 : Fin 2) * 128 = 0; rw [idx8_par 18 (by decide) t (1 : Fin 2)]; rfl) r d r' hr
  | ⟨19, _⟩ =>
    show (V c (Pipeline.arrRef spec8 19) : FVec Ideal S4096x128 .f32) (((win8 19).rect t).emb (ix2 r d)) = (V c (Pipeline.arrRef spec8 19) : FVec Ideal S4096x128 .f32) (ix2 r' d)
    exact rows_apply _ _ _ t.val
      (by show (win8 19).index t (0 : Fin 2) * 512 = t.val * 512; rw [idx8_par 19 (by decide) t (0 : Fin 2)]; rfl)
      (by show (win8 19).index t (1 : Fin 2) * 128 = 0; rw [idx8_par 19 (by decide) t (1 : Fin 2)]; rfl) r d r' hr
  | ⟨20, _⟩ =>
    show (V c (Pipeline.arrRef spec8 20) : FVec Ideal S4096x128 .f32) (((win8 20).rect t).emb (ix2 r d)) = (V c (Pipeline.arrRef spec8 20) : FVec Ideal S4096x128 .f32) (ix2 r' d)
    exact rows_apply _ _ _ t.val
      (by show (win8 20).index t (0 : Fin 2) * 512 = t.val * 512; rw [idx8_par 20 (by decide) t (0 : Fin 2)]; rfl)
      (by show (win8 20).index t (1 : Fin 2) * 128 = 0; rw [idx8_par 20 (by decide) t (1 : Fin 2)]; rfl) r d r' hr
  | ⟨21, _⟩ =>
    show (V c (Pipeline.arrRef spec8 21) : FVec Ideal S4096x128 .f32) (((win8 21).rect t).emb (ix2 r d)) = (V c (Pipeline.arrRef spec8 21) : FVec Ideal S4096x128 .f32) (ix2 r' d)
    exact rows_apply _ _ _ t.val
      (by show (win8 21).index t (0 : Fin 2) * 512 = t.val * 512; rw [idx8_par 21 (by decide) t (0 : Fin 2)]; rfl)
      (by show (win8 21).index t (1 : Fin 2) * 128 = 0; rw [idx8_par 21 (by decide) t (1 : Fin 2)]; rfl) r d r' hr
  | ⟨22, _⟩ =>
    show (V c (Pipeline.arrRef spec8 22) : FVec Ideal S4096x128 .f32) (((win8 22).rect t).emb (ix2 r d)) = (V c (Pipeline.arrRef spec8 22) : FVec Ideal S4096x128 .f32) (ix2 r' d)
    exact rows_apply _ _ _ t.val
      (by show (win8 22).index t (0 : Fin 2) * 512 = t.val * 512; rw [idx8_par 22 (by decide) t (0 : Fin 2)]; rfl)
      (by show (win8 22).index t (1 : Fin 2) * 128 = 0; rw [idx8_par 22 (by decide) t (1 : Fin 2)]; rfl) r d r' hr
  | ⟨23, _⟩ =>
    show (V c (Pipeline.arrRef spec8 23) : FVec Ideal S4096x128 .f32) (((win8 23).rect t).emb (ix2 r d)) = (V c (Pipeline.arrRef spec8 23) : FVec Ideal S4096x128 .f32) (ix2 r' d)
    exact rows_apply _ _ _ t.val
      (by show (win8 23).index t (0 : Fin 2) * 512 = t.val * 512; rw [idx8_par 23 (by decide) t (0 : Fin 2)]; rfl)
      (by show (win8 23).index t (1 : Fin 2) * 128 = 0; rw [idx8_par 23 (by decide) t (1 : Fin 2)]; rfl) r d r' hr
  | ⟨24, _⟩ =>
    show (V c (Pipeline.arrRef spec8 24) : FVec Ideal S4096x128 .f32) (((win8 24).rect t).emb (ix2 r d)) = (V c (Pipeline.arrRef spec8 24) : FVec Ideal S4096x128 .f32) (ix2 r' d)
    exact rows_apply _ _ _ t.val
      (by show (win8 24).index t (0 : Fin 2) * 512 = t.val * 512; rw [idx8_par 24 (by decide) t (0 : Fin 2)]; rfl)
      (by show (win8 24).index t (1 : Fin 2) * 128 = 0; rw [idx8_par 24 (by decide) t (1 : Fin 2)]; rfl) r d r' hr
  | ⟨25, _⟩ =>
    show (V c (Pipeline.arrRef spec8 25) : FVec Ideal S4096x128 .f32) (((win8 25).rect t).emb (ix2 r d)) = (V c (Pipeline.arrRef spec8 25) : FVec Ideal S4096x128 .f32) (ix2 r' d)
    exact rows_apply _ _ _ t.val
      (by show (win8 25).index t (0 : Fin 2) * 512 = t.val * 512; rw [idx8_par 25 (by decide) t (0 : Fin 2)]; rfl)
      (by show (win8 25).index t (1 : Fin 2) * 128 = 0; rw [idx8_par 25 (by decide) t (1 : Fin 2)]; rfl) r d r' hr
  | ⟨26, _⟩ =>
    show (V c (Pipeline.arrRef spec8 26) : FVec Ideal S4096x128 .f32) (((win8 26).rect t).emb (ix2 r d)) = (V c (Pipeline.arrRef spec8 26) : FVec Ideal S4096x128 .f32) (ix2 r' d)
    exact rows_apply _ _ _ t.val
      (by show (win8 26).index t (0 : Fin 2) * 512 = t.val * 512; rw [idx8_par 26 (by decide) t (0 : Fin 2)]; rfl)
      (by show (win8 26).index t (1 : Fin 2) * 128 = 0; rw [idx8_par 26 (by decide) t (1 : Fin 2)]; rfl) r d r' hr
  | ⟨27, _⟩ =>
    show (V c (Pipeline.arrRef spec8 27) : FVec Ideal S4096x128 .f32) (((win8 27).rect t).emb (ix2 r d)) = (V c (Pipeline.arrRef spec8 27) : FVec Ideal S4096x128 .f32) (ix2 r' d)
    exact rows_apply _ _ _ t.val
      (by show (win8 27).index t (0 : Fin 2) * 512 = t.val * 512; rw [idx8_par 27 (by decide) t (0 : Fin 2)]; rfl)
      (by show (win8 27).index t (1 : Fin 2) * 128 = 0; rw [idx8_par 27 (by decide) t (1 : Fin 2)]; rfl) r d r' hr
  | ⟨28, _⟩ =>
    show (V c (Pipeline.arrRef spec8 28) : FVec Ideal S4096x128 .f32) (((win8 28).rect t).emb (ix2 r d)) = (V c (Pipeline.arrRef spec8 28) : FVec Ideal S4096x128 .f32) (ix2 r' d)
    exact rows_apply _ _ _ t.val
      (by show (win8 28).index t (0 : Fin 2) * 512 = t.val * 512; rw [idx8_par 28 (by decide) t (0 : Fin 2)]; rfl)
      (by show (win8 28).index t (1 : Fin 2) * 128 = 0; rw [idx8_par 28 (by decide) t (1 : Fin 2)]; rfl) r d r' hr
  | ⟨29, _⟩ =>
    show (V c (Pipeline.arrRef spec8 29) : FVec Ideal S4096x128 .f32) (((win8 29).rect t).emb (ix2 r d)) = (V c (Pipeline.arrRef spec8 29) : FVec Ideal S4096x128 .f32) (ix2 r' d)
    exact rows_apply _ _ _ t.val
      (by show (win8 29).index t (0 : Fin 2) * 512 = t.val * 512; rw [idx8_par 29 (by decide) t (0 : Fin 2)]; rfl)
      (by show (win8 29).index t (1 : Fin 2) * 128 = 0; rw [idx8_par 29 (by decide) t (1 : Fin 2)]; rfl) r d r' hr
  | ⟨30, _⟩ =>
    show (V c (Pipeline.arrRef spec8 30) : FVec Ideal S4096x128 .f32) (((win8 30).rect t).emb (ix2 r d)) = (V c (Pipeline.arrRef spec8 30) : FVec Ideal S4096x128 .f32) (ix2 r' d)
    exact rows_apply _ _ _ t.val
      (by show (win8 30).index t (0 : Fin 2) * 512 = t.val * 512; rw [idx8_par 30 (by decide) t (0 : Fin 2)]; rfl)
      (by show (win8 30).index t (1 : Fin 2) * 128 = 0; rw [idx8_par 30 (by decide) t (1 : Fin 2)]; rfl) r d r' hr
  | ⟨31, _⟩ =>
    show (V c (Pipeline.arrRef spec8 31) : FVec Ideal S4096x128 .f32) (((win8 31).rect t).emb (ix2 r d)) = (V c (Pipeline.arrRef spec8 31) : FVec Ideal S4096x128 .f32) (ix2 r' d)
    exact rows_apply _ _ _ t.val
      (by show (win8 31).index t (0 : Fin 2) * 512 = t.val * 512; rw [idx8_par 31 (by decide) t (0 : Fin 2)]; rfl)
      (by show (win8 31).index t (1 : Fin 2) * 128 = 0; rw [idx8_par 31 (by decide) t (1 : Fin 2)]; rfl) r d r' hr
  | ⟨_ + 32, h⟩ => exact absurd h (Nat.not_lt.2 (Nat.le_add_left _ _))

/-- The weight window's block is the whole weight slice at every point. -/
theorem iblk8_32_eq (c : Dev nD) (t : Fin cfg8.N) :
    (iblk8 V c 32 t : Vec Ideal S8x128x128 .f32) = (V c (Pipeline.arrRef spec8 32) : FVec Ideal S8x128x128 .f32) := by
  obtain ⟨e0, e1, e2, -⟩ := idx8_rest t
  funext y
  unfold iblk8
  rw [View.read_apply]
  refine congrArg (V c (Pipeline.arrRef spec8 32)) (funext fun a => Fin.ext ?_)
  match a with
  | ⟨0, _⟩ => show win8_32.index t (0 : Fin 3) * 8 + 1 * (y 0).val = (y 0).val; rw [e0]; omega
  | ⟨1, _⟩ => show win8_32.index t (1 : Fin 3) * 128 + 1 * (y 1).val = (y 1).val; rw [e1]; omega
  | ⟨2, _⟩ => show win8_32.index t (2 : Fin 3) * 128 + 1 * (y 2).val = (y 2).val; rw [e2]; omega

/-- The bias window's block is the whole bias slice at every point. -/
theorem iblk8_33_eq (c : Dev nD) (t : Fin cfg8.N) :
    (iblk8 V c 33 t : Vec Ideal S8x128 .f32) = (V c (Pipeline.arrRef spec8 33) : FVec Ideal S8x128 .f32) := by
  obtain ⟨-, -, -, e0, e1, -⟩ := idx8_rest t
  funext y
  unfold iblk8
  rw [View.read_apply]
  refine congrArg (V c (Pipeline.arrRef spec8 33)) (funext fun a => Fin.ext ?_)
  match a with
  | ⟨0, _⟩ => show win8_33.index t (0 : Fin 2) * 8 + 1 * (y 0).val = (y 0).val; rw [e0]; omega
  | ⟨1, _⟩ => show win8_33.index t (1 : Fin 2) * 128 + 1 * (y 1).val = (y 1).val; rw [e1]; omega

/-! ## What each point writes back, and the cover -/

/-- What point `t` writes back is block `t` of the region's function of the entry arrays. -/
theorem flushed8_eq (c : Dev nD) (t : Fin cfg8.N) :
    (dat8 (F := Ideal) V c).flushed 34 t = ((cfg8.win 34).blk t).view.read (Elt Ideal)
      (regionFn (parArr8 V c) (V c (Pipeline.arrRef spec8 32)) (V c (Pipeline.arrRef spec8 33))) := by
  show (cfg8.win 34).cut (grid8.coords t) ((dat8 V c).after 34 t) = _
  rw [after8_34, iblk8_32_eq, iblk8_33_eq]
  obtain ⟨-, -, -, -, -, e0, e1, e2⟩ := idx8_rest t
  have ht : t.val < 8 := Nat.lt_of_lt_of_eq t.isLt N_8
  funext j
  rw [View.read_apply]
  refine (out8_34_apply (parArr8 V c) (V c (Pipeline.arrRef spec8 32)) (V c (Pipeline.arrRef spec8 33)) (par8 V c t) t.val
    (fun j r d r' hr => par8_apply V c t j r d r' hr) ht j).trans ?_
  refine congrArg (regionFn (parArr8 V c) (V c (Pipeline.arrRef spec8 32)) (V c (Pipeline.arrRef spec8 33)))
    (funext fun a => Fin.ext ?_)
  match a with
  | ⟨0, _⟩ => show (j 0).val = win8_34.index t (0 : Fin 3) * 8 + 1 * (j 0).val; rw [e0]; omega
  | ⟨1, _⟩ => show t.val * 512 + (j 1).val = win8_34.index t (1 : Fin 3) * 512 + 1 * (j 1).val; rw [e1]; omega
  | ⟨2, _⟩ => show (j 2).val = win8_34.index t (2 : Fin 3) * 128 + 1 * (j 2).val; rw [e2]; omega

/-- An index of the output array is in point `t`'s block iff each coordinate is in the block's range on its axis. -/
theorem mem_blk8 (t : Fin cfg8.N) (i : S8x4096x128.Idx) :
    i ∈ ((cfg8.win 34).blk t).view.set ↔ ∀ a : Fin 3, win8_34.index t a * S8x512x128.size a ≤ (i a).val
      ∧ (i a).val < win8_34.index t a * S8x512x128.size a + S8x512x128.size a := by
  show i ∈ ((View.whole (Pipeline.arrRef spec8 34)).slice (win8_34.rect t)).set ↔ _
  rw [View.set_slice_whole, Rect.mem_set_unit]
  exact Iff.rfl

/-- Every index of the output array is in the block of the point its row falls in. -/
theorem cover8 (i : S8x4096x128.Idx) : ∃ t : Fin cfg8.N, (cfg8.win 34).flush t = true ∧ i ∈ ((cfg8.win 34).blk t).view.set := by
  have hi0 : (i 0).val < 8 := (i 0).isLt
  have hi1 : (i 1).val < 4096 := (i 1).isLt
  have hi2 : (i 2).val < 128 := (i 2).isLt
  have hN : cfg8.N = 8 := N_8
  let t : Fin cfg8.N := ⟨(i 1).val / 512, by rw [hN]; omega⟩
  obtain ⟨-, -, -, -, -, e0, e1, e2⟩ := idx8_rest t
  have ht : t.val = (i 1).val / 512 := rfl
  refine ⟨t, flush8_34 t, ?_⟩
  rw [mem_blk8]
  intro a
  match a with
  | ⟨0, _⟩ => show win8_34.index t (0 : Fin 3) * 8 ≤ (i 0).val ∧ (i 0).val < win8_34.index t (0 : Fin 3) * 8 + 8; rw [e0]; omega
  | ⟨1, _⟩ => show win8_34.index t (1 : Fin 3) * 512 ≤ (i 1).val ∧ (i 1).val < win8_34.index t (1 : Fin 3) * 512 + 512; rw [e1, ht]; omega
  | ⟨2, _⟩ => show win8_34.index t (2 : Fin 3) * 128 ≤ (i 2).val ∧ (i 2).val < win8_34.index t (2 : Fin 3) * 128 + 128; rw [e2]; omega

/-! ## The region's output array -/

/-- After the region its output array holds the region's function of the arrays the region found. -/
theorem regval8 (c : Dev nD) : (dat8 (F := Ideal) V c).arrAt 34 cfg8.N
    = regionFn (parArr8 V c) (V c (Pipeline.arrRef spec8 32)) (V c (Pipeline.arrRef spec8 33)) :=
  (dat8 (F := Ideal) V c).arrAt_eq_of_cover 34 _ (fun t _ => flushed8_eq V c t) cover8

end Cert.KernelIdeal.Hand

end
-- ==== Proof.KI.Chain8.lean ====
/-
  Layer 7 of the graph is what pallas_call 8 of @main leaves in its output array.

  The region's output array is `regionFn` of its 34 operand arrays as the host stretch before it leaves them. Window
  `4 k + j` holds the reshaped slab of an earlier output array that is parent `j` of the layer's node `k` (each by the
  layer already identified, or node 0); window 32 holds the layer's eight transposed weight matrices, window 33 its eight
  bias rows. So the region computes the layer (`layer_of_operands`). Last, the layer's own slabs as later regions read
  them.
-/
import proofs.«135270_j33062658245245_1_alg».proof.Proof.KI.Chain7
import proofs.«135270_j33062658245245_1_alg».proof.Proof.KI.RegVal8

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- What pallas_call 8 leaves in its output array is layer 7. -/
theorem chain8 (c : Dev nD) :
    (W18 m c main_v140 : FVec Ideal S8x4096x128 .f32) = layerArr (argX m c) (argW m c) (argB m c) 7 := by
  rw [W18_out m c, regval8 (rd (W17 m)) c]
  refine layer_of_operands (argX m c) (argW m c) (argB m c) 7 (by decide) _ _ _ (fun w => ?_) ?_ ?_
  · -- the 32 parent windows: window i holds a reshaped slab of an earlier output array, the array the table of parents names
    match w with
    | ⟨0, _⟩ => exact (congrFun (V17_eq m c).symm _).trans ((opnd8_0 m (outsH m) c).trans (slabL2 m c 3 _ _ (nOf 7 0) (by decide)))
    | ⟨1, _⟩ => exact (congrFun (V17_eq m c).symm _).trans ((opnd8_1 m (outsH m) c).trans (slabL0 m c 7 _ _ (nOf 7 1) (by decide)))
    | ⟨2, _⟩ => exact (congrFun (V17_eq m c).symm _).trans ((opnd8_2 m (outsH m) c).trans (slabL3 m c 4 _ _ (nOf 7 2) (by decide)))
    | ⟨3, _⟩ => exact (congrFun (V17_eq m c).symm _).trans ((opnd8_3 m (outsH m) c).trans (slabL6 m c 6 _ _ (nOf 7 3) (by decide)))
    | ⟨4, _⟩ => exact (congrFun (V17_eq m c).symm _).trans ((opnd8_4 m (outsH m) c).trans (slabL2 m c 3 _ _ (nOf 7 4) (by decide)))
    | ⟨5, _⟩ => exact (congrFun (V17_eq m c).symm _).trans ((opnd8_5 m (outsH m) c).trans (slabL6 m c 1 _ _ (nOf 7 5) (by decide)))
    | ⟨6, _⟩ => exact (congrFun (V17_eq m c).symm _).trans ((opnd8_6 m (outsH m) c).trans (slabL2 m c 4 _ _ (nOf 7 6) (by decide)))
    | ⟨7, _⟩ => exact (congrFun (V17_eq m c).symm _).trans ((opnd8_7 m (outsH m) c).trans (slabL5 m c 5 _ _ (nOf 7 7) (by decide)))
    | ⟨8, _⟩ => exact (congrFun (V17_eq m c).symm _).trans ((opnd8_8 m (outsH m) c).trans (slabL1 m c 4 _ _ (nOf 7 8) (by decide)))
    | ⟨9, _⟩ => exact (congrFun (V17_eq m c).symm _).trans ((opnd8_9 m (outsH m) c).trans (slabL3 m c 2 _ _ (nOf 7 9) (by decide)))
    | ⟨10, _⟩ => exact (congrFun (V17_eq m c).symm _).trans ((opnd8_10 m (outsH m) c).trans (slabL2 m c 1 _ _ (nOf 7 10) (by decide)))
    | ⟨11, _⟩ => exact (congrFun (V17_eq m c).symm _).trans ((opnd8_11 m (outsH m) c).trans (slabL1 m c 4 _ _ (nOf 7 11) (by decide)))
    | ⟨12, _⟩ => exact (congrFun (V17_eq m c).symm _).trans ((opnd8_12 m (outsH m) c).trans (slabL6 m c 1 _ _ (nOf 7 12) (by decide)))
    | ⟨13, _⟩ => exact (congrFun (V17_eq m c).symm _).trans ((opnd8_13 m (outsH m) c).trans (slabL5 m c 4 _ _ (nOf 7 13) (by decide)))
    | ⟨14, _⟩ => exact (congrFun (V17_eq m c).symm _).trans ((opnd8_14 m (outsH m) c).trans (slabL0 m c 6 _ _ (nOf 7 14) (by decide)))
    | ⟨15, _⟩ => exact (congrFun (V17_eq m c).symm _).trans ((opnd8_15 m (outsH m) c).trans (slabL6 m c 3 _ _ (nOf 7 15) (by decide)))
    | ⟨16, _⟩ => exact (congrFun (V17_eq m c).symm _).trans ((opnd8_16 m (outsH m) c).trans (slabL6 m c 6 _ _ (nOf 7 16) (by decide)))
    | ⟨17, _⟩ => exact (congrFun (V17_eq m c).symm _).trans ((opnd8_17 m (outsH m) c).trans (slabL1 m c 6 _ _ (nOf 7 17) (by decide)))
    | ⟨18, _⟩ => exact (congrFun (V17_eq m c).symm _).trans ((opnd8_18 m (outsH m) c).trans (slabL2 m c 7 _ _ (nOf 7 18) (by decide)))
    | ⟨19, _⟩ => exact (congrFun (V17_eq m c).symm _).trans ((opnd8_19 m (outsH m) c).trans (slabL3 m c 5 _ _ (nOf 7 19) (by decide)))
    | ⟨20, _⟩ => exact (congrFun (V17_eq m c).symm _).trans ((opnd8_20 m (outsH m) c).trans (slabL4 m c 4 _ _ (nOf 7 20) (by decide)))
    | ⟨21, _⟩ => exact (congrFun (V17_eq m c).symm _).trans ((opnd8_21 m (outsH m) c).trans (slabL3 m c 0 _ _ (nOf 7 21) (by decide)))
    | ⟨22, _⟩ => exact (congrFun (V17_eq m c).symm _).trans ((opnd8_22 m (outsH m) c).trans (slabL0 m c 7 _ _ (nOf 7 22) (by decide)))
    | ⟨23, _⟩ => exact (congrFun (V17_eq m c).symm _).trans ((opnd8_23 m (outsH m) c).trans (slabL6 m c 4 _ _ (nOf 7 23) (by decide)))
    | ⟨24, _⟩ => exact (congrFun (V17_eq m c).symm _).trans ((opnd8_24 m (outsH m) c).trans (slabL4 m c 6 _ _ (nOf 7 24) (by decide)))
    | ⟨25, _⟩ => exact (congrFun (V17_eq m c).symm _).trans ((opnd8_25 m (outsH m) c).trans (slabL0 m c 1 _ _ (nOf 7 25) (by decide)))
    | ⟨26, _⟩ => exact (congrFun (V17_eq m c).symm _).trans ((opnd8_26 m (outsH m) c).trans (slabL5 m c 5 _ _ (nOf 7 26) (by decide)))
    | ⟨27, _⟩ => exact (congrFun (V17_eq m c).symm _).trans ((opnd8_27 m (outsH m) c).trans (slabL5 m c 0 _ _ (nOf 7 27) (by decide)))
    | ⟨28, _⟩ => exact (congrFun (V17_eq m c).symm _).trans ((opnd8_28 m (outsH m) c).trans (slabL1 m c 1 _ _ (nOf 7 28) (by decide)))
    | ⟨29, _⟩ => exact (congrFun (V17_eq m c).symm _).trans ((opnd8_29 m (outsH m) c).trans (slabL4 m c 2 _ _ (nOf 7 29) (by decide)))
    | ⟨30, _⟩ => exact (congrFun (V17_eq m c).symm _).trans ((opnd8_30 m (outsH m) c).trans (slabL3 m c 3 _ _ (nOf 7 30) (by decide)))
    | ⟨31, _⟩ => exact (congrFun (V17_eq m c).symm _).trans ((opnd8_31 m (outsH m) c).trans (slabL0 m c 0 _ _ (nOf 7 31) (by decide)))
    | ⟨n + 32, h⟩ => exact absurd h (by omega)
  · -- the transposed weights of the layer's eight nodes
    exact (congrFun (V17_eq m c).symm _).trans ((opnd8_32 m (outsH m) c).trans (wt_slice (argW m c) (8 * 7 + 1) _ _))
  · -- the biases of the layer's eight nodes
    exact (congrFun (V17_eq m c).symm _).trans ((opnd8_33 m (outsH m) c).trans (b_slice (argB m c) (8 * 7 + 1) _))

/-- The slabs of layer 7 as the later regions read them: slab `k` with its unit axis dropped is node `8 · 7 + 1 + k`
    (`n` names the node in any closed form, `hn` a closed equation of naturals). -/
theorem slabL7 (c : Dev nD) (k : Nat) (h₁ : S8x4096x128.Slices ![k, 0, 0] S1x4096x128)
    (h₂ : S1x4096x128.ShapeCasts S4096x128) (n : Nat) (hn : 8 * 7 + 1 + k = n) :
    shapeCast S4096x128 (extractStridedSlice S1x4096x128 ![k, 0, 0] (outsH m 18 main_v140 c) h₁) h₂
      = nodeArr (argX m c) (argW m c) (argB m c) n :=
  slab_of_layer (argX m c) (argW m c) (argB m c) (outsH m 18 main_v140 c) 7 (chain8 m c) k h₁ h₂ n hn

end Cert.KernelIdeal.Hand

end
-- ==== Proof.KI.Chain.lean ====
/-
  The kernel's result as a closed function of the argument arrays.

  The last host stretch of @main adds the eight slabs of the last pallas_call's output array and divides by 8; that array
  is layer 7 of the graph (`chain8`), each layer having been read off the one pallas_call that computes it from the
  layers before it (`chain0 … chain8`, one module per pallas_call). So the result buffer holds the mean of nodes 57 … 64
  of the common function over the argument arrays as launched.
-/
import proofs.«135270_j33062658245245_1_alg».proof.Proof.KI.Chain8

-- memberships decided among the program's references recurse past the default depth
set_option maxRecDepth 16384

noncomputable section

namespace Cert.KernelIdeal.Hand

open Cert.KernelIdeal Cert.KernelIdeal.Gen Cert.KernelIdeal.GenP Cert.Spec
open Idealize.ShloMosaic Idealize.ShloMosaic.TcCoe Idealize.ShloMosaic.ValueIdx

variable (m : (ℓ : Loc nD τ sig) → Buf (Elt Ideal) ℓ)

/-- The result buffer at the end of @main: the mean over the eight slabs of layer 7. -/
theorem kernel_result (c : Dev nD) :
    (W19 m c main_v159 : FVec Ideal S4096x128 .f32)
      = Host.divf (Host.reduceAdd (layerArr (argX m c) (argW m c) (argB m c) 7) (constant S_ .f32 0x00000000#32)
            reducesTo_S8x4096x128_S4096x128_d0 h_S_)
          (broadcastInDim S4096x128 ![] bcast_S_S4096x128 (constant S_ .f32 0x41000000#32)) := by
  rw [← V19_eq m c, V19_v159 m (outsH m) c]
  have h : (outsH m 18 main_v140 c : FVec Ideal S8x4096x128 .f32) = layerArr (argX m c) (argW m c) (argB m c) 7 := chain8 m c
  rw [h]

end Cert.KernelIdeal.Hand

end
-- ==== Proof.RefRun.lean ====
/- The reference program's @main as one straight line of host operations, and its run read back.
   The program is a layered graph network: a first node (a matrix product, a bias, a rectifier), then eight layers,
   each gathering four parents per output node by a constant index table, summing them, multiplying by the layer's
   weight slabs, adding the bias, rectifying, and appending the eight new nodes to the array of all nodes; the result is
   the mean of the last eight nodes. Here the line is cut at those joints: a prologue, one list per layer, a tail.
   Each rectifier is an outlined function of three operations (the zero, its broadcast, the maximum), listed at its call
   over the call's own buffers. Every weakly fair execution terminates with each buffer at the fold of the operations
   over the launch contents; the three arguments are written by no operation. -/
import proofs.«135270_j33062658245245_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prologue: the fifteen index constants and the first mask, then node 0 = max(X·W₀ᵀ + b₀, 0) as an array of one node. -/
abbrev opsA : List (HloOp τ sig (Elt F)) :=
  [ nullary main_c (constantI S8x4 32 0#32),
    nullary main_c_0 (constantI S8x4 1 0#1),
    nullary main_c_1 (fun i => lit0 (S8x4.rowMajor i)),
    nullary main_c_2 (constantI S8x4 1 0#1),
    nullary main_c_3 (fun i => lit1 (S8x4.rowMajor i)),
    nullary main_c_4 (constantI S8x4 1 0#1),
    nullary main_c_5 (fun i => lit2 (S8x4.rowMajor i)),
    nullary main_c_6 (constantI S8x4 1 0#1),
    nullary main_c_7 (fun i => lit3 (S8x4.rowMajor i)),
    nullary main_c_8 (constantI S8x4 1 0#1),
    nullary main_c_9 (fun i => lit4 (S8x4.rowMajor i)),
    nullary main_c_10 (constantI S8x4 1 0#1),
    nullary main_c_11 (fun i => lit5 (S8x4.rowMajor i)),
    nullary main_c_12 (constantI S8x4 1 0#1),
    nullary main_c_13 (fun i => lit6 (S8x4.rowMajor i)),
    nullary main_c_14 (constantI S8x4 1 0#1),
    unary main_arg1 main_v0 (extractStridedSlice S1x128x128 ![0, 0, 0] · slices_S65x128x128_S1x128x128_0_0_0),
    reshape main_v0 main_v1 rfl shapeCasts_S1x128x128_S128x128,
    unary main_v1 main_v2 (transpose S128x128 [1, 0] · transposes_S128x128_S128x128_1_0),
    binary main_arg0 main_v2 main_v3 (fun l r => Host.dotGeneral dot_S4096x128_S128x128_S4096x128_1_0_0_1_n_n none l r),
    unary main_arg2 main_v4 (extractStridedSlice S1x128 ![0, 0] · slices_S65x128_S1x128_0_0),
    reshape main_v4 main_v5 rfl shapeCasts_S1x128_S128,
    unary main_v5 main_v6 (broadcastInDim S1x128 ![1] bcast_S128_S1x128_1),
    unary main_v6 main_v7 (broadcastInDim S4096x128 ![0, 1] bcast_S1x128_S4096x128_0_1),
    binary main_v3 main_v7 main_v8 addf,
    TRef.nullary main_call0.cst (constant S_ .f32 0x00000000#32),
    TRef.unary main_call0.cst main_call0.v0 (broadcastInDim S4096x128 ![] bcast_S_S4096x128),
    TRef.binary (.of main_v8) main_call0.v0 main_call0.v1 maximumf,
    unary main_v9 main_v10 (broadcastInDim S1x4096x128 ![1, 2] bcast_S4096x128_S1x4096x128_1_2) ]

/-- Layer 1: nodes 1 … 8 from the array of node 0. -/
abbrev opsL1 : List (HloOp τ sig (Elt F)) :=
  [ nullary main_c_15 (constantI S_ 32 1#32),
    unary main_c_15 main_v11 (broadcastInDim S8x4 ![] bcast_S_S8x4),
    binary main_c main_v11 main_v12 addi,
    ternary main_c_0 main_v12 main_c main_v13 select,
    unary main_v13 main_v14 (broadcastInDim S8x4x1 ![0, 1] bcast_S8x4_S8x4x1_0_1),
    binary main_v10 main_v14 main_v15 (fun x i => Host.gather gather_S1x4096x128_S8x4x1_S8x4x4096x128_23_0_n_n_0_2_14096128 x i),
    nullary main_cst (constant S_ .f32 0x00000000#32),
    binary main_v15 main_cst main_v16 (fun x v => Host.reduceAdd x v reducesTo_S8x4x4096x128_S8x4096x128_d1 h_S_),
    unary main_arg1 main_v17 (extractStridedSlice S8x128x128 ![1, 0, 0] · slices_S65x128x128_S8x128x128_1_0_0),
    unary main_arg2 main_v18 (extractStridedSlice S8x128 ![1, 0] · slices_S65x128_S8x128_1_0),
    binary main_v16 main_v17 main_v19 (fun l r => Host.dotGeneral dot_S8x4096x128_S8x128x128_S8x4096x128_2_2_1_1_0_0 none l r),
    unary main_v18 main_v20 (broadcastInDim S8x1x128 ![0, 2] bcast_S8x128_S8x1x128_0_2),
    unary main_v20 main_v21 (broadcastInDim S8x4096x128 ![0, 1, 2] bcast_S8x1x128_S8x4096x128_0_1_2),
    binary main_v19 main_v21 main_v22 addf,
    TRef.nullary main_call1.cst (constant S_ .f32 0x00000000#32),
    TRef.unary main_call1.cst main_call1.v0 (broadcastInDim S8x4096x128 ![] bcast_S_S8x4096x128),
    TRef.binary (.of main_v22) main_call1.v0 main_call1.v1 maximumf,
    binary main_v10 main_v23 main_v24 (fun a b => concatenate S9x4096x128 0 [⟨S1x4096x128, a⟩, ⟨S8x4096x128, b⟩] concatenates_S1x4096x128_S8x4096x128_S9x4096x128_d0) ]

/-- Layer 2: nodes 9 … 16 from the array of nodes 0 … 8. -/
abbrev opsL2 : List (HloOp τ sig (Elt F)) :=
  [ nullary main_c_16 (constantI S_ 32 9#32),
    unary main_c_16 main_v25 (broadcastInDim S8x4 ![] bcast_S_S8x4),
    binary main_c_1 main_v25 main_v26 addi,
    ternary main_c_2 main_v26 main_c_1 main_v27 select,
    unary main_v27 main_v28 (broadcastInDim S8x4x1 ![0, 1] bcast_S8x4_S8x4x1_0_1),
    binary main_v24 main_v28 main_v29 (fun x i => Host.gather gather_S9x4096x128_S8x4x1_S8x4x4096x128_23_0_n_n_0_2_14096128 x i),
    nullary main_cst_17 (constant S_ .f32 0x00000000#32),
    binary main_v29 main_cst_17 main_v30 (fun x v => Host.reduceAdd x v reducesTo_S8x4x4096x128_S8x4096x128_d1 h_S_),
    unary main_arg1 main_v31 (extractStridedSlice S8x128x128 ![9, 0, 0] · slices_S65x128x128_S8x128x128_9_0_0),
    unary main_arg2 main_v32 (extractStridedSlice S8x128 ![9, 0] · slices_S65x128_S8x128_9_0),
    binary main_v30 main_v31 main_v33 (fun l r => Host.dotGeneral dot_S8x4096x128_S8x128x128_S8x4096x128_2_2_1_1_0_0 none l r),
    unary main_v32 main_v34 (broadcastInDim S8x1x128 ![0, 2] bcast_S8x128_S8x1x128_0_2),
    unary main_v34 main_v35 (broadcastInDim S8x4096x128 ![0, 1, 2] bcast_S8x1x128_S8x4096x128_0_1_2),
    binary main_v33 main_v35 main_v36 addf,
    TRef.nullary main_call2.cst (constant S_ .f32 0x00000000#32),
    TRef.unary main_call2.cst main_call2.v0 (broadcastInDim S8x4096x128 ![] bcast_S_S8x4096x128),
    TRef.binary (.of main_v36) main_call2.v0 main_call2.v1 maximumf,
    binary main_v24 main_v37 main_v38 (fun a b => concatenate S17x4096x128 0 [⟨S9x4096x128, a⟩, ⟨S8x4096x128, b⟩] concatenates_S9x4096x128_S8x4096x128_S17x4096x128_d0) ]

/-- Layer 3: nodes 17 … 24 from the array of nodes 0 … 16. -/
abbrev opsL3 : List (HloOp τ sig (Elt F)) :=
  [ nullary main_c_18 (constantI S_ 32 17#32),
    unary main_c_18 main_v39 (broadcastInDim S8x4 ![] bcast_S_S8x4),
    binary main_c_3 main_v39 main_v40 addi,
    ternary main_c_4 main_v40 main_c_3 main_v41 select,
    unary main_v41 main_v42 (broadcastInDim S8x4x1 ![0, 1] bcast_S8x4_S8x4x1_0_1),
    binary main_v38 main_v42 main_v43 (fun x i => Host.gather gather_S17x4096x128_S8x4x1_S8x4x4096x128_23_0_n_n_0_2_14096128 x i),
    nullary main_cst_19 (constant S_ .f32 0x00000000#32),
    binary main_v43 main_cst_19 main_v44 (fun x v => Host.reduceAdd x v reducesTo_S8x4x4096x128_S8x4096x128_d1 h_S_),
    unary main_arg1 main_v45 (extractStridedSlice S8x128x128 ![17, 0, 0] · slices_S65x128x128_S8x128x128_17_0_0),
    unary main_arg2 main_v46 (extractStridedSlice S8x128 ![17, 0] · slices_S65x128_S8x128_17_0),
    binary main_v44 main_v45 main_v47 (fun l r => Host.dotGeneral dot_S8x4096x128_S8x128x128_S8x4096x128_2_2_1_1_0_0 none l r),
    unary main_v46 main_v48 (broadcastInDim S8x1x128 ![0, 2] bcast_S8x128_S8x1x128_0_2),
    unary main_v48 main_v49 (broadcastInDim S8x4096x128 ![0, 1, 2] bcast_S8x1x128_S8x4096x128_0_1_2),
    binary main_v47 main_v49 main_v50 addf,
    TRef.nullary main_call3.cst (constant S_ .f32 0x00000000#32),
    TRef.unary main_call3.cst main_call3.v0 (broadcastInDim S8x4096x128 ![] bcast_S_S8x4096x128),
    TRef.binary (.of main_v50) main_call3.v0 main_call3.v1 maximumf,
    binary main_v38 main_v51 main_v52 (fun a b => concatenate S25x4096x128 0 [⟨S17x4096x128, a⟩, ⟨S8x4096x128, b⟩] concatenates_S17x4096x128_S8x4096x128_S25x4096x128_d0) ]

/-- Layer 4: nodes 25 … 32 from the array of nodes 0 … 24. -/
abbrev opsL4 : List (HloOp τ sig (Elt F)) :=
  [ nullary main_c_20 (constantI S_ 32 25#32),
    unary main_c_20 main_v53 (broadcastInDim S8x4 ![] bcast_S_S8x4),
    binary main_c_5 main_v53 main_v54 addi,
    ternary main_c_6 main_v54 main_c_5 main_v55 select,
    unary main_v55 main_v56 (broadcastInDim S8x4x1 ![0, 1] bcast_S8x4_S8x4x1_0_1),
    binary main_v52 main_v56 main_v57 (fun x i => Host.gather gather_S25x4096x128_S8x4x1_S8x4x4096x128_23_0_n_n_0_2_14096128 x i),
    nullary main_cst_21 (constant S_ .f32 0x00000000#32),
    binary main_v57 main_cst_21 main_v58 (fun x v => Host.reduceAdd x v reducesTo_S8x4x4096x128_S8x4096x128_d1 h_S_),
    unary main_arg1 main_v59 (extractStridedSlice S8x128x128 ![25, 0, 0] · slices_S65x128x128_S8x128x128_25_0_0),
    unary main_arg2 main_v60 (extractStridedSlice S8x128 ![25, 0] · slices_S65x128_S8x128_25_0),
    binary main_v58 main_v59 main_v61 (fun l r => Host.dotGeneral dot_S8x4096x128_S8x128x128_S8x4096x128_2_2_1_1_0_0 none l r),
    unary main_v60 main_v62 (broadcastInDim S8x1x128 ![0, 2] bcast_S8x128_S8x1x128_0_2),
    unary main_v62 main_v63 (broadcastInDim S8x4096x128 ![0, 1, 2] bcast_S8x1x128_S8x4096x128_0_1_2),
    binary main_v61 main_v63 main_v64 addf,
    TRef.nullary main_call4.cst (constant S_ .f32 0x00000000#32),
    TRef.unary main_call4.cst main_call4.v0 (broadcastInDim S8x4096x128 ![] bcast_S_S8x4096x128),
    TRef.binary (.of main_v64) main_call4.v0 main_call4.v1 maximumf,
    binary main_v52 main_v65 main_v66 (fun a b => concatenate S33x4096x128 0 [⟨S25x4096x128, a⟩, ⟨S8x4096x128, b⟩] concatenates_S25x4096x128_S8x4096x128_S33x4096x128_d0) ]

/-- Layer 5: nodes 33 … 40 from the array of nodes 0 … 32. -/
abbrev opsL5 : List (HloOp τ sig (Elt F)) :=
  [ nullary main_c_22 (constantI S_ 32 33#32),
    unary main_c_22 main_v67 (broadcastInDim S8x4 ![] bcast_S_S8x4),
    binary main_c_7 main_v67 main_v68 addi,
    ternary main_c_8 main_v68 main_c_7 main_v69 select,
    unary main_v69 main_v70 (broadcastInDim S8x4x1 ![0, 1] bcast_S8x4_S8x4x1_0_1),
    binary main_v66 main_v70 main_v71 (fun x i => Host.gather gather_S33x4096x128_S8x4x1_S8x4x4096x128_23_0_n_n_0_2_14096128 x i),
    nullary main_cst_23 (constant S_ .f32 0x00000000#32),
    binary main_v71 main_cst_23 main_v72 (fun x v => Host.reduceAdd x v reducesTo_S8x4x4096x128_S8x4096x128_d1 h_S_),
    unary main_arg1 main_v73 (extractStridedSlice S8x128x128 ![33, 0, 0] · slices_S65x128x128_S8x128x128_33_0_0),
    unary main_arg2 main_v74 (extractStridedSlice S8x128 ![33, 0] · slices_S65x128_S8x128_33_0),
    binary main_v72 main_v73 main_v75 (fun l r => Host.dotGeneral dot_S8x4096x128_S8x128x128_S8x4096x128_2_2_1_1_0_0 none l r),
    unary main_v74 main_v76 (broadcastInDim S8x1x128 ![0, 2] bcast_S8x128_S8x1x128_0_2),
    unary main_v76 main_v77 (broadcastInDim S8x4096x128 ![0, 1, 2] bcast_S8x1x128_S8x4096x128_0_1_2),
    binary main_v75 main_v77 main_v78 addf,
    TRef.nullary main_call5.cst (constant S_ .f32 0x00000000#32),
    TRef.unary main_call5.cst main_call5.v0 (broadcastInDim S8x4096x128 ![] bcast_S_S8x4096x128),
    TRef.binary (.of main_v78) main_call5.v0 main_call5.v1 maximumf,
    binary main_v66 main_v79 main_v80 (fun a b => concatenate S41x4096x128 0 [⟨S33x4096x128, a⟩, ⟨S8x4096x128, b⟩] concatenates_S33x4096x128_S8x4096x128_S41x4096x128_d0) ]

/-- Layer 6: nodes 41 … 48 from the array of nodes 0 … 40. -/
abbrev opsL6 : List (HloOp τ sig (Elt F)) :=
  [ nullary main_c_24 (constantI S_ 32 41#32),
    unary main_c_24 main_v81 (broadcastInDim S8x4 ![] bcast_S_S8x4),
    binary main_c_9 main_v81 main_v82 addi,
    ternary main_c_10 main_v82 main_c_9 main_v83 select,
    unary main_v83 main_v84 (broadcastInDim S8x4x1 ![0, 1] bcast_S8x4_S8x4x1_0_1),
    binary main_v80 main_v84 main_v85 (fun x i => Host.gather gather_S41x4096x128_S8x4x1_S8x4x4096x128_23_0_n_n_0_2_14096128 x i),
    nullary main_cst_25 (constant S_ .f32 0x00000000#32),
    binary main_v85 main_cst_25 main_v86 (fun x v => Host.reduceAdd x v reducesTo_S8x4x4096x128_S8x4096x128_d1 h_S_),
    unary main_arg1 main_v87 (extractStridedSlice S8x128x128 ![41, 0, 0] · slices_S65x128x128_S8x128x128_41_0_0),
    unary main_arg2 main_v88 (extractStridedSlice S8x128 ![41, 0] · slices_S65x128_S8x128_41_0),
    binary main_v86 main_v87 main_v89 (fun l r => Host.dotGeneral dot_S8x4096x128_S8x128x128_S8x4096x128_2_2_1_1_0_0 none l r),
    unary main_v88 main_v90 (broadcastInDim S8x1x128 ![0, 2] bcast_S8x128_S8x1x128_0_2),
    unary main_v90 main_v91 (broadcastInDim S8x4096x128 ![0, 1, 2] bcast_S8x1x128_S8x4096x128_0_1_2),
    binary main_v89 main_v91 main_v92 addf,
    TRef.nullary main_call6.cst (constant S_ .f32 0x00000000#32),
    TRef.unary main_call6.cst main_call6.v0 (broadcastInDim S8x4096x128 ![] bcast_S_S8x4096x128),
    TRef.binary (.of main_v92) main_call6.v0 main_call6.v1 maximumf,
    binary main_v80 main_v93 main_v94 (fun a b => concatenate S49x4096x128 0 [⟨S41x4096x128, a⟩, ⟨S8x4096x128, b⟩] concatenates_S41x4096x128_S8x4096x128_S49x4096x128_d0) ]

/-- Layer 7: nodes 49 … 56 from the array of nodes 0 … 48. -/
abbrev opsL7 : List (HloOp τ sig (Elt F)) :=
  [ nullary main_c_26 (constantI S_ 32 49#32),
    unary main_c_26 main_v95 (broadcastInDim S8x4 ![] bcast_S_S8x4),
    binary main_c_11 main_v95 main_v96 addi,
    ternary main_c_12 main_v96 main_c_11 main_v97 select,
    unary main_v97 main_v98 (broadcastInDim S8x4x1 ![0, 1] bcast_S8x4_S8x4x1_0_1),
    binary main_v94 main_v98 main_v99 (fun x i => Host.gather gather_S49x4096x128_S8x4x1_S8x4x4096x128_23_0_n_n_0_2_14096128 x i),
    nullary main_cst_27 (constant S_ .f32 0x00000000#32),
    binary main_v99 main_cst_27 main_v100 (fun x v => Host.reduceAdd x v reducesTo_S8x4x4096x128_S8x4096x128_d1 h_S_),
    unary main_arg1 main_v101 (extractStridedSlice S8x128x128 ![49, 0, 0] · slices_S65x128x128_S8x128x128_49_0_0),
    unary main_arg2 main_v102 (extractStridedSlice S8x128 ![49, 0] · slices_S65x128_S8x128_49_0),
    binary main_v100 main_v101 main_v103 (fun l r => Host.dotGeneral dot_S8x4096x128_S8x128x128_S8x4096x128_2_2_1_1_0_0 none l r),
    unary main_v102 main_v104 (broadcastInDim S8x1x128 ![0, 2] bcast_S8x128_S8x1x128_0_2),
    unary main_v104 main_v105 (broadcastInDim S8x4096x128 ![0, 1, 2] bcast_S8x1x128_S8x4096x128_0_1_2),
    binary main_v103 main_v105 main_v106 addf,
    TRef.nullary main_call7.cst (constant S_ .f32 0x00000000#32),
    TRef.unary main_call7.cst main_call7.v0 (broadcastInDim S8x4096x128 ![] bcast_S_S8x4096x128),
    TRef.binary (.of main_v106) main_call7.v0 main_call7.v1 maximumf,
    binary main_v94 main_v107 main_v108 (fun a b => concatenate S57x4096x128 0 [⟨S49x4096x128, a⟩, ⟨S8x4096x128, b⟩] concatenates_S49x4096x128_S8x4096x128_S57x4096x128_d0) ]

/-- Layer 8: nodes 57 … 64 from the array of nodes 0 … 56. -/
abbrev opsL8 : List (HloOp τ sig (Elt F)) :=
  [ nullary main_c_28 (constantI S_ 32 57#32),
    unary main_c_28 main_v109 (broadcastInDim S8x4 ![] bcast_S_S8x4),
    binary main_c_13 main_v109 main_v110 addi,
    ternary main_c_14 main_v110 main_c_13 main_v111 select,
    unary main_v111 main_v112 (broadcastInDim S8x4x1 ![0, 1] bcast_S8x4_S8x4x1_0_1),
    binary main_v108 main_v112 main_v113 (fun x i => Host.gather gather_S57x4096x128_S8x4x1_S8x4x4096x128_23_0_n_n_0_2_14096128 x i),
    nullary main_cst_29 (constant S_ .f32 0x00000000#32),
    binary main_v113 main_cst_29 main_v114 (fun x v => Host.reduceAdd x v reducesTo_S8x4x4096x128_S8x4096x128_d1 h_S_),
    unary main_arg1 main_v115 (extractStridedSlice S8x128x128 ![57, 0, 0] · slices_S65x128x128_S8x128x128_57_0_0),
    unary main_arg2 main_v116 (extractStridedSlice S8x128 ![57, 0] · slices_S65x128_S8x128_57_0),
    binary main_v114 main_v115 main_v117 (fun l r => Host.dotGeneral dot_S8x4096x128_S8x128x128_S8x4096x128_2_2_1_1_0_0 none l r),
    unary main_v116 main_v118 (broadcastInDim S8x1x128 ![0, 2] bcast_S8x128_S8x1x128_0_2),
    unary main_v118 main_v119 (broadcastInDim S8x4096x128 ![0, 1, 2] bcast_S8x1x128_S8x4096x128_0_1_2),
    binary main_v117 main_v119 main_v120 addf,
    TRef.nullary main_call8.cst (constant S_ .f32 0x00000000#32),
    TRef.unary main_call8.cst main_call8.v0 (broadcastInDim S8x4096x128 ![] bcast_S_S8x4096x128),
    TRef.binary (.of main_v120) main_call8.v0 main_call8.v1 maximumf,
    binary main_v108 main_v121 main_v122 (fun a b => concatenate S65x4096x128 0 [⟨S57x4096x128, a⟩, ⟨S8x4096x128, b⟩] concatenates_S57x4096x128_S8x4096x128_S65x4096x128_d0) ]

/-- The tail: the last eight nodes, their sum over the node axis, divided by eight. -/
abbrev opsT : List (HloOp τ sig (Elt F)) :=
  [ unary main_v122 main_v123 (extractStridedSlice S8x4096x128 ![57, 0, 0] · slices_S65x4096x128_S8x4096x128_57_0_0),
    nullary main_cst_30 (constant S_ .f32 0x00000000#32),
    binary main_v123 main_cst_30 main_v124 (fun x v => Host.reduceAdd x v reducesTo_S8x4096x128_S4096x128_d0 h_S_),
    nullary main_cst_31 (constant S_ .f32 0x41000000#32),
    unary main_cst_31 main_v125 (broadcastInDim S4096x128 ![] bcast_S_S4096x128),
    binary main_v124 main_v125 main_v126 Host.divf ]

/-- @main's 179 operations, in order. -/
abbrev ops : List (HloOp τ sig (Elt F)) := opsA ++ opsL1 ++ opsL2 ++ opsL3 ++ opsL4 ++ opsL5 ++ opsL6 ++ opsL7 ++ opsL8 ++ opsT

/-- A property of every operation of each piece is one of every operation of the line. -/
theorem forall_ops {p : HloOp τ sig (Elt F) → Prop} (hA : (opsA : List (HloOp τ sig (Elt F))).Forall p)
    (h1 : (opsL1 : List (HloOp τ sig (Elt F))).Forall p) (h2 : (opsL2 : List (HloOp τ sig (Elt F))).Forall p)
    (h3 : (opsL3 : List (HloOp τ sig (Elt F))).Forall p) (h4 : (opsL4 : List (HloOp τ sig (Elt F))).Forall p)
    (h5 : (opsL5 : List (HloOp τ sig (Elt F))).Forall p) (h6 : (opsL6 : List (HloOp τ sig (Elt F))).Forall p)
    (h7 : (opsL7 : List (HloOp τ sig (Elt F))).Forall p) (h8 : (opsL8 : List (HloOp τ sig (Elt F))).Forall p)
    (hT : (opsT : List (HloOp τ sig (Elt F))).Forall p) : (ops : List (HloOp τ sig (Elt F))).Forall p :=
  List.forall_append.mpr ⟨List.forall_append.mpr ⟨List.forall_append.mpr ⟨List.forall_append.mpr ⟨List.forall_append.mpr
    ⟨List.forall_append.mpr ⟨List.forall_append.mpr ⟨List.forall_append.mpr ⟨List.forall_append.mpr ⟨hA, h1⟩, h2⟩, h3⟩, h4⟩, h5⟩,
      h6⟩, h7⟩, h8⟩, hT⟩

-- one hundred and seventy-nine binds reassociated, over operations whose types are lookups in a table of 182 buffers
set_option maxHeartbeats 4000000 in
/-- @main is that straight line: the three windows in order, each rectifier's definition unfolded at its call, are one
    chain of steps once sequencing is reassociated; so is the line, cut at its joints. -/
theorem main_eq (c : Dev nD) : main (F := F) c = seq ops := by
  simp only [main, main_part0, main_part1, main_part2, fn_relu.body, fn_relu_0.body, ops, seq_append,
    opsA, opsL1, opsL2, opsL3, opsL4, opsL5, opsL6, opsL7, opsL8, opsT, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- A layer's eighteen operations touch TensorCore buffers only: one fact per operation, by its arity. -/
local macro "layer_bufs_sub" : term =>
  `(⟨nullary_bufs_sub .., unary_bufs_sub .., binary_bufs_sub .., ternary_bufs_sub .., unary_bufs_sub .., binary_bufs_sub ..,
      nullary_bufs_sub .., binary_bufs_sub .., unary_bufs_sub .., unary_bufs_sub .., binary_bufs_sub .., unary_bufs_sub ..,
      unary_bufs_sub .., binary_bufs_sub .., nullary_bufs_sub .., unary_bufs_sub .., binary_bufs_sub .., binary_bufs_sub ..⟩)

theorem ops_sub : (ops : List (HloOp τ sig (Elt F))).Forall fun op => op.bufs ⊆ tcRefs τ sig :=
  forall_ops
    ⟨nullary_bufs_sub .., nullary_bufs_sub .., nullary_bufs_sub .., nullary_bufs_sub .., nullary_bufs_sub .., nullary_bufs_sub ..,
      nullary_bufs_sub .., nullary_bufs_sub .., nullary_bufs_sub .., nullary_bufs_sub .., nullary_bufs_sub .., nullary_bufs_sub ..,
      nullary_bufs_sub .., nullary_bufs_sub .., nullary_bufs_sub .., nullary_bufs_sub .., unary_bufs_sub .., reshape_bufs_sub ..,
      unary_bufs_sub .., binary_bufs_sub .., unary_bufs_sub .., reshape_bufs_sub .., unary_bufs_sub .., unary_bufs_sub ..,
      binary_bufs_sub .., nullary_bufs_sub .., unary_bufs_sub .., binary_bufs_sub .., unary_bufs_sub ..⟩
    layer_bufs_sub layer_bufs_sub layer_bufs_sub layer_bufs_sub layer_bufs_sub layer_bufs_sub layer_bufs_sub layer_bufs_sub
    ⟨unary_bufs_sub .., nullary_bufs_sub .., binary_bufs_sub .., nullary_bufs_sub .., unary_bufs_sub .., binary_bufs_sub ..⟩

/-- Every operation determines its results: none allocates a buffer of unknown contents. -/
theorem ops_fresh : (ops : List (HloOp τ sig (Elt F))).Forall fun op => op.fresh = ∅ :=
  forall_ops (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)
    (by simp only [List.Forall]; repeat' constructor) (by simp only [List.Forall]; repeat' constructor)

/-- From any memory with zero counters, every weakly fair execution of @main terminates, each buffer ending at the
    fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  run_seq scopedRefs_eq scopedSems_eq defs main (fun _ => ops) main_eq (fun _ => ops_sub) m ρ
    (fun _ => List.forall_iff_forall_mem.mp ops_fresh)

/-- A piece writes none of its operations' results into a given argument: each operation writes its one result
    buffer, a reference other than the argument. -/
local macro "piece_keeps" : tactic =>
  `(tactic| (simp only [List.Forall, nullary_writes, unary_writes, binary_writes, ternary_writes, reshape_writes, Finset.mem_singleton]
             repeat' apply And.intro
             all_goals exact devRef_ne_of_ne (by decide)))

theorem ops_keep0 : (ops : List (HloOp τ sig (Elt F))).Forall fun op => (Proc.devRef .tc main_arg0 : DevRef τ sig) ∉ op.writes :=
  forall_ops (by piece_keeps) (by piece_keeps) (by piece_keeps) (by piece_keeps) (by piece_keeps) (by piece_keeps) (by piece_keeps)
    (by piece_keeps) (by piece_keeps) (by piece_keeps)
theorem ops_keep1 : (ops : List (HloOp τ sig (Elt F))).Forall fun op => (Proc.devRef .tc main_arg1 : DevRef τ sig) ∉ op.writes :=
  forall_ops (by piece_keeps) (by piece_keeps) (by piece_keeps) (by piece_keeps) (by piece_keeps) (by piece_keeps) (by piece_keeps)
    (by piece_keeps) (by piece_keeps) (by piece_keeps)
theorem ops_keep2 : (ops : List (HloOp τ sig (Elt F))).Forall fun op => (Proc.devRef .tc main_arg2 : DevRef τ sig) ∉ op.writes :=
  forall_ops (by piece_keeps) (by piece_keeps) (by piece_keeps) (by piece_keeps) (by piece_keeps) (by piece_keeps) (by piece_keeps)
    (by piece_keeps) (by piece_keeps) (by piece_keeps)

/-- The three arguments are written by no operation: the fold leaves them as they were. -/
theorem kept (V : Valuation τ sig (Elt F)) :
    StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2) :=
  ⟨after_of_forall_not_mem ops V (List.forall_iff_forall_mem.mp ops_keep0),
    after_of_forall_not_mem ops V (List.forall_iff_forall_mem.mp ops_keep1),
    after_of_forall_not_mem ops V (List.forall_iff_forall_mem.mp ops_keep2)⟩

end Cert.ReferenceIdeal.Hand

end
-- ==== Proof.RefLayer.lean ====
/-
  The reference's layers as mathematics. Each layer of the reference program is one composed term over the array of the
  nodes computed so far: the parents of the eight new nodes are gathered by a constant table of start indices, the four
  parents of a node are summed, the sums are multiplied slab by slab with the transposes of the nodes' weight matrices,
  the bias rows are added, the result is clipped below at zero and stacked under the nodes so far.

  This module names node 0's term (`node0Term`) and proves it is the graph's node 0 (`node0Term_eq`), and proves, once
  for any number N of nodes so far (`layerG`, `layerG_upto`), that such a layer applied to the graph's first N nodes gives
  its first N + 8, provided row k of the table holds the four parents of node N + k. The eight layers' own terms and
  tables are in the modules RefLayer1 … RefLayer8.

  Index by index, at (n, r, e): below N the stack reads the nodes so far; at n = N + k it reads
      max ((Σ_d (Σ_j outs[tbl k j, r, d]) · W[N + k, e, d]) + B[N + k, e]) 0,
  which is node N + k by the graph's recursion once tbl k j is identified with parent j of that node. All sums are finite
  sums of extended reals, a commutative monoid: the reduction's initial zero drops by `zero_add`, nothing is regrouped.
-/
import proofs.«135270_j33062658245245_1_alg».proof.Proof.Gen.ReferenceIdeal
import proofs.«135270_j33062658245245_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefLayer

open Cert.ReferenceIdeal Cert.ReferenceIdeal.Facts₀ Cert.Spec Idealize.ShloMosaic Idealize.ShloMosaic.ValueIdx

/-! ## Node 0's term -/

/-- Node 0: the input batch times the transpose of the first weight matrix, plus the first bias row, clipped below
    at zero, as an array with a leading axis of one. -/
def node0Term (X : FVec Ideal S4096x128 .f32) (W : FVec Ideal S65x128x128 .f32) (B : FVec Ideal S65x128 .f32) :
    FVec Ideal S1x4096x128 .f32 :=
  broadcastInDim S1x4096x128 ![1, 2] bcast_S4096x128_S1x4096x128_1_2
    (maximumf
      (addf
        (Host.dotGeneral (F := Ideal) dot_S4096x128_S128x128_S4096x128_1_0_0_1_n_n none X
          (transpose S128x128 [1, 0]
            (shapeCast S128x128 (extractStridedSlice S1x128x128 ![0, 0, 0] W slices_S65x128x128_S1x128x128_0_0_0)
              shapeCasts_S1x128x128_S128x128)
            transposes_S128x128_S128x128_1_0))
        (broadcastInDim S4096x128 ![0, 1] bcast_S1x128_S4096x128_0_1
          (broadcastInDim S1x128 ![1] bcast_S128_S1x128_1
            (shapeCast S128 (extractStridedSlice S1x128 ![0, 0] B slices_S65x128_S1x128_0_0) shapeCasts_S1x128_S128))))
      (broadcastInDim S4096x128 ![] bcast_S_S4096x128 (constant (F := Ideal) S_ .f32 0x00000000#32)))

/-! ## The gather of whole slices along the leading axis, read at an index -/

/-- The dimension numbers of a gather that takes whole [4096, 128] slices of an [N, 4096, 128] operand, one per entry of
    an [8, 4, 1] array of start indices. -/
abbrev rowsDims (N : Nat)
    (wf : GatherDims.WF ⟨3, ![N, 4096, 128]⟩ ⟨3, ![8, 4, 1]⟩ ⟨4, ![8, 4, 4096, 128]⟩ [2, 3] [0] [] [0] [] 2 ![1, 4096, 128]) :
    GatherDims ⟨3, ![N, 4096, 128]⟩ ⟨3, ![8, 4, 1]⟩ ⟨4, ![8, 4, 4096, 128]⟩ where
  offsetDims := [2, 3]
  collapsedSliceDims := [0]
  operandBatchingDims := []
  startIndicesBatchingDims := []
  startIndexMap := [0]
  indexVectorDim := 2
  sliceSizes := ![1, 4096, 128]
  wf := wf

/-- The operand axes such a gather keeps whole: all but the leading one. -/
theorem kept3 : ((List.finRange 3).filter (· ∉ ([0] ++ [] : List (Fin 3)))) = [1, 2] := by decide

/-- Such a gather at (k, j, r, e) is the operand at (p, r, e), p the start index at (k, j, 0) read signed and clamped
    into [0, N − 1]. -/
theorem gather_rows_apply {α : Type} {N w : Nat}
    (wf : GatherDims.WF ⟨3, ![N, 4096, 128]⟩ ⟨3, ![8, 4, 1]⟩ ⟨4, ![8, 4, 4096, 128]⟩ [2, 3] [0] [] [0] [] 2 ![1, 4096, 128])
    (x : (⟨3, ![N, 4096, 128]⟩ : Shape).Idx → α) (idx : IVec ⟨3, ![8, 4, 1]⟩ w)
    (k : Fin 8) (j : Fin 4) (r : Fin 4096) (e : Fin 128) (p : Fin N)
    (hp : p.val = min (idx (ix3 k j (0 : Fin 1))).toInt.toNat (N - 1)) :
    Host.gather (rowsDims N wf) x idx (ix4 k j r e) = x (ix3 p r e) := by
  unfold Host.gather
  congr 1
  funext a
  refine Fin.ext ?_
  match a with
  | ⟨0, _⟩ =>
    show (rowsDims N wf).start (ix4 k j r e) idx 0 + (rowsDims N wf).batchCoord (ix4 k j r e) 0
        + (rowsDims N wf).offCoord (ix4 k j r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims N wf).startIndexMap from List.mem_singleton.mpr rfl)]
    have hsi : (rowsDims N wf).siIdx (ix4 k j r e) ⟨List.idxOf (0 : Fin 3) (rowsDims N wf).startIndexMap,
        List.idxOf_lt_length_iff.2 (List.mem_singleton.mpr rfl)⟩ = ix3 k j (0 : Fin 1) := by
      funext b; refine Fin.ext ?_
      match b with
      | ⟨0, _⟩ => rfl
      | ⟨1, _⟩ => rfl
      | ⟨2, _⟩ => rfl
    rw [hsi]
    exact hp.symm
  | ⟨1, _⟩ =>
    show (rowsDims N wf).start (ix4 k j r e) idx 1 + (rowsDims N wf).batchCoord (ix4 k j r e) 1
        + (rowsDims N wf).offCoord (ix4 k j r e) 1 = r.val
    have hs : (rowsDims N wf).start (ix4 k j r e) idx 1 = 0 := by
      unfold GatherDims.start; exact dif_neg (by show (1 : Fin 3) ∉ ([0] : List (Fin 3)); decide)
    have hk : (1 : Fin 3) ∈ (rowsDims N wf).sKept :=
      (GatherDims.mem_sKept _ _).mpr ⟨by show (1 : Fin 3) ∉ ([0] : List (Fin 3)); decide, List.not_mem_nil⟩
    have h0 : (rowsDims N wf).sKept.idxOf (1 : Fin 3) = 0 := by
      show List.idxOf (1 : Fin 3) ((List.finRange 3).filter (· ∉ ([0] ++ [] : List (Fin 3)))) = 0
      rw [kept3]; rfl
    have ho : (rowsDims N wf).offCoord (ix4 k j r e) 1 = r.val := by
      unfold GatherDims.offCoord
      rw [dif_pos hk]
      simp only [h0]
      rfl
    rw [hs, GatherDims.batchCoord_eq_zero _ _ _ List.not_mem_nil, ho]; omega
  | ⟨2, _⟩ =>
    show (rowsDims N wf).start (ix4 k j r e) idx 2 + (rowsDims N wf).batchCoord (ix4 k j r e) 2
        + (rowsDims N wf).offCoord (ix4 k j r e) 2 = e.val
    have hs : (rowsDims N wf).start (ix4 k j r e) idx 2 = 0 := by
      unfold GatherDims.start; exact dif_neg (by show (2 : Fin 3) ∉ ([0] : List (Fin 3)); decide)
    have hk : (2 : Fin 3) ∈ (rowsDims N wf).sKept :=
      (GatherDims.mem_sKept _ _).mpr ⟨by show (2 : Fin 3) ∉ ([0] : List (Fin 3)); decide, List.not_mem_nil⟩
    have h0 : (rowsDims N wf).sKept.idxOf (2 : Fin 3) = 1 := by
      show List.idxOf (2 : Fin 3) ((List.finRange 3).filter (· ∉ ([0] ++ [] : List (Fin 3)))) = 1
      rw [kept3]; rfl
    have ho : (rowsDims N wf).offCoord (ix4 k j r e) 2 = e.val := by
      unfold GatherDims.offCoord
      rw [dif_pos hk]
      simp only [h0]
      rfl
    rw [hs, GatherDims.batchCoord_eq_zero _ _ _ List.not_mem_nil, ho]; omega

/-! ## The pieces of one layer, read at an index -/

/-- The start indices: the mask is false everywhere, so the select keeps the table; broadcast to a trailing unit axis. -/
theorem startIdx_apply (C : IVec S8x4 32) (cN : BitVec 32) (k : Fin 8) (j : Fin 4) :
    broadcastInDim S8x4x1 ![0, 1] bcast_S8x4_S8x4x1_0_1
        (select (constantI S8x4 1 0#1) (addi C (broadcastInDim S8x4 ![] bcast_S_S8x4 (constantI S_ 32 cN))) C)
        (ix3 k j (0 : Fin 1))
      = C (ix2 k j) := by
  rw [broadcastInDim_apply _ _ _ _ (ix2 k j) (fun a => by match a with | ⟨0, _⟩ => rfl | ⟨1, _⟩ => rfl)]
  rw [select_apply]
  exact select_zero _ _

/-- The batched product: for each of the eight slabs, rows of the left operand against rows of the right one. -/
theorem dot8_apply (L : FVec Ideal S8x4096x128 .f32) (R : FVec Ideal S8x128x128 .f32) (k : Fin 8) (r : Fin 4096) (e : Fin 128) :
    Host.dotGeneral (F := Ideal) dot_S8x4096x128_S8x128x128_S8x4096x128_2_2_1_1_0_0 none L R (ix3 k r e)
      = ∑ d : Fin 128, L (ix3 k r d) * R (ix3 k e d) := by
  show FloatOps.dotGeneral dot_S8x4096x128_S8x128x128_S8x4096x128_2_2_1_1_0_0 none .single L R (ix3 k r e) = _
  rw [Ideal.dotGeneral_apply]
  refine Fintype.sum_equiv (contrEquiv1 dot_S8x4096x128_S8x128x128_S8x4096x128_2_2_1_1_0_0 128 rfl rfl) _ _ fun q => ?_
  have hl : dot_S8x4096x128_S8x128x128_S8x4096x128_2_2_1_1_0_0.lhsIdx (ix3 k r e) q
      = ix3 k r (contrEquiv1 dot_S8x4096x128_S8x128x128_S8x4096x128_2_2_1_1_0_0 128 rfl rfl q) := by
    funext a; match a with | ⟨0, _⟩ => exact Fin.ext rfl | ⟨1, _⟩ => exact Fin.ext rfl | ⟨2, _⟩ => exact Fin.ext rfl
  have hr : dot_S8x4096x128_S8x128x128_S8x4096x128_2_2_1_1_0_0.rhsIdx (ix3 k r e) q
      = ix3 k e (contrEquiv1 dot_S8x4096x128_S8x128x128_S8x4096x128_2_2_1_1_0_0 128 rfl rfl q) := by
    funext a; match a with | ⟨0, _⟩ => exact Fin.ext rfl | ⟨1, _⟩ => exact Fin.ext rfl | ⟨2, _⟩ => exact Fin.ext rfl
  rw [hl, hr]

/-- The four gathered parents of slab k summed (the sum starts from zero). -/
theorem inbox_apply {N : Nat} (hN : 0 < N)
    (wf : GatherDims.WF ⟨3, ![N, 4096, 128]⟩ ⟨3, ![8, 4, 1]⟩ ⟨4, ![8, 4, 4096, 128]⟩ [2, 3] [0] [] [0] [] 2 ![1, 4096, 128])
    (outs : FVec Ideal ⟨3, ![N, 4096, 128]⟩ .f32) (C : IVec S8x4 32) (cN : BitVec 32) (k : Fin 8) (r : Fin 4096) (d : Fin 128) :
    Host.reduceAdd (F := Ideal)
        (Host.gather (rowsDims N wf) outs
          (broadcastInDim S8x4x1 ![0, 1] bcast_S8x4_S8x4x1_0_1
            (select (constantI S8x4 1 0#1) (addi C (broadcastInDim S8x4 ![] bcast_S_S8x4 (constantI S_ 32 cN))) C)))
        (constant (F := Ideal) S_ .f32 0x00000000#32) reducesTo_S8x4x4096x128_S8x4096x128_d1 h_S_ (ix3 k r d)
      = ∑ j : Fin 4, outs (ix3 ⟨min (C (ix2 k j)).toInt.toNat (N - 1), by omega⟩ r d) := by
  have hR : S8x4x4096x128.Reduces [1] S8x4096x128 := by decide
  rw [hostReduceAdd_apply, Ideal.hostReduceAdd_single _ hR]
  rw [show (constant (F := Ideal) S_ .f32 0x00000000#32) (Shape.Idx.first h_S_) = 0 from Ideal.ofBits_zero_f32, zero_add]
  refine Finset.sum_congr rfl fun (j : Fin 4) _ => ?_
  have hl : hR.lift (ix3 k r d) j = ix4 k j r d := by
    funext a
    match a with
    | ⟨0, _⟩ => exact Fin.ext rfl
    | ⟨1, _⟩ => exact Fin.ext rfl
    | ⟨2, _⟩ => exact Fin.ext rfl
    | ⟨3, _⟩ => exact Fin.ext rfl
  rw [hl]
  exact gather_rows_apply wf outs _ k j r d _ (by show min _ (N - 1) = min _ (N - 1); rw [startIdx_apply])

/-- The eight weight matrices of a layer, cut out of the stack at the layer's first node. -/
theorem wslice_apply (off : Nat) (hoff : off + 8 ≤ 65) (hW : S65x128x128.Slices ![off, 0, 0] S8x128x128)
    (W : FVec Ideal S65x128x128 .f32) (k : Fin 8) (e d : Fin 128) :
    extractStridedSlice S8x128x128 ![off, 0, 0] W hW (ix3 k e d) = W (ix3 ⟨off + k.val, by omega⟩ e d) :=
  extractStridedSlice_apply _ _ _ _ _ fun a => by
    match a with
    | ⟨0, _⟩ => rfl
    | ⟨1, _⟩ => exact (Nat.zero_add _).symm
    | ⟨2, _⟩ => exact (Nat.zero_add _).symm

/-- The eight bias rows of a layer, each broadcast down the 4096 rows of its slab. -/
theorem bias_apply (off : Nat) (hoff : off + 8 ≤ 65) (hB : S65x128.Slices ![off, 0] S8x128)
    (B : FVec Ideal S65x128 .f32) (k : Fin 8) (r : Fin 4096) (e : Fin 128) :
    broadcastInDim S8x4096x128 ![0, 1, 2] bcast_S8x1x128_S8x4096x128_0_1_2
        (broadcastInDim S8x1x128 ![0, 2] bcast_S8x128_S8x1x128_0_2 (extractStridedSlice S8x128 ![off, 0] B hB)) (ix3 k r e)
      = B (ix2 ⟨off + k.val, by omega⟩ e) := by
  rw [broadcastInDim_apply _ _ _ _ (ix3 k (0 : Fin 1) e)
    (fun a => by match a with | ⟨0, _⟩ => rfl | ⟨1, _⟩ => rfl | ⟨2, _⟩ => rfl)]
  rw [broadcastInDim_apply _ _ _ _ (ix2 k e) (fun a => by match a with | ⟨0, _⟩ => rfl | ⟨1, _⟩ => rfl)]
  exact extractStridedSlice_apply _ _ _ _ _ fun a => by
    match a with
    | ⟨0, _⟩ => rfl
    | ⟨1, _⟩ => exact (Nat.zero_add _).symm

/-! ## One layer, for any number N of nodes so far -/

/-- The eight new nodes of a layer as the operations compute them, from the N nodes so far: parents gathered by the table
    `C`, summed, multiplied slab by slab with the weights from node `off` on, plus the bias rows, clipped below at zero. -/
def newG (N off : Nat) (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![off, 0, 0] S8x128x128) (hB : S65x128.Slices ![off, 0] S8x128)
    (outs : FVec Ideal ⟨3, ![N, 4096, 128]⟩ .f32) (W : FVec Ideal S65x128x128 .f32) (B : FVec Ideal S65x128 .f32) :
    FVec Ideal S8x4096x128 .f32 :=
  maximumf
    (addf
      (Host.dotGeneral (F := Ideal) dot_S8x4096x128_S8x128x128_S8x4096x128_2_2_1_1_0_0 none
        (Host.reduceAdd (F := Ideal)
          (Host.gather (rowsDims N wf) outs
            (broadcastInDim S8x4x1 ![0, 1] bcast_S8x4_S8x4x1_0_1
              (select (constantI S8x4 1 0#1) (addi C (broadcastInDim S8x4 ![] bcast_S_S8x4 (constantI S_ 32 cN))) C)))
          (constant (F := Ideal) S_ .f32 0x00000000#32)
          reducesTo_S8x4x4096x128_S8x4096x128_d1 h_S_)
        (extractStridedSlice S8x128x128 ![off, 0, 0] W hW))
      (broadcastInDim S8x4096x128 ![0, 1, 2] bcast_S8x1x128_S8x4096x128_0_1_2
        (broadcastInDim S8x1x128 ![0, 2] bcast_S8x128_S8x1x128_0_2 (extractStridedSlice S8x128 ![off, 0] B hB))))
    (broadcastInDim S8x4096x128 ![] bcast_S_S8x4096x128 (constant (F := Ideal) S_ .f32 0x00000000#32))

/-- A new node at (k, r, e): the node step on the sum of the four gathered parents. -/
theorem newG_apply {N : Nat} (hN : 0 < N) (off : Nat) (hoff : off + 8 ≤ 65) (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![off, 0, 0] S8x128x128) (hB : S65x128.Slices ![off, 0] S8x128)
    (outs : FVec Ideal ⟨3, ![N, 4096, 128]⟩ .f32) (W : FVec Ideal S65x128x128 .f32) (B : FVec Ideal S65x128 .f32)
    (k : Fin 8) (r : Fin 4096) (e : Fin 128) :
    newG N off C cN wf hW hB outs W B (ix3 k r e)
      = max ((∑ d : Fin 128, (∑ j : Fin 4, outs (ix3 ⟨min (C (ix2 k j)).toInt.toNat (N - 1), by omega⟩ r d))
                * W (ix3 ⟨off + k.val, by omega⟩ e d))
              + B (ix2 ⟨off + k.val, by omega⟩ e)) (Ideal.ofBits .f32 0x00000000#32) := by
  unfold newG
  rw [maximumf_apply, addf_apply, dot8_apply, bias_apply off hoff, broadcastInDim_scalar_apply, constant_apply]
  refine congrArg (fun s => max (s + _) _) (Finset.sum_congr rfl fun d _ => ?_)
  rw [inbox_apply hN, wslice_apply off hoff]

/-- A whole layer as the operations compute it: the N nodes so far with the eight new ones stacked under them. -/
def layerG (N M off : Nat) (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![off, 0, 0] S8x128x128) (hB : S65x128.Slices ![off, 0] S8x128)
    (hcat : Shape.Concatenates [⟨3, ![N, 4096, 128]⟩, S8x4096x128] ⟨3, ![M, 4096, 128]⟩ 0)
    (outs : FVec Ideal ⟨3, ![N, 4096, 128]⟩ .f32) (W : FVec Ideal S65x128x128 .f32) (B : FVec Ideal S65x128 .f32) :
    FVec Ideal ⟨3, ![M, 4096, 128]⟩ .f32 :=
  concatenate ⟨3, ![M, 4096, 128]⟩ 0
    [⟨⟨3, ![N, 4096, 128]⟩, outs⟩, ⟨S8x4096x128, newG N off C cN wf hW hB outs W B⟩] hcat

/-- Below N the stack reads the nodes so far … -/
theorem layerG_apply_lo {N M off : Nat} (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![off, 0, 0] S8x128x128) (hB : S65x128.Slices ![off, 0] S8x128)
    (hcat : Shape.Concatenates [⟨3, ![N, 4096, 128]⟩, S8x4096x128] ⟨3, ![M, 4096, 128]⟩ 0)
    (outs : FVec Ideal ⟨3, ![N, 4096, 128]⟩ .f32) (W : FVec Ideal S65x128x128 .f32) (B : FVec Ideal S65x128 .f32)
    (n : Fin M) (hn : n.val < N) (r : Fin 4096) (e : Fin 128) :
    layerG N M off C cN wf hW hB hcat outs W B (ix3 n r e) = outs (ix3 ⟨n.val, hn⟩ r e) := by
  unfold layerG
  exact concatenate_pair_apply_left (t := ⟨3, ![M, 4096, 128]⟩) (s₁ := ⟨3, ![N, 4096, 128]⟩) (s₂ := S8x4096x128) 0 outs
    (newG N off C cN wf hW hB outs W B) hcat (ix3 n r e) rfl (ix3 ⟨n.val, hn⟩ r e) fun b => by
    match b with
    | ⟨0, _⟩ => rfl
    | ⟨1, _⟩ => rfl
    | ⟨2, _⟩ => rfl

/-- … and from N on the new ones. -/
theorem layerG_apply_hi {N M off : Nat} (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![off, 0, 0] S8x128x128) (hB : S65x128.Slices ![off, 0] S8x128)
    (hcat : Shape.Concatenates [⟨3, ![N, 4096, 128]⟩, S8x4096x128] ⟨3, ![M, 4096, 128]⟩ 0)
    (outs : FVec Ideal ⟨3, ![N, 4096, 128]⟩ .f32) (W : FVec Ideal S65x128x128 .f32) (B : FVec Ideal S65x128 .f32)
    (n : Fin M) (k : Fin 8) (hn : k.val + N = n.val) (r : Fin 4096) (e : Fin 128) :
    layerG N M off C cN wf hW hB hcat outs W B (ix3 n r e) = newG N off C cN wf hW hB outs W B (ix3 k r e) := by
  unfold layerG
  exact concatenate_pair_apply_right (t := ⟨3, ![M, 4096, 128]⟩) (s₁ := ⟨3, ![N, 4096, 128]⟩) (s₂ := S8x4096x128) 0 outs
    (newG N off C cN wf hW hB outs W B) hcat (ix3 n r e) rfl rfl (ix3 k r e)
    (fun b hb => by
      match b with
      | ⟨0, _⟩ => exact absurd rfl hb
      | ⟨1, _⟩ => rfl
      | ⟨2, _⟩ => rfl)
    hn

/-! ## A layer over the graph's first N nodes -/

/-- A new node of a layer over the graph's first N nodes is the graph's node N + k, when the table's row k holds that
    node's four parents (each below N, so the clamp into [0, N − 1] keeps it). -/
theorem newG_upto {N : Nat} (hN : 0 < N) (hN65 : N + 8 ≤ 65) (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![N, 0, 0] S8x128x128) (hB : S65x128.Slices ![N, 0] S8x128)
    (X : FVec Ideal S4096x128 .f32) (W : FVec Ideal S65x128x128 .f32) (B : FVec Ideal S65x128 .f32)
    (htab : ∀ k : Fin 8, ∀ j : Fin 4, min (C (ix2 k j)).toInt.toNat (N - 1) = par (N + k.val) j.val)
    (k : Fin 8) (r : Fin 4096) (e : Fin 128) :
    newG N N C cN wf hW hB (uptoArr X W B N) W B (ix3 k r e) = node X W B (N + k.val) r e := by
  rw [newG_apply hN N hN65]
  have hm : N + k.val = (N + k.val - 1) + 1 := by omega
  have hs := node_succ X W B (N + k.val - 1) (by omega)
  rw [← hm] at hs
  rw [hs]
  have hnix : nix (N + k.val) = ⟨N + k.val, by omega⟩ := Fin.ext (Nat.mod_eq_of_lt (by omega))
  show _ = max ((∑ d : Fin 128, (∑ j : Fin 4, node X W B (par (N + k.val) j.val) r d) * W (ix3 (nix (N + k.val)) e d))
            + B (ix2 (nix (N + k.val)) e)) (Ideal.ofBits .f32 0x00000000#32)
  rw [hnix]
  refine congrArg (fun s => max (s + _) _) (Finset.sum_congr rfl fun d _ => ?_)
  refine congrArg (· * _) (Finset.sum_congr rfl fun j _ => ?_)
  show node X W B (min (C (ix2 k j)).toInt.toNat (N - 1)) r d = _
  rw [htab k j]

/-- So a layer over the graph's first N nodes is the graph's first N + 8 nodes. -/
theorem layerG_upto {N M : Nat} (hN : 0 < N) (hM : M = N + 8) (hM65 : M ≤ 65) (C : IVec S8x4 32) (cN : BitVec 32)
    (wf : GatherDims.WF ⟨3, ![N, 4096, 128]⟩ ⟨3, ![8, 4, 1]⟩ ⟨4, ![8, 4, 4096, 128]⟩ [2, 3] [0] [] [0] [] 2 ![1, 4096, 128])
    (hW : S65x128x128.Slices ![N, 0, 0] S8x128x128) (hB : S65x128.Slices ![N, 0] S8x128)
    (hcat : Shape.Concatenates [⟨3, ![N, 4096, 128]⟩, S8x4096x128] ⟨3, ![M, 4096, 128]⟩ 0)
    (X : FVec Ideal S4096x128 .f32) (W : FVec Ideal S65x128x128 .f32) (B : FVec Ideal S65x128 .f32)
    (htab : ∀ k : Fin 8, ∀ j : Fin 4, min (C (ix2 k j)).toInt.toNat (N - 1) = par (N + k.val) j.val) :
    layerG N M N C cN wf hW hB hcat (uptoArr X W B N) W B = uptoArr X W B M := by
  funext i
  obtain ⟨n, r, e, rfl⟩ : ∃ (n : Fin M) (r : Fin 4096) (e : Fin 128), i = ix3 n r e := ⟨i 0, i 1, i 2, eq_ix3 i⟩
  by_cases hn : n.val < N
  · rw [layerG_apply_lo C cN wf hW hB hcat _ W B n hn]
    rfl
  · have hk : n.val - N < 8 := by have := n.isLt; omega
    rw [layerG_apply_hi C cN wf hW hB hcat _ W B n ⟨n.val - N, hk⟩ (by show n.val - N + N = n.val; omega),
      newG_upto hN (by omega) C cN wf hW hB X W B htab]
    show node X W B (N + (n.val - N)) r e = node X W B n.val r e
    rw [show N + (n.val - N) = n.val by omega]

/-! ## Node 0 -/

/-- The plain product: rows of the left operand against columns of the right one. -/
theorem dot0_apply (L : FVec Ideal S4096x128 .f32) (R : FVec Ideal S128x128 .f32) (r : Fin 4096) (e : Fin 128) :
    Host.dotGeneral (F := Ideal) dot_S4096x128_S128x128_S4096x128_1_0_0_1_n_n none L R (ix2 r e)
      = ∑ d : Fin 128, L (ix2 r d) * R (ix2 d e) := by
  show FloatOps.dotGeneral dot_S4096x128_S128x128_S4096x128_1_0_0_1_n_n none .single L R (ix2 r e) = _
  rw [Ideal.dotGeneral_apply]
  refine Fintype.sum_equiv (contrEquiv1 dot_S4096x128_S128x128_S4096x128_1_0_0_1_n_n 128 rfl rfl) _ _ fun q => ?_
  have hl : dot_S4096x128_S128x128_S4096x128_1_0_0_1_n_n.lhsIdx (ix2 r e) q
      = ix2 r (contrEquiv1 dot_S4096x128_S128x128_S4096x128_1_0_0_1_n_n 128 rfl rfl q) := by
    funext a; match a with | ⟨0, _⟩ => exact Fin.ext rfl | ⟨1, _⟩ => exact Fin.ext rfl
  have hr : dot_S4096x128_S128x128_S4096x128_1_0_0_1_n_n.rhsIdx (ix2 r e) q
      = ix2 (contrEquiv1 dot_S4096x128_S128x128_S4096x128_1_0_0_1_n_n 128 rfl rfl q) e := by
    funext a; match a with | ⟨0, _⟩ => exact Fin.ext rfl | ⟨1, _⟩ => exact Fin.ext rfl
  rw [hl, hr]

/-- The first weight matrix cut out of the stack, its leading unit axis dropped, transposed. -/
theorem w0_apply (W : FVec Ideal S65x128x128 .f32) (d e : Fin 128) :
    transpose S128x128 [1, 0]
        (shapeCast S128x128 (extractStridedSlice S1x128x128 ![0, 0, 0] W slices_S65x128x128_S1x128x128_0_0_0)
          shapeCasts_S1x128x128_S128x128)
        transposes_S128x128_S128x128_1_0 (ix2 d e)
      = W (ix3 (0 : Fin 65) e d) := by
  rw [transpose_apply _ _ _ _ (ix2 e d) (fun b => by match b with | ⟨0, _⟩ => rfl | ⟨1, _⟩ => rfl)]
  rw [shapeCast_apply _ _ _ (ix3 (0 : Fin 1) e d) (by
    rw [Shape.rowMajor_val_three, Shape.rowMajor_val_two]
    show (0 * 128 + e.val) * 128 + d.val = e.val * 128 + d.val
    omega)]
  exact extractStridedSlice_apply _ _ _ _ _ fun a => by
    match a with
    | ⟨0, _⟩ => rfl
    | ⟨1, _⟩ => exact (Nat.zero_add _).symm
    | ⟨2, _⟩ => exact (Nat.zero_add _).symm

/-- The first bias row, broadcast down the 4096 rows. -/
theorem bias0_apply (B : FVec Ideal S65x128 .f32) (r : Fin 4096) (e : Fin 128) :
    broadcastInDim S4096x128 ![0, 1] bcast_S1x128_S4096x128_0_1
        (broadcastInDim S1x128 ![1] bcast_S128_S1x128_1
          (shapeCast S128 (extractStridedSlice S1x128 ![0, 0] B slices_S65x128_S1x128_0_0) shapeCasts_S1x128_S128)) (ix2 r e)
      = B (ix2 (0 : Fin 65) e) := by
  rw [broadcastInDim_apply _ _ _ _ (ix2 (0 : Fin 1) e) (fun a => by match a with | ⟨0, _⟩ => rfl | ⟨1, _⟩ => rfl)]
  rw [broadcastInDim_apply _ _ _ _ (ix1 e) (fun a => by match a with | ⟨0, _⟩ => rfl)]
  rw [shapeCast_apply _ _ _ (ix2 (0 : Fin 1) e) (by
    rw [Shape.rowMajor_val_two, Shape.rowMajor_val_one]
    show 0 * 128 + e.val = e.val
    omega)]
  exact extractStridedSlice_apply _ _ _ _ _ fun a => by
    match a with
    | ⟨0, _⟩ => rfl
    | ⟨1, _⟩ => exact (Nat.zero_add _).symm

/-! ## Node 0's term is the graph's node 0 -/

theorem node0Term_eq (X : FVec Ideal S4096x128 .f32) (W : FVec Ideal S65x128x128 .f32) (B : FVec Ideal S65x128 .f32) : node0Term X W B = uptoArr X W B 1 := by
  funext i
  obtain ⟨n, r, e, rfl⟩ : ∃ (n : Fin 1) (r : Fin 4096) (e : Fin 128), i = ix3 n r e := ⟨i 0, i 1, i 2, eq_ix3 i⟩
  obtain rfl : n = 0 := Subsingleton.elim _ _
  show _ = node X W B 0 r e
  rw [node_zero]
  show _ = max ((∑ d : Fin 128, X (ix2 r d) * W (ix3 (nix 0) e d)) + B (ix2 (nix 0) e)) (Ideal.ofBits .f32 0x00000000#32)
  unfold node0Term
  rw [broadcastInDim_apply _ _ _ _ (ix2 r e) (fun a => by match a with | ⟨0, _⟩ => rfl | ⟨1, _⟩ => rfl)]
  rw [maximumf_apply, addf_apply, dot0_apply, bias0_apply, broadcastInDim_scalar_apply, constant_apply]
  refine congrArg (fun s => max (s + _) _) (Finset.sum_congr rfl fun d _ => ?_)
  rw [w0_apply]
  rfl

end Cert.ReferenceIdeal.RefLayer

end
-- ==== Proof.RefLayer1.lean ====
/-
  Layer 1 of the reference: its term as the operations compute it, its table of start indices read as the parents of
  nodes 1 … 8, and the layer over the graph's first 1 nodes as the graph's first 9.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 1: the eight new nodes 1 … 8 from the first 1, stacked under them. -/
def layerTerm1 (outs : FVec Ideal S1x4096x128 .f32) (W : FVec Ideal S65x128x128 .f32) (B : FVec Ideal S65x128 .f32) :
    FVec Ideal S9x4096x128 .f32 :=
  concatenate S9x4096x128 0
    [⟨S1x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S1x4096x128_S8x4x1_S8x4x4096x128_23_0_n_n_0_2_14096128 outs
                (broadcastInDim S8x4x1 ![0, 1] bcast_S8x4_S8x4x1_0_1
                  (select (constantI S8x4 1 0#1)
                    (addi (constantI S8x4 32 0#32) (broadcastInDim S8x4 ![] bcast_S_S8x4 (constantI S_ 32 1#32)))
                    (constantI S8x4 32 0#32))))
              (constant (F := Ideal) S_ .f32 0x00000000#32)
              reducesTo_S8x4x4096x128_S8x4096x128_d1 h_S_)
            (extractStridedSlice S8x128x128 ![1, 0, 0] W slices_S65x128x128_S8x128x128_1_0_0))
          (broadcastInDim S8x4096x128 ![0, 1, 2] bcast_S8x1x128_S8x4096x128_0_1_2
            (broadcastInDim S8x1x128 ![0, 2] bcast_S8x128_S8x1x128_0_2
              (extractStridedSlice S8x128 ![1, 0] B slices_S65x128_S8x128_1_0))))
        (broadcastInDim S8x4096x128 ![] bcast_S_S8x4096x128 (constant (F := Ideal) S_ .f32 0x00000000#32))⟩]
    concatenates_S1x4096x128_S8x4096x128_S9x4096x128_d0

/-- Layer 1's table holds the parents of nodes 1 … 8. -/
theorem tab1 : ∀ k : Fin 8, ∀ j : Fin 4,
    min (((constantI S8x4 32 0#32) (ix2 k j)).toInt.toNat) (1 - 1) = par (1 + k.val) j.val := by decide

/-- Layer 1 over the graph's first 1 nodes is the graph's first 9. -/
theorem layerTerm1_eq (X : FVec Ideal S4096x128 .f32) (W : FVec Ideal S65x128x128 .f32) (B : FVec Ideal S65x128 .f32) :
    layerTerm1 (uptoArr X W B 1) W B = uptoArr X W B 9 := by
  show layerG 1 9 1 (constantI S8x4 32 0#32) 1#32 gather_S1x4096x128_S8x4x1_S8x4x4096x128_23_0_n_n_0_2_14096128_wf
      slices_S65x128x128_S8x128x128_1_0_0 slices_S65x128_S8x128_1_0 concatenates_S1x4096x128_S8x4096x128_S9x4096x128_d0
      (uptoArr X W B 1) W B = _
  exact layerG_upto (by decide) rfl (by decide) _ _ _ _ _ _ X W B tab1

end Cert.ReferenceIdeal.RefLayer

end
-- ==== Proof.RefLayer2.lean ====
/-
  Layer 2 of the reference: its term as the operations compute it, its table of start indices read as the parents of
  nodes 9 … 16, and the layer over the graph's first 9 nodes as the graph's first 17.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 2: the eight new nodes 9 … 16 from the first 9, stacked under them. -/
def layerTerm2 (outs : FVec Ideal S9x4096x128 .f32) (W : FVec Ideal S65x128x128 .f32) (B : FVec Ideal S65x128 .f32) :
    FVec Ideal S17x4096x128 .f32 :=
  concatenate S17x4096x128 0
    [⟨S9x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S9x4096x128_S8x4x1_S8x4x4096x128_23_0_n_n_0_2_14096128 outs
                (broadcastInDim S8x4x1 ![0, 1] bcast_S8x4_S8x4x1_0_1
                  (select (constantI S8x4 1 0#1)
                    (addi ((fun i => lit0 (S8x4.rowMajor i)) : IVec S8x4 32) (broadcastInDim S8x4 ![] bcast_S_S8x4 (constantI S_ 32 9#32)))
                    ((fun i => lit0 (S8x4.rowMajor i)) : IVec S8x4 32))))
              (constant (F := Ideal) S_ .f32 0x00000000#32)
              reducesTo_S8x4x4096x128_S8x4096x128_d1 h_S_)
            (extractStridedSlice S8x128x128 ![9, 0, 0] W slices_S65x128x128_S8x128x128_9_0_0))
          (broadcastInDim S8x4096x128 ![0, 1, 2] bcast_S8x1x128_S8x4096x128_0_1_2
            (broadcastInDim S8x1x128 ![0, 2] bcast_S8x128_S8x1x128_0_2
              (extractStridedSlice S8x128 ![9, 0] B slices_S65x128_S8x128_9_0))))
        (broadcastInDim S8x4096x128 ![] bcast_S_S8x4096x128 (constant (F := Ideal) S_ .f32 0x00000000#32))⟩]
    concatenates_S9x4096x128_S8x4096x128_S17x4096x128_d0

/-- Layer 2's table holds the parents of nodes 9 … 16. -/
theorem tab2 : ∀ k : Fin 8, ∀ j : Fin 4,
    min ((((fun i => lit0 (S8x4.rowMajor i)) : IVec S8x4 32) (ix2 k j)).toInt.toNat) (9 - 1) = par (9 + k.val) j.val := by decide

/-- Layer 2 over the graph's first 9 nodes is the graph's first 17. -/
theorem layerTerm2_eq (X : FVec Ideal S4096x128 .f32) (W : FVec Ideal S65x128x128 .f32) (B : FVec Ideal S65x128 .f32) :
    layerTerm2 (uptoArr X W B 9) W B = uptoArr X W B 17 := by
  show layerG 9 17 9 ((fun i => lit0 (S8x4.rowMajor i)) : IVec S8x4 32) 9#32 gather_S9x4096x128_S8x4x1_S8x4x4096x128_23_0_n_n_0_2_14096128_wf
      slices_S65x128x128_S8x128x128_9_0_0 slices_S65x128_S8x128_9_0 concatenates_S9x4096x128_S8x4096x128_S17x4096x128_d0
      (uptoArr X W B 9) W B = _
  exact layerG_upto (by decide) rfl (by decide) _ _ _ _ _ _ X W B tab2

end Cert.ReferenceIdeal.RefLayer

end
-- ==== Proof.RefLayer3.lean ====
/-
  Layer 3 of the reference: its term as the operations compute it, its table of start indices read as the parents of
  nodes 17 … 24, and the layer over the graph's first 17 nodes as the graph's first 25.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 3: the eight new nodes 17 … 24 from the first 17, stacked under them. -/
def layerTerm3 (outs : FVec Ideal S17x4096x128 .f32) (W : FVec Ideal S65x128x128 .f32) (B : FVec Ideal S65x128 .f32) :
    FVec Ideal S25x4096x128 .f32 :=
  concatenate S25x4096x128 0
    [⟨S17x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S17x4096x128_S8x4x1_S8x4x4096x128_23_0_n_n_0_2_14096128 outs
                (broadcastInDim S8x4x1 ![0, 1] bcast_S8x4_S8x4x1_0_1
                  (select (constantI S8x4 1 0#1)
                    (addi ((fun i => lit1 (S8x4.rowMajor i)) : IVec S8x4 32) (broadcastInDim S8x4 ![] bcast_S_S8x4 (constantI S_ 32 17#32)))
                    ((fun i => lit1 (S8x4.rowMajor i)) : IVec S8x4 32))))
              (constant (F := Ideal) S_ .f32 0x00000000#32)
              reducesTo_S8x4x4096x128_S8x4096x128_d1 h_S_)
            (extractStridedSlice S8x128x128 ![17, 0, 0] W slices_S65x128x128_S8x128x128_17_0_0))
          (broadcastInDim S8x4096x128 ![0, 1, 2] bcast_S8x1x128_S8x4096x128_0_1_2
            (broadcastInDim S8x1x128 ![0, 2] bcast_S8x128_S8x1x128_0_2
              (extractStridedSlice S8x128 ![17, 0] B slices_S65x128_S8x128_17_0))))
        (broadcastInDim S8x4096x128 ![] bcast_S_S8x4096x128 (constant (F := Ideal) S_ .f32 0x00000000#32))⟩]
    concatenates_S17x4096x128_S8x4096x128_S25x4096x128_d0

/-- Layer 3's table holds the parents of nodes 17 … 24. -/
theorem tab3 : ∀ k : Fin 8, ∀ j : Fin 4,
    min ((((fun i => lit1 (S8x4.rowMajor i)) : IVec S8x4 32) (ix2 k j)).toInt.toNat) (17 - 1) = par (17 + k.val) j.val := by decide

/-- Layer 3 over the graph's first 17 nodes is the graph's first 25. -/
theorem layerTerm3_eq (X : FVec Ideal S4096x128 .f32) (W : FVec Ideal S65x128x128 .f32) (B : FVec Ideal S65x128 .f32) :
    layerTerm3 (uptoArr X W B 17) W B = uptoArr X W B 25 := by
  show layerG 17 25 17 ((fun i => lit1 (S8x4.rowMajor i)) : IVec S8x4 32) 17#32 gather_S17x4096x128_S8x4x1_S8x4x4096x128_23_0_n_n_0_2_14096128_wf
      slices_S65x128x128_S8x128x128_17_0_0 slices_S65x128_S8x128_17_0 concatenates_S17x4096x128_S8x4096x128_S25x4096x128_d0
      (uptoArr X W B 17) W B = _
  exact layerG_upto (by decide) rfl (by decide) _ _ _ _ _ _ X W B tab3

end Cert.ReferenceIdeal.RefLayer

end
-- ==== Proof.RefLayer4.lean ====
/-
  Layer 4 of the reference: its term as the operations compute it, its table of start indices read as the parents of
  nodes 25 … 32, and the layer over the graph's first 25 nodes as the graph's first 33.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 4: the eight new nodes 25 … 32 from the first 25, stacked under them. -/
def layerTerm4 (outs : FVec Ideal S25x4096x128 .f32) (W : FVec Ideal S65x128x128 .f32) (B : FVec Ideal S65x128 .f32) :
    FVec Ideal S33x4096x128 .f32 :=
  concatenate S33x4096x128 0
    [⟨S25x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S25x4096x128_S8x4x1_S8x4x4096x128_23_0_n_n_0_2_14096128 outs
                (broadcastInDim S8x4x1 ![0, 1] bcast_S8x4_S8x4x1_0_1
                  (select (constantI S8x4 1 0#1)
                    (addi ((fun i => lit2 (S8x4.rowMajor i)) : IVec S8x4 32) (broadcastInDim S8x4 ![] bcast_S_S8x4 (constantI S_ 32 25#32)))
                    ((fun i => lit2 (S8x4.rowMajor i)) : IVec S8x4 32))))
              (constant (F := Ideal) S_ .f32 0x00000000#32)
              reducesTo_S8x4x4096x128_S8x4096x128_d1 h_S_)
            (extractStridedSlice S8x128x128 ![25, 0, 0] W slices_S65x128x128_S8x128x128_25_0_0))
          (broadcastInDim S8x4096x128 ![0, 1, 2] bcast_S8x1x128_S8x4096x128_0_1_2
            (broadcastInDim S8x1x128 ![0, 2] bcast_S8x128_S8x1x128_0_2
              (extractStridedSlice S8x128 ![25, 0] B slices_S65x128_S8x128_25_0))))
        (broadcastInDim S8x4096x128 ![] bcast_S_S8x4096x128 (constant (F := Ideal) S_ .f32 0x00000000#32))⟩]
    concatenates_S25x4096x128_S8x4096x128_S33x4096x128_d0

/-- Layer 4's table holds the parents of nodes 25 … 32. -/
theorem tab4 : ∀ k : Fin 8, ∀ j : Fin 4,
    min ((((fun i => lit2 (S8x4.rowMajor i)) : IVec S8x4 32) (ix2 k j)).toInt.toNat) (25 - 1) = par (25 + k.val) j.val := by decide

/-- Layer 4 over the graph's first 25 nodes is the graph's first 33. -/
theorem layerTerm4_eq (X : FVec Ideal S4096x128 .f32) (W : FVec Ideal S65x128x128 .f32) (B : FVec Ideal S65x128 .f32) :
    layerTerm4 (uptoArr X W B 25) W B = uptoArr X W B 33 := by
  show layerG 25 33 25 ((fun i => lit2 (S8x4.rowMajor i)) : IVec S8x4 32) 25#32 gather_S25x4096x128_S8x4x1_S8x4x4096x128_23_0_n_n_0_2_14096128_wf
      slices_S65x128x128_S8x128x128_25_0_0 slices_S65x128_S8x128_25_0 concatenates_S25x4096x128_S8x4096x128_S33x4096x128_d0
      (uptoArr X W B 25) W B = _
  exact layerG_upto (by decide) rfl (by decide) _ _ _ _ _ _ X W B tab4

end Cert.ReferenceIdeal.RefLayer

end
-- ==== Proof.RefLayer5.lean ====
/-
  Layer 5 of the reference: its term as the operations compute it, its table of start indices read as the parents of
  nodes 33 … 40, and the layer over the graph's first 33 nodes as the graph's first 41.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 5: the eight new nodes 33 … 40 from the first 33, stacked under them. -/
def layerTerm5 (outs : FVec Ideal S33x4096x128 .f32) (W : FVec Ideal S65x128x128 .f32) (B : FVec Ideal S65x128 .f32) :
    FVec Ideal S41x4096x128 .f32 :=
  concatenate S41x4096x128 0
    [⟨S33x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S33x4096x128_S8x4x1_S8x4x4096x128_23_0_n_n_0_2_14096128 outs
                (broadcastInDim S8x4x1 ![0, 1] bcast_S8x4_S8x4x1_0_1
                  (select (constantI S8x4 1 0#1)
                    (addi ((fun i => lit3 (S8x4.rowMajor i)) : IVec S8x4 32) (broadcastInDim S8x4 ![] bcast_S_S8x4 (constantI S_ 32 33#32)))
                    ((fun i => lit3 (S8x4.rowMajor i)) : IVec S8x4 32))))
              (constant (F := Ideal) S_ .f32 0x00000000#32)
              reducesTo_S8x4x4096x128_S8x4096x128_d1 h_S_)
            (extractStridedSlice S8x128x128 ![33, 0, 0] W slices_S65x128x128_S8x128x128_33_0_0))
          (broadcastInDim S8x4096x128 ![0, 1, 2] bcast_S8x1x128_S8x4096x128_0_1_2
            (broadcastInDim S8x1x128 ![0, 2] bcast_S8x128_S8x1x128_0_2
              (extractStridedSlice S8x128 ![33, 0] B slices_S65x128_S8x128_33_0))))
        (broadcastInDim S8x4096x128 ![] bcast_S_S8x4096x128 (constant (F := Ideal) S_ .f32 0x00000000#32))⟩]
    concatenates_S33x4096x128_S8x4096x128_S41x4096x128_d0

/-- Layer 5's table holds the parents of nodes 33 … 40. -/
theorem tab5 : ∀ k : Fin 8, ∀ j : Fin 4,
    min ((((fun i => lit3 (S8x4.rowMajor i)) : IVec S8x4 32) (ix2 k j)).toInt.toNat) (33 - 1) = par (33 + k.val) j.val := by decide

/-- Layer 5 over the graph's first 33 nodes is the graph's first 41. -/
theorem layerTerm5_eq (X : FVec Ideal S4096x128 .f32) (W : FVec Ideal S65x128x128 .f32) (B : FVec Ideal S65x128 .f32) :
    layerTerm5 (uptoArr X W B 33) W B = uptoArr X W B 41 := by
  show layerG 33 41 33 ((fun i => lit3 (S8x4.rowMajor i)) : IVec S8x4 32) 33#32 gather_S33x4096x128_S8x4x1_S8x4x4096x128_23_0_n_n_0_2_14096128_wf
      slices_S65x128x128_S8x128x128_33_0_0 slices_S65x128_S8x128_33_0 concatenates_S33x4096x128_S8x4096x128_S41x4096x128_d0
      (uptoArr X W B 33) W B = _
  exact layerG_upto (by decide) rfl (by decide) _ _ _ _ _ _ X W B tab5

end Cert.ReferenceIdeal.RefLayer

end
-- ==== Proof.RefLayer6.lean ====
/-
  Layer 6 of the reference: its term as the operations compute it, its table of start indices read as the parents of
  nodes 41 … 48, and the layer over the graph's first 41 nodes as the graph's first 49.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 6: the eight new nodes 41 … 48 from the first 41, stacked under them. -/
def layerTerm6 (outs : FVec Ideal S41x4096x128 .f32) (W : FVec Ideal S65x128x128 .f32) (B : FVec Ideal S65x128 .f32) :
    FVec Ideal S49x4096x128 .f32 :=
  concatenate S49x4096x128 0
    [⟨S41x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S41x4096x128_S8x4x1_S8x4x4096x128_23_0_n_n_0_2_14096128 outs
                (broadcastInDim S8x4x1 ![0, 1] bcast_S8x4_S8x4x1_0_1
                  (select (constantI S8x4 1 0#1)
                    (addi ((fun i => lit4 (S8x4.rowMajor i)) : IVec S8x4 32) (broadcastInDim S8x4 ![] bcast_S_S8x4 (constantI S_ 32 41#32)))
                    ((fun i => lit4 (S8x4.rowMajor i)) : IVec S8x4 32))))
              (constant (F := Ideal) S_ .f32 0x00000000#32)
              reducesTo_S8x4x4096x128_S8x4096x128_d1 h_S_)
            (extractStridedSlice S8x128x128 ![41, 0, 0] W slices_S65x128x128_S8x128x128_41_0_0))
          (broadcastInDim S8x4096x128 ![0, 1, 2] bcast_S8x1x128_S8x4096x128_0_1_2
            (broadcastInDim S8x1x128 ![0, 2] bcast_S8x128_S8x1x128_0_2
              (extractStridedSlice S8x128 ![41, 0] B slices_S65x128_S8x128_41_0))))
        (broadcastInDim S8x4096x128 ![] bcast_S_S8x4096x128 (constant (F := Ideal) S_ .f32 0x00000000#32))⟩]
    concatenates_S41x4096x128_S8x4096x128_S49x4096x128_d0

/-- Layer 6's table holds the parents of nodes 41 … 48. -/
theorem tab6 : ∀ k : Fin 8, ∀ j : Fin 4,
    min ((((fun i => lit4 (S8x4.rowMajor i)) : IVec S8x4 32) (ix2 k j)).toInt.toNat) (41 - 1) = par (41 + k.val) j.val := by decide

/-- Layer 6 over the graph's first 41 nodes is the graph's first 49. -/
theorem layerTerm6_eq (X : FVec Ideal S4096x128 .f32) (W : FVec Ideal S65x128x128 .f32) (B : FVec Ideal S65x128 .f32) :
    layerTerm6 (uptoArr X W B 41) W B = uptoArr X W B 49 := by
  show layerG 41 49 41 ((fun i => lit4 (S8x4.rowMajor i)) : IVec S8x4 32) 41#32 gather_S41x4096x128_S8x4x1_S8x4x4096x128_23_0_n_n_0_2_14096128_wf
      slices_S65x128x128_S8x128x128_41_0_0 slices_S65x128_S8x128_41_0 concatenates_S41x4096x128_S8x4096x128_S49x4096x128_d0
      (uptoArr X W B 41) W B = _
  exact layerG_upto (by decide) rfl (by decide) _ _ _ _ _ _ X W B tab6

end Cert.ReferenceIdeal.RefLayer

end
-- ==== Proof.RefLayer7.lean ====
/-
  Layer 7 of the reference: its term as the operations compute it, its table of start indices read as the parents of
  nodes 49 … 56, and the layer over the graph's first 49 nodes as the graph's first 57.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 7: the eight new nodes 49 … 56 from the first 49, stacked under them. -/
def layerTerm7 (outs : FVec Ideal S49x4096x128 .f32) (W : FVec Ideal S65x128x128 .f32) (B : FVec Ideal S65x128 .f32) :
    FVec Ideal S57x4096x128 .f32 :=
  concatenate S57x4096x128 0
    [⟨S49x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S49x4096x128_S8x4x1_S8x4x4096x128_23_0_n_n_0_2_14096128 outs
                (broadcastInDim S8x4x1 ![0, 1] bcast_S8x4_S8x4x1_0_1
                  (select (constantI S8x4 1 0#1)
                    (addi ((fun i => lit5 (S8x4.rowMajor i)) : IVec S8x4 32) (broadcastInDim S8x4 ![] bcast_S_S8x4 (constantI S_ 32 49#32)))
                    ((fun i => lit5 (S8x4.rowMajor i)) : IVec S8x4 32))))
              (constant (F := Ideal) S_ .f32 0x00000000#32)
              reducesTo_S8x4x4096x128_S8x4096x128_d1 h_S_)
            (extractStridedSlice S8x128x128 ![49, 0, 0] W slices_S65x128x128_S8x128x128_49_0_0))
          (broadcastInDim S8x4096x128 ![0, 1, 2] bcast_S8x1x128_S8x4096x128_0_1_2
            (broadcastInDim S8x1x128 ![0, 2] bcast_S8x128_S8x1x128_0_2
              (extractStridedSlice S8x128 ![49, 0] B slices_S65x128_S8x128_49_0))))
        (broadcastInDim S8x4096x128 ![] bcast_S_S8x4096x128 (constant (F := Ideal) S_ .f32 0x00000000#32))⟩]
    concatenates_S49x4096x128_S8x4096x128_S57x4096x128_d0

/-- Layer 7's table holds the parents of nodes 49 … 56. -/
theorem tab7 : ∀ k : Fin 8, ∀ j : Fin 4,
    min ((((fun i => lit5 (S8x4.rowMajor i)) : IVec S8x4 32) (ix2 k j)).toInt.toNat) (49 - 1) = par (49 + k.val) j.val := by decide

/-- Layer 7 over the graph's first 49 nodes is the graph's first 57. -/
theorem layerTerm7_eq (X : FVec Ideal S4096x128 .f32) (W : FVec Ideal S65x128x128 .f32) (B : FVec Ideal S65x128 .f32) :
    layerTerm7 (uptoArr X W B 49) W B = uptoArr X W B 57 := by
  show layerG 49 57 49 ((fun i => lit5 (S8x4.rowMajor i)) : IVec S8x4 32) 49#32 gather_S49x4096x128_S8x4x1_S8x4x4096x128_23_0_n_n_0_2_14096128_wf
      slices_S65x128x128_S8x128x128_49_0_0 slices_S65x128_S8x128_49_0 concatenates_S49x4096x128_S8x4096x128_S57x4096x128_d0
      (uptoArr X W B 49) W B = _
  exact layerG_upto (by decide) rfl (by decide) _ _ _ _ _ _ X W B tab7

end Cert.ReferenceIdeal.RefLayer

end
-- ==== Proof.RefLayer8.lean ====
/-
  Layer 8 of the reference: its term as the operations compute it, its table of start indices read as the parents of
  nodes 57 … 64, and the layer over the graph's first 57 nodes as the graph's first 65.
-/
import proofs.«135270_j33062658245245_1_alg».proof.Proof.RefLayer

noncomputable section

namespace Cert.ReferenceIdeal.RefLayer

open Cert.ReferenceIdeal Cert.ReferenceIdeal.Facts₀ Cert.Spec Idealize.ShloMosaic Idealize.ShloMosaic.ValueIdx

/-- Layer 8: the eight new nodes 57 … 64 from the first 57, stacked under them. -/
def layerTerm8 (outs : FVec Ideal S57x4096x128 .f32) (W : FVec Ideal S65x128x128 .f32) (B : FVec Ideal S65x128 .f32) :
    FVec Ideal S65x4096x128 .f32 :=
  concatenate S65x4096x128 0
    [⟨S57x4096x128, outs⟩,
     ⟨S8x4096x128,
      maximumf
        (addf
          (Host.dotGeneral (F := Ideal) dot_S8x4096x128_S8x128x128_S8x4096x128_2_2_1_1_0_0 none
            (Host.reduceAdd (F := Ideal)
              (Host.gather gather_S57x4096x128_S8x4x1_S8x4x4096x128_23_0_n_n_0_2_14096128 outs
                (broadcastInDim S8x4x1 ![0, 1] bcast_S8x4_S8x4x1_0_1
                  (select (constantI S8x4 1 0#1)
                    (addi ((fun i => lit6 (S8x4.rowMajor i)) : IVec S8x4 32) (broadcastInDim S8x4 ![] bcast_S_S8x4 (constantI S_ 32 57#32)))
                    ((fun i => lit6 (S8x4.rowMajor i)) : IVec S8x4 32))))
              (constant (F := Ideal) S_ .f32 0x00000000#32)
              reducesTo_S8x4x4096x128_S8x4096x128_d1 h_S_)
            (extractStridedSlice S8x128x128 ![57, 0, 0] W slices_S65x128x128_S8x128x128_57_0_0))
          (broadcastInDim S8x4096x128 ![0, 1, 2] bcast_S8x1x128_S8x4096x128_0_1_2
            (broadcastInDim S8x1x128 ![0, 2] bcast_S8x128_S8x1x128_0_2
              (extractStridedSlice S8x128 ![57, 0] B slices_S65x128_S8x128_57_0))))
        (broadcastInDim S8x4096x128 ![] bcast_S_S8x4096x128 (constant (F := Ideal) S_ .f32 0x00000000#32))⟩]
    concatenates_S57x4096x128_S8x4096x128_S65x4096x128_d0

/-- Layer 8's table holds the parents of nodes 57 … 64. -/
theorem tab8 : ∀ k : Fin 8, ∀ j : Fin 4,
    min ((((fun i => lit6 (S8x4.rowMajor i)) : IVec S8x4 32) (ix2 k j)).toInt.toNat) (57 - 1) = par (57 + k.val) j.val := by decide

/-- Layer 8 over the graph's first 57 nodes is the graph's first 65. -/
theorem layerTerm8_eq (X : FVec Ideal S4096x128 .f32) (W : FVec Ideal S65x128x128 .f32) (B : FVec Ideal S65x128 .f32) :
    layerTerm8 (uptoArr X W B 57) W B = uptoArr X W B 65 := by
  show layerG 57 65 57 ((fun i => lit6 (S8x4.rowMajor i)) : IVec S8x4 32) 57#32 gather_S57x4096x128_S8x4x1_S8x4x4096x128_23_0_n_n_0_2_14096128_wf
      slices_S65x128x128_S8x128x128_57_0_0 slices_S65x128_S8x128_57_0 concatenates_S57x4096x128_S8x4096x128_S65x4096x128_d0
      (uptoArr X W B 57) W B = _
  exact layerG_upto (by decide) rfl (by decide) _ _ _ _ _ _ X W B tab8

end Cert.ReferenceIdeal.RefLayer

end
-- ==== Proof.RefLast.lean ====
/-
  The reference's last layer as the array the closing reduction reads: rows 57 … 64 of the stack of all 65 nodes are
  layer 7 of the graph (nodes 57 … 64).
-/
import proofs.«135270_j33062658245245_1_alg».proof.Proof.Gen.ReferenceIdeal
import proofs.«135270_j33062658245245_1_alg».proof.Proof.Spec
import Idealize.ShloMosaic.Lib.ValueIdx
import Idealize.ShloMosaic.Lib.Pipeline.Value

noncomputable section

namespace Cert.ReferenceIdeal.RefLayer

open Cert.ReferenceIdeal Cert.ReferenceIdeal.Facts₀ Cert.Spec Idealize.ShloMosaic Idealize.ShloMosaic.ValueIdx

/-- The slice [57:65] of the first 65 nodes is the graph's last layer. -/
theorem lastSlice_eq (X : FVec Ideal S4096x128 .f32) (W : FVec Ideal S65x128x128 .f32) (B : FVec Ideal S65x128 .f32) :
    extractStridedSlice S8x4096x128 ![57, 0, 0] (uptoArr X W B 65) slices_S65x4096x128_S8x4096x128_57_0_0
      = layerArr X W B 7 := by
  funext i
  obtain ⟨k, r, e, rfl⟩ : ∃ (k : Fin 8) (r : Fin 4096) (e : Fin 128), i = ix3 k r e := ⟨i 0, i 1, i 2, eq_ix3 i⟩
  rw [extractStridedSlice_apply _ _ _ _ (ix3 (⟨57 + k.val, by omega⟩ : Fin 65) r e) (fun a => by
    match a with
    | ⟨0, _⟩ => rfl
    | ⟨1, _⟩ => exact (Nat.zero_add _).symm
    | ⟨2, _⟩ => exact (Nat.zero_add _).symm)]
  rfl

end Cert.ReferenceIdeal.RefLayer

end
-- ==== Proof.RefVal.lean ====
/- The reference's result as the common function. The line of host operations is read in stages: the prologue
   leaves node 0 (as an array of one node) and the index tables; each layer, reading the array of the nodes so far, its
   own table and the weight and bias arrays, leaves the array of eight more nodes; the tail takes the last eight nodes,
   sums them over the node axis and divides by eight. A stage reads only what earlier stages wrote and what no stage
   writes again (the arguments, the tables, the all-false masks), so the fold over the whole line is the stages'
   composition, and the layers' terms over the graph's first N nodes give its first N + 8: after the eighth layer the
   array holds all 65 nodes, and the tail's slice of it is the last layer. -/
import proofs.«135270_j33062658245245_1_alg».proof.Proof.RefRun
import proofs.«135270_j33062658245245_1_alg».proof.Proof.RefLayer
import proofs.«135270_j33062658245245_1_alg».proof.Proof.RefLayer1
import proofs.«135270_j33062658245245_1_alg».proof.Proof.RefLayer2
import proofs.«135270_j33062658245245_1_alg».proof.Proof.RefLayer3
import proofs.«135270_j33062658245245_1_alg».proof.Proof.RefLayer4
import proofs.«135270_j33062658245245_1_alg».proof.Proof.RefLayer5
import proofs.«135270_j33062658245245_1_alg».proof.Proof.RefLayer6
import proofs.«135270_j33062658245245_1_alg».proof.Proof.RefLayer7
import proofs.«135270_j33062658245245_1_alg».proof.Proof.RefLayer8
import proofs.«135270_j33062658245245_1_alg».proof.Proof.RefLast
import proofs.«135270_j33062658245245_1_alg».proof.Proof.Spec

noncomputable section

namespace Cert.ReferenceIdeal.Hand

open Cert.ReferenceIdeal Cert.ReferenceIdeal.Gen Cert.Spec Idealize.ShloMosaic Idealize.ShloMosaic.TcCoe Idealize.SL.Sem Idealize.ShloMosaic.StableHlo

/-! ## The stages -/

/-- The buffers after the prologue, from contents V. -/
def U1 (V : Valuation τ sig (Elt Ideal)) : Valuation τ sig (Elt Ideal) := after (opsA (F := Ideal)) V
/-- … after layer 1 … -/
def U2 (V : Valuation τ sig (Elt Ideal)) : Valuation τ sig (Elt Ideal) := after (opsL1 (F := Ideal)) (U1 V)
def U3 (V : Valuation τ sig (Elt Ideal)) : Valuation τ sig (Elt Ideal) := after (opsL2 (F := Ideal)) (U2 V)
def U4 (V : Valuation τ sig (Elt Ideal)) : Valuation τ sig (Elt Ideal) := after (opsL3 (F := Ideal)) (U3 V)
def U5 (V : Valuation τ sig (Elt Ideal)) : Valuation τ sig (Elt Ideal) := after (opsL4 (F := Ideal)) (U4 V)
def U6 (V : Valuation τ sig (Elt Ideal)) : Valuation τ sig (Elt Ideal) := after (opsL5 (F := Ideal)) (U5 V)
def U7 (V : Valuation τ sig (Elt Ideal)) : Valuation τ sig (Elt Ideal) := after (opsL6 (F := Ideal)) (U6 V)
def U8 (V : Valuation τ sig (Elt Ideal)) : Valuation τ sig (Elt Ideal) := after (opsL7 (F := Ideal)) (U7 V)
/-- … after layer 8 … -/
def U9 (V : Valuation τ sig (Elt Ideal)) : Valuation τ sig (Elt Ideal) := after (opsL8 (F := Ideal)) (U8 V)
/-- … and after the tail. -/
def U10 (V : Valuation τ sig (Elt Ideal)) : Valuation τ sig (Elt Ideal) := after (opsT (F := Ideal)) (U9 V)

/-- The fold over the whole line is the last stage. -/
theorem after_ops_eq (V : Valuation τ sig (Elt Ideal)) : after (ops (F := Ideal)) V = U10 V := by
  simp only [ops, after_append]
  rfl

/-! ## What no layer writes -/

/-- The references every layer leaves alone: the arguments, the eight index tables, the eight masks. -/
abbrev persList : List (Ref sig .tc) :=
  [main_arg0, main_arg1, main_arg2, main_c, main_c_0, main_c_1, main_c_2, main_c_3, main_c_4, main_c_5, main_c_6, main_c_7,
    main_c_8, main_c_9, main_c_10, main_c_11, main_c_12, main_c_13, main_c_14]

/-- The references layer 1's operations write, in order; and so on. -/
abbrev opsL1_W : List (Ref sig .tc) :=
  [main_c_15, main_v11, main_v12, main_v13, main_v14, main_v15, main_cst, main_v16, main_v17, main_v18, main_v19, main_v20,
    main_v21, main_v22, main_call1_cst, main_call1_v0, main_v23, main_v24]
abbrev opsL2_W : List (Ref sig .tc) :=
  [main_c_16, main_v25, main_v26, main_v27, main_v28, main_v29, main_cst_17, main_v30, main_v31, main_v32, main_v33, main_v34,
    main_v35, main_v36, main_call2_cst, main_call2_v0, main_v37, main_v38]
abbrev opsL3_W : List (Ref sig .tc) :=
  [main_c_18, main_v39, main_v40, main_v41, main_v42, main_v43, main_cst_19, main_v44, main_v45, main_v46, main_v47, main_v48,
    main_v49, main_v50, main_call3_cst, main_call3_v0, main_v51, main_v52]
abbrev opsL4_W : List (Ref sig .tc) :=
  [main_c_20, main_v53, main_v54, main_v55, main_v56, main_v57, main_cst_21, main_v58, main_v59, main_v60, main_v61, main_v62,
    main_v63, main_v64, main_call4_cst, main_call4_v0, main_v65, main_v66]
abbrev opsL5_W : List (Ref sig .tc) :=
  [main_c_22, main_v67, main_v68, main_v69, main_v70, main_v71, main_cst_23, main_v72, main_v73, main_v74, main_v75, main_v76,
    main_v77, main_v78, main_call5_cst, main_call5_v0, main_v79, main_v80]
abbrev opsL6_W : List (Ref sig .tc) :=
  [main_c_24, main_v81, main_v82, main_v83, main_v84, main_v85, main_cst_25, main_v86, main_v87, main_v88, main_v89, main_v90,
    main_v91, main_v92, main_call6_cst, main_call6_v0, main_v93, main_v94]
abbrev opsL7_W : List (Ref sig .tc) :=
  [main_c_26, main_v95, main_v96, main_v97, main_v98, main_v99, main_cst_27, main_v100, main_v101, main_v102, main_v103, main_v104,
    main_v105, main_v106, main_call7_cst, main_call7_v0, main_v107, main_v108]
abbrev opsL8_W : List (Ref sig .tc) :=
  [main_c_28, main_v109, main_v110, main_v111, main_v112, main_v113, main_cst_29, main_v114, main_v115, main_v116, main_v117, main_v118,
    main_v119, main_v120, main_call8_cst, main_call8_v0, main_v121, main_v122]

/-- Each operation of a piece writes one buffer, a member of the piece's list. -/
local macro "piece_writes" : tactic =>
  `(tactic| (simp only [List.Forall, nullary_writes, unary_writes, binary_writes, ternary_writes, reshape_writes,
               Finset.singleton_subset_iff, List.mem_toFinset]
             repeat' apply And.intro
             all_goals exact List.mem_map_of_mem (by decide)))

theorem opsL1_writes : (opsL1 (F := Ideal)).Forall fun op => op.writes ⊆ (opsL1_W.map (Proc.devRef (τ := τ) .tc)).toFinset := by
  piece_writes
theorem opsL2_writes : (opsL2 (F := Ideal)).Forall fun op => op.writes ⊆ (opsL2_W.map (Proc.devRef (τ := τ) .tc)).toFinset := by
  piece_writes
theorem opsL3_writes : (opsL3 (F := Ideal)).Forall fun op => op.writes ⊆ (opsL3_W.map (Proc.devRef (τ := τ) .tc)).toFinset := by
  piece_writes
theorem opsL4_writes : (opsL4 (F := Ideal)).Forall fun op => op.writes ⊆ (opsL4_W.map (Proc.devRef (τ := τ) .tc)).toFinset := by
  piece_writes
theorem opsL5_writes : (opsL5 (F := Ideal)).Forall fun op => op.writes ⊆ (opsL5_W.map (Proc.devRef (τ := τ) .tc)).toFinset := by
  piece_writes
theorem opsL6_writes : (opsL6 (F := Ideal)).Forall fun op => op.writes ⊆ (opsL6_W.map (Proc.devRef (τ := τ) .tc)).toFinset := by
  piece_writes
theorem opsL7_writes : (opsL7 (F := Ideal)).Forall fun op => op.writes ⊆ (opsL7_W.map (Proc.devRef (τ := τ) .tc)).toFinset := by
  piece_writes
theorem opsL8_writes : (opsL8 (F := Ideal)).Forall fun op => op.writes ⊆ (opsL8_W.map (Proc.devRef (τ := τ) .tc)).toFinset := by
  piece_writes

/-- A layer leaves every persistent reference as it was: contents that agree with given ones there still do after it. -/
theorem opsL1_agree {V I : Valuation τ sig (Elt Ideal)} (h : ∀ r ∈ persList, V (Proc.devRef .tc r) = I (Proc.devRef .tc r)) :
    ∀ r ∈ persList, after (opsL1 (F := Ideal)) V (Proc.devRef .tc r) = I (Proc.devRef .tc r) :=
  fun r hr => (after_of_writes_sub (opsL1 (F := Ideal)) V opsL1_writes ((by decide : ∀ r ∈ persList, r ∉ opsL1_W) r hr)).trans (h r hr)
theorem opsL2_agree {V I : Valuation τ sig (Elt Ideal)} (h : ∀ r ∈ persList, V (Proc.devRef .tc r) = I (Proc.devRef .tc r)) :
    ∀ r ∈ persList, after (opsL2 (F := Ideal)) V (Proc.devRef .tc r) = I (Proc.devRef .tc r) :=
  fun r hr => (after_of_writes_sub (opsL2 (F := Ideal)) V opsL2_writes ((by decide : ∀ r ∈ persList, r ∉ opsL2_W) r hr)).trans (h r hr)
theorem opsL3_agree {V I : Valuation τ sig (Elt Ideal)} (h : ∀ r ∈ persList, V (Proc.devRef .tc r) = I (Proc.devRef .tc r)) :
    ∀ r ∈ persList, after (opsL3 (F := Ideal)) V (Proc.devRef .tc r) = I (Proc.devRef .tc r) :=
  fun r hr => (after_of_writes_sub (opsL3 (F := Ideal)) V opsL3_writes ((by decide : ∀ r ∈ persList, r ∉ opsL3_W) r hr)).trans (h r hr)
theorem opsL4_agree {V I : Valuation τ sig (Elt Ideal)} (h : ∀ r ∈ persList, V (Proc.devRef .tc r) = I (Proc.devRef .tc r)) :
    ∀ r ∈ persList, after (opsL4 (F := Ideal)) V (Proc.devRef .tc r) = I (Proc.devRef .tc r) :=
  fun r hr => (after_of_writes_sub (opsL4 (F := Ideal)) V opsL4_writes ((by decide : ∀ r ∈ persList, r ∉ opsL4_W) r hr)).trans (h r hr)
theorem opsL5_agree {V I : Valuation τ sig (Elt Ideal)} (h : ∀ r ∈ persList, V (Proc.devRef .tc r) = I (Proc.devRef .tc r)) :
    ∀ r ∈ persList, after (opsL5 (F := Ideal)) V (Proc.devRef .tc r) = I (Proc.devRef .tc r) :=
  fun r hr => (after_of_writes_sub (opsL5 (F := Ideal)) V opsL5_writes ((by decide : ∀ r ∈ persList, r ∉ opsL5_W) r hr)).trans (h r hr)
theorem opsL6_agree {V I : Valuation τ sig (Elt Ideal)} (h : ∀ r ∈ persList, V (Proc.devRef .tc r) = I (Proc.devRef .tc r)) :
    ∀ r ∈ persList, after (opsL6 (F := Ideal)) V (Proc.devRef .tc r) = I (Proc.devRef .tc r) :=
  fun r hr => (after_of_writes_sub (opsL6 (F := Ideal)) V opsL6_writes ((by decide : ∀ r ∈ persList, r ∉ opsL6_W) r hr)).trans (h r hr)
theorem opsL7_agree {V I : Valuation τ sig (Elt Ideal)} (h : ∀ r ∈ persList, V (Proc.devRef .tc r) = I (Proc.devRef .tc r)) :
    ∀ r ∈ persList, after (opsL7 (F := Ideal)) V (Proc.devRef .tc r) = I (Proc.devRef .tc r) :=
  fun r hr => (after_of_writes_sub (opsL7 (F := Ideal)) V opsL7_writes ((by decide : ∀ r ∈ persList, r ∉ opsL7_W) r hr)).trans (h r hr)
theorem opsL8_agree {V I : Valuation τ sig (Elt Ideal)} (h : ∀ r ∈ persList, V (Proc.devRef .tc r) = I (Proc.devRef .tc r)) :
    ∀ r ∈ persList, after (opsL8 (F := Ideal)) V (Proc.devRef .tc r) = I (Proc.devRef .tc r) :=
  fun r hr => (after_of_writes_sub (opsL8 (F := Ideal)) V opsL8_writes ((by decide : ∀ r ∈ persList, r ∉ opsL8_W) r hr)).trans (h r hr)

/-! ## One layer, for any float values -/

section AnyFloat
variable {F : FTy → Type} [FloatOps F]

/-- One layer as the operations compose it, for any float values: the parents of the eight new nodes gathered out of
    the array of the N nodes so far by the table (plus a constant where the mask is set), the four parents summed, the
    sums times the eight weight slabs from node `off` on, plus the eight bias rows, clipped below at zero, stacked under
    the nodes so far. -/
def layerF (N M : Nat) (gd : GatherDims ⟨3, ![N, 4096, 128]⟩ S8x4x1 S8x4x4096x128) (off : Nat)
    (hW : S65x128x128.Slices ![off, 0, 0] S8x128x128) (hB : S65x128.Slices ![off, 0] S8x128)
    (hcat : Shape.Concatenates [⟨3, ![N, 4096, 128]⟩, S8x4096x128] ⟨3, ![M, 4096, 128]⟩ 0) (cN : BitVec 32) (tbl : IVec S8x4 32)
    (mask : IVec S8x4 1) (outs : FVec F ⟨3, ![N, 4096, 128]⟩ .f32) (W : FVec F S65x128x128 .f32) (B : FVec F S65x128 .f32) :
    FVec F ⟨3, ![M, 4096, 128]⟩ .f32 :=
  concatenate ⟨3, ![M, 4096, 128]⟩ 0
    [⟨⟨3, ![N, 4096, 128]⟩, outs⟩,
     ⟨S8x4096x128,
      maximumf
        (addf
          (Host.dotGeneral (F := F) dot_S8x4096x128_S8x128x128_S8x4096x128_2_2_1_1_0_0 none
            (Host.reduceAdd (F := F)
              (Host.gather gd outs
                (broadcastInDim S8x4x1 ![0, 1] bcast_S8x4_S8x4x1_0_1
                  (select mask (addi tbl (broadcastInDim S8x4 ![] bcast_S_S8x4 (constantI S_ 32 cN))) tbl)))
              (constant (F := F) S_ .f32 0x00000000#32) reducesTo_S8x4x4096x128_S8x4096x128_d1 h_S_)
            (extractStridedSlice S8x128x128 ![off, 0, 0] W hW))
          (broadcastInDim S8x4096x128 ![0, 1, 2] bcast_S8x1x128_S8x4096x128_0_1_2
            (broadcastInDim S8x1x128 ![0, 2] bcast_S8x128_S8x1x128_0_2 (extractStridedSlice S8x128 ![off, 0] B hB))))
        (broadcastInDim S8x4096x128 ![] bcast_S_S8x4096x128 (constant (F := F) S_ .f32 0x00000000#32))⟩]
    hcat

-- eighteen operations' results rewritten in turn, each buffer's type a lookup in a table of 182
set_option maxHeartbeats 2000000 in
/-- Layer 1's eighteen operations, from any contents V, leave that term of what V holds at the array so far, the table,
    the mask and the two arguments. -/
theorem segL1_any (V : Valuation τ sig (Elt F)) :
    after (opsL1 (F := F)) V (Proc.devRef .tc main_v24)
      = layerF 1 9 gather_S1x4096x128_S8x4x1_S8x4x4096x128_23_0_n_n_0_2_14096128 1 slices_S65x128x128_S8x128x128_1_0_0
          slices_S65x128_S8x128_1_0 concatenates_S1x4096x128_S8x4096x128_S9x4096x128_d0 1#32
          (V (Proc.devRef .tc main_c)) (V (Proc.devRef .tc main_c_0)) (V (Proc.devRef .tc main_v10))
          (V (Proc.devRef .tc main_arg1)) (V (Proc.devRef .tc main_arg2)) := by
  after_results
  all_goals rfl

set_option maxHeartbeats 2000000 in
theorem segL2_any (V : Valuation τ sig (Elt F)) :
    after (opsL2 (F := F)) V (Proc.devRef .tc main_v38)
      = layerF 9 17 gather_S9x4096x128_S8x4x1_S8x4x4096x128_23_0_n_n_0_2_14096128 9 slices_S65x128x128_S8x128x128_9_0_0
          slices_S65x128_S8x128_9_0 concatenates_S9x4096x128_S8x4096x128_S17x4096x128_d0 9#32
          (V (Proc.devRef .tc main_c_1)) (V (Proc.devRef .tc main_c_2)) (V (Proc.devRef .tc main_v24))
          (V (Proc.devRef .tc main_arg1)) (V (Proc.devRef .tc main_arg2)) := by
  after_results
  all_goals rfl

set_option maxHeartbeats 2000000 in
theorem segL3_any (V : Valuation τ sig (Elt F)) :
    after (opsL3 (F := F)) V (Proc.devRef .tc main_v52)
      = layerF 17 25 gather_S17x4096x128_S8x4x1_S8x4x4096x128_23_0_n_n_0_2_14096128 17 slices_S65x128x128_S8x128x128_17_0_0
          slices_S65x128_S8x128_17_0 concatenates_S17x4096x128_S8x4096x128_S25x4096x128_d0 17#32
          (V (Proc.devRef .tc main_c_3)) (V (Proc.devRef .tc main_c_4)) (V (Proc.devRef .tc main_v38))
          (V (Proc.devRef .tc main_arg1)) (V (Proc.devRef .tc main_arg2)) := by
  after_results
  all_goals rfl

set_option maxHeartbeats 2000000 in
theorem segL4_any (V : Valuation τ sig (Elt F)) :
    after (opsL4 (F := F)) V (Proc.devRef .tc main_v66)
      = layerF 25 33 gather_S25x4096x128_S8x4x1_S8x4x4096x128_23_0_n_n_0_2_14096128 25 slices_S65x128x128_S8x128x128_25_0_0
          slices_S65x128_S8x128_25_0 concatenates_S25x4096x128_S8x4096x128_S33x4096x128_d0 25#32
          (V (Proc.devRef .tc main_c_5)) (V (Proc.devRef .tc main_c_6)) (V (Proc.devRef .tc main_v52))
          (V (Proc.devRef .tc main_arg1)) (V (Proc.devRef .tc main_arg2)) := by
  after_results
  all_goals rfl

set_option maxHeartbeats 2000000 in
theorem segL5_any (V : Valuation τ sig (Elt F)) :
    after (opsL5 (F := F)) V (Proc.devRef .tc main_v80)
      = layerF 33 41 gather_S33x4096x128_S8x4x1_S8x4x4096x128_23_0_n_n_0_2_14096128 33 slices_S65x128x128_S8x128x128_33_0_0
          slices_S65x128_S8x128_33_0 concatenates_S33x4096x128_S8x4096x128_S41x4096x128_d0 33#32
          (V (Proc.devRef .tc main_c_7)) (V (Proc.devRef .tc main_c_8)) (V (Proc.devRef .tc main_v66))
          (V (Proc.devRef .tc main_arg1)) (V (Proc.devRef .tc main_arg2)) := by
  after_results
  all_goals rfl

set_option maxHeartbeats 2000000 in
theorem segL6_any (V : Valuation τ sig (Elt F)) :
    after (opsL6 (F := F)) V (Proc.devRef .tc main_v94)
      = layerF 41 49 gather_S41x4096x128_S8x4x1_S8x4x4096x128_23_0_n_n_0_2_14096128 41 slices_S65x128x128_S8x128x128_41_0_0
          slices_S65x128_S8x128_41_0 concatenates_S41x4096x128_S8x4096x128_S49x4096x128_d0 41#32
          (V (Proc.devRef .tc main_c_9)) (V (Proc.devRef .tc main_c_10)) (V (Proc.devRef .tc main_v80))
          (V (Proc.devRef .tc main_arg1)) (V (Proc.devRef .tc main_arg2)) := by
  after_results
  all_goals rfl

set_option maxHeartbeats 2000000 in
theorem segL7_any (V : Valuation τ sig (Elt F)) :
    after (opsL7 (F := F)) V (Proc.devRef .tc main_v108)
      = layerF 49 57 gather_S49x4096x128_S8x4x1_S8x4x4096x128_23_0_n_n_0_2_14096128 49 slices_S65x128x128_S8x128x128_49_0_0
          slices_S65x128_S8x128_49_0 concatenates_S49x4096x128_S8x4096x128_S57x4096x128_d0 49#32
          (V (Proc.devRef .tc main_c_11)) (V (Proc.devRef .tc main_c_12)) (V (Proc.devRef .tc main_v94))
          (V (Proc.devRef .tc main_arg1)) (V (Proc.devRef .tc main_arg2)) := by
  after_results
  all_goals rfl

set_option maxHeartbeats 2000000 in
theorem segL8_any (V : Valuation τ sig (Elt F)) :
    after (opsL8 (F := F)) V (Proc.devRef .tc main_v122)
      = layerF 57 65 gather_S57x4096x128_S8x4x1_S8x4x4096x128_23_0_n_n_0_2_14096128 57 slices_S65x128x128_S8x128x128_57_0_0
          slices_S65x128_S8x128_57_0 concatenates_S57x4096x128_S8x4096x128_S65x4096x128_d0 57#32
          (V (Proc.devRef .tc main_c_13)) (V (Proc.devRef .tc main_c_14)) (V (Proc.devRef .tc main_v108))
          (V (Proc.devRef .tc main_arg1)) (V (Proc.devRef .tc main_arg2)) := by
  after_results
  all_goals rfl

end AnyFloat

/-! ## One lemma per segment -/

/-- The prologue leaves node 0's term of the three arguments … -/
theorem segA (V : Valuation τ sig (Elt Ideal)) :
    after (opsA (F := Ideal)) V (Proc.devRef .tc main_v10)
      = RefLayer.node0Term (V (Proc.devRef .tc main_arg0)) (V (Proc.devRef .tc main_arg1)) (V (Proc.devRef .tc main_arg2)) := by
  after_results
  all_goals rfl

/-- … the arguments as they were … -/
theorem segA_args (V : Valuation τ sig (Elt Ideal)) :
    after (opsA (F := Ideal)) V (Proc.devRef .tc main_arg0) = V (Proc.devRef .tc main_arg0)
    ∧ after (opsA (F := Ideal)) V (Proc.devRef .tc main_arg1) = V (Proc.devRef .tc main_arg1)
    ∧ after (opsA (F := Ideal)) V (Proc.devRef .tc main_arg2) = V (Proc.devRef .tc main_arg2) :=
  ⟨by after_results, by after_results, by after_results⟩

/-- … the eight index tables (layer 1's is all zeros: every node of it has the one parent, node 0) … -/
theorem segA_tabs (V : Valuation τ sig (Elt Ideal)) :
    after (opsA (F := Ideal)) V (Proc.devRef .tc main_c) = (constantI S8x4 32 0#32 : IVec S8x4 32)
    ∧ after (opsA (F := Ideal)) V (Proc.devRef .tc main_c_1) = ((fun i => lit0 (S8x4.rowMajor i)) : IVec S8x4 32)
    ∧ after (opsA (F := Ideal)) V (Proc.devRef .tc main_c_3) = ((fun i => lit1 (S8x4.rowMajor i)) : IVec S8x4 32)
    ∧ after (opsA (F := Ideal)) V (Proc.devRef .tc main_c_5) = ((fun i => lit2 (S8x4.rowMajor i)) : IVec S8x4 32)
    ∧ after (opsA (F := Ideal)) V (Proc.devRef .tc main_c_7) = ((fun i => lit3 (S8x4.rowMajor i)) : IVec S8x4 32)
    ∧ after (opsA (F := Ideal)) V (Proc.devRef .tc main_c_9) = ((fun i => lit4 (S8x4.rowMajor i)) : IVec S8x4 32)
    ∧ after (opsA (F := Ideal)) V (Proc.devRef .tc main_c_11) = ((fun i => lit5 (S8x4.rowMajor i)) : IVec S8x4 32)
    ∧ after (opsA (F := Ideal)) V (Proc.devRef .tc main_c_13) = ((fun i => lit6 (S8x4.rowMajor i)) : IVec S8x4 32) :=
  ⟨by after_results <;> rfl, by after_results <;> rfl, by after_results <;> rfl, by after_results <;> rfl,
    by after_results <;> rfl, by after_results <;> rfl, by after_results <;> rfl, by after_results <;> rfl⟩

/-- … and the eight masks, all false. -/
theorem segA_masks (V : Valuation τ sig (Elt Ideal)) :
    after (opsA (F := Ideal)) V (Proc.devRef .tc main_c_0) = (constantI S8x4 1 0#1 : IVec S8x4 1)
    ∧ after (opsA (F := Ideal)) V (Proc.devRef .tc main_c_2) = (constantI S8x4 1 0#1 : IVec S8x4 1)
    ∧ after (opsA (F := Ideal)) V (Proc.devRef .tc main_c_4) = (constantI S8x4 1 0#1 : IVec S8x4 1)
    ∧ after (opsA (F := Ideal)) V (Proc.devRef .tc main_c_6) = (constantI S8x4 1 0#1 : IVec S8x4 1)
    ∧ after (opsA (F := Ideal)) V (Proc.devRef .tc main_c_8) = (constantI S8x4 1 0#1 : IVec S8x4 1)
    ∧ after (opsA (F := Ideal)) V (Proc.devRef .tc main_c_10) = (constantI S8x4 1 0#1 : IVec S8x4 1)
    ∧ after (opsA (F := Ideal)) V (Proc.devRef .tc main_c_12) = (constantI S8x4 1 0#1 : IVec S8x4 1)
    ∧ after (opsA (F := Ideal)) V (Proc.devRef .tc main_c_14) = (constantI S8x4 1 0#1 : IVec S8x4 1) :=
  ⟨by after_results <;> rfl, by after_results <;> rfl, by after_results <;> rfl, by after_results <;> rfl,
    by after_results <;> rfl, by after_results <;> rfl, by after_results <;> rfl, by after_results <;> rfl⟩

/-- Layer 1, from contents whose table and mask are the constants: its term of the array so far and the arguments. -/
theorem segL1 (V : Valuation τ sig (Elt Ideal))
    (hT : V (Proc.devRef .tc main_c) = (constantI S8x4 32 0#32 : IVec S8x4 32))
    (hM : V (Proc.devRef .tc main_c_0) = (constantI S8x4 1 0#1 : IVec S8x4 1)) :
    after (opsL1 (F := Ideal)) V (Proc.devRef .tc main_v24)
      = RefLayer.layerTerm1 (V (Proc.devRef .tc main_v10)) (V (Proc.devRef .tc main_arg1)) (V (Proc.devRef .tc main_arg2)) := by
  rw [segL1_any, hT, hM]
  rfl
theorem segL2 (V : Valuation τ sig (Elt Ideal))
    (hT : V (Proc.devRef .tc main_c_1) = ((fun i => lit0 (S8x4.rowMajor i)) : IVec S8x4 32))
    (hM : V (Proc.devRef .tc main_c_2) = (constantI S8x4 1 0#1 : IVec S8x4 1)) :
    after (opsL2 (F := Ideal)) V (Proc.devRef .tc main_v38)
      = RefLayer.layerTerm2 (V (Proc.devRef .tc main_v24)) (V (Proc.devRef .tc main_arg1)) (V (Proc.devRef .tc main_arg2)) := by
  rw [segL2_any, hT, hM]
  rfl
theorem segL3 (V : Valuation τ sig (Elt Ideal))
    (hT : V (Proc.devRef .tc main_c_3) = ((fun i => lit1 (S8x4.rowMajor i)) : IVec S8x4 32))
    (hM : V (Proc.devRef .tc main_c_4) = (constantI S8x4 1 0#1 : IVec S8x4 1)) :
    after (opsL3 (F := Ideal)) V (Proc.devRef .tc main_v52)
      = RefLayer.layerTerm3 (V (Proc.devRef .tc main_v38)) (V (Proc.devRef .tc main_arg1)) (V (Proc.devRef .tc main_arg2)) := by
  rw [segL3_any, hT, hM]
  rfl
theorem segL4 (V : Valuation τ sig (Elt Ideal))
    (hT : V (Proc.devRef .tc main_c_5) = ((fun i => lit2 (S8x4.rowMajor i)) : IVec S8x4 32))
    (hM : V (Proc.devRef .tc main_c_6) = (constantI S8x4 1 0#1 : IVec S8x4 1)) :
    after (opsL4 (F := Ideal)) V (Proc.devRef .tc main_v66)
      = RefLayer.layerTerm4 (V (Proc.devRef .tc main_v52)) (V (Proc.devRef .tc main_arg1)) (V (Proc.devRef .tc main_arg2)) := by
  rw [segL4_any, hT, hM]
  rfl
theorem segL5 (V : Valuation τ sig (Elt Ideal))
    (hT : V (Proc.devRef .tc main_c_7) = ((fun i => lit3 (S8x4.rowMajor i)) : IVec S8x4 32))
    (hM : V (Proc.devRef .tc main_c_8) = (constantI S8x4 1 0#1 : IVec S8x4 1)) :
    after (opsL5 (F := Ideal)) V (Proc.devRef .tc main_v80)
      = RefLayer.layerTerm5 (V (Proc.devRef .tc main_v66)) (V (Proc.devRef .tc main_arg1)) (V (Proc.devRef .tc main_arg2)) := by
  rw [segL5_any, hT, hM]
  rfl
theorem segL6 (V : Valuation τ sig (Elt Ideal))
    (hT : V (Proc.devRef .tc main_c_9) = ((fun i => lit4 (S8x4.rowMajor i)) : IVec S8x4 32))
    (hM : V (Proc.devRef .tc main_c_10) = (constantI S8x4 1 0#1 : IVec S8x4 1)) :
    after (opsL6 (F := Ideal)) V (Proc.devRef .tc main_v94)
      = RefLayer.layerTerm6 (V (Proc.devRef .tc main_v80)) (V (Proc.devRef .tc main_arg1)) (V (Proc.devRef .tc main_arg2)) := by
  rw [segL6_any, hT, hM]
  rfl
theorem segL7 (V : Valuation τ sig (Elt Ideal))
    (hT : V (Proc.devRef .tc main_c_11) = ((fun i => lit5 (S8x4.rowMajor i)) : IVec S8x4 32))
    (hM : V (Proc.devRef .tc main_c_12) = (constantI S8x4 1 0#1 : IVec S8x4 1)) :
    after (opsL7 (F := Ideal)) V (Proc.devRef .tc main_v108)
      = RefLayer.layerTerm7 (V (Proc.devRef .tc main_v94)) (V (Proc.devRef .tc main_arg1)) (V (Proc.devRef .tc main_arg2)) := by
  rw [segL7_any, hT, hM]
  rfl
theorem segL8 (V : Valuation τ sig (Elt Ideal))
    (hT : V (Proc.devRef .tc main_c_13) = ((fun i => lit6 (S8x4.rowMajor i)) : IVec S8x4 32))
    (hM : V (Proc.devRef .tc main_c_14) = (constantI S8x4 1 0#1 : IVec S8x4 1)) :
    after (opsL8 (F := Ideal)) V (Proc.devRef .tc main_v122)
      = RefLayer.layerTerm8 (V (Proc.devRef .tc main_v108)) (V (Proc.devRef .tc main_arg1)) (V (Proc.devRef .tc main_arg2)) := by
  rw [segL8_any, hT, hM]
  rfl

/-- The tail: the last eight slabs of the array of all nodes, summed over the node axis, divided by eight. -/
theorem segT (V : Valuation τ sig (Elt Ideal)) :
    after (opsT (F := Ideal)) V (Proc.devRef .tc main_v126)
      = Host.divf (Host.reduceAdd (F := Ideal)
            (extractStridedSlice S8x4096x128 ![57, 0, 0] (V (Proc.devRef .tc main_v122)) slices_S65x4096x128_S8x4096x128_57_0_0)
            (constant (F := Ideal) S_ .f32 0x00000000#32) reducesTo_S8x4096x128_S4096x128_d0 h_S_)
          (broadcastInDim S4096x128 ![] bcast_S_S4096x128 (constant (F := Ideal) S_ .f32 0x41000000#32)) := by
  after_results <;> rfl

/-! ## The result -/

/-- The array of the nodes so far after the eighth layer, from contents V: the graph's 65 nodes over what V holds at
    the three arguments. Stage by stage the array is the graph's first 1, 9, …, 57 nodes: a layer's term of the first N
    nodes is the first N + 8, the table, the mask and the arguments being after every stage what the prologue left. -/
theorem upto_stages (V : Valuation τ sig (Elt Ideal)) :
    U9 V (Proc.devRef .tc main_v122)
      = uptoArr (V (Proc.devRef .tc main_arg0)) (V (Proc.devRef .tc main_arg1)) (V (Proc.devRef .tc main_arg2)) 65 := by
  have h1 : ∀ r ∈ persList, U1 V (Proc.devRef .tc r) = U1 V (Proc.devRef .tc r) := fun _ _ => rfl
  have h2 : ∀ r ∈ persList, U2 V (Proc.devRef .tc r) = U1 V (Proc.devRef .tc r) := opsL1_agree h1
  have h3 : ∀ r ∈ persList, U3 V (Proc.devRef .tc r) = U1 V (Proc.devRef .tc r) := opsL2_agree h2
  have h4 : ∀ r ∈ persList, U4 V (Proc.devRef .tc r) = U1 V (Proc.devRef .tc r) := opsL3_agree h3
  have h5 : ∀ r ∈ persList, U5 V (Proc.devRef .tc r) = U1 V (Proc.devRef .tc r) := opsL4_agree h4
  have h6 : ∀ r ∈ persList, U6 V (Proc.devRef .tc r) = U1 V (Proc.devRef .tc r) := opsL5_agree h5
  have h7 : ∀ r ∈ persList, U7 V (Proc.devRef .tc r) = U1 V (Proc.devRef .tc r) := opsL6_agree h6
  have h8 : ∀ r ∈ persList, U8 V (Proc.devRef .tc r) = U1 V (Proc.devRef .tc r) := opsL7_agree h7
  have hW : U1 V (Proc.devRef .tc main_arg1) = V (Proc.devRef .tc main_arg1) := (segA_args V).2.1
  have hB : U1 V (Proc.devRef .tc main_arg2) = V (Proc.devRef .tc main_arg2) := (segA_args V).2.2
  obtain ⟨t1, t2, t3, t4, t5, t6, t7, t8⟩ := segA_tabs V
  obtain ⟨k1, k2, k3, k4, k5, k6, k7, k8⟩ := segA_masks V
  have a1 : U1 V (Proc.devRef .tc main_v10) = uptoArr (V (Proc.devRef .tc main_arg0)) (V (Proc.devRef .tc main_arg1)) (V (Proc.devRef .tc main_arg2)) 1 :=
    (segA V).trans (RefLayer.node0Term_eq _ _ _)
  have a2 : U2 V (Proc.devRef .tc main_v24) = uptoArr (V (Proc.devRef .tc main_arg0)) (V (Proc.devRef .tc main_arg1)) (V (Proc.devRef .tc main_arg2)) 9 := by
    rw [show U2 V (Proc.devRef .tc main_v24) = _ from segL1 (U1 V) t1 k1, a1, hW, hB]
    exact RefLayer.layerTerm1_eq _ _ _
  have a3 : U3 V (Proc.devRef .tc main_v38) = uptoArr (V (Proc.devRef .tc main_arg0)) (V (Proc.devRef .tc main_arg1)) (V (Proc.devRef .tc main_arg2)) 17 := by
    rw [show U3 V (Proc.devRef .tc main_v38) = _ from segL2 (U2 V) ((h2 main_c_1 (by decide)).trans t2) ((h2 main_c_2 (by decide)).trans k2),
      a2, (h2 main_arg1 (by decide)).trans hW, (h2 main_arg2 (by decide)).trans hB]
    exact RefLayer.layerTerm2_eq _ _ _
  have a4 : U4 V (Proc.devRef .tc main_v52) = uptoArr (V (Proc.devRef .tc main_arg0)) (V (Proc.devRef .tc main_arg1)) (V (Proc.devRef .tc main_arg2)) 25 := by
    rw [show U4 V (Proc.devRef .tc main_v52) = _ from segL3 (U3 V) ((h3 main_c_3 (by decide)).trans t3) ((h3 main_c_4 (by decide)).trans k3),
      a3, (h3 main_arg1 (by decide)).trans hW, (h3 main_arg2 (by decide)).trans hB]
    exact RefLayer.layerTerm3_eq _ _ _
  have a5 : U5 V (Proc.devRef .tc main_v66) = uptoArr (V (Proc.devRef .tc main_arg0)) (V (Proc.devRef .tc main_arg1)) (V (Proc.devRef .tc main_arg2)) 33 := by
    rw [show U5 V (Proc.devRef .tc main_v66) = _ from segL4 (U4 V) ((h4 main_c_5 (by decide)).trans t4) ((h4 main_c_6 (by decide)).trans k4),
      a4, (h4 main_arg1 (by decide)).trans hW, (h4 main_arg2 (by decide)).trans hB]
    exact RefLayer.layerTerm4_eq _ _ _
  have a6 : U6 V (Proc.devRef .tc main_v80) = uptoArr (V (Proc.devRef .tc main_arg0)) (V (Proc.devRef .tc main_arg1)) (V (Proc.devRef .tc main_arg2)) 41 := by
    rw [show U6 V (Proc.devRef .tc main_v80) = _ from segL5 (U5 V) ((h5 main_c_7 (by decide)).trans t5) ((h5 main_c_8 (by decide)).trans k5),
      a5, (h5 main_arg1 (by decide)).trans hW, (h5 main_arg2 (by decide)).trans hB]
    exact RefLayer.layerTerm5_eq _ _ _
  have a7 : U7 V (Proc.devRef .tc main_v94) = uptoArr (V (Proc.devRef .tc main_arg0)) (V (Proc.devRef .tc main_arg1)) (V (Proc.devRef .tc main_arg2)) 49 := by
    rw [show U7 V (Proc.devRef .tc main_v94) = _ from segL6 (U6 V) ((h6 main_c_9 (by decide)).trans t6) ((h6 main_c_10 (by decide)).trans k6),
      a6, (h6 main_arg1 (by decide)).trans hW, (h6 main_arg2 (by decide)).trans hB]
    exact RefLayer.layerTerm6_eq _ _ _
  have a8 : U8 V (Proc.devRef .tc main_v108) = uptoArr (V (Proc.devRef .tc main_arg0)) (V (Proc.devRef .tc main_arg1)) (V (Proc.devRef .tc main_arg2)) 57 := by
    rw [show U8 V (Proc.devRef .tc main_v108) = _ from segL7 (U7 V) ((h7 main_c_11 (by decide)).trans t7) ((h7 main_c_12 (by decide)).trans k7),
      a7, (h7 main_arg1 (by decide)).trans hW, (h7 main_arg2 (by decide)).trans hB]
    exact RefLayer.layerTerm7_eq _ _ _
  rw [show U9 V (Proc.devRef .tc main_v122) = _ from segL8 (U8 V) ((h8 main_c_13 (by decide)).trans t8) ((h8 main_c_14 (by decide)).trans k8),
    a8, (h8 main_arg1 (by decide)).trans hW, (h8 main_arg2 (by decide)).trans hB]
  exact RefLayer.layerTerm8_eq _ _ _

/-- The result buffer after the whole line, from any contents V: the mean of the last layer of the graph over the
    arguments' contents. -/
theorem result_of (V : Valuation τ sig (Elt Ideal)) :
    after (ops (F := Ideal)) V (Proc.devRef .tc main_v126)
      = Host.divf (Host.reduceAdd (F := Ideal)
            (layerArr (V (Proc.devRef .tc main_arg0)) (V (Proc.devRef .tc main_arg1)) (V (Proc.devRef .tc main_arg2)) 7)
            (constant (F := Ideal) S_ .f32 0x00000000#32) reducesTo_S8x4096x128_S4096x128_d0 h_S_)
          (broadcastInDim S4096x128 ![] bcast_S_S4096x128 (constant (F := Ideal) S_ .f32 0x41000000#32)) := by
  rw [after_ops_eq, show U10 V (Proc.devRef .tc main_v126) = _ from segT (U9 V), upto_stages V, RefLayer.lastSlice_eq]

/-- The result buffer after the whole line, from launch memory m on device c: the mean of the last layer of the graph
    over the three arguments' launch contents. -/
theorem ref_result (m : (ℓ : Loc nD τ sig) → Buf (Elt Ideal) ℓ) (c : Dev nD) :
    StableHlo.after (ops (F := Ideal)) (StableHlo.launchContents m c) (Proc.devRef .tc main_v126)
      = Host.divf (Host.reduceAdd (F := Ideal)
            (layerArr (m ((c.tc : Thread nD τ).loc main_arg0)) (m ((c.tc : Thread nD τ).loc main_arg1))
              (m ((c.tc : Thread nD τ).loc main_arg2)) 7)
            (constant (F := Ideal) S_ .f32 0x00000000#32) reducesTo_S8x4096x128_S4096x128_d0 h_S_)
          (broadcastInDim S4096x128 ![] bcast_S_S4096x128 (constant (F := Ideal) S_ .f32 0x41000000#32)) :=
  result_of (StableHlo.launchContents m c)

/-- Every weakly fair execution of @main at the ideal instance terminates with the result buffer at that mean and the
    three arguments as they were. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v126)
        = Host.divf (Host.reduceAdd (F := Ideal)
            (layerArr (m ((c.tc : Thread nD τ).loc main_arg0)) (m ((c.tc : Thread nD τ).loc main_arg1))
              (m ((c.tc : Thread nD τ).loc main_arg2)) 7)
            (constant (F := Ideal) S_ .f32 0x00000000#32) reducesTo_S8x4096x128_S4096x128_d0 h_S_)
          (broadcastInDim S4096x128 ![] bcast_S_S4096x128 (constant (F := Ideal) S_ .f32 0x41000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v126).trans (ref_result m c),
      (h c main_arg0).trans (kept (StableHlo.launchContents m c)).1,
      (h c main_arg1).trans (kept (StableHlo.launchContents m c)).2.1,
      (h c main_arg2).trans (kept (StableHlo.launchContents m c)).2.2⟩)
    (run m ρ)

end Cert.ReferenceIdeal.Hand

end
-- ==== Proof.lean ====
/-
  A graph network over 65 nodes: node 0 reads the input batch `X` [4096, 128]; every later node sums the values of four
  earlier nodes (a fixed table: eight layers of eight nodes) and each node applies one step to its inbox — the product
  with the transpose of its weight matrix, plus its bias row, clipped below at zero; the result is the mean of the last
  eight nodes. `Cert.Spec` states that function once (`node`, `layerArr`).

  The kernel program computes it in nine pipelined regions over row blocks of 512: region 0 is node 0, region l is layer
  l, each output slab the step applied to `((p0 + p1) + p2) + p3` of four parent blocks, the matrix unit's product into a
  zero accumulator; between regions the host slices, reshapes and transposes; it ends with a sum over the eight slabs
  divided by eight. The reference computes it on the host: per layer a gather of the parents through a constant index
  table, a sum over the four, a batched product, the bias, the clip, and a concatenation onto the nodes so far; it ends with
  the same sum and division. At the ideal instance a change of float format is the identity, the matrix product and the
  host's are the same finite sum, and a sum of four terms in either grouping is the sum over `Fin 4` — addition on the
  extended reals is a commutative monoid, so nothing here needs the inputs to be finite.

  Frames: each region's body is run once at a symbolic grid point; several windows of one region may be the same array,
  whose buffer is then dealt among them by shares and rejoined when the region ends (`Cert.Lib.SharedArrays`); the
  program's run is the chain of host stretches and regions over the buffer contents between them. Value: each region's
  output array is one function of its entry arrays (the blocks cover the array), which layer by layer is `layerArr`;
  the reference's fold, read segment by segment, is the same array; both programs then apply the same last two operations.
-/
import proofs.«135270_j33062658245245_1_alg».proof.Defs
import proofs.«135270_j33062658245245_1_alg».proof.Proof.Gen.Kernel
import proofs.«135270_j33062658245245_1_alg».proof.Proof.Gen.KernelIdeal
import proofs.«135270_j33062658245245_1_alg».proof.Proof.Gen.ReferenceIdeal
import proofs.«135270_j33062658245245_1_alg».proof.Proof.Gen.Pre_finite_inputs
import proofs.«135270_j33062658245245_1_alg».proof.Proof.K.Frame
import proofs.«135270_j33062658245245_1_alg».proof.Proof.KI.RunVal
import proofs.«135270_j33062658245245_1_alg».proof.Proof.KI.Chain
import proofs.«135270_j33062658245245_1_alg».proof.Proof.RefVal
import Idealize.ShloMosaic.Adequacy
import Idealize.ShloMosaic.Init

noncomputable section

namespace Cert.Proof

open Idealize.ShloMosaic Idealize.SL.Sem

/-- The kernel program as printed runs to its end, faults nowhere and leaves its three arguments as launched. -/
theorem frame_k : Cert.frame_Kernel := fun m ρ _ => Cert.Kernel.Hand.frame m ρ

/-- So does its idealization (the same text read over the extended reals). -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Hand.run_value m ρ)

/-- From memories agreeing on the arguments both idealized programs end with the mean of the last layer's eight nodes:
    the kernel's layers region by region, the reference's segment by segment, and the same closing sum and quotient. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Hand.kernel_result m c), (h c).2⟩) (Cert.KernelIdeal.Hand.run_val m ρ), ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
